-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v282)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v282) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v335) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x16 : Shape := ⟨2, ![1600000, 16]⟩
abbrev S100000x32 : Shape := ⟨2, ![100000, 32]⟩
abbrev S2x1600000 : Shape := ⟨2, ![2, 1600000]⟩
abbrev S3x16x64 : Shape := ⟨3, ![3, 16, 64]⟩
abbrev S3x64 : Shape := ⟨2, ![3, 64]⟩
abbrev S3 : Shape := ⟨1, ![3]⟩
abbrev S3x64x64 : Shape := ⟨3, ![3, 64, 64]⟩
abbrev S2x64 : Shape := ⟨2, ![2, 64]⟩
abbrev S32x64 : Shape := ⟨2, ![32, 64]⟩
abbrev S64 : Shape := ⟨1, ![64]⟩
abbrev S64x64 : Shape := ⟨2, ![64, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S100000x32 : S_.BroadcastsInDim S100000x32 (![] : Fin 0 → Fin S100000x32.rank)
  reducesTo_S100000x32_S_d0_1 : S100000x32.ReducesTo [0, 1] S_
  bcast_S_S3x16x64 : S_.BroadcastsInDim S3x16x64 (![] : Fin 0 → Fin S3x16x64.rank)
  reducesTo_S3x16x64_S_d0_1_2 : S3x16x64.ReducesTo [0, 1, 2] S_
  bcast_S_S3x64 : S_.BroadcastsInDim S3x64 (![] : Fin 0 → Fin S3x64.rank)
  reducesTo_S3x64_S_d0_1 : S3x64.ReducesTo [0, 1] S_
  bcast_S_S3 : S_.BroadcastsInDim S3 (![] : Fin 0 → Fin S3.rank)
  reducesTo_S3_S_d0 : S3.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S2x64 : S_.BroadcastsInDim S2x64 (![] : Fin 0 → Fin S2x64.rank)
  reducesTo_S2x64_S_d0_1 : S2x64.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg26 : FVec F S1 .f32) (main_v118 : IVec S_ 1) (main_v119 : FVec F S128x1 .f32) : IVec S_ 1 :=
  let main_cst_46 : FVec F S_ .f32 := constant S_ .f32 0x7F800000#32
  let main_v120 : FVec F S128x1 .f32 := broadcastInDim S128x1 ![] bcast_S_S128x1 main_cst_46
  let main_v121 : IVec S128x1 1 := cmpf .olt main_v119 main_v120
  let main_c_47 : IVec S_ 1 := constantI S_ 1 1#1
  let main_v122 : IVec S_ 1 := (fun x v => Host.reduce IntOp.andi x v reducesTo_S128x1_S_d0_1 h_S_) main_v121 main_c_47
  let main_v123 : IVec S_ 1 := andi main_v118 main_v122
  let main_v124 : FVec F S1 .f32 := Host.absf main_arg26
  let main_cst_48 : FVec F S_ .f32 := constant S_ .f32 0x7F800000#32
  let main_v125 : FVec F S1 .f32 := broadcastInDim S1 ![] bcast_S_S1 main_cst_48
  let main_v126 : IVec S1 1 := cmpf .olt main_v124 main_v125
  let main_c_49 : IVec S_ 1 := constantI S_ 1 1#1
  let main_v127 : IVec S_ 1 := (fun x v => Host.reduce IntOp.andi x v reducesTo_S1_S_d0 h_S_) main_v126 main_c_49
  let main_v128 : IVec S_ 1 := andi main_v123 main_v127
  main_v128

def fn_part6 {F : FTy → Type} [FloatOps F] (main_arg22 : FVec F S128 .f32) (main_arg23 : FVec F S128 .f32) (main_arg24 : FVec F S128 .f32) (main_arg25 : FVec F S128x1 .f32) (main_arg26 : FVec F S1 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128 .f32 := Host.absf main_arg22
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg23
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg24
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x1 .f32 := Host.absf main_arg25
  fn_part7 (F := F) main_arg26 main_v118 main_v119

def fn_part5 {F : FTy → Type} [FloatOps F] (main_arg19 : FVec F S64x64 .f32) (main_arg20 : FVec F S64 .f32) (main_arg21 : FVec F S128x128 .f32) (main_arg22 : FVec F S128 .f32) (main_arg23 : FVec F S128 .f32) (main_arg24 : FVec F S128 .f32) (main_arg25 : FVec F S128x1 .f32) (main_arg26 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x64 .f32 := Host.absf main_arg19
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64 .f32 := Host.absf main_arg20
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S128x128 .f32 := Host.absf main_arg21
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg22 main_arg23 main_arg24 main_arg25 main_arg26 main_v98 main_v101 main_c_39

def fn_part4 {F : FTy → Type} [FloatOps F] (main_arg15 : FVec F S32x64 .f32) (main_arg16 : FVec F S64 .f32) (main_arg17 : FVec F S64 .f32) (main_arg18 : FVec F S64 .f32) (main_arg19 : FVec F S64x64 .f32) (main_arg20 : FVec F S64 .f32) (main_arg21 : FVec F S128x128 .f32) (main_arg22 : FVec F S128 .f32) (main_arg23 : FVec F S128 .f32) (main_arg24 : FVec F S128 .f32) (main_arg25 : FVec F S128x1 .f32) (main_arg26 : FVec F S1 .f32) (main_v63 : IVec S_ 1) (main_v67 : IVec S_ 1) : IVec S_ 1 :=
  let main_v68 : IVec S_ 1 := andi main_v63 main_v67
  let main_v69 : FVec F S32x64 .f32 := Host.absf main_arg15
  let main_cst_26 : FVec F S_ .f32 := constant S_ .f32 0x7F800000#32
  let main_v70 : FVec F S32x64 .f32 := broadcastInDim S32x64 ![] bcast_S_S32x64 main_cst_26
  let main_v71 : IVec S32x64 1 := cmpf .olt main_v69 main_v70
  let main_c_27 : IVec S_ 1 := constantI S_ 1 1#1
  let main_v72 : IVec S_ 1 := (fun x v => Host.reduce IntOp.andi x v reducesTo_S32x64_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_arg19 main_arg20 main_arg21 main_arg22 main_arg23 main_arg24 main_arg25 main_arg26 main_v83 main_v84 main_cst_32

def fn_part3 {F : FTy → Type} [FloatOps F] (main_arg12 : FVec F S3x64 .f32) (main_arg13 : FVec F S2x64 .f32) (main_arg14 : FVec F S2x64 .f32) (main_arg15 : FVec F S32x64 .f32) (main_arg16 : FVec F S64 .f32) (main_arg17 : FVec F S64 .f32) (main_arg18 : FVec F S64 .f32) (main_arg19 : FVec F S64x64 .f32) (main_arg20 : FVec F S64 .f32) (main_arg21 : FVec F S128x128 .f32) (main_arg22 : FVec F S128 .f32) (main_arg23 : FVec F S128 .f32) (main_arg24 : FVec F S128 .f32) (main_arg25 : FVec F S128x1 .f32) (main_arg26 : FVec F S1 .f32) (main_v48 : IVec S_ 1) (main_v49 : FVec F S3x64x64 .f32) (main_v50 : FVec F S3x64x64 .f32) : IVec S_ 1 :=
  let main_v51 : IVec S3x64x64 1 := cmpf .olt main_v49 main_v50
  let main_c_19 : IVec S_ 1 := constantI S_ 1 1#1
  let main_v52 : IVec S_ 1 := (fun x v => Host.reduce IntOp.andi x v reducesTo_S3x64x64_S_d0_1_2 h_S_) main_v51 main_c_19
  let main_v53 : IVec S_ 1 := andi main_v48 main_v52
  let main_v54 : FVec F S3x64 .f32 := Host.absf main_arg12
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S2x64 .f32 := Host.absf main_arg13
  let main_cst_22 : FVec F S_ .f32 := constant S_ .f32 0x7F800000#32
  let main_v60 : FVec F S2x64 .f32 := broadcastInDim S2x64 ![] bcast_S_S2x64 main_cst_22
  let main_v61 : IVec S2x64 1 := cmpf .olt main_v59 main_v60
  let main_c_23 : IVec S_ 1 := constantI S_ 1 1#1
  let main_v62 : IVec S_ 1 := (fun x v => Host.reduce IntOp.andi x v reducesTo_S2x64_S_d0_1 h_S_) main_v61 main_c_23
  let main_v63 : IVec S_ 1 := andi main_v58 main_v62
  let main_v64 : FVec F S2x64 .f32 := Host.absf main_arg14
  let main_cst_24 : FVec F S_ .f32 := constant S_ .f32 0x7F800000#32
  let main_v65 : FVec F S2x64 .f32 := broadcastInDim S2x64 ![] bcast_S_S2x64 main_cst_24
  let main_v66 : IVec S2x64 1 := cmpf .olt main_v64 main_v65
  let main_c_25 : IVec S_ 1 := constantI S_ 1 1#1
  let main_v67 : IVec S_ 1 := (fun x v => Host.reduce IntOp.andi x v reducesTo_S2x64_S_d0_1 h_S_) main_v66 main_c_25
  fn_part4 (F := F) main_arg15 main_arg16 main_arg17 main_arg18 main_arg19 main_arg20 main_arg21 main_arg22 main_arg23 main_arg24 main_arg25 main_arg26 main_v63 main_v67

def fn_part2 {F : FTy → Type} [FloatOps F] (main_arg8 : FVec F S3x64 .f32) (main_arg9 : FVec F S3x64 .f32) (main_arg10 : FVec F S3x64 .f32) (main_arg11 : FVec F S3x64x64 .f32) (main_arg12 : FVec F S3x64 .f32) (main_arg13 : FVec F S2x64 .f32) (main_arg14 : FVec F S2x64 .f32) (main_arg15 : FVec F S32x64 .f32) (main_arg16 : FVec F S64 .f32) (main_arg17 : FVec F S64 .f32) (main_arg18 : FVec F S64 .f32) (main_arg19 : FVec F S64x64 .f32) (main_arg20 : FVec F S64 .f32) (main_arg21 : FVec F S128x128 .f32) (main_arg22 : FVec F S128 .f32) (main_arg23 : FVec F S128 .f32) (main_arg24 : FVec F S128 .f32) (main_arg25 : FVec F S128x1 .f32) (main_arg26 : FVec F S1 .f32) (main_v33 : IVec S_ 1) : IVec S_ 1 :=
  let main_v34 : FVec F S3x64 .f32 := Host.absf main_arg8
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64 .f32 := Host.absf main_arg9
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64 .f32 := Host.absf main_arg10
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x64x64 .f32 := Host.absf main_arg11
  let main_cst_18 : FVec F S_ .f32 := constant S_ .f32 0x7F800000#32
  let main_v50 : FVec F S3x64x64 .f32 := broadcastInDim S3x64x64 ![] bcast_S_S3x64x64 main_cst_18
  fn_part3 (F := F) main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg5 : FVec F S3x64 .f32) (main_arg6 : FVec F S3 .f32) (main_arg7 : FVec F S3x64x64 .f32) (main_arg8 : FVec F S3x64 .f32) (main_arg9 : FVec F S3x64 .f32) (main_arg10 : FVec F S3x64 .f32) (main_arg11 : FVec F S3x64x64 .f32) (main_arg12 : FVec F S3x64 .f32) (main_arg13 : FVec F S2x64 .f32) (main_arg14 : FVec F S2x64 .f32) (main_arg15 : FVec F S32x64 .f32) (main_arg16 : FVec F S64 .f32) (main_arg17 : FVec F S64 .f32) (main_arg18 : FVec F S64 .f32) (main_arg19 : FVec F S64x64 .f32) (main_arg20 : FVec F S64 .f32) (main_arg21 : FVec F S128x128 .f32) (main_arg22 : FVec F S128 .f32) (main_arg23 : FVec F S128 .f32) (main_arg24 : FVec F S128 .f32) (main_arg25 : FVec F S128x1 .f32) (main_arg26 : FVec F S1 .f32) (main_v13 : IVec S_ 1) (main_v16 : IVec S3x16x64 1) : IVec S_ 1 :=
  let main_c_5 : IVec S_ 1 := constantI S_ 1 1#1
  let main_v17 : IVec S_ 1 := (fun x v => Host.reduce IntOp.andi x v reducesTo_S3x16x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3 .f32 := Host.absf main_arg6
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  let main_v29 : FVec F S3x64x64 .f32 := Host.absf main_arg7
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S100000x64 .f32) (main_arg1 : FVec F S1600000x16 .f32) (main_arg2 : FVec F S100000x32 .f32) (main_arg3 : IVec S2x1600000 32) (main_arg4 : FVec F S3x16x64 .f32) (main_arg5 : FVec F S3x64 .f32) (main_arg6 : FVec F S3 .f32) (main_arg7 : FVec F S3x64x64 .f32) (main_arg8 : FVec F S3x64 .f32) (main_arg9 : FVec F S3x64 .f32) (main_arg10 : FVec F S3x64 .f32) (main_arg11 : FVec F S3x64x64 .f32) (main_arg12 : FVec F S3x64 .f32) (main_arg13 : FVec F S2x64 .f32) (main_arg14 : FVec F S2x64 .f32) (main_arg15 : FVec F S32x64 .f32) (main_arg16 : FVec F S64 .f32) (main_arg17 : FVec F S64 .f32) (main_arg18 : FVec F S64 .f32) (main_arg19 : FVec F S64x64 .f32) (main_arg20 : FVec F S64 .f32) (main_arg21 : FVec F S128x128 .f32) (main_arg22 : FVec F S128 .f32) (main_arg23 : FVec F S128 .f32) (main_arg24 : FVec F S128 .f32) (main_arg25 : FVec F S128x1 .f32) (main_arg26 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x16 .f32 := Host.absf main_arg1
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S100000x32 .f32 := Host.absf main_arg2
  let main_cst_2 : FVec F S_ .f32 := constant S_ .f32 0x7F800000#32
  let main_v10 : FVec F S100000x32 .f32 := broadcastInDim S100000x32 ![] bcast_S_S100000x32 main_cst_2
  let main_v11 : IVec S100000x32 1 := cmpf .olt main_v9 main_v10
  let main_c_3 : IVec S_ 1 := constantI S_ 1 1#1
  let main_v12 : IVec S_ 1 := (fun x v => Host.reduce IntOp.andi x v reducesTo_S100000x32_S_d0_1 h_S_) main_v11 main_c_3
  let main_v13 : IVec S_ 1 := andi main_v8 main_v12
  let main_v14 : FVec F S3x16x64 .f32 := Host.absf main_arg4
  let main_cst_4 : FVec F S_ .f32 := constant S_ .f32 0x7F800000#32
  let main_v15 : FVec F S3x16x64 .f32 := broadcastInDim S3x16x64 ![] bcast_S_S3x16x64 main_cst_4
  let main_v16 : IVec S3x16x64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000x64 : Shape := ⟨2, ![100000, 64]⟩
abbrev S1600000x16 : Shape := ⟨2, ![1600000, 16]⟩
abbrev S100000x32 : Shape := ⟨2, ![100000, 32]⟩
abbrev S2x1600000 : Shape := ⟨2, ![2, 1600000]⟩
abbrev S3x16x64 : Shape := ⟨3, ![3, 16, 64]⟩
abbrev S3x64 : Shape := ⟨2, ![3, 64]⟩
abbrev S3 : Shape := ⟨1, ![3]⟩
abbrev S3x64x64 : Shape := ⟨3, ![3, 64, 64]⟩
abbrev S2x64 : Shape := ⟨2, ![2, 64]⟩
abbrev S32x64 : Shape := ⟨2, ![32, 64]⟩
abbrev S64 : Shape := ⟨1, ![64]⟩
abbrev S64x64 : Shape := ⟨2, ![64, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x16x64 : Shape := ⟨3, ![1, 16, 64]⟩
abbrev S16x64 : Shape := ⟨2, ![16, 64]⟩
abbrev S1x64 : Shape := ⟨2, ![1, 64]⟩
abbrev S25000x64 : Shape := ⟨2, ![25000, 64]⟩
abbrev S25000x16 : Shape := ⟨2, ![25000, 16]⟩
abbrev S1x64x64 : Shape := ⟨3, ![1, 64, 64]⟩
abbrev S10000x64 : Shape := ⟨2, ![10000, 64]⟩
abbrev S10000x32 : Shape := ⟨2, ![10000, 32]⟩
abbrev S100000x128 : Shape := ⟨2, ![100000, 128]⟩
abbrev S1x128 : Shape := ⟨2, ![1, 128]⟩
abbrev S10000x128 : Shape := ⟨2, ![10000, 128]⟩
abbrev S1x1 : Shape := ⟨2, ![1, 1]⟩
abbrev S100000x1 : Shape := ⟨2, ![100000, 1]⟩
abbrev S10000x1 : Shape := ⟨2, ![10000, 1]⟩
abbrev S100000 : Shape := ⟨1, ![100000]⟩

abbrev nBuf : Space → Nat
  | .hbm => 511
  | .vmem => 84
  | .smem => 0
  | _ => 0

abbrev hbmTy0_0 (i : Nat) : BufTy := match i % 128 with
  | 0 => ⟨S100000x64, .f32⟩
  | 1 => ⟨S1600000x16, .f32⟩
  | 2 => ⟨S100000x32, .f32⟩
  | 3 => ⟨S2x1600000, .i32⟩
  | 4 => ⟨S3x16x64, .f32⟩
  | 5 => ⟨S3x64, .f32⟩
  | 6 => ⟨S3, .f32⟩
  | 7 => ⟨S3x64x64, .f32⟩
  | 8 => ⟨S3x64, .f32⟩
  | 9 => ⟨S3x64, .f32⟩
  | 10 => ⟨S3x64, .f32⟩
  | 11 => ⟨S3x64x64, .f32⟩
  | 12 => ⟨S3x64, .f32⟩
  | 13 => ⟨S2x64, .f32⟩
  | 14 => ⟨S2x64, .f32⟩
  | 15 => ⟨S32x64, .f32⟩
  | 16 => ⟨S64, .f32⟩
  | 17 => ⟨S64, .f32⟩
  | 18 => ⟨S64, .f32⟩
  | 19 => ⟨S64x64, .f32⟩
  | 20 => ⟨S64, .f32⟩
  | 21 => ⟨S128x128, .f32⟩
  | 22 => ⟨S128, .f32⟩
  | 23 => ⟨S128, .f32⟩
  | 24 => ⟨S128, .f32⟩
  | 25 => ⟨S128x1, .f32⟩
  | 26 => ⟨S1, .f32⟩
  | 27 => ⟨S1x1600000, .i32⟩
  | 28 => ⟨S1600000, .i32⟩
  | 29 => ⟨S1x1600000, .i32⟩
  | 30 => ⟨S1600000, .i32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x64, .f32⟩
  | 40 => ⟨S1x16x64, .f32⟩
  | 41 => ⟨S16x64, .f32⟩
  | 42 => ⟨S1x64, .f32⟩
  | 43 => ⟨S64, .f32⟩
  | 44 => ⟨S1x64, .f32⟩
  | 45 => ⟨S1600000x64, .f32⟩
  | 46 => ⟨S_, .f32⟩
  | 47 => ⟨S100000x64, .f32⟩
  | 48 => ⟨S1600000x1, .i32⟩
  | 49 => ⟨S100000x64, .f32⟩
  | 50 => ⟨S1, .f32⟩
  | 51 => ⟨S_, .f32⟩
  | 52 => ⟨S_, .f32⟩
  | 53 => ⟨S_, .f32⟩
  | 54 => ⟨S100000x64, .f32⟩
  | 55 => ⟨S100000x64, .f32⟩
  | 56 => ⟨S100000x64, .f32⟩
  | 57 => ⟨S1x64x64, .f32⟩
  | 58 => ⟨S64x64, .f32⟩
  | 59 => ⟨S1x64, .f32⟩
  | 60 => ⟨S64, .f32⟩
  | 61 => ⟨S1x64, .f32⟩
  | 62 => ⟨S100000x64, .f32⟩
  | 63 => ⟨S1x64, .f32⟩
  | 64 => ⟨S64, .f32⟩
  | 65 => ⟨S1x64, .f32⟩
  | 66 => ⟨S64, .f32⟩
  | 67 => ⟨S_, .f32⟩
  | 68 => ⟨S64, .f32⟩
  | 69 => ⟨S_, .f32⟩
  | 70 => ⟨S64, .f32⟩
  | 71 => ⟨S64, .f32⟩
  | 72 => ⟨S_, .i32⟩
  | 73 => ⟨S_, .f32⟩
  | 74 => ⟨S64, .f32⟩
  | 75 => ⟨S1x64, .f32⟩
  | 76 => ⟨S_, .f32⟩
  | 77 => ⟨S1x64, .f32⟩
  | 78 => ⟨S1x64, .f32⟩
  | 79 => ⟨S100000x64, .f32⟩
  | 80 => ⟨S100000x64, .f32⟩
  | 81 => ⟨S100000x64, .f32⟩
  | 82 => ⟨S_, .f32⟩
  | 83 => ⟨S_, .f32⟩
  | 84 => ⟨S_, .f32⟩
  | 85 => ⟨S_, .f32⟩
  | 86 => ⟨S64, .f32⟩
  | 87 => ⟨S64, .f32⟩
  | 88 => ⟨S64, .f32⟩
  | 89 => ⟨S_, .f32⟩
  | 90 => ⟨S_, .i1⟩
  | 91 => ⟨S_, .f32⟩
  | 92 => ⟨S_, .f32⟩
  | 93 => ⟨S64, .f32⟩
  | 94 => ⟨S64, .f32⟩
  | 95 => ⟨S_, .f32⟩
  | 96 => ⟨S64, .f32⟩
  | 97 => ⟨S64, .f32⟩
  | 98 => ⟨S64, .f32⟩
  | 99 => ⟨S64, .f32⟩
  | 100 => ⟨S64, .f32⟩
  | 101 => ⟨S64, .f32⟩
  | 102 => ⟨S1x64, .f32⟩
  | 103 => ⟨S100000x64, .f32⟩
  | 104 => ⟨S100000x64, .f32⟩
  | 105 => ⟨S1x64, .f32⟩
  | 106 => ⟨S100000x64, .f32⟩
  | 107 => ⟨S100000x64, .f32⟩
  | 108 => ⟨S_, .f32⟩
  | 109 => ⟨S100000x64, .f32⟩
  | 110 => ⟨S100000x64, .i1⟩
  | 111 => ⟨S_, .f32⟩
  | 112 => ⟨S100000x64, .f32⟩
  | 113 => ⟨S100000x64, .f32⟩
  | 114 => ⟨S100000x64, .f32⟩
  | 115 => ⟨S1x64x64, .f32⟩
  | 116 => ⟨S64x64, .f32⟩
  | 117 => ⟨S1x64, .f32⟩
  | 118 => ⟨S64, .f32⟩
  | 119 => ⟨S1x64, .f32⟩
  | 120 => ⟨S100000x64, .f32⟩
  | 121 => ⟨S1x64, .f32⟩
  | 122 => ⟨S64, .f32⟩
  | 123 => ⟨S1x64, .f32⟩
  | 124 => ⟨S64, .f32⟩
  | 125 => ⟨S_, .f32⟩
  | 126 => ⟨S64, .f32⟩
  | 127 => ⟨S_, .f32⟩
  | _ => ⟨S100000x64, .f32⟩

abbrev hbmTy0_1 (i : Nat) : BufTy := match i % 128 with
  | 0 => ⟨S64, .f32⟩
  | 1 => ⟨S64, .f32⟩
  | 2 => ⟨S_, .i32⟩
  | 3 => ⟨S_, .f32⟩
  | 4 => ⟨S64, .f32⟩
  | 5 => ⟨S1x64, .f32⟩
  | 6 => ⟨S_, .f32⟩
  | 7 => ⟨S1x64, .f32⟩
  | 8 => ⟨S1x64, .f32⟩
  | 9 => ⟨S100000x64, .f32⟩
  | 10 => ⟨S100000x64, .f32⟩
  | 11 => ⟨S100000x64, .f32⟩
  | 12 => ⟨S_, .f32⟩
  | 13 => ⟨S_, .f32⟩
  | 14 => ⟨S_, .f32⟩
  | 15 => ⟨S_, .f32⟩
  | 16 => ⟨S64, .f32⟩
  | 17 => ⟨S64, .f32⟩
  | 18 => ⟨S64, .f32⟩
  | 19 => ⟨S_, .f32⟩
  | 20 => ⟨S_, .i1⟩
  | 21 => ⟨S_, .f32⟩
  | 22 => ⟨S_, .f32⟩
  | 23 => ⟨S64, .f32⟩
  | 24 => ⟨S64, .f32⟩
  | 25 => ⟨S_, .f32⟩
  | 26 => ⟨S64, .f32⟩
  | 27 => ⟨S64, .f32⟩
  | 28 => ⟨S64, .f32⟩
  | 29 => ⟨S64, .f32⟩
  | 30 => ⟨S64, .f32⟩
  | 31 => ⟨S64, .f32⟩
  | 32 => ⟨S1x64, .f32⟩
  | 33 => ⟨S100000x64, .f32⟩
  | 34 => ⟨S100000x64, .f32⟩
  | 35 => ⟨S1x64, .f32⟩
  | 36 => ⟨S100000x64, .f32⟩
  | 37 => ⟨S100000x64, .f32⟩
  | 38 => ⟨S_, .f32⟩
  | 39 => ⟨S100000x64, .f32⟩
  | 40 => ⟨S100000x64, .i1⟩
  | 41 => ⟨S_, .f32⟩
  | 42 => ⟨S100000x64, .f32⟩
  | 43 => ⟨S100000x64, .f32⟩
  | 44 => ⟨S100000x64, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S1x16x64, .f32⟩
  | 55 => ⟨S16x64, .f32⟩
  | 56 => ⟨S1x64, .f32⟩
  | 57 => ⟨S64, .f32⟩
  | 58 => ⟨S1x64, .f32⟩
  | 59 => ⟨S1600000x64, .f32⟩
  | 60 => ⟨S_, .f32⟩
  | 61 => ⟨S100000x64, .f32⟩
  | 62 => ⟨S1600000x1, .i32⟩
  | 63 => ⟨S100000x64, .f32⟩
  | 64 => ⟨S1, .f32⟩
  | 65 => ⟨S_, .f32⟩
  | 66 => ⟨S_, .f32⟩
  | 67 => ⟨S_, .f32⟩
  | 68 => ⟨S100000x64, .f32⟩
  | 69 => ⟨S100000x64, .f32⟩
  | 70 => ⟨S100000x64, .f32⟩
  | 71 => ⟨S1x64x64, .f32⟩
  | 72 => ⟨S64x64, .f32⟩
  | 73 => ⟨S1x64, .f32⟩
  | 74 => ⟨S64, .f32⟩
  | 75 => ⟨S1x64, .f32⟩
  | 76 => ⟨S100000x64, .f32⟩
  | 77 => ⟨S1x64, .f32⟩
  | 78 => ⟨S64, .f32⟩
  | 79 => ⟨S1x64, .f32⟩
  | 80 => ⟨S64, .f32⟩
  | 81 => ⟨S_, .f32⟩
  | 82 => ⟨S64, .f32⟩
  | 83 => ⟨S_, .f32⟩
  | 84 => ⟨S64, .f32⟩
  | 85 => ⟨S64, .f32⟩
  | 86 => ⟨S_, .i32⟩
  | 87 => ⟨S_, .f32⟩
  | 88 => ⟨S64, .f32⟩
  | 89 => ⟨S1x64, .f32⟩
  | 90 => ⟨S_, .f32⟩
  | 91 => ⟨S1x64, .f32⟩
  | 92 => ⟨S1x64, .f32⟩
  | 93 => ⟨S100000x64, .f32⟩
  | 94 => ⟨S100000x64, .f32⟩
  | 95 => ⟨S100000x64, .f32⟩
  | 96 => ⟨S_, .f32⟩
  | 97 => ⟨S_, .f32⟩
  | 98 => ⟨S_, .f32⟩
  | 99 => ⟨S_, .f32⟩
  | 100 => ⟨S64, .f32⟩
  | 101 => ⟨S64, .f32⟩
  | 102 => ⟨S64, .f32⟩
  | 103 => ⟨S_, .f32⟩
  | 104 => ⟨S_, .i1⟩
  | 105 => ⟨S_, .f32⟩
  | 106 => ⟨S_, .f32⟩
  | 107 => ⟨S64, .f32⟩
  | 108 => ⟨S64, .f32⟩
  | 109 => ⟨S_, .f32⟩
  | 110 => ⟨S64, .f32⟩
  | 111 => ⟨S64, .f32⟩
  | 112 => ⟨S64, .f32⟩
  | 113 => ⟨S64, .f32⟩
  | 114 => ⟨S64, .f32⟩
  | 115 => ⟨S64, .f32⟩
  | 116 => ⟨S1x64, .f32⟩
  | 117 => ⟨S100000x64, .f32⟩
  | 118 => ⟨S100000x64, .f32⟩
  | 119 => ⟨S1x64, .f32⟩
  | 120 => ⟨S100000x64, .f32⟩
  | 121 => ⟨S100000x64, .f32⟩
  | 122 => ⟨S_, .f32⟩
  | 123 => ⟨S100000x64, .f32⟩
  | 124 => ⟨S100000x64, .i1⟩
  | 125 => ⟨S_, .f32⟩
  | 126 => ⟨S100000x64, .f32⟩
  | 127 => ⟨S100000x64, .f32⟩
  | _ => ⟨S100000x64, .f32⟩

abbrev hbmTy0_2 (i : Nat) : BufTy := match i % 128 with
  | 0 => ⟨S100000x64, .f32⟩
  | 1 => ⟨S1x64x64, .f32⟩
  | 2 => ⟨S64x64, .f32⟩
  | 3 => ⟨S1x64, .f32⟩
  | 4 => ⟨S64, .f32⟩
  | 5 => ⟨S1x64, .f32⟩
  | 6 => ⟨S100000x64, .f32⟩
  | 7 => ⟨S1x64, .f32⟩
  | 8 => ⟨S64, .f32⟩
  | 9 => ⟨S1x64, .f32⟩
  | 10 => ⟨S64, .f32⟩
  | 11 => ⟨S_, .f32⟩
  | 12 => ⟨S64, .f32⟩
  | 13 => ⟨S_, .f32⟩
  | 14 => ⟨S64, .f32⟩
  | 15 => ⟨S64, .f32⟩
  | 16 => ⟨S_, .i32⟩
  | 17 => ⟨S_, .f32⟩
  | 18 => ⟨S64, .f32⟩
  | 19 => ⟨S1x64, .f32⟩
  | 20 => ⟨S_, .f32⟩
  | 21 => ⟨S1x64, .f32⟩
  | 22 => ⟨S1x64, .f32⟩
  | 23 => ⟨S100000x64, .f32⟩
  | 24 => ⟨S100000x64, .f32⟩
  | 25 => ⟨S100000x64, .f32⟩
  | 26 => ⟨S_, .f32⟩
  | 27 => ⟨S_, .f32⟩
  | 28 => ⟨S_, .f32⟩
  | 29 => ⟨S_, .f32⟩
  | 30 => ⟨S64, .f32⟩
  | 31 => ⟨S64, .f32⟩
  | 32 => ⟨S64, .f32⟩
  | 33 => ⟨S_, .f32⟩
  | 34 => ⟨S_, .i1⟩
  | 35 => ⟨S_, .f32⟩
  | 36 => ⟨S_, .f32⟩
  | 37 => ⟨S64, .f32⟩
  | 38 => ⟨S64, .f32⟩
  | 39 => ⟨S_, .f32⟩
  | 40 => ⟨S64, .f32⟩
  | 41 => ⟨S64, .f32⟩
  | 42 => ⟨S64, .f32⟩
  | 43 => ⟨S64, .f32⟩
  | 44 => ⟨S64, .f32⟩
  | 45 => ⟨S64, .f32⟩
  | 46 => ⟨S1x64, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S_, .f32⟩
  | 53 => ⟨S100000x64, .f32⟩
  | 54 => ⟨S100000x64, .i1⟩
  | 55 => ⟨S_, .f32⟩
  | 56 => ⟨S100000x64, .f32⟩
  | 57 => ⟨S100000x64, .f32⟩
  | 58 => ⟨S100000x64, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x64, .f32⟩
  | 68 => ⟨S1x16x64, .f32⟩
  | 69 => ⟨S16x64, .f32⟩
  | 70 => ⟨S1x64, .f32⟩
  | 71 => ⟨S64, .f32⟩
  | 72 => ⟨S1x64, .f32⟩
  | 73 => ⟨S1600000x64, .f32⟩
  | 74 => ⟨S_, .f32⟩
  | 75 => ⟨S100000x64, .f32⟩
  | 76 => ⟨S1600000x1, .i32⟩
  | 77 => ⟨S100000x64, .f32⟩
  | 78 => ⟨S1, .f32⟩
  | 79 => ⟨S_, .f32⟩
  | 80 => ⟨S_, .f32⟩
  | 81 => ⟨S_, .f32⟩
  | 82 => ⟨S100000x64, .f32⟩
  | 83 => ⟨S100000x64, .f32⟩
  | 84 => ⟨S100000x64, .f32⟩
  | 85 => ⟨S1x64x64, .f32⟩
  | 86 => ⟨S64x64, .f32⟩
  | 87 => ⟨S1x64, .f32⟩
  | 88 => ⟨S64, .f32⟩
  | 89 => ⟨S1x64, .f32⟩
  | 90 => ⟨S100000x64, .f32⟩
  | 91 => ⟨S1x64, .f32⟩
  | 92 => ⟨S64, .f32⟩
  | 93 => ⟨S1x64, .f32⟩
  | 94 => ⟨S64, .f32⟩
  | 95 => ⟨S_, .f32⟩
  | 96 => ⟨S64, .f32⟩
  | 97 => ⟨S_, .f32⟩
  | 98 => ⟨S64, .f32⟩
  | 99 => ⟨S64, .f32⟩
  | 100 => ⟨S_, .i32⟩
  | 101 => ⟨S_, .f32⟩
  | 102 => ⟨S64, .f32⟩
  | 103 => ⟨S1x64, .f32⟩
  | 104 => ⟨S_, .f32⟩
  | 105 => ⟨S1x64, .f32⟩
  | 106 => ⟨S1x64, .f32⟩
  | 107 => ⟨S100000x64, .f32⟩
  | 108 => ⟨S100000x64, .f32⟩
  | 109 => ⟨S100000x64, .f32⟩
  | 110 => ⟨S_, .f32⟩
  | 111 => ⟨S_, .f32⟩
  | 112 => ⟨S_, .f32⟩
  | 113 => ⟨S_, .f32⟩
  | 114 => ⟨S64, .f32⟩
  | 115 => ⟨S64, .f32⟩
  | 116 => ⟨S64, .f32⟩
  | 117 => ⟨S_, .f32⟩
  | 118 => ⟨S_, .i1⟩
  | 119 => ⟨S_, .f32⟩
  | 120 => ⟨S_, .f32⟩
  | 121 => ⟨S64, .f32⟩
  | 122 => ⟨S64, .f32⟩
  | 123 => ⟨S_, .f32⟩
  | 124 => ⟨S64, .f32⟩
  | 125 => ⟨S64, .f32⟩
  | 126 => ⟨S64, .f32⟩
  | 127 => ⟨S64, .f32⟩
  | _ => ⟨S100000x64, .f32⟩

abbrev hbmTy0_3 (i : Nat) : BufTy := match i % 128 with
  | 0 => ⟨S64, .f32⟩
  | 1 => ⟨S64, .f32⟩
  | 2 => ⟨S1x64, .f32⟩
  | 3 => ⟨S100000x64, .f32⟩
  | 4 => ⟨S100000x64, .f32⟩
  | 5 => ⟨S1x64, .f32⟩
  | 6 => ⟨S100000x64, .f32⟩
  | 7 => ⟨S100000x64, .f32⟩
  | 8 => ⟨S_, .f32⟩
  | 9 => ⟨S100000x64, .f32⟩
  | 10 => ⟨S100000x64, .i1⟩
  | 11 => ⟨S_, .f32⟩
  | 12 => ⟨S100000x64, .f32⟩
  | 13 => ⟨S100000x64, .f32⟩
  | 14 => ⟨S100000x64, .f32⟩
  | 15 => ⟨S1x64x64, .f32⟩
  | 16 => ⟨S64x64, .f32⟩
  | 17 => ⟨S1x64, .f32⟩
  | 18 => ⟨S64, .f32⟩
  | 19 => ⟨S1x64, .f32⟩
  | 20 => ⟨S100000x64, .f32⟩
  | 21 => ⟨S1x64, .f32⟩
  | 22 => ⟨S100000x64, .f32⟩
  | 23 => ⟨S_, .f32⟩
  | 24 => ⟨S64, .f32⟩
  | 25 => ⟨S_, .f32⟩
  | 26 => ⟨S64, .f32⟩
  | 27 => ⟨S64, .f32⟩
  | 28 => ⟨S_, .i32⟩
  | 29 => ⟨S_, .f32⟩
  | 30 => ⟨S64, .f32⟩
  | 31 => ⟨S1x64, .f32⟩
  | 32 => ⟨S_, .f32⟩
  | 33 => ⟨S1x64, .f32⟩
  | 34 => ⟨S1x64, .f32⟩
  | 35 => ⟨S100000x64, .f32⟩
  | 36 => ⟨S100000x64, .f32⟩
  | 37 => ⟨S100000x64, .f32⟩
  | 38 => ⟨S_, .f32⟩
  | 39 => ⟨S_, .f32⟩
  | 40 => ⟨S_, .f32⟩
  | 41 => ⟨S_, .f32⟩
  | 42 => ⟨S64, .f32⟩
  | 43 => ⟨S64, .f32⟩
  | 44 => ⟨S64, .f32⟩
  | 45 => ⟨S_, .f32⟩
  | 46 => ⟨S_, .i1⟩
  | 47 => ⟨S_, .f32⟩
  | 48 => ⟨S_, .f32⟩
  | 49 => ⟨S64, .f32⟩
  | 50 => ⟨S64, .f32⟩
  | 51 => ⟨S_, .f32⟩
  | 52 => ⟨S64, .f32⟩
  | 53 => ⟨S64, .f32⟩
  | 54 => ⟨S64, .f32⟩
  | 55 => ⟨S64, .f32⟩
  | 56 => ⟨S64, .f32⟩
  | 57 => ⟨S64, .f32⟩
  | 58 => ⟨S1x64, .f32⟩
  | 59 => ⟨S100000x64, .f32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S100000x64, .f32⟩
  | 66 => ⟨S100000x64, .i1⟩
  | 67 => ⟨S_, .f32⟩
  | 68 => ⟨S100000x64, .f32⟩
  | 69 => ⟨S100000x64, .f32⟩
  | 70 => ⟨S100000x64, .f32⟩
  | 71 => ⟨S1x64, .f32⟩
  | 72 => ⟨S100000x64, .f32⟩
  | 73 => ⟨S100000x128, .f32⟩
  | 74 => ⟨S1x128, .f32⟩
  | 75 => ⟨S100000x128, .f32⟩
  | 76 => ⟨S_, .f32⟩
  | 77 => ⟨S128, .f32⟩
  | 78 => ⟨S_, .f32⟩
  | 79 => ⟨S128, .f32⟩
  | 80 => ⟨S128, .f32⟩
  | 81 => ⟨S_, .i32⟩
  | 82 => ⟨S_, .f32⟩
  | 83 => ⟨S128, .f32⟩
  | 84 => ⟨S1x128, .f32⟩
  | 85 => ⟨S_, .f32⟩
  | 86 => ⟨S1x128, .f32⟩
  | 87 => ⟨S1x128, .f32⟩
  | 88 => ⟨S100000x128, .f32⟩
  | 89 => ⟨S100000x128, .f32⟩
  | 90 => ⟨S100000x128, .f32⟩
  | 91 => ⟨S_, .f32⟩
  | 92 => ⟨S_, .f32⟩
  | 93 => ⟨S_, .f32⟩
  | 94 => ⟨S_, .f32⟩
  | 95 => ⟨S128, .f32⟩
  | 96 => ⟨S128, .f32⟩
  | 97 => ⟨S128, .f32⟩
  | 98 => ⟨S_, .f32⟩
  | 99 => ⟨S_, .i1⟩
  | 100 => ⟨S_, .f32⟩
  | 101 => ⟨S_, .f32⟩
  | 102 => ⟨S128, .f32⟩
  | 103 => ⟨S128, .f32⟩
  | 104 => ⟨S_, .f32⟩
  | 105 => ⟨S128, .f32⟩
  | 106 => ⟨S128, .f32⟩
  | 107 => ⟨S128, .f32⟩
  | 108 => ⟨S128, .f32⟩
  | 109 => ⟨S128, .f32⟩
  | 110 => ⟨S128, .f32⟩
  | 111 => ⟨S1x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .i1⟩
  | 120 => ⟨S_, .f32⟩
  | 121 => ⟨S100000x128, .f32⟩
  | 122 => ⟨S100000x128, .f32⟩
  | 123 => ⟨S100000x128, .f32⟩
  | 124 => ⟨S1x1, .f32⟩
  | 125 => ⟨S100000x1, .f32⟩
  | 126 => ⟨S100000, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | .local _ .vmem, ⟨0, _⟩ => ⟨S25000x64, .f32⟩
  | .local _ .vmem, ⟨1, _⟩ => ⟨S25000x64, .f32⟩
  | .local _ .vmem, ⟨2, _⟩ => ⟨S25000x16, .f32⟩
  | .local _ .vmem, ⟨3, _⟩ => ⟨S25000x16, .f32⟩
  | .local _ .vmem, ⟨4, _⟩ => ⟨S16x64, .f32⟩
  | .local _ .vmem, ⟨5, _⟩ => ⟨S1x64, .f32⟩
  | .local _ .vmem, ⟨6, _⟩ => ⟨S25000x64, .f32⟩
  | .local _ .vmem, ⟨7, _⟩ => ⟨S25000x64, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S25000x64, .f32⟩
  | .local _ .vmem, ⟨21, _⟩ => ⟨S25000x64, .f32⟩
  | .local _ .vmem, ⟨22, _⟩ => ⟨S25000x16, .f32⟩
  | .local _ .vmem, ⟨23, _⟩ => ⟨S25000x16, .f32⟩
  | .local _ .vmem, ⟨24, _⟩ => ⟨S16x64, .f32⟩
  | .local _ .vmem, ⟨25, _⟩ => ⟨S1x64, .f32⟩
  | .local _ .vmem, ⟨26, _⟩ => ⟨S25000x64, .f32⟩
  | .local _ .vmem, ⟨27, _⟩ => ⟨S25000x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S1x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S64x64, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | .local _ .vmem, ⟨40, _⟩ => ⟨S25000x64, .f32⟩
  | .local _ .vmem, ⟨41, _⟩ => ⟨S25000x64, .f32⟩
  | .local _ .vmem, ⟨42, _⟩ => ⟨S25000x16, .f32⟩
  | .local _ .vmem, ⟨43, _⟩ => ⟨S25000x16, .f32⟩
  | .local _ .vmem, ⟨44, _⟩ => ⟨S16x64, .f32⟩
  | .local _ .vmem, ⟨45, _⟩ => ⟨S1x64, .f32⟩
  | .local _ .vmem, ⟨46, _⟩ => ⟨S25000x64, .f32⟩
  | .local _ .vmem, ⟨47, _⟩ => ⟨S25000x64, .f32⟩
  | .local _ .vmem, ⟨48, _⟩ => ⟨S10000x64, .f32⟩
  | .local _ .vmem, ⟨49, _⟩ => ⟨S10000x64, .f32⟩
  | .local _ .vmem, ⟨50, _⟩ => ⟨S64x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | .local _ .vmem, ⟨54, _⟩ => ⟨S10000x64, .f32⟩
  | .local _ .vmem, ⟨55, _⟩ => ⟨S10000x64, .f32⟩
  | .local _ .vmem, ⟨56, _⟩ => ⟨S64x64, .f32⟩
  | .local _ .vmem, ⟨57, _⟩ => ⟨S1x64, .f32⟩
  | .local _ .vmem, ⟨58, _⟩ => ⟨S10000x64, .f32⟩
  | .local _ .vmem, ⟨59, _⟩ => ⟨S10000x64, .f32⟩
  | .local _ .vmem, ⟨60, _⟩ => ⟨S10000x32, .f32⟩
  | .local _ .vmem, ⟨61, _⟩ => ⟨S10000x32, .f32⟩
  | .local _ .vmem, ⟨62, _⟩ => ⟨S32x64, .f32⟩
  | .local _ .vmem, ⟨63, _⟩ => ⟨S1x64, .f32⟩
  | .local _ .vmem, ⟨64, _⟩ => ⟨S10000x64, .f32⟩
  | .local _ .vmem, ⟨65, _⟩ => ⟨S10000x64, .f32⟩
  | .local _ .vmem, ⟨66, _⟩ => ⟨S10000x64, .f32⟩
  | .local _ .vmem, ⟨67, _⟩ => ⟨S10000x64, .f32⟩
  | .local _ .vmem, ⟨68, _⟩ => ⟨S64x64, .f32⟩
  | .local _ .vmem, ⟨69, _⟩ => ⟨S1x64, .f32⟩
  | .local _ .vmem, ⟨70, _⟩ => ⟨S10000x64, .f32⟩
  | .local _ .vmem, ⟨71, _⟩ => ⟨S10000x64, .f32⟩
  | .local _ .vmem, ⟨72, _⟩ => ⟨S10000x128, .f32⟩
  | .local _ .vmem, ⟨73, _⟩ => ⟨S10000x128, .f32⟩
  | .local _ .vmem, ⟨74, _⟩ => ⟨S128x128, .f32⟩
  | .local _ .vmem, ⟨75, _⟩ => ⟨S1x128, .f32⟩
  | .local _ .vmem, ⟨76, _⟩ => ⟨S10000x128, .f32⟩
  | .local _ .vmem, ⟨77, _⟩ => ⟨S10000x128, .f32⟩
  | .local _ .vmem, ⟨78, _⟩ => ⟨S10000x128, .f32⟩
  | .local _ .vmem, ⟨79, _⟩ => ⟨S10000x128, .f32⟩
  | .local _ .vmem, ⟨80, _⟩ => ⟨S128x1, .f32⟩
  | .local _ .vmem, ⟨81, _⟩ => ⟨S1x1, .f32⟩
  | .local _ .vmem, ⟨82, _⟩ => ⟨S10000x1, .f32⟩
  | .local _ .vmem, ⟨83, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_1 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_2 : Ref sig .tc := ⟨.hbm, 67, rfl⟩
abbrev main_v36 : Ref sig .tc := ⟨.hbm, 68, rfl⟩
abbrev main_cst_3 : Ref sig .tc := ⟨.hbm, 69, rfl⟩
abbrev main_v37 : Ref sig .tc := ⟨.hbm, 70, rfl⟩
abbrev main_v38 : Ref sig .tc := ⟨.hbm, 71, rfl⟩
abbrev main_c_4 : Ref sig .tc := ⟨.hbm, 72, rfl⟩
abbrev main_call0_cst : Ref sig .tc := ⟨.hbm, 73, rfl⟩
abbrev main_call0_v0 : Ref sig .tc := ⟨.hbm, 74, rfl⟩
abbrev main_call0_v1 : Ref sig .tc := ⟨.hbm, 75, rfl⟩
abbrev main_call0_cst_0 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_v5 : Ref sig .tc := ⟨.hbm, 80, rfl⟩
abbrev main_call0_v6 : Ref sig .tc := ⟨.hbm, 81, rfl⟩
abbrev main_call0_v7 : Ref sig .tc := ⟨.hbm, 82, rfl⟩
abbrev main_call0_cst_1 : Ref sig .tc := ⟨.hbm, 83, rfl⟩
abbrev main_call0_v8 : Ref sig .tc := ⟨.hbm, 84, rfl⟩
abbrev main_call0_cst_2 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_call0_cst_3 : Ref sig .tc := ⟨.hbm, 89, rfl⟩
abbrev main_call0_v12 : Ref sig .tc := ⟨.hbm, 90, rfl⟩
abbrev main_call0_cst_4 : Ref sig .tc := ⟨.hbm, 91, rfl⟩
abbrev main_call0_call0_v0 : Ref sig .tc := ⟨.hbm, 92, rfl⟩
abbrev main_call0_call0_v1 : Ref sig .tc := ⟨.hbm, 93, rfl⟩
abbrev main_v39 : Ref sig .tc := ⟨.hbm, 94, rfl⟩
abbrev main_cst_5 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_cst_6 : Ref sig .tc := ⟨.hbm, 108, rfl⟩
abbrev main_v52 : Ref sig .tc := ⟨.hbm, 109, rfl⟩
abbrev main_v53 : Ref sig .tc := ⟨.hbm, 110, rfl⟩
abbrev main_cst_7 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_cst_8 : Ref sig .tc := ⟨.hbm, 125, rfl⟩
abbrev main_v67 : Ref sig .tc := ⟨.hbm, 126, rfl⟩
abbrev main_cst_9 : Ref sig .tc := ⟨.hbm, 127, rfl⟩
abbrev main_v68 : Ref sig .tc := ⟨.hbm, 128, rfl⟩
abbrev main_v69 : Ref sig .tc := ⟨.hbm, 129, rfl⟩
abbrev main_c_10 : Ref sig .tc := ⟨.hbm, 130, rfl⟩
abbrev main_call2_cst : Ref sig .tc := ⟨.hbm, 131, rfl⟩
abbrev main_call2_v0 : Ref sig .tc := ⟨.hbm, 132, rfl⟩
abbrev main_call2_v1 : Ref sig .tc := ⟨.hbm, 133, rfl⟩
abbrev main_call2_cst_0 : Ref sig .tc := ⟨.hbm, 134, rfl⟩
abbrev main_call2_v2 : Ref sig .tc := ⟨.hbm, 135, rfl⟩
abbrev main_call2_v3 : Ref sig .tc := ⟨.hbm, 136, rfl⟩
abbrev main_call2_v4 : Ref sig .tc := ⟨.hbm, 137, rfl⟩
abbrev main_call2_v5 : Ref sig .tc := ⟨.hbm, 138, rfl⟩
abbrev main_call2_v6 : Ref sig .tc := ⟨.hbm, 139, rfl⟩
abbrev main_call2_v7 : Ref sig .tc := ⟨.hbm, 140, rfl⟩
abbrev main_call2_cst_1 : Ref sig .tc := ⟨.hbm, 141, rfl⟩
abbrev main_call2_v8 : Ref sig .tc := ⟨.hbm, 142, rfl⟩
abbrev main_call2_cst_2 : Ref sig .tc := ⟨.hbm, 143, rfl⟩
abbrev main_call2_v9 : Ref sig .tc := ⟨.hbm, 144, rfl⟩
abbrev main_call2_v10 : Ref sig .tc := ⟨.hbm, 145, rfl⟩
abbrev main_call2_v11 : Ref sig .tc := ⟨.hbm, 146, rfl⟩
abbrev main_call2_cst_3 : Ref sig .tc := ⟨.hbm, 147, rfl⟩
abbrev main_call2_v12 : Ref sig .tc := ⟨.hbm, 148, rfl⟩
abbrev main_call2_cst_4 : Ref sig .tc := ⟨.hbm, 149, rfl⟩
abbrev main_call2_call0_v0 : Ref sig .tc := ⟨.hbm, 150, rfl⟩
abbrev main_call2_call0_v1 : Ref sig .tc := ⟨.hbm, 151, rfl⟩
abbrev main_v70 : Ref sig .tc := ⟨.hbm, 152, rfl⟩
abbrev main_cst_11 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_cst_12 : Ref sig .tc := ⟨.hbm, 166, rfl⟩
abbrev main_v83 : Ref sig .tc := ⟨.hbm, 167, rfl⟩
abbrev main_v84 : Ref sig .tc := ⟨.hbm, 168, rfl⟩
abbrev main_cst_13 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_c_14 : Ref sig .tc := ⟨.hbm, 173, rfl⟩
abbrev main_v88 : Ref sig .tc := ⟨.hbm, 174, rfl⟩
abbrev main_v89 : Ref sig .tc := ⟨.hbm, 175, rfl⟩
abbrev main_c_15 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_cst_16 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_cst_17 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_cst_18 : Ref sig .tc := ⟨.hbm, 209, rfl⟩
abbrev main_v120 : Ref sig .tc := ⟨.hbm, 210, rfl⟩
abbrev main_cst_19 : Ref sig .tc := ⟨.hbm, 211, rfl⟩
abbrev main_v121 : Ref sig .tc := ⟨.hbm, 212, rfl⟩
abbrev main_v122 : Ref sig .tc := ⟨.hbm, 213, rfl⟩
abbrev main_c_20 : Ref sig .tc := ⟨.hbm, 214, rfl⟩
abbrev main_call4_cst : Ref sig .tc := ⟨.hbm, 215, rfl⟩
abbrev main_call4_v0 : Ref sig .tc := ⟨.hbm, 216, rfl⟩
abbrev main_call4_v1 : Ref sig .tc := ⟨.hbm, 217, rfl⟩
abbrev main_call4_cst_0 : Ref sig .tc := ⟨.hbm, 218, rfl⟩
abbrev main_call4_v2 : Ref sig .tc := ⟨.hbm, 219, rfl⟩
abbrev main_call4_v3 : Ref sig .tc := ⟨.hbm, 220, rfl⟩
abbrev main_call4_v4 : Ref sig .tc := ⟨.hbm, 221, rfl⟩
abbrev main_call4_v5 : Ref sig .tc := ⟨.hbm, 222, rfl⟩
abbrev main_call4_v6 : Ref sig .tc := ⟨.hbm, 223, rfl⟩
abbrev main_call4_v7 : Ref sig .tc := ⟨.hbm, 224, rfl⟩
abbrev main_call4_cst_1 : Ref sig .tc := ⟨.hbm, 225, rfl⟩
abbrev main_call4_v8 : Ref sig .tc := ⟨.hbm, 226, rfl⟩
abbrev main_call4_cst_2 : Ref sig .tc := ⟨.hbm, 227, rfl⟩
abbrev main_call4_v9 : Ref sig .tc := ⟨.hbm, 228, rfl⟩
abbrev main_call4_v10 : Ref sig .tc := ⟨.hbm, 229, rfl⟩
abbrev main_call4_v11 : Ref sig .tc := ⟨.hbm, 230, rfl⟩
abbrev main_call4_cst_3 : Ref sig .tc := ⟨.hbm, 231, rfl⟩
abbrev main_call4_v12 : Ref sig .tc := ⟨.hbm, 232, rfl⟩
abbrev main_call4_cst_4 : Ref sig .tc := ⟨.hbm, 233, rfl⟩
abbrev main_call4_call0_v0 : Ref sig .tc := ⟨.hbm, 234, rfl⟩
abbrev main_call4_call0_v1 : Ref sig .tc := ⟨.hbm, 235, rfl⟩
abbrev main_v123 : Ref sig .tc := ⟨.hbm, 236, rfl⟩
abbrev main_cst_21 : Ref sig .tc := ⟨.hbm, 237, rfl⟩
abbrev main_v124 : Ref sig .tc := ⟨.hbm, 238, rfl⟩
abbrev main_v125 : Ref sig .tc := ⟨.hbm, 239, rfl⟩
abbrev main_v126 : Ref sig .tc := ⟨.hbm, 240, rfl⟩
abbrev main_v127 : Ref sig .tc := ⟨.hbm, 241, rfl⟩
abbrev main_v128 : Ref sig .tc := ⟨.hbm, 242, rfl⟩
abbrev main_v129 : Ref sig .tc := ⟨.hbm, 243, rfl⟩
abbrev main_v130 : Ref sig .tc := ⟨.hbm, 244, rfl⟩
abbrev main_v131 : Ref sig .tc := ⟨.hbm, 245, rfl⟩
abbrev main_v132 : Ref sig .tc := ⟨.hbm, 246, rfl⟩
abbrev main_v133 : Ref sig .tc := ⟨.hbm, 247, rfl⟩
abbrev main_v134 : Ref sig .tc := ⟨.hbm, 248, rfl⟩
abbrev main_v135 : Ref sig .tc := ⟨.hbm, 249, rfl⟩
abbrev main_cst_22 : Ref sig .tc := ⟨.hbm, 250, rfl⟩
abbrev main_v136 : Ref sig .tc := ⟨.hbm, 251, rfl⟩
abbrev main_v137 : Ref sig .tc := ⟨.hbm, 252, rfl⟩
abbrev main_cst_23 : Ref sig .tc := ⟨.hbm, 253, rfl⟩
abbrev main_v138 : Ref sig .tc := ⟨.hbm, 254, rfl⟩
abbrev main_v139 : Ref sig .tc := ⟨.hbm, 255, rfl⟩
abbrev main_v140 : Ref sig .tc := ⟨.hbm, 256, rfl⟩
abbrev main_v141 : Ref sig .tc := ⟨.hbm, 257, rfl⟩
abbrev main_v142 : Ref sig .tc := ⟨.hbm, 258, rfl⟩
abbrev main_v143 : Ref sig .tc := ⟨.hbm, 259, rfl⟩
abbrev main_v144 : Ref sig .tc := ⟨.hbm, 260, rfl⟩
abbrev main_v145 : Ref sig .tc := ⟨.hbm, 261, rfl⟩
abbrev main_v146 : Ref sig .tc := ⟨.hbm, 262, rfl⟩
abbrev main_v147 : Ref sig .tc := ⟨.hbm, 263, rfl⟩
abbrev main_v148 : Ref sig .tc := ⟨.hbm, 264, rfl⟩
abbrev main_v149 : Ref sig .tc := ⟨.hbm, 265, rfl⟩
abbrev main_v150 : Ref sig .tc := ⟨.hbm, 266, rfl⟩
abbrev main_cst_24 : Ref sig .tc := ⟨.hbm, 267, rfl⟩
abbrev main_v151 : Ref sig .tc := ⟨.hbm, 268, rfl⟩
abbrev main_cst_25 : Ref sig .tc := ⟨.hbm, 269, rfl⟩
abbrev main_v152 : Ref sig .tc := ⟨.hbm, 270, rfl⟩
abbrev main_v153 : Ref sig .tc := ⟨.hbm, 271, rfl⟩
abbrev main_c_26 : Ref sig .tc := ⟨.hbm, 272, rfl⟩
abbrev main_call6_cst : Ref sig .tc := ⟨.hbm, 273, rfl⟩
abbrev main_call6_v0 : Ref sig .tc := ⟨.hbm, 274, rfl⟩
abbrev main_call6_v1 : Ref sig .tc := ⟨.hbm, 275, rfl⟩
abbrev main_call6_cst_0 : Ref sig .tc := ⟨.hbm, 276, rfl⟩
abbrev main_call6_v2 : Ref sig .tc := ⟨.hbm, 277, rfl⟩
abbrev main_call6_v3 : Ref sig .tc := ⟨.hbm, 278, rfl⟩
abbrev main_call6_v4 : Ref sig .tc := ⟨.hbm, 279, rfl⟩
abbrev main_call6_v5 : Ref sig .tc := ⟨.hbm, 280, rfl⟩
abbrev main_call6_v6 : Ref sig .tc := ⟨.hbm, 281, rfl⟩
abbrev main_call6_v7 : Ref sig .tc := ⟨.hbm, 282, rfl⟩
abbrev main_call6_cst_1 : Ref sig .tc := ⟨.hbm, 283, rfl⟩
abbrev main_call6_v8 : Ref sig .tc := ⟨.hbm, 284, rfl⟩
abbrev main_call6_cst_2 : Ref sig .tc := ⟨.hbm, 285, rfl⟩
abbrev main_call6_v9 : Ref sig .tc := ⟨.hbm, 286, rfl⟩
abbrev main_call6_v10 : Ref sig .tc := ⟨.hbm, 287, rfl⟩
abbrev main_call6_v11 : Ref sig .tc := ⟨.hbm, 288, rfl⟩
abbrev main_call6_cst_3 : Ref sig .tc := ⟨.hbm, 289, rfl⟩
abbrev main_call6_v12 : Ref sig .tc := ⟨.hbm, 290, rfl⟩
abbrev main_call6_cst_4 : Ref sig .tc := ⟨.hbm, 291, rfl⟩
abbrev main_call6_call0_v0 : Ref sig .tc := ⟨.hbm, 292, rfl⟩
abbrev main_call6_call0_v1 : Ref sig .tc := ⟨.hbm, 293, rfl⟩
abbrev main_v154 : Ref sig .tc := ⟨.hbm, 294, rfl⟩
abbrev main_cst_27 : Ref sig .tc := ⟨.hbm, 295, rfl⟩
abbrev main_v155 : Ref sig .tc := ⟨.hbm, 296, rfl⟩
abbrev main_v156 : Ref sig .tc := ⟨.hbm, 297, rfl⟩
abbrev main_v157 : Ref sig .tc := ⟨.hbm, 298, rfl⟩
abbrev main_v158 : Ref sig .tc := ⟨.hbm, 299, rfl⟩
abbrev main_v159 : Ref sig .tc := ⟨.hbm, 300, rfl⟩
abbrev main_v160 : Ref sig .tc := ⟨.hbm, 301, rfl⟩
abbrev main_v161 : Ref sig .tc := ⟨.hbm, 302, rfl⟩
abbrev main_v162 : Ref sig .tc := ⟨.hbm, 303, rfl⟩
abbrev main_v163 : Ref sig .tc := ⟨.hbm, 304, rfl⟩
abbrev main_v164 : Ref sig .tc := ⟨.hbm, 305, rfl⟩
abbrev main_v165 : Ref sig .tc := ⟨.hbm, 306, rfl⟩
abbrev main_v166 : Ref sig .tc := ⟨.hbm, 307, rfl⟩
abbrev main_cst_28 : Ref sig .tc := ⟨.hbm, 308, rfl⟩
abbrev main_v167 : Ref sig .tc := ⟨.hbm, 309, rfl⟩
abbrev main_v168 : Ref sig .tc := ⟨.hbm, 310, rfl⟩
abbrev main_cst_29 : Ref sig .tc := ⟨.hbm, 311, rfl⟩
abbrev main_v169 : Ref sig .tc := ⟨.hbm, 312, rfl⟩
abbrev main_v170 : Ref sig .tc := ⟨.hbm, 313, rfl⟩
abbrev main_v171 : Ref sig .tc := ⟨.hbm, 314, rfl⟩
abbrev main_c_30 : Ref sig .tc := ⟨.hbm, 315, rfl⟩
abbrev main_v172 : Ref sig .tc := ⟨.hbm, 316, rfl⟩
abbrev main_v173 : Ref sig .tc := ⟨.hbm, 317, rfl⟩
abbrev main_c_31 : Ref sig .tc := ⟨.hbm, 318, rfl⟩
abbrev main_v174 : Ref sig .tc := ⟨.hbm, 319, rfl⟩
abbrev main_v175 : Ref sig .tc := ⟨.hbm, 320, rfl⟩
abbrev main_v176 : Ref sig .tc := ⟨.hbm, 321, rfl⟩
abbrev main_v177 : Ref sig .tc := ⟨.hbm, 322, rfl⟩
abbrev main_v178 : Ref sig .tc := ⟨.hbm, 323, rfl⟩
abbrev main_v179 : Ref sig .tc := ⟨.hbm, 324, rfl⟩
abbrev main_v180 : Ref sig .tc := ⟨.hbm, 325, rfl⟩
abbrev main_v181 : Ref sig .tc := ⟨.hbm, 326, rfl⟩
abbrev main_v182 : Ref sig .tc := ⟨.hbm, 327, rfl⟩
abbrev main_v183 : Ref sig .tc := ⟨.hbm, 328, rfl⟩
abbrev main_v184 : Ref sig .tc := ⟨.hbm, 329, rfl⟩
abbrev main_cst_32 : Ref sig .tc := ⟨.hbm, 330, rfl⟩
abbrev main_v185 : Ref sig .tc := ⟨.hbm, 331, rfl⟩
abbrev main_v186 : Ref sig .tc := ⟨.hbm, 332, rfl⟩
abbrev main_v187 : Ref sig .tc := ⟨.hbm, 333, rfl⟩
abbrev main_v188 : Ref sig .tc := ⟨.hbm, 334, rfl⟩
abbrev main_v189 : Ref sig .tc := ⟨.hbm, 335, rfl⟩
abbrev main_cst_33 : Ref sig .tc := ⟨.hbm, 336, rfl⟩
abbrev main_v190 : Ref sig .tc := ⟨.hbm, 337, rfl⟩
abbrev main_v191 : Ref sig .tc := ⟨.hbm, 338, rfl⟩
abbrev main_v192 : Ref sig .tc := ⟨.hbm, 339, rfl⟩
abbrev main_v193 : Ref sig .tc := ⟨.hbm, 340, rfl⟩
abbrev main_v194 : Ref sig .tc := ⟨.hbm, 341, rfl⟩
abbrev main_v195 : Ref sig .tc := ⟨.hbm, 342, rfl⟩
abbrev main_v196 : Ref sig .tc := ⟨.hbm, 343, rfl⟩
abbrev main_v197 : Ref sig .tc := ⟨.hbm, 344, rfl⟩
abbrev main_v198 : Ref sig .tc := ⟨.hbm, 345, rfl⟩
abbrev main_v199 : Ref sig .tc := ⟨.hbm, 346, rfl⟩
abbrev main_v200 : Ref sig .tc := ⟨.hbm, 347, rfl⟩
abbrev main_v201 : Ref sig .tc := ⟨.hbm, 348, rfl⟩
abbrev main_v202 : Ref sig .tc := ⟨.hbm, 349, rfl⟩
abbrev main_v203 : Ref sig .tc := ⟨.hbm, 350, rfl⟩
abbrev main_cst_34 : Ref sig .tc := ⟨.hbm, 351, rfl⟩
abbrev main_v204 : Ref sig .tc := ⟨.hbm, 352, rfl⟩
abbrev main_cst_35 : Ref sig .tc := ⟨.hbm, 353, rfl⟩
abbrev main_v205 : Ref sig .tc := ⟨.hbm, 354, rfl⟩
abbrev main_v206 : Ref sig .tc := ⟨.hbm, 355, rfl⟩
abbrev main_c_36 : Ref sig .tc := ⟨.hbm, 356, rfl⟩
abbrev main_call8_cst : Ref sig .tc := ⟨.hbm, 357, rfl⟩
abbrev main_call8_v0 : Ref sig .tc := ⟨.hbm, 358, rfl⟩
abbrev main_call8_v1 : Ref sig .tc := ⟨.hbm, 359, rfl⟩
abbrev main_call8_cst_0 : Ref sig .tc := ⟨.hbm, 360, rfl⟩
abbrev main_call8_v2 : Ref sig .tc := ⟨.hbm, 361, rfl⟩
abbrev main_call8_v3 : Ref sig .tc := ⟨.hbm, 362, rfl⟩
abbrev main_call8_v4 : Ref sig .tc := ⟨.hbm, 363, rfl⟩
abbrev main_call8_v5 : Ref sig .tc := ⟨.hbm, 364, rfl⟩
abbrev main_call8_v6 : Ref sig .tc := ⟨.hbm, 365, rfl⟩
abbrev main_call8_v7 : Ref sig .tc := ⟨.hbm, 366, rfl⟩
abbrev main_call8_cst_1 : Ref sig .tc := ⟨.hbm, 367, rfl⟩
abbrev main_call8_v8 : Ref sig .tc := ⟨.hbm, 368, rfl⟩
abbrev main_call8_cst_2 : Ref sig .tc := ⟨.hbm, 369, rfl⟩
abbrev main_call8_v9 : Ref sig .tc := ⟨.hbm, 370, rfl⟩
abbrev main_call8_v10 : Ref sig .tc := ⟨.hbm, 371, rfl⟩
abbrev main_call8_v11 : Ref sig .tc := ⟨.hbm, 372, rfl⟩
abbrev main_call8_cst_3 : Ref sig .tc := ⟨.hbm, 373, rfl⟩
abbrev main_call8_v12 : Ref sig .tc := ⟨.hbm, 374, rfl⟩
abbrev main_call8_cst_4 : Ref sig .tc := ⟨.hbm, 375, rfl⟩
abbrev main_call8_call0_v0 : Ref sig .tc := ⟨.hbm, 376, rfl⟩
abbrev main_call8_call0_v1 : Ref sig .tc := ⟨.hbm, 377, rfl⟩
abbrev main_v207 : Ref sig .tc := ⟨.hbm, 378, rfl⟩
abbrev main_cst_37 : Ref sig .tc := ⟨.hbm, 379, rfl⟩
abbrev main_v208 : Ref sig .tc := ⟨.hbm, 380, rfl⟩
abbrev main_v209 : Ref sig .tc := ⟨.hbm, 381, rfl⟩
abbrev main_v210 : Ref sig .tc := ⟨.hbm, 382, rfl⟩
abbrev main_v211 : Ref sig .tc := ⟨.hbm, 383, rfl⟩
abbrev main_v212 : Ref sig .tc := ⟨.hbm, 384, rfl⟩
abbrev main_v213 : Ref sig .tc := ⟨.hbm, 385, rfl⟩
abbrev main_v214 : Ref sig .tc := ⟨.hbm, 386, rfl⟩
abbrev main_v215 : Ref sig .tc := ⟨.hbm, 387, rfl⟩
abbrev main_v216 : Ref sig .tc := ⟨.hbm, 388, rfl⟩
abbrev main_v217 : Ref sig .tc := ⟨.hbm, 389, rfl⟩
abbrev main_v218 : Ref sig .tc := ⟨.hbm, 390, rfl⟩
abbrev main_v219 : Ref sig .tc := ⟨.hbm, 391, rfl⟩
abbrev main_cst_38 : Ref sig .tc := ⟨.hbm, 392, rfl⟩
abbrev main_v220 : Ref sig .tc := ⟨.hbm, 393, rfl⟩
abbrev main_v221 : Ref sig .tc := ⟨.hbm, 394, rfl⟩
abbrev main_cst_39 : Ref sig .tc := ⟨.hbm, 395, rfl⟩
abbrev main_v222 : Ref sig .tc := ⟨.hbm, 396, rfl⟩
abbrev main_v223 : Ref sig .tc := ⟨.hbm, 397, rfl⟩
abbrev main_v224 : Ref sig .tc := ⟨.hbm, 398, rfl⟩
abbrev main_v225 : Ref sig .tc := ⟨.hbm, 399, rfl⟩
abbrev main_v226 : Ref sig .tc := ⟨.hbm, 400, rfl⟩
abbrev main_v227 : Ref sig .tc := ⟨.hbm, 401, rfl⟩
abbrev main_v228 : Ref sig .tc := ⟨.hbm, 402, rfl⟩
abbrev main_v229 : Ref sig .tc := ⟨.hbm, 403, rfl⟩
abbrev main_v230 : Ref sig .tc := ⟨.hbm, 404, rfl⟩
abbrev main_v231 : Ref sig .tc := ⟨.hbm, 405, rfl⟩
abbrev main_v232 : Ref sig .tc := ⟨.hbm, 406, rfl⟩
abbrev main_cst_40 : Ref sig .tc := ⟨.hbm, 407, rfl⟩
abbrev main_v233 : Ref sig .tc := ⟨.hbm, 408, rfl⟩
abbrev main_cst_41 : Ref sig .tc := ⟨.hbm, 409, rfl⟩
abbrev main_v234 : Ref sig .tc := ⟨.hbm, 410, rfl⟩
abbrev main_v235 : Ref sig .tc := ⟨.hbm, 411, rfl⟩
abbrev main_c_42 : Ref sig .tc := ⟨.hbm, 412, rfl⟩
abbrev main_call10_cst : Ref sig .tc := ⟨.hbm, 413, rfl⟩
abbrev main_call10_v0 : Ref sig .tc := ⟨.hbm, 414, rfl⟩
abbrev main_call10_v1 : Ref sig .tc := ⟨.hbm, 415, rfl⟩
abbrev main_call10_cst_0 : Ref sig .tc := ⟨.hbm, 416, rfl⟩
abbrev main_call10_v2 : Ref sig .tc := ⟨.hbm, 417, rfl⟩
abbrev main_call10_v3 : Ref sig .tc := ⟨.hbm, 418, rfl⟩
abbrev main_call10_v4 : Ref sig .tc := ⟨.hbm, 419, rfl⟩
abbrev main_call10_v5 : Ref sig .tc := ⟨.hbm, 420, rfl⟩
abbrev main_call10_v6 : Ref sig .tc := ⟨.hbm, 421, rfl⟩
abbrev main_call10_v7 : Ref sig .tc := ⟨.hbm, 422, rfl⟩
abbrev main_call10_cst_1 : Ref sig .tc := ⟨.hbm, 423, rfl⟩
abbrev main_call10_v8 : Ref sig .tc := ⟨.hbm, 424, rfl⟩
abbrev main_call10_cst_2 : Ref sig .tc := ⟨.hbm, 425, rfl⟩
abbrev main_call10_v9 : Ref sig .tc := ⟨.hbm, 426, rfl⟩
abbrev main_call10_v10 : Ref sig .tc := ⟨.hbm, 427, rfl⟩
abbrev main_call10_v11 : Ref sig .tc := ⟨.hbm, 428, rfl⟩
abbrev main_call10_cst_3 : Ref sig .tc := ⟨.hbm, 429, rfl⟩
abbrev main_call10_v12 : Ref sig .tc := ⟨.hbm, 430, rfl⟩
abbrev main_call10_cst_4 : Ref sig .tc := ⟨.hbm, 431, rfl⟩
abbrev main_call10_call0_v0 : Ref sig .tc := ⟨.hbm, 432, rfl⟩
abbrev main_call10_call0_v1 : Ref sig .tc := ⟨.hbm, 433, rfl⟩
abbrev main_v236 : Ref sig .tc := ⟨.hbm, 434, rfl⟩
abbrev main_cst_43 : Ref sig .tc := ⟨.hbm, 435, rfl⟩
abbrev main_v237 : Ref sig .tc := ⟨.hbm, 436, rfl⟩
abbrev main_v238 : Ref sig .tc := ⟨.hbm, 437, rfl⟩
abbrev main_v239 : Ref sig .tc := ⟨.hbm, 438, rfl⟩
abbrev main_v240 : Ref sig .tc := ⟨.hbm, 439, rfl⟩
abbrev main_v241 : Ref sig .tc := ⟨.hbm, 440, rfl⟩
abbrev main_v242 : Ref sig .tc := ⟨.hbm, 441, rfl⟩
abbrev main_v243 : Ref sig .tc := ⟨.hbm, 442, rfl⟩
abbrev main_v244 : Ref sig .tc := ⟨.hbm, 443, rfl⟩
abbrev main_v245 : Ref sig .tc := ⟨.hbm, 444, rfl⟩
abbrev main_v246 : Ref sig .tc := ⟨.hbm, 445, rfl⟩
abbrev main_v247 : Ref sig .tc := ⟨.hbm, 446, rfl⟩
abbrev main_v248 : Ref sig .tc := ⟨.hbm, 447, rfl⟩
abbrev main_cst_44 : Ref sig .tc := ⟨.hbm, 448, rfl⟩
abbrev main_v249 : Ref sig .tc := ⟨.hbm, 449, rfl⟩
abbrev main_v250 : Ref sig .tc := ⟨.hbm, 450, rfl⟩
abbrev main_cst_45 : Ref sig .tc := ⟨.hbm, 451, rfl⟩
abbrev main_v251 : Ref sig .tc := ⟨.hbm, 452, rfl⟩
abbrev main_v252 : Ref sig .tc := ⟨.hbm, 453, rfl⟩
abbrev main_v253 : Ref sig .tc := ⟨.hbm, 454, rfl⟩
abbrev main_v254 : Ref sig .tc := ⟨.hbm, 455, rfl⟩
abbrev main_v255 : Ref sig .tc := ⟨.hbm, 456, rfl⟩
abbrev main_v256 : Ref sig .tc := ⟨.hbm, 457, rfl⟩
abbrev main_v257 : Ref sig .tc := ⟨.hbm, 458, rfl⟩
abbrev main_v258 : Ref sig .tc := ⟨.hbm, 459, rfl⟩
abbrev main_cst_46 : Ref sig .tc := ⟨.hbm, 460, rfl⟩
abbrev main_v259 : Ref sig .tc := ⟨.hbm, 461, rfl⟩
abbrev main_cst_47 : Ref sig .tc := ⟨.hbm, 462, rfl⟩
abbrev main_v260 : Ref sig .tc := ⟨.hbm, 463, rfl⟩
abbrev main_v261 : Ref sig .tc := ⟨.hbm, 464, rfl⟩
abbrev main_c_48 : Ref sig .tc := ⟨.hbm, 465, rfl⟩
abbrev main_call12_cst : Ref sig .tc := ⟨.hbm, 466, rfl⟩
abbrev main_call12_v0 : Ref sig .tc := ⟨.hbm, 467, rfl⟩
abbrev main_call12_v1 : Ref sig .tc := ⟨.hbm, 468, rfl⟩
abbrev main_call12_cst_0 : Ref sig .tc := ⟨.hbm, 469, rfl⟩
abbrev main_call12_v2 : Ref sig .tc := ⟨.hbm, 470, rfl⟩
abbrev main_call12_v3 : Ref sig .tc := ⟨.hbm, 471, rfl⟩
abbrev main_call12_v4 : Ref sig .tc := ⟨.hbm, 472, rfl⟩
abbrev main_call12_v5 : Ref sig .tc := ⟨.hbm, 473, rfl⟩
abbrev main_call12_v6 : Ref sig .tc := ⟨.hbm, 474, rfl⟩
abbrev main_call12_v7 : Ref sig .tc := ⟨.hbm, 475, rfl⟩
abbrev main_call12_cst_1 : Ref sig .tc := ⟨.hbm, 476, rfl⟩
abbrev main_call12_v8 : Ref sig .tc := ⟨.hbm, 477, rfl⟩
abbrev main_call12_cst_2 : Ref sig .tc := ⟨.hbm, 478, rfl⟩
abbrev main_call12_v9 : Ref sig .tc := ⟨.hbm, 479, rfl⟩
abbrev main_call12_v10 : Ref sig .tc := ⟨.hbm, 480, rfl⟩
abbrev main_call12_v11 : Ref sig .tc := ⟨.hbm, 481, rfl⟩
abbrev main_call12_cst_3 : Ref sig .tc := ⟨.hbm, 482, rfl⟩
abbrev main_call12_v12 : Ref sig .tc := ⟨.hbm, 483, rfl⟩
abbrev main_call12_cst_4 : Ref sig .tc := ⟨.hbm, 484, rfl⟩
abbrev main_call12_call0_v0 : Ref sig .tc := ⟨.hbm, 485, rfl⟩
abbrev main_call12_call0_v1 : Ref sig .tc := ⟨.hbm, 486, rfl⟩
abbrev main_v262 : Ref sig .tc := ⟨.hbm, 487, rfl⟩
abbrev main_cst_49 : Ref sig .tc := ⟨.hbm, 488, rfl⟩
abbrev main_v263 : Ref sig .tc := ⟨.hbm, 489, rfl⟩
abbrev main_v264 : Ref sig .tc := ⟨.hbm, 490, rfl⟩
abbrev main_v265 : Ref sig .tc := ⟨.hbm, 491, rfl⟩
abbrev main_v266 : Ref sig .tc := ⟨.hbm, 492, rfl⟩
abbrev main_v267 : Ref sig .tc := ⟨.hbm, 493, rfl⟩
abbrev main_v268 : Ref sig .tc := ⟨.hbm, 494, rfl⟩
abbrev main_v269 : Ref sig .tc := ⟨.hbm, 495, rfl⟩
abbrev main_v270 : Ref sig .tc := ⟨.hbm, 496, rfl⟩
abbrev main_v271 : Ref sig .tc := ⟨.hbm, 497, rfl⟩
abbrev main_v272 : Ref sig .tc := ⟨.hbm, 498, rfl⟩
abbrev main_v273 : Ref sig .tc := ⟨.hbm, 499, rfl⟩
abbrev main_v274 : Ref sig .tc := ⟨.hbm, 500, rfl⟩
abbrev main_cst_50 : Ref sig .tc := ⟨.hbm, 501, rfl⟩
abbrev main_v275 : Ref sig .tc := ⟨.hbm, 502, rfl⟩
abbrev main_v276 : Ref sig .tc := ⟨.hbm, 503, rfl⟩
abbrev main_cst_51 : Ref sig .tc := ⟨.hbm, 504, rfl⟩
abbrev main_v277 : Ref sig .tc := ⟨.hbm, 505, rfl⟩
abbrev main_v278 : Ref sig .tc := ⟨.hbm, 506, rfl⟩
abbrev main_v279 : Ref sig .tc := ⟨.hbm, 507, rfl⟩
abbrev main_v280 : Ref sig .tc := ⟨.hbm, 508, rfl⟩
abbrev main_v281 : Ref sig .tc := ⟨.hbm, 509, rfl⟩
abbrev main_v282 : Ref sig .tc := ⟨.hbm, 510, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg4_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg3_1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg2_0 : Ref sig .tc := ⟨.vmem, 57, rfl⟩
abbrev cc8_stg3_0 : Ref sig .tc := ⟨.vmem, 58, rfl⟩
abbrev cc8_stg3_1 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg2_0 : Ref sig .tc := ⟨.vmem, 63, rfl⟩
abbrev cc9_stg3_0 : Ref sig .tc := ⟨.vmem, 64, rfl⟩
abbrev cc9_stg3_1 : Ref sig .tc := ⟨.vmem, 65, rfl⟩
abbrev cc10_stg0_0 : Ref sig .tc := ⟨.vmem, 66, rfl⟩
abbrev cc10_stg0_1 : Ref sig .tc := ⟨.vmem, 67, rfl⟩
abbrev cc10_stg1_0 : Ref sig .tc := ⟨.vmem, 68, rfl⟩
abbrev cc10_stg2_0 : Ref sig .tc := ⟨.vmem, 69, rfl⟩
abbrev cc10_stg3_0 : Ref sig .tc := ⟨.vmem, 70, rfl⟩
abbrev cc10_stg3_1 : Ref sig .tc := ⟨.vmem, 71, rfl⟩
abbrev cc11_stg0_0 : Ref sig .tc := ⟨.vmem, 72, rfl⟩
abbrev cc11_stg0_1 : Ref sig .tc := ⟨.vmem, 73, rfl⟩
abbrev cc11_stg1_0 : Ref sig .tc := ⟨.vmem, 74, rfl⟩
abbrev cc11_stg2_0 : Ref sig .tc := ⟨.vmem, 75, rfl⟩
abbrev cc11_stg3_0 : Ref sig .tc := ⟨.vmem, 76, rfl⟩
abbrev cc11_stg3_1 : Ref sig .tc := ⟨.vmem, 77, rfl⟩
abbrev cc12_stg0_0 : Ref sig .tc := ⟨.vmem, 78, rfl⟩
abbrev cc12_stg0_1 : Ref sig .tc := ⟨.vmem, 79, rfl⟩
abbrev cc12_stg1_0 : Ref sig .tc := ⟨.vmem, 80, rfl⟩
abbrev cc12_stg2_0 : Ref sig .tc := ⟨.vmem, 81, rfl⟩
abbrev cc12_stg3_0 : Ref sig .tc := ⟨.vmem, 82, rfl⟩
abbrev cc12_stg3_1 : Ref sig .tc := ⟨.vmem, 83, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem3_0 : DmaSem sig := 45
abbrev cc6_sem4_0 : DmaSem sig := 46
abbrev cc6_sem4_1 : DmaSem sig := 47
abbrev cc7_sem0_0 : DmaSem sig := 48
abbrev cc7_sem0_1 : DmaSem sig := 49
abbrev cc7_sem1_0 : DmaSem sig := 50
abbrev cc7_sem2_0 : DmaSem sig := 51
abbrev cc7_sem3_0 : DmaSem sig := 52
abbrev cc7_sem3_1 : DmaSem sig := 53
abbrev cc8_sem0_0 : DmaSem sig := 54
abbrev cc8_sem0_1 : DmaSem sig := 55
abbrev cc8_sem1_0 : DmaSem sig := 56
abbrev cc8_sem2_0 : DmaSem sig := 57
abbrev cc8_sem3_0 : DmaSem sig := 58
abbrev cc8_sem3_1 : DmaSem sig := 59
abbrev cc9_sem0_0 : DmaSem sig := 60
abbrev cc9_sem0_1 : DmaSem sig := 61
abbrev cc9_sem1_0 : DmaSem sig := 62
abbrev cc9_sem2_0 : DmaSem sig := 63
abbrev cc9_sem3_0 : DmaSem sig := 64
abbrev cc9_sem3_1 : DmaSem sig := 65
abbrev cc10_sem0_0 : DmaSem sig := 66
abbrev cc10_sem0_1 : DmaSem sig := 67
abbrev cc10_sem1_0 : DmaSem sig := 68
abbrev cc10_sem2_0 : DmaSem sig := 69
abbrev cc10_sem3_0 : DmaSem sig := 70
abbrev cc10_sem3_1 : DmaSem sig := 71
abbrev cc11_sem0_0 : DmaSem sig := 72
abbrev cc11_sem0_1 : DmaSem sig := 73
abbrev cc11_sem1_0 : DmaSem sig := 74
abbrev cc11_sem2_0 : DmaSem sig := 75
abbrev cc11_sem3_0 : DmaSem sig := 76
abbrev cc11_sem3_1 : DmaSem sig := 77
abbrev cc12_sem0_0 : DmaSem sig := 78
abbrev cc12_sem0_1 : DmaSem sig := 79
abbrev cc12_sem1_0 : DmaSem sig := 80
abbrev cc12_sem2_0 : DmaSem sig := 81
abbrev cc12_sem3_0 : DmaSem sig := 82
abbrev cc12_sem3_1 : DmaSem sig := 83

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S25000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S25000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S25000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S25000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S25000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S16x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S25000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![64], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S25000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S25000x16 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S16x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S25000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S10000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S32x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S10000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S10000x64 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S10000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x1 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x1 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S10000x1 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S3x16x64_S1x16x64_0_0_0 : S3x16x64.Slices ![0, 0, 0] S1x16x64
  shapeCasts_S1x16x64_S16x64 : S1x16x64.ShapeCasts S16x64
  slices_S3x64_S1x64_0_0 : S3x64.Slices ![0, 0] S1x64
  shapeCasts_S1x64_S64 : S1x64.ShapeCasts S64
  shapeCasts_S64_S1x64 : S64.ShapeCasts S1x64
  inb_S25000x16_S25000x16_0_0 : ∀ a, (![0, 0] : Fin 2 → Nat) a + S25000x16.size a ≤ S25000x16.size a
  h_S25000x16 : 0 < S25000x16.numel
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S25000x64_S25000x64_0_0 : ∀ a, (![0, 0] : Fin 2 → Nat) a + S25000x64.size a ≤ S25000x64.size a
  h_S25000x64 : 0 < S25000x64.numel
  shapeCasts_S25000x64_S25000x64 : S25000x64.ShapeCasts S25000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S25000x64 : S1x64.Broadcasts S25000x64
  bcast_S_S100000x64 : S_.BroadcastsInDim S100000x64 (![] : Fin 0 → Fin S100000x64.rank)
  slices_S3_S1_0 : S3.Slices ![0] S1
  shapeCasts_S1_S_ : S1.ShapeCasts S_
  slices_S3x64x64_S1x64x64_0_0_0 : S3x64x64.Slices ![0, 0, 0] S1x64x64
  shapeCasts_S1x64x64_S64x64 : S1x64x64.ShapeCasts S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S10000x64 : S1x64.Broadcasts S10000x64
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  slices_S2x64_S1x64_0_0 : S2x64.Slices ![0, 0] S1x64
  slices_S3x16x64_S1x16x64_1_0_0 : S3x16x64.Slices ![1, 0, 0] S1x16x64
  slices_S3x64_S1x64_1_0 : S3x64.Slices ![1, 0] S1x64
  slices_S3_S1_1 : S3.Slices ![1] S1
  slices_S3x64x64_S1x64x64_1_0_0 : S3x64x64.Slices ![1, 0, 0] S1x64x64
  slices_S2x64_S1x64_1_0 : S2x64.Slices ![1, 0] S1x64
  slices_S3x16x64_S1x16x64_2_0_0 : S3x16x64.Slices ![2, 0, 0] S1x16x64
  slices_S3x64_S1x64_2_0 : S3x64.Slices ![2, 0] S1x64
  slices_S3_S1_2 : S3.Slices ![2] S1
  slices_S3x64x64_S1x64x64_2_0_0 : S3x64x64.Slices ![2, 0, 0] S1x64x64
  inb_S10000x32_S10000x32_0_0 : ∀ a, (![0, 0] : Fin 2 → Nat) a + S10000x32.size a ≤ S10000x32.size a
  h_S10000x32 : 0 < S10000x32.numel
  inb_S32x64_S32x64_0_0 : ∀ a, (![0, 0] : Fin 2 → Nat) a + S32x64.size a ≤ S32x64.size a
  h_S32x64 : 0 < S32x64.numel
  concatenates_S100000x64_S100000x64_S100000x128_d1 : Shape.Concatenates [S100000x64, S100000x64] S100000x128 1
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reducesTo_S100000x128_S128_d0 : S100000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  gather_S100000x64_S1600000x1_S1600000x64_1_0_n_n_0_1_164_wf : GatherDims.WF S100000x64 S1600000x1 S1600000x64 [1] [0] [] [0] [] 1 ![1, 64]
  dot_S25000x16_S16x64_S25000x64_1_0_0_1_n_n_wf : DotDims.WF S25000x16 S16x64 S25000x64 [1] [0] [0] [1] [] []
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x32_S32x64_S10000x64_1_0_0_1_n_n_wf : DotDims.WF S10000x32 S32x64 S10000x64 [1] [0] [0] [1] [] []
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25000x64.size a ≤ S1600000x64.size a
  hwx0_0 : ∀ i : grid0.Coords, EltTy.bits .f32 = 32 ∨ (Rect.block (s := S1600000x64) S25000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S25000x16.size a ≤ S1600000x16.size a
  hwx0_1 : ∀ i : grid0.Coords, EltTy.bits .f32 = 32 ∨ (Rect.block (s := S1600000x16) S25000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S25000x64.size a ≤ S1600000x64.size a
  hwx0_4 : ∀ i : grid0.Coords, EltTy.bits .f32 = 32 ∨ (Rect.block (s := S1600000x64) S25000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S25000x64.size a ≤ S1600000x64.size a
  hwx3_0 : ∀ i : grid3.Coords, EltTy.bits .f32 = 32 ∨ (Rect.block (s := S1600000x64) S25000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S25000x16.size a ≤ S1600000x16.size a
  hwx3_1 : ∀ i : grid3.Coords, EltTy.bits .f32 = 32 ∨ (Rect.block (s := S1600000x16) S25000x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x64.size a ≤ S16x64.size a
  hwx3_2 : ∀ i : grid3.Coords, EltTy.bits .f32 = 32 ∨ (Rect.block (s := S16x64) S16x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S25000x64.size a ≤ S1600000x64.size a
  hwx3_4 : ∀ i : grid3.Coords, EltTy.bits .f32 = 32 ∨ (Rect.block (s := S1600000x64) S25000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S100000x64.size a
  hwx5_3 : ∀ i : grid5.Coords, EltTy.bits .f32 = 32 ∨ (Rect.block (s := S100000x64) S10000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S25000x64.size a ≤ S1600000x64.size a
  hwx6_0 : ∀ i : grid6.Coords, EltTy.bits .f32 = 32 ∨ (Rect.block (s := S1600000x64) S25000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S25000x16.size a ≤ S1600000x16.size a
  hwx6_1 : ∀ i : grid6.Coords, EltTy.bits .f32 = 32 ∨ (Rect.block (s := S1600000x16) S25000x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S16x64.size a ≤ S16x64.size a
  hwx6_2 : ∀ i : grid6.Coords, EltTy.bits .f32 = 32 ∨ (Rect.block (s := S16x64) S16x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S25000x64.size a ≤ S1600000x64.size a
  hwx6_4 : ∀ i : grid6.Coords, EltTy.bits .f32 = 32 ∨ (Rect.block (s := S1600000x64) S25000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x64.size a ≤ S100000x64.size a
  hwx7_3 : ∀ i : grid7.Coords, EltTy.bits .f32 = 32 ∨ (Rect.block (s := S100000x64) S10000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S10000x64.size a ≤ S100000x64.size a
  hwx8_3 : ∀ i : grid8.Coords, EltTy.bits .f32 = 32 ∨ (Rect.block (s := S100000x64) S10000x64.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x32.size a ≤ S100000x32.size a
  hwx9_0 : ∀ i : grid9.Coords, EltTy.bits .f32 = 32 ∨ (Rect.block (s := S100000x32) S10000x32.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S32x64.size a ≤ S32x64.size a
  hwx9_1 : ∀ i : grid9.Coords, EltTy.bits .f32 = 32 ∨ (Rect.block (s := S32x64) S32x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S10000x64.size a ≤ S100000x64.size a
  hwx9_3 : ∀ i : grid9.Coords, EltTy.bits .f32 = 32 ∨ (Rect.block (s := S100000x64) S10000x64.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S100000x64.size a
  hwx10_0 : ∀ i : grid10.Coords, EltTy.bits .f32 = 32 ∨ (Rect.block (s := S100000x64) S10000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x64.size a ≤ S64x64.size a
  hwx10_1 : ∀ i : grid10.Coords, EltTy.bits .f32 = 32 ∨ (Rect.block (s := S64x64) S64x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S10000x64.size a ≤ S100000x64.size a
  hwx10_3 : ∀ i : grid10.Coords, EltTy.bits .f32 = 32 ∨ (Rect.block (s := S100000x64) S10000x64.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x128.size a ≤ S100000x128.size a
  hwx11_0 : ∀ i : grid11.Coords, EltTy.bits .f32 = 32 ∨ (Rect.block (s := S100000x128) S10000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S10000x128.size a ≤ S100000x128.size a
  hwx11_3 : ∀ i : grid11.Coords, EltTy.bits .f32 = 32 ∨ (Rect.block (s := S100000x128) S10000x128.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x128.size a ≤ S100000x128.size a
  hwx12_0 : ∀ i : grid12.Coords, EltTy.bits .f32 = 32 ∨ (Rect.block (s := S100000x128) S10000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x1.size a ≤ S128x1.size a
  hwx12_1 : ∀ i : grid12.Coords, EltTy.bits .f32 = 32 ∨ (Rect.block (s := S128x1) S128x1.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x1.size a ≤ S1x1.size a
  hwx12_2 : ∀ i : grid12.Coords, EltTy.bits .f32 = 32 ∨ (Rect.block (s := S1x1) S1x1.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S10000x1.size a ≤ S100000x1.size a
  hwx12_3 : ∀ i : grid12.Coords, EltTy.bits .f32 = 32 ∨ (Rect.block (s := S100000x1) S10000x1.size (cc12_transform_3 i) (hinb12_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S25000x16_S16x64_S25000x64_1_0_0_1_n_n : DotDims S25000x16 S16x64 S25000x64 where
  lhsContracting := [1]
  rhsContracting := [0]
  lhsNonContracting := [0]
  rhsNonContracting := [1]
  lhsBatch := []
  rhsBatch := []
  wf := dot_S25000x16_S16x64_S25000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_v10) S25000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S25000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S16x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S25000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v25) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v56) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v94) S25000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S25000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v96) S16x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v99) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v100) S25000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v109) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v111) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v114) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v115) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v140) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v142) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v145) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v146) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v178) S25000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg1) S25000x16.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v180) S16x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v183) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v184) S25000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v193) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v195) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v198) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v199) S10000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v224) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v226) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v229) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v230) S10000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_arg2) S10000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg15) S32x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v231) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v232) S10000x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v253) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg19) S64x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v254) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v255) S10000x64.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v256) S10000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg21) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v257) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v258) S10000x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v279) S10000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg25) S128x1.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v280) S1x1.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v281) S10000x1.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

class Facts : Prop extends Facts₀ where

variable [Facts]
-- ==== ReferenceIdeal.lean ====
abbrev S100000x64 : Shape := ⟨2, ![100000, 64]⟩
abbrev S1600000x16 : Shape := ⟨2, ![1600000, 16]⟩
abbrev S100000x32 : Shape := ⟨2, ![100000, 32]⟩
abbrev S2x1600000 : Shape := ⟨2, ![2, 1600000]⟩
abbrev S3x16x64 : Shape := ⟨3, ![3, 16, 64]⟩
abbrev S3x64 : Shape := ⟨2, ![3, 64]⟩
abbrev S3 : Shape := ⟨1, ![3]⟩
abbrev S3x64x64 : Shape := ⟨3, ![3, 64, 64]⟩
abbrev S2x64 : Shape := ⟨2, ![2, 64]⟩
abbrev S32x64 : Shape := ⟨2, ![32, 64]⟩
abbrev S64 : Shape := ⟨1, ![64]⟩
abbrev S64x64 : Shape := ⟨2, ![64, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x16x64 : Shape := ⟨3, ![1, 16, 64]⟩
abbrev S16x64 : Shape := ⟨2, ![16, 64]⟩
abbrev S1x64 : Shape := ⟨2, ![1, 64]⟩
abbrev S1x64x64 : Shape := ⟨3, ![1, 64, 64]⟩
abbrev S100000x128 : Shape := ⟨2, ![100000, 128]⟩
abbrev S1x128 : Shape := ⟨2, ![1, 128]⟩
abbrev S100000x1 : Shape := ⟨2, ![100000, 1]⟩
abbrev S1x1 : Shape := ⟨2, ![1, 1]⟩
abbrev S100000 : Shape := ⟨1, ![100000]⟩

abbrev nBuf : Space → Nat
  | .hbm => 570
  | .vmem => 0
  | .smem => 0
  | _ => 0

abbrev hbmTy0_0 (i : Nat) : BufTy := match i % 128 with
  | 0 => ⟨S100000x64, .f32⟩
  | 1 => ⟨S1600000x16, .f32⟩
  | 2 => ⟨S100000x32, .f32⟩
  | 3 => ⟨S2x1600000, .i32⟩
  | 4 => ⟨S3x16x64, .f32⟩
  | 5 => ⟨S3x64, .f32⟩
  | 6 => ⟨S3, .f32⟩
  | 7 => ⟨S3x64x64, .f32⟩
  | 8 => ⟨S3x64, .f32⟩
  | 9 => ⟨S3x64, .f32⟩
  | 10 => ⟨S3x64, .f32⟩
  | 11 => ⟨S3x64x64, .f32⟩
  | 12 => ⟨S3x64, .f32⟩
  | 13 => ⟨S2x64, .f32⟩
  | 14 => ⟨S2x64, .f32⟩
  | 15 => ⟨S32x64, .f32⟩
  | 16 => ⟨S64, .f32⟩
  | 17 => ⟨S64, .f32⟩
  | 18 => ⟨S64, .f32⟩
  | 19 => ⟨S64x64, .f32⟩
  | 20 => ⟨S64, .f32⟩
  | 21 => ⟨S128x128, .f32⟩
  | 22 => ⟨S128, .f32⟩
  | 23 => ⟨S128, .f32⟩
  | 24 => ⟨S128, .f32⟩
  | 25 => ⟨S128x1, .f32⟩
  | 26 => ⟨S1, .f32⟩
  | 27 => ⟨S1x1600000, .i32⟩
  | 28 => ⟨S1600000, .i32⟩
  | 29 => ⟨S1x1600000, .i32⟩
  | 30 => ⟨S1600000, .i32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x64, .f32⟩
  | 40 => ⟨S1x16x64, .f32⟩
  | 41 => ⟨S16x64, .f32⟩
  | 42 => ⟨S1600000x64, .f32⟩
  | 43 => ⟨S1600000x64, .f32⟩
  | 44 => ⟨S1x64, .f32⟩
  | 45 => ⟨S64, .f32⟩
  | 46 => ⟨S1x64, .f32⟩
  | 47 => ⟨S1600000x64, .f32⟩
  | 48 => ⟨S1600000x64, .f32⟩
  | 49 => ⟨S_, .f32⟩
  | 50 => ⟨S1600000x64, .f32⟩
  | 51 => ⟨S1600000x64, .f32⟩
  | 52 => ⟨S_, .f32⟩
  | 53 => ⟨S100000x64, .f32⟩
  | 54 => ⟨S1600000x1, .i32⟩
  | 55 => ⟨S100000x64, .f32⟩
  | 56 => ⟨S1, .f32⟩
  | 57 => ⟨S_, .f32⟩
  | 58 => ⟨S_, .f32⟩
  | 59 => ⟨S_, .f32⟩
  | 60 => ⟨S100000x64, .f32⟩
  | 61 => ⟨S100000x64, .f32⟩
  | 62 => ⟨S100000x64, .f32⟩
  | 63 => ⟨S1x64x64, .f32⟩
  | 64 => ⟨S64x64, .f32⟩
  | 65 => ⟨S100000x64, .f32⟩
  | 66 => ⟨S1x64, .f32⟩
  | 67 => ⟨S64, .f32⟩
  | 68 => ⟨S1x64, .f32⟩
  | 69 => ⟨S100000x64, .f32⟩
  | 70 => ⟨S100000x64, .f32⟩
  | 71 => ⟨S1x64, .f32⟩
  | 72 => ⟨S64, .f32⟩
  | 73 => ⟨S1x64, .f32⟩
  | 74 => ⟨S64, .f32⟩
  | 75 => ⟨S_, .f32⟩
  | 76 => ⟨S64, .f32⟩
  | 77 => ⟨S_, .f32⟩
  | 78 => ⟨S64, .f32⟩
  | 79 => ⟨S64, .f32⟩
  | 80 => ⟨S_, .i32⟩
  | 81 => ⟨S_, .f32⟩
  | 82 => ⟨S64, .f32⟩
  | 83 => ⟨S1x64, .f32⟩
  | 84 => ⟨S_, .f32⟩
  | 85 => ⟨S1x64, .f32⟩
  | 86 => ⟨S1x64, .f32⟩
  | 87 => ⟨S100000x64, .f32⟩
  | 88 => ⟨S100000x64, .f32⟩
  | 89 => ⟨S100000x64, .f32⟩
  | 90 => ⟨S_, .f32⟩
  | 91 => ⟨S_, .f32⟩
  | 92 => ⟨S_, .f32⟩
  | 93 => ⟨S_, .f32⟩
  | 94 => ⟨S64, .f32⟩
  | 95 => ⟨S64, .f32⟩
  | 96 => ⟨S64, .f32⟩
  | 97 => ⟨S_, .f32⟩
  | 98 => ⟨S_, .i1⟩
  | 99 => ⟨S_, .f32⟩
  | 100 => ⟨S_, .f32⟩
  | 101 => ⟨S64, .f32⟩
  | 102 => ⟨S64, .f32⟩
  | 103 => ⟨S1x64, .f32⟩
  | 104 => ⟨S100000x64, .f32⟩
  | 105 => ⟨S100000x64, .f32⟩
  | 106 => ⟨S1x64, .f32⟩
  | 107 => ⟨S100000x64, .f32⟩
  | 108 => ⟨S100000x64, .f32⟩
  | 109 => ⟨S_, .f32⟩
  | 110 => ⟨S64, .f32⟩
  | 111 => ⟨S64, .f32⟩
  | 112 => ⟨S64, .f32⟩
  | 113 => ⟨S1x64, .f32⟩
  | 114 => ⟨S100000x64, .f32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .i1⟩
  | 122 => ⟨S_, .f32⟩
  | 123 => ⟨S100000x64, .f32⟩
  | 124 => ⟨S100000x64, .f32⟩
  | 125 => ⟨S100000x64, .f32⟩
  | 126 => ⟨S1x64x64, .f32⟩
  | 127 => ⟨S64x64, .f32⟩
  | _ => ⟨S100000x64, .f32⟩

abbrev hbmTy0_1 (i : Nat) : BufTy := match i % 128 with
  | 0 => ⟨S100000x64, .f32⟩
  | 1 => ⟨S1x64, .f32⟩
  | 2 => ⟨S64, .f32⟩
  | 3 => ⟨S1x64, .f32⟩
  | 4 => ⟨S100000x64, .f32⟩
  | 5 => ⟨S100000x64, .f32⟩
  | 6 => ⟨S1x64, .f32⟩
  | 7 => ⟨S64, .f32⟩
  | 8 => ⟨S1x64, .f32⟩
  | 9 => ⟨S64, .f32⟩
  | 10 => ⟨S_, .f32⟩
  | 11 => ⟨S64, .f32⟩
  | 12 => ⟨S_, .f32⟩
  | 13 => ⟨S64, .f32⟩
  | 14 => ⟨S64, .f32⟩
  | 15 => ⟨S_, .i32⟩
  | 16 => ⟨S_, .f32⟩
  | 17 => ⟨S64, .f32⟩
  | 18 => ⟨S1x64, .f32⟩
  | 19 => ⟨S_, .f32⟩
  | 20 => ⟨S1x64, .f32⟩
  | 21 => ⟨S1x64, .f32⟩
  | 22 => ⟨S100000x64, .f32⟩
  | 23 => ⟨S100000x64, .f32⟩
  | 24 => ⟨S100000x64, .f32⟩
  | 25 => ⟨S_, .f32⟩
  | 26 => ⟨S_, .f32⟩
  | 27 => ⟨S_, .f32⟩
  | 28 => ⟨S_, .f32⟩
  | 29 => ⟨S64, .f32⟩
  | 30 => ⟨S64, .f32⟩
  | 31 => ⟨S64, .f32⟩
  | 32 => ⟨S_, .f32⟩
  | 33 => ⟨S_, .i1⟩
  | 34 => ⟨S_, .f32⟩
  | 35 => ⟨S_, .f32⟩
  | 36 => ⟨S64, .f32⟩
  | 37 => ⟨S64, .f32⟩
  | 38 => ⟨S1x64, .f32⟩
  | 39 => ⟨S100000x64, .f32⟩
  | 40 => ⟨S100000x64, .f32⟩
  | 41 => ⟨S1x64, .f32⟩
  | 42 => ⟨S100000x64, .f32⟩
  | 43 => ⟨S100000x64, .f32⟩
  | 44 => ⟨S_, .f32⟩
  | 45 => ⟨S64, .f32⟩
  | 46 => ⟨S64, .f32⟩
  | 47 => ⟨S64, .f32⟩
  | 48 => ⟨S1x64, .f32⟩
  | 49 => ⟨S100000x64, .f32⟩
  | 50 => ⟨S100000x64, .f32⟩
  | 51 => ⟨S1x64, .f32⟩
  | 52 => ⟨S100000x64, .f32⟩
  | 53 => ⟨S100000x64, .f32⟩
  | 54 => ⟨S_, .f32⟩
  | 55 => ⟨S100000x64, .f32⟩
  | 56 => ⟨S100000x64, .i1⟩
  | 57 => ⟨S_, .f32⟩
  | 58 => ⟨S100000x64, .f32⟩
  | 59 => ⟨S100000x64, .f32⟩
  | 60 => ⟨S100000x64, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x64, .f32⟩
  | 70 => ⟨S1x16x64, .f32⟩
  | 71 => ⟨S16x64, .f32⟩
  | 72 => ⟨S1600000x64, .f32⟩
  | 73 => ⟨S1600000x64, .f32⟩
  | 74 => ⟨S1x64, .f32⟩
  | 75 => ⟨S64, .f32⟩
  | 76 => ⟨S1x64, .f32⟩
  | 77 => ⟨S1600000x64, .f32⟩
  | 78 => ⟨S1600000x64, .f32⟩
  | 79 => ⟨S_, .f32⟩
  | 80 => ⟨S1600000x64, .f32⟩
  | 81 => ⟨S1600000x64, .f32⟩
  | 82 => ⟨S_, .f32⟩
  | 83 => ⟨S100000x64, .f32⟩
  | 84 => ⟨S1600000x1, .i32⟩
  | 85 => ⟨S100000x64, .f32⟩
  | 86 => ⟨S1, .f32⟩
  | 87 => ⟨S_, .f32⟩
  | 88 => ⟨S_, .f32⟩
  | 89 => ⟨S_, .f32⟩
  | 90 => ⟨S100000x64, .f32⟩
  | 91 => ⟨S100000x64, .f32⟩
  | 92 => ⟨S100000x64, .f32⟩
  | 93 => ⟨S1x64x64, .f32⟩
  | 94 => ⟨S64x64, .f32⟩
  | 95 => ⟨S100000x64, .f32⟩
  | 96 => ⟨S1x64, .f32⟩
  | 97 => ⟨S64, .f32⟩
  | 98 => ⟨S1x64, .f32⟩
  | 99 => ⟨S100000x64, .f32⟩
  | 100 => ⟨S100000x64, .f32⟩
  | 101 => ⟨S1x64, .f32⟩
  | 102 => ⟨S64, .f32⟩
  | 103 => ⟨S1x64, .f32⟩
  | 104 => ⟨S64, .f32⟩
  | 105 => ⟨S_, .f32⟩
  | 106 => ⟨S64, .f32⟩
  | 107 => ⟨S_, .f32⟩
  | 108 => ⟨S64, .f32⟩
  | 109 => ⟨S64, .f32⟩
  | 110 => ⟨S_, .i32⟩
  | 111 => ⟨S_, .f32⟩
  | 112 => ⟨S64, .f32⟩
  | 113 => ⟨S1x64, .f32⟩
  | 114 => ⟨S_, .f32⟩
  | 115 => ⟨S1x64, .f32⟩
  | 116 => ⟨S1x64, .f32⟩
  | 117 => ⟨S100000x64, .f32⟩
  | 118 => ⟨S100000x64, .f32⟩
  | 119 => ⟨S100000x64, .f32⟩
  | 120 => ⟨S_, .f32⟩
  | 121 => ⟨S_, .f32⟩
  | 122 => ⟨S_, .f32⟩
  | 123 => ⟨S_, .f32⟩
  | 124 => ⟨S64, .f32⟩
  | 125 => ⟨S64, .f32⟩
  | 126 => ⟨S64, .f32⟩
  | 127 => ⟨S_, .f32⟩
  | _ => ⟨S100000x64, .f32⟩

abbrev hbmTy0_2 (i : Nat) : BufTy := match i % 128 with
  | 0 => ⟨S_, .i1⟩
  | 1 => ⟨S_, .f32⟩
  | 2 => ⟨S_, .f32⟩
  | 3 => ⟨S64, .f32⟩
  | 4 => ⟨S64, .f32⟩
  | 5 => ⟨S1x64, .f32⟩
  | 6 => ⟨S100000x64, .f32⟩
  | 7 => ⟨S100000x64, .f32⟩
  | 8 => ⟨S1x64, .f32⟩
  | 9 => ⟨S100000x64, .f32⟩
  | 10 => ⟨S100000x64, .f32⟩
  | 11 => ⟨S_, .f32⟩
  | 12 => ⟨S64, .f32⟩
  | 13 => ⟨S64, .f32⟩
  | 14 => ⟨S64, .f32⟩
  | 15 => ⟨S1x64, .f32⟩
  | 16 => ⟨S100000x64, .f32⟩
  | 17 => ⟨S100000x64, .f32⟩
  | 18 => ⟨S1x64, .f32⟩
  | 19 => ⟨S100000x64, .f32⟩
  | 20 => ⟨S100000x64, .f32⟩
  | 21 => ⟨S_, .f32⟩
  | 22 => ⟨S100000x64, .f32⟩
  | 23 => ⟨S100000x64, .i1⟩
  | 24 => ⟨S_, .f32⟩
  | 25 => ⟨S100000x64, .f32⟩
  | 26 => ⟨S100000x64, .f32⟩
  | 27 => ⟨S100000x64, .f32⟩
  | 28 => ⟨S1x64x64, .f32⟩
  | 29 => ⟨S64x64, .f32⟩
  | 30 => ⟨S100000x64, .f32⟩
  | 31 => ⟨S1x64, .f32⟩
  | 32 => ⟨S64, .f32⟩
  | 33 => ⟨S1x64, .f32⟩
  | 34 => ⟨S100000x64, .f32⟩
  | 35 => ⟨S100000x64, .f32⟩
  | 36 => ⟨S1x64, .f32⟩
  | 37 => ⟨S64, .f32⟩
  | 38 => ⟨S1x64, .f32⟩
  | 39 => ⟨S64, .f32⟩
  | 40 => ⟨S_, .f32⟩
  | 41 => ⟨S64, .f32⟩
  | 42 => ⟨S_, .f32⟩
  | 43 => ⟨S64, .f32⟩
  | 44 => ⟨S64, .f32⟩
  | 45 => ⟨S_, .i32⟩
  | 46 => ⟨S_, .f32⟩
  | 47 => ⟨S64, .f32⟩
  | 48 => ⟨S1x64, .f32⟩
  | 49 => ⟨S_, .f32⟩
  | 50 => ⟨S1x64, .f32⟩
  | 51 => ⟨S1x64, .f32⟩
  | 52 => ⟨S100000x64, .f32⟩
  | 53 => ⟨S100000x64, .f32⟩
  | 54 => ⟨S100000x64, .f32⟩
  | 55 => ⟨S_, .f32⟩
  | 56 => ⟨S_, .f32⟩
  | 57 => ⟨S_, .f32⟩
  | 58 => ⟨S_, .f32⟩
  | 59 => ⟨S64, .f32⟩
  | 60 => ⟨S64, .f32⟩
  | 61 => ⟨S64, .f32⟩
  | 62 => ⟨S_, .f32⟩
  | 63 => ⟨S_, .i1⟩
  | 64 => ⟨S_, .f32⟩
  | 65 => ⟨S_, .f32⟩
  | 66 => ⟨S64, .f32⟩
  | 67 => ⟨S64, .f32⟩
  | 68 => ⟨S1x64, .f32⟩
  | 69 => ⟨S100000x64, .f32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S64, .f32⟩
  | 76 => ⟨S64, .f32⟩
  | 77 => ⟨S64, .f32⟩
  | 78 => ⟨S1x64, .f32⟩
  | 79 => ⟨S100000x64, .f32⟩
  | 80 => ⟨S100000x64, .f32⟩
  | 81 => ⟨S1x64, .f32⟩
  | 82 => ⟨S100000x64, .f32⟩
  | 83 => ⟨S100000x64, .f32⟩
  | 84 => ⟨S_, .f32⟩
  | 85 => ⟨S100000x64, .f32⟩
  | 86 => ⟨S100000x64, .i1⟩
  | 87 => ⟨S_, .f32⟩
  | 88 => ⟨S100000x64, .f32⟩
  | 89 => ⟨S100000x64, .f32⟩
  | 90 => ⟨S100000x64, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x64, .f32⟩
  | 100 => ⟨S1x16x64, .f32⟩
  | 101 => ⟨S16x64, .f32⟩
  | 102 => ⟨S1600000x64, .f32⟩
  | 103 => ⟨S1600000x64, .f32⟩
  | 104 => ⟨S1x64, .f32⟩
  | 105 => ⟨S64, .f32⟩
  | 106 => ⟨S1x64, .f32⟩
  | 107 => ⟨S1600000x64, .f32⟩
  | 108 => ⟨S1600000x64, .f32⟩
  | 109 => ⟨S_, .f32⟩
  | 110 => ⟨S1600000x64, .f32⟩
  | 111 => ⟨S1600000x64, .f32⟩
  | 112 => ⟨S_, .f32⟩
  | 113 => ⟨S100000x64, .f32⟩
  | 114 => ⟨S1600000x1, .i32⟩
  | 115 => ⟨S100000x64, .f32⟩
  | 116 => ⟨S1, .f32⟩
  | 117 => ⟨S_, .f32⟩
  | 118 => ⟨S_, .f32⟩
  | 119 => ⟨S_, .f32⟩
  | 120 => ⟨S100000x64, .f32⟩
  | 121 => ⟨S100000x64, .f32⟩
  | 122 => ⟨S100000x64, .f32⟩
  | 123 => ⟨S1x64x64, .f32⟩
  | 124 => ⟨S64x64, .f32⟩
  | 125 => ⟨S100000x64, .f32⟩
  | 126 => ⟨S1x64, .f32⟩
  | 127 => ⟨S64, .f32⟩
  | _ => ⟨S100000x64, .f32⟩

abbrev hbmTy0_3 (i : Nat) : BufTy := match i % 128 with
  | 0 => ⟨S1x64, .f32⟩
  | 1 => ⟨S100000x64, .f32⟩
  | 2 => ⟨S100000x64, .f32⟩
  | 3 => ⟨S1x64, .f32⟩
  | 4 => ⟨S64, .f32⟩
  | 5 => ⟨S1x64, .f32⟩
  | 6 => ⟨S64, .f32⟩
  | 7 => ⟨S_, .f32⟩
  | 8 => ⟨S64, .f32⟩
  | 9 => ⟨S_, .f32⟩
  | 10 => ⟨S64, .f32⟩
  | 11 => ⟨S64, .f32⟩
  | 12 => ⟨S_, .i32⟩
  | 13 => ⟨S_, .f32⟩
  | 14 => ⟨S64, .f32⟩
  | 15 => ⟨S1x64, .f32⟩
  | 16 => ⟨S_, .f32⟩
  | 17 => ⟨S1x64, .f32⟩
  | 18 => ⟨S1x64, .f32⟩
  | 19 => ⟨S100000x64, .f32⟩
  | 20 => ⟨S100000x64, .f32⟩
  | 21 => ⟨S100000x64, .f32⟩
  | 22 => ⟨S_, .f32⟩
  | 23 => ⟨S_, .f32⟩
  | 24 => ⟨S_, .f32⟩
  | 25 => ⟨S_, .f32⟩
  | 26 => ⟨S64, .f32⟩
  | 27 => ⟨S64, .f32⟩
  | 28 => ⟨S64, .f32⟩
  | 29 => ⟨S_, .f32⟩
  | 30 => ⟨S_, .i1⟩
  | 31 => ⟨S_, .f32⟩
  | 32 => ⟨S_, .f32⟩
  | 33 => ⟨S64, .f32⟩
  | 34 => ⟨S64, .f32⟩
  | 35 => ⟨S1x64, .f32⟩
  | 36 => ⟨S100000x64, .f32⟩
  | 37 => ⟨S100000x64, .f32⟩
  | 38 => ⟨S1x64, .f32⟩
  | 39 => ⟨S100000x64, .f32⟩
  | 40 => ⟨S100000x64, .f32⟩
  | 41 => ⟨S_, .f32⟩
  | 42 => ⟨S64, .f32⟩
  | 43 => ⟨S64, .f32⟩
  | 44 => ⟨S64, .f32⟩
  | 45 => ⟨S1x64, .f32⟩
  | 46 => ⟨S100000x64, .f32⟩
  | 47 => ⟨S100000x64, .f32⟩
  | 48 => ⟨S1x64, .f32⟩
  | 49 => ⟨S100000x64, .f32⟩
  | 50 => ⟨S100000x64, .f32⟩
  | 51 => ⟨S_, .f32⟩
  | 52 => ⟨S100000x64, .f32⟩
  | 53 => ⟨S100000x64, .i1⟩
  | 54 => ⟨S_, .f32⟩
  | 55 => ⟨S100000x64, .f32⟩
  | 56 => ⟨S100000x64, .f32⟩
  | 57 => ⟨S100000x64, .f32⟩
  | 58 => ⟨S1x64x64, .f32⟩
  | 59 => ⟨S64x64, .f32⟩
  | 60 => ⟨S100000x64, .f32⟩
  | 61 => ⟨S1x64, .f32⟩
  | 62 => ⟨S64, .f32⟩
  | 63 => ⟨S1x64, .f32⟩
  | 64 => ⟨S100000x64, .f32⟩
  | 65 => ⟨S100000x64, .f32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S64, .f32⟩
  | 72 => ⟨S_, .f32⟩
  | 73 => ⟨S64, .f32⟩
  | 74 => ⟨S64, .f32⟩
  | 75 => ⟨S_, .i32⟩
  | 76 => ⟨S_, .f32⟩
  | 77 => ⟨S64, .f32⟩
  | 78 => ⟨S1x64, .f32⟩
  | 79 => ⟨S_, .f32⟩
  | 80 => ⟨S1x64, .f32⟩
  | 81 => ⟨S1x64, .f32⟩
  | 82 => ⟨S100000x64, .f32⟩
  | 83 => ⟨S100000x64, .f32⟩
  | 84 => ⟨S100000x64, .f32⟩
  | 85 => ⟨S_, .f32⟩
  | 86 => ⟨S_, .f32⟩
  | 87 => ⟨S_, .f32⟩
  | 88 => ⟨S_, .f32⟩
  | 89 => ⟨S64, .f32⟩
  | 90 => ⟨S64, .f32⟩
  | 91 => ⟨S64, .f32⟩
  | 92 => ⟨S_, .f32⟩
  | 93 => ⟨S_, .i1⟩
  | 94 => ⟨S_, .f32⟩
  | 95 => ⟨S_, .f32⟩
  | 96 => ⟨S64, .f32⟩
  | 97 => ⟨S64, .f32⟩
  | 98 => ⟨S1x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S_, .f32⟩
  | 105 => ⟨S64, .f32⟩
  | 106 => ⟨S64, .f32⟩
  | 107 => ⟨S64, .f32⟩
  | 108 => ⟨S1x64, .f32⟩
  | 109 => ⟨S100000x64, .f32⟩
  | 110 => ⟨S100000x64, .f32⟩
  | 111 => ⟨S1x64, .f32⟩
  | 112 => ⟨S100000x64, .f32⟩
  | 113 => ⟨S100000x64, .f32⟩
  | 114 => ⟨S_, .f32⟩
  | 115 => ⟨S100000x64, .f32⟩
  | 116 => ⟨S100000x64, .i1⟩
  | 117 => ⟨S_, .f32⟩
  | 118 => ⟨S100000x64, .f32⟩
  | 119 => ⟨S100000x64, .f32⟩
  | 120 => ⟨S100000x64, .f32⟩
  | 121 => ⟨S100000x64, .f32⟩
  | 122 => ⟨S1x64, .f32⟩
  | 123 => ⟨S100000x64, .f32⟩
  | 124 => ⟨S100000x64, .f32⟩
  | 125 => ⟨S100000x128, .f32⟩
  | 126 => ⟨S100000x128, .f32⟩
  | 127 => ⟨S1x128, .f32⟩
  | _ => ⟨S100000x64, .f32⟩

abbrev hbmTy0_4 (i : Nat) : BufTy := match i % 128 with
  | 0 => ⟨S100000x128, .f32⟩
  | 1 => ⟨S100000x128, .f32⟩
  | 2 => ⟨S_, .f32⟩
  | 3 => ⟨S128, .f32⟩
  | 4 => ⟨S_, .f32⟩
  | 5 => ⟨S128, .f32⟩
  | 6 => ⟨S128, .f32⟩
  | 7 => ⟨S_, .i32⟩
  | 8 => ⟨S_, .f32⟩
  | 9 => ⟨S128, .f32⟩
  | 10 => ⟨S1x128, .f32⟩
  | 11 => ⟨S_, .f32⟩
  | 12 => ⟨S1x128, .f32⟩
  | 13 => ⟨S1x128, .f32⟩
  | 14 => ⟨S100000x128, .f32⟩
  | 15 => ⟨S100000x128, .f32⟩
  | 16 => ⟨S100000x128, .f32⟩
  | 17 => ⟨S_, .f32⟩
  | 18 => ⟨S_, .f32⟩
  | 19 => ⟨S_, .f32⟩
  | 20 => ⟨S_, .f32⟩
  | 21 => ⟨S128, .f32⟩
  | 22 => ⟨S128, .f32⟩
  | 23 => ⟨S128, .f32⟩
  | 24 => ⟨S_, .f32⟩
  | 25 => ⟨S_, .i1⟩
  | 26 => ⟨S_, .f32⟩
  | 27 => ⟨S_, .f32⟩
  | 28 => ⟨S128, .f32⟩
  | 29 => ⟨S128, .f32⟩
  | 30 => ⟨S1x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S128, .f32⟩
  | 38 => ⟨S128, .f32⟩
  | 39 => ⟨S128, .f32⟩
  | 40 => ⟨S1x128, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S_, .f32⟩
  | 47 => ⟨S100000x128, .f32⟩
  | 48 => ⟨S100000x128, .i1⟩
  | 49 => ⟨S_, .f32⟩
  | 50 => ⟨S100000x128, .f32⟩
  | 51 => ⟨S100000x128, .f32⟩
  | 52 => ⟨S100000x128, .f32⟩
  | 53 => ⟨S100000x1, .f32⟩
  | 54 => ⟨S1x1, .f32⟩
  | 55 => ⟨S100000x1, .f32⟩
  | 56 => ⟨S100000x1, .f32⟩
  | 57 => ⟨S100000, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_call0_cst : Ref sig .tc := ⟨.hbm, 49, rfl⟩
abbrev main_call0_v0 : Ref sig .tc := ⟨.hbm, 50, rfl⟩
abbrev main_v20 : Ref sig .tc := ⟨.hbm, 51, rfl⟩
abbrev main_cst : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_cst_1 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_2 : Ref sig .tc := ⟨.hbm, 75, rfl⟩
abbrev main_v42 : Ref sig .tc := ⟨.hbm, 76, rfl⟩
abbrev main_cst_3 : Ref sig .tc := ⟨.hbm, 77, rfl⟩
abbrev main_v43 : Ref sig .tc := ⟨.hbm, 78, rfl⟩
abbrev main_v44 : Ref sig .tc := ⟨.hbm, 79, rfl⟩
abbrev main_c_4 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_cst_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_v7 : Ref sig .tc := ⟨.hbm, 90, rfl⟩
abbrev main_call1_cst_1 : Ref sig .tc := ⟨.hbm, 91, rfl⟩
abbrev main_call1_v8 : Ref sig .tc := ⟨.hbm, 92, rfl⟩
abbrev main_call1_cst_2 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_call1_cst_3 : Ref sig .tc := ⟨.hbm, 97, rfl⟩
abbrev main_call1_v12 : Ref sig .tc := ⟨.hbm, 98, rfl⟩
abbrev main_call1_cst_4 : Ref sig .tc := ⟨.hbm, 99, rfl⟩
abbrev main_call1_call0_v0 : Ref sig .tc := ⟨.hbm, 100, rfl⟩
abbrev main_call1_call0_v1 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_cst_5 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_cst_6 : Ref sig .tc := ⟨.hbm, 119, rfl⟩
abbrev main_v61 : Ref sig .tc := ⟨.hbm, 120, rfl⟩
abbrev main_v62 : Ref sig .tc := ⟨.hbm, 121, rfl⟩
abbrev main_cst_7 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_cst_8 : Ref sig .tc := ⟨.hbm, 138, rfl⟩
abbrev main_v78 : Ref sig .tc := ⟨.hbm, 139, rfl⟩
abbrev main_cst_9 : Ref sig .tc := ⟨.hbm, 140, rfl⟩
abbrev main_v79 : Ref sig .tc := ⟨.hbm, 141, rfl⟩
abbrev main_v80 : Ref sig .tc := ⟨.hbm, 142, rfl⟩
abbrev main_c_10 : Ref sig .tc := ⟨.hbm, 143, rfl⟩
abbrev main_call3_cst : Ref sig .tc := ⟨.hbm, 144, rfl⟩
abbrev main_call3_v0 : Ref sig .tc := ⟨.hbm, 145, rfl⟩
abbrev main_call3_v1 : Ref sig .tc := ⟨.hbm, 146, rfl⟩
abbrev main_call3_cst_0 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_call3_v5 : Ref sig .tc := ⟨.hbm, 151, rfl⟩
abbrev main_call3_v6 : Ref sig .tc := ⟨.hbm, 152, rfl⟩
abbrev main_call3_v7 : Ref sig .tc := ⟨.hbm, 153, rfl⟩
abbrev main_call3_cst_1 : Ref sig .tc := ⟨.hbm, 154, rfl⟩
abbrev main_call3_v8 : Ref sig .tc := ⟨.hbm, 155, rfl⟩
abbrev main_call3_cst_2 : Ref sig .tc := ⟨.hbm, 156, rfl⟩
abbrev main_call3_v9 : Ref sig .tc := ⟨.hbm, 157, rfl⟩
abbrev main_call3_v10 : Ref sig .tc := ⟨.hbm, 158, rfl⟩
abbrev main_call3_v11 : Ref sig .tc := ⟨.hbm, 159, rfl⟩
abbrev main_call3_cst_3 : Ref sig .tc := ⟨.hbm, 160, rfl⟩
abbrev main_call3_v12 : Ref sig .tc := ⟨.hbm, 161, rfl⟩
abbrev main_call3_cst_4 : Ref sig .tc := ⟨.hbm, 162, rfl⟩
abbrev main_call3_call0_v0 : Ref sig .tc := ⟨.hbm, 163, rfl⟩
abbrev main_call3_call0_v1 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_cst_11 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_cst_12 : Ref sig .tc := ⟨.hbm, 182, rfl⟩
abbrev main_v97 : Ref sig .tc := ⟨.hbm, 183, rfl⟩
abbrev main_v98 : Ref sig .tc := ⟨.hbm, 184, rfl⟩
abbrev main_cst_13 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_c_14 : Ref sig .tc := ⟨.hbm, 189, rfl⟩
abbrev main_v102 : Ref sig .tc := ⟨.hbm, 190, rfl⟩
abbrev main_v103 : Ref sig .tc := ⟨.hbm, 191, rfl⟩
abbrev main_c_15 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_call5_cst : Ref sig .tc := ⟨.hbm, 207, rfl⟩
abbrev main_call5_v0 : Ref sig .tc := ⟨.hbm, 208, rfl⟩
abbrev main_v118 : Ref sig .tc := ⟨.hbm, 209, rfl⟩
abbrev main_cst_16 : Ref sig .tc := ⟨.hbm, 210, rfl⟩
abbrev main_v119 : Ref sig .tc := ⟨.hbm, 211, rfl⟩
abbrev main_v120 : Ref sig .tc := ⟨.hbm, 212, rfl⟩
abbrev main_v121 : Ref sig .tc := ⟨.hbm, 213, rfl⟩
abbrev main_v122 : Ref sig .tc := ⟨.hbm, 214, rfl⟩
abbrev main_v123 : Ref sig .tc := ⟨.hbm, 215, rfl⟩
abbrev main_cst_17 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_cst_18 : Ref sig .tc := ⟨.hbm, 233, rfl⟩
abbrev main_v140 : Ref sig .tc := ⟨.hbm, 234, rfl⟩
abbrev main_cst_19 : Ref sig .tc := ⟨.hbm, 235, rfl⟩
abbrev main_v141 : Ref sig .tc := ⟨.hbm, 236, rfl⟩
abbrev main_v142 : Ref sig .tc := ⟨.hbm, 237, rfl⟩
abbrev main_c_20 : Ref sig .tc := ⟨.hbm, 238, rfl⟩
abbrev main_call6_cst : Ref sig .tc := ⟨.hbm, 239, rfl⟩
abbrev main_call6_v0 : Ref sig .tc := ⟨.hbm, 240, rfl⟩
abbrev main_call6_v1 : Ref sig .tc := ⟨.hbm, 241, rfl⟩
abbrev main_call6_cst_0 : Ref sig .tc := ⟨.hbm, 242, rfl⟩
abbrev main_call6_v2 : Ref sig .tc := ⟨.hbm, 243, rfl⟩
abbrev main_call6_v3 : Ref sig .tc := ⟨.hbm, 244, rfl⟩
abbrev main_call6_v4 : Ref sig .tc := ⟨.hbm, 245, rfl⟩
abbrev main_call6_v5 : Ref sig .tc := ⟨.hbm, 246, rfl⟩
abbrev main_call6_v6 : Ref sig .tc := ⟨.hbm, 247, rfl⟩
abbrev main_call6_v7 : Ref sig .tc := ⟨.hbm, 248, rfl⟩
abbrev main_call6_cst_1 : Ref sig .tc := ⟨.hbm, 249, rfl⟩
abbrev main_call6_v8 : Ref sig .tc := ⟨.hbm, 250, rfl⟩
abbrev main_call6_cst_2 : Ref sig .tc := ⟨.hbm, 251, rfl⟩
abbrev main_call6_v9 : Ref sig .tc := ⟨.hbm, 252, rfl⟩
abbrev main_call6_v10 : Ref sig .tc := ⟨.hbm, 253, rfl⟩
abbrev main_call6_v11 : Ref sig .tc := ⟨.hbm, 254, rfl⟩
abbrev main_call6_cst_3 : Ref sig .tc := ⟨.hbm, 255, rfl⟩
abbrev main_call6_v12 : Ref sig .tc := ⟨.hbm, 256, rfl⟩
abbrev main_call6_cst_4 : Ref sig .tc := ⟨.hbm, 257, rfl⟩
abbrev main_call6_call0_v0 : Ref sig .tc := ⟨.hbm, 258, rfl⟩
abbrev main_call6_call0_v1 : Ref sig .tc := ⟨.hbm, 259, rfl⟩
abbrev main_v143 : Ref sig .tc := ⟨.hbm, 260, rfl⟩
abbrev main_v144 : Ref sig .tc := ⟨.hbm, 261, rfl⟩
abbrev main_v145 : Ref sig .tc := ⟨.hbm, 262, rfl⟩
abbrev main_v146 : Ref sig .tc := ⟨.hbm, 263, rfl⟩
abbrev main_v147 : Ref sig .tc := ⟨.hbm, 264, rfl⟩
abbrev main_v148 : Ref sig .tc := ⟨.hbm, 265, rfl⟩
abbrev main_v149 : Ref sig .tc := ⟨.hbm, 266, rfl⟩
abbrev main_cst_21 : Ref sig .tc := ⟨.hbm, 267, rfl⟩
abbrev main_v150 : Ref sig .tc := ⟨.hbm, 268, rfl⟩
abbrev main_v151 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_v155 : Ref sig .tc := ⟨.hbm, 273, rfl⟩
abbrev main_v156 : Ref sig .tc := ⟨.hbm, 274, rfl⟩
abbrev main_v157 : Ref sig .tc := ⟨.hbm, 275, rfl⟩
abbrev main_v158 : Ref sig .tc := ⟨.hbm, 276, rfl⟩
abbrev main_cst_22 : Ref sig .tc := ⟨.hbm, 277, rfl⟩
abbrev main_v159 : Ref sig .tc := ⟨.hbm, 278, rfl⟩
abbrev main_v160 : Ref sig .tc := ⟨.hbm, 279, rfl⟩
abbrev main_cst_23 : Ref sig .tc := ⟨.hbm, 280, rfl⟩
abbrev main_v161 : Ref sig .tc := ⟨.hbm, 281, rfl⟩
abbrev main_v162 : Ref sig .tc := ⟨.hbm, 282, rfl⟩
abbrev main_v163 : Ref sig .tc := ⟨.hbm, 283, rfl⟩
abbrev main_v164 : Ref sig .tc := ⟨.hbm, 284, rfl⟩
abbrev main_v165 : Ref sig .tc := ⟨.hbm, 285, rfl⟩
abbrev main_v166 : Ref sig .tc := ⟨.hbm, 286, rfl⟩
abbrev main_v167 : Ref sig .tc := ⟨.hbm, 287, rfl⟩
abbrev main_v168 : Ref sig .tc := ⟨.hbm, 288, rfl⟩
abbrev main_v169 : Ref sig .tc := ⟨.hbm, 289, rfl⟩
abbrev main_v170 : Ref sig .tc := ⟨.hbm, 290, rfl⟩
abbrev main_v171 : Ref sig .tc := ⟨.hbm, 291, rfl⟩
abbrev main_v172 : Ref sig .tc := ⟨.hbm, 292, rfl⟩
abbrev main_v173 : Ref sig .tc := ⟨.hbm, 293, rfl⟩
abbrev main_v174 : Ref sig .tc := ⟨.hbm, 294, rfl⟩
abbrev main_v175 : Ref sig .tc := ⟨.hbm, 295, rfl⟩
abbrev main_cst_24 : Ref sig .tc := ⟨.hbm, 296, rfl⟩
abbrev main_v176 : Ref sig .tc := ⟨.hbm, 297, rfl⟩
abbrev main_cst_25 : Ref sig .tc := ⟨.hbm, 298, rfl⟩
abbrev main_v177 : Ref sig .tc := ⟨.hbm, 299, rfl⟩
abbrev main_v178 : Ref sig .tc := ⟨.hbm, 300, rfl⟩
abbrev main_c_26 : Ref sig .tc := ⟨.hbm, 301, rfl⟩
abbrev main_call8_cst : Ref sig .tc := ⟨.hbm, 302, rfl⟩
abbrev main_call8_v0 : Ref sig .tc := ⟨.hbm, 303, rfl⟩
abbrev main_call8_v1 : Ref sig .tc := ⟨.hbm, 304, rfl⟩
abbrev main_call8_cst_0 : Ref sig .tc := ⟨.hbm, 305, rfl⟩
abbrev main_call8_v2 : Ref sig .tc := ⟨.hbm, 306, rfl⟩
abbrev main_call8_v3 : Ref sig .tc := ⟨.hbm, 307, rfl⟩
abbrev main_call8_v4 : Ref sig .tc := ⟨.hbm, 308, rfl⟩
abbrev main_call8_v5 : Ref sig .tc := ⟨.hbm, 309, rfl⟩
abbrev main_call8_v6 : Ref sig .tc := ⟨.hbm, 310, rfl⟩
abbrev main_call8_v7 : Ref sig .tc := ⟨.hbm, 311, rfl⟩
abbrev main_call8_cst_1 : Ref sig .tc := ⟨.hbm, 312, rfl⟩
abbrev main_call8_v8 : Ref sig .tc := ⟨.hbm, 313, rfl⟩
abbrev main_call8_cst_2 : Ref sig .tc := ⟨.hbm, 314, rfl⟩
abbrev main_call8_v9 : Ref sig .tc := ⟨.hbm, 315, rfl⟩
abbrev main_call8_v10 : Ref sig .tc := ⟨.hbm, 316, rfl⟩
abbrev main_call8_v11 : Ref sig .tc := ⟨.hbm, 317, rfl⟩
abbrev main_call8_cst_3 : Ref sig .tc := ⟨.hbm, 318, rfl⟩
abbrev main_call8_v12 : Ref sig .tc := ⟨.hbm, 319, rfl⟩
abbrev main_call8_cst_4 : Ref sig .tc := ⟨.hbm, 320, rfl⟩
abbrev main_call8_call0_v0 : Ref sig .tc := ⟨.hbm, 321, rfl⟩
abbrev main_call8_call0_v1 : Ref sig .tc := ⟨.hbm, 322, rfl⟩
abbrev main_v179 : Ref sig .tc := ⟨.hbm, 323, rfl⟩
abbrev main_v180 : Ref sig .tc := ⟨.hbm, 324, rfl⟩
abbrev main_v181 : Ref sig .tc := ⟨.hbm, 325, rfl⟩
abbrev main_v182 : Ref sig .tc := ⟨.hbm, 326, rfl⟩
abbrev main_v183 : Ref sig .tc := ⟨.hbm, 327, rfl⟩
abbrev main_v184 : Ref sig .tc := ⟨.hbm, 328, rfl⟩
abbrev main_v185 : Ref sig .tc := ⟨.hbm, 329, rfl⟩
abbrev main_cst_27 : Ref sig .tc := ⟨.hbm, 330, rfl⟩
abbrev main_v186 : Ref sig .tc := ⟨.hbm, 331, rfl⟩
abbrev main_v187 : Ref sig .tc := ⟨.hbm, 332, rfl⟩
abbrev main_v188 : Ref sig .tc := ⟨.hbm, 333, rfl⟩
abbrev main_v189 : Ref sig .tc := ⟨.hbm, 334, rfl⟩
abbrev main_v190 : Ref sig .tc := ⟨.hbm, 335, rfl⟩
abbrev main_v191 : Ref sig .tc := ⟨.hbm, 336, rfl⟩
abbrev main_v192 : Ref sig .tc := ⟨.hbm, 337, rfl⟩
abbrev main_v193 : Ref sig .tc := ⟨.hbm, 338, rfl⟩
abbrev main_v194 : Ref sig .tc := ⟨.hbm, 339, rfl⟩
abbrev main_cst_28 : Ref sig .tc := ⟨.hbm, 340, rfl⟩
abbrev main_v195 : Ref sig .tc := ⟨.hbm, 341, rfl⟩
abbrev main_v196 : Ref sig .tc := ⟨.hbm, 342, rfl⟩
abbrev main_cst_29 : Ref sig .tc := ⟨.hbm, 343, rfl⟩
abbrev main_v197 : Ref sig .tc := ⟨.hbm, 344, rfl⟩
abbrev main_v198 : Ref sig .tc := ⟨.hbm, 345, rfl⟩
abbrev main_v199 : Ref sig .tc := ⟨.hbm, 346, rfl⟩
abbrev main_c_30 : Ref sig .tc := ⟨.hbm, 347, rfl⟩
abbrev main_v200 : Ref sig .tc := ⟨.hbm, 348, rfl⟩
abbrev main_v201 : Ref sig .tc := ⟨.hbm, 349, rfl⟩
abbrev main_c_31 : Ref sig .tc := ⟨.hbm, 350, rfl⟩
abbrev main_v202 : Ref sig .tc := ⟨.hbm, 351, rfl⟩
abbrev main_v203 : Ref sig .tc := ⟨.hbm, 352, rfl⟩
abbrev main_v204 : Ref sig .tc := ⟨.hbm, 353, rfl⟩
abbrev main_v205 : Ref sig .tc := ⟨.hbm, 354, rfl⟩
abbrev main_v206 : Ref sig .tc := ⟨.hbm, 355, rfl⟩
abbrev main_v207 : Ref sig .tc := ⟨.hbm, 356, rfl⟩
abbrev main_v208 : Ref sig .tc := ⟨.hbm, 357, rfl⟩
abbrev main_v209 : Ref sig .tc := ⟨.hbm, 358, rfl⟩
abbrev main_v210 : Ref sig .tc := ⟨.hbm, 359, rfl⟩
abbrev main_v211 : Ref sig .tc := ⟨.hbm, 360, rfl⟩
abbrev main_v212 : Ref sig .tc := ⟨.hbm, 361, rfl⟩
abbrev main_v213 : Ref sig .tc := ⟨.hbm, 362, rfl⟩
abbrev main_v214 : Ref sig .tc := ⟨.hbm, 363, rfl⟩
abbrev main_v215 : Ref sig .tc := ⟨.hbm, 364, rfl⟩
abbrev main_call10_cst : Ref sig .tc := ⟨.hbm, 365, rfl⟩
abbrev main_call10_v0 : Ref sig .tc := ⟨.hbm, 366, rfl⟩
abbrev main_v216 : Ref sig .tc := ⟨.hbm, 367, rfl⟩
abbrev main_cst_32 : Ref sig .tc := ⟨.hbm, 368, rfl⟩
abbrev main_v217 : Ref sig .tc := ⟨.hbm, 369, rfl⟩
abbrev main_v218 : Ref sig .tc := ⟨.hbm, 370, rfl⟩
abbrev main_v219 : Ref sig .tc := ⟨.hbm, 371, rfl⟩
abbrev main_v220 : Ref sig .tc := ⟨.hbm, 372, rfl⟩
abbrev main_v221 : Ref sig .tc := ⟨.hbm, 373, rfl⟩
abbrev main_cst_33 : Ref sig .tc := ⟨.hbm, 374, rfl⟩
abbrev main_v222 : Ref sig .tc := ⟨.hbm, 375, rfl⟩
abbrev main_v223 : Ref sig .tc := ⟨.hbm, 376, rfl⟩
abbrev main_v224 : Ref sig .tc := ⟨.hbm, 377, rfl⟩
abbrev main_v225 : Ref sig .tc := ⟨.hbm, 378, rfl⟩
abbrev main_v226 : Ref sig .tc := ⟨.hbm, 379, rfl⟩
abbrev main_v227 : Ref sig .tc := ⟨.hbm, 380, rfl⟩
abbrev main_v228 : Ref sig .tc := ⟨.hbm, 381, rfl⟩
abbrev main_v229 : Ref sig .tc := ⟨.hbm, 382, rfl⟩
abbrev main_v230 : Ref sig .tc := ⟨.hbm, 383, rfl⟩
abbrev main_v231 : Ref sig .tc := ⟨.hbm, 384, rfl⟩
abbrev main_v232 : Ref sig .tc := ⟨.hbm, 385, rfl⟩
abbrev main_v233 : Ref sig .tc := ⟨.hbm, 386, rfl⟩
abbrev main_v234 : Ref sig .tc := ⟨.hbm, 387, rfl⟩
abbrev main_v235 : Ref sig .tc := ⟨.hbm, 388, rfl⟩
abbrev main_v236 : Ref sig .tc := ⟨.hbm, 389, rfl⟩
abbrev main_v237 : Ref sig .tc := ⟨.hbm, 390, rfl⟩
abbrev main_cst_34 : Ref sig .tc := ⟨.hbm, 391, rfl⟩
abbrev main_v238 : Ref sig .tc := ⟨.hbm, 392, rfl⟩
abbrev main_cst_35 : Ref sig .tc := ⟨.hbm, 393, rfl⟩
abbrev main_v239 : Ref sig .tc := ⟨.hbm, 394, rfl⟩
abbrev main_v240 : Ref sig .tc := ⟨.hbm, 395, rfl⟩
abbrev main_c_36 : Ref sig .tc := ⟨.hbm, 396, rfl⟩
abbrev main_call11_cst : Ref sig .tc := ⟨.hbm, 397, rfl⟩
abbrev main_call11_v0 : Ref sig .tc := ⟨.hbm, 398, rfl⟩
abbrev main_call11_v1 : Ref sig .tc := ⟨.hbm, 399, rfl⟩
abbrev main_call11_cst_0 : Ref sig .tc := ⟨.hbm, 400, rfl⟩
abbrev main_call11_v2 : Ref sig .tc := ⟨.hbm, 401, rfl⟩
abbrev main_call11_v3 : Ref sig .tc := ⟨.hbm, 402, rfl⟩
abbrev main_call11_v4 : Ref sig .tc := ⟨.hbm, 403, rfl⟩
abbrev main_call11_v5 : Ref sig .tc := ⟨.hbm, 404, rfl⟩
abbrev main_call11_v6 : Ref sig .tc := ⟨.hbm, 405, rfl⟩
abbrev main_call11_v7 : Ref sig .tc := ⟨.hbm, 406, rfl⟩
abbrev main_call11_cst_1 : Ref sig .tc := ⟨.hbm, 407, rfl⟩
abbrev main_call11_v8 : Ref sig .tc := ⟨.hbm, 408, rfl⟩
abbrev main_call11_cst_2 : Ref sig .tc := ⟨.hbm, 409, rfl⟩
abbrev main_call11_v9 : Ref sig .tc := ⟨.hbm, 410, rfl⟩
abbrev main_call11_v10 : Ref sig .tc := ⟨.hbm, 411, rfl⟩
abbrev main_call11_v11 : Ref sig .tc := ⟨.hbm, 412, rfl⟩
abbrev main_call11_cst_3 : Ref sig .tc := ⟨.hbm, 413, rfl⟩
abbrev main_call11_v12 : Ref sig .tc := ⟨.hbm, 414, rfl⟩
abbrev main_call11_cst_4 : Ref sig .tc := ⟨.hbm, 415, rfl⟩
abbrev main_call11_call0_v0 : Ref sig .tc := ⟨.hbm, 416, rfl⟩
abbrev main_call11_call0_v1 : Ref sig .tc := ⟨.hbm, 417, rfl⟩
abbrev main_v241 : Ref sig .tc := ⟨.hbm, 418, rfl⟩
abbrev main_v242 : Ref sig .tc := ⟨.hbm, 419, rfl⟩
abbrev main_v243 : Ref sig .tc := ⟨.hbm, 420, rfl⟩
abbrev main_v244 : Ref sig .tc := ⟨.hbm, 421, rfl⟩
abbrev main_v245 : Ref sig .tc := ⟨.hbm, 422, rfl⟩
abbrev main_v246 : Ref sig .tc := ⟨.hbm, 423, rfl⟩
abbrev main_v247 : Ref sig .tc := ⟨.hbm, 424, rfl⟩
abbrev main_cst_37 : Ref sig .tc := ⟨.hbm, 425, rfl⟩
abbrev main_v248 : Ref sig .tc := ⟨.hbm, 426, rfl⟩
abbrev main_v249 : Ref sig .tc := ⟨.hbm, 427, rfl⟩
abbrev main_v250 : Ref sig .tc := ⟨.hbm, 428, rfl⟩
abbrev main_v251 : Ref sig .tc := ⟨.hbm, 429, rfl⟩
abbrev main_v252 : Ref sig .tc := ⟨.hbm, 430, rfl⟩
abbrev main_v253 : Ref sig .tc := ⟨.hbm, 431, rfl⟩
abbrev main_v254 : Ref sig .tc := ⟨.hbm, 432, rfl⟩
abbrev main_v255 : Ref sig .tc := ⟨.hbm, 433, rfl⟩
abbrev main_v256 : Ref sig .tc := ⟨.hbm, 434, rfl⟩
abbrev main_cst_38 : Ref sig .tc := ⟨.hbm, 435, rfl⟩
abbrev main_v257 : Ref sig .tc := ⟨.hbm, 436, rfl⟩
abbrev main_v258 : Ref sig .tc := ⟨.hbm, 437, rfl⟩
abbrev main_cst_39 : Ref sig .tc := ⟨.hbm, 438, rfl⟩
abbrev main_v259 : Ref sig .tc := ⟨.hbm, 439, rfl⟩
abbrev main_v260 : Ref sig .tc := ⟨.hbm, 440, rfl⟩
abbrev main_v261 : Ref sig .tc := ⟨.hbm, 441, rfl⟩
abbrev main_v262 : Ref sig .tc := ⟨.hbm, 442, rfl⟩
abbrev main_v263 : Ref sig .tc := ⟨.hbm, 443, rfl⟩
abbrev main_v264 : Ref sig .tc := ⟨.hbm, 444, rfl⟩
abbrev main_v265 : Ref sig .tc := ⟨.hbm, 445, rfl⟩
abbrev main_v266 : Ref sig .tc := ⟨.hbm, 446, rfl⟩
abbrev main_v267 : Ref sig .tc := ⟨.hbm, 447, rfl⟩
abbrev main_v268 : Ref sig .tc := ⟨.hbm, 448, rfl⟩
abbrev main_v269 : Ref sig .tc := ⟨.hbm, 449, rfl⟩
abbrev main_v270 : Ref sig .tc := ⟨.hbm, 450, rfl⟩
abbrev main_v271 : Ref sig .tc := ⟨.hbm, 451, rfl⟩
abbrev main_v272 : Ref sig .tc := ⟨.hbm, 452, rfl⟩
abbrev main_v273 : Ref sig .tc := ⟨.hbm, 453, rfl⟩
abbrev main_cst_40 : Ref sig .tc := ⟨.hbm, 454, rfl⟩
abbrev main_v274 : Ref sig .tc := ⟨.hbm, 455, rfl⟩
abbrev main_cst_41 : Ref sig .tc := ⟨.hbm, 456, rfl⟩
abbrev main_v275 : Ref sig .tc := ⟨.hbm, 457, rfl⟩
abbrev main_v276 : Ref sig .tc := ⟨.hbm, 458, rfl⟩
abbrev main_c_42 : Ref sig .tc := ⟨.hbm, 459, rfl⟩
abbrev main_call13_cst : Ref sig .tc := ⟨.hbm, 460, rfl⟩
abbrev main_call13_v0 : Ref sig .tc := ⟨.hbm, 461, rfl⟩
abbrev main_call13_v1 : Ref sig .tc := ⟨.hbm, 462, rfl⟩
abbrev main_call13_cst_0 : Ref sig .tc := ⟨.hbm, 463, rfl⟩
abbrev main_call13_v2 : Ref sig .tc := ⟨.hbm, 464, rfl⟩
abbrev main_call13_v3 : Ref sig .tc := ⟨.hbm, 465, rfl⟩
abbrev main_call13_v4 : Ref sig .tc := ⟨.hbm, 466, rfl⟩
abbrev main_call13_v5 : Ref sig .tc := ⟨.hbm, 467, rfl⟩
abbrev main_call13_v6 : Ref sig .tc := ⟨.hbm, 468, rfl⟩
abbrev main_call13_v7 : Ref sig .tc := ⟨.hbm, 469, rfl⟩
abbrev main_call13_cst_1 : Ref sig .tc := ⟨.hbm, 470, rfl⟩
abbrev main_call13_v8 : Ref sig .tc := ⟨.hbm, 471, rfl⟩
abbrev main_call13_cst_2 : Ref sig .tc := ⟨.hbm, 472, rfl⟩
abbrev main_call13_v9 : Ref sig .tc := ⟨.hbm, 473, rfl⟩
abbrev main_call13_v10 : Ref sig .tc := ⟨.hbm, 474, rfl⟩
abbrev main_call13_v11 : Ref sig .tc := ⟨.hbm, 475, rfl⟩
abbrev main_call13_cst_3 : Ref sig .tc := ⟨.hbm, 476, rfl⟩
abbrev main_call13_v12 : Ref sig .tc := ⟨.hbm, 477, rfl⟩
abbrev main_call13_cst_4 : Ref sig .tc := ⟨.hbm, 478, rfl⟩
abbrev main_call13_call0_v0 : Ref sig .tc := ⟨.hbm, 479, rfl⟩
abbrev main_call13_call0_v1 : Ref sig .tc := ⟨.hbm, 480, rfl⟩
abbrev main_v277 : Ref sig .tc := ⟨.hbm, 481, rfl⟩
abbrev main_v278 : Ref sig .tc := ⟨.hbm, 482, rfl⟩
abbrev main_v279 : Ref sig .tc := ⟨.hbm, 483, rfl⟩
abbrev main_v280 : Ref sig .tc := ⟨.hbm, 484, rfl⟩
abbrev main_v281 : Ref sig .tc := ⟨.hbm, 485, rfl⟩
abbrev main_v282 : Ref sig .tc := ⟨.hbm, 486, rfl⟩
abbrev main_v283 : Ref sig .tc := ⟨.hbm, 487, rfl⟩
abbrev main_cst_43 : Ref sig .tc := ⟨.hbm, 488, rfl⟩
abbrev main_v284 : Ref sig .tc := ⟨.hbm, 489, rfl⟩
abbrev main_v285 : Ref sig .tc := ⟨.hbm, 490, rfl⟩
abbrev main_v286 : Ref sig .tc := ⟨.hbm, 491, rfl⟩
abbrev main_v287 : Ref sig .tc := ⟨.hbm, 492, rfl⟩
abbrev main_v288 : Ref sig .tc := ⟨.hbm, 493, rfl⟩
abbrev main_v289 : Ref sig .tc := ⟨.hbm, 494, rfl⟩
abbrev main_v290 : Ref sig .tc := ⟨.hbm, 495, rfl⟩
abbrev main_v291 : Ref sig .tc := ⟨.hbm, 496, rfl⟩
abbrev main_v292 : Ref sig .tc := ⟨.hbm, 497, rfl⟩
abbrev main_cst_44 : Ref sig .tc := ⟨.hbm, 498, rfl⟩
abbrev main_v293 : Ref sig .tc := ⟨.hbm, 499, rfl⟩
abbrev main_v294 : Ref sig .tc := ⟨.hbm, 500, rfl⟩
abbrev main_cst_45 : Ref sig .tc := ⟨.hbm, 501, rfl⟩
abbrev main_v295 : Ref sig .tc := ⟨.hbm, 502, rfl⟩
abbrev main_v296 : Ref sig .tc := ⟨.hbm, 503, rfl⟩
abbrev main_v297 : Ref sig .tc := ⟨.hbm, 504, rfl⟩
abbrev main_v298 : Ref sig .tc := ⟨.hbm, 505, rfl⟩
abbrev main_v299 : Ref sig .tc := ⟨.hbm, 506, rfl⟩
abbrev main_v300 : Ref sig .tc := ⟨.hbm, 507, rfl⟩
abbrev main_v301 : Ref sig .tc := ⟨.hbm, 508, rfl⟩
abbrev main_v302 : Ref sig .tc := ⟨.hbm, 509, rfl⟩
abbrev main_v303 : Ref sig .tc := ⟨.hbm, 510, rfl⟩
abbrev main_v304 : Ref sig .tc := ⟨.hbm, 511, rfl⟩
abbrev main_v305 : Ref sig .tc := ⟨.hbm, 512, rfl⟩
abbrev main_v306 : Ref sig .tc := ⟨.hbm, 513, rfl⟩
abbrev main_cst_46 : Ref sig .tc := ⟨.hbm, 514, rfl⟩
abbrev main_v307 : Ref sig .tc := ⟨.hbm, 515, rfl⟩
abbrev main_cst_47 : Ref sig .tc := ⟨.hbm, 516, rfl⟩
abbrev main_v308 : Ref sig .tc := ⟨.hbm, 517, rfl⟩
abbrev main_v309 : Ref sig .tc := ⟨.hbm, 518, rfl⟩
abbrev main_c_48 : Ref sig .tc := ⟨.hbm, 519, rfl⟩
abbrev main_call15_cst : Ref sig .tc := ⟨.hbm, 520, rfl⟩
abbrev main_call15_v0 : Ref sig .tc := ⟨.hbm, 521, rfl⟩
abbrev main_call15_v1 : Ref sig .tc := ⟨.hbm, 522, rfl⟩
abbrev main_call15_cst_0 : Ref sig .tc := ⟨.hbm, 523, rfl⟩
abbrev main_call15_v2 : Ref sig .tc := ⟨.hbm, 524, rfl⟩
abbrev main_call15_v3 : Ref sig .tc := ⟨.hbm, 525, rfl⟩
abbrev main_call15_v4 : Ref sig .tc := ⟨.hbm, 526, rfl⟩
abbrev main_call15_v5 : Ref sig .tc := ⟨.hbm, 527, rfl⟩
abbrev main_call15_v6 : Ref sig .tc := ⟨.hbm, 528, rfl⟩
abbrev main_call15_v7 : Ref sig .tc := ⟨.hbm, 529, rfl⟩
abbrev main_call15_cst_1 : Ref sig .tc := ⟨.hbm, 530, rfl⟩
abbrev main_call15_v8 : Ref sig .tc := ⟨.hbm, 531, rfl⟩
abbrev main_call15_cst_2 : Ref sig .tc := ⟨.hbm, 532, rfl⟩
abbrev main_call15_v9 : Ref sig .tc := ⟨.hbm, 533, rfl⟩
abbrev main_call15_v10 : Ref sig .tc := ⟨.hbm, 534, rfl⟩
abbrev main_call15_v11 : Ref sig .tc := ⟨.hbm, 535, rfl⟩
abbrev main_call15_cst_3 : Ref sig .tc := ⟨.hbm, 536, rfl⟩
abbrev main_call15_v12 : Ref sig .tc := ⟨.hbm, 537, rfl⟩
abbrev main_call15_cst_4 : Ref sig .tc := ⟨.hbm, 538, rfl⟩
abbrev main_call15_call0_v0 : Ref sig .tc := ⟨.hbm, 539, rfl⟩
abbrev main_call15_call0_v1 : Ref sig .tc := ⟨.hbm, 540, rfl⟩
abbrev main_v310 : Ref sig .tc := ⟨.hbm, 541, rfl⟩
abbrev main_v311 : Ref sig .tc := ⟨.hbm, 542, rfl⟩
abbrev main_v312 : Ref sig .tc := ⟨.hbm, 543, rfl⟩
abbrev main_v313 : Ref sig .tc := ⟨.hbm, 544, rfl⟩
abbrev main_v314 : Ref sig .tc := ⟨.hbm, 545, rfl⟩
abbrev main_v315 : Ref sig .tc := ⟨.hbm, 546, rfl⟩
abbrev main_v316 : Ref sig .tc := ⟨.hbm, 547, rfl⟩
abbrev main_cst_49 : Ref sig .tc := ⟨.hbm, 548, rfl⟩
abbrev main_v317 : Ref sig .tc := ⟨.hbm, 549, rfl⟩
abbrev main_v318 : Ref sig .tc := ⟨.hbm, 550, rfl⟩
abbrev main_v319 : Ref sig .tc := ⟨.hbm, 551, rfl⟩
abbrev main_v320 : Ref sig .tc := ⟨.hbm, 552, rfl⟩
abbrev main_v321 : Ref sig .tc := ⟨.hbm, 553, rfl⟩
abbrev main_v322 : Ref sig .tc := ⟨.hbm, 554, rfl⟩
abbrev main_v323 : Ref sig .tc := ⟨.hbm, 555, rfl⟩
abbrev main_v324 : Ref sig .tc := ⟨.hbm, 556, rfl⟩
abbrev main_v325 : Ref sig .tc := ⟨.hbm, 557, rfl⟩
abbrev main_cst_50 : Ref sig .tc := ⟨.hbm, 558, rfl⟩
abbrev main_v326 : Ref sig .tc := ⟨.hbm, 559, rfl⟩
abbrev main_v327 : Ref sig .tc := ⟨.hbm, 560, rfl⟩
abbrev main_cst_51 : Ref sig .tc := ⟨.hbm, 561, rfl⟩
abbrev main_v328 : Ref sig .tc := ⟨.hbm, 562, rfl⟩
abbrev main_v329 : Ref sig .tc := ⟨.hbm, 563, rfl⟩
abbrev main_v330 : Ref sig .tc := ⟨.hbm, 564, rfl⟩
abbrev main_v331 : Ref sig .tc := ⟨.hbm, 565, rfl⟩
abbrev main_v332 : Ref sig .tc := ⟨.hbm, 566, rfl⟩
abbrev main_v333 : Ref sig .tc := ⟨.hbm, 567, rfl⟩
abbrev main_v334 : Ref sig .tc := ⟨.hbm, 568, rfl⟩
abbrev main_v335 : Ref sig .tc := ⟨.hbm, 569, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S3x16x64_S1x16x64_0_0_0 : S3x16x64.Slices ![0, 0, 0] S1x16x64
  shapeCasts_S1x16x64_S16x64 : S1x16x64.ShapeCasts S16x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  slices_S3_S1_0 : S3.Slices ![0] S1
  shapeCasts_S1_S_ : S1.ShapeCasts S_
  slices_S3x64x64_S1x64x64_0_0_0 : S3x64x64.Slices ![0, 0, 0] S1x64x64
  shapeCasts_S1x64x64_S64x64 : S1x64x64.ShapeCasts S64x64
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S2x64_S1x64_0_0 : S2x64.Slices ![0, 0] S1x64
  slices_S3x16x64_S1x16x64_1_0_0 : S3x16x64.Slices ![1, 0, 0] S1x16x64
  slices_S3x64_S1x64_1_0 : S3x64.Slices ![1, 0] S1x64
  slices_S3_S1_1 : S3.Slices ![1] S1
  slices_S3x64x64_S1x64x64_1_0_0 : S3x64x64.Slices ![1, 0, 0] S1x64x64
  slices_S2x64_S1x64_1_0 : S2x64.Slices ![1, 0] S1x64
  slices_S3x16x64_S1x16x64_2_0_0 : S3x16x64.Slices ![2, 0, 0] S1x16x64
  slices_S3x64_S1x64_2_0 : S3x64.Slices ![2, 0] S1x64
  slices_S3_S1_2 : S3.Slices ![2] S1
  slices_S3x64x64_S1x64x64_2_0_0 : S3x64x64.Slices ![2, 0, 0] S1x64x64
  concatenates_S100000x64_S100000x64_S100000x128_d1 : Shape.Concatenates [S100000x64, S100000x64] S100000x128 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  bcast_S_S128 : S_.BroadcastsInDim S128 (![] : Fin 0 → Fin S128.rank)
  bcast_S_S1x128 : S_.BroadcastsInDim S1x128 (![] : Fin 0 → Fin S1x128.rank)
  bcast_S_S100000x128 : S_.BroadcastsInDim S100000x128 (![] : Fin 0 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x64_S1600000x1_S1600000x64_1_0_n_n_0_1_164_wf : GatherDims.WF S100000x64 S1600000x1 S1600000x64 [1] [0] [] [0] [] 1 ![1, 64]
  dot_S1600000x16_S16x64_S1600000x64_1_0_0_1_n_n_wf : DotDims.WF S1600000x16 S16x64 S1600000x64 [1] [0] [0] [1] [] []
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x32_S32x64_S100000x64_1_0_0_1_n_n_wf : DotDims.WF S100000x32 S32x64 S100000x64 [1] [0] [0] [1] [] []
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x16_S16x64_S1600000x64_1_0_0_1_n_n : DotDims S1600000x16 S16x64 S1600000x64 where
  lhsContracting := [1]
  rhsContracting := [0]
  lhsNonContracting := [0]
  rhsNonContracting := [1]
  lhsBatch := []
  rhsBatch := []
  wf := dot_S1600000x16_S16x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.RunRef.lean ====
/- The reference program's @main as the list of its 543 host operations (the bodies of the functions it calls at the
   calls' records), cut into 33 consecutive stretches, and its run read back: every weakly fair execution terminates with
   every buffer at the fold of the operations over the launch contents (the stretches' folds one after the other). -/
import proofs.«409037_j72164040508123_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Running two stretches one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A property of every operation of two stretches holds of their concatenation. -/
theorem forall_append {p : HloOp τ sig (Elt F) → Prop} {l₁ l₂ : List (HloOp τ sig (Elt F))} (h₁ : l₁.Forall p) (h₂ : l₂.Forall p) :
    (l₁ ++ l₂).Forall p := by
  rw [List.forall_iff_forall_mem] at *
  intro x hx
  rcases List.mem_append.mp hx with h | h
  · exact h₁ x h
  · exact h₂ x h
theorem mem_append_all {p : HloOp τ sig (Elt F) → Prop} {l₁ l₂ : List (HloOp τ sig (Elt F))} (h₁ : ∀ op ∈ l₁, p op) (h₂ : ∀ op ∈ l₂, p op) :
    ∀ op ∈ l₁ ++ l₂, p op := by
  intro x hx
  rcases List.mem_append.mp hx with h | h
  · exact h₁ x h
  · exact h₂ x h

/-- Operations 0 to 19 of @main (main_part0). -/
abbrev rops0 : List (HloOp τ sig (Elt F)) :=
  [ StableHlo.unary main_arg3 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg3 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_arg4 main_v11 ((extractStridedSlice S1x16x64 ![0, 0, 0] · slices_S3x16x64_S1x16x64_0_0_0) : (⟨S3x16x64, .f32⟩ : BufTy).Contents (Elt F) → (⟨S1x16x64, .f32⟩ : BufTy).Contents (Elt F)),
    StableHlo.reshape main_v11 main_v12 rfl shapeCasts_S1x16x64_S16x64,
    StableHlo.binary main_arg1 main_v12 main_v13 ((fun l r => Host.dotGeneral dot_S1600000x16_S16x64_S1600000x64_1_0_0_1_n_n none l r) : (⟨S1600000x16, .f32⟩ : BufTy).Contents (Elt F) → (⟨S16x64, .f32⟩ : BufTy).Contents (Elt F) → (⟨S1600000x64, .f32⟩ : BufTy).Contents (Elt F)),
    StableHlo.binary main_v10 main_v13 main_v14 (addf : (⟨S1600000x64, .f32⟩ : BufTy).Contents (Elt F) → (⟨S1600000x64, .f32⟩ : BufTy).Contents (Elt F) → (⟨S1600000x64, .f32⟩ : BufTy).Contents (Elt F)),
    StableHlo.unary main_arg5 main_v15 ((extractStridedSlice S1x64 ![0, 0] · slices_S3x64_S1x64_0_0) : (⟨S3x64, .f32⟩ : BufTy).Contents (Elt F) → (⟨S1x64, .f32⟩ : BufTy).Contents (Elt F)),
    StableHlo.reshape main_v15 main_v16 rfl shapeCasts_S1x64_S64,
    StableHlo.unary main_v16 main_v17 (broadcastInDim S1x64 ![1] bcast_S64_S1x64_1 : (⟨S64, .f32⟩ : BufTy).Contents (Elt F) → (⟨S1x64, .f32⟩ : BufTy).Contents (Elt F)) ]
theorem rops0_sub : (rops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., unary_bufs_sub ..⟩
theorem rops0_fresh : ∀ op ∈ (rops0 : List (HloOp τ sig (Elt F))), op.fresh = ∅ := by
  intro _ h; (repeat (cases h with | head => rfl | tail _ h => ?_)); exact nomatch h

/-- Operations 20 to 39 of @main (main_part0). -/
abbrev rops1 : List (HloOp τ sig (Elt F)) :=
  [ StableHlo.unary main_v17 main_v18 (broadcastInDim S1600000x64 ![0, 1] bcast_S1x64_S1600000x64_0_1 : (⟨S1x64, .f32⟩ : BufTy).Contents (Elt F) → (⟨S1600000x64, .f32⟩ : BufTy).Contents (Elt F)),
    StableHlo.binary main_v14 main_v18 main_v19 (addf : (⟨S1600000x64, .f32⟩ : BufTy).Contents (Elt F) → (⟨S1600000x64, .f32⟩ : BufTy).Contents (Elt F) → (⟨S1600000x64, .f32⟩ : BufTy).Contents (Elt F)),
    StableHlo.TRef.nullary main_call0.cst (constant S_ .f32 0x00000000#32),
    StableHlo.TRef.unary main_call0.cst main_call0.v0 (broadcastInDim S1600000x64 ![] bcast_S_S1600000x64),
    StableHlo.TRef.binary (.of main_v19) main_call0.v0 main_call0.v1 maximumf,
    StableHlo.nullary main_cst (constant S_ .f32 0x00000000#32),
    StableHlo.unary main_cst main_v21 (broadcastInDim S100000x64 ![] bcast_S_S100000x64 : (⟨S_, .f32⟩ : BufTy).Contents (Elt F) → (⟨S100000x64, .f32⟩ : BufTy).Contents (Elt F)),
    StableHlo.unary main_v3 main_v22 (broadcastInDim S1600000x1 ![0] bcast_S1600000_S1600000x1_0 : (⟨S1600000, .i32⟩ : BufTy).Contents (Elt F) → (⟨S1600000x1, .i32⟩ : BufTy).Contents (Elt F)),
    StableHlo.ternary main_v21 main_v22 main_v20 main_v23 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg6 main_v24 ((extractStridedSlice S1 ![0] · slices_S3_S1_0) : (⟨S3, .f32⟩ : BufTy).Contents (Elt F) → (⟨S1, .f32⟩ : BufTy).Contents (Elt F)),
    StableHlo.reshape main_v24 main_v25 rfl shapeCasts_S1_S_,
    StableHlo.nullary main_cst_1 (constant S_ .f32 0x3F800000#32),
    StableHlo.binary main_cst_1 main_v25 main_v26 (addf : (⟨S_, .f32⟩ : BufTy).Contents (Elt F) → (⟨S_, .f32⟩ : BufTy).Contents (Elt F) → (⟨S_, .f32⟩ : BufTy).Contents (Elt F)),
    StableHlo.unary main_v26 main_v27 (broadcastInDim S100000x64 ![] bcast_S_S100000x64 : (⟨S_, .f32⟩ : BufTy).Contents (Elt F) → (⟨S100000x64, .f32⟩ : BufTy).Contents (Elt F)),
    StableHlo.binary main_v27 main_arg0 main_v28 (mulf : (⟨S100000x64, .f32⟩ : BufTy).Contents (Elt F) → (⟨S100000x64, .f32⟩ : BufTy).Contents (Elt F) → (⟨S100000x64, .f32⟩ : BufTy).Contents (Elt F)),
    StableHlo.binary main_v28 main_v23 main_v29 (addf : (⟨S100000x64, .f32⟩ : BufTy).Contents (Elt F) → (⟨S100000x64, .f32⟩ : BufTy).Contents (Elt F) → (⟨S100000x64, .f32⟩ : BufTy).Contents (Elt F)),
    StableHlo.unary main_arg7 main_v30 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v30 main_v31 rfl shapeCasts_S1x64x64_S64x64,
    StableHlo.binary main_v29 main_v31 main_v32 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v33 ((extractStridedSlice S1x64 ![0, 0] · slices_S3x64_S1x64_0_0) : (⟨S3x64, .f32⟩ : BufTy).Contents (Elt F) → (⟨S1x64, .f32⟩ : BufTy).Contents (Elt F)) ]
theorem rops1_sub : (rops1 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub ..⟩
theorem rops1_fresh : ∀ op ∈ (rops1 : List (HloOp τ sig (Elt F))), op.fresh = ∅ := by
  intro _ h; (repeat (cases h with | head => rfl | tail _ h => ?_)); exact nomatch h

/-- Operations 40 to 59 of @main (main_part0). -/
abbrev rops2 : List (HloOp τ sig (Elt F)) :=
  [ StableHlo.reshape main_v33 main_v34 rfl shapeCasts_S1x64_S64,
    StableHlo.unary main_v34 main_v35 (broadcastInDim S1x64 ![1] bcast_S64_S1x64_1 : (⟨S64, .f32⟩ : BufTy).Contents (Elt F) → (⟨S1x64, .f32⟩ : BufTy).Contents (Elt F)),
    StableHlo.unary main_v35 main_v36 (broadcastInDim S100000x64 ![0, 1] bcast_S1x64_S100000x64_0_1 : (⟨S1x64, .f32⟩ : BufTy).Contents (Elt F) → (⟨S100000x64, .f32⟩ : BufTy).Contents (Elt F)),
    StableHlo.binary main_v32 main_v36 main_v37 (addf : (⟨S100000x64, .f32⟩ : BufTy).Contents (Elt F) → (⟨S100000x64, .f32⟩ : BufTy).Contents (Elt F) → (⟨S100000x64, .f32⟩ : BufTy).Contents (Elt F)),
    StableHlo.unary main_arg9 main_v38 ((extractStridedSlice S1x64 ![0, 0] · slices_S3x64_S1x64_0_0) : (⟨S3x64, .f32⟩ : BufTy).Contents (Elt F) → (⟨S1x64, .f32⟩ : BufTy).Contents (Elt F)),
    StableHlo.reshape main_v38 main_v39 rfl shapeCasts_S1x64_S64,
    StableHlo.unary main_arg10 main_v40 ((extractStridedSlice S1x64 ![0, 0] · slices_S3x64_S1x64_0_0) : (⟨S3x64, .f32⟩ : BufTy).Contents (Elt F) → (⟨S1x64, .f32⟩ : BufTy).Contents (Elt F)),
    StableHlo.reshape main_v40 main_v41 rfl shapeCasts_S1x64_S64,
    StableHlo.nullary main_cst_2 (constant S_ .f32 0x00000000#32),
    StableHlo.binary main_v37 main_cst_2 main_v42 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_3 (constant S_ .f32 0x47C35000#32),
    StableHlo.unary main_cst_3 main_v43 (broadcastInDim S64 ![] bcast_S_S64 : (⟨S_, .f32⟩ : BufTy).Contents (Elt F) → (⟨S64, .f32⟩ : BufTy).Contents (Elt F)),
    StableHlo.binary main_v42 main_v43 main_v44 (Host.divf : (⟨S64, .f32⟩ : BufTy).Contents (Elt F) → (⟨S64, .f32⟩ : BufTy).Contents (Elt F) → (⟨S64, .f32⟩ : BufTy).Contents (Elt F)),
    StableHlo.nullary main_c_4 (constantI S_ 32 0#32),
    StableHlo.TRef.nullary main_call1.cst (constant S_ .f32 0x00000000#32),
    StableHlo.TRef.binary (.of main_v37) main_call1.cst main_call1.v0 (fun x v => Host.reduceAdd x v reducesTo_S100000x64_S64_d0 h_S_),
    StableHlo.TRef.unary main_call1.v0 main_call1.v1 (broadcastInDim S1x64 ![1] bcast_S64_S1x64_1),
    StableHlo.TRef.nullary main_call1.cst_0 (constant S_ .f32 0x47C35000#32),
    StableHlo.TRef.unary main_call1.cst_0 main_call1.v2 (broadcastInDim S1x64 ![] bcast_S_S1x64),
    StableHlo.TRef.binary main_call1.v1 main_call1.v2 main_call1.v3 Host.divf ]
theorem rops2_sub : (rops2 : List (HloOp τ sig (Elt F))).Forall fun op => op.bufs ⊆ tcRefs τ sig :=
  ⟨reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub ..⟩
theorem rops2_fresh : ∀ op ∈ (rops2 : List (HloOp τ sig (Elt F))), op.fresh = ∅ := by
  intro _ h; (repeat (cases h with | head => rfl | tail _ h => ?_)); exact nomatch h

/-- Operations 60 to 79 of @main (main_part0). -/
abbrev rops3 : List (HloOp τ sig (Elt F)) :=
  [ StableHlo.TRef.unary main_call1.v3 main_call1.v4 (broadcastInDim S100000x64 ![0, 1] bcast_S1x64_S100000x64_0_1),
    StableHlo.TRef.binary (.of main_v37) main_call1.v4 main_call1.v5 subf,
    StableHlo.TRef.binary main_call1.v5 main_call1.v5 main_call1.v6 mulf,
    StableHlo.TRef.unary (.of main_c_4) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_v44 main_v46 (broadcastInDim S1x64 ![1] bcast_S64_S1x64_1 : (⟨S64, .f32⟩ : BufTy).Contents (Elt F) → (⟨S1x64, .f32⟩ : BufTy).Contents (Elt F)),
    StableHlo.unary main_v46 main_v47 (broadcastInDim S100000x64 ![0, 1] bcast_S1x64_S100000x64_0_1 : (⟨S1x64, .f32⟩ : BufTy).Contents (Elt F) → (⟨S100000x64, .f32⟩ : BufTy).Contents (Elt F)),
    StableHlo.binary main_v37 main_v47 main_v48 (subf : (⟨S100000x64, .f32⟩ : BufTy).Contents (Elt F) → (⟨S100000x64, .f32⟩ : BufTy).Contents (Elt F) → (⟨S100000x64, .f32⟩ : BufTy).Contents (Elt F)),
    StableHlo.unary main_v39 main_v49 (broadcastInDim S1x64 ![1] bcast_S64_S1x64_1 : (⟨S64, .f32⟩ : BufTy).Contents (Elt F) → (⟨S1x64, .f32⟩ : BufTy).Contents (Elt F)) ]
theorem rops3_sub : (rops3 : List (HloOp τ sig (Elt F))).Forall fun op => op.bufs ⊆ tcRefs τ sig :=
  ⟨unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub ..⟩
theorem rops3_fresh : ∀ op ∈ (rops3 : List (HloOp τ sig (Elt F))), op.fresh = ∅ := by
  intro _ h; (repeat (cases h with | head => rfl | tail _ h => ?_)); exact nomatch h

/-- Operations 80 to 82 of @main (main_part0). -/
abbrev rops4 : List (HloOp τ sig (Elt F)) :=
  [ StableHlo.unary main_v49 main_v50 (broadcastInDim S100000x64 ![0, 1] bcast_S1x64_S100000x64_0_1 : (⟨S1x64, .f32⟩ : BufTy).Contents (Elt F) → (⟨S100000x64, .f32⟩ : BufTy).Contents (Elt F)),
    StableHlo.binary main_v50 main_v48 main_v51 (mulf : (⟨S100000x64, .f32⟩ : BufTy).Contents (Elt F) → (⟨S100000x64, .f32⟩ : BufTy).Contents (Elt F) → (⟨S100000x64, .f32⟩ : BufTy).Contents (Elt F)),
    StableHlo.nullary main_cst_5 (constant S_ .f32 0x3727C5AC#32) ]
theorem rops4_sub : (rops4 : List (HloOp τ sig (Elt F))).Forall fun op => op.bufs ⊆ tcRefs τ sig :=
  ⟨unary_bufs_sub .., binary_bufs_sub .., nullary_bufs_sub ..⟩
theorem rops4_fresh : ∀ op ∈ (rops4 : List (HloOp τ sig (Elt F))), op.fresh = ∅ := by
  intro _ h; (repeat (cases h with | head => rfl | tail _ h => ?_)); exact nomatch h

/-- Operations 83 to 102 of @main (main_part1). -/
abbrev rops5 : List (HloOp τ sig (Elt F)) :=
  [ StableHlo.unary main_cst_5 main_v52 (broadcastInDim S64 ![] bcast_S_S64 : (⟨S_, .f32⟩ : BufTy).Contents (Elt F) → (⟨S64, .f32⟩ : BufTy).Contents (Elt F)),
    StableHlo.binary main_v45 main_v52 main_v53 (addf : (⟨S64, .f32⟩ : BufTy).Contents (Elt F) → (⟨S64, .f32⟩ : BufTy).Contents (Elt F) → (⟨S64, .f32⟩ : BufTy).Contents (Elt F)),
    StableHlo.unary main_v53 main_v54 (Host.rsqrt : (⟨S64, .f32⟩ : BufTy).Contents (Elt F) → (⟨S64, .f32⟩ : BufTy).Contents (Elt F)),
    StableHlo.unary main_v54 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S100000x64 ![0, 1] bcast_S1x64_S100000x64_0_1 : (⟨S1x64, .f32⟩ : BufTy).Contents (Elt F) → (⟨S100000x64, .f32⟩ : BufTy).Contents (Elt F)),
    StableHlo.binary main_v51 main_v56 main_v57 (mulf : (⟨S100000x64, .f32⟩ : BufTy).Contents (Elt F) → (⟨S100000x64, .f32⟩ : BufTy).Contents (Elt F) → (⟨S100000x64, .f32⟩ : BufTy).Contents (Elt F)),
    StableHlo.unary main_v41 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S100000x64 ![0, 1] bcast_S1x64_S100000x64_0_1 : (⟨S1x64, .f32⟩ : BufTy).Contents (Elt F) → (⟨S100000x64, .f32⟩ : BufTy).Contents (Elt F)),
    StableHlo.binary main_v57 main_v59 main_v60 (addf : (⟨S100000x64, .f32⟩ : BufTy).Contents (Elt F) → (⟨S100000x64, .f32⟩ : BufTy).Contents (Elt F) → (⟨S100000x64, .f32⟩ : BufTy).Contents (Elt F)),
    StableHlo.nullary main_cst_6 (constant S_ .f32 0x00000000#32),
    StableHlo.unary main_cst_6 main_v61 (broadcastInDim S100000x64 ![] bcast_S_S100000x64 : (⟨S_, .f32⟩ : BufTy).Contents (Elt F) → (⟨S100000x64, .f32⟩ : BufTy).Contents (Elt F)),
    StableHlo.binary main_v60 main_v61 main_v62 (cmpf .oge : (⟨S100000x64, .f32⟩ : BufTy).Contents (Elt F) → (⟨S100000x64, .f32⟩ : BufTy).Contents (Elt F) → (⟨S100000x64, .i1⟩ : BufTy).Contents (Elt F)),
    StableHlo.nullary main_cst_7 (constant S_ .f32 0x3C23D70A#32),
    StableHlo.unary main_cst_7 main_v63 (broadcastInDim S100000x64 ![] bcast_S_S100000x64 : (⟨S_, .f32⟩ : BufTy).Contents (Elt F) → (⟨S100000x64, .f32⟩ : BufTy).Contents (Elt F)),
    StableHlo.binary main_v63 main_v60 main_v64 (mulf : (⟨S100000x64, .f32⟩ : BufTy).Contents (Elt F) → (⟨S100000x64, .f32⟩ : BufTy).Contents (Elt F) → (⟨S100000x64, .f32⟩ : BufTy).Contents (Elt F)),
    StableHlo.TRef.ternary (.of main_v62) (.of main_v60) (.of main_v64) main_call2.v0 select,
    StableHlo.unary main_arg11 main_v66 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v66 main_v67 rfl shapeCasts_S1x64x64_S64x64,
    StableHlo.binary main_v65 main_v67 main_v68 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg12 main_v69 ((extractStridedSlice S1x64 ![0, 0] · slices_S3x64_S1x64_0_0) : (⟨S3x64, .f32⟩ : BufTy).Contents (Elt F) → (⟨S1x64, .f32⟩ : BufTy).Contents (Elt F)) ]
theorem rops5_sub : (rops5 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., reshape_bufs_sub .., binary_bufs_sub .., unary_bufs_sub ..⟩
theorem rops5_fresh : ∀ op ∈ (rops5 : List (HloOp τ sig (Elt F))), op.fresh = ∅ := by
  intro _ h; (repeat (cases h with | head => rfl | tail _ h => ?_)); exact nomatch h

/-- Operations 103 to 122 of @main (main_part1). -/
abbrev rops6 : List (HloOp τ sig (Elt F)) :=
  [ StableHlo.reshape main_v69 main_v70 rfl shapeCasts_S1x64_S64,
    StableHlo.unary main_v70 main_v71 (broadcastInDim S1x64 ![1] bcast_S64_S1x64_1 : (⟨S64, .f32⟩ : BufTy).Contents (Elt F) → (⟨S1x64, .f32⟩ : BufTy).Contents (Elt F)),
    StableHlo.unary main_v71 main_v72 (broadcastInDim S100000x64 ![0, 1] bcast_S1x64_S100000x64_0_1 : (⟨S1x64, .f32⟩ : BufTy).Contents (Elt F) → (⟨S100000x64, .f32⟩ : BufTy).Contents (Elt F)),
    StableHlo.binary main_v68 main_v72 main_v73 (addf : (⟨S100000x64, .f32⟩ : BufTy).Contents (Elt F) → (⟨S100000x64, .f32⟩ : BufTy).Contents (Elt F) → (⟨S100000x64, .f32⟩ : BufTy).Contents (Elt F)),
    StableHlo.unary main_arg13 main_v74 ((extractStridedSlice S1x64 ![0, 0] · slices_S2x64_S1x64_0_0) : (⟨S2x64, .f32⟩ : BufTy).Contents (Elt F) → (⟨S1x64, .f32⟩ : BufTy).Contents (Elt F)),
    StableHlo.reshape main_v74 main_v75 rfl shapeCasts_S1x64_S64,
    StableHlo.unary main_arg14 main_v76 ((extractStridedSlice S1x64 ![0, 0] · slices_S2x64_S1x64_0_0) : (⟨S2x64, .f32⟩ : BufTy).Contents (Elt F) → (⟨S1x64, .f32⟩ : BufTy).Contents (Elt F)),
    StableHlo.reshape main_v76 main_v77 rfl shapeCasts_S1x64_S64,
    StableHlo.nullary main_cst_8 (constant S_ .f32 0x00000000#32),
    StableHlo.binary main_v73 main_cst_8 main_v78 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_9 (constant S_ .f32 0x47C35000#32),
    StableHlo.unary main_cst_9 main_v79 (broadcastInDim S64 ![] bcast_S_S64 : (⟨S_, .f32⟩ : BufTy).Contents (Elt F) → (⟨S64, .f32⟩ : BufTy).Contents (Elt F)),
    StableHlo.binary main_v78 main_v79 main_v80 (Host.divf : (⟨S64, .f32⟩ : BufTy).Contents (Elt F) → (⟨S64, .f32⟩ : BufTy).Contents (Elt F) → (⟨S64, .f32⟩ : BufTy).Contents (Elt F)),
    StableHlo.nullary main_c_10 (constantI S_ 32 0#32),
    StableHlo.TRef.nullary main_call3.cst (constant S_ .f32 0x00000000#32),
    StableHlo.TRef.binary (.of main_v73) main_call3.cst main_call3.v0 (fun x v => Host.reduceAdd x v reducesTo_S100000x64_S64_d0 h_S_),
    StableHlo.TRef.unary main_call3.v0 main_call3.v1 (broadcastInDim S1x64 ![1] bcast_S64_S1x64_1),
    StableHlo.TRef.nullary main_call3.cst_0 (constant S_ .f32 0x47C35000#32),
    StableHlo.TRef.unary main_call3.cst_0 main_call3.v2 (broadcastInDim S1x64 ![] bcast_S_S1x64),
    StableHlo.TRef.binary main_call3.v1 main_call3.v2 main_call3.v3 Host.divf ]
theorem rops6_sub : (rops6 : List (HloOp τ sig (Elt F))).Forall fun op => op.bufs ⊆ tcRefs τ sig :=
  ⟨reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub ..⟩
theorem rops6_fresh : ∀ op ∈ (rops6 : List (HloOp τ sig (Elt F))), op.fresh = ∅ := by
  intro _ h; (repeat (cases h with | head => rfl | tail _ h => ?_)); exact nomatch h

/-- Operations 123 to 142 of @main (main_part1). -/
abbrev rops7 : List (HloOp τ sig (Elt F)) :=
  [ StableHlo.TRef.unary main_call3.v3 main_call3.v4 (broadcastInDim S100000x64 ![0, 1] bcast_S1x64_S100000x64_0_1),
    StableHlo.TRef.binary (.of main_v73) main_call3.v4 main_call3.v5 subf,
    StableHlo.TRef.binary main_call3.v5 main_call3.v5 main_call3.v6 mulf,
    StableHlo.TRef.unary (.of main_c_10) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b),
    StableHlo.unary main_v80 main_v82 (broadcastInDim S1x64 ![1] bcast_S64_S1x64_1 : (⟨S64, .f32⟩ : BufTy).Contents (Elt F) → (⟨S1x64, .f32⟩ : BufTy).Contents (Elt F)),
    StableHlo.unary main_v82 main_v83 (broadcastInDim S100000x64 ![0, 1] bcast_S1x64_S100000x64_0_1 : (⟨S1x64, .f32⟩ : BufTy).Contents (Elt F) → (⟨S100000x64, .f32⟩ : BufTy).Contents (Elt F)),
    StableHlo.binary main_v73 main_v83 main_v84 (subf : (⟨S100000x64, .f32⟩ : BufTy).Contents (Elt F) → (⟨S100000x64, .f32⟩ : BufTy).Contents (Elt F) → (⟨S100000x64, .f32⟩ : BufTy).Contents (Elt F)),
    StableHlo.unary main_v75 main_v85 (broadcastInDim S1x64 ![1] bcast_S64_S1x64_1 : (⟨S64, .f32⟩ : BufTy).Contents (Elt F) → (⟨S1x64, .f32⟩ : BufTy).Contents (Elt F)) ]
theorem rops7_sub : (rops7 : List (HloOp τ sig (Elt F))).Forall fun op => op.bufs ⊆ tcRefs τ sig :=
  ⟨unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub ..⟩
theorem rops7_fresh : ∀ op ∈ (rops7 : List (HloOp τ sig (Elt F))), op.fresh = ∅ := by
  intro _ h; (repeat (cases h with | head => rfl | tail _ h => ?_)); exact nomatch h

/-- Operations 143 to 162 of @main (main_part1). -/
abbrev rops8 : List (HloOp τ sig (Elt F)) :=
  [ StableHlo.unary main_v85 main_v86 (broadcastInDim S100000x64 ![0, 1] bcast_S1x64_S100000x64_0_1 : (⟨S1x64, .f32⟩ : BufTy).Contents (Elt F) → (⟨S100000x64, .f32⟩ : BufTy).Contents (Elt F)),
    StableHlo.binary main_v86 main_v84 main_v87 (mulf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x3727C5AC#32),
    StableHlo.unary main_cst_11 main_v88 (broadcastInDim S64 ![] bcast_S_S64 : (⟨S_, .f32⟩ : BufTy).Contents (Elt F) → (⟨S64, .f32⟩ : BufTy).Contents (Elt F)),
    StableHlo.binary main_v81 main_v88 main_v89 (addf : (⟨S64, .f32⟩ : BufTy).Contents (Elt F) → (⟨S64, .f32⟩ : BufTy).Contents (Elt F) → (⟨S64, .f32⟩ : BufTy).Contents (Elt F)),
    StableHlo.unary main_v89 main_v90 (Host.rsqrt : (⟨S64, .f32⟩ : BufTy).Contents (Elt F) → (⟨S64, .f32⟩ : BufTy).Contents (Elt F)),
    StableHlo.unary main_v90 main_v91 (broadcastInDim S1x64 ![1] bcast_S64_S1x64_1 : (⟨S64, .f32⟩ : BufTy).Contents (Elt F) → (⟨S1x64, .f32⟩ : BufTy).Contents (Elt F)),
    StableHlo.unary main_v91 main_v92 (broadcastInDim S100000x64 ![0, 1] bcast_S1x64_S100000x64_0_1 : (⟨S1x64, .f32⟩ : BufTy).Contents (Elt F) → (⟨S100000x64, .f32⟩ : BufTy).Contents (Elt F)),
    StableHlo.binary main_v87 main_v92 main_v93 (mulf : (⟨S100000x64, .f32⟩ : BufTy).Contents (Elt F) → (⟨S100000x64, .f32⟩ : BufTy).Contents (Elt F) → (⟨S100000x64, .f32⟩ : BufTy).Contents (Elt F)),
    StableHlo.unary main_v77 main_v94 (broadcastInDim S1x64 ![1] bcast_S64_S1x64_1 : (⟨S64, .f32⟩ : BufTy).Contents (Elt F) → (⟨S1x64, .f32⟩ : BufTy).Contents (Elt F)),
    StableHlo.unary main_v94 main_v95 (broadcastInDim S100000x64 ![0, 1] bcast_S1x64_S100000x64_0_1 : (⟨S1x64, .f32⟩ : BufTy).Contents (Elt F) → (⟨S100000x64, .f32⟩ : BufTy).Contents (Elt F)),
    StableHlo.binary main_v93 main_v95 main_v96 (addf : (⟨S100000x64, .f32⟩ : BufTy).Contents (Elt F) → (⟨S100000x64, .f32⟩ : BufTy).Contents (Elt F) → (⟨S100000x64, .f32⟩ : BufTy).Contents (Elt F)),
    StableHlo.nullary main_cst_12 (constant S_ .f32 0x00000000#32),
    StableHlo.unary main_cst_12 main_v97 (broadcastInDim S100000x64 ![] bcast_S_S100000x64 : (⟨S_, .f32⟩ : BufTy).Contents (Elt F) → (⟨S100000x64, .f32⟩ : BufTy).Contents (Elt F)),
    StableHlo.binary main_v96 main_v97 main_v98 (cmpf .oge : (⟨S100000x64, .f32⟩ : BufTy).Contents (Elt F) → (⟨S100000x64, .f32⟩ : BufTy).Contents (Elt F) → (⟨S100000x64, .i1⟩ : BufTy).Contents (Elt F)),
    StableHlo.nullary main_cst_13 (constant S_ .f32 0x3C23D70A#32),
    StableHlo.unary main_cst_13 main_v99 (broadcastInDim S100000x64 ![] bcast_S_S100000x64 : (⟨S_, .f32⟩ : BufTy).Contents (Elt F) → (⟨S100000x64, .f32⟩ : BufTy).Contents (Elt F)),
    StableHlo.binary main_v99 main_v96 main_v100 (mulf : (⟨S100000x64, .f32⟩ : BufTy).Contents (Elt F) → (⟨S100000x64, .f32⟩ : BufTy).Contents (Elt F) → (⟨S100000x64, .f32⟩ : BufTy).Contents (Elt F)),
    StableHlo.TRef.ternary (.of main_v98) (.of main_v96) (.of main_v100) main_call4.v0 select,
    StableHlo.nullary main_c_14 (constantI S_ 32 0#32) ]
theorem rops8_sub : (rops8 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub ..⟩
theorem rops8_fresh : ∀ op ∈ (rops8 : List (HloOp τ sig (Elt F))), op.fresh = ∅ := by
  intro _ h; (repeat (cases h with | head => rfl | tail _ h => ?_)); exact nomatch h

/-- Operations 163 to 163 of @main (main_part1). -/
abbrev rops9 : List (HloOp τ sig (Elt F)) :=
  [ StableHlo.unary main_c_14 main_v102 (broadcastInDim S1600000 ![] bcast_S_S1600000 : (⟨S_, .i32⟩ : BufTy).Contents (Elt F) → (⟨S1600000, .i32⟩ : BufTy).Contents (Elt F)) ]
theorem rops9_sub : (rops9 : List (HloOp τ sig (Elt F))).Forall fun op => op.bufs ⊆ tcRefs τ sig :=
  unary_bufs_sub ..
theorem rops9_fresh : ∀ op ∈ (rops9 : List (HloOp τ sig (Elt F))), op.fresh = ∅ := by
  intro _ h; (repeat (cases h with | head => rfl | tail _ h => ?_)); exact nomatch h

/-- Operations 164 to 183 of @main (main_part2). -/
abbrev rops10 : List (HloOp τ sig (Elt F)) :=
  [ StableHlo.binary main_v1 main_v102 main_v103 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v104 (broadcastInDim S1600000 ![] bcast_S_S1600000 : (⟨S_, .i32⟩ : BufTy).Contents (Elt F) → (⟨S1600000, .i32⟩ : BufTy).Contents (Elt F)),
    StableHlo.binary main_v1 main_v104 main_v105 (addi : (⟨S1600000, .i32⟩ : BufTy).Contents (Elt F) → (⟨S1600000, .i32⟩ : BufTy).Contents (Elt F) → (⟨S1600000, .i32⟩ : BufTy).Contents (Elt F)),
    StableHlo.ternary main_v103 main_v105 main_v1 main_v106 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v106 main_v107 (broadcastInDim S1600000x1 ![0] bcast_S1600000_S1600000x1_0 : (⟨S1600000, .i32⟩ : BufTy).Contents (Elt F) → (⟨S1600000x1, .i32⟩ : BufTy).Contents (Elt F)),
    StableHlo.binary main_v101 main_v107 main_v108 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_arg4 main_v109 ((extractStridedSlice S1x16x64 ![1, 0, 0] · slices_S3x16x64_S1x16x64_1_0_0) : (⟨S3x16x64, .f32⟩ : BufTy).Contents (Elt F) → (⟨S1x16x64, .f32⟩ : BufTy).Contents (Elt F)),
    StableHlo.reshape main_v109 main_v110 rfl shapeCasts_S1x16x64_S16x64,
    StableHlo.binary main_arg1 main_v110 main_v111 ((fun l r => Host.dotGeneral dot_S1600000x16_S16x64_S1600000x64_1_0_0_1_n_n none l r) : (⟨S1600000x16, .f32⟩ : BufTy).Contents (Elt F) → (⟨S16x64, .f32⟩ : BufTy).Contents (Elt F) → (⟨S1600000x64, .f32⟩ : BufTy).Contents (Elt F)),
    StableHlo.binary main_v108 main_v111 main_v112 (addf : (⟨S1600000x64, .f32⟩ : BufTy).Contents (Elt F) → (⟨S1600000x64, .f32⟩ : BufTy).Contents (Elt F) → (⟨S1600000x64, .f32⟩ : BufTy).Contents (Elt F)),
    StableHlo.unary main_arg5 main_v113 ((extractStridedSlice S1x64 ![1, 0] · slices_S3x64_S1x64_1_0) : (⟨S3x64, .f32⟩ : BufTy).Contents (Elt F) → (⟨S1x64, .f32⟩ : BufTy).Contents (Elt F)),
    StableHlo.reshape main_v113 main_v114 rfl shapeCasts_S1x64_S64,
    StableHlo.unary main_v114 main_v115 (broadcastInDim S1x64 ![1] bcast_S64_S1x64_1 : (⟨S64, .f32⟩ : BufTy).Contents (Elt F) → (⟨S1x64, .f32⟩ : BufTy).Contents (Elt F)),
    StableHlo.unary main_v115 main_v116 (broadcastInDim S1600000x64 ![0, 1] bcast_S1x64_S1600000x64_0_1 : (⟨S1x64, .f32⟩ : BufTy).Contents (Elt F) → (⟨S1600000x64, .f32⟩ : BufTy).Contents (Elt F)),
    StableHlo.binary main_v112 main_v116 main_v117 (addf : (⟨S1600000x64, .f32⟩ : BufTy).Contents (Elt F) → (⟨S1600000x64, .f32⟩ : BufTy).Contents (Elt F) → (⟨S1600000x64, .f32⟩ : BufTy).Contents (Elt F)),
    StableHlo.TRef.nullary main_call5.cst (constant S_ .f32 0x00000000#32),
    StableHlo.TRef.unary main_call5.cst main_call5.v0 (broadcastInDim S1600000x64 ![] bcast_S_S1600000x64),
    StableHlo.TRef.binary (.of main_v117) main_call5.v0 main_call5.v1 maximumf,
    StableHlo.nullary main_cst_16 (constant S_ .f32 0x00000000#32) ]
theorem rops10_sub : (rops10 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., nullary_bufs_sub ..⟩
theorem rops10_fresh : ∀ op ∈ (rops10 : List (HloOp τ sig (Elt F))), op.fresh = ∅ := by
  intro _ h; (repeat (cases h with | head => rfl | tail _ h => ?_)); exact nomatch h

/-- Operations 184 to 203 of @main (main_part2). -/
abbrev rops11 : List (HloOp τ sig (Elt F)) :=
  [ StableHlo.unary main_cst_16 main_v119 (broadcastInDim S100000x64 ![] bcast_S_S100000x64 : (⟨S_, .f32⟩ : BufTy).Contents (Elt F) → (⟨S100000x64, .f32⟩ : BufTy).Contents (Elt F)),
    StableHlo.unary main_v3 main_v120 (broadcastInDim S1600000x1 ![0] bcast_S1600000_S1600000x1_0 : (⟨S1600000, .i32⟩ : BufTy).Contents (Elt F) → (⟨S1600000x1, .i32⟩ : BufTy).Contents (Elt F)),
    StableHlo.ternary main_v119 main_v120 main_v118 main_v121 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg6 main_v122 ((extractStridedSlice S1 ![1] · slices_S3_S1_1) : (⟨S3, .f32⟩ : BufTy).Contents (Elt F) → (⟨S1, .f32⟩ : BufTy).Contents (Elt F)),
    StableHlo.reshape main_v122 main_v123 rfl shapeCasts_S1_S_,
    StableHlo.nullary main_cst_17 (constant S_ .f32 0x3F800000#32),
    StableHlo.binary main_cst_17 main_v123 main_v124 (addf : (⟨S_, .f32⟩ : BufTy).Contents (Elt F) → (⟨S_, .f32⟩ : BufTy).Contents (Elt F) → (⟨S_, .f32⟩ : BufTy).Contents (Elt F)),
    StableHlo.unary main_v124 main_v125 (broadcastInDim S100000x64 ![] bcast_S_S100000x64 : (⟨S_, .f32⟩ : BufTy).Contents (Elt F) → (⟨S100000x64, .f32⟩ : BufTy).Contents (Elt F)),
    StableHlo.binary main_v125 main_v101 main_v126 (mulf : (⟨S100000x64, .f32⟩ : BufTy).Contents (Elt F) → (⟨S100000x64, .f32⟩ : BufTy).Contents (Elt F) → (⟨S100000x64, .f32⟩ : BufTy).Contents (Elt F)),
    StableHlo.binary main_v126 main_v121 main_v127 (addf : (⟨S100000x64, .f32⟩ : BufTy).Contents (Elt F) → (⟨S100000x64, .f32⟩ : BufTy).Contents (Elt F) → (⟨S100000x64, .f32⟩ : BufTy).Contents (Elt F)),
    StableHlo.unary main_arg7 main_v128 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v128 main_v129 rfl shapeCasts_S1x64x64_S64x64,
    StableHlo.binary main_v127 main_v129 main_v130 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v131 ((extractStridedSlice S1x64 ![1, 0] · slices_S3x64_S1x64_1_0) : (⟨S3x64, .f32⟩ : BufTy).Contents (Elt F) → (⟨S1x64, .f32⟩ : BufTy).Contents (Elt F)),
    StableHlo.reshape main_v131 main_v132 rfl shapeCasts_S1x64_S64,
    StableHlo.unary main_v132 main_v133 (broadcastInDim S1x64 ![1] bcast_S64_S1x64_1 : (⟨S64, .f32⟩ : BufTy).Contents (Elt F) → (⟨S1x64, .f32⟩ : BufTy).Contents (Elt F)),
    StableHlo.unary main_v133 main_v134 (broadcastInDim S100000x64 ![0, 1] bcast_S1x64_S100000x64_0_1 : (⟨S1x64, .f32⟩ : BufTy).Contents (Elt F) → (⟨S100000x64, .f32⟩ : BufTy).Contents (Elt F)),
    StableHlo.binary main_v130 main_v134 main_v135 (addf : (⟨S100000x64, .f32⟩ : BufTy).Contents (Elt F) → (⟨S100000x64, .f32⟩ : BufTy).Contents (Elt F) → (⟨S100000x64, .f32⟩ : BufTy).Contents (Elt F)),
    StableHlo.unary main_arg9 main_v136 ((extractStridedSlice S1x64 ![1, 0] · slices_S3x64_S1x64_1_0) : (⟨S3x64, .f32⟩ : BufTy).Contents (Elt F) → (⟨S1x64, .f32⟩ : BufTy).Contents (Elt F)),
    StableHlo.reshape main_v136 main_v137 rfl shapeCasts_S1x64_S64 ]
theorem rops11_sub : (rops11 : List (HloOp τ sig (Elt F))).Forall fun op => op.bufs ⊆ tcRefs τ sig :=
  ⟨unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub ..⟩
theorem rops11_fresh : ∀ op ∈ (rops11 : List (HloOp τ sig (Elt F))), op.fresh = ∅ := by
  intro _ h; (repeat (cases h with | head => rfl | tail _ h => ?_)); exact nomatch h

/-- Operations 204 to 223 of @main (main_part2). -/
abbrev rops12 : List (HloOp τ sig (Elt F)) :=
  [ StableHlo.unary main_arg10 main_v138 ((extractStridedSlice S1x64 ![1, 0] · slices_S3x64_S1x64_1_0) : (⟨S3x64, .f32⟩ : BufTy).Contents (Elt F) → (⟨S1x64, .f32⟩ : BufTy).Contents (Elt F)),
    StableHlo.reshape main_v138 main_v139 rfl shapeCasts_S1x64_S64,
    StableHlo.nullary main_cst_18 (constant S_ .f32 0x00000000#32),
    StableHlo.binary main_v135 main_cst_18 main_v140 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_19 (constant S_ .f32 0x47C35000#32),
    StableHlo.unary main_cst_19 main_v141 (broadcastInDim S64 ![] bcast_S_S64 : (⟨S_, .f32⟩ : BufTy).Contents (Elt F) → (⟨S64, .f32⟩ : BufTy).Contents (Elt F)),
    StableHlo.binary main_v140 main_v141 main_v142 (Host.divf : (⟨S64, .f32⟩ : BufTy).Contents (Elt F) → (⟨S64, .f32⟩ : BufTy).Contents (Elt F) → (⟨S64, .f32⟩ : BufTy).Contents (Elt F)),
    StableHlo.nullary main_c_20 (constantI S_ 32 0#32),
    StableHlo.TRef.nullary main_call6.cst (constant S_ .f32 0x00000000#32),
    StableHlo.TRef.binary (.of main_v135) main_call6.cst main_call6.v0 (fun x v => Host.reduceAdd x v reducesTo_S100000x64_S64_d0 h_S_),
    StableHlo.TRef.unary main_call6.v0 main_call6.v1 (broadcastInDim S1x64 ![1] bcast_S64_S1x64_1),
    StableHlo.TRef.nullary main_call6.cst_0 (constant S_ .f32 0x47C35000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S100000x64 ![0, 1] bcast_S1x64_S100000x64_0_1),
    StableHlo.TRef.binary (.of main_v135) main_call6.v4 main_call6.v5 subf,
    StableHlo.TRef.binary main_call6.v5 main_call6.v5 main_call6.v6 mulf,
    StableHlo.TRef.unary (.of main_c_20) main_call6.v7 (sitofp .f32),
    StableHlo.TRef.nullary main_call6.cst_1 (constant S_ .f32 0x47C35000#32),
    StableHlo.TRef.binary main_call6.cst_1 main_call6.v7 main_call6.v8 subf ]
theorem rops12_sub : (rops12 : List (HloOp τ sig (Elt F))).Forall fun op => op.bufs ⊆ tcRefs τ sig :=
  ⟨unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub ..⟩
theorem rops12_fresh : ∀ op ∈ (rops12 : List (HloOp τ sig (Elt F))), op.fresh = ∅ := by
  intro _ h; (repeat (cases h with | head => rfl | tail _ h => ?_)); exact nomatch h

/-- Operations 224 to 243 of @main (main_part2). -/
abbrev rops13 : List (HloOp τ sig (Elt F)) :=
  [ StableHlo.TRef.nullary main_call6.cst_2 (constant S_ .f32 0x00000000#32),
    StableHlo.TRef.binary main_call6.v6 main_call6.cst_2 main_call6.v9 (fun x v => Host.reduceAdd x v reducesTo_S100000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v142 main_v144 (broadcastInDim S1x64 ![1] bcast_S64_S1x64_1 : (⟨S64, .f32⟩ : BufTy).Contents (Elt F) → (⟨S1x64, .f32⟩ : BufTy).Contents (Elt F)),
    StableHlo.unary main_v144 main_v145 (broadcastInDim S100000x64 ![0, 1] bcast_S1x64_S100000x64_0_1 : (⟨S1x64, .f32⟩ : BufTy).Contents (Elt F) → (⟨S100000x64, .f32⟩ : BufTy).Contents (Elt F)),
    StableHlo.binary main_v135 main_v145 main_v146 (subf : (⟨S100000x64, .f32⟩ : BufTy).Contents (Elt F) → (⟨S100000x64, .f32⟩ : BufTy).Contents (Elt F) → (⟨S100000x64, .f32⟩ : BufTy).Contents (Elt F)),
    StableHlo.unary main_v137 main_v147 (broadcastInDim S1x64 ![1] bcast_S64_S1x64_1 : (⟨S64, .f32⟩ : BufTy).Contents (Elt F) → (⟨S1x64, .f32⟩ : BufTy).Contents (Elt F)),
    StableHlo.unary main_v147 main_v148 (broadcastInDim S100000x64 ![0, 1] bcast_S1x64_S100000x64_0_1 : (⟨S1x64, .f32⟩ : BufTy).Contents (Elt F) → (⟨S100000x64, .f32⟩ : BufTy).Contents (Elt F)),
    StableHlo.binary main_v148 main_v146 main_v149 (mulf : (⟨S100000x64, .f32⟩ : BufTy).Contents (Elt F) → (⟨S100000x64, .f32⟩ : BufTy).Contents (Elt F) → (⟨S100000x64, .f32⟩ : BufTy).Contents (Elt F)),
    StableHlo.nullary main_cst_21 (constant S_ .f32 0x3727C5AC#32),
    StableHlo.unary main_cst_21 main_v150 (broadcastInDim S64 ![] bcast_S_S64 : (⟨S_, .f32⟩ : BufTy).Contents (Elt F) → (⟨S64, .f32⟩ : BufTy).Contents (Elt F)),
    StableHlo.binary main_v143 main_v150 main_v151 (addf : (⟨S64, .f32⟩ : BufTy).Contents (Elt F) → (⟨S64, .f32⟩ : BufTy).Contents (Elt F) → (⟨S64, .f32⟩ : BufTy).Contents (Elt F)),
    StableHlo.unary main_v151 main_v152 (Host.rsqrt : (⟨S64, .f32⟩ : BufTy).Contents (Elt F) → (⟨S64, .f32⟩ : BufTy).Contents (Elt F)) ]
theorem rops13_sub : (rops13 : List (HloOp τ sig (Elt F))).Forall fun op => op.bufs ⊆ tcRefs τ sig :=
  ⟨nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub ..⟩
theorem rops13_fresh : ∀ op ∈ (rops13 : List (HloOp τ sig (Elt F))), op.fresh = ∅ := by
  intro _ h; (repeat (cases h with | head => rfl | tail _ h => ?_)); exact nomatch h

/-- Operations 244 to 246 of @main (main_part2). -/
abbrev rops14 : List (HloOp τ sig (Elt F)) :=
  [ StableHlo.unary main_v152 main_v153 (broadcastInDim S1x64 ![1] bcast_S64_S1x64_1 : (⟨S64, .f32⟩ : BufTy).Contents (Elt F) → (⟨S1x64, .f32⟩ : BufTy).Contents (Elt F)),
    StableHlo.unary main_v153 main_v154 (broadcastInDim S100000x64 ![0, 1] bcast_S1x64_S100000x64_0_1 : (⟨S1x64, .f32⟩ : BufTy).Contents (Elt F) → (⟨S100000x64, .f32⟩ : BufTy).Contents (Elt F)),
    StableHlo.binary main_v149 main_v154 main_v155 (mulf : (⟨S100000x64, .f32⟩ : BufTy).Contents (Elt F) → (⟨S100000x64, .f32⟩ : BufTy).Contents (Elt F) → (⟨S100000x64, .f32⟩ : BufTy).Contents (Elt F)) ]
theorem rops14_sub : (rops14 : List (HloOp τ sig (Elt F))).Forall fun op => op.bufs ⊆ tcRefs τ sig :=
  ⟨unary_bufs_sub .., unary_bufs_sub .., binary_bufs_sub ..⟩
theorem rops14_fresh : ∀ op ∈ (rops14 : List (HloOp τ sig (Elt F))), op.fresh = ∅ := by
  intro _ h; (repeat (cases h with | head => rfl | tail _ h => ?_)); exact nomatch h

/-- Operations 247 to 266 of @main (main_part3). -/
abbrev rops15 : List (HloOp τ sig (Elt F)) :=
  [ StableHlo.unary main_v139 main_v156 (broadcastInDim S1x64 ![1] bcast_S64_S1x64_1 : (⟨S64, .f32⟩ : BufTy).Contents (Elt F) → (⟨S1x64, .f32⟩ : BufTy).Contents (Elt F)),
    StableHlo.unary main_v156 main_v157 (broadcastInDim S100000x64 ![0, 1] bcast_S1x64_S100000x64_0_1 : (⟨S1x64, .f32⟩ : BufTy).Contents (Elt F) → (⟨S100000x64, .f32⟩ : BufTy).Contents (Elt F)),
    StableHlo.binary main_v155 main_v157 main_v158 (addf : (⟨S100000x64, .f32⟩ : BufTy).Contents (Elt F) → (⟨S100000x64, .f32⟩ : BufTy).Contents (Elt F) → (⟨S100000x64, .f32⟩ : BufTy).Contents (Elt F)),
    StableHlo.nullary main_cst_22 (constant S_ .f32 0x00000000#32),
    StableHlo.unary main_cst_22 main_v159 (broadcastInDim S100000x64 ![] bcast_S_S100000x64 : (⟨S_, .f32⟩ : BufTy).Contents (Elt F) → (⟨S100000x64, .f32⟩ : BufTy).Contents (Elt F)),
    StableHlo.binary main_v158 main_v159 main_v160 (cmpf .oge : (⟨S100000x64, .f32⟩ : BufTy).Contents (Elt F) → (⟨S100000x64, .f32⟩ : BufTy).Contents (Elt F) → (⟨S100000x64, .i1⟩ : BufTy).Contents (Elt F)),
    StableHlo.nullary main_cst_23 (constant S_ .f32 0x3C23D70A#32),
    StableHlo.unary main_cst_23 main_v161 (broadcastInDim S100000x64 ![] bcast_S_S100000x64 : (⟨S_, .f32⟩ : BufTy).Contents (Elt F) → (⟨S100000x64, .f32⟩ : BufTy).Contents (Elt F)),
    StableHlo.binary main_v161 main_v158 main_v162 (mulf : (⟨S100000x64, .f32⟩ : BufTy).Contents (Elt F) → (⟨S100000x64, .f32⟩ : BufTy).Contents (Elt F) → (⟨S100000x64, .f32⟩ : BufTy).Contents (Elt F)),
    StableHlo.TRef.ternary (.of main_v160) (.of main_v158) (.of main_v162) main_call7.v0 select,
    StableHlo.unary main_arg11 main_v164 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v164 main_v165 rfl shapeCasts_S1x64x64_S64x64,
    StableHlo.binary main_v163 main_v165 main_v166 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg12 main_v167 ((extractStridedSlice S1x64 ![1, 0] · slices_S3x64_S1x64_1_0) : (⟨S3x64, .f32⟩ : BufTy).Contents (Elt F) → (⟨S1x64, .f32⟩ : BufTy).Contents (Elt F)),
    StableHlo.reshape main_v167 main_v168 rfl shapeCasts_S1x64_S64,
    StableHlo.unary main_v168 main_v169 (broadcastInDim S1x64 ![1] bcast_S64_S1x64_1 : (⟨S64, .f32⟩ : BufTy).Contents (Elt F) → (⟨S1x64, .f32⟩ : BufTy).Contents (Elt F)),
    StableHlo.unary main_v169 main_v170 (broadcastInDim S100000x64 ![0, 1] bcast_S1x64_S100000x64_0_1 : (⟨S1x64, .f32⟩ : BufTy).Contents (Elt F) → (⟨S100000x64, .f32⟩ : BufTy).Contents (Elt F)),
    StableHlo.binary main_v166 main_v170 main_v171 (addf : (⟨S100000x64, .f32⟩ : BufTy).Contents (Elt F) → (⟨S100000x64, .f32⟩ : BufTy).Contents (Elt F) → (⟨S100000x64, .f32⟩ : BufTy).Contents (Elt F)),
    StableHlo.unary main_arg13 main_v172 ((extractStridedSlice S1x64 ![1, 0] · slices_S2x64_S1x64_1_0) : (⟨S2x64, .f32⟩ : BufTy).Contents (Elt F) → (⟨S1x64, .f32⟩ : BufTy).Contents (Elt F)),
    StableHlo.reshape main_v172 main_v173 rfl shapeCasts_S1x64_S64 ]
theorem rops15_sub : (rops15 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., unary_bufs_sub .., reshape_bufs_sub ..⟩
theorem rops15_fresh : ∀ op ∈ (rops15 : List (HloOp τ sig (Elt F))), op.fresh = ∅ := by
  intro _ h; (repeat (cases h with | head => rfl | tail _ h => ?_)); exact nomatch h

/-- Operations 267 to 286 of @main (main_part3). -/
abbrev rops16 : List (HloOp τ sig (Elt F)) :=
  [ StableHlo.unary main_arg14 main_v174 ((extractStridedSlice S1x64 ![1, 0] · slices_S2x64_S1x64_1_0) : (⟨S2x64, .f32⟩ : BufTy).Contents (Elt F) → (⟨S1x64, .f32⟩ : BufTy).Contents (Elt F)),
    StableHlo.reshape main_v174 main_v175 rfl shapeCasts_S1x64_S64,
    StableHlo.nullary main_cst_24 (constant S_ .f32 0x00000000#32),
    StableHlo.binary main_v171 main_cst_24 main_v176 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_25 (constant S_ .f32 0x47C35000#32),
    StableHlo.unary main_cst_25 main_v177 (broadcastInDim S64 ![] bcast_S_S64 : (⟨S_, .f32⟩ : BufTy).Contents (Elt F) → (⟨S64, .f32⟩ : BufTy).Contents (Elt F)),
    StableHlo.binary main_v176 main_v177 main_v178 (Host.divf : (⟨S64, .f32⟩ : BufTy).Contents (Elt F) → (⟨S64, .f32⟩ : BufTy).Contents (Elt F) → (⟨S64, .f32⟩ : BufTy).Contents (Elt F)),
    StableHlo.nullary main_c_26 (constantI S_ 32 0#32),
    StableHlo.TRef.nullary main_call8.cst (constant S_ .f32 0x00000000#32),
    StableHlo.TRef.binary (.of main_v171) main_call8.cst main_call8.v0 (fun x v => Host.reduceAdd x v reducesTo_S100000x64_S64_d0 h_S_),
    StableHlo.TRef.unary main_call8.v0 main_call8.v1 (broadcastInDim S1x64 ![1] bcast_S64_S1x64_1),
    StableHlo.TRef.nullary main_call8.cst_0 (constant S_ .f32 0x47C35000#32),
    StableHlo.TRef.unary main_call8.cst_0 main_call8.v2 (broadcastInDim S1x64 ![] bcast_S_S1x64),
    StableHlo.TRef.binary main_call8.v1 main_call8.v2 main_call8.v3 Host.divf,
    StableHlo.TRef.unary main_call8.v3 main_call8.v4 (broadcastInDim S100000x64 ![0, 1] bcast_S1x64_S100000x64_0_1),
    StableHlo.TRef.binary (.of main_v171) main_call8.v4 main_call8.v5 subf,
    StableHlo.TRef.binary main_call8.v5 main_call8.v5 main_call8.v6 mulf,
    StableHlo.TRef.unary (.of main_c_26) main_call8.v7 (sitofp .f32),
    StableHlo.TRef.nullary main_call8.cst_1 (constant S_ .f32 0x47C35000#32),
    StableHlo.TRef.binary main_call8.cst_1 main_call8.v7 main_call8.v8 subf ]
theorem rops16_sub : (rops16 : List (HloOp τ sig (Elt F))).Forall fun op => op.bufs ⊆ tcRefs τ sig :=
  ⟨unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub ..⟩
theorem rops16_fresh : ∀ op ∈ (rops16 : List (HloOp τ sig (Elt F))), op.fresh = ∅ := by
  intro _ h; (repeat (cases h with | head => rfl | tail _ h => ?_)); exact nomatch h

/-- Operations 287 to 306 of @main (main_part3). -/
abbrev rops17 : List (HloOp τ sig (Elt F)) :=
  [ StableHlo.TRef.nullary main_call8.cst_2 (constant S_ .f32 0x00000000#32),
    StableHlo.TRef.binary main_call8.v6 main_call8.cst_2 main_call8.v9 (fun x v => Host.reduceAdd x v reducesTo_S100000x64_S64_d0 h_S_),
    StableHlo.TRef.unary main_call8.v8 main_call8.v10 (broadcastInDim S64 ![] bcast_S_S64),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S64 ![] bcast_S_S64),
    StableHlo.TRef.ternary main_call8.v12 main_call8.v11 main_call8.call0.v1 main_call8.call0.v2 (fun p a b => select (broadcastInDim S64 ![] bcast_S_S64 p) a b),
    StableHlo.unary main_v178 main_v180 (broadcastInDim S1x64 ![1] bcast_S64_S1x64_1 : (⟨S64, .f32⟩ : BufTy).Contents (Elt F) → (⟨S1x64, .f32⟩ : BufTy).Contents (Elt F)),
    StableHlo.unary main_v180 main_v181 (broadcastInDim S100000x64 ![0, 1] bcast_S1x64_S100000x64_0_1 : (⟨S1x64, .f32⟩ : BufTy).Contents (Elt F) → (⟨S100000x64, .f32⟩ : BufTy).Contents (Elt F)),
    StableHlo.binary main_v171 main_v181 main_v182 (subf : (⟨S100000x64, .f32⟩ : BufTy).Contents (Elt F) → (⟨S100000x64, .f32⟩ : BufTy).Contents (Elt F) → (⟨S100000x64, .f32⟩ : BufTy).Contents (Elt F)),
    StableHlo.unary main_v173 main_v183 (broadcastInDim S1x64 ![1] bcast_S64_S1x64_1 : (⟨S64, .f32⟩ : BufTy).Contents (Elt F) → (⟨S1x64, .f32⟩ : BufTy).Contents (Elt F)),
    StableHlo.unary main_v183 main_v184 (broadcastInDim S100000x64 ![0, 1] bcast_S1x64_S100000x64_0_1 : (⟨S1x64, .f32⟩ : BufTy).Contents (Elt F) → (⟨S100000x64, .f32⟩ : BufTy).Contents (Elt F)),
    StableHlo.binary main_v184 main_v182 main_v185 (mulf : (⟨S100000x64, .f32⟩ : BufTy).Contents (Elt F) → (⟨S100000x64, .f32⟩ : BufTy).Contents (Elt F) → (⟨S100000x64, .f32⟩ : BufTy).Contents (Elt F)),
    StableHlo.nullary main_cst_27 (constant S_ .f32 0x3727C5AC#32),
    StableHlo.unary main_cst_27 main_v186 (broadcastInDim S64 ![] bcast_S_S64 : (⟨S_, .f32⟩ : BufTy).Contents (Elt F) → (⟨S64, .f32⟩ : BufTy).Contents (Elt F)),
    StableHlo.binary main_v179 main_v186 main_v187 (addf : (⟨S64, .f32⟩ : BufTy).Contents (Elt F) → (⟨S64, .f32⟩ : BufTy).Contents (Elt F) → (⟨S64, .f32⟩ : BufTy).Contents (Elt F)),
    StableHlo.unary main_v187 main_v188 (Host.rsqrt : (⟨S64, .f32⟩ : BufTy).Contents (Elt F) → (⟨S64, .f32⟩ : BufTy).Contents (Elt F)) ]
theorem rops17_sub : (rops17 : List (HloOp τ sig (Elt F))).Forall fun op => op.bufs ⊆ tcRefs τ sig :=
  ⟨nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub ..⟩
theorem rops17_fresh : ∀ op ∈ (rops17 : List (HloOp τ sig (Elt F))), op.fresh = ∅ := by
  intro _ h; (repeat (cases h with | head => rfl | tail _ h => ?_)); exact nomatch h

/-- Operations 307 to 326 of @main (main_part3). -/
abbrev rops18 : List (HloOp τ sig (Elt F)) :=
  [ StableHlo.unary main_v188 main_v189 (broadcastInDim S1x64 ![1] bcast_S64_S1x64_1 : (⟨S64, .f32⟩ : BufTy).Contents (Elt F) → (⟨S1x64, .f32⟩ : BufTy).Contents (Elt F)),
    StableHlo.unary main_v189 main_v190 (broadcastInDim S100000x64 ![0, 1] bcast_S1x64_S100000x64_0_1 : (⟨S1x64, .f32⟩ : BufTy).Contents (Elt F) → (⟨S100000x64, .f32⟩ : BufTy).Contents (Elt F)),
    StableHlo.binary main_v185 main_v190 main_v191 (mulf : (⟨S100000x64, .f32⟩ : BufTy).Contents (Elt F) → (⟨S100000x64, .f32⟩ : BufTy).Contents (Elt F) → (⟨S100000x64, .f32⟩ : BufTy).Contents (Elt F)),
    StableHlo.unary main_v175 main_v192 (broadcastInDim S1x64 ![1] bcast_S64_S1x64_1 : (⟨S64, .f32⟩ : BufTy).Contents (Elt F) → (⟨S1x64, .f32⟩ : BufTy).Contents (Elt F)),
    StableHlo.unary main_v192 main_v193 (broadcastInDim S100000x64 ![0, 1] bcast_S1x64_S100000x64_0_1 : (⟨S1x64, .f32⟩ : BufTy).Contents (Elt F) → (⟨S100000x64, .f32⟩ : BufTy).Contents (Elt F)),
    StableHlo.binary main_v191 main_v193 main_v194 (addf : (⟨S100000x64, .f32⟩ : BufTy).Contents (Elt F) → (⟨S100000x64, .f32⟩ : BufTy).Contents (Elt F) → (⟨S100000x64, .f32⟩ : BufTy).Contents (Elt F)),
    StableHlo.nullary main_cst_28 (constant S_ .f32 0x00000000#32),
    StableHlo.unary main_cst_28 main_v195 (broadcastInDim S100000x64 ![] bcast_S_S100000x64 : (⟨S_, .f32⟩ : BufTy).Contents (Elt F) → (⟨S100000x64, .f32⟩ : BufTy).Contents (Elt F)),
    StableHlo.binary main_v194 main_v195 main_v196 (cmpf .oge : (⟨S100000x64, .f32⟩ : BufTy).Contents (Elt F) → (⟨S100000x64, .f32⟩ : BufTy).Contents (Elt F) → (⟨S100000x64, .i1⟩ : BufTy).Contents (Elt F)),
    StableHlo.nullary main_cst_29 (constant S_ .f32 0x3C23D70A#32),
    StableHlo.unary main_cst_29 main_v197 (broadcastInDim S100000x64 ![] bcast_S_S100000x64 : (⟨S_, .f32⟩ : BufTy).Contents (Elt F) → (⟨S100000x64, .f32⟩ : BufTy).Contents (Elt F)),
    StableHlo.binary main_v197 main_v194 main_v198 (mulf : (⟨S100000x64, .f32⟩ : BufTy).Contents (Elt F) → (⟨S100000x64, .f32⟩ : BufTy).Contents (Elt F) → (⟨S100000x64, .f32⟩ : BufTy).Contents (Elt F)),
    StableHlo.TRef.ternary (.of main_v196) (.of main_v194) (.of main_v198) main_call9.v0 select,
    StableHlo.nullary main_c_30 (constantI S_ 32 0#32),
    StableHlo.unary main_c_30 main_v200 (broadcastInDim S1600000 ![] bcast_S_S1600000 : (⟨S_, .i32⟩ : BufTy).Contents (Elt F) → (⟨S1600000, .i32⟩ : BufTy).Contents (Elt F)),
    StableHlo.binary main_v1 main_v200 main_v201 (cmpi .slt : (⟨S1600000, .i32⟩ : BufTy).Contents (Elt F) → (⟨S1600000, .i32⟩ : BufTy).Contents (Elt F) → (⟨S1600000, .i1⟩ : BufTy).Contents (Elt F)),
    StableHlo.nullary main_c_31 (constantI S_ 32 100000#32),
    StableHlo.unary main_c_31 main_v202 (broadcastInDim S1600000 ![] bcast_S_S1600000 : (⟨S_, .i32⟩ : BufTy).Contents (Elt F) → (⟨S1600000, .i32⟩ : BufTy).Contents (Elt F)),
    StableHlo.binary main_v1 main_v202 main_v203 (addi : (⟨S1600000, .i32⟩ : BufTy).Contents (Elt F) → (⟨S1600000, .i32⟩ : BufTy).Contents (Elt F) → (⟨S1600000, .i32⟩ : BufTy).Contents (Elt F)),
    StableHlo.ternary main_v201 main_v203 main_v1 main_v204 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ]
theorem rops18_sub : (rops18 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩
theorem rops18_fresh : ∀ op ∈ (rops18 : List (HloOp τ sig (Elt F))), op.fresh = ∅ := by
  intro _ h; (repeat (cases h with | head => rfl | tail _ h => ?_)); exact nomatch h

/-- Operations 327 to 327 of @main (main_part3). -/
abbrev rops19 : List (HloOp τ sig (Elt F)) :=
  [ StableHlo.unary main_v204 main_v205 (broadcastInDim S1600000x1 ![0] bcast_S1600000_S1600000x1_0 : (⟨S1600000, .i32⟩ : BufTy).Contents (Elt F) → (⟨S1600000x1, .i32⟩ : BufTy).Contents (Elt F)) ]
theorem rops19_sub : (rops19 : List (HloOp τ sig (Elt F))).Forall fun op => op.bufs ⊆ tcRefs τ sig :=
  unary_bufs_sub ..
theorem rops19_fresh : ∀ op ∈ (rops19 : List (HloOp τ sig (Elt F))), op.fresh = ∅ := by
  intro _ h; (repeat (cases h with | head => rfl | tail _ h => ?_)); exact nomatch h

/-- Operations 328 to 347 of @main (main_part4). -/
abbrev rops20 : List (HloOp τ sig (Elt F)) :=
  [ StableHlo.binary main_v199 main_v205 main_v206 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_arg4 main_v207 ((extractStridedSlice S1x16x64 ![2, 0, 0] · slices_S3x16x64_S1x16x64_2_0_0) : (⟨S3x16x64, .f32⟩ : BufTy).Contents (Elt F) → (⟨S1x16x64, .f32⟩ : BufTy).Contents (Elt F)),
    StableHlo.reshape main_v207 main_v208 rfl shapeCasts_S1x16x64_S16x64,
    StableHlo.binary main_arg1 main_v208 main_v209 ((fun l r => Host.dotGeneral dot_S1600000x16_S16x64_S1600000x64_1_0_0_1_n_n none l r) : (⟨S1600000x16, .f32⟩ : BufTy).Contents (Elt F) → (⟨S16x64, .f32⟩ : BufTy).Contents (Elt F) → (⟨S1600000x64, .f32⟩ : BufTy).Contents (Elt F)),
    StableHlo.binary main_v206 main_v209 main_v210 (addf : (⟨S1600000x64, .f32⟩ : BufTy).Contents (Elt F) → (⟨S1600000x64, .f32⟩ : BufTy).Contents (Elt F) → (⟨S1600000x64, .f32⟩ : BufTy).Contents (Elt F)),
    StableHlo.unary main_arg5 main_v211 ((extractStridedSlice S1x64 ![2, 0] · slices_S3x64_S1x64_2_0) : (⟨S3x64, .f32⟩ : BufTy).Contents (Elt F) → (⟨S1x64, .f32⟩ : BufTy).Contents (Elt F)),
    StableHlo.reshape main_v211 main_v212 rfl shapeCasts_S1x64_S64,
    StableHlo.unary main_v212 main_v213 (broadcastInDim S1x64 ![1] bcast_S64_S1x64_1 : (⟨S64, .f32⟩ : BufTy).Contents (Elt F) → (⟨S1x64, .f32⟩ : BufTy).Contents (Elt F)),
    StableHlo.unary main_v213 main_v214 (broadcastInDim S1600000x64 ![0, 1] bcast_S1x64_S1600000x64_0_1 : (⟨S1x64, .f32⟩ : BufTy).Contents (Elt F) → (⟨S1600000x64, .f32⟩ : BufTy).Contents (Elt F)),
    StableHlo.binary main_v210 main_v214 main_v215 (addf : (⟨S1600000x64, .f32⟩ : BufTy).Contents (Elt F) → (⟨S1600000x64, .f32⟩ : BufTy).Contents (Elt F) → (⟨S1600000x64, .f32⟩ : BufTy).Contents (Elt F)),
    StableHlo.TRef.nullary main_call10.cst (constant S_ .f32 0x00000000#32),
    StableHlo.TRef.unary main_call10.cst main_call10.v0 (broadcastInDim S1600000x64 ![] bcast_S_S1600000x64),
    StableHlo.TRef.binary (.of main_v215) main_call10.v0 main_call10.v1 maximumf,
    StableHlo.nullary main_cst_32 (constant S_ .f32 0x00000000#32),
    StableHlo.unary main_cst_32 main_v217 (broadcastInDim S100000x64 ![] bcast_S_S100000x64 : (⟨S_, .f32⟩ : BufTy).Contents (Elt F) → (⟨S100000x64, .f32⟩ : BufTy).Contents (Elt F)),
    StableHlo.unary main_v3 main_v218 (broadcastInDim S1600000x1 ![0] bcast_S1600000_S1600000x1_0 : (⟨S1600000, .i32⟩ : BufTy).Contents (Elt F) → (⟨S1600000x1, .i32⟩ : BufTy).Contents (Elt F)),
    StableHlo.ternary main_v217 main_v218 main_v216 main_v219 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg6 main_v220 ((extractStridedSlice S1 ![2] · slices_S3_S1_2) : (⟨S3, .f32⟩ : BufTy).Contents (Elt F) → (⟨S1, .f32⟩ : BufTy).Contents (Elt F)),
    StableHlo.reshape main_v220 main_v221 rfl shapeCasts_S1_S_,
    StableHlo.nullary main_cst_33 (constant S_ .f32 0x3F800000#32) ]
theorem rops20_sub : (rops20 : List (HloOp τ sig (Elt F))).Forall fun op => op.bufs ⊆ tcRefs τ sig :=
  ⟨binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., reshape_bufs_sub .., nullary_bufs_sub ..⟩
theorem rops20_fresh : ∀ op ∈ (rops20 : List (HloOp τ sig (Elt F))), op.fresh = ∅ := by
  intro _ h; (repeat (cases h with | head => rfl | tail _ h => ?_)); exact nomatch h

/-- Operations 348 to 367 of @main (main_part4). -/
abbrev rops21 : List (HloOp τ sig (Elt F)) :=
  [ StableHlo.binary main_cst_33 main_v221 main_v222 (addf : (⟨S_, .f32⟩ : BufTy).Contents (Elt F) → (⟨S_, .f32⟩ : BufTy).Contents (Elt F) → (⟨S_, .f32⟩ : BufTy).Contents (Elt F)),
    StableHlo.unary main_v222 main_v223 (broadcastInDim S100000x64 ![] bcast_S_S100000x64 : (⟨S_, .f32⟩ : BufTy).Contents (Elt F) → (⟨S100000x64, .f32⟩ : BufTy).Contents (Elt F)),
    StableHlo.binary main_v223 main_v199 main_v224 (mulf : (⟨S100000x64, .f32⟩ : BufTy).Contents (Elt F) → (⟨S100000x64, .f32⟩ : BufTy).Contents (Elt F) → (⟨S100000x64, .f32⟩ : BufTy).Contents (Elt F)),
    StableHlo.binary main_v224 main_v219 main_v225 (addf : (⟨S100000x64, .f32⟩ : BufTy).Contents (Elt F) → (⟨S100000x64, .f32⟩ : BufTy).Contents (Elt F) → (⟨S100000x64, .f32⟩ : BufTy).Contents (Elt F)),
    StableHlo.unary main_arg7 main_v226 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v226 main_v227 rfl shapeCasts_S1x64x64_S64x64,
    StableHlo.binary main_v225 main_v227 main_v228 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v229 ((extractStridedSlice S1x64 ![2, 0] · slices_S3x64_S1x64_2_0) : (⟨S3x64, .f32⟩ : BufTy).Contents (Elt F) → (⟨S1x64, .f32⟩ : BufTy).Contents (Elt F)),
    StableHlo.reshape main_v229 main_v230 rfl shapeCasts_S1x64_S64,
    StableHlo.unary main_v230 main_v231 (broadcastInDim S1x64 ![1] bcast_S64_S1x64_1 : (⟨S64, .f32⟩ : BufTy).Contents (Elt F) → (⟨S1x64, .f32⟩ : BufTy).Contents (Elt F)),
    StableHlo.unary main_v231 main_v232 (broadcastInDim S100000x64 ![0, 1] bcast_S1x64_S100000x64_0_1 : (⟨S1x64, .f32⟩ : BufTy).Contents (Elt F) → (⟨S100000x64, .f32⟩ : BufTy).Contents (Elt F)),
    StableHlo.binary main_v228 main_v232 main_v233 (addf : (⟨S100000x64, .f32⟩ : BufTy).Contents (Elt F) → (⟨S100000x64, .f32⟩ : BufTy).Contents (Elt F) → (⟨S100000x64, .f32⟩ : BufTy).Contents (Elt F)),
    StableHlo.unary main_arg9 main_v234 ((extractStridedSlice S1x64 ![2, 0] · slices_S3x64_S1x64_2_0) : (⟨S3x64, .f32⟩ : BufTy).Contents (Elt F) → (⟨S1x64, .f32⟩ : BufTy).Contents (Elt F)),
    StableHlo.reshape main_v234 main_v235 rfl shapeCasts_S1x64_S64,
    StableHlo.unary main_arg10 main_v236 ((extractStridedSlice S1x64 ![2, 0] · slices_S3x64_S1x64_2_0) : (⟨S3x64, .f32⟩ : BufTy).Contents (Elt F) → (⟨S1x64, .f32⟩ : BufTy).Contents (Elt F)),
    StableHlo.reshape main_v236 main_v237 rfl shapeCasts_S1x64_S64,
    StableHlo.nullary main_cst_34 (constant S_ .f32 0x00000000#32),
    StableHlo.binary main_v233 main_cst_34 main_v238 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_35 (constant S_ .f32 0x47C35000#32),
    StableHlo.unary main_cst_35 main_v239 (broadcastInDim S64 ![] bcast_S_S64 : (⟨S_, .f32⟩ : BufTy).Contents (Elt F) → (⟨S64, .f32⟩ : BufTy).Contents (Elt F)) ]
theorem rops21_sub : (rops21 : List (HloOp τ sig (Elt F))).Forall fun op => op.bufs ⊆ tcRefs τ sig :=
  ⟨binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub ..⟩
theorem rops21_fresh : ∀ op ∈ (rops21 : List (HloOp τ sig (Elt F))), op.fresh = ∅ := by
  intro _ h; (repeat (cases h with | head => rfl | tail _ h => ?_)); exact nomatch h

/-- Operations 368 to 387 of @main (main_part4). -/
abbrev rops22 : List (HloOp τ sig (Elt F)) :=
  [ StableHlo.binary main_v238 main_v239 main_v240 (Host.divf : (⟨S64, .f32⟩ : BufTy).Contents (Elt F) → (⟨S64, .f32⟩ : BufTy).Contents (Elt F) → (⟨S64, .f32⟩ : BufTy).Contents (Elt F)),
    StableHlo.nullary main_c_36 (constantI S_ 32 0#32),
    StableHlo.TRef.nullary main_call11.cst (constant S_ .f32 0x00000000#32),
    StableHlo.TRef.binary (.of main_v233) main_call11.cst main_call11.v0 (fun x v => Host.reduceAdd x v reducesTo_S100000x64_S64_d0 h_S_),
    StableHlo.TRef.unary main_call11.v0 main_call11.v1 (broadcastInDim S1x64 ![1] bcast_S64_S1x64_1),
    StableHlo.TRef.nullary main_call11.cst_0 (constant S_ .f32 0x47C35000#32),
    StableHlo.TRef.unary main_call11.cst_0 main_call11.v2 (broadcastInDim S1x64 ![] bcast_S_S1x64),
    StableHlo.TRef.binary main_call11.v1 main_call11.v2 main_call11.v3 Host.divf,
    StableHlo.TRef.unary main_call11.v3 main_call11.v4 (broadcastInDim S100000x64 ![0, 1] bcast_S1x64_S100000x64_0_1),
    StableHlo.TRef.binary (.of main_v233) main_call11.v4 main_call11.v5 subf,
    StableHlo.TRef.binary main_call11.v5 main_call11.v5 main_call11.v6 mulf,
    StableHlo.TRef.unary (.of main_c_36) main_call11.v7 (sitofp .f32),
    StableHlo.TRef.nullary main_call11.cst_1 (constant S_ .f32 0x47C35000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S100000x64_S64_d0 h_S_),
    StableHlo.TRef.unary main_call11.v8 main_call11.v10 (broadcastInDim S64 ![] bcast_S_S64),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt) ]
theorem rops22_sub : (rops22 : List (HloOp τ sig (Elt F))).Forall fun op => op.bufs ⊆ tcRefs τ sig :=
  ⟨binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub ..⟩
theorem rops22_fresh : ∀ op ∈ (rops22 : List (HloOp τ sig (Elt F))), op.fresh = ∅ := by
  intro _ h; (repeat (cases h with | head => rfl | tail _ h => ?_)); exact nomatch h

/-- Operations 388 to 407 of @main (main_part4). -/
abbrev rops23 : List (HloOp τ sig (Elt F)) :=
  [ StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S64 ![] bcast_S_S64),
    StableHlo.TRef.ternary main_call11.v12 main_call11.v11 main_call11.call0.v1 main_call11.call0.v2 (fun p a b => select (broadcastInDim S64 ![] bcast_S_S64 p) a b),
    StableHlo.unary main_v240 main_v242 (broadcastInDim S1x64 ![1] bcast_S64_S1x64_1 : (⟨S64, .f32⟩ : BufTy).Contents (Elt F) → (⟨S1x64, .f32⟩ : BufTy).Contents (Elt F)),
    StableHlo.unary main_v242 main_v243 (broadcastInDim S100000x64 ![0, 1] bcast_S1x64_S100000x64_0_1 : (⟨S1x64, .f32⟩ : BufTy).Contents (Elt F) → (⟨S100000x64, .f32⟩ : BufTy).Contents (Elt F)),
    StableHlo.binary main_v233 main_v243 main_v244 (subf : (⟨S100000x64, .f32⟩ : BufTy).Contents (Elt F) → (⟨S100000x64, .f32⟩ : BufTy).Contents (Elt F) → (⟨S100000x64, .f32⟩ : BufTy).Contents (Elt F)),
    StableHlo.unary main_v235 main_v245 (broadcastInDim S1x64 ![1] bcast_S64_S1x64_1 : (⟨S64, .f32⟩ : BufTy).Contents (Elt F) → (⟨S1x64, .f32⟩ : BufTy).Contents (Elt F)),
    StableHlo.unary main_v245 main_v246 (broadcastInDim S100000x64 ![0, 1] bcast_S1x64_S100000x64_0_1 : (⟨S1x64, .f32⟩ : BufTy).Contents (Elt F) → (⟨S100000x64, .f32⟩ : BufTy).Contents (Elt F)),
    StableHlo.binary main_v246 main_v244 main_v247 (mulf : (⟨S100000x64, .f32⟩ : BufTy).Contents (Elt F) → (⟨S100000x64, .f32⟩ : BufTy).Contents (Elt F) → (⟨S100000x64, .f32⟩ : BufTy).Contents (Elt F)),
    StableHlo.nullary main_cst_37 (constant S_ .f32 0x3727C5AC#32),
    StableHlo.unary main_cst_37 main_v248 (broadcastInDim S64 ![] bcast_S_S64 : (⟨S_, .f32⟩ : BufTy).Contents (Elt F) → (⟨S64, .f32⟩ : BufTy).Contents (Elt F)),
    StableHlo.binary main_v241 main_v248 main_v249 (addf : (⟨S64, .f32⟩ : BufTy).Contents (Elt F) → (⟨S64, .f32⟩ : BufTy).Contents (Elt F) → (⟨S64, .f32⟩ : BufTy).Contents (Elt F)),
    StableHlo.unary main_v249 main_v250 (Host.rsqrt : (⟨S64, .f32⟩ : BufTy).Contents (Elt F) → (⟨S64, .f32⟩ : BufTy).Contents (Elt F)),
    StableHlo.unary main_v250 main_v251 (broadcastInDim S1x64 ![1] bcast_S64_S1x64_1 : (⟨S64, .f32⟩ : BufTy).Contents (Elt F) → (⟨S1x64, .f32⟩ : BufTy).Contents (Elt F)),
    StableHlo.unary main_v251 main_v252 (broadcastInDim S100000x64 ![0, 1] bcast_S1x64_S100000x64_0_1 : (⟨S1x64, .f32⟩ : BufTy).Contents (Elt F) → (⟨S100000x64, .f32⟩ : BufTy).Contents (Elt F)),
    StableHlo.binary main_v247 main_v252 main_v253 (mulf : (⟨S100000x64, .f32⟩ : BufTy).Contents (Elt F) → (⟨S100000x64, .f32⟩ : BufTy).Contents (Elt F) → (⟨S100000x64, .f32⟩ : BufTy).Contents (Elt F)),
    StableHlo.unary main_v237 main_v254 (broadcastInDim S1x64 ![1] bcast_S64_S1x64_1 : (⟨S64, .f32⟩ : BufTy).Contents (Elt F) → (⟨S1x64, .f32⟩ : BufTy).Contents (Elt F)),
    StableHlo.unary main_v254 main_v255 (broadcastInDim S100000x64 ![0, 1] bcast_S1x64_S100000x64_0_1 : (⟨S1x64, .f32⟩ : BufTy).Contents (Elt F) → (⟨S100000x64, .f32⟩ : BufTy).Contents (Elt F)),
    StableHlo.binary main_v253 main_v255 main_v256 (addf : (⟨S100000x64, .f32⟩ : BufTy).Contents (Elt F) → (⟨S100000x64, .f32⟩ : BufTy).Contents (Elt F) → (⟨S100000x64, .f32⟩ : BufTy).Contents (Elt F)) ]
theorem rops23_sub : (rops23 : List (HloOp τ sig (Elt F))).Forall fun op => op.bufs ⊆ tcRefs τ sig :=
  ⟨nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩
theorem rops23_fresh : ∀ op ∈ (rops23 : List (HloOp τ sig (Elt F))), op.fresh = ∅ := by
  intro _ h; (repeat (cases h with | head => rfl | tail _ h => ?_)); exact nomatch h

/-- Operations 408 to 410 of @main (main_part4). -/
abbrev rops24 : List (HloOp τ sig (Elt F)) :=
  [ StableHlo.nullary main_cst_38 (constant S_ .f32 0x00000000#32),
    StableHlo.unary main_cst_38 main_v257 (broadcastInDim S100000x64 ![] bcast_S_S100000x64 : (⟨S_, .f32⟩ : BufTy).Contents (Elt F) → (⟨S100000x64, .f32⟩ : BufTy).Contents (Elt F)),
    StableHlo.binary main_v256 main_v257 main_v258 (cmpf .oge : (⟨S100000x64, .f32⟩ : BufTy).Contents (Elt F) → (⟨S100000x64, .f32⟩ : BufTy).Contents (Elt F) → (⟨S100000x64, .i1⟩ : BufTy).Contents (Elt F)) ]
theorem rops24_sub : (rops24 : List (HloOp τ sig (Elt F))).Forall fun op => op.bufs ⊆ tcRefs τ sig :=
  ⟨nullary_bufs_sub .., unary_bufs_sub .., binary_bufs_sub ..⟩
theorem rops24_fresh : ∀ op ∈ (rops24 : List (HloOp τ sig (Elt F))), op.fresh = ∅ := by
  intro _ h; (repeat (cases h with | head => rfl | tail _ h => ?_)); exact nomatch h

/-- Operations 411 to 430 of @main (main_part5). -/
abbrev rops25 : List (HloOp τ sig (Elt F)) :=
  [ StableHlo.nullary main_cst_39 (constant S_ .f32 0x3C23D70A#32),
    StableHlo.unary main_cst_39 main_v259 (broadcastInDim S100000x64 ![] bcast_S_S100000x64 : (⟨S_, .f32⟩ : BufTy).Contents (Elt F) → (⟨S100000x64, .f32⟩ : BufTy).Contents (Elt F)),
    StableHlo.binary main_v259 main_v256 main_v260 (mulf : (⟨S100000x64, .f32⟩ : BufTy).Contents (Elt F) → (⟨S100000x64, .f32⟩ : BufTy).Contents (Elt F) → (⟨S100000x64, .f32⟩ : BufTy).Contents (Elt F)),
    StableHlo.TRef.ternary (.of main_v258) (.of main_v256) (.of main_v260) main_call12.v0 select,
    StableHlo.unary main_arg11 main_v262 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v262 main_v263 rfl shapeCasts_S1x64x64_S64x64,
    StableHlo.binary main_v261 main_v263 main_v264 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg12 main_v265 ((extractStridedSlice S1x64 ![2, 0] · slices_S3x64_S1x64_2_0) : (⟨S3x64, .f32⟩ : BufTy).Contents (Elt F) → (⟨S1x64, .f32⟩ : BufTy).Contents (Elt F)),
    StableHlo.reshape main_v265 main_v266 rfl shapeCasts_S1x64_S64,
    StableHlo.unary main_v266 main_v267 (broadcastInDim S1x64 ![1] bcast_S64_S1x64_1 : (⟨S64, .f32⟩ : BufTy).Contents (Elt F) → (⟨S1x64, .f32⟩ : BufTy).Contents (Elt F)),
    StableHlo.unary main_v267 main_v268 (broadcastInDim S100000x64 ![0, 1] bcast_S1x64_S100000x64_0_1 : (⟨S1x64, .f32⟩ : BufTy).Contents (Elt F) → (⟨S100000x64, .f32⟩ : BufTy).Contents (Elt F)),
    StableHlo.binary main_v264 main_v268 main_v269 (addf : (⟨S100000x64, .f32⟩ : BufTy).Contents (Elt F) → (⟨S100000x64, .f32⟩ : BufTy).Contents (Elt F) → (⟨S100000x64, .f32⟩ : BufTy).Contents (Elt F)),
    StableHlo.binary main_arg2 main_arg15 main_v270 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.unary main_arg16 main_v271 (broadcastInDim S1x64 ![1] bcast_S64_S1x64_1 : (⟨S64, .f32⟩ : BufTy).Contents (Elt F) → (⟨S1x64, .f32⟩ : BufTy).Contents (Elt F)),
    StableHlo.unary main_v271 main_v272 (broadcastInDim S100000x64 ![0, 1] bcast_S1x64_S100000x64_0_1 : (⟨S1x64, .f32⟩ : BufTy).Contents (Elt F) → (⟨S100000x64, .f32⟩ : BufTy).Contents (Elt F)),
    StableHlo.binary main_v270 main_v272 main_v273 (addf : (⟨S100000x64, .f32⟩ : BufTy).Contents (Elt F) → (⟨S100000x64, .f32⟩ : BufTy).Contents (Elt F) → (⟨S100000x64, .f32⟩ : BufTy).Contents (Elt F)),
    StableHlo.nullary main_cst_40 (constant S_ .f32 0x00000000#32),
    StableHlo.binary main_v273 main_cst_40 main_v274 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_41 (constant S_ .f32 0x47C35000#32),
    StableHlo.unary main_cst_41 main_v275 (broadcastInDim S64 ![] bcast_S_S64 : (⟨S_, .f32⟩ : BufTy).Contents (Elt F) → (⟨S64, .f32⟩ : BufTy).Contents (Elt F)) ]
theorem rops25_sub : (rops25 : List (HloOp τ sig (Elt F))).Forall fun op => op.bufs ⊆ tcRefs τ sig :=
  ⟨nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub ..⟩
theorem rops25_fresh : ∀ op ∈ (rops25 : List (HloOp τ sig (Elt F))), op.fresh = ∅ := by
  intro _ h; (repeat (cases h with | head => rfl | tail _ h => ?_)); exact nomatch h

/-- Operations 431 to 450 of @main (main_part5). -/
abbrev rops26 : List (HloOp τ sig (Elt F)) :=
  [ StableHlo.binary main_v274 main_v275 main_v276 (Host.divf : (⟨S64, .f32⟩ : BufTy).Contents (Elt F) → (⟨S64, .f32⟩ : BufTy).Contents (Elt F) → (⟨S64, .f32⟩ : BufTy).Contents (Elt F)),
    StableHlo.nullary main_c_42 (constantI S_ 32 0#32),
    StableHlo.TRef.nullary main_call13.cst (constant S_ .f32 0x00000000#32),
    StableHlo.TRef.binary (.of main_v273) main_call13.cst main_call13.v0 (fun x v => Host.reduceAdd x v reducesTo_S100000x64_S64_d0 h_S_),
    StableHlo.TRef.unary main_call13.v0 main_call13.v1 (broadcastInDim S1x64 ![1] bcast_S64_S1x64_1),
    StableHlo.TRef.nullary main_call13.cst_0 (constant S_ .f32 0x47C35000#32),
    StableHlo.TRef.unary main_call13.cst_0 main_call13.v2 (broadcastInDim S1x64 ![] bcast_S_S1x64),
    StableHlo.TRef.binary main_call13.v1 main_call13.v2 main_call13.v3 Host.divf,
    StableHlo.TRef.unary main_call13.v3 main_call13.v4 (broadcastInDim S100000x64 ![0, 1] bcast_S1x64_S100000x64_0_1),
    StableHlo.TRef.binary (.of main_v273) main_call13.v4 main_call13.v5 subf,
    StableHlo.TRef.binary main_call13.v5 main_call13.v5 main_call13.v6 mulf,
    StableHlo.TRef.unary (.of main_c_42) main_call13.v7 (sitofp .f32),
    StableHlo.TRef.nullary main_call13.cst_1 (constant S_ .f32 0x47C35000#32),
    StableHlo.TRef.binary main_call13.cst_1 main_call13.v7 main_call13.v8 subf,
    StableHlo.TRef.nullary main_call13.cst_2 (constant S_ .f32 0x00000000#32),
    StableHlo.TRef.binary main_call13.v6 main_call13.cst_2 main_call13.v9 (fun x v => Host.reduceAdd x v reducesTo_S100000x64_S64_d0 h_S_),
    StableHlo.TRef.unary main_call13.v8 main_call13.v10 (broadcastInDim S64 ![] bcast_S_S64),
    StableHlo.TRef.binary main_call13.v9 main_call13.v10 main_call13.v11 Host.divf,
    StableHlo.TRef.nullary main_call13.cst_3 (constant S_ .f32 0x00000000#32),
    StableHlo.TRef.binary main_call13.v8 main_call13.cst_3 main_call13.v12 (cmpf .ogt) ]
theorem rops26_sub : (rops26 : List (HloOp τ sig (Elt F))).Forall fun op => op.bufs ⊆ tcRefs τ sig :=
  ⟨binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub ..⟩
theorem rops26_fresh : ∀ op ∈ (rops26 : List (HloOp τ sig (Elt F))), op.fresh = ∅ := by
  intro _ h; (repeat (cases h with | head => rfl | tail _ h => ?_)); exact nomatch h

/-- Operations 451 to 470 of @main (main_part5). -/
abbrev rops27 : List (HloOp τ sig (Elt F)) :=
  [ StableHlo.TRef.nullary main_call13.cst_4 (constant S_ .f32 0x7FC00000#32),
    StableHlo.TRef.unary main_call13.cst_4 main_call13.call0.v0 id,
    StableHlo.TRef.unary main_call13.call0.v0 main_call13.call0.v1 (broadcastInDim S64 ![] bcast_S_S64),
    StableHlo.TRef.ternary main_call13.v12 main_call13.v11 main_call13.call0.v1 main_call13.call0.v2 (fun p a b => select (broadcastInDim S64 ![] bcast_S_S64 p) a b),
    StableHlo.unary main_v276 main_v278 (broadcastInDim S1x64 ![1] bcast_S64_S1x64_1 : (⟨S64, .f32⟩ : BufTy).Contents (Elt F) → (⟨S1x64, .f32⟩ : BufTy).Contents (Elt F)),
    StableHlo.unary main_v278 main_v279 (broadcastInDim S100000x64 ![0, 1] bcast_S1x64_S100000x64_0_1 : (⟨S1x64, .f32⟩ : BufTy).Contents (Elt F) → (⟨S100000x64, .f32⟩ : BufTy).Contents (Elt F)),
    StableHlo.binary main_v273 main_v279 main_v280 (subf : (⟨S100000x64, .f32⟩ : BufTy).Contents (Elt F) → (⟨S100000x64, .f32⟩ : BufTy).Contents (Elt F) → (⟨S100000x64, .f32⟩ : BufTy).Contents (Elt F)),
    StableHlo.unary main_arg17 main_v281 (broadcastInDim S1x64 ![1] bcast_S64_S1x64_1 : (⟨S64, .f32⟩ : BufTy).Contents (Elt F) → (⟨S1x64, .f32⟩ : BufTy).Contents (Elt F)),
    StableHlo.unary main_v281 main_v282 (broadcastInDim S100000x64 ![0, 1] bcast_S1x64_S100000x64_0_1 : (⟨S1x64, .f32⟩ : BufTy).Contents (Elt F) → (⟨S100000x64, .f32⟩ : BufTy).Contents (Elt F)),
    StableHlo.binary main_v282 main_v280 main_v283 (mulf : (⟨S100000x64, .f32⟩ : BufTy).Contents (Elt F) → (⟨S100000x64, .f32⟩ : BufTy).Contents (Elt F) → (⟨S100000x64, .f32⟩ : BufTy).Contents (Elt F)),
    StableHlo.nullary main_cst_43 (constant S_ .f32 0x3727C5AC#32),
    StableHlo.unary main_cst_43 main_v284 (broadcastInDim S64 ![] bcast_S_S64 : (⟨S_, .f32⟩ : BufTy).Contents (Elt F) → (⟨S64, .f32⟩ : BufTy).Contents (Elt F)),
    StableHlo.binary main_v277 main_v284 main_v285 (addf : (⟨S64, .f32⟩ : BufTy).Contents (Elt F) → (⟨S64, .f32⟩ : BufTy).Contents (Elt F) → (⟨S64, .f32⟩ : BufTy).Contents (Elt F)),
    StableHlo.unary main_v285 main_v286 (Host.rsqrt : (⟨S64, .f32⟩ : BufTy).Contents (Elt F) → (⟨S64, .f32⟩ : BufTy).Contents (Elt F)),
    StableHlo.unary main_v286 main_v287 (broadcastInDim S1x64 ![1] bcast_S64_S1x64_1 : (⟨S64, .f32⟩ : BufTy).Contents (Elt F) → (⟨S1x64, .f32⟩ : BufTy).Contents (Elt F)),
    StableHlo.unary main_v287 main_v288 (broadcastInDim S100000x64 ![0, 1] bcast_S1x64_S100000x64_0_1 : (⟨S1x64, .f32⟩ : BufTy).Contents (Elt F) → (⟨S100000x64, .f32⟩ : BufTy).Contents (Elt F)),
    StableHlo.binary main_v283 main_v288 main_v289 (mulf : (⟨S100000x64, .f32⟩ : BufTy).Contents (Elt F) → (⟨S100000x64, .f32⟩ : BufTy).Contents (Elt F) → (⟨S100000x64, .f32⟩ : BufTy).Contents (Elt F)),
    StableHlo.unary main_arg18 main_v290 (broadcastInDim S1x64 ![1] bcast_S64_S1x64_1 : (⟨S64, .f32⟩ : BufTy).Contents (Elt F) → (⟨S1x64, .f32⟩ : BufTy).Contents (Elt F)),
    StableHlo.unary main_v290 main_v291 (broadcastInDim S100000x64 ![0, 1] bcast_S1x64_S100000x64_0_1 : (⟨S1x64, .f32⟩ : BufTy).Contents (Elt F) → (⟨S100000x64, .f32⟩ : BufTy).Contents (Elt F)),
    StableHlo.binary main_v289 main_v291 main_v292 (addf : (⟨S100000x64, .f32⟩ : BufTy).Contents (Elt F) → (⟨S100000x64, .f32⟩ : BufTy).Contents (Elt F) → (⟨S100000x64, .f32⟩ : BufTy).Contents (Elt F)) ]
theorem rops27_sub : (rops27 : List (HloOp τ sig (Elt F))).Forall fun op => op.bufs ⊆ tcRefs τ sig :=
  ⟨nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩
theorem rops27_fresh : ∀ op ∈ (rops27 : List (HloOp τ sig (Elt F))), op.fresh = ∅ := by
  intro _ h; (repeat (cases h with | head => rfl | tail _ h => ?_)); exact nomatch h

/-- Operations 471 to 490 of @main (main_part5). -/
abbrev rops28 : List (HloOp τ sig (Elt F)) :=
  [ StableHlo.nullary main_cst_44 (constant S_ .f32 0x00000000#32),
    StableHlo.unary main_cst_44 main_v293 (broadcastInDim S100000x64 ![] bcast_S_S100000x64 : (⟨S_, .f32⟩ : BufTy).Contents (Elt F) → (⟨S100000x64, .f32⟩ : BufTy).Contents (Elt F)),
    StableHlo.binary main_v292 main_v293 main_v294 (cmpf .oge : (⟨S100000x64, .f32⟩ : BufTy).Contents (Elt F) → (⟨S100000x64, .f32⟩ : BufTy).Contents (Elt F) → (⟨S100000x64, .i1⟩ : BufTy).Contents (Elt F)),
    StableHlo.nullary main_cst_45 (constant S_ .f32 0x3C23D70A#32),
    StableHlo.unary main_cst_45 main_v295 (broadcastInDim S100000x64 ![] bcast_S_S100000x64 : (⟨S_, .f32⟩ : BufTy).Contents (Elt F) → (⟨S100000x64, .f32⟩ : BufTy).Contents (Elt F)),
    StableHlo.binary main_v295 main_v292 main_v296 (mulf : (⟨S100000x64, .f32⟩ : BufTy).Contents (Elt F) → (⟨S100000x64, .f32⟩ : BufTy).Contents (Elt F) → (⟨S100000x64, .f32⟩ : BufTy).Contents (Elt F)),
    StableHlo.TRef.ternary (.of main_v294) (.of main_v292) (.of main_v296) main_call14.v0 select,
    StableHlo.binary main_v297 main_arg19 main_v298 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg20 main_v299 (broadcastInDim S1x64 ![1] bcast_S64_S1x64_1 : (⟨S64, .f32⟩ : BufTy).Contents (Elt F) → (⟨S1x64, .f32⟩ : BufTy).Contents (Elt F)),
    StableHlo.unary main_v299 main_v300 (broadcastInDim S100000x64 ![0, 1] bcast_S1x64_S100000x64_0_1 : (⟨S1x64, .f32⟩ : BufTy).Contents (Elt F) → (⟨S100000x64, .f32⟩ : BufTy).Contents (Elt F)),
    StableHlo.binary main_v298 main_v300 main_v301 (addf : (⟨S100000x64, .f32⟩ : BufTy).Contents (Elt F) → (⟨S100000x64, .f32⟩ : BufTy).Contents (Elt F) → (⟨S100000x64, .f32⟩ : BufTy).Contents (Elt F)),
    StableHlo.binary main_v269 main_v301 main_v302 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v302 main_arg21 main_v303 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg22 main_v304 (broadcastInDim S1x128 ![1] bcast_S128_S1x128_1 : (⟨S128, .f32⟩ : BufTy).Contents (Elt F) → (⟨S1x128, .f32⟩ : BufTy).Contents (Elt F)),
    StableHlo.unary main_v304 main_v305 (broadcastInDim S100000x128 ![0, 1] bcast_S1x128_S100000x128_0_1 : (⟨S1x128, .f32⟩ : BufTy).Contents (Elt F) → (⟨S100000x128, .f32⟩ : BufTy).Contents (Elt F)),
    StableHlo.binary main_v303 main_v305 main_v306 (addf : (⟨S100000x128, .f32⟩ : BufTy).Contents (Elt F) → (⟨S100000x128, .f32⟩ : BufTy).Contents (Elt F) → (⟨S100000x128, .f32⟩ : BufTy).Contents (Elt F)),
    StableHlo.nullary main_cst_46 (constant S_ .f32 0x00000000#32),
    StableHlo.binary main_v306 main_cst_46 main_v307 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_47 (constant S_ .f32 0x47C35000#32),
    StableHlo.unary main_cst_47 main_v308 (broadcastInDim S128 ![] bcast_S_S128 : (⟨S_, .f32⟩ : BufTy).Contents (Elt F) → (⟨S128, .f32⟩ : BufTy).Contents (Elt F)) ]
theorem rops28_sub : (rops28 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., binary_bufs_sub .., unary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub ..⟩
theorem rops28_fresh : ∀ op ∈ (rops28 : List (HloOp τ sig (Elt F))), op.fresh = ∅ := by
  intro _ h; (repeat (cases h with | head => rfl | tail _ h => ?_)); exact nomatch h

/-- Operations 491 to 491 of @main (main_part5). -/
abbrev rops29 : List (HloOp τ sig (Elt F)) :=
  [ StableHlo.binary main_v307 main_v308 main_v309 (Host.divf : (⟨S128, .f32⟩ : BufTy).Contents (Elt F) → (⟨S128, .f32⟩ : BufTy).Contents (Elt F) → (⟨S128, .f32⟩ : BufTy).Contents (Elt F)) ]
theorem rops29_sub : (rops29 : List (HloOp τ sig (Elt F))).Forall fun op => op.bufs ⊆ tcRefs τ sig :=
  binary_bufs_sub ..
theorem rops29_fresh : ∀ op ∈ (rops29 : List (HloOp τ sig (Elt F))), op.fresh = ∅ := by
  intro _ h; (repeat (cases h with | head => rfl | tail _ h => ?_)); exact nomatch h

/-- Operations 492 to 511 of @main (main_part6). -/
abbrev rops30 : List (HloOp τ sig (Elt F)) :=
  [ StableHlo.nullary main_c_48 (constantI S_ 32 0#32),
    StableHlo.TRef.nullary main_call15.cst (constant S_ .f32 0x00000000#32),
    StableHlo.TRef.binary (.of main_v306) main_call15.cst main_call15.v0 (fun x v => Host.reduceAdd x v reducesTo_S100000x128_S128_d0 h_S_),
    StableHlo.TRef.unary main_call15.v0 main_call15.v1 (broadcastInDim S1x128 ![1] bcast_S128_S1x128_1),
    StableHlo.TRef.nullary main_call15.cst_0 (constant S_ .f32 0x47C35000#32),
    StableHlo.TRef.unary main_call15.cst_0 main_call15.v2 (broadcastInDim S1x128 ![] bcast_S_S1x128),
    StableHlo.TRef.binary main_call15.v1 main_call15.v2 main_call15.v3 Host.divf,
    StableHlo.TRef.unary main_call15.v3 main_call15.v4 (broadcastInDim S100000x128 ![0, 1] bcast_S1x128_S100000x128_0_1),
    StableHlo.TRef.binary (.of main_v306) main_call15.v4 main_call15.v5 subf,
    StableHlo.TRef.binary main_call15.v5 main_call15.v5 main_call15.v6 mulf,
    StableHlo.TRef.unary (.of main_c_48) main_call15.v7 (sitofp .f32),
    StableHlo.TRef.nullary main_call15.cst_1 (constant S_ .f32 0x47C35000#32),
    StableHlo.TRef.binary main_call15.cst_1 main_call15.v7 main_call15.v8 subf,
    StableHlo.TRef.nullary main_call15.cst_2 (constant S_ .f32 0x00000000#32),
    StableHlo.TRef.binary main_call15.v6 main_call15.cst_2 main_call15.v9 (fun x v => Host.reduceAdd x v reducesTo_S100000x128_S128_d0 h_S_),
    StableHlo.TRef.unary main_call15.v8 main_call15.v10 (broadcastInDim S128 ![] bcast_S_S128),
    StableHlo.TRef.binary main_call15.v9 main_call15.v10 main_call15.v11 Host.divf,
    StableHlo.TRef.nullary main_call15.cst_3 (constant S_ .f32 0x00000000#32),
    StableHlo.TRef.binary main_call15.v8 main_call15.cst_3 main_call15.v12 (cmpf .ogt),
    StableHlo.TRef.nullary main_call15.cst_4 (constant S_ .f32 0x7FC00000#32) ]
theorem rops30_sub : (rops30 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub ..⟩
theorem rops30_fresh : ∀ op ∈ (rops30 : List (HloOp τ sig (Elt F))), op.fresh = ∅ := by
  intro _ h; (repeat (cases h with | head => rfl | tail _ h => ?_)); exact nomatch h

/-- Operations 512 to 531 of @main (main_part6). -/
abbrev rops31 : List (HloOp τ sig (Elt F)) :=
  [ StableHlo.TRef.unary main_call15.cst_4 main_call15.call0.v0 id,
    StableHlo.TRef.unary main_call15.call0.v0 main_call15.call0.v1 (broadcastInDim S128 ![] bcast_S_S128),
    StableHlo.TRef.ternary main_call15.v12 main_call15.v11 main_call15.call0.v1 main_call15.call0.v2 (fun p a b => select (broadcastInDim S128 ![] bcast_S_S128 p) a b),
    StableHlo.unary main_v309 main_v311 (broadcastInDim S1x128 ![1] bcast_S128_S1x128_1 : (⟨S128, .f32⟩ : BufTy).Contents (Elt F) → (⟨S1x128, .f32⟩ : BufTy).Contents (Elt F)),
    StableHlo.unary main_v311 main_v312 (broadcastInDim S100000x128 ![0, 1] bcast_S1x128_S100000x128_0_1 : (⟨S1x128, .f32⟩ : BufTy).Contents (Elt F) → (⟨S100000x128, .f32⟩ : BufTy).Contents (Elt F)),
    StableHlo.binary main_v306 main_v312 main_v313 (subf : (⟨S100000x128, .f32⟩ : BufTy).Contents (Elt F) → (⟨S100000x128, .f32⟩ : BufTy).Contents (Elt F) → (⟨S100000x128, .f32⟩ : BufTy).Contents (Elt F)),
    StableHlo.unary main_arg23 main_v314 (broadcastInDim S1x128 ![1] bcast_S128_S1x128_1 : (⟨S128, .f32⟩ : BufTy).Contents (Elt F) → (⟨S1x128, .f32⟩ : BufTy).Contents (Elt F)),
    StableHlo.unary main_v314 main_v315 (broadcastInDim S100000x128 ![0, 1] bcast_S1x128_S100000x128_0_1 : (⟨S1x128, .f32⟩ : BufTy).Contents (Elt F) → (⟨S100000x128, .f32⟩ : BufTy).Contents (Elt F)),
    StableHlo.binary main_v315 main_v313 main_v316 (mulf : (⟨S100000x128, .f32⟩ : BufTy).Contents (Elt F) → (⟨S100000x128, .f32⟩ : BufTy).Contents (Elt F) → (⟨S100000x128, .f32⟩ : BufTy).Contents (Elt F)),
    StableHlo.nullary main_cst_49 (constant S_ .f32 0x3727C5AC#32),
    StableHlo.unary main_cst_49 main_v317 (broadcastInDim S128 ![] bcast_S_S128 : (⟨S_, .f32⟩ : BufTy).Contents (Elt F) → (⟨S128, .f32⟩ : BufTy).Contents (Elt F)),
    StableHlo.binary main_v310 main_v317 main_v318 (addf : (⟨S128, .f32⟩ : BufTy).Contents (Elt F) → (⟨S128, .f32⟩ : BufTy).Contents (Elt F) → (⟨S128, .f32⟩ : BufTy).Contents (Elt F)),
    StableHlo.unary main_v318 main_v319 (Host.rsqrt : (⟨S128, .f32⟩ : BufTy).Contents (Elt F) → (⟨S128, .f32⟩ : BufTy).Contents (Elt F)),
    StableHlo.unary main_v319 main_v320 (broadcastInDim S1x128 ![1] bcast_S128_S1x128_1 : (⟨S128, .f32⟩ : BufTy).Contents (Elt F) → (⟨S1x128, .f32⟩ : BufTy).Contents (Elt F)),
    StableHlo.unary main_v320 main_v321 (broadcastInDim S100000x128 ![0, 1] bcast_S1x128_S100000x128_0_1 : (⟨S1x128, .f32⟩ : BufTy).Contents (Elt F) → (⟨S100000x128, .f32⟩ : BufTy).Contents (Elt F)),
    StableHlo.binary main_v316 main_v321 main_v322 (mulf : (⟨S100000x128, .f32⟩ : BufTy).Contents (Elt F) → (⟨S100000x128, .f32⟩ : BufTy).Contents (Elt F) → (⟨S100000x128, .f32⟩ : BufTy).Contents (Elt F)),
    StableHlo.unary main_arg24 main_v323 (broadcastInDim S1x128 ![1] bcast_S128_S1x128_1 : (⟨S128, .f32⟩ : BufTy).Contents (Elt F) → (⟨S1x128, .f32⟩ : BufTy).Contents (Elt F)),
    StableHlo.unary main_v323 main_v324 (broadcastInDim S100000x128 ![0, 1] bcast_S1x128_S100000x128_0_1 : (⟨S1x128, .f32⟩ : BufTy).Contents (Elt F) → (⟨S100000x128, .f32⟩ : BufTy).Contents (Elt F)),
    StableHlo.binary main_v322 main_v324 main_v325 (addf : (⟨S100000x128, .f32⟩ : BufTy).Contents (Elt F) → (⟨S100000x128, .f32⟩ : BufTy).Contents (Elt F) → (⟨S100000x128, .f32⟩ : BufTy).Contents (Elt F)),
    StableHlo.nullary main_cst_50 (constant S_ .f32 0x00000000#32) ]
theorem rops31_sub : (rops31 : List (HloOp τ sig (Elt F))).Forall fun op => op.bufs ⊆ tcRefs τ sig :=
  ⟨unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub ..⟩
theorem rops31_fresh : ∀ op ∈ (rops31 : List (HloOp τ sig (Elt F))), op.fresh = ∅ := by
  intro _ h; (repeat (cases h with | head => rfl | tail _ h => ?_)); exact nomatch h

/-- Operations 532 to 542 of @main (main_part6). -/
abbrev rops32 : List (HloOp τ sig (Elt F)) :=
  [ StableHlo.unary main_cst_50 main_v326 (broadcastInDim S100000x128 ![] bcast_S_S100000x128 : (⟨S_, .f32⟩ : BufTy).Contents (Elt F) → (⟨S100000x128, .f32⟩ : BufTy).Contents (Elt F)),
    StableHlo.binary main_v325 main_v326 main_v327 (cmpf .oge : (⟨S100000x128, .f32⟩ : BufTy).Contents (Elt F) → (⟨S100000x128, .f32⟩ : BufTy).Contents (Elt F) → (⟨S100000x128, .i1⟩ : BufTy).Contents (Elt F)),
    StableHlo.nullary main_cst_51 (constant S_ .f32 0x3C23D70A#32),
    StableHlo.unary main_cst_51 main_v328 (broadcastInDim S100000x128 ![] bcast_S_S100000x128 : (⟨S_, .f32⟩ : BufTy).Contents (Elt F) → (⟨S100000x128, .f32⟩ : BufTy).Contents (Elt F)),
    StableHlo.binary main_v328 main_v325 main_v329 (mulf : (⟨S100000x128, .f32⟩ : BufTy).Contents (Elt F) → (⟨S100000x128, .f32⟩ : BufTy).Contents (Elt F) → (⟨S100000x128, .f32⟩ : BufTy).Contents (Elt F)),
    StableHlo.TRef.ternary (.of main_v327) (.of main_v325) (.of main_v329) main_call16.v0 select,
    StableHlo.binary main_v330 main_arg25 main_v331 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    StableHlo.unary main_arg26 main_v332 (broadcastInDim S1x1 ![1] bcast_S1_S1x1_1 : (⟨S1, .f32⟩ : BufTy).Contents (Elt F) → (⟨S1x1, .f32⟩ : BufTy).Contents (Elt F)),
    StableHlo.unary main_v332 main_v333 (broadcastInDim S100000x1 ![0, 1] bcast_S1x1_S100000x1_0_1 : (⟨S1x1, .f32⟩ : BufTy).Contents (Elt F) → (⟨S100000x1, .f32⟩ : BufTy).Contents (Elt F)),
    StableHlo.binary main_v331 main_v333 main_v334 (addf : (⟨S100000x1, .f32⟩ : BufTy).Contents (Elt F) → (⟨S100000x1, .f32⟩ : BufTy).Contents (Elt F) → (⟨S100000x1, .f32⟩ : BufTy).Contents (Elt F)),
    StableHlo.reshape main_v334 main_v335 rfl shapeCasts_S100000x1_S100000 ]
theorem rops32_sub : (rops32 : List (HloOp τ sig (Elt F))).Forall fun op => op.bufs ⊆ tcRefs τ sig :=
  ⟨unary_bufs_sub .., binary_bufs_sub .., nullary_bufs_sub .., unary_bufs_sub .., binary_bufs_sub .., ternary_bufs_sub .., binary_bufs_sub .., unary_bufs_sub .., unary_bufs_sub .., binary_bufs_sub .., reshape_bufs_sub ..⟩
theorem rops32_fresh : ∀ op ∈ (rops32 : List (HloOp τ sig (Elt F))), op.fresh = ∅ := by
  intro _ h; (repeat (cases h with | head => rfl | tail _ h => ?_)); exact nomatch h

/-- The operations of the printed window main_part0. -/
abbrev partops0 : List (HloOp τ sig (Elt F)) := rops0 ++ rops1 ++ rops2 ++ rops3 ++ rops4
set_option maxRecDepth 8192 in
theorem main_part0_eq (c : Dev nD) : main_part0 (F := F) c = seq partops0 := by
  simp only [main_part0, fn_relu.body, fn_where.body, fn_var.body, fn_where_0.body, fn_where_2.body, fn_var_1.body, fn_where_3.body, partops0, rops0, rops1, rops2, rops3, rops4, List.cons_append, List.nil_append, seq, bind_assoc, pure_bind]
  all_goals rfl
theorem partops0_sub : (partops0 : List (HloOp τ sig (Elt F))).Forall fun op => op.bufs ⊆ tcRefs τ sig := (forall_append (forall_append (forall_append (forall_append rops0_sub rops1_sub) rops2_sub) rops3_sub) rops4_sub)
theorem partops0_fresh : ∀ op ∈ (partops0 : List (HloOp τ sig (Elt F))), op.fresh = ∅ := (mem_append_all (mem_append_all (mem_append_all (mem_append_all rops0_fresh rops1_fresh) rops2_fresh) rops3_fresh) rops4_fresh)

/-- The operations of the printed window main_part1. -/
abbrev partops1 : List (HloOp τ sig (Elt F)) := rops5 ++ rops6 ++ rops7 ++ rops8 ++ rops9
set_option maxRecDepth 8192 in
theorem main_part1_eq (c : Dev nD) : main_part1 (F := F) c = seq partops1 := by
  simp only [main_part1, fn_relu.body, fn_where.body, fn_var.body, fn_where_0.body, fn_where_2.body, fn_var_1.body, fn_where_3.body, partops1, rops5, rops6, rops7, rops8, rops9, List.cons_append, List.nil_append, seq, bind_assoc, pure_bind]
  all_goals rfl
theorem partops1_sub : (partops1 : List (HloOp τ sig (Elt F))).Forall fun op => op.bufs ⊆ tcRefs τ sig := (forall_append (forall_append (forall_append (forall_append rops5_sub rops6_sub) rops7_sub) rops8_sub) rops9_sub)
theorem partops1_fresh : ∀ op ∈ (partops1 : List (HloOp τ sig (Elt F))), op.fresh = ∅ := (mem_append_all (mem_append_all (mem_append_all (mem_append_all rops5_fresh rops6_fresh) rops7_fresh) rops8_fresh) rops9_fresh)

/-- The operations of the printed window main_part2. -/
abbrev partops2 : List (HloOp τ sig (Elt F)) := rops10 ++ rops11 ++ rops12 ++ rops13 ++ rops14
set_option maxRecDepth 8192 in
theorem main_part2_eq (c : Dev nD) : main_part2 (F := F) c = seq partops2 := by
  simp only [main_part2, fn_relu.body, fn_where.body, fn_var.body, fn_where_0.body, fn_where_2.body, fn_var_1.body, fn_where_3.body, partops2, rops10, rops11, rops12, rops13, rops14, List.cons_append, List.nil_append, seq, bind_assoc, pure_bind]
  all_goals rfl
theorem partops2_sub : (partops2 : List (HloOp τ sig (Elt F))).Forall fun op => op.bufs ⊆ tcRefs τ sig := (forall_append (forall_append (forall_append (forall_append rops10_sub rops11_sub) rops12_sub) rops13_sub) rops14_sub)
theorem partops2_fresh : ∀ op ∈ (partops2 : List (HloOp τ sig (Elt F))), op.fresh = ∅ := (mem_append_all (mem_append_all (mem_append_all (mem_append_all rops10_fresh rops11_fresh) rops12_fresh) rops13_fresh) rops14_fresh)

/-- The operations of the printed window main_part3. -/
abbrev partops3 : List (HloOp τ sig (Elt F)) := rops15 ++ rops16 ++ rops17 ++ rops18 ++ rops19
set_option maxRecDepth 8192 in
theorem main_part3_eq (c : Dev nD) : main_part3 (F := F) c = seq partops3 := by
  simp only [main_part3, fn_relu.body, fn_where.body, fn_var.body, fn_where_0.body, fn_where_2.body, fn_var_1.body, fn_where_3.body, partops3, rops15, rops16, rops17, rops18, rops19, List.cons_append, List.nil_append, seq, bind_assoc, pure_bind]
  all_goals rfl
theorem partops3_sub : (partops3 : List (HloOp τ sig (Elt F))).Forall fun op => op.bufs ⊆ tcRefs τ sig := (forall_append (forall_append (forall_append (forall_append rops15_sub rops16_sub) rops17_sub) rops18_sub) rops19_sub)
theorem partops3_fresh : ∀ op ∈ (partops3 : List (HloOp τ sig (Elt F))), op.fresh = ∅ := (mem_append_all (mem_append_all (mem_append_all (mem_append_all rops15_fresh rops16_fresh) rops17_fresh) rops18_fresh) rops19_fresh)

/-- The operations of the printed window main_part4. -/
abbrev partops4 : List (HloOp τ sig (Elt F)) := rops20 ++ rops21 ++ rops22 ++ rops23 ++ rops24
set_option maxRecDepth 8192 in
theorem main_part4_eq (c : Dev nD) : main_part4 (F := F) c = seq partops4 := by
  simp only [main_part4, fn_relu.body, fn_where.body, fn_var.body, fn_where_0.body, fn_where_2.body, fn_var_1.body, fn_where_3.body, partops4, rops20, rops21, rops22, rops23, rops24, List.cons_append, List.nil_append, seq, bind_assoc, pure_bind]
  all_goals rfl
theorem partops4_sub : (partops4 : List (HloOp τ sig (Elt F))).Forall fun op => op.bufs ⊆ tcRefs τ sig := (forall_append (forall_append (forall_append (forall_append rops20_sub rops21_sub) rops22_sub) rops23_sub) rops24_sub)
theorem partops4_fresh : ∀ op ∈ (partops4 : List (HloOp τ sig (Elt F))), op.fresh = ∅ := (mem_append_all (mem_append_all (mem_append_all (mem_append_all rops20_fresh rops21_fresh) rops22_fresh) rops23_fresh) rops24_fresh)

/-- The operations of the printed window main_part5. -/
abbrev partops5 : List (HloOp τ sig (Elt F)) := rops25 ++ rops26 ++ rops27 ++ rops28 ++ rops29
set_option maxRecDepth 8192 in
theorem main_part5_eq (c : Dev nD) : main_part5 (F := F) c = seq partops5 := by
  simp only [main_part5, fn_relu.body, fn_where.body, fn_var.body, fn_where_0.body, fn_where_2.body, fn_var_1.body, fn_where_3.body, partops5, rops25, rops26, rops27, rops28, rops29, List.cons_append, List.nil_append, seq, bind_assoc, pure_bind]
  all_goals rfl
theorem partops5_sub : (partops5 : List (HloOp τ sig (Elt F))).Forall fun op => op.bufs ⊆ tcRefs τ sig := (forall_append (forall_append (forall_append (forall_append rops25_sub rops26_sub) rops27_sub) rops28_sub) rops29_sub)
theorem partops5_fresh : ∀ op ∈ (partops5 : List (HloOp τ sig (Elt F))), op.fresh = ∅ := (mem_append_all (mem_append_all (mem_append_all (mem_append_all rops25_fresh rops26_fresh) rops27_fresh) rops28_fresh) rops29_fresh)

/-- The operations of the printed window main_part6. -/
abbrev partops6 : List (HloOp τ sig (Elt F)) := rops30 ++ rops31 ++ rops32
set_option maxRecDepth 8192 in
theorem main_part6_eq (c : Dev nD) : main_part6 (F := F) c = seq partops6 := by
  simp only [main_part6, fn_relu.body, fn_where.body, fn_var.body, fn_where_0.body, fn_where_2.body, fn_var_1.body, fn_where_3.body, partops6, rops30, rops31, rops32, List.cons_append, List.nil_append, seq, bind_assoc, pure_bind]
  all_goals rfl
theorem partops6_sub : (partops6 : List (HloOp τ sig (Elt F))).Forall fun op => op.bufs ⊆ tcRefs τ sig := (forall_append (forall_append rops30_sub rops31_sub) rops32_sub)
theorem partops6_fresh : ∀ op ∈ (partops6 : List (HloOp τ sig (Elt F))), op.fresh = ∅ := (mem_append_all (mem_append_all rops30_fresh rops31_fresh) rops32_fresh)

/-- @main's operations, window after window. -/
abbrev ops : List (HloOp τ sig (Elt F)) := partops0 ++ (partops1 ++ (partops2 ++ (partops3 ++ (partops4 ++ (partops5 ++ (partops6))))))
theorem main_eq (c : Dev nD) : main (F := F) c = seq ops := by
  simp only [main, ops, seq_append, main_part0_eq, main_part1_eq, main_part2_eq, main_part3_eq, main_part4_eq, main_part5_eq, main_part6_eq]
theorem ops_sub : (ops : List (HloOp τ sig (Elt F))).Forall fun op => op.bufs ⊆ tcRefs τ sig := (forall_append partops0_sub (forall_append partops1_sub (forall_append partops2_sub (forall_append partops3_sub (forall_append partops4_sub (forall_append partops5_sub partops6_sub))))))
theorem ops_fresh : ∀ op ∈ (ops : List (HloOp τ sig (Elt F))), op.fresh = ∅ := (mem_append_all partops0_fresh (mem_append_all partops1_fresh (mem_append_all partops2_fresh (mem_append_all partops3_fresh (mem_append_all partops4_fresh (mem_append_all partops5_fresh partops6_fresh))))))
theorem scopedRefs_eq : (Finset.univ.filter fun b : Ref sig .tc => b.isScoped) = ∅ := by decide
theorem scopedSems_eq : (Finset.univ.filter fun sm : SemLoc sig => sm.isScoped .tc) = ∅ := by decide

/-- The buffer contents after each stretch, from contents V. -/
abbrev RV0 (V : Valuation τ sig (Elt F)) : Valuation τ sig (Elt F) := V
abbrev RV1 (V : Valuation τ sig (Elt F)) : Valuation τ sig (Elt F) := after rops0 (RV0 V)
abbrev RV2 (V : Valuation τ sig (Elt F)) : Valuation τ sig (Elt F) := after rops1 (RV1 V)
abbrev RV3 (V : Valuation τ sig (Elt F)) : Valuation τ sig (Elt F) := after rops2 (RV2 V)
abbrev RV4 (V : Valuation τ sig (Elt F)) : Valuation τ sig (Elt F) := after rops3 (RV3 V)
abbrev RV5 (V : Valuation τ sig (Elt F)) : Valuation τ sig (Elt F) := after rops4 (RV4 V)
abbrev RV6 (V : Valuation τ sig (Elt F)) : Valuation τ sig (Elt F) := after rops5 (RV5 V)
abbrev RV7 (V : Valuation τ sig (Elt F)) : Valuation τ sig (Elt F) := after rops6 (RV6 V)
abbrev RV8 (V : Valuation τ sig (Elt F)) : Valuation τ sig (Elt F) := after rops7 (RV7 V)
abbrev RV9 (V : Valuation τ sig (Elt F)) : Valuation τ sig (Elt F) := after rops8 (RV8 V)
abbrev RV10 (V : Valuation τ sig (Elt F)) : Valuation τ sig (Elt F) := after rops9 (RV9 V)
abbrev RV11 (V : Valuation τ sig (Elt F)) : Valuation τ sig (Elt F) := after rops10 (RV10 V)
abbrev RV12 (V : Valuation τ sig (Elt F)) : Valuation τ sig (Elt F) := after rops11 (RV11 V)
abbrev RV13 (V : Valuation τ sig (Elt F)) : Valuation τ sig (Elt F) := after rops12 (RV12 V)
abbrev RV14 (V : Valuation τ sig (Elt F)) : Valuation τ sig (Elt F) := after rops13 (RV13 V)
abbrev RV15 (V : Valuation τ sig (Elt F)) : Valuation τ sig (Elt F) := after rops14 (RV14 V)
abbrev RV16 (V : Valuation τ sig (Elt F)) : Valuation τ sig (Elt F) := after rops15 (RV15 V)
abbrev RV17 (V : Valuation τ sig (Elt F)) : Valuation τ sig (Elt F) := after rops16 (RV16 V)
abbrev RV18 (V : Valuation τ sig (Elt F)) : Valuation τ sig (Elt F) := after rops17 (RV17 V)
abbrev RV19 (V : Valuation τ sig (Elt F)) : Valuation τ sig (Elt F) := after rops18 (RV18 V)
abbrev RV20 (V : Valuation τ sig (Elt F)) : Valuation τ sig (Elt F) := after rops19 (RV19 V)
abbrev RV21 (V : Valuation τ sig (Elt F)) : Valuation τ sig (Elt F) := after rops20 (RV20 V)
abbrev RV22 (V : Valuation τ sig (Elt F)) : Valuation τ sig (Elt F) := after rops21 (RV21 V)
abbrev RV23 (V : Valuation τ sig (Elt F)) : Valuation τ sig (Elt F) := after rops22 (RV22 V)
abbrev RV24 (V : Valuation τ sig (Elt F)) : Valuation τ sig (Elt F) := after rops23 (RV23 V)
abbrev RV25 (V : Valuation τ sig (Elt F)) : Valuation τ sig (Elt F) := after rops24 (RV24 V)
abbrev RV26 (V : Valuation τ sig (Elt F)) : Valuation τ sig (Elt F) := after rops25 (RV25 V)
abbrev RV27 (V : Valuation τ sig (Elt F)) : Valuation τ sig (Elt F) := after rops26 (RV26 V)
abbrev RV28 (V : Valuation τ sig (Elt F)) : Valuation τ sig (Elt F) := after rops27 (RV27 V)
abbrev RV29 (V : Valuation τ sig (Elt F)) : Valuation τ sig (Elt F) := after rops28 (RV28 V)
abbrev RV30 (V : Valuation τ sig (Elt F)) : Valuation τ sig (Elt F) := after rops29 (RV29 V)
abbrev RV31 (V : Valuation τ sig (Elt F)) : Valuation τ sig (Elt F) := after rops30 (RV30 V)
abbrev RV32 (V : Valuation τ sig (Elt F)) : Valuation τ sig (Elt F) := after rops31 (RV31 V)
abbrev RV33 (V : Valuation τ sig (Elt F)) : Valuation τ sig (Elt F) := after rops32 (RV32 V)
theorem after_ops (V : Valuation τ sig (Elt F)) : after ops V = RV33 V := by
  simp only [ops, partops0, partops1, partops2, partops3, partops4, partops5, partops6, after_append]

/-- Every weakly fair execution of the reference terminates, every buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = RV33 (launchContents m c) (Proc.devRef .tc b) :=
  (θ_run defs _ _).mono (fun _ h c b => (h c b).trans (congrFun (after_ops _) _))
    (run_seq scopedRefs_eq scopedSems_eq defs main (fun _ => ops) main_eq (fun _ => ops_sub) m ρ (fun _ => ops_fresh))

end Cert.ReferenceIdeal.RefRun

end
-- ==== Proof.TabK.lean ====
/- The kernel program's segments as a table: which buffers each host stretch or region writes, that every other buffer
   passes a segment unchanged, and hence that a buffer no later segment writes is, at the last boundary, what it was at an earlier one. -/
import proofs.«409037_j72164040508123_1_alg».proof.Proof.FrameKernelIdeal
import Idealize.ShloMosaic.Lib.StableHlo.Run

set_option maxRecDepth 16384

noncomputable section

namespace Cert.KernelIdeal.Tab

open Cert.KernelIdeal Cert.KernelIdeal.Gen Cert.KernelIdeal.GenP Idealize.ShloMosaic Idealize.ShloMosaic.TcCoe Idealize.SL.Sem Idealize.ShloMosaic.StableHlo

variable {F : FTy → Type} [FloatOps F]

/-- An operation that writes one buffer of a list writes inside the list. -/
theorem writes_sub {op : HloOp τ sig (Elt F)} {y : Ref sig .tc} {W : List (Ref sig .tc)} (h : op.writes = {Proc.devRef .tc y}) (hy : y ∈ W) :
    op.writes ⊆ (W.map (Proc.devRef (τ := τ) .tc)).toFinset := by
  rw [h]; exact Finset.singleton_subset_iff.mpr (List.mem_toFinset.mpr (List.mem_map_of_mem hy))

variable (m : (ℓ : Loc nD τ sig) → Buf (Elt F) ℓ) (ρ : Dev nD → PrngReg)

/-- What segment 0 writes. -/
def outs0 : List (Ref sig .tc) := [main_v0, main_v1, main_v2, main_v3, main_c, main_v4, main_v5, main_c_0, main_v6, main_v7, main_v8, main_v9, main_v10, main_v11, main_v12, main_v13, main_v14, main_v15]
theorem writes0 : (hostOps0 : List (HloOp τ sig (Elt F))).Forall fun op => op.writes ⊆ ((outs0).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step0 (c : Dev nD) (z : Ref sig .tc) (hz : z ∉ outs0) : W1 m ρ c (Proc.devRef .tc z) = W0 m ρ c (Proc.devRef .tc z) :=
  after_of_writes_sub hostOps0 (W0 m ρ c) (writes0 (F := F)) hz

/-- What segment 1 writes. -/
def outs1 : List (Ref sig .tc) := [main_v16]
theorem step1 (c : Dev nD) (z : Ref sig .tc) (hz : z ∉ outs1) : W2 m ρ c (Proc.devRef .tc z) = W1 m ρ c (Proc.devRef .tc z) := by
  have hout : z ≠ main_v16 := fun e => hz (e ▸ List.mem_singleton_self _)
  by_cases h0 : z = main_v10
  · subst h0; exact (W2_arr m ρ c 0).trans (((dat0 (V1 m ρ) c).arrAt_in 0 rfl _).trans (A_eq0 (V1 m ρ) c 0))
  by_cases h1 : z = main_arg1
  · subst h1; exact (W2_arr m ρ c 1).trans (((dat0 (V1 m ρ) c).arrAt_in 1 rfl _).trans (A_eq0 (V1 m ρ) c 1))
  by_cases h2 : z = main_v12
  · subst h2; exact (W2_arr m ρ c 2).trans (((dat0 (V1 m ρ) c).arrAt_in 2 rfl _).trans (A_eq0 (V1 m ρ) c 2))
  by_cases h3 : z = main_v15
  · subst h3; exact (W2_arr m ρ c 3).trans (((dat0 (V1 m ρ) c).arrAt_in 3 rfl _).trans (A_eq0 (V1 m ρ) c 3))
  exact W2_of_ne m ρ c z (fun w => match w with
    | ⟨0, _⟩ => Ne.symm h0
    | ⟨1, _⟩ => Ne.symm h1
    | ⟨2, _⟩ => Ne.symm h2
    | ⟨3, _⟩ => Ne.symm h3
    | ⟨4, _⟩ => Ne.symm hout
    | ⟨_ + 5, h⟩ => absurd h (Nat.not_lt.2 (Nat.le_add_left _ _)))

/-- What segment 2 writes. -/
def outs2 : List (Ref sig .tc) := [main_cst, main_v17, main_v18, main_v19, main_v20, main_v21, main_cst_1, main_v22, main_v23, main_v24, main_v25, main_v26, main_v27, main_v28, main_v29, main_v30]
theorem writes2 : (hostOps1 : List (HloOp τ sig (Elt F))).Forall fun op => op.writes ⊆ ((outs2).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step2 (c : Dev nD) (z : Ref sig .tc) (hz : z ∉ outs2) : W3 m ρ c (Proc.devRef .tc z) = W2 m ρ c (Proc.devRef .tc z) :=
  after_of_writes_sub hostOps1 (W2 m ρ c) (writes2 (F := F)) hz

/-- What segment 3 writes. -/
def outs3 : List (Ref sig .tc) := [main_v31]
theorem step3 (c : Dev nD) (z : Ref sig .tc) (hz : z ∉ outs3) : W4 m ρ c (Proc.devRef .tc z) = W3 m ρ c (Proc.devRef .tc z) := by
  have hout : z ≠ main_v31 := fun e => hz (e ▸ List.mem_singleton_self _)
  by_cases h0 : z = main_v25
  · subst h0; exact (W4_arr m ρ c 0).trans (((dat1 (V3 m ρ) c).arrAt_in 0 rfl _).trans (A_eq1 (V3 m ρ) c 0))
  by_cases h1 : z = main_v27
  · subst h1; exact (W4_arr m ρ c 1).trans (((dat1 (V3 m ρ) c).arrAt_in 1 rfl _).trans (A_eq1 (V3 m ρ) c 1))
  by_cases h2 : z = main_v30
  · subst h2; exact (W4_arr m ρ c 2).trans (((dat1 (V3 m ρ) c).arrAt_in 2 rfl _).trans (A_eq1 (V3 m ρ) c 2))
  exact W4_of_ne m ρ c z (fun w => match w with
    | ⟨0, _⟩ => Ne.symm h0
    | ⟨1, _⟩ => Ne.symm h1
    | ⟨2, _⟩ => Ne.symm h2
    | ⟨3, _⟩ => Ne.symm hout
    | ⟨_ + 4, h⟩ => absurd h (Nat.not_lt.2 (Nat.le_add_left _ _)))

/-- What segment 4 writes. -/
def outs4 : List (Ref sig .tc) := [main_v32, main_v33, main_v34, main_v35, main_cst_2, main_v36, main_cst_3, main_v37, main_v38, main_c_4]
theorem writes4 : (hostOps2 : List (HloOp τ sig (Elt F))).Forall fun op => op.writes ⊆ ((outs4).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step4 (c : Dev nD) (z : Ref sig .tc) (hz : z ∉ outs4) : W5 m ρ c (Proc.devRef .tc z) = W4 m ρ c (Proc.devRef .tc z) :=
  after_of_writes_sub hostOps2 (W4 m ρ c) (writes4 (F := F)) hz

/-- What segment 5 writes. -/
def outs5 : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v39]
theorem writes5 : (hostOps2_1 : List (HloOp τ sig (Elt F))).Forall fun op => op.writes ⊆ ((outs5).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step5 (c : Dev nD) (z : Ref sig .tc) (hz : z ∉ outs5) : W6 m ρ c (Proc.devRef .tc z) = W5 m ρ c (Proc.devRef .tc z) :=
  after_of_writes_sub hostOps2_1 (W5 m ρ c) (writes5 (F := F)) hz

/-- What segment 6 writes. -/
def outs6 : List (Ref sig .tc) := [main_cst_5, main_v40, main_v41, main_v42, main_v43, main_v44, main_v45, main_v46, main_v47, main_v48, main_v49, main_v50, main_v51, main_cst_6, main_v52, main_v53, main_cst_7, main_v54, main_v55]
theorem writes6 : (hostOps2_2 : List (HloOp τ sig (Elt F))).Forall fun op => op.writes ⊆ ((outs6).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step6 (c : Dev nD) (z : Ref sig .tc) (hz : z ∉ outs6) : W7 m ρ c (Proc.devRef .tc z) = W6 m ρ c (Proc.devRef .tc z) :=
  after_of_writes_sub hostOps2_2 (W6 m ρ c) (writes6 (F := F)) hz

/-- What segment 7 writes. -/
def outs7 : List (Ref sig .tc) := [main_v56]
theorem writes7 : (hostOps2_3 : List (HloOp τ sig (Elt F))).Forall fun op => op.writes ⊆ ((outs7).map (Proc.devRef (τ := τ) .tc)).toFinset :=
  writes_sub rfl (by decide)
theorem step7 (c : Dev nD) (z : Ref sig .tc) (hz : z ∉ outs7) : W8 m ρ c (Proc.devRef .tc z) = W7 m ρ c (Proc.devRef .tc z) :=
  after_of_writes_sub hostOps2_3 (W7 m ρ c) (writes7 (F := F)) hz

/-- What segment 8 writes. -/
def outs8 : List (Ref sig .tc) := [main_v57, main_v58, main_v59, main_v60, main_v61]
theorem writes8 : (hostOps2_4 : List (HloOp τ sig (Elt F))).Forall fun op => op.writes ⊆ ((outs8).map (Proc.devRef (τ := τ) .tc)).toFinset :=
  ⟨writes_sub rfl (by decide), writes_sub rfl (by decide), writes_sub rfl (by decide), writes_sub rfl (by decide), writes_sub rfl (by decide)⟩
theorem step8 (c : Dev nD) (z : Ref sig .tc) (hz : z ∉ outs8) : W9 m ρ c (Proc.devRef .tc z) = W8 m ρ c (Proc.devRef .tc z) :=
  after_of_writes_sub hostOps2_4 (W8 m ρ c) (writes8 (F := F)) hz

/-- What segment 9 writes. -/
def outs9 : List (Ref sig .tc) := [main_v62]
theorem step9 (c : Dev nD) (z : Ref sig .tc) (hz : z ∉ outs9) : W10 m ρ c (Proc.devRef .tc z) = W9 m ρ c (Proc.devRef .tc z) := by
  have hout : z ≠ main_v62 := fun e => hz (e ▸ List.mem_singleton_self _)
  by_cases h0 : z = main_v56
  · subst h0; exact (W10_arr m ρ c 0).trans (((dat2 (V9 m ρ) c).arrAt_in 0 rfl _).trans (A_eq2 (V9 m ρ) c 0))
  by_cases h1 : z = main_v58
  · subst h1; exact (W10_arr m ρ c 1).trans (((dat2 (V9 m ρ) c).arrAt_in 1 rfl _).trans (A_eq2 (V9 m ρ) c 1))
  by_cases h2 : z = main_v61
  · subst h2; exact (W10_arr m ρ c 2).trans (((dat2 (V9 m ρ) c).arrAt_in 2 rfl _).trans (A_eq2 (V9 m ρ) c 2))
  exact W10_of_ne m ρ c z (fun w => match w with
    | ⟨0, _⟩ => Ne.symm h0
    | ⟨1, _⟩ => Ne.symm h1
    | ⟨2, _⟩ => Ne.symm h2
    | ⟨3, _⟩ => Ne.symm hout
    | ⟨_ + 4, h⟩ => absurd h (Nat.not_lt.2 (Nat.le_add_left _ _)))

/-- What segment 10 writes. -/
def outs10 : List (Ref sig .tc) := [main_v63, main_v64, main_v65, main_v66, main_cst_8, main_v67, main_cst_9, main_v68, main_v69, main_c_10]
theorem writes10 : (hostOps3 : List (HloOp τ sig (Elt F))).Forall fun op => op.writes ⊆ ((outs10).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step10 (c : Dev nD) (z : Ref sig .tc) (hz : z ∉ outs10) : W11 m ρ c (Proc.devRef .tc z) = W10 m ρ c (Proc.devRef .tc z) :=
  after_of_writes_sub hostOps3 (W10 m ρ c) (writes10 (F := F)) hz

/-- What segment 11 writes. -/
def outs11 : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v70]
theorem writes11 : (hostOps3_1 : List (HloOp τ sig (Elt F))).Forall fun op => op.writes ⊆ ((outs11).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step11 (c : Dev nD) (z : Ref sig .tc) (hz : z ∉ outs11) : W12 m ρ c (Proc.devRef .tc z) = W11 m ρ c (Proc.devRef .tc z) :=
  after_of_writes_sub hostOps3_1 (W11 m ρ c) (writes11 (F := F)) hz

/-- What segment 12 writes. -/
def outs12 : List (Ref sig .tc) := [main_cst_11, main_v71, main_v72, main_v73, main_v74, main_v75, main_v76, main_v77, main_v78, main_v79, main_v80, main_v81, main_v82, main_cst_12, main_v83, main_v84, main_cst_13, main_v85, main_v86]
theorem writes12 : (hostOps3_2 : List (HloOp τ sig (Elt F))).Forall fun op => op.writes ⊆ ((outs12).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step12 (c : Dev nD) (z : Ref sig .tc) (hz : z ∉ outs12) : W13 m ρ c (Proc.devRef .tc z) = W12 m ρ c (Proc.devRef .tc z) :=
  after_of_writes_sub hostOps3_2 (W12 m ρ c) (writes12 (F := F)) hz

/-- What segment 13 writes. -/
def outs13 : List (Ref sig .tc) := [main_v87]
theorem writes13 : (hostOps3_3 : List (HloOp τ sig (Elt F))).Forall fun op => op.writes ⊆ ((outs13).map (Proc.devRef (τ := τ) .tc)).toFinset :=
  writes_sub rfl (by decide)
theorem step13 (c : Dev nD) (z : Ref sig .tc) (hz : z ∉ outs13) : W14 m ρ c (Proc.devRef .tc z) = W13 m ρ c (Proc.devRef .tc z) :=
  after_of_writes_sub hostOps3_3 (W13 m ρ c) (writes13 (F := F)) hz

/-- What segment 14 writes. -/
def outs14 : List (Ref sig .tc) := [main_c_14, main_v88, main_v89, main_c_15, main_v90, main_v91, main_v92, main_v93, main_v94, main_v95, main_v96, main_v97, main_v98, main_v99]
theorem writes14 : (hostOps3_4 : List (HloOp τ sig (Elt F))).Forall fun op => op.writes ⊆ ((outs14).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step14 (c : Dev nD) (z : Ref sig .tc) (hz : z ∉ outs14) : W15 m ρ c (Proc.devRef .tc z) = W14 m ρ c (Proc.devRef .tc z) :=
  after_of_writes_sub hostOps3_4 (W14 m ρ c) (writes14 (F := F)) hz

/-- What segment 15 writes. -/
def outs15 : List (Ref sig .tc) := [main_v100]
theorem step15 (c : Dev nD) (z : Ref sig .tc) (hz : z ∉ outs15) : W16 m ρ c (Proc.devRef .tc z) = W15 m ρ c (Proc.devRef .tc z) := by
  have hout : z ≠ main_v100 := fun e => hz (e ▸ List.mem_singleton_self _)
  by_cases h0 : z = main_v94
  · subst h0; exact (W16_arr m ρ c 0).trans (((dat3 (V15 m ρ) c).arrAt_in 0 rfl _).trans (A_eq3 (V15 m ρ) c 0))
  by_cases h1 : z = main_arg1
  · subst h1; exact (W16_arr m ρ c 1).trans (((dat3 (V15 m ρ) c).arrAt_in 1 rfl _).trans (A_eq3 (V15 m ρ) c 1))
  by_cases h2 : z = main_v96
  · subst h2; exact (W16_arr m ρ c 2).trans (((dat3 (V15 m ρ) c).arrAt_in 2 rfl _).trans (A_eq3 (V15 m ρ) c 2))
  by_cases h3 : z = main_v99
  · subst h3; exact (W16_arr m ρ c 3).trans (((dat3 (V15 m ρ) c).arrAt_in 3 rfl _).trans (A_eq3 (V15 m ρ) c 3))
  exact W16_of_ne m ρ c z (fun w => match w with
    | ⟨0, _⟩ => Ne.symm h0
    | ⟨1, _⟩ => Ne.symm h1
    | ⟨2, _⟩ => Ne.symm h2
    | ⟨3, _⟩ => Ne.symm h3
    | ⟨4, _⟩ => Ne.symm hout
    | ⟨_ + 5, h⟩ => absurd h (Nat.not_lt.2 (Nat.le_add_left _ _)))

/-- What segment 16 writes. -/
def outs16 : List (Ref sig .tc) := [main_cst_16, main_v101, main_v102, main_v103, main_v104, main_v105, main_cst_17, main_v106, main_v107, main_v108, main_v109, main_v110, main_v111, main_v112, main_v113, main_v114]
theorem writes16 : (hostOps4 : List (HloOp τ sig (Elt F))).Forall fun op => op.writes ⊆ ((outs16).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step16 (c : Dev nD) (z : Ref sig .tc) (hz : z ∉ outs16) : W17 m ρ c (Proc.devRef .tc z) = W16 m ρ c (Proc.devRef .tc z) :=
  after_of_writes_sub hostOps4 (W16 m ρ c) (writes16 (F := F)) hz

/-- What segment 17 writes. -/
def outs17 : List (Ref sig .tc) := [main_v115]
theorem step17 (c : Dev nD) (z : Ref sig .tc) (hz : z ∉ outs17) : W18 m ρ c (Proc.devRef .tc z) = W17 m ρ c (Proc.devRef .tc z) := by
  have hout : z ≠ main_v115 := fun e => hz (e ▸ List.mem_singleton_self _)
  by_cases h0 : z = main_v109
  · subst h0; exact (W18_arr m ρ c 0).trans (((dat4 (V17 m ρ) c).arrAt_in 0 rfl _).trans (A_eq4 (V17 m ρ) c 0))
  by_cases h1 : z = main_v111
  · subst h1; exact (W18_arr m ρ c 1).trans (((dat4 (V17 m ρ) c).arrAt_in 1 rfl _).trans (A_eq4 (V17 m ρ) c 1))
  by_cases h2 : z = main_v114
  · subst h2; exact (W18_arr m ρ c 2).trans (((dat4 (V17 m ρ) c).arrAt_in 2 rfl _).trans (A_eq4 (V17 m ρ) c 2))
  exact W18_of_ne m ρ c z (fun w => match w with
    | ⟨0, _⟩ => Ne.symm h0
    | ⟨1, _⟩ => Ne.symm h1
    | ⟨2, _⟩ => Ne.symm h2
    | ⟨3, _⟩ => Ne.symm hout
    | ⟨_ + 4, h⟩ => absurd h (Nat.not_lt.2 (Nat.le_add_left _ _)))

/-- What segment 18 writes. -/
def outs18 : List (Ref sig .tc) := [main_v116, main_v117, main_v118, main_v119, main_cst_18, main_v120, main_cst_19, main_v121, main_v122, main_c_20]
theorem writes18 : (hostOps5 : List (HloOp τ sig (Elt F))).Forall fun op => op.writes ⊆ ((outs18).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step18 (c : Dev nD) (z : Ref sig .tc) (hz : z ∉ outs18) : W19 m ρ c (Proc.devRef .tc z) = W18 m ρ c (Proc.devRef .tc z) :=
  after_of_writes_sub hostOps5 (W18 m ρ c) (writes18 (F := F)) hz

/-- What segment 19 writes. -/
def outs19 : List (Ref sig .tc) := [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v123]
theorem writes19 : (hostOps5_1 : List (HloOp τ sig (Elt F))).Forall fun op => op.writes ⊆ ((outs19).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step19 (c : Dev nD) (z : Ref sig .tc) (hz : z ∉ outs19) : W20 m ρ c (Proc.devRef .tc z) = W19 m ρ c (Proc.devRef .tc z) :=
  after_of_writes_sub hostOps5_1 (W19 m ρ c) (writes19 (F := F)) hz

/-- What segment 20 writes. -/
def outs20 : List (Ref sig .tc) := [main_cst_21, main_v124, main_v125, main_v126, main_v127, main_v128, main_v129, main_v130, main_v131, main_v132, main_v133, main_v134, main_v135, main_cst_22, main_v136, main_v137, main_cst_23, main_v138, main_v139]
theorem writes20 : (hostOps5_2 : List (HloOp τ sig (Elt F))).Forall fun op => op.writes ⊆ ((outs20).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step20 (c : Dev nD) (z : Ref sig .tc) (hz : z ∉ outs20) : W21 m ρ c (Proc.devRef .tc z) = W20 m ρ c (Proc.devRef .tc z) :=
  after_of_writes_sub hostOps5_2 (W20 m ρ c) (writes20 (F := F)) hz

/-- What segment 21 writes. -/
def outs21 : List (Ref sig .tc) := [main_v140]
theorem writes21 : (hostOps5_3 : List (HloOp τ sig (Elt F))).Forall fun op => op.writes ⊆ ((outs21).map (Proc.devRef (τ := τ) .tc)).toFinset :=
  writes_sub rfl (by decide)
theorem step21 (c : Dev nD) (z : Ref sig .tc) (hz : z ∉ outs21) : W22 m ρ c (Proc.devRef .tc z) = W21 m ρ c (Proc.devRef .tc z) :=
  after_of_writes_sub hostOps5_3 (W21 m ρ c) (writes21 (F := F)) hz

/-- What segment 22 writes. -/
def outs22 : List (Ref sig .tc) := [main_v141, main_v142, main_v143, main_v144, main_v145]
theorem writes22 : (hostOps5_4 : List (HloOp τ sig (Elt F))).Forall fun op => op.writes ⊆ ((outs22).map (Proc.devRef (τ := τ) .tc)).toFinset :=
  ⟨writes_sub rfl (by decide), writes_sub rfl (by decide), writes_sub rfl (by decide), writes_sub rfl (by decide), writes_sub rfl (by decide)⟩
theorem step22 (c : Dev nD) (z : Ref sig .tc) (hz : z ∉ outs22) : W23 m ρ c (Proc.devRef .tc z) = W22 m ρ c (Proc.devRef .tc z) :=
  after_of_writes_sub hostOps5_4 (W22 m ρ c) (writes22 (F := F)) hz

/-- What segment 23 writes. -/
def outs23 : List (Ref sig .tc) := [main_v146]
theorem step23 (c : Dev nD) (z : Ref sig .tc) (hz : z ∉ outs23) : W24 m ρ c (Proc.devRef .tc z) = W23 m ρ c (Proc.devRef .tc z) := by
  have hout : z ≠ main_v146 := fun e => hz (e ▸ List.mem_singleton_self _)
  by_cases h0 : z = main_v140
  · subst h0; exact (W24_arr m ρ c 0).trans (((dat5 (V23 m ρ) c).arrAt_in 0 rfl _).trans (A_eq5 (V23 m ρ) c 0))
  by_cases h1 : z = main_v142
  · subst h1; exact (W24_arr m ρ c 1).trans (((dat5 (V23 m ρ) c).arrAt_in 1 rfl _).trans (A_eq5 (V23 m ρ) c 1))
  by_cases h2 : z = main_v145
  · subst h2; exact (W24_arr m ρ c 2).trans (((dat5 (V23 m ρ) c).arrAt_in 2 rfl _).trans (A_eq5 (V23 m ρ) c 2))
  exact W24_of_ne m ρ c z (fun w => match w with
    | ⟨0, _⟩ => Ne.symm h0
    | ⟨1, _⟩ => Ne.symm h1
    | ⟨2, _⟩ => Ne.symm h2
    | ⟨3, _⟩ => Ne.symm hout
    | ⟨_ + 4, h⟩ => absurd h (Nat.not_lt.2 (Nat.le_add_left _ _)))

/-- What segment 24 writes. -/
def outs24 : List (Ref sig .tc) := [main_v147, main_v148, main_v149, main_v150, main_cst_24, main_v151, main_cst_25, main_v152, main_v153, main_c_26]
theorem writes24 : (hostOps6 : List (HloOp τ sig (Elt F))).Forall fun op => op.writes ⊆ ((outs24).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step24 (c : Dev nD) (z : Ref sig .tc) (hz : z ∉ outs24) : W25 m ρ c (Proc.devRef .tc z) = W24 m ρ c (Proc.devRef .tc z) :=
  after_of_writes_sub hostOps6 (W24 m ρ c) (writes24 (F := F)) hz

/-- What segment 25 writes. -/
def outs25 : List (Ref sig .tc) := [main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v154]
theorem writes25 : (hostOps6_1 : List (HloOp τ sig (Elt F))).Forall fun op => op.writes ⊆ ((outs25).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step25 (c : Dev nD) (z : Ref sig .tc) (hz : z ∉ outs25) : W26 m ρ c (Proc.devRef .tc z) = W25 m ρ c (Proc.devRef .tc z) :=
  after_of_writes_sub hostOps6_1 (W25 m ρ c) (writes25 (F := F)) hz

/-- What segment 26 writes. -/
def outs26 : List (Ref sig .tc) := [main_cst_27, main_v155, main_v156, main_v157, main_v158, main_v159, main_v160, main_v161, main_v162, main_v163, main_v164, main_v165, main_v166, main_cst_28, main_v167, main_v168, main_cst_29, main_v169, main_v170]
theorem writes26 : (hostOps6_2 : List (HloOp τ sig (Elt F))).Forall fun op => op.writes ⊆ ((outs26).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step26 (c : Dev nD) (z : Ref sig .tc) (hz : z ∉ outs26) : W27 m ρ c (Proc.devRef .tc z) = W26 m ρ c (Proc.devRef .tc z) :=
  after_of_writes_sub hostOps6_2 (W26 m ρ c) (writes26 (F := F)) hz

/-- What segment 27 writes. -/
def outs27 : List (Ref sig .tc) := [main_v171]
theorem writes27 : (hostOps6_3 : List (HloOp τ sig (Elt F))).Forall fun op => op.writes ⊆ ((outs27).map (Proc.devRef (τ := τ) .tc)).toFinset :=
  writes_sub rfl (by decide)
theorem step27 (c : Dev nD) (z : Ref sig .tc) (hz : z ∉ outs27) : W28 m ρ c (Proc.devRef .tc z) = W27 m ρ c (Proc.devRef .tc z) :=
  after_of_writes_sub hostOps6_3 (W27 m ρ c) (writes27 (F := F)) hz

/-- What segment 28 writes. -/
def outs28 : List (Ref sig .tc) := [main_c_30, main_v172, main_v173, main_c_31, main_v174, main_v175, main_v176, main_v177, main_v178, main_v179, main_v180, main_v181, main_v182, main_v183]
theorem writes28 : (hostOps6_4 : List (HloOp τ sig (Elt F))).Forall fun op => op.writes ⊆ ((outs28).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step28 (c : Dev nD) (z : Ref sig .tc) (hz : z ∉ outs28) : W29 m ρ c (Proc.devRef .tc z) = W28 m ρ c (Proc.devRef .tc z) :=
  after_of_writes_sub hostOps6_4 (W28 m ρ c) (writes28 (F := F)) hz

/-- What segment 29 writes. -/
def outs29 : List (Ref sig .tc) := [main_v184]
theorem step29 (c : Dev nD) (z : Ref sig .tc) (hz : z ∉ outs29) : W30 m ρ c (Proc.devRef .tc z) = W29 m ρ c (Proc.devRef .tc z) := by
  have hout : z ≠ main_v184 := fun e => hz (e ▸ List.mem_singleton_self _)
  by_cases h0 : z = main_v178
  · subst h0; exact (W30_arr m ρ c 0).trans (((dat6 (V29 m ρ) c).arrAt_in 0 rfl _).trans (A_eq6 (V29 m ρ) c 0))
  by_cases h1 : z = main_arg1
  · subst h1; exact (W30_arr m ρ c 1).trans (((dat6 (V29 m ρ) c).arrAt_in 1 rfl _).trans (A_eq6 (V29 m ρ) c 1))
  by_cases h2 : z = main_v180
  · subst h2; exact (W30_arr m ρ c 2).trans (((dat6 (V29 m ρ) c).arrAt_in 2 rfl _).trans (A_eq6 (V29 m ρ) c 2))
  by_cases h3 : z = main_v183
  · subst h3; exact (W30_arr m ρ c 3).trans (((dat6 (V29 m ρ) c).arrAt_in 3 rfl _).trans (A_eq6 (V29 m ρ) c 3))
  exact W30_of_ne m ρ c z (fun w => match w with
    | ⟨0, _⟩ => Ne.symm h0
    | ⟨1, _⟩ => Ne.symm h1
    | ⟨2, _⟩ => Ne.symm h2
    | ⟨3, _⟩ => Ne.symm h3
    | ⟨4, _⟩ => Ne.symm hout
    | ⟨_ + 5, h⟩ => absurd h (Nat.not_lt.2 (Nat.le_add_left _ _)))

/-- What segment 30 writes. -/
def outs30 : List (Ref sig .tc) := [main_cst_32, main_v185, main_v186, main_v187, main_v188, main_v189, main_cst_33, main_v190, main_v191, main_v192, main_v193, main_v194, main_v195, main_v196, main_v197, main_v198]
theorem writes30 : (hostOps7 : List (HloOp τ sig (Elt F))).Forall fun op => op.writes ⊆ ((outs30).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step30 (c : Dev nD) (z : Ref sig .tc) (hz : z ∉ outs30) : W31 m ρ c (Proc.devRef .tc z) = W30 m ρ c (Proc.devRef .tc z) :=
  after_of_writes_sub hostOps7 (W30 m ρ c) (writes30 (F := F)) hz

/-- What segment 31 writes. -/
def outs31 : List (Ref sig .tc) := [main_v199]
theorem step31 (c : Dev nD) (z : Ref sig .tc) (hz : z ∉ outs31) : W32 m ρ c (Proc.devRef .tc z) = W31 m ρ c (Proc.devRef .tc z) := by
  have hout : z ≠ main_v199 := fun e => hz (e ▸ List.mem_singleton_self _)
  by_cases h0 : z = main_v193
  · subst h0; exact (W32_arr m ρ c 0).trans (((dat7 (V31 m ρ) c).arrAt_in 0 rfl _).trans (A_eq7 (V31 m ρ) c 0))
  by_cases h1 : z = main_v195
  · subst h1; exact (W32_arr m ρ c 1).trans (((dat7 (V31 m ρ) c).arrAt_in 1 rfl _).trans (A_eq7 (V31 m ρ) c 1))
  by_cases h2 : z = main_v198
  · subst h2; exact (W32_arr m ρ c 2).trans (((dat7 (V31 m ρ) c).arrAt_in 2 rfl _).trans (A_eq7 (V31 m ρ) c 2))
  exact W32_of_ne m ρ c z (fun w => match w with
    | ⟨0, _⟩ => Ne.symm h0
    | ⟨1, _⟩ => Ne.symm h1
    | ⟨2, _⟩ => Ne.symm h2
    | ⟨3, _⟩ => Ne.symm hout
    | ⟨_ + 4, h⟩ => absurd h (Nat.not_lt.2 (Nat.le_add_left _ _)))

/-- What segment 32 writes. -/
def outs32 : List (Ref sig .tc) := [main_v200, main_v201, main_v202, main_v203, main_cst_34, main_v204, main_cst_35, main_v205, main_v206, main_c_36]
theorem writes32 : (hostOps8 : List (HloOp τ sig (Elt F))).Forall fun op => op.writes ⊆ ((outs32).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step32 (c : Dev nD) (z : Ref sig .tc) (hz : z ∉ outs32) : W33 m ρ c (Proc.devRef .tc z) = W32 m ρ c (Proc.devRef .tc z) :=
  after_of_writes_sub hostOps8 (W32 m ρ c) (writes32 (F := F)) hz

/-- What segment 33 writes. -/
def outs33 : List (Ref sig .tc) := [main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v207]
theorem writes33 : (hostOps8_1 : List (HloOp τ sig (Elt F))).Forall fun op => op.writes ⊆ ((outs33).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step33 (c : Dev nD) (z : Ref sig .tc) (hz : z ∉ outs33) : W34 m ρ c (Proc.devRef .tc z) = W33 m ρ c (Proc.devRef .tc z) :=
  after_of_writes_sub hostOps8_1 (W33 m ρ c) (writes33 (F := F)) hz

/-- What segment 34 writes. -/
def outs34 : List (Ref sig .tc) := [main_cst_37, main_v208, main_v209, main_v210, main_v211, main_v212, main_v213, main_v214, main_v215, main_v216, main_v217, main_v218, main_v219, main_cst_38, main_v220, main_v221, main_cst_39, main_v222, main_v223]
theorem writes34 : (hostOps8_2 : List (HloOp τ sig (Elt F))).Forall fun op => op.writes ⊆ ((outs34).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step34 (c : Dev nD) (z : Ref sig .tc) (hz : z ∉ outs34) : W35 m ρ c (Proc.devRef .tc z) = W34 m ρ c (Proc.devRef .tc z) :=
  after_of_writes_sub hostOps8_2 (W34 m ρ c) (writes34 (F := F)) hz

/-- What segment 35 writes. -/
def outs35 : List (Ref sig .tc) := [main_v224]
theorem writes35 : (hostOps8_3 : List (HloOp τ sig (Elt F))).Forall fun op => op.writes ⊆ ((outs35).map (Proc.devRef (τ := τ) .tc)).toFinset :=
  writes_sub rfl (by decide)
theorem step35 (c : Dev nD) (z : Ref sig .tc) (hz : z ∉ outs35) : W36 m ρ c (Proc.devRef .tc z) = W35 m ρ c (Proc.devRef .tc z) :=
  after_of_writes_sub hostOps8_3 (W35 m ρ c) (writes35 (F := F)) hz

/-- What segment 36 writes. -/
def outs36 : List (Ref sig .tc) := [main_v225, main_v226, main_v227, main_v228, main_v229]
theorem writes36 : (hostOps8_4 : List (HloOp τ sig (Elt F))).Forall fun op => op.writes ⊆ ((outs36).map (Proc.devRef (τ := τ) .tc)).toFinset :=
  ⟨writes_sub rfl (by decide), writes_sub rfl (by decide), writes_sub rfl (by decide), writes_sub rfl (by decide), writes_sub rfl (by decide)⟩
theorem step36 (c : Dev nD) (z : Ref sig .tc) (hz : z ∉ outs36) : W37 m ρ c (Proc.devRef .tc z) = W36 m ρ c (Proc.devRef .tc z) :=
  after_of_writes_sub hostOps8_4 (W36 m ρ c) (writes36 (F := F)) hz

/-- What segment 37 writes. -/
def outs37 : List (Ref sig .tc) := [main_v230]
theorem step37 (c : Dev nD) (z : Ref sig .tc) (hz : z ∉ outs37) : W38 m ρ c (Proc.devRef .tc z) = W37 m ρ c (Proc.devRef .tc z) := by
  have hout : z ≠ main_v230 := fun e => hz (e ▸ List.mem_singleton_self _)
  by_cases h0 : z = main_v224
  · subst h0; exact (W38_arr m ρ c 0).trans (((dat8 (V37 m ρ) c).arrAt_in 0 rfl _).trans (A_eq8 (V37 m ρ) c 0))
  by_cases h1 : z = main_v226
  · subst h1; exact (W38_arr m ρ c 1).trans (((dat8 (V37 m ρ) c).arrAt_in 1 rfl _).trans (A_eq8 (V37 m ρ) c 1))
  by_cases h2 : z = main_v229
  · subst h2; exact (W38_arr m ρ c 2).trans (((dat8 (V37 m ρ) c).arrAt_in 2 rfl _).trans (A_eq8 (V37 m ρ) c 2))
  exact W38_of_ne m ρ c z (fun w => match w with
    | ⟨0, _⟩ => Ne.symm h0
    | ⟨1, _⟩ => Ne.symm h1
    | ⟨2, _⟩ => Ne.symm h2
    | ⟨3, _⟩ => Ne.symm hout
    | ⟨_ + 4, h⟩ => absurd h (Nat.not_lt.2 (Nat.le_add_left _ _)))

/-- What segment 38 writes. -/
def outs38 : List (Ref sig .tc) := [main_v231]
theorem writes38 : (hostOps9 : List (HloOp τ sig (Elt F))).Forall fun op => op.writes ⊆ ((outs38).map (Proc.devRef (τ := τ) .tc)).toFinset :=
  writes_sub rfl (by decide)
theorem step38 (c : Dev nD) (z : Ref sig .tc) (hz : z ∉ outs38) : W39 m ρ c (Proc.devRef .tc z) = W38 m ρ c (Proc.devRef .tc z) :=
  after_of_writes_sub hostOps9 (W38 m ρ c) (writes38 (F := F)) hz

/-- What segment 39 writes. -/
def outs39 : List (Ref sig .tc) := [main_v232]
theorem step39 (c : Dev nD) (z : Ref sig .tc) (hz : z ∉ outs39) : W40 m ρ c (Proc.devRef .tc z) = W39 m ρ c (Proc.devRef .tc z) := by
  have hout : z ≠ main_v232 := fun e => hz (e ▸ List.mem_singleton_self _)
  by_cases h0 : z = main_arg2
  · subst h0; exact (W40_arr m ρ c 0).trans (((dat9 (V39 m ρ) c).arrAt_in 0 rfl _).trans (A_eq9 (V39 m ρ) c 0))
  by_cases h1 : z = main_arg15
  · subst h1; exact (W40_arr m ρ c 1).trans (((dat9 (V39 m ρ) c).arrAt_in 1 rfl _).trans (A_eq9 (V39 m ρ) c 1))
  by_cases h2 : z = main_v231
  · subst h2; exact (W40_arr m ρ c 2).trans (((dat9 (V39 m ρ) c).arrAt_in 2 rfl _).trans (A_eq9 (V39 m ρ) c 2))
  exact W40_of_ne m ρ c z (fun w => match w with
    | ⟨0, _⟩ => Ne.symm h0
    | ⟨1, _⟩ => Ne.symm h1
    | ⟨2, _⟩ => Ne.symm h2
    | ⟨3, _⟩ => Ne.symm hout
    | ⟨_ + 4, h⟩ => absurd h (Nat.not_lt.2 (Nat.le_add_left _ _)))

/-- What segment 40 writes. -/
def outs40 : List (Ref sig .tc) := [main_cst_40, main_v233, main_cst_41, main_v234, main_v235, main_c_42]
theorem writes40 : (hostOps10 : List (HloOp τ sig (Elt F))).Forall fun op => op.writes ⊆ ((outs40).map (Proc.devRef (τ := τ) .tc)).toFinset :=
  ⟨writes_sub rfl (by decide), writes_sub rfl (by decide), writes_sub rfl (by decide), writes_sub rfl (by decide), writes_sub rfl (by decide), writes_sub rfl (by decide)⟩
theorem step40 (c : Dev nD) (z : Ref sig .tc) (hz : z ∉ outs40) : W41 m ρ c (Proc.devRef .tc z) = W40 m ρ c (Proc.devRef .tc z) :=
  after_of_writes_sub hostOps10 (W40 m ρ c) (writes40 (F := F)) hz

/-- What segment 41 writes. -/
def outs41 : List (Ref sig .tc) := [main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v236]
theorem writes41 : (hostOps10_1 : List (HloOp τ sig (Elt F))).Forall fun op => op.writes ⊆ ((outs41).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step41 (c : Dev nD) (z : Ref sig .tc) (hz : z ∉ outs41) : W42 m ρ c (Proc.devRef .tc z) = W41 m ρ c (Proc.devRef .tc z) :=
  after_of_writes_sub hostOps10_1 (W41 m ρ c) (writes41 (F := F)) hz

/-- What segment 42 writes. -/
def outs42 : List (Ref sig .tc) := [main_cst_43, main_v237, main_v238, main_v239, main_v240, main_v241, main_v242, main_v243, main_v244, main_v245, main_v246, main_v247, main_v248, main_cst_44, main_v249, main_v250, main_cst_45, main_v251, main_v252]
theorem writes42 : (hostOps10_2 : List (HloOp τ sig (Elt F))).Forall fun op => op.writes ⊆ ((outs42).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step42 (c : Dev nD) (z : Ref sig .tc) (hz : z ∉ outs42) : W43 m ρ c (Proc.devRef .tc z) = W42 m ρ c (Proc.devRef .tc z) :=
  after_of_writes_sub hostOps10_2 (W42 m ρ c) (writes42 (F := F)) hz

/-- What segment 43 writes. -/
def outs43 : List (Ref sig .tc) := [main_v253]
theorem writes43 : (hostOps10_3 : List (HloOp τ sig (Elt F))).Forall fun op => op.writes ⊆ ((outs43).map (Proc.devRef (τ := τ) .tc)).toFinset :=
  writes_sub rfl (by decide)
theorem step43 (c : Dev nD) (z : Ref sig .tc) (hz : z ∉ outs43) : W44 m ρ c (Proc.devRef .tc z) = W43 m ρ c (Proc.devRef .tc z) :=
  after_of_writes_sub hostOps10_3 (W43 m ρ c) (writes43 (F := F)) hz

/-- What segment 44 writes. -/
def outs44 : List (Ref sig .tc) := [main_v254]
theorem writes44 : (hostOps10_4 : List (HloOp τ sig (Elt F))).Forall fun op => op.writes ⊆ ((outs44).map (Proc.devRef (τ := τ) .tc)).toFinset :=
  writes_sub rfl (by decide)
theorem step44 (c : Dev nD) (z : Ref sig .tc) (hz : z ∉ outs44) : W45 m ρ c (Proc.devRef .tc z) = W44 m ρ c (Proc.devRef .tc z) :=
  after_of_writes_sub hostOps10_4 (W44 m ρ c) (writes44 (F := F)) hz

/-- What segment 45 writes. -/
def outs45 : List (Ref sig .tc) := [main_v255]
theorem step45 (c : Dev nD) (z : Ref sig .tc) (hz : z ∉ outs45) : W46 m ρ c (Proc.devRef .tc z) = W45 m ρ c (Proc.devRef .tc z) := by
  have hout : z ≠ main_v255 := fun e => hz (e ▸ List.mem_singleton_self _)
  by_cases h0 : z = main_v253
  · subst h0; exact (W46_arr m ρ c 0).trans (((dat10 (V45 m ρ) c).arrAt_in 0 rfl _).trans (A_eq10 (V45 m ρ) c 0))
  by_cases h1 : z = main_arg19
  · subst h1; exact (W46_arr m ρ c 1).trans (((dat10 (V45 m ρ) c).arrAt_in 1 rfl _).trans (A_eq10 (V45 m ρ) c 1))
  by_cases h2 : z = main_v254
  · subst h2; exact (W46_arr m ρ c 2).trans (((dat10 (V45 m ρ) c).arrAt_in 2 rfl _).trans (A_eq10 (V45 m ρ) c 2))
  exact W46_of_ne m ρ c z (fun w => match w with
    | ⟨0, _⟩ => Ne.symm h0
    | ⟨1, _⟩ => Ne.symm h1
    | ⟨2, _⟩ => Ne.symm h2
    | ⟨3, _⟩ => Ne.symm hout
    | ⟨_ + 4, h⟩ => absurd h (Nat.not_lt.2 (Nat.le_add_left _ _)))

/-- What segment 46 writes. -/
def outs46 : List (Ref sig .tc) := [main_v256, main_v257]
theorem writes46 : (hostOps11 : List (HloOp τ sig (Elt F))).Forall fun op => op.writes ⊆ ((outs46).map (Proc.devRef (τ := τ) .tc)).toFinset :=
  ⟨writes_sub rfl (by decide), writes_sub rfl (by decide)⟩
theorem step46 (c : Dev nD) (z : Ref sig .tc) (hz : z ∉ outs46) : W47 m ρ c (Proc.devRef .tc z) = W46 m ρ c (Proc.devRef .tc z) :=
  after_of_writes_sub hostOps11 (W46 m ρ c) (writes46 (F := F)) hz

/-- What segment 47 writes. -/
def outs47 : List (Ref sig .tc) := [main_v258]
theorem step47 (c : Dev nD) (z : Ref sig .tc) (hz : z ∉ outs47) : W48 m ρ c (Proc.devRef .tc z) = W47 m ρ c (Proc.devRef .tc z) := by
  have hout : z ≠ main_v258 := fun e => hz (e ▸ List.mem_singleton_self _)
  by_cases h0 : z = main_v256
  · subst h0; exact (W48_arr m ρ c 0).trans (((dat11 (V47 m ρ) c).arrAt_in 0 rfl _).trans (A_eq11 (V47 m ρ) c 0))
  by_cases h1 : z = main_arg21
  · subst h1; exact (W48_arr m ρ c 1).trans (((dat11 (V47 m ρ) c).arrAt_in 1 rfl _).trans (A_eq11 (V47 m ρ) c 1))
  by_cases h2 : z = main_v257
  · subst h2; exact (W48_arr m ρ c 2).trans (((dat11 (V47 m ρ) c).arrAt_in 2 rfl _).trans (A_eq11 (V47 m ρ) c 2))
  exact W48_of_ne m ρ c z (fun w => match w with
    | ⟨0, _⟩ => Ne.symm h0
    | ⟨1, _⟩ => Ne.symm h1
    | ⟨2, _⟩ => Ne.symm h2
    | ⟨3, _⟩ => Ne.symm hout
    | ⟨_ + 4, h⟩ => absurd h (Nat.not_lt.2 (Nat.le_add_left _ _)))

/-- What segment 48 writes. -/
def outs48 : List (Ref sig .tc) := [main_cst_46, main_v259, main_cst_47, main_v260, main_v261, main_c_48]
theorem writes48 : (hostOps12 : List (HloOp τ sig (Elt F))).Forall fun op => op.writes ⊆ ((outs48).map (Proc.devRef (τ := τ) .tc)).toFinset :=
  ⟨writes_sub rfl (by decide), writes_sub rfl (by decide), writes_sub rfl (by decide), writes_sub rfl (by decide), writes_sub rfl (by decide), writes_sub rfl (by decide)⟩
theorem step48 (c : Dev nD) (z : Ref sig .tc) (hz : z ∉ outs48) : W49 m ρ c (Proc.devRef .tc z) = W48 m ρ c (Proc.devRef .tc z) :=
  after_of_writes_sub hostOps12 (W48 m ρ c) (writes48 (F := F)) hz

/-- What segment 49 writes. -/
def outs49 : List (Ref sig .tc) := [main_call12_cst, main_call12_v0, main_call12_v1, main_call12_cst_0, main_call12_v2, main_call12_v3, main_call12_v4, main_call12_v5, main_call12_v6, main_call12_v7, main_call12_cst_1, main_call12_v8, main_call12_cst_2, main_call12_v9, main_call12_v10, main_call12_v11, main_call12_cst_3, main_call12_v12, main_call12_cst_4, main_call12_call0_v0, main_call12_call0_v1, main_v262]
theorem writes49 : (hostOps12_1 : List (HloOp τ sig (Elt F))).Forall fun op => op.writes ⊆ ((outs49).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step49 (c : Dev nD) (z : Ref sig .tc) (hz : z ∉ outs49) : W50 m ρ c (Proc.devRef .tc z) = W49 m ρ c (Proc.devRef .tc z) :=
  after_of_writes_sub hostOps12_1 (W49 m ρ c) (writes49 (F := F)) hz

/-- What segment 50 writes. -/
def outs50 : List (Ref sig .tc) := [main_cst_49, main_v263, main_v264, main_v265, main_v266, main_v267, main_v268, main_v269, main_v270, main_v271, main_v272, main_v273, main_v274, main_cst_50, main_v275, main_v276, main_cst_51, main_v277, main_v278]
theorem writes50 : (hostOps12_2 : List (HloOp τ sig (Elt F))).Forall fun op => op.writes ⊆ ((outs50).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step50 (c : Dev nD) (z : Ref sig .tc) (hz : z ∉ outs50) : W51 m ρ c (Proc.devRef .tc z) = W50 m ρ c (Proc.devRef .tc z) :=
  after_of_writes_sub hostOps12_2 (W50 m ρ c) (writes50 (F := F)) hz

/-- What segment 51 writes. -/
def outs51 : List (Ref sig .tc) := [main_v279]
theorem writes51 : (hostOps12_3 : List (HloOp τ sig (Elt F))).Forall fun op => op.writes ⊆ ((outs51).map (Proc.devRef (τ := τ) .tc)).toFinset :=
  writes_sub rfl (by decide)
theorem step51 (c : Dev nD) (z : Ref sig .tc) (hz : z ∉ outs51) : W52 m ρ c (Proc.devRef .tc z) = W51 m ρ c (Proc.devRef .tc z) :=
  after_of_writes_sub hostOps12_3 (W51 m ρ c) (writes51 (F := F)) hz

/-- What segment 52 writes. -/
def outs52 : List (Ref sig .tc) := [main_v280]
theorem writes52 : (hostOps12_4 : List (HloOp τ sig (Elt F))).Forall fun op => op.writes ⊆ ((outs52).map (Proc.devRef (τ := τ) .tc)).toFinset :=
  writes_sub rfl (by decide)
theorem step52 (c : Dev nD) (z : Ref sig .tc) (hz : z ∉ outs52) : W53 m ρ c (Proc.devRef .tc z) = W52 m ρ c (Proc.devRef .tc z) :=
  after_of_writes_sub hostOps12_4 (W52 m ρ c) (writes52 (F := F)) hz

/-- What segment 53 writes. -/
def outs53 : List (Ref sig .tc) := [main_v281]
theorem step53 (c : Dev nD) (z : Ref sig .tc) (hz : z ∉ outs53) : W54 m ρ c (Proc.devRef .tc z) = W53 m ρ c (Proc.devRef .tc z) := by
  have hout : z ≠ main_v281 := fun e => hz (e ▸ List.mem_singleton_self _)
  by_cases h0 : z = main_v279
  · subst h0; exact (W54_arr m ρ c 0).trans (((dat12 (V53 m ρ) c).arrAt_in 0 rfl _).trans (A_eq12 (V53 m ρ) c 0))
  by_cases h1 : z = main_arg25
  · subst h1; exact (W54_arr m ρ c 1).trans (((dat12 (V53 m ρ) c).arrAt_in 1 rfl _).trans (A_eq12 (V53 m ρ) c 1))
  by_cases h2 : z = main_v280
  · subst h2; exact (W54_arr m ρ c 2).trans (((dat12 (V53 m ρ) c).arrAt_in 2 rfl _).trans (A_eq12 (V53 m ρ) c 2))
  exact W54_of_ne m ρ c z (fun w => match w with
    | ⟨0, _⟩ => Ne.symm h0
    | ⟨1, _⟩ => Ne.symm h1
    | ⟨2, _⟩ => Ne.symm h2
    | ⟨3, _⟩ => Ne.symm hout
    | ⟨_ + 4, h⟩ => absurd h (Nat.not_lt.2 (Nat.le_add_left _ _)))

/-- What segment 54 writes. -/
def outs54 : List (Ref sig .tc) := [main_v282]
theorem writes54 : (hostOps13 : List (HloOp τ sig (Elt F))).Forall fun op => op.writes ⊆ ((outs54).map (Proc.devRef (τ := τ) .tc)).toFinset :=
  writes_sub rfl (by decide)
theorem step54 (c : Dev nD) (z : Ref sig .tc) (hz : z ∉ outs54) : W55 m ρ c (Proc.devRef .tc z) = W54 m ρ c (Proc.devRef .tc z) :=
  after_of_writes_sub hostOps13 (W54 m ρ c) (writes54 (F := F)) hz

/-- What the segments from a boundary on write. -/
def later55 : List (Ref sig .tc) := []
def later54 : List (Ref sig .tc) := outs54 ++ later55
def later53 : List (Ref sig .tc) := outs53 ++ later54
def later52 : List (Ref sig .tc) := outs52 ++ later53
def later51 : List (Ref sig .tc) := outs51 ++ later52
def later50 : List (Ref sig .tc) := outs50 ++ later51
def later49 : List (Ref sig .tc) := outs49 ++ later50
def later48 : List (Ref sig .tc) := outs48 ++ later49
def later47 : List (Ref sig .tc) := outs47 ++ later48
def later46 : List (Ref sig .tc) := outs46 ++ later47
def later45 : List (Ref sig .tc) := outs45 ++ later46
def later44 : List (Ref sig .tc) := outs44 ++ later45
def later43 : List (Ref sig .tc) := outs43 ++ later44
def later42 : List (Ref sig .tc) := outs42 ++ later43
def later41 : List (Ref sig .tc) := outs41 ++ later42
def later40 : List (Ref sig .tc) := outs40 ++ later41
def later39 : List (Ref sig .tc) := outs39 ++ later40
def later38 : List (Ref sig .tc) := outs38 ++ later39
def later37 : List (Ref sig .tc) := outs37 ++ later38
def later36 : List (Ref sig .tc) := outs36 ++ later37
def later35 : List (Ref sig .tc) := outs35 ++ later36
def later34 : List (Ref sig .tc) := outs34 ++ later35
def later33 : List (Ref sig .tc) := outs33 ++ later34
def later32 : List (Ref sig .tc) := outs32 ++ later33
def later31 : List (Ref sig .tc) := outs31 ++ later32
def later30 : List (Ref sig .tc) := outs30 ++ later31
def later29 : List (Ref sig .tc) := outs29 ++ later30
def later28 : List (Ref sig .tc) := outs28 ++ later29
def later27 : List (Ref sig .tc) := outs27 ++ later28
def later26 : List (Ref sig .tc) := outs26 ++ later27
def later25 : List (Ref sig .tc) := outs25 ++ later26
def later24 : List (Ref sig .tc) := outs24 ++ later25
def later23 : List (Ref sig .tc) := outs23 ++ later24
def later22 : List (Ref sig .tc) := outs22 ++ later23
def later21 : List (Ref sig .tc) := outs21 ++ later22
def later20 : List (Ref sig .tc) := outs20 ++ later21
def later19 : List (Ref sig .tc) := outs19 ++ later20
def later18 : List (Ref sig .tc) := outs18 ++ later19
def later17 : List (Ref sig .tc) := outs17 ++ later18
def later16 : List (Ref sig .tc) := outs16 ++ later17
def later15 : List (Ref sig .tc) := outs15 ++ later16
def later14 : List (Ref sig .tc) := outs14 ++ later15
def later13 : List (Ref sig .tc) := outs13 ++ later14
def later12 : List (Ref sig .tc) := outs12 ++ later13
def later11 : List (Ref sig .tc) := outs11 ++ later12
def later10 : List (Ref sig .tc) := outs10 ++ later11
def later9 : List (Ref sig .tc) := outs9 ++ later10
def later8 : List (Ref sig .tc) := outs8 ++ later9
def later7 : List (Ref sig .tc) := outs7 ++ later8
def later6 : List (Ref sig .tc) := outs6 ++ later7
def later5 : List (Ref sig .tc) := outs5 ++ later6
def later4 : List (Ref sig .tc) := outs4 ++ later5
def later3 : List (Ref sig .tc) := outs3 ++ later4
def later2 : List (Ref sig .tc) := outs2 ++ later3
def later1 : List (Ref sig .tc) := outs1 ++ later2
def later0 : List (Ref sig .tc) := outs0 ++ later1

theorem lift55 (c : Dev nD) (z : Ref sig .tc) (hz : z ∉ later55) : W55 m ρ c (Proc.devRef .tc z) = W55 m ρ c (Proc.devRef .tc z) := rfl
theorem lift54 (c : Dev nD) (z : Ref sig .tc) (hz : z ∉ later54) : W55 m ρ c (Proc.devRef .tc z) = W54 m ρ c (Proc.devRef .tc z) :=
  (lift55 m ρ c z (fun h => hz (List.mem_append_right _ h))).trans (step54 m ρ c z (fun h => hz (List.mem_append_left _ h)))
theorem lift53 (c : Dev nD) (z : Ref sig .tc) (hz : z ∉ later53) : W55 m ρ c (Proc.devRef .tc z) = W53 m ρ c (Proc.devRef .tc z) :=
  (lift54 m ρ c z (fun h => hz (List.mem_append_right _ h))).trans (step53 m ρ c z (fun h => hz (List.mem_append_left _ h)))
theorem lift52 (c : Dev nD) (z : Ref sig .tc) (hz : z ∉ later52) : W55 m ρ c (Proc.devRef .tc z) = W52 m ρ c (Proc.devRef .tc z) :=
  (lift53 m ρ c z (fun h => hz (List.mem_append_right _ h))).trans (step52 m ρ c z (fun h => hz (List.mem_append_left _ h)))
theorem lift51 (c : Dev nD) (z : Ref sig .tc) (hz : z ∉ later51) : W55 m ρ c (Proc.devRef .tc z) = W51 m ρ c (Proc.devRef .tc z) :=
  (lift52 m ρ c z (fun h => hz (List.mem_append_right _ h))).trans (step51 m ρ c z (fun h => hz (List.mem_append_left _ h)))
theorem lift50 (c : Dev nD) (z : Ref sig .tc) (hz : z ∉ later50) : W55 m ρ c (Proc.devRef .tc z) = W50 m ρ c (Proc.devRef .tc z) :=
  (lift51 m ρ c z (fun h => hz (List.mem_append_right _ h))).trans (step50 m ρ c z (fun h => hz (List.mem_append_left _ h)))
theorem lift49 (c : Dev nD) (z : Ref sig .tc) (hz : z ∉ later49) : W55 m ρ c (Proc.devRef .tc z) = W49 m ρ c (Proc.devRef .tc z) :=
  (lift50 m ρ c z (fun h => hz (List.mem_append_right _ h))).trans (step49 m ρ c z (fun h => hz (List.mem_append_left _ h)))
theorem lift48 (c : Dev nD) (z : Ref sig .tc) (hz : z ∉ later48) : W55 m ρ c (Proc.devRef .tc z) = W48 m ρ c (Proc.devRef .tc z) :=
  (lift49 m ρ c z (fun h => hz (List.mem_append_right _ h))).trans (step48 m ρ c z (fun h => hz (List.mem_append_left _ h)))
theorem lift47 (c : Dev nD) (z : Ref sig .tc) (hz : z ∉ later47) : W55 m ρ c (Proc.devRef .tc z) = W47 m ρ c (Proc.devRef .tc z) :=
  (lift48 m ρ c z (fun h => hz (List.mem_append_right _ h))).trans (step47 m ρ c z (fun h => hz (List.mem_append_left _ h)))
theorem lift46 (c : Dev nD) (z : Ref sig .tc) (hz : z ∉ later46) : W55 m ρ c (Proc.devRef .tc z) = W46 m ρ c (Proc.devRef .tc z) :=
  (lift47 m ρ c z (fun h => hz (List.mem_append_right _ h))).trans (step46 m ρ c z (fun h => hz (List.mem_append_left _ h)))
theorem lift45 (c : Dev nD) (z : Ref sig .tc) (hz : z ∉ later45) : W55 m ρ c (Proc.devRef .tc z) = W45 m ρ c (Proc.devRef .tc z) :=
  (lift46 m ρ c z (fun h => hz (List.mem_append_right _ h))).trans (step45 m ρ c z (fun h => hz (List.mem_append_left _ h)))
theorem lift44 (c : Dev nD) (z : Ref sig .tc) (hz : z ∉ later44) : W55 m ρ c (Proc.devRef .tc z) = W44 m ρ c (Proc.devRef .tc z) :=
  (lift45 m ρ c z (fun h => hz (List.mem_append_right _ h))).trans (step44 m ρ c z (fun h => hz (List.mem_append_left _ h)))
theorem lift43 (c : Dev nD) (z : Ref sig .tc) (hz : z ∉ later43) : W55 m ρ c (Proc.devRef .tc z) = W43 m ρ c (Proc.devRef .tc z) :=
  (lift44 m ρ c z (fun h => hz (List.mem_append_right _ h))).trans (step43 m ρ c z (fun h => hz (List.mem_append_left _ h)))
theorem lift42 (c : Dev nD) (z : Ref sig .tc) (hz : z ∉ later42) : W55 m ρ c (Proc.devRef .tc z) = W42 m ρ c (Proc.devRef .tc z) :=
  (lift43 m ρ c z (fun h => hz (List.mem_append_right _ h))).trans (step42 m ρ c z (fun h => hz (List.mem_append_left _ h)))
theorem lift41 (c : Dev nD) (z : Ref sig .tc) (hz : z ∉ later41) : W55 m ρ c (Proc.devRef .tc z) = W41 m ρ c (Proc.devRef .tc z) :=
  (lift42 m ρ c z (fun h => hz (List.mem_append_right _ h))).trans (step41 m ρ c z (fun h => hz (List.mem_append_left _ h)))
theorem lift40 (c : Dev nD) (z : Ref sig .tc) (hz : z ∉ later40) : W55 m ρ c (Proc.devRef .tc z) = W40 m ρ c (Proc.devRef .tc z) :=
  (lift41 m ρ c z (fun h => hz (List.mem_append_right _ h))).trans (step40 m ρ c z (fun h => hz (List.mem_append_left _ h)))
theorem lift39 (c : Dev nD) (z : Ref sig .tc) (hz : z ∉ later39) : W55 m ρ c (Proc.devRef .tc z) = W39 m ρ c (Proc.devRef .tc z) :=
  (lift40 m ρ c z (fun h => hz (List.mem_append_right _ h))).trans (step39 m ρ c z (fun h => hz (List.mem_append_left _ h)))
theorem lift38 (c : Dev nD) (z : Ref sig .tc) (hz : z ∉ later38) : W55 m ρ c (Proc.devRef .tc z) = W38 m ρ c (Proc.devRef .tc z) :=
  (lift39 m ρ c z (fun h => hz (List.mem_append_right _ h))).trans (step38 m ρ c z (fun h => hz (List.mem_append_left _ h)))
theorem lift37 (c : Dev nD) (z : Ref sig .tc) (hz : z ∉ later37) : W55 m ρ c (Proc.devRef .tc z) = W37 m ρ c (Proc.devRef .tc z) :=
  (lift38 m ρ c z (fun h => hz (List.mem_append_right _ h))).trans (step37 m ρ c z (fun h => hz (List.mem_append_left _ h)))
theorem lift36 (c : Dev nD) (z : Ref sig .tc) (hz : z ∉ later36) : W55 m ρ c (Proc.devRef .tc z) = W36 m ρ c (Proc.devRef .tc z) :=
  (lift37 m ρ c z (fun h => hz (List.mem_append_right _ h))).trans (step36 m ρ c z (fun h => hz (List.mem_append_left _ h)))
theorem lift35 (c : Dev nD) (z : Ref sig .tc) (hz : z ∉ later35) : W55 m ρ c (Proc.devRef .tc z) = W35 m ρ c (Proc.devRef .tc z) :=
  (lift36 m ρ c z (fun h => hz (List.mem_append_right _ h))).trans (step35 m ρ c z (fun h => hz (List.mem_append_left _ h)))
theorem lift34 (c : Dev nD) (z : Ref sig .tc) (hz : z ∉ later34) : W55 m ρ c (Proc.devRef .tc z) = W34 m ρ c (Proc.devRef .tc z) :=
  (lift35 m ρ c z (fun h => hz (List.mem_append_right _ h))).trans (step34 m ρ c z (fun h => hz (List.mem_append_left _ h)))
theorem lift33 (c : Dev nD) (z : Ref sig .tc) (hz : z ∉ later33) : W55 m ρ c (Proc.devRef .tc z) = W33 m ρ c (Proc.devRef .tc z) :=
  (lift34 m ρ c z (fun h => hz (List.mem_append_right _ h))).trans (step33 m ρ c z (fun h => hz (List.mem_append_left _ h)))
theorem lift32 (c : Dev nD) (z : Ref sig .tc) (hz : z ∉ later32) : W55 m ρ c (Proc.devRef .tc z) = W32 m ρ c (Proc.devRef .tc z) :=
  (lift33 m ρ c z (fun h => hz (List.mem_append_right _ h))).trans (step32 m ρ c z (fun h => hz (List.mem_append_left _ h)))
theorem lift31 (c : Dev nD) (z : Ref sig .tc) (hz : z ∉ later31) : W55 m ρ c (Proc.devRef .tc z) = W31 m ρ c (Proc.devRef .tc z) :=
  (lift32 m ρ c z (fun h => hz (List.mem_append_right _ h))).trans (step31 m ρ c z (fun h => hz (List.mem_append_left _ h)))
theorem lift30 (c : Dev nD) (z : Ref sig .tc) (hz : z ∉ later30) : W55 m ρ c (Proc.devRef .tc z) = W30 m ρ c (Proc.devRef .tc z) :=
  (lift31 m ρ c z (fun h => hz (List.mem_append_right _ h))).trans (step30 m ρ c z (fun h => hz (List.mem_append_left _ h)))
theorem lift29 (c : Dev nD) (z : Ref sig .tc) (hz : z ∉ later29) : W55 m ρ c (Proc.devRef .tc z) = W29 m ρ c (Proc.devRef .tc z) :=
  (lift30 m ρ c z (fun h => hz (List.mem_append_right _ h))).trans (step29 m ρ c z (fun h => hz (List.mem_append_left _ h)))
theorem lift28 (c : Dev nD) (z : Ref sig .tc) (hz : z ∉ later28) : W55 m ρ c (Proc.devRef .tc z) = W28 m ρ c (Proc.devRef .tc z) :=
  (lift29 m ρ c z (fun h => hz (List.mem_append_right _ h))).trans (step28 m ρ c z (fun h => hz (List.mem_append_left _ h)))
theorem lift27 (c : Dev nD) (z : Ref sig .tc) (hz : z ∉ later27) : W55 m ρ c (Proc.devRef .tc z) = W27 m ρ c (Proc.devRef .tc z) :=
  (lift28 m ρ c z (fun h => hz (List.mem_append_right _ h))).trans (step27 m ρ c z (fun h => hz (List.mem_append_left _ h)))
theorem lift26 (c : Dev nD) (z : Ref sig .tc) (hz : z ∉ later26) : W55 m ρ c (Proc.devRef .tc z) = W26 m ρ c (Proc.devRef .tc z) :=
  (lift27 m ρ c z (fun h => hz (List.mem_append_right _ h))).trans (step26 m ρ c z (fun h => hz (List.mem_append_left _ h)))
theorem lift25 (c : Dev nD) (z : Ref sig .tc) (hz : z ∉ later25) : W55 m ρ c (Proc.devRef .tc z) = W25 m ρ c (Proc.devRef .tc z) :=
  (lift26 m ρ c z (fun h => hz (List.mem_append_right _ h))).trans (step25 m ρ c z (fun h => hz (List.mem_append_left _ h)))
theorem lift24 (c : Dev nD) (z : Ref sig .tc) (hz : z ∉ later24) : W55 m ρ c (Proc.devRef .tc z) = W24 m ρ c (Proc.devRef .tc z) :=
  (lift25 m ρ c z (fun h => hz (List.mem_append_right _ h))).trans (step24 m ρ c z (fun h => hz (List.mem_append_left _ h)))
theorem lift23 (c : Dev nD) (z : Ref sig .tc) (hz : z ∉ later23) : W55 m ρ c (Proc.devRef .tc z) = W23 m ρ c (Proc.devRef .tc z) :=
  (lift24 m ρ c z (fun h => hz (List.mem_append_right _ h))).trans (step23 m ρ c z (fun h => hz (List.mem_append_left _ h)))
theorem lift22 (c : Dev nD) (z : Ref sig .tc) (hz : z ∉ later22) : W55 m ρ c (Proc.devRef .tc z) = W22 m ρ c (Proc.devRef .tc z) :=
  (lift23 m ρ c z (fun h => hz (List.mem_append_right _ h))).trans (step22 m ρ c z (fun h => hz (List.mem_append_left _ h)))
theorem lift21 (c : Dev nD) (z : Ref sig .tc) (hz : z ∉ later21) : W55 m ρ c (Proc.devRef .tc z) = W21 m ρ c (Proc.devRef .tc z) :=
  (lift22 m ρ c z (fun h => hz (List.mem_append_right _ h))).trans (step21 m ρ c z (fun h => hz (List.mem_append_left _ h)))
theorem lift20 (c : Dev nD) (z : Ref sig .tc) (hz : z ∉ later20) : W55 m ρ c (Proc.devRef .tc z) = W20 m ρ c (Proc.devRef .tc z) :=
  (lift21 m ρ c z (fun h => hz (List.mem_append_right _ h))).trans (step20 m ρ c z (fun h => hz (List.mem_append_left _ h)))
theorem lift19 (c : Dev nD) (z : Ref sig .tc) (hz : z ∉ later19) : W55 m ρ c (Proc.devRef .tc z) = W19 m ρ c (Proc.devRef .tc z) :=
  (lift20 m ρ c z (fun h => hz (List.mem_append_right _ h))).trans (step19 m ρ c z (fun h => hz (List.mem_append_left _ h)))
theorem lift18 (c : Dev nD) (z : Ref sig .tc) (hz : z ∉ later18) : W55 m ρ c (Proc.devRef .tc z) = W18 m ρ c (Proc.devRef .tc z) :=
  (lift19 m ρ c z (fun h => hz (List.mem_append_right _ h))).trans (step18 m ρ c z (fun h => hz (List.mem_append_left _ h)))
theorem lift17 (c : Dev nD) (z : Ref sig .tc) (hz : z ∉ later17) : W55 m ρ c (Proc.devRef .tc z) = W17 m ρ c (Proc.devRef .tc z) :=
  (lift18 m ρ c z (fun h => hz (List.mem_append_right _ h))).trans (step17 m ρ c z (fun h => hz (List.mem_append_left _ h)))
theorem lift16 (c : Dev nD) (z : Ref sig .tc) (hz : z ∉ later16) : W55 m ρ c (Proc.devRef .tc z) = W16 m ρ c (Proc.devRef .tc z) :=
  (lift17 m ρ c z (fun h => hz (List.mem_append_right _ h))).trans (step16 m ρ c z (fun h => hz (List.mem_append_left _ h)))
theorem lift15 (c : Dev nD) (z : Ref sig .tc) (hz : z ∉ later15) : W55 m ρ c (Proc.devRef .tc z) = W15 m ρ c (Proc.devRef .tc z) :=
  (lift16 m ρ c z (fun h => hz (List.mem_append_right _ h))).trans (step15 m ρ c z (fun h => hz (List.mem_append_left _ h)))
theorem lift14 (c : Dev nD) (z : Ref sig .tc) (hz : z ∉ later14) : W55 m ρ c (Proc.devRef .tc z) = W14 m ρ c (Proc.devRef .tc z) :=
  (lift15 m ρ c z (fun h => hz (List.mem_append_right _ h))).trans (step14 m ρ c z (fun h => hz (List.mem_append_left _ h)))
theorem lift13 (c : Dev nD) (z : Ref sig .tc) (hz : z ∉ later13) : W55 m ρ c (Proc.devRef .tc z) = W13 m ρ c (Proc.devRef .tc z) :=
  (lift14 m ρ c z (fun h => hz (List.mem_append_right _ h))).trans (step13 m ρ c z (fun h => hz (List.mem_append_left _ h)))
theorem lift12 (c : Dev nD) (z : Ref sig .tc) (hz : z ∉ later12) : W55 m ρ c (Proc.devRef .tc z) = W12 m ρ c (Proc.devRef .tc z) :=
  (lift13 m ρ c z (fun h => hz (List.mem_append_right _ h))).trans (step12 m ρ c z (fun h => hz (List.mem_append_left _ h)))
theorem lift11 (c : Dev nD) (z : Ref sig .tc) (hz : z ∉ later11) : W55 m ρ c (Proc.devRef .tc z) = W11 m ρ c (Proc.devRef .tc z) :=
  (lift12 m ρ c z (fun h => hz (List.mem_append_right _ h))).trans (step11 m ρ c z (fun h => hz (List.mem_append_left _ h)))
theorem lift10 (c : Dev nD) (z : Ref sig .tc) (hz : z ∉ later10) : W55 m ρ c (Proc.devRef .tc z) = W10 m ρ c (Proc.devRef .tc z) :=
  (lift11 m ρ c z (fun h => hz (List.mem_append_right _ h))).trans (step10 m ρ c z (fun h => hz (List.mem_append_left _ h)))
theorem lift9 (c : Dev nD) (z : Ref sig .tc) (hz : z ∉ later9) : W55 m ρ c (Proc.devRef .tc z) = W9 m ρ c (Proc.devRef .tc z) :=
  (lift10 m ρ c z (fun h => hz (List.mem_append_right _ h))).trans (step9 m ρ c z (fun h => hz (List.mem_append_left _ h)))
theorem lift8 (c : Dev nD) (z : Ref sig .tc) (hz : z ∉ later8) : W55 m ρ c (Proc.devRef .tc z) = W8 m ρ c (Proc.devRef .tc z) :=
  (lift9 m ρ c z (fun h => hz (List.mem_append_right _ h))).trans (step8 m ρ c z (fun h => hz (List.mem_append_left _ h)))
theorem lift7 (c : Dev nD) (z : Ref sig .tc) (hz : z ∉ later7) : W55 m ρ c (Proc.devRef .tc z) = W7 m ρ c (Proc.devRef .tc z) :=
  (lift8 m ρ c z (fun h => hz (List.mem_append_right _ h))).trans (step7 m ρ c z (fun h => hz (List.mem_append_left _ h)))
theorem lift6 (c : Dev nD) (z : Ref sig .tc) (hz : z ∉ later6) : W55 m ρ c (Proc.devRef .tc z) = W6 m ρ c (Proc.devRef .tc z) :=
  (lift7 m ρ c z (fun h => hz (List.mem_append_right _ h))).trans (step6 m ρ c z (fun h => hz (List.mem_append_left _ h)))
theorem lift5 (c : Dev nD) (z : Ref sig .tc) (hz : z ∉ later5) : W55 m ρ c (Proc.devRef .tc z) = W5 m ρ c (Proc.devRef .tc z) :=
  (lift6 m ρ c z (fun h => hz (List.mem_append_right _ h))).trans (step5 m ρ c z (fun h => hz (List.mem_append_left _ h)))
theorem lift4 (c : Dev nD) (z : Ref sig .tc) (hz : z ∉ later4) : W55 m ρ c (Proc.devRef .tc z) = W4 m ρ c (Proc.devRef .tc z) :=
  (lift5 m ρ c z (fun h => hz (List.mem_append_right _ h))).trans (step4 m ρ c z (fun h => hz (List.mem_append_left _ h)))
theorem lift3 (c : Dev nD) (z : Ref sig .tc) (hz : z ∉ later3) : W55 m ρ c (Proc.devRef .tc z) = W3 m ρ c (Proc.devRef .tc z) :=
  (lift4 m ρ c z (fun h => hz (List.mem_append_right _ h))).trans (step3 m ρ c z (fun h => hz (List.mem_append_left _ h)))
theorem lift2 (c : Dev nD) (z : Ref sig .tc) (hz : z ∉ later2) : W55 m ρ c (Proc.devRef .tc z) = W2 m ρ c (Proc.devRef .tc z) :=
  (lift3 m ρ c z (fun h => hz (List.mem_append_right _ h))).trans (step2 m ρ c z (fun h => hz (List.mem_append_left _ h)))
theorem lift1 (c : Dev nD) (z : Ref sig .tc) (hz : z ∉ later1) : W55 m ρ c (Proc.devRef .tc z) = W1 m ρ c (Proc.devRef .tc z) :=
  (lift2 m ρ c z (fun h => hz (List.mem_append_right _ h))).trans (step1 m ρ c z (fun h => hz (List.mem_append_left _ h)))
theorem lift0 (c : Dev nD) (z : Ref sig .tc) (hz : z ∉ later0) : W55 m ρ c (Proc.devRef .tc z) = W0 m ρ c (Proc.devRef .tc z) :=
  (lift1 m ρ c z (fun h => hz (List.mem_append_right _ h))).trans (step0 m ρ c z (fun h => hz (List.mem_append_left _ h)))

end Cert.KernelIdeal.Tab

end
-- ==== Proof.TabKSsa0.lean ====
/- Host stretches hostOps0, hostOps1, hostOps2, hostOps2_1, hostOps2_2 of the kernel program read one operation at a time: each buffer a stretch writes holds its operation's
   function of the operands, within the stretch from any contents and, at the last boundary of the run, over the last boundary's contents. -/
import proofs.«409037_j72164040508123_1_alg».proof.Proof.TabK

set_option maxRecDepth 16384

noncomputable section

namespace Cert.KernelIdeal.Tab

open Cert.KernelIdeal Cert.KernelIdeal.Gen Cert.KernelIdeal.GenP Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

theorem ssa_main_v0 (V : Valuation τ sig (Elt F)) :
    after hostOps0 V (Proc.devRef .tc main_v0) = (StableHlo.unary main_arg3 main_v0 ((extractStridedSlice S1x1600000 ![0, 0] · slices_S2x1600000_S1x1600000_0_0) : (⟨S2x1600000, .i32⟩ : BufTy).Contents (Elt F) → (⟨S1x1600000, .i32⟩ : BufTy).Contents (Elt F)) : HloOp τ sig (Elt F)).result (after hostOps0 V) (Proc.devRef .tc main_v0) := by
  after_results_simp
theorem fin_main_v0 (c : Dev nD) :
    W55 m ρ c (Proc.devRef .tc main_v0) = (StableHlo.unary main_arg3 main_v0 ((extractStridedSlice S1x1600000 ![0, 0] · slices_S2x1600000_S1x1600000_0_0) : (⟨S2x1600000, .i32⟩ : BufTy).Contents (Elt F) → (⟨S1x1600000, .i32⟩ : BufTy).Contents (Elt F)) : HloOp τ sig (Elt F)).result (W55 m ρ c) (Proc.devRef .tc main_v0) := by
  have h := ssa_main_v0 (F := F) (W0 m ρ c)
  rw [unary_result] at h ⊢
  rw [lift1 m ρ c main_v0 (by decide), lift1 m ρ c main_arg3 (by decide)]
  exact h

theorem ssa_main_v1 (V : Valuation τ sig (Elt F)) :
    after hostOps0 V (Proc.devRef .tc main_v1) = (StableHlo.reshape main_v0 main_v1 rfl shapeCasts_S1x1600000_S1600000 : HloOp τ sig (Elt F)).result (after hostOps0 V) (Proc.devRef .tc main_v1) := by
  after_results_simp
theorem fin_main_v1 (c : Dev nD) :
    W55 m ρ c (Proc.devRef .tc main_v1) = (StableHlo.reshape main_v0 main_v1 rfl shapeCasts_S1x1600000_S1600000 : HloOp τ sig (Elt F)).result (W55 m ρ c) (Proc.devRef .tc main_v1) := by
  have h := ssa_main_v1 (F := F) (W0 m ρ c)
  rw [reshape_result] at h ⊢
  rw [lift1 m ρ c main_v1 (by decide), lift1 m ρ c main_v0 (by decide)]
  exact h

theorem ssa_main_v2 (V : Valuation τ sig (Elt F)) :
    after hostOps0 V (Proc.devRef .tc main_v2) = (StableHlo.unary main_arg3 main_v2 ((extractStridedSlice S1x1600000 ![1, 0] · slices_S2x1600000_S1x1600000_1_0) : (⟨S2x1600000, .i32⟩ : BufTy).Contents (Elt F) → (⟨S1x1600000, .i32⟩ : BufTy).Contents (Elt F)) : HloOp τ sig (Elt F)).result (after hostOps0 V) (Proc.devRef .tc main_v2) := by
  after_results_simp
theorem fin_main_v2 (c : Dev nD) :
    W55 m ρ c (Proc.devRef .tc main_v2) = (StableHlo.unary main_arg3 main_v2 ((extractStridedSlice S1x1600000 ![1, 0] · slices_S2x1600000_S1x1600000_1_0) : (⟨S2x1600000, .i32⟩ : BufTy).Contents (Elt F) → (⟨S1x1600000, .i32⟩ : BufTy).Contents (Elt F)) : HloOp τ sig (Elt F)).result (W55 m ρ c) (Proc.devRef .tc main_v2) := by
  have h := ssa_main_v2 (F := F) (W0 m ρ c)
  rw [unary_result] at h ⊢
  rw [lift1 m ρ c main_v2 (by decide), lift1 m ρ c main_arg3 (by decide)]
  exact h

theorem ssa_main_v3 (V : Valuation τ sig (Elt F)) :
    after hostOps0 V (Proc.devRef .tc main_v3) = (StableHlo.reshape main_v2 main_v3 rfl shapeCasts_S1x1600000_S1600000 : HloOp τ sig (Elt F)).result (after hostOps0 V) (Proc.devRef .tc main_v3) := by
  after_results_simp
theorem fin_main_v3 (c : Dev nD) :
    W55 m ρ c (Proc.devRef .tc main_v3) = (StableHlo.reshape main_v2 main_v3 rfl shapeCasts_S1x1600000_S1600000 : HloOp τ sig (Elt F)).result (W55 m ρ c) (Proc.devRef .tc main_v3) := by
  have h := ssa_main_v3 (F := F) (W0 m ρ c)
  rw [reshape_result] at h ⊢
  rw [lift1 m ρ c main_v3 (by decide), lift1 m ρ c main_v2 (by decide)]
  exact h

theorem ssa_main_c (V : Valuation τ sig (Elt F)) :
    after hostOps0 V (Proc.devRef .tc main_c) = (StableHlo.nullary main_c (constantI S_ 32 0#32) : HloOp τ sig (Elt F)).result (after hostOps0 V) (Proc.devRef .tc main_c) := by
  after_results_simp
theorem fin_main_c (c : Dev nD) :
    W55 m ρ c (Proc.devRef .tc main_c) = (StableHlo.nullary main_c (constantI S_ 32 0#32) : HloOp τ sig (Elt F)).result (W55 m ρ c) (Proc.devRef .tc main_c) := by
  have h := ssa_main_c (F := F) (W0 m ρ c)
  rw [nullary_result] at h ⊢
  rw [lift1 m ρ c main_c (by decide)]
  exact h

theorem ssa_main_v4 (V : Valuation τ sig (Elt F)) :
    after hostOps0 V (Proc.devRef .tc main_v4) = (StableHlo.unary main_c main_v4 (broadcastInDim S1600000 ![] bcast_S_S1600000 : (⟨S_, .i32⟩ : BufTy).Contents (Elt F) → (⟨S1600000, .i32⟩ : BufTy).Contents (Elt F)) : HloOp τ sig (Elt F)).result (after hostOps0 V) (Proc.devRef .tc main_v4) := by
  after_results_simp
theorem fin_main_v4 (c : Dev nD) :
    W55 m ρ c (Proc.devRef .tc main_v4) = (StableHlo.unary main_c main_v4 (broadcastInDim S1600000 ![] bcast_S_S1600000 : (⟨S_, .i32⟩ : BufTy).Contents (Elt F) → (⟨S1600000, .i32⟩ : BufTy).Contents (Elt F)) : HloOp τ sig (Elt F)).result (W55 m ρ c) (Proc.devRef .tc main_v4) := by
  have h := ssa_main_v4 (F := F) (W0 m ρ c)
  rw [unary_result] at h ⊢
  rw [lift1 m ρ c main_v4 (by decide), lift1 m ρ c main_c (by decide)]
  exact h

theorem ssa_main_v5 (V : Valuation τ sig (Elt F)) :
    after hostOps0 V (Proc.devRef .tc main_v5) = (StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)) : HloOp τ sig (Elt F)).result (after hostOps0 V) (Proc.devRef .tc main_v5) := by
  after_results_simp
theorem fin_main_v5 (c : Dev nD) :
    W55 m ρ c (Proc.devRef .tc main_v5) = (StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)) : HloOp τ sig (Elt F)).result (W55 m ρ c) (Proc.devRef .tc main_v5) := by
  have h := ssa_main_v5 (F := F) (W0 m ρ c)
  rw [binary_result] at h ⊢
  rw [lift1 m ρ c main_v5 (by decide), lift1 m ρ c main_v1 (by decide), lift1 m ρ c main_v4 (by decide)]
  exact h

theorem ssa_main_c_0 (V : Valuation τ sig (Elt F)) :
    after hostOps0 V (Proc.devRef .tc main_c_0) = (StableHlo.nullary main_c_0 (constantI S_ 32 100000#32) : HloOp τ sig (Elt F)).result (after hostOps0 V) (Proc.devRef .tc main_c_0) := by
  after_results_simp
theorem fin_main_c_0 (c : Dev nD) :
    W55 m ρ c (Proc.devRef .tc main_c_0) = (StableHlo.nullary main_c_0 (constantI S_ 32 100000#32) : HloOp τ sig (Elt F)).result (W55 m ρ c) (Proc.devRef .tc main_c_0) := by
  have h := ssa_main_c_0 (F := F) (W0 m ρ c)
  rw [nullary_result] at h ⊢
  rw [lift1 m ρ c main_c_0 (by decide)]
  exact h

theorem ssa_main_v6 (V : Valuation τ sig (Elt F)) :
    after hostOps0 V (Proc.devRef .tc main_v6) = (StableHlo.unary main_c_0 main_v6 (broadcastInDim S1600000 ![] bcast_S_S1600000 : (⟨S_, .i32⟩ : BufTy).Contents (Elt F) → (⟨S1600000, .i32⟩ : BufTy).Contents (Elt F)) : HloOp τ sig (Elt F)).result (after hostOps0 V) (Proc.devRef .tc main_v6) := by
  after_results_simp
theorem fin_main_v6 (c : Dev nD) :
    W55 m ρ c (Proc.devRef .tc main_v6) = (StableHlo.unary main_c_0 main_v6 (broadcastInDim S1600000 ![] bcast_S_S1600000 : (⟨S_, .i32⟩ : BufTy).Contents (Elt F) → (⟨S1600000, .i32⟩ : BufTy).Contents (Elt F)) : HloOp τ sig (Elt F)).result (W55 m ρ c) (Proc.devRef .tc main_v6) := by
  have h := ssa_main_v6 (F := F) (W0 m ρ c)
  rw [unary_result] at h ⊢
  rw [lift1 m ρ c main_v6 (by decide), lift1 m ρ c main_c_0 (by decide)]
  exact h

theorem ssa_main_v7 (V : Valuation τ sig (Elt F)) :
    after hostOps0 V (Proc.devRef .tc main_v7) = (StableHlo.binary main_v1 main_v6 main_v7 (addi : (⟨S1600000, .i32⟩ : BufTy).Contents (Elt F) → (⟨S1600000, .i32⟩ : BufTy).Contents (Elt F) → (⟨S1600000, .i32⟩ : BufTy).Contents (Elt F)) : HloOp τ sig (Elt F)).result (after hostOps0 V) (Proc.devRef .tc main_v7) := by
  after_results_simp
theorem fin_main_v7 (c : Dev nD) :
    W55 m ρ c (Proc.devRef .tc main_v7) = (StableHlo.binary main_v1 main_v6 main_v7 (addi : (⟨S1600000, .i32⟩ : BufTy).Contents (Elt F) → (⟨S1600000, .i32⟩ : BufTy).Contents (Elt F) → (⟨S1600000, .i32⟩ : BufTy).Contents (Elt F)) : HloOp τ sig (Elt F)).result (W55 m ρ c) (Proc.devRef .tc main_v7) := by
  have h := ssa_main_v7 (F := F) (W0 m ρ c)
  rw [binary_result] at h ⊢
  rw [lift1 m ρ c main_v7 (by decide), lift1 m ρ c main_v1 (by decide), lift1 m ρ c main_v6 (by decide)]
  exact h

theorem ssa_main_v8 (V : Valuation τ sig (Elt F)) :
    after hostOps0 V (Proc.devRef .tc main_v8) = (StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) : HloOp τ sig (Elt F)).result (after hostOps0 V) (Proc.devRef .tc main_v8) := by
  after_results_simp
theorem fin_main_v8 (c : Dev nD) :
    W55 m ρ c (Proc.devRef .tc main_v8) = (StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) : HloOp τ sig (Elt F)).result (W55 m ρ c) (Proc.devRef .tc main_v8) := by
  have h := ssa_main_v8 (F := F) (W0 m ρ c)
  rw [ternary_result] at h ⊢
  rw [lift1 m ρ c main_v8 (by decide), lift1 m ρ c main_v5 (by decide), lift1 m ρ c main_v7 (by decide), lift1 m ρ c main_v1 (by decide)]
  exact h

theorem ssa_main_v9 (V : Valuation τ sig (Elt F)) :
    after hostOps0 V (Proc.devRef .tc main_v9) = (StableHlo.unary main_v8 main_v9 (broadcastInDim S1600000x1 ![0] bcast_S1600000_S1600000x1_0 : (⟨S1600000, .i32⟩ : BufTy).Contents (Elt F) → (⟨S1600000x1, .i32⟩ : BufTy).Contents (Elt F)) : HloOp τ sig (Elt F)).result (after hostOps0 V) (Proc.devRef .tc main_v9) := by
  after_results_simp
theorem fin_main_v9 (c : Dev nD) :
    W55 m ρ c (Proc.devRef .tc main_v9) = (StableHlo.unary main_v8 main_v9 (broadcastInDim S1600000x1 ![0] bcast_S1600000_S1600000x1_0 : (⟨S1600000, .i32⟩ : BufTy).Contents (Elt F) → (⟨S1600000x1, .i32⟩ : BufTy).Contents (Elt F)) : HloOp τ sig (Elt F)).result (W55 m ρ c) (Proc.devRef .tc main_v9) := by
  have h := ssa_main_v9 (F := F) (W0 m ρ c)
  rw [unary_result] at h ⊢
  rw [lift1 m ρ c main_v9 (by decide), lift1 m ρ c main_v8 (by decide)]
  exact h

theorem ssa_main_v10 (V : Valuation τ sig (Elt F)) :
    after hostOps0 V (Proc.devRef .tc main_v10) = (StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) : HloOp τ sig (Elt F)).result (after hostOps0 V) (Proc.devRef .tc main_v10) := by
  after_results_simp
theorem fin_main_v10 (c : Dev nD) :
    W55 m ρ c (Proc.devRef .tc main_v10) = (StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) : HloOp τ sig (Elt F)).result (W55 m ρ c) (Proc.devRef .tc main_v10) := by
  have h := ssa_main_v10 (F := F) (W0 m ρ c)
  rw [binary_result] at h ⊢
  rw [lift1 m ρ c main_v10 (by decide), lift1 m ρ c main_arg0 (by decide), lift1 m ρ c main_v9 (by decide)]
  exact h

theorem ssa_main_v11 (V : Valuation τ sig (Elt F)) :
    after hostOps0 V (Proc.devRef .tc main_v11) = (StableHlo.unary main_arg4 main_v11 ((extractStridedSlice S1x16x64 ![0, 0, 0] · slices_S3x16x64_S1x16x64_0_0_0) : (⟨S3x16x64, .f32⟩ : BufTy).Contents (Elt F) → (⟨S1x16x64, .f32⟩ : BufTy).Contents (Elt F)) : HloOp τ sig (Elt F)).result (after hostOps0 V) (Proc.devRef .tc main_v11) := by
  after_results_simp
theorem fin_main_v11 (c : Dev nD) :
    W55 m ρ c (Proc.devRef .tc main_v11) = (StableHlo.unary main_arg4 main_v11 ((extractStridedSlice S1x16x64 ![0, 0, 0] · slices_S3x16x64_S1x16x64_0_0_0) : (⟨S3x16x64, .f32⟩ : BufTy).Contents (Elt F) → (⟨S1x16x64, .f32⟩ : BufTy).Contents (Elt F)) : HloOp τ sig (Elt F)).result (W55 m ρ c) (Proc.devRef .tc main_v11) := by
  have h := ssa_main_v11 (F := F) (W0 m ρ c)
  rw [unary_result] at h ⊢
  rw [lift1 m ρ c main_v11 (by decide), lift1 m ρ c main_arg4 (by decide)]
  exact h

theorem ssa_main_v12 (V : Valuation τ sig (Elt F)) :
    after hostOps0 V (Proc.devRef .tc main_v12) = (StableHlo.reshape main_v11 main_v12 rfl shapeCasts_S1x16x64_S16x64 : HloOp τ sig (Elt F)).result (after hostOps0 V) (Proc.devRef .tc main_v12) := by
  after_results_simp
theorem fin_main_v12 (c : Dev nD) :
    W55 m ρ c (Proc.devRef .tc main_v12) = (StableHlo.reshape main_v11 main_v12 rfl shapeCasts_S1x16x64_S16x64 : HloOp τ sig (Elt F)).result (W55 m ρ c) (Proc.devRef .tc main_v12) := by
  have h := ssa_main_v12 (F := F) (W0 m ρ c)
  rw [reshape_result] at h ⊢
  rw [lift1 m ρ c main_v12 (by decide), lift1 m ρ c main_v11 (by decide)]
  exact h

theorem ssa_main_v13 (V : Valuation τ sig (Elt F)) :
    after hostOps0 V (Proc.devRef .tc main_v13) = (StableHlo.unary main_arg5 main_v13 ((extractStridedSlice S1x64 ![0, 0] · slices_S3x64_S1x64_0_0) : (⟨S3x64, .f32⟩ : BufTy).Contents (Elt F) → (⟨S1x64, .f32⟩ : BufTy).Contents (Elt F)) : HloOp τ sig (Elt F)).result (after hostOps0 V) (Proc.devRef .tc main_v13) := by
  after_results_simp
theorem fin_main_v13 (c : Dev nD) :
    W55 m ρ c (Proc.devRef .tc main_v13) = (StableHlo.unary main_arg5 main_v13 ((extractStridedSlice S1x64 ![0, 0] · slices_S3x64_S1x64_0_0) : (⟨S3x64, .f32⟩ : BufTy).Contents (Elt F) → (⟨S1x64, .f32⟩ : BufTy).Contents (Elt F)) : HloOp τ sig (Elt F)).result (W55 m ρ c) (Proc.devRef .tc main_v13) := by
  have h := ssa_main_v13 (F := F) (W0 m ρ c)
  rw [unary_result] at h ⊢
  rw [lift1 m ρ c main_v13 (by decide), lift1 m ρ c main_arg5 (by decide)]
  exact h

theorem ssa_main_v14 (V : Valuation τ sig (Elt F)) :
    after hostOps0 V (Proc.devRef .tc main_v14) = (StableHlo.reshape main_v13 main_v14 rfl shapeCasts_S1x64_S64 : HloOp τ sig (Elt F)).result (after hostOps0 V) (Proc.devRef .tc main_v14) := by
  after_results_simp
theorem fin_main_v14 (c : Dev nD) :
    W55 m ρ c (Proc.devRef .tc main_v14) = (StableHlo.reshape main_v13 main_v14 rfl shapeCasts_S1x64_S64 : HloOp τ sig (Elt F)).result (W55 m ρ c) (Proc.devRef .tc main_v14) := by
  have h := ssa_main_v14 (F := F) (W0 m ρ c)
  rw [reshape_result] at h ⊢
  rw [lift1 m ρ c main_v14 (by decide), lift1 m ρ c main_v13 (by decide)]
  exact h

theorem ssa_main_v15 (V : Valuation τ sig (Elt F)) :
    after hostOps0 V (Proc.devRef .tc main_v15) = (StableHlo.reshape main_v14 main_v15 rfl shapeCasts_S64_S1x64 : HloOp τ sig (Elt F)).result (after hostOps0 V) (Proc.devRef .tc main_v15) := by
  after_results_simp
theorem fin_main_v15 (c : Dev nD) :
    W55 m ρ c (Proc.devRef .tc main_v15) = (StableHlo.reshape main_v14 main_v15 rfl shapeCasts_S64_S1x64 : HloOp τ sig (Elt F)).result (W55 m ρ c) (Proc.devRef .tc main_v15) := by
  have h := ssa_main_v15 (F := F) (W0 m ρ c)
  rw [reshape_result] at h ⊢
  rw [lift1 m ρ c main_v15 (by decide), lift1 m ρ c main_v14 (by decide)]
  exact h

theorem ssa_main_cst (V : Valuation τ sig (Elt F)) :
    after hostOps1 V (Proc.devRef .tc main_cst) = (StableHlo.nullary main_cst (constant S_ .f32 0x00000000#32) : HloOp τ sig (Elt F)).result (after hostOps1 V) (Proc.devRef .tc main_cst) := by
  after_results_simp
theorem fin_main_cst (c : Dev nD) :
    W55 m ρ c (Proc.devRef .tc main_cst) = (StableHlo.nullary main_cst (constant S_ .f32 0x00000000#32) : HloOp τ sig (Elt F)).result (W55 m ρ c) (Proc.devRef .tc main_cst) := by
  have h := ssa_main_cst (F := F) (W2 m ρ c)
  rw [nullary_result] at h ⊢
  rw [lift3 m ρ c main_cst (by decide)]
  exact h

theorem ssa_main_v17 (V : Valuation τ sig (Elt F)) :
    after hostOps1 V (Proc.devRef .tc main_v17) = (StableHlo.unary main_cst main_v17 (broadcastInDim S100000x64 ![] bcast_S_S100000x64 : (⟨S_, .f32⟩ : BufTy).Contents (Elt F) → (⟨S100000x64, .f32⟩ : BufTy).Contents (Elt F)) : HloOp τ sig (Elt F)).result (after hostOps1 V) (Proc.devRef .tc main_v17) := by
  after_results_simp
theorem fin_main_v17 (c : Dev nD) :
    W55 m ρ c (Proc.devRef .tc main_v17) = (StableHlo.unary main_cst main_v17 (broadcastInDim S100000x64 ![] bcast_S_S100000x64 : (⟨S_, .f32⟩ : BufTy).Contents (Elt F) → (⟨S100000x64, .f32⟩ : BufTy).Contents (Elt F)) : HloOp τ sig (Elt F)).result (W55 m ρ c) (Proc.devRef .tc main_v17) := by
  have h := ssa_main_v17 (F := F) (W2 m ρ c)
  rw [unary_result] at h ⊢
  rw [lift3 m ρ c main_v17 (by decide), lift3 m ρ c main_cst (by decide)]
  exact h

theorem ssa_main_v18 (V : Valuation τ sig (Elt F)) :
    after hostOps1 V (Proc.devRef .tc main_v18) = (StableHlo.unary main_v3 main_v18 (broadcastInDim S1600000x1 ![0] bcast_S1600000_S1600000x1_0 : (⟨S1600000, .i32⟩ : BufTy).Contents (Elt F) → (⟨S1600000x1, .i32⟩ : BufTy).Contents (Elt F)) : HloOp τ sig (Elt F)).result (after hostOps1 V) (Proc.devRef .tc main_v18) := by
  after_results_simp
theorem fin_main_v18 (c : Dev nD) :
    W55 m ρ c (Proc.devRef .tc main_v18) = (StableHlo.unary main_v3 main_v18 (broadcastInDim S1600000x1 ![0] bcast_S1600000_S1600000x1_0 : (⟨S1600000, .i32⟩ : BufTy).Contents (Elt F) → (⟨S1600000x1, .i32⟩ : BufTy).Contents (Elt F)) : HloOp τ sig (Elt F)).result (W55 m ρ c) (Proc.devRef .tc main_v18) := by
  have h := ssa_main_v18 (F := F) (W2 m ρ c)
  rw [unary_result] at h ⊢
  rw [lift3 m ρ c main_v18 (by decide), lift3 m ρ c main_v3 (by decide)]
  exact h

theorem ssa_main_v19 (V : Valuation τ sig (Elt F)) :
    after hostOps1 V (Proc.devRef .tc main_v19) = (StableHlo.ternary main_v17 main_v18 main_v16 main_v19 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) : HloOp τ sig (Elt F)).result (after hostOps1 V) (Proc.devRef .tc main_v19) := by
  after_results_simp
theorem fin_main_v19 (c : Dev nD) :
    W55 m ρ c (Proc.devRef .tc main_v19) = (StableHlo.ternary main_v17 main_v18 main_v16 main_v19 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) : HloOp τ sig (Elt F)).result (W55 m ρ c) (Proc.devRef .tc main_v19) := by
  have h := ssa_main_v19 (F := F) (W2 m ρ c)
  rw [ternary_result] at h ⊢
  rw [lift3 m ρ c main_v19 (by decide), lift3 m ρ c main_v17 (by decide), lift3 m ρ c main_v18 (by decide), lift3 m ρ c main_v16 (by decide)]
  exact h

theorem ssa_main_v20 (V : Valuation τ sig (Elt F)) :
    after hostOps1 V (Proc.devRef .tc main_v20) = (StableHlo.unary main_arg6 main_v20 ((extractStridedSlice S1 ![0] · slices_S3_S1_0) : (⟨S3, .f32⟩ : BufTy).Contents (Elt F) → (⟨S1, .f32⟩ : BufTy).Contents (Elt F)) : HloOp τ sig (Elt F)).result (after hostOps1 V) (Proc.devRef .tc main_v20) := by
  after_results_simp
theorem fin_main_v20 (c : Dev nD) :
    W55 m ρ c (Proc.devRef .tc main_v20) = (StableHlo.unary main_arg6 main_v20 ((extractStridedSlice S1 ![0] · slices_S3_S1_0) : (⟨S3, .f32⟩ : BufTy).Contents (Elt F) → (⟨S1, .f32⟩ : BufTy).Contents (Elt F)) : HloOp τ sig (Elt F)).result (W55 m ρ c) (Proc.devRef .tc main_v20) := by
  have h := ssa_main_v20 (F := F) (W2 m ρ c)
  rw [unary_result] at h ⊢
  rw [lift3 m ρ c main_v20 (by decide), lift3 m ρ c main_arg6 (by decide)]
  exact h

theorem ssa_main_v21 (V : Valuation τ sig (Elt F)) :
    after hostOps1 V (Proc.devRef .tc main_v21) = (StableHlo.reshape main_v20 main_v21 rfl shapeCasts_S1_S_ : HloOp τ sig (Elt F)).result (after hostOps1 V) (Proc.devRef .tc main_v21) := by
  after_results_simp
theorem fin_main_v21 (c : Dev nD) :
    W55 m ρ c (Proc.devRef .tc main_v21) = (StableHlo.reshape main_v20 main_v21 rfl shapeCasts_S1_S_ : HloOp τ sig (Elt F)).result (W55 m ρ c) (Proc.devRef .tc main_v21) := by
  have h := ssa_main_v21 (F := F) (W2 m ρ c)
  rw [reshape_result] at h ⊢
  rw [lift3 m ρ c main_v21 (by decide), lift3 m ρ c main_v20 (by decide)]
  exact h

theorem ssa_main_cst_1 (V : Valuation τ sig (Elt F)) :
    after hostOps1 V (Proc.devRef .tc main_cst_1) = (StableHlo.nullary main_cst_1 (constant S_ .f32 0x3F800000#32) : HloOp τ sig (Elt F)).result (after hostOps1 V) (Proc.devRef .tc main_cst_1) := by
  after_results_simp
theorem fin_main_cst_1 (c : Dev nD) :
    W55 m ρ c (Proc.devRef .tc main_cst_1) = (StableHlo.nullary main_cst_1 (constant S_ .f32 0x3F800000#32) : HloOp τ sig (Elt F)).result (W55 m ρ c) (Proc.devRef .tc main_cst_1) := by
  have h := ssa_main_cst_1 (F := F) (W2 m ρ c)
  rw [nullary_result] at h ⊢
  rw [lift3 m ρ c main_cst_1 (by decide)]
  exact h

theorem ssa_main_v22 (V : Valuation τ sig (Elt F)) :
    after hostOps1 V (Proc.devRef .tc main_v22) = (StableHlo.binary main_cst_1 main_v21 main_v22 (addf : (⟨S_, .f32⟩ : BufTy).Contents (Elt F) → (⟨S_, .f32⟩ : BufTy).Contents (Elt F) → (⟨S_, .f32⟩ : BufTy).Contents (Elt F)) : HloOp τ sig (Elt F)).result (after hostOps1 V) (Proc.devRef .tc main_v22) := by
  after_results_simp
theorem fin_main_v22 (c : Dev nD) :
    W55 m ρ c (Proc.devRef .tc main_v22) = (StableHlo.binary main_cst_1 main_v21 main_v22 (addf : (⟨S_, .f32⟩ : BufTy).Contents (Elt F) → (⟨S_, .f32⟩ : BufTy).Contents (Elt F) → (⟨S_, .f32⟩ : BufTy).Contents (Elt F)) : HloOp τ sig (Elt F)).result (W55 m ρ c) (Proc.devRef .tc main_v22) := by
  have h := ssa_main_v22 (F := F) (W2 m ρ c)
  rw [binary_result] at h ⊢
  rw [lift3 m ρ c main_v22 (by decide), lift3 m ρ c main_cst_1 (by decide), lift3 m ρ c main_v21 (by decide)]
  exact h

theorem ssa_main_v23 (V : Valuation τ sig (Elt F)) :
    after hostOps1 V (Proc.devRef .tc main_v23) = (StableHlo.unary main_v22 main_v23 (broadcastInDim S100000x64 ![] bcast_S_S100000x64 : (⟨S_, .f32⟩ : BufTy).Contents (Elt F) → (⟨S100000x64, .f32⟩ : BufTy).Contents (Elt F)) : HloOp τ sig (Elt F)).result (after hostOps1 V) (Proc.devRef .tc main_v23) := by
  after_results_simp
theorem fin_main_v23 (c : Dev nD) :
    W55 m ρ c (Proc.devRef .tc main_v23) = (StableHlo.unary main_v22 main_v23 (broadcastInDim S100000x64 ![] bcast_S_S100000x64 : (⟨S_, .f32⟩ : BufTy).Contents (Elt F) → (⟨S100000x64, .f32⟩ : BufTy).Contents (Elt F)) : HloOp τ sig (Elt F)).result (W55 m ρ c) (Proc.devRef .tc main_v23) := by
  have h := ssa_main_v23 (F := F) (W2 m ρ c)
  rw [unary_result] at h ⊢
  rw [lift3 m ρ c main_v23 (by decide), lift3 m ρ c main_v22 (by decide)]
  exact h

theorem ssa_main_v24 (V : Valuation τ sig (Elt F)) :
    after hostOps1 V (Proc.devRef .tc main_v24) = (StableHlo.binary main_v23 main_arg0 main_v24 (mulf : (⟨S100000x64, .f32⟩ : BufTy).Contents (Elt F) → (⟨S100000x64, .f32⟩ : BufTy).Contents (Elt F) → (⟨S100000x64, .f32⟩ : BufTy).Contents (Elt F)) : HloOp τ sig (Elt F)).result (after hostOps1 V) (Proc.devRef .tc main_v24) := by
  after_results_simp
theorem fin_main_v24 (c : Dev nD) :
    W55 m ρ c (Proc.devRef .tc main_v24) = (StableHlo.binary main_v23 main_arg0 main_v24 (mulf : (⟨S100000x64, .f32⟩ : BufTy).Contents (Elt F) → (⟨S100000x64, .f32⟩ : BufTy).Contents (Elt F) → (⟨S100000x64, .f32⟩ : BufTy).Contents (Elt F)) : HloOp τ sig (Elt F)).result (W55 m ρ c) (Proc.devRef .tc main_v24) := by
  have h := ssa_main_v24 (F := F) (W2 m ρ c)
  rw [binary_result] at h ⊢
  rw [lift3 m ρ c main_v24 (by decide), lift3 m ρ c main_v23 (by decide), lift3 m ρ c main_arg0 (by decide)]
  exact h

theorem ssa_main_v25 (V : Valuation τ sig (Elt F)) :
    after hostOps1 V (Proc.devRef .tc main_v25) = (StableHlo.binary main_v24 main_v19 main_v25 (addf : (⟨S100000x64, .f32⟩ : BufTy).Contents (Elt F) → (⟨S100000x64, .f32⟩ : BufTy).Contents (Elt F) → (⟨S100000x64, .f32⟩ : BufTy).Contents (Elt F)) : HloOp τ sig (Elt F)).result (after hostOps1 V) (Proc.devRef .tc main_v25) := by
  after_results_simp
theorem fin_main_v25 (c : Dev nD) :
    W55 m ρ c (Proc.devRef .tc main_v25) = (StableHlo.binary main_v24 main_v19 main_v25 (addf : (⟨S100000x64, .f32⟩ : BufTy).Contents (Elt F) → (⟨S100000x64, .f32⟩ : BufTy).Contents (Elt F) → (⟨S100000x64, .f32⟩ : BufTy).Contents (Elt F)) : HloOp τ sig (Elt F)).result (W55 m ρ c) (Proc.devRef .tc main_v25) := by
  have h := ssa_main_v25 (F := F) (W2 m ρ c)
  rw [binary_result] at h ⊢
  rw [lift3 m ρ c main_v25 (by decide), lift3 m ρ c main_v24 (by decide), lift3 m ρ c main_v19 (by decide)]
  exact h

theorem ssa_main_v26 (V : Valuation τ sig (Elt F)) :
    after hostOps1 V (Proc.devRef .tc main_v26) = (StableHlo.unary main_arg7 main_v26 ((extractStridedSlice S1x64x64 ![0, 0, 0] · slices_S3x64x64_S1x64x64_0_0_0) : (⟨S3x64x64, .f32⟩ : BufTy).Contents (Elt F) → (⟨S1x64x64, .f32⟩ : BufTy).Contents (Elt F)) : HloOp τ sig (Elt F)).result (after hostOps1 V) (Proc.devRef .tc main_v26) := by
  after_results_simp
theorem fin_main_v26 (c : Dev nD) :
    W55 m ρ c (Proc.devRef .tc main_v26) = (StableHlo.unary main_arg7 main_v26 ((extractStridedSlice S1x64x64 ![0, 0, 0] · slices_S3x64x64_S1x64x64_0_0_0) : (⟨S3x64x64, .f32⟩ : BufTy).Contents (Elt F) → (⟨S1x64x64, .f32⟩ : BufTy).Contents (Elt F)) : HloOp τ sig (Elt F)).result (W55 m ρ c) (Proc.devRef .tc main_v26) := by
  have h := ssa_main_v26 (F := F) (W2 m ρ c)
  rw [unary_result] at h ⊢
  rw [lift3 m ρ c main_v26 (by decide), lift3 m ρ c main_arg7 (by decide)]
  exact h

theorem ssa_main_v27 (V : Valuation τ sig (Elt F)) :
    after hostOps1 V (Proc.devRef .tc main_v27) = (StableHlo.reshape main_v26 main_v27 rfl shapeCasts_S1x64x64_S64x64 : HloOp τ sig (Elt F)).result (after hostOps1 V) (Proc.devRef .tc main_v27) := by
  after_results_simp
theorem fin_main_v27 (c : Dev nD) :
    W55 m ρ c (Proc.devRef .tc main_v27) = (StableHlo.reshape main_v26 main_v27 rfl shapeCasts_S1x64x64_S64x64 : HloOp τ sig (Elt F)).result (W55 m ρ c) (Proc.devRef .tc main_v27) := by
  have h := ssa_main_v27 (F := F) (W2 m ρ c)
  rw [reshape_result] at h ⊢
  rw [lift3 m ρ c main_v27 (by decide), lift3 m ρ c main_v26 (by decide)]
  exact h

theorem ssa_main_v28 (V : Valuation τ sig (Elt F)) :
    after hostOps1 V (Proc.devRef .tc main_v28) = (StableHlo.unary main_arg8 main_v28 ((extractStridedSlice S1x64 ![0, 0] · slices_S3x64_S1x64_0_0) : (⟨S3x64, .f32⟩ : BufTy).Contents (Elt F) → (⟨S1x64, .f32⟩ : BufTy).Contents (Elt F)) : HloOp τ sig (Elt F)).result (after hostOps1 V) (Proc.devRef .tc main_v28) := by
  after_results_simp
theorem fin_main_v28 (c : Dev nD) :
    W55 m ρ c (Proc.devRef .tc main_v28) = (StableHlo.unary main_arg8 main_v28 ((extractStridedSlice S1x64 ![0, 0] · slices_S3x64_S1x64_0_0) : (⟨S3x64, .f32⟩ : BufTy).Contents (Elt F) → (⟨S1x64, .f32⟩ : BufTy).Contents (Elt F)) : HloOp τ sig (Elt F)).result (W55 m ρ c) (Proc.devRef .tc main_v28) := by
  have h := ssa_main_v28 (F := F) (W2 m ρ c)
  rw [unary_result] at h ⊢
  rw [lift3 m ρ c main_v28 (by decide), lift3 m ρ c main_arg8 (by decide)]
  exact h

theorem ssa_main_v29 (V : Valuation τ sig (Elt F)) :
    after hostOps1 V (Proc.devRef .tc main_v29) = (StableHlo.reshape main_v28 main_v29 rfl shapeCasts_S1x64_S64 : HloOp τ sig (Elt F)).result (after hostOps1 V) (Proc.devRef .tc main_v29) := by
  after_results_simp
theorem fin_main_v29 (c : Dev nD) :
    W55 m ρ c (Proc.devRef .tc main_v29) = (StableHlo.reshape main_v28 main_v29 rfl shapeCasts_S1x64_S64 : HloOp τ sig (Elt F)).result (W55 m ρ c) (Proc.devRef .tc main_v29) := by
  have h := ssa_main_v29 (F := F) (W2 m ρ c)
  rw [reshape_result] at h ⊢
  rw [lift3 m ρ c main_v29 (by decide), lift3 m ρ c main_v28 (by decide)]
  exact h

theorem ssa_main_v30 (V : Valuation τ sig (Elt F)) :
    after hostOps1 V (Proc.devRef .tc main_v30) = (StableHlo.reshape main_v29 main_v30 rfl shapeCasts_S64_S1x64 : HloOp τ sig (Elt F)).result (after hostOps1 V) (Proc.devRef .tc main_v30) := by
  after_results_simp
theorem fin_main_v30 (c : Dev nD) :
    W55 m ρ c (Proc.devRef .tc main_v30) = (StableHlo.reshape main_v29 main_v30 rfl shapeCasts_S64_S1x64 : HloOp τ sig (Elt F)).result (W55 m ρ c) (Proc.devRef .tc main_v30) := by
  have h := ssa_main_v30 (F := F) (W2 m ρ c)
  rw [reshape_result] at h ⊢
  rw [lift3 m ρ c main_v30 (by decide), lift3 m ρ c main_v29 (by decide)]
  exact h

theorem ssa_main_v32 (V : Valuation τ sig (Elt F)) :
    after hostOps2 V (Proc.devRef .tc main_v32) = (StableHlo.unary main_arg9 main_v32 ((extractStridedSlice S1x64 ![0, 0] · slices_S3x64_S1x64_0_0) : (⟨S3x64, .f32⟩ : BufTy).Contents (Elt F) → (⟨S1x64, .f32⟩ : BufTy).Contents (Elt F)) : HloOp τ sig (Elt F)).result (after hostOps2 V) (Proc.devRef .tc main_v32) := by
  after_results_simp
theorem fin_main_v32 (c : Dev nD) :
    W55 m ρ c (Proc.devRef .tc main_v32) = (StableHlo.unary main_arg9 main_v32 ((extractStridedSlice S1x64 ![0, 0] · slices_S3x64_S1x64_0_0) : (⟨S3x64, .f32⟩ : BufTy).Contents (Elt F) → (⟨S1x64, .f32⟩ : BufTy).Contents (Elt F)) : HloOp τ sig (Elt F)).result (W55 m ρ c) (Proc.devRef .tc main_v32) := by
  have h := ssa_main_v32 (F := F) (W4 m ρ c)
  rw [unary_result] at h ⊢
  rw [lift5 m ρ c main_v32 (by decide), lift5 m ρ c main_arg9 (by decide)]
  exact h

theorem ssa_main_v33 (V : Valuation τ sig (Elt F)) :
    after hostOps2 V (Proc.devRef .tc main_v33) = (StableHlo.reshape main_v32 main_v33 rfl shapeCasts_S1x64_S64 : HloOp τ sig (Elt F)).result (after hostOps2 V) (Proc.devRef .tc main_v33) := by
  after_results_simp
theorem fin_main_v33 (c : Dev nD) :
    W55 m ρ c (Proc.devRef .tc main_v33) = (StableHlo.reshape main_v32 main_v33 rfl shapeCasts_S1x64_S64 : HloOp τ sig (Elt F)).result (W55 m ρ c) (Proc.devRef .tc main_v33) := by
  have h := ssa_main_v33 (F := F) (W4 m ρ c)
  rw [reshape_result] at h ⊢
  rw [lift5 m ρ c main_v33 (by decide), lift5 m ρ c main_v32 (by decide)]
  exact h

theorem ssa_main_v34 (V : Valuation τ sig (Elt F)) :
    after hostOps2 V (Proc.devRef .tc main_v34) = (StableHlo.unary main_arg10 main_v34 ((extractStridedSlice S1x64 ![0, 0] · slices_S3x64_S1x64_0_0) : (⟨S3x64, .f32⟩ : BufTy).Contents (Elt F) → (⟨S1x64, .f32⟩ : BufTy).Contents (Elt F)) : HloOp τ sig (Elt F)).result (after hostOps2 V) (Proc.devRef .tc main_v34) := by
  after_results_simp
theorem fin_main_v34 (c : Dev nD) :
    W55 m ρ c (Proc.devRef .tc main_v34) = (StableHlo.unary main_arg10 main_v34 ((extractStridedSlice S1x64 ![0, 0] · slices_S3x64_S1x64_0_0) : (⟨S3x64, .f32⟩ : BufTy).Contents (Elt F) → (⟨S1x64, .f32⟩ : BufTy).Contents (Elt F)) : HloOp τ sig (Elt F)).result (W55 m ρ c) (Proc.devRef .tc main_v34) := by
  have h := ssa_main_v34 (F := F) (W4 m ρ c)
  rw [unary_result] at h ⊢
  rw [lift5 m ρ c main_v34 (by decide), lift5 m ρ c main_arg10 (by decide)]
  exact h

theorem ssa_main_v35 (V : Valuation τ sig (Elt F)) :
    after hostOps2 V (Proc.devRef .tc main_v35) = (StableHlo.reshape main_v34 main_v35 rfl shapeCasts_S1x64_S64 : HloOp τ sig (Elt F)).result (after hostOps2 V) (Proc.devRef .tc main_v35) := by
  after_results_simp
theorem fin_main_v35 (c : Dev nD) :
    W55 m ρ c (Proc.devRef .tc main_v35) = (StableHlo.reshape main_v34 main_v35 rfl shapeCasts_S1x64_S64 : HloOp τ sig (Elt F)).result (W55 m ρ c) (Proc.devRef .tc main_v35) := by
  have h := ssa_main_v35 (F := F) (W4 m ρ c)
  rw [reshape_result] at h ⊢
  rw [lift5 m ρ c main_v35 (by decide), lift5 m ρ c main_v34 (by decide)]
  exact h

theorem ssa_main_cst_2 (V : Valuation τ sig (Elt F)) :
    after hostOps2 V (Proc.devRef .tc main_cst_2) = (StableHlo.nullary main_cst_2 (constant S_ .f32 0x00000000#32) : HloOp τ sig (Elt F)).result (after hostOps2 V) (Proc.devRef .tc main_cst_2) := by
  after_results_simp
theorem fin_main_cst_2 (c : Dev nD) :
    W55 m ρ c (Proc.devRef .tc main_cst_2) = (StableHlo.nullary main_cst_2 (constant S_ .f32 0x00000000#32) : HloOp τ sig (Elt F)).result (W55 m ρ c) (Proc.devRef .tc main_cst_2) := by
  have h := ssa_main_cst_2 (F := F) (W4 m ρ c)
  rw [nullary_result] at h ⊢
  rw [lift5 m ρ c main_cst_2 (by decide)]
  exact h

theorem ssa_main_v36 (V : Valuation τ sig (Elt F)) :
    after hostOps2 V (Proc.devRef .tc main_v36) = (StableHlo.binary main_v31 main_cst_2 main_v36 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) : HloOp τ sig (Elt F)).result (after hostOps2 V) (Proc.devRef .tc main_v36) := by
  after_results_simp
theorem fin_main_v36 (c : Dev nD) :
    W55 m ρ c (Proc.devRef .tc main_v36) = (StableHlo.binary main_v31 main_cst_2 main_v36 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) : HloOp τ sig (Elt F)).result (W55 m ρ c) (Proc.devRef .tc main_v36) := by
  have h := ssa_main_v36 (F := F) (W4 m ρ c)
  rw [binary_result] at h ⊢
  rw [lift5 m ρ c main_v36 (by decide), lift5 m ρ c main_v31 (by decide), lift5 m ρ c main_cst_2 (by decide)]
  exact h

theorem ssa_main_cst_3 (V : Valuation τ sig (Elt F)) :
    after hostOps2 V (Proc.devRef .tc main_cst_3) = (StableHlo.nullary main_cst_3 (constant S_ .f32 0x47C35000#32) : HloOp τ sig (Elt F)).result (after hostOps2 V) (Proc.devRef .tc main_cst_3) := by
  after_results_simp
theorem fin_main_cst_3 (c : Dev nD) :
    W55 m ρ c (Proc.devRef .tc main_cst_3) = (StableHlo.nullary main_cst_3 (constant S_ .f32 0x47C35000#32) : HloOp τ sig (Elt F)).result (W55 m ρ c) (Proc.devRef .tc main_cst_3) := by
  have h := ssa_main_cst_3 (F := F) (W4 m ρ c)
  rw [nullary_result] at h ⊢
  rw [lift5 m ρ c main_cst_3 (by decide)]
  exact h

theorem ssa_main_v37 (V : Valuation τ sig (Elt F)) :
    after hostOps2 V (Proc.devRef .tc main_v37) = (StableHlo.unary main_cst_3 main_v37 (broadcastInDim S64 ![] bcast_S_S64 : (⟨S_, .f32⟩ : BufTy).Contents (Elt F) → (⟨S64, .f32⟩ : BufTy).Contents (Elt F)) : HloOp τ sig (Elt F)).result (after hostOps2 V) (Proc.devRef .tc main_v37) := by
  after_results_simp
theorem fin_main_v37 (c : Dev nD) :
    W55 m ρ c (Proc.devRef .tc main_v37) = (StableHlo.unary main_cst_3 main_v37 (broadcastInDim S64 ![] bcast_S_S64 : (⟨S_, .f32⟩ : BufTy).Contents (Elt F) → (⟨S64, .f32⟩ : BufTy).Contents (Elt F)) : HloOp τ sig (Elt F)).result (W55 m ρ c) (Proc.devRef .tc main_v37) := by
  have h := ssa_main_v37 (F := F) (W4 m ρ c)
  rw [unary_result] at h ⊢
  rw [lift5 m ρ c main_v37 (by decide), lift5 m ρ c main_cst_3 (by decide)]
  exact h

theorem ssa_main_v38 (V : Valuation τ sig (Elt F)) :
    after hostOps2 V (Proc.devRef .tc main_v38) = (StableHlo.binary main_v36 main_v37 main_v38 (Host.divf : (⟨S64, .f32⟩ : BufTy).Contents (Elt F) → (⟨S64, .f32⟩ : BufTy).Contents (Elt F) → (⟨S64, .f32⟩ : BufTy).Contents (Elt F)) : HloOp τ sig (Elt F)).result (after hostOps2 V) (Proc.devRef .tc main_v38) := by
  after_results_simp
theorem fin_main_v38 (c : Dev nD) :
    W55 m ρ c (Proc.devRef .tc main_v38) = (StableHlo.binary main_v36 main_v37 main_v38 (Host.divf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v38) := by
  have h := ssa_main_v38 (F := F) (W4 m ρ c)
  rw [binary_result] at h ⊢
  rw [lift5 m ρ c main_v38 (by decide), lift5 m ρ c main_v36 (by decide), lift5 m ρ c main_v37 (by decide)]
  exact h

theorem ssa_main_c_4 (V : Valuation τ sig (Elt F)) :
    after hostOps2 V (Proc.devRef .tc main_c_4) = (StableHlo.nullary main_c_4 (constantI S_ 32 0#32) : HloOp τ sig (Elt F)).result (after hostOps2 V) (Proc.devRef .tc main_c_4) := by
  after_results_simp
theorem fin_main_c_4 (c : Dev nD) :
    W55 m ρ c (Proc.devRef .tc main_c_4) = (StableHlo.nullary main_c_4 (constantI S_ 32 0#32) : HloOp τ sig (Elt F)).result (W55 m ρ c) (Proc.devRef .tc main_c_4) := by
  have h := ssa_main_c_4 (F := F) (W4 m ρ c)
  rw [nullary_result] at h ⊢
  rw [lift5 m ρ c main_c_4 (by decide)]
  exact h

theorem ssa_main_call0_cst (V : Valuation τ sig (Elt F)) :
    after hostOps2_1 V (Proc.devRef .tc main_call0_cst) = (StableHlo.TRef.nullary (.of main_call0_cst : StableHlo.TRef sig ⟨S_, .f32⟩) (constant S_ .f32 0x00000000#32) : HloOp τ sig (Elt F)).result (after hostOps2_1 V) (Proc.devRef .tc main_call0_cst) := by
  after_results_simp
theorem fin_main_call0_cst (c : Dev nD) :
    W55 m ρ c (Proc.devRef .tc main_call0_cst) = (StableHlo.TRef.nullary (.of main_call0_cst : StableHlo.TRef sig ⟨S_, .f32⟩) (constant S_ .f32 0x00000000#32) : HloOp τ sig (Elt F)).result (W55 m ρ c) (Proc.devRef .tc main_call0_cst) := by
  have h := ssa_main_call0_cst (F := F) (W5 m ρ c)
  rw [nullary_result] at h ⊢
  rw [lift6 m ρ c main_call0_cst (by decide)]
  exact h

theorem ssa_main_call0_v0 (V : Valuation τ sig (Elt F)) :
    after hostOps2_1 V (Proc.devRef .tc main_call0_v0) = (StableHlo.TRef.binary (.of main_v31 : StableHlo.TRef sig ⟨S100000x64, .f32⟩) (.of main_call0_cst : StableHlo.TRef sig ⟨S_, .f32⟩) (.of main_call0_v0 : StableHlo.TRef sig ⟨S64, .f32⟩) (fun x v => Host.reduceAdd x v reducesTo_S100000x64_S64_d0 h_S_) : HloOp τ sig (Elt F)).result (after hostOps2_1 V) (Proc.devRef .tc main_call0_v0) := by
  after_results_simp
theorem fin_main_call0_v0 (c : Dev nD) :
    W55 m ρ c (Proc.devRef .tc main_call0_v0) = (StableHlo.TRef.binary (.of main_v31 : StableHlo.TRef sig ⟨S100000x64, .f32⟩) (.of main_call0_cst : StableHlo.TRef sig ⟨S_, .f32⟩) (.of main_call0_v0 : StableHlo.TRef sig ⟨S64, .f32⟩) (fun x v => Host.reduceAdd x v reducesTo_S100000x64_S64_d0 h_S_) : HloOp τ sig (Elt F)).result (W55 m ρ c) (Proc.devRef .tc main_call0_v0) := by
  have h := ssa_main_call0_v0 (F := F) (W5 m ρ c)
  rw [binary_result] at h ⊢
  rw [lift6 m ρ c main_call0_v0 (by decide), lift6 m ρ c main_v31 (by decide), lift6 m ρ c main_call0_cst (by decide)]
  exact h

theorem ssa_main_call0_v1 (V : Valuation τ sig (Elt F)) :
    after hostOps2_1 V (Proc.devRef .tc main_call0_v1) = (StableHlo.TRef.unary (.of main_call0_v0 : StableHlo.TRef sig ⟨S64, .f32⟩) (.of main_call0_v1 : StableHlo.TRef sig ⟨S1x64, .f32⟩) (broadcastInDim S1x64 ![1] bcast_S64_S1x64_1) : HloOp τ sig (Elt F)).result (after hostOps2_1 V) (Proc.devRef .tc main_call0_v1) := by
  after_results_simp
theorem fin_main_call0_v1 (c : Dev nD) :
    W55 m ρ c (Proc.devRef .tc main_call0_v1) = (StableHlo.TRef.unary (.of main_call0_v0 : StableHlo.TRef sig ⟨S64, .f32⟩) (.of main_call0_v1 : StableHlo.TRef sig ⟨S1x64, .f32⟩) (broadcastInDim S1x64 ![1] bcast_S64_S1x64_1) : HloOp τ sig (Elt F)).result (W55 m ρ c) (Proc.devRef .tc main_call0_v1) := by
  have h := ssa_main_call0_v1 (F := F) (W5 m ρ c)
  rw [unary_result] at h ⊢
  rw [lift6 m ρ c main_call0_v1 (by decide), lift6 m ρ c main_call0_v0 (by decide)]
  exact h

theorem ssa_main_call0_cst_0 (V : Valuation τ sig (Elt F)) :
    after hostOps2_1 V (Proc.devRef .tc main_call0_cst_0) = (StableHlo.TRef.nullary (.of main_call0_cst_0 : StableHlo.TRef sig ⟨S_, .f32⟩) (constant S_ .f32 0x47C35000#32) : HloOp τ sig (Elt F)).result (after hostOps2_1 V) (Proc.devRef .tc main_call0_cst_0) := by
  after_results_simp
theorem fin_main_call0_cst_0 (c : Dev nD) :
    W55 m ρ c (Proc.devRef .tc main_call0_cst_0) = (StableHlo.TRef.nullary (.of main_call0_cst_0 : StableHlo.TRef sig ⟨S_, .f32⟩) (constant S_ .f32 0x47C35000#32) : HloOp τ sig (Elt F)).result (W55 m ρ c) (Proc.devRef .tc main_call0_cst_0) := by
  have h := ssa_main_call0_cst_0 (F := F) (W5 m ρ c)
  rw [nullary_result] at h ⊢
  rw [lift6 m ρ c main_call0_cst_0 (by decide)]
  exact h

theorem ssa_main_call0_v2 (V : Valuation τ sig (Elt F)) :
    after hostOps2_1 V (Proc.devRef .tc main_call0_v2) = (StableHlo.TRef.unary (.of main_call0_cst_0 : StableHlo.TRef sig ⟨S_, .f32⟩) (.of main_call0_v2 : StableHlo.TRef sig ⟨S1x64, .f32⟩) (broadcastInDim S1x64 ![] bcast_S_S1x64) : HloOp τ sig (Elt F)).result (after hostOps2_1 V) (Proc.devRef .tc main_call0_v2) := by
  after_results_simp
theorem fin_main_call0_v2 (c : Dev nD) :
    W55 m ρ c (Proc.devRef .tc main_call0_v2) = (StableHlo.TRef.unary (.of main_call0_cst_0 : StableHlo.TRef sig ⟨S_, .f32⟩) (.of main_call0_v2 : StableHlo.TRef sig ⟨S1x64, .f32⟩) (broadcastInDim S1x64 ![] bcast_S_S1x64) : HloOp τ sig (Elt F)).result (W55 m ρ c) (Proc.devRef .tc main_call0_v2) := by
  have h := ssa_main_call0_v2 (F := F) (W5 m ρ c)
  rw [unary_result] at h ⊢
  rw [lift6 m ρ c main_call0_v2 (by decide), lift6 m ρ c main_call0_cst_0 (by decide)]
  exact h

theorem ssa_main_call0_v3 (V : Valuation τ sig (Elt F)) :
    after hostOps2_1 V (Proc.devRef .tc main_call0_v3) = (StableHlo.TRef.binary (.of main_call0_v1 : StableHlo.TRef sig ⟨S1x64, .f32⟩) (.of main_call0_v2 : StableHlo.TRef sig ⟨S1x64, .f32⟩) (.of main_call0_v3 : StableHlo.TRef sig ⟨S1x64, .f32⟩) Host.divf : HloOp τ sig (Elt F)).result (after hostOps2_1 V) (Proc.devRef .tc main_call0_v3) := by
  after_results_simp
theorem fin_main_call0_v3 (c : Dev nD) :
    W55 m ρ c (Proc.devRef .tc main_call0_v3) = (StableHlo.TRef.binary (.of main_call0_v1 : StableHlo.TRef sig ⟨S1x64, .f32⟩) (.of main_call0_v2 : StableHlo.TRef sig ⟨S1x64, .f32⟩) (.of main_call0_v3 : StableHlo.TRef sig ⟨S1x64, .f32⟩) Host.divf : HloOp τ sig (Elt F)).result (W55 m ρ c) (Proc.devRef .tc main_call0_v3) := by
  have h := ssa_main_call0_v3 (F := F) (W5 m ρ c)
  rw [binary_result] at h ⊢
  rw [lift6 m ρ c main_call0_v3 (by decide), lift6 m ρ c main_call0_v1 (by decide), lift6 m ρ c main_call0_v2 (by decide)]
  exact h

theorem ssa_main_call0_v4 (V : Valuation τ sig (Elt F)) :
    after hostOps2_1 V (Proc.devRef .tc main_call0_v4) = (StableHlo.TRef.unary (.of main_call0_v3 : StableHlo.TRef sig ⟨S1x64, .f32⟩) (.of main_call0_v4 : StableHlo.TRef sig ⟨S100000x64, .f32⟩) (broadcastInDim S100000x64 ![0, 1] bcast_S1x64_S100000x64_0_1) : HloOp τ sig (Elt F)).result (after hostOps2_1 V) (Proc.devRef .tc main_call0_v4) := by
  after_results_simp
theorem fin_main_call0_v4 (c : Dev nD) :
    W55 m ρ c (Proc.devRef .tc main_call0_v4) = (StableHlo.TRef.unary (.of main_call0_v3 : StableHlo.TRef sig ⟨S1x64, .f32⟩) (.of main_call0_v4 : StableHlo.TRef sig ⟨S100000x64, .f32⟩) (broadcastInDim S100000x64 ![0, 1] bcast_S1x64_S100000x64_0_1) : HloOp τ sig (Elt F)).result (W55 m ρ c) (Proc.devRef .tc main_call0_v4) := by
  have h := ssa_main_call0_v4 (F := F) (W5 m ρ c)
  rw [unary_result] at h ⊢
  rw [lift6 m ρ c main_call0_v4 (by decide), lift6 m ρ c main_call0_v3 (by decide)]
  exact h

theorem ssa_main_call0_v5 (V : Valuation τ sig (Elt F)) :
    after hostOps2_1 V (Proc.devRef .tc main_call0_v5) = (StableHlo.TRef.binary (.of main_v31 : StableHlo.TRef sig ⟨S100000x64, .f32⟩) (.of main_call0_v4 : StableHlo.TRef sig ⟨S100000x64, .f32⟩) (.of main_call0_v5 : StableHlo.TRef sig ⟨S100000x64, .f32⟩) subf : HloOp τ sig (Elt F)).result (after hostOps2_1 V) (Proc.devRef .tc main_call0_v5) := by
  after_results_simp
theorem fin_main_call0_v5 (c : Dev nD) :
    W55 m ρ c (Proc.devRef .tc main_call0_v5) = (StableHlo.TRef.binary (.of main_v31 : StableHlo.TRef sig ⟨S100000x64, .f32⟩) (.of main_call0_v4 : StableHlo.TRef sig ⟨S100000x64, .f32⟩) (.of main_call0_v5 : StableHlo.TRef sig ⟨S100000x64, .f32⟩) subf : HloOp τ sig (Elt F)).result (W55 m ρ c) (Proc.devRef .tc main_call0_v5) := by
  have h := ssa_main_call0_v5 (F := F) (W5 m ρ c)
  rw [binary_result] at h ⊢
  rw [lift6 m ρ c main_call0_v5 (by decide), lift6 m ρ c main_v31 (by decide), lift6 m ρ c main_call0_v4 (by decide)]
  exact h

theorem ssa_main_call0_v6 (V : Valuation τ sig (Elt F)) :
    after hostOps2_1 V (Proc.devRef .tc main_call0_v6) = (StableHlo.TRef.binary (.of main_call0_v5 : StableHlo.TRef sig ⟨S100000x64, .f32⟩) (.of main_call0_v5 : StableHlo.TRef sig ⟨S100000x64, .f32⟩) (.of main_call0_v6 : StableHlo.TRef sig ⟨S100000x64, .f32⟩) mulf : HloOp τ sig (Elt F)).result (after hostOps2_1 V) (Proc.devRef .tc main_call0_v6) := by
  after_results_simp
theorem fin_main_call0_v6 (c : Dev nD) :
    W55 m ρ c (Proc.devRef .tc main_call0_v6) = (StableHlo.TRef.binary (.of main_call0_v5 : StableHlo.TRef sig ⟨S100000x64, .f32⟩) (.of main_call0_v5 : StableHlo.TRef sig ⟨S100000x64, .f32⟩) (.of main_call0_v6 : StableHlo.TRef sig ⟨S100000x64, .f32⟩) mulf : HloOp τ sig (Elt F)).result (W55 m ρ c) (Proc.devRef .tc main_call0_v6) := by
  have h := ssa_main_call0_v6 (F := F) (W5 m ρ c)
  rw [binary_result] at h ⊢
  rw [lift6 m ρ c main_call0_v6 (by decide), lift6 m ρ c main_call0_v5 (by decide)]
  exact h

theorem ssa_main_call0_v7 (V : Valuation τ sig (Elt F)) :
    after hostOps2_1 V (Proc.devRef .tc main_call0_v7) = (StableHlo.TRef.unary (.of main_c_4 : StableHlo.TRef sig ⟨S_, .i32⟩) (.of main_call0_v7 : StableHlo.TRef sig ⟨S_, .f32⟩) (sitofp .f32) : HloOp τ sig (Elt F)).result (after hostOps2_1 V) (Proc.devRef .tc main_call0_v7) := by
  after_results_simp
theorem fin_main_call0_v7 (c : Dev nD) :
    W55 m ρ c (Proc.devRef .tc main_call0_v7) = (StableHlo.TRef.unary (.of main_c_4 : StableHlo.TRef sig ⟨S_, .i32⟩) (.of main_call0_v7 : StableHlo.TRef sig ⟨S_, .f32⟩) (sitofp .f32) : HloOp τ sig (Elt F)).result (W55 m ρ c) (Proc.devRef .tc main_call0_v7) := by
  have h := ssa_main_call0_v7 (F := F) (W5 m ρ c)
  rw [unary_result] at h ⊢
  rw [lift6 m ρ c main_call0_v7 (by decide), lift6 m ρ c main_c_4 (by decide)]
  exact h

theorem ssa_main_call0_cst_1 (V : Valuation τ sig (Elt F)) :
    after hostOps2_1 V (Proc.devRef .tc main_call0_cst_1) = (StableHlo.TRef.nullary (.of main_call0_cst_1 : StableHlo.TRef sig ⟨S_, .f32⟩) (constant S_ .f32 0x47C35000#32) : HloOp τ sig (Elt F)).result (after hostOps2_1 V) (Proc.devRef .tc main_call0_cst_1) := by
  after_results_simp
theorem fin_main_call0_cst_1 (c : Dev nD) :
    W55 m ρ c (Proc.devRef .tc main_call0_cst_1) = (StableHlo.TRef.nullary (.of main_call0_cst_1 : StableHlo.TRef sig ⟨S_, .f32⟩) (constant S_ .f32 0x47C35000#32) : HloOp τ sig (Elt F)).result (W55 m ρ c) (Proc.devRef .tc main_call0_cst_1) := by
  have h := ssa_main_call0_cst_1 (F := F) (W5 m ρ c)
  rw [nullary_result] at h ⊢
  rw [lift6 m ρ c main_call0_cst_1 (by decide)]
  exact h

theorem ssa_main_call0_v8 (V : Valuation τ sig (Elt F)) :
    after hostOps2_1 V (Proc.devRef .tc main_call0_v8) = (StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf : HloOp τ sig (Elt F)).result (after hostOps2_1 V) (Proc.devRef .tc main_call0_v8) := by
  after_results_simp
theorem fin_main_call0_v8 (c : Dev nD) :
    W55 m ρ c (Proc.devRef .tc main_call0_v8) = (StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf : HloOp τ sig (Elt F)).result (W55 m ρ c) (Proc.devRef .tc main_call0_v8) := by
  have h := ssa_main_call0_v8 (F := F) (W5 m ρ c)
  rw [binary_result] at h ⊢
  rw [lift6 m ρ c main_call0_v8 (by decide), lift6 m ρ c main_call0_cst_1 (by decide), lift6 m ρ c main_call0_v7 (by decide)]
  exact h

theorem ssa_main_call0_cst_2 (V : Valuation τ sig (Elt F)) :
    after hostOps2_1 V (Proc.devRef .tc main_call0_cst_2) = (StableHlo.TRef.nullary (.of main_call0_cst_2 : StableHlo.TRef sig ⟨S_, .f32⟩) (constant S_ .f32 0x00000000#32) : HloOp τ sig (Elt F)).result (after hostOps2_1 V) (Proc.devRef .tc main_call0_cst_2) := by
  after_results_simp
theorem fin_main_call0_cst_2 (c : Dev nD) :
    W55 m ρ c (Proc.devRef .tc main_call0_cst_2) = (StableHlo.TRef.nullary (.of main_call0_cst_2 : StableHlo.TRef sig ⟨S_, .f32⟩) (constant S_ .f32 0x00000000#32) : HloOp τ sig (Elt F)).result (W55 m ρ c) (Proc.devRef .tc main_call0_cst_2) := by
  have h := ssa_main_call0_cst_2 (F := F) (W5 m ρ c)
  rw [nullary_result] at h ⊢
  rw [lift6 m ρ c main_call0_cst_2 (by decide)]
  exact h

theorem ssa_main_call0_v9 (V : Valuation τ sig (Elt F)) :
    after hostOps2_1 V (Proc.devRef .tc main_call0_v9) = (StableHlo.TRef.binary (.of main_call0_v6 : StableHlo.TRef sig ⟨S100000x64, .f32⟩) (.of main_call0_cst_2 : StableHlo.TRef sig ⟨S_, .f32⟩) (.of main_call0_v9 : StableHlo.TRef sig ⟨S64, .f32⟩) (fun x v => Host.reduceAdd x v reducesTo_S100000x64_S64_d0 h_S_) : HloOp τ sig (Elt F)).result (after hostOps2_1 V) (Proc.devRef .tc main_call0_v9) := by
  after_results_simp
theorem fin_main_call0_v9 (c : Dev nD) :
    W55 m ρ c (Proc.devRef .tc main_call0_v9) = (StableHlo.TRef.binary (.of main_call0_v6 : StableHlo.TRef sig ⟨S100000x64, .f32⟩) (.of main_call0_cst_2 : StableHlo.TRef sig ⟨S_, .f32⟩) (.of main_call0_v9 : StableHlo.TRef sig ⟨S64, .f32⟩) (fun x v => Host.reduceAdd x v reducesTo_S100000x64_S64_d0 h_S_) : HloOp τ sig (Elt F)).result (W55 m ρ c) (Proc.devRef .tc main_call0_v9) := by
  have h := ssa_main_call0_v9 (F := F) (W5 m ρ c)
  rw [binary_result] at h ⊢
  rw [lift6 m ρ c main_call0_v9 (by decide), lift6 m ρ c main_call0_v6 (by decide), lift6 m ρ c main_call0_cst_2 (by decide)]
  exact h

theorem ssa_main_call0_v10 (V : Valuation τ sig (Elt F)) :
    after hostOps2_1 V (Proc.devRef .tc main_call0_v10) = (StableHlo.TRef.unary (.of main_call0_v8 : StableHlo.TRef sig ⟨S_, .f32⟩) (.of main_call0_v10 : StableHlo.TRef sig ⟨S64, .f32⟩) (broadcastInDim S64 ![] bcast_S_S64) : HloOp τ sig (Elt F)).result (after hostOps2_1 V) (Proc.devRef .tc main_call0_v10) := by
  after_results_simp
theorem fin_main_call0_v10 (c : Dev nD) :
    W55 m ρ c (Proc.devRef .tc main_call0_v10) = (StableHlo.TRef.unary (.of main_call0_v8 : StableHlo.TRef sig ⟨S_, .f32⟩) (.of main_call0_v10 : StableHlo.TRef sig ⟨S64, .f32⟩) (broadcastInDim S64 ![] bcast_S_S64) : HloOp τ sig (Elt F)).result (W55 m ρ c) (Proc.devRef .tc main_call0_v10) := by
  have h := ssa_main_call0_v10 (F := F) (W5 m ρ c)
  rw [unary_result] at h ⊢
  rw [lift6 m ρ c main_call0_v10 (by decide), lift6 m ρ c main_call0_v8 (by decide)]
  exact h

theorem ssa_main_call0_v11 (V : Valuation τ sig (Elt F)) :
    after hostOps2_1 V (Proc.devRef .tc main_call0_v11) = (StableHlo.TRef.binary (.of main_call0_v9 : StableHlo.TRef sig ⟨S64, .f32⟩) (.of main_call0_v10 : StableHlo.TRef sig ⟨S64, .f32⟩) (.of main_call0_v11 : StableHlo.TRef sig ⟨S64, .f32⟩) Host.divf : HloOp τ sig (Elt F)).result (after hostOps2_1 V) (Proc.devRef .tc main_call0_v11) := by
  after_results_simp
theorem fin_main_call0_v11 (c : Dev nD) :
    W55 m ρ c (Proc.devRef .tc main_call0_v11) = (StableHlo.TRef.binary (.of main_call0_v9 : StableHlo.TRef sig ⟨S64, .f32⟩) (.of main_call0_v10 : StableHlo.TRef sig ⟨S64, .f32⟩) (.of main_call0_v11 : StableHlo.TRef sig ⟨S64, .f32⟩) Host.divf : HloOp τ sig (Elt F)).result (W55 m ρ c) (Proc.devRef .tc main_call0_v11) := by
  have h := ssa_main_call0_v11 (F := F) (W5 m ρ c)
  rw [binary_result] at h ⊢
  rw [lift6 m ρ c main_call0_v11 (by decide), lift6 m ρ c main_call0_v9 (by decide), lift6 m ρ c main_call0_v10 (by decide)]
  exact h

theorem ssa_main_call0_cst_3 (V : Valuation τ sig (Elt F)) :
    after hostOps2_1 V (Proc.devRef .tc main_call0_cst_3) = (StableHlo.TRef.nullary (.of main_call0_cst_3 : StableHlo.TRef sig ⟨S_, .f32⟩) (constant S_ .f32 0x00000000#32) : HloOp τ sig (Elt F)).result (after hostOps2_1 V) (Proc.devRef .tc main_call0_cst_3) := by
  after_results_simp
theorem fin_main_call0_cst_3 (c : Dev nD) :
    W55 m ρ c (Proc.devRef .tc main_call0_cst_3) = (StableHlo.TRef.nullary (.of main_call0_cst_3 : StableHlo.TRef sig ⟨S_, .f32⟩) (constant S_ .f32 0x00000000#32) : HloOp τ sig (Elt F)).result (W55 m ρ c) (Proc.devRef .tc main_call0_cst_3) := by
  have h := ssa_main_call0_cst_3 (F := F) (W5 m ρ c)
  rw [nullary_result] at h ⊢
  rw [lift6 m ρ c main_call0_cst_3 (by decide)]
  exact h

theorem ssa_main_call0_v12 (V : Valuation τ sig (Elt F)) :
    after hostOps2_1 V (Proc.devRef .tc main_call0_v12) = (StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt) : HloOp τ sig (Elt F)).result (after hostOps2_1 V) (Proc.devRef .tc main_call0_v12) := by
  after_results_simp
theorem fin_main_call0_v12 (c : Dev nD) :
    W55 m ρ c (Proc.devRef .tc main_call0_v12) = (StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt) : HloOp τ sig (Elt F)).result (W55 m ρ c) (Proc.devRef .tc main_call0_v12) := by
  have h := ssa_main_call0_v12 (F := F) (W5 m ρ c)
  rw [binary_result] at h ⊢
  rw [lift6 m ρ c main_call0_v12 (by decide), lift6 m ρ c main_call0_v8 (by decide), lift6 m ρ c main_call0_cst_3 (by decide)]
  exact h

theorem ssa_main_call0_cst_4 (V : Valuation τ sig (Elt F)) :
    after hostOps2_1 V (Proc.devRef .tc main_call0_cst_4) = (StableHlo.TRef.nullary (.of main_call0_cst_4 : StableHlo.TRef sig ⟨S_, .f32⟩) (constant S_ .f32 0x7FC00000#32) : HloOp τ sig (Elt F)).result (after hostOps2_1 V) (Proc.devRef .tc main_call0_cst_4) := by
  after_results_simp
theorem fin_main_call0_cst_4 (c : Dev nD) :
    W55 m ρ c (Proc.devRef .tc main_call0_cst_4) = (StableHlo.TRef.nullary (.of main_call0_cst_4 : StableHlo.TRef sig ⟨S_, .f32⟩) (constant S_ .f32 0x7FC00000#32) : HloOp τ sig (Elt F)).result (W55 m ρ c) (Proc.devRef .tc main_call0_cst_4) := by
  have h := ssa_main_call0_cst_4 (F := F) (W5 m ρ c)
  rw [nullary_result] at h ⊢
  rw [lift6 m ρ c main_call0_cst_4 (by decide)]
  exact h

theorem ssa_main_call0_call0_v0 (V : Valuation τ sig (Elt F)) :
    after hostOps2_1 V (Proc.devRef .tc main_call0_call0_v0) = (StableHlo.TRef.unary (.of main_call0_cst_4 : StableHlo.TRef sig ⟨S_, .f32⟩) (.of main_call0_call0_v0 : StableHlo.TRef sig ⟨S_, .f32⟩) id : HloOp τ sig (Elt F)).result (after hostOps2_1 V) (Proc.devRef .tc main_call0_call0_v0) := by
  after_results_simp
theorem fin_main_call0_call0_v0 (c : Dev nD) :
    W55 m ρ c (Proc.devRef .tc main_call0_call0_v0) = (StableHlo.TRef.unary (.of main_call0_cst_4 : StableHlo.TRef sig ⟨S_, .f32⟩) (.of main_call0_call0_v0 : StableHlo.TRef sig ⟨S_, .f32⟩) id : HloOp τ sig (Elt F)).result (W55 m ρ c) (Proc.devRef .tc main_call0_call0_v0) := by
  have h := ssa_main_call0_call0_v0 (F := F) (W5 m ρ c)
  rw [unary_result] at h ⊢
  rw [lift6 m ρ c main_call0_call0_v0 (by decide), lift6 m ρ c main_call0_cst_4 (by decide)]
  exact h

theorem ssa_main_call0_call0_v1 (V : Valuation τ sig (Elt F)) :
    after hostOps2_1 V (Proc.devRef .tc main_call0_call0_v1) = (StableHlo.TRef.unary (.of main_call0_call0_v0 : StableHlo.TRef sig ⟨S_, .f32⟩) (.of main_call0_call0_v1 : StableHlo.TRef sig ⟨S64, .f32⟩) (broadcastInDim S64 ![] bcast_S_S64) : HloOp τ sig (Elt F)).result (after hostOps2_1 V) (Proc.devRef .tc main_call0_call0_v1) := by
  after_results_simp
theorem fin_main_call0_call0_v1 (c : Dev nD) :
    W55 m ρ c (Proc.devRef .tc main_call0_call0_v1) = (StableHlo.TRef.unary (.of main_call0_call0_v0 : StableHlo.TRef sig ⟨S_, .f32⟩) (.of main_call0_call0_v1 : StableHlo.TRef sig ⟨S64, .f32⟩) (broadcastInDim S64 ![] bcast_S_S64) : HloOp τ sig (Elt F)).result (W55 m ρ c) (Proc.devRef .tc main_call0_call0_v1) := by
  have h := ssa_main_call0_call0_v1 (F := F) (W5 m ρ c)
  rw [unary_result] at h ⊢
  rw [lift6 m ρ c main_call0_call0_v1 (by decide), lift6 m ρ c main_call0_call0_v0 (by decide)]
  exact h

theorem ssa_main_v39 (V : Valuation τ sig (Elt F)) :
    after hostOps2_1 V (Proc.devRef .tc main_v39) = (StableHlo.TRef.ternary (.of main_call0_v12 : StableHlo.TRef sig ⟨S_, .i1⟩) (.of main_call0_v11 : StableHlo.TRef sig ⟨S64, .f32⟩) (.of main_call0_call0_v1 : StableHlo.TRef sig ⟨S64, .f32⟩) (.of main_v39 : StableHlo.TRef sig ⟨S64, .f32⟩) (fun p a b => select (broadcastInDim S64 ![] bcast_S_S64 p) a b) : HloOp τ sig (Elt F)).result (after hostOps2_1 V) (Proc.devRef .tc main_v39) := by
  after_results_simp
theorem fin_main_v39 (c : Dev nD) :
    W55 m ρ c (Proc.devRef .tc main_v39) = (StableHlo.TRef.ternary (.of main_call0_v12 : StableHlo.TRef sig ⟨S_, .i1⟩) (.of main_call0_v11 : StableHlo.TRef sig ⟨S64, .f32⟩) (.of main_call0_call0_v1 : StableHlo.TRef sig ⟨S64, .f32⟩) (.of main_v39 : StableHlo.TRef sig ⟨S64, .f32⟩) (fun p a b => select (broadcastInDim S64 ![] bcast_S_S64 p) a b) : HloOp τ sig (Elt F)).result (W55 m ρ c) (Proc.devRef .tc main_v39) := by
  have h := ssa_main_v39 (F := F) (W5 m ρ c)
  rw [ternary_result] at h ⊢
  rw [lift6 m ρ c main_v39 (by decide), lift6 m ρ c main_call0_v12 (by decide), lift6 m ρ c main_call0_v11 (by decide), lift6 m ρ c main_call0_call0_v1 (by decide)]
  exact h

theorem ssa_main_cst_5 (V : Valuation τ sig (Elt F)) :
    after hostOps2_2 V (Proc.devRef .tc main_cst_5) = (StableHlo.nullary main_cst_5 (constant S_ .f32 0x3727C5AC#32) : HloOp τ sig (Elt F)).result (after hostOps2_2 V) (Proc.devRef .tc main_cst_5) := by
  after_results_simp
theorem fin_main_cst_5 (c : Dev nD) :
    W55 m ρ c (Proc.devRef .tc main_cst_5) = (StableHlo.nullary main_cst_5 (constant S_ .f32 0x3727C5AC#32) : HloOp τ sig (Elt F)).result (W55 m ρ c) (Proc.devRef .tc main_cst_5) := by
  have h := ssa_main_cst_5 (F := F) (W6 m ρ c)
  rw [nullary_result] at h ⊢
  rw [lift7 m ρ c main_cst_5 (by decide)]
  exact h

theorem ssa_main_v40 (V : Valuation τ sig (Elt F)) :
    after hostOps2_2 V (Proc.devRef .tc main_v40) = (StableHlo.unary main_cst_5 main_v40 (broadcastInDim S64 ![] bcast_S_S64 : (⟨S_, .f32⟩ : BufTy).Contents (Elt F) → (⟨S64, .f32⟩ : BufTy).Contents (Elt F)) : HloOp τ sig (Elt F)).result (after hostOps2_2 V) (Proc.devRef .tc main_v40) := by
  after_results_simp
theorem fin_main_v40 (c : Dev nD) :
    W55 m ρ c (Proc.devRef .tc main_v40) = (StableHlo.unary main_cst_5 main_v40 (broadcastInDim S64 ![] bcast_S_S64 : (⟨S_, .f32⟩ : BufTy).Contents (Elt F) → (⟨S64, .f32⟩ : BufTy).Contents (Elt F)) : HloOp τ sig (Elt F)).result (W55 m ρ c) (Proc.devRef .tc main_v40) := by
  have h := ssa_main_v40 (F := F) (W6 m ρ c)
  rw [unary_result] at h ⊢
  rw [lift7 m ρ c main_v40 (by decide), lift7 m ρ c main_cst_5 (by decide)]
  exact h

theorem ssa_main_v41 (V : Valuation τ sig (Elt F)) :
    after hostOps2_2 V (Proc.devRef .tc main_v41) = (StableHlo.binary main_v39 main_v40 main_v41 (addf : (⟨S64, .f32⟩ : BufTy).Contents (Elt F) → (⟨S64, .f32⟩ : BufTy).Contents (Elt F) → (⟨S64, .f32⟩ : BufTy).Contents (Elt F)) : HloOp τ sig (Elt F)).result (after hostOps2_2 V) (Proc.devRef .tc main_v41) := by
  after_results_simp
theorem fin_main_v41 (c : Dev nD) :
    W55 m ρ c (Proc.devRef .tc main_v41) = (StableHlo.binary main_v39 main_v40 main_v41 (addf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v41) := by
  have h := ssa_main_v41 (F := F) (W6 m ρ c)
  rw [binary_result] at h ⊢
  rw [lift7 m ρ c main_v41 (by decide), lift7 m ρ c main_v39 (by decide), lift7 m ρ c main_v40 (by decide)]
  exact h

theorem ssa_main_v42 (V : Valuation τ sig (Elt F)) :
    after hostOps2_2 V (Proc.devRef .tc main_v42) = (StableHlo.unary main_v41 main_v42 (Host.rsqrt : (⟨S64, .f32⟩ : BufTy).Contents (Elt F) → (⟨S64, .f32⟩ : BufTy).Contents (Elt F)) : HloOp τ sig (Elt F)).result (after hostOps2_2 V) (Proc.devRef .tc main_v42) := by
  after_results_simp
theorem fin_main_v42 (c : Dev nD) :
    W55 m ρ c (Proc.devRef .tc main_v42) = (StableHlo.unary main_v41 main_v42 (Host.rsqrt : (⟨S64, .f32⟩ : BufTy).Contents (Elt F) → (⟨S64, .f32⟩ : BufTy).Contents (Elt F)) : HloOp τ sig (Elt F)).result (W55 m ρ c) (Proc.devRef .tc main_v42) := by
  have h := ssa_main_v42 (F := F) (W6 m ρ c)
  rw [unary_result] at h ⊢
  rw [lift7 m ρ c main_v42 (by decide), lift7 m ρ c main_v41 (by decide)]
  exact h

theorem ssa_main_v43 (V : Valuation τ sig (Elt F)) :
    after hostOps2_2 V (Proc.devRef .tc main_v43) = (StableHlo.binary main_v33 main_v42 main_v43 (mulf : (⟨S64, .f32⟩ : BufTy).Contents (Elt F) → (⟨S64, .f32⟩ : BufTy).Contents (Elt F) → (⟨S64, .f32⟩ : BufTy).Contents (Elt F)) : HloOp τ sig (Elt F)).result (after hostOps2_2 V) (Proc.devRef .tc main_v43) := by
  after_results_simp
theorem fin_main_v43 (c : Dev nD) :
    W55 m ρ c (Proc.devRef .tc main_v43) = (StableHlo.binary main_v33 main_v42 main_v43 (mulf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v43) := by
  have h := ssa_main_v43 (F := F) (W6 m ρ c)
  rw [binary_result] at h ⊢
  rw [lift7 m ρ c main_v43 (by decide), lift7 m ρ c main_v33 (by decide), lift7 m ρ c main_v42 (by decide)]
  exact h

theorem ssa_main_v44 (V : Valuation τ sig (Elt F)) :
    after hostOps2_2 V (Proc.devRef .tc main_v44) = (StableHlo.binary main_v38 main_v43 main_v44 (mulf : (⟨S64, .f32⟩ : BufTy).Contents (Elt F) → (⟨S64, .f32⟩ : BufTy).Contents (Elt F) → (⟨S64, .f32⟩ : BufTy).Contents (Elt F)) : HloOp τ sig (Elt F)).result (after hostOps2_2 V) (Proc.devRef .tc main_v44) := by
  after_results_simp
theorem fin_main_v44 (c : Dev nD) :
    W55 m ρ c (Proc.devRef .tc main_v44) = (StableHlo.binary main_v38 main_v43 main_v44 (mulf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v44) := by
  have h := ssa_main_v44 (F := F) (W6 m ρ c)
  rw [binary_result] at h ⊢
  rw [lift7 m ρ c main_v44 (by decide), lift7 m ρ c main_v38 (by decide), lift7 m ρ c main_v43 (by decide)]
  exact h

theorem ssa_main_v45 (V : Valuation τ sig (Elt F)) :
    after hostOps2_2 V (Proc.devRef .tc main_v45) = (StableHlo.binary main_v35 main_v44 main_v45 (subf : (⟨S64, .f32⟩ : BufTy).Contents (Elt F) → (⟨S64, .f32⟩ : BufTy).Contents (Elt F) → (⟨S64, .f32⟩ : BufTy).Contents (Elt F)) : HloOp τ sig (Elt F)).result (after hostOps2_2 V) (Proc.devRef .tc main_v45) := by
  after_results_simp
theorem fin_main_v45 (c : Dev nD) :
    W55 m ρ c (Proc.devRef .tc main_v45) = (StableHlo.binary main_v35 main_v44 main_v45 (subf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v45) := by
  have h := ssa_main_v45 (F := F) (W6 m ρ c)
  rw [binary_result] at h ⊢
  rw [lift7 m ρ c main_v45 (by decide), lift7 m ρ c main_v35 (by decide), lift7 m ρ c main_v44 (by decide)]
  exact h

theorem ssa_main_v46 (V : Valuation τ sig (Elt F)) :
    after hostOps2_2 V (Proc.devRef .tc main_v46) = (StableHlo.unary main_v43 main_v46 (broadcastInDim S1x64 ![1] bcast_S64_S1x64_1 : (⟨S64, .f32⟩ : BufTy).Contents (Elt F) → (⟨S1x64, .f32⟩ : BufTy).Contents (Elt F)) : HloOp τ sig (Elt F)).result (after hostOps2_2 V) (Proc.devRef .tc main_v46) := by
  after_results_simp
theorem fin_main_v46 (c : Dev nD) :
    W55 m ρ c (Proc.devRef .tc main_v46) = (StableHlo.unary main_v43 main_v46 (broadcastInDim S1x64 ![1] bcast_S64_S1x64_1 : (⟨S64, .f32⟩ : BufTy).Contents (Elt F) → (⟨S1x64, .f32⟩ : BufTy).Contents (Elt F)) : HloOp τ sig (Elt F)).result (W55 m ρ c) (Proc.devRef .tc main_v46) := by
  have h := ssa_main_v46 (F := F) (W6 m ρ c)
  rw [unary_result] at h ⊢
  rw [lift7 m ρ c main_v46 (by decide), lift7 m ρ c main_v43 (by decide)]
  exact h

theorem ssa_main_v47 (V : Valuation τ sig (Elt F)) :
    after hostOps2_2 V (Proc.devRef .tc main_v47) = (StableHlo.unary main_v46 main_v47 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after hostOps2_2 V) (Proc.devRef .tc main_v47) := by
  after_results_simp
theorem fin_main_v47 (c : Dev nD) :
    W55 m ρ c (Proc.devRef .tc main_v47) = (StableHlo.unary main_v46 main_v47 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (W55 m ρ c) (Proc.devRef .tc main_v47) := by
  have h := ssa_main_v47 (F := F) (W6 m ρ c)
  rw [unary_result] at h ⊢
  rw [lift7 m ρ c main_v47 (by decide), lift7 m ρ c main_v46 (by decide)]
  exact h

theorem ssa_main_v48 (V : Valuation τ sig (Elt F)) :
    after hostOps2_2 V (Proc.devRef .tc main_v48) = (StableHlo.binary main_v47 main_v31 main_v48 (mulf : (⟨S100000x64, .f32⟩ : BufTy).Contents (Elt F) → (⟨S100000x64, .f32⟩ : BufTy).Contents (Elt F) → (⟨S100000x64, .f32⟩ : BufTy).Contents (Elt F)) : HloOp τ sig (Elt F)).result (after hostOps2_2 V) (Proc.devRef .tc main_v48) := by
  after_results_simp
theorem fin_main_v48 (c : Dev nD) :
    W55 m ρ c (Proc.devRef .tc main_v48) = (StableHlo.binary main_v47 main_v31 main_v48 (mulf : (⟨S100000x64, .f32⟩ : BufTy).Contents (Elt F) → (⟨S100000x64, .f32⟩ : BufTy).Contents (Elt F) → (⟨S100000x64, .f32⟩ : BufTy).Contents (Elt F)) : HloOp τ sig (Elt F)).result (W55 m ρ c) (Proc.devRef .tc main_v48) := by
  have h := ssa_main_v48 (F := F) (W6 m ρ c)
  rw [binary_result] at h ⊢
  rw [lift7 m ρ c main_v48 (by decide), lift7 m ρ c main_v47 (by decide), lift7 m ρ c main_v31 (by decide)]
  exact h

theorem ssa_main_v49 (V : Valuation τ sig (Elt F)) :
    after hostOps2_2 V (Proc.devRef .tc main_v49) = (StableHlo.unary main_v45 main_v49 (broadcastInDim S1x64 ![1] bcast_S64_S1x64_1 : (⟨S64, .f32⟩ : BufTy).Contents (Elt F) → (⟨S1x64, .f32⟩ : BufTy).Contents (Elt F)) : HloOp τ sig (Elt F)).result (after hostOps2_2 V) (Proc.devRef .tc main_v49) := by
  after_results_simp
theorem fin_main_v49 (c : Dev nD) :
    W55 m ρ c (Proc.devRef .tc main_v49) = (StableHlo.unary main_v45 main_v49 (broadcastInDim S1x64 ![1] bcast_S64_S1x64_1 : (⟨S64, .f32⟩ : BufTy).Contents (Elt F) → (⟨S1x64, .f32⟩ : BufTy).Contents (Elt F)) : HloOp τ sig (Elt F)).result (W55 m ρ c) (Proc.devRef .tc main_v49) := by
  have h := ssa_main_v49 (F := F) (W6 m ρ c)
  rw [unary_result] at h ⊢
  rw [lift7 m ρ c main_v49 (by decide), lift7 m ρ c main_v45 (by decide)]
  exact h

theorem ssa_main_v50 (V : Valuation τ sig (Elt F)) :
    after hostOps2_2 V (Proc.devRef .tc main_v50) = (StableHlo.unary main_v49 main_v50 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after hostOps2_2 V) (Proc.devRef .tc main_v50) := by
  after_results_simp
theorem fin_main_v50 (c : Dev nD) :
    W55 m ρ c (Proc.devRef .tc main_v50) = (StableHlo.unary main_v49 main_v50 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (W55 m ρ c) (Proc.devRef .tc main_v50) := by
  have h := ssa_main_v50 (F := F) (W6 m ρ c)
  rw [unary_result] at h ⊢
  rw [lift7 m ρ c main_v50 (by decide), lift7 m ρ c main_v49 (by decide)]
  exact h

theorem ssa_main_v51 (V : Valuation τ sig (Elt F)) :
    after hostOps2_2 V (Proc.devRef .tc main_v51) = (StableHlo.binary main_v48 main_v50 main_v51 (addf : (⟨S100000x64, .f32⟩ : BufTy).Contents (Elt F) → (⟨S100000x64, .f32⟩ : BufTy).Contents (Elt F) → (⟨S100000x64, .f32⟩ : BufTy).Contents (Elt F)) : HloOp τ sig (Elt F)).result (after hostOps2_2 V) (Proc.devRef .tc main_v51) := by
  after_results_simp
theorem fin_main_v51 (c : Dev nD) :
    W55 m ρ c (Proc.devRef .tc main_v51) = (StableHlo.binary main_v48 main_v50 main_v51 (addf : (⟨S100000x64, .f32⟩ : BufTy).Contents (Elt F) → (⟨S100000x64, .f32⟩ : BufTy).Contents (Elt F) → (⟨S100000x64, .f32⟩ : BufTy).Contents (Elt F)) : HloOp τ sig (Elt F)).result (W55 m ρ c) (Proc.devRef .tc main_v51) := by
  have h := ssa_main_v51 (F := F) (W6 m ρ c)
  rw [binary_result] at h ⊢
  rw [lift7 m ρ c main_v51 (by decide), lift7 m ρ c main_v48 (by decide), lift7 m ρ c main_v50 (by decide)]
  exact h

theorem ssa_main_cst_6 (V : Valuation τ sig (Elt F)) :
    after hostOps2_2 V (Proc.devRef .tc main_cst_6) = (StableHlo.nullary main_cst_6 (constant S_ .f32 0x00000000#32) : HloOp τ sig (Elt F)).result (after hostOps2_2 V) (Proc.devRef .tc main_cst_6) := by
  after_results_simp
theorem fin_main_cst_6 (c : Dev nD) :
    W55 m ρ c (Proc.devRef .tc main_cst_6) = (StableHlo.nullary main_cst_6 (constant S_ .f32 0x00000000#32) : HloOp τ sig (Elt F)).result (W55 m ρ c) (Proc.devRef .tc main_cst_6) := by
  have h := ssa_main_cst_6 (F := F) (W6 m ρ c)
  rw [nullary_result] at h ⊢
  rw [lift7 m ρ c main_cst_6 (by decide)]
  exact h

theorem ssa_main_v52 (V : Valuation τ sig (Elt F)) :
    after hostOps2_2 V (Proc.devRef .tc main_v52) = (StableHlo.unary main_cst_6 main_v52 (broadcastInDim S100000x64 ![] bcast_S_S100000x64 : (⟨S_, .f32⟩ : BufTy).Contents (Elt F) → (⟨S100000x64, .f32⟩ : BufTy).Contents (Elt F)) : HloOp τ sig (Elt F)).result (after hostOps2_2 V) (Proc.devRef .tc main_v52) := by
  after_results_simp
theorem fin_main_v52 (c : Dev nD) :
    W55 m ρ c (Proc.devRef .tc main_v52) = (StableHlo.unary main_cst_6 main_v52 (broadcastInDim S100000x64 ![] bcast_S_S100000x64 : (⟨S_, .f32⟩ : BufTy).Contents (Elt F) → (⟨S100000x64, .f32⟩ : BufTy).Contents (Elt F)) : HloOp τ sig (Elt F)).result (W55 m ρ c) (Proc.devRef .tc main_v52) := by
  have h := ssa_main_v52 (F := F) (W6 m ρ c)
  rw [unary_result] at h ⊢
  rw [lift7 m ρ c main_v52 (by decide), lift7 m ρ c main_cst_6 (by decide)]
  exact h

theorem ssa_main_v53 (V : Valuation τ sig (Elt F)) :
    after hostOps2_2 V (Proc.devRef .tc main_v53) = (StableHlo.binary main_v51 main_v52 main_v53 (cmpf .oge : (⟨S100000x64, .f32⟩ : BufTy).Contents (Elt F) → (⟨S100000x64, .f32⟩ : BufTy).Contents (Elt F) → (⟨S100000x64, .i1⟩ : BufTy).Contents (Elt F)) : HloOp τ sig (Elt F)).result (after hostOps2_2 V) (Proc.devRef .tc main_v53) := by
  after_results_simp
theorem fin_main_v53 (c : Dev nD) :
    W55 m ρ c (Proc.devRef .tc main_v53) = (StableHlo.binary main_v51 main_v52 main_v53 (cmpf .oge : (⟨S100000x64, .f32⟩ : BufTy).Contents (Elt F) → (⟨S100000x64, .f32⟩ : BufTy).Contents (Elt F) → (⟨S100000x64, .i1⟩ : BufTy).Contents (Elt F)) : HloOp τ sig (Elt F)).result (W55 m ρ c) (Proc.devRef .tc main_v53) := by
  have h := ssa_main_v53 (F := F) (W6 m ρ c)
  rw [binary_result] at h ⊢
  rw [lift7 m ρ c main_v53 (by decide), lift7 m ρ c main_v51 (by decide), lift7 m ρ c main_v52 (by decide)]
  exact h

theorem ssa_main_cst_7 (V : Valuation τ sig (Elt F)) :
    after hostOps2_2 V (Proc.devRef .tc main_cst_7) = (StableHlo.nullary main_cst_7 (constant S_ .f32 0x3C23D70A#32) : HloOp τ sig (Elt F)).result (after hostOps2_2 V) (Proc.devRef .tc main_cst_7) := by
  after_results_simp
theorem fin_main_cst_7 (c : Dev nD) :
    W55 m ρ c (Proc.devRef .tc main_cst_7) = (StableHlo.nullary main_cst_7 (constant S_ .f32 0x3C23D70A#32) : HloOp τ sig (Elt F)).result (W55 m ρ c) (Proc.devRef .tc main_cst_7) := by
  have h := ssa_main_cst_7 (F := F) (W6 m ρ c)
  rw [nullary_result] at h ⊢
  rw [lift7 m ρ c main_cst_7 (by decide)]
  exact h

theorem ssa_main_v54 (V : Valuation τ sig (Elt F)) :
    after hostOps2_2 V (Proc.devRef .tc main_v54) = (StableHlo.unary main_cst_7 main_v54 (broadcastInDim S100000x64 ![] bcast_S_S100000x64 : (⟨S_, .f32⟩ : BufTy).Contents (Elt F) → (⟨S100000x64, .f32⟩ : BufTy).Contents (Elt F)) : HloOp τ sig (Elt F)).result (after hostOps2_2 V) (Proc.devRef .tc main_v54) := by
  after_results_simp
theorem fin_main_v54 (c : Dev nD) :
    W55 m ρ c (Proc.devRef .tc main_v54) = (StableHlo.unary main_cst_7 main_v54 (broadcastInDim S100000x64 ![] bcast_S_S100000x64 : (⟨S_, .f32⟩ : BufTy).Contents (Elt F) → (⟨S100000x64, .f32⟩ : BufTy).Contents (Elt F)) : HloOp τ sig (Elt F)).result (W55 m ρ c) (Proc.devRef .tc main_v54) := by
  have h := ssa_main_v54 (F := F) (W6 m ρ c)
  rw [unary_result] at h ⊢
  rw [lift7 m ρ c main_v54 (by decide), lift7 m ρ c main_cst_7 (by decide)]
  exact h

theorem ssa_main_v55 (V : Valuation τ sig (Elt F)) :
    after hostOps2_2 V (Proc.devRef .tc main_v55) = (StableHlo.binary main_v54 main_v51 main_v55 (mulf : (⟨S100000x64, .f32⟩ : BufTy).Contents (Elt F) → (⟨S100000x64, .f32⟩ : BufTy).Contents (Elt F) → (⟨S100000x64, .f32⟩ : BufTy).Contents (Elt F)) : HloOp τ sig (Elt F)).result (after hostOps2_2 V) (Proc.devRef .tc main_v55) := by
  after_results_simp
theorem fin_main_v55 (c : Dev nD) :
    W55 m ρ c (Proc.devRef .tc main_v55) = (StableHlo.binary main_v54 main_v51 main_v55 (mulf : (⟨S100000x64, .f32⟩ : BufTy).Contents (Elt F) → (⟨S100000x64, .f32⟩ : BufTy).Contents (Elt F) → (⟨S100000x64, .f32⟩ : BufTy).Contents (Elt F)) : HloOp τ sig (Elt F)).result (W55 m ρ c) (Proc.devRef .tc main_v55) := by
  have h := ssa_main_v55 (F := F) (W6 m ρ c)
  rw [binary_result] at h ⊢
  rw [lift7 m ρ c main_v55 (by decide), lift7 m ρ c main_v54 (by decide), lift7 m ρ c main_v51 (by decide)]
  exact h

end Cert.KernelIdeal.Tab

end
-- ==== Proof.TabKSsa1.lean ====
/- Host stretches hostOps2_3, hostOps2_4, hostOps3, hostOps3_1, hostOps3_2, hostOps3_3, hostOps3_4 of the kernel program read one operation at a time: each buffer a stretch writes holds its operation's
   function of the operands, within the stretch from any contents and, at the last boundary of the run, over the last boundary's contents. -/
import proofs.«409037_j72164040508123_1_alg».proof.Proof.TabK

set_option maxRecDepth 16384

noncomputable section

namespace Cert.KernelIdeal.Tab

open Cert.KernelIdeal Cert.KernelIdeal.Gen Cert.KernelIdeal.GenP Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

theorem ssa_main_v56 (V : Valuation τ sig (Elt F)) :
    after hostOps2_3 V (Proc.devRef .tc main_v56) = (StableHlo.TRef.ternary (.of main_v53 : StableHlo.TRef sig ⟨S100000x64, .i1⟩) (.of main_v51 : StableHlo.TRef sig ⟨S100000x64, .f32⟩) (.of main_v55 : StableHlo.TRef sig ⟨S100000x64, .f32⟩) (.of main_v56 : StableHlo.TRef sig ⟨S100000x64, .f32⟩) select : HloOp τ sig (Elt F)).result (after hostOps2_3 V) (Proc.devRef .tc main_v56) := by
  after_results_simp
theorem fin_main_v56 (c : Dev nD) :
    W55 m ρ c (Proc.devRef .tc main_v56) = (StableHlo.TRef.ternary (.of main_v53 : StableHlo.TRef sig ⟨S100000x64, .i1⟩) (.of main_v51 : StableHlo.TRef sig ⟨S100000x64, .f32⟩) (.of main_v55 : StableHlo.TRef sig ⟨S100000x64, .f32⟩) (.of main_v56 : StableHlo.TRef sig ⟨S100000x64, .f32⟩) select : HloOp τ sig (Elt F)).result (W55 m ρ c) (Proc.devRef .tc main_v56) := by
  have h := ssa_main_v56 (F := F) (W7 m ρ c)
  rw [ternary_result] at h ⊢
  rw [lift8 m ρ c main_v56 (by decide), lift8 m ρ c main_v53 (by decide), lift8 m ρ c main_v51 (by decide), lift8 m ρ c main_v55 (by decide)]
  exact h

theorem ssa_main_v57 (V : Valuation τ sig (Elt F)) :
    after hostOps2_4 V (Proc.devRef .tc main_v57) = (StableHlo.unary main_arg11 main_v57 ((extractStridedSlice S1x64x64 ![0, 0, 0] · slices_S3x64x64_S1x64x64_0_0_0) : (⟨S3x64x64, .f32⟩ : BufTy).Contents (Elt F) → (⟨S1x64x64, .f32⟩ : BufTy).Contents (Elt F)) : HloOp τ sig (Elt F)).result (after hostOps2_4 V) (Proc.devRef .tc main_v57) := by
  after_results_simp
theorem fin_main_v57 (c : Dev nD) :
    W55 m ρ c (Proc.devRef .tc main_v57) = (StableHlo.unary main_arg11 main_v57 ((extractStridedSlice S1x64x64 ![0, 0, 0] · slices_S3x64x64_S1x64x64_0_0_0) : (⟨S3x64x64, .f32⟩ : BufTy).Contents (Elt F) → (⟨S1x64x64, .f32⟩ : BufTy).Contents (Elt F)) : HloOp τ sig (Elt F)).result (W55 m ρ c) (Proc.devRef .tc main_v57) := by
  have h := ssa_main_v57 (F := F) (W8 m ρ c)
  rw [unary_result] at h ⊢
  rw [lift9 m ρ c main_v57 (by decide), lift9 m ρ c main_arg11 (by decide)]
  exact h

theorem ssa_main_v58 (V : Valuation τ sig (Elt F)) :
    after hostOps2_4 V (Proc.devRef .tc main_v58) = (StableHlo.reshape main_v57 main_v58 rfl shapeCasts_S1x64x64_S64x64 : HloOp τ sig (Elt F)).result (after hostOps2_4 V) (Proc.devRef .tc main_v58) := by
  after_results_simp
theorem fin_main_v58 (c : Dev nD) :
    W55 m ρ c (Proc.devRef .tc main_v58) = (StableHlo.reshape main_v57 main_v58 rfl shapeCasts_S1x64x64_S64x64 : HloOp τ sig (Elt F)).result (W55 m ρ c) (Proc.devRef .tc main_v58) := by
  have h := ssa_main_v58 (F := F) (W8 m ρ c)
  rw [reshape_result] at h ⊢
  rw [lift9 m ρ c main_v58 (by decide), lift9 m ρ c main_v57 (by decide)]
  exact h

theorem ssa_main_v59 (V : Valuation τ sig (Elt F)) :
    after hostOps2_4 V (Proc.devRef .tc main_v59) = (StableHlo.unary main_arg12 main_v59 ((extractStridedSlice S1x64 ![0, 0] · slices_S3x64_S1x64_0_0) : (⟨S3x64, .f32⟩ : BufTy).Contents (Elt F) → (⟨S1x64, .f32⟩ : BufTy).Contents (Elt F)) : HloOp τ sig (Elt F)).result (after hostOps2_4 V) (Proc.devRef .tc main_v59) := by
  after_results_simp
theorem fin_main_v59 (c : Dev nD) :
    W55 m ρ c (Proc.devRef .tc main_v59) = (StableHlo.unary main_arg12 main_v59 ((extractStridedSlice S1x64 ![0, 0] · slices_S3x64_S1x64_0_0) : (⟨S3x64, .f32⟩ : BufTy).Contents (Elt F) → (⟨S1x64, .f32⟩ : BufTy).Contents (Elt F)) : HloOp τ sig (Elt F)).result (W55 m ρ c) (Proc.devRef .tc main_v59) := by
  have h := ssa_main_v59 (F := F) (W8 m ρ c)
  rw [unary_result] at h ⊢
  rw [lift9 m ρ c main_v59 (by decide), lift9 m ρ c main_arg12 (by decide)]
  exact h

theorem ssa_main_v60 (V : Valuation τ sig (Elt F)) :
    after hostOps2_4 V (Proc.devRef .tc main_v60) = (StableHlo.reshape main_v59 main_v60 rfl shapeCasts_S1x64_S64 : HloOp τ sig (Elt F)).result (after hostOps2_4 V) (Proc.devRef .tc main_v60) := by
  after_results_simp
theorem fin_main_v60 (c : Dev nD) :
    W55 m ρ c (Proc.devRef .tc main_v60) = (StableHlo.reshape main_v59 main_v60 rfl shapeCasts_S1x64_S64 : HloOp τ sig (Elt F)).result (W55 m ρ c) (Proc.devRef .tc main_v60) := by
  have h := ssa_main_v60 (F := F) (W8 m ρ c)
  rw [reshape_result] at h ⊢
  rw [lift9 m ρ c main_v60 (by decide), lift9 m ρ c main_v59 (by decide)]
  exact h

theorem ssa_main_v61 (V : Valuation τ sig (Elt F)) :
    after hostOps2_4 V (Proc.devRef .tc main_v61) = (StableHlo.reshape main_v60 main_v61 rfl shapeCasts_S64_S1x64 : HloOp τ sig (Elt F)).result (after hostOps2_4 V) (Proc.devRef .tc main_v61) := by
  after_results_simp
theorem fin_main_v61 (c : Dev nD) :
    W55 m ρ c (Proc.devRef .tc main_v61) = (StableHlo.reshape main_v60 main_v61 rfl shapeCasts_S64_S1x64 : HloOp τ sig (Elt F)).result (W55 m ρ c) (Proc.devRef .tc main_v61) := by
  have h := ssa_main_v61 (F := F) (W8 m ρ c)
  rw [reshape_result] at h ⊢
  rw [lift9 m ρ c main_v61 (by decide), lift9 m ρ c main_v60 (by decide)]
  exact h

theorem ssa_main_v63 (V : Valuation τ sig (Elt F)) :
    after hostOps3 V (Proc.devRef .tc main_v63) = (StableHlo.unary main_arg13 main_v63 ((extractStridedSlice S1x64 ![0, 0] · slices_S2x64_S1x64_0_0) : (⟨S2x64, .f32⟩ : BufTy).Contents (Elt F) → (⟨S1x64, .f32⟩ : BufTy).Contents (Elt F)) : HloOp τ sig (Elt F)).result (after hostOps3 V) (Proc.devRef .tc main_v63) := by
  after_results_simp
theorem fin_main_v63 (c : Dev nD) :
    W55 m ρ c (Proc.devRef .tc main_v63) = (StableHlo.unary main_arg13 main_v63 ((extractStridedSlice S1x64 ![0, 0] · slices_S2x64_S1x64_0_0) : (⟨S2x64, .f32⟩ : BufTy).Contents (Elt F) → (⟨S1x64, .f32⟩ : BufTy).Contents (Elt F)) : HloOp τ sig (Elt F)).result (W55 m ρ c) (Proc.devRef .tc main_v63) := by
  have h := ssa_main_v63 (F := F) (W10 m ρ c)
  rw [unary_result] at h ⊢
  rw [lift11 m ρ c main_v63 (by decide), lift11 m ρ c main_arg13 (by decide)]
  exact h

theorem ssa_main_v64 (V : Valuation τ sig (Elt F)) :
    after hostOps3 V (Proc.devRef .tc main_v64) = (StableHlo.reshape main_v63 main_v64 rfl shapeCasts_S1x64_S64 : HloOp τ sig (Elt F)).result (after hostOps3 V) (Proc.devRef .tc main_v64) := by
  after_results_simp
theorem fin_main_v64 (c : Dev nD) :
    W55 m ρ c (Proc.devRef .tc main_v64) = (StableHlo.reshape main_v63 main_v64 rfl shapeCasts_S1x64_S64 : HloOp τ sig (Elt F)).result (W55 m ρ c) (Proc.devRef .tc main_v64) := by
  have h := ssa_main_v64 (F := F) (W10 m ρ c)
  rw [reshape_result] at h ⊢
  rw [lift11 m ρ c main_v64 (by decide), lift11 m ρ c main_v63 (by decide)]
  exact h

theorem ssa_main_v65 (V : Valuation τ sig (Elt F)) :
    after hostOps3 V (Proc.devRef .tc main_v65) = (StableHlo.unary main_arg14 main_v65 ((extractStridedSlice S1x64 ![0, 0] · slices_S2x64_S1x64_0_0) : (⟨S2x64, .f32⟩ : BufTy).Contents (Elt F) → (⟨S1x64, .f32⟩ : BufTy).Contents (Elt F)) : HloOp τ sig (Elt F)).result (after hostOps3 V) (Proc.devRef .tc main_v65) := by
  after_results_simp
theorem fin_main_v65 (c : Dev nD) :
    W55 m ρ c (Proc.devRef .tc main_v65) = (StableHlo.unary main_arg14 main_v65 ((extractStridedSlice S1x64 ![0, 0] · slices_S2x64_S1x64_0_0) : (⟨S2x64, .f32⟩ : BufTy).Contents (Elt F) → (⟨S1x64, .f32⟩ : BufTy).Contents (Elt F)) : HloOp τ sig (Elt F)).result (W55 m ρ c) (Proc.devRef .tc main_v65) := by
  have h := ssa_main_v65 (F := F) (W10 m ρ c)
  rw [unary_result] at h ⊢
  rw [lift11 m ρ c main_v65 (by decide), lift11 m ρ c main_arg14 (by decide)]
  exact h

theorem ssa_main_v66 (V : Valuation τ sig (Elt F)) :
    after hostOps3 V (Proc.devRef .tc main_v66) = (StableHlo.reshape main_v65 main_v66 rfl shapeCasts_S1x64_S64 : HloOp τ sig (Elt F)).result (after hostOps3 V) (Proc.devRef .tc main_v66) := by
  after_results_simp
theorem fin_main_v66 (c : Dev nD) :
    W55 m ρ c (Proc.devRef .tc main_v66) = (StableHlo.reshape main_v65 main_v66 rfl shapeCasts_S1x64_S64 : HloOp τ sig (Elt F)).result (W55 m ρ c) (Proc.devRef .tc main_v66) := by
  have h := ssa_main_v66 (F := F) (W10 m ρ c)
  rw [reshape_result] at h ⊢
  rw [lift11 m ρ c main_v66 (by decide), lift11 m ρ c main_v65 (by decide)]
  exact h

theorem ssa_main_cst_8 (V : Valuation τ sig (Elt F)) :
    after hostOps3 V (Proc.devRef .tc main_cst_8) = (StableHlo.nullary main_cst_8 (constant S_ .f32 0x00000000#32) : HloOp τ sig (Elt F)).result (after hostOps3 V) (Proc.devRef .tc main_cst_8) := by
  after_results_simp
theorem fin_main_cst_8 (c : Dev nD) :
    W55 m ρ c (Proc.devRef .tc main_cst_8) = (StableHlo.nullary main_cst_8 (constant S_ .f32 0x00000000#32) : HloOp τ sig (Elt F)).result (W55 m ρ c) (Proc.devRef .tc main_cst_8) := by
  have h := ssa_main_cst_8 (F := F) (W10 m ρ c)
  rw [nullary_result] at h ⊢
  rw [lift11 m ρ c main_cst_8 (by decide)]
  exact h

theorem ssa_main_v67 (V : Valuation τ sig (Elt F)) :
    after hostOps3 V (Proc.devRef .tc main_v67) = (StableHlo.binary main_v62 main_cst_8 main_v67 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) : HloOp τ sig (Elt F)).result (after hostOps3 V) (Proc.devRef .tc main_v67) := by
  after_results_simp
theorem fin_main_v67 (c : Dev nD) :
    W55 m ρ c (Proc.devRef .tc main_v67) = (StableHlo.binary main_v62 main_cst_8 main_v67 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) : HloOp τ sig (Elt F)).result (W55 m ρ c) (Proc.devRef .tc main_v67) := by
  have h := ssa_main_v67 (F := F) (W10 m ρ c)
  rw [binary_result] at h ⊢
  rw [lift11 m ρ c main_v67 (by decide), lift11 m ρ c main_v62 (by decide), lift11 m ρ c main_cst_8 (by decide)]
  exact h

theorem ssa_main_cst_9 (V : Valuation τ sig (Elt F)) :
    after hostOps3 V (Proc.devRef .tc main_cst_9) = (StableHlo.nullary main_cst_9 (constant S_ .f32 0x47C35000#32) : HloOp τ sig (Elt F)).result (after hostOps3 V) (Proc.devRef .tc main_cst_9) := by
  after_results_simp
theorem fin_main_cst_9 (c : Dev nD) :
    W55 m ρ c (Proc.devRef .tc main_cst_9) = (StableHlo.nullary main_cst_9 (constant S_ .f32 0x47C35000#32) : HloOp τ sig (Elt F)).result (W55 m ρ c) (Proc.devRef .tc main_cst_9) := by
  have h := ssa_main_cst_9 (F := F) (W10 m ρ c)
  rw [nullary_result] at h ⊢
  rw [lift11 m ρ c main_cst_9 (by decide)]
  exact h

theorem ssa_main_v68 (V : Valuation τ sig (Elt F)) :
    after hostOps3 V (Proc.devRef .tc main_v68) = (StableHlo.unary main_cst_9 main_v68 (broadcastInDim S64 ![] bcast_S_S64 : (⟨S_, .f32⟩ : BufTy).Contents (Elt F) → (⟨S64, .f32⟩ : BufTy).Contents (Elt F)) : HloOp τ sig (Elt F)).result (after hostOps3 V) (Proc.devRef .tc main_v68) := by
  after_results_simp
theorem fin_main_v68 (c : Dev nD) :
    W55 m ρ c (Proc.devRef .tc main_v68) = (StableHlo.unary main_cst_9 main_v68 (broadcastInDim S64 ![] bcast_S_S64 : (⟨S_, .f32⟩ : BufTy).Contents (Elt F) → (⟨S64, .f32⟩ : BufTy).Contents (Elt F)) : HloOp τ sig (Elt F)).result (W55 m ρ c) (Proc.devRef .tc main_v68) := by
  have h := ssa_main_v68 (F := F) (W10 m ρ c)
  rw [unary_result] at h ⊢
  rw [lift11 m ρ c main_v68 (by decide), lift11 m ρ c main_cst_9 (by decide)]
  exact h

theorem ssa_main_v69 (V : Valuation τ sig (Elt F)) :
    after hostOps3 V (Proc.devRef .tc main_v69) = (StableHlo.binary main_v67 main_v68 main_v69 (Host.divf : (⟨S64, .f32⟩ : BufTy).Contents (Elt F) → (⟨S64, .f32⟩ : BufTy).Contents (Elt F) → (⟨S64, .f32⟩ : BufTy).Contents (Elt F)) : HloOp τ sig (Elt F)).result (after hostOps3 V) (Proc.devRef .tc main_v69) := by
  after_results_simp
theorem fin_main_v69 (c : Dev nD) :
    W55 m ρ c (Proc.devRef .tc main_v69) = (StableHlo.binary main_v67 main_v68 main_v69 (Host.divf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v69) := by
  have h := ssa_main_v69 (F := F) (W10 m ρ c)
  rw [binary_result] at h ⊢
  rw [lift11 m ρ c main_v69 (by decide), lift11 m ρ c main_v67 (by decide), lift11 m ρ c main_v68 (by decide)]
  exact h

theorem ssa_main_c_10 (V : Valuation τ sig (Elt F)) :
    after hostOps3 V (Proc.devRef .tc main_c_10) = (StableHlo.nullary main_c_10 (constantI S_ 32 0#32) : HloOp τ sig (Elt F)).result (after hostOps3 V) (Proc.devRef .tc main_c_10) := by
  after_results_simp
theorem fin_main_c_10 (c : Dev nD) :
    W55 m ρ c (Proc.devRef .tc main_c_10) = (StableHlo.nullary main_c_10 (constantI S_ 32 0#32) : HloOp τ sig (Elt F)).result (W55 m ρ c) (Proc.devRef .tc main_c_10) := by
  have h := ssa_main_c_10 (F := F) (W10 m ρ c)
  rw [nullary_result] at h ⊢
  rw [lift11 m ρ c main_c_10 (by decide)]
  exact h

theorem ssa_main_call2_cst (V : Valuation τ sig (Elt F)) :
    after hostOps3_1 V (Proc.devRef .tc main_call2_cst) = (StableHlo.TRef.nullary (.of main_call2_cst : StableHlo.TRef sig ⟨S_, .f32⟩) (constant S_ .f32 0x00000000#32) : HloOp τ sig (Elt F)).result (after hostOps3_1 V) (Proc.devRef .tc main_call2_cst) := by
  after_results_simp
theorem fin_main_call2_cst (c : Dev nD) :
    W55 m ρ c (Proc.devRef .tc main_call2_cst) = (StableHlo.TRef.nullary (.of main_call2_cst : StableHlo.TRef sig ⟨S_, .f32⟩) (constant S_ .f32 0x00000000#32) : HloOp τ sig (Elt F)).result (W55 m ρ c) (Proc.devRef .tc main_call2_cst) := by
  have h := ssa_main_call2_cst (F := F) (W11 m ρ c)
  rw [nullary_result] at h ⊢
  rw [lift12 m ρ c main_call2_cst (by decide)]
  exact h

theorem ssa_main_call2_v0 (V : Valuation τ sig (Elt F)) :
    after hostOps3_1 V (Proc.devRef .tc main_call2_v0) = (StableHlo.TRef.binary (.of main_v62 : StableHlo.TRef sig ⟨S100000x64, .f32⟩) (.of main_call2_cst : StableHlo.TRef sig ⟨S_, .f32⟩) (.of main_call2_v0 : StableHlo.TRef sig ⟨S64, .f32⟩) (fun x v => Host.reduceAdd x v reducesTo_S100000x64_S64_d0 h_S_) : HloOp τ sig (Elt F)).result (after hostOps3_1 V) (Proc.devRef .tc main_call2_v0) := by
  after_results_simp
theorem fin_main_call2_v0 (c : Dev nD) :
    W55 m ρ c (Proc.devRef .tc main_call2_v0) = (StableHlo.TRef.binary (.of main_v62 : StableHlo.TRef sig ⟨S100000x64, .f32⟩) (.of main_call2_cst : StableHlo.TRef sig ⟨S_, .f32⟩) (.of main_call2_v0 : StableHlo.TRef sig ⟨S64, .f32⟩) (fun x v => Host.reduceAdd x v reducesTo_S100000x64_S64_d0 h_S_) : HloOp τ sig (Elt F)).result (W55 m ρ c) (Proc.devRef .tc main_call2_v0) := by
  have h := ssa_main_call2_v0 (F := F) (W11 m ρ c)
  rw [binary_result] at h ⊢
  rw [lift12 m ρ c main_call2_v0 (by decide), lift12 m ρ c main_v62 (by decide), lift12 m ρ c main_call2_cst (by decide)]
  exact h

theorem ssa_main_call2_v1 (V : Valuation τ sig (Elt F)) :
    after hostOps3_1 V (Proc.devRef .tc main_call2_v1) = (StableHlo.TRef.unary (.of main_call2_v0 : StableHlo.TRef sig ⟨S64, .f32⟩) (.of main_call2_v1 : StableHlo.TRef sig ⟨S1x64, .f32⟩) (broadcastInDim S1x64 ![1] bcast_S64_S1x64_1) : HloOp τ sig (Elt F)).result (after hostOps3_1 V) (Proc.devRef .tc main_call2_v1) := by
  after_results_simp
theorem fin_main_call2_v1 (c : Dev nD) :
    W55 m ρ c (Proc.devRef .tc main_call2_v1) = (StableHlo.TRef.unary (.of main_call2_v0 : StableHlo.TRef sig ⟨S64, .f32⟩) (.of main_call2_v1 : StableHlo.TRef sig ⟨S1x64, .f32⟩) (broadcastInDim S1x64 ![1] bcast_S64_S1x64_1) : HloOp τ sig (Elt F)).result (W55 m ρ c) (Proc.devRef .tc main_call2_v1) := by
  have h := ssa_main_call2_v1 (F := F) (W11 m ρ c)
  rw [unary_result] at h ⊢
  rw [lift12 m ρ c main_call2_v1 (by decide), lift12 m ρ c main_call2_v0 (by decide)]
  exact h

theorem ssa_main_call2_cst_0 (V : Valuation τ sig (Elt F)) :
    after hostOps3_1 V (Proc.devRef .tc main_call2_cst_0) = (StableHlo.TRef.nullary (.of main_call2_cst_0 : StableHlo.TRef sig ⟨S_, .f32⟩) (constant S_ .f32 0x47C35000#32) : HloOp τ sig (Elt F)).result (after hostOps3_1 V) (Proc.devRef .tc main_call2_cst_0) := by
  after_results_simp
theorem fin_main_call2_cst_0 (c : Dev nD) :
    W55 m ρ c (Proc.devRef .tc main_call2_cst_0) = (StableHlo.TRef.nullary (.of main_call2_cst_0 : StableHlo.TRef sig ⟨S_, .f32⟩) (constant S_ .f32 0x47C35000#32) : HloOp τ sig (Elt F)).result (W55 m ρ c) (Proc.devRef .tc main_call2_cst_0) := by
  have h := ssa_main_call2_cst_0 (F := F) (W11 m ρ c)
  rw [nullary_result] at h ⊢
  rw [lift12 m ρ c main_call2_cst_0 (by decide)]
  exact h

theorem ssa_main_call2_v2 (V : Valuation τ sig (Elt F)) :
    after hostOps3_1 V (Proc.devRef .tc main_call2_v2) = (StableHlo.TRef.unary (.of main_call2_cst_0 : StableHlo.TRef sig ⟨S_, .f32⟩) (.of main_call2_v2 : StableHlo.TRef sig ⟨S1x64, .f32⟩) (broadcastInDim S1x64 ![] bcast_S_S1x64) : HloOp τ sig (Elt F)).result (after hostOps3_1 V) (Proc.devRef .tc main_call2_v2) := by
  after_results_simp
theorem fin_main_call2_v2 (c : Dev nD) :
    W55 m ρ c (Proc.devRef .tc main_call2_v2) = (StableHlo.TRef.unary (.of main_call2_cst_0 : StableHlo.TRef sig ⟨S_, .f32⟩) (.of main_call2_v2 : StableHlo.TRef sig ⟨S1x64, .f32⟩) (broadcastInDim S1x64 ![] bcast_S_S1x64) : HloOp τ sig (Elt F)).result (W55 m ρ c) (Proc.devRef .tc main_call2_v2) := by
  have h := ssa_main_call2_v2 (F := F) (W11 m ρ c)
  rw [unary_result] at h ⊢
  rw [lift12 m ρ c main_call2_v2 (by decide), lift12 m ρ c main_call2_cst_0 (by decide)]
  exact h

theorem ssa_main_call2_v3 (V : Valuation τ sig (Elt F)) :
    after hostOps3_1 V (Proc.devRef .tc main_call2_v3) = (StableHlo.TRef.binary (.of main_call2_v1 : StableHlo.TRef sig ⟨S1x64, .f32⟩) (.of main_call2_v2 : StableHlo.TRef sig ⟨S1x64, .f32⟩) (.of main_call2_v3 : StableHlo.TRef sig ⟨S1x64, .f32⟩) Host.divf : HloOp τ sig (Elt F)).result (after hostOps3_1 V) (Proc.devRef .tc main_call2_v3) := by
  after_results_simp
theorem fin_main_call2_v3 (c : Dev nD) :
    W55 m ρ c (Proc.devRef .tc main_call2_v3) = (StableHlo.TRef.binary (.of main_call2_v1 : StableHlo.TRef sig ⟨S1x64, .f32⟩) (.of main_call2_v2 : StableHlo.TRef sig ⟨S1x64, .f32⟩) (.of main_call2_v3 : StableHlo.TRef sig ⟨S1x64, .f32⟩) Host.divf : HloOp τ sig (Elt F)).result (W55 m ρ c) (Proc.devRef .tc main_call2_v3) := by
  have h := ssa_main_call2_v3 (F := F) (W11 m ρ c)
  rw [binary_result] at h ⊢
  rw [lift12 m ρ c main_call2_v3 (by decide), lift12 m ρ c main_call2_v1 (by decide), lift12 m ρ c main_call2_v2 (by decide)]
  exact h

theorem ssa_main_call2_v4 (V : Valuation τ sig (Elt F)) :
    after hostOps3_1 V (Proc.devRef .tc main_call2_v4) = (StableHlo.TRef.unary (.of main_call2_v3 : StableHlo.TRef sig ⟨S1x64, .f32⟩) (.of main_call2_v4 : StableHlo.TRef sig ⟨S100000x64, .f32⟩) (broadcastInDim S100000x64 ![0, 1] bcast_S1x64_S100000x64_0_1) : HloOp τ sig (Elt F)).result (after hostOps3_1 V) (Proc.devRef .tc main_call2_v4) := by
  after_results_simp
theorem fin_main_call2_v4 (c : Dev nD) :
    W55 m ρ c (Proc.devRef .tc main_call2_v4) = (StableHlo.TRef.unary (.of main_call2_v3 : StableHlo.TRef sig ⟨S1x64, .f32⟩) (.of main_call2_v4 : StableHlo.TRef sig ⟨S100000x64, .f32⟩) (broadcastInDim S100000x64 ![0, 1] bcast_S1x64_S100000x64_0_1) : HloOp τ sig (Elt F)).result (W55 m ρ c) (Proc.devRef .tc main_call2_v4) := by
  have h := ssa_main_call2_v4 (F := F) (W11 m ρ c)
  rw [unary_result] at h ⊢
  rw [lift12 m ρ c main_call2_v4 (by decide), lift12 m ρ c main_call2_v3 (by decide)]
  exact h

theorem ssa_main_call2_v5 (V : Valuation τ sig (Elt F)) :
    after hostOps3_1 V (Proc.devRef .tc main_call2_v5) = (StableHlo.TRef.binary (.of main_v62 : StableHlo.TRef sig ⟨S100000x64, .f32⟩) (.of main_call2_v4 : StableHlo.TRef sig ⟨S100000x64, .f32⟩) (.of main_call2_v5 : StableHlo.TRef sig ⟨S100000x64, .f32⟩) subf : HloOp τ sig (Elt F)).result (after hostOps3_1 V) (Proc.devRef .tc main_call2_v5) := by
  after_results_simp
theorem fin_main_call2_v5 (c : Dev nD) :
    W55 m ρ c (Proc.devRef .tc main_call2_v5) = (StableHlo.TRef.binary (.of main_v62 : StableHlo.TRef sig ⟨S100000x64, .f32⟩) (.of main_call2_v4 : StableHlo.TRef sig ⟨S100000x64, .f32⟩) (.of main_call2_v5 : StableHlo.TRef sig ⟨S100000x64, .f32⟩) subf : HloOp τ sig (Elt F)).result (W55 m ρ c) (Proc.devRef .tc main_call2_v5) := by
  have h := ssa_main_call2_v5 (F := F) (W11 m ρ c)
  rw [binary_result] at h ⊢
  rw [lift12 m ρ c main_call2_v5 (by decide), lift12 m ρ c main_v62 (by decide), lift12 m ρ c main_call2_v4 (by decide)]
  exact h

theorem ssa_main_call2_v6 (V : Valuation τ sig (Elt F)) :
    after hostOps3_1 V (Proc.devRef .tc main_call2_v6) = (StableHlo.TRef.binary (.of main_call2_v5 : StableHlo.TRef sig ⟨S100000x64, .f32⟩) (.of main_call2_v5 : StableHlo.TRef sig ⟨S100000x64, .f32⟩) (.of main_call2_v6 : StableHlo.TRef sig ⟨S100000x64, .f32⟩) mulf : HloOp τ sig (Elt F)).result (after hostOps3_1 V) (Proc.devRef .tc main_call2_v6) := by
  after_results_simp
theorem fin_main_call2_v6 (c : Dev nD) :
    W55 m ρ c (Proc.devRef .tc main_call2_v6) = (StableHlo.TRef.binary (.of main_call2_v5 : StableHlo.TRef sig ⟨S100000x64, .f32⟩) (.of main_call2_v5 : StableHlo.TRef sig ⟨S100000x64, .f32⟩) (.of main_call2_v6 : StableHlo.TRef sig ⟨S100000x64, .f32⟩) mulf : HloOp τ sig (Elt F)).result (W55 m ρ c) (Proc.devRef .tc main_call2_v6) := by
  have h := ssa_main_call2_v6 (F := F) (W11 m ρ c)
  rw [binary_result] at h ⊢
  rw [lift12 m ρ c main_call2_v6 (by decide), lift12 m ρ c main_call2_v5 (by decide)]
  exact h

theorem ssa_main_call2_v7 (V : Valuation τ sig (Elt F)) :
    after hostOps3_1 V (Proc.devRef .tc main_call2_v7) = (StableHlo.TRef.unary (.of main_c_10 : StableHlo.TRef sig ⟨S_, .i32⟩) (.of main_call2_v7 : StableHlo.TRef sig ⟨S_, .f32⟩) (sitofp .f32) : HloOp τ sig (Elt F)).result (after hostOps3_1 V) (Proc.devRef .tc main_call2_v7) := by
  after_results_simp
theorem fin_main_call2_v7 (c : Dev nD) :
    W55 m ρ c (Proc.devRef .tc main_call2_v7) = (StableHlo.TRef.unary (.of main_c_10 : StableHlo.TRef sig ⟨S_, .i32⟩) (.of main_call2_v7 : StableHlo.TRef sig ⟨S_, .f32⟩) (sitofp .f32) : HloOp τ sig (Elt F)).result (W55 m ρ c) (Proc.devRef .tc main_call2_v7) := by
  have h := ssa_main_call2_v7 (F := F) (W11 m ρ c)
  rw [unary_result] at h ⊢
  rw [lift12 m ρ c main_call2_v7 (by decide), lift12 m ρ c main_c_10 (by decide)]
  exact h

theorem ssa_main_call2_cst_1 (V : Valuation τ sig (Elt F)) :
    after hostOps3_1 V (Proc.devRef .tc main_call2_cst_1) = (StableHlo.TRef.nullary (.of main_call2_cst_1 : StableHlo.TRef sig ⟨S_, .f32⟩) (constant S_ .f32 0x47C35000#32) : HloOp τ sig (Elt F)).result (after hostOps3_1 V) (Proc.devRef .tc main_call2_cst_1) := by
  after_results_simp
theorem fin_main_call2_cst_1 (c : Dev nD) :
    W55 m ρ c (Proc.devRef .tc main_call2_cst_1) = (StableHlo.TRef.nullary (.of main_call2_cst_1 : StableHlo.TRef sig ⟨S_, .f32⟩) (constant S_ .f32 0x47C35000#32) : HloOp τ sig (Elt F)).result (W55 m ρ c) (Proc.devRef .tc main_call2_cst_1) := by
  have h := ssa_main_call2_cst_1 (F := F) (W11 m ρ c)
  rw [nullary_result] at h ⊢
  rw [lift12 m ρ c main_call2_cst_1 (by decide)]
  exact h

theorem ssa_main_call2_v8 (V : Valuation τ sig (Elt F)) :
    after hostOps3_1 V (Proc.devRef .tc main_call2_v8) = (StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf : HloOp τ sig (Elt F)).result (after hostOps3_1 V) (Proc.devRef .tc main_call2_v8) := by
  after_results_simp
theorem fin_main_call2_v8 (c : Dev nD) :
    W55 m ρ c (Proc.devRef .tc main_call2_v8) = (StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf : HloOp τ sig (Elt F)).result (W55 m ρ c) (Proc.devRef .tc main_call2_v8) := by
  have h := ssa_main_call2_v8 (F := F) (W11 m ρ c)
  rw [binary_result] at h ⊢
  rw [lift12 m ρ c main_call2_v8 (by decide), lift12 m ρ c main_call2_cst_1 (by decide), lift12 m ρ c main_call2_v7 (by decide)]
  exact h

theorem ssa_main_call2_cst_2 (V : Valuation τ sig (Elt F)) :
    after hostOps3_1 V (Proc.devRef .tc main_call2_cst_2) = (StableHlo.TRef.nullary (.of main_call2_cst_2 : StableHlo.TRef sig ⟨S_, .f32⟩) (constant S_ .f32 0x00000000#32) : HloOp τ sig (Elt F)).result (after hostOps3_1 V) (Proc.devRef .tc main_call2_cst_2) := by
  after_results_simp
theorem fin_main_call2_cst_2 (c : Dev nD) :
    W55 m ρ c (Proc.devRef .tc main_call2_cst_2) = (StableHlo.TRef.nullary (.of main_call2_cst_2 : StableHlo.TRef sig ⟨S_, .f32⟩) (constant S_ .f32 0x00000000#32) : HloOp τ sig (Elt F)).result (W55 m ρ c) (Proc.devRef .tc main_call2_cst_2) := by
  have h := ssa_main_call2_cst_2 (F := F) (W11 m ρ c)
  rw [nullary_result] at h ⊢
  rw [lift12 m ρ c main_call2_cst_2 (by decide)]
  exact h

theorem ssa_main_call2_v9 (V : Valuation τ sig (Elt F)) :
    after hostOps3_1 V (Proc.devRef .tc main_call2_v9) = (StableHlo.TRef.binary (.of main_call2_v6 : StableHlo.TRef sig ⟨S100000x64, .f32⟩) (.of main_call2_cst_2 : StableHlo.TRef sig ⟨S_, .f32⟩) (.of main_call2_v9 : StableHlo.TRef sig ⟨S64, .f32⟩) (fun x v => Host.reduceAdd x v reducesTo_S100000x64_S64_d0 h_S_) : HloOp τ sig (Elt F)).result (after hostOps3_1 V) (Proc.devRef .tc main_call2_v9) := by
  after_results_simp
theorem fin_main_call2_v9 (c : Dev nD) :
    W55 m ρ c (Proc.devRef .tc main_call2_v9) = (StableHlo.TRef.binary (.of main_call2_v6 : StableHlo.TRef sig ⟨S100000x64, .f32⟩) (.of main_call2_cst_2 : StableHlo.TRef sig ⟨S_, .f32⟩) (.of main_call2_v9 : StableHlo.TRef sig ⟨S64, .f32⟩) (fun x v => Host.reduceAdd x v reducesTo_S100000x64_S64_d0 h_S_) : HloOp τ sig (Elt F)).result (W55 m ρ c) (Proc.devRef .tc main_call2_v9) := by
  have h := ssa_main_call2_v9 (F := F) (W11 m ρ c)
  rw [binary_result] at h ⊢
  rw [lift12 m ρ c main_call2_v9 (by decide), lift12 m ρ c main_call2_v6 (by decide), lift12 m ρ c main_call2_cst_2 (by decide)]
  exact h

theorem ssa_main_call2_v10 (V : Valuation τ sig (Elt F)) :
    after hostOps3_1 V (Proc.devRef .tc main_call2_v10) = (StableHlo.TRef.unary (.of main_call2_v8 : StableHlo.TRef sig ⟨S_, .f32⟩) (.of main_call2_v10 : StableHlo.TRef sig ⟨S64, .f32⟩) (broadcastInDim S64 ![] bcast_S_S64) : HloOp τ sig (Elt F)).result (after hostOps3_1 V) (Proc.devRef .tc main_call2_v10) := by
  after_results_simp
theorem fin_main_call2_v10 (c : Dev nD) :
    W55 m ρ c (Proc.devRef .tc main_call2_v10) = (StableHlo.TRef.unary (.of main_call2_v8 : StableHlo.TRef sig ⟨S_, .f32⟩) (.of main_call2_v10 : StableHlo.TRef sig ⟨S64, .f32⟩) (broadcastInDim S64 ![] bcast_S_S64) : HloOp τ sig (Elt F)).result (W55 m ρ c) (Proc.devRef .tc main_call2_v10) := by
  have h := ssa_main_call2_v10 (F := F) (W11 m ρ c)
  rw [unary_result] at h ⊢
  rw [lift12 m ρ c main_call2_v10 (by decide), lift12 m ρ c main_call2_v8 (by decide)]
  exact h

theorem ssa_main_call2_v11 (V : Valuation τ sig (Elt F)) :
    after hostOps3_1 V (Proc.devRef .tc main_call2_v11) = (StableHlo.TRef.binary (.of main_call2_v9 : StableHlo.TRef sig ⟨S64, .f32⟩) (.of main_call2_v10 : StableHlo.TRef sig ⟨S64, .f32⟩) (.of main_call2_v11 : StableHlo.TRef sig ⟨S64, .f32⟩) Host.divf : HloOp τ sig (Elt F)).result (after hostOps3_1 V) (Proc.devRef .tc main_call2_v11) := by
  after_results_simp
theorem fin_main_call2_v11 (c : Dev nD) :
    W55 m ρ c (Proc.devRef .tc main_call2_v11) = (StableHlo.TRef.binary (.of main_call2_v9 : StableHlo.TRef sig ⟨S64, .f32⟩) (.of main_call2_v10 : StableHlo.TRef sig ⟨S64, .f32⟩) (.of main_call2_v11 : StableHlo.TRef sig ⟨S64, .f32⟩) Host.divf : HloOp τ sig (Elt F)).result (W55 m ρ c) (Proc.devRef .tc main_call2_v11) := by
  have h := ssa_main_call2_v11 (F := F) (W11 m ρ c)
  rw [binary_result] at h ⊢
  rw [lift12 m ρ c main_call2_v11 (by decide), lift12 m ρ c main_call2_v9 (by decide), lift12 m ρ c main_call2_v10 (by decide)]
  exact h

theorem ssa_main_call2_cst_3 (V : Valuation τ sig (Elt F)) :
    after hostOps3_1 V (Proc.devRef .tc main_call2_cst_3) = (StableHlo.TRef.nullary (.of main_call2_cst_3 : StableHlo.TRef sig ⟨S_, .f32⟩) (constant S_ .f32 0x00000000#32) : HloOp τ sig (Elt F)).result (after hostOps3_1 V) (Proc.devRef .tc main_call2_cst_3) := by
  after_results_simp
theorem fin_main_call2_cst_3 (c : Dev nD) :
    W55 m ρ c (Proc.devRef .tc main_call2_cst_3) = (StableHlo.TRef.nullary (.of main_call2_cst_3 : StableHlo.TRef sig ⟨S_, .f32⟩) (constant S_ .f32 0x00000000#32) : HloOp τ sig (Elt F)).result (W55 m ρ c) (Proc.devRef .tc main_call2_cst_3) := by
  have h := ssa_main_call2_cst_3 (F := F) (W11 m ρ c)
  rw [nullary_result] at h ⊢
  rw [lift12 m ρ c main_call2_cst_3 (by decide)]
  exact h

theorem ssa_main_call2_v12 (V : Valuation τ sig (Elt F)) :
    after hostOps3_1 V (Proc.devRef .tc main_call2_v12) = (StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt) : HloOp τ sig (Elt F)).result (after hostOps3_1 V) (Proc.devRef .tc main_call2_v12) := by
  after_results_simp
theorem fin_main_call2_v12 (c : Dev nD) :
    W55 m ρ c (Proc.devRef .tc main_call2_v12) = (StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt) : HloOp τ sig (Elt F)).result (W55 m ρ c) (Proc.devRef .tc main_call2_v12) := by
  have h := ssa_main_call2_v12 (F := F) (W11 m ρ c)
  rw [binary_result] at h ⊢
  rw [lift12 m ρ c main_call2_v12 (by decide), lift12 m ρ c main_call2_v8 (by decide), lift12 m ρ c main_call2_cst_3 (by decide)]
  exact h

theorem ssa_main_call2_cst_4 (V : Valuation τ sig (Elt F)) :
    after hostOps3_1 V (Proc.devRef .tc main_call2_cst_4) = (StableHlo.TRef.nullary (.of main_call2_cst_4 : StableHlo.TRef sig ⟨S_, .f32⟩) (constant S_ .f32 0x7FC00000#32) : HloOp τ sig (Elt F)).result (after hostOps3_1 V) (Proc.devRef .tc main_call2_cst_4) := by
  after_results_simp
theorem fin_main_call2_cst_4 (c : Dev nD) :
    W55 m ρ c (Proc.devRef .tc main_call2_cst_4) = (StableHlo.TRef.nullary (.of main_call2_cst_4 : StableHlo.TRef sig ⟨S_, .f32⟩) (constant S_ .f32 0x7FC00000#32) : HloOp τ sig (Elt F)).result (W55 m ρ c) (Proc.devRef .tc main_call2_cst_4) := by
  have h := ssa_main_call2_cst_4 (F := F) (W11 m ρ c)
  rw [nullary_result] at h ⊢
  rw [lift12 m ρ c main_call2_cst_4 (by decide)]
  exact h

theorem ssa_main_call2_call0_v0 (V : Valuation τ sig (Elt F)) :
    after hostOps3_1 V (Proc.devRef .tc main_call2_call0_v0) = (StableHlo.TRef.unary (.of main_call2_cst_4 : StableHlo.TRef sig ⟨S_, .f32⟩) (.of main_call2_call0_v0 : StableHlo.TRef sig ⟨S_, .f32⟩) id : HloOp τ sig (Elt F)).result (after hostOps3_1 V) (Proc.devRef .tc main_call2_call0_v0) := by
  after_results_simp
theorem fin_main_call2_call0_v0 (c : Dev nD) :
    W55 m ρ c (Proc.devRef .tc main_call2_call0_v0) = (StableHlo.TRef.unary (.of main_call2_cst_4 : StableHlo.TRef sig ⟨S_, .f32⟩) (.of main_call2_call0_v0 : StableHlo.TRef sig ⟨S_, .f32⟩) id : HloOp τ sig (Elt F)).result (W55 m ρ c) (Proc.devRef .tc main_call2_call0_v0) := by
  have h := ssa_main_call2_call0_v0 (F := F) (W11 m ρ c)
  rw [unary_result] at h ⊢
  rw [lift12 m ρ c main_call2_call0_v0 (by decide), lift12 m ρ c main_call2_cst_4 (by decide)]
  exact h

theorem ssa_main_call2_call0_v1 (V : Valuation τ sig (Elt F)) :
    after hostOps3_1 V (Proc.devRef .tc main_call2_call0_v1) = (StableHlo.TRef.unary (.of main_call2_call0_v0 : StableHlo.TRef sig ⟨S_, .f32⟩) (.of main_call2_call0_v1 : StableHlo.TRef sig ⟨S64, .f32⟩) (broadcastInDim S64 ![] bcast_S_S64) : HloOp τ sig (Elt F)).result (after hostOps3_1 V) (Proc.devRef .tc main_call2_call0_v1) := by
  after_results_simp
theorem fin_main_call2_call0_v1 (c : Dev nD) :
    W55 m ρ c (Proc.devRef .tc main_call2_call0_v1) = (StableHlo.TRef.unary (.of main_call2_call0_v0 : StableHlo.TRef sig ⟨S_, .f32⟩) (.of main_call2_call0_v1 : StableHlo.TRef sig ⟨S64, .f32⟩) (broadcastInDim S64 ![] bcast_S_S64) : HloOp τ sig (Elt F)).result (W55 m ρ c) (Proc.devRef .tc main_call2_call0_v1) := by
  have h := ssa_main_call2_call0_v1 (F := F) (W11 m ρ c)
  rw [unary_result] at h ⊢
  rw [lift12 m ρ c main_call2_call0_v1 (by decide), lift12 m ρ c main_call2_call0_v0 (by decide)]
  exact h

theorem ssa_main_v70 (V : Valuation τ sig (Elt F)) :
    after hostOps3_1 V (Proc.devRef .tc main_v70) = (StableHlo.TRef.ternary (.of main_call2_v12 : StableHlo.TRef sig ⟨S_, .i1⟩) (.of main_call2_v11 : StableHlo.TRef sig ⟨S64, .f32⟩) (.of main_call2_call0_v1 : StableHlo.TRef sig ⟨S64, .f32⟩) (.of main_v70 : StableHlo.TRef sig ⟨S64, .f32⟩) (fun p a b => select (broadcastInDim S64 ![] bcast_S_S64 p) a b) : HloOp τ sig (Elt F)).result (after hostOps3_1 V) (Proc.devRef .tc main_v70) := by
  after_results_simp
theorem fin_main_v70 (c : Dev nD) :
    W55 m ρ c (Proc.devRef .tc main_v70) = (StableHlo.TRef.ternary (.of main_call2_v12 : StableHlo.TRef sig ⟨S_, .i1⟩) (.of main_call2_v11 : StableHlo.TRef sig ⟨S64, .f32⟩) (.of main_call2_call0_v1 : StableHlo.TRef sig ⟨S64, .f32⟩) (.of main_v70 : StableHlo.TRef sig ⟨S64, .f32⟩) (fun p a b => select (broadcastInDim S64 ![] bcast_S_S64 p) a b) : HloOp τ sig (Elt F)).result (W55 m ρ c) (Proc.devRef .tc main_v70) := by
  have h := ssa_main_v70 (F := F) (W11 m ρ c)
  rw [ternary_result] at h ⊢
  rw [lift12 m ρ c main_v70 (by decide), lift12 m ρ c main_call2_v12 (by decide), lift12 m ρ c main_call2_v11 (by decide), lift12 m ρ c main_call2_call0_v1 (by decide)]
  exact h

theorem ssa_main_cst_11 (V : Valuation τ sig (Elt F)) :
    after hostOps3_2 V (Proc.devRef .tc main_cst_11) = (StableHlo.nullary main_cst_11 (constant S_ .f32 0x3727C5AC#32) : HloOp τ sig (Elt F)).result (after hostOps3_2 V) (Proc.devRef .tc main_cst_11) := by
  after_results_simp
theorem fin_main_cst_11 (c : Dev nD) :
    W55 m ρ c (Proc.devRef .tc main_cst_11) = (StableHlo.nullary main_cst_11 (constant S_ .f32 0x3727C5AC#32) : HloOp τ sig (Elt F)).result (W55 m ρ c) (Proc.devRef .tc main_cst_11) := by
  have h := ssa_main_cst_11 (F := F) (W12 m ρ c)
  rw [nullary_result] at h ⊢
  rw [lift13 m ρ c main_cst_11 (by decide)]
  exact h

theorem ssa_main_v71 (V : Valuation τ sig (Elt F)) :
    after hostOps3_2 V (Proc.devRef .tc main_v71) = (StableHlo.unary main_cst_11 main_v71 (broadcastInDim S64 ![] bcast_S_S64 : (⟨S_, .f32⟩ : BufTy).Contents (Elt F) → (⟨S64, .f32⟩ : BufTy).Contents (Elt F)) : HloOp τ sig (Elt F)).result (after hostOps3_2 V) (Proc.devRef .tc main_v71) := by
  after_results_simp
theorem fin_main_v71 (c : Dev nD) :
    W55 m ρ c (Proc.devRef .tc main_v71) = (StableHlo.unary main_cst_11 main_v71 (broadcastInDim S64 ![] bcast_S_S64 : (⟨S_, .f32⟩ : BufTy).Contents (Elt F) → (⟨S64, .f32⟩ : BufTy).Contents (Elt F)) : HloOp τ sig (Elt F)).result (W55 m ρ c) (Proc.devRef .tc main_v71) := by
  have h := ssa_main_v71 (F := F) (W12 m ρ c)
  rw [unary_result] at h ⊢
  rw [lift13 m ρ c main_v71 (by decide), lift13 m ρ c main_cst_11 (by decide)]
  exact h

theorem ssa_main_v72 (V : Valuation τ sig (Elt F)) :
    after hostOps3_2 V (Proc.devRef .tc main_v72) = (StableHlo.binary main_v70 main_v71 main_v72 (addf : (⟨S64, .f32⟩ : BufTy).Contents (Elt F) → (⟨S64, .f32⟩ : BufTy).Contents (Elt F) → (⟨S64, .f32⟩ : BufTy).Contents (Elt F)) : HloOp τ sig (Elt F)).result (after hostOps3_2 V) (Proc.devRef .tc main_v72) := by
  after_results_simp
theorem fin_main_v72 (c : Dev nD) :
    W55 m ρ c (Proc.devRef .tc main_v72) = (StableHlo.binary main_v70 main_v71 main_v72 (addf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v72) := by
  have h := ssa_main_v72 (F := F) (W12 m ρ c)
  rw [binary_result] at h ⊢
  rw [lift13 m ρ c main_v72 (by decide), lift13 m ρ c main_v70 (by decide), lift13 m ρ c main_v71 (by decide)]
  exact h

theorem ssa_main_v73 (V : Valuation τ sig (Elt F)) :
    after hostOps3_2 V (Proc.devRef .tc main_v73) = (StableHlo.unary main_v72 main_v73 (Host.rsqrt : (⟨S64, .f32⟩ : BufTy).Contents (Elt F) → (⟨S64, .f32⟩ : BufTy).Contents (Elt F)) : HloOp τ sig (Elt F)).result (after hostOps3_2 V) (Proc.devRef .tc main_v73) := by
  after_results_simp
theorem fin_main_v73 (c : Dev nD) :
    W55 m ρ c (Proc.devRef .tc main_v73) = (StableHlo.unary main_v72 main_v73 (Host.rsqrt : (⟨S64, .f32⟩ : BufTy).Contents (Elt F) → (⟨S64, .f32⟩ : BufTy).Contents (Elt F)) : HloOp τ sig (Elt F)).result (W55 m ρ c) (Proc.devRef .tc main_v73) := by
  have h := ssa_main_v73 (F := F) (W12 m ρ c)
  rw [unary_result] at h ⊢
  rw [lift13 m ρ c main_v73 (by decide), lift13 m ρ c main_v72 (by decide)]
  exact h

theorem ssa_main_v74 (V : Valuation τ sig (Elt F)) :
    after hostOps3_2 V (Proc.devRef .tc main_v74) = (StableHlo.binary main_v64 main_v73 main_v74 (mulf : (⟨S64, .f32⟩ : BufTy).Contents (Elt F) → (⟨S64, .f32⟩ : BufTy).Contents (Elt F) → (⟨S64, .f32⟩ : BufTy).Contents (Elt F)) : HloOp τ sig (Elt F)).result (after hostOps3_2 V) (Proc.devRef .tc main_v74) := by
  after_results_simp
theorem fin_main_v74 (c : Dev nD) :
    W55 m ρ c (Proc.devRef .tc main_v74) = (StableHlo.binary main_v64 main_v73 main_v74 (mulf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v74) := by
  have h := ssa_main_v74 (F := F) (W12 m ρ c)
  rw [binary_result] at h ⊢
  rw [lift13 m ρ c main_v74 (by decide), lift13 m ρ c main_v64 (by decide), lift13 m ρ c main_v73 (by decide)]
  exact h

theorem ssa_main_v75 (V : Valuation τ sig (Elt F)) :
    after hostOps3_2 V (Proc.devRef .tc main_v75) = (StableHlo.binary main_v69 main_v74 main_v75 (mulf : (⟨S64, .f32⟩ : BufTy).Contents (Elt F) → (⟨S64, .f32⟩ : BufTy).Contents (Elt F) → (⟨S64, .f32⟩ : BufTy).Contents (Elt F)) : HloOp τ sig (Elt F)).result (after hostOps3_2 V) (Proc.devRef .tc main_v75) := by
  after_results_simp
theorem fin_main_v75 (c : Dev nD) :
    W55 m ρ c (Proc.devRef .tc main_v75) = (StableHlo.binary main_v69 main_v74 main_v75 (mulf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v75) := by
  have h := ssa_main_v75 (F := F) (W12 m ρ c)
  rw [binary_result] at h ⊢
  rw [lift13 m ρ c main_v75 (by decide), lift13 m ρ c main_v69 (by decide), lift13 m ρ c main_v74 (by decide)]
  exact h

theorem ssa_main_v76 (V : Valuation τ sig (Elt F)) :
    after hostOps3_2 V (Proc.devRef .tc main_v76) = (StableHlo.binary main_v66 main_v75 main_v76 (subf : (⟨S64, .f32⟩ : BufTy).Contents (Elt F) → (⟨S64, .f32⟩ : BufTy).Contents (Elt F) → (⟨S64, .f32⟩ : BufTy).Contents (Elt F)) : HloOp τ sig (Elt F)).result (after hostOps3_2 V) (Proc.devRef .tc main_v76) := by
  after_results_simp
theorem fin_main_v76 (c : Dev nD) :
    W55 m ρ c (Proc.devRef .tc main_v76) = (StableHlo.binary main_v66 main_v75 main_v76 (subf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v76) := by
  have h := ssa_main_v76 (F := F) (W12 m ρ c)
  rw [binary_result] at h ⊢
  rw [lift13 m ρ c main_v76 (by decide), lift13 m ρ c main_v66 (by decide), lift13 m ρ c main_v75 (by decide)]
  exact h

theorem ssa_main_v77 (V : Valuation τ sig (Elt F)) :
    after hostOps3_2 V (Proc.devRef .tc main_v77) = (StableHlo.unary main_v74 main_v77 (broadcastInDim S1x64 ![1] bcast_S64_S1x64_1 : (⟨S64, .f32⟩ : BufTy).Contents (Elt F) → (⟨S1x64, .f32⟩ : BufTy).Contents (Elt F)) : HloOp τ sig (Elt F)).result (after hostOps3_2 V) (Proc.devRef .tc main_v77) := by
  after_results_simp
theorem fin_main_v77 (c : Dev nD) :
    W55 m ρ c (Proc.devRef .tc main_v77) = (StableHlo.unary main_v74 main_v77 (broadcastInDim S1x64 ![1] bcast_S64_S1x64_1 : (⟨S64, .f32⟩ : BufTy).Contents (Elt F) → (⟨S1x64, .f32⟩ : BufTy).Contents (Elt F)) : HloOp τ sig (Elt F)).result (W55 m ρ c) (Proc.devRef .tc main_v77) := by
  have h := ssa_main_v77 (F := F) (W12 m ρ c)
  rw [unary_result] at h ⊢
  rw [lift13 m ρ c main_v77 (by decide), lift13 m ρ c main_v74 (by decide)]
  exact h

theorem ssa_main_v78 (V : Valuation τ sig (Elt F)) :
    after hostOps3_2 V (Proc.devRef .tc main_v78) = (StableHlo.unary main_v77 main_v78 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after hostOps3_2 V) (Proc.devRef .tc main_v78) := by
  after_results_simp
theorem fin_main_v78 (c : Dev nD) :
    W55 m ρ c (Proc.devRef .tc main_v78) = (StableHlo.unary main_v77 main_v78 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (W55 m ρ c) (Proc.devRef .tc main_v78) := by
  have h := ssa_main_v78 (F := F) (W12 m ρ c)
  rw [unary_result] at h ⊢
  rw [lift13 m ρ c main_v78 (by decide), lift13 m ρ c main_v77 (by decide)]
  exact h

theorem ssa_main_v79 (V : Valuation τ sig (Elt F)) :
    after hostOps3_2 V (Proc.devRef .tc main_v79) = (StableHlo.binary main_v78 main_v62 main_v79 (mulf : (⟨S100000x64, .f32⟩ : BufTy).Contents (Elt F) → (⟨S100000x64, .f32⟩ : BufTy).Contents (Elt F) → (⟨S100000x64, .f32⟩ : BufTy).Contents (Elt F)) : HloOp τ sig (Elt F)).result (after hostOps3_2 V) (Proc.devRef .tc main_v79) := by
  after_results_simp
theorem fin_main_v79 (c : Dev nD) :
    W55 m ρ c (Proc.devRef .tc main_v79) = (StableHlo.binary main_v78 main_v62 main_v79 (mulf : (⟨S100000x64, .f32⟩ : BufTy).Contents (Elt F) → (⟨S100000x64, .f32⟩ : BufTy).Contents (Elt F) → (⟨S100000x64, .f32⟩ : BufTy).Contents (Elt F)) : HloOp τ sig (Elt F)).result (W55 m ρ c) (Proc.devRef .tc main_v79) := by
  have h := ssa_main_v79 (F := F) (W12 m ρ c)
  rw [binary_result] at h ⊢
  rw [lift13 m ρ c main_v79 (by decide), lift13 m ρ c main_v78 (by decide), lift13 m ρ c main_v62 (by decide)]
  exact h

theorem ssa_main_v80 (V : Valuation τ sig (Elt F)) :
    after hostOps3_2 V (Proc.devRef .tc main_v80) = (StableHlo.unary main_v76 main_v80 (broadcastInDim S1x64 ![1] bcast_S64_S1x64_1 : (⟨S64, .f32⟩ : BufTy).Contents (Elt F) → (⟨S1x64, .f32⟩ : BufTy).Contents (Elt F)) : HloOp τ sig (Elt F)).result (after hostOps3_2 V) (Proc.devRef .tc main_v80) := by
  after_results_simp
theorem fin_main_v80 (c : Dev nD) :
    W55 m ρ c (Proc.devRef .tc main_v80) = (StableHlo.unary main_v76 main_v80 (broadcastInDim S1x64 ![1] bcast_S64_S1x64_1 : (⟨S64, .f32⟩ : BufTy).Contents (Elt F) → (⟨S1x64, .f32⟩ : BufTy).Contents (Elt F)) : HloOp τ sig (Elt F)).result (W55 m ρ c) (Proc.devRef .tc main_v80) := by
  have h := ssa_main_v80 (F := F) (W12 m ρ c)
  rw [unary_result] at h ⊢
  rw [lift13 m ρ c main_v80 (by decide), lift13 m ρ c main_v76 (by decide)]
  exact h

theorem ssa_main_v81 (V : Valuation τ sig (Elt F)) :
    after hostOps3_2 V (Proc.devRef .tc main_v81) = (StableHlo.unary main_v80 main_v81 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after hostOps3_2 V) (Proc.devRef .tc main_v81) := by
  after_results_simp
theorem fin_main_v81 (c : Dev nD) :
    W55 m ρ c (Proc.devRef .tc main_v81) = (StableHlo.unary main_v80 main_v81 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (W55 m ρ c) (Proc.devRef .tc main_v81) := by
  have h := ssa_main_v81 (F := F) (W12 m ρ c)
  rw [unary_result] at h ⊢
  rw [lift13 m ρ c main_v81 (by decide), lift13 m ρ c main_v80 (by decide)]
  exact h

theorem ssa_main_v82 (V : Valuation τ sig (Elt F)) :
    after hostOps3_2 V (Proc.devRef .tc main_v82) = (StableHlo.binary main_v79 main_v81 main_v82 (addf : (⟨S100000x64, .f32⟩ : BufTy).Contents (Elt F) → (⟨S100000x64, .f32⟩ : BufTy).Contents (Elt F) → (⟨S100000x64, .f32⟩ : BufTy).Contents (Elt F)) : HloOp τ sig (Elt F)).result (after hostOps3_2 V) (Proc.devRef .tc main_v82) := by
  after_results_simp
theorem fin_main_v82 (c : Dev nD) :
    W55 m ρ c (Proc.devRef .tc main_v82) = (StableHlo.binary main_v79 main_v81 main_v82 (addf : (⟨S100000x64, .f32⟩ : BufTy).Contents (Elt F) → (⟨S100000x64, .f32⟩ : BufTy).Contents (Elt F) → (⟨S100000x64, .f32⟩ : BufTy).Contents (Elt F)) : HloOp τ sig (Elt F)).result (W55 m ρ c) (Proc.devRef .tc main_v82) := by
  have h := ssa_main_v82 (F := F) (W12 m ρ c)
  rw [binary_result] at h ⊢
  rw [lift13 m ρ c main_v82 (by decide), lift13 m ρ c main_v79 (by decide), lift13 m ρ c main_v81 (by decide)]
  exact h

theorem ssa_main_cst_12 (V : Valuation τ sig (Elt F)) :
    after hostOps3_2 V (Proc.devRef .tc main_cst_12) = (StableHlo.nullary main_cst_12 (constant S_ .f32 0x00000000#32) : HloOp τ sig (Elt F)).result (after hostOps3_2 V) (Proc.devRef .tc main_cst_12) := by
  after_results_simp
theorem fin_main_cst_12 (c : Dev nD) :
    W55 m ρ c (Proc.devRef .tc main_cst_12) = (StableHlo.nullary main_cst_12 (constant S_ .f32 0x00000000#32) : HloOp τ sig (Elt F)).result (W55 m ρ c) (Proc.devRef .tc main_cst_12) := by
  have h := ssa_main_cst_12 (F := F) (W12 m ρ c)
  rw [nullary_result] at h ⊢
  rw [lift13 m ρ c main_cst_12 (by decide)]
  exact h

theorem ssa_main_v83 (V : Valuation τ sig (Elt F)) :
    after hostOps3_2 V (Proc.devRef .tc main_v83) = (StableHlo.unary main_cst_12 main_v83 (broadcastInDim S100000x64 ![] bcast_S_S100000x64 : (⟨S_, .f32⟩ : BufTy).Contents (Elt F) → (⟨S100000x64, .f32⟩ : BufTy).Contents (Elt F)) : HloOp τ sig (Elt F)).result (after hostOps3_2 V) (Proc.devRef .tc main_v83) := by
  after_results_simp
theorem fin_main_v83 (c : Dev nD) :
    W55 m ρ c (Proc.devRef .tc main_v83) = (StableHlo.unary main_cst_12 main_v83 (broadcastInDim S100000x64 ![] bcast_S_S100000x64 : (⟨S_, .f32⟩ : BufTy).Contents (Elt F) → (⟨S100000x64, .f32⟩ : BufTy).Contents (Elt F)) : HloOp τ sig (Elt F)).result (W55 m ρ c) (Proc.devRef .tc main_v83) := by
  have h := ssa_main_v83 (F := F) (W12 m ρ c)
  rw [unary_result] at h ⊢
  rw [lift13 m ρ c main_v83 (by decide), lift13 m ρ c main_cst_12 (by decide)]
  exact h

theorem ssa_main_v84 (V : Valuation τ sig (Elt F)) :
    after hostOps3_2 V (Proc.devRef .tc main_v84) = (StableHlo.binary main_v82 main_v83 main_v84 (cmpf .oge : (⟨S100000x64, .f32⟩ : BufTy).Contents (Elt F) → (⟨S100000x64, .f32⟩ : BufTy).Contents (Elt F) → (⟨S100000x64, .i1⟩ : BufTy).Contents (Elt F)) : HloOp τ sig (Elt F)).result (after hostOps3_2 V) (Proc.devRef .tc main_v84) := by
  after_results_simp
theorem fin_main_v84 (c : Dev nD) :
    W55 m ρ c (Proc.devRef .tc main_v84) = (StableHlo.binary main_v82 main_v83 main_v84 (cmpf .oge : (⟨S100000x64, .f32⟩ : BufTy).Contents (Elt F) → (⟨S100000x64, .f32⟩ : BufTy).Contents (Elt F) → (⟨S100000x64, .i1⟩ : BufTy).Contents (Elt F)) : HloOp τ sig (Elt F)).result (W55 m ρ c) (Proc.devRef .tc main_v84) := by
  have h := ssa_main_v84 (F := F) (W12 m ρ c)
  rw [binary_result] at h ⊢
  rw [lift13 m ρ c main_v84 (by decide), lift13 m ρ c main_v82 (by decide), lift13 m ρ c main_v83 (by decide)]
  exact h

theorem ssa_main_cst_13 (V : Valuation τ sig (Elt F)) :
    after hostOps3_2 V (Proc.devRef .tc main_cst_13) = (StableHlo.nullary main_cst_13 (constant S_ .f32 0x3C23D70A#32) : HloOp τ sig (Elt F)).result (after hostOps3_2 V) (Proc.devRef .tc main_cst_13) := by
  after_results_simp
theorem fin_main_cst_13 (c : Dev nD) :
    W55 m ρ c (Proc.devRef .tc main_cst_13) = (StableHlo.nullary main_cst_13 (constant S_ .f32 0x3C23D70A#32) : HloOp τ sig (Elt F)).result (W55 m ρ c) (Proc.devRef .tc main_cst_13) := by
  have h := ssa_main_cst_13 (F := F) (W12 m ρ c)
  rw [nullary_result] at h ⊢
  rw [lift13 m ρ c main_cst_13 (by decide)]
  exact h

theorem ssa_main_v85 (V : Valuation τ sig (Elt F)) :
    after hostOps3_2 V (Proc.devRef .tc main_v85) = (StableHlo.unary main_cst_13 main_v85 (broadcastInDim S100000x64 ![] bcast_S_S100000x64 : (⟨S_, .f32⟩ : BufTy).Contents (Elt F) → (⟨S100000x64, .f32⟩ : BufTy).Contents (Elt F)) : HloOp τ sig (Elt F)).result (after hostOps3_2 V) (Proc.devRef .tc main_v85) := by
  after_results_simp
theorem fin_main_v85 (c : Dev nD) :
    W55 m ρ c (Proc.devRef .tc main_v85) = (StableHlo.unary main_cst_13 main_v85 (broadcastInDim S100000x64 ![] bcast_S_S100000x64 : (⟨S_, .f32⟩ : BufTy).Contents (Elt F) → (⟨S100000x64, .f32⟩ : BufTy).Contents (Elt F)) : HloOp τ sig (Elt F)).result (W55 m ρ c) (Proc.devRef .tc main_v85) := by
  have h := ssa_main_v85 (F := F) (W12 m ρ c)
  rw [unary_result] at h ⊢
  rw [lift13 m ρ c main_v85 (by decide), lift13 m ρ c main_cst_13 (by decide)]
  exact h

theorem ssa_main_v86 (V : Valuation τ sig (Elt F)) :
    after hostOps3_2 V (Proc.devRef .tc main_v86) = (StableHlo.binary main_v85 main_v82 main_v86 (mulf : (⟨S100000x64, .f32⟩ : BufTy).Contents (Elt F) → (⟨S100000x64, .f32⟩ : BufTy).Contents (Elt F) → (⟨S100000x64, .f32⟩ : BufTy).Contents (Elt F)) : HloOp τ sig (Elt F)).result (after hostOps3_2 V) (Proc.devRef .tc main_v86) := by
  after_results_simp
theorem fin_main_v86 (c : Dev nD) :
    W55 m ρ c (Proc.devRef .tc main_v86) = (StableHlo.binary main_v85 main_v82 main_v86 (mulf : (⟨S100000x64, .f32⟩ : BufTy).Contents (Elt F) → (⟨S100000x64, .f32⟩ : BufTy).Contents (Elt F) → (⟨S100000x64, .f32⟩ : BufTy).Contents (Elt F)) : HloOp τ sig (Elt F)).result (W55 m ρ c) (Proc.devRef .tc main_v86) := by
  have h := ssa_main_v86 (F := F) (W12 m ρ c)
  rw [binary_result] at h ⊢
  rw [lift13 m ρ c main_v86 (by decide), lift13 m ρ c main_v85 (by decide), lift13 m ρ c main_v82 (by decide)]
  exact h

theorem ssa_main_v87 (V : Valuation τ sig (Elt F)) :
    after hostOps3_3 V (Proc.devRef .tc main_v87) = (StableHlo.TRef.ternary (.of main_v84 : StableHlo.TRef sig ⟨S100000x64, .i1⟩) (.of main_v82 : StableHlo.TRef sig ⟨S100000x64, .f32⟩) (.of main_v86 : StableHlo.TRef sig ⟨S100000x64, .f32⟩) (.of main_v87 : StableHlo.TRef sig ⟨S100000x64, .f32⟩) select : HloOp τ sig (Elt F)).result (after hostOps3_3 V) (Proc.devRef .tc main_v87) := by
  after_results_simp
theorem fin_main_v87 (c : Dev nD) :
    W55 m ρ c (Proc.devRef .tc main_v87) = (StableHlo.TRef.ternary (.of main_v84 : StableHlo.TRef sig ⟨S100000x64, .i1⟩) (.of main_v82 : StableHlo.TRef sig ⟨S100000x64, .f32⟩) (.of main_v86 : StableHlo.TRef sig ⟨S100000x64, .f32⟩) (.of main_v87 : StableHlo.TRef sig ⟨S100000x64, .f32⟩) select : HloOp τ sig (Elt F)).result (W55 m ρ c) (Proc.devRef .tc main_v87) := by
  have h := ssa_main_v87 (F := F) (W13 m ρ c)
  rw [ternary_result] at h ⊢
  rw [lift14 m ρ c main_v87 (by decide), lift14 m ρ c main_v84 (by decide), lift14 m ρ c main_v82 (by decide), lift14 m ρ c main_v86 (by decide)]
  exact h

theorem ssa_main_c_14 (V : Valuation τ sig (Elt F)) :
    after hostOps3_4 V (Proc.devRef .tc main_c_14) = (StableHlo.nullary main_c_14 (constantI S_ 32 0#32) : HloOp τ sig (Elt F)).result (after hostOps3_4 V) (Proc.devRef .tc main_c_14) := by
  after_results_simp
theorem fin_main_c_14 (c : Dev nD) :
    W55 m ρ c (Proc.devRef .tc main_c_14) = (StableHlo.nullary main_c_14 (constantI S_ 32 0#32) : HloOp τ sig (Elt F)).result (W55 m ρ c) (Proc.devRef .tc main_c_14) := by
  have h := ssa_main_c_14 (F := F) (W14 m ρ c)
  rw [nullary_result] at h ⊢
  rw [lift15 m ρ c main_c_14 (by decide)]
  exact h

theorem ssa_main_v88 (V : Valuation τ sig (Elt F)) :
    after hostOps3_4 V (Proc.devRef .tc main_v88) = (StableHlo.unary main_c_14 main_v88 (broadcastInDim S1600000 ![] bcast_S_S1600000 : (⟨S_, .i32⟩ : BufTy).Contents (Elt F) → (⟨S1600000, .i32⟩ : BufTy).Contents (Elt F)) : HloOp τ sig (Elt F)).result (after hostOps3_4 V) (Proc.devRef .tc main_v88) := by
  after_results_simp
theorem fin_main_v88 (c : Dev nD) :
    W55 m ρ c (Proc.devRef .tc main_v88) = (StableHlo.unary main_c_14 main_v88 (broadcastInDim S1600000 ![] bcast_S_S1600000 : (⟨S_, .i32⟩ : BufTy).Contents (Elt F) → (⟨S1600000, .i32⟩ : BufTy).Contents (Elt F)) : HloOp τ sig (Elt F)).result (W55 m ρ c) (Proc.devRef .tc main_v88) := by
  have h := ssa_main_v88 (F := F) (W14 m ρ c)
  rw [unary_result] at h ⊢
  rw [lift15 m ρ c main_v88 (by decide), lift15 m ρ c main_c_14 (by decide)]
  exact h

theorem ssa_main_v89 (V : Valuation τ sig (Elt F)) :
    after hostOps3_4 V (Proc.devRef .tc main_v89) = (StableHlo.binary main_v1 main_v88 main_v89 (cmpi .slt : (⟨S1600000, .i32⟩ : BufTy).Contents (Elt F) → (⟨S1600000, .i32⟩ : BufTy).Contents (Elt F) → (⟨S1600000, .i1⟩ : BufTy).Contents (Elt F)) : HloOp τ sig (Elt F)).result (after hostOps3_4 V) (Proc.devRef .tc main_v89) := by
  after_results_simp
theorem fin_main_v89 (c : Dev nD) :
    W55 m ρ c (Proc.devRef .tc main_v89) = (StableHlo.binary main_v1 main_v88 main_v89 (cmpi .slt : (⟨S1600000, .i32⟩ : BufTy).Contents (Elt F) → (⟨S1600000, .i32⟩ : BufTy).Contents (Elt F) → (⟨S1600000, .i1⟩ : BufTy).Contents (Elt F)) : HloOp τ sig (Elt F)).result (W55 m ρ c) (Proc.devRef .tc main_v89) := by
  have h := ssa_main_v89 (F := F) (W14 m ρ c)
  rw [binary_result] at h ⊢
  rw [lift15 m ρ c main_v89 (by decide), lift15 m ρ c main_v1 (by decide), lift15 m ρ c main_v88 (by decide)]
  exact h

theorem ssa_main_c_15 (V : Valuation τ sig (Elt F)) :
    after hostOps3_4 V (Proc.devRef .tc main_c_15) = (StableHlo.nullary main_c_15 (constantI S_ 32 100000#32) : HloOp τ sig (Elt F)).result (after hostOps3_4 V) (Proc.devRef .tc main_c_15) := by
  after_results_simp
theorem fin_main_c_15 (c : Dev nD) :
    W55 m ρ c (Proc.devRef .tc main_c_15) = (StableHlo.nullary main_c_15 (constantI S_ 32 100000#32) : HloOp τ sig (Elt F)).result (W55 m ρ c) (Proc.devRef .tc main_c_15) := by
  have h := ssa_main_c_15 (F := F) (W14 m ρ c)
  rw [nullary_result] at h ⊢
  rw [lift15 m ρ c main_c_15 (by decide)]
  exact h

theorem ssa_main_v90 (V : Valuation τ sig (Elt F)) :
    after hostOps3_4 V (Proc.devRef .tc main_v90) = (StableHlo.unary main_c_15 main_v90 (broadcastInDim S1600000 ![] bcast_S_S1600000 : (⟨S_, .i32⟩ : BufTy).Contents (Elt F) → (⟨S1600000, .i32⟩ : BufTy).Contents (Elt F)) : HloOp τ sig (Elt F)).result (after hostOps3_4 V) (Proc.devRef .tc main_v90) := by
  after_results_simp
theorem fin_main_v90 (c : Dev nD) :
    W55 m ρ c (Proc.devRef .tc main_v90) = (StableHlo.unary main_c_15 main_v90 (broadcastInDim S1600000 ![] bcast_S_S1600000 : (⟨S_, .i32⟩ : BufTy).Contents (Elt F) → (⟨S1600000, .i32⟩ : BufTy).Contents (Elt F)) : HloOp τ sig (Elt F)).result (W55 m ρ c) (Proc.devRef .tc main_v90) := by
  have h := ssa_main_v90 (F := F) (W14 m ρ c)
  rw [unary_result] at h ⊢
  rw [lift15 m ρ c main_v90 (by decide), lift15 m ρ c main_c_15 (by decide)]
  exact h

theorem ssa_main_v91 (V : Valuation τ sig (Elt F)) :
    after hostOps3_4 V (Proc.devRef .tc main_v91) = (StableHlo.binary main_v1 main_v90 main_v91 (addi : (⟨S1600000, .i32⟩ : BufTy).Contents (Elt F) → (⟨S1600000, .i32⟩ : BufTy).Contents (Elt F) → (⟨S1600000, .i32⟩ : BufTy).Contents (Elt F)) : HloOp τ sig (Elt F)).result (after hostOps3_4 V) (Proc.devRef .tc main_v91) := by
  after_results_simp
theorem fin_main_v91 (c : Dev nD) :
    W55 m ρ c (Proc.devRef .tc main_v91) = (StableHlo.binary main_v1 main_v90 main_v91 (addi : (⟨S1600000, .i32⟩ : BufTy).Contents (Elt F) → (⟨S1600000, .i32⟩ : BufTy).Contents (Elt F) → (⟨S1600000, .i32⟩ : BufTy).Contents (Elt F)) : HloOp τ sig (Elt F)).result (W55 m ρ c) (Proc.devRef .tc main_v91) := by
  have h := ssa_main_v91 (F := F) (W14 m ρ c)
  rw [binary_result] at h ⊢
  rw [lift15 m ρ c main_v91 (by decide), lift15 m ρ c main_v1 (by decide), lift15 m ρ c main_v90 (by decide)]
  exact h

theorem ssa_main_v92 (V : Valuation τ sig (Elt F)) :
    after hostOps3_4 V (Proc.devRef .tc main_v92) = (StableHlo.ternary main_v89 main_v91 main_v1 main_v92 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) : HloOp τ sig (Elt F)).result (after hostOps3_4 V) (Proc.devRef .tc main_v92) := by
  after_results_simp
theorem fin_main_v92 (c : Dev nD) :
    W55 m ρ c (Proc.devRef .tc main_v92) = (StableHlo.ternary main_v89 main_v91 main_v1 main_v92 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) : HloOp τ sig (Elt F)).result (W55 m ρ c) (Proc.devRef .tc main_v92) := by
  have h := ssa_main_v92 (F := F) (W14 m ρ c)
  rw [ternary_result] at h ⊢
  rw [lift15 m ρ c main_v92 (by decide), lift15 m ρ c main_v89 (by decide), lift15 m ρ c main_v91 (by decide), lift15 m ρ c main_v1 (by decide)]
  exact h

theorem ssa_main_v93 (V : Valuation τ sig (Elt F)) :
    after hostOps3_4 V (Proc.devRef .tc main_v93) = (StableHlo.unary main_v92 main_v93 (broadcastInDim S1600000x1 ![0] bcast_S1600000_S1600000x1_0 : (⟨S1600000, .i32⟩ : BufTy).Contents (Elt F) → (⟨S1600000x1, .i32⟩ : BufTy).Contents (Elt F)) : HloOp τ sig (Elt F)).result (after hostOps3_4 V) (Proc.devRef .tc main_v93) := by
  after_results_simp
theorem fin_main_v93 (c : Dev nD) :
    W55 m ρ c (Proc.devRef .tc main_v93) = (StableHlo.unary main_v92 main_v93 (broadcastInDim S1600000x1 ![0] bcast_S1600000_S1600000x1_0 : (⟨S1600000, .i32⟩ : BufTy).Contents (Elt F) → (⟨S1600000x1, .i32⟩ : BufTy).Contents (Elt F)) : HloOp τ sig (Elt F)).result (W55 m ρ c) (Proc.devRef .tc main_v93) := by
  have h := ssa_main_v93 (F := F) (W14 m ρ c)
  rw [unary_result] at h ⊢
  rw [lift15 m ρ c main_v93 (by decide), lift15 m ρ c main_v92 (by decide)]
  exact h

theorem ssa_main_v94 (V : Valuation τ sig (Elt F)) :
    after hostOps3_4 V (Proc.devRef .tc main_v94) = (StableHlo.binary main_v87 main_v93 main_v94 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) : HloOp τ sig (Elt F)).result (after hostOps3_4 V) (Proc.devRef .tc main_v94) := by
  after_results_simp
theorem fin_main_v94 (c : Dev nD) :
    W55 m ρ c (Proc.devRef .tc main_v94) = (StableHlo.binary main_v87 main_v93 main_v94 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) : HloOp τ sig (Elt F)).result (W55 m ρ c) (Proc.devRef .tc main_v94) := by
  have h := ssa_main_v94 (F := F) (W14 m ρ c)
  rw [binary_result] at h ⊢
  rw [lift15 m ρ c main_v94 (by decide), lift15 m ρ c main_v87 (by decide), lift15 m ρ c main_v93 (by decide)]
  exact h

theorem ssa_main_v95 (V : Valuation τ sig (Elt F)) :
    after hostOps3_4 V (Proc.devRef .tc main_v95) = (StableHlo.unary main_arg4 main_v95 ((extractStridedSlice S1x16x64 ![1, 0, 0] · slices_S3x16x64_S1x16x64_1_0_0) : (⟨S3x16x64, .f32⟩ : BufTy).Contents (Elt F) → (⟨S1x16x64, .f32⟩ : BufTy).Contents (Elt F)) : HloOp τ sig (Elt F)).result (after hostOps3_4 V) (Proc.devRef .tc main_v95) := by
  after_results_simp
theorem fin_main_v95 (c : Dev nD) :
    W55 m ρ c (Proc.devRef .tc main_v95) = (StableHlo.unary main_arg4 main_v95 ((extractStridedSlice S1x16x64 ![1, 0, 0] · slices_S3x16x64_S1x16x64_1_0_0) : (⟨S3x16x64, .f32⟩ : BufTy).Contents (Elt F) → (⟨S1x16x64, .f32⟩ : BufTy).Contents (Elt F)) : HloOp τ sig (Elt F)).result (W55 m ρ c) (Proc.devRef .tc main_v95) := by
  have h := ssa_main_v95 (F := F) (W14 m ρ c)
  rw [unary_result] at h ⊢
  rw [lift15 m ρ c main_v95 (by decide), lift15 m ρ c main_arg4 (by decide)]
  exact h

theorem ssa_main_v96 (V : Valuation τ sig (Elt F)) :
    after hostOps3_4 V (Proc.devRef .tc main_v96) = (StableHlo.reshape main_v95 main_v96 rfl shapeCasts_S1x16x64_S16x64 : HloOp τ sig (Elt F)).result (after hostOps3_4 V) (Proc.devRef .tc main_v96) := by
  after_results_simp
theorem fin_main_v96 (c : Dev nD) :
    W55 m ρ c (Proc.devRef .tc main_v96) = (StableHlo.reshape main_v95 main_v96 rfl shapeCasts_S1x16x64_S16x64 : HloOp τ sig (Elt F)).result (W55 m ρ c) (Proc.devRef .tc main_v96) := by
  have h := ssa_main_v96 (F := F) (W14 m ρ c)
  rw [reshape_result] at h ⊢
  rw [lift15 m ρ c main_v96 (by decide), lift15 m ρ c main_v95 (by decide)]
  exact h

theorem ssa_main_v97 (V : Valuation τ sig (Elt F)) :
    after hostOps3_4 V (Proc.devRef .tc main_v97) = (StableHlo.unary main_arg5 main_v97 ((extractStridedSlice S1x64 ![1, 0] · slices_S3x64_S1x64_1_0) : (⟨S3x64, .f32⟩ : BufTy).Contents (Elt F) → (⟨S1x64, .f32⟩ : BufTy).Contents (Elt F)) : HloOp τ sig (Elt F)).result (after hostOps3_4 V) (Proc.devRef .tc main_v97) := by
  after_results_simp
theorem fin_main_v97 (c : Dev nD) :
    W55 m ρ c (Proc.devRef .tc main_v97) = (StableHlo.unary main_arg5 main_v97 ((extractStridedSlice S1x64 ![1, 0] · slices_S3x64_S1x64_1_0) : (⟨S3x64, .f32⟩ : BufTy).Contents (Elt F) → (⟨S1x64, .f32⟩ : BufTy).Contents (Elt F)) : HloOp τ sig (Elt F)).result (W55 m ρ c) (Proc.devRef .tc main_v97) := by
  have h := ssa_main_v97 (F := F) (W14 m ρ c)
  rw [unary_result] at h ⊢
  rw [lift15 m ρ c main_v97 (by decide), lift15 m ρ c main_arg5 (by decide)]
  exact h

theorem ssa_main_v98 (V : Valuation τ sig (Elt F)) :
    after hostOps3_4 V (Proc.devRef .tc main_v98) = (StableHlo.reshape main_v97 main_v98 rfl shapeCasts_S1x64_S64 : HloOp τ sig (Elt F)).result (after hostOps3_4 V) (Proc.devRef .tc main_v98) := by
  after_results_simp
theorem fin_main_v98 (c : Dev nD) :
    W55 m ρ c (Proc.devRef .tc main_v98) = (StableHlo.reshape main_v97 main_v98 rfl shapeCasts_S1x64_S64 : HloOp τ sig (Elt F)).result (W55 m ρ c) (Proc.devRef .tc main_v98) := by
  have h := ssa_main_v98 (F := F) (W14 m ρ c)
  rw [reshape_result] at h ⊢
  rw [lift15 m ρ c main_v98 (by decide), lift15 m ρ c main_v97 (by decide)]
  exact h

theorem ssa_main_v99 (V : Valuation τ sig (Elt F)) :
    after hostOps3_4 V (Proc.devRef .tc main_v99) = (StableHlo.reshape main_v98 main_v99 rfl shapeCasts_S64_S1x64 : HloOp τ sig (Elt F)).result (after hostOps3_4 V) (Proc.devRef .tc main_v99) := by
  after_results_simp
theorem fin_main_v99 (c : Dev nD) :
    W55 m ρ c (Proc.devRef .tc main_v99) = (StableHlo.reshape main_v98 main_v99 rfl shapeCasts_S64_S1x64 : HloOp τ sig (Elt F)).result (W55 m ρ c) (Proc.devRef .tc main_v99) := by
  have h := ssa_main_v99 (F := F) (W14 m ρ c)
  rw [reshape_result] at h ⊢
  rw [lift15 m ρ c main_v99 (by decide), lift15 m ρ c main_v98 (by decide)]
  exact h

end Cert.KernelIdeal.Tab

end
-- ==== Proof.TabKSsa2.lean ====
/- Host stretches hostOps4, hostOps5, hostOps5_1, hostOps5_2, hostOps5_3, hostOps5_4, hostOps6 of the kernel program read one operation at a time: each buffer a stretch writes holds its operation's
   function of the operands, within the stretch from any contents and, at the last boundary of the run, over the last boundary's contents. -/
import proofs.«409037_j72164040508123_1_alg».proof.Proof.TabK

set_option maxRecDepth 16384

noncomputable section

namespace Cert.KernelIdeal.Tab

open Cert.KernelIdeal Cert.KernelIdeal.Gen Cert.KernelIdeal.GenP Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

theorem ssa_main_cst_16 (V : Valuation τ sig (Elt F)) :
    after hostOps4 V (Proc.devRef .tc main_cst_16) = (StableHlo.nullary main_cst_16 (constant S_ .f32 0x00000000#32) : HloOp τ sig (Elt F)).result (after hostOps4 V) (Proc.devRef .tc main_cst_16) := by
  after_results_simp
theorem fin_main_cst_16 (c : Dev nD) :
    W55 m ρ c (Proc.devRef .tc main_cst_16) = (StableHlo.nullary main_cst_16 (constant S_ .f32 0x00000000#32) : HloOp τ sig (Elt F)).result (W55 m ρ c) (Proc.devRef .tc main_cst_16) := by
  have h := ssa_main_cst_16 (F := F) (W16 m ρ c)
  rw [nullary_result] at h ⊢
  rw [lift17 m ρ c main_cst_16 (by decide)]
  exact h

theorem ssa_main_v101 (V : Valuation τ sig (Elt F)) :
    after hostOps4 V (Proc.devRef .tc main_v101) = (StableHlo.unary main_cst_16 main_v101 (broadcastInDim S100000x64 ![] bcast_S_S100000x64 : (⟨S_, .f32⟩ : BufTy).Contents (Elt F) → (⟨S100000x64, .f32⟩ : BufTy).Contents (Elt F)) : HloOp τ sig (Elt F)).result (after hostOps4 V) (Proc.devRef .tc main_v101) := by
  after_results_simp
theorem fin_main_v101 (c : Dev nD) :
    W55 m ρ c (Proc.devRef .tc main_v101) = (StableHlo.unary main_cst_16 main_v101 (broadcastInDim S100000x64 ![] bcast_S_S100000x64 : (⟨S_, .f32⟩ : BufTy).Contents (Elt F) → (⟨S100000x64, .f32⟩ : BufTy).Contents (Elt F)) : HloOp τ sig (Elt F)).result (W55 m ρ c) (Proc.devRef .tc main_v101) := by
  have h := ssa_main_v101 (F := F) (W16 m ρ c)
  rw [unary_result] at h ⊢
  rw [lift17 m ρ c main_v101 (by decide), lift17 m ρ c main_cst_16 (by decide)]
  exact h

theorem ssa_main_v102 (V : Valuation τ sig (Elt F)) :
    after hostOps4 V (Proc.devRef .tc main_v102) = (StableHlo.unary main_v3 main_v102 (broadcastInDim S1600000x1 ![0] bcast_S1600000_S1600000x1_0 : (⟨S1600000, .i32⟩ : BufTy).Contents (Elt F) → (⟨S1600000x1, .i32⟩ : BufTy).Contents (Elt F)) : HloOp τ sig (Elt F)).result (after hostOps4 V) (Proc.devRef .tc main_v102) := by
  after_results_simp
theorem fin_main_v102 (c : Dev nD) :
    W55 m ρ c (Proc.devRef .tc main_v102) = (StableHlo.unary main_v3 main_v102 (broadcastInDim S1600000x1 ![0] bcast_S1600000_S1600000x1_0 : (⟨S1600000, .i32⟩ : BufTy).Contents (Elt F) → (⟨S1600000x1, .i32⟩ : BufTy).Contents (Elt F)) : HloOp τ sig (Elt F)).result (W55 m ρ c) (Proc.devRef .tc main_v102) := by
  have h := ssa_main_v102 (F := F) (W16 m ρ c)
  rw [unary_result] at h ⊢
  rw [lift17 m ρ c main_v102 (by decide), lift17 m ρ c main_v3 (by decide)]
  exact h

theorem ssa_main_v103 (V : Valuation τ sig (Elt F)) :
    after hostOps4 V (Proc.devRef .tc main_v103) = (StableHlo.ternary main_v101 main_v102 main_v100 main_v103 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) : HloOp τ sig (Elt F)).result (after hostOps4 V) (Proc.devRef .tc main_v103) := by
  after_results_simp
theorem fin_main_v103 (c : Dev nD) :
    W55 m ρ c (Proc.devRef .tc main_v103) = (StableHlo.ternary main_v101 main_v102 main_v100 main_v103 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) : HloOp τ sig (Elt F)).result (W55 m ρ c) (Proc.devRef .tc main_v103) := by
  have h := ssa_main_v103 (F := F) (W16 m ρ c)
  rw [ternary_result] at h ⊢
  rw [lift17 m ρ c main_v103 (by decide), lift17 m ρ c main_v101 (by decide), lift17 m ρ c main_v102 (by decide), lift17 m ρ c main_v100 (by decide)]
  exact h

theorem ssa_main_v104 (V : Valuation τ sig (Elt F)) :
    after hostOps4 V (Proc.devRef .tc main_v104) = (StableHlo.unary main_arg6 main_v104 ((extractStridedSlice S1 ![1] · slices_S3_S1_1) : (⟨S3, .f32⟩ : BufTy).Contents (Elt F) → (⟨S1, .f32⟩ : BufTy).Contents (Elt F)) : HloOp τ sig (Elt F)).result (after hostOps4 V) (Proc.devRef .tc main_v104) := by
  after_results_simp
theorem fin_main_v104 (c : Dev nD) :
    W55 m ρ c (Proc.devRef .tc main_v104) = (StableHlo.unary main_arg6 main_v104 ((extractStridedSlice S1 ![1] · slices_S3_S1_1) : (⟨S3, .f32⟩ : BufTy).Contents (Elt F) → (⟨S1, .f32⟩ : BufTy).Contents (Elt F)) : HloOp τ sig (Elt F)).result (W55 m ρ c) (Proc.devRef .tc main_v104) := by
  have h := ssa_main_v104 (F := F) (W16 m ρ c)
  rw [unary_result] at h ⊢
  rw [lift17 m ρ c main_v104 (by decide), lift17 m ρ c main_arg6 (by decide)]
  exact h

theorem ssa_main_v105 (V : Valuation τ sig (Elt F)) :
    after hostOps4 V (Proc.devRef .tc main_v105) = (StableHlo.reshape main_v104 main_v105 rfl shapeCasts_S1_S_ : HloOp τ sig (Elt F)).result (after hostOps4 V) (Proc.devRef .tc main_v105) := by
  after_results_simp
theorem fin_main_v105 (c : Dev nD) :
    W55 m ρ c (Proc.devRef .tc main_v105) = (StableHlo.reshape main_v104 main_v105 rfl shapeCasts_S1_S_ : HloOp τ sig (Elt F)).result (W55 m ρ c) (Proc.devRef .tc main_v105) := by
  have h := ssa_main_v105 (F := F) (W16 m ρ c)
  rw [reshape_result] at h ⊢
  rw [lift17 m ρ c main_v105 (by decide), lift17 m ρ c main_v104 (by decide)]
  exact h

theorem ssa_main_cst_17 (V : Valuation τ sig (Elt F)) :
    after hostOps4 V (Proc.devRef .tc main_cst_17) = (StableHlo.nullary main_cst_17 (constant S_ .f32 0x3F800000#32) : HloOp τ sig (Elt F)).result (after hostOps4 V) (Proc.devRef .tc main_cst_17) := by
  after_results_simp
theorem fin_main_cst_17 (c : Dev nD) :
    W55 m ρ c (Proc.devRef .tc main_cst_17) = (StableHlo.nullary main_cst_17 (constant S_ .f32 0x3F800000#32) : HloOp τ sig (Elt F)).result (W55 m ρ c) (Proc.devRef .tc main_cst_17) := by
  have h := ssa_main_cst_17 (F := F) (W16 m ρ c)
  rw [nullary_result] at h ⊢
  rw [lift17 m ρ c main_cst_17 (by decide)]
  exact h

theorem ssa_main_v106 (V : Valuation τ sig (Elt F)) :
    after hostOps4 V (Proc.devRef .tc main_v106) = (StableHlo.binary main_cst_17 main_v105 main_v106 (addf : (⟨S_, .f32⟩ : BufTy).Contents (Elt F) → (⟨S_, .f32⟩ : BufTy).Contents (Elt F) → (⟨S_, .f32⟩ : BufTy).Contents (Elt F)) : HloOp τ sig (Elt F)).result (after hostOps4 V) (Proc.devRef .tc main_v106) := by
  after_results_simp
theorem fin_main_v106 (c : Dev nD) :
    W55 m ρ c (Proc.devRef .tc main_v106) = (StableHlo.binary main_cst_17 main_v105 main_v106 (addf : (⟨S_, .f32⟩ : BufTy).Contents (Elt F) → (⟨S_, .f32⟩ : BufTy).Contents (Elt F) → (⟨S_, .f32⟩ : BufTy).Contents (Elt F)) : HloOp τ sig (Elt F)).result (W55 m ρ c) (Proc.devRef .tc main_v106) := by
  have h := ssa_main_v106 (F := F) (W16 m ρ c)
  rw [binary_result] at h ⊢
  rw [lift17 m ρ c main_v106 (by decide), lift17 m ρ c main_cst_17 (by decide), lift17 m ρ c main_v105 (by decide)]
  exact h

theorem ssa_main_v107 (V : Valuation τ sig (Elt F)) :
    after hostOps4 V (Proc.devRef .tc main_v107) = (StableHlo.unary main_v106 main_v107 (broadcastInDim S100000x64 ![] bcast_S_S100000x64 : (⟨S_, .f32⟩ : BufTy).Contents (Elt F) → (⟨S100000x64, .f32⟩ : BufTy).Contents (Elt F)) : HloOp τ sig (Elt F)).result (after hostOps4 V) (Proc.devRef .tc main_v107) := by
  after_results_simp
theorem fin_main_v107 (c : Dev nD) :
    W55 m ρ c (Proc.devRef .tc main_v107) = (StableHlo.unary main_v106 main_v107 (broadcastInDim S100000x64 ![] bcast_S_S100000x64 : (⟨S_, .f32⟩ : BufTy).Contents (Elt F) → (⟨S100000x64, .f32⟩ : BufTy).Contents (Elt F)) : HloOp τ sig (Elt F)).result (W55 m ρ c) (Proc.devRef .tc main_v107) := by
  have h := ssa_main_v107 (F := F) (W16 m ρ c)
  rw [unary_result] at h ⊢
  rw [lift17 m ρ c main_v107 (by decide), lift17 m ρ c main_v106 (by decide)]
  exact h

theorem ssa_main_v108 (V : Valuation τ sig (Elt F)) :
    after hostOps4 V (Proc.devRef .tc main_v108) = (StableHlo.binary main_v107 main_v87 main_v108 (mulf : (⟨S100000x64, .f32⟩ : BufTy).Contents (Elt F) → (⟨S100000x64, .f32⟩ : BufTy).Contents (Elt F) → (⟨S100000x64, .f32⟩ : BufTy).Contents (Elt F)) : HloOp τ sig (Elt F)).result (after hostOps4 V) (Proc.devRef .tc main_v108) := by
  after_results_simp
theorem fin_main_v108 (c : Dev nD) :
    W55 m ρ c (Proc.devRef .tc main_v108) = (StableHlo.binary main_v107 main_v87 main_v108 (mulf : (⟨S100000x64, .f32⟩ : BufTy).Contents (Elt F) → (⟨S100000x64, .f32⟩ : BufTy).Contents (Elt F) → (⟨S100000x64, .f32⟩ : BufTy).Contents (Elt F)) : HloOp τ sig (Elt F)).result (W55 m ρ c) (Proc.devRef .tc main_v108) := by
  have h := ssa_main_v108 (F := F) (W16 m ρ c)
  rw [binary_result] at h ⊢
  rw [lift17 m ρ c main_v108 (by decide), lift17 m ρ c main_v107 (by decide), lift17 m ρ c main_v87 (by decide)]
  exact h

theorem ssa_main_v109 (V : Valuation τ sig (Elt F)) :
    after hostOps4 V (Proc.devRef .tc main_v109) = (StableHlo.binary main_v108 main_v103 main_v109 (addf : (⟨S100000x64, .f32⟩ : BufTy).Contents (Elt F) → (⟨S100000x64, .f32⟩ : BufTy).Contents (Elt F) → (⟨S100000x64, .f32⟩ : BufTy).Contents (Elt F)) : HloOp τ sig (Elt F)).result (after hostOps4 V) (Proc.devRef .tc main_v109) := by
  after_results_simp
theorem fin_main_v109 (c : Dev nD) :
    W55 m ρ c (Proc.devRef .tc main_v109) = (StableHlo.binary main_v108 main_v103 main_v109 (addf : (⟨S100000x64, .f32⟩ : BufTy).Contents (Elt F) → (⟨S100000x64, .f32⟩ : BufTy).Contents (Elt F) → (⟨S100000x64, .f32⟩ : BufTy).Contents (Elt F)) : HloOp τ sig (Elt F)).result (W55 m ρ c) (Proc.devRef .tc main_v109) := by
  have h := ssa_main_v109 (F := F) (W16 m ρ c)
  rw [binary_result] at h ⊢
  rw [lift17 m ρ c main_v109 (by decide), lift17 m ρ c main_v108 (by decide), lift17 m ρ c main_v103 (by decide)]
  exact h

theorem ssa_main_v110 (V : Valuation τ sig (Elt F)) :
    after hostOps4 V (Proc.devRef .tc main_v110) = (StableHlo.unary main_arg7 main_v110 ((extractStridedSlice S1x64x64 ![1, 0, 0] · slices_S3x64x64_S1x64x64_1_0_0) : (⟨S3x64x64, .f32⟩ : BufTy).Contents (Elt F) → (⟨S1x64x64, .f32⟩ : BufTy).Contents (Elt F)) : HloOp τ sig (Elt F)).result (after hostOps4 V) (Proc.devRef .tc main_v110) := by
  after_results_simp
theorem fin_main_v110 (c : Dev nD) :
    W55 m ρ c (Proc.devRef .tc main_v110) = (StableHlo.unary main_arg7 main_v110 ((extractStridedSlice S1x64x64 ![1, 0, 0] · slices_S3x64x64_S1x64x64_1_0_0) : (⟨S3x64x64, .f32⟩ : BufTy).Contents (Elt F) → (⟨S1x64x64, .f32⟩ : BufTy).Contents (Elt F)) : HloOp τ sig (Elt F)).result (W55 m ρ c) (Proc.devRef .tc main_v110) := by
  have h := ssa_main_v110 (F := F) (W16 m ρ c)
  rw [unary_result] at h ⊢
  rw [lift17 m ρ c main_v110 (by decide), lift17 m ρ c main_arg7 (by decide)]
  exact h

theorem ssa_main_v111 (V : Valuation τ sig (Elt F)) :
    after hostOps4 V (Proc.devRef .tc main_v111) = (StableHlo.reshape main_v110 main_v111 rfl shapeCasts_S1x64x64_S64x64 : HloOp τ sig (Elt F)).result (after hostOps4 V) (Proc.devRef .tc main_v111) := by
  after_results_simp
theorem fin_main_v111 (c : Dev nD) :
    W55 m ρ c (Proc.devRef .tc main_v111) = (StableHlo.reshape main_v110 main_v111 rfl shapeCasts_S1x64x64_S64x64 : HloOp τ sig (Elt F)).result (W55 m ρ c) (Proc.devRef .tc main_v111) := by
  have h := ssa_main_v111 (F := F) (W16 m ρ c)
  rw [reshape_result] at h ⊢
  rw [lift17 m ρ c main_v111 (by decide), lift17 m ρ c main_v110 (by decide)]
  exact h

theorem ssa_main_v112 (V : Valuation τ sig (Elt F)) :
    after hostOps4 V (Proc.devRef .tc main_v112) = (StableHlo.unary main_arg8 main_v112 ((extractStridedSlice S1x64 ![1, 0] · slices_S3x64_S1x64_1_0) : (⟨S3x64, .f32⟩ : BufTy).Contents (Elt F) → (⟨S1x64, .f32⟩ : BufTy).Contents (Elt F)) : HloOp τ sig (Elt F)).result (after hostOps4 V) (Proc.devRef .tc main_v112) := by
  after_results_simp
theorem fin_main_v112 (c : Dev nD) :
    W55 m ρ c (Proc.devRef .tc main_v112) = (StableHlo.unary main_arg8 main_v112 ((extractStridedSlice S1x64 ![1, 0] · slices_S3x64_S1x64_1_0) : (⟨S3x64, .f32⟩ : BufTy).Contents (Elt F) → (⟨S1x64, .f32⟩ : BufTy).Contents (Elt F)) : HloOp τ sig (Elt F)).result (W55 m ρ c) (Proc.devRef .tc main_v112) := by
  have h := ssa_main_v112 (F := F) (W16 m ρ c)
  rw [unary_result] at h ⊢
  rw [lift17 m ρ c main_v112 (by decide), lift17 m ρ c main_arg8 (by decide)]
  exact h

theorem ssa_main_v113 (V : Valuation τ sig (Elt F)) :
    after hostOps4 V (Proc.devRef .tc main_v113) = (StableHlo.reshape main_v112 main_v113 rfl shapeCasts_S1x64_S64 : HloOp τ sig (Elt F)).result (after hostOps4 V) (Proc.devRef .tc main_v113) := by
  after_results_simp
theorem fin_main_v113 (c : Dev nD) :
    W55 m ρ c (Proc.devRef .tc main_v113) = (StableHlo.reshape main_v112 main_v113 rfl shapeCasts_S1x64_S64 : HloOp τ sig (Elt F)).result (W55 m ρ c) (Proc.devRef .tc main_v113) := by
  have h := ssa_main_v113 (F := F) (W16 m ρ c)
  rw [reshape_result] at h ⊢
  rw [lift17 m ρ c main_v113 (by decide), lift17 m ρ c main_v112 (by decide)]
  exact h

theorem ssa_main_v114 (V : Valuation τ sig (Elt F)) :
    after hostOps4 V (Proc.devRef .tc main_v114) = (StableHlo.reshape main_v113 main_v114 rfl shapeCasts_S64_S1x64 : HloOp τ sig (Elt F)).result (after hostOps4 V) (Proc.devRef .tc main_v114) := by
  after_results_simp
theorem fin_main_v114 (c : Dev nD) :
    W55 m ρ c (Proc.devRef .tc main_v114) = (StableHlo.reshape main_v113 main_v114 rfl shapeCasts_S64_S1x64 : HloOp τ sig (Elt F)).result (W55 m ρ c) (Proc.devRef .tc main_v114) := by
  have h := ssa_main_v114 (F := F) (W16 m ρ c)
  rw [reshape_result] at h ⊢
  rw [lift17 m ρ c main_v114 (by decide), lift17 m ρ c main_v113 (by decide)]
  exact h

theorem ssa_main_v116 (V : Valuation τ sig (Elt F)) :
    after hostOps5 V (Proc.devRef .tc main_v116) = (StableHlo.unary main_arg9 main_v116 ((extractStridedSlice S1x64 ![1, 0] · slices_S3x64_S1x64_1_0) : (⟨S3x64, .f32⟩ : BufTy).Contents (Elt F) → (⟨S1x64, .f32⟩ : BufTy).Contents (Elt F)) : HloOp τ sig (Elt F)).result (after hostOps5 V) (Proc.devRef .tc main_v116) := by
  after_results_simp
theorem fin_main_v116 (c : Dev nD) :
    W55 m ρ c (Proc.devRef .tc main_v116) = (StableHlo.unary main_arg9 main_v116 ((extractStridedSlice S1x64 ![1, 0] · slices_S3x64_S1x64_1_0) : (⟨S3x64, .f32⟩ : BufTy).Contents (Elt F) → (⟨S1x64, .f32⟩ : BufTy).Contents (Elt F)) : HloOp τ sig (Elt F)).result (W55 m ρ c) (Proc.devRef .tc main_v116) := by
  have h := ssa_main_v116 (F := F) (W18 m ρ c)
  rw [unary_result] at h ⊢
  rw [lift19 m ρ c main_v116 (by decide), lift19 m ρ c main_arg9 (by decide)]
  exact h

theorem ssa_main_v117 (V : Valuation τ sig (Elt F)) :
    after hostOps5 V (Proc.devRef .tc main_v117) = (StableHlo.reshape main_v116 main_v117 rfl shapeCasts_S1x64_S64 : HloOp τ sig (Elt F)).result (after hostOps5 V) (Proc.devRef .tc main_v117) := by
  after_results_simp
theorem fin_main_v117 (c : Dev nD) :
    W55 m ρ c (Proc.devRef .tc main_v117) = (StableHlo.reshape main_v116 main_v117 rfl shapeCasts_S1x64_S64 : HloOp τ sig (Elt F)).result (W55 m ρ c) (Proc.devRef .tc main_v117) := by
  have h := ssa_main_v117 (F := F) (W18 m ρ c)
  rw [reshape_result] at h ⊢
  rw [lift19 m ρ c main_v117 (by decide), lift19 m ρ c main_v116 (by decide)]
  exact h

theorem ssa_main_v118 (V : Valuation τ sig (Elt F)) :
    after hostOps5 V (Proc.devRef .tc main_v118) = (StableHlo.unary main_arg10 main_v118 ((extractStridedSlice S1x64 ![1, 0] · slices_S3x64_S1x64_1_0) : (⟨S3x64, .f32⟩ : BufTy).Contents (Elt F) → (⟨S1x64, .f32⟩ : BufTy).Contents (Elt F)) : HloOp τ sig (Elt F)).result (after hostOps5 V) (Proc.devRef .tc main_v118) := by
  after_results_simp
theorem fin_main_v118 (c : Dev nD) :
    W55 m ρ c (Proc.devRef .tc main_v118) = (StableHlo.unary main_arg10 main_v118 ((extractStridedSlice S1x64 ![1, 0] · slices_S3x64_S1x64_1_0) : (⟨S3x64, .f32⟩ : BufTy).Contents (Elt F) → (⟨S1x64, .f32⟩ : BufTy).Contents (Elt F)) : HloOp τ sig (Elt F)).result (W55 m ρ c) (Proc.devRef .tc main_v118) := by
  have h := ssa_main_v118 (F := F) (W18 m ρ c)
  rw [unary_result] at h ⊢
  rw [lift19 m ρ c main_v118 (by decide), lift19 m ρ c main_arg10 (by decide)]
  exact h

theorem ssa_main_v119 (V : Valuation τ sig (Elt F)) :
    after hostOps5 V (Proc.devRef .tc main_v119) = (StableHlo.reshape main_v118 main_v119 rfl shapeCasts_S1x64_S64 : HloOp τ sig (Elt F)).result (after hostOps5 V) (Proc.devRef .tc main_v119) := by
  after_results_simp
theorem fin_main_v119 (c : Dev nD) :
    W55 m ρ c (Proc.devRef .tc main_v119) = (StableHlo.reshape main_v118 main_v119 rfl shapeCasts_S1x64_S64 : HloOp τ sig (Elt F)).result (W55 m ρ c) (Proc.devRef .tc main_v119) := by
  have h := ssa_main_v119 (F := F) (W18 m ρ c)
  rw [reshape_result] at h ⊢
  rw [lift19 m ρ c main_v119 (by decide), lift19 m ρ c main_v118 (by decide)]
  exact h

theorem ssa_main_cst_18 (V : Valuation τ sig (Elt F)) :
    after hostOps5 V (Proc.devRef .tc main_cst_18) = (StableHlo.nullary main_cst_18 (constant S_ .f32 0x00000000#32) : HloOp τ sig (Elt F)).result (after hostOps5 V) (Proc.devRef .tc main_cst_18) := by
  after_results_simp
theorem fin_main_cst_18 (c : Dev nD) :
    W55 m ρ c (Proc.devRef .tc main_cst_18) = (StableHlo.nullary main_cst_18 (constant S_ .f32 0x00000000#32) : HloOp τ sig (Elt F)).result (W55 m ρ c) (Proc.devRef .tc main_cst_18) := by
  have h := ssa_main_cst_18 (F := F) (W18 m ρ c)
  rw [nullary_result] at h ⊢
  rw [lift19 m ρ c main_cst_18 (by decide)]
  exact h

theorem ssa_main_v120 (V : Valuation τ sig (Elt F)) :
    after hostOps5 V (Proc.devRef .tc main_v120) = (StableHlo.binary main_v115 main_cst_18 main_v120 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) : HloOp τ sig (Elt F)).result (after hostOps5 V) (Proc.devRef .tc main_v120) := by
  after_results_simp
theorem fin_main_v120 (c : Dev nD) :
    W55 m ρ c (Proc.devRef .tc main_v120) = (StableHlo.binary main_v115 main_cst_18 main_v120 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) : HloOp τ sig (Elt F)).result (W55 m ρ c) (Proc.devRef .tc main_v120) := by
  have h := ssa_main_v120 (F := F) (W18 m ρ c)
  rw [binary_result] at h ⊢
  rw [lift19 m ρ c main_v120 (by decide), lift19 m ρ c main_v115 (by decide), lift19 m ρ c main_cst_18 (by decide)]
  exact h

theorem ssa_main_cst_19 (V : Valuation τ sig (Elt F)) :
    after hostOps5 V (Proc.devRef .tc main_cst_19) = (StableHlo.nullary main_cst_19 (constant S_ .f32 0x47C35000#32) : HloOp τ sig (Elt F)).result (after hostOps5 V) (Proc.devRef .tc main_cst_19) := by
  after_results_simp
theorem fin_main_cst_19 (c : Dev nD) :
    W55 m ρ c (Proc.devRef .tc main_cst_19) = (StableHlo.nullary main_cst_19 (constant S_ .f32 0x47C35000#32) : HloOp τ sig (Elt F)).result (W55 m ρ c) (Proc.devRef .tc main_cst_19) := by
  have h := ssa_main_cst_19 (F := F) (W18 m ρ c)
  rw [nullary_result] at h ⊢
  rw [lift19 m ρ c main_cst_19 (by decide)]
  exact h

theorem ssa_main_v121 (V : Valuation τ sig (Elt F)) :
    after hostOps5 V (Proc.devRef .tc main_v121) = (StableHlo.unary main_cst_19 main_v121 (broadcastInDim S64 ![] bcast_S_S64 : (⟨S_, .f32⟩ : BufTy).Contents (Elt F) → (⟨S64, .f32⟩ : BufTy).Contents (Elt F)) : HloOp τ sig (Elt F)).result (after hostOps5 V) (Proc.devRef .tc main_v121) := by
  after_results_simp
theorem fin_main_v121 (c : Dev nD) :
    W55 m ρ c (Proc.devRef .tc main_v121) = (StableHlo.unary main_cst_19 main_v121 (broadcastInDim S64 ![] bcast_S_S64 : (⟨S_, .f32⟩ : BufTy).Contents (Elt F) → (⟨S64, .f32⟩ : BufTy).Contents (Elt F)) : HloOp τ sig (Elt F)).result (W55 m ρ c) (Proc.devRef .tc main_v121) := by
  have h := ssa_main_v121 (F := F) (W18 m ρ c)
  rw [unary_result] at h ⊢
  rw [lift19 m ρ c main_v121 (by decide), lift19 m ρ c main_cst_19 (by decide)]
  exact h

theorem ssa_main_v122 (V : Valuation τ sig (Elt F)) :
    after hostOps5 V (Proc.devRef .tc main_v122) = (StableHlo.binary main_v120 main_v121 main_v122 (Host.divf : (⟨S64, .f32⟩ : BufTy).Contents (Elt F) → (⟨S64, .f32⟩ : BufTy).Contents (Elt F) → (⟨S64, .f32⟩ : BufTy).Contents (Elt F)) : HloOp τ sig (Elt F)).result (after hostOps5 V) (Proc.devRef .tc main_v122) := by
  after_results_simp
theorem fin_main_v122 (c : Dev nD) :
    W55 m ρ c (Proc.devRef .tc main_v122) = (StableHlo.binary main_v120 main_v121 main_v122 (Host.divf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v122) := by
  have h := ssa_main_v122 (F := F) (W18 m ρ c)
  rw [binary_result] at h ⊢
  rw [lift19 m ρ c main_v122 (by decide), lift19 m ρ c main_v120 (by decide), lift19 m ρ c main_v121 (by decide)]
  exact h

theorem ssa_main_c_20 (V : Valuation τ sig (Elt F)) :
    after hostOps5 V (Proc.devRef .tc main_c_20) = (StableHlo.nullary main_c_20 (constantI S_ 32 0#32) : HloOp τ sig (Elt F)).result (after hostOps5 V) (Proc.devRef .tc main_c_20) := by
  after_results_simp
theorem fin_main_c_20 (c : Dev nD) :
    W55 m ρ c (Proc.devRef .tc main_c_20) = (StableHlo.nullary main_c_20 (constantI S_ 32 0#32) : HloOp τ sig (Elt F)).result (W55 m ρ c) (Proc.devRef .tc main_c_20) := by
  have h := ssa_main_c_20 (F := F) (W18 m ρ c)
  rw [nullary_result] at h ⊢
  rw [lift19 m ρ c main_c_20 (by decide)]
  exact h

theorem ssa_main_call4_cst (V : Valuation τ sig (Elt F)) :
    after hostOps5_1 V (Proc.devRef .tc main_call4_cst) = (StableHlo.TRef.nullary (.of main_call4_cst : StableHlo.TRef sig ⟨S_, .f32⟩) (constant S_ .f32 0x00000000#32) : HloOp τ sig (Elt F)).result (after hostOps5_1 V) (Proc.devRef .tc main_call4_cst) := by
  after_results_simp
theorem fin_main_call4_cst (c : Dev nD) :
    W55 m ρ c (Proc.devRef .tc main_call4_cst) = (StableHlo.TRef.nullary (.of main_call4_cst : StableHlo.TRef sig ⟨S_, .f32⟩) (constant S_ .f32 0x00000000#32) : HloOp τ sig (Elt F)).result (W55 m ρ c) (Proc.devRef .tc main_call4_cst) := by
  have h := ssa_main_call4_cst (F := F) (W19 m ρ c)
  rw [nullary_result] at h ⊢
  rw [lift20 m ρ c main_call4_cst (by decide)]
  exact h

theorem ssa_main_call4_v0 (V : Valuation τ sig (Elt F)) :
    after hostOps5_1 V (Proc.devRef .tc main_call4_v0) = (StableHlo.TRef.binary (.of main_v115 : StableHlo.TRef sig ⟨S100000x64, .f32⟩) (.of main_call4_cst : StableHlo.TRef sig ⟨S_, .f32⟩) (.of main_call4_v0 : StableHlo.TRef sig ⟨S64, .f32⟩) (fun x v => Host.reduceAdd x v reducesTo_S100000x64_S64_d0 h_S_) : HloOp τ sig (Elt F)).result (after hostOps5_1 V) (Proc.devRef .tc main_call4_v0) := by
  after_results_simp
theorem fin_main_call4_v0 (c : Dev nD) :
    W55 m ρ c (Proc.devRef .tc main_call4_v0) = (StableHlo.TRef.binary (.of main_v115 : StableHlo.TRef sig ⟨S100000x64, .f32⟩) (.of main_call4_cst : StableHlo.TRef sig ⟨S_, .f32⟩) (.of main_call4_v0 : StableHlo.TRef sig ⟨S64, .f32⟩) (fun x v => Host.reduceAdd x v reducesTo_S100000x64_S64_d0 h_S_) : HloOp τ sig (Elt F)).result (W55 m ρ c) (Proc.devRef .tc main_call4_v0) := by
  have h := ssa_main_call4_v0 (F := F) (W19 m ρ c)
  rw [binary_result] at h ⊢
  rw [lift20 m ρ c main_call4_v0 (by decide), lift20 m ρ c main_v115 (by decide), lift20 m ρ c main_call4_cst (by decide)]
  exact h

theorem ssa_main_call4_v1 (V : Valuation τ sig (Elt F)) :
    after hostOps5_1 V (Proc.devRef .tc main_call4_v1) = (StableHlo.TRef.unary (.of main_call4_v0 : StableHlo.TRef sig ⟨S64, .f32⟩) (.of main_call4_v1 : StableHlo.TRef sig ⟨S1x64, .f32⟩) (broadcastInDim S1x64 ![1] bcast_S64_S1x64_1) : HloOp τ sig (Elt F)).result (after hostOps5_1 V) (Proc.devRef .tc main_call4_v1) := by
  after_results_simp
theorem fin_main_call4_v1 (c : Dev nD) :
    W55 m ρ c (Proc.devRef .tc main_call4_v1) = (StableHlo.TRef.unary (.of main_call4_v0 : StableHlo.TRef sig ⟨S64, .f32⟩) (.of main_call4_v1 : StableHlo.TRef sig ⟨S1x64, .f32⟩) (broadcastInDim S1x64 ![1] bcast_S64_S1x64_1) : HloOp τ sig (Elt F)).result (W55 m ρ c) (Proc.devRef .tc main_call4_v1) := by
  have h := ssa_main_call4_v1 (F := F) (W19 m ρ c)
  rw [unary_result] at h ⊢
  rw [lift20 m ρ c main_call4_v1 (by decide), lift20 m ρ c main_call4_v0 (by decide)]
  exact h

theorem ssa_main_call4_cst_0 (V : Valuation τ sig (Elt F)) :
    after hostOps5_1 V (Proc.devRef .tc main_call4_cst_0) = (StableHlo.TRef.nullary (.of main_call4_cst_0 : StableHlo.TRef sig ⟨S_, .f32⟩) (constant S_ .f32 0x47C35000#32) : HloOp τ sig (Elt F)).result (after hostOps5_1 V) (Proc.devRef .tc main_call4_cst_0) := by
  after_results_simp
theorem fin_main_call4_cst_0 (c : Dev nD) :
    W55 m ρ c (Proc.devRef .tc main_call4_cst_0) = (StableHlo.TRef.nullary (.of main_call4_cst_0 : StableHlo.TRef sig ⟨S_, .f32⟩) (constant S_ .f32 0x47C35000#32) : HloOp τ sig (Elt F)).result (W55 m ρ c) (Proc.devRef .tc main_call4_cst_0) := by
  have h := ssa_main_call4_cst_0 (F := F) (W19 m ρ c)
  rw [nullary_result] at h ⊢
  rw [lift20 m ρ c main_call4_cst_0 (by decide)]
  exact h

theorem ssa_main_call4_v2 (V : Valuation τ sig (Elt F)) :
    after hostOps5_1 V (Proc.devRef .tc main_call4_v2) = (StableHlo.TRef.unary (.of main_call4_cst_0 : StableHlo.TRef sig ⟨S_, .f32⟩) (.of main_call4_v2 : StableHlo.TRef sig ⟨S1x64, .f32⟩) (broadcastInDim S1x64 ![] bcast_S_S1x64) : HloOp τ sig (Elt F)).result (after hostOps5_1 V) (Proc.devRef .tc main_call4_v2) := by
  after_results_simp
theorem fin_main_call4_v2 (c : Dev nD) :
    W55 m ρ c (Proc.devRef .tc main_call4_v2) = (StableHlo.TRef.unary (.of main_call4_cst_0 : StableHlo.TRef sig ⟨S_, .f32⟩) (.of main_call4_v2 : StableHlo.TRef sig ⟨S1x64, .f32⟩) (broadcastInDim S1x64 ![] bcast_S_S1x64) : HloOp τ sig (Elt F)).result (W55 m ρ c) (Proc.devRef .tc main_call4_v2) := by
  have h := ssa_main_call4_v2 (F := F) (W19 m ρ c)
  rw [unary_result] at h ⊢
  rw [lift20 m ρ c main_call4_v2 (by decide), lift20 m ρ c main_call4_cst_0 (by decide)]
  exact h

theorem ssa_main_call4_v3 (V : Valuation τ sig (Elt F)) :
    after hostOps5_1 V (Proc.devRef .tc main_call4_v3) = (StableHlo.TRef.binary (.of main_call4_v1 : StableHlo.TRef sig ⟨S1x64, .f32⟩) (.of main_call4_v2 : StableHlo.TRef sig ⟨S1x64, .f32⟩) (.of main_call4_v3 : StableHlo.TRef sig ⟨S1x64, .f32⟩) Host.divf : HloOp τ sig (Elt F)).result (after hostOps5_1 V) (Proc.devRef .tc main_call4_v3) := by
  after_results_simp
theorem fin_main_call4_v3 (c : Dev nD) :
    W55 m ρ c (Proc.devRef .tc main_call4_v3) = (StableHlo.TRef.binary (.of main_call4_v1 : StableHlo.TRef sig ⟨S1x64, .f32⟩) (.of main_call4_v2 : StableHlo.TRef sig ⟨S1x64, .f32⟩) (.of main_call4_v3 : StableHlo.TRef sig ⟨S1x64, .f32⟩) Host.divf : HloOp τ sig (Elt F)).result (W55 m ρ c) (Proc.devRef .tc main_call4_v3) := by
  have h := ssa_main_call4_v3 (F := F) (W19 m ρ c)
  rw [binary_result] at h ⊢
  rw [lift20 m ρ c main_call4_v3 (by decide), lift20 m ρ c main_call4_v1 (by decide), lift20 m ρ c main_call4_v2 (by decide)]
  exact h

theorem ssa_main_call4_v4 (V : Valuation τ sig (Elt F)) :
    after hostOps5_1 V (Proc.devRef .tc main_call4_v4) = (StableHlo.TRef.unary (.of main_call4_v3 : StableHlo.TRef sig ⟨S1x64, .f32⟩) (.of main_call4_v4 : StableHlo.TRef sig ⟨S100000x64, .f32⟩) (broadcastInDim S100000x64 ![0, 1] bcast_S1x64_S100000x64_0_1) : HloOp τ sig (Elt F)).result (after hostOps5_1 V) (Proc.devRef .tc main_call4_v4) := by
  after_results_simp
theorem fin_main_call4_v4 (c : Dev nD) :
    W55 m ρ c (Proc.devRef .tc main_call4_v4) = (StableHlo.TRef.unary (.of main_call4_v3 : StableHlo.TRef sig ⟨S1x64, .f32⟩) (.of main_call4_v4 : StableHlo.TRef sig ⟨S100000x64, .f32⟩) (broadcastInDim S100000x64 ![0, 1] bcast_S1x64_S100000x64_0_1) : HloOp τ sig (Elt F)).result (W55 m ρ c) (Proc.devRef .tc main_call4_v4) := by
  have h := ssa_main_call4_v4 (F := F) (W19 m ρ c)
  rw [unary_result] at h ⊢
  rw [lift20 m ρ c main_call4_v4 (by decide), lift20 m ρ c main_call4_v3 (by decide)]
  exact h

theorem ssa_main_call4_v5 (V : Valuation τ sig (Elt F)) :
    after hostOps5_1 V (Proc.devRef .tc main_call4_v5) = (StableHlo.TRef.binary (.of main_v115 : StableHlo.TRef sig ⟨S100000x64, .f32⟩) (.of main_call4_v4 : StableHlo.TRef sig ⟨S100000x64, .f32⟩) (.of main_call4_v5 : StableHlo.TRef sig ⟨S100000x64, .f32⟩) subf : HloOp τ sig (Elt F)).result (after hostOps5_1 V) (Proc.devRef .tc main_call4_v5) := by
  after_results_simp
theorem fin_main_call4_v5 (c : Dev nD) :
    W55 m ρ c (Proc.devRef .tc main_call4_v5) = (StableHlo.TRef.binary (.of main_v115 : StableHlo.TRef sig ⟨S100000x64, .f32⟩) (.of main_call4_v4 : StableHlo.TRef sig ⟨S100000x64, .f32⟩) (.of main_call4_v5 : StableHlo.TRef sig ⟨S100000x64, .f32⟩) subf : HloOp τ sig (Elt F)).result (W55 m ρ c) (Proc.devRef .tc main_call4_v5) := by
  have h := ssa_main_call4_v5 (F := F) (W19 m ρ c)
  rw [binary_result] at h ⊢
  rw [lift20 m ρ c main_call4_v5 (by decide), lift20 m ρ c main_v115 (by decide), lift20 m ρ c main_call4_v4 (by decide)]
  exact h

theorem ssa_main_call4_v6 (V : Valuation τ sig (Elt F)) :
    after hostOps5_1 V (Proc.devRef .tc main_call4_v6) = (StableHlo.TRef.binary (.of main_call4_v5 : StableHlo.TRef sig ⟨S100000x64, .f32⟩) (.of main_call4_v5 : StableHlo.TRef sig ⟨S100000x64, .f32⟩) (.of main_call4_v6 : StableHlo.TRef sig ⟨S100000x64, .f32⟩) mulf : HloOp τ sig (Elt F)).result (after hostOps5_1 V) (Proc.devRef .tc main_call4_v6) := by
  after_results_simp
theorem fin_main_call4_v6 (c : Dev nD) :
    W55 m ρ c (Proc.devRef .tc main_call4_v6) = (StableHlo.TRef.binary (.of main_call4_v5 : StableHlo.TRef sig ⟨S100000x64, .f32⟩) (.of main_call4_v5 : StableHlo.TRef sig ⟨S100000x64, .f32⟩) (.of main_call4_v6 : StableHlo.TRef sig ⟨S100000x64, .f32⟩) mulf : HloOp τ sig (Elt F)).result (W55 m ρ c) (Proc.devRef .tc main_call4_v6) := by
  have h := ssa_main_call4_v6 (F := F) (W19 m ρ c)
  rw [binary_result] at h ⊢
  rw [lift20 m ρ c main_call4_v6 (by decide), lift20 m ρ c main_call4_v5 (by decide)]
  exact h

theorem ssa_main_call4_v7 (V : Valuation τ sig (Elt F)) :
    after hostOps5_1 V (Proc.devRef .tc main_call4_v7) = (StableHlo.TRef.unary (.of main_c_20 : StableHlo.TRef sig ⟨S_, .i32⟩) (.of main_call4_v7 : StableHlo.TRef sig ⟨S_, .f32⟩) (sitofp .f32) : HloOp τ sig (Elt F)).result (after hostOps5_1 V) (Proc.devRef .tc main_call4_v7) := by
  after_results_simp
theorem fin_main_call4_v7 (c : Dev nD) :
    W55 m ρ c (Proc.devRef .tc main_call4_v7) = (StableHlo.TRef.unary (.of main_c_20 : StableHlo.TRef sig ⟨S_, .i32⟩) (.of main_call4_v7 : StableHlo.TRef sig ⟨S_, .f32⟩) (sitofp .f32) : HloOp τ sig (Elt F)).result (W55 m ρ c) (Proc.devRef .tc main_call4_v7) := by
  have h := ssa_main_call4_v7 (F := F) (W19 m ρ c)
  rw [unary_result] at h ⊢
  rw [lift20 m ρ c main_call4_v7 (by decide), lift20 m ρ c main_c_20 (by decide)]
  exact h

theorem ssa_main_call4_cst_1 (V : Valuation τ sig (Elt F)) :
    after hostOps5_1 V (Proc.devRef .tc main_call4_cst_1) = (StableHlo.TRef.nullary (.of main_call4_cst_1 : StableHlo.TRef sig ⟨S_, .f32⟩) (constant S_ .f32 0x47C35000#32) : HloOp τ sig (Elt F)).result (after hostOps5_1 V) (Proc.devRef .tc main_call4_cst_1) := by
  after_results_simp
theorem fin_main_call4_cst_1 (c : Dev nD) :
    W55 m ρ c (Proc.devRef .tc main_call4_cst_1) = (StableHlo.TRef.nullary (.of main_call4_cst_1 : StableHlo.TRef sig ⟨S_, .f32⟩) (constant S_ .f32 0x47C35000#32) : HloOp τ sig (Elt F)).result (W55 m ρ c) (Proc.devRef .tc main_call4_cst_1) := by
  have h := ssa_main_call4_cst_1 (F := F) (W19 m ρ c)
  rw [nullary_result] at h ⊢
  rw [lift20 m ρ c main_call4_cst_1 (by decide)]
  exact h

theorem ssa_main_call4_v8 (V : Valuation τ sig (Elt F)) :
    after hostOps5_1 V (Proc.devRef .tc main_call4_v8) = (StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf : HloOp τ sig (Elt F)).result (after hostOps5_1 V) (Proc.devRef .tc main_call4_v8) := by
  after_results_simp
theorem fin_main_call4_v8 (c : Dev nD) :
    W55 m ρ c (Proc.devRef .tc main_call4_v8) = (StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf : HloOp τ sig (Elt F)).result (W55 m ρ c) (Proc.devRef .tc main_call4_v8) := by
  have h := ssa_main_call4_v8 (F := F) (W19 m ρ c)
  rw [binary_result] at h ⊢
  rw [lift20 m ρ c main_call4_v8 (by decide), lift20 m ρ c main_call4_cst_1 (by decide), lift20 m ρ c main_call4_v7 (by decide)]
  exact h

theorem ssa_main_call4_cst_2 (V : Valuation τ sig (Elt F)) :
    after hostOps5_1 V (Proc.devRef .tc main_call4_cst_2) = (StableHlo.TRef.nullary (.of main_call4_cst_2 : StableHlo.TRef sig ⟨S_, .f32⟩) (constant S_ .f32 0x00000000#32) : HloOp τ sig (Elt F)).result (after hostOps5_1 V) (Proc.devRef .tc main_call4_cst_2) := by
  after_results_simp
theorem fin_main_call4_cst_2 (c : Dev nD) :
    W55 m ρ c (Proc.devRef .tc main_call4_cst_2) = (StableHlo.TRef.nullary (.of main_call4_cst_2 : StableHlo.TRef sig ⟨S_, .f32⟩) (constant S_ .f32 0x00000000#32) : HloOp τ sig (Elt F)).result (W55 m ρ c) (Proc.devRef .tc main_call4_cst_2) := by
  have h := ssa_main_call4_cst_2 (F := F) (W19 m ρ c)
  rw [nullary_result] at h ⊢
  rw [lift20 m ρ c main_call4_cst_2 (by decide)]
  exact h

theorem ssa_main_call4_v9 (V : Valuation τ sig (Elt F)) :
    after hostOps5_1 V (Proc.devRef .tc main_call4_v9) = (StableHlo.TRef.binary (.of main_call4_v6 : StableHlo.TRef sig ⟨S100000x64, .f32⟩) (.of main_call4_cst_2 : StableHlo.TRef sig ⟨S_, .f32⟩) (.of main_call4_v9 : StableHlo.TRef sig ⟨S64, .f32⟩) (fun x v => Host.reduceAdd x v reducesTo_S100000x64_S64_d0 h_S_) : HloOp τ sig (Elt F)).result (after hostOps5_1 V) (Proc.devRef .tc main_call4_v9) := by
  after_results_simp
theorem fin_main_call4_v9 (c : Dev nD) :
    W55 m ρ c (Proc.devRef .tc main_call4_v9) = (StableHlo.TRef.binary (.of main_call4_v6 : StableHlo.TRef sig ⟨S100000x64, .f32⟩) (.of main_call4_cst_2 : StableHlo.TRef sig ⟨S_, .f32⟩) (.of main_call4_v9 : StableHlo.TRef sig ⟨S64, .f32⟩) (fun x v => Host.reduceAdd x v reducesTo_S100000x64_S64_d0 h_S_) : HloOp τ sig (Elt F)).result (W55 m ρ c) (Proc.devRef .tc main_call4_v9) := by
  have h := ssa_main_call4_v9 (F := F) (W19 m ρ c)
  rw [binary_result] at h ⊢
  rw [lift20 m ρ c main_call4_v9 (by decide), lift20 m ρ c main_call4_v6 (by decide), lift20 m ρ c main_call4_cst_2 (by decide)]
  exact h

theorem ssa_main_call4_v10 (V : Valuation τ sig (Elt F)) :
    after hostOps5_1 V (Proc.devRef .tc main_call4_v10) = (StableHlo.TRef.unary (.of main_call4_v8 : StableHlo.TRef sig ⟨S_, .f32⟩) (.of main_call4_v10 : StableHlo.TRef sig ⟨S64, .f32⟩) (broadcastInDim S64 ![] bcast_S_S64) : HloOp τ sig (Elt F)).result (after hostOps5_1 V) (Proc.devRef .tc main_call4_v10) := by
  after_results_simp
theorem fin_main_call4_v10 (c : Dev nD) :
    W55 m ρ c (Proc.devRef .tc main_call4_v10) = (StableHlo.TRef.unary (.of main_call4_v8 : StableHlo.TRef sig ⟨S_, .f32⟩) (.of main_call4_v10 : StableHlo.TRef sig ⟨S64, .f32⟩) (broadcastInDim S64 ![] bcast_S_S64) : HloOp τ sig (Elt F)).result (W55 m ρ c) (Proc.devRef .tc main_call4_v10) := by
  have h := ssa_main_call4_v10 (F := F) (W19 m ρ c)
  rw [unary_result] at h ⊢
  rw [lift20 m ρ c main_call4_v10 (by decide), lift20 m ρ c main_call4_v8 (by decide)]
  exact h

theorem ssa_main_call4_v11 (V : Valuation τ sig (Elt F)) :
    after hostOps5_1 V (Proc.devRef .tc main_call4_v11) = (StableHlo.TRef.binary (.of main_call4_v9 : StableHlo.TRef sig ⟨S64, .f32⟩) (.of main_call4_v10 : StableHlo.TRef sig ⟨S64, .f32⟩) (.of main_call4_v11 : StableHlo.TRef sig ⟨S64, .f32⟩) Host.divf : HloOp τ sig (Elt F)).result (after hostOps5_1 V) (Proc.devRef .tc main_call4_v11) := by
  after_results_simp
theorem fin_main_call4_v11 (c : Dev nD) :
    W55 m ρ c (Proc.devRef .tc main_call4_v11) = (StableHlo.TRef.binary (.of main_call4_v9 : StableHlo.TRef sig ⟨S64, .f32⟩) (.of main_call4_v10 : StableHlo.TRef sig ⟨S64, .f32⟩) (.of main_call4_v11 : StableHlo.TRef sig ⟨S64, .f32⟩) Host.divf : HloOp τ sig (Elt F)).result (W55 m ρ c) (Proc.devRef .tc main_call4_v11) := by
  have h := ssa_main_call4_v11 (F := F) (W19 m ρ c)
  rw [binary_result] at h ⊢
  rw [lift20 m ρ c main_call4_v11 (by decide), lift20 m ρ c main_call4_v9 (by decide), lift20 m ρ c main_call4_v10 (by decide)]
  exact h

theorem ssa_main_call4_cst_3 (V : Valuation τ sig (Elt F)) :
    after hostOps5_1 V (Proc.devRef .tc main_call4_cst_3) = (StableHlo.TRef.nullary (.of main_call4_cst_3 : StableHlo.TRef sig ⟨S_, .f32⟩) (constant S_ .f32 0x00000000#32) : HloOp τ sig (Elt F)).result (after hostOps5_1 V) (Proc.devRef .tc main_call4_cst_3) := by
  after_results_simp
theorem fin_main_call4_cst_3 (c : Dev nD) :
    W55 m ρ c (Proc.devRef .tc main_call4_cst_3) = (StableHlo.TRef.nullary (.of main_call4_cst_3 : StableHlo.TRef sig ⟨S_, .f32⟩) (constant S_ .f32 0x00000000#32) : HloOp τ sig (Elt F)).result (W55 m ρ c) (Proc.devRef .tc main_call4_cst_3) := by
  have h := ssa_main_call4_cst_3 (F := F) (W19 m ρ c)
  rw [nullary_result] at h ⊢
  rw [lift20 m ρ c main_call4_cst_3 (by decide)]
  exact h

theorem ssa_main_call4_v12 (V : Valuation τ sig (Elt F)) :
    after hostOps5_1 V (Proc.devRef .tc main_call4_v12) = (StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt) : HloOp τ sig (Elt F)).result (after hostOps5_1 V) (Proc.devRef .tc main_call4_v12) := by
  after_results_simp
theorem fin_main_call4_v12 (c : Dev nD) :
    W55 m ρ c (Proc.devRef .tc main_call4_v12) = (StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt) : HloOp τ sig (Elt F)).result (W55 m ρ c) (Proc.devRef .tc main_call4_v12) := by
  have h := ssa_main_call4_v12 (F := F) (W19 m ρ c)
  rw [binary_result] at h ⊢
  rw [lift20 m ρ c main_call4_v12 (by decide), lift20 m ρ c main_call4_v8 (by decide), lift20 m ρ c main_call4_cst_3 (by decide)]
  exact h

theorem ssa_main_call4_cst_4 (V : Valuation τ sig (Elt F)) :
    after hostOps5_1 V (Proc.devRef .tc main_call4_cst_4) = (StableHlo.TRef.nullary (.of main_call4_cst_4 : StableHlo.TRef sig ⟨S_, .f32⟩) (constant S_ .f32 0x7FC00000#32) : HloOp τ sig (Elt F)).result (after hostOps5_1 V) (Proc.devRef .tc main_call4_cst_4) := by
  after_results_simp
theorem fin_main_call4_cst_4 (c : Dev nD) :
    W55 m ρ c (Proc.devRef .tc main_call4_cst_4) = (StableHlo.TRef.nullary (.of main_call4_cst_4 : StableHlo.TRef sig ⟨S_, .f32⟩) (constant S_ .f32 0x7FC00000#32) : HloOp τ sig (Elt F)).result (W55 m ρ c) (Proc.devRef .tc main_call4_cst_4) := by
  have h := ssa_main_call4_cst_4 (F := F) (W19 m ρ c)
  rw [nullary_result] at h ⊢
  rw [lift20 m ρ c main_call4_cst_4 (by decide)]
  exact h

theorem ssa_main_call4_call0_v0 (V : Valuation τ sig (Elt F)) :
    after hostOps5_1 V (Proc.devRef .tc main_call4_call0_v0) = (StableHlo.TRef.unary (.of main_call4_cst_4 : StableHlo.TRef sig ⟨S_, .f32⟩) (.of main_call4_call0_v0 : StableHlo.TRef sig ⟨S_, .f32⟩) id : HloOp τ sig (Elt F)).result (after hostOps5_1 V) (Proc.devRef .tc main_call4_call0_v0) := by
  after_results_simp
theorem fin_main_call4_call0_v0 (c : Dev nD) :
    W55 m ρ c (Proc.devRef .tc main_call4_call0_v0) = (StableHlo.TRef.unary (.of main_call4_cst_4 : StableHlo.TRef sig ⟨S_, .f32⟩) (.of main_call4_call0_v0 : StableHlo.TRef sig ⟨S_, .f32⟩) id : HloOp τ sig (Elt F)).result (W55 m ρ c) (Proc.devRef .tc main_call4_call0_v0) := by
  have h := ssa_main_call4_call0_v0 (F := F) (W19 m ρ c)
  rw [unary_result] at h ⊢
  rw [lift20 m ρ c main_call4_call0_v0 (by decide), lift20 m ρ c main_call4_cst_4 (by decide)]
  exact h

theorem ssa_main_call4_call0_v1 (V : Valuation τ sig (Elt F)) :
    after hostOps5_1 V (Proc.devRef .tc main_call4_call0_v1) = (StableHlo.TRef.unary (.of main_call4_call0_v0 : StableHlo.TRef sig ⟨S_, .f32⟩) (.of main_call4_call0_v1 : StableHlo.TRef sig ⟨S64, .f32⟩) (broadcastInDim S64 ![] bcast_S_S64) : HloOp τ sig (Elt F)).result (after hostOps5_1 V) (Proc.devRef .tc main_call4_call0_v1) := by
  after_results_simp
theorem fin_main_call4_call0_v1 (c : Dev nD) :
    W55 m ρ c (Proc.devRef .tc main_call4_call0_v1) = (StableHlo.TRef.unary (.of main_call4_call0_v0 : StableHlo.TRef sig ⟨S_, .f32⟩) (.of main_call4_call0_v1 : StableHlo.TRef sig ⟨S64, .f32⟩) (broadcastInDim S64 ![] bcast_S_S64) : HloOp τ sig (Elt F)).result (W55 m ρ c) (Proc.devRef .tc main_call4_call0_v1) := by
  have h := ssa_main_call4_call0_v1 (F := F) (W19 m ρ c)
  rw [unary_result] at h ⊢
  rw [lift20 m ρ c main_call4_call0_v1 (by decide), lift20 m ρ c main_call4_call0_v0 (by decide)]
  exact h

theorem ssa_main_v123 (V : Valuation τ sig (Elt F)) :
    after hostOps5_1 V (Proc.devRef .tc main_v123) = (StableHlo.TRef.ternary (.of main_call4_v12 : StableHlo.TRef sig ⟨S_, .i1⟩) (.of main_call4_v11 : StableHlo.TRef sig ⟨S64, .f32⟩) (.of main_call4_call0_v1 : StableHlo.TRef sig ⟨S64, .f32⟩) (.of main_v123 : StableHlo.TRef sig ⟨S64, .f32⟩) (fun p a b => select (broadcastInDim S64 ![] bcast_S_S64 p) a b) : HloOp τ sig (Elt F)).result (after hostOps5_1 V) (Proc.devRef .tc main_v123) := by
  after_results_simp
theorem fin_main_v123 (c : Dev nD) :
    W55 m ρ c (Proc.devRef .tc main_v123) = (StableHlo.TRef.ternary (.of main_call4_v12 : StableHlo.TRef sig ⟨S_, .i1⟩) (.of main_call4_v11 : StableHlo.TRef sig ⟨S64, .f32⟩) (.of main_call4_call0_v1 : StableHlo.TRef sig ⟨S64, .f32⟩) (.of main_v123 : StableHlo.TRef sig ⟨S64, .f32⟩) (fun p a b => select (broadcastInDim S64 ![] bcast_S_S64 p) a b) : HloOp τ sig (Elt F)).result (W55 m ρ c) (Proc.devRef .tc main_v123) := by
  have h := ssa_main_v123 (F := F) (W19 m ρ c)
  rw [ternary_result] at h ⊢
  rw [lift20 m ρ c main_v123 (by decide), lift20 m ρ c main_call4_v12 (by decide), lift20 m ρ c main_call4_v11 (by decide), lift20 m ρ c main_call4_call0_v1 (by decide)]
  exact h

theorem ssa_main_cst_21 (V : Valuation τ sig (Elt F)) :
    after hostOps5_2 V (Proc.devRef .tc main_cst_21) = (StableHlo.nullary main_cst_21 (constant S_ .f32 0x3727C5AC#32) : HloOp τ sig (Elt F)).result (after hostOps5_2 V) (Proc.devRef .tc main_cst_21) := by
  after_results_simp
theorem fin_main_cst_21 (c : Dev nD) :
    W55 m ρ c (Proc.devRef .tc main_cst_21) = (StableHlo.nullary main_cst_21 (constant S_ .f32 0x3727C5AC#32) : HloOp τ sig (Elt F)).result (W55 m ρ c) (Proc.devRef .tc main_cst_21) := by
  have h := ssa_main_cst_21 (F := F) (W20 m ρ c)
  rw [nullary_result] at h ⊢
  rw [lift21 m ρ c main_cst_21 (by decide)]
  exact h

theorem ssa_main_v124 (V : Valuation τ sig (Elt F)) :
    after hostOps5_2 V (Proc.devRef .tc main_v124) = (StableHlo.unary main_cst_21 main_v124 (broadcastInDim S64 ![] bcast_S_S64 : (⟨S_, .f32⟩ : BufTy).Contents (Elt F) → (⟨S64, .f32⟩ : BufTy).Contents (Elt F)) : HloOp τ sig (Elt F)).result (after hostOps5_2 V) (Proc.devRef .tc main_v124) := by
  after_results_simp
theorem fin_main_v124 (c : Dev nD) :
    W55 m ρ c (Proc.devRef .tc main_v124) = (StableHlo.unary main_cst_21 main_v124 (broadcastInDim S64 ![] bcast_S_S64 : (⟨S_, .f32⟩ : BufTy).Contents (Elt F) → (⟨S64, .f32⟩ : BufTy).Contents (Elt F)) : HloOp τ sig (Elt F)).result (W55 m ρ c) (Proc.devRef .tc main_v124) := by
  have h := ssa_main_v124 (F := F) (W20 m ρ c)
  rw [unary_result] at h ⊢
  rw [lift21 m ρ c main_v124 (by decide), lift21 m ρ c main_cst_21 (by decide)]
  exact h

theorem ssa_main_v125 (V : Valuation τ sig (Elt F)) :
    after hostOps5_2 V (Proc.devRef .tc main_v125) = (StableHlo.binary main_v123 main_v124 main_v125 (addf : (⟨S64, .f32⟩ : BufTy).Contents (Elt F) → (⟨S64, .f32⟩ : BufTy).Contents (Elt F) → (⟨S64, .f32⟩ : BufTy).Contents (Elt F)) : HloOp τ sig (Elt F)).result (after hostOps5_2 V) (Proc.devRef .tc main_v125) := by
  after_results_simp
theorem fin_main_v125 (c : Dev nD) :
    W55 m ρ c (Proc.devRef .tc main_v125) = (StableHlo.binary main_v123 main_v124 main_v125 (addf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v125) := by
  have h := ssa_main_v125 (F := F) (W20 m ρ c)
  rw [binary_result] at h ⊢
  rw [lift21 m ρ c main_v125 (by decide), lift21 m ρ c main_v123 (by decide), lift21 m ρ c main_v124 (by decide)]
  exact h

theorem ssa_main_v126 (V : Valuation τ sig (Elt F)) :
    after hostOps5_2 V (Proc.devRef .tc main_v126) = (StableHlo.unary main_v125 main_v126 (Host.rsqrt : (⟨S64, .f32⟩ : BufTy).Contents (Elt F) → (⟨S64, .f32⟩ : BufTy).Contents (Elt F)) : HloOp τ sig (Elt F)).result (after hostOps5_2 V) (Proc.devRef .tc main_v126) := by
  after_results_simp
theorem fin_main_v126 (c : Dev nD) :
    W55 m ρ c (Proc.devRef .tc main_v126) = (StableHlo.unary main_v125 main_v126 (Host.rsqrt : (⟨S64, .f32⟩ : BufTy).Contents (Elt F) → (⟨S64, .f32⟩ : BufTy).Contents (Elt F)) : HloOp τ sig (Elt F)).result (W55 m ρ c) (Proc.devRef .tc main_v126) := by
  have h := ssa_main_v126 (F := F) (W20 m ρ c)
  rw [unary_result] at h ⊢
  rw [lift21 m ρ c main_v126 (by decide), lift21 m ρ c main_v125 (by decide)]
  exact h

theorem ssa_main_v127 (V : Valuation τ sig (Elt F)) :
    after hostOps5_2 V (Proc.devRef .tc main_v127) = (StableHlo.binary main_v117 main_v126 main_v127 (mulf : (⟨S64, .f32⟩ : BufTy).Contents (Elt F) → (⟨S64, .f32⟩ : BufTy).Contents (Elt F) → (⟨S64, .f32⟩ : BufTy).Contents (Elt F)) : HloOp τ sig (Elt F)).result (after hostOps5_2 V) (Proc.devRef .tc main_v127) := by
  after_results_simp
theorem fin_main_v127 (c : Dev nD) :
    W55 m ρ c (Proc.devRef .tc main_v127) = (StableHlo.binary main_v117 main_v126 main_v127 (mulf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v127) := by
  have h := ssa_main_v127 (F := F) (W20 m ρ c)
  rw [binary_result] at h ⊢
  rw [lift21 m ρ c main_v127 (by decide), lift21 m ρ c main_v117 (by decide), lift21 m ρ c main_v126 (by decide)]
  exact h

theorem ssa_main_v128 (V : Valuation τ sig (Elt F)) :
    after hostOps5_2 V (Proc.devRef .tc main_v128) = (StableHlo.binary main_v122 main_v127 main_v128 (mulf : (⟨S64, .f32⟩ : BufTy).Contents (Elt F) → (⟨S64, .f32⟩ : BufTy).Contents (Elt F) → (⟨S64, .f32⟩ : BufTy).Contents (Elt F)) : HloOp τ sig (Elt F)).result (after hostOps5_2 V) (Proc.devRef .tc main_v128) := by
  after_results_simp
theorem fin_main_v128 (c : Dev nD) :
    W55 m ρ c (Proc.devRef .tc main_v128) = (StableHlo.binary main_v122 main_v127 main_v128 (mulf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v128) := by
  have h := ssa_main_v128 (F := F) (W20 m ρ c)
  rw [binary_result] at h ⊢
  rw [lift21 m ρ c main_v128 (by decide), lift21 m ρ c main_v122 (by decide), lift21 m ρ c main_v127 (by decide)]
  exact h

theorem ssa_main_v129 (V : Valuation τ sig (Elt F)) :
    after hostOps5_2 V (Proc.devRef .tc main_v129) = (StableHlo.binary main_v119 main_v128 main_v129 (subf : (⟨S64, .f32⟩ : BufTy).Contents (Elt F) → (⟨S64, .f32⟩ : BufTy).Contents (Elt F) → (⟨S64, .f32⟩ : BufTy).Contents (Elt F)) : HloOp τ sig (Elt F)).result (after hostOps5_2 V) (Proc.devRef .tc main_v129) := by
  after_results_simp
theorem fin_main_v129 (c : Dev nD) :
    W55 m ρ c (Proc.devRef .tc main_v129) = (StableHlo.binary main_v119 main_v128 main_v129 (subf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v129) := by
  have h := ssa_main_v129 (F := F) (W20 m ρ c)
  rw [binary_result] at h ⊢
  rw [lift21 m ρ c main_v129 (by decide), lift21 m ρ c main_v119 (by decide), lift21 m ρ c main_v128 (by decide)]
  exact h

theorem ssa_main_v130 (V : Valuation τ sig (Elt F)) :
    after hostOps5_2 V (Proc.devRef .tc main_v130) = (StableHlo.unary main_v127 main_v130 (broadcastInDim S1x64 ![1] bcast_S64_S1x64_1 : (⟨S64, .f32⟩ : BufTy).Contents (Elt F) → (⟨S1x64, .f32⟩ : BufTy).Contents (Elt F)) : HloOp τ sig (Elt F)).result (after hostOps5_2 V) (Proc.devRef .tc main_v130) := by
  after_results_simp
theorem fin_main_v130 (c : Dev nD) :
    W55 m ρ c (Proc.devRef .tc main_v130) = (StableHlo.unary main_v127 main_v130 (broadcastInDim S1x64 ![1] bcast_S64_S1x64_1 : (⟨S64, .f32⟩ : BufTy).Contents (Elt F) → (⟨S1x64, .f32⟩ : BufTy).Contents (Elt F)) : HloOp τ sig (Elt F)).result (W55 m ρ c) (Proc.devRef .tc main_v130) := by
  have h := ssa_main_v130 (F := F) (W20 m ρ c)
  rw [unary_result] at h ⊢
  rw [lift21 m ρ c main_v130 (by decide), lift21 m ρ c main_v127 (by decide)]
  exact h

theorem ssa_main_v131 (V : Valuation τ sig (Elt F)) :
    after hostOps5_2 V (Proc.devRef .tc main_v131) = (StableHlo.unary main_v130 main_v131 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after hostOps5_2 V) (Proc.devRef .tc main_v131) := by
  after_results_simp
theorem fin_main_v131 (c : Dev nD) :
    W55 m ρ c (Proc.devRef .tc main_v131) = (StableHlo.unary main_v130 main_v131 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (W55 m ρ c) (Proc.devRef .tc main_v131) := by
  have h := ssa_main_v131 (F := F) (W20 m ρ c)
  rw [unary_result] at h ⊢
  rw [lift21 m ρ c main_v131 (by decide), lift21 m ρ c main_v130 (by decide)]
  exact h

theorem ssa_main_v132 (V : Valuation τ sig (Elt F)) :
    after hostOps5_2 V (Proc.devRef .tc main_v132) = (StableHlo.binary main_v131 main_v115 main_v132 (mulf : (⟨S100000x64, .f32⟩ : BufTy).Contents (Elt F) → (⟨S100000x64, .f32⟩ : BufTy).Contents (Elt F) → (⟨S100000x64, .f32⟩ : BufTy).Contents (Elt F)) : HloOp τ sig (Elt F)).result (after hostOps5_2 V) (Proc.devRef .tc main_v132) := by
  after_results_simp
theorem fin_main_v132 (c : Dev nD) :
    W55 m ρ c (Proc.devRef .tc main_v132) = (StableHlo.binary main_v131 main_v115 main_v132 (mulf : (⟨S100000x64, .f32⟩ : BufTy).Contents (Elt F) → (⟨S100000x64, .f32⟩ : BufTy).Contents (Elt F) → (⟨S100000x64, .f32⟩ : BufTy).Contents (Elt F)) : HloOp τ sig (Elt F)).result (W55 m ρ c) (Proc.devRef .tc main_v132) := by
  have h := ssa_main_v132 (F := F) (W20 m ρ c)
  rw [binary_result] at h ⊢
  rw [lift21 m ρ c main_v132 (by decide), lift21 m ρ c main_v131 (by decide), lift21 m ρ c main_v115 (by decide)]
  exact h

theorem ssa_main_v133 (V : Valuation τ sig (Elt F)) :
    after hostOps5_2 V (Proc.devRef .tc main_v133) = (StableHlo.unary main_v129 main_v133 (broadcastInDim S1x64 ![1] bcast_S64_S1x64_1 : (⟨S64, .f32⟩ : BufTy).Contents (Elt F) → (⟨S1x64, .f32⟩ : BufTy).Contents (Elt F)) : HloOp τ sig (Elt F)).result (after hostOps5_2 V) (Proc.devRef .tc main_v133) := by
  after_results_simp
theorem fin_main_v133 (c : Dev nD) :
    W55 m ρ c (Proc.devRef .tc main_v133) = (StableHlo.unary main_v129 main_v133 (broadcastInDim S1x64 ![1] bcast_S64_S1x64_1 : (⟨S64, .f32⟩ : BufTy).Contents (Elt F) → (⟨S1x64, .f32⟩ : BufTy).Contents (Elt F)) : HloOp τ sig (Elt F)).result (W55 m ρ c) (Proc.devRef .tc main_v133) := by
  have h := ssa_main_v133 (F := F) (W20 m ρ c)
  rw [unary_result] at h ⊢
  rw [lift21 m ρ c main_v133 (by decide), lift21 m ρ c main_v129 (by decide)]
  exact h

theorem ssa_main_v134 (V : Valuation τ sig (Elt F)) :
    after hostOps5_2 V (Proc.devRef .tc main_v134) = (StableHlo.unary main_v133 main_v134 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after hostOps5_2 V) (Proc.devRef .tc main_v134) := by
  after_results_simp
theorem fin_main_v134 (c : Dev nD) :
    W55 m ρ c (Proc.devRef .tc main_v134) = (StableHlo.unary main_v133 main_v134 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (W55 m ρ c) (Proc.devRef .tc main_v134) := by
  have h := ssa_main_v134 (F := F) (W20 m ρ c)
  rw [unary_result] at h ⊢
  rw [lift21 m ρ c main_v134 (by decide), lift21 m ρ c main_v133 (by decide)]
  exact h

theorem ssa_main_v135 (V : Valuation τ sig (Elt F)) :
    after hostOps5_2 V (Proc.devRef .tc main_v135) = (StableHlo.binary main_v132 main_v134 main_v135 (addf : (⟨S100000x64, .f32⟩ : BufTy).Contents (Elt F) → (⟨S100000x64, .f32⟩ : BufTy).Contents (Elt F) → (⟨S100000x64, .f32⟩ : BufTy).Contents (Elt F)) : HloOp τ sig (Elt F)).result (after hostOps5_2 V) (Proc.devRef .tc main_v135) := by
  after_results_simp
theorem fin_main_v135 (c : Dev nD) :
    W55 m ρ c (Proc.devRef .tc main_v135) = (StableHlo.binary main_v132 main_v134 main_v135 (addf : (⟨S100000x64, .f32⟩ : BufTy).Contents (Elt F) → (⟨S100000x64, .f32⟩ : BufTy).Contents (Elt F) → (⟨S100000x64, .f32⟩ : BufTy).Contents (Elt F)) : HloOp τ sig (Elt F)).result (W55 m ρ c) (Proc.devRef .tc main_v135) := by
  have h := ssa_main_v135 (F := F) (W20 m ρ c)
  rw [binary_result] at h ⊢
  rw [lift21 m ρ c main_v135 (by decide), lift21 m ρ c main_v132 (by decide), lift21 m ρ c main_v134 (by decide)]
  exact h

theorem ssa_main_cst_22 (V : Valuation τ sig (Elt F)) :
    after hostOps5_2 V (Proc.devRef .tc main_cst_22) = (StableHlo.nullary main_cst_22 (constant S_ .f32 0x00000000#32) : HloOp τ sig (Elt F)).result (after hostOps5_2 V) (Proc.devRef .tc main_cst_22) := by
  after_results_simp
theorem fin_main_cst_22 (c : Dev nD) :
    W55 m ρ c (Proc.devRef .tc main_cst_22) = (StableHlo.nullary main_cst_22 (constant S_ .f32 0x00000000#32) : HloOp τ sig (Elt F)).result (W55 m ρ c) (Proc.devRef .tc main_cst_22) := by
  have h := ssa_main_cst_22 (F := F) (W20 m ρ c)
  rw [nullary_result] at h ⊢
  rw [lift21 m ρ c main_cst_22 (by decide)]
  exact h

theorem ssa_main_v136 (V : Valuation τ sig (Elt F)) :
    after hostOps5_2 V (Proc.devRef .tc main_v136) = (StableHlo.unary main_cst_22 main_v136 (broadcastInDim S100000x64 ![] bcast_S_S100000x64 : (⟨S_, .f32⟩ : BufTy).Contents (Elt F) → (⟨S100000x64, .f32⟩ : BufTy).Contents (Elt F)) : HloOp τ sig (Elt F)).result (after hostOps5_2 V) (Proc.devRef .tc main_v136) := by
  after_results_simp
theorem fin_main_v136 (c : Dev nD) :
    W55 m ρ c (Proc.devRef .tc main_v136) = (StableHlo.unary main_cst_22 main_v136 (broadcastInDim S100000x64 ![] bcast_S_S100000x64 : (⟨S_, .f32⟩ : BufTy).Contents (Elt F) → (⟨S100000x64, .f32⟩ : BufTy).Contents (Elt F)) : HloOp τ sig (Elt F)).result (W55 m ρ c) (Proc.devRef .tc main_v136) := by
  have h := ssa_main_v136 (F := F) (W20 m ρ c)
  rw [unary_result] at h ⊢
  rw [lift21 m ρ c main_v136 (by decide), lift21 m ρ c main_cst_22 (by decide)]
  exact h

theorem ssa_main_v137 (V : Valuation τ sig (Elt F)) :
    after hostOps5_2 V (Proc.devRef .tc main_v137) = (StableHlo.binary main_v135 main_v136 main_v137 (cmpf .oge : (⟨S100000x64, .f32⟩ : BufTy).Contents (Elt F) → (⟨S100000x64, .f32⟩ : BufTy).Contents (Elt F) → (⟨S100000x64, .i1⟩ : BufTy).Contents (Elt F)) : HloOp τ sig (Elt F)).result (after hostOps5_2 V) (Proc.devRef .tc main_v137) := by
  after_results_simp
theorem fin_main_v137 (c : Dev nD) :
    W55 m ρ c (Proc.devRef .tc main_v137) = (StableHlo.binary main_v135 main_v136 main_v137 (cmpf .oge : (⟨S100000x64, .f32⟩ : BufTy).Contents (Elt F) → (⟨S100000x64, .f32⟩ : BufTy).Contents (Elt F) → (⟨S100000x64, .i1⟩ : BufTy).Contents (Elt F)) : HloOp τ sig (Elt F)).result (W55 m ρ c) (Proc.devRef .tc main_v137) := by
  have h := ssa_main_v137 (F := F) (W20 m ρ c)
  rw [binary_result] at h ⊢
  rw [lift21 m ρ c main_v137 (by decide), lift21 m ρ c main_v135 (by decide), lift21 m ρ c main_v136 (by decide)]
  exact h

theorem ssa_main_cst_23 (V : Valuation τ sig (Elt F)) :
    after hostOps5_2 V (Proc.devRef .tc main_cst_23) = (StableHlo.nullary main_cst_23 (constant S_ .f32 0x3C23D70A#32) : HloOp τ sig (Elt F)).result (after hostOps5_2 V) (Proc.devRef .tc main_cst_23) := by
  after_results_simp
theorem fin_main_cst_23 (c : Dev nD) :
    W55 m ρ c (Proc.devRef .tc main_cst_23) = (StableHlo.nullary main_cst_23 (constant S_ .f32 0x3C23D70A#32) : HloOp τ sig (Elt F)).result (W55 m ρ c) (Proc.devRef .tc main_cst_23) := by
  have h := ssa_main_cst_23 (F := F) (W20 m ρ c)
  rw [nullary_result] at h ⊢
  rw [lift21 m ρ c main_cst_23 (by decide)]
  exact h

theorem ssa_main_v138 (V : Valuation τ sig (Elt F)) :
    after hostOps5_2 V (Proc.devRef .tc main_v138) = (StableHlo.unary main_cst_23 main_v138 (broadcastInDim S100000x64 ![] bcast_S_S100000x64 : (⟨S_, .f32⟩ : BufTy).Contents (Elt F) → (⟨S100000x64, .f32⟩ : BufTy).Contents (Elt F)) : HloOp τ sig (Elt F)).result (after hostOps5_2 V) (Proc.devRef .tc main_v138) := by
  after_results_simp
theorem fin_main_v138 (c : Dev nD) :
    W55 m ρ c (Proc.devRef .tc main_v138) = (StableHlo.unary main_cst_23 main_v138 (broadcastInDim S100000x64 ![] bcast_S_S100000x64 : (⟨S_, .f32⟩ : BufTy).Contents (Elt F) → (⟨S100000x64, .f32⟩ : BufTy).Contents (Elt F)) : HloOp τ sig (Elt F)).result (W55 m ρ c) (Proc.devRef .tc main_v138) := by
  have h := ssa_main_v138 (F := F) (W20 m ρ c)
  rw [unary_result] at h ⊢
  rw [lift21 m ρ c main_v138 (by decide), lift21 m ρ c main_cst_23 (by decide)]
  exact h

theorem ssa_main_v139 (V : Valuation τ sig (Elt F)) :
    after hostOps5_2 V (Proc.devRef .tc main_v139) = (StableHlo.binary main_v138 main_v135 main_v139 (mulf : (⟨S100000x64, .f32⟩ : BufTy).Contents (Elt F) → (⟨S100000x64, .f32⟩ : BufTy).Contents (Elt F) → (⟨S100000x64, .f32⟩ : BufTy).Contents (Elt F)) : HloOp τ sig (Elt F)).result (after hostOps5_2 V) (Proc.devRef .tc main_v139) := by
  after_results_simp
theorem fin_main_v139 (c : Dev nD) :
    W55 m ρ c (Proc.devRef .tc main_v139) = (StableHlo.binary main_v138 main_v135 main_v139 (mulf : (⟨S100000x64, .f32⟩ : BufTy).Contents (Elt F) → (⟨S100000x64, .f32⟩ : BufTy).Contents (Elt F) → (⟨S100000x64, .f32⟩ : BufTy).Contents (Elt F)) : HloOp τ sig (Elt F)).result (W55 m ρ c) (Proc.devRef .tc main_v139) := by
  have h := ssa_main_v139 (F := F) (W20 m ρ c)
  rw [binary_result] at h ⊢
  rw [lift21 m ρ c main_v139 (by decide), lift21 m ρ c main_v138 (by decide), lift21 m ρ c main_v135 (by decide)]
  exact h

theorem ssa_main_v140 (V : Valuation τ sig (Elt F)) :
    after hostOps5_3 V (Proc.devRef .tc main_v140) = (StableHlo.TRef.ternary (.of main_v137 : StableHlo.TRef sig ⟨S100000x64, .i1⟩) (.of main_v135 : StableHlo.TRef sig ⟨S100000x64, .f32⟩) (.of main_v139 : StableHlo.TRef sig ⟨S100000x64, .f32⟩) (.of main_v140 : StableHlo.TRef sig ⟨S100000x64, .f32⟩) select : HloOp τ sig (Elt F)).result (after hostOps5_3 V) (Proc.devRef .tc main_v140) := by
  after_results_simp
theorem fin_main_v140 (c : Dev nD) :
    W55 m ρ c (Proc.devRef .tc main_v140) = (StableHlo.TRef.ternary (.of main_v137 : StableHlo.TRef sig ⟨S100000x64, .i1⟩) (.of main_v135 : StableHlo.TRef sig ⟨S100000x64, .f32⟩) (.of main_v139 : StableHlo.TRef sig ⟨S100000x64, .f32⟩) (.of main_v140 : StableHlo.TRef sig ⟨S100000x64, .f32⟩) select : HloOp τ sig (Elt F)).result (W55 m ρ c) (Proc.devRef .tc main_v140) := by
  have h := ssa_main_v140 (F := F) (W21 m ρ c)
  rw [ternary_result] at h ⊢
  rw [lift22 m ρ c main_v140 (by decide), lift22 m ρ c main_v137 (by decide), lift22 m ρ c main_v135 (by decide), lift22 m ρ c main_v139 (by decide)]
  exact h

theorem ssa_main_v141 (V : Valuation τ sig (Elt F)) :
    after hostOps5_4 V (Proc.devRef .tc main_v141) = (StableHlo.unary main_arg11 main_v141 ((extractStridedSlice S1x64x64 ![1, 0, 0] · slices_S3x64x64_S1x64x64_1_0_0) : (⟨S3x64x64, .f32⟩ : BufTy).Contents (Elt F) → (⟨S1x64x64, .f32⟩ : BufTy).Contents (Elt F)) : HloOp τ sig (Elt F)).result (after hostOps5_4 V) (Proc.devRef .tc main_v141) := by
  after_results_simp
theorem fin_main_v141 (c : Dev nD) :
    W55 m ρ c (Proc.devRef .tc main_v141) = (StableHlo.unary main_arg11 main_v141 ((extractStridedSlice S1x64x64 ![1, 0, 0] · slices_S3x64x64_S1x64x64_1_0_0) : (⟨S3x64x64, .f32⟩ : BufTy).Contents (Elt F) → (⟨S1x64x64, .f32⟩ : BufTy).Contents (Elt F)) : HloOp τ sig (Elt F)).result (W55 m ρ c) (Proc.devRef .tc main_v141) := by
  have h := ssa_main_v141 (F := F) (W22 m ρ c)
  rw [unary_result] at h ⊢
  rw [lift23 m ρ c main_v141 (by decide), lift23 m ρ c main_arg11 (by decide)]
  exact h

theorem ssa_main_v142 (V : Valuation τ sig (Elt F)) :
    after hostOps5_4 V (Proc.devRef .tc main_v142) = (StableHlo.reshape main_v141 main_v142 rfl shapeCasts_S1x64x64_S64x64 : HloOp τ sig (Elt F)).result (after hostOps5_4 V) (Proc.devRef .tc main_v142) := by
  after_results_simp
theorem fin_main_v142 (c : Dev nD) :
    W55 m ρ c (Proc.devRef .tc main_v142) = (StableHlo.reshape main_v141 main_v142 rfl shapeCasts_S1x64x64_S64x64 : HloOp τ sig (Elt F)).result (W55 m ρ c) (Proc.devRef .tc main_v142) := by
  have h := ssa_main_v142 (F := F) (W22 m ρ c)
  rw [reshape_result] at h ⊢
  rw [lift23 m ρ c main_v142 (by decide), lift23 m ρ c main_v141 (by decide)]
  exact h

theorem ssa_main_v143 (V : Valuation τ sig (Elt F)) :
    after hostOps5_4 V (Proc.devRef .tc main_v143) = (StableHlo.unary main_arg12 main_v143 ((extractStridedSlice S1x64 ![1, 0] · slices_S3x64_S1x64_1_0) : (⟨S3x64, .f32⟩ : BufTy).Contents (Elt F) → (⟨S1x64, .f32⟩ : BufTy).Contents (Elt F)) : HloOp τ sig (Elt F)).result (after hostOps5_4 V) (Proc.devRef .tc main_v143) := by
  after_results_simp
theorem fin_main_v143 (c : Dev nD) :
    W55 m ρ c (Proc.devRef .tc main_v143) = (StableHlo.unary main_arg12 main_v143 ((extractStridedSlice S1x64 ![1, 0] · slices_S3x64_S1x64_1_0) : (⟨S3x64, .f32⟩ : BufTy).Contents (Elt F) → (⟨S1x64, .f32⟩ : BufTy).Contents (Elt F)) : HloOp τ sig (Elt F)).result (W55 m ρ c) (Proc.devRef .tc main_v143) := by
  have h := ssa_main_v143 (F := F) (W22 m ρ c)
  rw [unary_result] at h ⊢
  rw [lift23 m ρ c main_v143 (by decide), lift23 m ρ c main_arg12 (by decide)]
  exact h

theorem ssa_main_v144 (V : Valuation τ sig (Elt F)) :
    after hostOps5_4 V (Proc.devRef .tc main_v144) = (StableHlo.reshape main_v143 main_v144 rfl shapeCasts_S1x64_S64 : HloOp τ sig (Elt F)).result (after hostOps5_4 V) (Proc.devRef .tc main_v144) := by
  after_results_simp
theorem fin_main_v144 (c : Dev nD) :
    W55 m ρ c (Proc.devRef .tc main_v144) = (StableHlo.reshape main_v143 main_v144 rfl shapeCasts_S1x64_S64 : HloOp τ sig (Elt F)).result (W55 m ρ c) (Proc.devRef .tc main_v144) := by
  have h := ssa_main_v144 (F := F) (W22 m ρ c)
  rw [reshape_result] at h ⊢
  rw [lift23 m ρ c main_v144 (by decide), lift23 m ρ c main_v143 (by decide)]
  exact h

theorem ssa_main_v145 (V : Valuation τ sig (Elt F)) :
    after hostOps5_4 V (Proc.devRef .tc main_v145) = (StableHlo.reshape main_v144 main_v145 rfl shapeCasts_S64_S1x64 : HloOp τ sig (Elt F)).result (after hostOps5_4 V) (Proc.devRef .tc main_v145) := by
  after_results_simp
theorem fin_main_v145 (c : Dev nD) :
    W55 m ρ c (Proc.devRef .tc main_v145) = (StableHlo.reshape main_v144 main_v145 rfl shapeCasts_S64_S1x64 : HloOp τ sig (Elt F)).result (W55 m ρ c) (Proc.devRef .tc main_v145) := by
  have h := ssa_main_v145 (F := F) (W22 m ρ c)
  rw [reshape_result] at h ⊢
  rw [lift23 m ρ c main_v145 (by decide), lift23 m ρ c main_v144 (by decide)]
  exact h

theorem ssa_main_v147 (V : Valuation τ sig (Elt F)) :
    after hostOps6 V (Proc.devRef .tc main_v147) = (StableHlo.unary main_arg13 main_v147 ((extractStridedSlice S1x64 ![1, 0] · slices_S2x64_S1x64_1_0) : (⟨S2x64, .f32⟩ : BufTy).Contents (Elt F) → (⟨S1x64, .f32⟩ : BufTy).Contents (Elt F)) : HloOp τ sig (Elt F)).result (after hostOps6 V) (Proc.devRef .tc main_v147) := by
  after_results_simp
theorem fin_main_v147 (c : Dev nD) :
    W55 m ρ c (Proc.devRef .tc main_v147) = (StableHlo.unary main_arg13 main_v147 ((extractStridedSlice S1x64 ![1, 0] · slices_S2x64_S1x64_1_0) : (⟨S2x64, .f32⟩ : BufTy).Contents (Elt F) → (⟨S1x64, .f32⟩ : BufTy).Contents (Elt F)) : HloOp τ sig (Elt F)).result (W55 m ρ c) (Proc.devRef .tc main_v147) := by
  have h := ssa_main_v147 (F := F) (W24 m ρ c)
  rw [unary_result] at h ⊢
  rw [lift25 m ρ c main_v147 (by decide), lift25 m ρ c main_arg13 (by decide)]
  exact h

theorem ssa_main_v148 (V : Valuation τ sig (Elt F)) :
    after hostOps6 V (Proc.devRef .tc main_v148) = (StableHlo.reshape main_v147 main_v148 rfl shapeCasts_S1x64_S64 : HloOp τ sig (Elt F)).result (after hostOps6 V) (Proc.devRef .tc main_v148) := by
  after_results_simp
theorem fin_main_v148 (c : Dev nD) :
    W55 m ρ c (Proc.devRef .tc main_v148) = (StableHlo.reshape main_v147 main_v148 rfl shapeCasts_S1x64_S64 : HloOp τ sig (Elt F)).result (W55 m ρ c) (Proc.devRef .tc main_v148) := by
  have h := ssa_main_v148 (F := F) (W24 m ρ c)
  rw [reshape_result] at h ⊢
  rw [lift25 m ρ c main_v148 (by decide), lift25 m ρ c main_v147 (by decide)]
  exact h

theorem ssa_main_v149 (V : Valuation τ sig (Elt F)) :
    after hostOps6 V (Proc.devRef .tc main_v149) = (StableHlo.unary main_arg14 main_v149 ((extractStridedSlice S1x64 ![1, 0] · slices_S2x64_S1x64_1_0) : (⟨S2x64, .f32⟩ : BufTy).Contents (Elt F) → (⟨S1x64, .f32⟩ : BufTy).Contents (Elt F)) : HloOp τ sig (Elt F)).result (after hostOps6 V) (Proc.devRef .tc main_v149) := by
  after_results_simp
theorem fin_main_v149 (c : Dev nD) :
    W55 m ρ c (Proc.devRef .tc main_v149) = (StableHlo.unary main_arg14 main_v149 ((extractStridedSlice S1x64 ![1, 0] · slices_S2x64_S1x64_1_0) : (⟨S2x64, .f32⟩ : BufTy).Contents (Elt F) → (⟨S1x64, .f32⟩ : BufTy).Contents (Elt F)) : HloOp τ sig (Elt F)).result (W55 m ρ c) (Proc.devRef .tc main_v149) := by
  have h := ssa_main_v149 (F := F) (W24 m ρ c)
  rw [unary_result] at h ⊢
  rw [lift25 m ρ c main_v149 (by decide), lift25 m ρ c main_arg14 (by decide)]
  exact h

theorem ssa_main_v150 (V : Valuation τ sig (Elt F)) :
    after hostOps6 V (Proc.devRef .tc main_v150) = (StableHlo.reshape main_v149 main_v150 rfl shapeCasts_S1x64_S64 : HloOp τ sig (Elt F)).result (after hostOps6 V) (Proc.devRef .tc main_v150) := by
  after_results_simp
theorem fin_main_v150 (c : Dev nD) :
    W55 m ρ c (Proc.devRef .tc main_v150) = (StableHlo.reshape main_v149 main_v150 rfl shapeCasts_S1x64_S64 : HloOp τ sig (Elt F)).result (W55 m ρ c) (Proc.devRef .tc main_v150) := by
  have h := ssa_main_v150 (F := F) (W24 m ρ c)
  rw [reshape_result] at h ⊢
  rw [lift25 m ρ c main_v150 (by decide), lift25 m ρ c main_v149 (by decide)]
  exact h

theorem ssa_main_cst_24 (V : Valuation τ sig (Elt F)) :
    after hostOps6 V (Proc.devRef .tc main_cst_24) = (StableHlo.nullary main_cst_24 (constant S_ .f32 0x00000000#32) : HloOp τ sig (Elt F)).result (after hostOps6 V) (Proc.devRef .tc main_cst_24) := by
  after_results_simp
theorem fin_main_cst_24 (c : Dev nD) :
    W55 m ρ c (Proc.devRef .tc main_cst_24) = (StableHlo.nullary main_cst_24 (constant S_ .f32 0x00000000#32) : HloOp τ sig (Elt F)).result (W55 m ρ c) (Proc.devRef .tc main_cst_24) := by
  have h := ssa_main_cst_24 (F := F) (W24 m ρ c)
  rw [nullary_result] at h ⊢
  rw [lift25 m ρ c main_cst_24 (by decide)]
  exact h

theorem ssa_main_v151 (V : Valuation τ sig (Elt F)) :
    after hostOps6 V (Proc.devRef .tc main_v151) = (StableHlo.binary main_v146 main_cst_24 main_v151 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) : HloOp τ sig (Elt F)).result (after hostOps6 V) (Proc.devRef .tc main_v151) := by
  after_results_simp
theorem fin_main_v151 (c : Dev nD) :
    W55 m ρ c (Proc.devRef .tc main_v151) = (StableHlo.binary main_v146 main_cst_24 main_v151 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) : HloOp τ sig (Elt F)).result (W55 m ρ c) (Proc.devRef .tc main_v151) := by
  have h := ssa_main_v151 (F := F) (W24 m ρ c)
  rw [binary_result] at h ⊢
  rw [lift25 m ρ c main_v151 (by decide), lift25 m ρ c main_v146 (by decide), lift25 m ρ c main_cst_24 (by decide)]
  exact h

theorem ssa_main_cst_25 (V : Valuation τ sig (Elt F)) :
    after hostOps6 V (Proc.devRef .tc main_cst_25) = (StableHlo.nullary main_cst_25 (constant S_ .f32 0x47C35000#32) : HloOp τ sig (Elt F)).result (after hostOps6 V) (Proc.devRef .tc main_cst_25) := by
  after_results_simp
theorem fin_main_cst_25 (c : Dev nD) :
    W55 m ρ c (Proc.devRef .tc main_cst_25) = (StableHlo.nullary main_cst_25 (constant S_ .f32 0x47C35000#32) : HloOp τ sig (Elt F)).result (W55 m ρ c) (Proc.devRef .tc main_cst_25) := by
  have h := ssa_main_cst_25 (F := F) (W24 m ρ c)
  rw [nullary_result] at h ⊢
  rw [lift25 m ρ c main_cst_25 (by decide)]
  exact h

theorem ssa_main_v152 (V : Valuation τ sig (Elt F)) :
    after hostOps6 V (Proc.devRef .tc main_v152) = (StableHlo.unary main_cst_25 main_v152 (broadcastInDim S64 ![] bcast_S_S64 : (⟨S_, .f32⟩ : BufTy).Contents (Elt F) → (⟨S64, .f32⟩ : BufTy).Contents (Elt F)) : HloOp τ sig (Elt F)).result (after hostOps6 V) (Proc.devRef .tc main_v152) := by
  after_results_simp
theorem fin_main_v152 (c : Dev nD) :
    W55 m ρ c (Proc.devRef .tc main_v152) = (StableHlo.unary main_cst_25 main_v152 (broadcastInDim S64 ![] bcast_S_S64 : (⟨S_, .f32⟩ : BufTy).Contents (Elt F) → (⟨S64, .f32⟩ : BufTy).Contents (Elt F)) : HloOp τ sig (Elt F)).result (W55 m ρ c) (Proc.devRef .tc main_v152) := by
  have h := ssa_main_v152 (F := F) (W24 m ρ c)
  rw [unary_result] at h ⊢
  rw [lift25 m ρ c main_v152 (by decide), lift25 m ρ c main_cst_25 (by decide)]
  exact h

theorem ssa_main_v153 (V : Valuation τ sig (Elt F)) :
    after hostOps6 V (Proc.devRef .tc main_v153) = (StableHlo.binary main_v151 main_v152 main_v153 (Host.divf : (⟨S64, .f32⟩ : BufTy).Contents (Elt F) → (⟨S64, .f32⟩ : BufTy).Contents (Elt F) → (⟨S64, .f32⟩ : BufTy).Contents (Elt F)) : HloOp τ sig (Elt F)).result (after hostOps6 V) (Proc.devRef .tc main_v153) := by
  after_results_simp
theorem fin_main_v153 (c : Dev nD) :
    W55 m ρ c (Proc.devRef .tc main_v153) = (StableHlo.binary main_v151 main_v152 main_v153 (Host.divf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v153) := by
  have h := ssa_main_v153 (F := F) (W24 m ρ c)
  rw [binary_result] at h ⊢
  rw [lift25 m ρ c main_v153 (by decide), lift25 m ρ c main_v151 (by decide), lift25 m ρ c main_v152 (by decide)]
  exact h

theorem ssa_main_c_26 (V : Valuation τ sig (Elt F)) :
    after hostOps6 V (Proc.devRef .tc main_c_26) = (StableHlo.nullary main_c_26 (constantI S_ 32 0#32) : HloOp τ sig (Elt F)).result (after hostOps6 V) (Proc.devRef .tc main_c_26) := by
  after_results_simp
theorem fin_main_c_26 (c : Dev nD) :
    W55 m ρ c (Proc.devRef .tc main_c_26) = (StableHlo.nullary main_c_26 (constantI S_ 32 0#32) : HloOp τ sig (Elt F)).result (W55 m ρ c) (Proc.devRef .tc main_c_26) := by
  have h := ssa_main_c_26 (F := F) (W24 m ρ c)
  rw [nullary_result] at h ⊢
  rw [lift25 m ρ c main_c_26 (by decide)]
  exact h

end Cert.KernelIdeal.Tab

end
-- ==== Proof.TabKSsa3.lean ====
/- Host stretches hostOps6_1, hostOps6_2, hostOps6_3, hostOps6_4, hostOps7, hostOps8 of the kernel program read one operation at a time: each buffer a stretch writes holds its operation's
   function of the operands, within the stretch from any contents and, at the last boundary of the run, over the last boundary's contents. -/
import proofs.«409037_j72164040508123_1_alg».proof.Proof.TabK

set_option maxRecDepth 16384

noncomputable section

namespace Cert.KernelIdeal.Tab

open Cert.KernelIdeal Cert.KernelIdeal.Gen Cert.KernelIdeal.GenP Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

theorem ssa_main_call6_cst (V : Valuation τ sig (Elt F)) :
    after hostOps6_1 V (Proc.devRef .tc main_call6_cst) = (StableHlo.TRef.nullary (.of main_call6_cst : StableHlo.TRef sig ⟨S_, .f32⟩) (constant S_ .f32 0x00000000#32) : HloOp τ sig (Elt F)).result (after hostOps6_1 V) (Proc.devRef .tc main_call6_cst) := by
  after_results_simp
theorem fin_main_call6_cst (c : Dev nD) :
    W55 m ρ c (Proc.devRef .tc main_call6_cst) = (StableHlo.TRef.nullary (.of main_call6_cst : StableHlo.TRef sig ⟨S_, .f32⟩) (constant S_ .f32 0x00000000#32) : HloOp τ sig (Elt F)).result (W55 m ρ c) (Proc.devRef .tc main_call6_cst) := by
  have h := ssa_main_call6_cst (F := F) (W25 m ρ c)
  rw [nullary_result] at h ⊢
  rw [lift26 m ρ c main_call6_cst (by decide)]
  exact h

theorem ssa_main_call6_v0 (V : Valuation τ sig (Elt F)) :
    after hostOps6_1 V (Proc.devRef .tc main_call6_v0) = (StableHlo.TRef.binary (.of main_v146 : StableHlo.TRef sig ⟨S100000x64, .f32⟩) (.of main_call6_cst : StableHlo.TRef sig ⟨S_, .f32⟩) (.of main_call6_v0 : StableHlo.TRef sig ⟨S64, .f32⟩) (fun x v => Host.reduceAdd x v reducesTo_S100000x64_S64_d0 h_S_) : HloOp τ sig (Elt F)).result (after hostOps6_1 V) (Proc.devRef .tc main_call6_v0) := by
  after_results_simp
theorem fin_main_call6_v0 (c : Dev nD) :
    W55 m ρ c (Proc.devRef .tc main_call6_v0) = (StableHlo.TRef.binary (.of main_v146 : StableHlo.TRef sig ⟨S100000x64, .f32⟩) (.of main_call6_cst : StableHlo.TRef sig ⟨S_, .f32⟩) (.of main_call6_v0 : StableHlo.TRef sig ⟨S64, .f32⟩) (fun x v => Host.reduceAdd x v reducesTo_S100000x64_S64_d0 h_S_) : HloOp τ sig (Elt F)).result (W55 m ρ c) (Proc.devRef .tc main_call6_v0) := by
  have h := ssa_main_call6_v0 (F := F) (W25 m ρ c)
  rw [binary_result] at h ⊢
  rw [lift26 m ρ c main_call6_v0 (by decide), lift26 m ρ c main_v146 (by decide), lift26 m ρ c main_call6_cst (by decide)]
  exact h

theorem ssa_main_call6_v1 (V : Valuation τ sig (Elt F)) :
    after hostOps6_1 V (Proc.devRef .tc main_call6_v1) = (StableHlo.TRef.unary (.of main_call6_v0 : StableHlo.TRef sig ⟨S64, .f32⟩) (.of main_call6_v1 : StableHlo.TRef sig ⟨S1x64, .f32⟩) (broadcastInDim S1x64 ![1] bcast_S64_S1x64_1) : HloOp τ sig (Elt F)).result (after hostOps6_1 V) (Proc.devRef .tc main_call6_v1) := by
  after_results_simp
theorem fin_main_call6_v1 (c : Dev nD) :
    W55 m ρ c (Proc.devRef .tc main_call6_v1) = (StableHlo.TRef.unary (.of main_call6_v0 : StableHlo.TRef sig ⟨S64, .f32⟩) (.of main_call6_v1 : StableHlo.TRef sig ⟨S1x64, .f32⟩) (broadcastInDim S1x64 ![1] bcast_S64_S1x64_1) : HloOp τ sig (Elt F)).result (W55 m ρ c) (Proc.devRef .tc main_call6_v1) := by
  have h := ssa_main_call6_v1 (F := F) (W25 m ρ c)
  rw [unary_result] at h ⊢
  rw [lift26 m ρ c main_call6_v1 (by decide), lift26 m ρ c main_call6_v0 (by decide)]
  exact h

theorem ssa_main_call6_cst_0 (V : Valuation τ sig (Elt F)) :
    after hostOps6_1 V (Proc.devRef .tc main_call6_cst_0) = (StableHlo.TRef.nullary (.of main_call6_cst_0 : StableHlo.TRef sig ⟨S_, .f32⟩) (constant S_ .f32 0x47C35000#32) : HloOp τ sig (Elt F)).result (after hostOps6_1 V) (Proc.devRef .tc main_call6_cst_0) := by
  after_results_simp
theorem fin_main_call6_cst_0 (c : Dev nD) :
    W55 m ρ c (Proc.devRef .tc main_call6_cst_0) = (StableHlo.TRef.nullary (.of main_call6_cst_0 : StableHlo.TRef sig ⟨S_, .f32⟩) (constant S_ .f32 0x47C35000#32) : HloOp τ sig (Elt F)).result (W55 m ρ c) (Proc.devRef .tc main_call6_cst_0) := by
  have h := ssa_main_call6_cst_0 (F := F) (W25 m ρ c)
  rw [nullary_result] at h ⊢
  rw [lift26 m ρ c main_call6_cst_0 (by decide)]
  exact h

theorem ssa_main_call6_v2 (V : Valuation τ sig (Elt F)) :
    after hostOps6_1 V (Proc.devRef .tc main_call6_v2) = (StableHlo.TRef.unary (.of main_call6_cst_0 : StableHlo.TRef sig ⟨S_, .f32⟩) (.of main_call6_v2 : StableHlo.TRef sig ⟨S1x64, .f32⟩) (broadcastInDim S1x64 ![] bcast_S_S1x64) : HloOp τ sig (Elt F)).result (after hostOps6_1 V) (Proc.devRef .tc main_call6_v2) := by
  after_results_simp
theorem fin_main_call6_v2 (c : Dev nD) :
    W55 m ρ c (Proc.devRef .tc main_call6_v2) = (StableHlo.TRef.unary (.of main_call6_cst_0 : StableHlo.TRef sig ⟨S_, .f32⟩) (.of main_call6_v2 : StableHlo.TRef sig ⟨S1x64, .f32⟩) (broadcastInDim S1x64 ![] bcast_S_S1x64) : HloOp τ sig (Elt F)).result (W55 m ρ c) (Proc.devRef .tc main_call6_v2) := by
  have h := ssa_main_call6_v2 (F := F) (W25 m ρ c)
  rw [unary_result] at h ⊢
  rw [lift26 m ρ c main_call6_v2 (by decide), lift26 m ρ c main_call6_cst_0 (by decide)]
  exact h

theorem ssa_main_call6_v3 (V : Valuation τ sig (Elt F)) :
    after hostOps6_1 V (Proc.devRef .tc main_call6_v3) = (StableHlo.TRef.binary (.of main_call6_v1 : StableHlo.TRef sig ⟨S1x64, .f32⟩) (.of main_call6_v2 : StableHlo.TRef sig ⟨S1x64, .f32⟩) (.of main_call6_v3 : StableHlo.TRef sig ⟨S1x64, .f32⟩) Host.divf : HloOp τ sig (Elt F)).result (after hostOps6_1 V) (Proc.devRef .tc main_call6_v3) := by
  after_results_simp
theorem fin_main_call6_v3 (c : Dev nD) :
    W55 m ρ c (Proc.devRef .tc main_call6_v3) = (StableHlo.TRef.binary (.of main_call6_v1 : StableHlo.TRef sig ⟨S1x64, .f32⟩) (.of main_call6_v2 : StableHlo.TRef sig ⟨S1x64, .f32⟩) (.of main_call6_v3 : StableHlo.TRef sig ⟨S1x64, .f32⟩) Host.divf : HloOp τ sig (Elt F)).result (W55 m ρ c) (Proc.devRef .tc main_call6_v3) := by
  have h := ssa_main_call6_v3 (F := F) (W25 m ρ c)
  rw [binary_result] at h ⊢
  rw [lift26 m ρ c main_call6_v3 (by decide), lift26 m ρ c main_call6_v1 (by decide), lift26 m ρ c main_call6_v2 (by decide)]
  exact h

theorem ssa_main_call6_v4 (V : Valuation τ sig (Elt F)) :
    after hostOps6_1 V (Proc.devRef .tc main_call6_v4) = (StableHlo.TRef.unary (.of main_call6_v3 : StableHlo.TRef sig ⟨S1x64, .f32⟩) (.of main_call6_v4 : StableHlo.TRef sig ⟨S100000x64, .f32⟩) (broadcastInDim S100000x64 ![0, 1] bcast_S1x64_S100000x64_0_1) : HloOp τ sig (Elt F)).result (after hostOps6_1 V) (Proc.devRef .tc main_call6_v4) := by
  after_results_simp
theorem fin_main_call6_v4 (c : Dev nD) :
    W55 m ρ c (Proc.devRef .tc main_call6_v4) = (StableHlo.TRef.unary (.of main_call6_v3 : StableHlo.TRef sig ⟨S1x64, .f32⟩) (.of main_call6_v4 : StableHlo.TRef sig ⟨S100000x64, .f32⟩) (broadcastInDim S100000x64 ![0, 1] bcast_S1x64_S100000x64_0_1) : HloOp τ sig (Elt F)).result (W55 m ρ c) (Proc.devRef .tc main_call6_v4) := by
  have h := ssa_main_call6_v4 (F := F) (W25 m ρ c)
  rw [unary_result] at h ⊢
  rw [lift26 m ρ c main_call6_v4 (by decide), lift26 m ρ c main_call6_v3 (by decide)]
  exact h

theorem ssa_main_call6_v5 (V : Valuation τ sig (Elt F)) :
    after hostOps6_1 V (Proc.devRef .tc main_call6_v5) = (StableHlo.TRef.binary (.of main_v146 : StableHlo.TRef sig ⟨S100000x64, .f32⟩) (.of main_call6_v4 : StableHlo.TRef sig ⟨S100000x64, .f32⟩) (.of main_call6_v5 : StableHlo.TRef sig ⟨S100000x64, .f32⟩) subf : HloOp τ sig (Elt F)).result (after hostOps6_1 V) (Proc.devRef .tc main_call6_v5) := by
  after_results_simp
theorem fin_main_call6_v5 (c : Dev nD) :
    W55 m ρ c (Proc.devRef .tc main_call6_v5) = (StableHlo.TRef.binary (.of main_v146 : StableHlo.TRef sig ⟨S100000x64, .f32⟩) (.of main_call6_v4 : StableHlo.TRef sig ⟨S100000x64, .f32⟩) (.of main_call6_v5 : StableHlo.TRef sig ⟨S100000x64, .f32⟩) subf : HloOp τ sig (Elt F)).result (W55 m ρ c) (Proc.devRef .tc main_call6_v5) := by
  have h := ssa_main_call6_v5 (F := F) (W25 m ρ c)
  rw [binary_result] at h ⊢
  rw [lift26 m ρ c main_call6_v5 (by decide), lift26 m ρ c main_v146 (by decide), lift26 m ρ c main_call6_v4 (by decide)]
  exact h

theorem ssa_main_call6_v6 (V : Valuation τ sig (Elt F)) :
    after hostOps6_1 V (Proc.devRef .tc main_call6_v6) = (StableHlo.TRef.binary (.of main_call6_v5 : StableHlo.TRef sig ⟨S100000x64, .f32⟩) (.of main_call6_v5 : StableHlo.TRef sig ⟨S100000x64, .f32⟩) (.of main_call6_v6 : StableHlo.TRef sig ⟨S100000x64, .f32⟩) mulf : HloOp τ sig (Elt F)).result (after hostOps6_1 V) (Proc.devRef .tc main_call6_v6) := by
  after_results_simp
theorem fin_main_call6_v6 (c : Dev nD) :
    W55 m ρ c (Proc.devRef .tc main_call6_v6) = (StableHlo.TRef.binary (.of main_call6_v5 : StableHlo.TRef sig ⟨S100000x64, .f32⟩) (.of main_call6_v5 : StableHlo.TRef sig ⟨S100000x64, .f32⟩) (.of main_call6_v6 : StableHlo.TRef sig ⟨S100000x64, .f32⟩) mulf : HloOp τ sig (Elt F)).result (W55 m ρ c) (Proc.devRef .tc main_call6_v6) := by
  have h := ssa_main_call6_v6 (F := F) (W25 m ρ c)
  rw [binary_result] at h ⊢
  rw [lift26 m ρ c main_call6_v6 (by decide), lift26 m ρ c main_call6_v5 (by decide)]
  exact h

theorem ssa_main_call6_v7 (V : Valuation τ sig (Elt F)) :
    after hostOps6_1 V (Proc.devRef .tc main_call6_v7) = (StableHlo.TRef.unary (.of main_c_26 : StableHlo.TRef sig ⟨S_, .i32⟩) (.of main_call6_v7 : StableHlo.TRef sig ⟨S_, .f32⟩) (sitofp .f32) : HloOp τ sig (Elt F)).result (after hostOps6_1 V) (Proc.devRef .tc main_call6_v7) := by
  after_results_simp
theorem fin_main_call6_v7 (c : Dev nD) :
    W55 m ρ c (Proc.devRef .tc main_call6_v7) = (StableHlo.TRef.unary (.of main_c_26 : StableHlo.TRef sig ⟨S_, .i32⟩) (.of main_call6_v7 : StableHlo.TRef sig ⟨S_, .f32⟩) (sitofp .f32) : HloOp τ sig (Elt F)).result (W55 m ρ c) (Proc.devRef .tc main_call6_v7) := by
  have h := ssa_main_call6_v7 (F := F) (W25 m ρ c)
  rw [unary_result] at h ⊢
  rw [lift26 m ρ c main_call6_v7 (by decide), lift26 m ρ c main_c_26 (by decide)]
  exact h

theorem ssa_main_call6_cst_1 (V : Valuation τ sig (Elt F)) :
    after hostOps6_1 V (Proc.devRef .tc main_call6_cst_1) = (StableHlo.TRef.nullary (.of main_call6_cst_1 : StableHlo.TRef sig ⟨S_, .f32⟩) (constant S_ .f32 0x47C35000#32) : HloOp τ sig (Elt F)).result (after hostOps6_1 V) (Proc.devRef .tc main_call6_cst_1) := by
  after_results_simp
theorem fin_main_call6_cst_1 (c : Dev nD) :
    W55 m ρ c (Proc.devRef .tc main_call6_cst_1) = (StableHlo.TRef.nullary (.of main_call6_cst_1 : StableHlo.TRef sig ⟨S_, .f32⟩) (constant S_ .f32 0x47C35000#32) : HloOp τ sig (Elt F)).result (W55 m ρ c) (Proc.devRef .tc main_call6_cst_1) := by
  have h := ssa_main_call6_cst_1 (F := F) (W25 m ρ c)
  rw [nullary_result] at h ⊢
  rw [lift26 m ρ c main_call6_cst_1 (by decide)]
  exact h

theorem ssa_main_call6_v8 (V : Valuation τ sig (Elt F)) :
    after hostOps6_1 V (Proc.devRef .tc main_call6_v8) = (StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf : HloOp τ sig (Elt F)).result (after hostOps6_1 V) (Proc.devRef .tc main_call6_v8) := by
  after_results_simp
theorem fin_main_call6_v8 (c : Dev nD) :
    W55 m ρ c (Proc.devRef .tc main_call6_v8) = (StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf : HloOp τ sig (Elt F)).result (W55 m ρ c) (Proc.devRef .tc main_call6_v8) := by
  have h := ssa_main_call6_v8 (F := F) (W25 m ρ c)
  rw [binary_result] at h ⊢
  rw [lift26 m ρ c main_call6_v8 (by decide), lift26 m ρ c main_call6_cst_1 (by decide), lift26 m ρ c main_call6_v7 (by decide)]
  exact h

theorem ssa_main_call6_cst_2 (V : Valuation τ sig (Elt F)) :
    after hostOps6_1 V (Proc.devRef .tc main_call6_cst_2) = (StableHlo.TRef.nullary (.of main_call6_cst_2 : StableHlo.TRef sig ⟨S_, .f32⟩) (constant S_ .f32 0x00000000#32) : HloOp τ sig (Elt F)).result (after hostOps6_1 V) (Proc.devRef .tc main_call6_cst_2) := by
  after_results_simp
theorem fin_main_call6_cst_2 (c : Dev nD) :
    W55 m ρ c (Proc.devRef .tc main_call6_cst_2) = (StableHlo.TRef.nullary (.of main_call6_cst_2 : StableHlo.TRef sig ⟨S_, .f32⟩) (constant S_ .f32 0x00000000#32) : HloOp τ sig (Elt F)).result (W55 m ρ c) (Proc.devRef .tc main_call6_cst_2) := by
  have h := ssa_main_call6_cst_2 (F := F) (W25 m ρ c)
  rw [nullary_result] at h ⊢
  rw [lift26 m ρ c main_call6_cst_2 (by decide)]
  exact h

theorem ssa_main_call6_v9 (V : Valuation τ sig (Elt F)) :
    after hostOps6_1 V (Proc.devRef .tc main_call6_v9) = (StableHlo.TRef.binary (.of main_call6_v6 : StableHlo.TRef sig ⟨S100000x64, .f32⟩) (.of main_call6_cst_2 : StableHlo.TRef sig ⟨S_, .f32⟩) (.of main_call6_v9 : StableHlo.TRef sig ⟨S64, .f32⟩) (fun x v => Host.reduceAdd x v reducesTo_S100000x64_S64_d0 h_S_) : HloOp τ sig (Elt F)).result (after hostOps6_1 V) (Proc.devRef .tc main_call6_v9) := by
  after_results_simp
theorem fin_main_call6_v9 (c : Dev nD) :
    W55 m ρ c (Proc.devRef .tc main_call6_v9) = (StableHlo.TRef.binary (.of main_call6_v6 : StableHlo.TRef sig ⟨S100000x64, .f32⟩) (.of main_call6_cst_2 : StableHlo.TRef sig ⟨S_, .f32⟩) (.of main_call6_v9 : StableHlo.TRef sig ⟨S64, .f32⟩) (fun x v => Host.reduceAdd x v reducesTo_S100000x64_S64_d0 h_S_) : HloOp τ sig (Elt F)).result (W55 m ρ c) (Proc.devRef .tc main_call6_v9) := by
  have h := ssa_main_call6_v9 (F := F) (W25 m ρ c)
  rw [binary_result] at h ⊢
  rw [lift26 m ρ c main_call6_v9 (by decide), lift26 m ρ c main_call6_v6 (by decide), lift26 m ρ c main_call6_cst_2 (by decide)]
  exact h

theorem ssa_main_call6_v10 (V : Valuation τ sig (Elt F)) :
    after hostOps6_1 V (Proc.devRef .tc main_call6_v10) = (StableHlo.TRef.unary (.of main_call6_v8 : StableHlo.TRef sig ⟨S_, .f32⟩) (.of main_call6_v10 : StableHlo.TRef sig ⟨S64, .f32⟩) (broadcastInDim S64 ![] bcast_S_S64) : HloOp τ sig (Elt F)).result (after hostOps6_1 V) (Proc.devRef .tc main_call6_v10) := by
  after_results_simp
theorem fin_main_call6_v10 (c : Dev nD) :
    W55 m ρ c (Proc.devRef .tc main_call6_v10) = (StableHlo.TRef.unary (.of main_call6_v8 : StableHlo.TRef sig ⟨S_, .f32⟩) (.of main_call6_v10 : StableHlo.TRef sig ⟨S64, .f32⟩) (broadcastInDim S64 ![] bcast_S_S64) : HloOp τ sig (Elt F)).result (W55 m ρ c) (Proc.devRef .tc main_call6_v10) := by
  have h := ssa_main_call6_v10 (F := F) (W25 m ρ c)
  rw [unary_result] at h ⊢
  rw [lift26 m ρ c main_call6_v10 (by decide), lift26 m ρ c main_call6_v8 (by decide)]
  exact h

theorem ssa_main_call6_v11 (V : Valuation τ sig (Elt F)) :
    after hostOps6_1 V (Proc.devRef .tc main_call6_v11) = (StableHlo.TRef.binary (.of main_call6_v9 : StableHlo.TRef sig ⟨S64, .f32⟩) (.of main_call6_v10 : StableHlo.TRef sig ⟨S64, .f32⟩) (.of main_call6_v11 : StableHlo.TRef sig ⟨S64, .f32⟩) Host.divf : HloOp τ sig (Elt F)).result (after hostOps6_1 V) (Proc.devRef .tc main_call6_v11) := by
  after_results_simp
theorem fin_main_call6_v11 (c : Dev nD) :
    W55 m ρ c (Proc.devRef .tc main_call6_v11) = (StableHlo.TRef.binary (.of main_call6_v9 : StableHlo.TRef sig ⟨S64, .f32⟩) (.of main_call6_v10 : StableHlo.TRef sig ⟨S64, .f32⟩) (.of main_call6_v11 : StableHlo.TRef sig ⟨S64, .f32⟩) Host.divf : HloOp τ sig (Elt F)).result (W55 m ρ c) (Proc.devRef .tc main_call6_v11) := by
  have h := ssa_main_call6_v11 (F := F) (W25 m ρ c)
  rw [binary_result] at h ⊢
  rw [lift26 m ρ c main_call6_v11 (by decide), lift26 m ρ c main_call6_v9 (by decide), lift26 m ρ c main_call6_v10 (by decide)]
  exact h

theorem ssa_main_call6_cst_3 (V : Valuation τ sig (Elt F)) :
    after hostOps6_1 V (Proc.devRef .tc main_call6_cst_3) = (StableHlo.TRef.nullary (.of main_call6_cst_3 : StableHlo.TRef sig ⟨S_, .f32⟩) (constant S_ .f32 0x00000000#32) : HloOp τ sig (Elt F)).result (after hostOps6_1 V) (Proc.devRef .tc main_call6_cst_3) := by
  after_results_simp
theorem fin_main_call6_cst_3 (c : Dev nD) :
    W55 m ρ c (Proc.devRef .tc main_call6_cst_3) = (StableHlo.TRef.nullary (.of main_call6_cst_3 : StableHlo.TRef sig ⟨S_, .f32⟩) (constant S_ .f32 0x00000000#32) : HloOp τ sig (Elt F)).result (W55 m ρ c) (Proc.devRef .tc main_call6_cst_3) := by
  have h := ssa_main_call6_cst_3 (F := F) (W25 m ρ c)
  rw [nullary_result] at h ⊢
  rw [lift26 m ρ c main_call6_cst_3 (by decide)]
  exact h

theorem ssa_main_call6_v12 (V : Valuation τ sig (Elt F)) :
    after hostOps6_1 V (Proc.devRef .tc main_call6_v12) = (StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt) : HloOp τ sig (Elt F)).result (after hostOps6_1 V) (Proc.devRef .tc main_call6_v12) := by
  after_results_simp
theorem fin_main_call6_v12 (c : Dev nD) :
    W55 m ρ c (Proc.devRef .tc main_call6_v12) = (StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt) : HloOp τ sig (Elt F)).result (W55 m ρ c) (Proc.devRef .tc main_call6_v12) := by
  have h := ssa_main_call6_v12 (F := F) (W25 m ρ c)
  rw [binary_result] at h ⊢
  rw [lift26 m ρ c main_call6_v12 (by decide), lift26 m ρ c main_call6_v8 (by decide), lift26 m ρ c main_call6_cst_3 (by decide)]
  exact h

theorem ssa_main_call6_cst_4 (V : Valuation τ sig (Elt F)) :
    after hostOps6_1 V (Proc.devRef .tc main_call6_cst_4) = (StableHlo.TRef.nullary (.of main_call6_cst_4 : StableHlo.TRef sig ⟨S_, .f32⟩) (constant S_ .f32 0x7FC00000#32) : HloOp τ sig (Elt F)).result (after hostOps6_1 V) (Proc.devRef .tc main_call6_cst_4) := by
  after_results_simp
theorem fin_main_call6_cst_4 (c : Dev nD) :
    W55 m ρ c (Proc.devRef .tc main_call6_cst_4) = (StableHlo.TRef.nullary (.of main_call6_cst_4 : StableHlo.TRef sig ⟨S_, .f32⟩) (constant S_ .f32 0x7FC00000#32) : HloOp τ sig (Elt F)).result (W55 m ρ c) (Proc.devRef .tc main_call6_cst_4) := by
  have h := ssa_main_call6_cst_4 (F := F) (W25 m ρ c)
  rw [nullary_result] at h ⊢
  rw [lift26 m ρ c main_call6_cst_4 (by decide)]
  exact h

theorem ssa_main_call6_call0_v0 (V : Valuation τ sig (Elt F)) :
    after hostOps6_1 V (Proc.devRef .tc main_call6_call0_v0) = (StableHlo.TRef.unary (.of main_call6_cst_4 : StableHlo.TRef sig ⟨S_, .f32⟩) (.of main_call6_call0_v0 : StableHlo.TRef sig ⟨S_, .f32⟩) id : HloOp τ sig (Elt F)).result (after hostOps6_1 V) (Proc.devRef .tc main_call6_call0_v0) := by
  after_results_simp
theorem fin_main_call6_call0_v0 (c : Dev nD) :
    W55 m ρ c (Proc.devRef .tc main_call6_call0_v0) = (StableHlo.TRef.unary (.of main_call6_cst_4 : StableHlo.TRef sig ⟨S_, .f32⟩) (.of main_call6_call0_v0 : StableHlo.TRef sig ⟨S_, .f32⟩) id : HloOp τ sig (Elt F)).result (W55 m ρ c) (Proc.devRef .tc main_call6_call0_v0) := by
  have h := ssa_main_call6_call0_v0 (F := F) (W25 m ρ c)
  rw [unary_result] at h ⊢
  rw [lift26 m ρ c main_call6_call0_v0 (by decide), lift26 m ρ c main_call6_cst_4 (by decide)]
  exact h

theorem ssa_main_call6_call0_v1 (V : Valuation τ sig (Elt F)) :
    after hostOps6_1 V (Proc.devRef .tc main_call6_call0_v1) = (StableHlo.TRef.unary (.of main_call6_call0_v0 : StableHlo.TRef sig ⟨S_, .f32⟩) (.of main_call6_call0_v1 : StableHlo.TRef sig ⟨S64, .f32⟩) (broadcastInDim S64 ![] bcast_S_S64) : HloOp τ sig (Elt F)).result (after hostOps6_1 V) (Proc.devRef .tc main_call6_call0_v1) := by
  after_results_simp
theorem fin_main_call6_call0_v1 (c : Dev nD) :
    W55 m ρ c (Proc.devRef .tc main_call6_call0_v1) = (StableHlo.TRef.unary (.of main_call6_call0_v0 : StableHlo.TRef sig ⟨S_, .f32⟩) (.of main_call6_call0_v1 : StableHlo.TRef sig ⟨S64, .f32⟩) (broadcastInDim S64 ![] bcast_S_S64) : HloOp τ sig (Elt F)).result (W55 m ρ c) (Proc.devRef .tc main_call6_call0_v1) := by
  have h := ssa_main_call6_call0_v1 (F := F) (W25 m ρ c)
  rw [unary_result] at h ⊢
  rw [lift26 m ρ c main_call6_call0_v1 (by decide), lift26 m ρ c main_call6_call0_v0 (by decide)]
  exact h

theorem ssa_main_v154 (V : Valuation τ sig (Elt F)) :
    after hostOps6_1 V (Proc.devRef .tc main_v154) = (StableHlo.TRef.ternary (.of main_call6_v12 : StableHlo.TRef sig ⟨S_, .i1⟩) (.of main_call6_v11 : StableHlo.TRef sig ⟨S64, .f32⟩) (.of main_call6_call0_v1 : StableHlo.TRef sig ⟨S64, .f32⟩) (.of main_v154 : StableHlo.TRef sig ⟨S64, .f32⟩) (fun p a b => select (broadcastInDim S64 ![] bcast_S_S64 p) a b) : HloOp τ sig (Elt F)).result (after hostOps6_1 V) (Proc.devRef .tc main_v154) := by
  after_results_simp
theorem fin_main_v154 (c : Dev nD) :
    W55 m ρ c (Proc.devRef .tc main_v154) = (StableHlo.TRef.ternary (.of main_call6_v12 : StableHlo.TRef sig ⟨S_, .i1⟩) (.of main_call6_v11 : StableHlo.TRef sig ⟨S64, .f32⟩) (.of main_call6_call0_v1 : StableHlo.TRef sig ⟨S64, .f32⟩) (.of main_v154 : StableHlo.TRef sig ⟨S64, .f32⟩) (fun p a b => select (broadcastInDim S64 ![] bcast_S_S64 p) a b) : HloOp τ sig (Elt F)).result (W55 m ρ c) (Proc.devRef .tc main_v154) := by
  have h := ssa_main_v154 (F := F) (W25 m ρ c)
  rw [ternary_result] at h ⊢
  rw [lift26 m ρ c main_v154 (by decide), lift26 m ρ c main_call6_v12 (by decide), lift26 m ρ c main_call6_v11 (by decide), lift26 m ρ c main_call6_call0_v1 (by decide)]
  exact h

theorem ssa_main_cst_27 (V : Valuation τ sig (Elt F)) :
    after hostOps6_2 V (Proc.devRef .tc main_cst_27) = (StableHlo.nullary main_cst_27 (constant S_ .f32 0x3727C5AC#32) : HloOp τ sig (Elt F)).result (after hostOps6_2 V) (Proc.devRef .tc main_cst_27) := by
  after_results_simp
theorem fin_main_cst_27 (c : Dev nD) :
    W55 m ρ c (Proc.devRef .tc main_cst_27) = (StableHlo.nullary main_cst_27 (constant S_ .f32 0x3727C5AC#32) : HloOp τ sig (Elt F)).result (W55 m ρ c) (Proc.devRef .tc main_cst_27) := by
  have h := ssa_main_cst_27 (F := F) (W26 m ρ c)
  rw [nullary_result] at h ⊢
  rw [lift27 m ρ c main_cst_27 (by decide)]
  exact h

theorem ssa_main_v155 (V : Valuation τ sig (Elt F)) :
    after hostOps6_2 V (Proc.devRef .tc main_v155) = (StableHlo.unary main_cst_27 main_v155 (broadcastInDim S64 ![] bcast_S_S64 : (⟨S_, .f32⟩ : BufTy).Contents (Elt F) → (⟨S64, .f32⟩ : BufTy).Contents (Elt F)) : HloOp τ sig (Elt F)).result (after hostOps6_2 V) (Proc.devRef .tc main_v155) := by
  after_results_simp
theorem fin_main_v155 (c : Dev nD) :
    W55 m ρ c (Proc.devRef .tc main_v155) = (StableHlo.unary main_cst_27 main_v155 (broadcastInDim S64 ![] bcast_S_S64 : (⟨S_, .f32⟩ : BufTy).Contents (Elt F) → (⟨S64, .f32⟩ : BufTy).Contents (Elt F)) : HloOp τ sig (Elt F)).result (W55 m ρ c) (Proc.devRef .tc main_v155) := by
  have h := ssa_main_v155 (F := F) (W26 m ρ c)
  rw [unary_result] at h ⊢
  rw [lift27 m ρ c main_v155 (by decide), lift27 m ρ c main_cst_27 (by decide)]
  exact h

theorem ssa_main_v156 (V : Valuation τ sig (Elt F)) :
    after hostOps6_2 V (Proc.devRef .tc main_v156) = (StableHlo.binary main_v154 main_v155 main_v156 (addf : (⟨S64, .f32⟩ : BufTy).Contents (Elt F) → (⟨S64, .f32⟩ : BufTy).Contents (Elt F) → (⟨S64, .f32⟩ : BufTy).Contents (Elt F)) : HloOp τ sig (Elt F)).result (after hostOps6_2 V) (Proc.devRef .tc main_v156) := by
  after_results_simp
theorem fin_main_v156 (c : Dev nD) :
    W55 m ρ c (Proc.devRef .tc main_v156) = (StableHlo.binary main_v154 main_v155 main_v156 (addf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v156) := by
  have h := ssa_main_v156 (F := F) (W26 m ρ c)
  rw [binary_result] at h ⊢
  rw [lift27 m ρ c main_v156 (by decide), lift27 m ρ c main_v154 (by decide), lift27 m ρ c main_v155 (by decide)]
  exact h

theorem ssa_main_v157 (V : Valuation τ sig (Elt F)) :
    after hostOps6_2 V (Proc.devRef .tc main_v157) = (StableHlo.unary main_v156 main_v157 (Host.rsqrt : (⟨S64, .f32⟩ : BufTy).Contents (Elt F) → (⟨S64, .f32⟩ : BufTy).Contents (Elt F)) : HloOp τ sig (Elt F)).result (after hostOps6_2 V) (Proc.devRef .tc main_v157) := by
  after_results_simp
theorem fin_main_v157 (c : Dev nD) :
    W55 m ρ c (Proc.devRef .tc main_v157) = (StableHlo.unary main_v156 main_v157 (Host.rsqrt : (⟨S64, .f32⟩ : BufTy).Contents (Elt F) → (⟨S64, .f32⟩ : BufTy).Contents (Elt F)) : HloOp τ sig (Elt F)).result (W55 m ρ c) (Proc.devRef .tc main_v157) := by
  have h := ssa_main_v157 (F := F) (W26 m ρ c)
  rw [unary_result] at h ⊢
  rw [lift27 m ρ c main_v157 (by decide), lift27 m ρ c main_v156 (by decide)]
  exact h

theorem ssa_main_v158 (V : Valuation τ sig (Elt F)) :
    after hostOps6_2 V (Proc.devRef .tc main_v158) = (StableHlo.binary main_v148 main_v157 main_v158 (mulf : (⟨S64, .f32⟩ : BufTy).Contents (Elt F) → (⟨S64, .f32⟩ : BufTy).Contents (Elt F) → (⟨S64, .f32⟩ : BufTy).Contents (Elt F)) : HloOp τ sig (Elt F)).result (after hostOps6_2 V) (Proc.devRef .tc main_v158) := by
  after_results_simp
theorem fin_main_v158 (c : Dev nD) :
    W55 m ρ c (Proc.devRef .tc main_v158) = (StableHlo.binary main_v148 main_v157 main_v158 (mulf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v158) := by
  have h := ssa_main_v158 (F := F) (W26 m ρ c)
  rw [binary_result] at h ⊢
  rw [lift27 m ρ c main_v158 (by decide), lift27 m ρ c main_v148 (by decide), lift27 m ρ c main_v157 (by decide)]
  exact h

theorem ssa_main_v159 (V : Valuation τ sig (Elt F)) :
    after hostOps6_2 V (Proc.devRef .tc main_v159) = (StableHlo.binary main_v153 main_v158 main_v159 (mulf : (⟨S64, .f32⟩ : BufTy).Contents (Elt F) → (⟨S64, .f32⟩ : BufTy).Contents (Elt F) → (⟨S64, .f32⟩ : BufTy).Contents (Elt F)) : HloOp τ sig (Elt F)).result (after hostOps6_2 V) (Proc.devRef .tc main_v159) := by
  after_results_simp
theorem fin_main_v159 (c : Dev nD) :
    W55 m ρ c (Proc.devRef .tc main_v159) = (StableHlo.binary main_v153 main_v158 main_v159 (mulf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v159) := by
  have h := ssa_main_v159 (F := F) (W26 m ρ c)
  rw [binary_result] at h ⊢
  rw [lift27 m ρ c main_v159 (by decide), lift27 m ρ c main_v153 (by decide), lift27 m ρ c main_v158 (by decide)]
  exact h

theorem ssa_main_v160 (V : Valuation τ sig (Elt F)) :
    after hostOps6_2 V (Proc.devRef .tc main_v160) = (StableHlo.binary main_v150 main_v159 main_v160 (subf : (⟨S64, .f32⟩ : BufTy).Contents (Elt F) → (⟨S64, .f32⟩ : BufTy).Contents (Elt F) → (⟨S64, .f32⟩ : BufTy).Contents (Elt F)) : HloOp τ sig (Elt F)).result (after hostOps6_2 V) (Proc.devRef .tc main_v160) := by
  after_results_simp
theorem fin_main_v160 (c : Dev nD) :
    W55 m ρ c (Proc.devRef .tc main_v160) = (StableHlo.binary main_v150 main_v159 main_v160 (subf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v160) := by
  have h := ssa_main_v160 (F := F) (W26 m ρ c)
  rw [binary_result] at h ⊢
  rw [lift27 m ρ c main_v160 (by decide), lift27 m ρ c main_v150 (by decide), lift27 m ρ c main_v159 (by decide)]
  exact h

theorem ssa_main_v161 (V : Valuation τ sig (Elt F)) :
    after hostOps6_2 V (Proc.devRef .tc main_v161) = (StableHlo.unary main_v158 main_v161 (broadcastInDim S1x64 ![1] bcast_S64_S1x64_1 : (⟨S64, .f32⟩ : BufTy).Contents (Elt F) → (⟨S1x64, .f32⟩ : BufTy).Contents (Elt F)) : HloOp τ sig (Elt F)).result (after hostOps6_2 V) (Proc.devRef .tc main_v161) := by
  after_results_simp
theorem fin_main_v161 (c : Dev nD) :
    W55 m ρ c (Proc.devRef .tc main_v161) = (StableHlo.unary main_v158 main_v161 (broadcastInDim S1x64 ![1] bcast_S64_S1x64_1 : (⟨S64, .f32⟩ : BufTy).Contents (Elt F) → (⟨S1x64, .f32⟩ : BufTy).Contents (Elt F)) : HloOp τ sig (Elt F)).result (W55 m ρ c) (Proc.devRef .tc main_v161) := by
  have h := ssa_main_v161 (F := F) (W26 m ρ c)
  rw [unary_result] at h ⊢
  rw [lift27 m ρ c main_v161 (by decide), lift27 m ρ c main_v158 (by decide)]
  exact h

theorem ssa_main_v162 (V : Valuation τ sig (Elt F)) :
    after hostOps6_2 V (Proc.devRef .tc main_v162) = (StableHlo.unary main_v161 main_v162 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after hostOps6_2 V) (Proc.devRef .tc main_v162) := by
  after_results_simp
theorem fin_main_v162 (c : Dev nD) :
    W55 m ρ c (Proc.devRef .tc main_v162) = (StableHlo.unary main_v161 main_v162 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (W55 m ρ c) (Proc.devRef .tc main_v162) := by
  have h := ssa_main_v162 (F := F) (W26 m ρ c)
  rw [unary_result] at h ⊢
  rw [lift27 m ρ c main_v162 (by decide), lift27 m ρ c main_v161 (by decide)]
  exact h

theorem ssa_main_v163 (V : Valuation τ sig (Elt F)) :
    after hostOps6_2 V (Proc.devRef .tc main_v163) = (StableHlo.binary main_v162 main_v146 main_v163 (mulf : (⟨S100000x64, .f32⟩ : BufTy).Contents (Elt F) → (⟨S100000x64, .f32⟩ : BufTy).Contents (Elt F) → (⟨S100000x64, .f32⟩ : BufTy).Contents (Elt F)) : HloOp τ sig (Elt F)).result (after hostOps6_2 V) (Proc.devRef .tc main_v163) := by
  after_results_simp
theorem fin_main_v163 (c : Dev nD) :
    W55 m ρ c (Proc.devRef .tc main_v163) = (StableHlo.binary main_v162 main_v146 main_v163 (mulf : (⟨S100000x64, .f32⟩ : BufTy).Contents (Elt F) → (⟨S100000x64, .f32⟩ : BufTy).Contents (Elt F) → (⟨S100000x64, .f32⟩ : BufTy).Contents (Elt F)) : HloOp τ sig (Elt F)).result (W55 m ρ c) (Proc.devRef .tc main_v163) := by
  have h := ssa_main_v163 (F := F) (W26 m ρ c)
  rw [binary_result] at h ⊢
  rw [lift27 m ρ c main_v163 (by decide), lift27 m ρ c main_v162 (by decide), lift27 m ρ c main_v146 (by decide)]
  exact h

theorem ssa_main_v164 (V : Valuation τ sig (Elt F)) :
    after hostOps6_2 V (Proc.devRef .tc main_v164) = (StableHlo.unary main_v160 main_v164 (broadcastInDim S1x64 ![1] bcast_S64_S1x64_1 : (⟨S64, .f32⟩ : BufTy).Contents (Elt F) → (⟨S1x64, .f32⟩ : BufTy).Contents (Elt F)) : HloOp τ sig (Elt F)).result (after hostOps6_2 V) (Proc.devRef .tc main_v164) := by
  after_results_simp
theorem fin_main_v164 (c : Dev nD) :
    W55 m ρ c (Proc.devRef .tc main_v164) = (StableHlo.unary main_v160 main_v164 (broadcastInDim S1x64 ![1] bcast_S64_S1x64_1 : (⟨S64, .f32⟩ : BufTy).Contents (Elt F) → (⟨S1x64, .f32⟩ : BufTy).Contents (Elt F)) : HloOp τ sig (Elt F)).result (W55 m ρ c) (Proc.devRef .tc main_v164) := by
  have h := ssa_main_v164 (F := F) (W26 m ρ c)
  rw [unary_result] at h ⊢
  rw [lift27 m ρ c main_v164 (by decide), lift27 m ρ c main_v160 (by decide)]
  exact h

theorem ssa_main_v165 (V : Valuation τ sig (Elt F)) :
    after hostOps6_2 V (Proc.devRef .tc main_v165) = (StableHlo.unary main_v164 main_v165 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after hostOps6_2 V) (Proc.devRef .tc main_v165) := by
  after_results_simp
theorem fin_main_v165 (c : Dev nD) :
    W55 m ρ c (Proc.devRef .tc main_v165) = (StableHlo.unary main_v164 main_v165 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (W55 m ρ c) (Proc.devRef .tc main_v165) := by
  have h := ssa_main_v165 (F := F) (W26 m ρ c)
  rw [unary_result] at h ⊢
  rw [lift27 m ρ c main_v165 (by decide), lift27 m ρ c main_v164 (by decide)]
  exact h

theorem ssa_main_v166 (V : Valuation τ sig (Elt F)) :
    after hostOps6_2 V (Proc.devRef .tc main_v166) = (StableHlo.binary main_v163 main_v165 main_v166 (addf : (⟨S100000x64, .f32⟩ : BufTy).Contents (Elt F) → (⟨S100000x64, .f32⟩ : BufTy).Contents (Elt F) → (⟨S100000x64, .f32⟩ : BufTy).Contents (Elt F)) : HloOp τ sig (Elt F)).result (after hostOps6_2 V) (Proc.devRef .tc main_v166) := by
  after_results_simp
theorem fin_main_v166 (c : Dev nD) :
    W55 m ρ c (Proc.devRef .tc main_v166) = (StableHlo.binary main_v163 main_v165 main_v166 (addf : (⟨S100000x64, .f32⟩ : BufTy).Contents (Elt F) → (⟨S100000x64, .f32⟩ : BufTy).Contents (Elt F) → (⟨S100000x64, .f32⟩ : BufTy).Contents (Elt F)) : HloOp τ sig (Elt F)).result (W55 m ρ c) (Proc.devRef .tc main_v166) := by
  have h := ssa_main_v166 (F := F) (W26 m ρ c)
  rw [binary_result] at h ⊢
  rw [lift27 m ρ c main_v166 (by decide), lift27 m ρ c main_v163 (by decide), lift27 m ρ c main_v165 (by decide)]
  exact h

theorem ssa_main_cst_28 (V : Valuation τ sig (Elt F)) :
    after hostOps6_2 V (Proc.devRef .tc main_cst_28) = (StableHlo.nullary main_cst_28 (constant S_ .f32 0x00000000#32) : HloOp τ sig (Elt F)).result (after hostOps6_2 V) (Proc.devRef .tc main_cst_28) := by
  after_results_simp
theorem fin_main_cst_28 (c : Dev nD) :
    W55 m ρ c (Proc.devRef .tc main_cst_28) = (StableHlo.nullary main_cst_28 (constant S_ .f32 0x00000000#32) : HloOp τ sig (Elt F)).result (W55 m ρ c) (Proc.devRef .tc main_cst_28) := by
  have h := ssa_main_cst_28 (F := F) (W26 m ρ c)
  rw [nullary_result] at h ⊢
  rw [lift27 m ρ c main_cst_28 (by decide)]
  exact h

theorem ssa_main_v167 (V : Valuation τ sig (Elt F)) :
    after hostOps6_2 V (Proc.devRef .tc main_v167) = (StableHlo.unary main_cst_28 main_v167 (broadcastInDim S100000x64 ![] bcast_S_S100000x64 : (⟨S_, .f32⟩ : BufTy).Contents (Elt F) → (⟨S100000x64, .f32⟩ : BufTy).Contents (Elt F)) : HloOp τ sig (Elt F)).result (after hostOps6_2 V) (Proc.devRef .tc main_v167) := by
  after_results_simp
theorem fin_main_v167 (c : Dev nD) :
    W55 m ρ c (Proc.devRef .tc main_v167) = (StableHlo.unary main_cst_28 main_v167 (broadcastInDim S100000x64 ![] bcast_S_S100000x64 : (⟨S_, .f32⟩ : BufTy).Contents (Elt F) → (⟨S100000x64, .f32⟩ : BufTy).Contents (Elt F)) : HloOp τ sig (Elt F)).result (W55 m ρ c) (Proc.devRef .tc main_v167) := by
  have h := ssa_main_v167 (F := F) (W26 m ρ c)
  rw [unary_result] at h ⊢
  rw [lift27 m ρ c main_v167 (by decide), lift27 m ρ c main_cst_28 (by decide)]
  exact h

theorem ssa_main_v168 (V : Valuation τ sig (Elt F)) :
    after hostOps6_2 V (Proc.devRef .tc main_v168) = (StableHlo.binary main_v166 main_v167 main_v168 (cmpf .oge : (⟨S100000x64, .f32⟩ : BufTy).Contents (Elt F) → (⟨S100000x64, .f32⟩ : BufTy).Contents (Elt F) → (⟨S100000x64, .i1⟩ : BufTy).Contents (Elt F)) : HloOp τ sig (Elt F)).result (after hostOps6_2 V) (Proc.devRef .tc main_v168) := by
  after_results_simp
theorem fin_main_v168 (c : Dev nD) :
    W55 m ρ c (Proc.devRef .tc main_v168) = (StableHlo.binary main_v166 main_v167 main_v168 (cmpf .oge : (⟨S100000x64, .f32⟩ : BufTy).Contents (Elt F) → (⟨S100000x64, .f32⟩ : BufTy).Contents (Elt F) → (⟨S100000x64, .i1⟩ : BufTy).Contents (Elt F)) : HloOp τ sig (Elt F)).result (W55 m ρ c) (Proc.devRef .tc main_v168) := by
  have h := ssa_main_v168 (F := F) (W26 m ρ c)
  rw [binary_result] at h ⊢
  rw [lift27 m ρ c main_v168 (by decide), lift27 m ρ c main_v166 (by decide), lift27 m ρ c main_v167 (by decide)]
  exact h

theorem ssa_main_cst_29 (V : Valuation τ sig (Elt F)) :
    after hostOps6_2 V (Proc.devRef .tc main_cst_29) = (StableHlo.nullary main_cst_29 (constant S_ .f32 0x3C23D70A#32) : HloOp τ sig (Elt F)).result (after hostOps6_2 V) (Proc.devRef .tc main_cst_29) := by
  after_results_simp
theorem fin_main_cst_29 (c : Dev nD) :
    W55 m ρ c (Proc.devRef .tc main_cst_29) = (StableHlo.nullary main_cst_29 (constant S_ .f32 0x3C23D70A#32) : HloOp τ sig (Elt F)).result (W55 m ρ c) (Proc.devRef .tc main_cst_29) := by
  have h := ssa_main_cst_29 (F := F) (W26 m ρ c)
  rw [nullary_result] at h ⊢
  rw [lift27 m ρ c main_cst_29 (by decide)]
  exact h

theorem ssa_main_v169 (V : Valuation τ sig (Elt F)) :
    after hostOps6_2 V (Proc.devRef .tc main_v169) = (StableHlo.unary main_cst_29 main_v169 (broadcastInDim S100000x64 ![] bcast_S_S100000x64 : (⟨S_, .f32⟩ : BufTy).Contents (Elt F) → (⟨S100000x64, .f32⟩ : BufTy).Contents (Elt F)) : HloOp τ sig (Elt F)).result (after hostOps6_2 V) (Proc.devRef .tc main_v169) := by
  after_results_simp
theorem fin_main_v169 (c : Dev nD) :
    W55 m ρ c (Proc.devRef .tc main_v169) = (StableHlo.unary main_cst_29 main_v169 (broadcastInDim S100000x64 ![] bcast_S_S100000x64 : (⟨S_, .f32⟩ : BufTy).Contents (Elt F) → (⟨S100000x64, .f32⟩ : BufTy).Contents (Elt F)) : HloOp τ sig (Elt F)).result (W55 m ρ c) (Proc.devRef .tc main_v169) := by
  have h := ssa_main_v169 (F := F) (W26 m ρ c)
  rw [unary_result] at h ⊢
  rw [lift27 m ρ c main_v169 (by decide), lift27 m ρ c main_cst_29 (by decide)]
  exact h

theorem ssa_main_v170 (V : Valuation τ sig (Elt F)) :
    after hostOps6_2 V (Proc.devRef .tc main_v170) = (StableHlo.binary main_v169 main_v166 main_v170 (mulf : (⟨S100000x64, .f32⟩ : BufTy).Contents (Elt F) → (⟨S100000x64, .f32⟩ : BufTy).Contents (Elt F) → (⟨S100000x64, .f32⟩ : BufTy).Contents (Elt F)) : HloOp τ sig (Elt F)).result (after hostOps6_2 V) (Proc.devRef .tc main_v170) := by
  after_results_simp
theorem fin_main_v170 (c : Dev nD) :
    W55 m ρ c (Proc.devRef .tc main_v170) = (StableHlo.binary main_v169 main_v166 main_v170 (mulf : (⟨S100000x64, .f32⟩ : BufTy).Contents (Elt F) → (⟨S100000x64, .f32⟩ : BufTy).Contents (Elt F) → (⟨S100000x64, .f32⟩ : BufTy).Contents (Elt F)) : HloOp τ sig (Elt F)).result (W55 m ρ c) (Proc.devRef .tc main_v170) := by
  have h := ssa_main_v170 (F := F) (W26 m ρ c)
  rw [binary_result] at h ⊢
  rw [lift27 m ρ c main_v170 (by decide), lift27 m ρ c main_v169 (by decide), lift27 m ρ c main_v166 (by decide)]
  exact h

theorem ssa_main_v171 (V : Valuation τ sig (Elt F)) :
    after hostOps6_3 V (Proc.devRef .tc main_v171) = (StableHlo.TRef.ternary (.of main_v168 : StableHlo.TRef sig ⟨S100000x64, .i1⟩) (.of main_v166 : StableHlo.TRef sig ⟨S100000x64, .f32⟩) (.of main_v170 : StableHlo.TRef sig ⟨S100000x64, .f32⟩) (.of main_v171 : StableHlo.TRef sig ⟨S100000x64, .f32⟩) select : HloOp τ sig (Elt F)).result (after hostOps6_3 V) (Proc.devRef .tc main_v171) := by
  after_results_simp
theorem fin_main_v171 (c : Dev nD) :
    W55 m ρ c (Proc.devRef .tc main_v171) = (StableHlo.TRef.ternary (.of main_v168 : StableHlo.TRef sig ⟨S100000x64, .i1⟩) (.of main_v166 : StableHlo.TRef sig ⟨S100000x64, .f32⟩) (.of main_v170 : StableHlo.TRef sig ⟨S100000x64, .f32⟩) (.of main_v171 : StableHlo.TRef sig ⟨S100000x64, .f32⟩) select : HloOp τ sig (Elt F)).result (W55 m ρ c) (Proc.devRef .tc main_v171) := by
  have h := ssa_main_v171 (F := F) (W27 m ρ c)
  rw [ternary_result] at h ⊢
  rw [lift28 m ρ c main_v171 (by decide), lift28 m ρ c main_v168 (by decide), lift28 m ρ c main_v166 (by decide), lift28 m ρ c main_v170 (by decide)]
  exact h

theorem ssa_main_c_30 (V : Valuation τ sig (Elt F)) :
    after hostOps6_4 V (Proc.devRef .tc main_c_30) = (StableHlo.nullary main_c_30 (constantI S_ 32 0#32) : HloOp τ sig (Elt F)).result (after hostOps6_4 V) (Proc.devRef .tc main_c_30) := by
  after_results_simp
theorem fin_main_c_30 (c : Dev nD) :
    W55 m ρ c (Proc.devRef .tc main_c_30) = (StableHlo.nullary main_c_30 (constantI S_ 32 0#32) : HloOp τ sig (Elt F)).result (W55 m ρ c) (Proc.devRef .tc main_c_30) := by
  have h := ssa_main_c_30 (F := F) (W28 m ρ c)
  rw [nullary_result] at h ⊢
  rw [lift29 m ρ c main_c_30 (by decide)]
  exact h

theorem ssa_main_v172 (V : Valuation τ sig (Elt F)) :
    after hostOps6_4 V (Proc.devRef .tc main_v172) = (StableHlo.unary main_c_30 main_v172 (broadcastInDim S1600000 ![] bcast_S_S1600000 : (⟨S_, .i32⟩ : BufTy).Contents (Elt F) → (⟨S1600000, .i32⟩ : BufTy).Contents (Elt F)) : HloOp τ sig (Elt F)).result (after hostOps6_4 V) (Proc.devRef .tc main_v172) := by
  after_results_simp
theorem fin_main_v172 (c : Dev nD) :
    W55 m ρ c (Proc.devRef .tc main_v172) = (StableHlo.unary main_c_30 main_v172 (broadcastInDim S1600000 ![] bcast_S_S1600000 : (⟨S_, .i32⟩ : BufTy).Contents (Elt F) → (⟨S1600000, .i32⟩ : BufTy).Contents (Elt F)) : HloOp τ sig (Elt F)).result (W55 m ρ c) (Proc.devRef .tc main_v172) := by
  have h := ssa_main_v172 (F := F) (W28 m ρ c)
  rw [unary_result] at h ⊢
  rw [lift29 m ρ c main_v172 (by decide), lift29 m ρ c main_c_30 (by decide)]
  exact h

theorem ssa_main_v173 (V : Valuation τ sig (Elt F)) :
    after hostOps6_4 V (Proc.devRef .tc main_v173) = (StableHlo.binary main_v1 main_v172 main_v173 (cmpi .slt : (⟨S1600000, .i32⟩ : BufTy).Contents (Elt F) → (⟨S1600000, .i32⟩ : BufTy).Contents (Elt F) → (⟨S1600000, .i1⟩ : BufTy).Contents (Elt F)) : HloOp τ sig (Elt F)).result (after hostOps6_4 V) (Proc.devRef .tc main_v173) := by
  after_results_simp
theorem fin_main_v173 (c : Dev nD) :
    W55 m ρ c (Proc.devRef .tc main_v173) = (StableHlo.binary main_v1 main_v172 main_v173 (cmpi .slt : (⟨S1600000, .i32⟩ : BufTy).Contents (Elt F) → (⟨S1600000, .i32⟩ : BufTy).Contents (Elt F) → (⟨S1600000, .i1⟩ : BufTy).Contents (Elt F)) : HloOp τ sig (Elt F)).result (W55 m ρ c) (Proc.devRef .tc main_v173) := by
  have h := ssa_main_v173 (F := F) (W28 m ρ c)
  rw [binary_result] at h ⊢
  rw [lift29 m ρ c main_v173 (by decide), lift29 m ρ c main_v1 (by decide), lift29 m ρ c main_v172 (by decide)]
  exact h

theorem ssa_main_c_31 (V : Valuation τ sig (Elt F)) :
    after hostOps6_4 V (Proc.devRef .tc main_c_31) = (StableHlo.nullary main_c_31 (constantI S_ 32 100000#32) : HloOp τ sig (Elt F)).result (after hostOps6_4 V) (Proc.devRef .tc main_c_31) := by
  after_results_simp
theorem fin_main_c_31 (c : Dev nD) :
    W55 m ρ c (Proc.devRef .tc main_c_31) = (StableHlo.nullary main_c_31 (constantI S_ 32 100000#32) : HloOp τ sig (Elt F)).result (W55 m ρ c) (Proc.devRef .tc main_c_31) := by
  have h := ssa_main_c_31 (F := F) (W28 m ρ c)
  rw [nullary_result] at h ⊢
  rw [lift29 m ρ c main_c_31 (by decide)]
  exact h

theorem ssa_main_v174 (V : Valuation τ sig (Elt F)) :
    after hostOps6_4 V (Proc.devRef .tc main_v174) = (StableHlo.unary main_c_31 main_v174 (broadcastInDim S1600000 ![] bcast_S_S1600000 : (⟨S_, .i32⟩ : BufTy).Contents (Elt F) → (⟨S1600000, .i32⟩ : BufTy).Contents (Elt F)) : HloOp τ sig (Elt F)).result (after hostOps6_4 V) (Proc.devRef .tc main_v174) := by
  after_results_simp
theorem fin_main_v174 (c : Dev nD) :
    W55 m ρ c (Proc.devRef .tc main_v174) = (StableHlo.unary main_c_31 main_v174 (broadcastInDim S1600000 ![] bcast_S_S1600000 : (⟨S_, .i32⟩ : BufTy).Contents (Elt F) → (⟨S1600000, .i32⟩ : BufTy).Contents (Elt F)) : HloOp τ sig (Elt F)).result (W55 m ρ c) (Proc.devRef .tc main_v174) := by
  have h := ssa_main_v174 (F := F) (W28 m ρ c)
  rw [unary_result] at h ⊢
  rw [lift29 m ρ c main_v174 (by decide), lift29 m ρ c main_c_31 (by decide)]
  exact h

theorem ssa_main_v175 (V : Valuation τ sig (Elt F)) :
    after hostOps6_4 V (Proc.devRef .tc main_v175) = (StableHlo.binary main_v1 main_v174 main_v175 (addi : (⟨S1600000, .i32⟩ : BufTy).Contents (Elt F) → (⟨S1600000, .i32⟩ : BufTy).Contents (Elt F) → (⟨S1600000, .i32⟩ : BufTy).Contents (Elt F)) : HloOp τ sig (Elt F)).result (after hostOps6_4 V) (Proc.devRef .tc main_v175) := by
  after_results_simp
theorem fin_main_v175 (c : Dev nD) :
    W55 m ρ c (Proc.devRef .tc main_v175) = (StableHlo.binary main_v1 main_v174 main_v175 (addi : (⟨S1600000, .i32⟩ : BufTy).Contents (Elt F) → (⟨S1600000, .i32⟩ : BufTy).Contents (Elt F) → (⟨S1600000, .i32⟩ : BufTy).Contents (Elt F)) : HloOp τ sig (Elt F)).result (W55 m ρ c) (Proc.devRef .tc main_v175) := by
  have h := ssa_main_v175 (F := F) (W28 m ρ c)
  rw [binary_result] at h ⊢
  rw [lift29 m ρ c main_v175 (by decide), lift29 m ρ c main_v1 (by decide), lift29 m ρ c main_v174 (by decide)]
  exact h

theorem ssa_main_v176 (V : Valuation τ sig (Elt F)) :
    after hostOps6_4 V (Proc.devRef .tc main_v176) = (StableHlo.ternary main_v173 main_v175 main_v1 main_v176 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) : HloOp τ sig (Elt F)).result (after hostOps6_4 V) (Proc.devRef .tc main_v176) := by
  after_results_simp
theorem fin_main_v176 (c : Dev nD) :
    W55 m ρ c (Proc.devRef .tc main_v176) = (StableHlo.ternary main_v173 main_v175 main_v1 main_v176 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) : HloOp τ sig (Elt F)).result (W55 m ρ c) (Proc.devRef .tc main_v176) := by
  have h := ssa_main_v176 (F := F) (W28 m ρ c)
  rw [ternary_result] at h ⊢
  rw [lift29 m ρ c main_v176 (by decide), lift29 m ρ c main_v173 (by decide), lift29 m ρ c main_v175 (by decide), lift29 m ρ c main_v1 (by decide)]
  exact h

theorem ssa_main_v177 (V : Valuation τ sig (Elt F)) :
    after hostOps6_4 V (Proc.devRef .tc main_v177) = (StableHlo.unary main_v176 main_v177 (broadcastInDim S1600000x1 ![0] bcast_S1600000_S1600000x1_0 : (⟨S1600000, .i32⟩ : BufTy).Contents (Elt F) → (⟨S1600000x1, .i32⟩ : BufTy).Contents (Elt F)) : HloOp τ sig (Elt F)).result (after hostOps6_4 V) (Proc.devRef .tc main_v177) := by
  after_results_simp
theorem fin_main_v177 (c : Dev nD) :
    W55 m ρ c (Proc.devRef .tc main_v177) = (StableHlo.unary main_v176 main_v177 (broadcastInDim S1600000x1 ![0] bcast_S1600000_S1600000x1_0 : (⟨S1600000, .i32⟩ : BufTy).Contents (Elt F) → (⟨S1600000x1, .i32⟩ : BufTy).Contents (Elt F)) : HloOp τ sig (Elt F)).result (W55 m ρ c) (Proc.devRef .tc main_v177) := by
  have h := ssa_main_v177 (F := F) (W28 m ρ c)
  rw [unary_result] at h ⊢
  rw [lift29 m ρ c main_v177 (by decide), lift29 m ρ c main_v176 (by decide)]
  exact h

theorem ssa_main_v178 (V : Valuation τ sig (Elt F)) :
    after hostOps6_4 V (Proc.devRef .tc main_v178) = (StableHlo.binary main_v171 main_v177 main_v178 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) : HloOp τ sig (Elt F)).result (after hostOps6_4 V) (Proc.devRef .tc main_v178) := by
  after_results_simp
theorem fin_main_v178 (c : Dev nD) :
    W55 m ρ c (Proc.devRef .tc main_v178) = (StableHlo.binary main_v171 main_v177 main_v178 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) : HloOp τ sig (Elt F)).result (W55 m ρ c) (Proc.devRef .tc main_v178) := by
  have h := ssa_main_v178 (F := F) (W28 m ρ c)
  rw [binary_result] at h ⊢
  rw [lift29 m ρ c main_v178 (by decide), lift29 m ρ c main_v171 (by decide), lift29 m ρ c main_v177 (by decide)]
  exact h

theorem ssa_main_v179 (V : Valuation τ sig (Elt F)) :
    after hostOps6_4 V (Proc.devRef .tc main_v179) = (StableHlo.unary main_arg4 main_v179 ((extractStridedSlice S1x16x64 ![2, 0, 0] · slices_S3x16x64_S1x16x64_2_0_0) : (⟨S3x16x64, .f32⟩ : BufTy).Contents (Elt F) → (⟨S1x16x64, .f32⟩ : BufTy).Contents (Elt F)) : HloOp τ sig (Elt F)).result (after hostOps6_4 V) (Proc.devRef .tc main_v179) := by
  after_results_simp
theorem fin_main_v179 (c : Dev nD) :
    W55 m ρ c (Proc.devRef .tc main_v179) = (StableHlo.unary main_arg4 main_v179 ((extractStridedSlice S1x16x64 ![2, 0, 0] · slices_S3x16x64_S1x16x64_2_0_0) : (⟨S3x16x64, .f32⟩ : BufTy).Contents (Elt F) → (⟨S1x16x64, .f32⟩ : BufTy).Contents (Elt F)) : HloOp τ sig (Elt F)).result (W55 m ρ c) (Proc.devRef .tc main_v179) := by
  have h := ssa_main_v179 (F := F) (W28 m ρ c)
  rw [unary_result] at h ⊢
  rw [lift29 m ρ c main_v179 (by decide), lift29 m ρ c main_arg4 (by decide)]
  exact h

theorem ssa_main_v180 (V : Valuation τ sig (Elt F)) :
    after hostOps6_4 V (Proc.devRef .tc main_v180) = (StableHlo.reshape main_v179 main_v180 rfl shapeCasts_S1x16x64_S16x64 : HloOp τ sig (Elt F)).result (after hostOps6_4 V) (Proc.devRef .tc main_v180) := by
  after_results_simp
theorem fin_main_v180 (c : Dev nD) :
    W55 m ρ c (Proc.devRef .tc main_v180) = (StableHlo.reshape main_v179 main_v180 rfl shapeCasts_S1x16x64_S16x64 : HloOp τ sig (Elt F)).result (W55 m ρ c) (Proc.devRef .tc main_v180) := by
  have h := ssa_main_v180 (F := F) (W28 m ρ c)
  rw [reshape_result] at h ⊢
  rw [lift29 m ρ c main_v180 (by decide), lift29 m ρ c main_v179 (by decide)]
  exact h

theorem ssa_main_v181 (V : Valuation τ sig (Elt F)) :
    after hostOps6_4 V (Proc.devRef .tc main_v181) = (StableHlo.unary main_arg5 main_v181 ((extractStridedSlice S1x64 ![2, 0] · slices_S3x64_S1x64_2_0) : (⟨S3x64, .f32⟩ : BufTy).Contents (Elt F) → (⟨S1x64, .f32⟩ : BufTy).Contents (Elt F)) : HloOp τ sig (Elt F)).result (after hostOps6_4 V) (Proc.devRef .tc main_v181) := by
  after_results_simp
theorem fin_main_v181 (c : Dev nD) :
    W55 m ρ c (Proc.devRef .tc main_v181) = (StableHlo.unary main_arg5 main_v181 ((extractStridedSlice S1x64 ![2, 0] · slices_S3x64_S1x64_2_0) : (⟨S3x64, .f32⟩ : BufTy).Contents (Elt F) → (⟨S1x64, .f32⟩ : BufTy).Contents (Elt F)) : HloOp τ sig (Elt F)).result (W55 m ρ c) (Proc.devRef .tc main_v181) := by
  have h := ssa_main_v181 (F := F) (W28 m ρ c)
  rw [unary_result] at h ⊢
  rw [lift29 m ρ c main_v181 (by decide), lift29 m ρ c main_arg5 (by decide)]
  exact h

theorem ssa_main_v182 (V : Valuation τ sig (Elt F)) :
    after hostOps6_4 V (Proc.devRef .tc main_v182) = (StableHlo.reshape main_v181 main_v182 rfl shapeCasts_S1x64_S64 : HloOp τ sig (Elt F)).result (after hostOps6_4 V) (Proc.devRef .tc main_v182) := by
  after_results_simp
theorem fin_main_v182 (c : Dev nD) :
    W55 m ρ c (Proc.devRef .tc main_v182) = (StableHlo.reshape main_v181 main_v182 rfl shapeCasts_S1x64_S64 : HloOp τ sig (Elt F)).result (W55 m ρ c) (Proc.devRef .tc main_v182) := by
  have h := ssa_main_v182 (F := F) (W28 m ρ c)
  rw [reshape_result] at h ⊢
  rw [lift29 m ρ c main_v182 (by decide), lift29 m ρ c main_v181 (by decide)]
  exact h

theorem ssa_main_v183 (V : Valuation τ sig (Elt F)) :
    after hostOps6_4 V (Proc.devRef .tc main_v183) = (StableHlo.reshape main_v182 main_v183 rfl shapeCasts_S64_S1x64 : HloOp τ sig (Elt F)).result (after hostOps6_4 V) (Proc.devRef .tc main_v183) := by
  after_results_simp
theorem fin_main_v183 (c : Dev nD) :
    W55 m ρ c (Proc.devRef .tc main_v183) = (StableHlo.reshape main_v182 main_v183 rfl shapeCasts_S64_S1x64 : HloOp τ sig (Elt F)).result (W55 m ρ c) (Proc.devRef .tc main_v183) := by
  have h := ssa_main_v183 (F := F) (W28 m ρ c)
  rw [reshape_result] at h ⊢
  rw [lift29 m ρ c main_v183 (by decide), lift29 m ρ c main_v182 (by decide)]
  exact h

theorem ssa_main_cst_32 (V : Valuation τ sig (Elt F)) :
    after hostOps7 V (Proc.devRef .tc main_cst_32) = (StableHlo.nullary main_cst_32 (constant S_ .f32 0x00000000#32) : HloOp τ sig (Elt F)).result (after hostOps7 V) (Proc.devRef .tc main_cst_32) := by
  after_results_simp
theorem fin_main_cst_32 (c : Dev nD) :
    W55 m ρ c (Proc.devRef .tc main_cst_32) = (StableHlo.nullary main_cst_32 (constant S_ .f32 0x00000000#32) : HloOp τ sig (Elt F)).result (W55 m ρ c) (Proc.devRef .tc main_cst_32) := by
  have h := ssa_main_cst_32 (F := F) (W30 m ρ c)
  rw [nullary_result] at h ⊢
  rw [lift31 m ρ c main_cst_32 (by decide)]
  exact h

theorem ssa_main_v185 (V : Valuation τ sig (Elt F)) :
    after hostOps7 V (Proc.devRef .tc main_v185) = (StableHlo.unary main_cst_32 main_v185 (broadcastInDim S100000x64 ![] bcast_S_S100000x64 : (⟨S_, .f32⟩ : BufTy).Contents (Elt F) → (⟨S100000x64, .f32⟩ : BufTy).Contents (Elt F)) : HloOp τ sig (Elt F)).result (after hostOps7 V) (Proc.devRef .tc main_v185) := by
  after_results_simp
theorem fin_main_v185 (c : Dev nD) :
    W55 m ρ c (Proc.devRef .tc main_v185) = (StableHlo.unary main_cst_32 main_v185 (broadcastInDim S100000x64 ![] bcast_S_S100000x64 : (⟨S_, .f32⟩ : BufTy).Contents (Elt F) → (⟨S100000x64, .f32⟩ : BufTy).Contents (Elt F)) : HloOp τ sig (Elt F)).result (W55 m ρ c) (Proc.devRef .tc main_v185) := by
  have h := ssa_main_v185 (F := F) (W30 m ρ c)
  rw [unary_result] at h ⊢
  rw [lift31 m ρ c main_v185 (by decide), lift31 m ρ c main_cst_32 (by decide)]
  exact h

theorem ssa_main_v186 (V : Valuation τ sig (Elt F)) :
    after hostOps7 V (Proc.devRef .tc main_v186) = (StableHlo.unary main_v3 main_v186 (broadcastInDim S1600000x1 ![0] bcast_S1600000_S1600000x1_0 : (⟨S1600000, .i32⟩ : BufTy).Contents (Elt F) → (⟨S1600000x1, .i32⟩ : BufTy).Contents (Elt F)) : HloOp τ sig (Elt F)).result (after hostOps7 V) (Proc.devRef .tc main_v186) := by
  after_results_simp
theorem fin_main_v186 (c : Dev nD) :
    W55 m ρ c (Proc.devRef .tc main_v186) = (StableHlo.unary main_v3 main_v186 (broadcastInDim S1600000x1 ![0] bcast_S1600000_S1600000x1_0 : (⟨S1600000, .i32⟩ : BufTy).Contents (Elt F) → (⟨S1600000x1, .i32⟩ : BufTy).Contents (Elt F)) : HloOp τ sig (Elt F)).result (W55 m ρ c) (Proc.devRef .tc main_v186) := by
  have h := ssa_main_v186 (F := F) (W30 m ρ c)
  rw [unary_result] at h ⊢
  rw [lift31 m ρ c main_v186 (by decide), lift31 m ρ c main_v3 (by decide)]
  exact h

theorem ssa_main_v187 (V : Valuation τ sig (Elt F)) :
    after hostOps7 V (Proc.devRef .tc main_v187) = (StableHlo.ternary main_v185 main_v186 main_v184 main_v187 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) : HloOp τ sig (Elt F)).result (after hostOps7 V) (Proc.devRef .tc main_v187) := by
  after_results_simp
theorem fin_main_v187 (c : Dev nD) :
    W55 m ρ c (Proc.devRef .tc main_v187) = (StableHlo.ternary main_v185 main_v186 main_v184 main_v187 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) : HloOp τ sig (Elt F)).result (W55 m ρ c) (Proc.devRef .tc main_v187) := by
  have h := ssa_main_v187 (F := F) (W30 m ρ c)
  rw [ternary_result] at h ⊢
  rw [lift31 m ρ c main_v187 (by decide), lift31 m ρ c main_v185 (by decide), lift31 m ρ c main_v186 (by decide), lift31 m ρ c main_v184 (by decide)]
  exact h

theorem ssa_main_v188 (V : Valuation τ sig (Elt F)) :
    after hostOps7 V (Proc.devRef .tc main_v188) = (StableHlo.unary main_arg6 main_v188 ((extractStridedSlice S1 ![2] · slices_S3_S1_2) : (⟨S3, .f32⟩ : BufTy).Contents (Elt F) → (⟨S1, .f32⟩ : BufTy).Contents (Elt F)) : HloOp τ sig (Elt F)).result (after hostOps7 V) (Proc.devRef .tc main_v188) := by
  after_results_simp
theorem fin_main_v188 (c : Dev nD) :
    W55 m ρ c (Proc.devRef .tc main_v188) = (StableHlo.unary main_arg6 main_v188 ((extractStridedSlice S1 ![2] · slices_S3_S1_2) : (⟨S3, .f32⟩ : BufTy).Contents (Elt F) → (⟨S1, .f32⟩ : BufTy).Contents (Elt F)) : HloOp τ sig (Elt F)).result (W55 m ρ c) (Proc.devRef .tc main_v188) := by
  have h := ssa_main_v188 (F := F) (W30 m ρ c)
  rw [unary_result] at h ⊢
  rw [lift31 m ρ c main_v188 (by decide), lift31 m ρ c main_arg6 (by decide)]
  exact h

theorem ssa_main_v189 (V : Valuation τ sig (Elt F)) :
    after hostOps7 V (Proc.devRef .tc main_v189) = (StableHlo.reshape main_v188 main_v189 rfl shapeCasts_S1_S_ : HloOp τ sig (Elt F)).result (after hostOps7 V) (Proc.devRef .tc main_v189) := by
  after_results_simp
theorem fin_main_v189 (c : Dev nD) :
    W55 m ρ c (Proc.devRef .tc main_v189) = (StableHlo.reshape main_v188 main_v189 rfl shapeCasts_S1_S_ : HloOp τ sig (Elt F)).result (W55 m ρ c) (Proc.devRef .tc main_v189) := by
  have h := ssa_main_v189 (F := F) (W30 m ρ c)
  rw [reshape_result] at h ⊢
  rw [lift31 m ρ c main_v189 (by decide), lift31 m ρ c main_v188 (by decide)]
  exact h

theorem ssa_main_cst_33 (V : Valuation τ sig (Elt F)) :
    after hostOps7 V (Proc.devRef .tc main_cst_33) = (StableHlo.nullary main_cst_33 (constant S_ .f32 0x3F800000#32) : HloOp τ sig (Elt F)).result (after hostOps7 V) (Proc.devRef .tc main_cst_33) := by
  after_results_simp
theorem fin_main_cst_33 (c : Dev nD) :
    W55 m ρ c (Proc.devRef .tc main_cst_33) = (StableHlo.nullary main_cst_33 (constant S_ .f32 0x3F800000#32) : HloOp τ sig (Elt F)).result (W55 m ρ c) (Proc.devRef .tc main_cst_33) := by
  have h := ssa_main_cst_33 (F := F) (W30 m ρ c)
  rw [nullary_result] at h ⊢
  rw [lift31 m ρ c main_cst_33 (by decide)]
  exact h

theorem ssa_main_v190 (V : Valuation τ sig (Elt F)) :
    after hostOps7 V (Proc.devRef .tc main_v190) = (StableHlo.binary main_cst_33 main_v189 main_v190 (addf : (⟨S_, .f32⟩ : BufTy).Contents (Elt F) → (⟨S_, .f32⟩ : BufTy).Contents (Elt F) → (⟨S_, .f32⟩ : BufTy).Contents (Elt F)) : HloOp τ sig (Elt F)).result (after hostOps7 V) (Proc.devRef .tc main_v190) := by
  after_results_simp
theorem fin_main_v190 (c : Dev nD) :
    W55 m ρ c (Proc.devRef .tc main_v190) = (StableHlo.binary main_cst_33 main_v189 main_v190 (addf : (⟨S_, .f32⟩ : BufTy).Contents (Elt F) → (⟨S_, .f32⟩ : BufTy).Contents (Elt F) → (⟨S_, .f32⟩ : BufTy).Contents (Elt F)) : HloOp τ sig (Elt F)).result (W55 m ρ c) (Proc.devRef .tc main_v190) := by
  have h := ssa_main_v190 (F := F) (W30 m ρ c)
  rw [binary_result] at h ⊢
  rw [lift31 m ρ c main_v190 (by decide), lift31 m ρ c main_cst_33 (by decide), lift31 m ρ c main_v189 (by decide)]
  exact h

theorem ssa_main_v191 (V : Valuation τ sig (Elt F)) :
    after hostOps7 V (Proc.devRef .tc main_v191) = (StableHlo.unary main_v190 main_v191 (broadcastInDim S100000x64 ![] bcast_S_S100000x64 : (⟨S_, .f32⟩ : BufTy).Contents (Elt F) → (⟨S100000x64, .f32⟩ : BufTy).Contents (Elt F)) : HloOp τ sig (Elt F)).result (after hostOps7 V) (Proc.devRef .tc main_v191) := by
  after_results_simp
theorem fin_main_v191 (c : Dev nD) :
    W55 m ρ c (Proc.devRef .tc main_v191) = (StableHlo.unary main_v190 main_v191 (broadcastInDim S100000x64 ![] bcast_S_S100000x64 : (⟨S_, .f32⟩ : BufTy).Contents (Elt F) → (⟨S100000x64, .f32⟩ : BufTy).Contents (Elt F)) : HloOp τ sig (Elt F)).result (W55 m ρ c) (Proc.devRef .tc main_v191) := by
  have h := ssa_main_v191 (F := F) (W30 m ρ c)
  rw [unary_result] at h ⊢
  rw [lift31 m ρ c main_v191 (by decide), lift31 m ρ c main_v190 (by decide)]
  exact h

theorem ssa_main_v192 (V : Valuation τ sig (Elt F)) :
    after hostOps7 V (Proc.devRef .tc main_v192) = (StableHlo.binary main_v191 main_v171 main_v192 (mulf : (⟨S100000x64, .f32⟩ : BufTy).Contents (Elt F) → (⟨S100000x64, .f32⟩ : BufTy).Contents (Elt F) → (⟨S100000x64, .f32⟩ : BufTy).Contents (Elt F)) : HloOp τ sig (Elt F)).result (after hostOps7 V) (Proc.devRef .tc main_v192) := by
  after_results_simp
theorem fin_main_v192 (c : Dev nD) :
    W55 m ρ c (Proc.devRef .tc main_v192) = (StableHlo.binary main_v191 main_v171 main_v192 (mulf : (⟨S100000x64, .f32⟩ : BufTy).Contents (Elt F) → (⟨S100000x64, .f32⟩ : BufTy).Contents (Elt F) → (⟨S100000x64, .f32⟩ : BufTy).Contents (Elt F)) : HloOp τ sig (Elt F)).result (W55 m ρ c) (Proc.devRef .tc main_v192) := by
  have h := ssa_main_v192 (F := F) (W30 m ρ c)
  rw [binary_result] at h ⊢
  rw [lift31 m ρ c main_v192 (by decide), lift31 m ρ c main_v191 (by decide), lift31 m ρ c main_v171 (by decide)]
  exact h

theorem ssa_main_v193 (V : Valuation τ sig (Elt F)) :
    after hostOps7 V (Proc.devRef .tc main_v193) = (StableHlo.binary main_v192 main_v187 main_v193 (addf : (⟨S100000x64, .f32⟩ : BufTy).Contents (Elt F) → (⟨S100000x64, .f32⟩ : BufTy).Contents (Elt F) → (⟨S100000x64, .f32⟩ : BufTy).Contents (Elt F)) : HloOp τ sig (Elt F)).result (after hostOps7 V) (Proc.devRef .tc main_v193) := by
  after_results_simp
theorem fin_main_v193 (c : Dev nD) :
    W55 m ρ c (Proc.devRef .tc main_v193) = (StableHlo.binary main_v192 main_v187 main_v193 (addf : (⟨S100000x64, .f32⟩ : BufTy).Contents (Elt F) → (⟨S100000x64, .f32⟩ : BufTy).Contents (Elt F) → (⟨S100000x64, .f32⟩ : BufTy).Contents (Elt F)) : HloOp τ sig (Elt F)).result (W55 m ρ c) (Proc.devRef .tc main_v193) := by
  have h := ssa_main_v193 (F := F) (W30 m ρ c)
  rw [binary_result] at h ⊢
  rw [lift31 m ρ c main_v193 (by decide), lift31 m ρ c main_v192 (by decide), lift31 m ρ c main_v187 (by decide)]
  exact h

theorem ssa_main_v194 (V : Valuation τ sig (Elt F)) :
    after hostOps7 V (Proc.devRef .tc main_v194) = (StableHlo.unary main_arg7 main_v194 ((extractStridedSlice S1x64x64 ![2, 0, 0] · slices_S3x64x64_S1x64x64_2_0_0) : (⟨S3x64x64, .f32⟩ : BufTy).Contents (Elt F) → (⟨S1x64x64, .f32⟩ : BufTy).Contents (Elt F)) : HloOp τ sig (Elt F)).result (after hostOps7 V) (Proc.devRef .tc main_v194) := by
  after_results_simp
theorem fin_main_v194 (c : Dev nD) :
    W55 m ρ c (Proc.devRef .tc main_v194) = (StableHlo.unary main_arg7 main_v194 ((extractStridedSlice S1x64x64 ![2, 0, 0] · slices_S3x64x64_S1x64x64_2_0_0) : (⟨S3x64x64, .f32⟩ : BufTy).Contents (Elt F) → (⟨S1x64x64, .f32⟩ : BufTy).Contents (Elt F)) : HloOp τ sig (Elt F)).result (W55 m ρ c) (Proc.devRef .tc main_v194) := by
  have h := ssa_main_v194 (F := F) (W30 m ρ c)
  rw [unary_result] at h ⊢
  rw [lift31 m ρ c main_v194 (by decide), lift31 m ρ c main_arg7 (by decide)]
  exact h

theorem ssa_main_v195 (V : Valuation τ sig (Elt F)) :
    after hostOps7 V (Proc.devRef .tc main_v195) = (StableHlo.reshape main_v194 main_v195 rfl shapeCasts_S1x64x64_S64x64 : HloOp τ sig (Elt F)).result (after hostOps7 V) (Proc.devRef .tc main_v195) := by
  after_results_simp
theorem fin_main_v195 (c : Dev nD) :
    W55 m ρ c (Proc.devRef .tc main_v195) = (StableHlo.reshape main_v194 main_v195 rfl shapeCasts_S1x64x64_S64x64 : HloOp τ sig (Elt F)).result (W55 m ρ c) (Proc.devRef .tc main_v195) := by
  have h := ssa_main_v195 (F := F) (W30 m ρ c)
  rw [reshape_result] at h ⊢
  rw [lift31 m ρ c main_v195 (by decide), lift31 m ρ c main_v194 (by decide)]
  exact h

theorem ssa_main_v196 (V : Valuation τ sig (Elt F)) :
    after hostOps7 V (Proc.devRef .tc main_v196) = (StableHlo.unary main_arg8 main_v196 ((extractStridedSlice S1x64 ![2, 0] · slices_S3x64_S1x64_2_0) : (⟨S3x64, .f32⟩ : BufTy).Contents (Elt F) → (⟨S1x64, .f32⟩ : BufTy).Contents (Elt F)) : HloOp τ sig (Elt F)).result (after hostOps7 V) (Proc.devRef .tc main_v196) := by
  after_results_simp
theorem fin_main_v196 (c : Dev nD) :
    W55 m ρ c (Proc.devRef .tc main_v196) = (StableHlo.unary main_arg8 main_v196 ((extractStridedSlice S1x64 ![2, 0] · slices_S3x64_S1x64_2_0) : (⟨S3x64, .f32⟩ : BufTy).Contents (Elt F) → (⟨S1x64, .f32⟩ : BufTy).Contents (Elt F)) : HloOp τ sig (Elt F)).result (W55 m ρ c) (Proc.devRef .tc main_v196) := by
  have h := ssa_main_v196 (F := F) (W30 m ρ c)
  rw [unary_result] at h ⊢
  rw [lift31 m ρ c main_v196 (by decide), lift31 m ρ c main_arg8 (by decide)]
  exact h

theorem ssa_main_v197 (V : Valuation τ sig (Elt F)) :
    after hostOps7 V (Proc.devRef .tc main_v197) = (StableHlo.reshape main_v196 main_v197 rfl shapeCasts_S1x64_S64 : HloOp τ sig (Elt F)).result (after hostOps7 V) (Proc.devRef .tc main_v197) := by
  after_results_simp
theorem fin_main_v197 (c : Dev nD) :
    W55 m ρ c (Proc.devRef .tc main_v197) = (StableHlo.reshape main_v196 main_v197 rfl shapeCasts_S1x64_S64 : HloOp τ sig (Elt F)).result (W55 m ρ c) (Proc.devRef .tc main_v197) := by
  have h := ssa_main_v197 (F := F) (W30 m ρ c)
  rw [reshape_result] at h ⊢
  rw [lift31 m ρ c main_v197 (by decide), lift31 m ρ c main_v196 (by decide)]
  exact h

theorem ssa_main_v198 (V : Valuation τ sig (Elt F)) :
    after hostOps7 V (Proc.devRef .tc main_v198) = (StableHlo.reshape main_v197 main_v198 rfl shapeCasts_S64_S1x64 : HloOp τ sig (Elt F)).result (after hostOps7 V) (Proc.devRef .tc main_v198) := by
  after_results_simp
theorem fin_main_v198 (c : Dev nD) :
    W55 m ρ c (Proc.devRef .tc main_v198) = (StableHlo.reshape main_v197 main_v198 rfl shapeCasts_S64_S1x64 : HloOp τ sig (Elt F)).result (W55 m ρ c) (Proc.devRef .tc main_v198) := by
  have h := ssa_main_v198 (F := F) (W30 m ρ c)
  rw [reshape_result] at h ⊢
  rw [lift31 m ρ c main_v198 (by decide), lift31 m ρ c main_v197 (by decide)]
  exact h

theorem ssa_main_v200 (V : Valuation τ sig (Elt F)) :
    after hostOps8 V (Proc.devRef .tc main_v200) = (StableHlo.unary main_arg9 main_v200 ((extractStridedSlice S1x64 ![2, 0] · slices_S3x64_S1x64_2_0) : (⟨S3x64, .f32⟩ : BufTy).Contents (Elt F) → (⟨S1x64, .f32⟩ : BufTy).Contents (Elt F)) : HloOp τ sig (Elt F)).result (after hostOps8 V) (Proc.devRef .tc main_v200) := by
  after_results_simp
theorem fin_main_v200 (c : Dev nD) :
    W55 m ρ c (Proc.devRef .tc main_v200) = (StableHlo.unary main_arg9 main_v200 ((extractStridedSlice S1x64 ![2, 0] · slices_S3x64_S1x64_2_0) : (⟨S3x64, .f32⟩ : BufTy).Contents (Elt F) → (⟨S1x64, .f32⟩ : BufTy).Contents (Elt F)) : HloOp τ sig (Elt F)).result (W55 m ρ c) (Proc.devRef .tc main_v200) := by
  have h := ssa_main_v200 (F := F) (W32 m ρ c)
  rw [unary_result] at h ⊢
  rw [lift33 m ρ c main_v200 (by decide), lift33 m ρ c main_arg9 (by decide)]
  exact h

theorem ssa_main_v201 (V : Valuation τ sig (Elt F)) :
    after hostOps8 V (Proc.devRef .tc main_v201) = (StableHlo.reshape main_v200 main_v201 rfl shapeCasts_S1x64_S64 : HloOp τ sig (Elt F)).result (after hostOps8 V) (Proc.devRef .tc main_v201) := by
  after_results_simp
theorem fin_main_v201 (c : Dev nD) :
    W55 m ρ c (Proc.devRef .tc main_v201) = (StableHlo.reshape main_v200 main_v201 rfl shapeCasts_S1x64_S64 : HloOp τ sig (Elt F)).result (W55 m ρ c) (Proc.devRef .tc main_v201) := by
  have h := ssa_main_v201 (F := F) (W32 m ρ c)
  rw [reshape_result] at h ⊢
  rw [lift33 m ρ c main_v201 (by decide), lift33 m ρ c main_v200 (by decide)]
  exact h

theorem ssa_main_v202 (V : Valuation τ sig (Elt F)) :
    after hostOps8 V (Proc.devRef .tc main_v202) = (StableHlo.unary main_arg10 main_v202 ((extractStridedSlice S1x64 ![2, 0] · slices_S3x64_S1x64_2_0) : (⟨S3x64, .f32⟩ : BufTy).Contents (Elt F) → (⟨S1x64, .f32⟩ : BufTy).Contents (Elt F)) : HloOp τ sig (Elt F)).result (after hostOps8 V) (Proc.devRef .tc main_v202) := by
  after_results_simp
theorem fin_main_v202 (c : Dev nD) :
    W55 m ρ c (Proc.devRef .tc main_v202) = (StableHlo.unary main_arg10 main_v202 ((extractStridedSlice S1x64 ![2, 0] · slices_S3x64_S1x64_2_0) : (⟨S3x64, .f32⟩ : BufTy).Contents (Elt F) → (⟨S1x64, .f32⟩ : BufTy).Contents (Elt F)) : HloOp τ sig (Elt F)).result (W55 m ρ c) (Proc.devRef .tc main_v202) := by
  have h := ssa_main_v202 (F := F) (W32 m ρ c)
  rw [unary_result] at h ⊢
  rw [lift33 m ρ c main_v202 (by decide), lift33 m ρ c main_arg10 (by decide)]
  exact h

theorem ssa_main_v203 (V : Valuation τ sig (Elt F)) :
    after hostOps8 V (Proc.devRef .tc main_v203) = (StableHlo.reshape main_v202 main_v203 rfl shapeCasts_S1x64_S64 : HloOp τ sig (Elt F)).result (after hostOps8 V) (Proc.devRef .tc main_v203) := by
  after_results_simp
theorem fin_main_v203 (c : Dev nD) :
    W55 m ρ c (Proc.devRef .tc main_v203) = (StableHlo.reshape main_v202 main_v203 rfl shapeCasts_S1x64_S64 : HloOp τ sig (Elt F)).result (W55 m ρ c) (Proc.devRef .tc main_v203) := by
  have h := ssa_main_v203 (F := F) (W32 m ρ c)
  rw [reshape_result] at h ⊢
  rw [lift33 m ρ c main_v203 (by decide), lift33 m ρ c main_v202 (by decide)]
  exact h

theorem ssa_main_cst_34 (V : Valuation τ sig (Elt F)) :
    after hostOps8 V (Proc.devRef .tc main_cst_34) = (StableHlo.nullary main_cst_34 (constant S_ .f32 0x00000000#32) : HloOp τ sig (Elt F)).result (after hostOps8 V) (Proc.devRef .tc main_cst_34) := by
  after_results_simp
theorem fin_main_cst_34 (c : Dev nD) :
    W55 m ρ c (Proc.devRef .tc main_cst_34) = (StableHlo.nullary main_cst_34 (constant S_ .f32 0x00000000#32) : HloOp τ sig (Elt F)).result (W55 m ρ c) (Proc.devRef .tc main_cst_34) := by
  have h := ssa_main_cst_34 (F := F) (W32 m ρ c)
  rw [nullary_result] at h ⊢
  rw [lift33 m ρ c main_cst_34 (by decide)]
  exact h

theorem ssa_main_v204 (V : Valuation τ sig (Elt F)) :
    after hostOps8 V (Proc.devRef .tc main_v204) = (StableHlo.binary main_v199 main_cst_34 main_v204 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) : HloOp τ sig (Elt F)).result (after hostOps8 V) (Proc.devRef .tc main_v204) := by
  after_results_simp
theorem fin_main_v204 (c : Dev nD) :
    W55 m ρ c (Proc.devRef .tc main_v204) = (StableHlo.binary main_v199 main_cst_34 main_v204 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) : HloOp τ sig (Elt F)).result (W55 m ρ c) (Proc.devRef .tc main_v204) := by
  have h := ssa_main_v204 (F := F) (W32 m ρ c)
  rw [binary_result] at h ⊢
  rw [lift33 m ρ c main_v204 (by decide), lift33 m ρ c main_v199 (by decide), lift33 m ρ c main_cst_34 (by decide)]
  exact h

theorem ssa_main_cst_35 (V : Valuation τ sig (Elt F)) :
    after hostOps8 V (Proc.devRef .tc main_cst_35) = (StableHlo.nullary main_cst_35 (constant S_ .f32 0x47C35000#32) : HloOp τ sig (Elt F)).result (after hostOps8 V) (Proc.devRef .tc main_cst_35) := by
  after_results_simp
theorem fin_main_cst_35 (c : Dev nD) :
    W55 m ρ c (Proc.devRef .tc main_cst_35) = (StableHlo.nullary main_cst_35 (constant S_ .f32 0x47C35000#32) : HloOp τ sig (Elt F)).result (W55 m ρ c) (Proc.devRef .tc main_cst_35) := by
  have h := ssa_main_cst_35 (F := F) (W32 m ρ c)
  rw [nullary_result] at h ⊢
  rw [lift33 m ρ c main_cst_35 (by decide)]
  exact h

theorem ssa_main_v205 (V : Valuation τ sig (Elt F)) :
    after hostOps8 V (Proc.devRef .tc main_v205) = (StableHlo.unary main_cst_35 main_v205 (broadcastInDim S64 ![] bcast_S_S64 : (⟨S_, .f32⟩ : BufTy).Contents (Elt F) → (⟨S64, .f32⟩ : BufTy).Contents (Elt F)) : HloOp τ sig (Elt F)).result (after hostOps8 V) (Proc.devRef .tc main_v205) := by
  after_results_simp
theorem fin_main_v205 (c : Dev nD) :
    W55 m ρ c (Proc.devRef .tc main_v205) = (StableHlo.unary main_cst_35 main_v205 (broadcastInDim S64 ![] bcast_S_S64 : (⟨S_, .f32⟩ : BufTy).Contents (Elt F) → (⟨S64, .f32⟩ : BufTy).Contents (Elt F)) : HloOp τ sig (Elt F)).result (W55 m ρ c) (Proc.devRef .tc main_v205) := by
  have h := ssa_main_v205 (F := F) (W32 m ρ c)
  rw [unary_result] at h ⊢
  rw [lift33 m ρ c main_v205 (by decide), lift33 m ρ c main_cst_35 (by decide)]
  exact h

theorem ssa_main_v206 (V : Valuation τ sig (Elt F)) :
    after hostOps8 V (Proc.devRef .tc main_v206) = (StableHlo.binary main_v204 main_v205 main_v206 (Host.divf : (⟨S64, .f32⟩ : BufTy).Contents (Elt F) → (⟨S64, .f32⟩ : BufTy).Contents (Elt F) → (⟨S64, .f32⟩ : BufTy).Contents (Elt F)) : HloOp τ sig (Elt F)).result (after hostOps8 V) (Proc.devRef .tc main_v206) := by
  after_results_simp
theorem fin_main_v206 (c : Dev nD) :
    W55 m ρ c (Proc.devRef .tc main_v206) = (StableHlo.binary main_v204 main_v205 main_v206 (Host.divf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v206) := by
  have h := ssa_main_v206 (F := F) (W32 m ρ c)
  rw [binary_result] at h ⊢
  rw [lift33 m ρ c main_v206 (by decide), lift33 m ρ c main_v204 (by decide), lift33 m ρ c main_v205 (by decide)]
  exact h

theorem ssa_main_c_36 (V : Valuation τ sig (Elt F)) :
    after hostOps8 V (Proc.devRef .tc main_c_36) = (StableHlo.nullary main_c_36 (constantI S_ 32 0#32) : HloOp τ sig (Elt F)).result (after hostOps8 V) (Proc.devRef .tc main_c_36) := by
  after_results_simp
theorem fin_main_c_36 (c : Dev nD) :
    W55 m ρ c (Proc.devRef .tc main_c_36) = (StableHlo.nullary main_c_36 (constantI S_ 32 0#32) : HloOp τ sig (Elt F)).result (W55 m ρ c) (Proc.devRef .tc main_c_36) := by
  have h := ssa_main_c_36 (F := F) (W32 m ρ c)
  rw [nullary_result] at h ⊢
  rw [lift33 m ρ c main_c_36 (by decide)]
  exact h

end Cert.KernelIdeal.Tab

end
-- ==== Proof.TabKSsa4.lean ====
/- Host stretches hostOps8_1, hostOps8_2, hostOps8_3, hostOps8_4, hostOps9, hostOps10, hostOps10_1 of the kernel program read one operation at a time: each buffer a stretch writes holds its operation's
   function of the operands, within the stretch from any contents and, at the last boundary of the run, over the last boundary's contents. -/
import proofs.«409037_j72164040508123_1_alg».proof.Proof.TabK

set_option maxRecDepth 16384

noncomputable section

namespace Cert.KernelIdeal.Tab

open Cert.KernelIdeal Cert.KernelIdeal.Gen Cert.KernelIdeal.GenP Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

theorem ssa_main_call8_cst (V : Valuation τ sig (Elt F)) :
    after hostOps8_1 V (Proc.devRef .tc main_call8_cst) = (StableHlo.TRef.nullary (.of main_call8_cst : StableHlo.TRef sig ⟨S_, .f32⟩) (constant S_ .f32 0x00000000#32) : HloOp τ sig (Elt F)).result (after hostOps8_1 V) (Proc.devRef .tc main_call8_cst) := by
  after_results_simp
theorem fin_main_call8_cst (c : Dev nD) :
    W55 m ρ c (Proc.devRef .tc main_call8_cst) = (StableHlo.TRef.nullary (.of main_call8_cst : StableHlo.TRef sig ⟨S_, .f32⟩) (constant S_ .f32 0x00000000#32) : HloOp τ sig (Elt F)).result (W55 m ρ c) (Proc.devRef .tc main_call8_cst) := by
  have h := ssa_main_call8_cst (F := F) (W33 m ρ c)
  rw [nullary_result] at h ⊢
  rw [lift34 m ρ c main_call8_cst (by decide)]
  exact h

theorem ssa_main_call8_v0 (V : Valuation τ sig (Elt F)) :
    after hostOps8_1 V (Proc.devRef .tc main_call8_v0) = (StableHlo.TRef.binary (.of main_v199 : StableHlo.TRef sig ⟨S100000x64, .f32⟩) (.of main_call8_cst : StableHlo.TRef sig ⟨S_, .f32⟩) (.of main_call8_v0 : StableHlo.TRef sig ⟨S64, .f32⟩) (fun x v => Host.reduceAdd x v reducesTo_S100000x64_S64_d0 h_S_) : HloOp τ sig (Elt F)).result (after hostOps8_1 V) (Proc.devRef .tc main_call8_v0) := by
  after_results_simp
theorem fin_main_call8_v0 (c : Dev nD) :
    W55 m ρ c (Proc.devRef .tc main_call8_v0) = (StableHlo.TRef.binary (.of main_v199 : StableHlo.TRef sig ⟨S100000x64, .f32⟩) (.of main_call8_cst : StableHlo.TRef sig ⟨S_, .f32⟩) (.of main_call8_v0 : StableHlo.TRef sig ⟨S64, .f32⟩) (fun x v => Host.reduceAdd x v reducesTo_S100000x64_S64_d0 h_S_) : HloOp τ sig (Elt F)).result (W55 m ρ c) (Proc.devRef .tc main_call8_v0) := by
  have h := ssa_main_call8_v0 (F := F) (W33 m ρ c)
  rw [binary_result] at h ⊢
  rw [lift34 m ρ c main_call8_v0 (by decide), lift34 m ρ c main_v199 (by decide), lift34 m ρ c main_call8_cst (by decide)]
  exact h

theorem ssa_main_call8_v1 (V : Valuation τ sig (Elt F)) :
    after hostOps8_1 V (Proc.devRef .tc main_call8_v1) = (StableHlo.TRef.unary (.of main_call8_v0 : StableHlo.TRef sig ⟨S64, .f32⟩) (.of main_call8_v1 : StableHlo.TRef sig ⟨S1x64, .f32⟩) (broadcastInDim S1x64 ![1] bcast_S64_S1x64_1) : HloOp τ sig (Elt F)).result (after hostOps8_1 V) (Proc.devRef .tc main_call8_v1) := by
  after_results_simp
theorem fin_main_call8_v1 (c : Dev nD) :
    W55 m ρ c (Proc.devRef .tc main_call8_v1) = (StableHlo.TRef.unary (.of main_call8_v0 : StableHlo.TRef sig ⟨S64, .f32⟩) (.of main_call8_v1 : StableHlo.TRef sig ⟨S1x64, .f32⟩) (broadcastInDim S1x64 ![1] bcast_S64_S1x64_1) : HloOp τ sig (Elt F)).result (W55 m ρ c) (Proc.devRef .tc main_call8_v1) := by
  have h := ssa_main_call8_v1 (F := F) (W33 m ρ c)
  rw [unary_result] at h ⊢
  rw [lift34 m ρ c main_call8_v1 (by decide), lift34 m ρ c main_call8_v0 (by decide)]
  exact h

theorem ssa_main_call8_cst_0 (V : Valuation τ sig (Elt F)) :
    after hostOps8_1 V (Proc.devRef .tc main_call8_cst_0) = (StableHlo.TRef.nullary (.of main_call8_cst_0 : StableHlo.TRef sig ⟨S_, .f32⟩) (constant S_ .f32 0x47C35000#32) : HloOp τ sig (Elt F)).result (after hostOps8_1 V) (Proc.devRef .tc main_call8_cst_0) := by
  after_results_simp
theorem fin_main_call8_cst_0 (c : Dev nD) :
    W55 m ρ c (Proc.devRef .tc main_call8_cst_0) = (StableHlo.TRef.nullary (.of main_call8_cst_0 : StableHlo.TRef sig ⟨S_, .f32⟩) (constant S_ .f32 0x47C35000#32) : HloOp τ sig (Elt F)).result (W55 m ρ c) (Proc.devRef .tc main_call8_cst_0) := by
  have h := ssa_main_call8_cst_0 (F := F) (W33 m ρ c)
  rw [nullary_result] at h ⊢
  rw [lift34 m ρ c main_call8_cst_0 (by decide)]
  exact h

theorem ssa_main_call8_v2 (V : Valuation τ sig (Elt F)) :
    after hostOps8_1 V (Proc.devRef .tc main_call8_v2) = (StableHlo.TRef.unary (.of main_call8_cst_0 : StableHlo.TRef sig ⟨S_, .f32⟩) (.of main_call8_v2 : StableHlo.TRef sig ⟨S1x64, .f32⟩) (broadcastInDim S1x64 ![] bcast_S_S1x64) : HloOp τ sig (Elt F)).result (after hostOps8_1 V) (Proc.devRef .tc main_call8_v2) := by
  after_results_simp
theorem fin_main_call8_v2 (c : Dev nD) :
    W55 m ρ c (Proc.devRef .tc main_call8_v2) = (StableHlo.TRef.unary (.of main_call8_cst_0 : StableHlo.TRef sig ⟨S_, .f32⟩) (.of main_call8_v2 : StableHlo.TRef sig ⟨S1x64, .f32⟩) (broadcastInDim S1x64 ![] bcast_S_S1x64) : HloOp τ sig (Elt F)).result (W55 m ρ c) (Proc.devRef .tc main_call8_v2) := by
  have h := ssa_main_call8_v2 (F := F) (W33 m ρ c)
  rw [unary_result] at h ⊢
  rw [lift34 m ρ c main_call8_v2 (by decide), lift34 m ρ c main_call8_cst_0 (by decide)]
  exact h

theorem ssa_main_call8_v3 (V : Valuation τ sig (Elt F)) :
    after hostOps8_1 V (Proc.devRef .tc main_call8_v3) = (StableHlo.TRef.binary (.of main_call8_v1 : StableHlo.TRef sig ⟨S1x64, .f32⟩) (.of main_call8_v2 : StableHlo.TRef sig ⟨S1x64, .f32⟩) (.of main_call8_v3 : StableHlo.TRef sig ⟨S1x64, .f32⟩) Host.divf : HloOp τ sig (Elt F)).result (after hostOps8_1 V) (Proc.devRef .tc main_call8_v3) := by
  after_results_simp
theorem fin_main_call8_v3 (c : Dev nD) :
    W55 m ρ c (Proc.devRef .tc main_call8_v3) = (StableHlo.TRef.binary (.of main_call8_v1 : StableHlo.TRef sig ⟨S1x64, .f32⟩) (.of main_call8_v2 : StableHlo.TRef sig ⟨S1x64, .f32⟩) (.of main_call8_v3 : StableHlo.TRef sig ⟨S1x64, .f32⟩) Host.divf : HloOp τ sig (Elt F)).result (W55 m ρ c) (Proc.devRef .tc main_call8_v3) := by
  have h := ssa_main_call8_v3 (F := F) (W33 m ρ c)
  rw [binary_result] at h ⊢
  rw [lift34 m ρ c main_call8_v3 (by decide), lift34 m ρ c main_call8_v1 (by decide), lift34 m ρ c main_call8_v2 (by decide)]
  exact h

theorem ssa_main_call8_v4 (V : Valuation τ sig (Elt F)) :
    after hostOps8_1 V (Proc.devRef .tc main_call8_v4) = (StableHlo.TRef.unary (.of main_call8_v3 : StableHlo.TRef sig ⟨S1x64, .f32⟩) (.of main_call8_v4 : StableHlo.TRef sig ⟨S100000x64, .f32⟩) (broadcastInDim S100000x64 ![0, 1] bcast_S1x64_S100000x64_0_1) : HloOp τ sig (Elt F)).result (after hostOps8_1 V) (Proc.devRef .tc main_call8_v4) := by
  after_results_simp
theorem fin_main_call8_v4 (c : Dev nD) :
    W55 m ρ c (Proc.devRef .tc main_call8_v4) = (StableHlo.TRef.unary (.of main_call8_v3 : StableHlo.TRef sig ⟨S1x64, .f32⟩) (.of main_call8_v4 : StableHlo.TRef sig ⟨S100000x64, .f32⟩) (broadcastInDim S100000x64 ![0, 1] bcast_S1x64_S100000x64_0_1) : HloOp τ sig (Elt F)).result (W55 m ρ c) (Proc.devRef .tc main_call8_v4) := by
  have h := ssa_main_call8_v4 (F := F) (W33 m ρ c)
  rw [unary_result] at h ⊢
  rw [lift34 m ρ c main_call8_v4 (by decide), lift34 m ρ c main_call8_v3 (by decide)]
  exact h

theorem ssa_main_call8_v5 (V : Valuation τ sig (Elt F)) :
    after hostOps8_1 V (Proc.devRef .tc main_call8_v5) = (StableHlo.TRef.binary (.of main_v199 : StableHlo.TRef sig ⟨S100000x64, .f32⟩) (.of main_call8_v4 : StableHlo.TRef sig ⟨S100000x64, .f32⟩) (.of main_call8_v5 : StableHlo.TRef sig ⟨S100000x64, .f32⟩) subf : HloOp τ sig (Elt F)).result (after hostOps8_1 V) (Proc.devRef .tc main_call8_v5) := by
  after_results_simp
theorem fin_main_call8_v5 (c : Dev nD) :
    W55 m ρ c (Proc.devRef .tc main_call8_v5) = (StableHlo.TRef.binary (.of main_v199 : StableHlo.TRef sig ⟨S100000x64, .f32⟩) (.of main_call8_v4 : StableHlo.TRef sig ⟨S100000x64, .f32⟩) (.of main_call8_v5 : StableHlo.TRef sig ⟨S100000x64, .f32⟩) subf : HloOp τ sig (Elt F)).result (W55 m ρ c) (Proc.devRef .tc main_call8_v5) := by
  have h := ssa_main_call8_v5 (F := F) (W33 m ρ c)
  rw [binary_result] at h ⊢
  rw [lift34 m ρ c main_call8_v5 (by decide), lift34 m ρ c main_v199 (by decide), lift34 m ρ c main_call8_v4 (by decide)]
  exact h

theorem ssa_main_call8_v6 (V : Valuation τ sig (Elt F)) :
    after hostOps8_1 V (Proc.devRef .tc main_call8_v6) = (StableHlo.TRef.binary (.of main_call8_v5 : StableHlo.TRef sig ⟨S100000x64, .f32⟩) (.of main_call8_v5 : StableHlo.TRef sig ⟨S100000x64, .f32⟩) (.of main_call8_v6 : StableHlo.TRef sig ⟨S100000x64, .f32⟩) mulf : HloOp τ sig (Elt F)).result (after hostOps8_1 V) (Proc.devRef .tc main_call8_v6) := by
  after_results_simp
theorem fin_main_call8_v6 (c : Dev nD) :
    W55 m ρ c (Proc.devRef .tc main_call8_v6) = (StableHlo.TRef.binary (.of main_call8_v5 : StableHlo.TRef sig ⟨S100000x64, .f32⟩) (.of main_call8_v5 : StableHlo.TRef sig ⟨S100000x64, .f32⟩) (.of main_call8_v6 : StableHlo.TRef sig ⟨S100000x64, .f32⟩) mulf : HloOp τ sig (Elt F)).result (W55 m ρ c) (Proc.devRef .tc main_call8_v6) := by
  have h := ssa_main_call8_v6 (F := F) (W33 m ρ c)
  rw [binary_result] at h ⊢
  rw [lift34 m ρ c main_call8_v6 (by decide), lift34 m ρ c main_call8_v5 (by decide)]
  exact h

theorem ssa_main_call8_v7 (V : Valuation τ sig (Elt F)) :
    after hostOps8_1 V (Proc.devRef .tc main_call8_v7) = (StableHlo.TRef.unary (.of main_c_36 : StableHlo.TRef sig ⟨S_, .i32⟩) (.of main_call8_v7 : StableHlo.TRef sig ⟨S_, .f32⟩) (sitofp .f32) : HloOp τ sig (Elt F)).result (after hostOps8_1 V) (Proc.devRef .tc main_call8_v7) := by
  after_results_simp
theorem fin_main_call8_v7 (c : Dev nD) :
    W55 m ρ c (Proc.devRef .tc main_call8_v7) = (StableHlo.TRef.unary (.of main_c_36 : StableHlo.TRef sig ⟨S_, .i32⟩) (.of main_call8_v7 : StableHlo.TRef sig ⟨S_, .f32⟩) (sitofp .f32) : HloOp τ sig (Elt F)).result (W55 m ρ c) (Proc.devRef .tc main_call8_v7) := by
  have h := ssa_main_call8_v7 (F := F) (W33 m ρ c)
  rw [unary_result] at h ⊢
  rw [lift34 m ρ c main_call8_v7 (by decide), lift34 m ρ c main_c_36 (by decide)]
  exact h

theorem ssa_main_call8_cst_1 (V : Valuation τ sig (Elt F)) :
    after hostOps8_1 V (Proc.devRef .tc main_call8_cst_1) = (StableHlo.TRef.nullary (.of main_call8_cst_1 : StableHlo.TRef sig ⟨S_, .f32⟩) (constant S_ .f32 0x47C35000#32) : HloOp τ sig (Elt F)).result (after hostOps8_1 V) (Proc.devRef .tc main_call8_cst_1) := by
  after_results_simp
theorem fin_main_call8_cst_1 (c : Dev nD) :
    W55 m ρ c (Proc.devRef .tc main_call8_cst_1) = (StableHlo.TRef.nullary (.of main_call8_cst_1 : StableHlo.TRef sig ⟨S_, .f32⟩) (constant S_ .f32 0x47C35000#32) : HloOp τ sig (Elt F)).result (W55 m ρ c) (Proc.devRef .tc main_call8_cst_1) := by
  have h := ssa_main_call8_cst_1 (F := F) (W33 m ρ c)
  rw [nullary_result] at h ⊢
  rw [lift34 m ρ c main_call8_cst_1 (by decide)]
  exact h

theorem ssa_main_call8_v8 (V : Valuation τ sig (Elt F)) :
    after hostOps8_1 V (Proc.devRef .tc main_call8_v8) = (StableHlo.TRef.binary (.of main_call8_cst_1 : StableHlo.TRef sig ⟨S_, .f32⟩) (.of main_call8_v7 : StableHlo.TRef sig ⟨S_, .f32⟩) (.of main_call8_v8 : StableHlo.TRef sig ⟨S_, .f32⟩) subf : HloOp τ sig (Elt F)).result (after hostOps8_1 V) (Proc.devRef .tc main_call8_v8) := by
  after_results_simp
theorem fin_main_call8_v8 (c : Dev nD) :
    W55 m ρ c (Proc.devRef .tc main_call8_v8) = (StableHlo.TRef.binary (.of main_call8_cst_1 : StableHlo.TRef sig ⟨S_, .f32⟩) (.of main_call8_v7 : StableHlo.TRef sig ⟨S_, .f32⟩) (.of main_call8_v8 : StableHlo.TRef sig ⟨S_, .f32⟩) subf : HloOp τ sig (Elt F)).result (W55 m ρ c) (Proc.devRef .tc main_call8_v8) := by
  have h := ssa_main_call8_v8 (F := F) (W33 m ρ c)
  rw [binary_result] at h ⊢
  rw [lift34 m ρ c main_call8_v8 (by decide), lift34 m ρ c main_call8_cst_1 (by decide), lift34 m ρ c main_call8_v7 (by decide)]
  exact h

theorem ssa_main_call8_cst_2 (V : Valuation τ sig (Elt F)) :
    after hostOps8_1 V (Proc.devRef .tc main_call8_cst_2) = (StableHlo.TRef.nullary (.of main_call8_cst_2 : StableHlo.TRef sig ⟨S_, .f32⟩) (constant S_ .f32 0x00000000#32) : HloOp τ sig (Elt F)).result (after hostOps8_1 V) (Proc.devRef .tc main_call8_cst_2) := by
  after_results_simp
theorem fin_main_call8_cst_2 (c : Dev nD) :
    W55 m ρ c (Proc.devRef .tc main_call8_cst_2) = (StableHlo.TRef.nullary (.of main_call8_cst_2 : StableHlo.TRef sig ⟨S_, .f32⟩) (constant S_ .f32 0x00000000#32) : HloOp τ sig (Elt F)).result (W55 m ρ c) (Proc.devRef .tc main_call8_cst_2) := by
  have h := ssa_main_call8_cst_2 (F := F) (W33 m ρ c)
  rw [nullary_result] at h ⊢
  rw [lift34 m ρ c main_call8_cst_2 (by decide)]
  exact h

theorem ssa_main_call8_v9 (V : Valuation τ sig (Elt F)) :
    after hostOps8_1 V (Proc.devRef .tc main_call8_v9) = (StableHlo.TRef.binary (.of main_call8_v6 : StableHlo.TRef sig ⟨S100000x64, .f32⟩) (.of main_call8_cst_2 : StableHlo.TRef sig ⟨S_, .f32⟩) (.of main_call8_v9 : StableHlo.TRef sig ⟨S64, .f32⟩) (fun x v => Host.reduceAdd x v reducesTo_S100000x64_S64_d0 h_S_) : HloOp τ sig (Elt F)).result (after hostOps8_1 V) (Proc.devRef .tc main_call8_v9) := by
  after_results_simp
theorem fin_main_call8_v9 (c : Dev nD) :
    W55 m ρ c (Proc.devRef .tc main_call8_v9) = (StableHlo.TRef.binary (.of main_call8_v6 : StableHlo.TRef sig ⟨S100000x64, .f32⟩) (.of main_call8_cst_2 : StableHlo.TRef sig ⟨S_, .f32⟩) (.of main_call8_v9 : StableHlo.TRef sig ⟨S64, .f32⟩) (fun x v => Host.reduceAdd x v reducesTo_S100000x64_S64_d0 h_S_) : HloOp τ sig (Elt F)).result (W55 m ρ c) (Proc.devRef .tc main_call8_v9) := by
  have h := ssa_main_call8_v9 (F := F) (W33 m ρ c)
  rw [binary_result] at h ⊢
  rw [lift34 m ρ c main_call8_v9 (by decide), lift34 m ρ c main_call8_v6 (by decide), lift34 m ρ c main_call8_cst_2 (by decide)]
  exact h

theorem ssa_main_call8_v10 (V : Valuation τ sig (Elt F)) :
    after hostOps8_1 V (Proc.devRef .tc main_call8_v10) = (StableHlo.TRef.unary (.of main_call8_v8 : StableHlo.TRef sig ⟨S_, .f32⟩) (.of main_call8_v10 : StableHlo.TRef sig ⟨S64, .f32⟩) (broadcastInDim S64 ![] bcast_S_S64) : HloOp τ sig (Elt F)).result (after hostOps8_1 V) (Proc.devRef .tc main_call8_v10) := by
  after_results_simp
theorem fin_main_call8_v10 (c : Dev nD) :
    W55 m ρ c (Proc.devRef .tc main_call8_v10) = (StableHlo.TRef.unary (.of main_call8_v8 : StableHlo.TRef sig ⟨S_, .f32⟩) (.of main_call8_v10 : StableHlo.TRef sig ⟨S64, .f32⟩) (broadcastInDim S64 ![] bcast_S_S64) : HloOp τ sig (Elt F)).result (W55 m ρ c) (Proc.devRef .tc main_call8_v10) := by
  have h := ssa_main_call8_v10 (F := F) (W33 m ρ c)
  rw [unary_result] at h ⊢
  rw [lift34 m ρ c main_call8_v10 (by decide), lift34 m ρ c main_call8_v8 (by decide)]
  exact h

theorem ssa_main_call8_v11 (V : Valuation τ sig (Elt F)) :
    after hostOps8_1 V (Proc.devRef .tc main_call8_v11) = (StableHlo.TRef.binary (.of main_call8_v9 : StableHlo.TRef sig ⟨S64, .f32⟩) (.of main_call8_v10 : StableHlo.TRef sig ⟨S64, .f32⟩) (.of main_call8_v11 : StableHlo.TRef sig ⟨S64, .f32⟩) Host.divf : HloOp τ sig (Elt F)).result (after hostOps8_1 V) (Proc.devRef .tc main_call8_v11) := by
  after_results_simp
theorem fin_main_call8_v11 (c : Dev nD) :
    W55 m ρ c (Proc.devRef .tc main_call8_v11) = (StableHlo.TRef.binary (.of main_call8_v9 : StableHlo.TRef sig ⟨S64, .f32⟩) (.of main_call8_v10 : StableHlo.TRef sig ⟨S64, .f32⟩) (.of main_call8_v11 : StableHlo.TRef sig ⟨S64, .f32⟩) Host.divf : HloOp τ sig (Elt F)).result (W55 m ρ c) (Proc.devRef .tc main_call8_v11) := by
  have h := ssa_main_call8_v11 (F := F) (W33 m ρ c)
  rw [binary_result] at h ⊢
  rw [lift34 m ρ c main_call8_v11 (by decide), lift34 m ρ c main_call8_v9 (by decide), lift34 m ρ c main_call8_v10 (by decide)]
  exact h

theorem ssa_main_call8_cst_3 (V : Valuation τ sig (Elt F)) :
    after hostOps8_1 V (Proc.devRef .tc main_call8_cst_3) = (StableHlo.TRef.nullary (.of main_call8_cst_3 : StableHlo.TRef sig ⟨S_, .f32⟩) (constant S_ .f32 0x00000000#32) : HloOp τ sig (Elt F)).result (after hostOps8_1 V) (Proc.devRef .tc main_call8_cst_3) := by
  after_results_simp
theorem fin_main_call8_cst_3 (c : Dev nD) :
    W55 m ρ c (Proc.devRef .tc main_call8_cst_3) = (StableHlo.TRef.nullary (.of main_call8_cst_3 : StableHlo.TRef sig ⟨S_, .f32⟩) (constant S_ .f32 0x00000000#32) : HloOp τ sig (Elt F)).result (W55 m ρ c) (Proc.devRef .tc main_call8_cst_3) := by
  have h := ssa_main_call8_cst_3 (F := F) (W33 m ρ c)
  rw [nullary_result] at h ⊢
  rw [lift34 m ρ c main_call8_cst_3 (by decide)]
  exact h

theorem ssa_main_call8_v12 (V : Valuation τ sig (Elt F)) :
    after hostOps8_1 V (Proc.devRef .tc main_call8_v12) = (StableHlo.TRef.binary (.of main_call8_v8 : StableHlo.TRef sig ⟨S_, .f32⟩) (.of main_call8_cst_3 : StableHlo.TRef sig ⟨S_, .f32⟩) (.of main_call8_v12 : StableHlo.TRef sig ⟨S_, .i1⟩) (cmpf .ogt) : HloOp τ sig (Elt F)).result (after hostOps8_1 V) (Proc.devRef .tc main_call8_v12) := by
  after_results_simp
theorem fin_main_call8_v12 (c : Dev nD) :
    W55 m ρ c (Proc.devRef .tc main_call8_v12) = (StableHlo.TRef.binary (.of main_call8_v8 : StableHlo.TRef sig ⟨S_, .f32⟩) (.of main_call8_cst_3 : StableHlo.TRef sig ⟨S_, .f32⟩) (.of main_call8_v12 : StableHlo.TRef sig ⟨S_, .i1⟩) (cmpf .ogt) : HloOp τ sig (Elt F)).result (W55 m ρ c) (Proc.devRef .tc main_call8_v12) := by
  have h := ssa_main_call8_v12 (F := F) (W33 m ρ c)
  rw [binary_result] at h ⊢
  rw [lift34 m ρ c main_call8_v12 (by decide), lift34 m ρ c main_call8_v8 (by decide), lift34 m ρ c main_call8_cst_3 (by decide)]
  exact h

theorem ssa_main_call8_cst_4 (V : Valuation τ sig (Elt F)) :
    after hostOps8_1 V (Proc.devRef .tc main_call8_cst_4) = (StableHlo.TRef.nullary (.of main_call8_cst_4 : StableHlo.TRef sig ⟨S_, .f32⟩) (constant S_ .f32 0x7FC00000#32) : HloOp τ sig (Elt F)).result (after hostOps8_1 V) (Proc.devRef .tc main_call8_cst_4) := by
  after_results_simp
theorem fin_main_call8_cst_4 (c : Dev nD) :
    W55 m ρ c (Proc.devRef .tc main_call8_cst_4) = (StableHlo.TRef.nullary (.of main_call8_cst_4 : StableHlo.TRef sig ⟨S_, .f32⟩) (constant S_ .f32 0x7FC00000#32) : HloOp τ sig (Elt F)).result (W55 m ρ c) (Proc.devRef .tc main_call8_cst_4) := by
  have h := ssa_main_call8_cst_4 (F := F) (W33 m ρ c)
  rw [nullary_result] at h ⊢
  rw [lift34 m ρ c main_call8_cst_4 (by decide)]
  exact h

theorem ssa_main_call8_call0_v0 (V : Valuation τ sig (Elt F)) :
    after hostOps8_1 V (Proc.devRef .tc main_call8_call0_v0) = (StableHlo.TRef.unary (.of main_call8_cst_4 : StableHlo.TRef sig ⟨S_, .f32⟩) (.of main_call8_call0_v0 : StableHlo.TRef sig ⟨S_, .f32⟩) id : HloOp τ sig (Elt F)).result (after hostOps8_1 V) (Proc.devRef .tc main_call8_call0_v0) := by
  after_results_simp
theorem fin_main_call8_call0_v0 (c : Dev nD) :
    W55 m ρ c (Proc.devRef .tc main_call8_call0_v0) = (StableHlo.TRef.unary (.of main_call8_cst_4 : StableHlo.TRef sig ⟨S_, .f32⟩) (.of main_call8_call0_v0 : StableHlo.TRef sig ⟨S_, .f32⟩) id : HloOp τ sig (Elt F)).result (W55 m ρ c) (Proc.devRef .tc main_call8_call0_v0) := by
  have h := ssa_main_call8_call0_v0 (F := F) (W33 m ρ c)
  rw [unary_result] at h ⊢
  rw [lift34 m ρ c main_call8_call0_v0 (by decide), lift34 m ρ c main_call8_cst_4 (by decide)]
  exact h

theorem ssa_main_call8_call0_v1 (V : Valuation τ sig (Elt F)) :
    after hostOps8_1 V (Proc.devRef .tc main_call8_call0_v1) = (StableHlo.TRef.unary (.of main_call8_call0_v0 : StableHlo.TRef sig ⟨S_, .f32⟩) (.of main_call8_call0_v1 : StableHlo.TRef sig ⟨S64, .f32⟩) (broadcastInDim S64 ![] bcast_S_S64) : HloOp τ sig (Elt F)).result (after hostOps8_1 V) (Proc.devRef .tc main_call8_call0_v1) := by
  after_results_simp
theorem fin_main_call8_call0_v1 (c : Dev nD) :
    W55 m ρ c (Proc.devRef .tc main_call8_call0_v1) = (StableHlo.TRef.unary (.of main_call8_call0_v0 : StableHlo.TRef sig ⟨S_, .f32⟩) (.of main_call8_call0_v1 : StableHlo.TRef sig ⟨S64, .f32⟩) (broadcastInDim S64 ![] bcast_S_S64) : HloOp τ sig (Elt F)).result (W55 m ρ c) (Proc.devRef .tc main_call8_call0_v1) := by
  have h := ssa_main_call8_call0_v1 (F := F) (W33 m ρ c)
  rw [unary_result] at h ⊢
  rw [lift34 m ρ c main_call8_call0_v1 (by decide), lift34 m ρ c main_call8_call0_v0 (by decide)]
  exact h

theorem ssa_main_v207 (V : Valuation τ sig (Elt F)) :
    after hostOps8_1 V (Proc.devRef .tc main_v207) = (StableHlo.TRef.ternary (.of main_call8_v12 : StableHlo.TRef sig ⟨S_, .i1⟩) (.of main_call8_v11 : StableHlo.TRef sig ⟨S64, .f32⟩) (.of main_call8_call0_v1 : StableHlo.TRef sig ⟨S64, .f32⟩) (.of main_v207 : StableHlo.TRef sig ⟨S64, .f32⟩) (fun p a b => select (broadcastInDim S64 ![] bcast_S_S64 p) a b) : HloOp τ sig (Elt F)).result (after hostOps8_1 V) (Proc.devRef .tc main_v207) := by
  after_results_simp
theorem fin_main_v207 (c : Dev nD) :
    W55 m ρ c (Proc.devRef .tc main_v207) = (StableHlo.TRef.ternary (.of main_call8_v12 : StableHlo.TRef sig ⟨S_, .i1⟩) (.of main_call8_v11 : StableHlo.TRef sig ⟨S64, .f32⟩) (.of main_call8_call0_v1 : StableHlo.TRef sig ⟨S64, .f32⟩) (.of main_v207 : StableHlo.TRef sig ⟨S64, .f32⟩) (fun p a b => select (broadcastInDim S64 ![] bcast_S_S64 p) a b) : HloOp τ sig (Elt F)).result (W55 m ρ c) (Proc.devRef .tc main_v207) := by
  have h := ssa_main_v207 (F := F) (W33 m ρ c)
  rw [ternary_result] at h ⊢
  rw [lift34 m ρ c main_v207 (by decide), lift34 m ρ c main_call8_v12 (by decide), lift34 m ρ c main_call8_v11 (by decide), lift34 m ρ c main_call8_call0_v1 (by decide)]
  exact h

theorem ssa_main_cst_37 (V : Valuation τ sig (Elt F)) :
    after hostOps8_2 V (Proc.devRef .tc main_cst_37) = (StableHlo.nullary main_cst_37 (constant S_ .f32 0x3727C5AC#32) : HloOp τ sig (Elt F)).result (after hostOps8_2 V) (Proc.devRef .tc main_cst_37) := by
  after_results_simp
theorem fin_main_cst_37 (c : Dev nD) :
    W55 m ρ c (Proc.devRef .tc main_cst_37) = (StableHlo.nullary main_cst_37 (constant S_ .f32 0x3727C5AC#32) : HloOp τ sig (Elt F)).result (W55 m ρ c) (Proc.devRef .tc main_cst_37) := by
  have h := ssa_main_cst_37 (F := F) (W34 m ρ c)
  rw [nullary_result] at h ⊢
  rw [lift35 m ρ c main_cst_37 (by decide)]
  exact h

theorem ssa_main_v208 (V : Valuation τ sig (Elt F)) :
    after hostOps8_2 V (Proc.devRef .tc main_v208) = (StableHlo.unary main_cst_37 main_v208 (broadcastInDim S64 ![] bcast_S_S64 : (⟨S_, .f32⟩ : BufTy).Contents (Elt F) → (⟨S64, .f32⟩ : BufTy).Contents (Elt F)) : HloOp τ sig (Elt F)).result (after hostOps8_2 V) (Proc.devRef .tc main_v208) := by
  after_results_simp
theorem fin_main_v208 (c : Dev nD) :
    W55 m ρ c (Proc.devRef .tc main_v208) = (StableHlo.unary main_cst_37 main_v208 (broadcastInDim S64 ![] bcast_S_S64 : (⟨S_, .f32⟩ : BufTy).Contents (Elt F) → (⟨S64, .f32⟩ : BufTy).Contents (Elt F)) : HloOp τ sig (Elt F)).result (W55 m ρ c) (Proc.devRef .tc main_v208) := by
  have h := ssa_main_v208 (F := F) (W34 m ρ c)
  rw [unary_result] at h ⊢
  rw [lift35 m ρ c main_v208 (by decide), lift35 m ρ c main_cst_37 (by decide)]
  exact h

theorem ssa_main_v209 (V : Valuation τ sig (Elt F)) :
    after hostOps8_2 V (Proc.devRef .tc main_v209) = (StableHlo.binary main_v207 main_v208 main_v209 (addf : (⟨S64, .f32⟩ : BufTy).Contents (Elt F) → (⟨S64, .f32⟩ : BufTy).Contents (Elt F) → (⟨S64, .f32⟩ : BufTy).Contents (Elt F)) : HloOp τ sig (Elt F)).result (after hostOps8_2 V) (Proc.devRef .tc main_v209) := by
  after_results_simp
theorem fin_main_v209 (c : Dev nD) :
    W55 m ρ c (Proc.devRef .tc main_v209) = (StableHlo.binary main_v207 main_v208 main_v209 (addf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v209) := by
  have h := ssa_main_v209 (F := F) (W34 m ρ c)
  rw [binary_result] at h ⊢
  rw [lift35 m ρ c main_v209 (by decide), lift35 m ρ c main_v207 (by decide), lift35 m ρ c main_v208 (by decide)]
  exact h

theorem ssa_main_v210 (V : Valuation τ sig (Elt F)) :
    after hostOps8_2 V (Proc.devRef .tc main_v210) = (StableHlo.unary main_v209 main_v210 (Host.rsqrt : (⟨S64, .f32⟩ : BufTy).Contents (Elt F) → (⟨S64, .f32⟩ : BufTy).Contents (Elt F)) : HloOp τ sig (Elt F)).result (after hostOps8_2 V) (Proc.devRef .tc main_v210) := by
  after_results_simp
theorem fin_main_v210 (c : Dev nD) :
    W55 m ρ c (Proc.devRef .tc main_v210) = (StableHlo.unary main_v209 main_v210 (Host.rsqrt : (⟨S64, .f32⟩ : BufTy).Contents (Elt F) → (⟨S64, .f32⟩ : BufTy).Contents (Elt F)) : HloOp τ sig (Elt F)).result (W55 m ρ c) (Proc.devRef .tc main_v210) := by
  have h := ssa_main_v210 (F := F) (W34 m ρ c)
  rw [unary_result] at h ⊢
  rw [lift35 m ρ c main_v210 (by decide), lift35 m ρ c main_v209 (by decide)]
  exact h

theorem ssa_main_v211 (V : Valuation τ sig (Elt F)) :
    after hostOps8_2 V (Proc.devRef .tc main_v211) = (StableHlo.binary main_v201 main_v210 main_v211 (mulf : (⟨S64, .f32⟩ : BufTy).Contents (Elt F) → (⟨S64, .f32⟩ : BufTy).Contents (Elt F) → (⟨S64, .f32⟩ : BufTy).Contents (Elt F)) : HloOp τ sig (Elt F)).result (after hostOps8_2 V) (Proc.devRef .tc main_v211) := by
  after_results_simp
theorem fin_main_v211 (c : Dev nD) :
    W55 m ρ c (Proc.devRef .tc main_v211) = (StableHlo.binary main_v201 main_v210 main_v211 (mulf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v211) := by
  have h := ssa_main_v211 (F := F) (W34 m ρ c)
  rw [binary_result] at h ⊢
  rw [lift35 m ρ c main_v211 (by decide), lift35 m ρ c main_v201 (by decide), lift35 m ρ c main_v210 (by decide)]
  exact h

theorem ssa_main_v212 (V : Valuation τ sig (Elt F)) :
    after hostOps8_2 V (Proc.devRef .tc main_v212) = (StableHlo.binary main_v206 main_v211 main_v212 (mulf : (⟨S64, .f32⟩ : BufTy).Contents (Elt F) → (⟨S64, .f32⟩ : BufTy).Contents (Elt F) → (⟨S64, .f32⟩ : BufTy).Contents (Elt F)) : HloOp τ sig (Elt F)).result (after hostOps8_2 V) (Proc.devRef .tc main_v212) := by
  after_results_simp
theorem fin_main_v212 (c : Dev nD) :
    W55 m ρ c (Proc.devRef .tc main_v212) = (StableHlo.binary main_v206 main_v211 main_v212 (mulf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v212) := by
  have h := ssa_main_v212 (F := F) (W34 m ρ c)
  rw [binary_result] at h ⊢
  rw [lift35 m ρ c main_v212 (by decide), lift35 m ρ c main_v206 (by decide), lift35 m ρ c main_v211 (by decide)]
  exact h

theorem ssa_main_v213 (V : Valuation τ sig (Elt F)) :
    after hostOps8_2 V (Proc.devRef .tc main_v213) = (StableHlo.binary main_v203 main_v212 main_v213 (subf : (⟨S64, .f32⟩ : BufTy).Contents (Elt F) → (⟨S64, .f32⟩ : BufTy).Contents (Elt F) → (⟨S64, .f32⟩ : BufTy).Contents (Elt F)) : HloOp τ sig (Elt F)).result (after hostOps8_2 V) (Proc.devRef .tc main_v213) := by
  after_results_simp
theorem fin_main_v213 (c : Dev nD) :
    W55 m ρ c (Proc.devRef .tc main_v213) = (StableHlo.binary main_v203 main_v212 main_v213 (subf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v213) := by
  have h := ssa_main_v213 (F := F) (W34 m ρ c)
  rw [binary_result] at h ⊢
  rw [lift35 m ρ c main_v213 (by decide), lift35 m ρ c main_v203 (by decide), lift35 m ρ c main_v212 (by decide)]
  exact h

theorem ssa_main_v214 (V : Valuation τ sig (Elt F)) :
    after hostOps8_2 V (Proc.devRef .tc main_v214) = (StableHlo.unary main_v211 main_v214 (broadcastInDim S1x64 ![1] bcast_S64_S1x64_1 : (⟨S64, .f32⟩ : BufTy).Contents (Elt F) → (⟨S1x64, .f32⟩ : BufTy).Contents (Elt F)) : HloOp τ sig (Elt F)).result (after hostOps8_2 V) (Proc.devRef .tc main_v214) := by
  after_results_simp
theorem fin_main_v214 (c : Dev nD) :
    W55 m ρ c (Proc.devRef .tc main_v214) = (StableHlo.unary main_v211 main_v214 (broadcastInDim S1x64 ![1] bcast_S64_S1x64_1 : (⟨S64, .f32⟩ : BufTy).Contents (Elt F) → (⟨S1x64, .f32⟩ : BufTy).Contents (Elt F)) : HloOp τ sig (Elt F)).result (W55 m ρ c) (Proc.devRef .tc main_v214) := by
  have h := ssa_main_v214 (F := F) (W34 m ρ c)
  rw [unary_result] at h ⊢
  rw [lift35 m ρ c main_v214 (by decide), lift35 m ρ c main_v211 (by decide)]
  exact h

theorem ssa_main_v215 (V : Valuation τ sig (Elt F)) :
    after hostOps8_2 V (Proc.devRef .tc main_v215) = (StableHlo.unary main_v214 main_v215 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after hostOps8_2 V) (Proc.devRef .tc main_v215) := by
  after_results_simp
theorem fin_main_v215 (c : Dev nD) :
    W55 m ρ c (Proc.devRef .tc main_v215) = (StableHlo.unary main_v214 main_v215 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (W55 m ρ c) (Proc.devRef .tc main_v215) := by
  have h := ssa_main_v215 (F := F) (W34 m ρ c)
  rw [unary_result] at h ⊢
  rw [lift35 m ρ c main_v215 (by decide), lift35 m ρ c main_v214 (by decide)]
  exact h

theorem ssa_main_v216 (V : Valuation τ sig (Elt F)) :
    after hostOps8_2 V (Proc.devRef .tc main_v216) = (StableHlo.binary main_v215 main_v199 main_v216 (mulf : (⟨S100000x64, .f32⟩ : BufTy).Contents (Elt F) → (⟨S100000x64, .f32⟩ : BufTy).Contents (Elt F) → (⟨S100000x64, .f32⟩ : BufTy).Contents (Elt F)) : HloOp τ sig (Elt F)).result (after hostOps8_2 V) (Proc.devRef .tc main_v216) := by
  after_results_simp
theorem fin_main_v216 (c : Dev nD) :
    W55 m ρ c (Proc.devRef .tc main_v216) = (StableHlo.binary main_v215 main_v199 main_v216 (mulf : (⟨S100000x64, .f32⟩ : BufTy).Contents (Elt F) → (⟨S100000x64, .f32⟩ : BufTy).Contents (Elt F) → (⟨S100000x64, .f32⟩ : BufTy).Contents (Elt F)) : HloOp τ sig (Elt F)).result (W55 m ρ c) (Proc.devRef .tc main_v216) := by
  have h := ssa_main_v216 (F := F) (W34 m ρ c)
  rw [binary_result] at h ⊢
  rw [lift35 m ρ c main_v216 (by decide), lift35 m ρ c main_v215 (by decide), lift35 m ρ c main_v199 (by decide)]
  exact h

theorem ssa_main_v217 (V : Valuation τ sig (Elt F)) :
    after hostOps8_2 V (Proc.devRef .tc main_v217) = (StableHlo.unary main_v213 main_v217 (broadcastInDim S1x64 ![1] bcast_S64_S1x64_1 : (⟨S64, .f32⟩ : BufTy).Contents (Elt F) → (⟨S1x64, .f32⟩ : BufTy).Contents (Elt F)) : HloOp τ sig (Elt F)).result (after hostOps8_2 V) (Proc.devRef .tc main_v217) := by
  after_results_simp
theorem fin_main_v217 (c : Dev nD) :
    W55 m ρ c (Proc.devRef .tc main_v217) = (StableHlo.unary main_v213 main_v217 (broadcastInDim S1x64 ![1] bcast_S64_S1x64_1 : (⟨S64, .f32⟩ : BufTy).Contents (Elt F) → (⟨S1x64, .f32⟩ : BufTy).Contents (Elt F)) : HloOp τ sig (Elt F)).result (W55 m ρ c) (Proc.devRef .tc main_v217) := by
  have h := ssa_main_v217 (F := F) (W34 m ρ c)
  rw [unary_result] at h ⊢
  rw [lift35 m ρ c main_v217 (by decide), lift35 m ρ c main_v213 (by decide)]
  exact h

theorem ssa_main_v218 (V : Valuation τ sig (Elt F)) :
    after hostOps8_2 V (Proc.devRef .tc main_v218) = (StableHlo.unary main_v217 main_v218 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after hostOps8_2 V) (Proc.devRef .tc main_v218) := by
  after_results_simp
theorem fin_main_v218 (c : Dev nD) :
    W55 m ρ c (Proc.devRef .tc main_v218) = (StableHlo.unary main_v217 main_v218 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (W55 m ρ c) (Proc.devRef .tc main_v218) := by
  have h := ssa_main_v218 (F := F) (W34 m ρ c)
  rw [unary_result] at h ⊢
  rw [lift35 m ρ c main_v218 (by decide), lift35 m ρ c main_v217 (by decide)]
  exact h

theorem ssa_main_v219 (V : Valuation τ sig (Elt F)) :
    after hostOps8_2 V (Proc.devRef .tc main_v219) = (StableHlo.binary main_v216 main_v218 main_v219 (addf : (⟨S100000x64, .f32⟩ : BufTy).Contents (Elt F) → (⟨S100000x64, .f32⟩ : BufTy).Contents (Elt F) → (⟨S100000x64, .f32⟩ : BufTy).Contents (Elt F)) : HloOp τ sig (Elt F)).result (after hostOps8_2 V) (Proc.devRef .tc main_v219) := by
  after_results_simp
theorem fin_main_v219 (c : Dev nD) :
    W55 m ρ c (Proc.devRef .tc main_v219) = (StableHlo.binary main_v216 main_v218 main_v219 (addf : (⟨S100000x64, .f32⟩ : BufTy).Contents (Elt F) → (⟨S100000x64, .f32⟩ : BufTy).Contents (Elt F) → (⟨S100000x64, .f32⟩ : BufTy).Contents (Elt F)) : HloOp τ sig (Elt F)).result (W55 m ρ c) (Proc.devRef .tc main_v219) := by
  have h := ssa_main_v219 (F := F) (W34 m ρ c)
  rw [binary_result] at h ⊢
  rw [lift35 m ρ c main_v219 (by decide), lift35 m ρ c main_v216 (by decide), lift35 m ρ c main_v218 (by decide)]
  exact h

theorem ssa_main_cst_38 (V : Valuation τ sig (Elt F)) :
    after hostOps8_2 V (Proc.devRef .tc main_cst_38) = (StableHlo.nullary main_cst_38 (constant S_ .f32 0x00000000#32) : HloOp τ sig (Elt F)).result (after hostOps8_2 V) (Proc.devRef .tc main_cst_38) := by
  after_results_simp
theorem fin_main_cst_38 (c : Dev nD) :
    W55 m ρ c (Proc.devRef .tc main_cst_38) = (StableHlo.nullary main_cst_38 (constant S_ .f32 0x00000000#32) : HloOp τ sig (Elt F)).result (W55 m ρ c) (Proc.devRef .tc main_cst_38) := by
  have h := ssa_main_cst_38 (F := F) (W34 m ρ c)
  rw [nullary_result] at h ⊢
  rw [lift35 m ρ c main_cst_38 (by decide)]
  exact h

theorem ssa_main_v220 (V : Valuation τ sig (Elt F)) :
    after hostOps8_2 V (Proc.devRef .tc main_v220) = (StableHlo.unary main_cst_38 main_v220 (broadcastInDim S100000x64 ![] bcast_S_S100000x64 : (⟨S_, .f32⟩ : BufTy).Contents (Elt F) → (⟨S100000x64, .f32⟩ : BufTy).Contents (Elt F)) : HloOp τ sig (Elt F)).result (after hostOps8_2 V) (Proc.devRef .tc main_v220) := by
  after_results_simp
theorem fin_main_v220 (c : Dev nD) :
    W55 m ρ c (Proc.devRef .tc main_v220) = (StableHlo.unary main_cst_38 main_v220 (broadcastInDim S100000x64 ![] bcast_S_S100000x64 : (⟨S_, .f32⟩ : BufTy).Contents (Elt F) → (⟨S100000x64, .f32⟩ : BufTy).Contents (Elt F)) : HloOp τ sig (Elt F)).result (W55 m ρ c) (Proc.devRef .tc main_v220) := by
  have h := ssa_main_v220 (F := F) (W34 m ρ c)
  rw [unary_result] at h ⊢
  rw [lift35 m ρ c main_v220 (by decide), lift35 m ρ c main_cst_38 (by decide)]
  exact h

theorem ssa_main_v221 (V : Valuation τ sig (Elt F)) :
    after hostOps8_2 V (Proc.devRef .tc main_v221) = (StableHlo.binary main_v219 main_v220 main_v221 (cmpf .oge : (⟨S100000x64, .f32⟩ : BufTy).Contents (Elt F) → (⟨S100000x64, .f32⟩ : BufTy).Contents (Elt F) → (⟨S100000x64, .i1⟩ : BufTy).Contents (Elt F)) : HloOp τ sig (Elt F)).result (after hostOps8_2 V) (Proc.devRef .tc main_v221) := by
  after_results_simp
theorem fin_main_v221 (c : Dev nD) :
    W55 m ρ c (Proc.devRef .tc main_v221) = (StableHlo.binary main_v219 main_v220 main_v221 (cmpf .oge : (⟨S100000x64, .f32⟩ : BufTy).Contents (Elt F) → (⟨S100000x64, .f32⟩ : BufTy).Contents (Elt F) → (⟨S100000x64, .i1⟩ : BufTy).Contents (Elt F)) : HloOp τ sig (Elt F)).result (W55 m ρ c) (Proc.devRef .tc main_v221) := by
  have h := ssa_main_v221 (F := F) (W34 m ρ c)
  rw [binary_result] at h ⊢
  rw [lift35 m ρ c main_v221 (by decide), lift35 m ρ c main_v219 (by decide), lift35 m ρ c main_v220 (by decide)]
  exact h

theorem ssa_main_cst_39 (V : Valuation τ sig (Elt F)) :
    after hostOps8_2 V (Proc.devRef .tc main_cst_39) = (StableHlo.nullary main_cst_39 (constant S_ .f32 0x3C23D70A#32) : HloOp τ sig (Elt F)).result (after hostOps8_2 V) (Proc.devRef .tc main_cst_39) := by
  after_results_simp
theorem fin_main_cst_39 (c : Dev nD) :
    W55 m ρ c (Proc.devRef .tc main_cst_39) = (StableHlo.nullary main_cst_39 (constant S_ .f32 0x3C23D70A#32) : HloOp τ sig (Elt F)).result (W55 m ρ c) (Proc.devRef .tc main_cst_39) := by
  have h := ssa_main_cst_39 (F := F) (W34 m ρ c)
  rw [nullary_result] at h ⊢
  rw [lift35 m ρ c main_cst_39 (by decide)]
  exact h

theorem ssa_main_v222 (V : Valuation τ sig (Elt F)) :
    after hostOps8_2 V (Proc.devRef .tc main_v222) = (StableHlo.unary main_cst_39 main_v222 (broadcastInDim S100000x64 ![] bcast_S_S100000x64 : (⟨S_, .f32⟩ : BufTy).Contents (Elt F) → (⟨S100000x64, .f32⟩ : BufTy).Contents (Elt F)) : HloOp τ sig (Elt F)).result (after hostOps8_2 V) (Proc.devRef .tc main_v222) := by
  after_results_simp
theorem fin_main_v222 (c : Dev nD) :
    W55 m ρ c (Proc.devRef .tc main_v222) = (StableHlo.unary main_cst_39 main_v222 (broadcastInDim S100000x64 ![] bcast_S_S100000x64 : (⟨S_, .f32⟩ : BufTy).Contents (Elt F) → (⟨S100000x64, .f32⟩ : BufTy).Contents (Elt F)) : HloOp τ sig (Elt F)).result (W55 m ρ c) (Proc.devRef .tc main_v222) := by
  have h := ssa_main_v222 (F := F) (W34 m ρ c)
  rw [unary_result] at h ⊢
  rw [lift35 m ρ c main_v222 (by decide), lift35 m ρ c main_cst_39 (by decide)]
  exact h

theorem ssa_main_v223 (V : Valuation τ sig (Elt F)) :
    after hostOps8_2 V (Proc.devRef .tc main_v223) = (StableHlo.binary main_v222 main_v219 main_v223 (mulf : (⟨S100000x64, .f32⟩ : BufTy).Contents (Elt F) → (⟨S100000x64, .f32⟩ : BufTy).Contents (Elt F) → (⟨S100000x64, .f32⟩ : BufTy).Contents (Elt F)) : HloOp τ sig (Elt F)).result (after hostOps8_2 V) (Proc.devRef .tc main_v223) := by
  after_results_simp
theorem fin_main_v223 (c : Dev nD) :
    W55 m ρ c (Proc.devRef .tc main_v223) = (StableHlo.binary main_v222 main_v219 main_v223 (mulf : (⟨S100000x64, .f32⟩ : BufTy).Contents (Elt F) → (⟨S100000x64, .f32⟩ : BufTy).Contents (Elt F) → (⟨S100000x64, .f32⟩ : BufTy).Contents (Elt F)) : HloOp τ sig (Elt F)).result (W55 m ρ c) (Proc.devRef .tc main_v223) := by
  have h := ssa_main_v223 (F := F) (W34 m ρ c)
  rw [binary_result] at h ⊢
  rw [lift35 m ρ c main_v223 (by decide), lift35 m ρ c main_v222 (by decide), lift35 m ρ c main_v219 (by decide)]
  exact h

theorem ssa_main_v224 (V : Valuation τ sig (Elt F)) :
    after hostOps8_3 V (Proc.devRef .tc main_v224) = (StableHlo.TRef.ternary (.of main_v221 : StableHlo.TRef sig ⟨S100000x64, .i1⟩) (.of main_v219 : StableHlo.TRef sig ⟨S100000x64, .f32⟩) (.of main_v223 : StableHlo.TRef sig ⟨S100000x64, .f32⟩) (.of main_v224 : StableHlo.TRef sig ⟨S100000x64, .f32⟩) select : HloOp τ sig (Elt F)).result (after hostOps8_3 V) (Proc.devRef .tc main_v224) := by
  after_results_simp
theorem fin_main_v224 (c : Dev nD) :
    W55 m ρ c (Proc.devRef .tc main_v224) = (StableHlo.TRef.ternary (.of main_v221 : StableHlo.TRef sig ⟨S100000x64, .i1⟩) (.of main_v219 : StableHlo.TRef sig ⟨S100000x64, .f32⟩) (.of main_v223 : StableHlo.TRef sig ⟨S100000x64, .f32⟩) (.of main_v224 : StableHlo.TRef sig ⟨S100000x64, .f32⟩) select : HloOp τ sig (Elt F)).result (W55 m ρ c) (Proc.devRef .tc main_v224) := by
  have h := ssa_main_v224 (F := F) (W35 m ρ c)
  rw [ternary_result] at h ⊢
  rw [lift36 m ρ c main_v224 (by decide), lift36 m ρ c main_v221 (by decide), lift36 m ρ c main_v219 (by decide), lift36 m ρ c main_v223 (by decide)]
  exact h

theorem ssa_main_v225 (V : Valuation τ sig (Elt F)) :
    after hostOps8_4 V (Proc.devRef .tc main_v225) = (StableHlo.unary main_arg11 main_v225 ((extractStridedSlice S1x64x64 ![2, 0, 0] · slices_S3x64x64_S1x64x64_2_0_0) : (⟨S3x64x64, .f32⟩ : BufTy).Contents (Elt F) → (⟨S1x64x64, .f32⟩ : BufTy).Contents (Elt F)) : HloOp τ sig (Elt F)).result (after hostOps8_4 V) (Proc.devRef .tc main_v225) := by
  after_results_simp
theorem fin_main_v225 (c : Dev nD) :
    W55 m ρ c (Proc.devRef .tc main_v225) = (StableHlo.unary main_arg11 main_v225 ((extractStridedSlice S1x64x64 ![2, 0, 0] · slices_S3x64x64_S1x64x64_2_0_0) : (⟨S3x64x64, .f32⟩ : BufTy).Contents (Elt F) → (⟨S1x64x64, .f32⟩ : BufTy).Contents (Elt F)) : HloOp τ sig (Elt F)).result (W55 m ρ c) (Proc.devRef .tc main_v225) := by
  have h := ssa_main_v225 (F := F) (W36 m ρ c)
  rw [unary_result] at h ⊢
  rw [lift37 m ρ c main_v225 (by decide), lift37 m ρ c main_arg11 (by decide)]
  exact h

theorem ssa_main_v226 (V : Valuation τ sig (Elt F)) :
    after hostOps8_4 V (Proc.devRef .tc main_v226) = (StableHlo.reshape main_v225 main_v226 rfl shapeCasts_S1x64x64_S64x64 : HloOp τ sig (Elt F)).result (after hostOps8_4 V) (Proc.devRef .tc main_v226) := by
  after_results_simp
theorem fin_main_v226 (c : Dev nD) :
    W55 m ρ c (Proc.devRef .tc main_v226) = (StableHlo.reshape main_v225 main_v226 rfl shapeCasts_S1x64x64_S64x64 : HloOp τ sig (Elt F)).result (W55 m ρ c) (Proc.devRef .tc main_v226) := by
  have h := ssa_main_v226 (F := F) (W36 m ρ c)
  rw [reshape_result] at h ⊢
  rw [lift37 m ρ c main_v226 (by decide), lift37 m ρ c main_v225 (by decide)]
  exact h

theorem ssa_main_v227 (V : Valuation τ sig (Elt F)) :
    after hostOps8_4 V (Proc.devRef .tc main_v227) = (StableHlo.unary main_arg12 main_v227 ((extractStridedSlice S1x64 ![2, 0] · slices_S3x64_S1x64_2_0) : (⟨S3x64, .f32⟩ : BufTy).Contents (Elt F) → (⟨S1x64, .f32⟩ : BufTy).Contents (Elt F)) : HloOp τ sig (Elt F)).result (after hostOps8_4 V) (Proc.devRef .tc main_v227) := by
  after_results_simp
theorem fin_main_v227 (c : Dev nD) :
    W55 m ρ c (Proc.devRef .tc main_v227) = (StableHlo.unary main_arg12 main_v227 ((extractStridedSlice S1x64 ![2, 0] · slices_S3x64_S1x64_2_0) : (⟨S3x64, .f32⟩ : BufTy).Contents (Elt F) → (⟨S1x64, .f32⟩ : BufTy).Contents (Elt F)) : HloOp τ sig (Elt F)).result (W55 m ρ c) (Proc.devRef .tc main_v227) := by
  have h := ssa_main_v227 (F := F) (W36 m ρ c)
  rw [unary_result] at h ⊢
  rw [lift37 m ρ c main_v227 (by decide), lift37 m ρ c main_arg12 (by decide)]
  exact h

theorem ssa_main_v228 (V : Valuation τ sig (Elt F)) :
    after hostOps8_4 V (Proc.devRef .tc main_v228) = (StableHlo.reshape main_v227 main_v228 rfl shapeCasts_S1x64_S64 : HloOp τ sig (Elt F)).result (after hostOps8_4 V) (Proc.devRef .tc main_v228) := by
  after_results_simp
theorem fin_main_v228 (c : Dev nD) :
    W55 m ρ c (Proc.devRef .tc main_v228) = (StableHlo.reshape main_v227 main_v228 rfl shapeCasts_S1x64_S64 : HloOp τ sig (Elt F)).result (W55 m ρ c) (Proc.devRef .tc main_v228) := by
  have h := ssa_main_v228 (F := F) (W36 m ρ c)
  rw [reshape_result] at h ⊢
  rw [lift37 m ρ c main_v228 (by decide), lift37 m ρ c main_v227 (by decide)]
  exact h

theorem ssa_main_v229 (V : Valuation τ sig (Elt F)) :
    after hostOps8_4 V (Proc.devRef .tc main_v229) = (StableHlo.reshape main_v228 main_v229 rfl shapeCasts_S64_S1x64 : HloOp τ sig (Elt F)).result (after hostOps8_4 V) (Proc.devRef .tc main_v229) := by
  after_results_simp
theorem fin_main_v229 (c : Dev nD) :
    W55 m ρ c (Proc.devRef .tc main_v229) = (StableHlo.reshape main_v228 main_v229 rfl shapeCasts_S64_S1x64 : HloOp τ sig (Elt F)).result (W55 m ρ c) (Proc.devRef .tc main_v229) := by
  have h := ssa_main_v229 (F := F) (W36 m ρ c)
  rw [reshape_result] at h ⊢
  rw [lift37 m ρ c main_v229 (by decide), lift37 m ρ c main_v228 (by decide)]
  exact h

theorem ssa_main_v231 (V : Valuation τ sig (Elt F)) :
    after hostOps9 V (Proc.devRef .tc main_v231) = (StableHlo.reshape main_arg16 main_v231 rfl shapeCasts_S64_S1x64 : HloOp τ sig (Elt F)).result (after hostOps9 V) (Proc.devRef .tc main_v231) := by
  after_results_simp
theorem fin_main_v231 (c : Dev nD) :
    W55 m ρ c (Proc.devRef .tc main_v231) = (StableHlo.reshape main_arg16 main_v231 rfl shapeCasts_S64_S1x64 : HloOp τ sig (Elt F)).result (W55 m ρ c) (Proc.devRef .tc main_v231) := by
  have h := ssa_main_v231 (F := F) (W38 m ρ c)
  rw [reshape_result] at h ⊢
  rw [lift39 m ρ c main_v231 (by decide), lift39 m ρ c main_arg16 (by decide)]
  exact h

theorem ssa_main_cst_40 (V : Valuation τ sig (Elt F)) :
    after hostOps10 V (Proc.devRef .tc main_cst_40) = (StableHlo.nullary main_cst_40 (constant S_ .f32 0x00000000#32) : HloOp τ sig (Elt F)).result (after hostOps10 V) (Proc.devRef .tc main_cst_40) := by
  after_results_simp
theorem fin_main_cst_40 (c : Dev nD) :
    W55 m ρ c (Proc.devRef .tc main_cst_40) = (StableHlo.nullary main_cst_40 (constant S_ .f32 0x00000000#32) : HloOp τ sig (Elt F)).result (W55 m ρ c) (Proc.devRef .tc main_cst_40) := by
  have h := ssa_main_cst_40 (F := F) (W40 m ρ c)
  rw [nullary_result] at h ⊢
  rw [lift41 m ρ c main_cst_40 (by decide)]
  exact h

theorem ssa_main_v233 (V : Valuation τ sig (Elt F)) :
    after hostOps10 V (Proc.devRef .tc main_v233) = (StableHlo.binary main_v232 main_cst_40 main_v233 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) : HloOp τ sig (Elt F)).result (after hostOps10 V) (Proc.devRef .tc main_v233) := by
  after_results_simp
theorem fin_main_v233 (c : Dev nD) :
    W55 m ρ c (Proc.devRef .tc main_v233) = (StableHlo.binary main_v232 main_cst_40 main_v233 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) : HloOp τ sig (Elt F)).result (W55 m ρ c) (Proc.devRef .tc main_v233) := by
  have h := ssa_main_v233 (F := F) (W40 m ρ c)
  rw [binary_result] at h ⊢
  rw [lift41 m ρ c main_v233 (by decide), lift41 m ρ c main_v232 (by decide), lift41 m ρ c main_cst_40 (by decide)]
  exact h

theorem ssa_main_cst_41 (V : Valuation τ sig (Elt F)) :
    after hostOps10 V (Proc.devRef .tc main_cst_41) = (StableHlo.nullary main_cst_41 (constant S_ .f32 0x47C35000#32) : HloOp τ sig (Elt F)).result (after hostOps10 V) (Proc.devRef .tc main_cst_41) := by
  after_results_simp
theorem fin_main_cst_41 (c : Dev nD) :
    W55 m ρ c (Proc.devRef .tc main_cst_41) = (StableHlo.nullary main_cst_41 (constant S_ .f32 0x47C35000#32) : HloOp τ sig (Elt F)).result (W55 m ρ c) (Proc.devRef .tc main_cst_41) := by
  have h := ssa_main_cst_41 (F := F) (W40 m ρ c)
  rw [nullary_result] at h ⊢
  rw [lift41 m ρ c main_cst_41 (by decide)]
  exact h

theorem ssa_main_v234 (V : Valuation τ sig (Elt F)) :
    after hostOps10 V (Proc.devRef .tc main_v234) = (StableHlo.unary main_cst_41 main_v234 (broadcastInDim S64 ![] bcast_S_S64 : (⟨S_, .f32⟩ : BufTy).Contents (Elt F) → (⟨S64, .f32⟩ : BufTy).Contents (Elt F)) : HloOp τ sig (Elt F)).result (after hostOps10 V) (Proc.devRef .tc main_v234) := by
  after_results_simp
theorem fin_main_v234 (c : Dev nD) :
    W55 m ρ c (Proc.devRef .tc main_v234) = (StableHlo.unary main_cst_41 main_v234 (broadcastInDim S64 ![] bcast_S_S64 : (⟨S_, .f32⟩ : BufTy).Contents (Elt F) → (⟨S64, .f32⟩ : BufTy).Contents (Elt F)) : HloOp τ sig (Elt F)).result (W55 m ρ c) (Proc.devRef .tc main_v234) := by
  have h := ssa_main_v234 (F := F) (W40 m ρ c)
  rw [unary_result] at h ⊢
  rw [lift41 m ρ c main_v234 (by decide), lift41 m ρ c main_cst_41 (by decide)]
  exact h

theorem ssa_main_v235 (V : Valuation τ sig (Elt F)) :
    after hostOps10 V (Proc.devRef .tc main_v235) = (StableHlo.binary main_v233 main_v234 main_v235 (Host.divf : (⟨S64, .f32⟩ : BufTy).Contents (Elt F) → (⟨S64, .f32⟩ : BufTy).Contents (Elt F) → (⟨S64, .f32⟩ : BufTy).Contents (Elt F)) : HloOp τ sig (Elt F)).result (after hostOps10 V) (Proc.devRef .tc main_v235) := by
  after_results_simp
theorem fin_main_v235 (c : Dev nD) :
    W55 m ρ c (Proc.devRef .tc main_v235) = (StableHlo.binary main_v233 main_v234 main_v235 (Host.divf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v235) := by
  have h := ssa_main_v235 (F := F) (W40 m ρ c)
  rw [binary_result] at h ⊢
  rw [lift41 m ρ c main_v235 (by decide), lift41 m ρ c main_v233 (by decide), lift41 m ρ c main_v234 (by decide)]
  exact h

theorem ssa_main_c_42 (V : Valuation τ sig (Elt F)) :
    after hostOps10 V (Proc.devRef .tc main_c_42) = (StableHlo.nullary main_c_42 (constantI S_ 32 0#32) : HloOp τ sig (Elt F)).result (after hostOps10 V) (Proc.devRef .tc main_c_42) := by
  after_results_simp
theorem fin_main_c_42 (c : Dev nD) :
    W55 m ρ c (Proc.devRef .tc main_c_42) = (StableHlo.nullary main_c_42 (constantI S_ 32 0#32) : HloOp τ sig (Elt F)).result (W55 m ρ c) (Proc.devRef .tc main_c_42) := by
  have h := ssa_main_c_42 (F := F) (W40 m ρ c)
  rw [nullary_result] at h ⊢
  rw [lift41 m ρ c main_c_42 (by decide)]
  exact h

theorem ssa_main_call10_cst (V : Valuation τ sig (Elt F)) :
    after hostOps10_1 V (Proc.devRef .tc main_call10_cst) = (StableHlo.TRef.nullary (.of main_call10_cst : StableHlo.TRef sig ⟨S_, .f32⟩) (constant S_ .f32 0x00000000#32) : HloOp τ sig (Elt F)).result (after hostOps10_1 V) (Proc.devRef .tc main_call10_cst) := by
  after_results_simp
theorem fin_main_call10_cst (c : Dev nD) :
    W55 m ρ c (Proc.devRef .tc main_call10_cst) = (StableHlo.TRef.nullary (.of main_call10_cst : StableHlo.TRef sig ⟨S_, .f32⟩) (constant S_ .f32 0x00000000#32) : HloOp τ sig (Elt F)).result (W55 m ρ c) (Proc.devRef .tc main_call10_cst) := by
  have h := ssa_main_call10_cst (F := F) (W41 m ρ c)
  rw [nullary_result] at h ⊢
  rw [lift42 m ρ c main_call10_cst (by decide)]
  exact h

theorem ssa_main_call10_v0 (V : Valuation τ sig (Elt F)) :
    after hostOps10_1 V (Proc.devRef .tc main_call10_v0) = (StableHlo.TRef.binary (.of main_v232 : StableHlo.TRef sig ⟨S100000x64, .f32⟩) (.of main_call10_cst : StableHlo.TRef sig ⟨S_, .f32⟩) (.of main_call10_v0 : StableHlo.TRef sig ⟨S64, .f32⟩) (fun x v => Host.reduceAdd x v reducesTo_S100000x64_S64_d0 h_S_) : HloOp τ sig (Elt F)).result (after hostOps10_1 V) (Proc.devRef .tc main_call10_v0) := by
  after_results_simp
theorem fin_main_call10_v0 (c : Dev nD) :
    W55 m ρ c (Proc.devRef .tc main_call10_v0) = (StableHlo.TRef.binary (.of main_v232 : StableHlo.TRef sig ⟨S100000x64, .f32⟩) (.of main_call10_cst : StableHlo.TRef sig ⟨S_, .f32⟩) (.of main_call10_v0 : StableHlo.TRef sig ⟨S64, .f32⟩) (fun x v => Host.reduceAdd x v reducesTo_S100000x64_S64_d0 h_S_) : HloOp τ sig (Elt F)).result (W55 m ρ c) (Proc.devRef .tc main_call10_v0) := by
  have h := ssa_main_call10_v0 (F := F) (W41 m ρ c)
  rw [binary_result] at h ⊢
  rw [lift42 m ρ c main_call10_v0 (by decide), lift42 m ρ c main_v232 (by decide), lift42 m ρ c main_call10_cst (by decide)]
  exact h

theorem ssa_main_call10_v1 (V : Valuation τ sig (Elt F)) :
    after hostOps10_1 V (Proc.devRef .tc main_call10_v1) = (StableHlo.TRef.unary (.of main_call10_v0 : StableHlo.TRef sig ⟨S64, .f32⟩) (.of main_call10_v1 : StableHlo.TRef sig ⟨S1x64, .f32⟩) (broadcastInDim S1x64 ![1] bcast_S64_S1x64_1) : HloOp τ sig (Elt F)).result (after hostOps10_1 V) (Proc.devRef .tc main_call10_v1) := by
  after_results_simp
theorem fin_main_call10_v1 (c : Dev nD) :
    W55 m ρ c (Proc.devRef .tc main_call10_v1) = (StableHlo.TRef.unary (.of main_call10_v0 : StableHlo.TRef sig ⟨S64, .f32⟩) (.of main_call10_v1 : StableHlo.TRef sig ⟨S1x64, .f32⟩) (broadcastInDim S1x64 ![1] bcast_S64_S1x64_1) : HloOp τ sig (Elt F)).result (W55 m ρ c) (Proc.devRef .tc main_call10_v1) := by
  have h := ssa_main_call10_v1 (F := F) (W41 m ρ c)
  rw [unary_result] at h ⊢
  rw [lift42 m ρ c main_call10_v1 (by decide), lift42 m ρ c main_call10_v0 (by decide)]
  exact h

theorem ssa_main_call10_cst_0 (V : Valuation τ sig (Elt F)) :
    after hostOps10_1 V (Proc.devRef .tc main_call10_cst_0) = (StableHlo.TRef.nullary (.of main_call10_cst_0 : StableHlo.TRef sig ⟨S_, .f32⟩) (constant S_ .f32 0x47C35000#32) : HloOp τ sig (Elt F)).result (after hostOps10_1 V) (Proc.devRef .tc main_call10_cst_0) := by
  after_results_simp
theorem fin_main_call10_cst_0 (c : Dev nD) :
    W55 m ρ c (Proc.devRef .tc main_call10_cst_0) = (StableHlo.TRef.nullary (.of main_call10_cst_0 : StableHlo.TRef sig ⟨S_, .f32⟩) (constant S_ .f32 0x47C35000#32) : HloOp τ sig (Elt F)).result (W55 m ρ c) (Proc.devRef .tc main_call10_cst_0) := by
  have h := ssa_main_call10_cst_0 (F := F) (W41 m ρ c)
  rw [nullary_result] at h ⊢
  rw [lift42 m ρ c main_call10_cst_0 (by decide)]
  exact h

theorem ssa_main_call10_v2 (V : Valuation τ sig (Elt F)) :
    after hostOps10_1 V (Proc.devRef .tc main_call10_v2) = (StableHlo.TRef.unary (.of main_call10_cst_0 : StableHlo.TRef sig ⟨S_, .f32⟩) (.of main_call10_v2 : StableHlo.TRef sig ⟨S1x64, .f32⟩) (broadcastInDim S1x64 ![] bcast_S_S1x64) : HloOp τ sig (Elt F)).result (after hostOps10_1 V) (Proc.devRef .tc main_call10_v2) := by
  after_results_simp
theorem fin_main_call10_v2 (c : Dev nD) :
    W55 m ρ c (Proc.devRef .tc main_call10_v2) = (StableHlo.TRef.unary (.of main_call10_cst_0 : StableHlo.TRef sig ⟨S_, .f32⟩) (.of main_call10_v2 : StableHlo.TRef sig ⟨S1x64, .f32⟩) (broadcastInDim S1x64 ![] bcast_S_S1x64) : HloOp τ sig (Elt F)).result (W55 m ρ c) (Proc.devRef .tc main_call10_v2) := by
  have h := ssa_main_call10_v2 (F := F) (W41 m ρ c)
  rw [unary_result] at h ⊢
  rw [lift42 m ρ c main_call10_v2 (by decide), lift42 m ρ c main_call10_cst_0 (by decide)]
  exact h

theorem ssa_main_call10_v3 (V : Valuation τ sig (Elt F)) :
    after hostOps10_1 V (Proc.devRef .tc main_call10_v3) = (StableHlo.TRef.binary (.of main_call10_v1 : StableHlo.TRef sig ⟨S1x64, .f32⟩) (.of main_call10_v2 : StableHlo.TRef sig ⟨S1x64, .f32⟩) (.of main_call10_v3 : StableHlo.TRef sig ⟨S1x64, .f32⟩) Host.divf : HloOp τ sig (Elt F)).result (after hostOps10_1 V) (Proc.devRef .tc main_call10_v3) := by
  after_results_simp
theorem fin_main_call10_v3 (c : Dev nD) :
    W55 m ρ c (Proc.devRef .tc main_call10_v3) = (StableHlo.TRef.binary (.of main_call10_v1 : StableHlo.TRef sig ⟨S1x64, .f32⟩) (.of main_call10_v2 : StableHlo.TRef sig ⟨S1x64, .f32⟩) (.of main_call10_v3 : StableHlo.TRef sig ⟨S1x64, .f32⟩) Host.divf : HloOp τ sig (Elt F)).result (W55 m ρ c) (Proc.devRef .tc main_call10_v3) := by
  have h := ssa_main_call10_v3 (F := F) (W41 m ρ c)
  rw [binary_result] at h ⊢
  rw [lift42 m ρ c main_call10_v3 (by decide), lift42 m ρ c main_call10_v1 (by decide), lift42 m ρ c main_call10_v2 (by decide)]
  exact h

theorem ssa_main_call10_v4 (V : Valuation τ sig (Elt F)) :
    after hostOps10_1 V (Proc.devRef .tc main_call10_v4) = (StableHlo.TRef.unary (.of main_call10_v3 : StableHlo.TRef sig ⟨S1x64, .f32⟩) (.of main_call10_v4 : StableHlo.TRef sig ⟨S100000x64, .f32⟩) (broadcastInDim S100000x64 ![0, 1] bcast_S1x64_S100000x64_0_1) : HloOp τ sig (Elt F)).result (after hostOps10_1 V) (Proc.devRef .tc main_call10_v4) := by
  after_results_simp
theorem fin_main_call10_v4 (c : Dev nD) :
    W55 m ρ c (Proc.devRef .tc main_call10_v4) = (StableHlo.TRef.unary (.of main_call10_v3 : StableHlo.TRef sig ⟨S1x64, .f32⟩) (.of main_call10_v4 : StableHlo.TRef sig ⟨S100000x64, .f32⟩) (broadcastInDim S100000x64 ![0, 1] bcast_S1x64_S100000x64_0_1) : HloOp τ sig (Elt F)).result (W55 m ρ c) (Proc.devRef .tc main_call10_v4) := by
  have h := ssa_main_call10_v4 (F := F) (W41 m ρ c)
  rw [unary_result] at h ⊢
  rw [lift42 m ρ c main_call10_v4 (by decide), lift42 m ρ c main_call10_v3 (by decide)]
  exact h

theorem ssa_main_call10_v5 (V : Valuation τ sig (Elt F)) :
    after hostOps10_1 V (Proc.devRef .tc main_call10_v5) = (StableHlo.TRef.binary (.of main_v232 : StableHlo.TRef sig ⟨S100000x64, .f32⟩) (.of main_call10_v4 : StableHlo.TRef sig ⟨S100000x64, .f32⟩) (.of main_call10_v5 : StableHlo.TRef sig ⟨S100000x64, .f32⟩) subf : HloOp τ sig (Elt F)).result (after hostOps10_1 V) (Proc.devRef .tc main_call10_v5) := by
  after_results_simp
theorem fin_main_call10_v5 (c : Dev nD) :
    W55 m ρ c (Proc.devRef .tc main_call10_v5) = (StableHlo.TRef.binary (.of main_v232 : StableHlo.TRef sig ⟨S100000x64, .f32⟩) (.of main_call10_v4 : StableHlo.TRef sig ⟨S100000x64, .f32⟩) (.of main_call10_v5 : StableHlo.TRef sig ⟨S100000x64, .f32⟩) subf : HloOp τ sig (Elt F)).result (W55 m ρ c) (Proc.devRef .tc main_call10_v5) := by
  have h := ssa_main_call10_v5 (F := F) (W41 m ρ c)
  rw [binary_result] at h ⊢
  rw [lift42 m ρ c main_call10_v5 (by decide), lift42 m ρ c main_v232 (by decide), lift42 m ρ c main_call10_v4 (by decide)]
  exact h

theorem ssa_main_call10_v6 (V : Valuation τ sig (Elt F)) :
    after hostOps10_1 V (Proc.devRef .tc main_call10_v6) = (StableHlo.TRef.binary (.of main_call10_v5 : StableHlo.TRef sig ⟨S100000x64, .f32⟩) (.of main_call10_v5 : StableHlo.TRef sig ⟨S100000x64, .f32⟩) (.of main_call10_v6 : StableHlo.TRef sig ⟨S100000x64, .f32⟩) mulf : HloOp τ sig (Elt F)).result (after hostOps10_1 V) (Proc.devRef .tc main_call10_v6) := by
  after_results_simp
theorem fin_main_call10_v6 (c : Dev nD) :
    W55 m ρ c (Proc.devRef .tc main_call10_v6) = (StableHlo.TRef.binary (.of main_call10_v5 : StableHlo.TRef sig ⟨S100000x64, .f32⟩) (.of main_call10_v5 : StableHlo.TRef sig ⟨S100000x64, .f32⟩) (.of main_call10_v6 : StableHlo.TRef sig ⟨S100000x64, .f32⟩) mulf : HloOp τ sig (Elt F)).result (W55 m ρ c) (Proc.devRef .tc main_call10_v6) := by
  have h := ssa_main_call10_v6 (F := F) (W41 m ρ c)
  rw [binary_result] at h ⊢
  rw [lift42 m ρ c main_call10_v6 (by decide), lift42 m ρ c main_call10_v5 (by decide)]
  exact h

theorem ssa_main_call10_v7 (V : Valuation τ sig (Elt F)) :
    after hostOps10_1 V (Proc.devRef .tc main_call10_v7) = (StableHlo.TRef.unary (.of main_c_42 : StableHlo.TRef sig ⟨S_, .i32⟩) (.of main_call10_v7 : StableHlo.TRef sig ⟨S_, .f32⟩) (sitofp .f32) : HloOp τ sig (Elt F)).result (after hostOps10_1 V) (Proc.devRef .tc main_call10_v7) := by
  after_results_simp
theorem fin_main_call10_v7 (c : Dev nD) :
    W55 m ρ c (Proc.devRef .tc main_call10_v7) = (StableHlo.TRef.unary (.of main_c_42 : StableHlo.TRef sig ⟨S_, .i32⟩) (.of main_call10_v7 : StableHlo.TRef sig ⟨S_, .f32⟩) (sitofp .f32) : HloOp τ sig (Elt F)).result (W55 m ρ c) (Proc.devRef .tc main_call10_v7) := by
  have h := ssa_main_call10_v7 (F := F) (W41 m ρ c)
  rw [unary_result] at h ⊢
  rw [lift42 m ρ c main_call10_v7 (by decide), lift42 m ρ c main_c_42 (by decide)]
  exact h

theorem ssa_main_call10_cst_1 (V : Valuation τ sig (Elt F)) :
    after hostOps10_1 V (Proc.devRef .tc main_call10_cst_1) = (StableHlo.TRef.nullary (.of main_call10_cst_1 : StableHlo.TRef sig ⟨S_, .f32⟩) (constant S_ .f32 0x47C35000#32) : HloOp τ sig (Elt F)).result (after hostOps10_1 V) (Proc.devRef .tc main_call10_cst_1) := by
  after_results_simp
theorem fin_main_call10_cst_1 (c : Dev nD) :
    W55 m ρ c (Proc.devRef .tc main_call10_cst_1) = (StableHlo.TRef.nullary (.of main_call10_cst_1 : StableHlo.TRef sig ⟨S_, .f32⟩) (constant S_ .f32 0x47C35000#32) : HloOp τ sig (Elt F)).result (W55 m ρ c) (Proc.devRef .tc main_call10_cst_1) := by
  have h := ssa_main_call10_cst_1 (F := F) (W41 m ρ c)
  rw [nullary_result] at h ⊢
  rw [lift42 m ρ c main_call10_cst_1 (by decide)]
  exact h

theorem ssa_main_call10_v8 (V : Valuation τ sig (Elt F)) :
    after hostOps10_1 V (Proc.devRef .tc main_call10_v8) = (StableHlo.TRef.binary (.of main_call10_cst_1 : StableHlo.TRef sig ⟨S_, .f32⟩) (.of main_call10_v7 : StableHlo.TRef sig ⟨S_, .f32⟩) (.of main_call10_v8 : StableHlo.TRef sig ⟨S_, .f32⟩) subf : HloOp τ sig (Elt F)).result (after hostOps10_1 V) (Proc.devRef .tc main_call10_v8) := by
  after_results_simp
theorem fin_main_call10_v8 (c : Dev nD) :
    W55 m ρ c (Proc.devRef .tc main_call10_v8) = (StableHlo.TRef.binary (.of main_call10_cst_1 : StableHlo.TRef sig ⟨S_, .f32⟩) (.of main_call10_v7 : StableHlo.TRef sig ⟨S_, .f32⟩) (.of main_call10_v8 : StableHlo.TRef sig ⟨S_, .f32⟩) subf : HloOp τ sig (Elt F)).result (W55 m ρ c) (Proc.devRef .tc main_call10_v8) := by
  have h := ssa_main_call10_v8 (F := F) (W41 m ρ c)
  rw [binary_result] at h ⊢
  rw [lift42 m ρ c main_call10_v8 (by decide), lift42 m ρ c main_call10_cst_1 (by decide), lift42 m ρ c main_call10_v7 (by decide)]
  exact h

theorem ssa_main_call10_cst_2 (V : Valuation τ sig (Elt F)) :
    after hostOps10_1 V (Proc.devRef .tc main_call10_cst_2) = (StableHlo.TRef.nullary (.of main_call10_cst_2 : StableHlo.TRef sig ⟨S_, .f32⟩) (constant S_ .f32 0x00000000#32) : HloOp τ sig (Elt F)).result (after hostOps10_1 V) (Proc.devRef .tc main_call10_cst_2) := by
  after_results_simp
theorem fin_main_call10_cst_2 (c : Dev nD) :
    W55 m ρ c (Proc.devRef .tc main_call10_cst_2) = (StableHlo.TRef.nullary (.of main_call10_cst_2 : StableHlo.TRef sig ⟨S_, .f32⟩) (constant S_ .f32 0x00000000#32) : HloOp τ sig (Elt F)).result (W55 m ρ c) (Proc.devRef .tc main_call10_cst_2) := by
  have h := ssa_main_call10_cst_2 (F := F) (W41 m ρ c)
  rw [nullary_result] at h ⊢
  rw [lift42 m ρ c main_call10_cst_2 (by decide)]
  exact h

theorem ssa_main_call10_v9 (V : Valuation τ sig (Elt F)) :
    after hostOps10_1 V (Proc.devRef .tc main_call10_v9) = (StableHlo.TRef.binary (.of main_call10_v6 : StableHlo.TRef sig ⟨S100000x64, .f32⟩) (.of main_call10_cst_2 : StableHlo.TRef sig ⟨S_, .f32⟩) (.of main_call10_v9 : StableHlo.TRef sig ⟨S64, .f32⟩) (fun x v => Host.reduceAdd x v reducesTo_S100000x64_S64_d0 h_S_) : HloOp τ sig (Elt F)).result (after hostOps10_1 V) (Proc.devRef .tc main_call10_v9) := by
  after_results_simp
theorem fin_main_call10_v9 (c : Dev nD) :
    W55 m ρ c (Proc.devRef .tc main_call10_v9) = (StableHlo.TRef.binary (.of main_call10_v6 : StableHlo.TRef sig ⟨S100000x64, .f32⟩) (.of main_call10_cst_2 : StableHlo.TRef sig ⟨S_, .f32⟩) (.of main_call10_v9 : StableHlo.TRef sig ⟨S64, .f32⟩) (fun x v => Host.reduceAdd x v reducesTo_S100000x64_S64_d0 h_S_) : HloOp τ sig (Elt F)).result (W55 m ρ c) (Proc.devRef .tc main_call10_v9) := by
  have h := ssa_main_call10_v9 (F := F) (W41 m ρ c)
  rw [binary_result] at h ⊢
  rw [lift42 m ρ c main_call10_v9 (by decide), lift42 m ρ c main_call10_v6 (by decide), lift42 m ρ c main_call10_cst_2 (by decide)]
  exact h

theorem ssa_main_call10_v10 (V : Valuation τ sig (Elt F)) :
    after hostOps10_1 V (Proc.devRef .tc main_call10_v10) = (StableHlo.TRef.unary (.of main_call10_v8 : StableHlo.TRef sig ⟨S_, .f32⟩) (.of main_call10_v10 : StableHlo.TRef sig ⟨S64, .f32⟩) (broadcastInDim S64 ![] bcast_S_S64) : HloOp τ sig (Elt F)).result (after hostOps10_1 V) (Proc.devRef .tc main_call10_v10) := by
  after_results_simp
theorem fin_main_call10_v10 (c : Dev nD) :
    W55 m ρ c (Proc.devRef .tc main_call10_v10) = (StableHlo.TRef.unary (.of main_call10_v8 : StableHlo.TRef sig ⟨S_, .f32⟩) (.of main_call10_v10 : StableHlo.TRef sig ⟨S64, .f32⟩) (broadcastInDim S64 ![] bcast_S_S64) : HloOp τ sig (Elt F)).result (W55 m ρ c) (Proc.devRef .tc main_call10_v10) := by
  have h := ssa_main_call10_v10 (F := F) (W41 m ρ c)
  rw [unary_result] at h ⊢
  rw [lift42 m ρ c main_call10_v10 (by decide), lift42 m ρ c main_call10_v8 (by decide)]
  exact h

theorem ssa_main_call10_v11 (V : Valuation τ sig (Elt F)) :
    after hostOps10_1 V (Proc.devRef .tc main_call10_v11) = (StableHlo.TRef.binary (.of main_call10_v9 : StableHlo.TRef sig ⟨S64, .f32⟩) (.of main_call10_v10 : StableHlo.TRef sig ⟨S64, .f32⟩) (.of main_call10_v11 : StableHlo.TRef sig ⟨S64, .f32⟩) Host.divf : HloOp τ sig (Elt F)).result (after hostOps10_1 V) (Proc.devRef .tc main_call10_v11) := by
  after_results_simp
theorem fin_main_call10_v11 (c : Dev nD) :
    W55 m ρ c (Proc.devRef .tc main_call10_v11) = (StableHlo.TRef.binary (.of main_call10_v9 : StableHlo.TRef sig ⟨S64, .f32⟩) (.of main_call10_v10 : StableHlo.TRef sig ⟨S64, .f32⟩) (.of main_call10_v11 : StableHlo.TRef sig ⟨S64, .f32⟩) Host.divf : HloOp τ sig (Elt F)).result (W55 m ρ c) (Proc.devRef .tc main_call10_v11) := by
  have h := ssa_main_call10_v11 (F := F) (W41 m ρ c)
  rw [binary_result] at h ⊢
  rw [lift42 m ρ c main_call10_v11 (by decide), lift42 m ρ c main_call10_v9 (by decide), lift42 m ρ c main_call10_v10 (by decide)]
  exact h

theorem ssa_main_call10_cst_3 (V : Valuation τ sig (Elt F)) :
    after hostOps10_1 V (Proc.devRef .tc main_call10_cst_3) = (StableHlo.TRef.nullary (.of main_call10_cst_3 : StableHlo.TRef sig ⟨S_, .f32⟩) (constant S_ .f32 0x00000000#32) : HloOp τ sig (Elt F)).result (after hostOps10_1 V) (Proc.devRef .tc main_call10_cst_3) := by
  after_results_simp
theorem fin_main_call10_cst_3 (c : Dev nD) :
    W55 m ρ c (Proc.devRef .tc main_call10_cst_3) = (StableHlo.TRef.nullary (.of main_call10_cst_3 : StableHlo.TRef sig ⟨S_, .f32⟩) (constant S_ .f32 0x00000000#32) : HloOp τ sig (Elt F)).result (W55 m ρ c) (Proc.devRef .tc main_call10_cst_3) := by
  have h := ssa_main_call10_cst_3 (F := F) (W41 m ρ c)
  rw [nullary_result] at h ⊢
  rw [lift42 m ρ c main_call10_cst_3 (by decide)]
  exact h

theorem ssa_main_call10_v12 (V : Valuation τ sig (Elt F)) :
    after hostOps10_1 V (Proc.devRef .tc main_call10_v12) = (StableHlo.TRef.binary (.of main_call10_v8 : StableHlo.TRef sig ⟨S_, .f32⟩) (.of main_call10_cst_3 : StableHlo.TRef sig ⟨S_, .f32⟩) (.of main_call10_v12 : StableHlo.TRef sig ⟨S_, .i1⟩) (cmpf .ogt) : HloOp τ sig (Elt F)).result (after hostOps10_1 V) (Proc.devRef .tc main_call10_v12) := by
  after_results_simp
theorem fin_main_call10_v12 (c : Dev nD) :
    W55 m ρ c (Proc.devRef .tc main_call10_v12) = (StableHlo.TRef.binary (.of main_call10_v8 : StableHlo.TRef sig ⟨S_, .f32⟩) (.of main_call10_cst_3 : StableHlo.TRef sig ⟨S_, .f32⟩) (.of main_call10_v12 : StableHlo.TRef sig ⟨S_, .i1⟩) (cmpf .ogt) : HloOp τ sig (Elt F)).result (W55 m ρ c) (Proc.devRef .tc main_call10_v12) := by
  have h := ssa_main_call10_v12 (F := F) (W41 m ρ c)
  rw [binary_result] at h ⊢
  rw [lift42 m ρ c main_call10_v12 (by decide), lift42 m ρ c main_call10_v8 (by decide), lift42 m ρ c main_call10_cst_3 (by decide)]
  exact h

theorem ssa_main_call10_cst_4 (V : Valuation τ sig (Elt F)) :
    after hostOps10_1 V (Proc.devRef .tc main_call10_cst_4) = (StableHlo.TRef.nullary (.of main_call10_cst_4 : StableHlo.TRef sig ⟨S_, .f32⟩) (constant S_ .f32 0x7FC00000#32) : HloOp τ sig (Elt F)).result (after hostOps10_1 V) (Proc.devRef .tc main_call10_cst_4) := by
  after_results_simp
theorem fin_main_call10_cst_4 (c : Dev nD) :
    W55 m ρ c (Proc.devRef .tc main_call10_cst_4) = (StableHlo.TRef.nullary (.of main_call10_cst_4 : StableHlo.TRef sig ⟨S_, .f32⟩) (constant S_ .f32 0x7FC00000#32) : HloOp τ sig (Elt F)).result (W55 m ρ c) (Proc.devRef .tc main_call10_cst_4) := by
  have h := ssa_main_call10_cst_4 (F := F) (W41 m ρ c)
  rw [nullary_result] at h ⊢
  rw [lift42 m ρ c main_call10_cst_4 (by decide)]
  exact h

theorem ssa_main_call10_call0_v0 (V : Valuation τ sig (Elt F)) :
    after hostOps10_1 V (Proc.devRef .tc main_call10_call0_v0) = (StableHlo.TRef.unary (.of main_call10_cst_4 : StableHlo.TRef sig ⟨S_, .f32⟩) (.of main_call10_call0_v0 : StableHlo.TRef sig ⟨S_, .f32⟩) id : HloOp τ sig (Elt F)).result (after hostOps10_1 V) (Proc.devRef .tc main_call10_call0_v0) := by
  after_results_simp
theorem fin_main_call10_call0_v0 (c : Dev nD) :
    W55 m ρ c (Proc.devRef .tc main_call10_call0_v0) = (StableHlo.TRef.unary (.of main_call10_cst_4 : StableHlo.TRef sig ⟨S_, .f32⟩) (.of main_call10_call0_v0 : StableHlo.TRef sig ⟨S_, .f32⟩) id : HloOp τ sig (Elt F)).result (W55 m ρ c) (Proc.devRef .tc main_call10_call0_v0) := by
  have h := ssa_main_call10_call0_v0 (F := F) (W41 m ρ c)
  rw [unary_result] at h ⊢
  rw [lift42 m ρ c main_call10_call0_v0 (by decide), lift42 m ρ c main_call10_cst_4 (by decide)]
  exact h

theorem ssa_main_call10_call0_v1 (V : Valuation τ sig (Elt F)) :
    after hostOps10_1 V (Proc.devRef .tc main_call10_call0_v1) = (StableHlo.TRef.unary (.of main_call10_call0_v0 : StableHlo.TRef sig ⟨S_, .f32⟩) (.of main_call10_call0_v1 : StableHlo.TRef sig ⟨S64, .f32⟩) (broadcastInDim S64 ![] bcast_S_S64) : HloOp τ sig (Elt F)).result (after hostOps10_1 V) (Proc.devRef .tc main_call10_call0_v1) := by
  after_results_simp
theorem fin_main_call10_call0_v1 (c : Dev nD) :
    W55 m ρ c (Proc.devRef .tc main_call10_call0_v1) = (StableHlo.TRef.unary (.of main_call10_call0_v0 : StableHlo.TRef sig ⟨S_, .f32⟩) (.of main_call10_call0_v1 : StableHlo.TRef sig ⟨S64, .f32⟩) (broadcastInDim S64 ![] bcast_S_S64) : HloOp τ sig (Elt F)).result (W55 m ρ c) (Proc.devRef .tc main_call10_call0_v1) := by
  have h := ssa_main_call10_call0_v1 (F := F) (W41 m ρ c)
  rw [unary_result] at h ⊢
  rw [lift42 m ρ c main_call10_call0_v1 (by decide), lift42 m ρ c main_call10_call0_v0 (by decide)]
  exact h

theorem ssa_main_v236 (V : Valuation τ sig (Elt F)) :
    after hostOps10_1 V (Proc.devRef .tc main_v236) = (StableHlo.TRef.ternary (.of main_call10_v12 : StableHlo.TRef sig ⟨S_, .i1⟩) (.of main_call10_v11 : StableHlo.TRef sig ⟨S64, .f32⟩) (.of main_call10_call0_v1 : StableHlo.TRef sig ⟨S64, .f32⟩) (.of main_v236 : StableHlo.TRef sig ⟨S64, .f32⟩) (fun p a b => select (broadcastInDim S64 ![] bcast_S_S64 p) a b) : HloOp τ sig (Elt F)).result (after hostOps10_1 V) (Proc.devRef .tc main_v236) := by
  after_results_simp
theorem fin_main_v236 (c : Dev nD) :
    W55 m ρ c (Proc.devRef .tc main_v236) = (StableHlo.TRef.ternary (.of main_call10_v12 : StableHlo.TRef sig ⟨S_, .i1⟩) (.of main_call10_v11 : StableHlo.TRef sig ⟨S64, .f32⟩) (.of main_call10_call0_v1 : StableHlo.TRef sig ⟨S64, .f32⟩) (.of main_v236 : StableHlo.TRef sig ⟨S64, .f32⟩) (fun p a b => select (broadcastInDim S64 ![] bcast_S_S64 p) a b) : HloOp τ sig (Elt F)).result (W55 m ρ c) (Proc.devRef .tc main_v236) := by
  have h := ssa_main_v236 (F := F) (W41 m ρ c)
  rw [ternary_result] at h ⊢
  rw [lift42 m ρ c main_v236 (by decide), lift42 m ρ c main_call10_v12 (by decide), lift42 m ρ c main_call10_v11 (by decide), lift42 m ρ c main_call10_call0_v1 (by decide)]
  exact h

end Cert.KernelIdeal.Tab

end
-- ==== Proof.TabKSsa5.lean ====
/- Host stretches hostOps10_2, hostOps10_3, hostOps10_4, hostOps11, hostOps12, hostOps12_1, hostOps12_2, hostOps12_3, hostOps12_4, hostOps13 of the kernel program read one operation at a time: each buffer a stretch writes holds its operation's
   function of the operands, within the stretch from any contents and, at the last boundary of the run, over the last boundary's contents. -/
import proofs.«409037_j72164040508123_1_alg».proof.Proof.TabK

set_option maxRecDepth 16384

noncomputable section

namespace Cert.KernelIdeal.Tab

open Cert.KernelIdeal Cert.KernelIdeal.Gen Cert.KernelIdeal.GenP Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

theorem ssa_main_cst_43 (V : Valuation τ sig (Elt F)) :
    after hostOps10_2 V (Proc.devRef .tc main_cst_43) = (StableHlo.nullary main_cst_43 (constant S_ .f32 0x3727C5AC#32) : HloOp τ sig (Elt F)).result (after hostOps10_2 V) (Proc.devRef .tc main_cst_43) := by
  after_results_simp
theorem fin_main_cst_43 (c : Dev nD) :
    W55 m ρ c (Proc.devRef .tc main_cst_43) = (StableHlo.nullary main_cst_43 (constant S_ .f32 0x3727C5AC#32) : HloOp τ sig (Elt F)).result (W55 m ρ c) (Proc.devRef .tc main_cst_43) := by
  have h := ssa_main_cst_43 (F := F) (W42 m ρ c)
  rw [nullary_result] at h ⊢
  rw [lift43 m ρ c main_cst_43 (by decide)]
  exact h

theorem ssa_main_v237 (V : Valuation τ sig (Elt F)) :
    after hostOps10_2 V (Proc.devRef .tc main_v237) = (StableHlo.unary main_cst_43 main_v237 (broadcastInDim S64 ![] bcast_S_S64 : (⟨S_, .f32⟩ : BufTy).Contents (Elt F) → (⟨S64, .f32⟩ : BufTy).Contents (Elt F)) : HloOp τ sig (Elt F)).result (after hostOps10_2 V) (Proc.devRef .tc main_v237) := by
  after_results_simp
theorem fin_main_v237 (c : Dev nD) :
    W55 m ρ c (Proc.devRef .tc main_v237) = (StableHlo.unary main_cst_43 main_v237 (broadcastInDim S64 ![] bcast_S_S64 : (⟨S_, .f32⟩ : BufTy).Contents (Elt F) → (⟨S64, .f32⟩ : BufTy).Contents (Elt F)) : HloOp τ sig (Elt F)).result (W55 m ρ c) (Proc.devRef .tc main_v237) := by
  have h := ssa_main_v237 (F := F) (W42 m ρ c)
  rw [unary_result] at h ⊢
  rw [lift43 m ρ c main_v237 (by decide), lift43 m ρ c main_cst_43 (by decide)]
  exact h

theorem ssa_main_v238 (V : Valuation τ sig (Elt F)) :
    after hostOps10_2 V (Proc.devRef .tc main_v238) = (StableHlo.binary main_v236 main_v237 main_v238 (addf : (⟨S64, .f32⟩ : BufTy).Contents (Elt F) → (⟨S64, .f32⟩ : BufTy).Contents (Elt F) → (⟨S64, .f32⟩ : BufTy).Contents (Elt F)) : HloOp τ sig (Elt F)).result (after hostOps10_2 V) (Proc.devRef .tc main_v238) := by
  after_results_simp
theorem fin_main_v238 (c : Dev nD) :
    W55 m ρ c (Proc.devRef .tc main_v238) = (StableHlo.binary main_v236 main_v237 main_v238 (addf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v238) := by
  have h := ssa_main_v238 (F := F) (W42 m ρ c)
  rw [binary_result] at h ⊢
  rw [lift43 m ρ c main_v238 (by decide), lift43 m ρ c main_v236 (by decide), lift43 m ρ c main_v237 (by decide)]
  exact h

theorem ssa_main_v239 (V : Valuation τ sig (Elt F)) :
    after hostOps10_2 V (Proc.devRef .tc main_v239) = (StableHlo.unary main_v238 main_v239 (Host.rsqrt : (⟨S64, .f32⟩ : BufTy).Contents (Elt F) → (⟨S64, .f32⟩ : BufTy).Contents (Elt F)) : HloOp τ sig (Elt F)).result (after hostOps10_2 V) (Proc.devRef .tc main_v239) := by
  after_results_simp
theorem fin_main_v239 (c : Dev nD) :
    W55 m ρ c (Proc.devRef .tc main_v239) = (StableHlo.unary main_v238 main_v239 (Host.rsqrt : (⟨S64, .f32⟩ : BufTy).Contents (Elt F) → (⟨S64, .f32⟩ : BufTy).Contents (Elt F)) : HloOp τ sig (Elt F)).result (W55 m ρ c) (Proc.devRef .tc main_v239) := by
  have h := ssa_main_v239 (F := F) (W42 m ρ c)
  rw [unary_result] at h ⊢
  rw [lift43 m ρ c main_v239 (by decide), lift43 m ρ c main_v238 (by decide)]
  exact h

theorem ssa_main_v240 (V : Valuation τ sig (Elt F)) :
    after hostOps10_2 V (Proc.devRef .tc main_v240) = (StableHlo.binary main_arg17 main_v239 main_v240 (mulf : (⟨S64, .f32⟩ : BufTy).Contents (Elt F) → (⟨S64, .f32⟩ : BufTy).Contents (Elt F) → (⟨S64, .f32⟩ : BufTy).Contents (Elt F)) : HloOp τ sig (Elt F)).result (after hostOps10_2 V) (Proc.devRef .tc main_v240) := by
  after_results_simp
theorem fin_main_v240 (c : Dev nD) :
    W55 m ρ c (Proc.devRef .tc main_v240) = (StableHlo.binary main_arg17 main_v239 main_v240 (mulf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v240) := by
  have h := ssa_main_v240 (F := F) (W42 m ρ c)
  rw [binary_result] at h ⊢
  rw [lift43 m ρ c main_v240 (by decide), lift43 m ρ c main_arg17 (by decide), lift43 m ρ c main_v239 (by decide)]
  exact h

theorem ssa_main_v241 (V : Valuation τ sig (Elt F)) :
    after hostOps10_2 V (Proc.devRef .tc main_v241) = (StableHlo.binary main_v235 main_v240 main_v241 (mulf : (⟨S64, .f32⟩ : BufTy).Contents (Elt F) → (⟨S64, .f32⟩ : BufTy).Contents (Elt F) → (⟨S64, .f32⟩ : BufTy).Contents (Elt F)) : HloOp τ sig (Elt F)).result (after hostOps10_2 V) (Proc.devRef .tc main_v241) := by
  after_results_simp
theorem fin_main_v241 (c : Dev nD) :
    W55 m ρ c (Proc.devRef .tc main_v241) = (StableHlo.binary main_v235 main_v240 main_v241 (mulf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v241) := by
  have h := ssa_main_v241 (F := F) (W42 m ρ c)
  rw [binary_result] at h ⊢
  rw [lift43 m ρ c main_v241 (by decide), lift43 m ρ c main_v235 (by decide), lift43 m ρ c main_v240 (by decide)]
  exact h

theorem ssa_main_v242 (V : Valuation τ sig (Elt F)) :
    after hostOps10_2 V (Proc.devRef .tc main_v242) = (StableHlo.binary main_arg18 main_v241 main_v242 (subf : (⟨S64, .f32⟩ : BufTy).Contents (Elt F) → (⟨S64, .f32⟩ : BufTy).Contents (Elt F) → (⟨S64, .f32⟩ : BufTy).Contents (Elt F)) : HloOp τ sig (Elt F)).result (after hostOps10_2 V) (Proc.devRef .tc main_v242) := by
  after_results_simp
theorem fin_main_v242 (c : Dev nD) :
    W55 m ρ c (Proc.devRef .tc main_v242) = (StableHlo.binary main_arg18 main_v241 main_v242 (subf : (⟨S64, .f32⟩ : BufTy).Contents (Elt F) → (⟨S64, .f32⟩ : BufTy).Contents (Elt F) → (⟨S64, .f32⟩ : BufTy).Contents (Elt F)) : HloOp τ sig (Elt F)).result (W55 m ρ c) (Proc.devRef .tc main_v242) := by
  have h := ssa_main_v242 (F := F) (W42 m ρ c)
  rw [binary_result] at h ⊢
  rw [lift43 m ρ c main_v242 (by decide), lift43 m ρ c main_arg18 (by decide), lift43 m ρ c main_v241 (by decide)]
  exact h

theorem ssa_main_v243 (V : Valuation τ sig (Elt F)) :
    after hostOps10_2 V (Proc.devRef .tc main_v243) = (StableHlo.unary main_v240 main_v243 (broadcastInDim S1x64 ![1] bcast_S64_S1x64_1 : (⟨S64, .f32⟩ : BufTy).Contents (Elt F) → (⟨S1x64, .f32⟩ : BufTy).Contents (Elt F)) : HloOp τ sig (Elt F)).result (after hostOps10_2 V) (Proc.devRef .tc main_v243) := by
  after_results_simp
theorem fin_main_v243 (c : Dev nD) :
    W55 m ρ c (Proc.devRef .tc main_v243) = (StableHlo.unary main_v240 main_v243 (broadcastInDim S1x64 ![1] bcast_S64_S1x64_1 : (⟨S64, .f32⟩ : BufTy).Contents (Elt F) → (⟨S1x64, .f32⟩ : BufTy).Contents (Elt F)) : HloOp τ sig (Elt F)).result (W55 m ρ c) (Proc.devRef .tc main_v243) := by
  have h := ssa_main_v243 (F := F) (W42 m ρ c)
  rw [unary_result] at h ⊢
  rw [lift43 m ρ c main_v243 (by decide), lift43 m ρ c main_v240 (by decide)]
  exact h

theorem ssa_main_v244 (V : Valuation τ sig (Elt F)) :
    after hostOps10_2 V (Proc.devRef .tc main_v244) = (StableHlo.unary main_v243 main_v244 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after hostOps10_2 V) (Proc.devRef .tc main_v244) := by
  after_results_simp
theorem fin_main_v244 (c : Dev nD) :
    W55 m ρ c (Proc.devRef .tc main_v244) = (StableHlo.unary main_v243 main_v244 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (W55 m ρ c) (Proc.devRef .tc main_v244) := by
  have h := ssa_main_v244 (F := F) (W42 m ρ c)
  rw [unary_result] at h ⊢
  rw [lift43 m ρ c main_v244 (by decide), lift43 m ρ c main_v243 (by decide)]
  exact h

theorem ssa_main_v245 (V : Valuation τ sig (Elt F)) :
    after hostOps10_2 V (Proc.devRef .tc main_v245) = (StableHlo.binary main_v244 main_v232 main_v245 (mulf : (⟨S100000x64, .f32⟩ : BufTy).Contents (Elt F) → (⟨S100000x64, .f32⟩ : BufTy).Contents (Elt F) → (⟨S100000x64, .f32⟩ : BufTy).Contents (Elt F)) : HloOp τ sig (Elt F)).result (after hostOps10_2 V) (Proc.devRef .tc main_v245) := by
  after_results_simp
theorem fin_main_v245 (c : Dev nD) :
    W55 m ρ c (Proc.devRef .tc main_v245) = (StableHlo.binary main_v244 main_v232 main_v245 (mulf : (⟨S100000x64, .f32⟩ : BufTy).Contents (Elt F) → (⟨S100000x64, .f32⟩ : BufTy).Contents (Elt F) → (⟨S100000x64, .f32⟩ : BufTy).Contents (Elt F)) : HloOp τ sig (Elt F)).result (W55 m ρ c) (Proc.devRef .tc main_v245) := by
  have h := ssa_main_v245 (F := F) (W42 m ρ c)
  rw [binary_result] at h ⊢
  rw [lift43 m ρ c main_v245 (by decide), lift43 m ρ c main_v244 (by decide), lift43 m ρ c main_v232 (by decide)]
  exact h

theorem ssa_main_v246 (V : Valuation τ sig (Elt F)) :
    after hostOps10_2 V (Proc.devRef .tc main_v246) = (StableHlo.unary main_v242 main_v246 (broadcastInDim S1x64 ![1] bcast_S64_S1x64_1 : (⟨S64, .f32⟩ : BufTy).Contents (Elt F) → (⟨S1x64, .f32⟩ : BufTy).Contents (Elt F)) : HloOp τ sig (Elt F)).result (after hostOps10_2 V) (Proc.devRef .tc main_v246) := by
  after_results_simp
theorem fin_main_v246 (c : Dev nD) :
    W55 m ρ c (Proc.devRef .tc main_v246) = (StableHlo.unary main_v242 main_v246 (broadcastInDim S1x64 ![1] bcast_S64_S1x64_1 : (⟨S64, .f32⟩ : BufTy).Contents (Elt F) → (⟨S1x64, .f32⟩ : BufTy).Contents (Elt F)) : HloOp τ sig (Elt F)).result (W55 m ρ c) (Proc.devRef .tc main_v246) := by
  have h := ssa_main_v246 (F := F) (W42 m ρ c)
  rw [unary_result] at h ⊢
  rw [lift43 m ρ c main_v246 (by decide), lift43 m ρ c main_v242 (by decide)]
  exact h

theorem ssa_main_v247 (V : Valuation τ sig (Elt F)) :
    after hostOps10_2 V (Proc.devRef .tc main_v247) = (StableHlo.unary main_v246 main_v247 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after hostOps10_2 V) (Proc.devRef .tc main_v247) := by
  after_results_simp
theorem fin_main_v247 (c : Dev nD) :
    W55 m ρ c (Proc.devRef .tc main_v247) = (StableHlo.unary main_v246 main_v247 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (W55 m ρ c) (Proc.devRef .tc main_v247) := by
  have h := ssa_main_v247 (F := F) (W42 m ρ c)
  rw [unary_result] at h ⊢
  rw [lift43 m ρ c main_v247 (by decide), lift43 m ρ c main_v246 (by decide)]
  exact h

theorem ssa_main_v248 (V : Valuation τ sig (Elt F)) :
    after hostOps10_2 V (Proc.devRef .tc main_v248) = (StableHlo.binary main_v245 main_v247 main_v248 (addf : (⟨S100000x64, .f32⟩ : BufTy).Contents (Elt F) → (⟨S100000x64, .f32⟩ : BufTy).Contents (Elt F) → (⟨S100000x64, .f32⟩ : BufTy).Contents (Elt F)) : HloOp τ sig (Elt F)).result (after hostOps10_2 V) (Proc.devRef .tc main_v248) := by
  after_results_simp
theorem fin_main_v248 (c : Dev nD) :
    W55 m ρ c (Proc.devRef .tc main_v248) = (StableHlo.binary main_v245 main_v247 main_v248 (addf : (⟨S100000x64, .f32⟩ : BufTy).Contents (Elt F) → (⟨S100000x64, .f32⟩ : BufTy).Contents (Elt F) → (⟨S100000x64, .f32⟩ : BufTy).Contents (Elt F)) : HloOp τ sig (Elt F)).result (W55 m ρ c) (Proc.devRef .tc main_v248) := by
  have h := ssa_main_v248 (F := F) (W42 m ρ c)
  rw [binary_result] at h ⊢
  rw [lift43 m ρ c main_v248 (by decide), lift43 m ρ c main_v245 (by decide), lift43 m ρ c main_v247 (by decide)]
  exact h

theorem ssa_main_cst_44 (V : Valuation τ sig (Elt F)) :
    after hostOps10_2 V (Proc.devRef .tc main_cst_44) = (StableHlo.nullary main_cst_44 (constant S_ .f32 0x00000000#32) : HloOp τ sig (Elt F)).result (after hostOps10_2 V) (Proc.devRef .tc main_cst_44) := by
  after_results_simp
theorem fin_main_cst_44 (c : Dev nD) :
    W55 m ρ c (Proc.devRef .tc main_cst_44) = (StableHlo.nullary main_cst_44 (constant S_ .f32 0x00000000#32) : HloOp τ sig (Elt F)).result (W55 m ρ c) (Proc.devRef .tc main_cst_44) := by
  have h := ssa_main_cst_44 (F := F) (W42 m ρ c)
  rw [nullary_result] at h ⊢
  rw [lift43 m ρ c main_cst_44 (by decide)]
  exact h

theorem ssa_main_v249 (V : Valuation τ sig (Elt F)) :
    after hostOps10_2 V (Proc.devRef .tc main_v249) = (StableHlo.unary main_cst_44 main_v249 (broadcastInDim S100000x64 ![] bcast_S_S100000x64 : (⟨S_, .f32⟩ : BufTy).Contents (Elt F) → (⟨S100000x64, .f32⟩ : BufTy).Contents (Elt F)) : HloOp τ sig (Elt F)).result (after hostOps10_2 V) (Proc.devRef .tc main_v249) := by
  after_results_simp
theorem fin_main_v249 (c : Dev nD) :
    W55 m ρ c (Proc.devRef .tc main_v249) = (StableHlo.unary main_cst_44 main_v249 (broadcastInDim S100000x64 ![] bcast_S_S100000x64 : (⟨S_, .f32⟩ : BufTy).Contents (Elt F) → (⟨S100000x64, .f32⟩ : BufTy).Contents (Elt F)) : HloOp τ sig (Elt F)).result (W55 m ρ c) (Proc.devRef .tc main_v249) := by
  have h := ssa_main_v249 (F := F) (W42 m ρ c)
  rw [unary_result] at h ⊢
  rw [lift43 m ρ c main_v249 (by decide), lift43 m ρ c main_cst_44 (by decide)]
  exact h

theorem ssa_main_v250 (V : Valuation τ sig (Elt F)) :
    after hostOps10_2 V (Proc.devRef .tc main_v250) = (StableHlo.binary main_v248 main_v249 main_v250 (cmpf .oge : (⟨S100000x64, .f32⟩ : BufTy).Contents (Elt F) → (⟨S100000x64, .f32⟩ : BufTy).Contents (Elt F) → (⟨S100000x64, .i1⟩ : BufTy).Contents (Elt F)) : HloOp τ sig (Elt F)).result (after hostOps10_2 V) (Proc.devRef .tc main_v250) := by
  after_results_simp
theorem fin_main_v250 (c : Dev nD) :
    W55 m ρ c (Proc.devRef .tc main_v250) = (StableHlo.binary main_v248 main_v249 main_v250 (cmpf .oge : (⟨S100000x64, .f32⟩ : BufTy).Contents (Elt F) → (⟨S100000x64, .f32⟩ : BufTy).Contents (Elt F) → (⟨S100000x64, .i1⟩ : BufTy).Contents (Elt F)) : HloOp τ sig (Elt F)).result (W55 m ρ c) (Proc.devRef .tc main_v250) := by
  have h := ssa_main_v250 (F := F) (W42 m ρ c)
  rw [binary_result] at h ⊢
  rw [lift43 m ρ c main_v250 (by decide), lift43 m ρ c main_v248 (by decide), lift43 m ρ c main_v249 (by decide)]
  exact h

theorem ssa_main_cst_45 (V : Valuation τ sig (Elt F)) :
    after hostOps10_2 V (Proc.devRef .tc main_cst_45) = (StableHlo.nullary main_cst_45 (constant S_ .f32 0x3C23D70A#32) : HloOp τ sig (Elt F)).result (after hostOps10_2 V) (Proc.devRef .tc main_cst_45) := by
  after_results_simp
theorem fin_main_cst_45 (c : Dev nD) :
    W55 m ρ c (Proc.devRef .tc main_cst_45) = (StableHlo.nullary main_cst_45 (constant S_ .f32 0x3C23D70A#32) : HloOp τ sig (Elt F)).result (W55 m ρ c) (Proc.devRef .tc main_cst_45) := by
  have h := ssa_main_cst_45 (F := F) (W42 m ρ c)
  rw [nullary_result] at h ⊢
  rw [lift43 m ρ c main_cst_45 (by decide)]
  exact h

theorem ssa_main_v251 (V : Valuation τ sig (Elt F)) :
    after hostOps10_2 V (Proc.devRef .tc main_v251) = (StableHlo.unary main_cst_45 main_v251 (broadcastInDim S100000x64 ![] bcast_S_S100000x64 : (⟨S_, .f32⟩ : BufTy).Contents (Elt F) → (⟨S100000x64, .f32⟩ : BufTy).Contents (Elt F)) : HloOp τ sig (Elt F)).result (after hostOps10_2 V) (Proc.devRef .tc main_v251) := by
  after_results_simp
theorem fin_main_v251 (c : Dev nD) :
    W55 m ρ c (Proc.devRef .tc main_v251) = (StableHlo.unary main_cst_45 main_v251 (broadcastInDim S100000x64 ![] bcast_S_S100000x64 : (⟨S_, .f32⟩ : BufTy).Contents (Elt F) → (⟨S100000x64, .f32⟩ : BufTy).Contents (Elt F)) : HloOp τ sig (Elt F)).result (W55 m ρ c) (Proc.devRef .tc main_v251) := by
  have h := ssa_main_v251 (F := F) (W42 m ρ c)
  rw [unary_result] at h ⊢
  rw [lift43 m ρ c main_v251 (by decide), lift43 m ρ c main_cst_45 (by decide)]
  exact h

theorem ssa_main_v252 (V : Valuation τ sig (Elt F)) :
    after hostOps10_2 V (Proc.devRef .tc main_v252) = (StableHlo.binary main_v251 main_v248 main_v252 (mulf : (⟨S100000x64, .f32⟩ : BufTy).Contents (Elt F) → (⟨S100000x64, .f32⟩ : BufTy).Contents (Elt F) → (⟨S100000x64, .f32⟩ : BufTy).Contents (Elt F)) : HloOp τ sig (Elt F)).result (after hostOps10_2 V) (Proc.devRef .tc main_v252) := by
  after_results_simp
theorem fin_main_v252 (c : Dev nD) :
    W55 m ρ c (Proc.devRef .tc main_v252) = (StableHlo.binary main_v251 main_v248 main_v252 (mulf : (⟨S100000x64, .f32⟩ : BufTy).Contents (Elt F) → (⟨S100000x64, .f32⟩ : BufTy).Contents (Elt F) → (⟨S100000x64, .f32⟩ : BufTy).Contents (Elt F)) : HloOp τ sig (Elt F)).result (W55 m ρ c) (Proc.devRef .tc main_v252) := by
  have h := ssa_main_v252 (F := F) (W42 m ρ c)
  rw [binary_result] at h ⊢
  rw [lift43 m ρ c main_v252 (by decide), lift43 m ρ c main_v251 (by decide), lift43 m ρ c main_v248 (by decide)]
  exact h

theorem ssa_main_v253 (V : Valuation τ sig (Elt F)) :
    after hostOps10_3 V (Proc.devRef .tc main_v253) = (StableHlo.TRef.ternary (.of main_v250 : StableHlo.TRef sig ⟨S100000x64, .i1⟩) (.of main_v248 : StableHlo.TRef sig ⟨S100000x64, .f32⟩) (.of main_v252 : StableHlo.TRef sig ⟨S100000x64, .f32⟩) (.of main_v253 : StableHlo.TRef sig ⟨S100000x64, .f32⟩) select : HloOp τ sig (Elt F)).result (after hostOps10_3 V) (Proc.devRef .tc main_v253) := by
  after_results_simp
theorem fin_main_v253 (c : Dev nD) :
    W55 m ρ c (Proc.devRef .tc main_v253) = (StableHlo.TRef.ternary (.of main_v250 : StableHlo.TRef sig ⟨S100000x64, .i1⟩) (.of main_v248 : StableHlo.TRef sig ⟨S100000x64, .f32⟩) (.of main_v252 : StableHlo.TRef sig ⟨S100000x64, .f32⟩) (.of main_v253 : StableHlo.TRef sig ⟨S100000x64, .f32⟩) select : HloOp τ sig (Elt F)).result (W55 m ρ c) (Proc.devRef .tc main_v253) := by
  have h := ssa_main_v253 (F := F) (W43 m ρ c)
  rw [ternary_result] at h ⊢
  rw [lift44 m ρ c main_v253 (by decide), lift44 m ρ c main_v250 (by decide), lift44 m ρ c main_v248 (by decide), lift44 m ρ c main_v252 (by decide)]
  exact h

theorem ssa_main_v254 (V : Valuation τ sig (Elt F)) :
    after hostOps10_4 V (Proc.devRef .tc main_v254) = (StableHlo.reshape main_arg20 main_v254 rfl shapeCasts_S64_S1x64 : HloOp τ sig (Elt F)).result (after hostOps10_4 V) (Proc.devRef .tc main_v254) := by
  after_results_simp
theorem fin_main_v254 (c : Dev nD) :
    W55 m ρ c (Proc.devRef .tc main_v254) = (StableHlo.reshape main_arg20 main_v254 rfl shapeCasts_S64_S1x64 : HloOp τ sig (Elt F)).result (W55 m ρ c) (Proc.devRef .tc main_v254) := by
  have h := ssa_main_v254 (F := F) (W44 m ρ c)
  rw [reshape_result] at h ⊢
  rw [lift45 m ρ c main_v254 (by decide), lift45 m ρ c main_arg20 (by decide)]
  exact h

theorem ssa_main_v256 (V : Valuation τ sig (Elt F)) :
    after hostOps11 V (Proc.devRef .tc main_v256) = (StableHlo.binary main_v230 main_v255 main_v256 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)) : HloOp τ sig (Elt F)).result (after hostOps11 V) (Proc.devRef .tc main_v256) := by
  after_results
  all_goals rfl
theorem fin_main_v256 (c : Dev nD) :
    W55 m ρ c (Proc.devRef .tc main_v256) = (StableHlo.binary main_v230 main_v255 main_v256 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)) : HloOp τ sig (Elt F)).result (W55 m ρ c) (Proc.devRef .tc main_v256) := by
  have h := ssa_main_v256 (F := F) (W46 m ρ c)
  rw [binary_result] at h ⊢
  rw [lift47 m ρ c main_v256 (by decide), lift47 m ρ c main_v230 (by decide), lift47 m ρ c main_v255 (by decide)]
  exact h

theorem ssa_main_v257 (V : Valuation τ sig (Elt F)) :
    after hostOps11 V (Proc.devRef .tc main_v257) = (StableHlo.reshape main_arg22 main_v257 rfl shapeCasts_S128_S1x128 : HloOp τ sig (Elt F)).result (after hostOps11 V) (Proc.devRef .tc main_v257) := by
  after_results_simp
theorem fin_main_v257 (c : Dev nD) :
    W55 m ρ c (Proc.devRef .tc main_v257) = (StableHlo.reshape main_arg22 main_v257 rfl shapeCasts_S128_S1x128 : HloOp τ sig (Elt F)).result (W55 m ρ c) (Proc.devRef .tc main_v257) := by
  have h := ssa_main_v257 (F := F) (W46 m ρ c)
  rw [reshape_result] at h ⊢
  rw [lift47 m ρ c main_v257 (by decide), lift47 m ρ c main_arg22 (by decide)]
  exact h

theorem ssa_main_cst_46 (V : Valuation τ sig (Elt F)) :
    after hostOps12 V (Proc.devRef .tc main_cst_46) = (StableHlo.nullary main_cst_46 (constant S_ .f32 0x00000000#32) : HloOp τ sig (Elt F)).result (after hostOps12 V) (Proc.devRef .tc main_cst_46) := by
  after_results_simp
theorem fin_main_cst_46 (c : Dev nD) :
    W55 m ρ c (Proc.devRef .tc main_cst_46) = (StableHlo.nullary main_cst_46 (constant S_ .f32 0x00000000#32) : HloOp τ sig (Elt F)).result (W55 m ρ c) (Proc.devRef .tc main_cst_46) := by
  have h := ssa_main_cst_46 (F := F) (W48 m ρ c)
  rw [nullary_result] at h ⊢
  rw [lift49 m ρ c main_cst_46 (by decide)]
  exact h

theorem ssa_main_v259 (V : Valuation τ sig (Elt F)) :
    after hostOps12 V (Proc.devRef .tc main_v259) = (StableHlo.binary main_v258 main_cst_46 main_v259 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) : HloOp τ sig (Elt F)).result (after hostOps12 V) (Proc.devRef .tc main_v259) := by
  after_results_simp
theorem fin_main_v259 (c : Dev nD) :
    W55 m ρ c (Proc.devRef .tc main_v259) = (StableHlo.binary main_v258 main_cst_46 main_v259 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) : HloOp τ sig (Elt F)).result (W55 m ρ c) (Proc.devRef .tc main_v259) := by
  have h := ssa_main_v259 (F := F) (W48 m ρ c)
  rw [binary_result] at h ⊢
  rw [lift49 m ρ c main_v259 (by decide), lift49 m ρ c main_v258 (by decide), lift49 m ρ c main_cst_46 (by decide)]
  exact h

theorem ssa_main_cst_47 (V : Valuation τ sig (Elt F)) :
    after hostOps12 V (Proc.devRef .tc main_cst_47) = (StableHlo.nullary main_cst_47 (constant S_ .f32 0x47C35000#32) : HloOp τ sig (Elt F)).result (after hostOps12 V) (Proc.devRef .tc main_cst_47) := by
  after_results_simp
theorem fin_main_cst_47 (c : Dev nD) :
    W55 m ρ c (Proc.devRef .tc main_cst_47) = (StableHlo.nullary main_cst_47 (constant S_ .f32 0x47C35000#32) : HloOp τ sig (Elt F)).result (W55 m ρ c) (Proc.devRef .tc main_cst_47) := by
  have h := ssa_main_cst_47 (F := F) (W48 m ρ c)
  rw [nullary_result] at h ⊢
  rw [lift49 m ρ c main_cst_47 (by decide)]
  exact h

theorem ssa_main_v260 (V : Valuation τ sig (Elt F)) :
    after hostOps12 V (Proc.devRef .tc main_v260) = (StableHlo.unary main_cst_47 main_v260 (broadcastInDim S128 ![] bcast_S_S128 : (⟨S_, .f32⟩ : BufTy).Contents (Elt F) → (⟨S128, .f32⟩ : BufTy).Contents (Elt F)) : HloOp τ sig (Elt F)).result (after hostOps12 V) (Proc.devRef .tc main_v260) := by
  after_results_simp
theorem fin_main_v260 (c : Dev nD) :
    W55 m ρ c (Proc.devRef .tc main_v260) = (StableHlo.unary main_cst_47 main_v260 (broadcastInDim S128 ![] bcast_S_S128 : (⟨S_, .f32⟩ : BufTy).Contents (Elt F) → (⟨S128, .f32⟩ : BufTy).Contents (Elt F)) : HloOp τ sig (Elt F)).result (W55 m ρ c) (Proc.devRef .tc main_v260) := by
  have h := ssa_main_v260 (F := F) (W48 m ρ c)
  rw [unary_result] at h ⊢
  rw [lift49 m ρ c main_v260 (by decide), lift49 m ρ c main_cst_47 (by decide)]
  exact h

theorem ssa_main_v261 (V : Valuation τ sig (Elt F)) :
    after hostOps12 V (Proc.devRef .tc main_v261) = (StableHlo.binary main_v259 main_v260 main_v261 (Host.divf : (⟨S128, .f32⟩ : BufTy).Contents (Elt F) → (⟨S128, .f32⟩ : BufTy).Contents (Elt F) → (⟨S128, .f32⟩ : BufTy).Contents (Elt F)) : HloOp τ sig (Elt F)).result (after hostOps12 V) (Proc.devRef .tc main_v261) := by
  after_results_simp
theorem fin_main_v261 (c : Dev nD) :
    W55 m ρ c (Proc.devRef .tc main_v261) = (StableHlo.binary main_v259 main_v260 main_v261 (Host.divf : (⟨S128, .f32⟩ : BufTy).Contents (Elt F) → (⟨S128, .f32⟩ : BufTy).Contents (Elt F) → (⟨S128, .f32⟩ : BufTy).Contents (Elt F)) : HloOp τ sig (Elt F)).result (W55 m ρ c) (Proc.devRef .tc main_v261) := by
  have h := ssa_main_v261 (F := F) (W48 m ρ c)
  rw [binary_result] at h ⊢
  rw [lift49 m ρ c main_v261 (by decide), lift49 m ρ c main_v259 (by decide), lift49 m ρ c main_v260 (by decide)]
  exact h

theorem ssa_main_c_48 (V : Valuation τ sig (Elt F)) :
    after hostOps12 V (Proc.devRef .tc main_c_48) = (StableHlo.nullary main_c_48 (constantI S_ 32 0#32) : HloOp τ sig (Elt F)).result (after hostOps12 V) (Proc.devRef .tc main_c_48) := by
  after_results_simp
theorem fin_main_c_48 (c : Dev nD) :
    W55 m ρ c (Proc.devRef .tc main_c_48) = (StableHlo.nullary main_c_48 (constantI S_ 32 0#32) : HloOp τ sig (Elt F)).result (W55 m ρ c) (Proc.devRef .tc main_c_48) := by
  have h := ssa_main_c_48 (F := F) (W48 m ρ c)
  rw [nullary_result] at h ⊢
  rw [lift49 m ρ c main_c_48 (by decide)]
  exact h

theorem ssa_main_call12_cst (V : Valuation τ sig (Elt F)) :
    after hostOps12_1 V (Proc.devRef .tc main_call12_cst) = (StableHlo.TRef.nullary (.of main_call12_cst : StableHlo.TRef sig ⟨S_, .f32⟩) (constant S_ .f32 0x00000000#32) : HloOp τ sig (Elt F)).result (after hostOps12_1 V) (Proc.devRef .tc main_call12_cst) := by
  after_results_simp
theorem fin_main_call12_cst (c : Dev nD) :
    W55 m ρ c (Proc.devRef .tc main_call12_cst) = (StableHlo.TRef.nullary (.of main_call12_cst : StableHlo.TRef sig ⟨S_, .f32⟩) (constant S_ .f32 0x00000000#32) : HloOp τ sig (Elt F)).result (W55 m ρ c) (Proc.devRef .tc main_call12_cst) := by
  have h := ssa_main_call12_cst (F := F) (W49 m ρ c)
  rw [nullary_result] at h ⊢
  rw [lift50 m ρ c main_call12_cst (by decide)]
  exact h

theorem ssa_main_call12_v0 (V : Valuation τ sig (Elt F)) :
    after hostOps12_1 V (Proc.devRef .tc main_call12_v0) = (StableHlo.TRef.binary (.of main_v258 : StableHlo.TRef sig ⟨S100000x128, .f32⟩) (.of main_call12_cst : StableHlo.TRef sig ⟨S_, .f32⟩) (.of main_call12_v0 : StableHlo.TRef sig ⟨S128, .f32⟩) (fun x v => Host.reduceAdd x v reducesTo_S100000x128_S128_d0 h_S_) : HloOp τ sig (Elt F)).result (after hostOps12_1 V) (Proc.devRef .tc main_call12_v0) := by
  after_results_simp
theorem fin_main_call12_v0 (c : Dev nD) :
    W55 m ρ c (Proc.devRef .tc main_call12_v0) = (StableHlo.TRef.binary (.of main_v258 : StableHlo.TRef sig ⟨S100000x128, .f32⟩) (.of main_call12_cst : StableHlo.TRef sig ⟨S_, .f32⟩) (.of main_call12_v0 : StableHlo.TRef sig ⟨S128, .f32⟩) (fun x v => Host.reduceAdd x v reducesTo_S100000x128_S128_d0 h_S_) : HloOp τ sig (Elt F)).result (W55 m ρ c) (Proc.devRef .tc main_call12_v0) := by
  have h := ssa_main_call12_v0 (F := F) (W49 m ρ c)
  rw [binary_result] at h ⊢
  rw [lift50 m ρ c main_call12_v0 (by decide), lift50 m ρ c main_v258 (by decide), lift50 m ρ c main_call12_cst (by decide)]
  exact h

theorem ssa_main_call12_v1 (V : Valuation τ sig (Elt F)) :
    after hostOps12_1 V (Proc.devRef .tc main_call12_v1) = (StableHlo.TRef.unary (.of main_call12_v0 : StableHlo.TRef sig ⟨S128, .f32⟩) (.of main_call12_v1 : StableHlo.TRef sig ⟨S1x128, .f32⟩) (broadcastInDim S1x128 ![1] bcast_S128_S1x128_1) : HloOp τ sig (Elt F)).result (after hostOps12_1 V) (Proc.devRef .tc main_call12_v1) := by
  after_results_simp
theorem fin_main_call12_v1 (c : Dev nD) :
    W55 m ρ c (Proc.devRef .tc main_call12_v1) = (StableHlo.TRef.unary (.of main_call12_v0 : StableHlo.TRef sig ⟨S128, .f32⟩) (.of main_call12_v1 : StableHlo.TRef sig ⟨S1x128, .f32⟩) (broadcastInDim S1x128 ![1] bcast_S128_S1x128_1) : HloOp τ sig (Elt F)).result (W55 m ρ c) (Proc.devRef .tc main_call12_v1) := by
  have h := ssa_main_call12_v1 (F := F) (W49 m ρ c)
  rw [unary_result] at h ⊢
  rw [lift50 m ρ c main_call12_v1 (by decide), lift50 m ρ c main_call12_v0 (by decide)]
  exact h

theorem ssa_main_call12_cst_0 (V : Valuation τ sig (Elt F)) :
    after hostOps12_1 V (Proc.devRef .tc main_call12_cst_0) = (StableHlo.TRef.nullary (.of main_call12_cst_0 : StableHlo.TRef sig ⟨S_, .f32⟩) (constant S_ .f32 0x47C35000#32) : HloOp τ sig (Elt F)).result (after hostOps12_1 V) (Proc.devRef .tc main_call12_cst_0) := by
  after_results_simp
theorem fin_main_call12_cst_0 (c : Dev nD) :
    W55 m ρ c (Proc.devRef .tc main_call12_cst_0) = (StableHlo.TRef.nullary (.of main_call12_cst_0 : StableHlo.TRef sig ⟨S_, .f32⟩) (constant S_ .f32 0x47C35000#32) : HloOp τ sig (Elt F)).result (W55 m ρ c) (Proc.devRef .tc main_call12_cst_0) := by
  have h := ssa_main_call12_cst_0 (F := F) (W49 m ρ c)
  rw [nullary_result] at h ⊢
  rw [lift50 m ρ c main_call12_cst_0 (by decide)]
  exact h

theorem ssa_main_call12_v2 (V : Valuation τ sig (Elt F)) :
    after hostOps12_1 V (Proc.devRef .tc main_call12_v2) = (StableHlo.TRef.unary (.of main_call12_cst_0 : StableHlo.TRef sig ⟨S_, .f32⟩) (.of main_call12_v2 : StableHlo.TRef sig ⟨S1x128, .f32⟩) (broadcastInDim S1x128 ![] bcast_S_S1x128) : HloOp τ sig (Elt F)).result (after hostOps12_1 V) (Proc.devRef .tc main_call12_v2) := by
  after_results_simp
theorem fin_main_call12_v2 (c : Dev nD) :
    W55 m ρ c (Proc.devRef .tc main_call12_v2) = (StableHlo.TRef.unary (.of main_call12_cst_0 : StableHlo.TRef sig ⟨S_, .f32⟩) (.of main_call12_v2 : StableHlo.TRef sig ⟨S1x128, .f32⟩) (broadcastInDim S1x128 ![] bcast_S_S1x128) : HloOp τ sig (Elt F)).result (W55 m ρ c) (Proc.devRef .tc main_call12_v2) := by
  have h := ssa_main_call12_v2 (F := F) (W49 m ρ c)
  rw [unary_result] at h ⊢
  rw [lift50 m ρ c main_call12_v2 (by decide), lift50 m ρ c main_call12_cst_0 (by decide)]
  exact h

theorem ssa_main_call12_v3 (V : Valuation τ sig (Elt F)) :
    after hostOps12_1 V (Proc.devRef .tc main_call12_v3) = (StableHlo.TRef.binary (.of main_call12_v1 : StableHlo.TRef sig ⟨S1x128, .f32⟩) (.of main_call12_v2 : StableHlo.TRef sig ⟨S1x128, .f32⟩) (.of main_call12_v3 : StableHlo.TRef sig ⟨S1x128, .f32⟩) Host.divf : HloOp τ sig (Elt F)).result (after hostOps12_1 V) (Proc.devRef .tc main_call12_v3) := by
  after_results_simp
theorem fin_main_call12_v3 (c : Dev nD) :
    W55 m ρ c (Proc.devRef .tc main_call12_v3) = (StableHlo.TRef.binary (.of main_call12_v1 : StableHlo.TRef sig ⟨S1x128, .f32⟩) (.of main_call12_v2 : StableHlo.TRef sig ⟨S1x128, .f32⟩) (.of main_call12_v3 : StableHlo.TRef sig ⟨S1x128, .f32⟩) Host.divf : HloOp τ sig (Elt F)).result (W55 m ρ c) (Proc.devRef .tc main_call12_v3) := by
  have h := ssa_main_call12_v3 (F := F) (W49 m ρ c)
  rw [binary_result] at h ⊢
  rw [lift50 m ρ c main_call12_v3 (by decide), lift50 m ρ c main_call12_v1 (by decide), lift50 m ρ c main_call12_v2 (by decide)]
  exact h

theorem ssa_main_call12_v4 (V : Valuation τ sig (Elt F)) :
    after hostOps12_1 V (Proc.devRef .tc main_call12_v4) = (StableHlo.TRef.unary (.of main_call12_v3 : StableHlo.TRef sig ⟨S1x128, .f32⟩) (.of main_call12_v4 : StableHlo.TRef sig ⟨S100000x128, .f32⟩) (broadcastInDim S100000x128 ![0, 1] bcast_S1x128_S100000x128_0_1) : HloOp τ sig (Elt F)).result (after hostOps12_1 V) (Proc.devRef .tc main_call12_v4) := by
  after_results_simp
theorem fin_main_call12_v4 (c : Dev nD) :
    W55 m ρ c (Proc.devRef .tc main_call12_v4) = (StableHlo.TRef.unary (.of main_call12_v3 : StableHlo.TRef sig ⟨S1x128, .f32⟩) (.of main_call12_v4 : StableHlo.TRef sig ⟨S100000x128, .f32⟩) (broadcastInDim S100000x128 ![0, 1] bcast_S1x128_S100000x128_0_1) : HloOp τ sig (Elt F)).result (W55 m ρ c) (Proc.devRef .tc main_call12_v4) := by
  have h := ssa_main_call12_v4 (F := F) (W49 m ρ c)
  rw [unary_result] at h ⊢
  rw [lift50 m ρ c main_call12_v4 (by decide), lift50 m ρ c main_call12_v3 (by decide)]
  exact h

theorem ssa_main_call12_v5 (V : Valuation τ sig (Elt F)) :
    after hostOps12_1 V (Proc.devRef .tc main_call12_v5) = (StableHlo.TRef.binary (.of main_v258 : StableHlo.TRef sig ⟨S100000x128, .f32⟩) (.of main_call12_v4 : StableHlo.TRef sig ⟨S100000x128, .f32⟩) (.of main_call12_v5 : StableHlo.TRef sig ⟨S100000x128, .f32⟩) subf : HloOp τ sig (Elt F)).result (after hostOps12_1 V) (Proc.devRef .tc main_call12_v5) := by
  after_results_simp
theorem fin_main_call12_v5 (c : Dev nD) :
    W55 m ρ c (Proc.devRef .tc main_call12_v5) = (StableHlo.TRef.binary (.of main_v258 : StableHlo.TRef sig ⟨S100000x128, .f32⟩) (.of main_call12_v4 : StableHlo.TRef sig ⟨S100000x128, .f32⟩) (.of main_call12_v5 : StableHlo.TRef sig ⟨S100000x128, .f32⟩) subf : HloOp τ sig (Elt F)).result (W55 m ρ c) (Proc.devRef .tc main_call12_v5) := by
  have h := ssa_main_call12_v5 (F := F) (W49 m ρ c)
  rw [binary_result] at h ⊢
  rw [lift50 m ρ c main_call12_v5 (by decide), lift50 m ρ c main_v258 (by decide), lift50 m ρ c main_call12_v4 (by decide)]
  exact h

theorem ssa_main_call12_v6 (V : Valuation τ sig (Elt F)) :
    after hostOps12_1 V (Proc.devRef .tc main_call12_v6) = (StableHlo.TRef.binary (.of main_call12_v5 : StableHlo.TRef sig ⟨S100000x128, .f32⟩) (.of main_call12_v5 : StableHlo.TRef sig ⟨S100000x128, .f32⟩) (.of main_call12_v6 : StableHlo.TRef sig ⟨S100000x128, .f32⟩) mulf : HloOp τ sig (Elt F)).result (after hostOps12_1 V) (Proc.devRef .tc main_call12_v6) := by
  after_results_simp
theorem fin_main_call12_v6 (c : Dev nD) :
    W55 m ρ c (Proc.devRef .tc main_call12_v6) = (StableHlo.TRef.binary (.of main_call12_v5 : StableHlo.TRef sig ⟨S100000x128, .f32⟩) (.of main_call12_v5 : StableHlo.TRef sig ⟨S100000x128, .f32⟩) (.of main_call12_v6 : StableHlo.TRef sig ⟨S100000x128, .f32⟩) mulf : HloOp τ sig (Elt F)).result (W55 m ρ c) (Proc.devRef .tc main_call12_v6) := by
  have h := ssa_main_call12_v6 (F := F) (W49 m ρ c)
  rw [binary_result] at h ⊢
  rw [lift50 m ρ c main_call12_v6 (by decide), lift50 m ρ c main_call12_v5 (by decide)]
  exact h

theorem ssa_main_call12_v7 (V : Valuation τ sig (Elt F)) :
    after hostOps12_1 V (Proc.devRef .tc main_call12_v7) = (StableHlo.TRef.unary (.of main_c_48 : StableHlo.TRef sig ⟨S_, .i32⟩) (.of main_call12_v7 : StableHlo.TRef sig ⟨S_, .f32⟩) (sitofp .f32) : HloOp τ sig (Elt F)).result (after hostOps12_1 V) (Proc.devRef .tc main_call12_v7) := by
  after_results_simp
theorem fin_main_call12_v7 (c : Dev nD) :
    W55 m ρ c (Proc.devRef .tc main_call12_v7) = (StableHlo.TRef.unary (.of main_c_48 : StableHlo.TRef sig ⟨S_, .i32⟩) (.of main_call12_v7 : StableHlo.TRef sig ⟨S_, .f32⟩) (sitofp .f32) : HloOp τ sig (Elt F)).result (W55 m ρ c) (Proc.devRef .tc main_call12_v7) := by
  have h := ssa_main_call12_v7 (F := F) (W49 m ρ c)
  rw [unary_result] at h ⊢
  rw [lift50 m ρ c main_call12_v7 (by decide), lift50 m ρ c main_c_48 (by decide)]
  exact h

theorem ssa_main_call12_cst_1 (V : Valuation τ sig (Elt F)) :
    after hostOps12_1 V (Proc.devRef .tc main_call12_cst_1) = (StableHlo.TRef.nullary (.of main_call12_cst_1 : StableHlo.TRef sig ⟨S_, .f32⟩) (constant S_ .f32 0x47C35000#32) : HloOp τ sig (Elt F)).result (after hostOps12_1 V) (Proc.devRef .tc main_call12_cst_1) := by
  after_results_simp
theorem fin_main_call12_cst_1 (c : Dev nD) :
    W55 m ρ c (Proc.devRef .tc main_call12_cst_1) = (StableHlo.TRef.nullary (.of main_call12_cst_1 : StableHlo.TRef sig ⟨S_, .f32⟩) (constant S_ .f32 0x47C35000#32) : HloOp τ sig (Elt F)).result (W55 m ρ c) (Proc.devRef .tc main_call12_cst_1) := by
  have h := ssa_main_call12_cst_1 (F := F) (W49 m ρ c)
  rw [nullary_result] at h ⊢
  rw [lift50 m ρ c main_call12_cst_1 (by decide)]
  exact h

theorem ssa_main_call12_v8 (V : Valuation τ sig (Elt F)) :
    after hostOps12_1 V (Proc.devRef .tc main_call12_v8) = (StableHlo.TRef.binary (.of main_call12_cst_1 : StableHlo.TRef sig ⟨S_, .f32⟩) (.of main_call12_v7 : StableHlo.TRef sig ⟨S_, .f32⟩) (.of main_call12_v8 : StableHlo.TRef sig ⟨S_, .f32⟩) subf : HloOp τ sig (Elt F)).result (after hostOps12_1 V) (Proc.devRef .tc main_call12_v8) := by
  after_results_simp
theorem fin_main_call12_v8 (c : Dev nD) :
    W55 m ρ c (Proc.devRef .tc main_call12_v8) = (StableHlo.TRef.binary (.of main_call12_cst_1 : StableHlo.TRef sig ⟨S_, .f32⟩) (.of main_call12_v7 : StableHlo.TRef sig ⟨S_, .f32⟩) (.of main_call12_v8 : StableHlo.TRef sig ⟨S_, .f32⟩) subf : HloOp τ sig (Elt F)).result (W55 m ρ c) (Proc.devRef .tc main_call12_v8) := by
  have h := ssa_main_call12_v8 (F := F) (W49 m ρ c)
  rw [binary_result] at h ⊢
  rw [lift50 m ρ c main_call12_v8 (by decide), lift50 m ρ c main_call12_cst_1 (by decide), lift50 m ρ c main_call12_v7 (by decide)]
  exact h

theorem ssa_main_call12_cst_2 (V : Valuation τ sig (Elt F)) :
    after hostOps12_1 V (Proc.devRef .tc main_call12_cst_2) = (StableHlo.TRef.nullary (.of main_call12_cst_2 : StableHlo.TRef sig ⟨S_, .f32⟩) (constant S_ .f32 0x00000000#32) : HloOp τ sig (Elt F)).result (after hostOps12_1 V) (Proc.devRef .tc main_call12_cst_2) := by
  after_results_simp
theorem fin_main_call12_cst_2 (c : Dev nD) :
    W55 m ρ c (Proc.devRef .tc main_call12_cst_2) = (StableHlo.TRef.nullary (.of main_call12_cst_2 : StableHlo.TRef sig ⟨S_, .f32⟩) (constant S_ .f32 0x00000000#32) : HloOp τ sig (Elt F)).result (W55 m ρ c) (Proc.devRef .tc main_call12_cst_2) := by
  have h := ssa_main_call12_cst_2 (F := F) (W49 m ρ c)
  rw [nullary_result] at h ⊢
  rw [lift50 m ρ c main_call12_cst_2 (by decide)]
  exact h

theorem ssa_main_call12_v9 (V : Valuation τ sig (Elt F)) :
    after hostOps12_1 V (Proc.devRef .tc main_call12_v9) = (StableHlo.TRef.binary (.of main_call12_v6 : StableHlo.TRef sig ⟨S100000x128, .f32⟩) (.of main_call12_cst_2 : StableHlo.TRef sig ⟨S_, .f32⟩) (.of main_call12_v9 : StableHlo.TRef sig ⟨S128, .f32⟩) (fun x v => Host.reduceAdd x v reducesTo_S100000x128_S128_d0 h_S_) : HloOp τ sig (Elt F)).result (after hostOps12_1 V) (Proc.devRef .tc main_call12_v9) := by
  after_results_simp
theorem fin_main_call12_v9 (c : Dev nD) :
    W55 m ρ c (Proc.devRef .tc main_call12_v9) = (StableHlo.TRef.binary (.of main_call12_v6 : StableHlo.TRef sig ⟨S100000x128, .f32⟩) (.of main_call12_cst_2 : StableHlo.TRef sig ⟨S_, .f32⟩) (.of main_call12_v9 : StableHlo.TRef sig ⟨S128, .f32⟩) (fun x v => Host.reduceAdd x v reducesTo_S100000x128_S128_d0 h_S_) : HloOp τ sig (Elt F)).result (W55 m ρ c) (Proc.devRef .tc main_call12_v9) := by
  have h := ssa_main_call12_v9 (F := F) (W49 m ρ c)
  rw [binary_result] at h ⊢
  rw [lift50 m ρ c main_call12_v9 (by decide), lift50 m ρ c main_call12_v6 (by decide), lift50 m ρ c main_call12_cst_2 (by decide)]
  exact h

theorem ssa_main_call12_v10 (V : Valuation τ sig (Elt F)) :
    after hostOps12_1 V (Proc.devRef .tc main_call12_v10) = (StableHlo.TRef.unary (.of main_call12_v8 : StableHlo.TRef sig ⟨S_, .f32⟩) (.of main_call12_v10 : StableHlo.TRef sig ⟨S128, .f32⟩) (broadcastInDim S128 ![] bcast_S_S128) : HloOp τ sig (Elt F)).result (after hostOps12_1 V) (Proc.devRef .tc main_call12_v10) := by
  after_results_simp
theorem fin_main_call12_v10 (c : Dev nD) :
    W55 m ρ c (Proc.devRef .tc main_call12_v10) = (StableHlo.TRef.unary (.of main_call12_v8 : StableHlo.TRef sig ⟨S_, .f32⟩) (.of main_call12_v10 : StableHlo.TRef sig ⟨S128, .f32⟩) (broadcastInDim S128 ![] bcast_S_S128) : HloOp τ sig (Elt F)).result (W55 m ρ c) (Proc.devRef .tc main_call12_v10) := by
  have h := ssa_main_call12_v10 (F := F) (W49 m ρ c)
  rw [unary_result] at h ⊢
  rw [lift50 m ρ c main_call12_v10 (by decide), lift50 m ρ c main_call12_v8 (by decide)]
  exact h

theorem ssa_main_call12_v11 (V : Valuation τ sig (Elt F)) :
    after hostOps12_1 V (Proc.devRef .tc main_call12_v11) = (StableHlo.TRef.binary (.of main_call12_v9 : StableHlo.TRef sig ⟨S128, .f32⟩) (.of main_call12_v10 : StableHlo.TRef sig ⟨S128, .f32⟩) (.of main_call12_v11 : StableHlo.TRef sig ⟨S128, .f32⟩) Host.divf : HloOp τ sig (Elt F)).result (after hostOps12_1 V) (Proc.devRef .tc main_call12_v11) := by
  after_results_simp
theorem fin_main_call12_v11 (c : Dev nD) :
    W55 m ρ c (Proc.devRef .tc main_call12_v11) = (StableHlo.TRef.binary (.of main_call12_v9 : StableHlo.TRef sig ⟨S128, .f32⟩) (.of main_call12_v10 : StableHlo.TRef sig ⟨S128, .f32⟩) (.of main_call12_v11 : StableHlo.TRef sig ⟨S128, .f32⟩) Host.divf : HloOp τ sig (Elt F)).result (W55 m ρ c) (Proc.devRef .tc main_call12_v11) := by
  have h := ssa_main_call12_v11 (F := F) (W49 m ρ c)
  rw [binary_result] at h ⊢
  rw [lift50 m ρ c main_call12_v11 (by decide), lift50 m ρ c main_call12_v9 (by decide), lift50 m ρ c main_call12_v10 (by decide)]
  exact h

theorem ssa_main_call12_cst_3 (V : Valuation τ sig (Elt F)) :
    after hostOps12_1 V (Proc.devRef .tc main_call12_cst_3) = (StableHlo.TRef.nullary (.of main_call12_cst_3 : StableHlo.TRef sig ⟨S_, .f32⟩) (constant S_ .f32 0x00000000#32) : HloOp τ sig (Elt F)).result (after hostOps12_1 V) (Proc.devRef .tc main_call12_cst_3) := by
  after_results_simp
theorem fin_main_call12_cst_3 (c : Dev nD) :
    W55 m ρ c (Proc.devRef .tc main_call12_cst_3) = (StableHlo.TRef.nullary (.of main_call12_cst_3 : StableHlo.TRef sig ⟨S_, .f32⟩) (constant S_ .f32 0x00000000#32) : HloOp τ sig (Elt F)).result (W55 m ρ c) (Proc.devRef .tc main_call12_cst_3) := by
  have h := ssa_main_call12_cst_3 (F := F) (W49 m ρ c)
  rw [nullary_result] at h ⊢
  rw [lift50 m ρ c main_call12_cst_3 (by decide)]
  exact h

theorem ssa_main_call12_v12 (V : Valuation τ sig (Elt F)) :
    after hostOps12_1 V (Proc.devRef .tc main_call12_v12) = (StableHlo.TRef.binary (.of main_call12_v8 : StableHlo.TRef sig ⟨S_, .f32⟩) (.of main_call12_cst_3 : StableHlo.TRef sig ⟨S_, .f32⟩) (.of main_call12_v12 : StableHlo.TRef sig ⟨S_, .i1⟩) (cmpf .ogt) : HloOp τ sig (Elt F)).result (after hostOps12_1 V) (Proc.devRef .tc main_call12_v12) := by
  after_results_simp
theorem fin_main_call12_v12 (c : Dev nD) :
    W55 m ρ c (Proc.devRef .tc main_call12_v12) = (StableHlo.TRef.binary (.of main_call12_v8 : StableHlo.TRef sig ⟨S_, .f32⟩) (.of main_call12_cst_3 : StableHlo.TRef sig ⟨S_, .f32⟩) (.of main_call12_v12 : StableHlo.TRef sig ⟨S_, .i1⟩) (cmpf .ogt) : HloOp τ sig (Elt F)).result (W55 m ρ c) (Proc.devRef .tc main_call12_v12) := by
  have h := ssa_main_call12_v12 (F := F) (W49 m ρ c)
  rw [binary_result] at h ⊢
  rw [lift50 m ρ c main_call12_v12 (by decide), lift50 m ρ c main_call12_v8 (by decide), lift50 m ρ c main_call12_cst_3 (by decide)]
  exact h

theorem ssa_main_call12_cst_4 (V : Valuation τ sig (Elt F)) :
    after hostOps12_1 V (Proc.devRef .tc main_call12_cst_4) = (StableHlo.TRef.nullary (.of main_call12_cst_4 : StableHlo.TRef sig ⟨S_, .f32⟩) (constant S_ .f32 0x7FC00000#32) : HloOp τ sig (Elt F)).result (after hostOps12_1 V) (Proc.devRef .tc main_call12_cst_4) := by
  after_results_simp
theorem fin_main_call12_cst_4 (c : Dev nD) :
    W55 m ρ c (Proc.devRef .tc main_call12_cst_4) = (StableHlo.TRef.nullary (.of main_call12_cst_4 : StableHlo.TRef sig ⟨S_, .f32⟩) (constant S_ .f32 0x7FC00000#32) : HloOp τ sig (Elt F)).result (W55 m ρ c) (Proc.devRef .tc main_call12_cst_4) := by
  have h := ssa_main_call12_cst_4 (F := F) (W49 m ρ c)
  rw [nullary_result] at h ⊢
  rw [lift50 m ρ c main_call12_cst_4 (by decide)]
  exact h

theorem ssa_main_call12_call0_v0 (V : Valuation τ sig (Elt F)) :
    after hostOps12_1 V (Proc.devRef .tc main_call12_call0_v0) = (StableHlo.TRef.unary (.of main_call12_cst_4 : StableHlo.TRef sig ⟨S_, .f32⟩) (.of main_call12_call0_v0 : StableHlo.TRef sig ⟨S_, .f32⟩) id : HloOp τ sig (Elt F)).result (after hostOps12_1 V) (Proc.devRef .tc main_call12_call0_v0) := by
  after_results_simp
theorem fin_main_call12_call0_v0 (c : Dev nD) :
    W55 m ρ c (Proc.devRef .tc main_call12_call0_v0) = (StableHlo.TRef.unary (.of main_call12_cst_4 : StableHlo.TRef sig ⟨S_, .f32⟩) (.of main_call12_call0_v0 : StableHlo.TRef sig ⟨S_, .f32⟩) id : HloOp τ sig (Elt F)).result (W55 m ρ c) (Proc.devRef .tc main_call12_call0_v0) := by
  have h := ssa_main_call12_call0_v0 (F := F) (W49 m ρ c)
  rw [unary_result] at h ⊢
  rw [lift50 m ρ c main_call12_call0_v0 (by decide), lift50 m ρ c main_call12_cst_4 (by decide)]
  exact h

theorem ssa_main_call12_call0_v1 (V : Valuation τ sig (Elt F)) :
    after hostOps12_1 V (Proc.devRef .tc main_call12_call0_v1) = (StableHlo.TRef.unary (.of main_call12_call0_v0 : StableHlo.TRef sig ⟨S_, .f32⟩) (.of main_call12_call0_v1 : StableHlo.TRef sig ⟨S128, .f32⟩) (broadcastInDim S128 ![] bcast_S_S128) : HloOp τ sig (Elt F)).result (after hostOps12_1 V) (Proc.devRef .tc main_call12_call0_v1) := by
  after_results_simp
theorem fin_main_call12_call0_v1 (c : Dev nD) :
    W55 m ρ c (Proc.devRef .tc main_call12_call0_v1) = (StableHlo.TRef.unary (.of main_call12_call0_v0 : StableHlo.TRef sig ⟨S_, .f32⟩) (.of main_call12_call0_v1 : StableHlo.TRef sig ⟨S128, .f32⟩) (broadcastInDim S128 ![] bcast_S_S128) : HloOp τ sig (Elt F)).result (W55 m ρ c) (Proc.devRef .tc main_call12_call0_v1) := by
  have h := ssa_main_call12_call0_v1 (F := F) (W49 m ρ c)
  rw [unary_result] at h ⊢
  rw [lift50 m ρ c main_call12_call0_v1 (by decide), lift50 m ρ c main_call12_call0_v0 (by decide)]
  exact h

theorem ssa_main_v262 (V : Valuation τ sig (Elt F)) :
    after hostOps12_1 V (Proc.devRef .tc main_v262) = (StableHlo.TRef.ternary (.of main_call12_v12 : StableHlo.TRef sig ⟨S_, .i1⟩) (.of main_call12_v11 : StableHlo.TRef sig ⟨S128, .f32⟩) (.of main_call12_call0_v1 : StableHlo.TRef sig ⟨S128, .f32⟩) (.of main_v262 : StableHlo.TRef sig ⟨S128, .f32⟩) (fun p a b => select (broadcastInDim S128 ![] bcast_S_S128 p) a b) : HloOp τ sig (Elt F)).result (after hostOps12_1 V) (Proc.devRef .tc main_v262) := by
  after_results_simp
theorem fin_main_v262 (c : Dev nD) :
    W55 m ρ c (Proc.devRef .tc main_v262) = (StableHlo.TRef.ternary (.of main_call12_v12 : StableHlo.TRef sig ⟨S_, .i1⟩) (.of main_call12_v11 : StableHlo.TRef sig ⟨S128, .f32⟩) (.of main_call12_call0_v1 : StableHlo.TRef sig ⟨S128, .f32⟩) (.of main_v262 : StableHlo.TRef sig ⟨S128, .f32⟩) (fun p a b => select (broadcastInDim S128 ![] bcast_S_S128 p) a b) : HloOp τ sig (Elt F)).result (W55 m ρ c) (Proc.devRef .tc main_v262) := by
  have h := ssa_main_v262 (F := F) (W49 m ρ c)
  rw [ternary_result] at h ⊢
  rw [lift50 m ρ c main_v262 (by decide), lift50 m ρ c main_call12_v12 (by decide), lift50 m ρ c main_call12_v11 (by decide), lift50 m ρ c main_call12_call0_v1 (by decide)]
  exact h

theorem ssa_main_cst_49 (V : Valuation τ sig (Elt F)) :
    after hostOps12_2 V (Proc.devRef .tc main_cst_49) = (StableHlo.nullary main_cst_49 (constant S_ .f32 0x3727C5AC#32) : HloOp τ sig (Elt F)).result (after hostOps12_2 V) (Proc.devRef .tc main_cst_49) := by
  after_results_simp
theorem fin_main_cst_49 (c : Dev nD) :
    W55 m ρ c (Proc.devRef .tc main_cst_49) = (StableHlo.nullary main_cst_49 (constant S_ .f32 0x3727C5AC#32) : HloOp τ sig (Elt F)).result (W55 m ρ c) (Proc.devRef .tc main_cst_49) := by
  have h := ssa_main_cst_49 (F := F) (W50 m ρ c)
  rw [nullary_result] at h ⊢
  rw [lift51 m ρ c main_cst_49 (by decide)]
  exact h

theorem ssa_main_v263 (V : Valuation τ sig (Elt F)) :
    after hostOps12_2 V (Proc.devRef .tc main_v263) = (StableHlo.unary main_cst_49 main_v263 (broadcastInDim S128 ![] bcast_S_S128 : (⟨S_, .f32⟩ : BufTy).Contents (Elt F) → (⟨S128, .f32⟩ : BufTy).Contents (Elt F)) : HloOp τ sig (Elt F)).result (after hostOps12_2 V) (Proc.devRef .tc main_v263) := by
  after_results_simp
theorem fin_main_v263 (c : Dev nD) :
    W55 m ρ c (Proc.devRef .tc main_v263) = (StableHlo.unary main_cst_49 main_v263 (broadcastInDim S128 ![] bcast_S_S128 : (⟨S_, .f32⟩ : BufTy).Contents (Elt F) → (⟨S128, .f32⟩ : BufTy).Contents (Elt F)) : HloOp τ sig (Elt F)).result (W55 m ρ c) (Proc.devRef .tc main_v263) := by
  have h := ssa_main_v263 (F := F) (W50 m ρ c)
  rw [unary_result] at h ⊢
  rw [lift51 m ρ c main_v263 (by decide), lift51 m ρ c main_cst_49 (by decide)]
  exact h

theorem ssa_main_v264 (V : Valuation τ sig (Elt F)) :
    after hostOps12_2 V (Proc.devRef .tc main_v264) = (StableHlo.binary main_v262 main_v263 main_v264 (addf : (⟨S128, .f32⟩ : BufTy).Contents (Elt F) → (⟨S128, .f32⟩ : BufTy).Contents (Elt F) → (⟨S128, .f32⟩ : BufTy).Contents (Elt F)) : HloOp τ sig (Elt F)).result (after hostOps12_2 V) (Proc.devRef .tc main_v264) := by
  after_results_simp
theorem fin_main_v264 (c : Dev nD) :
    W55 m ρ c (Proc.devRef .tc main_v264) = (StableHlo.binary main_v262 main_v263 main_v264 (addf : (⟨S128, .f32⟩ : BufTy).Contents (Elt F) → (⟨S128, .f32⟩ : BufTy).Contents (Elt F) → (⟨S128, .f32⟩ : BufTy).Contents (Elt F)) : HloOp τ sig (Elt F)).result (W55 m ρ c) (Proc.devRef .tc main_v264) := by
  have h := ssa_main_v264 (F := F) (W50 m ρ c)
  rw [binary_result] at h ⊢
  rw [lift51 m ρ c main_v264 (by decide), lift51 m ρ c main_v262 (by decide), lift51 m ρ c main_v263 (by decide)]
  exact h

theorem ssa_main_v265 (V : Valuation τ sig (Elt F)) :
    after hostOps12_2 V (Proc.devRef .tc main_v265) = (StableHlo.unary main_v264 main_v265 (Host.rsqrt : (⟨S128, .f32⟩ : BufTy).Contents (Elt F) → (⟨S128, .f32⟩ : BufTy).Contents (Elt F)) : HloOp τ sig (Elt F)).result (after hostOps12_2 V) (Proc.devRef .tc main_v265) := by
  after_results_simp
theorem fin_main_v265 (c : Dev nD) :
    W55 m ρ c (Proc.devRef .tc main_v265) = (StableHlo.unary main_v264 main_v265 (Host.rsqrt : (⟨S128, .f32⟩ : BufTy).Contents (Elt F) → (⟨S128, .f32⟩ : BufTy).Contents (Elt F)) : HloOp τ sig (Elt F)).result (W55 m ρ c) (Proc.devRef .tc main_v265) := by
  have h := ssa_main_v265 (F := F) (W50 m ρ c)
  rw [unary_result] at h ⊢
  rw [lift51 m ρ c main_v265 (by decide), lift51 m ρ c main_v264 (by decide)]
  exact h

theorem ssa_main_v266 (V : Valuation τ sig (Elt F)) :
    after hostOps12_2 V (Proc.devRef .tc main_v266) = (StableHlo.binary main_arg23 main_v265 main_v266 (mulf : (⟨S128, .f32⟩ : BufTy).Contents (Elt F) → (⟨S128, .f32⟩ : BufTy).Contents (Elt F) → (⟨S128, .f32⟩ : BufTy).Contents (Elt F)) : HloOp τ sig (Elt F)).result (after hostOps12_2 V) (Proc.devRef .tc main_v266) := by
  after_results_simp
theorem fin_main_v266 (c : Dev nD) :
    W55 m ρ c (Proc.devRef .tc main_v266) = (StableHlo.binary main_arg23 main_v265 main_v266 (mulf : (⟨S128, .f32⟩ : BufTy).Contents (Elt F) → (⟨S128, .f32⟩ : BufTy).Contents (Elt F) → (⟨S128, .f32⟩ : BufTy).Contents (Elt F)) : HloOp τ sig (Elt F)).result (W55 m ρ c) (Proc.devRef .tc main_v266) := by
  have h := ssa_main_v266 (F := F) (W50 m ρ c)
  rw [binary_result] at h ⊢
  rw [lift51 m ρ c main_v266 (by decide), lift51 m ρ c main_arg23 (by decide), lift51 m ρ c main_v265 (by decide)]
  exact h

theorem ssa_main_v267 (V : Valuation τ sig (Elt F)) :
    after hostOps12_2 V (Proc.devRef .tc main_v267) = (StableHlo.binary main_v261 main_v266 main_v267 (mulf : (⟨S128, .f32⟩ : BufTy).Contents (Elt F) → (⟨S128, .f32⟩ : BufTy).Contents (Elt F) → (⟨S128, .f32⟩ : BufTy).Contents (Elt F)) : HloOp τ sig (Elt F)).result (after hostOps12_2 V) (Proc.devRef .tc main_v267) := by
  after_results_simp
theorem fin_main_v267 (c : Dev nD) :
    W55 m ρ c (Proc.devRef .tc main_v267) = (StableHlo.binary main_v261 main_v266 main_v267 (mulf : (⟨S128, .f32⟩ : BufTy).Contents (Elt F) → (⟨S128, .f32⟩ : BufTy).Contents (Elt F) → (⟨S128, .f32⟩ : BufTy).Contents (Elt F)) : HloOp τ sig (Elt F)).result (W55 m ρ c) (Proc.devRef .tc main_v267) := by
  have h := ssa_main_v267 (F := F) (W50 m ρ c)
  rw [binary_result] at h ⊢
  rw [lift51 m ρ c main_v267 (by decide), lift51 m ρ c main_v261 (by decide), lift51 m ρ c main_v266 (by decide)]
  exact h

theorem ssa_main_v268 (V : Valuation τ sig (Elt F)) :
    after hostOps12_2 V (Proc.devRef .tc main_v268) = (StableHlo.binary main_arg24 main_v267 main_v268 (subf : (⟨S128, .f32⟩ : BufTy).Contents (Elt F) → (⟨S128, .f32⟩ : BufTy).Contents (Elt F) → (⟨S128, .f32⟩ : BufTy).Contents (Elt F)) : HloOp τ sig (Elt F)).result (after hostOps12_2 V) (Proc.devRef .tc main_v268) := by
  after_results_simp
theorem fin_main_v268 (c : Dev nD) :
    W55 m ρ c (Proc.devRef .tc main_v268) = (StableHlo.binary main_arg24 main_v267 main_v268 (subf : (⟨S128, .f32⟩ : BufTy).Contents (Elt F) → (⟨S128, .f32⟩ : BufTy).Contents (Elt F) → (⟨S128, .f32⟩ : BufTy).Contents (Elt F)) : HloOp τ sig (Elt F)).result (W55 m ρ c) (Proc.devRef .tc main_v268) := by
  have h := ssa_main_v268 (F := F) (W50 m ρ c)
  rw [binary_result] at h ⊢
  rw [lift51 m ρ c main_v268 (by decide), lift51 m ρ c main_arg24 (by decide), lift51 m ρ c main_v267 (by decide)]
  exact h

theorem ssa_main_v269 (V : Valuation τ sig (Elt F)) :
    after hostOps12_2 V (Proc.devRef .tc main_v269) = (StableHlo.unary main_v266 main_v269 (broadcastInDim S1x128 ![1] bcast_S128_S1x128_1 : (⟨S128, .f32⟩ : BufTy).Contents (Elt F) → (⟨S1x128, .f32⟩ : BufTy).Contents (Elt F)) : HloOp τ sig (Elt F)).result (after hostOps12_2 V) (Proc.devRef .tc main_v269) := by
  after_results_simp
theorem fin_main_v269 (c : Dev nD) :
    W55 m ρ c (Proc.devRef .tc main_v269) = (StableHlo.unary main_v266 main_v269 (broadcastInDim S1x128 ![1] bcast_S128_S1x128_1 : (⟨S128, .f32⟩ : BufTy).Contents (Elt F) → (⟨S1x128, .f32⟩ : BufTy).Contents (Elt F)) : HloOp τ sig (Elt F)).result (W55 m ρ c) (Proc.devRef .tc main_v269) := by
  have h := ssa_main_v269 (F := F) (W50 m ρ c)
  rw [unary_result] at h ⊢
  rw [lift51 m ρ c main_v269 (by decide), lift51 m ρ c main_v266 (by decide)]
  exact h

theorem ssa_main_v270 (V : Valuation τ sig (Elt F)) :
    after hostOps12_2 V (Proc.devRef .tc main_v270) = (StableHlo.unary main_v269 main_v270 (broadcastInDim S100000x128 ![0, 1] bcast_S1x128_S100000x128_0_1 : (⟨S1x128, .f32⟩ : BufTy).Contents (Elt F) → (⟨S100000x128, .f32⟩ : BufTy).Contents (Elt F)) : HloOp τ sig (Elt F)).result (after hostOps12_2 V) (Proc.devRef .tc main_v270) := by
  after_results_simp
theorem fin_main_v270 (c : Dev nD) :
    W55 m ρ c (Proc.devRef .tc main_v270) = (StableHlo.unary main_v269 main_v270 (broadcastInDim S100000x128 ![0, 1] bcast_S1x128_S100000x128_0_1 : (⟨S1x128, .f32⟩ : BufTy).Contents (Elt F) → (⟨S100000x128, .f32⟩ : BufTy).Contents (Elt F)) : HloOp τ sig (Elt F)).result (W55 m ρ c) (Proc.devRef .tc main_v270) := by
  have h := ssa_main_v270 (F := F) (W50 m ρ c)
  rw [unary_result] at h ⊢
  rw [lift51 m ρ c main_v270 (by decide), lift51 m ρ c main_v269 (by decide)]
  exact h

theorem ssa_main_v271 (V : Valuation τ sig (Elt F)) :
    after hostOps12_2 V (Proc.devRef .tc main_v271) = (StableHlo.binary main_v270 main_v258 main_v271 (mulf : (⟨S100000x128, .f32⟩ : BufTy).Contents (Elt F) → (⟨S100000x128, .f32⟩ : BufTy).Contents (Elt F) → (⟨S100000x128, .f32⟩ : BufTy).Contents (Elt F)) : HloOp τ sig (Elt F)).result (after hostOps12_2 V) (Proc.devRef .tc main_v271) := by
  after_results_simp
theorem fin_main_v271 (c : Dev nD) :
    W55 m ρ c (Proc.devRef .tc main_v271) = (StableHlo.binary main_v270 main_v258 main_v271 (mulf : (⟨S100000x128, .f32⟩ : BufTy).Contents (Elt F) → (⟨S100000x128, .f32⟩ : BufTy).Contents (Elt F) → (⟨S100000x128, .f32⟩ : BufTy).Contents (Elt F)) : HloOp τ sig (Elt F)).result (W55 m ρ c) (Proc.devRef .tc main_v271) := by
  have h := ssa_main_v271 (F := F) (W50 m ρ c)
  rw [binary_result] at h ⊢
  rw [lift51 m ρ c main_v271 (by decide), lift51 m ρ c main_v270 (by decide), lift51 m ρ c main_v258 (by decide)]
  exact h

theorem ssa_main_v272 (V : Valuation τ sig (Elt F)) :
    after hostOps12_2 V (Proc.devRef .tc main_v272) = (StableHlo.unary main_v268 main_v272 (broadcastInDim S1x128 ![1] bcast_S128_S1x128_1 : (⟨S128, .f32⟩ : BufTy).Contents (Elt F) → (⟨S1x128, .f32⟩ : BufTy).Contents (Elt F)) : HloOp τ sig (Elt F)).result (after hostOps12_2 V) (Proc.devRef .tc main_v272) := by
  after_results_simp
theorem fin_main_v272 (c : Dev nD) :
    W55 m ρ c (Proc.devRef .tc main_v272) = (StableHlo.unary main_v268 main_v272 (broadcastInDim S1x128 ![1] bcast_S128_S1x128_1 : (⟨S128, .f32⟩ : BufTy).Contents (Elt F) → (⟨S1x128, .f32⟩ : BufTy).Contents (Elt F)) : HloOp τ sig (Elt F)).result (W55 m ρ c) (Proc.devRef .tc main_v272) := by
  have h := ssa_main_v272 (F := F) (W50 m ρ c)
  rw [unary_result] at h ⊢
  rw [lift51 m ρ c main_v272 (by decide), lift51 m ρ c main_v268 (by decide)]
  exact h

theorem ssa_main_v273 (V : Valuation τ sig (Elt F)) :
    after hostOps12_2 V (Proc.devRef .tc main_v273) = (StableHlo.unary main_v272 main_v273 (broadcastInDim S100000x128 ![0, 1] bcast_S1x128_S100000x128_0_1 : (⟨S1x128, .f32⟩ : BufTy).Contents (Elt F) → (⟨S100000x128, .f32⟩ : BufTy).Contents (Elt F)) : HloOp τ sig (Elt F)).result (after hostOps12_2 V) (Proc.devRef .tc main_v273) := by
  after_results_simp
theorem fin_main_v273 (c : Dev nD) :
    W55 m ρ c (Proc.devRef .tc main_v273) = (StableHlo.unary main_v272 main_v273 (broadcastInDim S100000x128 ![0, 1] bcast_S1x128_S100000x128_0_1 : (⟨S1x128, .f32⟩ : BufTy).Contents (Elt F) → (⟨S100000x128, .f32⟩ : BufTy).Contents (Elt F)) : HloOp τ sig (Elt F)).result (W55 m ρ c) (Proc.devRef .tc main_v273) := by
  have h := ssa_main_v273 (F := F) (W50 m ρ c)
  rw [unary_result] at h ⊢
  rw [lift51 m ρ c main_v273 (by decide), lift51 m ρ c main_v272 (by decide)]
  exact h

theorem ssa_main_v274 (V : Valuation τ sig (Elt F)) :
    after hostOps12_2 V (Proc.devRef .tc main_v274) = (StableHlo.binary main_v271 main_v273 main_v274 (addf : (⟨S100000x128, .f32⟩ : BufTy).Contents (Elt F) → (⟨S100000x128, .f32⟩ : BufTy).Contents (Elt F) → (⟨S100000x128, .f32⟩ : BufTy).Contents (Elt F)) : HloOp τ sig (Elt F)).result (after hostOps12_2 V) (Proc.devRef .tc main_v274) := by
  after_results_simp
theorem fin_main_v274 (c : Dev nD) :
    W55 m ρ c (Proc.devRef .tc main_v274) = (StableHlo.binary main_v271 main_v273 main_v274 (addf : (⟨S100000x128, .f32⟩ : BufTy).Contents (Elt F) → (⟨S100000x128, .f32⟩ : BufTy).Contents (Elt F) → (⟨S100000x128, .f32⟩ : BufTy).Contents (Elt F)) : HloOp τ sig (Elt F)).result (W55 m ρ c) (Proc.devRef .tc main_v274) := by
  have h := ssa_main_v274 (F := F) (W50 m ρ c)
  rw [binary_result] at h ⊢
  rw [lift51 m ρ c main_v274 (by decide), lift51 m ρ c main_v271 (by decide), lift51 m ρ c main_v273 (by decide)]
  exact h

theorem ssa_main_cst_50 (V : Valuation τ sig (Elt F)) :
    after hostOps12_2 V (Proc.devRef .tc main_cst_50) = (StableHlo.nullary main_cst_50 (constant S_ .f32 0x00000000#32) : HloOp τ sig (Elt F)).result (after hostOps12_2 V) (Proc.devRef .tc main_cst_50) := by
  after_results_simp
theorem fin_main_cst_50 (c : Dev nD) :
    W55 m ρ c (Proc.devRef .tc main_cst_50) = (StableHlo.nullary main_cst_50 (constant S_ .f32 0x00000000#32) : HloOp τ sig (Elt F)).result (W55 m ρ c) (Proc.devRef .tc main_cst_50) := by
  have h := ssa_main_cst_50 (F := F) (W50 m ρ c)
  rw [nullary_result] at h ⊢
  rw [lift51 m ρ c main_cst_50 (by decide)]
  exact h

theorem ssa_main_v275 (V : Valuation τ sig (Elt F)) :
    after hostOps12_2 V (Proc.devRef .tc main_v275) = (StableHlo.unary main_cst_50 main_v275 (broadcastInDim S100000x128 ![] bcast_S_S100000x128 : (⟨S_, .f32⟩ : BufTy).Contents (Elt F) → (⟨S100000x128, .f32⟩ : BufTy).Contents (Elt F)) : HloOp τ sig (Elt F)).result (after hostOps12_2 V) (Proc.devRef .tc main_v275) := by
  after_results_simp
theorem fin_main_v275 (c : Dev nD) :
    W55 m ρ c (Proc.devRef .tc main_v275) = (StableHlo.unary main_cst_50 main_v275 (broadcastInDim S100000x128 ![] bcast_S_S100000x128 : (⟨S_, .f32⟩ : BufTy).Contents (Elt F) → (⟨S100000x128, .f32⟩ : BufTy).Contents (Elt F)) : HloOp τ sig (Elt F)).result (W55 m ρ c) (Proc.devRef .tc main_v275) := by
  have h := ssa_main_v275 (F := F) (W50 m ρ c)
  rw [unary_result] at h ⊢
  rw [lift51 m ρ c main_v275 (by decide), lift51 m ρ c main_cst_50 (by decide)]
  exact h

theorem ssa_main_v276 (V : Valuation τ sig (Elt F)) :
    after hostOps12_2 V (Proc.devRef .tc main_v276) = (StableHlo.binary main_v274 main_v275 main_v276 (cmpf .oge : (⟨S100000x128, .f32⟩ : BufTy).Contents (Elt F) → (⟨S100000x128, .f32⟩ : BufTy).Contents (Elt F) → (⟨S100000x128, .i1⟩ : BufTy).Contents (Elt F)) : HloOp τ sig (Elt F)).result (after hostOps12_2 V) (Proc.devRef .tc main_v276) := by
  after_results_simp
theorem fin_main_v276 (c : Dev nD) :
    W55 m ρ c (Proc.devRef .tc main_v276) = (StableHlo.binary main_v274 main_v275 main_v276 (cmpf .oge : (⟨S100000x128, .f32⟩ : BufTy).Contents (Elt F) → (⟨S100000x128, .f32⟩ : BufTy).Contents (Elt F) → (⟨S100000x128, .i1⟩ : BufTy).Contents (Elt F)) : HloOp τ sig (Elt F)).result (W55 m ρ c) (Proc.devRef .tc main_v276) := by
  have h := ssa_main_v276 (F := F) (W50 m ρ c)
  rw [binary_result] at h ⊢
  rw [lift51 m ρ c main_v276 (by decide), lift51 m ρ c main_v274 (by decide), lift51 m ρ c main_v275 (by decide)]
  exact h

theorem ssa_main_cst_51 (V : Valuation τ sig (Elt F)) :
    after hostOps12_2 V (Proc.devRef .tc main_cst_51) = (StableHlo.nullary main_cst_51 (constant S_ .f32 0x3C23D70A#32) : HloOp τ sig (Elt F)).result (after hostOps12_2 V) (Proc.devRef .tc main_cst_51) := by
  after_results_simp
theorem fin_main_cst_51 (c : Dev nD) :
    W55 m ρ c (Proc.devRef .tc main_cst_51) = (StableHlo.nullary main_cst_51 (constant S_ .f32 0x3C23D70A#32) : HloOp τ sig (Elt F)).result (W55 m ρ c) (Proc.devRef .tc main_cst_51) := by
  have h := ssa_main_cst_51 (F := F) (W50 m ρ c)
  rw [nullary_result] at h ⊢
  rw [lift51 m ρ c main_cst_51 (by decide)]
  exact h

theorem ssa_main_v277 (V : Valuation τ sig (Elt F)) :
    after hostOps12_2 V (Proc.devRef .tc main_v277) = (StableHlo.unary main_cst_51 main_v277 (broadcastInDim S100000x128 ![] bcast_S_S100000x128 : (⟨S_, .f32⟩ : BufTy).Contents (Elt F) → (⟨S100000x128, .f32⟩ : BufTy).Contents (Elt F)) : HloOp τ sig (Elt F)).result (after hostOps12_2 V) (Proc.devRef .tc main_v277) := by
  after_results_simp
theorem fin_main_v277 (c : Dev nD) :
    W55 m ρ c (Proc.devRef .tc main_v277) = (StableHlo.unary main_cst_51 main_v277 (broadcastInDim S100000x128 ![] bcast_S_S100000x128 : (⟨S_, .f32⟩ : BufTy).Contents (Elt F) → (⟨S100000x128, .f32⟩ : BufTy).Contents (Elt F)) : HloOp τ sig (Elt F)).result (W55 m ρ c) (Proc.devRef .tc main_v277) := by
  have h := ssa_main_v277 (F := F) (W50 m ρ c)
  rw [unary_result] at h ⊢
  rw [lift51 m ρ c main_v277 (by decide), lift51 m ρ c main_cst_51 (by decide)]
  exact h

theorem ssa_main_v278 (V : Valuation τ sig (Elt F)) :
    after hostOps12_2 V (Proc.devRef .tc main_v278) = (StableHlo.binary main_v277 main_v274 main_v278 (mulf : (⟨S100000x128, .f32⟩ : BufTy).Contents (Elt F) → (⟨S100000x128, .f32⟩ : BufTy).Contents (Elt F) → (⟨S100000x128, .f32⟩ : BufTy).Contents (Elt F)) : HloOp τ sig (Elt F)).result (after hostOps12_2 V) (Proc.devRef .tc main_v278) := by
  after_results_simp
theorem fin_main_v278 (c : Dev nD) :
    W55 m ρ c (Proc.devRef .tc main_v278) = (StableHlo.binary main_v277 main_v274 main_v278 (mulf : (⟨S100000x128, .f32⟩ : BufTy).Contents (Elt F) → (⟨S100000x128, .f32⟩ : BufTy).Contents (Elt F) → (⟨S100000x128, .f32⟩ : BufTy).Contents (Elt F)) : HloOp τ sig (Elt F)).result (W55 m ρ c) (Proc.devRef .tc main_v278) := by
  have h := ssa_main_v278 (F := F) (W50 m ρ c)
  rw [binary_result] at h ⊢
  rw [lift51 m ρ c main_v278 (by decide), lift51 m ρ c main_v277 (by decide), lift51 m ρ c main_v274 (by decide)]
  exact h

theorem ssa_main_v279 (V : Valuation τ sig (Elt F)) :
    after hostOps12_3 V (Proc.devRef .tc main_v279) = (StableHlo.TRef.ternary (.of main_v276 : StableHlo.TRef sig ⟨S100000x128, .i1⟩) (.of main_v274 : StableHlo.TRef sig ⟨S100000x128, .f32⟩) (.of main_v278 : StableHlo.TRef sig ⟨S100000x128, .f32⟩) (.of main_v279 : StableHlo.TRef sig ⟨S100000x128, .f32⟩) select : HloOp τ sig (Elt F)).result (after hostOps12_3 V) (Proc.devRef .tc main_v279) := by
  after_results_simp
theorem fin_main_v279 (c : Dev nD) :
    W55 m ρ c (Proc.devRef .tc main_v279) = (StableHlo.TRef.ternary (.of main_v276 : StableHlo.TRef sig ⟨S100000x128, .i1⟩) (.of main_v274 : StableHlo.TRef sig ⟨S100000x128, .f32⟩) (.of main_v278 : StableHlo.TRef sig ⟨S100000x128, .f32⟩) (.of main_v279 : StableHlo.TRef sig ⟨S100000x128, .f32⟩) select : HloOp τ sig (Elt F)).result (W55 m ρ c) (Proc.devRef .tc main_v279) := by
  have h := ssa_main_v279 (F := F) (W51 m ρ c)
  rw [ternary_result] at h ⊢
  rw [lift52 m ρ c main_v279 (by decide), lift52 m ρ c main_v276 (by decide), lift52 m ρ c main_v274 (by decide), lift52 m ρ c main_v278 (by decide)]
  exact h

theorem ssa_main_v280 (V : Valuation τ sig (Elt F)) :
    after hostOps12_4 V (Proc.devRef .tc main_v280) = (StableHlo.reshape main_arg26 main_v280 rfl shapeCasts_S1_S1x1 : HloOp τ sig (Elt F)).result (after hostOps12_4 V) (Proc.devRef .tc main_v280) := by
  after_results_simp
theorem fin_main_v280 (c : Dev nD) :
    W55 m ρ c (Proc.devRef .tc main_v280) = (StableHlo.reshape main_arg26 main_v280 rfl shapeCasts_S1_S1x1 : HloOp τ sig (Elt F)).result (W55 m ρ c) (Proc.devRef .tc main_v280) := by
  have h := ssa_main_v280 (F := F) (W52 m ρ c)
  rw [reshape_result] at h ⊢
  rw [lift53 m ρ c main_v280 (by decide), lift53 m ρ c main_arg26 (by decide)]
  exact h

theorem ssa_main_v282 (V : Valuation τ sig (Elt F)) :
    after hostOps13 V (Proc.devRef .tc main_v282) = (StableHlo.reshape main_v281 main_v282 rfl shapeCasts_S100000x1_S100000 : HloOp τ sig (Elt F)).result (after hostOps13 V) (Proc.devRef .tc main_v282) := by
  after_results_simp
theorem fin_main_v282 (c : Dev nD) :
    W55 m ρ c (Proc.devRef .tc main_v282) = (StableHlo.reshape main_v281 main_v282 rfl shapeCasts_S100000x1_S100000 : HloOp τ sig (Elt F)).result (W55 m ρ c) (Proc.devRef .tc main_v282) := by
  have h := ssa_main_v282 (F := F) (W54 m ρ c)
  rw [reshape_result] at h ⊢
  rw [lift55 m ρ c main_v282 (by decide), lift55 m ρ c main_v281 (by decide)]
  exact h

end Cert.KernelIdeal.Tab

end
-- ==== Proof.TabR.lean ====
/- The reference program's stretches as a table: which buffers each writes, that every other buffer passes a stretch unchanged,
   and hence that a buffer no later stretch writes is, at the end, what it was after an earlier stretch. -/
import proofs.«409037_j72164040508123_1_alg».proof.Proof.RunRef

set_option maxRecDepth 16384

noncomputable section

namespace Cert.ReferenceIdeal.Tab

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- An operation that writes one buffer of a list writes inside the list. -/
theorem writes_sub {op : HloOp τ sig (Elt F)} {y : Ref sig .tc} {W : List (Ref sig .tc)} (h : op.writes = {Proc.devRef .tc y}) (hy : y ∈ W) :
    op.writes ⊆ (W.map (Proc.devRef (τ := τ) .tc)).toFinset := by
  rw [h]; exact Finset.singleton_subset_iff.mpr (List.mem_toFinset.mpr (List.mem_map_of_mem hy))

/-- What stretch 0 writes. -/
def outs0 : List (Ref sig .tc) := [main_v0, main_v1, main_v2, main_v3, main_c, main_v4, main_v5, main_c_0, main_v6, main_v7, main_v8, main_v9, main_v10, main_v11, main_v12, main_v13, main_v14, main_v15, main_v16, main_v17]
theorem writes0 : (rops0 : List (HloOp τ sig (Elt F))).Forall fun op => op.writes ⊆ ((outs0).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step0 (V : Valuation τ sig (Elt F)) (z : Ref sig .tc) (hz : z ∉ outs0) : RV1 V (Proc.devRef .tc z) = RV0 V (Proc.devRef .tc z) :=
  after_of_writes_sub rops0 (RV0 V) (writes0 (F := F)) hz

/-- What stretch 1 writes. -/
def outs1 : List (Ref sig .tc) := [main_v18, main_v19, main_call0_cst, main_call0_v0, main_v20, main_cst, main_v21, main_v22, main_v23, main_v24, main_v25, main_cst_1, main_v26, main_v27, main_v28, main_v29, main_v30, main_v31, main_v32, main_v33]
theorem writes1 : (rops1 : List (HloOp τ sig (Elt F))).Forall fun op => op.writes ⊆ ((outs1).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step1 (V : Valuation τ sig (Elt F)) (z : Ref sig .tc) (hz : z ∉ outs1) : RV2 V (Proc.devRef .tc z) = RV1 V (Proc.devRef .tc z) :=
  after_of_writes_sub rops1 (RV1 V) (writes1 (F := F)) hz

/-- What stretch 2 writes. -/
def outs2 : List (Ref sig .tc) := [main_v34, main_v35, main_v36, main_v37, main_v38, main_v39, main_v40, main_v41, main_cst_2, main_v42, main_cst_3, main_v43, main_v44, main_c_4, main_call1_cst, main_call1_v0, main_call1_v1, main_call1_cst_0, main_call1_v2, main_call1_v3]
theorem writes2 : (rops2 : List (HloOp τ sig (Elt F))).Forall fun op => op.writes ⊆ ((outs2).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step2 (V : Valuation τ sig (Elt F)) (z : Ref sig .tc) (hz : z ∉ outs2) : RV3 V (Proc.devRef .tc z) = RV2 V (Proc.devRef .tc z) :=
  after_of_writes_sub rops2 (RV2 V) (writes2 (F := F)) hz

/-- What stretch 3 writes. -/
def outs3 : List (Ref sig .tc) := [main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v45, main_v46, main_v47, main_v48, main_v49]
theorem writes3 : (rops3 : List (HloOp τ sig (Elt F))).Forall fun op => op.writes ⊆ ((outs3).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step3 (V : Valuation τ sig (Elt F)) (z : Ref sig .tc) (hz : z ∉ outs3) : RV4 V (Proc.devRef .tc z) = RV3 V (Proc.devRef .tc z) :=
  after_of_writes_sub rops3 (RV3 V) (writes3 (F := F)) hz

/-- What stretch 4 writes. -/
def outs4 : List (Ref sig .tc) := [main_v50, main_v51, main_cst_5]
theorem writes4 : (rops4 : List (HloOp τ sig (Elt F))).Forall fun op => op.writes ⊆ ((outs4).map (Proc.devRef (τ := τ) .tc)).toFinset :=
  ⟨writes_sub rfl (by decide), writes_sub rfl (by decide), writes_sub rfl (by decide)⟩
theorem step4 (V : Valuation τ sig (Elt F)) (z : Ref sig .tc) (hz : z ∉ outs4) : RV5 V (Proc.devRef .tc z) = RV4 V (Proc.devRef .tc z) :=
  after_of_writes_sub rops4 (RV4 V) (writes4 (F := F)) hz

/-- What stretch 5 writes. -/
def outs5 : List (Ref sig .tc) := [main_v52, main_v53, main_v54, main_v55, main_v56, main_v57, main_v58, main_v59, main_v60, main_cst_6, main_v61, main_v62, main_cst_7, main_v63, main_v64, main_v65, main_v66, main_v67, main_v68, main_v69]
theorem writes5 : (rops5 : List (HloOp τ sig (Elt F))).Forall fun op => op.writes ⊆ ((outs5).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step5 (V : Valuation τ sig (Elt F)) (z : Ref sig .tc) (hz : z ∉ outs5) : RV6 V (Proc.devRef .tc z) = RV5 V (Proc.devRef .tc z) :=
  after_of_writes_sub rops5 (RV5 V) (writes5 (F := F)) hz

/-- What stretch 6 writes. -/
def outs6 : List (Ref sig .tc) := [main_v70, main_v71, main_v72, main_v73, main_v74, main_v75, main_v76, main_v77, main_cst_8, main_v78, main_cst_9, main_v79, main_v80, main_c_10, main_call3_cst, main_call3_v0, main_call3_v1, main_call3_cst_0, main_call3_v2, main_call3_v3]
theorem writes6 : (rops6 : List (HloOp τ sig (Elt F))).Forall fun op => op.writes ⊆ ((outs6).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step6 (V : Valuation τ sig (Elt F)) (z : Ref sig .tc) (hz : z ∉ outs6) : RV7 V (Proc.devRef .tc z) = RV6 V (Proc.devRef .tc z) :=
  after_of_writes_sub rops6 (RV6 V) (writes6 (F := F)) hz

/-- What stretch 7 writes. -/
def outs7 : List (Ref sig .tc) := [main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v81, main_v82, main_v83, main_v84, main_v85]
theorem writes7 : (rops7 : List (HloOp τ sig (Elt F))).Forall fun op => op.writes ⊆ ((outs7).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step7 (V : Valuation τ sig (Elt F)) (z : Ref sig .tc) (hz : z ∉ outs7) : RV8 V (Proc.devRef .tc z) = RV7 V (Proc.devRef .tc z) :=
  after_of_writes_sub rops7 (RV7 V) (writes7 (F := F)) hz

/-- What stretch 8 writes. -/
def outs8 : List (Ref sig .tc) := [main_v86, main_v87, main_cst_11, main_v88, main_v89, main_v90, main_v91, main_v92, main_v93, main_v94, main_v95, main_v96, main_cst_12, main_v97, main_v98, main_cst_13, main_v99, main_v100, main_v101, main_c_14]
theorem writes8 : (rops8 : List (HloOp τ sig (Elt F))).Forall fun op => op.writes ⊆ ((outs8).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step8 (V : Valuation τ sig (Elt F)) (z : Ref sig .tc) (hz : z ∉ outs8) : RV9 V (Proc.devRef .tc z) = RV8 V (Proc.devRef .tc z) :=
  after_of_writes_sub rops8 (RV8 V) (writes8 (F := F)) hz

/-- What stretch 9 writes. -/
def outs9 : List (Ref sig .tc) := [main_v102]
theorem writes9 : (rops9 : List (HloOp τ sig (Elt F))).Forall fun op => op.writes ⊆ ((outs9).map (Proc.devRef (τ := τ) .tc)).toFinset :=
  writes_sub rfl (by decide)
theorem step9 (V : Valuation τ sig (Elt F)) (z : Ref sig .tc) (hz : z ∉ outs9) : RV10 V (Proc.devRef .tc z) = RV9 V (Proc.devRef .tc z) :=
  after_of_writes_sub rops9 (RV9 V) (writes9 (F := F)) hz

/-- What stretch 10 writes. -/
def outs10 : List (Ref sig .tc) := [main_v103, main_c_15, main_v104, main_v105, main_v106, main_v107, main_v108, main_v109, main_v110, main_v111, main_v112, main_v113, main_v114, main_v115, main_v116, main_v117, main_call5_cst, main_call5_v0, main_v118, main_cst_16]
theorem writes10 : (rops10 : List (HloOp τ sig (Elt F))).Forall fun op => op.writes ⊆ ((outs10).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step10 (V : Valuation τ sig (Elt F)) (z : Ref sig .tc) (hz : z ∉ outs10) : RV11 V (Proc.devRef .tc z) = RV10 V (Proc.devRef .tc z) :=
  after_of_writes_sub rops10 (RV10 V) (writes10 (F := F)) hz

/-- What stretch 11 writes. -/
def outs11 : List (Ref sig .tc) := [main_v119, main_v120, main_v121, main_v122, main_v123, main_cst_17, main_v124, main_v125, main_v126, main_v127, main_v128, main_v129, main_v130, main_v131, main_v132, main_v133, main_v134, main_v135, main_v136, main_v137]
theorem writes11 : (rops11 : List (HloOp τ sig (Elt F))).Forall fun op => op.writes ⊆ ((outs11).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step11 (V : Valuation τ sig (Elt F)) (z : Ref sig .tc) (hz : z ∉ outs11) : RV12 V (Proc.devRef .tc z) = RV11 V (Proc.devRef .tc z) :=
  after_of_writes_sub rops11 (RV11 V) (writes11 (F := F)) hz

/-- What stretch 12 writes. -/
def outs12 : List (Ref sig .tc) := [main_v138, main_v139, main_cst_18, main_v140, main_cst_19, main_v141, main_v142, main_c_20, main_call6_cst, main_call6_v0, main_call6_v1, main_call6_cst_0, main_call6_v2, main_call6_v3, main_call6_v4, main_call6_v5, main_call6_v6, main_call6_v7, main_call6_cst_1, main_call6_v8]
theorem writes12 : (rops12 : List (HloOp τ sig (Elt F))).Forall fun op => op.writes ⊆ ((outs12).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step12 (V : Valuation τ sig (Elt F)) (z : Ref sig .tc) (hz : z ∉ outs12) : RV13 V (Proc.devRef .tc z) = RV12 V (Proc.devRef .tc z) :=
  after_of_writes_sub rops12 (RV12 V) (writes12 (F := F)) hz

/-- What stretch 13 writes. -/
def outs13 : List (Ref sig .tc) := [main_call6_cst_2, main_call6_v9, main_call6_v10, main_call6_v11, main_call6_cst_3, main_call6_v12, main_call6_cst_4, main_call6_call0_v0, main_call6_call0_v1, main_v143, main_v144, main_v145, main_v146, main_v147, main_v148, main_v149, main_cst_21, main_v150, main_v151, main_v152]
theorem writes13 : (rops13 : List (HloOp τ sig (Elt F))).Forall fun op => op.writes ⊆ ((outs13).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step13 (V : Valuation τ sig (Elt F)) (z : Ref sig .tc) (hz : z ∉ outs13) : RV14 V (Proc.devRef .tc z) = RV13 V (Proc.devRef .tc z) :=
  after_of_writes_sub rops13 (RV13 V) (writes13 (F := F)) hz

/-- What stretch 14 writes. -/
def outs14 : List (Ref sig .tc) := [main_v153, main_v154, main_v155]
theorem writes14 : (rops14 : List (HloOp τ sig (Elt F))).Forall fun op => op.writes ⊆ ((outs14).map (Proc.devRef (τ := τ) .tc)).toFinset :=
  ⟨writes_sub rfl (by decide), writes_sub rfl (by decide), writes_sub rfl (by decide)⟩
theorem step14 (V : Valuation τ sig (Elt F)) (z : Ref sig .tc) (hz : z ∉ outs14) : RV15 V (Proc.devRef .tc z) = RV14 V (Proc.devRef .tc z) :=
  after_of_writes_sub rops14 (RV14 V) (writes14 (F := F)) hz

/-- What stretch 15 writes. -/
def outs15 : List (Ref sig .tc) := [main_v156, main_v157, main_v158, main_cst_22, main_v159, main_v160, main_cst_23, main_v161, main_v162, main_v163, main_v164, main_v165, main_v166, main_v167, main_v168, main_v169, main_v170, main_v171, main_v172, main_v173]
theorem writes15 : (rops15 : List (HloOp τ sig (Elt F))).Forall fun op => op.writes ⊆ ((outs15).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step15 (V : Valuation τ sig (Elt F)) (z : Ref sig .tc) (hz : z ∉ outs15) : RV16 V (Proc.devRef .tc z) = RV15 V (Proc.devRef .tc z) :=
  after_of_writes_sub rops15 (RV15 V) (writes15 (F := F)) hz

/-- What stretch 16 writes. -/
def outs16 : List (Ref sig .tc) := [main_v174, main_v175, main_cst_24, main_v176, main_cst_25, main_v177, main_v178, main_c_26, main_call8_cst, main_call8_v0, main_call8_v1, main_call8_cst_0, main_call8_v2, main_call8_v3, main_call8_v4, main_call8_v5, main_call8_v6, main_call8_v7, main_call8_cst_1, main_call8_v8]
theorem writes16 : (rops16 : List (HloOp τ sig (Elt F))).Forall fun op => op.writes ⊆ ((outs16).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step16 (V : Valuation τ sig (Elt F)) (z : Ref sig .tc) (hz : z ∉ outs16) : RV17 V (Proc.devRef .tc z) = RV16 V (Proc.devRef .tc z) :=
  after_of_writes_sub rops16 (RV16 V) (writes16 (F := F)) hz

/-- What stretch 17 writes. -/
def outs17 : List (Ref sig .tc) := [main_call8_cst_2, main_call8_v9, main_call8_v10, main_call8_v11, main_call8_cst_3, main_call8_v12, main_call8_cst_4, main_call8_call0_v0, main_call8_call0_v1, main_v179, main_v180, main_v181, main_v182, main_v183, main_v184, main_v185, main_cst_27, main_v186, main_v187, main_v188]
theorem writes17 : (rops17 : List (HloOp τ sig (Elt F))).Forall fun op => op.writes ⊆ ((outs17).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step17 (V : Valuation τ sig (Elt F)) (z : Ref sig .tc) (hz : z ∉ outs17) : RV18 V (Proc.devRef .tc z) = RV17 V (Proc.devRef .tc z) :=
  after_of_writes_sub rops17 (RV17 V) (writes17 (F := F)) hz

/-- What stretch 18 writes. -/
def outs18 : List (Ref sig .tc) := [main_v189, main_v190, main_v191, main_v192, main_v193, main_v194, main_cst_28, main_v195, main_v196, main_cst_29, main_v197, main_v198, main_v199, main_c_30, main_v200, main_v201, main_c_31, main_v202, main_v203, main_v204]
theorem writes18 : (rops18 : List (HloOp τ sig (Elt F))).Forall fun op => op.writes ⊆ ((outs18).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step18 (V : Valuation τ sig (Elt F)) (z : Ref sig .tc) (hz : z ∉ outs18) : RV19 V (Proc.devRef .tc z) = RV18 V (Proc.devRef .tc z) :=
  after_of_writes_sub rops18 (RV18 V) (writes18 (F := F)) hz

/-- What stretch 19 writes. -/
def outs19 : List (Ref sig .tc) := [main_v205]
theorem writes19 : (rops19 : List (HloOp τ sig (Elt F))).Forall fun op => op.writes ⊆ ((outs19).map (Proc.devRef (τ := τ) .tc)).toFinset :=
  writes_sub rfl (by decide)
theorem step19 (V : Valuation τ sig (Elt F)) (z : Ref sig .tc) (hz : z ∉ outs19) : RV20 V (Proc.devRef .tc z) = RV19 V (Proc.devRef .tc z) :=
  after_of_writes_sub rops19 (RV19 V) (writes19 (F := F)) hz

/-- What stretch 20 writes. -/
def outs20 : List (Ref sig .tc) := [main_v206, main_v207, main_v208, main_v209, main_v210, main_v211, main_v212, main_v213, main_v214, main_v215, main_call10_cst, main_call10_v0, main_v216, main_cst_32, main_v217, main_v218, main_v219, main_v220, main_v221, main_cst_33]
theorem writes20 : (rops20 : List (HloOp τ sig (Elt F))).Forall fun op => op.writes ⊆ ((outs20).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step20 (V : Valuation τ sig (Elt F)) (z : Ref sig .tc) (hz : z ∉ outs20) : RV21 V (Proc.devRef .tc z) = RV20 V (Proc.devRef .tc z) :=
  after_of_writes_sub rops20 (RV20 V) (writes20 (F := F)) hz

/-- What stretch 21 writes. -/
def outs21 : List (Ref sig .tc) := [main_v222, main_v223, main_v224, main_v225, main_v226, main_v227, main_v228, main_v229, main_v230, main_v231, main_v232, main_v233, main_v234, main_v235, main_v236, main_v237, main_cst_34, main_v238, main_cst_35, main_v239]
theorem writes21 : (rops21 : List (HloOp τ sig (Elt F))).Forall fun op => op.writes ⊆ ((outs21).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step21 (V : Valuation τ sig (Elt F)) (z : Ref sig .tc) (hz : z ∉ outs21) : RV22 V (Proc.devRef .tc z) = RV21 V (Proc.devRef .tc z) :=
  after_of_writes_sub rops21 (RV21 V) (writes21 (F := F)) hz

/-- What stretch 22 writes. -/
def outs22 : List (Ref sig .tc) := [main_v240, main_c_36, main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12]
theorem writes22 : (rops22 : List (HloOp τ sig (Elt F))).Forall fun op => op.writes ⊆ ((outs22).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step22 (V : Valuation τ sig (Elt F)) (z : Ref sig .tc) (hz : z ∉ outs22) : RV23 V (Proc.devRef .tc z) = RV22 V (Proc.devRef .tc z) :=
  after_of_writes_sub rops22 (RV22 V) (writes22 (F := F)) hz

/-- What stretch 23 writes. -/
def outs23 : List (Ref sig .tc) := [main_call11_cst_4, main_call11_call0_v0, main_call11_call0_v1, main_v241, main_v242, main_v243, main_v244, main_v245, main_v246, main_v247, main_cst_37, main_v248, main_v249, main_v250, main_v251, main_v252, main_v253, main_v254, main_v255, main_v256]
theorem writes23 : (rops23 : List (HloOp τ sig (Elt F))).Forall fun op => op.writes ⊆ ((outs23).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step23 (V : Valuation τ sig (Elt F)) (z : Ref sig .tc) (hz : z ∉ outs23) : RV24 V (Proc.devRef .tc z) = RV23 V (Proc.devRef .tc z) :=
  after_of_writes_sub rops23 (RV23 V) (writes23 (F := F)) hz

/-- What stretch 24 writes. -/
def outs24 : List (Ref sig .tc) := [main_cst_38, main_v257, main_v258]
theorem writes24 : (rops24 : List (HloOp τ sig (Elt F))).Forall fun op => op.writes ⊆ ((outs24).map (Proc.devRef (τ := τ) .tc)).toFinset :=
  ⟨writes_sub rfl (by decide), writes_sub rfl (by decide), writes_sub rfl (by decide)⟩
theorem step24 (V : Valuation τ sig (Elt F)) (z : Ref sig .tc) (hz : z ∉ outs24) : RV25 V (Proc.devRef .tc z) = RV24 V (Proc.devRef .tc z) :=
  after_of_writes_sub rops24 (RV24 V) (writes24 (F := F)) hz

/-- What stretch 25 writes. -/
def outs25 : List (Ref sig .tc) := [main_cst_39, main_v259, main_v260, main_v261, main_v262, main_v263, main_v264, main_v265, main_v266, main_v267, main_v268, main_v269, main_v270, main_v271, main_v272, main_v273, main_cst_40, main_v274, main_cst_41, main_v275]
theorem writes25 : (rops25 : List (HloOp τ sig (Elt F))).Forall fun op => op.writes ⊆ ((outs25).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step25 (V : Valuation τ sig (Elt F)) (z : Ref sig .tc) (hz : z ∉ outs25) : RV26 V (Proc.devRef .tc z) = RV25 V (Proc.devRef .tc z) :=
  after_of_writes_sub rops25 (RV25 V) (writes25 (F := F)) hz

/-- What stretch 26 writes. -/
def outs26 : List (Ref sig .tc) := [main_v276, main_c_42, main_call13_cst, main_call13_v0, main_call13_v1, main_call13_cst_0, main_call13_v2, main_call13_v3, main_call13_v4, main_call13_v5, main_call13_v6, main_call13_v7, main_call13_cst_1, main_call13_v8, main_call13_cst_2, main_call13_v9, main_call13_v10, main_call13_v11, main_call13_cst_3, main_call13_v12]
theorem writes26 : (rops26 : List (HloOp τ sig (Elt F))).Forall fun op => op.writes ⊆ ((outs26).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step26 (V : Valuation τ sig (Elt F)) (z : Ref sig .tc) (hz : z ∉ outs26) : RV27 V (Proc.devRef .tc z) = RV26 V (Proc.devRef .tc z) :=
  after_of_writes_sub rops26 (RV26 V) (writes26 (F := F)) hz

/-- What stretch 27 writes. -/
def outs27 : List (Ref sig .tc) := [main_call13_cst_4, main_call13_call0_v0, main_call13_call0_v1, main_v277, main_v278, main_v279, main_v280, main_v281, main_v282, main_v283, main_cst_43, main_v284, main_v285, main_v286, main_v287, main_v288, main_v289, main_v290, main_v291, main_v292]
theorem writes27 : (rops27 : List (HloOp τ sig (Elt F))).Forall fun op => op.writes ⊆ ((outs27).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step27 (V : Valuation τ sig (Elt F)) (z : Ref sig .tc) (hz : z ∉ outs27) : RV28 V (Proc.devRef .tc z) = RV27 V (Proc.devRef .tc z) :=
  after_of_writes_sub rops27 (RV27 V) (writes27 (F := F)) hz

/-- What stretch 28 writes. -/
def outs28 : List (Ref sig .tc) := [main_cst_44, main_v293, main_v294, main_cst_45, main_v295, main_v296, main_v297, main_v298, main_v299, main_v300, main_v301, main_v302, main_v303, main_v304, main_v305, main_v306, main_cst_46, main_v307, main_cst_47, main_v308]
theorem writes28 : (rops28 : List (HloOp τ sig (Elt F))).Forall fun op => op.writes ⊆ ((outs28).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step28 (V : Valuation τ sig (Elt F)) (z : Ref sig .tc) (hz : z ∉ outs28) : RV29 V (Proc.devRef .tc z) = RV28 V (Proc.devRef .tc z) :=
  after_of_writes_sub rops28 (RV28 V) (writes28 (F := F)) hz

/-- What stretch 29 writes. -/
def outs29 : List (Ref sig .tc) := [main_v309]
theorem writes29 : (rops29 : List (HloOp τ sig (Elt F))).Forall fun op => op.writes ⊆ ((outs29).map (Proc.devRef (τ := τ) .tc)).toFinset :=
  writes_sub rfl (by decide)
theorem step29 (V : Valuation τ sig (Elt F)) (z : Ref sig .tc) (hz : z ∉ outs29) : RV30 V (Proc.devRef .tc z) = RV29 V (Proc.devRef .tc z) :=
  after_of_writes_sub rops29 (RV29 V) (writes29 (F := F)) hz

/-- What stretch 30 writes. -/
def outs30 : List (Ref sig .tc) := [main_c_48, main_call15_cst, main_call15_v0, main_call15_v1, main_call15_cst_0, main_call15_v2, main_call15_v3, main_call15_v4, main_call15_v5, main_call15_v6, main_call15_v7, main_call15_cst_1, main_call15_v8, main_call15_cst_2, main_call15_v9, main_call15_v10, main_call15_v11, main_call15_cst_3, main_call15_v12, main_call15_cst_4]
theorem writes30 : (rops30 : List (HloOp τ sig (Elt F))).Forall fun op => op.writes ⊆ ((outs30).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step30 (V : Valuation τ sig (Elt F)) (z : Ref sig .tc) (hz : z ∉ outs30) : RV31 V (Proc.devRef .tc z) = RV30 V (Proc.devRef .tc z) :=
  after_of_writes_sub rops30 (RV30 V) (writes30 (F := F)) hz

/-- What stretch 31 writes. -/
def outs31 : List (Ref sig .tc) := [main_call15_call0_v0, main_call15_call0_v1, main_v310, main_v311, main_v312, main_v313, main_v314, main_v315, main_v316, main_cst_49, main_v317, main_v318, main_v319, main_v320, main_v321, main_v322, main_v323, main_v324, main_v325, main_cst_50]
theorem writes31 : (rops31 : List (HloOp τ sig (Elt F))).Forall fun op => op.writes ⊆ ((outs31).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step31 (V : Valuation τ sig (Elt F)) (z : Ref sig .tc) (hz : z ∉ outs31) : RV32 V (Proc.devRef .tc z) = RV31 V (Proc.devRef .tc z) :=
  after_of_writes_sub rops31 (RV31 V) (writes31 (F := F)) hz

/-- What stretch 32 writes. -/
def outs32 : List (Ref sig .tc) := [main_v326, main_v327, main_cst_51, main_v328, main_v329, main_v330, main_v331, main_v332, main_v333, main_v334, main_v335]
theorem writes32 : (rops32 : List (HloOp τ sig (Elt F))).Forall fun op => op.writes ⊆ ((outs32).map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
theorem step32 (V : Valuation τ sig (Elt F)) (z : Ref sig .tc) (hz : z ∉ outs32) : RV33 V (Proc.devRef .tc z) = RV32 V (Proc.devRef .tc z) :=
  after_of_writes_sub rops32 (RV32 V) (writes32 (F := F)) hz

/-- What the stretches from a boundary on write. -/
def later33 : List (Ref sig .tc) := []
def later32 : List (Ref sig .tc) := outs32 ++ later33
def later31 : List (Ref sig .tc) := outs31 ++ later32
def later30 : List (Ref sig .tc) := outs30 ++ later31
def later29 : List (Ref sig .tc) := outs29 ++ later30
def later28 : List (Ref sig .tc) := outs28 ++ later29
def later27 : List (Ref sig .tc) := outs27 ++ later28
def later26 : List (Ref sig .tc) := outs26 ++ later27
def later25 : List (Ref sig .tc) := outs25 ++ later26
def later24 : List (Ref sig .tc) := outs24 ++ later25
def later23 : List (Ref sig .tc) := outs23 ++ later24
def later22 : List (Ref sig .tc) := outs22 ++ later23
def later21 : List (Ref sig .tc) := outs21 ++ later22
def later20 : List (Ref sig .tc) := outs20 ++ later21
def later19 : List (Ref sig .tc) := outs19 ++ later20
def later18 : List (Ref sig .tc) := outs18 ++ later19
def later17 : List (Ref sig .tc) := outs17 ++ later18
def later16 : List (Ref sig .tc) := outs16 ++ later17
def later15 : List (Ref sig .tc) := outs15 ++ later16
def later14 : List (Ref sig .tc) := outs14 ++ later15
def later13 : List (Ref sig .tc) := outs13 ++ later14
def later12 : List (Ref sig .tc) := outs12 ++ later13
def later11 : List (Ref sig .tc) := outs11 ++ later12
def later10 : List (Ref sig .tc) := outs10 ++ later11
def later9 : List (Ref sig .tc) := outs9 ++ later10
def later8 : List (Ref sig .tc) := outs8 ++ later9
def later7 : List (Ref sig .tc) := outs7 ++ later8
def later6 : List (Ref sig .tc) := outs6 ++ later7
def later5 : List (Ref sig .tc) := outs5 ++ later6
def later4 : List (Ref sig .tc) := outs4 ++ later5
def later3 : List (Ref sig .tc) := outs3 ++ later4
def later2 : List (Ref sig .tc) := outs2 ++ later3
def later1 : List (Ref sig .tc) := outs1 ++ later2
def later0 : List (Ref sig .tc) := outs0 ++ later1

theorem lift33 (V : Valuation τ sig (Elt F)) (z : Ref sig .tc) (hz : z ∉ later33) : RV33 V (Proc.devRef .tc z) = RV33 V (Proc.devRef .tc z) := rfl
theorem lift32 (V : Valuation τ sig (Elt F)) (z : Ref sig .tc) (hz : z ∉ later32) : RV33 V (Proc.devRef .tc z) = RV32 V (Proc.devRef .tc z) :=
  (lift33 V z (fun h => hz (List.mem_append_right _ h))).trans (step32 V z (fun h => hz (List.mem_append_left _ h)))
theorem lift31 (V : Valuation τ sig (Elt F)) (z : Ref sig .tc) (hz : z ∉ later31) : RV33 V (Proc.devRef .tc z) = RV31 V (Proc.devRef .tc z) :=
  (lift32 V z (fun h => hz (List.mem_append_right _ h))).trans (step31 V z (fun h => hz (List.mem_append_left _ h)))
theorem lift30 (V : Valuation τ sig (Elt F)) (z : Ref sig .tc) (hz : z ∉ later30) : RV33 V (Proc.devRef .tc z) = RV30 V (Proc.devRef .tc z) :=
  (lift31 V z (fun h => hz (List.mem_append_right _ h))).trans (step30 V z (fun h => hz (List.mem_append_left _ h)))
theorem lift29 (V : Valuation τ sig (Elt F)) (z : Ref sig .tc) (hz : z ∉ later29) : RV33 V (Proc.devRef .tc z) = RV29 V (Proc.devRef .tc z) :=
  (lift30 V z (fun h => hz (List.mem_append_right _ h))).trans (step29 V z (fun h => hz (List.mem_append_left _ h)))
theorem lift28 (V : Valuation τ sig (Elt F)) (z : Ref sig .tc) (hz : z ∉ later28) : RV33 V (Proc.devRef .tc z) = RV28 V (Proc.devRef .tc z) :=
  (lift29 V z (fun h => hz (List.mem_append_right _ h))).trans (step28 V z (fun h => hz (List.mem_append_left _ h)))
theorem lift27 (V : Valuation τ sig (Elt F)) (z : Ref sig .tc) (hz : z ∉ later27) : RV33 V (Proc.devRef .tc z) = RV27 V (Proc.devRef .tc z) :=
  (lift28 V z (fun h => hz (List.mem_append_right _ h))).trans (step27 V z (fun h => hz (List.mem_append_left _ h)))
theorem lift26 (V : Valuation τ sig (Elt F)) (z : Ref sig .tc) (hz : z ∉ later26) : RV33 V (Proc.devRef .tc z) = RV26 V (Proc.devRef .tc z) :=
  (lift27 V z (fun h => hz (List.mem_append_right _ h))).trans (step26 V z (fun h => hz (List.mem_append_left _ h)))
theorem lift25 (V : Valuation τ sig (Elt F)) (z : Ref sig .tc) (hz : z ∉ later25) : RV33 V (Proc.devRef .tc z) = RV25 V (Proc.devRef .tc z) :=
  (lift26 V z (fun h => hz (List.mem_append_right _ h))).trans (step25 V z (fun h => hz (List.mem_append_left _ h)))
theorem lift24 (V : Valuation τ sig (Elt F)) (z : Ref sig .tc) (hz : z ∉ later24) : RV33 V (Proc.devRef .tc z) = RV24 V (Proc.devRef .tc z) :=
  (lift25 V z (fun h => hz (List.mem_append_right _ h))).trans (step24 V z (fun h => hz (List.mem_append_left _ h)))
theorem lift23 (V : Valuation τ sig (Elt F)) (z : Ref sig .tc) (hz : z ∉ later23) : RV33 V (Proc.devRef .tc z) = RV23 V (Proc.devRef .tc z) :=
  (lift24 V z (fun h => hz (List.mem_append_right _ h))).trans (step23 V z (fun h => hz (List.mem_append_left _ h)))
theorem lift22 (V : Valuation τ sig (Elt F)) (z : Ref sig .tc) (hz : z ∉ later22) : RV33 V (Proc.devRef .tc z) = RV22 V (Proc.devRef .tc z) :=
  (lift23 V z (fun h => hz (List.mem_append_right _ h))).trans (step22 V z (fun h => hz (List.mem_append_left _ h)))
theorem lift21 (V : Valuation τ sig (Elt F)) (z : Ref sig .tc) (hz : z ∉ later21) : RV33 V (Proc.devRef .tc z) = RV21 V (Proc.devRef .tc z) :=
  (lift22 V z (fun h => hz (List.mem_append_right _ h))).trans (step21 V z (fun h => hz (List.mem_append_left _ h)))
theorem lift20 (V : Valuation τ sig (Elt F)) (z : Ref sig .tc) (hz : z ∉ later20) : RV33 V (Proc.devRef .tc z) = RV20 V (Proc.devRef .tc z) :=
  (lift21 V z (fun h => hz (List.mem_append_right _ h))).trans (step20 V z (fun h => hz (List.mem_append_left _ h)))
theorem lift19 (V : Valuation τ sig (Elt F)) (z : Ref sig .tc) (hz : z ∉ later19) : RV33 V (Proc.devRef .tc z) = RV19 V (Proc.devRef .tc z) :=
  (lift20 V z (fun h => hz (List.mem_append_right _ h))).trans (step19 V z (fun h => hz (List.mem_append_left _ h)))
theorem lift18 (V : Valuation τ sig (Elt F)) (z : Ref sig .tc) (hz : z ∉ later18) : RV33 V (Proc.devRef .tc z) = RV18 V (Proc.devRef .tc z) :=
  (lift19 V z (fun h => hz (List.mem_append_right _ h))).trans (step18 V z (fun h => hz (List.mem_append_left _ h)))
theorem lift17 (V : Valuation τ sig (Elt F)) (z : Ref sig .tc) (hz : z ∉ later17) : RV33 V (Proc.devRef .tc z) = RV17 V (Proc.devRef .tc z) :=
  (lift18 V z (fun h => hz (List.mem_append_right _ h))).trans (step17 V z (fun h => hz (List.mem_append_left _ h)))
theorem lift16 (V : Valuation τ sig (Elt F)) (z : Ref sig .tc) (hz : z ∉ later16) : RV33 V (Proc.devRef .tc z) = RV16 V (Proc.devRef .tc z) :=
  (lift17 V z (fun h => hz (List.mem_append_right _ h))).trans (step16 V z (fun h => hz (List.mem_append_left _ h)))
theorem lift15 (V : Valuation τ sig (Elt F)) (z : Ref sig .tc) (hz : z ∉ later15) : RV33 V (Proc.devRef .tc z) = RV15 V (Proc.devRef .tc z) :=
  (lift16 V z (fun h => hz (List.mem_append_right _ h))).trans (step15 V z (fun h => hz (List.mem_append_left _ h)))
theorem lift14 (V : Valuation τ sig (Elt F)) (z : Ref sig .tc) (hz : z ∉ later14) : RV33 V (Proc.devRef .tc z) = RV14 V (Proc.devRef .tc z) :=
  (lift15 V z (fun h => hz (List.mem_append_right _ h))).trans (step14 V z (fun h => hz (List.mem_append_left _ h)))
theorem lift13 (V : Valuation τ sig (Elt F)) (z : Ref sig .tc) (hz : z ∉ later13) : RV33 V (Proc.devRef .tc z) = RV13 V (Proc.devRef .tc z) :=
  (lift14 V z (fun h => hz (List.mem_append_right _ h))).trans (step13 V z (fun h => hz (List.mem_append_left _ h)))
theorem lift12 (V : Valuation τ sig (Elt F)) (z : Ref sig .tc) (hz : z ∉ later12) : RV33 V (Proc.devRef .tc z) = RV12 V (Proc.devRef .tc z) :=
  (lift13 V z (fun h => hz (List.mem_append_right _ h))).trans (step12 V z (fun h => hz (List.mem_append_left _ h)))
theorem lift11 (V : Valuation τ sig (Elt F)) (z : Ref sig .tc) (hz : z ∉ later11) : RV33 V (Proc.devRef .tc z) = RV11 V (Proc.devRef .tc z) :=
  (lift12 V z (fun h => hz (List.mem_append_right _ h))).trans (step11 V z (fun h => hz (List.mem_append_left _ h)))
theorem lift10 (V : Valuation τ sig (Elt F)) (z : Ref sig .tc) (hz : z ∉ later10) : RV33 V (Proc.devRef .tc z) = RV10 V (Proc.devRef .tc z) :=
  (lift11 V z (fun h => hz (List.mem_append_right _ h))).trans (step10 V z (fun h => hz (List.mem_append_left _ h)))
theorem lift9 (V : Valuation τ sig (Elt F)) (z : Ref sig .tc) (hz : z ∉ later9) : RV33 V (Proc.devRef .tc z) = RV9 V (Proc.devRef .tc z) :=
  (lift10 V z (fun h => hz (List.mem_append_right _ h))).trans (step9 V z (fun h => hz (List.mem_append_left _ h)))
theorem lift8 (V : Valuation τ sig (Elt F)) (z : Ref sig .tc) (hz : z ∉ later8) : RV33 V (Proc.devRef .tc z) = RV8 V (Proc.devRef .tc z) :=
  (lift9 V z (fun h => hz (List.mem_append_right _ h))).trans (step8 V z (fun h => hz (List.mem_append_left _ h)))
theorem lift7 (V : Valuation τ sig (Elt F)) (z : Ref sig .tc) (hz : z ∉ later7) : RV33 V (Proc.devRef .tc z) = RV7 V (Proc.devRef .tc z) :=
  (lift8 V z (fun h => hz (List.mem_append_right _ h))).trans (step7 V z (fun h => hz (List.mem_append_left _ h)))
theorem lift6 (V : Valuation τ sig (Elt F)) (z : Ref sig .tc) (hz : z ∉ later6) : RV33 V (Proc.devRef .tc z) = RV6 V (Proc.devRef .tc z) :=
  (lift7 V z (fun h => hz (List.mem_append_right _ h))).trans (step6 V z (fun h => hz (List.mem_append_left _ h)))
theorem lift5 (V : Valuation τ sig (Elt F)) (z : Ref sig .tc) (hz : z ∉ later5) : RV33 V (Proc.devRef .tc z) = RV5 V (Proc.devRef .tc z) :=
  (lift6 V z (fun h => hz (List.mem_append_right _ h))).trans (step5 V z (fun h => hz (List.mem_append_left _ h)))
theorem lift4 (V : Valuation τ sig (Elt F)) (z : Ref sig .tc) (hz : z ∉ later4) : RV33 V (Proc.devRef .tc z) = RV4 V (Proc.devRef .tc z) :=
  (lift5 V z (fun h => hz (List.mem_append_right _ h))).trans (step4 V z (fun h => hz (List.mem_append_left _ h)))
theorem lift3 (V : Valuation τ sig (Elt F)) (z : Ref sig .tc) (hz : z ∉ later3) : RV33 V (Proc.devRef .tc z) = RV3 V (Proc.devRef .tc z) :=
  (lift4 V z (fun h => hz (List.mem_append_right _ h))).trans (step3 V z (fun h => hz (List.mem_append_left _ h)))
theorem lift2 (V : Valuation τ sig (Elt F)) (z : Ref sig .tc) (hz : z ∉ later2) : RV33 V (Proc.devRef .tc z) = RV2 V (Proc.devRef .tc z) :=
  (lift3 V z (fun h => hz (List.mem_append_right _ h))).trans (step2 V z (fun h => hz (List.mem_append_left _ h)))
theorem lift1 (V : Valuation τ sig (Elt F)) (z : Ref sig .tc) (hz : z ∉ later1) : RV33 V (Proc.devRef .tc z) = RV1 V (Proc.devRef .tc z) :=
  (lift2 V z (fun h => hz (List.mem_append_right _ h))).trans (step1 V z (fun h => hz (List.mem_append_left _ h)))
theorem lift0 (V : Valuation τ sig (Elt F)) (z : Ref sig .tc) (hz : z ∉ later0) : RV33 V (Proc.devRef .tc z) = RV0 V (Proc.devRef .tc z) :=
  (lift1 V z (fun h => hz (List.mem_append_right _ h))).trans (step0 V z (fun h => hz (List.mem_append_left _ h)))

end Cert.ReferenceIdeal.Tab

end
-- ==== Proof.TabRSsa0.lean ====
/- Stretches 0 to 4 of the reference program read one operation at a time: each buffer a stretch writes holds its operation's function
   of the operands, within the stretch from any contents and, at the end of the run, over the final contents. -/
import proofs.«409037_j72164040508123_1_alg».proof.Proof.TabR

set_option maxRecDepth 16384

noncomputable section

namespace Cert.ReferenceIdeal.Tab

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

theorem ssa_main_v0 (V : Valuation τ sig (Elt F)) :
    after rops0 V (Proc.devRef .tc main_v0) = (StableHlo.unary main_arg3 main_v0 ((extractStridedSlice S1x1600000 ![0, 0] · slices_S2x1600000_S1x1600000_0_0) : (⟨S2x1600000, .i32⟩ : BufTy).Contents (Elt F) → (⟨S1x1600000, .i32⟩ : BufTy).Contents (Elt F)) : HloOp τ sig (Elt F)).result (after rops0 V) (Proc.devRef .tc main_v0) := by
  after_results_simp
theorem fin_main_v0 (V : Valuation τ sig (Elt F)) :
    RV33 V (Proc.devRef .tc main_v0) = (StableHlo.unary main_arg3 main_v0 ((extractStridedSlice S1x1600000 ![0, 0] · slices_S2x1600000_S1x1600000_0_0) : (⟨S2x1600000, .i32⟩ : BufTy).Contents (Elt F) → (⟨S1x1600000, .i32⟩ : BufTy).Contents (Elt F)) : HloOp τ sig (Elt F)).result (RV33 V) (Proc.devRef .tc main_v0) := by
  have h := ssa_main_v0 (F := F) (RV0 V)
  rw [unary_result] at h ⊢
  rw [lift1 V main_v0 (by decide), lift1 V main_arg3 (by decide)]
  exact h

theorem ssa_main_v1 (V : Valuation τ sig (Elt F)) :
    after rops0 V (Proc.devRef .tc main_v1) = (StableHlo.reshape main_v0 main_v1 rfl shapeCasts_S1x1600000_S1600000 : HloOp τ sig (Elt F)).result (after rops0 V) (Proc.devRef .tc main_v1) := by
  after_results_simp
theorem fin_main_v1 (V : Valuation τ sig (Elt F)) :
    RV33 V (Proc.devRef .tc main_v1) = (StableHlo.reshape main_v0 main_v1 rfl shapeCasts_S1x1600000_S1600000 : HloOp τ sig (Elt F)).result (RV33 V) (Proc.devRef .tc main_v1) := by
  have h := ssa_main_v1 (F := F) (RV0 V)
  rw [reshape_result] at h ⊢
  rw [lift1 V main_v1 (by decide), lift1 V main_v0 (by decide)]
  exact h

theorem ssa_main_v2 (V : Valuation τ sig (Elt F)) :
    after rops0 V (Proc.devRef .tc main_v2) = (StableHlo.unary main_arg3 main_v2 ((extractStridedSlice S1x1600000 ![1, 0] · slices_S2x1600000_S1x1600000_1_0) : (⟨S2x1600000, .i32⟩ : BufTy).Contents (Elt F) → (⟨S1x1600000, .i32⟩ : BufTy).Contents (Elt F)) : HloOp τ sig (Elt F)).result (after rops0 V) (Proc.devRef .tc main_v2) := by
  after_results_simp
theorem fin_main_v2 (V : Valuation τ sig (Elt F)) :
    RV33 V (Proc.devRef .tc main_v2) = (StableHlo.unary main_arg3 main_v2 ((extractStridedSlice S1x1600000 ![1, 0] · slices_S2x1600000_S1x1600000_1_0) : (⟨S2x1600000, .i32⟩ : BufTy).Contents (Elt F) → (⟨S1x1600000, .i32⟩ : BufTy).Contents (Elt F)) : HloOp τ sig (Elt F)).result (RV33 V) (Proc.devRef .tc main_v2) := by
  have h := ssa_main_v2 (F := F) (RV0 V)
  rw [unary_result] at h ⊢
  rw [lift1 V main_v2 (by decide), lift1 V main_arg3 (by decide)]
  exact h

theorem ssa_main_v3 (V : Valuation τ sig (Elt F)) :
    after rops0 V (Proc.devRef .tc main_v3) = (StableHlo.reshape main_v2 main_v3 rfl shapeCasts_S1x1600000_S1600000 : HloOp τ sig (Elt F)).result (after rops0 V) (Proc.devRef .tc main_v3) := by
  after_results_simp
theorem fin_main_v3 (V : Valuation τ sig (Elt F)) :
    RV33 V (Proc.devRef .tc main_v3) = (StableHlo.reshape main_v2 main_v3 rfl shapeCasts_S1x1600000_S1600000 : HloOp τ sig (Elt F)).result (RV33 V) (Proc.devRef .tc main_v3) := by
  have h := ssa_main_v3 (F := F) (RV0 V)
  rw [reshape_result] at h ⊢
  rw [lift1 V main_v3 (by decide), lift1 V main_v2 (by decide)]
  exact h

theorem ssa_main_c (V : Valuation τ sig (Elt F)) :
    after rops0 V (Proc.devRef .tc main_c) = (StableHlo.nullary main_c (constantI S_ 32 0#32) : HloOp τ sig (Elt F)).result (after rops0 V) (Proc.devRef .tc main_c) := by
  after_results_simp
theorem fin_main_c (V : Valuation τ sig (Elt F)) :
    RV33 V (Proc.devRef .tc main_c) = (StableHlo.nullary main_c (constantI S_ 32 0#32) : HloOp τ sig (Elt F)).result (RV33 V) (Proc.devRef .tc main_c) := by
  have h := ssa_main_c (F := F) (RV0 V)
  rw [nullary_result] at h ⊢
  rw [lift1 V main_c (by decide)]
  exact h

theorem ssa_main_v4 (V : Valuation τ sig (Elt F)) :
    after rops0 V (Proc.devRef .tc main_v4) = (StableHlo.unary main_c main_v4 (broadcastInDim S1600000 ![] bcast_S_S1600000 : (⟨S_, .i32⟩ : BufTy).Contents (Elt F) → (⟨S1600000, .i32⟩ : BufTy).Contents (Elt F)) : HloOp τ sig (Elt F)).result (after rops0 V) (Proc.devRef .tc main_v4) := by
  after_results_simp
theorem fin_main_v4 (V : Valuation τ sig (Elt F)) :
    RV33 V (Proc.devRef .tc main_v4) = (StableHlo.unary main_c main_v4 (broadcastInDim S1600000 ![] bcast_S_S1600000 : (⟨S_, .i32⟩ : BufTy).Contents (Elt F) → (⟨S1600000, .i32⟩ : BufTy).Contents (Elt F)) : HloOp τ sig (Elt F)).result (RV33 V) (Proc.devRef .tc main_v4) := by
  have h := ssa_main_v4 (F := F) (RV0 V)
  rw [unary_result] at h ⊢
  rw [lift1 V main_v4 (by decide), lift1 V main_c (by decide)]
  exact h

theorem ssa_main_v5 (V : Valuation τ sig (Elt F)) :
    after rops0 V (Proc.devRef .tc main_v5) = (StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)) : HloOp τ sig (Elt F)).result (after rops0 V) (Proc.devRef .tc main_v5) := by
  after_results_simp
theorem fin_main_v5 (V : Valuation τ sig (Elt F)) :
    RV33 V (Proc.devRef .tc main_v5) = (StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)) : HloOp τ sig (Elt F)).result (RV33 V) (Proc.devRef .tc main_v5) := by
  have h := ssa_main_v5 (F := F) (RV0 V)
  rw [binary_result] at h ⊢
  rw [lift1 V main_v5 (by decide), lift1 V main_v1 (by decide), lift1 V main_v4 (by decide)]
  exact h

theorem ssa_main_c_0 (V : Valuation τ sig (Elt F)) :
    after rops0 V (Proc.devRef .tc main_c_0) = (StableHlo.nullary main_c_0 (constantI S_ 32 100000#32) : HloOp τ sig (Elt F)).result (after rops0 V) (Proc.devRef .tc main_c_0) := by
  after_results_simp
theorem fin_main_c_0 (V : Valuation τ sig (Elt F)) :
    RV33 V (Proc.devRef .tc main_c_0) = (StableHlo.nullary main_c_0 (constantI S_ 32 100000#32) : HloOp τ sig (Elt F)).result (RV33 V) (Proc.devRef .tc main_c_0) := by
  have h := ssa_main_c_0 (F := F) (RV0 V)
  rw [nullary_result] at h ⊢
  rw [lift1 V main_c_0 (by decide)]
  exact h

theorem ssa_main_v6 (V : Valuation τ sig (Elt F)) :
    after rops0 V (Proc.devRef .tc main_v6) = (StableHlo.unary main_c_0 main_v6 (broadcastInDim S1600000 ![] bcast_S_S1600000 : (⟨S_, .i32⟩ : BufTy).Contents (Elt F) → (⟨S1600000, .i32⟩ : BufTy).Contents (Elt F)) : HloOp τ sig (Elt F)).result (after rops0 V) (Proc.devRef .tc main_v6) := by
  after_results_simp
theorem fin_main_v6 (V : Valuation τ sig (Elt F)) :
    RV33 V (Proc.devRef .tc main_v6) = (StableHlo.unary main_c_0 main_v6 (broadcastInDim S1600000 ![] bcast_S_S1600000 : (⟨S_, .i32⟩ : BufTy).Contents (Elt F) → (⟨S1600000, .i32⟩ : BufTy).Contents (Elt F)) : HloOp τ sig (Elt F)).result (RV33 V) (Proc.devRef .tc main_v6) := by
  have h := ssa_main_v6 (F := F) (RV0 V)
  rw [unary_result] at h ⊢
  rw [lift1 V main_v6 (by decide), lift1 V main_c_0 (by decide)]
  exact h

theorem ssa_main_v7 (V : Valuation τ sig (Elt F)) :
    after rops0 V (Proc.devRef .tc main_v7) = (StableHlo.binary main_v1 main_v6 main_v7 (addi : (⟨S1600000, .i32⟩ : BufTy).Contents (Elt F) → (⟨S1600000, .i32⟩ : BufTy).Contents (Elt F) → (⟨S1600000, .i32⟩ : BufTy).Contents (Elt F)) : HloOp τ sig (Elt F)).result (after rops0 V) (Proc.devRef .tc main_v7) := by
  after_results_simp
theorem fin_main_v7 (V : Valuation τ sig (Elt F)) :
    RV33 V (Proc.devRef .tc main_v7) = (StableHlo.binary main_v1 main_v6 main_v7 (addi : (⟨S1600000, .i32⟩ : BufTy).Contents (Elt F) → (⟨S1600000, .i32⟩ : BufTy).Contents (Elt F) → (⟨S1600000, .i32⟩ : BufTy).Contents (Elt F)) : HloOp τ sig (Elt F)).result (RV33 V) (Proc.devRef .tc main_v7) := by
  have h := ssa_main_v7 (F := F) (RV0 V)
  rw [binary_result] at h ⊢
  rw [lift1 V main_v7 (by decide), lift1 V main_v1 (by decide), lift1 V main_v6 (by decide)]
  exact h

theorem ssa_main_v8 (V : Valuation τ sig (Elt F)) :
    after rops0 V (Proc.devRef .tc main_v8) = (StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) : HloOp τ sig (Elt F)).result (after rops0 V) (Proc.devRef .tc main_v8) := by
  after_results_simp
theorem fin_main_v8 (V : Valuation τ sig (Elt F)) :
    RV33 V (Proc.devRef .tc main_v8) = (StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) : HloOp τ sig (Elt F)).result (RV33 V) (Proc.devRef .tc main_v8) := by
  have h := ssa_main_v8 (F := F) (RV0 V)
  rw [ternary_result] at h ⊢
  rw [lift1 V main_v8 (by decide), lift1 V main_v5 (by decide), lift1 V main_v7 (by decide), lift1 V main_v1 (by decide)]
  exact h

theorem ssa_main_v9 (V : Valuation τ sig (Elt F)) :
    after rops0 V (Proc.devRef .tc main_v9) = (StableHlo.unary main_v8 main_v9 (broadcastInDim S1600000x1 ![0] bcast_S1600000_S1600000x1_0 : (⟨S1600000, .i32⟩ : BufTy).Contents (Elt F) → (⟨S1600000x1, .i32⟩ : BufTy).Contents (Elt F)) : HloOp τ sig (Elt F)).result (after rops0 V) (Proc.devRef .tc main_v9) := by
  after_results_simp
theorem fin_main_v9 (V : Valuation τ sig (Elt F)) :
    RV33 V (Proc.devRef .tc main_v9) = (StableHlo.unary main_v8 main_v9 (broadcastInDim S1600000x1 ![0] bcast_S1600000_S1600000x1_0 : (⟨S1600000, .i32⟩ : BufTy).Contents (Elt F) → (⟨S1600000x1, .i32⟩ : BufTy).Contents (Elt F)) : HloOp τ sig (Elt F)).result (RV33 V) (Proc.devRef .tc main_v9) := by
  have h := ssa_main_v9 (F := F) (RV0 V)
  rw [unary_result] at h ⊢
  rw [lift1 V main_v9 (by decide), lift1 V main_v8 (by decide)]
  exact h

theorem ssa_main_v10 (V : Valuation τ sig (Elt F)) :
    after rops0 V (Proc.devRef .tc main_v10) = (StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) : HloOp τ sig (Elt F)).result (after rops0 V) (Proc.devRef .tc main_v10) := by
  after_results_simp
theorem fin_main_v10 (V : Valuation τ sig (Elt F)) :
    RV33 V (Proc.devRef .tc main_v10) = (StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) : HloOp τ sig (Elt F)).result (RV33 V) (Proc.devRef .tc main_v10) := by
  have h := ssa_main_v10 (F := F) (RV0 V)
  rw [binary_result] at h ⊢
  rw [lift1 V main_v10 (by decide), lift1 V main_arg0 (by decide), lift1 V main_v9 (by decide)]
  exact h

theorem ssa_main_v11 (V : Valuation τ sig (Elt F)) :
    after rops0 V (Proc.devRef .tc main_v11) = (StableHlo.unary main_arg4 main_v11 ((extractStridedSlice S1x16x64 ![0, 0, 0] · slices_S3x16x64_S1x16x64_0_0_0) : (⟨S3x16x64, .f32⟩ : BufTy).Contents (Elt F) → (⟨S1x16x64, .f32⟩ : BufTy).Contents (Elt F)) : HloOp τ sig (Elt F)).result (after rops0 V) (Proc.devRef .tc main_v11) := by
  after_results_simp
theorem fin_main_v11 (V : Valuation τ sig (Elt F)) :
    RV33 V (Proc.devRef .tc main_v11) = (StableHlo.unary main_arg4 main_v11 ((extractStridedSlice S1x16x64 ![0, 0, 0] · slices_S3x16x64_S1x16x64_0_0_0) : (⟨S3x16x64, .f32⟩ : BufTy).Contents (Elt F) → (⟨S1x16x64, .f32⟩ : BufTy).Contents (Elt F)) : HloOp τ sig (Elt F)).result (RV33 V) (Proc.devRef .tc main_v11) := by
  have h := ssa_main_v11 (F := F) (RV0 V)
  rw [unary_result] at h ⊢
  rw [lift1 V main_v11 (by decide), lift1 V main_arg4 (by decide)]
  exact h

theorem ssa_main_v12 (V : Valuation τ sig (Elt F)) :
    after rops0 V (Proc.devRef .tc main_v12) = (StableHlo.reshape main_v11 main_v12 rfl shapeCasts_S1x16x64_S16x64 : HloOp τ sig (Elt F)).result (after rops0 V) (Proc.devRef .tc main_v12) := by
  after_results_simp
theorem fin_main_v12 (V : Valuation τ sig (Elt F)) :
    RV33 V (Proc.devRef .tc main_v12) = (StableHlo.reshape main_v11 main_v12 rfl shapeCasts_S1x16x64_S16x64 : HloOp τ sig (Elt F)).result (RV33 V) (Proc.devRef .tc main_v12) := by
  have h := ssa_main_v12 (F := F) (RV0 V)
  rw [reshape_result] at h ⊢
  rw [lift1 V main_v12 (by decide), lift1 V main_v11 (by decide)]
  exact h

theorem ssa_main_v13 (V : Valuation τ sig (Elt F)) :
    after rops0 V (Proc.devRef .tc main_v13) = (StableHlo.binary main_arg1 main_v12 main_v13 ((fun l r => Host.dotGeneral dot_S1600000x16_S16x64_S1600000x64_1_0_0_1_n_n none l r) : (⟨S1600000x16, .f32⟩ : BufTy).Contents (Elt F) → (⟨S16x64, .f32⟩ : BufTy).Contents (Elt F) → (⟨S1600000x64, .f32⟩ : BufTy).Contents (Elt F)) : HloOp τ sig (Elt F)).result (after rops0 V) (Proc.devRef .tc main_v13) := by
  after_results_simp
theorem fin_main_v13 (V : Valuation τ sig (Elt F)) :
    RV33 V (Proc.devRef .tc main_v13) = (StableHlo.binary main_arg1 main_v12 main_v13 ((fun l r => Host.dotGeneral dot_S1600000x16_S16x64_S1600000x64_1_0_0_1_n_n none l r) : (⟨S1600000x16, .f32⟩ : BufTy).Contents (Elt F) → (⟨S16x64, .f32⟩ : BufTy).Contents (Elt F) → (⟨S1600000x64, .f32⟩ : BufTy).Contents (Elt F)) : HloOp τ sig (Elt F)).result (RV33 V) (Proc.devRef .tc main_v13) := by
  have h := ssa_main_v13 (F := F) (RV0 V)
  rw [binary_result] at h ⊢
  rw [lift1 V main_v13 (by decide), lift1 V main_arg1 (by decide), lift1 V main_v12 (by decide)]
  exact h

theorem ssa_main_v14 (V : Valuation τ sig (Elt F)) :
    after rops0 V (Proc.devRef .tc main_v14) = (StableHlo.binary main_v10 main_v13 main_v14 (addf : (⟨S1600000x64, .f32⟩ : BufTy).Contents (Elt F) → (⟨S1600000x64, .f32⟩ : BufTy).Contents (Elt F) → (⟨S1600000x64, .f32⟩ : BufTy).Contents (Elt F)) : HloOp τ sig (Elt F)).result (after rops0 V) (Proc.devRef .tc main_v14) := by
  after_results_simp
theorem fin_main_v14 (V : Valuation τ sig (Elt F)) :
    RV33 V (Proc.devRef .tc main_v14) = (StableHlo.binary main_v10 main_v13 main_v14 (addf : (⟨S1600000x64, .f32⟩ : BufTy).Contents (Elt F) → (⟨S1600000x64, .f32⟩ : BufTy).Contents (Elt F) → (⟨S1600000x64, .f32⟩ : BufTy).Contents (Elt F)) : HloOp τ sig (Elt F)).result (RV33 V) (Proc.devRef .tc main_v14) := by
  have h := ssa_main_v14 (F := F) (RV0 V)
  rw [binary_result] at h ⊢
  rw [lift1 V main_v14 (by decide), lift1 V main_v10 (by decide), lift1 V main_v13 (by decide)]
  exact h

theorem ssa_main_v15 (V : Valuation τ sig (Elt F)) :
    after rops0 V (Proc.devRef .tc main_v15) = (StableHlo.unary main_arg5 main_v15 ((extractStridedSlice S1x64 ![0, 0] · slices_S3x64_S1x64_0_0) : (⟨S3x64, .f32⟩ : BufTy).Contents (Elt F) → (⟨S1x64, .f32⟩ : BufTy).Contents (Elt F)) : HloOp τ sig (Elt F)).result (after rops0 V) (Proc.devRef .tc main_v15) := by
  after_results_simp
theorem fin_main_v15 (V : Valuation τ sig (Elt F)) :
    RV33 V (Proc.devRef .tc main_v15) = (StableHlo.unary main_arg5 main_v15 ((extractStridedSlice S1x64 ![0, 0] · slices_S3x64_S1x64_0_0) : (⟨S3x64, .f32⟩ : BufTy).Contents (Elt F) → (⟨S1x64, .f32⟩ : BufTy).Contents (Elt F)) : HloOp τ sig (Elt F)).result (RV33 V) (Proc.devRef .tc main_v15) := by
  have h := ssa_main_v15 (F := F) (RV0 V)
  rw [unary_result] at h ⊢
  rw [lift1 V main_v15 (by decide), lift1 V main_arg5 (by decide)]
  exact h

theorem ssa_main_v16 (V : Valuation τ sig (Elt F)) :
    after rops0 V (Proc.devRef .tc main_v16) = (StableHlo.reshape main_v15 main_v16 rfl shapeCasts_S1x64_S64 : HloOp τ sig (Elt F)).result (after rops0 V) (Proc.devRef .tc main_v16) := by
  after_results_simp
theorem fin_main_v16 (V : Valuation τ sig (Elt F)) :
    RV33 V (Proc.devRef .tc main_v16) = (StableHlo.reshape main_v15 main_v16 rfl shapeCasts_S1x64_S64 : HloOp τ sig (Elt F)).result (RV33 V) (Proc.devRef .tc main_v16) := by
  have h := ssa_main_v16 (F := F) (RV0 V)
  rw [reshape_result] at h ⊢
  rw [lift1 V main_v16 (by decide), lift1 V main_v15 (by decide)]
  exact h

theorem ssa_main_v17 (V : Valuation τ sig (Elt F)) :
    after rops0 V (Proc.devRef .tc main_v17) = (StableHlo.unary main_v16 main_v17 (broadcastInDim S1x64 ![1] bcast_S64_S1x64_1 : (⟨S64, .f32⟩ : BufTy).Contents (Elt F) → (⟨S1x64, .f32⟩ : BufTy).Contents (Elt F)) : HloOp τ sig (Elt F)).result (after rops0 V) (Proc.devRef .tc main_v17) := by
  after_results_simp
theorem fin_main_v17 (V : Valuation τ sig (Elt F)) :
    RV33 V (Proc.devRef .tc main_v17) = (StableHlo.unary main_v16 main_v17 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v17) := by
  have h := ssa_main_v17 (F := F) (RV0 V)
  rw [unary_result] at h ⊢
  rw [lift1 V main_v17 (by decide), lift1 V main_v16 (by decide)]
  exact h

theorem ssa_main_v18 (V : Valuation τ sig (Elt F)) :
    after rops1 V (Proc.devRef .tc main_v18) = (StableHlo.unary main_v17 main_v18 (broadcastInDim S1600000x64 ![0, 1] bcast_S1x64_S1600000x64_0_1 : (⟨S1x64, .f32⟩ : BufTy).Contents (Elt F) → (⟨S1600000x64, .f32⟩ : BufTy).Contents (Elt F)) : HloOp τ sig (Elt F)).result (after rops1 V) (Proc.devRef .tc main_v18) := by
  after_results_simp
theorem fin_main_v18 (V : Valuation τ sig (Elt F)) :
    RV33 V (Proc.devRef .tc main_v18) = (StableHlo.unary main_v17 main_v18 (broadcastInDim S1600000x64 ![0, 1] bcast_S1x64_S1600000x64_0_1 : (⟨S1x64, .f32⟩ : BufTy).Contents (Elt F) → (⟨S1600000x64, .f32⟩ : BufTy).Contents (Elt F)) : HloOp τ sig (Elt F)).result (RV33 V) (Proc.devRef .tc main_v18) := by
  have h := ssa_main_v18 (F := F) (RV1 V)
  rw [unary_result] at h ⊢
  rw [lift2 V main_v18 (by decide), lift2 V main_v17 (by decide)]
  exact h

theorem ssa_main_v19 (V : Valuation τ sig (Elt F)) :
    after rops1 V (Proc.devRef .tc main_v19) = (StableHlo.binary main_v14 main_v18 main_v19 (addf : (⟨S1600000x64, .f32⟩ : BufTy).Contents (Elt F) → (⟨S1600000x64, .f32⟩ : BufTy).Contents (Elt F) → (⟨S1600000x64, .f32⟩ : BufTy).Contents (Elt F)) : HloOp τ sig (Elt F)).result (after rops1 V) (Proc.devRef .tc main_v19) := by
  after_results_simp
theorem fin_main_v19 (V : Valuation τ sig (Elt F)) :
    RV33 V (Proc.devRef .tc main_v19) = (StableHlo.binary main_v14 main_v18 main_v19 (addf : (⟨S1600000x64, .f32⟩ : BufTy).Contents (Elt F) → (⟨S1600000x64, .f32⟩ : BufTy).Contents (Elt F) → (⟨S1600000x64, .f32⟩ : BufTy).Contents (Elt F)) : HloOp τ sig (Elt F)).result (RV33 V) (Proc.devRef .tc main_v19) := by
  have h := ssa_main_v19 (F := F) (RV1 V)
  rw [binary_result] at h ⊢
  rw [lift2 V main_v19 (by decide), lift2 V main_v14 (by decide), lift2 V main_v18 (by decide)]
  exact h

theorem ssa_main_call0_cst (V : Valuation τ sig (Elt F)) :
    after rops1 V (Proc.devRef .tc main_call0_cst) = (StableHlo.TRef.nullary main_call0.cst (constant S_ .f32 0x00000000#32) : HloOp τ sig (Elt F)).result (after rops1 V) (Proc.devRef .tc main_call0_cst) := by
  after_results_simp
theorem fin_main_call0_cst (V : Valuation τ sig (Elt F)) :
    RV33 V (Proc.devRef .tc main_call0_cst) = (StableHlo.TRef.nullary main_call0.cst (constant S_ .f32 0x00000000#32) : HloOp τ sig (Elt F)).result (RV33 V) (Proc.devRef .tc main_call0_cst) := by
  have h := ssa_main_call0_cst (F := F) (RV1 V)
  rw [nullary_result] at h ⊢
  rw [lift2 V main_call0_cst (by decide)]
  exact h

theorem ssa_main_call0_v0 (V : Valuation τ sig (Elt F)) :
    after rops1 V (Proc.devRef .tc main_call0_v0) = (StableHlo.TRef.unary main_call0.cst main_call0.v0 (broadcastInDim S1600000x64 ![] bcast_S_S1600000x64) : HloOp τ sig (Elt F)).result (after rops1 V) (Proc.devRef .tc main_call0_v0) := by
  after_results_simp
theorem fin_main_call0_v0 (V : Valuation τ sig (Elt F)) :
    RV33 V (Proc.devRef .tc main_call0_v0) = (StableHlo.TRef.unary main_call0.cst main_call0.v0 (broadcastInDim S1600000x64 ![] bcast_S_S1600000x64) : HloOp τ sig (Elt F)).result (RV33 V) (Proc.devRef .tc main_call0_v0) := by
  have h := ssa_main_call0_v0 (F := F) (RV1 V)
  rw [unary_result] at h ⊢
  rw [lift2 V main_call0_v0 (by decide), lift2 V main_call0_cst (by decide)]
  exact h

theorem ssa_main_v20 (V : Valuation τ sig (Elt F)) :
    after rops1 V (Proc.devRef .tc main_v20) = (StableHlo.TRef.binary (.of main_v19) main_call0.v0 main_call0.v1 maximumf : HloOp τ sig (Elt F)).result (after rops1 V) (Proc.devRef .tc main_v20) := by
  after_results_simp
theorem fin_main_v20 (V : Valuation τ sig (Elt F)) :
    RV33 V (Proc.devRef .tc main_v20) = (StableHlo.TRef.binary (.of main_v19) main_call0.v0 main_call0.v1 maximumf : HloOp τ sig (Elt F)).result (RV33 V) (Proc.devRef .tc main_v20) := by
  have h := ssa_main_v20 (F := F) (RV1 V)
  rw [binary_result] at h ⊢
  rw [lift2 V main_v20 (by decide), lift2 V main_v19 (by decide), lift2 V main_call0_v0 (by decide)]
  exact h

theorem ssa_main_cst (V : Valuation τ sig (Elt F)) :
    after rops1 V (Proc.devRef .tc main_cst) = (StableHlo.nullary main_cst (constant S_ .f32 0x00000000#32) : HloOp τ sig (Elt F)).result (after rops1 V) (Proc.devRef .tc main_cst) := by
  after_results_simp
theorem fin_main_cst (V : Valuation τ sig (Elt F)) :
    RV33 V (Proc.devRef .tc main_cst) = (StableHlo.nullary main_cst (constant S_ .f32 0x00000000#32) : HloOp τ sig (Elt F)).result (RV33 V) (Proc.devRef .tc main_cst) := by
  have h := ssa_main_cst (F := F) (RV1 V)
  rw [nullary_result] at h ⊢
  rw [lift2 V main_cst (by decide)]
  exact h

theorem ssa_main_v21 (V : Valuation τ sig (Elt F)) :
    after rops1 V (Proc.devRef .tc main_v21) = (StableHlo.unary main_cst main_v21 (broadcastInDim S100000x64 ![] bcast_S_S100000x64 : (⟨S_, .f32⟩ : BufTy).Contents (Elt F) → (⟨S100000x64, .f32⟩ : BufTy).Contents (Elt F)) : HloOp τ sig (Elt F)).result (after rops1 V) (Proc.devRef .tc main_v21) := by
  after_results_simp
theorem fin_main_v21 (V : Valuation τ sig (Elt F)) :
    RV33 V (Proc.devRef .tc main_v21) = (StableHlo.unary main_cst main_v21 (broadcastInDim S100000x64 ![] bcast_S_S100000x64 : (⟨S_, .f32⟩ : BufTy).Contents (Elt F) → (⟨S100000x64, .f32⟩ : BufTy).Contents (Elt F)) : HloOp τ sig (Elt F)).result (RV33 V) (Proc.devRef .tc main_v21) := by
  have h := ssa_main_v21 (F := F) (RV1 V)
  rw [unary_result] at h ⊢
  rw [lift2 V main_v21 (by decide), lift2 V main_cst (by decide)]
  exact h

theorem ssa_main_v22 (V : Valuation τ sig (Elt F)) :
    after rops1 V (Proc.devRef .tc main_v22) = (StableHlo.unary main_v3 main_v22 (broadcastInDim S1600000x1 ![0] bcast_S1600000_S1600000x1_0 : (⟨S1600000, .i32⟩ : BufTy).Contents (Elt F) → (⟨S1600000x1, .i32⟩ : BufTy).Contents (Elt F)) : HloOp τ sig (Elt F)).result (after rops1 V) (Proc.devRef .tc main_v22) := by
  after_results_simp
theorem fin_main_v22 (V : Valuation τ sig (Elt F)) :
    RV33 V (Proc.devRef .tc main_v22) = (StableHlo.unary main_v3 main_v22 (broadcastInDim S1600000x1 ![0] bcast_S1600000_S1600000x1_0 : (⟨S1600000, .i32⟩ : BufTy).Contents (Elt F) → (⟨S1600000x1, .i32⟩ : BufTy).Contents (Elt F)) : HloOp τ sig (Elt F)).result (RV33 V) (Proc.devRef .tc main_v22) := by
  have h := ssa_main_v22 (F := F) (RV1 V)
  rw [unary_result] at h ⊢
  rw [lift2 V main_v22 (by decide), lift2 V main_v3 (by decide)]
  exact h

theorem ssa_main_v23 (V : Valuation τ sig (Elt F)) :
    after rops1 V (Proc.devRef .tc main_v23) = (StableHlo.ternary main_v21 main_v22 main_v20 main_v23 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) : HloOp τ sig (Elt F)).result (after rops1 V) (Proc.devRef .tc main_v23) := by
  after_results_simp
theorem fin_main_v23 (V : Valuation τ sig (Elt F)) :
    RV33 V (Proc.devRef .tc main_v23) = (StableHlo.ternary main_v21 main_v22 main_v20 main_v23 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) : HloOp τ sig (Elt F)).result (RV33 V) (Proc.devRef .tc main_v23) := by
  have h := ssa_main_v23 (F := F) (RV1 V)
  rw [ternary_result] at h ⊢
  rw [lift2 V main_v23 (by decide), lift2 V main_v21 (by decide), lift2 V main_v22 (by decide), lift2 V main_v20 (by decide)]
  exact h

theorem ssa_main_v24 (V : Valuation τ sig (Elt F)) :
    after rops1 V (Proc.devRef .tc main_v24) = (StableHlo.unary main_arg6 main_v24 ((extractStridedSlice S1 ![0] · slices_S3_S1_0) : (⟨S3, .f32⟩ : BufTy).Contents (Elt F) → (⟨S1, .f32⟩ : BufTy).Contents (Elt F)) : HloOp τ sig (Elt F)).result (after rops1 V) (Proc.devRef .tc main_v24) := by
  after_results_simp
theorem fin_main_v24 (V : Valuation τ sig (Elt F)) :
    RV33 V (Proc.devRef .tc main_v24) = (StableHlo.unary main_arg6 main_v24 ((extractStridedSlice S1 ![0] · slices_S3_S1_0) : (⟨S3, .f32⟩ : BufTy).Contents (Elt F) → (⟨S1, .f32⟩ : BufTy).Contents (Elt F)) : HloOp τ sig (Elt F)).result (RV33 V) (Proc.devRef .tc main_v24) := by
  have h := ssa_main_v24 (F := F) (RV1 V)
  rw [unary_result] at h ⊢
  rw [lift2 V main_v24 (by decide), lift2 V main_arg6 (by decide)]
  exact h

theorem ssa_main_v25 (V : Valuation τ sig (Elt F)) :
    after rops1 V (Proc.devRef .tc main_v25) = (StableHlo.reshape main_v24 main_v25 rfl shapeCasts_S1_S_ : HloOp τ sig (Elt F)).result (after rops1 V) (Proc.devRef .tc main_v25) := by
  after_results_simp
theorem fin_main_v25 (V : Valuation τ sig (Elt F)) :
    RV33 V (Proc.devRef .tc main_v25) = (StableHlo.reshape main_v24 main_v25 rfl shapeCasts_S1_S_ : HloOp τ sig (Elt F)).result (RV33 V) (Proc.devRef .tc main_v25) := by
  have h := ssa_main_v25 (F := F) (RV1 V)
  rw [reshape_result] at h ⊢
  rw [lift2 V main_v25 (by decide), lift2 V main_v24 (by decide)]
  exact h

theorem ssa_main_cst_1 (V : Valuation τ sig (Elt F)) :
    after rops1 V (Proc.devRef .tc main_cst_1) = (StableHlo.nullary main_cst_1 (constant S_ .f32 0x3F800000#32) : HloOp τ sig (Elt F)).result (after rops1 V) (Proc.devRef .tc main_cst_1) := by
  after_results_simp
theorem fin_main_cst_1 (V : Valuation τ sig (Elt F)) :
    RV33 V (Proc.devRef .tc main_cst_1) = (StableHlo.nullary main_cst_1 (constant S_ .f32 0x3F800000#32) : HloOp τ sig (Elt F)).result (RV33 V) (Proc.devRef .tc main_cst_1) := by
  have h := ssa_main_cst_1 (F := F) (RV1 V)
  rw [nullary_result] at h ⊢
  rw [lift2 V main_cst_1 (by decide)]
  exact h

theorem ssa_main_v26 (V : Valuation τ sig (Elt F)) :
    after rops1 V (Proc.devRef .tc main_v26) = (StableHlo.binary main_cst_1 main_v25 main_v26 (addf : (⟨S_, .f32⟩ : BufTy).Contents (Elt F) → (⟨S_, .f32⟩ : BufTy).Contents (Elt F) → (⟨S_, .f32⟩ : BufTy).Contents (Elt F)) : HloOp τ sig (Elt F)).result (after rops1 V) (Proc.devRef .tc main_v26) := by
  after_results_simp
theorem fin_main_v26 (V : Valuation τ sig (Elt F)) :
    RV33 V (Proc.devRef .tc main_v26) = (StableHlo.binary main_cst_1 main_v25 main_v26 (addf : (⟨S_, .f32⟩ : BufTy).Contents (Elt F) → (⟨S_, .f32⟩ : BufTy).Contents (Elt F) → (⟨S_, .f32⟩ : BufTy).Contents (Elt F)) : HloOp τ sig (Elt F)).result (RV33 V) (Proc.devRef .tc main_v26) := by
  have h := ssa_main_v26 (F := F) (RV1 V)
  rw [binary_result] at h ⊢
  rw [lift2 V main_v26 (by decide), lift2 V main_cst_1 (by decide), lift2 V main_v25 (by decide)]
  exact h

theorem ssa_main_v27 (V : Valuation τ sig (Elt F)) :
    after rops1 V (Proc.devRef .tc main_v27) = (StableHlo.unary main_v26 main_v27 (broadcastInDim S100000x64 ![] bcast_S_S100000x64 : (⟨S_, .f32⟩ : BufTy).Contents (Elt F) → (⟨S100000x64, .f32⟩ : BufTy).Contents (Elt F)) : HloOp τ sig (Elt F)).result (after rops1 V) (Proc.devRef .tc main_v27) := by
  after_results_simp
theorem fin_main_v27 (V : Valuation τ sig (Elt F)) :
    RV33 V (Proc.devRef .tc main_v27) = (StableHlo.unary main_v26 main_v27 (broadcastInDim S100000x64 ![] bcast_S_S100000x64 : (⟨S_, .f32⟩ : BufTy).Contents (Elt F) → (⟨S100000x64, .f32⟩ : BufTy).Contents (Elt F)) : HloOp τ sig (Elt F)).result (RV33 V) (Proc.devRef .tc main_v27) := by
  have h := ssa_main_v27 (F := F) (RV1 V)
  rw [unary_result] at h ⊢
  rw [lift2 V main_v27 (by decide), lift2 V main_v26 (by decide)]
  exact h

theorem ssa_main_v28 (V : Valuation τ sig (Elt F)) :
    after rops1 V (Proc.devRef .tc main_v28) = (StableHlo.binary main_v27 main_arg0 main_v28 (mulf : (⟨S100000x64, .f32⟩ : BufTy).Contents (Elt F) → (⟨S100000x64, .f32⟩ : BufTy).Contents (Elt F) → (⟨S100000x64, .f32⟩ : BufTy).Contents (Elt F)) : HloOp τ sig (Elt F)).result (after rops1 V) (Proc.devRef .tc main_v28) := by
  after_results_simp
theorem fin_main_v28 (V : Valuation τ sig (Elt F)) :
    RV33 V (Proc.devRef .tc main_v28) = (StableHlo.binary main_v27 main_arg0 main_v28 (mulf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v28) := by
  have h := ssa_main_v28 (F := F) (RV1 V)
  rw [binary_result] at h ⊢
  rw [lift2 V main_v28 (by decide), lift2 V main_v27 (by decide), lift2 V main_arg0 (by decide)]
  exact h

theorem ssa_main_v29 (V : Valuation τ sig (Elt F)) :
    after rops1 V (Proc.devRef .tc main_v29) = (StableHlo.binary main_v28 main_v23 main_v29 (addf : (⟨S100000x64, .f32⟩ : BufTy).Contents (Elt F) → (⟨S100000x64, .f32⟩ : BufTy).Contents (Elt F) → (⟨S100000x64, .f32⟩ : BufTy).Contents (Elt F)) : HloOp τ sig (Elt F)).result (after rops1 V) (Proc.devRef .tc main_v29) := by
  after_results_simp
theorem fin_main_v29 (V : Valuation τ sig (Elt F)) :
    RV33 V (Proc.devRef .tc main_v29) = (StableHlo.binary main_v28 main_v23 main_v29 (addf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v29) := by
  have h := ssa_main_v29 (F := F) (RV1 V)
  rw [binary_result] at h ⊢
  rw [lift2 V main_v29 (by decide), lift2 V main_v28 (by decide), lift2 V main_v23 (by decide)]
  exact h

theorem ssa_main_v30 (V : Valuation τ sig (Elt F)) :
    after rops1 V (Proc.devRef .tc main_v30) = (StableHlo.unary main_arg7 main_v30 ((extractStridedSlice S1x64x64 ![0, 0, 0] · slices_S3x64x64_S1x64x64_0_0_0) : (⟨S3x64x64, .f32⟩ : BufTy).Contents (Elt F) → (⟨S1x64x64, .f32⟩ : BufTy).Contents (Elt F)) : HloOp τ sig (Elt F)).result (after rops1 V) (Proc.devRef .tc main_v30) := by
  after_results_simp
theorem fin_main_v30 (V : Valuation τ sig (Elt F)) :
    RV33 V (Proc.devRef .tc main_v30) = (StableHlo.unary main_arg7 main_v30 ((extractStridedSlice S1x64x64 ![0, 0, 0] · slices_S3x64x64_S1x64x64_0_0_0) : (⟨S3x64x64, .f32⟩ : BufTy).Contents (Elt F) → (⟨S1x64x64, .f32⟩ : BufTy).Contents (Elt F)) : HloOp τ sig (Elt F)).result (RV33 V) (Proc.devRef .tc main_v30) := by
  have h := ssa_main_v30 (F := F) (RV1 V)
  rw [unary_result] at h ⊢
  rw [lift2 V main_v30 (by decide), lift2 V main_arg7 (by decide)]
  exact h

theorem ssa_main_v31 (V : Valuation τ sig (Elt F)) :
    after rops1 V (Proc.devRef .tc main_v31) = (StableHlo.reshape main_v30 main_v31 rfl shapeCasts_S1x64x64_S64x64 : HloOp τ sig (Elt F)).result (after rops1 V) (Proc.devRef .tc main_v31) := by
  after_results_simp
theorem fin_main_v31 (V : Valuation τ sig (Elt F)) :
    RV33 V (Proc.devRef .tc main_v31) = (StableHlo.reshape main_v30 main_v31 rfl shapeCasts_S1x64x64_S64x64 : HloOp τ sig (Elt F)).result (RV33 V) (Proc.devRef .tc main_v31) := by
  have h := ssa_main_v31 (F := F) (RV1 V)
  rw [reshape_result] at h ⊢
  rw [lift2 V main_v31 (by decide), lift2 V main_v30 (by decide)]
  exact h

theorem ssa_main_v32 (V : Valuation τ sig (Elt F)) :
    after rops1 V (Proc.devRef .tc main_v32) = (StableHlo.binary main_v29 main_v31 main_v32 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) : HloOp τ sig (Elt F)).result (after rops1 V) (Proc.devRef .tc main_v32) := by
  after_results_simp
theorem fin_main_v32 (V : Valuation τ sig (Elt F)) :
    RV33 V (Proc.devRef .tc main_v32) = (StableHlo.binary main_v29 main_v31 main_v32 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) : HloOp τ sig (Elt F)).result (RV33 V) (Proc.devRef .tc main_v32) := by
  have h := ssa_main_v32 (F := F) (RV1 V)
  rw [binary_result] at h ⊢
  rw [lift2 V main_v32 (by decide), lift2 V main_v29 (by decide), lift2 V main_v31 (by decide)]
  exact h

theorem ssa_main_v33 (V : Valuation τ sig (Elt F)) :
    after rops1 V (Proc.devRef .tc main_v33) = (StableHlo.unary main_arg8 main_v33 ((extractStridedSlice S1x64 ![0, 0] · slices_S3x64_S1x64_0_0) : (⟨S3x64, .f32⟩ : BufTy).Contents (Elt F) → (⟨S1x64, .f32⟩ : BufTy).Contents (Elt F)) : HloOp τ sig (Elt F)).result (after rops1 V) (Proc.devRef .tc main_v33) := by
  after_results_simp
theorem fin_main_v33 (V : Valuation τ sig (Elt F)) :
    RV33 V (Proc.devRef .tc main_v33) = (StableHlo.unary main_arg8 main_v33 ((extractStridedSlice S1x64 ![0, 0] · slices_S3x64_S1x64_0_0) : (⟨S3x64, .f32⟩ : BufTy).Contents (Elt F) → (⟨S1x64, .f32⟩ : BufTy).Contents (Elt F)) : HloOp τ sig (Elt F)).result (RV33 V) (Proc.devRef .tc main_v33) := by
  have h := ssa_main_v33 (F := F) (RV1 V)
  rw [unary_result] at h ⊢
  rw [lift2 V main_v33 (by decide), lift2 V main_arg8 (by decide)]
  exact h

theorem ssa_main_v34 (V : Valuation τ sig (Elt F)) :
    after rops2 V (Proc.devRef .tc main_v34) = (StableHlo.reshape main_v33 main_v34 rfl shapeCasts_S1x64_S64 : HloOp τ sig (Elt F)).result (after rops2 V) (Proc.devRef .tc main_v34) := by
  after_results_simp
theorem fin_main_v34 (V : Valuation τ sig (Elt F)) :
    RV33 V (Proc.devRef .tc main_v34) = (StableHlo.reshape main_v33 main_v34 rfl shapeCasts_S1x64_S64 : HloOp τ sig (Elt F)).result (RV33 V) (Proc.devRef .tc main_v34) := by
  have h := ssa_main_v34 (F := F) (RV2 V)
  rw [reshape_result] at h ⊢
  rw [lift3 V main_v34 (by decide), lift3 V main_v33 (by decide)]
  exact h

theorem ssa_main_v35 (V : Valuation τ sig (Elt F)) :
    after rops2 V (Proc.devRef .tc main_v35) = (StableHlo.unary main_v34 main_v35 (broadcastInDim S1x64 ![1] bcast_S64_S1x64_1 : (⟨S64, .f32⟩ : BufTy).Contents (Elt F) → (⟨S1x64, .f32⟩ : BufTy).Contents (Elt F)) : HloOp τ sig (Elt F)).result (after rops2 V) (Proc.devRef .tc main_v35) := by
  after_results_simp
theorem fin_main_v35 (V : Valuation τ sig (Elt F)) :
    RV33 V (Proc.devRef .tc main_v35) = (StableHlo.unary main_v34 main_v35 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v35) := by
  have h := ssa_main_v35 (F := F) (RV2 V)
  rw [unary_result] at h ⊢
  rw [lift3 V main_v35 (by decide), lift3 V main_v34 (by decide)]
  exact h

theorem ssa_main_v36 (V : Valuation τ sig (Elt F)) :
    after rops2 V (Proc.devRef .tc main_v36) = (StableHlo.unary main_v35 main_v36 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops2 V) (Proc.devRef .tc main_v36) := by
  after_results_simp
theorem fin_main_v36 (V : Valuation τ sig (Elt F)) :
    RV33 V (Proc.devRef .tc main_v36) = (StableHlo.unary main_v35 main_v36 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v36) := by
  have h := ssa_main_v36 (F := F) (RV2 V)
  rw [unary_result] at h ⊢
  rw [lift3 V main_v36 (by decide), lift3 V main_v35 (by decide)]
  exact h

theorem ssa_main_v37 (V : Valuation τ sig (Elt F)) :
    after rops2 V (Proc.devRef .tc main_v37) = (StableHlo.binary main_v32 main_v36 main_v37 (addf : (⟨S100000x64, .f32⟩ : BufTy).Contents (Elt F) → (⟨S100000x64, .f32⟩ : BufTy).Contents (Elt F) → (⟨S100000x64, .f32⟩ : BufTy).Contents (Elt F)) : HloOp τ sig (Elt F)).result (after rops2 V) (Proc.devRef .tc main_v37) := by
  after_results_simp
theorem fin_main_v37 (V : Valuation τ sig (Elt F)) :
    RV33 V (Proc.devRef .tc main_v37) = (StableHlo.binary main_v32 main_v36 main_v37 (addf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v37) := by
  have h := ssa_main_v37 (F := F) (RV2 V)
  rw [binary_result] at h ⊢
  rw [lift3 V main_v37 (by decide), lift3 V main_v32 (by decide), lift3 V main_v36 (by decide)]
  exact h

theorem ssa_main_v38 (V : Valuation τ sig (Elt F)) :
    after rops2 V (Proc.devRef .tc main_v38) = (StableHlo.unary main_arg9 main_v38 ((extractStridedSlice S1x64 ![0, 0] · slices_S3x64_S1x64_0_0) : (⟨S3x64, .f32⟩ : BufTy).Contents (Elt F) → (⟨S1x64, .f32⟩ : BufTy).Contents (Elt F)) : HloOp τ sig (Elt F)).result (after rops2 V) (Proc.devRef .tc main_v38) := by
  after_results_simp
theorem fin_main_v38 (V : Valuation τ sig (Elt F)) :
    RV33 V (Proc.devRef .tc main_v38) = (StableHlo.unary main_arg9 main_v38 ((extractStridedSlice S1x64 ![0, 0] · slices_S3x64_S1x64_0_0) : (⟨S3x64, .f32⟩ : BufTy).Contents (Elt F) → (⟨S1x64, .f32⟩ : BufTy).Contents (Elt F)) : HloOp τ sig (Elt F)).result (RV33 V) (Proc.devRef .tc main_v38) := by
  have h := ssa_main_v38 (F := F) (RV2 V)
  rw [unary_result] at h ⊢
  rw [lift3 V main_v38 (by decide), lift3 V main_arg9 (by decide)]
  exact h

theorem ssa_main_v39 (V : Valuation τ sig (Elt F)) :
    after rops2 V (Proc.devRef .tc main_v39) = (StableHlo.reshape main_v38 main_v39 rfl shapeCasts_S1x64_S64 : HloOp τ sig (Elt F)).result (after rops2 V) (Proc.devRef .tc main_v39) := by
  after_results_simp
theorem fin_main_v39 (V : Valuation τ sig (Elt F)) :
    RV33 V (Proc.devRef .tc main_v39) = (StableHlo.reshape main_v38 main_v39 rfl shapeCasts_S1x64_S64 : HloOp τ sig (Elt F)).result (RV33 V) (Proc.devRef .tc main_v39) := by
  have h := ssa_main_v39 (F := F) (RV2 V)
  rw [reshape_result] at h ⊢
  rw [lift3 V main_v39 (by decide), lift3 V main_v38 (by decide)]
  exact h

theorem ssa_main_v40 (V : Valuation τ sig (Elt F)) :
    after rops2 V (Proc.devRef .tc main_v40) = (StableHlo.unary main_arg10 main_v40 ((extractStridedSlice S1x64 ![0, 0] · slices_S3x64_S1x64_0_0) : (⟨S3x64, .f32⟩ : BufTy).Contents (Elt F) → (⟨S1x64, .f32⟩ : BufTy).Contents (Elt F)) : HloOp τ sig (Elt F)).result (after rops2 V) (Proc.devRef .tc main_v40) := by
  after_results_simp
theorem fin_main_v40 (V : Valuation τ sig (Elt F)) :
    RV33 V (Proc.devRef .tc main_v40) = (StableHlo.unary main_arg10 main_v40 ((extractStridedSlice S1x64 ![0, 0] · slices_S3x64_S1x64_0_0) : (⟨S3x64, .f32⟩ : BufTy).Contents (Elt F) → (⟨S1x64, .f32⟩ : BufTy).Contents (Elt F)) : HloOp τ sig (Elt F)).result (RV33 V) (Proc.devRef .tc main_v40) := by
  have h := ssa_main_v40 (F := F) (RV2 V)
  rw [unary_result] at h ⊢
  rw [lift3 V main_v40 (by decide), lift3 V main_arg10 (by decide)]
  exact h

theorem ssa_main_v41 (V : Valuation τ sig (Elt F)) :
    after rops2 V (Proc.devRef .tc main_v41) = (StableHlo.reshape main_v40 main_v41 rfl shapeCasts_S1x64_S64 : HloOp τ sig (Elt F)).result (after rops2 V) (Proc.devRef .tc main_v41) := by
  after_results_simp
theorem fin_main_v41 (V : Valuation τ sig (Elt F)) :
    RV33 V (Proc.devRef .tc main_v41) = (StableHlo.reshape main_v40 main_v41 rfl shapeCasts_S1x64_S64 : HloOp τ sig (Elt F)).result (RV33 V) (Proc.devRef .tc main_v41) := by
  have h := ssa_main_v41 (F := F) (RV2 V)
  rw [reshape_result] at h ⊢
  rw [lift3 V main_v41 (by decide), lift3 V main_v40 (by decide)]
  exact h

theorem ssa_main_cst_2 (V : Valuation τ sig (Elt F)) :
    after rops2 V (Proc.devRef .tc main_cst_2) = (StableHlo.nullary main_cst_2 (constant S_ .f32 0x00000000#32) : HloOp τ sig (Elt F)).result (after rops2 V) (Proc.devRef .tc main_cst_2) := by
  after_results_simp
theorem fin_main_cst_2 (V : Valuation τ sig (Elt F)) :
    RV33 V (Proc.devRef .tc main_cst_2) = (StableHlo.nullary main_cst_2 (constant S_ .f32 0x00000000#32) : HloOp τ sig (Elt F)).result (RV33 V) (Proc.devRef .tc main_cst_2) := by
  have h := ssa_main_cst_2 (F := F) (RV2 V)
  rw [nullary_result] at h ⊢
  rw [lift3 V main_cst_2 (by decide)]
  exact h

theorem ssa_main_v42 (V : Valuation τ sig (Elt F)) :
    after rops2 V (Proc.devRef .tc main_v42) = (StableHlo.binary main_v37 main_cst_2 main_v42 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) : HloOp τ sig (Elt F)).result (after rops2 V) (Proc.devRef .tc main_v42) := by
  after_results_simp
theorem fin_main_v42 (V : Valuation τ sig (Elt F)) :
    RV33 V (Proc.devRef .tc main_v42) = (StableHlo.binary main_v37 main_cst_2 main_v42 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) : HloOp τ sig (Elt F)).result (RV33 V) (Proc.devRef .tc main_v42) := by
  have h := ssa_main_v42 (F := F) (RV2 V)
  rw [binary_result] at h ⊢
  rw [lift3 V main_v42 (by decide), lift3 V main_v37 (by decide), lift3 V main_cst_2 (by decide)]
  exact h

theorem ssa_main_cst_3 (V : Valuation τ sig (Elt F)) :
    after rops2 V (Proc.devRef .tc main_cst_3) = (StableHlo.nullary main_cst_3 (constant S_ .f32 0x47C35000#32) : HloOp τ sig (Elt F)).result (after rops2 V) (Proc.devRef .tc main_cst_3) := by
  after_results_simp
theorem fin_main_cst_3 (V : Valuation τ sig (Elt F)) :
    RV33 V (Proc.devRef .tc main_cst_3) = (StableHlo.nullary main_cst_3 (constant S_ .f32 0x47C35000#32) : HloOp τ sig (Elt F)).result (RV33 V) (Proc.devRef .tc main_cst_3) := by
  have h := ssa_main_cst_3 (F := F) (RV2 V)
  rw [nullary_result] at h ⊢
  rw [lift3 V main_cst_3 (by decide)]
  exact h

theorem ssa_main_v43 (V : Valuation τ sig (Elt F)) :
    after rops2 V (Proc.devRef .tc main_v43) = (StableHlo.unary main_cst_3 main_v43 (broadcastInDim S64 ![] bcast_S_S64 : (⟨S_, .f32⟩ : BufTy).Contents (Elt F) → (⟨S64, .f32⟩ : BufTy).Contents (Elt F)) : HloOp τ sig (Elt F)).result (after rops2 V) (Proc.devRef .tc main_v43) := by
  after_results_simp
theorem fin_main_v43 (V : Valuation τ sig (Elt F)) :
    RV33 V (Proc.devRef .tc main_v43) = (StableHlo.unary main_cst_3 main_v43 (broadcastInDim S64 ![] bcast_S_S64 : (⟨S_, .f32⟩ : BufTy).Contents (Elt F) → (⟨S64, .f32⟩ : BufTy).Contents (Elt F)) : HloOp τ sig (Elt F)).result (RV33 V) (Proc.devRef .tc main_v43) := by
  have h := ssa_main_v43 (F := F) (RV2 V)
  rw [unary_result] at h ⊢
  rw [lift3 V main_v43 (by decide), lift3 V main_cst_3 (by decide)]
  exact h

theorem ssa_main_v44 (V : Valuation τ sig (Elt F)) :
    after rops2 V (Proc.devRef .tc main_v44) = (StableHlo.binary main_v42 main_v43 main_v44 (Host.divf : (⟨S64, .f32⟩ : BufTy).Contents (Elt F) → (⟨S64, .f32⟩ : BufTy).Contents (Elt F) → (⟨S64, .f32⟩ : BufTy).Contents (Elt F)) : HloOp τ sig (Elt F)).result (after rops2 V) (Proc.devRef .tc main_v44) := by
  after_results_simp
theorem fin_main_v44 (V : Valuation τ sig (Elt F)) :
    RV33 V (Proc.devRef .tc main_v44) = (StableHlo.binary main_v42 main_v43 main_v44 (Host.divf : (⟨S64, .f32⟩ : BufTy).Contents (Elt F) → (⟨S64, .f32⟩ : BufTy).Contents (Elt F) → (⟨S64, .f32⟩ : BufTy).Contents (Elt F)) : HloOp τ sig (Elt F)).result (RV33 V) (Proc.devRef .tc main_v44) := by
  have h := ssa_main_v44 (F := F) (RV2 V)
  rw [binary_result] at h ⊢
  rw [lift3 V main_v44 (by decide), lift3 V main_v42 (by decide), lift3 V main_v43 (by decide)]
  exact h

theorem ssa_main_c_4 (V : Valuation τ sig (Elt F)) :
    after rops2 V (Proc.devRef .tc main_c_4) = (StableHlo.nullary main_c_4 (constantI S_ 32 0#32) : HloOp τ sig (Elt F)).result (after rops2 V) (Proc.devRef .tc main_c_4) := by
  after_results_simp
theorem fin_main_c_4 (V : Valuation τ sig (Elt F)) :
    RV33 V (Proc.devRef .tc main_c_4) = (StableHlo.nullary main_c_4 (constantI S_ 32 0#32) : HloOp τ sig (Elt F)).result (RV33 V) (Proc.devRef .tc main_c_4) := by
  have h := ssa_main_c_4 (F := F) (RV2 V)
  rw [nullary_result] at h ⊢
  rw [lift3 V main_c_4 (by decide)]
  exact h

theorem ssa_main_call1_cst (V : Valuation τ sig (Elt F)) :
    after rops2 V (Proc.devRef .tc main_call1_cst) = (StableHlo.TRef.nullary main_call1.cst (constant S_ .f32 0x00000000#32) : HloOp τ sig (Elt F)).result (after rops2 V) (Proc.devRef .tc main_call1_cst) := by
  after_results_simp
theorem fin_main_call1_cst (V : Valuation τ sig (Elt F)) :
    RV33 V (Proc.devRef .tc main_call1_cst) = (StableHlo.TRef.nullary main_call1.cst (constant S_ .f32 0x00000000#32) : HloOp τ sig (Elt F)).result (RV33 V) (Proc.devRef .tc main_call1_cst) := by
  have h := ssa_main_call1_cst (F := F) (RV2 V)
  rw [nullary_result] at h ⊢
  rw [lift3 V main_call1_cst (by decide)]
  exact h

theorem ssa_main_call1_v0 (V : Valuation τ sig (Elt F)) :
    after rops2 V (Proc.devRef .tc main_call1_v0) = (StableHlo.TRef.binary (.of main_v37) main_call1.cst main_call1.v0 (fun x v => Host.reduceAdd x v reducesTo_S100000x64_S64_d0 h_S_) : HloOp τ sig (Elt F)).result (after rops2 V) (Proc.devRef .tc main_call1_v0) := by
  after_results_simp
theorem fin_main_call1_v0 (V : Valuation τ sig (Elt F)) :
    RV33 V (Proc.devRef .tc main_call1_v0) = (StableHlo.TRef.binary (.of main_v37) main_call1.cst main_call1.v0 (fun x v => Host.reduceAdd x v reducesTo_S100000x64_S64_d0 h_S_) : HloOp τ sig (Elt F)).result (RV33 V) (Proc.devRef .tc main_call1_v0) := by
  have h := ssa_main_call1_v0 (F := F) (RV2 V)
  rw [binary_result] at h ⊢
  rw [lift3 V main_call1_v0 (by decide), lift3 V main_v37 (by decide), lift3 V main_call1_cst (by decide)]
  exact h

theorem ssa_main_call1_v1 (V : Valuation τ sig (Elt F)) :
    after rops2 V (Proc.devRef .tc main_call1_v1) = (StableHlo.TRef.unary main_call1.v0 main_call1.v1 (broadcastInDim S1x64 ![1] bcast_S64_S1x64_1) : HloOp τ sig (Elt F)).result (after rops2 V) (Proc.devRef .tc main_call1_v1) := by
  after_results_simp
theorem fin_main_call1_v1 (V : Valuation τ sig (Elt F)) :
    RV33 V (Proc.devRef .tc main_call1_v1) = (StableHlo.TRef.unary main_call1.v0 main_call1.v1 (broadcastInDim S1x64 ![1] bcast_S64_S1x64_1) : HloOp τ sig (Elt F)).result (RV33 V) (Proc.devRef .tc main_call1_v1) := by
  have h := ssa_main_call1_v1 (F := F) (RV2 V)
  rw [unary_result] at h ⊢
  rw [lift3 V main_call1_v1 (by decide), lift3 V main_call1_v0 (by decide)]
  exact h

theorem ssa_main_call1_cst_0 (V : Valuation τ sig (Elt F)) :
    after rops2 V (Proc.devRef .tc main_call1_cst_0) = (StableHlo.TRef.nullary main_call1.cst_0 (constant S_ .f32 0x47C35000#32) : HloOp τ sig (Elt F)).result (after rops2 V) (Proc.devRef .tc main_call1_cst_0) := by
  after_results_simp
theorem fin_main_call1_cst_0 (V : Valuation τ sig (Elt F)) :
    RV33 V (Proc.devRef .tc main_call1_cst_0) = (StableHlo.TRef.nullary main_call1.cst_0 (constant S_ .f32 0x47C35000#32) : HloOp τ sig (Elt F)).result (RV33 V) (Proc.devRef .tc main_call1_cst_0) := by
  have h := ssa_main_call1_cst_0 (F := F) (RV2 V)
  rw [nullary_result] at h ⊢
  rw [lift3 V main_call1_cst_0 (by decide)]
  exact h

theorem ssa_main_call1_v2 (V : Valuation τ sig (Elt F)) :
    after rops2 V (Proc.devRef .tc main_call1_v2) = (StableHlo.TRef.unary main_call1.cst_0 main_call1.v2 (broadcastInDim S1x64 ![] bcast_S_S1x64) : HloOp τ sig (Elt F)).result (after rops2 V) (Proc.devRef .tc main_call1_v2) := by
  after_results_simp
theorem fin_main_call1_v2 (V : Valuation τ sig (Elt F)) :
    RV33 V (Proc.devRef .tc main_call1_v2) = (StableHlo.TRef.unary main_call1.cst_0 main_call1.v2 (broadcastInDim S1x64 ![] bcast_S_S1x64) : HloOp τ sig (Elt F)).result (RV33 V) (Proc.devRef .tc main_call1_v2) := by
  have h := ssa_main_call1_v2 (F := F) (RV2 V)
  rw [unary_result] at h ⊢
  rw [lift3 V main_call1_v2 (by decide), lift3 V main_call1_cst_0 (by decide)]
  exact h

theorem ssa_main_call1_v3 (V : Valuation τ sig (Elt F)) :
    after rops2 V (Proc.devRef .tc main_call1_v3) = (StableHlo.TRef.binary main_call1.v1 main_call1.v2 main_call1.v3 Host.divf : HloOp τ sig (Elt F)).result (after rops2 V) (Proc.devRef .tc main_call1_v3) := by
  after_results_simp
theorem fin_main_call1_v3 (V : Valuation τ sig (Elt F)) :
    RV33 V (Proc.devRef .tc main_call1_v3) = (StableHlo.TRef.binary main_call1.v1 main_call1.v2 main_call1.v3 Host.divf : HloOp τ sig (Elt F)).result (RV33 V) (Proc.devRef .tc main_call1_v3) := by
  have h := ssa_main_call1_v3 (F := F) (RV2 V)
  rw [binary_result] at h ⊢
  rw [lift3 V main_call1_v3 (by decide), lift3 V main_call1_v1 (by decide), lift3 V main_call1_v2 (by decide)]
  exact h

theorem ssa_main_call1_v4 (V : Valuation τ sig (Elt F)) :
    after rops3 V (Proc.devRef .tc main_call1_v4) = (StableHlo.TRef.unary main_call1.v3 main_call1.v4 (broadcastInDim S100000x64 ![0, 1] bcast_S1x64_S100000x64_0_1) : HloOp τ sig (Elt F)).result (after rops3 V) (Proc.devRef .tc main_call1_v4) := by
  after_results_simp
theorem fin_main_call1_v4 (V : Valuation τ sig (Elt F)) :
    RV33 V (Proc.devRef .tc main_call1_v4) = (StableHlo.TRef.unary main_call1.v3 main_call1.v4 (broadcastInDim S100000x64 ![0, 1] bcast_S1x64_S100000x64_0_1) : HloOp τ sig (Elt F)).result (RV33 V) (Proc.devRef .tc main_call1_v4) := by
  have h := ssa_main_call1_v4 (F := F) (RV3 V)
  rw [unary_result] at h ⊢
  rw [lift4 V main_call1_v4 (by decide), lift4 V main_call1_v3 (by decide)]
  exact h

theorem ssa_main_call1_v5 (V : Valuation τ sig (Elt F)) :
    after rops3 V (Proc.devRef .tc main_call1_v5) = (StableHlo.TRef.binary (.of main_v37) main_call1.v4 main_call1.v5 subf : HloOp τ sig (Elt F)).result (after rops3 V) (Proc.devRef .tc main_call1_v5) := by
  after_results_simp
theorem fin_main_call1_v5 (V : Valuation τ sig (Elt F)) :
    RV33 V (Proc.devRef .tc main_call1_v5) = (StableHlo.TRef.binary (.of main_v37) main_call1.v4 main_call1.v5 subf : HloOp τ sig (Elt F)).result (RV33 V) (Proc.devRef .tc main_call1_v5) := by
  have h := ssa_main_call1_v5 (F := F) (RV3 V)
  rw [binary_result] at h ⊢
  rw [lift4 V main_call1_v5 (by decide), lift4 V main_v37 (by decide), lift4 V main_call1_v4 (by decide)]
  exact h

theorem ssa_main_call1_v6 (V : Valuation τ sig (Elt F)) :
    after rops3 V (Proc.devRef .tc main_call1_v6) = (StableHlo.TRef.binary main_call1.v5 main_call1.v5 main_call1.v6 mulf : HloOp τ sig (Elt F)).result (after rops3 V) (Proc.devRef .tc main_call1_v6) := by
  after_results_simp
theorem fin_main_call1_v6 (V : Valuation τ sig (Elt F)) :
    RV33 V (Proc.devRef .tc main_call1_v6) = (StableHlo.TRef.binary main_call1.v5 main_call1.v5 main_call1.v6 mulf : HloOp τ sig (Elt F)).result (RV33 V) (Proc.devRef .tc main_call1_v6) := by
  have h := ssa_main_call1_v6 (F := F) (RV3 V)
  rw [binary_result] at h ⊢
  rw [lift4 V main_call1_v6 (by decide), lift4 V main_call1_v5 (by decide)]
  exact h

theorem ssa_main_call1_v7 (V : Valuation τ sig (Elt F)) :
    after rops3 V (Proc.devRef .tc main_call1_v7) = (StableHlo.TRef.unary (.of main_c_4) main_call1.v7 (sitofp .f32) : HloOp τ sig (Elt F)).result (after rops3 V) (Proc.devRef .tc main_call1_v7) := by
  after_results_simp
theorem fin_main_call1_v7 (V : Valuation τ sig (Elt F)) :
    RV33 V (Proc.devRef .tc main_call1_v7) = (StableHlo.TRef.unary (.of main_c_4) main_call1.v7 (sitofp .f32) : HloOp τ sig (Elt F)).result (RV33 V) (Proc.devRef .tc main_call1_v7) := by
  have h := ssa_main_call1_v7 (F := F) (RV3 V)
  rw [unary_result] at h ⊢
  rw [lift4 V main_call1_v7 (by decide), lift4 V main_c_4 (by decide)]
  exact h

theorem ssa_main_call1_cst_1 (V : Valuation τ sig (Elt F)) :
    after rops3 V (Proc.devRef .tc main_call1_cst_1) = (StableHlo.TRef.nullary main_call1.cst_1 (constant S_ .f32 0x47C35000#32) : HloOp τ sig (Elt F)).result (after rops3 V) (Proc.devRef .tc main_call1_cst_1) := by
  after_results_simp
theorem fin_main_call1_cst_1 (V : Valuation τ sig (Elt F)) :
    RV33 V (Proc.devRef .tc main_call1_cst_1) = (StableHlo.TRef.nullary main_call1.cst_1 (constant S_ .f32 0x47C35000#32) : HloOp τ sig (Elt F)).result (RV33 V) (Proc.devRef .tc main_call1_cst_1) := by
  have h := ssa_main_call1_cst_1 (F := F) (RV3 V)
  rw [nullary_result] at h ⊢
  rw [lift4 V main_call1_cst_1 (by decide)]
  exact h

theorem ssa_main_call1_v8 (V : Valuation τ sig (Elt F)) :
    after rops3 V (Proc.devRef .tc main_call1_v8) = (StableHlo.TRef.binary main_call1.cst_1 main_call1.v7 main_call1.v8 subf : HloOp τ sig (Elt F)).result (after rops3 V) (Proc.devRef .tc main_call1_v8) := by
  after_results_simp
theorem fin_main_call1_v8 (V : Valuation τ sig (Elt F)) :
    RV33 V (Proc.devRef .tc main_call1_v8) = (StableHlo.TRef.binary main_call1.cst_1 main_call1.v7 main_call1.v8 subf : HloOp τ sig (Elt F)).result (RV33 V) (Proc.devRef .tc main_call1_v8) := by
  have h := ssa_main_call1_v8 (F := F) (RV3 V)
  rw [binary_result] at h ⊢
  rw [lift4 V main_call1_v8 (by decide), lift4 V main_call1_cst_1 (by decide), lift4 V main_call1_v7 (by decide)]
  exact h

theorem ssa_main_call1_cst_2 (V : Valuation τ sig (Elt F)) :
    after rops3 V (Proc.devRef .tc main_call1_cst_2) = (StableHlo.TRef.nullary main_call1.cst_2 (constant S_ .f32 0x00000000#32) : HloOp τ sig (Elt F)).result (after rops3 V) (Proc.devRef .tc main_call1_cst_2) := by
  after_results_simp
theorem fin_main_call1_cst_2 (V : Valuation τ sig (Elt F)) :
    RV33 V (Proc.devRef .tc main_call1_cst_2) = (StableHlo.TRef.nullary main_call1.cst_2 (constant S_ .f32 0x00000000#32) : HloOp τ sig (Elt F)).result (RV33 V) (Proc.devRef .tc main_call1_cst_2) := by
  have h := ssa_main_call1_cst_2 (F := F) (RV3 V)
  rw [nullary_result] at h ⊢
  rw [lift4 V main_call1_cst_2 (by decide)]
  exact h

theorem ssa_main_call1_v9 (V : Valuation τ sig (Elt F)) :
    after rops3 V (Proc.devRef .tc main_call1_v9) = (StableHlo.TRef.binary main_call1.v6 main_call1.cst_2 main_call1.v9 (fun x v => Host.reduceAdd x v reducesTo_S100000x64_S64_d0 h_S_) : HloOp τ sig (Elt F)).result (after rops3 V) (Proc.devRef .tc main_call1_v9) := by
  after_results_simp
theorem fin_main_call1_v9 (V : Valuation τ sig (Elt F)) :
    RV33 V (Proc.devRef .tc main_call1_v9) = (StableHlo.TRef.binary main_call1.v6 main_call1.cst_2 main_call1.v9 (fun x v => Host.reduceAdd x v reducesTo_S100000x64_S64_d0 h_S_) : HloOp τ sig (Elt F)).result (RV33 V) (Proc.devRef .tc main_call1_v9) := by
  have h := ssa_main_call1_v9 (F := F) (RV3 V)
  rw [binary_result] at h ⊢
  rw [lift4 V main_call1_v9 (by decide), lift4 V main_call1_v6 (by decide), lift4 V main_call1_cst_2 (by decide)]
  exact h

theorem ssa_main_call1_v10 (V : Valuation τ sig (Elt F)) :
    after rops3 V (Proc.devRef .tc main_call1_v10) = (StableHlo.TRef.unary main_call1.v8 main_call1.v10 (broadcastInDim S64 ![] bcast_S_S64) : HloOp τ sig (Elt F)).result (after rops3 V) (Proc.devRef .tc main_call1_v10) := by
  after_results_simp
theorem fin_main_call1_v10 (V : Valuation τ sig (Elt F)) :
    RV33 V (Proc.devRef .tc main_call1_v10) = (StableHlo.TRef.unary main_call1.v8 main_call1.v10 (broadcastInDim S64 ![] bcast_S_S64) : HloOp τ sig (Elt F)).result (RV33 V) (Proc.devRef .tc main_call1_v10) := by
  have h := ssa_main_call1_v10 (F := F) (RV3 V)
  rw [unary_result] at h ⊢
  rw [lift4 V main_call1_v10 (by decide), lift4 V main_call1_v8 (by decide)]
  exact h

theorem ssa_main_call1_v11 (V : Valuation τ sig (Elt F)) :
    after rops3 V (Proc.devRef .tc main_call1_v11) = (StableHlo.TRef.binary main_call1.v9 main_call1.v10 main_call1.v11 Host.divf : HloOp τ sig (Elt F)).result (after rops3 V) (Proc.devRef .tc main_call1_v11) := by
  after_results_simp
theorem fin_main_call1_v11 (V : Valuation τ sig (Elt F)) :
    RV33 V (Proc.devRef .tc main_call1_v11) = (StableHlo.TRef.binary main_call1.v9 main_call1.v10 main_call1.v11 Host.divf : HloOp τ sig (Elt F)).result (RV33 V) (Proc.devRef .tc main_call1_v11) := by
  have h := ssa_main_call1_v11 (F := F) (RV3 V)
  rw [binary_result] at h ⊢
  rw [lift4 V main_call1_v11 (by decide), lift4 V main_call1_v9 (by decide), lift4 V main_call1_v10 (by decide)]
  exact h

theorem ssa_main_call1_cst_3 (V : Valuation τ sig (Elt F)) :
    after rops3 V (Proc.devRef .tc main_call1_cst_3) = (StableHlo.TRef.nullary main_call1.cst_3 (constant S_ .f32 0x00000000#32) : HloOp τ sig (Elt F)).result (after rops3 V) (Proc.devRef .tc main_call1_cst_3) := by
  after_results_simp
theorem fin_main_call1_cst_3 (V : Valuation τ sig (Elt F)) :
    RV33 V (Proc.devRef .tc main_call1_cst_3) = (StableHlo.TRef.nullary main_call1.cst_3 (constant S_ .f32 0x00000000#32) : HloOp τ sig (Elt F)).result (RV33 V) (Proc.devRef .tc main_call1_cst_3) := by
  have h := ssa_main_call1_cst_3 (F := F) (RV3 V)
  rw [nullary_result] at h ⊢
  rw [lift4 V main_call1_cst_3 (by decide)]
  exact h

theorem ssa_main_call1_v12 (V : Valuation τ sig (Elt F)) :
    after rops3 V (Proc.devRef .tc main_call1_v12) = (StableHlo.TRef.binary main_call1.v8 main_call1.cst_3 main_call1.v12 (cmpf .ogt) : HloOp τ sig (Elt F)).result (after rops3 V) (Proc.devRef .tc main_call1_v12) := by
  after_results_simp
theorem fin_main_call1_v12 (V : Valuation τ sig (Elt F)) :
    RV33 V (Proc.devRef .tc main_call1_v12) = (StableHlo.TRef.binary main_call1.v8 main_call1.cst_3 main_call1.v12 (cmpf .ogt) : HloOp τ sig (Elt F)).result (RV33 V) (Proc.devRef .tc main_call1_v12) := by
  have h := ssa_main_call1_v12 (F := F) (RV3 V)
  rw [binary_result] at h ⊢
  rw [lift4 V main_call1_v12 (by decide), lift4 V main_call1_v8 (by decide), lift4 V main_call1_cst_3 (by decide)]
  exact h

theorem ssa_main_call1_cst_4 (V : Valuation τ sig (Elt F)) :
    after rops3 V (Proc.devRef .tc main_call1_cst_4) = (StableHlo.TRef.nullary main_call1.cst_4 (constant S_ .f32 0x7FC00000#32) : HloOp τ sig (Elt F)).result (after rops3 V) (Proc.devRef .tc main_call1_cst_4) := by
  after_results_simp
theorem fin_main_call1_cst_4 (V : Valuation τ sig (Elt F)) :
    RV33 V (Proc.devRef .tc main_call1_cst_4) = (StableHlo.TRef.nullary main_call1.cst_4 (constant S_ .f32 0x7FC00000#32) : HloOp τ sig (Elt F)).result (RV33 V) (Proc.devRef .tc main_call1_cst_4) := by
  have h := ssa_main_call1_cst_4 (F := F) (RV3 V)
  rw [nullary_result] at h ⊢
  rw [lift4 V main_call1_cst_4 (by decide)]
  exact h

theorem ssa_main_call1_call0_v0 (V : Valuation τ sig (Elt F)) :
    after rops3 V (Proc.devRef .tc main_call1_call0_v0) = (StableHlo.TRef.unary main_call1.cst_4 main_call1.call0.v0 id : HloOp τ sig (Elt F)).result (after rops3 V) (Proc.devRef .tc main_call1_call0_v0) := by
  after_results_simp
theorem fin_main_call1_call0_v0 (V : Valuation τ sig (Elt F)) :
    RV33 V (Proc.devRef .tc main_call1_call0_v0) = (StableHlo.TRef.unary main_call1.cst_4 main_call1.call0.v0 id : HloOp τ sig (Elt F)).result (RV33 V) (Proc.devRef .tc main_call1_call0_v0) := by
  have h := ssa_main_call1_call0_v0 (F := F) (RV3 V)
  rw [unary_result] at h ⊢
  rw [lift4 V main_call1_call0_v0 (by decide), lift4 V main_call1_cst_4 (by decide)]
  exact h

theorem ssa_main_call1_call0_v1 (V : Valuation τ sig (Elt F)) :
    after rops3 V (Proc.devRef .tc main_call1_call0_v1) = (StableHlo.TRef.unary main_call1.call0.v0 main_call1.call0.v1 (broadcastInDim S64 ![] bcast_S_S64) : HloOp τ sig (Elt F)).result (after rops3 V) (Proc.devRef .tc main_call1_call0_v1) := by
  after_results_simp
theorem fin_main_call1_call0_v1 (V : Valuation τ sig (Elt F)) :
    RV33 V (Proc.devRef .tc main_call1_call0_v1) = (StableHlo.TRef.unary main_call1.call0.v0 main_call1.call0.v1 (broadcastInDim S64 ![] bcast_S_S64) : HloOp τ sig (Elt F)).result (RV33 V) (Proc.devRef .tc main_call1_call0_v1) := by
  have h := ssa_main_call1_call0_v1 (F := F) (RV3 V)
  rw [unary_result] at h ⊢
  rw [lift4 V main_call1_call0_v1 (by decide), lift4 V main_call1_call0_v0 (by decide)]
  exact h

theorem ssa_main_v45 (V : Valuation τ sig (Elt F)) :
    after rops3 V (Proc.devRef .tc main_v45) = (StableHlo.TRef.ternary main_call1.v12 main_call1.v11 main_call1.call0.v1 main_call1.call0.v2 (fun p a b => select (broadcastInDim S64 ![] bcast_S_S64 p) a b) : HloOp τ sig (Elt F)).result (after rops3 V) (Proc.devRef .tc main_v45) := by
  after_results_simp
theorem fin_main_v45 (V : Valuation τ sig (Elt F)) :
    RV33 V (Proc.devRef .tc main_v45) = (StableHlo.TRef.ternary main_call1.v12 main_call1.v11 main_call1.call0.v1 main_call1.call0.v2 (fun p a b => select (broadcastInDim S64 ![] bcast_S_S64 p) a b) : HloOp τ sig (Elt F)).result (RV33 V) (Proc.devRef .tc main_v45) := by
  have h := ssa_main_v45 (F := F) (RV3 V)
  rw [ternary_result] at h ⊢
  rw [lift4 V main_v45 (by decide), lift4 V main_call1_v12 (by decide), lift4 V main_call1_v11 (by decide), lift4 V main_call1_call0_v1 (by decide)]
  exact h

theorem ssa_main_v46 (V : Valuation τ sig (Elt F)) :
    after rops3 V (Proc.devRef .tc main_v46) = (StableHlo.unary main_v44 main_v46 (broadcastInDim S1x64 ![1] bcast_S64_S1x64_1 : (⟨S64, .f32⟩ : BufTy).Contents (Elt F) → (⟨S1x64, .f32⟩ : BufTy).Contents (Elt F)) : HloOp τ sig (Elt F)).result (after rops3 V) (Proc.devRef .tc main_v46) := by
  after_results_simp
theorem fin_main_v46 (V : Valuation τ sig (Elt F)) :
    RV33 V (Proc.devRef .tc main_v46) = (StableHlo.unary main_v44 main_v46 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v46) := by
  have h := ssa_main_v46 (F := F) (RV3 V)
  rw [unary_result] at h ⊢
  rw [lift4 V main_v46 (by decide), lift4 V main_v44 (by decide)]
  exact h

theorem ssa_main_v47 (V : Valuation τ sig (Elt F)) :
    after rops3 V (Proc.devRef .tc main_v47) = (StableHlo.unary main_v46 main_v47 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops3 V) (Proc.devRef .tc main_v47) := by
  after_results_simp
theorem fin_main_v47 (V : Valuation τ sig (Elt F)) :
    RV33 V (Proc.devRef .tc main_v47) = (StableHlo.unary main_v46 main_v47 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v47) := by
  have h := ssa_main_v47 (F := F) (RV3 V)
  rw [unary_result] at h ⊢
  rw [lift4 V main_v47 (by decide), lift4 V main_v46 (by decide)]
  exact h

theorem ssa_main_v48 (V : Valuation τ sig (Elt F)) :
    after rops3 V (Proc.devRef .tc main_v48) = (StableHlo.binary main_v37 main_v47 main_v48 (subf : (⟨S100000x64, .f32⟩ : BufTy).Contents (Elt F) → (⟨S100000x64, .f32⟩ : BufTy).Contents (Elt F) → (⟨S100000x64, .f32⟩ : BufTy).Contents (Elt F)) : HloOp τ sig (Elt F)).result (after rops3 V) (Proc.devRef .tc main_v48) := by
  after_results_simp
theorem fin_main_v48 (V : Valuation τ sig (Elt F)) :
    RV33 V (Proc.devRef .tc main_v48) = (StableHlo.binary main_v37 main_v47 main_v48 (subf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v48) := by
  have h := ssa_main_v48 (F := F) (RV3 V)
  rw [binary_result] at h ⊢
  rw [lift4 V main_v48 (by decide), lift4 V main_v37 (by decide), lift4 V main_v47 (by decide)]
  exact h

theorem ssa_main_v49 (V : Valuation τ sig (Elt F)) :
    after rops3 V (Proc.devRef .tc main_v49) = (StableHlo.unary main_v39 main_v49 (broadcastInDim S1x64 ![1] bcast_S64_S1x64_1 : (⟨S64, .f32⟩ : BufTy).Contents (Elt F) → (⟨S1x64, .f32⟩ : BufTy).Contents (Elt F)) : HloOp τ sig (Elt F)).result (after rops3 V) (Proc.devRef .tc main_v49) := by
  after_results_simp
theorem fin_main_v49 (V : Valuation τ sig (Elt F)) :
    RV33 V (Proc.devRef .tc main_v49) = (StableHlo.unary main_v39 main_v49 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v49) := by
  have h := ssa_main_v49 (F := F) (RV3 V)
  rw [unary_result] at h ⊢
  rw [lift4 V main_v49 (by decide), lift4 V main_v39 (by decide)]
  exact h

theorem ssa_main_v50 (V : Valuation τ sig (Elt F)) :
    after rops4 V (Proc.devRef .tc main_v50) = (StableHlo.unary main_v49 main_v50 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops4 V) (Proc.devRef .tc main_v50) := by
  after_results_simp
theorem fin_main_v50 (V : Valuation τ sig (Elt F)) :
    RV33 V (Proc.devRef .tc main_v50) = (StableHlo.unary main_v49 main_v50 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v50) := by
  have h := ssa_main_v50 (F := F) (RV4 V)
  rw [unary_result] at h ⊢
  rw [lift5 V main_v50 (by decide), lift5 V main_v49 (by decide)]
  exact h

theorem ssa_main_v51 (V : Valuation τ sig (Elt F)) :
    after rops4 V (Proc.devRef .tc main_v51) = (StableHlo.binary main_v50 main_v48 main_v51 (mulf : (⟨S100000x64, .f32⟩ : BufTy).Contents (Elt F) → (⟨S100000x64, .f32⟩ : BufTy).Contents (Elt F) → (⟨S100000x64, .f32⟩ : BufTy).Contents (Elt F)) : HloOp τ sig (Elt F)).result (after rops4 V) (Proc.devRef .tc main_v51) := by
  after_results_simp
theorem fin_main_v51 (V : Valuation τ sig (Elt F)) :
    RV33 V (Proc.devRef .tc main_v51) = (StableHlo.binary main_v50 main_v48 main_v51 (mulf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v51) := by
  have h := ssa_main_v51 (F := F) (RV4 V)
  rw [binary_result] at h ⊢
  rw [lift5 V main_v51 (by decide), lift5 V main_v50 (by decide), lift5 V main_v48 (by decide)]
  exact h

theorem ssa_main_cst_5 (V : Valuation τ sig (Elt F)) :
    after rops4 V (Proc.devRef .tc main_cst_5) = (StableHlo.nullary main_cst_5 (constant S_ .f32 0x3727C5AC#32) : HloOp τ sig (Elt F)).result (after rops4 V) (Proc.devRef .tc main_cst_5) := by
  after_results_simp
theorem fin_main_cst_5 (V : Valuation τ sig (Elt F)) :
    RV33 V (Proc.devRef .tc main_cst_5) = (StableHlo.nullary main_cst_5 (constant S_ .f32 0x3727C5AC#32) : HloOp τ sig (Elt F)).result (RV33 V) (Proc.devRef .tc main_cst_5) := by
  have h := ssa_main_cst_5 (F := F) (RV4 V)
  rw [nullary_result] at h ⊢
  rw [lift5 V main_cst_5 (by decide)]
  exact h

end Cert.ReferenceIdeal.Tab

end
-- ==== Proof.TabRSsa1.lean ====
/- Stretches 5 to 9 of the reference program read one operation at a time: each buffer a stretch writes holds its operation's function
   of the operands, within the stretch from any contents and, at the end of the run, over the final contents. -/
import proofs.«409037_j72164040508123_1_alg».proof.Proof.TabR

set_option maxRecDepth 16384

noncomputable section

namespace Cert.ReferenceIdeal.Tab

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

theorem ssa_main_v52 (V : Valuation τ sig (Elt F)) :
    after rops5 V (Proc.devRef .tc main_v52) = (StableHlo.unary main_cst_5 main_v52 (broadcastInDim S64 ![] bcast_S_S64 : (⟨S_, .f32⟩ : BufTy).Contents (Elt F) → (⟨S64, .f32⟩ : BufTy).Contents (Elt F)) : HloOp τ sig (Elt F)).result (after rops5 V) (Proc.devRef .tc main_v52) := by
  after_results_simp
theorem fin_main_v52 (V : Valuation τ sig (Elt F)) :
    RV33 V (Proc.devRef .tc main_v52) = (StableHlo.unary main_cst_5 main_v52 (broadcastInDim S64 ![] bcast_S_S64 : (⟨S_, .f32⟩ : BufTy).Contents (Elt F) → (⟨S64, .f32⟩ : BufTy).Contents (Elt F)) : HloOp τ sig (Elt F)).result (RV33 V) (Proc.devRef .tc main_v52) := by
  have h := ssa_main_v52 (F := F) (RV5 V)
  rw [unary_result] at h ⊢
  rw [lift6 V main_v52 (by decide), lift6 V main_cst_5 (by decide)]
  exact h

theorem ssa_main_v53 (V : Valuation τ sig (Elt F)) :
    after rops5 V (Proc.devRef .tc main_v53) = (StableHlo.binary main_v45 main_v52 main_v53 (addf : (⟨S64, .f32⟩ : BufTy).Contents (Elt F) → (⟨S64, .f32⟩ : BufTy).Contents (Elt F) → (⟨S64, .f32⟩ : BufTy).Contents (Elt F)) : HloOp τ sig (Elt F)).result (after rops5 V) (Proc.devRef .tc main_v53) := by
  after_results_simp
theorem fin_main_v53 (V : Valuation τ sig (Elt F)) :
    RV33 V (Proc.devRef .tc main_v53) = (StableHlo.binary main_v45 main_v52 main_v53 (addf : (⟨S64, .f32⟩ : BufTy).Contents (Elt F) → (⟨S64, .f32⟩ : BufTy).Contents (Elt F) → (⟨S64, .f32⟩ : BufTy).Contents (Elt F)) : HloOp τ sig (Elt F)).result (RV33 V) (Proc.devRef .tc main_v53) := by
  have h := ssa_main_v53 (F := F) (RV5 V)
  rw [binary_result] at h ⊢
  rw [lift6 V main_v53 (by decide), lift6 V main_v45 (by decide), lift6 V main_v52 (by decide)]
  exact h

theorem ssa_main_v54 (V : Valuation τ sig (Elt F)) :
    after rops5 V (Proc.devRef .tc main_v54) = (StableHlo.unary main_v53 main_v54 (Host.rsqrt : (⟨S64, .f32⟩ : BufTy).Contents (Elt F) → (⟨S64, .f32⟩ : BufTy).Contents (Elt F)) : HloOp τ sig (Elt F)).result (after rops5 V) (Proc.devRef .tc main_v54) := by
  after_results_simp
theorem fin_main_v54 (V : Valuation τ sig (Elt F)) :
    RV33 V (Proc.devRef .tc main_v54) = (StableHlo.unary main_v53 main_v54 (Host.rsqrt : (⟨S64, .f32⟩ : BufTy).Contents (Elt F) → (⟨S64, .f32⟩ : BufTy).Contents (Elt F)) : HloOp τ sig (Elt F)).result (RV33 V) (Proc.devRef .tc main_v54) := by
  have h := ssa_main_v54 (F := F) (RV5 V)
  rw [unary_result] at h ⊢
  rw [lift6 V main_v54 (by decide), lift6 V main_v53 (by decide)]
  exact h

theorem ssa_main_v55 (V : Valuation τ sig (Elt F)) :
    after rops5 V (Proc.devRef .tc main_v55) = (StableHlo.unary main_v54 main_v55 (broadcastInDim S1x64 ![1] bcast_S64_S1x64_1 : (⟨S64, .f32⟩ : BufTy).Contents (Elt F) → (⟨S1x64, .f32⟩ : BufTy).Contents (Elt F)) : HloOp τ sig (Elt F)).result (after rops5 V) (Proc.devRef .tc main_v55) := by
  after_results_simp
theorem fin_main_v55 (V : Valuation τ sig (Elt F)) :
    RV33 V (Proc.devRef .tc main_v55) = (StableHlo.unary main_v54 main_v55 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v55) := by
  have h := ssa_main_v55 (F := F) (RV5 V)
  rw [unary_result] at h ⊢
  rw [lift6 V main_v55 (by decide), lift6 V main_v54 (by decide)]
  exact h

theorem ssa_main_v56 (V : Valuation τ sig (Elt F)) :
    after rops5 V (Proc.devRef .tc main_v56) = (StableHlo.unary main_v55 main_v56 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops5 V) (Proc.devRef .tc main_v56) := by
  after_results_simp
theorem fin_main_v56 (V : Valuation τ sig (Elt F)) :
    RV33 V (Proc.devRef .tc main_v56) = (StableHlo.unary main_v55 main_v56 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v56) := by
  have h := ssa_main_v56 (F := F) (RV5 V)
  rw [unary_result] at h ⊢
  rw [lift6 V main_v56 (by decide), lift6 V main_v55 (by decide)]
  exact h

theorem ssa_main_v57 (V : Valuation τ sig (Elt F)) :
    after rops5 V (Proc.devRef .tc main_v57) = (StableHlo.binary main_v51 main_v56 main_v57 (mulf : (⟨S100000x64, .f32⟩ : BufTy).Contents (Elt F) → (⟨S100000x64, .f32⟩ : BufTy).Contents (Elt F) → (⟨S100000x64, .f32⟩ : BufTy).Contents (Elt F)) : HloOp τ sig (Elt F)).result (after rops5 V) (Proc.devRef .tc main_v57) := by
  after_results_simp
theorem fin_main_v57 (V : Valuation τ sig (Elt F)) :
    RV33 V (Proc.devRef .tc main_v57) = (StableHlo.binary main_v51 main_v56 main_v57 (mulf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v57) := by
  have h := ssa_main_v57 (F := F) (RV5 V)
  rw [binary_result] at h ⊢
  rw [lift6 V main_v57 (by decide), lift6 V main_v51 (by decide), lift6 V main_v56 (by decide)]
  exact h

theorem ssa_main_v58 (V : Valuation τ sig (Elt F)) :
    after rops5 V (Proc.devRef .tc main_v58) = (StableHlo.unary main_v41 main_v58 (broadcastInDim S1x64 ![1] bcast_S64_S1x64_1 : (⟨S64, .f32⟩ : BufTy).Contents (Elt F) → (⟨S1x64, .f32⟩ : BufTy).Contents (Elt F)) : HloOp τ sig (Elt F)).result (after rops5 V) (Proc.devRef .tc main_v58) := by
  after_results_simp
theorem fin_main_v58 (V : Valuation τ sig (Elt F)) :
    RV33 V (Proc.devRef .tc main_v58) = (StableHlo.unary main_v41 main_v58 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v58) := by
  have h := ssa_main_v58 (F := F) (RV5 V)
  rw [unary_result] at h ⊢
  rw [lift6 V main_v58 (by decide), lift6 V main_v41 (by decide)]
  exact h

theorem ssa_main_v59 (V : Valuation τ sig (Elt F)) :
    after rops5 V (Proc.devRef .tc main_v59) = (StableHlo.unary main_v58 main_v59 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops5 V) (Proc.devRef .tc main_v59) := by
  after_results_simp
theorem fin_main_v59 (V : Valuation τ sig (Elt F)) :
    RV33 V (Proc.devRef .tc main_v59) = (StableHlo.unary main_v58 main_v59 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v59) := by
  have h := ssa_main_v59 (F := F) (RV5 V)
  rw [unary_result] at h ⊢
  rw [lift6 V main_v59 (by decide), lift6 V main_v58 (by decide)]
  exact h

theorem ssa_main_v60 (V : Valuation τ sig (Elt F)) :
    after rops5 V (Proc.devRef .tc main_v60) = (StableHlo.binary main_v57 main_v59 main_v60 (addf : (⟨S100000x64, .f32⟩ : BufTy).Contents (Elt F) → (⟨S100000x64, .f32⟩ : BufTy).Contents (Elt F) → (⟨S100000x64, .f32⟩ : BufTy).Contents (Elt F)) : HloOp τ sig (Elt F)).result (after rops5 V) (Proc.devRef .tc main_v60) := by
  after_results_simp
theorem fin_main_v60 (V : Valuation τ sig (Elt F)) :
    RV33 V (Proc.devRef .tc main_v60) = (StableHlo.binary main_v57 main_v59 main_v60 (addf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v60) := by
  have h := ssa_main_v60 (F := F) (RV5 V)
  rw [binary_result] at h ⊢
  rw [lift6 V main_v60 (by decide), lift6 V main_v57 (by decide), lift6 V main_v59 (by decide)]
  exact h

theorem ssa_main_cst_6 (V : Valuation τ sig (Elt F)) :
    after rops5 V (Proc.devRef .tc main_cst_6) = (StableHlo.nullary main_cst_6 (constant S_ .f32 0x00000000#32) : HloOp τ sig (Elt F)).result (after rops5 V) (Proc.devRef .tc main_cst_6) := by
  after_results_simp
theorem fin_main_cst_6 (V : Valuation τ sig (Elt F)) :
    RV33 V (Proc.devRef .tc main_cst_6) = (StableHlo.nullary main_cst_6 (constant S_ .f32 0x00000000#32) : HloOp τ sig (Elt F)).result (RV33 V) (Proc.devRef .tc main_cst_6) := by
  have h := ssa_main_cst_6 (F := F) (RV5 V)
  rw [nullary_result] at h ⊢
  rw [lift6 V main_cst_6 (by decide)]
  exact h

theorem ssa_main_v61 (V : Valuation τ sig (Elt F)) :
    after rops5 V (Proc.devRef .tc main_v61) = (StableHlo.unary main_cst_6 main_v61 (broadcastInDim S100000x64 ![] bcast_S_S100000x64 : (⟨S_, .f32⟩ : BufTy).Contents (Elt F) → (⟨S100000x64, .f32⟩ : BufTy).Contents (Elt F)) : HloOp τ sig (Elt F)).result (after rops5 V) (Proc.devRef .tc main_v61) := by
  after_results_simp
theorem fin_main_v61 (V : Valuation τ sig (Elt F)) :
    RV33 V (Proc.devRef .tc main_v61) = (StableHlo.unary main_cst_6 main_v61 (broadcastInDim S100000x64 ![] bcast_S_S100000x64 : (⟨S_, .f32⟩ : BufTy).Contents (Elt F) → (⟨S100000x64, .f32⟩ : BufTy).Contents (Elt F)) : HloOp τ sig (Elt F)).result (RV33 V) (Proc.devRef .tc main_v61) := by
  have h := ssa_main_v61 (F := F) (RV5 V)
  rw [unary_result] at h ⊢
  rw [lift6 V main_v61 (by decide), lift6 V main_cst_6 (by decide)]
  exact h

theorem ssa_main_v62 (V : Valuation τ sig (Elt F)) :
    after rops5 V (Proc.devRef .tc main_v62) = (StableHlo.binary main_v60 main_v61 main_v62 (cmpf .oge : (⟨S100000x64, .f32⟩ : BufTy).Contents (Elt F) → (⟨S100000x64, .f32⟩ : BufTy).Contents (Elt F) → (⟨S100000x64, .i1⟩ : BufTy).Contents (Elt F)) : HloOp τ sig (Elt F)).result (after rops5 V) (Proc.devRef .tc main_v62) := by
  after_results_simp
theorem fin_main_v62 (V : Valuation τ sig (Elt F)) :
    RV33 V (Proc.devRef .tc main_v62) = (StableHlo.binary main_v60 main_v61 main_v62 (cmpf .oge : (⟨S100000x64, .f32⟩ : BufTy).Contents (Elt F) → (⟨S100000x64, .f32⟩ : BufTy).Contents (Elt F) → (⟨S100000x64, .i1⟩ : BufTy).Contents (Elt F)) : HloOp τ sig (Elt F)).result (RV33 V) (Proc.devRef .tc main_v62) := by
  have h := ssa_main_v62 (F := F) (RV5 V)
  rw [binary_result] at h ⊢
  rw [lift6 V main_v62 (by decide), lift6 V main_v60 (by decide), lift6 V main_v61 (by decide)]
  exact h

theorem ssa_main_cst_7 (V : Valuation τ sig (Elt F)) :
    after rops5 V (Proc.devRef .tc main_cst_7) = (StableHlo.nullary main_cst_7 (constant S_ .f32 0x3C23D70A#32) : HloOp τ sig (Elt F)).result (after rops5 V) (Proc.devRef .tc main_cst_7) := by
  after_results_simp
theorem fin_main_cst_7 (V : Valuation τ sig (Elt F)) :
    RV33 V (Proc.devRef .tc main_cst_7) = (StableHlo.nullary main_cst_7 (constant S_ .f32 0x3C23D70A#32) : HloOp τ sig (Elt F)).result (RV33 V) (Proc.devRef .tc main_cst_7) := by
  have h := ssa_main_cst_7 (F := F) (RV5 V)
  rw [nullary_result] at h ⊢
  rw [lift6 V main_cst_7 (by decide)]
  exact h

theorem ssa_main_v63 (V : Valuation τ sig (Elt F)) :
    after rops5 V (Proc.devRef .tc main_v63) = (StableHlo.unary main_cst_7 main_v63 (broadcastInDim S100000x64 ![] bcast_S_S100000x64 : (⟨S_, .f32⟩ : BufTy).Contents (Elt F) → (⟨S100000x64, .f32⟩ : BufTy).Contents (Elt F)) : HloOp τ sig (Elt F)).result (after rops5 V) (Proc.devRef .tc main_v63) := by
  after_results_simp
theorem fin_main_v63 (V : Valuation τ sig (Elt F)) :
    RV33 V (Proc.devRef .tc main_v63) = (StableHlo.unary main_cst_7 main_v63 (broadcastInDim S100000x64 ![] bcast_S_S100000x64 : (⟨S_, .f32⟩ : BufTy).Contents (Elt F) → (⟨S100000x64, .f32⟩ : BufTy).Contents (Elt F)) : HloOp τ sig (Elt F)).result (RV33 V) (Proc.devRef .tc main_v63) := by
  have h := ssa_main_v63 (F := F) (RV5 V)
  rw [unary_result] at h ⊢
  rw [lift6 V main_v63 (by decide), lift6 V main_cst_7 (by decide)]
  exact h

theorem ssa_main_v64 (V : Valuation τ sig (Elt F)) :
    after rops5 V (Proc.devRef .tc main_v64) = (StableHlo.binary main_v63 main_v60 main_v64 (mulf : (⟨S100000x64, .f32⟩ : BufTy).Contents (Elt F) → (⟨S100000x64, .f32⟩ : BufTy).Contents (Elt F) → (⟨S100000x64, .f32⟩ : BufTy).Contents (Elt F)) : HloOp τ sig (Elt F)).result (after rops5 V) (Proc.devRef .tc main_v64) := by
  after_results_simp
theorem fin_main_v64 (V : Valuation τ sig (Elt F)) :
    RV33 V (Proc.devRef .tc main_v64) = (StableHlo.binary main_v63 main_v60 main_v64 (mulf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v64) := by
  have h := ssa_main_v64 (F := F) (RV5 V)
  rw [binary_result] at h ⊢
  rw [lift6 V main_v64 (by decide), lift6 V main_v63 (by decide), lift6 V main_v60 (by decide)]
  exact h

theorem ssa_main_v65 (V : Valuation τ sig (Elt F)) :
    after rops5 V (Proc.devRef .tc main_v65) = (StableHlo.TRef.ternary (.of main_v62) (.of main_v60) (.of main_v64) main_call2.v0 select : HloOp τ sig (Elt F)).result (after rops5 V) (Proc.devRef .tc main_v65) := by
  after_results_simp
theorem fin_main_v65 (V : Valuation τ sig (Elt F)) :
    RV33 V (Proc.devRef .tc main_v65) = (StableHlo.TRef.ternary (.of main_v62) (.of main_v60) (.of main_v64) main_call2.v0 select : HloOp τ sig (Elt F)).result (RV33 V) (Proc.devRef .tc main_v65) := by
  have h := ssa_main_v65 (F := F) (RV5 V)
  rw [ternary_result] at h ⊢
  rw [lift6 V main_v65 (by decide), lift6 V main_v62 (by decide), lift6 V main_v60 (by decide), lift6 V main_v64 (by decide)]
  exact h

theorem ssa_main_v66 (V : Valuation τ sig (Elt F)) :
    after rops5 V (Proc.devRef .tc main_v66) = (StableHlo.unary main_arg11 main_v66 ((extractStridedSlice S1x64x64 ![0, 0, 0] · slices_S3x64x64_S1x64x64_0_0_0) : (⟨S3x64x64, .f32⟩ : BufTy).Contents (Elt F) → (⟨S1x64x64, .f32⟩ : BufTy).Contents (Elt F)) : HloOp τ sig (Elt F)).result (after rops5 V) (Proc.devRef .tc main_v66) := by
  after_results_simp
theorem fin_main_v66 (V : Valuation τ sig (Elt F)) :
    RV33 V (Proc.devRef .tc main_v66) = (StableHlo.unary main_arg11 main_v66 ((extractStridedSlice S1x64x64 ![0, 0, 0] · slices_S3x64x64_S1x64x64_0_0_0) : (⟨S3x64x64, .f32⟩ : BufTy).Contents (Elt F) → (⟨S1x64x64, .f32⟩ : BufTy).Contents (Elt F)) : HloOp τ sig (Elt F)).result (RV33 V) (Proc.devRef .tc main_v66) := by
  have h := ssa_main_v66 (F := F) (RV5 V)
  rw [unary_result] at h ⊢
  rw [lift6 V main_v66 (by decide), lift6 V main_arg11 (by decide)]
  exact h

theorem ssa_main_v67 (V : Valuation τ sig (Elt F)) :
    after rops5 V (Proc.devRef .tc main_v67) = (StableHlo.reshape main_v66 main_v67 rfl shapeCasts_S1x64x64_S64x64 : HloOp τ sig (Elt F)).result (after rops5 V) (Proc.devRef .tc main_v67) := by
  after_results_simp
theorem fin_main_v67 (V : Valuation τ sig (Elt F)) :
    RV33 V (Proc.devRef .tc main_v67) = (StableHlo.reshape main_v66 main_v67 rfl shapeCasts_S1x64x64_S64x64 : HloOp τ sig (Elt F)).result (RV33 V) (Proc.devRef .tc main_v67) := by
  have h := ssa_main_v67 (F := F) (RV5 V)
  rw [reshape_result] at h ⊢
  rw [lift6 V main_v67 (by decide), lift6 V main_v66 (by decide)]
  exact h

theorem ssa_main_v68 (V : Valuation τ sig (Elt F)) :
    after rops5 V (Proc.devRef .tc main_v68) = (StableHlo.binary main_v65 main_v67 main_v68 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) : HloOp τ sig (Elt F)).result (after rops5 V) (Proc.devRef .tc main_v68) := by
  after_results_simp
theorem fin_main_v68 (V : Valuation τ sig (Elt F)) :
    RV33 V (Proc.devRef .tc main_v68) = (StableHlo.binary main_v65 main_v67 main_v68 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) : HloOp τ sig (Elt F)).result (RV33 V) (Proc.devRef .tc main_v68) := by
  have h := ssa_main_v68 (F := F) (RV5 V)
  rw [binary_result] at h ⊢
  rw [lift6 V main_v68 (by decide), lift6 V main_v65 (by decide), lift6 V main_v67 (by decide)]
  exact h

theorem ssa_main_v69 (V : Valuation τ sig (Elt F)) :
    after rops5 V (Proc.devRef .tc main_v69) = (StableHlo.unary main_arg12 main_v69 ((extractStridedSlice S1x64 ![0, 0] · slices_S3x64_S1x64_0_0) : (⟨S3x64, .f32⟩ : BufTy).Contents (Elt F) → (⟨S1x64, .f32⟩ : BufTy).Contents (Elt F)) : HloOp τ sig (Elt F)).result (after rops5 V) (Proc.devRef .tc main_v69) := by
  after_results_simp
theorem fin_main_v69 (V : Valuation τ sig (Elt F)) :
    RV33 V (Proc.devRef .tc main_v69) = (StableHlo.unary main_arg12 main_v69 ((extractStridedSlice S1x64 ![0, 0] · slices_S3x64_S1x64_0_0) : (⟨S3x64, .f32⟩ : BufTy).Contents (Elt F) → (⟨S1x64, .f32⟩ : BufTy).Contents (Elt F)) : HloOp τ sig (Elt F)).result (RV33 V) (Proc.devRef .tc main_v69) := by
  have h := ssa_main_v69 (F := F) (RV5 V)
  rw [unary_result] at h ⊢
  rw [lift6 V main_v69 (by decide), lift6 V main_arg12 (by decide)]
  exact h

theorem ssa_main_v70 (V : Valuation τ sig (Elt F)) :
    after rops6 V (Proc.devRef .tc main_v70) = (StableHlo.reshape main_v69 main_v70 rfl shapeCasts_S1x64_S64 : HloOp τ sig (Elt F)).result (after rops6 V) (Proc.devRef .tc main_v70) := by
  after_results_simp
theorem fin_main_v70 (V : Valuation τ sig (Elt F)) :
    RV33 V (Proc.devRef .tc main_v70) = (StableHlo.reshape main_v69 main_v70 rfl shapeCasts_S1x64_S64 : HloOp τ sig (Elt F)).result (RV33 V) (Proc.devRef .tc main_v70) := by
  have h := ssa_main_v70 (F := F) (RV6 V)
  rw [reshape_result] at h ⊢
  rw [lift7 V main_v70 (by decide), lift7 V main_v69 (by decide)]
  exact h

theorem ssa_main_v71 (V : Valuation τ sig (Elt F)) :
    after rops6 V (Proc.devRef .tc main_v71) = (StableHlo.unary main_v70 main_v71 (broadcastInDim S1x64 ![1] bcast_S64_S1x64_1 : (⟨S64, .f32⟩ : BufTy).Contents (Elt F) → (⟨S1x64, .f32⟩ : BufTy).Contents (Elt F)) : HloOp τ sig (Elt F)).result (after rops6 V) (Proc.devRef .tc main_v71) := by
  after_results_simp
theorem fin_main_v71 (V : Valuation τ sig (Elt F)) :
    RV33 V (Proc.devRef .tc main_v71) = (StableHlo.unary main_v70 main_v71 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v71) := by
  have h := ssa_main_v71 (F := F) (RV6 V)
  rw [unary_result] at h ⊢
  rw [lift7 V main_v71 (by decide), lift7 V main_v70 (by decide)]
  exact h

theorem ssa_main_v72 (V : Valuation τ sig (Elt F)) :
    after rops6 V (Proc.devRef .tc main_v72) = (StableHlo.unary main_v71 main_v72 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops6 V) (Proc.devRef .tc main_v72) := by
  after_results_simp
theorem fin_main_v72 (V : Valuation τ sig (Elt F)) :
    RV33 V (Proc.devRef .tc main_v72) = (StableHlo.unary main_v71 main_v72 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v72) := by
  have h := ssa_main_v72 (F := F) (RV6 V)
  rw [unary_result] at h ⊢
  rw [lift7 V main_v72 (by decide), lift7 V main_v71 (by decide)]
  exact h

theorem ssa_main_v73 (V : Valuation τ sig (Elt F)) :
    after rops6 V (Proc.devRef .tc main_v73) = (StableHlo.binary main_v68 main_v72 main_v73 (addf : (⟨S100000x64, .f32⟩ : BufTy).Contents (Elt F) → (⟨S100000x64, .f32⟩ : BufTy).Contents (Elt F) → (⟨S100000x64, .f32⟩ : BufTy).Contents (Elt F)) : HloOp τ sig (Elt F)).result (after rops6 V) (Proc.devRef .tc main_v73) := by
  after_results_simp
theorem fin_main_v73 (V : Valuation τ sig (Elt F)) :
    RV33 V (Proc.devRef .tc main_v73) = (StableHlo.binary main_v68 main_v72 main_v73 (addf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v73) := by
  have h := ssa_main_v73 (F := F) (RV6 V)
  rw [binary_result] at h ⊢
  rw [lift7 V main_v73 (by decide), lift7 V main_v68 (by decide), lift7 V main_v72 (by decide)]
  exact h

theorem ssa_main_v74 (V : Valuation τ sig (Elt F)) :
    after rops6 V (Proc.devRef .tc main_v74) = (StableHlo.unary main_arg13 main_v74 ((extractStridedSlice S1x64 ![0, 0] · slices_S2x64_S1x64_0_0) : (⟨S2x64, .f32⟩ : BufTy).Contents (Elt F) → (⟨S1x64, .f32⟩ : BufTy).Contents (Elt F)) : HloOp τ sig (Elt F)).result (after rops6 V) (Proc.devRef .tc main_v74) := by
  after_results_simp
theorem fin_main_v74 (V : Valuation τ sig (Elt F)) :
    RV33 V (Proc.devRef .tc main_v74) = (StableHlo.unary main_arg13 main_v74 ((extractStridedSlice S1x64 ![0, 0] · slices_S2x64_S1x64_0_0) : (⟨S2x64, .f32⟩ : BufTy).Contents (Elt F) → (⟨S1x64, .f32⟩ : BufTy).Contents (Elt F)) : HloOp τ sig (Elt F)).result (RV33 V) (Proc.devRef .tc main_v74) := by
  have h := ssa_main_v74 (F := F) (RV6 V)
  rw [unary_result] at h ⊢
  rw [lift7 V main_v74 (by decide), lift7 V main_arg13 (by decide)]
  exact h

theorem ssa_main_v75 (V : Valuation τ sig (Elt F)) :
    after rops6 V (Proc.devRef .tc main_v75) = (StableHlo.reshape main_v74 main_v75 rfl shapeCasts_S1x64_S64 : HloOp τ sig (Elt F)).result (after rops6 V) (Proc.devRef .tc main_v75) := by
  after_results_simp
theorem fin_main_v75 (V : Valuation τ sig (Elt F)) :
    RV33 V (Proc.devRef .tc main_v75) = (StableHlo.reshape main_v74 main_v75 rfl shapeCasts_S1x64_S64 : HloOp τ sig (Elt F)).result (RV33 V) (Proc.devRef .tc main_v75) := by
  have h := ssa_main_v75 (F := F) (RV6 V)
  rw [reshape_result] at h ⊢
  rw [lift7 V main_v75 (by decide), lift7 V main_v74 (by decide)]
  exact h

theorem ssa_main_v76 (V : Valuation τ sig (Elt F)) :
    after rops6 V (Proc.devRef .tc main_v76) = (StableHlo.unary main_arg14 main_v76 ((extractStridedSlice S1x64 ![0, 0] · slices_S2x64_S1x64_0_0) : (⟨S2x64, .f32⟩ : BufTy).Contents (Elt F) → (⟨S1x64, .f32⟩ : BufTy).Contents (Elt F)) : HloOp τ sig (Elt F)).result (after rops6 V) (Proc.devRef .tc main_v76) := by
  after_results_simp
theorem fin_main_v76 (V : Valuation τ sig (Elt F)) :
    RV33 V (Proc.devRef .tc main_v76) = (StableHlo.unary main_arg14 main_v76 ((extractStridedSlice S1x64 ![0, 0] · slices_S2x64_S1x64_0_0) : (⟨S2x64, .f32⟩ : BufTy).Contents (Elt F) → (⟨S1x64, .f32⟩ : BufTy).Contents (Elt F)) : HloOp τ sig (Elt F)).result (RV33 V) (Proc.devRef .tc main_v76) := by
  have h := ssa_main_v76 (F := F) (RV6 V)
  rw [unary_result] at h ⊢
  rw [lift7 V main_v76 (by decide), lift7 V main_arg14 (by decide)]
  exact h

theorem ssa_main_v77 (V : Valuation τ sig (Elt F)) :
    after rops6 V (Proc.devRef .tc main_v77) = (StableHlo.reshape main_v76 main_v77 rfl shapeCasts_S1x64_S64 : HloOp τ sig (Elt F)).result (after rops6 V) (Proc.devRef .tc main_v77) := by
  after_results_simp
theorem fin_main_v77 (V : Valuation τ sig (Elt F)) :
    RV33 V (Proc.devRef .tc main_v77) = (StableHlo.reshape main_v76 main_v77 rfl shapeCasts_S1x64_S64 : HloOp τ sig (Elt F)).result (RV33 V) (Proc.devRef .tc main_v77) := by
  have h := ssa_main_v77 (F := F) (RV6 V)
  rw [reshape_result] at h ⊢
  rw [lift7 V main_v77 (by decide), lift7 V main_v76 (by decide)]
  exact h

theorem ssa_main_cst_8 (V : Valuation τ sig (Elt F)) :
    after rops6 V (Proc.devRef .tc main_cst_8) = (StableHlo.nullary main_cst_8 (constant S_ .f32 0x00000000#32) : HloOp τ sig (Elt F)).result (after rops6 V) (Proc.devRef .tc main_cst_8) := by
  after_results_simp
theorem fin_main_cst_8 (V : Valuation τ sig (Elt F)) :
    RV33 V (Proc.devRef .tc main_cst_8) = (StableHlo.nullary main_cst_8 (constant S_ .f32 0x00000000#32) : HloOp τ sig (Elt F)).result (RV33 V) (Proc.devRef .tc main_cst_8) := by
  have h := ssa_main_cst_8 (F := F) (RV6 V)
  rw [nullary_result] at h ⊢
  rw [lift7 V main_cst_8 (by decide)]
  exact h

theorem ssa_main_v78 (V : Valuation τ sig (Elt F)) :
    after rops6 V (Proc.devRef .tc main_v78) = (StableHlo.binary main_v73 main_cst_8 main_v78 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) : HloOp τ sig (Elt F)).result (after rops6 V) (Proc.devRef .tc main_v78) := by
  after_results_simp
theorem fin_main_v78 (V : Valuation τ sig (Elt F)) :
    RV33 V (Proc.devRef .tc main_v78) = (StableHlo.binary main_v73 main_cst_8 main_v78 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) : HloOp τ sig (Elt F)).result (RV33 V) (Proc.devRef .tc main_v78) := by
  have h := ssa_main_v78 (F := F) (RV6 V)
  rw [binary_result] at h ⊢
  rw [lift7 V main_v78 (by decide), lift7 V main_v73 (by decide), lift7 V main_cst_8 (by decide)]
  exact h

theorem ssa_main_cst_9 (V : Valuation τ sig (Elt F)) :
    after rops6 V (Proc.devRef .tc main_cst_9) = (StableHlo.nullary main_cst_9 (constant S_ .f32 0x47C35000#32) : HloOp τ sig (Elt F)).result (after rops6 V) (Proc.devRef .tc main_cst_9) := by
  after_results_simp
theorem fin_main_cst_9 (V : Valuation τ sig (Elt F)) :
    RV33 V (Proc.devRef .tc main_cst_9) = (StableHlo.nullary main_cst_9 (constant S_ .f32 0x47C35000#32) : HloOp τ sig (Elt F)).result (RV33 V) (Proc.devRef .tc main_cst_9) := by
  have h := ssa_main_cst_9 (F := F) (RV6 V)
  rw [nullary_result] at h ⊢
  rw [lift7 V main_cst_9 (by decide)]
  exact h

theorem ssa_main_v79 (V : Valuation τ sig (Elt F)) :
    after rops6 V (Proc.devRef .tc main_v79) = (StableHlo.unary main_cst_9 main_v79 (broadcastInDim S64 ![] bcast_S_S64 : (⟨S_, .f32⟩ : BufTy).Contents (Elt F) → (⟨S64, .f32⟩ : BufTy).Contents (Elt F)) : HloOp τ sig (Elt F)).result (after rops6 V) (Proc.devRef .tc main_v79) := by
  after_results_simp
theorem fin_main_v79 (V : Valuation τ sig (Elt F)) :
    RV33 V (Proc.devRef .tc main_v79) = (StableHlo.unary main_cst_9 main_v79 (broadcastInDim S64 ![] bcast_S_S64 : (⟨S_, .f32⟩ : BufTy).Contents (Elt F) → (⟨S64, .f32⟩ : BufTy).Contents (Elt F)) : HloOp τ sig (Elt F)).result (RV33 V) (Proc.devRef .tc main_v79) := by
  have h := ssa_main_v79 (F := F) (RV6 V)
  rw [unary_result] at h ⊢
  rw [lift7 V main_v79 (by decide), lift7 V main_cst_9 (by decide)]
  exact h

theorem ssa_main_v80 (V : Valuation τ sig (Elt F)) :
    after rops6 V (Proc.devRef .tc main_v80) = (StableHlo.binary main_v78 main_v79 main_v80 (Host.divf : (⟨S64, .f32⟩ : BufTy).Contents (Elt F) → (⟨S64, .f32⟩ : BufTy).Contents (Elt F) → (⟨S64, .f32⟩ : BufTy).Contents (Elt F)) : HloOp τ sig (Elt F)).result (after rops6 V) (Proc.devRef .tc main_v80) := by
  after_results_simp
theorem fin_main_v80 (V : Valuation τ sig (Elt F)) :
    RV33 V (Proc.devRef .tc main_v80) = (StableHlo.binary main_v78 main_v79 main_v80 (Host.divf : (⟨S64, .f32⟩ : BufTy).Contents (Elt F) → (⟨S64, .f32⟩ : BufTy).Contents (Elt F) → (⟨S64, .f32⟩ : BufTy).Contents (Elt F)) : HloOp τ sig (Elt F)).result (RV33 V) (Proc.devRef .tc main_v80) := by
  have h := ssa_main_v80 (F := F) (RV6 V)
  rw [binary_result] at h ⊢
  rw [lift7 V main_v80 (by decide), lift7 V main_v78 (by decide), lift7 V main_v79 (by decide)]
  exact h

theorem ssa_main_c_10 (V : Valuation τ sig (Elt F)) :
    after rops6 V (Proc.devRef .tc main_c_10) = (StableHlo.nullary main_c_10 (constantI S_ 32 0#32) : HloOp τ sig (Elt F)).result (after rops6 V) (Proc.devRef .tc main_c_10) := by
  after_results_simp
theorem fin_main_c_10 (V : Valuation τ sig (Elt F)) :
    RV33 V (Proc.devRef .tc main_c_10) = (StableHlo.nullary main_c_10 (constantI S_ 32 0#32) : HloOp τ sig (Elt F)).result (RV33 V) (Proc.devRef .tc main_c_10) := by
  have h := ssa_main_c_10 (F := F) (RV6 V)
  rw [nullary_result] at h ⊢
  rw [lift7 V main_c_10 (by decide)]
  exact h

theorem ssa_main_call3_cst (V : Valuation τ sig (Elt F)) :
    after rops6 V (Proc.devRef .tc main_call3_cst) = (StableHlo.TRef.nullary main_call3.cst (constant S_ .f32 0x00000000#32) : HloOp τ sig (Elt F)).result (after rops6 V) (Proc.devRef .tc main_call3_cst) := by
  after_results_simp
theorem fin_main_call3_cst (V : Valuation τ sig (Elt F)) :
    RV33 V (Proc.devRef .tc main_call3_cst) = (StableHlo.TRef.nullary main_call3.cst (constant S_ .f32 0x00000000#32) : HloOp τ sig (Elt F)).result (RV33 V) (Proc.devRef .tc main_call3_cst) := by
  have h := ssa_main_call3_cst (F := F) (RV6 V)
  rw [nullary_result] at h ⊢
  rw [lift7 V main_call3_cst (by decide)]
  exact h

theorem ssa_main_call3_v0 (V : Valuation τ sig (Elt F)) :
    after rops6 V (Proc.devRef .tc main_call3_v0) = (StableHlo.TRef.binary (.of main_v73) main_call3.cst main_call3.v0 (fun x v => Host.reduceAdd x v reducesTo_S100000x64_S64_d0 h_S_) : HloOp τ sig (Elt F)).result (after rops6 V) (Proc.devRef .tc main_call3_v0) := by
  after_results_simp
theorem fin_main_call3_v0 (V : Valuation τ sig (Elt F)) :
    RV33 V (Proc.devRef .tc main_call3_v0) = (StableHlo.TRef.binary (.of main_v73) main_call3.cst main_call3.v0 (fun x v => Host.reduceAdd x v reducesTo_S100000x64_S64_d0 h_S_) : HloOp τ sig (Elt F)).result (RV33 V) (Proc.devRef .tc main_call3_v0) := by
  have h := ssa_main_call3_v0 (F := F) (RV6 V)
  rw [binary_result] at h ⊢
  rw [lift7 V main_call3_v0 (by decide), lift7 V main_v73 (by decide), lift7 V main_call3_cst (by decide)]
  exact h

theorem ssa_main_call3_v1 (V : Valuation τ sig (Elt F)) :
    after rops6 V (Proc.devRef .tc main_call3_v1) = (StableHlo.TRef.unary main_call3.v0 main_call3.v1 (broadcastInDim S1x64 ![1] bcast_S64_S1x64_1) : HloOp τ sig (Elt F)).result (after rops6 V) (Proc.devRef .tc main_call3_v1) := by
  after_results_simp
theorem fin_main_call3_v1 (V : Valuation τ sig (Elt F)) :
    RV33 V (Proc.devRef .tc main_call3_v1) = (StableHlo.TRef.unary main_call3.v0 main_call3.v1 (broadcastInDim S1x64 ![1] bcast_S64_S1x64_1) : HloOp τ sig (Elt F)).result (RV33 V) (Proc.devRef .tc main_call3_v1) := by
  have h := ssa_main_call3_v1 (F := F) (RV6 V)
  rw [unary_result] at h ⊢
  rw [lift7 V main_call3_v1 (by decide), lift7 V main_call3_v0 (by decide)]
  exact h

theorem ssa_main_call3_cst_0 (V : Valuation τ sig (Elt F)) :
    after rops6 V (Proc.devRef .tc main_call3_cst_0) = (StableHlo.TRef.nullary main_call3.cst_0 (constant S_ .f32 0x47C35000#32) : HloOp τ sig (Elt F)).result (after rops6 V) (Proc.devRef .tc main_call3_cst_0) := by
  after_results_simp
theorem fin_main_call3_cst_0 (V : Valuation τ sig (Elt F)) :
    RV33 V (Proc.devRef .tc main_call3_cst_0) = (StableHlo.TRef.nullary main_call3.cst_0 (constant S_ .f32 0x47C35000#32) : HloOp τ sig (Elt F)).result (RV33 V) (Proc.devRef .tc main_call3_cst_0) := by
  have h := ssa_main_call3_cst_0 (F := F) (RV6 V)
  rw [nullary_result] at h ⊢
  rw [lift7 V main_call3_cst_0 (by decide)]
  exact h

theorem ssa_main_call3_v2 (V : Valuation τ sig (Elt F)) :
    after rops6 V (Proc.devRef .tc main_call3_v2) = (StableHlo.TRef.unary main_call3.cst_0 main_call3.v2 (broadcastInDim S1x64 ![] bcast_S_S1x64) : HloOp τ sig (Elt F)).result (after rops6 V) (Proc.devRef .tc main_call3_v2) := by
  after_results_simp
theorem fin_main_call3_v2 (V : Valuation τ sig (Elt F)) :
    RV33 V (Proc.devRef .tc main_call3_v2) = (StableHlo.TRef.unary main_call3.cst_0 main_call3.v2 (broadcastInDim S1x64 ![] bcast_S_S1x64) : HloOp τ sig (Elt F)).result (RV33 V) (Proc.devRef .tc main_call3_v2) := by
  have h := ssa_main_call3_v2 (F := F) (RV6 V)
  rw [unary_result] at h ⊢
  rw [lift7 V main_call3_v2 (by decide), lift7 V main_call3_cst_0 (by decide)]
  exact h

theorem ssa_main_call3_v3 (V : Valuation τ sig (Elt F)) :
    after rops6 V (Proc.devRef .tc main_call3_v3) = (StableHlo.TRef.binary main_call3.v1 main_call3.v2 main_call3.v3 Host.divf : HloOp τ sig (Elt F)).result (after rops6 V) (Proc.devRef .tc main_call3_v3) := by
  after_results_simp
theorem fin_main_call3_v3 (V : Valuation τ sig (Elt F)) :
    RV33 V (Proc.devRef .tc main_call3_v3) = (StableHlo.TRef.binary main_call3.v1 main_call3.v2 main_call3.v3 Host.divf : HloOp τ sig (Elt F)).result (RV33 V) (Proc.devRef .tc main_call3_v3) := by
  have h := ssa_main_call3_v3 (F := F) (RV6 V)
  rw [binary_result] at h ⊢
  rw [lift7 V main_call3_v3 (by decide), lift7 V main_call3_v1 (by decide), lift7 V main_call3_v2 (by decide)]
  exact h

theorem ssa_main_call3_v4 (V : Valuation τ sig (Elt F)) :
    after rops7 V (Proc.devRef .tc main_call3_v4) = (StableHlo.TRef.unary main_call3.v3 main_call3.v4 (broadcastInDim S100000x64 ![0, 1] bcast_S1x64_S100000x64_0_1) : HloOp τ sig (Elt F)).result (after rops7 V) (Proc.devRef .tc main_call3_v4) := by
  after_results_simp
theorem fin_main_call3_v4 (V : Valuation τ sig (Elt F)) :
    RV33 V (Proc.devRef .tc main_call3_v4) = (StableHlo.TRef.unary main_call3.v3 main_call3.v4 (broadcastInDim S100000x64 ![0, 1] bcast_S1x64_S100000x64_0_1) : HloOp τ sig (Elt F)).result (RV33 V) (Proc.devRef .tc main_call3_v4) := by
  have h := ssa_main_call3_v4 (F := F) (RV7 V)
  rw [unary_result] at h ⊢
  rw [lift8 V main_call3_v4 (by decide), lift8 V main_call3_v3 (by decide)]
  exact h

theorem ssa_main_call3_v5 (V : Valuation τ sig (Elt F)) :
    after rops7 V (Proc.devRef .tc main_call3_v5) = (StableHlo.TRef.binary (.of main_v73) main_call3.v4 main_call3.v5 subf : HloOp τ sig (Elt F)).result (after rops7 V) (Proc.devRef .tc main_call3_v5) := by
  after_results_simp
theorem fin_main_call3_v5 (V : Valuation τ sig (Elt F)) :
    RV33 V (Proc.devRef .tc main_call3_v5) = (StableHlo.TRef.binary (.of main_v73) main_call3.v4 main_call3.v5 subf : HloOp τ sig (Elt F)).result (RV33 V) (Proc.devRef .tc main_call3_v5) := by
  have h := ssa_main_call3_v5 (F := F) (RV7 V)
  rw [binary_result] at h ⊢
  rw [lift8 V main_call3_v5 (by decide), lift8 V main_v73 (by decide), lift8 V main_call3_v4 (by decide)]
  exact h

theorem ssa_main_call3_v6 (V : Valuation τ sig (Elt F)) :
    after rops7 V (Proc.devRef .tc main_call3_v6) = (StableHlo.TRef.binary main_call3.v5 main_call3.v5 main_call3.v6 mulf : HloOp τ sig (Elt F)).result (after rops7 V) (Proc.devRef .tc main_call3_v6) := by
  after_results_simp
theorem fin_main_call3_v6 (V : Valuation τ sig (Elt F)) :
    RV33 V (Proc.devRef .tc main_call3_v6) = (StableHlo.TRef.binary main_call3.v5 main_call3.v5 main_call3.v6 mulf : HloOp τ sig (Elt F)).result (RV33 V) (Proc.devRef .tc main_call3_v6) := by
  have h := ssa_main_call3_v6 (F := F) (RV7 V)
  rw [binary_result] at h ⊢
  rw [lift8 V main_call3_v6 (by decide), lift8 V main_call3_v5 (by decide)]
  exact h

theorem ssa_main_call3_v7 (V : Valuation τ sig (Elt F)) :
    after rops7 V (Proc.devRef .tc main_call3_v7) = (StableHlo.TRef.unary (.of main_c_10) main_call3.v7 (sitofp .f32) : HloOp τ sig (Elt F)).result (after rops7 V) (Proc.devRef .tc main_call3_v7) := by
  after_results_simp
theorem fin_main_call3_v7 (V : Valuation τ sig (Elt F)) :
    RV33 V (Proc.devRef .tc main_call3_v7) = (StableHlo.TRef.unary (.of main_c_10) main_call3.v7 (sitofp .f32) : HloOp τ sig (Elt F)).result (RV33 V) (Proc.devRef .tc main_call3_v7) := by
  have h := ssa_main_call3_v7 (F := F) (RV7 V)
  rw [unary_result] at h ⊢
  rw [lift8 V main_call3_v7 (by decide), lift8 V main_c_10 (by decide)]
  exact h

theorem ssa_main_call3_cst_1 (V : Valuation τ sig (Elt F)) :
    after rops7 V (Proc.devRef .tc main_call3_cst_1) = (StableHlo.TRef.nullary main_call3.cst_1 (constant S_ .f32 0x47C35000#32) : HloOp τ sig (Elt F)).result (after rops7 V) (Proc.devRef .tc main_call3_cst_1) := by
  after_results_simp
theorem fin_main_call3_cst_1 (V : Valuation τ sig (Elt F)) :
    RV33 V (Proc.devRef .tc main_call3_cst_1) = (StableHlo.TRef.nullary main_call3.cst_1 (constant S_ .f32 0x47C35000#32) : HloOp τ sig (Elt F)).result (RV33 V) (Proc.devRef .tc main_call3_cst_1) := by
  have h := ssa_main_call3_cst_1 (F := F) (RV7 V)
  rw [nullary_result] at h ⊢
  rw [lift8 V main_call3_cst_1 (by decide)]
  exact h

theorem ssa_main_call3_v8 (V : Valuation τ sig (Elt F)) :
    after rops7 V (Proc.devRef .tc main_call3_v8) = (StableHlo.TRef.binary main_call3.cst_1 main_call3.v7 main_call3.v8 subf : HloOp τ sig (Elt F)).result (after rops7 V) (Proc.devRef .tc main_call3_v8) := by
  after_results_simp
theorem fin_main_call3_v8 (V : Valuation τ sig (Elt F)) :
    RV33 V (Proc.devRef .tc main_call3_v8) = (StableHlo.TRef.binary main_call3.cst_1 main_call3.v7 main_call3.v8 subf : HloOp τ sig (Elt F)).result (RV33 V) (Proc.devRef .tc main_call3_v8) := by
  have h := ssa_main_call3_v8 (F := F) (RV7 V)
  rw [binary_result] at h ⊢
  rw [lift8 V main_call3_v8 (by decide), lift8 V main_call3_cst_1 (by decide), lift8 V main_call3_v7 (by decide)]
  exact h

theorem ssa_main_call3_cst_2 (V : Valuation τ sig (Elt F)) :
    after rops7 V (Proc.devRef .tc main_call3_cst_2) = (StableHlo.TRef.nullary main_call3.cst_2 (constant S_ .f32 0x00000000#32) : HloOp τ sig (Elt F)).result (after rops7 V) (Proc.devRef .tc main_call3_cst_2) := by
  after_results_simp
theorem fin_main_call3_cst_2 (V : Valuation τ sig (Elt F)) :
    RV33 V (Proc.devRef .tc main_call3_cst_2) = (StableHlo.TRef.nullary main_call3.cst_2 (constant S_ .f32 0x00000000#32) : HloOp τ sig (Elt F)).result (RV33 V) (Proc.devRef .tc main_call3_cst_2) := by
  have h := ssa_main_call3_cst_2 (F := F) (RV7 V)
  rw [nullary_result] at h ⊢
  rw [lift8 V main_call3_cst_2 (by decide)]
  exact h

theorem ssa_main_call3_v9 (V : Valuation τ sig (Elt F)) :
    after rops7 V (Proc.devRef .tc main_call3_v9) = (StableHlo.TRef.binary main_call3.v6 main_call3.cst_2 main_call3.v9 (fun x v => Host.reduceAdd x v reducesTo_S100000x64_S64_d0 h_S_) : HloOp τ sig (Elt F)).result (after rops7 V) (Proc.devRef .tc main_call3_v9) := by
  after_results_simp
theorem fin_main_call3_v9 (V : Valuation τ sig (Elt F)) :
    RV33 V (Proc.devRef .tc main_call3_v9) = (StableHlo.TRef.binary main_call3.v6 main_call3.cst_2 main_call3.v9 (fun x v => Host.reduceAdd x v reducesTo_S100000x64_S64_d0 h_S_) : HloOp τ sig (Elt F)).result (RV33 V) (Proc.devRef .tc main_call3_v9) := by
  have h := ssa_main_call3_v9 (F := F) (RV7 V)
  rw [binary_result] at h ⊢
  rw [lift8 V main_call3_v9 (by decide), lift8 V main_call3_v6 (by decide), lift8 V main_call3_cst_2 (by decide)]
  exact h

theorem ssa_main_call3_v10 (V : Valuation τ sig (Elt F)) :
    after rops7 V (Proc.devRef .tc main_call3_v10) = (StableHlo.TRef.unary main_call3.v8 main_call3.v10 (broadcastInDim S64 ![] bcast_S_S64) : HloOp τ sig (Elt F)).result (after rops7 V) (Proc.devRef .tc main_call3_v10) := by
  after_results_simp
theorem fin_main_call3_v10 (V : Valuation τ sig (Elt F)) :
    RV33 V (Proc.devRef .tc main_call3_v10) = (StableHlo.TRef.unary main_call3.v8 main_call3.v10 (broadcastInDim S64 ![] bcast_S_S64) : HloOp τ sig (Elt F)).result (RV33 V) (Proc.devRef .tc main_call3_v10) := by
  have h := ssa_main_call3_v10 (F := F) (RV7 V)
  rw [unary_result] at h ⊢
  rw [lift8 V main_call3_v10 (by decide), lift8 V main_call3_v8 (by decide)]
  exact h

theorem ssa_main_call3_v11 (V : Valuation τ sig (Elt F)) :
    after rops7 V (Proc.devRef .tc main_call3_v11) = (StableHlo.TRef.binary main_call3.v9 main_call3.v10 main_call3.v11 Host.divf : HloOp τ sig (Elt F)).result (after rops7 V) (Proc.devRef .tc main_call3_v11) := by
  after_results_simp
theorem fin_main_call3_v11 (V : Valuation τ sig (Elt F)) :
    RV33 V (Proc.devRef .tc main_call3_v11) = (StableHlo.TRef.binary main_call3.v9 main_call3.v10 main_call3.v11 Host.divf : HloOp τ sig (Elt F)).result (RV33 V) (Proc.devRef .tc main_call3_v11) := by
  have h := ssa_main_call3_v11 (F := F) (RV7 V)
  rw [binary_result] at h ⊢
  rw [lift8 V main_call3_v11 (by decide), lift8 V main_call3_v9 (by decide), lift8 V main_call3_v10 (by decide)]
  exact h

theorem ssa_main_call3_cst_3 (V : Valuation τ sig (Elt F)) :
    after rops7 V (Proc.devRef .tc main_call3_cst_3) = (StableHlo.TRef.nullary main_call3.cst_3 (constant S_ .f32 0x00000000#32) : HloOp τ sig (Elt F)).result (after rops7 V) (Proc.devRef .tc main_call3_cst_3) := by
  after_results_simp
theorem fin_main_call3_cst_3 (V : Valuation τ sig (Elt F)) :
    RV33 V (Proc.devRef .tc main_call3_cst_3) = (StableHlo.TRef.nullary main_call3.cst_3 (constant S_ .f32 0x00000000#32) : HloOp τ sig (Elt F)).result (RV33 V) (Proc.devRef .tc main_call3_cst_3) := by
  have h := ssa_main_call3_cst_3 (F := F) (RV7 V)
  rw [nullary_result] at h ⊢
  rw [lift8 V main_call3_cst_3 (by decide)]
  exact h

theorem ssa_main_call3_v12 (V : Valuation τ sig (Elt F)) :
    after rops7 V (Proc.devRef .tc main_call3_v12) = (StableHlo.TRef.binary main_call3.v8 main_call3.cst_3 main_call3.v12 (cmpf .ogt) : HloOp τ sig (Elt F)).result (after rops7 V) (Proc.devRef .tc main_call3_v12) := by
  after_results_simp
theorem fin_main_call3_v12 (V : Valuation τ sig (Elt F)) :
    RV33 V (Proc.devRef .tc main_call3_v12) = (StableHlo.TRef.binary main_call3.v8 main_call3.cst_3 main_call3.v12 (cmpf .ogt) : HloOp τ sig (Elt F)).result (RV33 V) (Proc.devRef .tc main_call3_v12) := by
  have h := ssa_main_call3_v12 (F := F) (RV7 V)
  rw [binary_result] at h ⊢
  rw [lift8 V main_call3_v12 (by decide), lift8 V main_call3_v8 (by decide), lift8 V main_call3_cst_3 (by decide)]
  exact h

theorem ssa_main_call3_cst_4 (V : Valuation τ sig (Elt F)) :
    after rops7 V (Proc.devRef .tc main_call3_cst_4) = (StableHlo.TRef.nullary main_call3.cst_4 (constant S_ .f32 0x7FC00000#32) : HloOp τ sig (Elt F)).result (after rops7 V) (Proc.devRef .tc main_call3_cst_4) := by
  after_results_simp
theorem fin_main_call3_cst_4 (V : Valuation τ sig (Elt F)) :
    RV33 V (Proc.devRef .tc main_call3_cst_4) = (StableHlo.TRef.nullary main_call3.cst_4 (constant S_ .f32 0x7FC00000#32) : HloOp τ sig (Elt F)).result (RV33 V) (Proc.devRef .tc main_call3_cst_4) := by
  have h := ssa_main_call3_cst_4 (F := F) (RV7 V)
  rw [nullary_result] at h ⊢
  rw [lift8 V main_call3_cst_4 (by decide)]
  exact h

theorem ssa_main_call3_call0_v0 (V : Valuation τ sig (Elt F)) :
    after rops7 V (Proc.devRef .tc main_call3_call0_v0) = (StableHlo.TRef.unary main_call3.cst_4 main_call3.call0.v0 id : HloOp τ sig (Elt F)).result (after rops7 V) (Proc.devRef .tc main_call3_call0_v0) := by
  after_results_simp
theorem fin_main_call3_call0_v0 (V : Valuation τ sig (Elt F)) :
    RV33 V (Proc.devRef .tc main_call3_call0_v0) = (StableHlo.TRef.unary main_call3.cst_4 main_call3.call0.v0 id : HloOp τ sig (Elt F)).result (RV33 V) (Proc.devRef .tc main_call3_call0_v0) := by
  have h := ssa_main_call3_call0_v0 (F := F) (RV7 V)
  rw [unary_result] at h ⊢
  rw [lift8 V main_call3_call0_v0 (by decide), lift8 V main_call3_cst_4 (by decide)]
  exact h

theorem ssa_main_call3_call0_v1 (V : Valuation τ sig (Elt F)) :
    after rops7 V (Proc.devRef .tc main_call3_call0_v1) = (StableHlo.TRef.unary main_call3.call0.v0 main_call3.call0.v1 (broadcastInDim S64 ![] bcast_S_S64) : HloOp τ sig (Elt F)).result (after rops7 V) (Proc.devRef .tc main_call3_call0_v1) := by
  after_results_simp
theorem fin_main_call3_call0_v1 (V : Valuation τ sig (Elt F)) :
    RV33 V (Proc.devRef .tc main_call3_call0_v1) = (StableHlo.TRef.unary main_call3.call0.v0 main_call3.call0.v1 (broadcastInDim S64 ![] bcast_S_S64) : HloOp τ sig (Elt F)).result (RV33 V) (Proc.devRef .tc main_call3_call0_v1) := by
  have h := ssa_main_call3_call0_v1 (F := F) (RV7 V)
  rw [unary_result] at h ⊢
  rw [lift8 V main_call3_call0_v1 (by decide), lift8 V main_call3_call0_v0 (by decide)]
  exact h

theorem ssa_main_v81 (V : Valuation τ sig (Elt F)) :
    after rops7 V (Proc.devRef .tc main_v81) = (StableHlo.TRef.ternary main_call3.v12 main_call3.v11 main_call3.call0.v1 main_call3.call0.v2 (fun p a b => select (broadcastInDim S64 ![] bcast_S_S64 p) a b) : HloOp τ sig (Elt F)).result (after rops7 V) (Proc.devRef .tc main_v81) := by
  after_results_simp
theorem fin_main_v81 (V : Valuation τ sig (Elt F)) :
    RV33 V (Proc.devRef .tc main_v81) = (StableHlo.TRef.ternary main_call3.v12 main_call3.v11 main_call3.call0.v1 main_call3.call0.v2 (fun p a b => select (broadcastInDim S64 ![] bcast_S_S64 p) a b) : HloOp τ sig (Elt F)).result (RV33 V) (Proc.devRef .tc main_v81) := by
  have h := ssa_main_v81 (F := F) (RV7 V)
  rw [ternary_result] at h ⊢
  rw [lift8 V main_v81 (by decide), lift8 V main_call3_v12 (by decide), lift8 V main_call3_v11 (by decide), lift8 V main_call3_call0_v1 (by decide)]
  exact h

theorem ssa_main_v82 (V : Valuation τ sig (Elt F)) :
    after rops7 V (Proc.devRef .tc main_v82) = (StableHlo.unary main_v80 main_v82 (broadcastInDim S1x64 ![1] bcast_S64_S1x64_1 : (⟨S64, .f32⟩ : BufTy).Contents (Elt F) → (⟨S1x64, .f32⟩ : BufTy).Contents (Elt F)) : HloOp τ sig (Elt F)).result (after rops7 V) (Proc.devRef .tc main_v82) := by
  after_results_simp
theorem fin_main_v82 (V : Valuation τ sig (Elt F)) :
    RV33 V (Proc.devRef .tc main_v82) = (StableHlo.unary main_v80 main_v82 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v82) := by
  have h := ssa_main_v82 (F := F) (RV7 V)
  rw [unary_result] at h ⊢
  rw [lift8 V main_v82 (by decide), lift8 V main_v80 (by decide)]
  exact h

theorem ssa_main_v83 (V : Valuation τ sig (Elt F)) :
    after rops7 V (Proc.devRef .tc main_v83) = (StableHlo.unary main_v82 main_v83 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops7 V) (Proc.devRef .tc main_v83) := by
  after_results_simp
theorem fin_main_v83 (V : Valuation τ sig (Elt F)) :
    RV33 V (Proc.devRef .tc main_v83) = (StableHlo.unary main_v82 main_v83 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v83) := by
  have h := ssa_main_v83 (F := F) (RV7 V)
  rw [unary_result] at h ⊢
  rw [lift8 V main_v83 (by decide), lift8 V main_v82 (by decide)]
  exact h

theorem ssa_main_v84 (V : Valuation τ sig (Elt F)) :
    after rops7 V (Proc.devRef .tc main_v84) = (StableHlo.binary main_v73 main_v83 main_v84 (subf : (⟨S100000x64, .f32⟩ : BufTy).Contents (Elt F) → (⟨S100000x64, .f32⟩ : BufTy).Contents (Elt F) → (⟨S100000x64, .f32⟩ : BufTy).Contents (Elt F)) : HloOp τ sig (Elt F)).result (after rops7 V) (Proc.devRef .tc main_v84) := by
  after_results_simp
theorem fin_main_v84 (V : Valuation τ sig (Elt F)) :
    RV33 V (Proc.devRef .tc main_v84) = (StableHlo.binary main_v73 main_v83 main_v84 (subf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v84) := by
  have h := ssa_main_v84 (F := F) (RV7 V)
  rw [binary_result] at h ⊢
  rw [lift8 V main_v84 (by decide), lift8 V main_v73 (by decide), lift8 V main_v83 (by decide)]
  exact h

theorem ssa_main_v85 (V : Valuation τ sig (Elt F)) :
    after rops7 V (Proc.devRef .tc main_v85) = (StableHlo.unary main_v75 main_v85 (broadcastInDim S1x64 ![1] bcast_S64_S1x64_1 : (⟨S64, .f32⟩ : BufTy).Contents (Elt F) → (⟨S1x64, .f32⟩ : BufTy).Contents (Elt F)) : HloOp τ sig (Elt F)).result (after rops7 V) (Proc.devRef .tc main_v85) := by
  after_results_simp
theorem fin_main_v85 (V : Valuation τ sig (Elt F)) :
    RV33 V (Proc.devRef .tc main_v85) = (StableHlo.unary main_v75 main_v85 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v85) := by
  have h := ssa_main_v85 (F := F) (RV7 V)
  rw [unary_result] at h ⊢
  rw [lift8 V main_v85 (by decide), lift8 V main_v75 (by decide)]
  exact h

theorem ssa_main_v86 (V : Valuation τ sig (Elt F)) :
    after rops8 V (Proc.devRef .tc main_v86) = (StableHlo.unary main_v85 main_v86 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops8 V) (Proc.devRef .tc main_v86) := by
  after_results_simp
theorem fin_main_v86 (V : Valuation τ sig (Elt F)) :
    RV33 V (Proc.devRef .tc main_v86) = (StableHlo.unary main_v85 main_v86 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v86) := by
  have h := ssa_main_v86 (F := F) (RV8 V)
  rw [unary_result] at h ⊢
  rw [lift9 V main_v86 (by decide), lift9 V main_v85 (by decide)]
  exact h

theorem ssa_main_v87 (V : Valuation τ sig (Elt F)) :
    after rops8 V (Proc.devRef .tc main_v87) = (StableHlo.binary main_v86 main_v84 main_v87 (mulf : (⟨S100000x64, .f32⟩ : BufTy).Contents (Elt F) → (⟨S100000x64, .f32⟩ : BufTy).Contents (Elt F) → (⟨S100000x64, .f32⟩ : BufTy).Contents (Elt F)) : HloOp τ sig (Elt F)).result (after rops8 V) (Proc.devRef .tc main_v87) := by
  after_results_simp
theorem fin_main_v87 (V : Valuation τ sig (Elt F)) :
    RV33 V (Proc.devRef .tc main_v87) = (StableHlo.binary main_v86 main_v84 main_v87 (mulf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v87) := by
  have h := ssa_main_v87 (F := F) (RV8 V)
  rw [binary_result] at h ⊢
  rw [lift9 V main_v87 (by decide), lift9 V main_v86 (by decide), lift9 V main_v84 (by decide)]
  exact h

theorem ssa_main_cst_11 (V : Valuation τ sig (Elt F)) :
    after rops8 V (Proc.devRef .tc main_cst_11) = (StableHlo.nullary main_cst_11 (constant S_ .f32 0x3727C5AC#32) : HloOp τ sig (Elt F)).result (after rops8 V) (Proc.devRef .tc main_cst_11) := by
  after_results_simp
theorem fin_main_cst_11 (V : Valuation τ sig (Elt F)) :
    RV33 V (Proc.devRef .tc main_cst_11) = (StableHlo.nullary main_cst_11 (constant S_ .f32 0x3727C5AC#32) : HloOp τ sig (Elt F)).result (RV33 V) (Proc.devRef .tc main_cst_11) := by
  have h := ssa_main_cst_11 (F := F) (RV8 V)
  rw [nullary_result] at h ⊢
  rw [lift9 V main_cst_11 (by decide)]
  exact h

theorem ssa_main_v88 (V : Valuation τ sig (Elt F)) :
    after rops8 V (Proc.devRef .tc main_v88) = (StableHlo.unary main_cst_11 main_v88 (broadcastInDim S64 ![] bcast_S_S64 : (⟨S_, .f32⟩ : BufTy).Contents (Elt F) → (⟨S64, .f32⟩ : BufTy).Contents (Elt F)) : HloOp τ sig (Elt F)).result (after rops8 V) (Proc.devRef .tc main_v88) := by
  after_results_simp
theorem fin_main_v88 (V : Valuation τ sig (Elt F)) :
    RV33 V (Proc.devRef .tc main_v88) = (StableHlo.unary main_cst_11 main_v88 (broadcastInDim S64 ![] bcast_S_S64 : (⟨S_, .f32⟩ : BufTy).Contents (Elt F) → (⟨S64, .f32⟩ : BufTy).Contents (Elt F)) : HloOp τ sig (Elt F)).result (RV33 V) (Proc.devRef .tc main_v88) := by
  have h := ssa_main_v88 (F := F) (RV8 V)
  rw [unary_result] at h ⊢
  rw [lift9 V main_v88 (by decide), lift9 V main_cst_11 (by decide)]
  exact h

theorem ssa_main_v89 (V : Valuation τ sig (Elt F)) :
    after rops8 V (Proc.devRef .tc main_v89) = (StableHlo.binary main_v81 main_v88 main_v89 (addf : (⟨S64, .f32⟩ : BufTy).Contents (Elt F) → (⟨S64, .f32⟩ : BufTy).Contents (Elt F) → (⟨S64, .f32⟩ : BufTy).Contents (Elt F)) : HloOp τ sig (Elt F)).result (after rops8 V) (Proc.devRef .tc main_v89) := by
  after_results_simp
theorem fin_main_v89 (V : Valuation τ sig (Elt F)) :
    RV33 V (Proc.devRef .tc main_v89) = (StableHlo.binary main_v81 main_v88 main_v89 (addf : (⟨S64, .f32⟩ : BufTy).Contents (Elt F) → (⟨S64, .f32⟩ : BufTy).Contents (Elt F) → (⟨S64, .f32⟩ : BufTy).Contents (Elt F)) : HloOp τ sig (Elt F)).result (RV33 V) (Proc.devRef .tc main_v89) := by
  have h := ssa_main_v89 (F := F) (RV8 V)
  rw [binary_result] at h ⊢
  rw [lift9 V main_v89 (by decide), lift9 V main_v81 (by decide), lift9 V main_v88 (by decide)]
  exact h

theorem ssa_main_v90 (V : Valuation τ sig (Elt F)) :
    after rops8 V (Proc.devRef .tc main_v90) = (StableHlo.unary main_v89 main_v90 (Host.rsqrt : (⟨S64, .f32⟩ : BufTy).Contents (Elt F) → (⟨S64, .f32⟩ : BufTy).Contents (Elt F)) : HloOp τ sig (Elt F)).result (after rops8 V) (Proc.devRef .tc main_v90) := by
  after_results_simp
theorem fin_main_v90 (V : Valuation τ sig (Elt F)) :
    RV33 V (Proc.devRef .tc main_v90) = (StableHlo.unary main_v89 main_v90 (Host.rsqrt : (⟨S64, .f32⟩ : BufTy).Contents (Elt F) → (⟨S64, .f32⟩ : BufTy).Contents (Elt F)) : HloOp τ sig (Elt F)).result (RV33 V) (Proc.devRef .tc main_v90) := by
  have h := ssa_main_v90 (F := F) (RV8 V)
  rw [unary_result] at h ⊢
  rw [lift9 V main_v90 (by decide), lift9 V main_v89 (by decide)]
  exact h

theorem ssa_main_v91 (V : Valuation τ sig (Elt F)) :
    after rops8 V (Proc.devRef .tc main_v91) = (StableHlo.unary main_v90 main_v91 (broadcastInDim S1x64 ![1] bcast_S64_S1x64_1 : (⟨S64, .f32⟩ : BufTy).Contents (Elt F) → (⟨S1x64, .f32⟩ : BufTy).Contents (Elt F)) : HloOp τ sig (Elt F)).result (after rops8 V) (Proc.devRef .tc main_v91) := by
  after_results_simp
theorem fin_main_v91 (V : Valuation τ sig (Elt F)) :
    RV33 V (Proc.devRef .tc main_v91) = (StableHlo.unary main_v90 main_v91 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v91) := by
  have h := ssa_main_v91 (F := F) (RV8 V)
  rw [unary_result] at h ⊢
  rw [lift9 V main_v91 (by decide), lift9 V main_v90 (by decide)]
  exact h

theorem ssa_main_v92 (V : Valuation τ sig (Elt F)) :
    after rops8 V (Proc.devRef .tc main_v92) = (StableHlo.unary main_v91 main_v92 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops8 V) (Proc.devRef .tc main_v92) := by
  after_results_simp
theorem fin_main_v92 (V : Valuation τ sig (Elt F)) :
    RV33 V (Proc.devRef .tc main_v92) = (StableHlo.unary main_v91 main_v92 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v92) := by
  have h := ssa_main_v92 (F := F) (RV8 V)
  rw [unary_result] at h ⊢
  rw [lift9 V main_v92 (by decide), lift9 V main_v91 (by decide)]
  exact h

theorem ssa_main_v93 (V : Valuation τ sig (Elt F)) :
    after rops8 V (Proc.devRef .tc main_v93) = (StableHlo.binary main_v87 main_v92 main_v93 (mulf : (⟨S100000x64, .f32⟩ : BufTy).Contents (Elt F) → (⟨S100000x64, .f32⟩ : BufTy).Contents (Elt F) → (⟨S100000x64, .f32⟩ : BufTy).Contents (Elt F)) : HloOp τ sig (Elt F)).result (after rops8 V) (Proc.devRef .tc main_v93) := by
  after_results_simp
theorem fin_main_v93 (V : Valuation τ sig (Elt F)) :
    RV33 V (Proc.devRef .tc main_v93) = (StableHlo.binary main_v87 main_v92 main_v93 (mulf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v93) := by
  have h := ssa_main_v93 (F := F) (RV8 V)
  rw [binary_result] at h ⊢
  rw [lift9 V main_v93 (by decide), lift9 V main_v87 (by decide), lift9 V main_v92 (by decide)]
  exact h

theorem ssa_main_v94 (V : Valuation τ sig (Elt F)) :
    after rops8 V (Proc.devRef .tc main_v94) = (StableHlo.unary main_v77 main_v94 (broadcastInDim S1x64 ![1] bcast_S64_S1x64_1 : (⟨S64, .f32⟩ : BufTy).Contents (Elt F) → (⟨S1x64, .f32⟩ : BufTy).Contents (Elt F)) : HloOp τ sig (Elt F)).result (after rops8 V) (Proc.devRef .tc main_v94) := by
  after_results_simp
theorem fin_main_v94 (V : Valuation τ sig (Elt F)) :
    RV33 V (Proc.devRef .tc main_v94) = (StableHlo.unary main_v77 main_v94 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v94) := by
  have h := ssa_main_v94 (F := F) (RV8 V)
  rw [unary_result] at h ⊢
  rw [lift9 V main_v94 (by decide), lift9 V main_v77 (by decide)]
  exact h

theorem ssa_main_v95 (V : Valuation τ sig (Elt F)) :
    after rops8 V (Proc.devRef .tc main_v95) = (StableHlo.unary main_v94 main_v95 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops8 V) (Proc.devRef .tc main_v95) := by
  after_results_simp
theorem fin_main_v95 (V : Valuation τ sig (Elt F)) :
    RV33 V (Proc.devRef .tc main_v95) = (StableHlo.unary main_v94 main_v95 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v95) := by
  have h := ssa_main_v95 (F := F) (RV8 V)
  rw [unary_result] at h ⊢
  rw [lift9 V main_v95 (by decide), lift9 V main_v94 (by decide)]
  exact h

theorem ssa_main_v96 (V : Valuation τ sig (Elt F)) :
    after rops8 V (Proc.devRef .tc main_v96) = (StableHlo.binary main_v93 main_v95 main_v96 (addf : (⟨S100000x64, .f32⟩ : BufTy).Contents (Elt F) → (⟨S100000x64, .f32⟩ : BufTy).Contents (Elt F) → (⟨S100000x64, .f32⟩ : BufTy).Contents (Elt F)) : HloOp τ sig (Elt F)).result (after rops8 V) (Proc.devRef .tc main_v96) := by
  after_results_simp
theorem fin_main_v96 (V : Valuation τ sig (Elt F)) :
    RV33 V (Proc.devRef .tc main_v96) = (StableHlo.binary main_v93 main_v95 main_v96 (addf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v96) := by
  have h := ssa_main_v96 (F := F) (RV8 V)
  rw [binary_result] at h ⊢
  rw [lift9 V main_v96 (by decide), lift9 V main_v93 (by decide), lift9 V main_v95 (by decide)]
  exact h

theorem ssa_main_cst_12 (V : Valuation τ sig (Elt F)) :
    after rops8 V (Proc.devRef .tc main_cst_12) = (StableHlo.nullary main_cst_12 (constant S_ .f32 0x00000000#32) : HloOp τ sig (Elt F)).result (after rops8 V) (Proc.devRef .tc main_cst_12) := by
  after_results_simp
theorem fin_main_cst_12 (V : Valuation τ sig (Elt F)) :
    RV33 V (Proc.devRef .tc main_cst_12) = (StableHlo.nullary main_cst_12 (constant S_ .f32 0x00000000#32) : HloOp τ sig (Elt F)).result (RV33 V) (Proc.devRef .tc main_cst_12) := by
  have h := ssa_main_cst_12 (F := F) (RV8 V)
  rw [nullary_result] at h ⊢
  rw [lift9 V main_cst_12 (by decide)]
  exact h

theorem ssa_main_v97 (V : Valuation τ sig (Elt F)) :
    after rops8 V (Proc.devRef .tc main_v97) = (StableHlo.unary main_cst_12 main_v97 (broadcastInDim S100000x64 ![] bcast_S_S100000x64 : (⟨S_, .f32⟩ : BufTy).Contents (Elt F) → (⟨S100000x64, .f32⟩ : BufTy).Contents (Elt F)) : HloOp τ sig (Elt F)).result (after rops8 V) (Proc.devRef .tc main_v97) := by
  after_results_simp
theorem fin_main_v97 (V : Valuation τ sig (Elt F)) :
    RV33 V (Proc.devRef .tc main_v97) = (StableHlo.unary main_cst_12 main_v97 (broadcastInDim S100000x64 ![] bcast_S_S100000x64 : (⟨S_, .f32⟩ : BufTy).Contents (Elt F) → (⟨S100000x64, .f32⟩ : BufTy).Contents (Elt F)) : HloOp τ sig (Elt F)).result (RV33 V) (Proc.devRef .tc main_v97) := by
  have h := ssa_main_v97 (F := F) (RV8 V)
  rw [unary_result] at h ⊢
  rw [lift9 V main_v97 (by decide), lift9 V main_cst_12 (by decide)]
  exact h

theorem ssa_main_v98 (V : Valuation τ sig (Elt F)) :
    after rops8 V (Proc.devRef .tc main_v98) = (StableHlo.binary main_v96 main_v97 main_v98 (cmpf .oge : (⟨S100000x64, .f32⟩ : BufTy).Contents (Elt F) → (⟨S100000x64, .f32⟩ : BufTy).Contents (Elt F) → (⟨S100000x64, .i1⟩ : BufTy).Contents (Elt F)) : HloOp τ sig (Elt F)).result (after rops8 V) (Proc.devRef .tc main_v98) := by
  after_results_simp
theorem fin_main_v98 (V : Valuation τ sig (Elt F)) :
    RV33 V (Proc.devRef .tc main_v98) = (StableHlo.binary main_v96 main_v97 main_v98 (cmpf .oge : (⟨S100000x64, .f32⟩ : BufTy).Contents (Elt F) → (⟨S100000x64, .f32⟩ : BufTy).Contents (Elt F) → (⟨S100000x64, .i1⟩ : BufTy).Contents (Elt F)) : HloOp τ sig (Elt F)).result (RV33 V) (Proc.devRef .tc main_v98) := by
  have h := ssa_main_v98 (F := F) (RV8 V)
  rw [binary_result] at h ⊢
  rw [lift9 V main_v98 (by decide), lift9 V main_v96 (by decide), lift9 V main_v97 (by decide)]
  exact h

theorem ssa_main_cst_13 (V : Valuation τ sig (Elt F)) :
    after rops8 V (Proc.devRef .tc main_cst_13) = (StableHlo.nullary main_cst_13 (constant S_ .f32 0x3C23D70A#32) : HloOp τ sig (Elt F)).result (after rops8 V) (Proc.devRef .tc main_cst_13) := by
  after_results_simp
theorem fin_main_cst_13 (V : Valuation τ sig (Elt F)) :
    RV33 V (Proc.devRef .tc main_cst_13) = (StableHlo.nullary main_cst_13 (constant S_ .f32 0x3C23D70A#32) : HloOp τ sig (Elt F)).result (RV33 V) (Proc.devRef .tc main_cst_13) := by
  have h := ssa_main_cst_13 (F := F) (RV8 V)
  rw [nullary_result] at h ⊢
  rw [lift9 V main_cst_13 (by decide)]
  exact h

theorem ssa_main_v99 (V : Valuation τ sig (Elt F)) :
    after rops8 V (Proc.devRef .tc main_v99) = (StableHlo.unary main_cst_13 main_v99 (broadcastInDim S100000x64 ![] bcast_S_S100000x64 : (⟨S_, .f32⟩ : BufTy).Contents (Elt F) → (⟨S100000x64, .f32⟩ : BufTy).Contents (Elt F)) : HloOp τ sig (Elt F)).result (after rops8 V) (Proc.devRef .tc main_v99) := by
  after_results_simp
theorem fin_main_v99 (V : Valuation τ sig (Elt F)) :
    RV33 V (Proc.devRef .tc main_v99) = (StableHlo.unary main_cst_13 main_v99 (broadcastInDim S100000x64 ![] bcast_S_S100000x64 : (⟨S_, .f32⟩ : BufTy).Contents (Elt F) → (⟨S100000x64, .f32⟩ : BufTy).Contents (Elt F)) : HloOp τ sig (Elt F)).result (RV33 V) (Proc.devRef .tc main_v99) := by
  have h := ssa_main_v99 (F := F) (RV8 V)
  rw [unary_result] at h ⊢
  rw [lift9 V main_v99 (by decide), lift9 V main_cst_13 (by decide)]
  exact h

theorem ssa_main_v100 (V : Valuation τ sig (Elt F)) :
    after rops8 V (Proc.devRef .tc main_v100) = (StableHlo.binary main_v99 main_v96 main_v100 (mulf : (⟨S100000x64, .f32⟩ : BufTy).Contents (Elt F) → (⟨S100000x64, .f32⟩ : BufTy).Contents (Elt F) → (⟨S100000x64, .f32⟩ : BufTy).Contents (Elt F)) : HloOp τ sig (Elt F)).result (after rops8 V) (Proc.devRef .tc main_v100) := by
  after_results_simp
theorem fin_main_v100 (V : Valuation τ sig (Elt F)) :
    RV33 V (Proc.devRef .tc main_v100) = (StableHlo.binary main_v99 main_v96 main_v100 (mulf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v100) := by
  have h := ssa_main_v100 (F := F) (RV8 V)
  rw [binary_result] at h ⊢
  rw [lift9 V main_v100 (by decide), lift9 V main_v99 (by decide), lift9 V main_v96 (by decide)]
  exact h

theorem ssa_main_v101 (V : Valuation τ sig (Elt F)) :
    after rops8 V (Proc.devRef .tc main_v101) = (StableHlo.TRef.ternary (.of main_v98) (.of main_v96) (.of main_v100) main_call4.v0 select : HloOp τ sig (Elt F)).result (after rops8 V) (Proc.devRef .tc main_v101) := by
  after_results_simp
theorem fin_main_v101 (V : Valuation τ sig (Elt F)) :
    RV33 V (Proc.devRef .tc main_v101) = (StableHlo.TRef.ternary (.of main_v98) (.of main_v96) (.of main_v100) main_call4.v0 select : HloOp τ sig (Elt F)).result (RV33 V) (Proc.devRef .tc main_v101) := by
  have h := ssa_main_v101 (F := F) (RV8 V)
  rw [ternary_result] at h ⊢
  rw [lift9 V main_v101 (by decide), lift9 V main_v98 (by decide), lift9 V main_v96 (by decide), lift9 V main_v100 (by decide)]
  exact h

theorem ssa_main_c_14 (V : Valuation τ sig (Elt F)) :
    after rops8 V (Proc.devRef .tc main_c_14) = (StableHlo.nullary main_c_14 (constantI S_ 32 0#32) : HloOp τ sig (Elt F)).result (after rops8 V) (Proc.devRef .tc main_c_14) := by
  after_results_simp
theorem fin_main_c_14 (V : Valuation τ sig (Elt F)) :
    RV33 V (Proc.devRef .tc main_c_14) = (StableHlo.nullary main_c_14 (constantI S_ 32 0#32) : HloOp τ sig (Elt F)).result (RV33 V) (Proc.devRef .tc main_c_14) := by
  have h := ssa_main_c_14 (F := F) (RV8 V)
  rw [nullary_result] at h ⊢
  rw [lift9 V main_c_14 (by decide)]
  exact h

theorem ssa_main_v102 (V : Valuation τ sig (Elt F)) :
    after rops9 V (Proc.devRef .tc main_v102) = (StableHlo.unary main_c_14 main_v102 (broadcastInDim S1600000 ![] bcast_S_S1600000 : (⟨S_, .i32⟩ : BufTy).Contents (Elt F) → (⟨S1600000, .i32⟩ : BufTy).Contents (Elt F)) : HloOp τ sig (Elt F)).result (after rops9 V) (Proc.devRef .tc main_v102) := by
  after_results_simp
theorem fin_main_v102 (V : Valuation τ sig (Elt F)) :
    RV33 V (Proc.devRef .tc main_v102) = (StableHlo.unary main_c_14 main_v102 (broadcastInDim S1600000 ![] bcast_S_S1600000 : (⟨S_, .i32⟩ : BufTy).Contents (Elt F) → (⟨S1600000, .i32⟩ : BufTy).Contents (Elt F)) : HloOp τ sig (Elt F)).result (RV33 V) (Proc.devRef .tc main_v102) := by
  have h := ssa_main_v102 (F := F) (RV9 V)
  rw [unary_result] at h ⊢
  rw [lift10 V main_v102 (by decide), lift10 V main_c_14 (by decide)]
  exact h

end Cert.ReferenceIdeal.Tab

end
-- ==== Proof.TabRSsa2.lean ====
/- Stretches 10 to 14 of the reference program read one operation at a time: each buffer a stretch writes holds its operation's function
   of the operands, within the stretch from any contents and, at the end of the run, over the final contents. -/
import proofs.«409037_j72164040508123_1_alg».proof.Proof.TabR

set_option maxRecDepth 16384

noncomputable section

namespace Cert.ReferenceIdeal.Tab

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

theorem ssa_main_v103 (V : Valuation τ sig (Elt F)) :
    after rops10 V (Proc.devRef .tc main_v103) = (StableHlo.binary main_v1 main_v102 main_v103 (cmpi .slt : (⟨S1600000, .i32⟩ : BufTy).Contents (Elt F) → (⟨S1600000, .i32⟩ : BufTy).Contents (Elt F) → (⟨S1600000, .i1⟩ : BufTy).Contents (Elt F)) : HloOp τ sig (Elt F)).result (after rops10 V) (Proc.devRef .tc main_v103) := by
  after_results_simp
theorem fin_main_v103 (V : Valuation τ sig (Elt F)) :
    RV33 V (Proc.devRef .tc main_v103) = (StableHlo.binary main_v1 main_v102 main_v103 (cmpi .slt : (⟨S1600000, .i32⟩ : BufTy).Contents (Elt F) → (⟨S1600000, .i32⟩ : BufTy).Contents (Elt F) → (⟨S1600000, .i1⟩ : BufTy).Contents (Elt F)) : HloOp τ sig (Elt F)).result (RV33 V) (Proc.devRef .tc main_v103) := by
  have h := ssa_main_v103 (F := F) (RV10 V)
  rw [binary_result] at h ⊢
  rw [lift11 V main_v103 (by decide), lift11 V main_v1 (by decide), lift11 V main_v102 (by decide)]
  exact h

theorem ssa_main_c_15 (V : Valuation τ sig (Elt F)) :
    after rops10 V (Proc.devRef .tc main_c_15) = (StableHlo.nullary main_c_15 (constantI S_ 32 100000#32) : HloOp τ sig (Elt F)).result (after rops10 V) (Proc.devRef .tc main_c_15) := by
  after_results_simp
theorem fin_main_c_15 (V : Valuation τ sig (Elt F)) :
    RV33 V (Proc.devRef .tc main_c_15) = (StableHlo.nullary main_c_15 (constantI S_ 32 100000#32) : HloOp τ sig (Elt F)).result (RV33 V) (Proc.devRef .tc main_c_15) := by
  have h := ssa_main_c_15 (F := F) (RV10 V)
  rw [nullary_result] at h ⊢
  rw [lift11 V main_c_15 (by decide)]
  exact h

theorem ssa_main_v104 (V : Valuation τ sig (Elt F)) :
    after rops10 V (Proc.devRef .tc main_v104) = (StableHlo.unary main_c_15 main_v104 (broadcastInDim S1600000 ![] bcast_S_S1600000 : (⟨S_, .i32⟩ : BufTy).Contents (Elt F) → (⟨S1600000, .i32⟩ : BufTy).Contents (Elt F)) : HloOp τ sig (Elt F)).result (after rops10 V) (Proc.devRef .tc main_v104) := by
  after_results_simp
theorem fin_main_v104 (V : Valuation τ sig (Elt F)) :
    RV33 V (Proc.devRef .tc main_v104) = (StableHlo.unary main_c_15 main_v104 (broadcastInDim S1600000 ![] bcast_S_S1600000 : (⟨S_, .i32⟩ : BufTy).Contents (Elt F) → (⟨S1600000, .i32⟩ : BufTy).Contents (Elt F)) : HloOp τ sig (Elt F)).result (RV33 V) (Proc.devRef .tc main_v104) := by
  have h := ssa_main_v104 (F := F) (RV10 V)
  rw [unary_result] at h ⊢
  rw [lift11 V main_v104 (by decide), lift11 V main_c_15 (by decide)]
  exact h

theorem ssa_main_v105 (V : Valuation τ sig (Elt F)) :
    after rops10 V (Proc.devRef .tc main_v105) = (StableHlo.binary main_v1 main_v104 main_v105 (addi : (⟨S1600000, .i32⟩ : BufTy).Contents (Elt F) → (⟨S1600000, .i32⟩ : BufTy).Contents (Elt F) → (⟨S1600000, .i32⟩ : BufTy).Contents (Elt F)) : HloOp τ sig (Elt F)).result (after rops10 V) (Proc.devRef .tc main_v105) := by
  after_results_simp
theorem fin_main_v105 (V : Valuation τ sig (Elt F)) :
    RV33 V (Proc.devRef .tc main_v105) = (StableHlo.binary main_v1 main_v104 main_v105 (addi : (⟨S1600000, .i32⟩ : BufTy).Contents (Elt F) → (⟨S1600000, .i32⟩ : BufTy).Contents (Elt F) → (⟨S1600000, .i32⟩ : BufTy).Contents (Elt F)) : HloOp τ sig (Elt F)).result (RV33 V) (Proc.devRef .tc main_v105) := by
  have h := ssa_main_v105 (F := F) (RV10 V)
  rw [binary_result] at h ⊢
  rw [lift11 V main_v105 (by decide), lift11 V main_v1 (by decide), lift11 V main_v104 (by decide)]
  exact h

theorem ssa_main_v106 (V : Valuation τ sig (Elt F)) :
    after rops10 V (Proc.devRef .tc main_v106) = (StableHlo.ternary main_v103 main_v105 main_v1 main_v106 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) : HloOp τ sig (Elt F)).result (after rops10 V) (Proc.devRef .tc main_v106) := by
  after_results_simp
theorem fin_main_v106 (V : Valuation τ sig (Elt F)) :
    RV33 V (Proc.devRef .tc main_v106) = (StableHlo.ternary main_v103 main_v105 main_v1 main_v106 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) : HloOp τ sig (Elt F)).result (RV33 V) (Proc.devRef .tc main_v106) := by
  have h := ssa_main_v106 (F := F) (RV10 V)
  rw [ternary_result] at h ⊢
  rw [lift11 V main_v106 (by decide), lift11 V main_v103 (by decide), lift11 V main_v105 (by decide), lift11 V main_v1 (by decide)]
  exact h

theorem ssa_main_v107 (V : Valuation τ sig (Elt F)) :
    after rops10 V (Proc.devRef .tc main_v107) = (StableHlo.unary main_v106 main_v107 (broadcastInDim S1600000x1 ![0] bcast_S1600000_S1600000x1_0 : (⟨S1600000, .i32⟩ : BufTy).Contents (Elt F) → (⟨S1600000x1, .i32⟩ : BufTy).Contents (Elt F)) : HloOp τ sig (Elt F)).result (after rops10 V) (Proc.devRef .tc main_v107) := by
  after_results_simp
theorem fin_main_v107 (V : Valuation τ sig (Elt F)) :
    RV33 V (Proc.devRef .tc main_v107) = (StableHlo.unary main_v106 main_v107 (broadcastInDim S1600000x1 ![0] bcast_S1600000_S1600000x1_0 : (⟨S1600000, .i32⟩ : BufTy).Contents (Elt F) → (⟨S1600000x1, .i32⟩ : BufTy).Contents (Elt F)) : HloOp τ sig (Elt F)).result (RV33 V) (Proc.devRef .tc main_v107) := by
  have h := ssa_main_v107 (F := F) (RV10 V)
  rw [unary_result] at h ⊢
  rw [lift11 V main_v107 (by decide), lift11 V main_v106 (by decide)]
  exact h

theorem ssa_main_v108 (V : Valuation τ sig (Elt F)) :
    after rops10 V (Proc.devRef .tc main_v108) = (StableHlo.binary main_v101 main_v107 main_v108 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) : HloOp τ sig (Elt F)).result (after rops10 V) (Proc.devRef .tc main_v108) := by
  after_results_simp
theorem fin_main_v108 (V : Valuation τ sig (Elt F)) :
    RV33 V (Proc.devRef .tc main_v108) = (StableHlo.binary main_v101 main_v107 main_v108 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) : HloOp τ sig (Elt F)).result (RV33 V) (Proc.devRef .tc main_v108) := by
  have h := ssa_main_v108 (F := F) (RV10 V)
  rw [binary_result] at h ⊢
  rw [lift11 V main_v108 (by decide), lift11 V main_v101 (by decide), lift11 V main_v107 (by decide)]
  exact h

theorem ssa_main_v109 (V : Valuation τ sig (Elt F)) :
    after rops10 V (Proc.devRef .tc main_v109) = (StableHlo.unary main_arg4 main_v109 ((extractStridedSlice S1x16x64 ![1, 0, 0] · slices_S3x16x64_S1x16x64_1_0_0) : (⟨S3x16x64, .f32⟩ : BufTy).Contents (Elt F) → (⟨S1x16x64, .f32⟩ : BufTy).Contents (Elt F)) : HloOp τ sig (Elt F)).result (after rops10 V) (Proc.devRef .tc main_v109) := by
  after_results_simp
theorem fin_main_v109 (V : Valuation τ sig (Elt F)) :
    RV33 V (Proc.devRef .tc main_v109) = (StableHlo.unary main_arg4 main_v109 ((extractStridedSlice S1x16x64 ![1, 0, 0] · slices_S3x16x64_S1x16x64_1_0_0) : (⟨S3x16x64, .f32⟩ : BufTy).Contents (Elt F) → (⟨S1x16x64, .f32⟩ : BufTy).Contents (Elt F)) : HloOp τ sig (Elt F)).result (RV33 V) (Proc.devRef .tc main_v109) := by
  have h := ssa_main_v109 (F := F) (RV10 V)
  rw [unary_result] at h ⊢
  rw [lift11 V main_v109 (by decide), lift11 V main_arg4 (by decide)]
  exact h

theorem ssa_main_v110 (V : Valuation τ sig (Elt F)) :
    after rops10 V (Proc.devRef .tc main_v110) = (StableHlo.reshape main_v109 main_v110 rfl shapeCasts_S1x16x64_S16x64 : HloOp τ sig (Elt F)).result (after rops10 V) (Proc.devRef .tc main_v110) := by
  after_results_simp
theorem fin_main_v110 (V : Valuation τ sig (Elt F)) :
    RV33 V (Proc.devRef .tc main_v110) = (StableHlo.reshape main_v109 main_v110 rfl shapeCasts_S1x16x64_S16x64 : HloOp τ sig (Elt F)).result (RV33 V) (Proc.devRef .tc main_v110) := by
  have h := ssa_main_v110 (F := F) (RV10 V)
  rw [reshape_result] at h ⊢
  rw [lift11 V main_v110 (by decide), lift11 V main_v109 (by decide)]
  exact h

theorem ssa_main_v111 (V : Valuation τ sig (Elt F)) :
    after rops10 V (Proc.devRef .tc main_v111) = (StableHlo.binary main_arg1 main_v110 main_v111 ((fun l r => Host.dotGeneral dot_S1600000x16_S16x64_S1600000x64_1_0_0_1_n_n none l r) : (⟨S1600000x16, .f32⟩ : BufTy).Contents (Elt F) → (⟨S16x64, .f32⟩ : BufTy).Contents (Elt F) → (⟨S1600000x64, .f32⟩ : BufTy).Contents (Elt F)) : HloOp τ sig (Elt F)).result (after rops10 V) (Proc.devRef .tc main_v111) := by
  after_results_simp
theorem fin_main_v111 (V : Valuation τ sig (Elt F)) :
    RV33 V (Proc.devRef .tc main_v111) = (StableHlo.binary main_arg1 main_v110 main_v111 ((fun l r => Host.dotGeneral dot_S1600000x16_S16x64_S1600000x64_1_0_0_1_n_n none l r) : (⟨S1600000x16, .f32⟩ : BufTy).Contents (Elt F) → (⟨S16x64, .f32⟩ : BufTy).Contents (Elt F) → (⟨S1600000x64, .f32⟩ : BufTy).Contents (Elt F)) : HloOp τ sig (Elt F)).result (RV33 V) (Proc.devRef .tc main_v111) := by
  have h := ssa_main_v111 (F := F) (RV10 V)
  rw [binary_result] at h ⊢
  rw [lift11 V main_v111 (by decide), lift11 V main_arg1 (by decide), lift11 V main_v110 (by decide)]
  exact h

theorem ssa_main_v112 (V : Valuation τ sig (Elt F)) :
    after rops10 V (Proc.devRef .tc main_v112) = (StableHlo.binary main_v108 main_v111 main_v112 (addf : (⟨S1600000x64, .f32⟩ : BufTy).Contents (Elt F) → (⟨S1600000x64, .f32⟩ : BufTy).Contents (Elt F) → (⟨S1600000x64, .f32⟩ : BufTy).Contents (Elt F)) : HloOp τ sig (Elt F)).result (after rops10 V) (Proc.devRef .tc main_v112) := by
  after_results_simp
theorem fin_main_v112 (V : Valuation τ sig (Elt F)) :
    RV33 V (Proc.devRef .tc main_v112) = (StableHlo.binary main_v108 main_v111 main_v112 (addf : (⟨S1600000x64, .f32⟩ : BufTy).Contents (Elt F) → (⟨S1600000x64, .f32⟩ : BufTy).Contents (Elt F) → (⟨S1600000x64, .f32⟩ : BufTy).Contents (Elt F)) : HloOp τ sig (Elt F)).result (RV33 V) (Proc.devRef .tc main_v112) := by
  have h := ssa_main_v112 (F := F) (RV10 V)
  rw [binary_result] at h ⊢
  rw [lift11 V main_v112 (by decide), lift11 V main_v108 (by decide), lift11 V main_v111 (by decide)]
  exact h

theorem ssa_main_v113 (V : Valuation τ sig (Elt F)) :
    after rops10 V (Proc.devRef .tc main_v113) = (StableHlo.unary main_arg5 main_v113 ((extractStridedSlice S1x64 ![1, 0] · slices_S3x64_S1x64_1_0) : (⟨S3x64, .f32⟩ : BufTy).Contents (Elt F) → (⟨S1x64, .f32⟩ : BufTy).Contents (Elt F)) : HloOp τ sig (Elt F)).result (after rops10 V) (Proc.devRef .tc main_v113) := by
  after_results_simp
theorem fin_main_v113 (V : Valuation τ sig (Elt F)) :
    RV33 V (Proc.devRef .tc main_v113) = (StableHlo.unary main_arg5 main_v113 ((extractStridedSlice S1x64 ![1, 0] · slices_S3x64_S1x64_1_0) : (⟨S3x64, .f32⟩ : BufTy).Contents (Elt F) → (⟨S1x64, .f32⟩ : BufTy).Contents (Elt F)) : HloOp τ sig (Elt F)).result (RV33 V) (Proc.devRef .tc main_v113) := by
  have h := ssa_main_v113 (F := F) (RV10 V)
  rw [unary_result] at h ⊢
  rw [lift11 V main_v113 (by decide), lift11 V main_arg5 (by decide)]
  exact h

theorem ssa_main_v114 (V : Valuation τ sig (Elt F)) :
    after rops10 V (Proc.devRef .tc main_v114) = (StableHlo.reshape main_v113 main_v114 rfl shapeCasts_S1x64_S64 : HloOp τ sig (Elt F)).result (after rops10 V) (Proc.devRef .tc main_v114) := by
  after_results_simp
theorem fin_main_v114 (V : Valuation τ sig (Elt F)) :
    RV33 V (Proc.devRef .tc main_v114) = (StableHlo.reshape main_v113 main_v114 rfl shapeCasts_S1x64_S64 : HloOp τ sig (Elt F)).result (RV33 V) (Proc.devRef .tc main_v114) := by
  have h := ssa_main_v114 (F := F) (RV10 V)
  rw [reshape_result] at h ⊢
  rw [lift11 V main_v114 (by decide), lift11 V main_v113 (by decide)]
  exact h

theorem ssa_main_v115 (V : Valuation τ sig (Elt F)) :
    after rops10 V (Proc.devRef .tc main_v115) = (StableHlo.unary main_v114 main_v115 (broadcastInDim S1x64 ![1] bcast_S64_S1x64_1 : (⟨S64, .f32⟩ : BufTy).Contents (Elt F) → (⟨S1x64, .f32⟩ : BufTy).Contents (Elt F)) : HloOp τ sig (Elt F)).result (after rops10 V) (Proc.devRef .tc main_v115) := by
  after_results_simp
theorem fin_main_v115 (V : Valuation τ sig (Elt F)) :
    RV33 V (Proc.devRef .tc main_v115) = (StableHlo.unary main_v114 main_v115 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v115) := by
  have h := ssa_main_v115 (F := F) (RV10 V)
  rw [unary_result] at h ⊢
  rw [lift11 V main_v115 (by decide), lift11 V main_v114 (by decide)]
  exact h

theorem ssa_main_v116 (V : Valuation τ sig (Elt F)) :
    after rops10 V (Proc.devRef .tc main_v116) = (StableHlo.unary main_v115 main_v116 (broadcastInDim S1600000x64 ![0, 1] bcast_S1x64_S1600000x64_0_1 : (⟨S1x64, .f32⟩ : BufTy).Contents (Elt F) → (⟨S1600000x64, .f32⟩ : BufTy).Contents (Elt F)) : HloOp τ sig (Elt F)).result (after rops10 V) (Proc.devRef .tc main_v116) := by
  after_results_simp
theorem fin_main_v116 (V : Valuation τ sig (Elt F)) :
    RV33 V (Proc.devRef .tc main_v116) = (StableHlo.unary main_v115 main_v116 (broadcastInDim S1600000x64 ![0, 1] bcast_S1x64_S1600000x64_0_1 : (⟨S1x64, .f32⟩ : BufTy).Contents (Elt F) → (⟨S1600000x64, .f32⟩ : BufTy).Contents (Elt F)) : HloOp τ sig (Elt F)).result (RV33 V) (Proc.devRef .tc main_v116) := by
  have h := ssa_main_v116 (F := F) (RV10 V)
  rw [unary_result] at h ⊢
  rw [lift11 V main_v116 (by decide), lift11 V main_v115 (by decide)]
  exact h

theorem ssa_main_v117 (V : Valuation τ sig (Elt F)) :
    after rops10 V (Proc.devRef .tc main_v117) = (StableHlo.binary main_v112 main_v116 main_v117 (addf : (⟨S1600000x64, .f32⟩ : BufTy).Contents (Elt F) → (⟨S1600000x64, .f32⟩ : BufTy).Contents (Elt F) → (⟨S1600000x64, .f32⟩ : BufTy).Contents (Elt F)) : HloOp τ sig (Elt F)).result (after rops10 V) (Proc.devRef .tc main_v117) := by
  after_results_simp
theorem fin_main_v117 (V : Valuation τ sig (Elt F)) :
    RV33 V (Proc.devRef .tc main_v117) = (StableHlo.binary main_v112 main_v116 main_v117 (addf : (⟨S1600000x64, .f32⟩ : BufTy).Contents (Elt F) → (⟨S1600000x64, .f32⟩ : BufTy).Contents (Elt F) → (⟨S1600000x64, .f32⟩ : BufTy).Contents (Elt F)) : HloOp τ sig (Elt F)).result (RV33 V) (Proc.devRef .tc main_v117) := by
  have h := ssa_main_v117 (F := F) (RV10 V)
  rw [binary_result] at h ⊢
  rw [lift11 V main_v117 (by decide), lift11 V main_v112 (by decide), lift11 V main_v116 (by decide)]
  exact h

theorem ssa_main_call5_cst (V : Valuation τ sig (Elt F)) :
    after rops10 V (Proc.devRef .tc main_call5_cst) = (StableHlo.TRef.nullary main_call5.cst (constant S_ .f32 0x00000000#32) : HloOp τ sig (Elt F)).result (after rops10 V) (Proc.devRef .tc main_call5_cst) := by
  after_results_simp
theorem fin_main_call5_cst (V : Valuation τ sig (Elt F)) :
    RV33 V (Proc.devRef .tc main_call5_cst) = (StableHlo.TRef.nullary main_call5.cst (constant S_ .f32 0x00000000#32) : HloOp τ sig (Elt F)).result (RV33 V) (Proc.devRef .tc main_call5_cst) := by
  have h := ssa_main_call5_cst (F := F) (RV10 V)
  rw [nullary_result] at h ⊢
  rw [lift11 V main_call5_cst (by decide)]
  exact h

theorem ssa_main_call5_v0 (V : Valuation τ sig (Elt F)) :
    after rops10 V (Proc.devRef .tc main_call5_v0) = (StableHlo.TRef.unary main_call5.cst main_call5.v0 (broadcastInDim S1600000x64 ![] bcast_S_S1600000x64) : HloOp τ sig (Elt F)).result (after rops10 V) (Proc.devRef .tc main_call5_v0) := by
  after_results_simp
theorem fin_main_call5_v0 (V : Valuation τ sig (Elt F)) :
    RV33 V (Proc.devRef .tc main_call5_v0) = (StableHlo.TRef.unary main_call5.cst main_call5.v0 (broadcastInDim S1600000x64 ![] bcast_S_S1600000x64) : HloOp τ sig (Elt F)).result (RV33 V) (Proc.devRef .tc main_call5_v0) := by
  have h := ssa_main_call5_v0 (F := F) (RV10 V)
  rw [unary_result] at h ⊢
  rw [lift11 V main_call5_v0 (by decide), lift11 V main_call5_cst (by decide)]
  exact h

theorem ssa_main_v118 (V : Valuation τ sig (Elt F)) :
    after rops10 V (Proc.devRef .tc main_v118) = (StableHlo.TRef.binary (.of main_v117) main_call5.v0 main_call5.v1 maximumf : HloOp τ sig (Elt F)).result (after rops10 V) (Proc.devRef .tc main_v118) := by
  after_results_simp
theorem fin_main_v118 (V : Valuation τ sig (Elt F)) :
    RV33 V (Proc.devRef .tc main_v118) = (StableHlo.TRef.binary (.of main_v117) main_call5.v0 main_call5.v1 maximumf : HloOp τ sig (Elt F)).result (RV33 V) (Proc.devRef .tc main_v118) := by
  have h := ssa_main_v118 (F := F) (RV10 V)
  rw [binary_result] at h ⊢
  rw [lift11 V main_v118 (by decide), lift11 V main_v117 (by decide), lift11 V main_call5_v0 (by decide)]
  exact h

theorem ssa_main_cst_16 (V : Valuation τ sig (Elt F)) :
    after rops10 V (Proc.devRef .tc main_cst_16) = (StableHlo.nullary main_cst_16 (constant S_ .f32 0x00000000#32) : HloOp τ sig (Elt F)).result (after rops10 V) (Proc.devRef .tc main_cst_16) := by
  after_results_simp
theorem fin_main_cst_16 (V : Valuation τ sig (Elt F)) :
    RV33 V (Proc.devRef .tc main_cst_16) = (StableHlo.nullary main_cst_16 (constant S_ .f32 0x00000000#32) : HloOp τ sig (Elt F)).result (RV33 V) (Proc.devRef .tc main_cst_16) := by
  have h := ssa_main_cst_16 (F := F) (RV10 V)
  rw [nullary_result] at h ⊢
  rw [lift11 V main_cst_16 (by decide)]
  exact h

theorem ssa_main_v119 (V : Valuation τ sig (Elt F)) :
    after rops11 V (Proc.devRef .tc main_v119) = (StableHlo.unary main_cst_16 main_v119 (broadcastInDim S100000x64 ![] bcast_S_S100000x64 : (⟨S_, .f32⟩ : BufTy).Contents (Elt F) → (⟨S100000x64, .f32⟩ : BufTy).Contents (Elt F)) : HloOp τ sig (Elt F)).result (after rops11 V) (Proc.devRef .tc main_v119) := by
  after_results_simp
theorem fin_main_v119 (V : Valuation τ sig (Elt F)) :
    RV33 V (Proc.devRef .tc main_v119) = (StableHlo.unary main_cst_16 main_v119 (broadcastInDim S100000x64 ![] bcast_S_S100000x64 : (⟨S_, .f32⟩ : BufTy).Contents (Elt F) → (⟨S100000x64, .f32⟩ : BufTy).Contents (Elt F)) : HloOp τ sig (Elt F)).result (RV33 V) (Proc.devRef .tc main_v119) := by
  have h := ssa_main_v119 (F := F) (RV11 V)
  rw [unary_result] at h ⊢
  rw [lift12 V main_v119 (by decide), lift12 V main_cst_16 (by decide)]
  exact h

theorem ssa_main_v120 (V : Valuation τ sig (Elt F)) :
    after rops11 V (Proc.devRef .tc main_v120) = (StableHlo.unary main_v3 main_v120 (broadcastInDim S1600000x1 ![0] bcast_S1600000_S1600000x1_0 : (⟨S1600000, .i32⟩ : BufTy).Contents (Elt F) → (⟨S1600000x1, .i32⟩ : BufTy).Contents (Elt F)) : HloOp τ sig (Elt F)).result (after rops11 V) (Proc.devRef .tc main_v120) := by
  after_results_simp
theorem fin_main_v120 (V : Valuation τ sig (Elt F)) :
    RV33 V (Proc.devRef .tc main_v120) = (StableHlo.unary main_v3 main_v120 (broadcastInDim S1600000x1 ![0] bcast_S1600000_S1600000x1_0 : (⟨S1600000, .i32⟩ : BufTy).Contents (Elt F) → (⟨S1600000x1, .i32⟩ : BufTy).Contents (Elt F)) : HloOp τ sig (Elt F)).result (RV33 V) (Proc.devRef .tc main_v120) := by
  have h := ssa_main_v120 (F := F) (RV11 V)
  rw [unary_result] at h ⊢
  rw [lift12 V main_v120 (by decide), lift12 V main_v3 (by decide)]
  exact h

theorem ssa_main_v121 (V : Valuation τ sig (Elt F)) :
    after rops11 V (Proc.devRef .tc main_v121) = (StableHlo.ternary main_v119 main_v120 main_v118 main_v121 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) : HloOp τ sig (Elt F)).result (after rops11 V) (Proc.devRef .tc main_v121) := by
  after_results_simp
theorem fin_main_v121 (V : Valuation τ sig (Elt F)) :
    RV33 V (Proc.devRef .tc main_v121) = (StableHlo.ternary main_v119 main_v120 main_v118 main_v121 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) : HloOp τ sig (Elt F)).result (RV33 V) (Proc.devRef .tc main_v121) := by
  have h := ssa_main_v121 (F := F) (RV11 V)
  rw [ternary_result] at h ⊢
  rw [lift12 V main_v121 (by decide), lift12 V main_v119 (by decide), lift12 V main_v120 (by decide), lift12 V main_v118 (by decide)]
  exact h

theorem ssa_main_v122 (V : Valuation τ sig (Elt F)) :
    after rops11 V (Proc.devRef .tc main_v122) = (StableHlo.unary main_arg6 main_v122 ((extractStridedSlice S1 ![1] · slices_S3_S1_1) : (⟨S3, .f32⟩ : BufTy).Contents (Elt F) → (⟨S1, .f32⟩ : BufTy).Contents (Elt F)) : HloOp τ sig (Elt F)).result (after rops11 V) (Proc.devRef .tc main_v122) := by
  after_results_simp
theorem fin_main_v122 (V : Valuation τ sig (Elt F)) :
    RV33 V (Proc.devRef .tc main_v122) = (StableHlo.unary main_arg6 main_v122 ((extractStridedSlice S1 ![1] · slices_S3_S1_1) : (⟨S3, .f32⟩ : BufTy).Contents (Elt F) → (⟨S1, .f32⟩ : BufTy).Contents (Elt F)) : HloOp τ sig (Elt F)).result (RV33 V) (Proc.devRef .tc main_v122) := by
  have h := ssa_main_v122 (F := F) (RV11 V)
  rw [unary_result] at h ⊢
  rw [lift12 V main_v122 (by decide), lift12 V main_arg6 (by decide)]
  exact h

theorem ssa_main_v123 (V : Valuation τ sig (Elt F)) :
    after rops11 V (Proc.devRef .tc main_v123) = (StableHlo.reshape main_v122 main_v123 rfl shapeCasts_S1_S_ : HloOp τ sig (Elt F)).result (after rops11 V) (Proc.devRef .tc main_v123) := by
  after_results_simp
theorem fin_main_v123 (V : Valuation τ sig (Elt F)) :
    RV33 V (Proc.devRef .tc main_v123) = (StableHlo.reshape main_v122 main_v123 rfl shapeCasts_S1_S_ : HloOp τ sig (Elt F)).result (RV33 V) (Proc.devRef .tc main_v123) := by
  have h := ssa_main_v123 (F := F) (RV11 V)
  rw [reshape_result] at h ⊢
  rw [lift12 V main_v123 (by decide), lift12 V main_v122 (by decide)]
  exact h

theorem ssa_main_cst_17 (V : Valuation τ sig (Elt F)) :
    after rops11 V (Proc.devRef .tc main_cst_17) = (StableHlo.nullary main_cst_17 (constant S_ .f32 0x3F800000#32) : HloOp τ sig (Elt F)).result (after rops11 V) (Proc.devRef .tc main_cst_17) := by
  after_results_simp
theorem fin_main_cst_17 (V : Valuation τ sig (Elt F)) :
    RV33 V (Proc.devRef .tc main_cst_17) = (StableHlo.nullary main_cst_17 (constant S_ .f32 0x3F800000#32) : HloOp τ sig (Elt F)).result (RV33 V) (Proc.devRef .tc main_cst_17) := by
  have h := ssa_main_cst_17 (F := F) (RV11 V)
  rw [nullary_result] at h ⊢
  rw [lift12 V main_cst_17 (by decide)]
  exact h

theorem ssa_main_v124 (V : Valuation τ sig (Elt F)) :
    after rops11 V (Proc.devRef .tc main_v124) = (StableHlo.binary main_cst_17 main_v123 main_v124 (addf : (⟨S_, .f32⟩ : BufTy).Contents (Elt F) → (⟨S_, .f32⟩ : BufTy).Contents (Elt F) → (⟨S_, .f32⟩ : BufTy).Contents (Elt F)) : HloOp τ sig (Elt F)).result (after rops11 V) (Proc.devRef .tc main_v124) := by
  after_results_simp
theorem fin_main_v124 (V : Valuation τ sig (Elt F)) :
    RV33 V (Proc.devRef .tc main_v124) = (StableHlo.binary main_cst_17 main_v123 main_v124 (addf : (⟨S_, .f32⟩ : BufTy).Contents (Elt F) → (⟨S_, .f32⟩ : BufTy).Contents (Elt F) → (⟨S_, .f32⟩ : BufTy).Contents (Elt F)) : HloOp τ sig (Elt F)).result (RV33 V) (Proc.devRef .tc main_v124) := by
  have h := ssa_main_v124 (F := F) (RV11 V)
  rw [binary_result] at h ⊢
  rw [lift12 V main_v124 (by decide), lift12 V main_cst_17 (by decide), lift12 V main_v123 (by decide)]
  exact h

theorem ssa_main_v125 (V : Valuation τ sig (Elt F)) :
    after rops11 V (Proc.devRef .tc main_v125) = (StableHlo.unary main_v124 main_v125 (broadcastInDim S100000x64 ![] bcast_S_S100000x64 : (⟨S_, .f32⟩ : BufTy).Contents (Elt F) → (⟨S100000x64, .f32⟩ : BufTy).Contents (Elt F)) : HloOp τ sig (Elt F)).result (after rops11 V) (Proc.devRef .tc main_v125) := by
  after_results_simp
theorem fin_main_v125 (V : Valuation τ sig (Elt F)) :
    RV33 V (Proc.devRef .tc main_v125) = (StableHlo.unary main_v124 main_v125 (broadcastInDim S100000x64 ![] bcast_S_S100000x64 : (⟨S_, .f32⟩ : BufTy).Contents (Elt F) → (⟨S100000x64, .f32⟩ : BufTy).Contents (Elt F)) : HloOp τ sig (Elt F)).result (RV33 V) (Proc.devRef .tc main_v125) := by
  have h := ssa_main_v125 (F := F) (RV11 V)
  rw [unary_result] at h ⊢
  rw [lift12 V main_v125 (by decide), lift12 V main_v124 (by decide)]
  exact h

theorem ssa_main_v126 (V : Valuation τ sig (Elt F)) :
    after rops11 V (Proc.devRef .tc main_v126) = (StableHlo.binary main_v125 main_v101 main_v126 (mulf : (⟨S100000x64, .f32⟩ : BufTy).Contents (Elt F) → (⟨S100000x64, .f32⟩ : BufTy).Contents (Elt F) → (⟨S100000x64, .f32⟩ : BufTy).Contents (Elt F)) : HloOp τ sig (Elt F)).result (after rops11 V) (Proc.devRef .tc main_v126) := by
  after_results_simp
theorem fin_main_v126 (V : Valuation τ sig (Elt F)) :
    RV33 V (Proc.devRef .tc main_v126) = (StableHlo.binary main_v125 main_v101 main_v126 (mulf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v126) := by
  have h := ssa_main_v126 (F := F) (RV11 V)
  rw [binary_result] at h ⊢
  rw [lift12 V main_v126 (by decide), lift12 V main_v125 (by decide), lift12 V main_v101 (by decide)]
  exact h

theorem ssa_main_v127 (V : Valuation τ sig (Elt F)) :
    after rops11 V (Proc.devRef .tc main_v127) = (StableHlo.binary main_v126 main_v121 main_v127 (addf : (⟨S100000x64, .f32⟩ : BufTy).Contents (Elt F) → (⟨S100000x64, .f32⟩ : BufTy).Contents (Elt F) → (⟨S100000x64, .f32⟩ : BufTy).Contents (Elt F)) : HloOp τ sig (Elt F)).result (after rops11 V) (Proc.devRef .tc main_v127) := by
  after_results_simp
theorem fin_main_v127 (V : Valuation τ sig (Elt F)) :
    RV33 V (Proc.devRef .tc main_v127) = (StableHlo.binary main_v126 main_v121 main_v127 (addf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v127) := by
  have h := ssa_main_v127 (F := F) (RV11 V)
  rw [binary_result] at h ⊢
  rw [lift12 V main_v127 (by decide), lift12 V main_v126 (by decide), lift12 V main_v121 (by decide)]
  exact h

theorem ssa_main_v128 (V : Valuation τ sig (Elt F)) :
    after rops11 V (Proc.devRef .tc main_v128) = (StableHlo.unary main_arg7 main_v128 ((extractStridedSlice S1x64x64 ![1, 0, 0] · slices_S3x64x64_S1x64x64_1_0_0) : (⟨S3x64x64, .f32⟩ : BufTy).Contents (Elt F) → (⟨S1x64x64, .f32⟩ : BufTy).Contents (Elt F)) : HloOp τ sig (Elt F)).result (after rops11 V) (Proc.devRef .tc main_v128) := by
  after_results_simp
theorem fin_main_v128 (V : Valuation τ sig (Elt F)) :
    RV33 V (Proc.devRef .tc main_v128) = (StableHlo.unary main_arg7 main_v128 ((extractStridedSlice S1x64x64 ![1, 0, 0] · slices_S3x64x64_S1x64x64_1_0_0) : (⟨S3x64x64, .f32⟩ : BufTy).Contents (Elt F) → (⟨S1x64x64, .f32⟩ : BufTy).Contents (Elt F)) : HloOp τ sig (Elt F)).result (RV33 V) (Proc.devRef .tc main_v128) := by
  have h := ssa_main_v128 (F := F) (RV11 V)
  rw [unary_result] at h ⊢
  rw [lift12 V main_v128 (by decide), lift12 V main_arg7 (by decide)]
  exact h

theorem ssa_main_v129 (V : Valuation τ sig (Elt F)) :
    after rops11 V (Proc.devRef .tc main_v129) = (StableHlo.reshape main_v128 main_v129 rfl shapeCasts_S1x64x64_S64x64 : HloOp τ sig (Elt F)).result (after rops11 V) (Proc.devRef .tc main_v129) := by
  after_results_simp
theorem fin_main_v129 (V : Valuation τ sig (Elt F)) :
    RV33 V (Proc.devRef .tc main_v129) = (StableHlo.reshape main_v128 main_v129 rfl shapeCasts_S1x64x64_S64x64 : HloOp τ sig (Elt F)).result (RV33 V) (Proc.devRef .tc main_v129) := by
  have h := ssa_main_v129 (F := F) (RV11 V)
  rw [reshape_result] at h ⊢
  rw [lift12 V main_v129 (by decide), lift12 V main_v128 (by decide)]
  exact h

theorem ssa_main_v130 (V : Valuation τ sig (Elt F)) :
    after rops11 V (Proc.devRef .tc main_v130) = (StableHlo.binary main_v127 main_v129 main_v130 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) : HloOp τ sig (Elt F)).result (after rops11 V) (Proc.devRef .tc main_v130) := by
  after_results_simp
theorem fin_main_v130 (V : Valuation τ sig (Elt F)) :
    RV33 V (Proc.devRef .tc main_v130) = (StableHlo.binary main_v127 main_v129 main_v130 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) : HloOp τ sig (Elt F)).result (RV33 V) (Proc.devRef .tc main_v130) := by
  have h := ssa_main_v130 (F := F) (RV11 V)
  rw [binary_result] at h ⊢
  rw [lift12 V main_v130 (by decide), lift12 V main_v127 (by decide), lift12 V main_v129 (by decide)]
  exact h

theorem ssa_main_v131 (V : Valuation τ sig (Elt F)) :
    after rops11 V (Proc.devRef .tc main_v131) = (StableHlo.unary main_arg8 main_v131 ((extractStridedSlice S1x64 ![1, 0] · slices_S3x64_S1x64_1_0) : (⟨S3x64, .f32⟩ : BufTy).Contents (Elt F) → (⟨S1x64, .f32⟩ : BufTy).Contents (Elt F)) : HloOp τ sig (Elt F)).result (after rops11 V) (Proc.devRef .tc main_v131) := by
  after_results_simp
theorem fin_main_v131 (V : Valuation τ sig (Elt F)) :
    RV33 V (Proc.devRef .tc main_v131) = (StableHlo.unary main_arg8 main_v131 ((extractStridedSlice S1x64 ![1, 0] · slices_S3x64_S1x64_1_0) : (⟨S3x64, .f32⟩ : BufTy).Contents (Elt F) → (⟨S1x64, .f32⟩ : BufTy).Contents (Elt F)) : HloOp τ sig (Elt F)).result (RV33 V) (Proc.devRef .tc main_v131) := by
  have h := ssa_main_v131 (F := F) (RV11 V)
  rw [unary_result] at h ⊢
  rw [lift12 V main_v131 (by decide), lift12 V main_arg8 (by decide)]
  exact h

theorem ssa_main_v132 (V : Valuation τ sig (Elt F)) :
    after rops11 V (Proc.devRef .tc main_v132) = (StableHlo.reshape main_v131 main_v132 rfl shapeCasts_S1x64_S64 : HloOp τ sig (Elt F)).result (after rops11 V) (Proc.devRef .tc main_v132) := by
  after_results_simp
theorem fin_main_v132 (V : Valuation τ sig (Elt F)) :
    RV33 V (Proc.devRef .tc main_v132) = (StableHlo.reshape main_v131 main_v132 rfl shapeCasts_S1x64_S64 : HloOp τ sig (Elt F)).result (RV33 V) (Proc.devRef .tc main_v132) := by
  have h := ssa_main_v132 (F := F) (RV11 V)
  rw [reshape_result] at h ⊢
  rw [lift12 V main_v132 (by decide), lift12 V main_v131 (by decide)]
  exact h

theorem ssa_main_v133 (V : Valuation τ sig (Elt F)) :
    after rops11 V (Proc.devRef .tc main_v133) = (StableHlo.unary main_v132 main_v133 (broadcastInDim S1x64 ![1] bcast_S64_S1x64_1 : (⟨S64, .f32⟩ : BufTy).Contents (Elt F) → (⟨S1x64, .f32⟩ : BufTy).Contents (Elt F)) : HloOp τ sig (Elt F)).result (after rops11 V) (Proc.devRef .tc main_v133) := by
  after_results_simp
theorem fin_main_v133 (V : Valuation τ sig (Elt F)) :
    RV33 V (Proc.devRef .tc main_v133) = (StableHlo.unary main_v132 main_v133 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v133) := by
  have h := ssa_main_v133 (F := F) (RV11 V)
  rw [unary_result] at h ⊢
  rw [lift12 V main_v133 (by decide), lift12 V main_v132 (by decide)]
  exact h

theorem ssa_main_v134 (V : Valuation τ sig (Elt F)) :
    after rops11 V (Proc.devRef .tc main_v134) = (StableHlo.unary main_v133 main_v134 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops11 V) (Proc.devRef .tc main_v134) := by
  after_results_simp
theorem fin_main_v134 (V : Valuation τ sig (Elt F)) :
    RV33 V (Proc.devRef .tc main_v134) = (StableHlo.unary main_v133 main_v134 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v134) := by
  have h := ssa_main_v134 (F := F) (RV11 V)
  rw [unary_result] at h ⊢
  rw [lift12 V main_v134 (by decide), lift12 V main_v133 (by decide)]
  exact h

theorem ssa_main_v135 (V : Valuation τ sig (Elt F)) :
    after rops11 V (Proc.devRef .tc main_v135) = (StableHlo.binary main_v130 main_v134 main_v135 (addf : (⟨S100000x64, .f32⟩ : BufTy).Contents (Elt F) → (⟨S100000x64, .f32⟩ : BufTy).Contents (Elt F) → (⟨S100000x64, .f32⟩ : BufTy).Contents (Elt F)) : HloOp τ sig (Elt F)).result (after rops11 V) (Proc.devRef .tc main_v135) := by
  after_results_simp
theorem fin_main_v135 (V : Valuation τ sig (Elt F)) :
    RV33 V (Proc.devRef .tc main_v135) = (StableHlo.binary main_v130 main_v134 main_v135 (addf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v135) := by
  have h := ssa_main_v135 (F := F) (RV11 V)
  rw [binary_result] at h ⊢
  rw [lift12 V main_v135 (by decide), lift12 V main_v130 (by decide), lift12 V main_v134 (by decide)]
  exact h

theorem ssa_main_v136 (V : Valuation τ sig (Elt F)) :
    after rops11 V (Proc.devRef .tc main_v136) = (StableHlo.unary main_arg9 main_v136 ((extractStridedSlice S1x64 ![1, 0] · slices_S3x64_S1x64_1_0) : (⟨S3x64, .f32⟩ : BufTy).Contents (Elt F) → (⟨S1x64, .f32⟩ : BufTy).Contents (Elt F)) : HloOp τ sig (Elt F)).result (after rops11 V) (Proc.devRef .tc main_v136) := by
  after_results_simp
theorem fin_main_v136 (V : Valuation τ sig (Elt F)) :
    RV33 V (Proc.devRef .tc main_v136) = (StableHlo.unary main_arg9 main_v136 ((extractStridedSlice S1x64 ![1, 0] · slices_S3x64_S1x64_1_0) : (⟨S3x64, .f32⟩ : BufTy).Contents (Elt F) → (⟨S1x64, .f32⟩ : BufTy).Contents (Elt F)) : HloOp τ sig (Elt F)).result (RV33 V) (Proc.devRef .tc main_v136) := by
  have h := ssa_main_v136 (F := F) (RV11 V)
  rw [unary_result] at h ⊢
  rw [lift12 V main_v136 (by decide), lift12 V main_arg9 (by decide)]
  exact h

theorem ssa_main_v137 (V : Valuation τ sig (Elt F)) :
    after rops11 V (Proc.devRef .tc main_v137) = (StableHlo.reshape main_v136 main_v137 rfl shapeCasts_S1x64_S64 : HloOp τ sig (Elt F)).result (after rops11 V) (Proc.devRef .tc main_v137) := by
  after_results_simp
theorem fin_main_v137 (V : Valuation τ sig (Elt F)) :
    RV33 V (Proc.devRef .tc main_v137) = (StableHlo.reshape main_v136 main_v137 rfl shapeCasts_S1x64_S64 : HloOp τ sig (Elt F)).result (RV33 V) (Proc.devRef .tc main_v137) := by
  have h := ssa_main_v137 (F := F) (RV11 V)
  rw [reshape_result] at h ⊢
  rw [lift12 V main_v137 (by decide), lift12 V main_v136 (by decide)]
  exact h

theorem ssa_main_v138 (V : Valuation τ sig (Elt F)) :
    after rops12 V (Proc.devRef .tc main_v138) = (StableHlo.unary main_arg10 main_v138 ((extractStridedSlice S1x64 ![1, 0] · slices_S3x64_S1x64_1_0) : (⟨S3x64, .f32⟩ : BufTy).Contents (Elt F) → (⟨S1x64, .f32⟩ : BufTy).Contents (Elt F)) : HloOp τ sig (Elt F)).result (after rops12 V) (Proc.devRef .tc main_v138) := by
  after_results_simp
theorem fin_main_v138 (V : Valuation τ sig (Elt F)) :
    RV33 V (Proc.devRef .tc main_v138) = (StableHlo.unary main_arg10 main_v138 ((extractStridedSlice S1x64 ![1, 0] · slices_S3x64_S1x64_1_0) : (⟨S3x64, .f32⟩ : BufTy).Contents (Elt F) → (⟨S1x64, .f32⟩ : BufTy).Contents (Elt F)) : HloOp τ sig (Elt F)).result (RV33 V) (Proc.devRef .tc main_v138) := by
  have h := ssa_main_v138 (F := F) (RV12 V)
  rw [unary_result] at h ⊢
  rw [lift13 V main_v138 (by decide), lift13 V main_arg10 (by decide)]
  exact h

theorem ssa_main_v139 (V : Valuation τ sig (Elt F)) :
    after rops12 V (Proc.devRef .tc main_v139) = (StableHlo.reshape main_v138 main_v139 rfl shapeCasts_S1x64_S64 : HloOp τ sig (Elt F)).result (after rops12 V) (Proc.devRef .tc main_v139) := by
  after_results_simp
theorem fin_main_v139 (V : Valuation τ sig (Elt F)) :
    RV33 V (Proc.devRef .tc main_v139) = (StableHlo.reshape main_v138 main_v139 rfl shapeCasts_S1x64_S64 : HloOp τ sig (Elt F)).result (RV33 V) (Proc.devRef .tc main_v139) := by
  have h := ssa_main_v139 (F := F) (RV12 V)
  rw [reshape_result] at h ⊢
  rw [lift13 V main_v139 (by decide), lift13 V main_v138 (by decide)]
  exact h

theorem ssa_main_cst_18 (V : Valuation τ sig (Elt F)) :
    after rops12 V (Proc.devRef .tc main_cst_18) = (StableHlo.nullary main_cst_18 (constant S_ .f32 0x00000000#32) : HloOp τ sig (Elt F)).result (after rops12 V) (Proc.devRef .tc main_cst_18) := by
  after_results_simp
theorem fin_main_cst_18 (V : Valuation τ sig (Elt F)) :
    RV33 V (Proc.devRef .tc main_cst_18) = (StableHlo.nullary main_cst_18 (constant S_ .f32 0x00000000#32) : HloOp τ sig (Elt F)).result (RV33 V) (Proc.devRef .tc main_cst_18) := by
  have h := ssa_main_cst_18 (F := F) (RV12 V)
  rw [nullary_result] at h ⊢
  rw [lift13 V main_cst_18 (by decide)]
  exact h

theorem ssa_main_v140 (V : Valuation τ sig (Elt F)) :
    after rops12 V (Proc.devRef .tc main_v140) = (StableHlo.binary main_v135 main_cst_18 main_v140 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) : HloOp τ sig (Elt F)).result (after rops12 V) (Proc.devRef .tc main_v140) := by
  after_results_simp
theorem fin_main_v140 (V : Valuation τ sig (Elt F)) :
    RV33 V (Proc.devRef .tc main_v140) = (StableHlo.binary main_v135 main_cst_18 main_v140 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) : HloOp τ sig (Elt F)).result (RV33 V) (Proc.devRef .tc main_v140) := by
  have h := ssa_main_v140 (F := F) (RV12 V)
  rw [binary_result] at h ⊢
  rw [lift13 V main_v140 (by decide), lift13 V main_v135 (by decide), lift13 V main_cst_18 (by decide)]
  exact h

theorem ssa_main_cst_19 (V : Valuation τ sig (Elt F)) :
    after rops12 V (Proc.devRef .tc main_cst_19) = (StableHlo.nullary main_cst_19 (constant S_ .f32 0x47C35000#32) : HloOp τ sig (Elt F)).result (after rops12 V) (Proc.devRef .tc main_cst_19) := by
  after_results_simp
theorem fin_main_cst_19 (V : Valuation τ sig (Elt F)) :
    RV33 V (Proc.devRef .tc main_cst_19) = (StableHlo.nullary main_cst_19 (constant S_ .f32 0x47C35000#32) : HloOp τ sig (Elt F)).result (RV33 V) (Proc.devRef .tc main_cst_19) := by
  have h := ssa_main_cst_19 (F := F) (RV12 V)
  rw [nullary_result] at h ⊢
  rw [lift13 V main_cst_19 (by decide)]
  exact h

theorem ssa_main_v141 (V : Valuation τ sig (Elt F)) :
    after rops12 V (Proc.devRef .tc main_v141) = (StableHlo.unary main_cst_19 main_v141 (broadcastInDim S64 ![] bcast_S_S64 : (⟨S_, .f32⟩ : BufTy).Contents (Elt F) → (⟨S64, .f32⟩ : BufTy).Contents (Elt F)) : HloOp τ sig (Elt F)).result (after rops12 V) (Proc.devRef .tc main_v141) := by
  after_results_simp
theorem fin_main_v141 (V : Valuation τ sig (Elt F)) :
    RV33 V (Proc.devRef .tc main_v141) = (StableHlo.unary main_cst_19 main_v141 (broadcastInDim S64 ![] bcast_S_S64 : (⟨S_, .f32⟩ : BufTy).Contents (Elt F) → (⟨S64, .f32⟩ : BufTy).Contents (Elt F)) : HloOp τ sig (Elt F)).result (RV33 V) (Proc.devRef .tc main_v141) := by
  have h := ssa_main_v141 (F := F) (RV12 V)
  rw [unary_result] at h ⊢
  rw [lift13 V main_v141 (by decide), lift13 V main_cst_19 (by decide)]
  exact h

theorem ssa_main_v142 (V : Valuation τ sig (Elt F)) :
    after rops12 V (Proc.devRef .tc main_v142) = (StableHlo.binary main_v140 main_v141 main_v142 (Host.divf : (⟨S64, .f32⟩ : BufTy).Contents (Elt F) → (⟨S64, .f32⟩ : BufTy).Contents (Elt F) → (⟨S64, .f32⟩ : BufTy).Contents (Elt F)) : HloOp τ sig (Elt F)).result (after rops12 V) (Proc.devRef .tc main_v142) := by
  after_results_simp
theorem fin_main_v142 (V : Valuation τ sig (Elt F)) :
    RV33 V (Proc.devRef .tc main_v142) = (StableHlo.binary main_v140 main_v141 main_v142 (Host.divf : (⟨S64, .f32⟩ : BufTy).Contents (Elt F) → (⟨S64, .f32⟩ : BufTy).Contents (Elt F) → (⟨S64, .f32⟩ : BufTy).Contents (Elt F)) : HloOp τ sig (Elt F)).result (RV33 V) (Proc.devRef .tc main_v142) := by
  have h := ssa_main_v142 (F := F) (RV12 V)
  rw [binary_result] at h ⊢
  rw [lift13 V main_v142 (by decide), lift13 V main_v140 (by decide), lift13 V main_v141 (by decide)]
  exact h

theorem ssa_main_c_20 (V : Valuation τ sig (Elt F)) :
    after rops12 V (Proc.devRef .tc main_c_20) = (StableHlo.nullary main_c_20 (constantI S_ 32 0#32) : HloOp τ sig (Elt F)).result (after rops12 V) (Proc.devRef .tc main_c_20) := by
  after_results_simp
theorem fin_main_c_20 (V : Valuation τ sig (Elt F)) :
    RV33 V (Proc.devRef .tc main_c_20) = (StableHlo.nullary main_c_20 (constantI S_ 32 0#32) : HloOp τ sig (Elt F)).result (RV33 V) (Proc.devRef .tc main_c_20) := by
  have h := ssa_main_c_20 (F := F) (RV12 V)
  rw [nullary_result] at h ⊢
  rw [lift13 V main_c_20 (by decide)]
  exact h

theorem ssa_main_call6_cst (V : Valuation τ sig (Elt F)) :
    after rops12 V (Proc.devRef .tc main_call6_cst) = (StableHlo.TRef.nullary main_call6.cst (constant S_ .f32 0x00000000#32) : HloOp τ sig (Elt F)).result (after rops12 V) (Proc.devRef .tc main_call6_cst) := by
  after_results_simp
theorem fin_main_call6_cst (V : Valuation τ sig (Elt F)) :
    RV33 V (Proc.devRef .tc main_call6_cst) = (StableHlo.TRef.nullary main_call6.cst (constant S_ .f32 0x00000000#32) : HloOp τ sig (Elt F)).result (RV33 V) (Proc.devRef .tc main_call6_cst) := by
  have h := ssa_main_call6_cst (F := F) (RV12 V)
  rw [nullary_result] at h ⊢
  rw [lift13 V main_call6_cst (by decide)]
  exact h

theorem ssa_main_call6_v0 (V : Valuation τ sig (Elt F)) :
    after rops12 V (Proc.devRef .tc main_call6_v0) = (StableHlo.TRef.binary (.of main_v135) main_call6.cst main_call6.v0 (fun x v => Host.reduceAdd x v reducesTo_S100000x64_S64_d0 h_S_) : HloOp τ sig (Elt F)).result (after rops12 V) (Proc.devRef .tc main_call6_v0) := by
  after_results_simp
theorem fin_main_call6_v0 (V : Valuation τ sig (Elt F)) :
    RV33 V (Proc.devRef .tc main_call6_v0) = (StableHlo.TRef.binary (.of main_v135) main_call6.cst main_call6.v0 (fun x v => Host.reduceAdd x v reducesTo_S100000x64_S64_d0 h_S_) : HloOp τ sig (Elt F)).result (RV33 V) (Proc.devRef .tc main_call6_v0) := by
  have h := ssa_main_call6_v0 (F := F) (RV12 V)
  rw [binary_result] at h ⊢
  rw [lift13 V main_call6_v0 (by decide), lift13 V main_v135 (by decide), lift13 V main_call6_cst (by decide)]
  exact h

theorem ssa_main_call6_v1 (V : Valuation τ sig (Elt F)) :
    after rops12 V (Proc.devRef .tc main_call6_v1) = (StableHlo.TRef.unary main_call6.v0 main_call6.v1 (broadcastInDim S1x64 ![1] bcast_S64_S1x64_1) : HloOp τ sig (Elt F)).result (after rops12 V) (Proc.devRef .tc main_call6_v1) := by
  after_results_simp
theorem fin_main_call6_v1 (V : Valuation τ sig (Elt F)) :
    RV33 V (Proc.devRef .tc main_call6_v1) = (StableHlo.TRef.unary main_call6.v0 main_call6.v1 (broadcastInDim S1x64 ![1] bcast_S64_S1x64_1) : HloOp τ sig (Elt F)).result (RV33 V) (Proc.devRef .tc main_call6_v1) := by
  have h := ssa_main_call6_v1 (F := F) (RV12 V)
  rw [unary_result] at h ⊢
  rw [lift13 V main_call6_v1 (by decide), lift13 V main_call6_v0 (by decide)]
  exact h

theorem ssa_main_call6_cst_0 (V : Valuation τ sig (Elt F)) :
    after rops12 V (Proc.devRef .tc main_call6_cst_0) = (StableHlo.TRef.nullary main_call6.cst_0 (constant S_ .f32 0x47C35000#32) : HloOp τ sig (Elt F)).result (after rops12 V) (Proc.devRef .tc main_call6_cst_0) := by
  after_results_simp
theorem fin_main_call6_cst_0 (V : Valuation τ sig (Elt F)) :
    RV33 V (Proc.devRef .tc main_call6_cst_0) = (StableHlo.TRef.nullary main_call6.cst_0 (constant S_ .f32 0x47C35000#32) : HloOp τ sig (Elt F)).result (RV33 V) (Proc.devRef .tc main_call6_cst_0) := by
  have h := ssa_main_call6_cst_0 (F := F) (RV12 V)
  rw [nullary_result] at h ⊢
  rw [lift13 V main_call6_cst_0 (by decide)]
  exact h

theorem ssa_main_call6_v2 (V : Valuation τ sig (Elt F)) :
    after rops12 V (Proc.devRef .tc main_call6_v2) = (StableHlo.TRef.unary main_call6.cst_0 main_call6.v2 (broadcastInDim S1x64 ![] bcast_S_S1x64) : HloOp τ sig (Elt F)).result (after rops12 V) (Proc.devRef .tc main_call6_v2) := by
  after_results_simp
theorem fin_main_call6_v2 (V : Valuation τ sig (Elt F)) :
    RV33 V (Proc.devRef .tc main_call6_v2) = (StableHlo.TRef.unary main_call6.cst_0 main_call6.v2 (broadcastInDim S1x64 ![] bcast_S_S1x64) : HloOp τ sig (Elt F)).result (RV33 V) (Proc.devRef .tc main_call6_v2) := by
  have h := ssa_main_call6_v2 (F := F) (RV12 V)
  rw [unary_result] at h ⊢
  rw [lift13 V main_call6_v2 (by decide), lift13 V main_call6_cst_0 (by decide)]
  exact h

theorem ssa_main_call6_v3 (V : Valuation τ sig (Elt F)) :
    after rops12 V (Proc.devRef .tc main_call6_v3) = (StableHlo.TRef.binary main_call6.v1 main_call6.v2 main_call6.v3 Host.divf : HloOp τ sig (Elt F)).result (after rops12 V) (Proc.devRef .tc main_call6_v3) := by
  after_results_simp
theorem fin_main_call6_v3 (V : Valuation τ sig (Elt F)) :
    RV33 V (Proc.devRef .tc main_call6_v3) = (StableHlo.TRef.binary main_call6.v1 main_call6.v2 main_call6.v3 Host.divf : HloOp τ sig (Elt F)).result (RV33 V) (Proc.devRef .tc main_call6_v3) := by
  have h := ssa_main_call6_v3 (F := F) (RV12 V)
  rw [binary_result] at h ⊢
  rw [lift13 V main_call6_v3 (by decide), lift13 V main_call6_v1 (by decide), lift13 V main_call6_v2 (by decide)]
  exact h

theorem ssa_main_call6_v4 (V : Valuation τ sig (Elt F)) :
    after rops12 V (Proc.devRef .tc main_call6_v4) = (StableHlo.TRef.unary main_call6.v3 main_call6.v4 (broadcastInDim S100000x64 ![0, 1] bcast_S1x64_S100000x64_0_1) : HloOp τ sig (Elt F)).result (after rops12 V) (Proc.devRef .tc main_call6_v4) := by
  after_results_simp
theorem fin_main_call6_v4 (V : Valuation τ sig (Elt F)) :
    RV33 V (Proc.devRef .tc main_call6_v4) = (StableHlo.TRef.unary main_call6.v3 main_call6.v4 (broadcastInDim S100000x64 ![0, 1] bcast_S1x64_S100000x64_0_1) : HloOp τ sig (Elt F)).result (RV33 V) (Proc.devRef .tc main_call6_v4) := by
  have h := ssa_main_call6_v4 (F := F) (RV12 V)
  rw [unary_result] at h ⊢
  rw [lift13 V main_call6_v4 (by decide), lift13 V main_call6_v3 (by decide)]
  exact h

theorem ssa_main_call6_v5 (V : Valuation τ sig (Elt F)) :
    after rops12 V (Proc.devRef .tc main_call6_v5) = (StableHlo.TRef.binary (.of main_v135) main_call6.v4 main_call6.v5 subf : HloOp τ sig (Elt F)).result (after rops12 V) (Proc.devRef .tc main_call6_v5) := by
  after_results_simp
theorem fin_main_call6_v5 (V : Valuation τ sig (Elt F)) :
    RV33 V (Proc.devRef .tc main_call6_v5) = (StableHlo.TRef.binary (.of main_v135) main_call6.v4 main_call6.v5 subf : HloOp τ sig (Elt F)).result (RV33 V) (Proc.devRef .tc main_call6_v5) := by
  have h := ssa_main_call6_v5 (F := F) (RV12 V)
  rw [binary_result] at h ⊢
  rw [lift13 V main_call6_v5 (by decide), lift13 V main_v135 (by decide), lift13 V main_call6_v4 (by decide)]
  exact h

theorem ssa_main_call6_v6 (V : Valuation τ sig (Elt F)) :
    after rops12 V (Proc.devRef .tc main_call6_v6) = (StableHlo.TRef.binary main_call6.v5 main_call6.v5 main_call6.v6 mulf : HloOp τ sig (Elt F)).result (after rops12 V) (Proc.devRef .tc main_call6_v6) := by
  after_results_simp
theorem fin_main_call6_v6 (V : Valuation τ sig (Elt F)) :
    RV33 V (Proc.devRef .tc main_call6_v6) = (StableHlo.TRef.binary main_call6.v5 main_call6.v5 main_call6.v6 mulf : HloOp τ sig (Elt F)).result (RV33 V) (Proc.devRef .tc main_call6_v6) := by
  have h := ssa_main_call6_v6 (F := F) (RV12 V)
  rw [binary_result] at h ⊢
  rw [lift13 V main_call6_v6 (by decide), lift13 V main_call6_v5 (by decide)]
  exact h

theorem ssa_main_call6_v7 (V : Valuation τ sig (Elt F)) :
    after rops12 V (Proc.devRef .tc main_call6_v7) = (StableHlo.TRef.unary (.of main_c_20) main_call6.v7 (sitofp .f32) : HloOp τ sig (Elt F)).result (after rops12 V) (Proc.devRef .tc main_call6_v7) := by
  after_results_simp
theorem fin_main_call6_v7 (V : Valuation τ sig (Elt F)) :
    RV33 V (Proc.devRef .tc main_call6_v7) = (StableHlo.TRef.unary (.of main_c_20) main_call6.v7 (sitofp .f32) : HloOp τ sig (Elt F)).result (RV33 V) (Proc.devRef .tc main_call6_v7) := by
  have h := ssa_main_call6_v7 (F := F) (RV12 V)
  rw [unary_result] at h ⊢
  rw [lift13 V main_call6_v7 (by decide), lift13 V main_c_20 (by decide)]
  exact h

theorem ssa_main_call6_cst_1 (V : Valuation τ sig (Elt F)) :
    after rops12 V (Proc.devRef .tc main_call6_cst_1) = (StableHlo.TRef.nullary main_call6.cst_1 (constant S_ .f32 0x47C35000#32) : HloOp τ sig (Elt F)).result (after rops12 V) (Proc.devRef .tc main_call6_cst_1) := by
  after_results_simp
theorem fin_main_call6_cst_1 (V : Valuation τ sig (Elt F)) :
    RV33 V (Proc.devRef .tc main_call6_cst_1) = (StableHlo.TRef.nullary main_call6.cst_1 (constant S_ .f32 0x47C35000#32) : HloOp τ sig (Elt F)).result (RV33 V) (Proc.devRef .tc main_call6_cst_1) := by
  have h := ssa_main_call6_cst_1 (F := F) (RV12 V)
  rw [nullary_result] at h ⊢
  rw [lift13 V main_call6_cst_1 (by decide)]
  exact h

theorem ssa_main_call6_v8 (V : Valuation τ sig (Elt F)) :
    after rops12 V (Proc.devRef .tc main_call6_v8) = (StableHlo.TRef.binary main_call6.cst_1 main_call6.v7 main_call6.v8 subf : HloOp τ sig (Elt F)).result (after rops12 V) (Proc.devRef .tc main_call6_v8) := by
  after_results_simp
theorem fin_main_call6_v8 (V : Valuation τ sig (Elt F)) :
    RV33 V (Proc.devRef .tc main_call6_v8) = (StableHlo.TRef.binary main_call6.cst_1 main_call6.v7 main_call6.v8 subf : HloOp τ sig (Elt F)).result (RV33 V) (Proc.devRef .tc main_call6_v8) := by
  have h := ssa_main_call6_v8 (F := F) (RV12 V)
  rw [binary_result] at h ⊢
  rw [lift13 V main_call6_v8 (by decide), lift13 V main_call6_cst_1 (by decide), lift13 V main_call6_v7 (by decide)]
  exact h

theorem ssa_main_call6_cst_2 (V : Valuation τ sig (Elt F)) :
    after rops13 V (Proc.devRef .tc main_call6_cst_2) = (StableHlo.TRef.nullary main_call6.cst_2 (constant S_ .f32 0x00000000#32) : HloOp τ sig (Elt F)).result (after rops13 V) (Proc.devRef .tc main_call6_cst_2) := by
  after_results_simp
theorem fin_main_call6_cst_2 (V : Valuation τ sig (Elt F)) :
    RV33 V (Proc.devRef .tc main_call6_cst_2) = (StableHlo.TRef.nullary main_call6.cst_2 (constant S_ .f32 0x00000000#32) : HloOp τ sig (Elt F)).result (RV33 V) (Proc.devRef .tc main_call6_cst_2) := by
  have h := ssa_main_call6_cst_2 (F := F) (RV13 V)
  rw [nullary_result] at h ⊢
  rw [lift14 V main_call6_cst_2 (by decide)]
  exact h

theorem ssa_main_call6_v9 (V : Valuation τ sig (Elt F)) :
    after rops13 V (Proc.devRef .tc main_call6_v9) = (StableHlo.TRef.binary main_call6.v6 main_call6.cst_2 main_call6.v9 (fun x v => Host.reduceAdd x v reducesTo_S100000x64_S64_d0 h_S_) : HloOp τ sig (Elt F)).result (after rops13 V) (Proc.devRef .tc main_call6_v9) := by
  after_results_simp
theorem fin_main_call6_v9 (V : Valuation τ sig (Elt F)) :
    RV33 V (Proc.devRef .tc main_call6_v9) = (StableHlo.TRef.binary main_call6.v6 main_call6.cst_2 main_call6.v9 (fun x v => Host.reduceAdd x v reducesTo_S100000x64_S64_d0 h_S_) : HloOp τ sig (Elt F)).result (RV33 V) (Proc.devRef .tc main_call6_v9) := by
  have h := ssa_main_call6_v9 (F := F) (RV13 V)
  rw [binary_result] at h ⊢
  rw [lift14 V main_call6_v9 (by decide), lift14 V main_call6_v6 (by decide), lift14 V main_call6_cst_2 (by decide)]
  exact h

theorem ssa_main_call6_v10 (V : Valuation τ sig (Elt F)) :
    after rops13 V (Proc.devRef .tc main_call6_v10) = (StableHlo.TRef.unary main_call6.v8 main_call6.v10 (broadcastInDim S64 ![] bcast_S_S64) : HloOp τ sig (Elt F)).result (after rops13 V) (Proc.devRef .tc main_call6_v10) := by
  after_results_simp
theorem fin_main_call6_v10 (V : Valuation τ sig (Elt F)) :
    RV33 V (Proc.devRef .tc main_call6_v10) = (StableHlo.TRef.unary main_call6.v8 main_call6.v10 (broadcastInDim S64 ![] bcast_S_S64) : HloOp τ sig (Elt F)).result (RV33 V) (Proc.devRef .tc main_call6_v10) := by
  have h := ssa_main_call6_v10 (F := F) (RV13 V)
  rw [unary_result] at h ⊢
  rw [lift14 V main_call6_v10 (by decide), lift14 V main_call6_v8 (by decide)]
  exact h

theorem ssa_main_call6_v11 (V : Valuation τ sig (Elt F)) :
    after rops13 V (Proc.devRef .tc main_call6_v11) = (StableHlo.TRef.binary main_call6.v9 main_call6.v10 main_call6.v11 Host.divf : HloOp τ sig (Elt F)).result (after rops13 V) (Proc.devRef .tc main_call6_v11) := by
  after_results_simp
theorem fin_main_call6_v11 (V : Valuation τ sig (Elt F)) :
    RV33 V (Proc.devRef .tc main_call6_v11) = (StableHlo.TRef.binary main_call6.v9 main_call6.v10 main_call6.v11 Host.divf : HloOp τ sig (Elt F)).result (RV33 V) (Proc.devRef .tc main_call6_v11) := by
  have h := ssa_main_call6_v11 (F := F) (RV13 V)
  rw [binary_result] at h ⊢
  rw [lift14 V main_call6_v11 (by decide), lift14 V main_call6_v9 (by decide), lift14 V main_call6_v10 (by decide)]
  exact h

theorem ssa_main_call6_cst_3 (V : Valuation τ sig (Elt F)) :
    after rops13 V (Proc.devRef .tc main_call6_cst_3) = (StableHlo.TRef.nullary main_call6.cst_3 (constant S_ .f32 0x00000000#32) : HloOp τ sig (Elt F)).result (after rops13 V) (Proc.devRef .tc main_call6_cst_3) := by
  after_results_simp
theorem fin_main_call6_cst_3 (V : Valuation τ sig (Elt F)) :
    RV33 V (Proc.devRef .tc main_call6_cst_3) = (StableHlo.TRef.nullary main_call6.cst_3 (constant S_ .f32 0x00000000#32) : HloOp τ sig (Elt F)).result (RV33 V) (Proc.devRef .tc main_call6_cst_3) := by
  have h := ssa_main_call6_cst_3 (F := F) (RV13 V)
  rw [nullary_result] at h ⊢
  rw [lift14 V main_call6_cst_3 (by decide)]
  exact h

theorem ssa_main_call6_v12 (V : Valuation τ sig (Elt F)) :
    after rops13 V (Proc.devRef .tc main_call6_v12) = (StableHlo.TRef.binary main_call6.v8 main_call6.cst_3 main_call6.v12 (cmpf .ogt) : HloOp τ sig (Elt F)).result (after rops13 V) (Proc.devRef .tc main_call6_v12) := by
  after_results_simp
theorem fin_main_call6_v12 (V : Valuation τ sig (Elt F)) :
    RV33 V (Proc.devRef .tc main_call6_v12) = (StableHlo.TRef.binary main_call6.v8 main_call6.cst_3 main_call6.v12 (cmpf .ogt) : HloOp τ sig (Elt F)).result (RV33 V) (Proc.devRef .tc main_call6_v12) := by
  have h := ssa_main_call6_v12 (F := F) (RV13 V)
  rw [binary_result] at h ⊢
  rw [lift14 V main_call6_v12 (by decide), lift14 V main_call6_v8 (by decide), lift14 V main_call6_cst_3 (by decide)]
  exact h

theorem ssa_main_call6_cst_4 (V : Valuation τ sig (Elt F)) :
    after rops13 V (Proc.devRef .tc main_call6_cst_4) = (StableHlo.TRef.nullary main_call6.cst_4 (constant S_ .f32 0x7FC00000#32) : HloOp τ sig (Elt F)).result (after rops13 V) (Proc.devRef .tc main_call6_cst_4) := by
  after_results_simp
theorem fin_main_call6_cst_4 (V : Valuation τ sig (Elt F)) :
    RV33 V (Proc.devRef .tc main_call6_cst_4) = (StableHlo.TRef.nullary main_call6.cst_4 (constant S_ .f32 0x7FC00000#32) : HloOp τ sig (Elt F)).result (RV33 V) (Proc.devRef .tc main_call6_cst_4) := by
  have h := ssa_main_call6_cst_4 (F := F) (RV13 V)
  rw [nullary_result] at h ⊢
  rw [lift14 V main_call6_cst_4 (by decide)]
  exact h

theorem ssa_main_call6_call0_v0 (V : Valuation τ sig (Elt F)) :
    after rops13 V (Proc.devRef .tc main_call6_call0_v0) = (StableHlo.TRef.unary main_call6.cst_4 main_call6.call0.v0 id : HloOp τ sig (Elt F)).result (after rops13 V) (Proc.devRef .tc main_call6_call0_v0) := by
  after_results_simp
theorem fin_main_call6_call0_v0 (V : Valuation τ sig (Elt F)) :
    RV33 V (Proc.devRef .tc main_call6_call0_v0) = (StableHlo.TRef.unary main_call6.cst_4 main_call6.call0.v0 id : HloOp τ sig (Elt F)).result (RV33 V) (Proc.devRef .tc main_call6_call0_v0) := by
  have h := ssa_main_call6_call0_v0 (F := F) (RV13 V)
  rw [unary_result] at h ⊢
  rw [lift14 V main_call6_call0_v0 (by decide), lift14 V main_call6_cst_4 (by decide)]
  exact h

theorem ssa_main_call6_call0_v1 (V : Valuation τ sig (Elt F)) :
    after rops13 V (Proc.devRef .tc main_call6_call0_v1) = (StableHlo.TRef.unary main_call6.call0.v0 main_call6.call0.v1 (broadcastInDim S64 ![] bcast_S_S64) : HloOp τ sig (Elt F)).result (after rops13 V) (Proc.devRef .tc main_call6_call0_v1) := by
  after_results_simp
theorem fin_main_call6_call0_v1 (V : Valuation τ sig (Elt F)) :
    RV33 V (Proc.devRef .tc main_call6_call0_v1) = (StableHlo.TRef.unary main_call6.call0.v0 main_call6.call0.v1 (broadcastInDim S64 ![] bcast_S_S64) : HloOp τ sig (Elt F)).result (RV33 V) (Proc.devRef .tc main_call6_call0_v1) := by
  have h := ssa_main_call6_call0_v1 (F := F) (RV13 V)
  rw [unary_result] at h ⊢
  rw [lift14 V main_call6_call0_v1 (by decide), lift14 V main_call6_call0_v0 (by decide)]
  exact h

theorem ssa_main_v143 (V : Valuation τ sig (Elt F)) :
    after rops13 V (Proc.devRef .tc main_v143) = (StableHlo.TRef.ternary main_call6.v12 main_call6.v11 main_call6.call0.v1 main_call6.call0.v2 (fun p a b => select (broadcastInDim S64 ![] bcast_S_S64 p) a b) : HloOp τ sig (Elt F)).result (after rops13 V) (Proc.devRef .tc main_v143) := by
  after_results_simp
theorem fin_main_v143 (V : Valuation τ sig (Elt F)) :
    RV33 V (Proc.devRef .tc main_v143) = (StableHlo.TRef.ternary main_call6.v12 main_call6.v11 main_call6.call0.v1 main_call6.call0.v2 (fun p a b => select (broadcastInDim S64 ![] bcast_S_S64 p) a b) : HloOp τ sig (Elt F)).result (RV33 V) (Proc.devRef .tc main_v143) := by
  have h := ssa_main_v143 (F := F) (RV13 V)
  rw [ternary_result] at h ⊢
  rw [lift14 V main_v143 (by decide), lift14 V main_call6_v12 (by decide), lift14 V main_call6_v11 (by decide), lift14 V main_call6_call0_v1 (by decide)]
  exact h

theorem ssa_main_v144 (V : Valuation τ sig (Elt F)) :
    after rops13 V (Proc.devRef .tc main_v144) = (StableHlo.unary main_v142 main_v144 (broadcastInDim S1x64 ![1] bcast_S64_S1x64_1 : (⟨S64, .f32⟩ : BufTy).Contents (Elt F) → (⟨S1x64, .f32⟩ : BufTy).Contents (Elt F)) : HloOp τ sig (Elt F)).result (after rops13 V) (Proc.devRef .tc main_v144) := by
  after_results_simp
theorem fin_main_v144 (V : Valuation τ sig (Elt F)) :
    RV33 V (Proc.devRef .tc main_v144) = (StableHlo.unary main_v142 main_v144 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v144) := by
  have h := ssa_main_v144 (F := F) (RV13 V)
  rw [unary_result] at h ⊢
  rw [lift14 V main_v144 (by decide), lift14 V main_v142 (by decide)]
  exact h

theorem ssa_main_v145 (V : Valuation τ sig (Elt F)) :
    after rops13 V (Proc.devRef .tc main_v145) = (StableHlo.unary main_v144 main_v145 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops13 V) (Proc.devRef .tc main_v145) := by
  after_results_simp
theorem fin_main_v145 (V : Valuation τ sig (Elt F)) :
    RV33 V (Proc.devRef .tc main_v145) = (StableHlo.unary main_v144 main_v145 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v145) := by
  have h := ssa_main_v145 (F := F) (RV13 V)
  rw [unary_result] at h ⊢
  rw [lift14 V main_v145 (by decide), lift14 V main_v144 (by decide)]
  exact h

theorem ssa_main_v146 (V : Valuation τ sig (Elt F)) :
    after rops13 V (Proc.devRef .tc main_v146) = (StableHlo.binary main_v135 main_v145 main_v146 (subf : (⟨S100000x64, .f32⟩ : BufTy).Contents (Elt F) → (⟨S100000x64, .f32⟩ : BufTy).Contents (Elt F) → (⟨S100000x64, .f32⟩ : BufTy).Contents (Elt F)) : HloOp τ sig (Elt F)).result (after rops13 V) (Proc.devRef .tc main_v146) := by
  after_results_simp
theorem fin_main_v146 (V : Valuation τ sig (Elt F)) :
    RV33 V (Proc.devRef .tc main_v146) = (StableHlo.binary main_v135 main_v145 main_v146 (subf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v146) := by
  have h := ssa_main_v146 (F := F) (RV13 V)
  rw [binary_result] at h ⊢
  rw [lift14 V main_v146 (by decide), lift14 V main_v135 (by decide), lift14 V main_v145 (by decide)]
  exact h

theorem ssa_main_v147 (V : Valuation τ sig (Elt F)) :
    after rops13 V (Proc.devRef .tc main_v147) = (StableHlo.unary main_v137 main_v147 (broadcastInDim S1x64 ![1] bcast_S64_S1x64_1 : (⟨S64, .f32⟩ : BufTy).Contents (Elt F) → (⟨S1x64, .f32⟩ : BufTy).Contents (Elt F)) : HloOp τ sig (Elt F)).result (after rops13 V) (Proc.devRef .tc main_v147) := by
  after_results_simp
theorem fin_main_v147 (V : Valuation τ sig (Elt F)) :
    RV33 V (Proc.devRef .tc main_v147) = (StableHlo.unary main_v137 main_v147 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v147) := by
  have h := ssa_main_v147 (F := F) (RV13 V)
  rw [unary_result] at h ⊢
  rw [lift14 V main_v147 (by decide), lift14 V main_v137 (by decide)]
  exact h

theorem ssa_main_v148 (V : Valuation τ sig (Elt F)) :
    after rops13 V (Proc.devRef .tc main_v148) = (StableHlo.unary main_v147 main_v148 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops13 V) (Proc.devRef .tc main_v148) := by
  after_results_simp
theorem fin_main_v148 (V : Valuation τ sig (Elt F)) :
    RV33 V (Proc.devRef .tc main_v148) = (StableHlo.unary main_v147 main_v148 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v148) := by
  have h := ssa_main_v148 (F := F) (RV13 V)
  rw [unary_result] at h ⊢
  rw [lift14 V main_v148 (by decide), lift14 V main_v147 (by decide)]
  exact h

theorem ssa_main_v149 (V : Valuation τ sig (Elt F)) :
    after rops13 V (Proc.devRef .tc main_v149) = (StableHlo.binary main_v148 main_v146 main_v149 (mulf : (⟨S100000x64, .f32⟩ : BufTy).Contents (Elt F) → (⟨S100000x64, .f32⟩ : BufTy).Contents (Elt F) → (⟨S100000x64, .f32⟩ : BufTy).Contents (Elt F)) : HloOp τ sig (Elt F)).result (after rops13 V) (Proc.devRef .tc main_v149) := by
  after_results_simp
theorem fin_main_v149 (V : Valuation τ sig (Elt F)) :
    RV33 V (Proc.devRef .tc main_v149) = (StableHlo.binary main_v148 main_v146 main_v149 (mulf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v149) := by
  have h := ssa_main_v149 (F := F) (RV13 V)
  rw [binary_result] at h ⊢
  rw [lift14 V main_v149 (by decide), lift14 V main_v148 (by decide), lift14 V main_v146 (by decide)]
  exact h

theorem ssa_main_cst_21 (V : Valuation τ sig (Elt F)) :
    after rops13 V (Proc.devRef .tc main_cst_21) = (StableHlo.nullary main_cst_21 (constant S_ .f32 0x3727C5AC#32) : HloOp τ sig (Elt F)).result (after rops13 V) (Proc.devRef .tc main_cst_21) := by
  after_results_simp
theorem fin_main_cst_21 (V : Valuation τ sig (Elt F)) :
    RV33 V (Proc.devRef .tc main_cst_21) = (StableHlo.nullary main_cst_21 (constant S_ .f32 0x3727C5AC#32) : HloOp τ sig (Elt F)).result (RV33 V) (Proc.devRef .tc main_cst_21) := by
  have h := ssa_main_cst_21 (F := F) (RV13 V)
  rw [nullary_result] at h ⊢
  rw [lift14 V main_cst_21 (by decide)]
  exact h

theorem ssa_main_v150 (V : Valuation τ sig (Elt F)) :
    after rops13 V (Proc.devRef .tc main_v150) = (StableHlo.unary main_cst_21 main_v150 (broadcastInDim S64 ![] bcast_S_S64 : (⟨S_, .f32⟩ : BufTy).Contents (Elt F) → (⟨S64, .f32⟩ : BufTy).Contents (Elt F)) : HloOp τ sig (Elt F)).result (after rops13 V) (Proc.devRef .tc main_v150) := by
  after_results_simp
theorem fin_main_v150 (V : Valuation τ sig (Elt F)) :
    RV33 V (Proc.devRef .tc main_v150) = (StableHlo.unary main_cst_21 main_v150 (broadcastInDim S64 ![] bcast_S_S64 : (⟨S_, .f32⟩ : BufTy).Contents (Elt F) → (⟨S64, .f32⟩ : BufTy).Contents (Elt F)) : HloOp τ sig (Elt F)).result (RV33 V) (Proc.devRef .tc main_v150) := by
  have h := ssa_main_v150 (F := F) (RV13 V)
  rw [unary_result] at h ⊢
  rw [lift14 V main_v150 (by decide), lift14 V main_cst_21 (by decide)]
  exact h

theorem ssa_main_v151 (V : Valuation τ sig (Elt F)) :
    after rops13 V (Proc.devRef .tc main_v151) = (StableHlo.binary main_v143 main_v150 main_v151 (addf : (⟨S64, .f32⟩ : BufTy).Contents (Elt F) → (⟨S64, .f32⟩ : BufTy).Contents (Elt F) → (⟨S64, .f32⟩ : BufTy).Contents (Elt F)) : HloOp τ sig (Elt F)).result (after rops13 V) (Proc.devRef .tc main_v151) := by
  after_results_simp
theorem fin_main_v151 (V : Valuation τ sig (Elt F)) :
    RV33 V (Proc.devRef .tc main_v151) = (StableHlo.binary main_v143 main_v150 main_v151 (addf : (⟨S64, .f32⟩ : BufTy).Contents (Elt F) → (⟨S64, .f32⟩ : BufTy).Contents (Elt F) → (⟨S64, .f32⟩ : BufTy).Contents (Elt F)) : HloOp τ sig (Elt F)).result (RV33 V) (Proc.devRef .tc main_v151) := by
  have h := ssa_main_v151 (F := F) (RV13 V)
  rw [binary_result] at h ⊢
  rw [lift14 V main_v151 (by decide), lift14 V main_v143 (by decide), lift14 V main_v150 (by decide)]
  exact h

theorem ssa_main_v152 (V : Valuation τ sig (Elt F)) :
    after rops13 V (Proc.devRef .tc main_v152) = (StableHlo.unary main_v151 main_v152 (Host.rsqrt : (⟨S64, .f32⟩ : BufTy).Contents (Elt F) → (⟨S64, .f32⟩ : BufTy).Contents (Elt F)) : HloOp τ sig (Elt F)).result (after rops13 V) (Proc.devRef .tc main_v152) := by
  after_results_simp
theorem fin_main_v152 (V : Valuation τ sig (Elt F)) :
    RV33 V (Proc.devRef .tc main_v152) = (StableHlo.unary main_v151 main_v152 (Host.rsqrt : (⟨S64, .f32⟩ : BufTy).Contents (Elt F) → (⟨S64, .f32⟩ : BufTy).Contents (Elt F)) : HloOp τ sig (Elt F)).result (RV33 V) (Proc.devRef .tc main_v152) := by
  have h := ssa_main_v152 (F := F) (RV13 V)
  rw [unary_result] at h ⊢
  rw [lift14 V main_v152 (by decide), lift14 V main_v151 (by decide)]
  exact h

theorem ssa_main_v153 (V : Valuation τ sig (Elt F)) :
    after rops14 V (Proc.devRef .tc main_v153) = (StableHlo.unary main_v152 main_v153 (broadcastInDim S1x64 ![1] bcast_S64_S1x64_1 : (⟨S64, .f32⟩ : BufTy).Contents (Elt F) → (⟨S1x64, .f32⟩ : BufTy).Contents (Elt F)) : HloOp τ sig (Elt F)).result (after rops14 V) (Proc.devRef .tc main_v153) := by
  after_results_simp
theorem fin_main_v153 (V : Valuation τ sig (Elt F)) :
    RV33 V (Proc.devRef .tc main_v153) = (StableHlo.unary main_v152 main_v153 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v153) := by
  have h := ssa_main_v153 (F := F) (RV14 V)
  rw [unary_result] at h ⊢
  rw [lift15 V main_v153 (by decide), lift15 V main_v152 (by decide)]
  exact h

theorem ssa_main_v154 (V : Valuation τ sig (Elt F)) :
    after rops14 V (Proc.devRef .tc main_v154) = (StableHlo.unary main_v153 main_v154 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops14 V) (Proc.devRef .tc main_v154) := by
  after_results_simp
theorem fin_main_v154 (V : Valuation τ sig (Elt F)) :
    RV33 V (Proc.devRef .tc main_v154) = (StableHlo.unary main_v153 main_v154 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v154) := by
  have h := ssa_main_v154 (F := F) (RV14 V)
  rw [unary_result] at h ⊢
  rw [lift15 V main_v154 (by decide), lift15 V main_v153 (by decide)]
  exact h

theorem ssa_main_v155 (V : Valuation τ sig (Elt F)) :
    after rops14 V (Proc.devRef .tc main_v155) = (StableHlo.binary main_v149 main_v154 main_v155 (mulf : (⟨S100000x64, .f32⟩ : BufTy).Contents (Elt F) → (⟨S100000x64, .f32⟩ : BufTy).Contents (Elt F) → (⟨S100000x64, .f32⟩ : BufTy).Contents (Elt F)) : HloOp τ sig (Elt F)).result (after rops14 V) (Proc.devRef .tc main_v155) := by
  after_results_simp
theorem fin_main_v155 (V : Valuation τ sig (Elt F)) :
    RV33 V (Proc.devRef .tc main_v155) = (StableHlo.binary main_v149 main_v154 main_v155 (mulf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v155) := by
  have h := ssa_main_v155 (F := F) (RV14 V)
  rw [binary_result] at h ⊢
  rw [lift15 V main_v155 (by decide), lift15 V main_v149 (by decide), lift15 V main_v154 (by decide)]
  exact h

end Cert.ReferenceIdeal.Tab

end
-- ==== Proof.TabRSsa3.lean ====
/- Stretches 15 to 19 of the reference program read one operation at a time: each buffer a stretch writes holds its operation's function
   of the operands, within the stretch from any contents and, at the end of the run, over the final contents. -/
import proofs.«409037_j72164040508123_1_alg».proof.Proof.TabR

set_option maxRecDepth 16384

noncomputable section

namespace Cert.ReferenceIdeal.Tab

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

theorem ssa_main_v156 (V : Valuation τ sig (Elt F)) :
    after rops15 V (Proc.devRef .tc main_v156) = (StableHlo.unary main_v139 main_v156 (broadcastInDim S1x64 ![1] bcast_S64_S1x64_1 : (⟨S64, .f32⟩ : BufTy).Contents (Elt F) → (⟨S1x64, .f32⟩ : BufTy).Contents (Elt F)) : HloOp τ sig (Elt F)).result (after rops15 V) (Proc.devRef .tc main_v156) := by
  after_results_simp
theorem fin_main_v156 (V : Valuation τ sig (Elt F)) :
    RV33 V (Proc.devRef .tc main_v156) = (StableHlo.unary main_v139 main_v156 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v156) := by
  have h := ssa_main_v156 (F := F) (RV15 V)
  rw [unary_result] at h ⊢
  rw [lift16 V main_v156 (by decide), lift16 V main_v139 (by decide)]
  exact h

theorem ssa_main_v157 (V : Valuation τ sig (Elt F)) :
    after rops15 V (Proc.devRef .tc main_v157) = (StableHlo.unary main_v156 main_v157 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops15 V) (Proc.devRef .tc main_v157) := by
  after_results_simp
theorem fin_main_v157 (V : Valuation τ sig (Elt F)) :
    RV33 V (Proc.devRef .tc main_v157) = (StableHlo.unary main_v156 main_v157 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v157) := by
  have h := ssa_main_v157 (F := F) (RV15 V)
  rw [unary_result] at h ⊢
  rw [lift16 V main_v157 (by decide), lift16 V main_v156 (by decide)]
  exact h

theorem ssa_main_v158 (V : Valuation τ sig (Elt F)) :
    after rops15 V (Proc.devRef .tc main_v158) = (StableHlo.binary main_v155 main_v157 main_v158 (addf : (⟨S100000x64, .f32⟩ : BufTy).Contents (Elt F) → (⟨S100000x64, .f32⟩ : BufTy).Contents (Elt F) → (⟨S100000x64, .f32⟩ : BufTy).Contents (Elt F)) : HloOp τ sig (Elt F)).result (after rops15 V) (Proc.devRef .tc main_v158) := by
  after_results_simp
theorem fin_main_v158 (V : Valuation τ sig (Elt F)) :
    RV33 V (Proc.devRef .tc main_v158) = (StableHlo.binary main_v155 main_v157 main_v158 (addf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v158) := by
  have h := ssa_main_v158 (F := F) (RV15 V)
  rw [binary_result] at h ⊢
  rw [lift16 V main_v158 (by decide), lift16 V main_v155 (by decide), lift16 V main_v157 (by decide)]
  exact h

theorem ssa_main_cst_22 (V : Valuation τ sig (Elt F)) :
    after rops15 V (Proc.devRef .tc main_cst_22) = (StableHlo.nullary main_cst_22 (constant S_ .f32 0x00000000#32) : HloOp τ sig (Elt F)).result (after rops15 V) (Proc.devRef .tc main_cst_22) := by
  after_results_simp
theorem fin_main_cst_22 (V : Valuation τ sig (Elt F)) :
    RV33 V (Proc.devRef .tc main_cst_22) = (StableHlo.nullary main_cst_22 (constant S_ .f32 0x00000000#32) : HloOp τ sig (Elt F)).result (RV33 V) (Proc.devRef .tc main_cst_22) := by
  have h := ssa_main_cst_22 (F := F) (RV15 V)
  rw [nullary_result] at h ⊢
  rw [lift16 V main_cst_22 (by decide)]
  exact h

theorem ssa_main_v159 (V : Valuation τ sig (Elt F)) :
    after rops15 V (Proc.devRef .tc main_v159) = (StableHlo.unary main_cst_22 main_v159 (broadcastInDim S100000x64 ![] bcast_S_S100000x64 : (⟨S_, .f32⟩ : BufTy).Contents (Elt F) → (⟨S100000x64, .f32⟩ : BufTy).Contents (Elt F)) : HloOp τ sig (Elt F)).result (after rops15 V) (Proc.devRef .tc main_v159) := by
  after_results_simp
theorem fin_main_v159 (V : Valuation τ sig (Elt F)) :
    RV33 V (Proc.devRef .tc main_v159) = (StableHlo.unary main_cst_22 main_v159 (broadcastInDim S100000x64 ![] bcast_S_S100000x64 : (⟨S_, .f32⟩ : BufTy).Contents (Elt F) → (⟨S100000x64, .f32⟩ : BufTy).Contents (Elt F)) : HloOp τ sig (Elt F)).result (RV33 V) (Proc.devRef .tc main_v159) := by
  have h := ssa_main_v159 (F := F) (RV15 V)
  rw [unary_result] at h ⊢
  rw [lift16 V main_v159 (by decide), lift16 V main_cst_22 (by decide)]
  exact h

theorem ssa_main_v160 (V : Valuation τ sig (Elt F)) :
    after rops15 V (Proc.devRef .tc main_v160) = (StableHlo.binary main_v158 main_v159 main_v160 (cmpf .oge : (⟨S100000x64, .f32⟩ : BufTy).Contents (Elt F) → (⟨S100000x64, .f32⟩ : BufTy).Contents (Elt F) → (⟨S100000x64, .i1⟩ : BufTy).Contents (Elt F)) : HloOp τ sig (Elt F)).result (after rops15 V) (Proc.devRef .tc main_v160) := by
  after_results_simp
theorem fin_main_v160 (V : Valuation τ sig (Elt F)) :
    RV33 V (Proc.devRef .tc main_v160) = (StableHlo.binary main_v158 main_v159 main_v160 (cmpf .oge : (⟨S100000x64, .f32⟩ : BufTy).Contents (Elt F) → (⟨S100000x64, .f32⟩ : BufTy).Contents (Elt F) → (⟨S100000x64, .i1⟩ : BufTy).Contents (Elt F)) : HloOp τ sig (Elt F)).result (RV33 V) (Proc.devRef .tc main_v160) := by
  have h := ssa_main_v160 (F := F) (RV15 V)
  rw [binary_result] at h ⊢
  rw [lift16 V main_v160 (by decide), lift16 V main_v158 (by decide), lift16 V main_v159 (by decide)]
  exact h

theorem ssa_main_cst_23 (V : Valuation τ sig (Elt F)) :
    after rops15 V (Proc.devRef .tc main_cst_23) = (StableHlo.nullary main_cst_23 (constant S_ .f32 0x3C23D70A#32) : HloOp τ sig (Elt F)).result (after rops15 V) (Proc.devRef .tc main_cst_23) := by
  after_results_simp
theorem fin_main_cst_23 (V : Valuation τ sig (Elt F)) :
    RV33 V (Proc.devRef .tc main_cst_23) = (StableHlo.nullary main_cst_23 (constant S_ .f32 0x3C23D70A#32) : HloOp τ sig (Elt F)).result (RV33 V) (Proc.devRef .tc main_cst_23) := by
  have h := ssa_main_cst_23 (F := F) (RV15 V)
  rw [nullary_result] at h ⊢
  rw [lift16 V main_cst_23 (by decide)]
  exact h

theorem ssa_main_v161 (V : Valuation τ sig (Elt F)) :
    after rops15 V (Proc.devRef .tc main_v161) = (StableHlo.unary main_cst_23 main_v161 (broadcastInDim S100000x64 ![] bcast_S_S100000x64 : (⟨S_, .f32⟩ : BufTy).Contents (Elt F) → (⟨S100000x64, .f32⟩ : BufTy).Contents (Elt F)) : HloOp τ sig (Elt F)).result (after rops15 V) (Proc.devRef .tc main_v161) := by
  after_results_simp
theorem fin_main_v161 (V : Valuation τ sig (Elt F)) :
    RV33 V (Proc.devRef .tc main_v161) = (StableHlo.unary main_cst_23 main_v161 (broadcastInDim S100000x64 ![] bcast_S_S100000x64 : (⟨S_, .f32⟩ : BufTy).Contents (Elt F) → (⟨S100000x64, .f32⟩ : BufTy).Contents (Elt F)) : HloOp τ sig (Elt F)).result (RV33 V) (Proc.devRef .tc main_v161) := by
  have h := ssa_main_v161 (F := F) (RV15 V)
  rw [unary_result] at h ⊢
  rw [lift16 V main_v161 (by decide), lift16 V main_cst_23 (by decide)]
  exact h

theorem ssa_main_v162 (V : Valuation τ sig (Elt F)) :
    after rops15 V (Proc.devRef .tc main_v162) = (StableHlo.binary main_v161 main_v158 main_v162 (mulf : (⟨S100000x64, .f32⟩ : BufTy).Contents (Elt F) → (⟨S100000x64, .f32⟩ : BufTy).Contents (Elt F) → (⟨S100000x64, .f32⟩ : BufTy).Contents (Elt F)) : HloOp τ sig (Elt F)).result (after rops15 V) (Proc.devRef .tc main_v162) := by
  after_results_simp
theorem fin_main_v162 (V : Valuation τ sig (Elt F)) :
    RV33 V (Proc.devRef .tc main_v162) = (StableHlo.binary main_v161 main_v158 main_v162 (mulf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v162) := by
  have h := ssa_main_v162 (F := F) (RV15 V)
  rw [binary_result] at h ⊢
  rw [lift16 V main_v162 (by decide), lift16 V main_v161 (by decide), lift16 V main_v158 (by decide)]
  exact h

theorem ssa_main_v163 (V : Valuation τ sig (Elt F)) :
    after rops15 V (Proc.devRef .tc main_v163) = (StableHlo.TRef.ternary (.of main_v160) (.of main_v158) (.of main_v162) main_call7.v0 select : HloOp τ sig (Elt F)).result (after rops15 V) (Proc.devRef .tc main_v163) := by
  after_results_simp
theorem fin_main_v163 (V : Valuation τ sig (Elt F)) :
    RV33 V (Proc.devRef .tc main_v163) = (StableHlo.TRef.ternary (.of main_v160) (.of main_v158) (.of main_v162) main_call7.v0 select : HloOp τ sig (Elt F)).result (RV33 V) (Proc.devRef .tc main_v163) := by
  have h := ssa_main_v163 (F := F) (RV15 V)
  rw [ternary_result] at h ⊢
  rw [lift16 V main_v163 (by decide), lift16 V main_v160 (by decide), lift16 V main_v158 (by decide), lift16 V main_v162 (by decide)]
  exact h

theorem ssa_main_v164 (V : Valuation τ sig (Elt F)) :
    after rops15 V (Proc.devRef .tc main_v164) = (StableHlo.unary main_arg11 main_v164 ((extractStridedSlice S1x64x64 ![1, 0, 0] · slices_S3x64x64_S1x64x64_1_0_0) : (⟨S3x64x64, .f32⟩ : BufTy).Contents (Elt F) → (⟨S1x64x64, .f32⟩ : BufTy).Contents (Elt F)) : HloOp τ sig (Elt F)).result (after rops15 V) (Proc.devRef .tc main_v164) := by
  after_results_simp
theorem fin_main_v164 (V : Valuation τ sig (Elt F)) :
    RV33 V (Proc.devRef .tc main_v164) = (StableHlo.unary main_arg11 main_v164 ((extractStridedSlice S1x64x64 ![1, 0, 0] · slices_S3x64x64_S1x64x64_1_0_0) : (⟨S3x64x64, .f32⟩ : BufTy).Contents (Elt F) → (⟨S1x64x64, .f32⟩ : BufTy).Contents (Elt F)) : HloOp τ sig (Elt F)).result (RV33 V) (Proc.devRef .tc main_v164) := by
  have h := ssa_main_v164 (F := F) (RV15 V)
  rw [unary_result] at h ⊢
  rw [lift16 V main_v164 (by decide), lift16 V main_arg11 (by decide)]
  exact h

theorem ssa_main_v165 (V : Valuation τ sig (Elt F)) :
    after rops15 V (Proc.devRef .tc main_v165) = (StableHlo.reshape main_v164 main_v165 rfl shapeCasts_S1x64x64_S64x64 : HloOp τ sig (Elt F)).result (after rops15 V) (Proc.devRef .tc main_v165) := by
  after_results_simp
theorem fin_main_v165 (V : Valuation τ sig (Elt F)) :
    RV33 V (Proc.devRef .tc main_v165) = (StableHlo.reshape main_v164 main_v165 rfl shapeCasts_S1x64x64_S64x64 : HloOp τ sig (Elt F)).result (RV33 V) (Proc.devRef .tc main_v165) := by
  have h := ssa_main_v165 (F := F) (RV15 V)
  rw [reshape_result] at h ⊢
  rw [lift16 V main_v165 (by decide), lift16 V main_v164 (by decide)]
  exact h

theorem ssa_main_v166 (V : Valuation τ sig (Elt F)) :
    after rops15 V (Proc.devRef .tc main_v166) = (StableHlo.binary main_v163 main_v165 main_v166 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) : HloOp τ sig (Elt F)).result (after rops15 V) (Proc.devRef .tc main_v166) := by
  after_results_simp
theorem fin_main_v166 (V : Valuation τ sig (Elt F)) :
    RV33 V (Proc.devRef .tc main_v166) = (StableHlo.binary main_v163 main_v165 main_v166 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) : HloOp τ sig (Elt F)).result (RV33 V) (Proc.devRef .tc main_v166) := by
  have h := ssa_main_v166 (F := F) (RV15 V)
  rw [binary_result] at h ⊢
  rw [lift16 V main_v166 (by decide), lift16 V main_v163 (by decide), lift16 V main_v165 (by decide)]
  exact h

theorem ssa_main_v167 (V : Valuation τ sig (Elt F)) :
    after rops15 V (Proc.devRef .tc main_v167) = (StableHlo.unary main_arg12 main_v167 ((extractStridedSlice S1x64 ![1, 0] · slices_S3x64_S1x64_1_0) : (⟨S3x64, .f32⟩ : BufTy).Contents (Elt F) → (⟨S1x64, .f32⟩ : BufTy).Contents (Elt F)) : HloOp τ sig (Elt F)).result (after rops15 V) (Proc.devRef .tc main_v167) := by
  after_results_simp
theorem fin_main_v167 (V : Valuation τ sig (Elt F)) :
    RV33 V (Proc.devRef .tc main_v167) = (StableHlo.unary main_arg12 main_v167 ((extractStridedSlice S1x64 ![1, 0] · slices_S3x64_S1x64_1_0) : (⟨S3x64, .f32⟩ : BufTy).Contents (Elt F) → (⟨S1x64, .f32⟩ : BufTy).Contents (Elt F)) : HloOp τ sig (Elt F)).result (RV33 V) (Proc.devRef .tc main_v167) := by
  have h := ssa_main_v167 (F := F) (RV15 V)
  rw [unary_result] at h ⊢
  rw [lift16 V main_v167 (by decide), lift16 V main_arg12 (by decide)]
  exact h

theorem ssa_main_v168 (V : Valuation τ sig (Elt F)) :
    after rops15 V (Proc.devRef .tc main_v168) = (StableHlo.reshape main_v167 main_v168 rfl shapeCasts_S1x64_S64 : HloOp τ sig (Elt F)).result (after rops15 V) (Proc.devRef .tc main_v168) := by
  after_results_simp
theorem fin_main_v168 (V : Valuation τ sig (Elt F)) :
    RV33 V (Proc.devRef .tc main_v168) = (StableHlo.reshape main_v167 main_v168 rfl shapeCasts_S1x64_S64 : HloOp τ sig (Elt F)).result (RV33 V) (Proc.devRef .tc main_v168) := by
  have h := ssa_main_v168 (F := F) (RV15 V)
  rw [reshape_result] at h ⊢
  rw [lift16 V main_v168 (by decide), lift16 V main_v167 (by decide)]
  exact h

theorem ssa_main_v169 (V : Valuation τ sig (Elt F)) :
    after rops15 V (Proc.devRef .tc main_v169) = (StableHlo.unary main_v168 main_v169 (broadcastInDim S1x64 ![1] bcast_S64_S1x64_1 : (⟨S64, .f32⟩ : BufTy).Contents (Elt F) → (⟨S1x64, .f32⟩ : BufTy).Contents (Elt F)) : HloOp τ sig (Elt F)).result (after rops15 V) (Proc.devRef .tc main_v169) := by
  after_results_simp
theorem fin_main_v169 (V : Valuation τ sig (Elt F)) :
    RV33 V (Proc.devRef .tc main_v169) = (StableHlo.unary main_v168 main_v169 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v169) := by
  have h := ssa_main_v169 (F := F) (RV15 V)
  rw [unary_result] at h ⊢
  rw [lift16 V main_v169 (by decide), lift16 V main_v168 (by decide)]
  exact h

theorem ssa_main_v170 (V : Valuation τ sig (Elt F)) :
    after rops15 V (Proc.devRef .tc main_v170) = (StableHlo.unary main_v169 main_v170 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops15 V) (Proc.devRef .tc main_v170) := by
  after_results_simp
theorem fin_main_v170 (V : Valuation τ sig (Elt F)) :
    RV33 V (Proc.devRef .tc main_v170) = (StableHlo.unary main_v169 main_v170 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v170) := by
  have h := ssa_main_v170 (F := F) (RV15 V)
  rw [unary_result] at h ⊢
  rw [lift16 V main_v170 (by decide), lift16 V main_v169 (by decide)]
  exact h

theorem ssa_main_v171 (V : Valuation τ sig (Elt F)) :
    after rops15 V (Proc.devRef .tc main_v171) = (StableHlo.binary main_v166 main_v170 main_v171 (addf : (⟨S100000x64, .f32⟩ : BufTy).Contents (Elt F) → (⟨S100000x64, .f32⟩ : BufTy).Contents (Elt F) → (⟨S100000x64, .f32⟩ : BufTy).Contents (Elt F)) : HloOp τ sig (Elt F)).result (after rops15 V) (Proc.devRef .tc main_v171) := by
  after_results_simp
theorem fin_main_v171 (V : Valuation τ sig (Elt F)) :
    RV33 V (Proc.devRef .tc main_v171) = (StableHlo.binary main_v166 main_v170 main_v171 (addf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v171) := by
  have h := ssa_main_v171 (F := F) (RV15 V)
  rw [binary_result] at h ⊢
  rw [lift16 V main_v171 (by decide), lift16 V main_v166 (by decide), lift16 V main_v170 (by decide)]
  exact h

theorem ssa_main_v172 (V : Valuation τ sig (Elt F)) :
    after rops15 V (Proc.devRef .tc main_v172) = (StableHlo.unary main_arg13 main_v172 ((extractStridedSlice S1x64 ![1, 0] · slices_S2x64_S1x64_1_0) : (⟨S2x64, .f32⟩ : BufTy).Contents (Elt F) → (⟨S1x64, .f32⟩ : BufTy).Contents (Elt F)) : HloOp τ sig (Elt F)).result (after rops15 V) (Proc.devRef .tc main_v172) := by
  after_results_simp
theorem fin_main_v172 (V : Valuation τ sig (Elt F)) :
    RV33 V (Proc.devRef .tc main_v172) = (StableHlo.unary main_arg13 main_v172 ((extractStridedSlice S1x64 ![1, 0] · slices_S2x64_S1x64_1_0) : (⟨S2x64, .f32⟩ : BufTy).Contents (Elt F) → (⟨S1x64, .f32⟩ : BufTy).Contents (Elt F)) : HloOp τ sig (Elt F)).result (RV33 V) (Proc.devRef .tc main_v172) := by
  have h := ssa_main_v172 (F := F) (RV15 V)
  rw [unary_result] at h ⊢
  rw [lift16 V main_v172 (by decide), lift16 V main_arg13 (by decide)]
  exact h

theorem ssa_main_v173 (V : Valuation τ sig (Elt F)) :
    after rops15 V (Proc.devRef .tc main_v173) = (StableHlo.reshape main_v172 main_v173 rfl shapeCasts_S1x64_S64 : HloOp τ sig (Elt F)).result (after rops15 V) (Proc.devRef .tc main_v173) := by
  after_results_simp
theorem fin_main_v173 (V : Valuation τ sig (Elt F)) :
    RV33 V (Proc.devRef .tc main_v173) = (StableHlo.reshape main_v172 main_v173 rfl shapeCasts_S1x64_S64 : HloOp τ sig (Elt F)).result (RV33 V) (Proc.devRef .tc main_v173) := by
  have h := ssa_main_v173 (F := F) (RV15 V)
  rw [reshape_result] at h ⊢
  rw [lift16 V main_v173 (by decide), lift16 V main_v172 (by decide)]
  exact h

theorem ssa_main_v174 (V : Valuation τ sig (Elt F)) :
    after rops16 V (Proc.devRef .tc main_v174) = (StableHlo.unary main_arg14 main_v174 ((extractStridedSlice S1x64 ![1, 0] · slices_S2x64_S1x64_1_0) : (⟨S2x64, .f32⟩ : BufTy).Contents (Elt F) → (⟨S1x64, .f32⟩ : BufTy).Contents (Elt F)) : HloOp τ sig (Elt F)).result (after rops16 V) (Proc.devRef .tc main_v174) := by
  after_results_simp
theorem fin_main_v174 (V : Valuation τ sig (Elt F)) :
    RV33 V (Proc.devRef .tc main_v174) = (StableHlo.unary main_arg14 main_v174 ((extractStridedSlice S1x64 ![1, 0] · slices_S2x64_S1x64_1_0) : (⟨S2x64, .f32⟩ : BufTy).Contents (Elt F) → (⟨S1x64, .f32⟩ : BufTy).Contents (Elt F)) : HloOp τ sig (Elt F)).result (RV33 V) (Proc.devRef .tc main_v174) := by
  have h := ssa_main_v174 (F := F) (RV16 V)
  rw [unary_result] at h ⊢
  rw [lift17 V main_v174 (by decide), lift17 V main_arg14 (by decide)]
  exact h

theorem ssa_main_v175 (V : Valuation τ sig (Elt F)) :
    after rops16 V (Proc.devRef .tc main_v175) = (StableHlo.reshape main_v174 main_v175 rfl shapeCasts_S1x64_S64 : HloOp τ sig (Elt F)).result (after rops16 V) (Proc.devRef .tc main_v175) := by
  after_results_simp
theorem fin_main_v175 (V : Valuation τ sig (Elt F)) :
    RV33 V (Proc.devRef .tc main_v175) = (StableHlo.reshape main_v174 main_v175 rfl shapeCasts_S1x64_S64 : HloOp τ sig (Elt F)).result (RV33 V) (Proc.devRef .tc main_v175) := by
  have h := ssa_main_v175 (F := F) (RV16 V)
  rw [reshape_result] at h ⊢
  rw [lift17 V main_v175 (by decide), lift17 V main_v174 (by decide)]
  exact h

theorem ssa_main_cst_24 (V : Valuation τ sig (Elt F)) :
    after rops16 V (Proc.devRef .tc main_cst_24) = (StableHlo.nullary main_cst_24 (constant S_ .f32 0x00000000#32) : HloOp τ sig (Elt F)).result (after rops16 V) (Proc.devRef .tc main_cst_24) := by
  after_results_simp
theorem fin_main_cst_24 (V : Valuation τ sig (Elt F)) :
    RV33 V (Proc.devRef .tc main_cst_24) = (StableHlo.nullary main_cst_24 (constant S_ .f32 0x00000000#32) : HloOp τ sig (Elt F)).result (RV33 V) (Proc.devRef .tc main_cst_24) := by
  have h := ssa_main_cst_24 (F := F) (RV16 V)
  rw [nullary_result] at h ⊢
  rw [lift17 V main_cst_24 (by decide)]
  exact h

theorem ssa_main_v176 (V : Valuation τ sig (Elt F)) :
    after rops16 V (Proc.devRef .tc main_v176) = (StableHlo.binary main_v171 main_cst_24 main_v176 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) : HloOp τ sig (Elt F)).result (after rops16 V) (Proc.devRef .tc main_v176) := by
  after_results_simp
theorem fin_main_v176 (V : Valuation τ sig (Elt F)) :
    RV33 V (Proc.devRef .tc main_v176) = (StableHlo.binary main_v171 main_cst_24 main_v176 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) : HloOp τ sig (Elt F)).result (RV33 V) (Proc.devRef .tc main_v176) := by
  have h := ssa_main_v176 (F := F) (RV16 V)
  rw [binary_result] at h ⊢
  rw [lift17 V main_v176 (by decide), lift17 V main_v171 (by decide), lift17 V main_cst_24 (by decide)]
  exact h

theorem ssa_main_cst_25 (V : Valuation τ sig (Elt F)) :
    after rops16 V (Proc.devRef .tc main_cst_25) = (StableHlo.nullary main_cst_25 (constant S_ .f32 0x47C35000#32) : HloOp τ sig (Elt F)).result (after rops16 V) (Proc.devRef .tc main_cst_25) := by
  after_results_simp
theorem fin_main_cst_25 (V : Valuation τ sig (Elt F)) :
    RV33 V (Proc.devRef .tc main_cst_25) = (StableHlo.nullary main_cst_25 (constant S_ .f32 0x47C35000#32) : HloOp τ sig (Elt F)).result (RV33 V) (Proc.devRef .tc main_cst_25) := by
  have h := ssa_main_cst_25 (F := F) (RV16 V)
  rw [nullary_result] at h ⊢
  rw [lift17 V main_cst_25 (by decide)]
  exact h

theorem ssa_main_v177 (V : Valuation τ sig (Elt F)) :
    after rops16 V (Proc.devRef .tc main_v177) = (StableHlo.unary main_cst_25 main_v177 (broadcastInDim S64 ![] bcast_S_S64 : (⟨S_, .f32⟩ : BufTy).Contents (Elt F) → (⟨S64, .f32⟩ : BufTy).Contents (Elt F)) : HloOp τ sig (Elt F)).result (after rops16 V) (Proc.devRef .tc main_v177) := by
  after_results_simp
theorem fin_main_v177 (V : Valuation τ sig (Elt F)) :
    RV33 V (Proc.devRef .tc main_v177) = (StableHlo.unary main_cst_25 main_v177 (broadcastInDim S64 ![] bcast_S_S64 : (⟨S_, .f32⟩ : BufTy).Contents (Elt F) → (⟨S64, .f32⟩ : BufTy).Contents (Elt F)) : HloOp τ sig (Elt F)).result (RV33 V) (Proc.devRef .tc main_v177) := by
  have h := ssa_main_v177 (F := F) (RV16 V)
  rw [unary_result] at h ⊢
  rw [lift17 V main_v177 (by decide), lift17 V main_cst_25 (by decide)]
  exact h

theorem ssa_main_v178 (V : Valuation τ sig (Elt F)) :
    after rops16 V (Proc.devRef .tc main_v178) = (StableHlo.binary main_v176 main_v177 main_v178 (Host.divf : (⟨S64, .f32⟩ : BufTy).Contents (Elt F) → (⟨S64, .f32⟩ : BufTy).Contents (Elt F) → (⟨S64, .f32⟩ : BufTy).Contents (Elt F)) : HloOp τ sig (Elt F)).result (after rops16 V) (Proc.devRef .tc main_v178) := by
  after_results_simp
theorem fin_main_v178 (V : Valuation τ sig (Elt F)) :
    RV33 V (Proc.devRef .tc main_v178) = (StableHlo.binary main_v176 main_v177 main_v178 (Host.divf : (⟨S64, .f32⟩ : BufTy).Contents (Elt F) → (⟨S64, .f32⟩ : BufTy).Contents (Elt F) → (⟨S64, .f32⟩ : BufTy).Contents (Elt F)) : HloOp τ sig (Elt F)).result (RV33 V) (Proc.devRef .tc main_v178) := by
  have h := ssa_main_v178 (F := F) (RV16 V)
  rw [binary_result] at h ⊢
  rw [lift17 V main_v178 (by decide), lift17 V main_v176 (by decide), lift17 V main_v177 (by decide)]
  exact h

theorem ssa_main_c_26 (V : Valuation τ sig (Elt F)) :
    after rops16 V (Proc.devRef .tc main_c_26) = (StableHlo.nullary main_c_26 (constantI S_ 32 0#32) : HloOp τ sig (Elt F)).result (after rops16 V) (Proc.devRef .tc main_c_26) := by
  after_results_simp
theorem fin_main_c_26 (V : Valuation τ sig (Elt F)) :
    RV33 V (Proc.devRef .tc main_c_26) = (StableHlo.nullary main_c_26 (constantI S_ 32 0#32) : HloOp τ sig (Elt F)).result (RV33 V) (Proc.devRef .tc main_c_26) := by
  have h := ssa_main_c_26 (F := F) (RV16 V)
  rw [nullary_result] at h ⊢
  rw [lift17 V main_c_26 (by decide)]
  exact h

theorem ssa_main_call8_cst (V : Valuation τ sig (Elt F)) :
    after rops16 V (Proc.devRef .tc main_call8_cst) = (StableHlo.TRef.nullary main_call8.cst (constant S_ .f32 0x00000000#32) : HloOp τ sig (Elt F)).result (after rops16 V) (Proc.devRef .tc main_call8_cst) := by
  after_results_simp
theorem fin_main_call8_cst (V : Valuation τ sig (Elt F)) :
    RV33 V (Proc.devRef .tc main_call8_cst) = (StableHlo.TRef.nullary main_call8.cst (constant S_ .f32 0x00000000#32) : HloOp τ sig (Elt F)).result (RV33 V) (Proc.devRef .tc main_call8_cst) := by
  have h := ssa_main_call8_cst (F := F) (RV16 V)
  rw [nullary_result] at h ⊢
  rw [lift17 V main_call8_cst (by decide)]
  exact h

theorem ssa_main_call8_v0 (V : Valuation τ sig (Elt F)) :
    after rops16 V (Proc.devRef .tc main_call8_v0) = (StableHlo.TRef.binary (.of main_v171) main_call8.cst main_call8.v0 (fun x v => Host.reduceAdd x v reducesTo_S100000x64_S64_d0 h_S_) : HloOp τ sig (Elt F)).result (after rops16 V) (Proc.devRef .tc main_call8_v0) := by
  after_results_simp
theorem fin_main_call8_v0 (V : Valuation τ sig (Elt F)) :
    RV33 V (Proc.devRef .tc main_call8_v0) = (StableHlo.TRef.binary (.of main_v171) main_call8.cst main_call8.v0 (fun x v => Host.reduceAdd x v reducesTo_S100000x64_S64_d0 h_S_) : HloOp τ sig (Elt F)).result (RV33 V) (Proc.devRef .tc main_call8_v0) := by
  have h := ssa_main_call8_v0 (F := F) (RV16 V)
  rw [binary_result] at h ⊢
  rw [lift17 V main_call8_v0 (by decide), lift17 V main_v171 (by decide), lift17 V main_call8_cst (by decide)]
  exact h

theorem ssa_main_call8_v1 (V : Valuation τ sig (Elt F)) :
    after rops16 V (Proc.devRef .tc main_call8_v1) = (StableHlo.TRef.unary main_call8.v0 main_call8.v1 (broadcastInDim S1x64 ![1] bcast_S64_S1x64_1) : HloOp τ sig (Elt F)).result (after rops16 V) (Proc.devRef .tc main_call8_v1) := by
  after_results_simp
theorem fin_main_call8_v1 (V : Valuation τ sig (Elt F)) :
    RV33 V (Proc.devRef .tc main_call8_v1) = (StableHlo.TRef.unary main_call8.v0 main_call8.v1 (broadcastInDim S1x64 ![1] bcast_S64_S1x64_1) : HloOp τ sig (Elt F)).result (RV33 V) (Proc.devRef .tc main_call8_v1) := by
  have h := ssa_main_call8_v1 (F := F) (RV16 V)
  rw [unary_result] at h ⊢
  rw [lift17 V main_call8_v1 (by decide), lift17 V main_call8_v0 (by decide)]
  exact h

theorem ssa_main_call8_cst_0 (V : Valuation τ sig (Elt F)) :
    after rops16 V (Proc.devRef .tc main_call8_cst_0) = (StableHlo.TRef.nullary main_call8.cst_0 (constant S_ .f32 0x47C35000#32) : HloOp τ sig (Elt F)).result (after rops16 V) (Proc.devRef .tc main_call8_cst_0) := by
  after_results_simp
theorem fin_main_call8_cst_0 (V : Valuation τ sig (Elt F)) :
    RV33 V (Proc.devRef .tc main_call8_cst_0) = (StableHlo.TRef.nullary main_call8.cst_0 (constant S_ .f32 0x47C35000#32) : HloOp τ sig (Elt F)).result (RV33 V) (Proc.devRef .tc main_call8_cst_0) := by
  have h := ssa_main_call8_cst_0 (F := F) (RV16 V)
  rw [nullary_result] at h ⊢
  rw [lift17 V main_call8_cst_0 (by decide)]
  exact h

theorem ssa_main_call8_v2 (V : Valuation τ sig (Elt F)) :
    after rops16 V (Proc.devRef .tc main_call8_v2) = (StableHlo.TRef.unary main_call8.cst_0 main_call8.v2 (broadcastInDim S1x64 ![] bcast_S_S1x64) : HloOp τ sig (Elt F)).result (after rops16 V) (Proc.devRef .tc main_call8_v2) := by
  after_results_simp
theorem fin_main_call8_v2 (V : Valuation τ sig (Elt F)) :
    RV33 V (Proc.devRef .tc main_call8_v2) = (StableHlo.TRef.unary main_call8.cst_0 main_call8.v2 (broadcastInDim S1x64 ![] bcast_S_S1x64) : HloOp τ sig (Elt F)).result (RV33 V) (Proc.devRef .tc main_call8_v2) := by
  have h := ssa_main_call8_v2 (F := F) (RV16 V)
  rw [unary_result] at h ⊢
  rw [lift17 V main_call8_v2 (by decide), lift17 V main_call8_cst_0 (by decide)]
  exact h

theorem ssa_main_call8_v3 (V : Valuation τ sig (Elt F)) :
    after rops16 V (Proc.devRef .tc main_call8_v3) = (StableHlo.TRef.binary main_call8.v1 main_call8.v2 main_call8.v3 Host.divf : HloOp τ sig (Elt F)).result (after rops16 V) (Proc.devRef .tc main_call8_v3) := by
  after_results_simp
theorem fin_main_call8_v3 (V : Valuation τ sig (Elt F)) :
    RV33 V (Proc.devRef .tc main_call8_v3) = (StableHlo.TRef.binary main_call8.v1 main_call8.v2 main_call8.v3 Host.divf : HloOp τ sig (Elt F)).result (RV33 V) (Proc.devRef .tc main_call8_v3) := by
  have h := ssa_main_call8_v3 (F := F) (RV16 V)
  rw [binary_result] at h ⊢
  rw [lift17 V main_call8_v3 (by decide), lift17 V main_call8_v1 (by decide), lift17 V main_call8_v2 (by decide)]
  exact h

theorem ssa_main_call8_v4 (V : Valuation τ sig (Elt F)) :
    after rops16 V (Proc.devRef .tc main_call8_v4) = (StableHlo.TRef.unary main_call8.v3 main_call8.v4 (broadcastInDim S100000x64 ![0, 1] bcast_S1x64_S100000x64_0_1) : HloOp τ sig (Elt F)).result (after rops16 V) (Proc.devRef .tc main_call8_v4) := by
  after_results_simp
theorem fin_main_call8_v4 (V : Valuation τ sig (Elt F)) :
    RV33 V (Proc.devRef .tc main_call8_v4) = (StableHlo.TRef.unary main_call8.v3 main_call8.v4 (broadcastInDim S100000x64 ![0, 1] bcast_S1x64_S100000x64_0_1) : HloOp τ sig (Elt F)).result (RV33 V) (Proc.devRef .tc main_call8_v4) := by
  have h := ssa_main_call8_v4 (F := F) (RV16 V)
  rw [unary_result] at h ⊢
  rw [lift17 V main_call8_v4 (by decide), lift17 V main_call8_v3 (by decide)]
  exact h

theorem ssa_main_call8_v5 (V : Valuation τ sig (Elt F)) :
    after rops16 V (Proc.devRef .tc main_call8_v5) = (StableHlo.TRef.binary (.of main_v171) main_call8.v4 main_call8.v5 subf : HloOp τ sig (Elt F)).result (after rops16 V) (Proc.devRef .tc main_call8_v5) := by
  after_results_simp
theorem fin_main_call8_v5 (V : Valuation τ sig (Elt F)) :
    RV33 V (Proc.devRef .tc main_call8_v5) = (StableHlo.TRef.binary (.of main_v171) main_call8.v4 main_call8.v5 subf : HloOp τ sig (Elt F)).result (RV33 V) (Proc.devRef .tc main_call8_v5) := by
  have h := ssa_main_call8_v5 (F := F) (RV16 V)
  rw [binary_result] at h ⊢
  rw [lift17 V main_call8_v5 (by decide), lift17 V main_v171 (by decide), lift17 V main_call8_v4 (by decide)]
  exact h

theorem ssa_main_call8_v6 (V : Valuation τ sig (Elt F)) :
    after rops16 V (Proc.devRef .tc main_call8_v6) = (StableHlo.TRef.binary main_call8.v5 main_call8.v5 main_call8.v6 mulf : HloOp τ sig (Elt F)).result (after rops16 V) (Proc.devRef .tc main_call8_v6) := by
  after_results_simp
theorem fin_main_call8_v6 (V : Valuation τ sig (Elt F)) :
    RV33 V (Proc.devRef .tc main_call8_v6) = (StableHlo.TRef.binary main_call8.v5 main_call8.v5 main_call8.v6 mulf : HloOp τ sig (Elt F)).result (RV33 V) (Proc.devRef .tc main_call8_v6) := by
  have h := ssa_main_call8_v6 (F := F) (RV16 V)
  rw [binary_result] at h ⊢
  rw [lift17 V main_call8_v6 (by decide), lift17 V main_call8_v5 (by decide)]
  exact h

theorem ssa_main_call8_v7 (V : Valuation τ sig (Elt F)) :
    after rops16 V (Proc.devRef .tc main_call8_v7) = (StableHlo.TRef.unary (.of main_c_26) main_call8.v7 (sitofp .f32) : HloOp τ sig (Elt F)).result (after rops16 V) (Proc.devRef .tc main_call8_v7) := by
  after_results_simp
theorem fin_main_call8_v7 (V : Valuation τ sig (Elt F)) :
    RV33 V (Proc.devRef .tc main_call8_v7) = (StableHlo.TRef.unary (.of main_c_26) main_call8.v7 (sitofp .f32) : HloOp τ sig (Elt F)).result (RV33 V) (Proc.devRef .tc main_call8_v7) := by
  have h := ssa_main_call8_v7 (F := F) (RV16 V)
  rw [unary_result] at h ⊢
  rw [lift17 V main_call8_v7 (by decide), lift17 V main_c_26 (by decide)]
  exact h

theorem ssa_main_call8_cst_1 (V : Valuation τ sig (Elt F)) :
    after rops16 V (Proc.devRef .tc main_call8_cst_1) = (StableHlo.TRef.nullary main_call8.cst_1 (constant S_ .f32 0x47C35000#32) : HloOp τ sig (Elt F)).result (after rops16 V) (Proc.devRef .tc main_call8_cst_1) := by
  after_results_simp
theorem fin_main_call8_cst_1 (V : Valuation τ sig (Elt F)) :
    RV33 V (Proc.devRef .tc main_call8_cst_1) = (StableHlo.TRef.nullary main_call8.cst_1 (constant S_ .f32 0x47C35000#32) : HloOp τ sig (Elt F)).result (RV33 V) (Proc.devRef .tc main_call8_cst_1) := by
  have h := ssa_main_call8_cst_1 (F := F) (RV16 V)
  rw [nullary_result] at h ⊢
  rw [lift17 V main_call8_cst_1 (by decide)]
  exact h

theorem ssa_main_call8_v8 (V : Valuation τ sig (Elt F)) :
    after rops16 V (Proc.devRef .tc main_call8_v8) = (StableHlo.TRef.binary main_call8.cst_1 main_call8.v7 main_call8.v8 subf : HloOp τ sig (Elt F)).result (after rops16 V) (Proc.devRef .tc main_call8_v8) := by
  after_results_simp
theorem fin_main_call8_v8 (V : Valuation τ sig (Elt F)) :
    RV33 V (Proc.devRef .tc main_call8_v8) = (StableHlo.TRef.binary main_call8.cst_1 main_call8.v7 main_call8.v8 subf : HloOp τ sig (Elt F)).result (RV33 V) (Proc.devRef .tc main_call8_v8) := by
  have h := ssa_main_call8_v8 (F := F) (RV16 V)
  rw [binary_result] at h ⊢
  rw [lift17 V main_call8_v8 (by decide), lift17 V main_call8_cst_1 (by decide), lift17 V main_call8_v7 (by decide)]
  exact h

theorem ssa_main_call8_cst_2 (V : Valuation τ sig (Elt F)) :
    after rops17 V (Proc.devRef .tc main_call8_cst_2) = (StableHlo.TRef.nullary main_call8.cst_2 (constant S_ .f32 0x00000000#32) : HloOp τ sig (Elt F)).result (after rops17 V) (Proc.devRef .tc main_call8_cst_2) := by
  after_results_simp
theorem fin_main_call8_cst_2 (V : Valuation τ sig (Elt F)) :
    RV33 V (Proc.devRef .tc main_call8_cst_2) = (StableHlo.TRef.nullary main_call8.cst_2 (constant S_ .f32 0x00000000#32) : HloOp τ sig (Elt F)).result (RV33 V) (Proc.devRef .tc main_call8_cst_2) := by
  have h := ssa_main_call8_cst_2 (F := F) (RV17 V)
  rw [nullary_result] at h ⊢
  rw [lift18 V main_call8_cst_2 (by decide)]
  exact h

theorem ssa_main_call8_v9 (V : Valuation τ sig (Elt F)) :
    after rops17 V (Proc.devRef .tc main_call8_v9) = (StableHlo.TRef.binary main_call8.v6 main_call8.cst_2 main_call8.v9 (fun x v => Host.reduceAdd x v reducesTo_S100000x64_S64_d0 h_S_) : HloOp τ sig (Elt F)).result (after rops17 V) (Proc.devRef .tc main_call8_v9) := by
  after_results_simp
theorem fin_main_call8_v9 (V : Valuation τ sig (Elt F)) :
    RV33 V (Proc.devRef .tc main_call8_v9) = (StableHlo.TRef.binary main_call8.v6 main_call8.cst_2 main_call8.v9 (fun x v => Host.reduceAdd x v reducesTo_S100000x64_S64_d0 h_S_) : HloOp τ sig (Elt F)).result (RV33 V) (Proc.devRef .tc main_call8_v9) := by
  have h := ssa_main_call8_v9 (F := F) (RV17 V)
  rw [binary_result] at h ⊢
  rw [lift18 V main_call8_v9 (by decide), lift18 V main_call8_v6 (by decide), lift18 V main_call8_cst_2 (by decide)]
  exact h

theorem ssa_main_call8_v10 (V : Valuation τ sig (Elt F)) :
    after rops17 V (Proc.devRef .tc main_call8_v10) = (StableHlo.TRef.unary main_call8.v8 main_call8.v10 (broadcastInDim S64 ![] bcast_S_S64) : HloOp τ sig (Elt F)).result (after rops17 V) (Proc.devRef .tc main_call8_v10) := by
  after_results_simp
theorem fin_main_call8_v10 (V : Valuation τ sig (Elt F)) :
    RV33 V (Proc.devRef .tc main_call8_v10) = (StableHlo.TRef.unary main_call8.v8 main_call8.v10 (broadcastInDim S64 ![] bcast_S_S64) : HloOp τ sig (Elt F)).result (RV33 V) (Proc.devRef .tc main_call8_v10) := by
  have h := ssa_main_call8_v10 (F := F) (RV17 V)
  rw [unary_result] at h ⊢
  rw [lift18 V main_call8_v10 (by decide), lift18 V main_call8_v8 (by decide)]
  exact h

theorem ssa_main_call8_v11 (V : Valuation τ sig (Elt F)) :
    after rops17 V (Proc.devRef .tc main_call8_v11) = (StableHlo.TRef.binary main_call8.v9 main_call8.v10 main_call8.v11 Host.divf : HloOp τ sig (Elt F)).result (after rops17 V) (Proc.devRef .tc main_call8_v11) := by
  after_results_simp
theorem fin_main_call8_v11 (V : Valuation τ sig (Elt F)) :
    RV33 V (Proc.devRef .tc main_call8_v11) = (StableHlo.TRef.binary main_call8.v9 main_call8.v10 main_call8.v11 Host.divf : HloOp τ sig (Elt F)).result (RV33 V) (Proc.devRef .tc main_call8_v11) := by
  have h := ssa_main_call8_v11 (F := F) (RV17 V)
  rw [binary_result] at h ⊢
  rw [lift18 V main_call8_v11 (by decide), lift18 V main_call8_v9 (by decide), lift18 V main_call8_v10 (by decide)]
  exact h

theorem ssa_main_call8_cst_3 (V : Valuation τ sig (Elt F)) :
    after rops17 V (Proc.devRef .tc main_call8_cst_3) = (StableHlo.TRef.nullary main_call8.cst_3 (constant S_ .f32 0x00000000#32) : HloOp τ sig (Elt F)).result (after rops17 V) (Proc.devRef .tc main_call8_cst_3) := by
  after_results_simp
theorem fin_main_call8_cst_3 (V : Valuation τ sig (Elt F)) :
    RV33 V (Proc.devRef .tc main_call8_cst_3) = (StableHlo.TRef.nullary main_call8.cst_3 (constant S_ .f32 0x00000000#32) : HloOp τ sig (Elt F)).result (RV33 V) (Proc.devRef .tc main_call8_cst_3) := by
  have h := ssa_main_call8_cst_3 (F := F) (RV17 V)
  rw [nullary_result] at h ⊢
  rw [lift18 V main_call8_cst_3 (by decide)]
  exact h

theorem ssa_main_call8_v12 (V : Valuation τ sig (Elt F)) :
    after rops17 V (Proc.devRef .tc main_call8_v12) = (StableHlo.TRef.binary main_call8.v8 main_call8.cst_3 main_call8.v12 (cmpf .ogt) : HloOp τ sig (Elt F)).result (after rops17 V) (Proc.devRef .tc main_call8_v12) := by
  after_results_simp
theorem fin_main_call8_v12 (V : Valuation τ sig (Elt F)) :
    RV33 V (Proc.devRef .tc main_call8_v12) = (StableHlo.TRef.binary main_call8.v8 main_call8.cst_3 main_call8.v12 (cmpf .ogt) : HloOp τ sig (Elt F)).result (RV33 V) (Proc.devRef .tc main_call8_v12) := by
  have h := ssa_main_call8_v12 (F := F) (RV17 V)
  rw [binary_result] at h ⊢
  rw [lift18 V main_call8_v12 (by decide), lift18 V main_call8_v8 (by decide), lift18 V main_call8_cst_3 (by decide)]
  exact h

theorem ssa_main_call8_cst_4 (V : Valuation τ sig (Elt F)) :
    after rops17 V (Proc.devRef .tc main_call8_cst_4) = (StableHlo.TRef.nullary main_call8.cst_4 (constant S_ .f32 0x7FC00000#32) : HloOp τ sig (Elt F)).result (after rops17 V) (Proc.devRef .tc main_call8_cst_4) := by
  after_results_simp
theorem fin_main_call8_cst_4 (V : Valuation τ sig (Elt F)) :
    RV33 V (Proc.devRef .tc main_call8_cst_4) = (StableHlo.TRef.nullary main_call8.cst_4 (constant S_ .f32 0x7FC00000#32) : HloOp τ sig (Elt F)).result (RV33 V) (Proc.devRef .tc main_call8_cst_4) := by
  have h := ssa_main_call8_cst_4 (F := F) (RV17 V)
  rw [nullary_result] at h ⊢
  rw [lift18 V main_call8_cst_4 (by decide)]
  exact h

theorem ssa_main_call8_call0_v0 (V : Valuation τ sig (Elt F)) :
    after rops17 V (Proc.devRef .tc main_call8_call0_v0) = (StableHlo.TRef.unary main_call8.cst_4 main_call8.call0.v0 id : HloOp τ sig (Elt F)).result (after rops17 V) (Proc.devRef .tc main_call8_call0_v0) := by
  after_results_simp
theorem fin_main_call8_call0_v0 (V : Valuation τ sig (Elt F)) :
    RV33 V (Proc.devRef .tc main_call8_call0_v0) = (StableHlo.TRef.unary main_call8.cst_4 main_call8.call0.v0 id : HloOp τ sig (Elt F)).result (RV33 V) (Proc.devRef .tc main_call8_call0_v0) := by
  have h := ssa_main_call8_call0_v0 (F := F) (RV17 V)
  rw [unary_result] at h ⊢
  rw [lift18 V main_call8_call0_v0 (by decide), lift18 V main_call8_cst_4 (by decide)]
  exact h

theorem ssa_main_call8_call0_v1 (V : Valuation τ sig (Elt F)) :
    after rops17 V (Proc.devRef .tc main_call8_call0_v1) = (StableHlo.TRef.unary main_call8.call0.v0 main_call8.call0.v1 (broadcastInDim S64 ![] bcast_S_S64) : HloOp τ sig (Elt F)).result (after rops17 V) (Proc.devRef .tc main_call8_call0_v1) := by
  after_results_simp
theorem fin_main_call8_call0_v1 (V : Valuation τ sig (Elt F)) :
    RV33 V (Proc.devRef .tc main_call8_call0_v1) = (StableHlo.TRef.unary main_call8.call0.v0 main_call8.call0.v1 (broadcastInDim S64 ![] bcast_S_S64) : HloOp τ sig (Elt F)).result (RV33 V) (Proc.devRef .tc main_call8_call0_v1) := by
  have h := ssa_main_call8_call0_v1 (F := F) (RV17 V)
  rw [unary_result] at h ⊢
  rw [lift18 V main_call8_call0_v1 (by decide), lift18 V main_call8_call0_v0 (by decide)]
  exact h

theorem ssa_main_v179 (V : Valuation τ sig (Elt F)) :
    after rops17 V (Proc.devRef .tc main_v179) = (StableHlo.TRef.ternary main_call8.v12 main_call8.v11 main_call8.call0.v1 main_call8.call0.v2 (fun p a b => select (broadcastInDim S64 ![] bcast_S_S64 p) a b) : HloOp τ sig (Elt F)).result (after rops17 V) (Proc.devRef .tc main_v179) := by
  after_results_simp
theorem fin_main_v179 (V : Valuation τ sig (Elt F)) :
    RV33 V (Proc.devRef .tc main_v179) = (StableHlo.TRef.ternary main_call8.v12 main_call8.v11 main_call8.call0.v1 main_call8.call0.v2 (fun p a b => select (broadcastInDim S64 ![] bcast_S_S64 p) a b) : HloOp τ sig (Elt F)).result (RV33 V) (Proc.devRef .tc main_v179) := by
  have h := ssa_main_v179 (F := F) (RV17 V)
  rw [ternary_result] at h ⊢
  rw [lift18 V main_v179 (by decide), lift18 V main_call8_v12 (by decide), lift18 V main_call8_v11 (by decide), lift18 V main_call8_call0_v1 (by decide)]
  exact h

theorem ssa_main_v180 (V : Valuation τ sig (Elt F)) :
    after rops17 V (Proc.devRef .tc main_v180) = (StableHlo.unary main_v178 main_v180 (broadcastInDim S1x64 ![1] bcast_S64_S1x64_1 : (⟨S64, .f32⟩ : BufTy).Contents (Elt F) → (⟨S1x64, .f32⟩ : BufTy).Contents (Elt F)) : HloOp τ sig (Elt F)).result (after rops17 V) (Proc.devRef .tc main_v180) := by
  after_results_simp
theorem fin_main_v180 (V : Valuation τ sig (Elt F)) :
    RV33 V (Proc.devRef .tc main_v180) = (StableHlo.unary main_v178 main_v180 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v180) := by
  have h := ssa_main_v180 (F := F) (RV17 V)
  rw [unary_result] at h ⊢
  rw [lift18 V main_v180 (by decide), lift18 V main_v178 (by decide)]
  exact h

theorem ssa_main_v181 (V : Valuation τ sig (Elt F)) :
    after rops17 V (Proc.devRef .tc main_v181) = (StableHlo.unary main_v180 main_v181 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops17 V) (Proc.devRef .tc main_v181) := by
  after_results_simp
theorem fin_main_v181 (V : Valuation τ sig (Elt F)) :
    RV33 V (Proc.devRef .tc main_v181) = (StableHlo.unary main_v180 main_v181 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v181) := by
  have h := ssa_main_v181 (F := F) (RV17 V)
  rw [unary_result] at h ⊢
  rw [lift18 V main_v181 (by decide), lift18 V main_v180 (by decide)]
  exact h

theorem ssa_main_v182 (V : Valuation τ sig (Elt F)) :
    after rops17 V (Proc.devRef .tc main_v182) = (StableHlo.binary main_v171 main_v181 main_v182 (subf : (⟨S100000x64, .f32⟩ : BufTy).Contents (Elt F) → (⟨S100000x64, .f32⟩ : BufTy).Contents (Elt F) → (⟨S100000x64, .f32⟩ : BufTy).Contents (Elt F)) : HloOp τ sig (Elt F)).result (after rops17 V) (Proc.devRef .tc main_v182) := by
  after_results_simp
theorem fin_main_v182 (V : Valuation τ sig (Elt F)) :
    RV33 V (Proc.devRef .tc main_v182) = (StableHlo.binary main_v171 main_v181 main_v182 (subf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v182) := by
  have h := ssa_main_v182 (F := F) (RV17 V)
  rw [binary_result] at h ⊢
  rw [lift18 V main_v182 (by decide), lift18 V main_v171 (by decide), lift18 V main_v181 (by decide)]
  exact h

theorem ssa_main_v183 (V : Valuation τ sig (Elt F)) :
    after rops17 V (Proc.devRef .tc main_v183) = (StableHlo.unary main_v173 main_v183 (broadcastInDim S1x64 ![1] bcast_S64_S1x64_1 : (⟨S64, .f32⟩ : BufTy).Contents (Elt F) → (⟨S1x64, .f32⟩ : BufTy).Contents (Elt F)) : HloOp τ sig (Elt F)).result (after rops17 V) (Proc.devRef .tc main_v183) := by
  after_results_simp
theorem fin_main_v183 (V : Valuation τ sig (Elt F)) :
    RV33 V (Proc.devRef .tc main_v183) = (StableHlo.unary main_v173 main_v183 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v183) := by
  have h := ssa_main_v183 (F := F) (RV17 V)
  rw [unary_result] at h ⊢
  rw [lift18 V main_v183 (by decide), lift18 V main_v173 (by decide)]
  exact h

theorem ssa_main_v184 (V : Valuation τ sig (Elt F)) :
    after rops17 V (Proc.devRef .tc main_v184) = (StableHlo.unary main_v183 main_v184 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops17 V) (Proc.devRef .tc main_v184) := by
  after_results_simp
theorem fin_main_v184 (V : Valuation τ sig (Elt F)) :
    RV33 V (Proc.devRef .tc main_v184) = (StableHlo.unary main_v183 main_v184 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v184) := by
  have h := ssa_main_v184 (F := F) (RV17 V)
  rw [unary_result] at h ⊢
  rw [lift18 V main_v184 (by decide), lift18 V main_v183 (by decide)]
  exact h

theorem ssa_main_v185 (V : Valuation τ sig (Elt F)) :
    after rops17 V (Proc.devRef .tc main_v185) = (StableHlo.binary main_v184 main_v182 main_v185 (mulf : (⟨S100000x64, .f32⟩ : BufTy).Contents (Elt F) → (⟨S100000x64, .f32⟩ : BufTy).Contents (Elt F) → (⟨S100000x64, .f32⟩ : BufTy).Contents (Elt F)) : HloOp τ sig (Elt F)).result (after rops17 V) (Proc.devRef .tc main_v185) := by
  after_results_simp
theorem fin_main_v185 (V : Valuation τ sig (Elt F)) :
    RV33 V (Proc.devRef .tc main_v185) = (StableHlo.binary main_v184 main_v182 main_v185 (mulf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v185) := by
  have h := ssa_main_v185 (F := F) (RV17 V)
  rw [binary_result] at h ⊢
  rw [lift18 V main_v185 (by decide), lift18 V main_v184 (by decide), lift18 V main_v182 (by decide)]
  exact h

theorem ssa_main_cst_27 (V : Valuation τ sig (Elt F)) :
    after rops17 V (Proc.devRef .tc main_cst_27) = (StableHlo.nullary main_cst_27 (constant S_ .f32 0x3727C5AC#32) : HloOp τ sig (Elt F)).result (after rops17 V) (Proc.devRef .tc main_cst_27) := by
  after_results_simp
theorem fin_main_cst_27 (V : Valuation τ sig (Elt F)) :
    RV33 V (Proc.devRef .tc main_cst_27) = (StableHlo.nullary main_cst_27 (constant S_ .f32 0x3727C5AC#32) : HloOp τ sig (Elt F)).result (RV33 V) (Proc.devRef .tc main_cst_27) := by
  have h := ssa_main_cst_27 (F := F) (RV17 V)
  rw [nullary_result] at h ⊢
  rw [lift18 V main_cst_27 (by decide)]
  exact h

theorem ssa_main_v186 (V : Valuation τ sig (Elt F)) :
    after rops17 V (Proc.devRef .tc main_v186) = (StableHlo.unary main_cst_27 main_v186 (broadcastInDim S64 ![] bcast_S_S64 : (⟨S_, .f32⟩ : BufTy).Contents (Elt F) → (⟨S64, .f32⟩ : BufTy).Contents (Elt F)) : HloOp τ sig (Elt F)).result (after rops17 V) (Proc.devRef .tc main_v186) := by
  after_results_simp
theorem fin_main_v186 (V : Valuation τ sig (Elt F)) :
    RV33 V (Proc.devRef .tc main_v186) = (StableHlo.unary main_cst_27 main_v186 (broadcastInDim S64 ![] bcast_S_S64 : (⟨S_, .f32⟩ : BufTy).Contents (Elt F) → (⟨S64, .f32⟩ : BufTy).Contents (Elt F)) : HloOp τ sig (Elt F)).result (RV33 V) (Proc.devRef .tc main_v186) := by
  have h := ssa_main_v186 (F := F) (RV17 V)
  rw [unary_result] at h ⊢
  rw [lift18 V main_v186 (by decide), lift18 V main_cst_27 (by decide)]
  exact h

theorem ssa_main_v187 (V : Valuation τ sig (Elt F)) :
    after rops17 V (Proc.devRef .tc main_v187) = (StableHlo.binary main_v179 main_v186 main_v187 (addf : (⟨S64, .f32⟩ : BufTy).Contents (Elt F) → (⟨S64, .f32⟩ : BufTy).Contents (Elt F) → (⟨S64, .f32⟩ : BufTy).Contents (Elt F)) : HloOp τ sig (Elt F)).result (after rops17 V) (Proc.devRef .tc main_v187) := by
  after_results_simp
theorem fin_main_v187 (V : Valuation τ sig (Elt F)) :
    RV33 V (Proc.devRef .tc main_v187) = (StableHlo.binary main_v179 main_v186 main_v187 (addf : (⟨S64, .f32⟩ : BufTy).Contents (Elt F) → (⟨S64, .f32⟩ : BufTy).Contents (Elt F) → (⟨S64, .f32⟩ : BufTy).Contents (Elt F)) : HloOp τ sig (Elt F)).result (RV33 V) (Proc.devRef .tc main_v187) := by
  have h := ssa_main_v187 (F := F) (RV17 V)
  rw [binary_result] at h ⊢
  rw [lift18 V main_v187 (by decide), lift18 V main_v179 (by decide), lift18 V main_v186 (by decide)]
  exact h

theorem ssa_main_v188 (V : Valuation τ sig (Elt F)) :
    after rops17 V (Proc.devRef .tc main_v188) = (StableHlo.unary main_v187 main_v188 (Host.rsqrt : (⟨S64, .f32⟩ : BufTy).Contents (Elt F) → (⟨S64, .f32⟩ : BufTy).Contents (Elt F)) : HloOp τ sig (Elt F)).result (after rops17 V) (Proc.devRef .tc main_v188) := by
  after_results_simp
theorem fin_main_v188 (V : Valuation τ sig (Elt F)) :
    RV33 V (Proc.devRef .tc main_v188) = (StableHlo.unary main_v187 main_v188 (Host.rsqrt : (⟨S64, .f32⟩ : BufTy).Contents (Elt F) → (⟨S64, .f32⟩ : BufTy).Contents (Elt F)) : HloOp τ sig (Elt F)).result (RV33 V) (Proc.devRef .tc main_v188) := by
  have h := ssa_main_v188 (F := F) (RV17 V)
  rw [unary_result] at h ⊢
  rw [lift18 V main_v188 (by decide), lift18 V main_v187 (by decide)]
  exact h

theorem ssa_main_v189 (V : Valuation τ sig (Elt F)) :
    after rops18 V (Proc.devRef .tc main_v189) = (StableHlo.unary main_v188 main_v189 (broadcastInDim S1x64 ![1] bcast_S64_S1x64_1 : (⟨S64, .f32⟩ : BufTy).Contents (Elt F) → (⟨S1x64, .f32⟩ : BufTy).Contents (Elt F)) : HloOp τ sig (Elt F)).result (after rops18 V) (Proc.devRef .tc main_v189) := by
  after_results_simp
theorem fin_main_v189 (V : Valuation τ sig (Elt F)) :
    RV33 V (Proc.devRef .tc main_v189) = (StableHlo.unary main_v188 main_v189 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v189) := by
  have h := ssa_main_v189 (F := F) (RV18 V)
  rw [unary_result] at h ⊢
  rw [lift19 V main_v189 (by decide), lift19 V main_v188 (by decide)]
  exact h

theorem ssa_main_v190 (V : Valuation τ sig (Elt F)) :
    after rops18 V (Proc.devRef .tc main_v190) = (StableHlo.unary main_v189 main_v190 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops18 V) (Proc.devRef .tc main_v190) := by
  after_results_simp
theorem fin_main_v190 (V : Valuation τ sig (Elt F)) :
    RV33 V (Proc.devRef .tc main_v190) = (StableHlo.unary main_v189 main_v190 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v190) := by
  have h := ssa_main_v190 (F := F) (RV18 V)
  rw [unary_result] at h ⊢
  rw [lift19 V main_v190 (by decide), lift19 V main_v189 (by decide)]
  exact h

theorem ssa_main_v191 (V : Valuation τ sig (Elt F)) :
    after rops18 V (Proc.devRef .tc main_v191) = (StableHlo.binary main_v185 main_v190 main_v191 (mulf : (⟨S100000x64, .f32⟩ : BufTy).Contents (Elt F) → (⟨S100000x64, .f32⟩ : BufTy).Contents (Elt F) → (⟨S100000x64, .f32⟩ : BufTy).Contents (Elt F)) : HloOp τ sig (Elt F)).result (after rops18 V) (Proc.devRef .tc main_v191) := by
  after_results_simp
theorem fin_main_v191 (V : Valuation τ sig (Elt F)) :
    RV33 V (Proc.devRef .tc main_v191) = (StableHlo.binary main_v185 main_v190 main_v191 (mulf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v191) := by
  have h := ssa_main_v191 (F := F) (RV18 V)
  rw [binary_result] at h ⊢
  rw [lift19 V main_v191 (by decide), lift19 V main_v185 (by decide), lift19 V main_v190 (by decide)]
  exact h

theorem ssa_main_v192 (V : Valuation τ sig (Elt F)) :
    after rops18 V (Proc.devRef .tc main_v192) = (StableHlo.unary main_v175 main_v192 (broadcastInDim S1x64 ![1] bcast_S64_S1x64_1 : (⟨S64, .f32⟩ : BufTy).Contents (Elt F) → (⟨S1x64, .f32⟩ : BufTy).Contents (Elt F)) : HloOp τ sig (Elt F)).result (after rops18 V) (Proc.devRef .tc main_v192) := by
  after_results_simp
theorem fin_main_v192 (V : Valuation τ sig (Elt F)) :
    RV33 V (Proc.devRef .tc main_v192) = (StableHlo.unary main_v175 main_v192 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v192) := by
  have h := ssa_main_v192 (F := F) (RV18 V)
  rw [unary_result] at h ⊢
  rw [lift19 V main_v192 (by decide), lift19 V main_v175 (by decide)]
  exact h

theorem ssa_main_v193 (V : Valuation τ sig (Elt F)) :
    after rops18 V (Proc.devRef .tc main_v193) = (StableHlo.unary main_v192 main_v193 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops18 V) (Proc.devRef .tc main_v193) := by
  after_results_simp
theorem fin_main_v193 (V : Valuation τ sig (Elt F)) :
    RV33 V (Proc.devRef .tc main_v193) = (StableHlo.unary main_v192 main_v193 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v193) := by
  have h := ssa_main_v193 (F := F) (RV18 V)
  rw [unary_result] at h ⊢
  rw [lift19 V main_v193 (by decide), lift19 V main_v192 (by decide)]
  exact h

theorem ssa_main_v194 (V : Valuation τ sig (Elt F)) :
    after rops18 V (Proc.devRef .tc main_v194) = (StableHlo.binary main_v191 main_v193 main_v194 (addf : (⟨S100000x64, .f32⟩ : BufTy).Contents (Elt F) → (⟨S100000x64, .f32⟩ : BufTy).Contents (Elt F) → (⟨S100000x64, .f32⟩ : BufTy).Contents (Elt F)) : HloOp τ sig (Elt F)).result (after rops18 V) (Proc.devRef .tc main_v194) := by
  after_results_simp
theorem fin_main_v194 (V : Valuation τ sig (Elt F)) :
    RV33 V (Proc.devRef .tc main_v194) = (StableHlo.binary main_v191 main_v193 main_v194 (addf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v194) := by
  have h := ssa_main_v194 (F := F) (RV18 V)
  rw [binary_result] at h ⊢
  rw [lift19 V main_v194 (by decide), lift19 V main_v191 (by decide), lift19 V main_v193 (by decide)]
  exact h

theorem ssa_main_cst_28 (V : Valuation τ sig (Elt F)) :
    after rops18 V (Proc.devRef .tc main_cst_28) = (StableHlo.nullary main_cst_28 (constant S_ .f32 0x00000000#32) : HloOp τ sig (Elt F)).result (after rops18 V) (Proc.devRef .tc main_cst_28) := by
  after_results_simp
theorem fin_main_cst_28 (V : Valuation τ sig (Elt F)) :
    RV33 V (Proc.devRef .tc main_cst_28) = (StableHlo.nullary main_cst_28 (constant S_ .f32 0x00000000#32) : HloOp τ sig (Elt F)).result (RV33 V) (Proc.devRef .tc main_cst_28) := by
  have h := ssa_main_cst_28 (F := F) (RV18 V)
  rw [nullary_result] at h ⊢
  rw [lift19 V main_cst_28 (by decide)]
  exact h

theorem ssa_main_v195 (V : Valuation τ sig (Elt F)) :
    after rops18 V (Proc.devRef .tc main_v195) = (StableHlo.unary main_cst_28 main_v195 (broadcastInDim S100000x64 ![] bcast_S_S100000x64 : (⟨S_, .f32⟩ : BufTy).Contents (Elt F) → (⟨S100000x64, .f32⟩ : BufTy).Contents (Elt F)) : HloOp τ sig (Elt F)).result (after rops18 V) (Proc.devRef .tc main_v195) := by
  after_results_simp
theorem fin_main_v195 (V : Valuation τ sig (Elt F)) :
    RV33 V (Proc.devRef .tc main_v195) = (StableHlo.unary main_cst_28 main_v195 (broadcastInDim S100000x64 ![] bcast_S_S100000x64 : (⟨S_, .f32⟩ : BufTy).Contents (Elt F) → (⟨S100000x64, .f32⟩ : BufTy).Contents (Elt F)) : HloOp τ sig (Elt F)).result (RV33 V) (Proc.devRef .tc main_v195) := by
  have h := ssa_main_v195 (F := F) (RV18 V)
  rw [unary_result] at h ⊢
  rw [lift19 V main_v195 (by decide), lift19 V main_cst_28 (by decide)]
  exact h

theorem ssa_main_v196 (V : Valuation τ sig (Elt F)) :
    after rops18 V (Proc.devRef .tc main_v196) = (StableHlo.binary main_v194 main_v195 main_v196 (cmpf .oge : (⟨S100000x64, .f32⟩ : BufTy).Contents (Elt F) → (⟨S100000x64, .f32⟩ : BufTy).Contents (Elt F) → (⟨S100000x64, .i1⟩ : BufTy).Contents (Elt F)) : HloOp τ sig (Elt F)).result (after rops18 V) (Proc.devRef .tc main_v196) := by
  after_results_simp
theorem fin_main_v196 (V : Valuation τ sig (Elt F)) :
    RV33 V (Proc.devRef .tc main_v196) = (StableHlo.binary main_v194 main_v195 main_v196 (cmpf .oge : (⟨S100000x64, .f32⟩ : BufTy).Contents (Elt F) → (⟨S100000x64, .f32⟩ : BufTy).Contents (Elt F) → (⟨S100000x64, .i1⟩ : BufTy).Contents (Elt F)) : HloOp τ sig (Elt F)).result (RV33 V) (Proc.devRef .tc main_v196) := by
  have h := ssa_main_v196 (F := F) (RV18 V)
  rw [binary_result] at h ⊢
  rw [lift19 V main_v196 (by decide), lift19 V main_v194 (by decide), lift19 V main_v195 (by decide)]
  exact h

theorem ssa_main_cst_29 (V : Valuation τ sig (Elt F)) :
    after rops18 V (Proc.devRef .tc main_cst_29) = (StableHlo.nullary main_cst_29 (constant S_ .f32 0x3C23D70A#32) : HloOp τ sig (Elt F)).result (after rops18 V) (Proc.devRef .tc main_cst_29) := by
  after_results_simp
theorem fin_main_cst_29 (V : Valuation τ sig (Elt F)) :
    RV33 V (Proc.devRef .tc main_cst_29) = (StableHlo.nullary main_cst_29 (constant S_ .f32 0x3C23D70A#32) : HloOp τ sig (Elt F)).result (RV33 V) (Proc.devRef .tc main_cst_29) := by
  have h := ssa_main_cst_29 (F := F) (RV18 V)
  rw [nullary_result] at h ⊢
  rw [lift19 V main_cst_29 (by decide)]
  exact h

theorem ssa_main_v197 (V : Valuation τ sig (Elt F)) :
    after rops18 V (Proc.devRef .tc main_v197) = (StableHlo.unary main_cst_29 main_v197 (broadcastInDim S100000x64 ![] bcast_S_S100000x64 : (⟨S_, .f32⟩ : BufTy).Contents (Elt F) → (⟨S100000x64, .f32⟩ : BufTy).Contents (Elt F)) : HloOp τ sig (Elt F)).result (after rops18 V) (Proc.devRef .tc main_v197) := by
  after_results_simp
theorem fin_main_v197 (V : Valuation τ sig (Elt F)) :
    RV33 V (Proc.devRef .tc main_v197) = (StableHlo.unary main_cst_29 main_v197 (broadcastInDim S100000x64 ![] bcast_S_S100000x64 : (⟨S_, .f32⟩ : BufTy).Contents (Elt F) → (⟨S100000x64, .f32⟩ : BufTy).Contents (Elt F)) : HloOp τ sig (Elt F)).result (RV33 V) (Proc.devRef .tc main_v197) := by
  have h := ssa_main_v197 (F := F) (RV18 V)
  rw [unary_result] at h ⊢
  rw [lift19 V main_v197 (by decide), lift19 V main_cst_29 (by decide)]
  exact h

theorem ssa_main_v198 (V : Valuation τ sig (Elt F)) :
    after rops18 V (Proc.devRef .tc main_v198) = (StableHlo.binary main_v197 main_v194 main_v198 (mulf : (⟨S100000x64, .f32⟩ : BufTy).Contents (Elt F) → (⟨S100000x64, .f32⟩ : BufTy).Contents (Elt F) → (⟨S100000x64, .f32⟩ : BufTy).Contents (Elt F)) : HloOp τ sig (Elt F)).result (after rops18 V) (Proc.devRef .tc main_v198) := by
  after_results_simp
theorem fin_main_v198 (V : Valuation τ sig (Elt F)) :
    RV33 V (Proc.devRef .tc main_v198) = (StableHlo.binary main_v197 main_v194 main_v198 (mulf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v198) := by
  have h := ssa_main_v198 (F := F) (RV18 V)
  rw [binary_result] at h ⊢
  rw [lift19 V main_v198 (by decide), lift19 V main_v197 (by decide), lift19 V main_v194 (by decide)]
  exact h

theorem ssa_main_v199 (V : Valuation τ sig (Elt F)) :
    after rops18 V (Proc.devRef .tc main_v199) = (StableHlo.TRef.ternary (.of main_v196) (.of main_v194) (.of main_v198) main_call9.v0 select : HloOp τ sig (Elt F)).result (after rops18 V) (Proc.devRef .tc main_v199) := by
  after_results_simp
theorem fin_main_v199 (V : Valuation τ sig (Elt F)) :
    RV33 V (Proc.devRef .tc main_v199) = (StableHlo.TRef.ternary (.of main_v196) (.of main_v194) (.of main_v198) main_call9.v0 select : HloOp τ sig (Elt F)).result (RV33 V) (Proc.devRef .tc main_v199) := by
  have h := ssa_main_v199 (F := F) (RV18 V)
  rw [ternary_result] at h ⊢
  rw [lift19 V main_v199 (by decide), lift19 V main_v196 (by decide), lift19 V main_v194 (by decide), lift19 V main_v198 (by decide)]
  exact h

theorem ssa_main_c_30 (V : Valuation τ sig (Elt F)) :
    after rops18 V (Proc.devRef .tc main_c_30) = (StableHlo.nullary main_c_30 (constantI S_ 32 0#32) : HloOp τ sig (Elt F)).result (after rops18 V) (Proc.devRef .tc main_c_30) := by
  after_results_simp
theorem fin_main_c_30 (V : Valuation τ sig (Elt F)) :
    RV33 V (Proc.devRef .tc main_c_30) = (StableHlo.nullary main_c_30 (constantI S_ 32 0#32) : HloOp τ sig (Elt F)).result (RV33 V) (Proc.devRef .tc main_c_30) := by
  have h := ssa_main_c_30 (F := F) (RV18 V)
  rw [nullary_result] at h ⊢
  rw [lift19 V main_c_30 (by decide)]
  exact h

theorem ssa_main_v200 (V : Valuation τ sig (Elt F)) :
    after rops18 V (Proc.devRef .tc main_v200) = (StableHlo.unary main_c_30 main_v200 (broadcastInDim S1600000 ![] bcast_S_S1600000 : (⟨S_, .i32⟩ : BufTy).Contents (Elt F) → (⟨S1600000, .i32⟩ : BufTy).Contents (Elt F)) : HloOp τ sig (Elt F)).result (after rops18 V) (Proc.devRef .tc main_v200) := by
  after_results_simp
theorem fin_main_v200 (V : Valuation τ sig (Elt F)) :
    RV33 V (Proc.devRef .tc main_v200) = (StableHlo.unary main_c_30 main_v200 (broadcastInDim S1600000 ![] bcast_S_S1600000 : (⟨S_, .i32⟩ : BufTy).Contents (Elt F) → (⟨S1600000, .i32⟩ : BufTy).Contents (Elt F)) : HloOp τ sig (Elt F)).result (RV33 V) (Proc.devRef .tc main_v200) := by
  have h := ssa_main_v200 (F := F) (RV18 V)
  rw [unary_result] at h ⊢
  rw [lift19 V main_v200 (by decide), lift19 V main_c_30 (by decide)]
  exact h

theorem ssa_main_v201 (V : Valuation τ sig (Elt F)) :
    after rops18 V (Proc.devRef .tc main_v201) = (StableHlo.binary main_v1 main_v200 main_v201 (cmpi .slt : (⟨S1600000, .i32⟩ : BufTy).Contents (Elt F) → (⟨S1600000, .i32⟩ : BufTy).Contents (Elt F) → (⟨S1600000, .i1⟩ : BufTy).Contents (Elt F)) : HloOp τ sig (Elt F)).result (after rops18 V) (Proc.devRef .tc main_v201) := by
  after_results_simp
theorem fin_main_v201 (V : Valuation τ sig (Elt F)) :
    RV33 V (Proc.devRef .tc main_v201) = (StableHlo.binary main_v1 main_v200 main_v201 (cmpi .slt : (⟨S1600000, .i32⟩ : BufTy).Contents (Elt F) → (⟨S1600000, .i32⟩ : BufTy).Contents (Elt F) → (⟨S1600000, .i1⟩ : BufTy).Contents (Elt F)) : HloOp τ sig (Elt F)).result (RV33 V) (Proc.devRef .tc main_v201) := by
  have h := ssa_main_v201 (F := F) (RV18 V)
  rw [binary_result] at h ⊢
  rw [lift19 V main_v201 (by decide), lift19 V main_v1 (by decide), lift19 V main_v200 (by decide)]
  exact h

theorem ssa_main_c_31 (V : Valuation τ sig (Elt F)) :
    after rops18 V (Proc.devRef .tc main_c_31) = (StableHlo.nullary main_c_31 (constantI S_ 32 100000#32) : HloOp τ sig (Elt F)).result (after rops18 V) (Proc.devRef .tc main_c_31) := by
  after_results_simp
theorem fin_main_c_31 (V : Valuation τ sig (Elt F)) :
    RV33 V (Proc.devRef .tc main_c_31) = (StableHlo.nullary main_c_31 (constantI S_ 32 100000#32) : HloOp τ sig (Elt F)).result (RV33 V) (Proc.devRef .tc main_c_31) := by
  have h := ssa_main_c_31 (F := F) (RV18 V)
  rw [nullary_result] at h ⊢
  rw [lift19 V main_c_31 (by decide)]
  exact h

theorem ssa_main_v202 (V : Valuation τ sig (Elt F)) :
    after rops18 V (Proc.devRef .tc main_v202) = (StableHlo.unary main_c_31 main_v202 (broadcastInDim S1600000 ![] bcast_S_S1600000 : (⟨S_, .i32⟩ : BufTy).Contents (Elt F) → (⟨S1600000, .i32⟩ : BufTy).Contents (Elt F)) : HloOp τ sig (Elt F)).result (after rops18 V) (Proc.devRef .tc main_v202) := by
  after_results_simp
theorem fin_main_v202 (V : Valuation τ sig (Elt F)) :
    RV33 V (Proc.devRef .tc main_v202) = (StableHlo.unary main_c_31 main_v202 (broadcastInDim S1600000 ![] bcast_S_S1600000 : (⟨S_, .i32⟩ : BufTy).Contents (Elt F) → (⟨S1600000, .i32⟩ : BufTy).Contents (Elt F)) : HloOp τ sig (Elt F)).result (RV33 V) (Proc.devRef .tc main_v202) := by
  have h := ssa_main_v202 (F := F) (RV18 V)
  rw [unary_result] at h ⊢
  rw [lift19 V main_v202 (by decide), lift19 V main_c_31 (by decide)]
  exact h

theorem ssa_main_v203 (V : Valuation τ sig (Elt F)) :
    after rops18 V (Proc.devRef .tc main_v203) = (StableHlo.binary main_v1 main_v202 main_v203 (addi : (⟨S1600000, .i32⟩ : BufTy).Contents (Elt F) → (⟨S1600000, .i32⟩ : BufTy).Contents (Elt F) → (⟨S1600000, .i32⟩ : BufTy).Contents (Elt F)) : HloOp τ sig (Elt F)).result (after rops18 V) (Proc.devRef .tc main_v203) := by
  after_results_simp
theorem fin_main_v203 (V : Valuation τ sig (Elt F)) :
    RV33 V (Proc.devRef .tc main_v203) = (StableHlo.binary main_v1 main_v202 main_v203 (addi : (⟨S1600000, .i32⟩ : BufTy).Contents (Elt F) → (⟨S1600000, .i32⟩ : BufTy).Contents (Elt F) → (⟨S1600000, .i32⟩ : BufTy).Contents (Elt F)) : HloOp τ sig (Elt F)).result (RV33 V) (Proc.devRef .tc main_v203) := by
  have h := ssa_main_v203 (F := F) (RV18 V)
  rw [binary_result] at h ⊢
  rw [lift19 V main_v203 (by decide), lift19 V main_v1 (by decide), lift19 V main_v202 (by decide)]
  exact h

theorem ssa_main_v204 (V : Valuation τ sig (Elt F)) :
    after rops18 V (Proc.devRef .tc main_v204) = (StableHlo.ternary main_v201 main_v203 main_v1 main_v204 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) : HloOp τ sig (Elt F)).result (after rops18 V) (Proc.devRef .tc main_v204) := by
  after_results_simp
theorem fin_main_v204 (V : Valuation τ sig (Elt F)) :
    RV33 V (Proc.devRef .tc main_v204) = (StableHlo.ternary main_v201 main_v203 main_v1 main_v204 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) : HloOp τ sig (Elt F)).result (RV33 V) (Proc.devRef .tc main_v204) := by
  have h := ssa_main_v204 (F := F) (RV18 V)
  rw [ternary_result] at h ⊢
  rw [lift19 V main_v204 (by decide), lift19 V main_v201 (by decide), lift19 V main_v203 (by decide), lift19 V main_v1 (by decide)]
  exact h

theorem ssa_main_v205 (V : Valuation τ sig (Elt F)) :
    after rops19 V (Proc.devRef .tc main_v205) = (StableHlo.unary main_v204 main_v205 (broadcastInDim S1600000x1 ![0] bcast_S1600000_S1600000x1_0 : (⟨S1600000, .i32⟩ : BufTy).Contents (Elt F) → (⟨S1600000x1, .i32⟩ : BufTy).Contents (Elt F)) : HloOp τ sig (Elt F)).result (after rops19 V) (Proc.devRef .tc main_v205) := by
  after_results_simp
theorem fin_main_v205 (V : Valuation τ sig (Elt F)) :
    RV33 V (Proc.devRef .tc main_v205) = (StableHlo.unary main_v204 main_v205 (broadcastInDim S1600000x1 ![0] bcast_S1600000_S1600000x1_0 : (⟨S1600000, .i32⟩ : BufTy).Contents (Elt F) → (⟨S1600000x1, .i32⟩ : BufTy).Contents (Elt F)) : HloOp τ sig (Elt F)).result (RV33 V) (Proc.devRef .tc main_v205) := by
  have h := ssa_main_v205 (F := F) (RV19 V)
  rw [unary_result] at h ⊢
  rw [lift20 V main_v205 (by decide), lift20 V main_v204 (by decide)]
  exact h

end Cert.ReferenceIdeal.Tab

end
-- ==== Proof.TabRSsa4.lean ====
/- Stretches 20 to 24 of the reference program read one operation at a time: each buffer a stretch writes holds its operation's function
   of the operands, within the stretch from any contents and, at the end of the run, over the final contents. -/
import proofs.«409037_j72164040508123_1_alg».proof.Proof.TabR

set_option maxRecDepth 16384

noncomputable section

namespace Cert.ReferenceIdeal.Tab

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

theorem ssa_main_v206 (V : Valuation τ sig (Elt F)) :
    after rops20 V (Proc.devRef .tc main_v206) = (StableHlo.binary main_v199 main_v205 main_v206 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) : HloOp τ sig (Elt F)).result (after rops20 V) (Proc.devRef .tc main_v206) := by
  after_results_simp
theorem fin_main_v206 (V : Valuation τ sig (Elt F)) :
    RV33 V (Proc.devRef .tc main_v206) = (StableHlo.binary main_v199 main_v205 main_v206 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) : HloOp τ sig (Elt F)).result (RV33 V) (Proc.devRef .tc main_v206) := by
  have h := ssa_main_v206 (F := F) (RV20 V)
  rw [binary_result] at h ⊢
  rw [lift21 V main_v206 (by decide), lift21 V main_v199 (by decide), lift21 V main_v205 (by decide)]
  exact h

theorem ssa_main_v207 (V : Valuation τ sig (Elt F)) :
    after rops20 V (Proc.devRef .tc main_v207) = (StableHlo.unary main_arg4 main_v207 ((extractStridedSlice S1x16x64 ![2, 0, 0] · slices_S3x16x64_S1x16x64_2_0_0) : (⟨S3x16x64, .f32⟩ : BufTy).Contents (Elt F) → (⟨S1x16x64, .f32⟩ : BufTy).Contents (Elt F)) : HloOp τ sig (Elt F)).result (after rops20 V) (Proc.devRef .tc main_v207) := by
  after_results_simp
theorem fin_main_v207 (V : Valuation τ sig (Elt F)) :
    RV33 V (Proc.devRef .tc main_v207) = (StableHlo.unary main_arg4 main_v207 ((extractStridedSlice S1x16x64 ![2, 0, 0] · slices_S3x16x64_S1x16x64_2_0_0) : (⟨S3x16x64, .f32⟩ : BufTy).Contents (Elt F) → (⟨S1x16x64, .f32⟩ : BufTy).Contents (Elt F)) : HloOp τ sig (Elt F)).result (RV33 V) (Proc.devRef .tc main_v207) := by
  have h := ssa_main_v207 (F := F) (RV20 V)
  rw [unary_result] at h ⊢
  rw [lift21 V main_v207 (by decide), lift21 V main_arg4 (by decide)]
  exact h

theorem ssa_main_v208 (V : Valuation τ sig (Elt F)) :
    after rops20 V (Proc.devRef .tc main_v208) = (StableHlo.reshape main_v207 main_v208 rfl shapeCasts_S1x16x64_S16x64 : HloOp τ sig (Elt F)).result (after rops20 V) (Proc.devRef .tc main_v208) := by
  after_results_simp
theorem fin_main_v208 (V : Valuation τ sig (Elt F)) :
    RV33 V (Proc.devRef .tc main_v208) = (StableHlo.reshape main_v207 main_v208 rfl shapeCasts_S1x16x64_S16x64 : HloOp τ sig (Elt F)).result (RV33 V) (Proc.devRef .tc main_v208) := by
  have h := ssa_main_v208 (F := F) (RV20 V)
  rw [reshape_result] at h ⊢
  rw [lift21 V main_v208 (by decide), lift21 V main_v207 (by decide)]
  exact h

theorem ssa_main_v209 (V : Valuation τ sig (Elt F)) :
    after rops20 V (Proc.devRef .tc main_v209) = (StableHlo.binary main_arg1 main_v208 main_v209 ((fun l r => Host.dotGeneral dot_S1600000x16_S16x64_S1600000x64_1_0_0_1_n_n none l r) : (⟨S1600000x16, .f32⟩ : BufTy).Contents (Elt F) → (⟨S16x64, .f32⟩ : BufTy).Contents (Elt F) → (⟨S1600000x64, .f32⟩ : BufTy).Contents (Elt F)) : HloOp τ sig (Elt F)).result (after rops20 V) (Proc.devRef .tc main_v209) := by
  after_results_simp
theorem fin_main_v209 (V : Valuation τ sig (Elt F)) :
    RV33 V (Proc.devRef .tc main_v209) = (StableHlo.binary main_arg1 main_v208 main_v209 ((fun l r => Host.dotGeneral dot_S1600000x16_S16x64_S1600000x64_1_0_0_1_n_n none l r) : (⟨S1600000x16, .f32⟩ : BufTy).Contents (Elt F) → (⟨S16x64, .f32⟩ : BufTy).Contents (Elt F) → (⟨S1600000x64, .f32⟩ : BufTy).Contents (Elt F)) : HloOp τ sig (Elt F)).result (RV33 V) (Proc.devRef .tc main_v209) := by
  have h := ssa_main_v209 (F := F) (RV20 V)
  rw [binary_result] at h ⊢
  rw [lift21 V main_v209 (by decide), lift21 V main_arg1 (by decide), lift21 V main_v208 (by decide)]
  exact h

theorem ssa_main_v210 (V : Valuation τ sig (Elt F)) :
    after rops20 V (Proc.devRef .tc main_v210) = (StableHlo.binary main_v206 main_v209 main_v210 (addf : (⟨S1600000x64, .f32⟩ : BufTy).Contents (Elt F) → (⟨S1600000x64, .f32⟩ : BufTy).Contents (Elt F) → (⟨S1600000x64, .f32⟩ : BufTy).Contents (Elt F)) : HloOp τ sig (Elt F)).result (after rops20 V) (Proc.devRef .tc main_v210) := by
  after_results_simp
theorem fin_main_v210 (V : Valuation τ sig (Elt F)) :
    RV33 V (Proc.devRef .tc main_v210) = (StableHlo.binary main_v206 main_v209 main_v210 (addf : (⟨S1600000x64, .f32⟩ : BufTy).Contents (Elt F) → (⟨S1600000x64, .f32⟩ : BufTy).Contents (Elt F) → (⟨S1600000x64, .f32⟩ : BufTy).Contents (Elt F)) : HloOp τ sig (Elt F)).result (RV33 V) (Proc.devRef .tc main_v210) := by
  have h := ssa_main_v210 (F := F) (RV20 V)
  rw [binary_result] at h ⊢
  rw [lift21 V main_v210 (by decide), lift21 V main_v206 (by decide), lift21 V main_v209 (by decide)]
  exact h

theorem ssa_main_v211 (V : Valuation τ sig (Elt F)) :
    after rops20 V (Proc.devRef .tc main_v211) = (StableHlo.unary main_arg5 main_v211 ((extractStridedSlice S1x64 ![2, 0] · slices_S3x64_S1x64_2_0) : (⟨S3x64, .f32⟩ : BufTy).Contents (Elt F) → (⟨S1x64, .f32⟩ : BufTy).Contents (Elt F)) : HloOp τ sig (Elt F)).result (after rops20 V) (Proc.devRef .tc main_v211) := by
  after_results_simp
theorem fin_main_v211 (V : Valuation τ sig (Elt F)) :
    RV33 V (Proc.devRef .tc main_v211) = (StableHlo.unary main_arg5 main_v211 ((extractStridedSlice S1x64 ![2, 0] · slices_S3x64_S1x64_2_0) : (⟨S3x64, .f32⟩ : BufTy).Contents (Elt F) → (⟨S1x64, .f32⟩ : BufTy).Contents (Elt F)) : HloOp τ sig (Elt F)).result (RV33 V) (Proc.devRef .tc main_v211) := by
  have h := ssa_main_v211 (F := F) (RV20 V)
  rw [unary_result] at h ⊢
  rw [lift21 V main_v211 (by decide), lift21 V main_arg5 (by decide)]
  exact h

theorem ssa_main_v212 (V : Valuation τ sig (Elt F)) :
    after rops20 V (Proc.devRef .tc main_v212) = (StableHlo.reshape main_v211 main_v212 rfl shapeCasts_S1x64_S64 : HloOp τ sig (Elt F)).result (after rops20 V) (Proc.devRef .tc main_v212) := by
  after_results_simp
theorem fin_main_v212 (V : Valuation τ sig (Elt F)) :
    RV33 V (Proc.devRef .tc main_v212) = (StableHlo.reshape main_v211 main_v212 rfl shapeCasts_S1x64_S64 : HloOp τ sig (Elt F)).result (RV33 V) (Proc.devRef .tc main_v212) := by
  have h := ssa_main_v212 (F := F) (RV20 V)
  rw [reshape_result] at h ⊢
  rw [lift21 V main_v212 (by decide), lift21 V main_v211 (by decide)]
  exact h

theorem ssa_main_v213 (V : Valuation τ sig (Elt F)) :
    after rops20 V (Proc.devRef .tc main_v213) = (StableHlo.unary main_v212 main_v213 (broadcastInDim S1x64 ![1] bcast_S64_S1x64_1 : (⟨S64, .f32⟩ : BufTy).Contents (Elt F) → (⟨S1x64, .f32⟩ : BufTy).Contents (Elt F)) : HloOp τ sig (Elt F)).result (after rops20 V) (Proc.devRef .tc main_v213) := by
  after_results_simp
theorem fin_main_v213 (V : Valuation τ sig (Elt F)) :
    RV33 V (Proc.devRef .tc main_v213) = (StableHlo.unary main_v212 main_v213 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v213) := by
  have h := ssa_main_v213 (F := F) (RV20 V)
  rw [unary_result] at h ⊢
  rw [lift21 V main_v213 (by decide), lift21 V main_v212 (by decide)]
  exact h

theorem ssa_main_v214 (V : Valuation τ sig (Elt F)) :
    after rops20 V (Proc.devRef .tc main_v214) = (StableHlo.unary main_v213 main_v214 (broadcastInDim S1600000x64 ![0, 1] bcast_S1x64_S1600000x64_0_1 : (⟨S1x64, .f32⟩ : BufTy).Contents (Elt F) → (⟨S1600000x64, .f32⟩ : BufTy).Contents (Elt F)) : HloOp τ sig (Elt F)).result (after rops20 V) (Proc.devRef .tc main_v214) := by
  after_results_simp
theorem fin_main_v214 (V : Valuation τ sig (Elt F)) :
    RV33 V (Proc.devRef .tc main_v214) = (StableHlo.unary main_v213 main_v214 (broadcastInDim S1600000x64 ![0, 1] bcast_S1x64_S1600000x64_0_1 : (⟨S1x64, .f32⟩ : BufTy).Contents (Elt F) → (⟨S1600000x64, .f32⟩ : BufTy).Contents (Elt F)) : HloOp τ sig (Elt F)).result (RV33 V) (Proc.devRef .tc main_v214) := by
  have h := ssa_main_v214 (F := F) (RV20 V)
  rw [unary_result] at h ⊢
  rw [lift21 V main_v214 (by decide), lift21 V main_v213 (by decide)]
  exact h

theorem ssa_main_v215 (V : Valuation τ sig (Elt F)) :
    after rops20 V (Proc.devRef .tc main_v215) = (StableHlo.binary main_v210 main_v214 main_v215 (addf : (⟨S1600000x64, .f32⟩ : BufTy).Contents (Elt F) → (⟨S1600000x64, .f32⟩ : BufTy).Contents (Elt F) → (⟨S1600000x64, .f32⟩ : BufTy).Contents (Elt F)) : HloOp τ sig (Elt F)).result (after rops20 V) (Proc.devRef .tc main_v215) := by
  after_results_simp
theorem fin_main_v215 (V : Valuation τ sig (Elt F)) :
    RV33 V (Proc.devRef .tc main_v215) = (StableHlo.binary main_v210 main_v214 main_v215 (addf : (⟨S1600000x64, .f32⟩ : BufTy).Contents (Elt F) → (⟨S1600000x64, .f32⟩ : BufTy).Contents (Elt F) → (⟨S1600000x64, .f32⟩ : BufTy).Contents (Elt F)) : HloOp τ sig (Elt F)).result (RV33 V) (Proc.devRef .tc main_v215) := by
  have h := ssa_main_v215 (F := F) (RV20 V)
  rw [binary_result] at h ⊢
  rw [lift21 V main_v215 (by decide), lift21 V main_v210 (by decide), lift21 V main_v214 (by decide)]
  exact h

theorem ssa_main_call10_cst (V : Valuation τ sig (Elt F)) :
    after rops20 V (Proc.devRef .tc main_call10_cst) = (StableHlo.TRef.nullary main_call10.cst (constant S_ .f32 0x00000000#32) : HloOp τ sig (Elt F)).result (after rops20 V) (Proc.devRef .tc main_call10_cst) := by
  after_results_simp
theorem fin_main_call10_cst (V : Valuation τ sig (Elt F)) :
    RV33 V (Proc.devRef .tc main_call10_cst) = (StableHlo.TRef.nullary main_call10.cst (constant S_ .f32 0x00000000#32) : HloOp τ sig (Elt F)).result (RV33 V) (Proc.devRef .tc main_call10_cst) := by
  have h := ssa_main_call10_cst (F := F) (RV20 V)
  rw [nullary_result] at h ⊢
  rw [lift21 V main_call10_cst (by decide)]
  exact h

theorem ssa_main_call10_v0 (V : Valuation τ sig (Elt F)) :
    after rops20 V (Proc.devRef .tc main_call10_v0) = (StableHlo.TRef.unary main_call10.cst main_call10.v0 (broadcastInDim S1600000x64 ![] bcast_S_S1600000x64) : HloOp τ sig (Elt F)).result (after rops20 V) (Proc.devRef .tc main_call10_v0) := by
  after_results_simp
theorem fin_main_call10_v0 (V : Valuation τ sig (Elt F)) :
    RV33 V (Proc.devRef .tc main_call10_v0) = (StableHlo.TRef.unary main_call10.cst main_call10.v0 (broadcastInDim S1600000x64 ![] bcast_S_S1600000x64) : HloOp τ sig (Elt F)).result (RV33 V) (Proc.devRef .tc main_call10_v0) := by
  have h := ssa_main_call10_v0 (F := F) (RV20 V)
  rw [unary_result] at h ⊢
  rw [lift21 V main_call10_v0 (by decide), lift21 V main_call10_cst (by decide)]
  exact h

theorem ssa_main_v216 (V : Valuation τ sig (Elt F)) :
    after rops20 V (Proc.devRef .tc main_v216) = (StableHlo.TRef.binary (.of main_v215) main_call10.v0 main_call10.v1 maximumf : HloOp τ sig (Elt F)).result (after rops20 V) (Proc.devRef .tc main_v216) := by
  after_results_simp
theorem fin_main_v216 (V : Valuation τ sig (Elt F)) :
    RV33 V (Proc.devRef .tc main_v216) = (StableHlo.TRef.binary (.of main_v215) main_call10.v0 main_call10.v1 maximumf : HloOp τ sig (Elt F)).result (RV33 V) (Proc.devRef .tc main_v216) := by
  have h := ssa_main_v216 (F := F) (RV20 V)
  rw [binary_result] at h ⊢
  rw [lift21 V main_v216 (by decide), lift21 V main_v215 (by decide), lift21 V main_call10_v0 (by decide)]
  exact h

theorem ssa_main_cst_32 (V : Valuation τ sig (Elt F)) :
    after rops20 V (Proc.devRef .tc main_cst_32) = (StableHlo.nullary main_cst_32 (constant S_ .f32 0x00000000#32) : HloOp τ sig (Elt F)).result (after rops20 V) (Proc.devRef .tc main_cst_32) := by
  after_results_simp
theorem fin_main_cst_32 (V : Valuation τ sig (Elt F)) :
    RV33 V (Proc.devRef .tc main_cst_32) = (StableHlo.nullary main_cst_32 (constant S_ .f32 0x00000000#32) : HloOp τ sig (Elt F)).result (RV33 V) (Proc.devRef .tc main_cst_32) := by
  have h := ssa_main_cst_32 (F := F) (RV20 V)
  rw [nullary_result] at h ⊢
  rw [lift21 V main_cst_32 (by decide)]
  exact h

theorem ssa_main_v217 (V : Valuation τ sig (Elt F)) :
    after rops20 V (Proc.devRef .tc main_v217) = (StableHlo.unary main_cst_32 main_v217 (broadcastInDim S100000x64 ![] bcast_S_S100000x64 : (⟨S_, .f32⟩ : BufTy).Contents (Elt F) → (⟨S100000x64, .f32⟩ : BufTy).Contents (Elt F)) : HloOp τ sig (Elt F)).result (after rops20 V) (Proc.devRef .tc main_v217) := by
  after_results_simp
theorem fin_main_v217 (V : Valuation τ sig (Elt F)) :
    RV33 V (Proc.devRef .tc main_v217) = (StableHlo.unary main_cst_32 main_v217 (broadcastInDim S100000x64 ![] bcast_S_S100000x64 : (⟨S_, .f32⟩ : BufTy).Contents (Elt F) → (⟨S100000x64, .f32⟩ : BufTy).Contents (Elt F)) : HloOp τ sig (Elt F)).result (RV33 V) (Proc.devRef .tc main_v217) := by
  have h := ssa_main_v217 (F := F) (RV20 V)
  rw [unary_result] at h ⊢
  rw [lift21 V main_v217 (by decide), lift21 V main_cst_32 (by decide)]
  exact h

theorem ssa_main_v218 (V : Valuation τ sig (Elt F)) :
    after rops20 V (Proc.devRef .tc main_v218) = (StableHlo.unary main_v3 main_v218 (broadcastInDim S1600000x1 ![0] bcast_S1600000_S1600000x1_0 : (⟨S1600000, .i32⟩ : BufTy).Contents (Elt F) → (⟨S1600000x1, .i32⟩ : BufTy).Contents (Elt F)) : HloOp τ sig (Elt F)).result (after rops20 V) (Proc.devRef .tc main_v218) := by
  after_results_simp
theorem fin_main_v218 (V : Valuation τ sig (Elt F)) :
    RV33 V (Proc.devRef .tc main_v218) = (StableHlo.unary main_v3 main_v218 (broadcastInDim S1600000x1 ![0] bcast_S1600000_S1600000x1_0 : (⟨S1600000, .i32⟩ : BufTy).Contents (Elt F) → (⟨S1600000x1, .i32⟩ : BufTy).Contents (Elt F)) : HloOp τ sig (Elt F)).result (RV33 V) (Proc.devRef .tc main_v218) := by
  have h := ssa_main_v218 (F := F) (RV20 V)
  rw [unary_result] at h ⊢
  rw [lift21 V main_v218 (by decide), lift21 V main_v3 (by decide)]
  exact h

theorem ssa_main_v219 (V : Valuation τ sig (Elt F)) :
    after rops20 V (Proc.devRef .tc main_v219) = (StableHlo.ternary main_v217 main_v218 main_v216 main_v219 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) : HloOp τ sig (Elt F)).result (after rops20 V) (Proc.devRef .tc main_v219) := by
  after_results_simp
theorem fin_main_v219 (V : Valuation τ sig (Elt F)) :
    RV33 V (Proc.devRef .tc main_v219) = (StableHlo.ternary main_v217 main_v218 main_v216 main_v219 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) : HloOp τ sig (Elt F)).result (RV33 V) (Proc.devRef .tc main_v219) := by
  have h := ssa_main_v219 (F := F) (RV20 V)
  rw [ternary_result] at h ⊢
  rw [lift21 V main_v219 (by decide), lift21 V main_v217 (by decide), lift21 V main_v218 (by decide), lift21 V main_v216 (by decide)]
  exact h

theorem ssa_main_v220 (V : Valuation τ sig (Elt F)) :
    after rops20 V (Proc.devRef .tc main_v220) = (StableHlo.unary main_arg6 main_v220 ((extractStridedSlice S1 ![2] · slices_S3_S1_2) : (⟨S3, .f32⟩ : BufTy).Contents (Elt F) → (⟨S1, .f32⟩ : BufTy).Contents (Elt F)) : HloOp τ sig (Elt F)).result (after rops20 V) (Proc.devRef .tc main_v220) := by
  after_results_simp
theorem fin_main_v220 (V : Valuation τ sig (Elt F)) :
    RV33 V (Proc.devRef .tc main_v220) = (StableHlo.unary main_arg6 main_v220 ((extractStridedSlice S1 ![2] · slices_S3_S1_2) : (⟨S3, .f32⟩ : BufTy).Contents (Elt F) → (⟨S1, .f32⟩ : BufTy).Contents (Elt F)) : HloOp τ sig (Elt F)).result (RV33 V) (Proc.devRef .tc main_v220) := by
  have h := ssa_main_v220 (F := F) (RV20 V)
  rw [unary_result] at h ⊢
  rw [lift21 V main_v220 (by decide), lift21 V main_arg6 (by decide)]
  exact h

theorem ssa_main_v221 (V : Valuation τ sig (Elt F)) :
    after rops20 V (Proc.devRef .tc main_v221) = (StableHlo.reshape main_v220 main_v221 rfl shapeCasts_S1_S_ : HloOp τ sig (Elt F)).result (after rops20 V) (Proc.devRef .tc main_v221) := by
  after_results_simp
theorem fin_main_v221 (V : Valuation τ sig (Elt F)) :
    RV33 V (Proc.devRef .tc main_v221) = (StableHlo.reshape main_v220 main_v221 rfl shapeCasts_S1_S_ : HloOp τ sig (Elt F)).result (RV33 V) (Proc.devRef .tc main_v221) := by
  have h := ssa_main_v221 (F := F) (RV20 V)
  rw [reshape_result] at h ⊢
  rw [lift21 V main_v221 (by decide), lift21 V main_v220 (by decide)]
  exact h

theorem ssa_main_cst_33 (V : Valuation τ sig (Elt F)) :
    after rops20 V (Proc.devRef .tc main_cst_33) = (StableHlo.nullary main_cst_33 (constant S_ .f32 0x3F800000#32) : HloOp τ sig (Elt F)).result (after rops20 V) (Proc.devRef .tc main_cst_33) := by
  after_results_simp
theorem fin_main_cst_33 (V : Valuation τ sig (Elt F)) :
    RV33 V (Proc.devRef .tc main_cst_33) = (StableHlo.nullary main_cst_33 (constant S_ .f32 0x3F800000#32) : HloOp τ sig (Elt F)).result (RV33 V) (Proc.devRef .tc main_cst_33) := by
  have h := ssa_main_cst_33 (F := F) (RV20 V)
  rw [nullary_result] at h ⊢
  rw [lift21 V main_cst_33 (by decide)]
  exact h

theorem ssa_main_v222 (V : Valuation τ sig (Elt F)) :
    after rops21 V (Proc.devRef .tc main_v222) = (StableHlo.binary main_cst_33 main_v221 main_v222 (addf : (⟨S_, .f32⟩ : BufTy).Contents (Elt F) → (⟨S_, .f32⟩ : BufTy).Contents (Elt F) → (⟨S_, .f32⟩ : BufTy).Contents (Elt F)) : HloOp τ sig (Elt F)).result (after rops21 V) (Proc.devRef .tc main_v222) := by
  after_results_simp
theorem fin_main_v222 (V : Valuation τ sig (Elt F)) :
    RV33 V (Proc.devRef .tc main_v222) = (StableHlo.binary main_cst_33 main_v221 main_v222 (addf : (⟨S_, .f32⟩ : BufTy).Contents (Elt F) → (⟨S_, .f32⟩ : BufTy).Contents (Elt F) → (⟨S_, .f32⟩ : BufTy).Contents (Elt F)) : HloOp τ sig (Elt F)).result (RV33 V) (Proc.devRef .tc main_v222) := by
  have h := ssa_main_v222 (F := F) (RV21 V)
  rw [binary_result] at h ⊢
  rw [lift22 V main_v222 (by decide), lift22 V main_cst_33 (by decide), lift22 V main_v221 (by decide)]
  exact h

theorem ssa_main_v223 (V : Valuation τ sig (Elt F)) :
    after rops21 V (Proc.devRef .tc main_v223) = (StableHlo.unary main_v222 main_v223 (broadcastInDim S100000x64 ![] bcast_S_S100000x64 : (⟨S_, .f32⟩ : BufTy).Contents (Elt F) → (⟨S100000x64, .f32⟩ : BufTy).Contents (Elt F)) : HloOp τ sig (Elt F)).result (after rops21 V) (Proc.devRef .tc main_v223) := by
  after_results_simp
theorem fin_main_v223 (V : Valuation τ sig (Elt F)) :
    RV33 V (Proc.devRef .tc main_v223) = (StableHlo.unary main_v222 main_v223 (broadcastInDim S100000x64 ![] bcast_S_S100000x64 : (⟨S_, .f32⟩ : BufTy).Contents (Elt F) → (⟨S100000x64, .f32⟩ : BufTy).Contents (Elt F)) : HloOp τ sig (Elt F)).result (RV33 V) (Proc.devRef .tc main_v223) := by
  have h := ssa_main_v223 (F := F) (RV21 V)
  rw [unary_result] at h ⊢
  rw [lift22 V main_v223 (by decide), lift22 V main_v222 (by decide)]
  exact h

theorem ssa_main_v224 (V : Valuation τ sig (Elt F)) :
    after rops21 V (Proc.devRef .tc main_v224) = (StableHlo.binary main_v223 main_v199 main_v224 (mulf : (⟨S100000x64, .f32⟩ : BufTy).Contents (Elt F) → (⟨S100000x64, .f32⟩ : BufTy).Contents (Elt F) → (⟨S100000x64, .f32⟩ : BufTy).Contents (Elt F)) : HloOp τ sig (Elt F)).result (after rops21 V) (Proc.devRef .tc main_v224) := by
  after_results_simp
theorem fin_main_v224 (V : Valuation τ sig (Elt F)) :
    RV33 V (Proc.devRef .tc main_v224) = (StableHlo.binary main_v223 main_v199 main_v224 (mulf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v224) := by
  have h := ssa_main_v224 (F := F) (RV21 V)
  rw [binary_result] at h ⊢
  rw [lift22 V main_v224 (by decide), lift22 V main_v223 (by decide), lift22 V main_v199 (by decide)]
  exact h

theorem ssa_main_v225 (V : Valuation τ sig (Elt F)) :
    after rops21 V (Proc.devRef .tc main_v225) = (StableHlo.binary main_v224 main_v219 main_v225 (addf : (⟨S100000x64, .f32⟩ : BufTy).Contents (Elt F) → (⟨S100000x64, .f32⟩ : BufTy).Contents (Elt F) → (⟨S100000x64, .f32⟩ : BufTy).Contents (Elt F)) : HloOp τ sig (Elt F)).result (after rops21 V) (Proc.devRef .tc main_v225) := by
  after_results_simp
theorem fin_main_v225 (V : Valuation τ sig (Elt F)) :
    RV33 V (Proc.devRef .tc main_v225) = (StableHlo.binary main_v224 main_v219 main_v225 (addf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v225) := by
  have h := ssa_main_v225 (F := F) (RV21 V)
  rw [binary_result] at h ⊢
  rw [lift22 V main_v225 (by decide), lift22 V main_v224 (by decide), lift22 V main_v219 (by decide)]
  exact h

theorem ssa_main_v226 (V : Valuation τ sig (Elt F)) :
    after rops21 V (Proc.devRef .tc main_v226) = (StableHlo.unary main_arg7 main_v226 ((extractStridedSlice S1x64x64 ![2, 0, 0] · slices_S3x64x64_S1x64x64_2_0_0) : (⟨S3x64x64, .f32⟩ : BufTy).Contents (Elt F) → (⟨S1x64x64, .f32⟩ : BufTy).Contents (Elt F)) : HloOp τ sig (Elt F)).result (after rops21 V) (Proc.devRef .tc main_v226) := by
  after_results_simp
theorem fin_main_v226 (V : Valuation τ sig (Elt F)) :
    RV33 V (Proc.devRef .tc main_v226) = (StableHlo.unary main_arg7 main_v226 ((extractStridedSlice S1x64x64 ![2, 0, 0] · slices_S3x64x64_S1x64x64_2_0_0) : (⟨S3x64x64, .f32⟩ : BufTy).Contents (Elt F) → (⟨S1x64x64, .f32⟩ : BufTy).Contents (Elt F)) : HloOp τ sig (Elt F)).result (RV33 V) (Proc.devRef .tc main_v226) := by
  have h := ssa_main_v226 (F := F) (RV21 V)
  rw [unary_result] at h ⊢
  rw [lift22 V main_v226 (by decide), lift22 V main_arg7 (by decide)]
  exact h

theorem ssa_main_v227 (V : Valuation τ sig (Elt F)) :
    after rops21 V (Proc.devRef .tc main_v227) = (StableHlo.reshape main_v226 main_v227 rfl shapeCasts_S1x64x64_S64x64 : HloOp τ sig (Elt F)).result (after rops21 V) (Proc.devRef .tc main_v227) := by
  after_results_simp
theorem fin_main_v227 (V : Valuation τ sig (Elt F)) :
    RV33 V (Proc.devRef .tc main_v227) = (StableHlo.reshape main_v226 main_v227 rfl shapeCasts_S1x64x64_S64x64 : HloOp τ sig (Elt F)).result (RV33 V) (Proc.devRef .tc main_v227) := by
  have h := ssa_main_v227 (F := F) (RV21 V)
  rw [reshape_result] at h ⊢
  rw [lift22 V main_v227 (by decide), lift22 V main_v226 (by decide)]
  exact h

theorem ssa_main_v228 (V : Valuation τ sig (Elt F)) :
    after rops21 V (Proc.devRef .tc main_v228) = (StableHlo.binary main_v225 main_v227 main_v228 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) : HloOp τ sig (Elt F)).result (after rops21 V) (Proc.devRef .tc main_v228) := by
  after_results_simp
theorem fin_main_v228 (V : Valuation τ sig (Elt F)) :
    RV33 V (Proc.devRef .tc main_v228) = (StableHlo.binary main_v225 main_v227 main_v228 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) : HloOp τ sig (Elt F)).result (RV33 V) (Proc.devRef .tc main_v228) := by
  have h := ssa_main_v228 (F := F) (RV21 V)
  rw [binary_result] at h ⊢
  rw [lift22 V main_v228 (by decide), lift22 V main_v225 (by decide), lift22 V main_v227 (by decide)]
  exact h

theorem ssa_main_v229 (V : Valuation τ sig (Elt F)) :
    after rops21 V (Proc.devRef .tc main_v229) = (StableHlo.unary main_arg8 main_v229 ((extractStridedSlice S1x64 ![2, 0] · slices_S3x64_S1x64_2_0) : (⟨S3x64, .f32⟩ : BufTy).Contents (Elt F) → (⟨S1x64, .f32⟩ : BufTy).Contents (Elt F)) : HloOp τ sig (Elt F)).result (after rops21 V) (Proc.devRef .tc main_v229) := by
  after_results_simp
theorem fin_main_v229 (V : Valuation τ sig (Elt F)) :
    RV33 V (Proc.devRef .tc main_v229) = (StableHlo.unary main_arg8 main_v229 ((extractStridedSlice S1x64 ![2, 0] · slices_S3x64_S1x64_2_0) : (⟨S3x64, .f32⟩ : BufTy).Contents (Elt F) → (⟨S1x64, .f32⟩ : BufTy).Contents (Elt F)) : HloOp τ sig (Elt F)).result (RV33 V) (Proc.devRef .tc main_v229) := by
  have h := ssa_main_v229 (F := F) (RV21 V)
  rw [unary_result] at h ⊢
  rw [lift22 V main_v229 (by decide), lift22 V main_arg8 (by decide)]
  exact h

theorem ssa_main_v230 (V : Valuation τ sig (Elt F)) :
    after rops21 V (Proc.devRef .tc main_v230) = (StableHlo.reshape main_v229 main_v230 rfl shapeCasts_S1x64_S64 : HloOp τ sig (Elt F)).result (after rops21 V) (Proc.devRef .tc main_v230) := by
  after_results_simp
theorem fin_main_v230 (V : Valuation τ sig (Elt F)) :
    RV33 V (Proc.devRef .tc main_v230) = (StableHlo.reshape main_v229 main_v230 rfl shapeCasts_S1x64_S64 : HloOp τ sig (Elt F)).result (RV33 V) (Proc.devRef .tc main_v230) := by
  have h := ssa_main_v230 (F := F) (RV21 V)
  rw [reshape_result] at h ⊢
  rw [lift22 V main_v230 (by decide), lift22 V main_v229 (by decide)]
  exact h

theorem ssa_main_v231 (V : Valuation τ sig (Elt F)) :
    after rops21 V (Proc.devRef .tc main_v231) = (StableHlo.unary main_v230 main_v231 (broadcastInDim S1x64 ![1] bcast_S64_S1x64_1 : (⟨S64, .f32⟩ : BufTy).Contents (Elt F) → (⟨S1x64, .f32⟩ : BufTy).Contents (Elt F)) : HloOp τ sig (Elt F)).result (after rops21 V) (Proc.devRef .tc main_v231) := by
  after_results_simp
theorem fin_main_v231 (V : Valuation τ sig (Elt F)) :
    RV33 V (Proc.devRef .tc main_v231) = (StableHlo.unary main_v230 main_v231 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v231) := by
  have h := ssa_main_v231 (F := F) (RV21 V)
  rw [unary_result] at h ⊢
  rw [lift22 V main_v231 (by decide), lift22 V main_v230 (by decide)]
  exact h

theorem ssa_main_v232 (V : Valuation τ sig (Elt F)) :
    after rops21 V (Proc.devRef .tc main_v232) = (StableHlo.unary main_v231 main_v232 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops21 V) (Proc.devRef .tc main_v232) := by
  after_results_simp
theorem fin_main_v232 (V : Valuation τ sig (Elt F)) :
    RV33 V (Proc.devRef .tc main_v232) = (StableHlo.unary main_v231 main_v232 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v232) := by
  have h := ssa_main_v232 (F := F) (RV21 V)
  rw [unary_result] at h ⊢
  rw [lift22 V main_v232 (by decide), lift22 V main_v231 (by decide)]
  exact h

theorem ssa_main_v233 (V : Valuation τ sig (Elt F)) :
    after rops21 V (Proc.devRef .tc main_v233) = (StableHlo.binary main_v228 main_v232 main_v233 (addf : (⟨S100000x64, .f32⟩ : BufTy).Contents (Elt F) → (⟨S100000x64, .f32⟩ : BufTy).Contents (Elt F) → (⟨S100000x64, .f32⟩ : BufTy).Contents (Elt F)) : HloOp τ sig (Elt F)).result (after rops21 V) (Proc.devRef .tc main_v233) := by
  after_results_simp
theorem fin_main_v233 (V : Valuation τ sig (Elt F)) :
    RV33 V (Proc.devRef .tc main_v233) = (StableHlo.binary main_v228 main_v232 main_v233 (addf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v233) := by
  have h := ssa_main_v233 (F := F) (RV21 V)
  rw [binary_result] at h ⊢
  rw [lift22 V main_v233 (by decide), lift22 V main_v228 (by decide), lift22 V main_v232 (by decide)]
  exact h

theorem ssa_main_v234 (V : Valuation τ sig (Elt F)) :
    after rops21 V (Proc.devRef .tc main_v234) = (StableHlo.unary main_arg9 main_v234 ((extractStridedSlice S1x64 ![2, 0] · slices_S3x64_S1x64_2_0) : (⟨S3x64, .f32⟩ : BufTy).Contents (Elt F) → (⟨S1x64, .f32⟩ : BufTy).Contents (Elt F)) : HloOp τ sig (Elt F)).result (after rops21 V) (Proc.devRef .tc main_v234) := by
  after_results_simp
theorem fin_main_v234 (V : Valuation τ sig (Elt F)) :
    RV33 V (Proc.devRef .tc main_v234) = (StableHlo.unary main_arg9 main_v234 ((extractStridedSlice S1x64 ![2, 0] · slices_S3x64_S1x64_2_0) : (⟨S3x64, .f32⟩ : BufTy).Contents (Elt F) → (⟨S1x64, .f32⟩ : BufTy).Contents (Elt F)) : HloOp τ sig (Elt F)).result (RV33 V) (Proc.devRef .tc main_v234) := by
  have h := ssa_main_v234 (F := F) (RV21 V)
  rw [unary_result] at h ⊢
  rw [lift22 V main_v234 (by decide), lift22 V main_arg9 (by decide)]
  exact h

theorem ssa_main_v235 (V : Valuation τ sig (Elt F)) :
    after rops21 V (Proc.devRef .tc main_v235) = (StableHlo.reshape main_v234 main_v235 rfl shapeCasts_S1x64_S64 : HloOp τ sig (Elt F)).result (after rops21 V) (Proc.devRef .tc main_v235) := by
  after_results_simp
theorem fin_main_v235 (V : Valuation τ sig (Elt F)) :
    RV33 V (Proc.devRef .tc main_v235) = (StableHlo.reshape main_v234 main_v235 rfl shapeCasts_S1x64_S64 : HloOp τ sig (Elt F)).result (RV33 V) (Proc.devRef .tc main_v235) := by
  have h := ssa_main_v235 (F := F) (RV21 V)
  rw [reshape_result] at h ⊢
  rw [lift22 V main_v235 (by decide), lift22 V main_v234 (by decide)]
  exact h

theorem ssa_main_v236 (V : Valuation τ sig (Elt F)) :
    after rops21 V (Proc.devRef .tc main_v236) = (StableHlo.unary main_arg10 main_v236 ((extractStridedSlice S1x64 ![2, 0] · slices_S3x64_S1x64_2_0) : (⟨S3x64, .f32⟩ : BufTy).Contents (Elt F) → (⟨S1x64, .f32⟩ : BufTy).Contents (Elt F)) : HloOp τ sig (Elt F)).result (after rops21 V) (Proc.devRef .tc main_v236) := by
  after_results_simp
theorem fin_main_v236 (V : Valuation τ sig (Elt F)) :
    RV33 V (Proc.devRef .tc main_v236) = (StableHlo.unary main_arg10 main_v236 ((extractStridedSlice S1x64 ![2, 0] · slices_S3x64_S1x64_2_0) : (⟨S3x64, .f32⟩ : BufTy).Contents (Elt F) → (⟨S1x64, .f32⟩ : BufTy).Contents (Elt F)) : HloOp τ sig (Elt F)).result (RV33 V) (Proc.devRef .tc main_v236) := by
  have h := ssa_main_v236 (F := F) (RV21 V)
  rw [unary_result] at h ⊢
  rw [lift22 V main_v236 (by decide), lift22 V main_arg10 (by decide)]
  exact h

theorem ssa_main_v237 (V : Valuation τ sig (Elt F)) :
    after rops21 V (Proc.devRef .tc main_v237) = (StableHlo.reshape main_v236 main_v237 rfl shapeCasts_S1x64_S64 : HloOp τ sig (Elt F)).result (after rops21 V) (Proc.devRef .tc main_v237) := by
  after_results_simp
theorem fin_main_v237 (V : Valuation τ sig (Elt F)) :
    RV33 V (Proc.devRef .tc main_v237) = (StableHlo.reshape main_v236 main_v237 rfl shapeCasts_S1x64_S64 : HloOp τ sig (Elt F)).result (RV33 V) (Proc.devRef .tc main_v237) := by
  have h := ssa_main_v237 (F := F) (RV21 V)
  rw [reshape_result] at h ⊢
  rw [lift22 V main_v237 (by decide), lift22 V main_v236 (by decide)]
  exact h

theorem ssa_main_cst_34 (V : Valuation τ sig (Elt F)) :
    after rops21 V (Proc.devRef .tc main_cst_34) = (StableHlo.nullary main_cst_34 (constant S_ .f32 0x00000000#32) : HloOp τ sig (Elt F)).result (after rops21 V) (Proc.devRef .tc main_cst_34) := by
  after_results_simp
theorem fin_main_cst_34 (V : Valuation τ sig (Elt F)) :
    RV33 V (Proc.devRef .tc main_cst_34) = (StableHlo.nullary main_cst_34 (constant S_ .f32 0x00000000#32) : HloOp τ sig (Elt F)).result (RV33 V) (Proc.devRef .tc main_cst_34) := by
  have h := ssa_main_cst_34 (F := F) (RV21 V)
  rw [nullary_result] at h ⊢
  rw [lift22 V main_cst_34 (by decide)]
  exact h

theorem ssa_main_v238 (V : Valuation τ sig (Elt F)) :
    after rops21 V (Proc.devRef .tc main_v238) = (StableHlo.binary main_v233 main_cst_34 main_v238 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) : HloOp τ sig (Elt F)).result (after rops21 V) (Proc.devRef .tc main_v238) := by
  after_results_simp
theorem fin_main_v238 (V : Valuation τ sig (Elt F)) :
    RV33 V (Proc.devRef .tc main_v238) = (StableHlo.binary main_v233 main_cst_34 main_v238 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) : HloOp τ sig (Elt F)).result (RV33 V) (Proc.devRef .tc main_v238) := by
  have h := ssa_main_v238 (F := F) (RV21 V)
  rw [binary_result] at h ⊢
  rw [lift22 V main_v238 (by decide), lift22 V main_v233 (by decide), lift22 V main_cst_34 (by decide)]
  exact h

theorem ssa_main_cst_35 (V : Valuation τ sig (Elt F)) :
    after rops21 V (Proc.devRef .tc main_cst_35) = (StableHlo.nullary main_cst_35 (constant S_ .f32 0x47C35000#32) : HloOp τ sig (Elt F)).result (after rops21 V) (Proc.devRef .tc main_cst_35) := by
  after_results_simp
theorem fin_main_cst_35 (V : Valuation τ sig (Elt F)) :
    RV33 V (Proc.devRef .tc main_cst_35) = (StableHlo.nullary main_cst_35 (constant S_ .f32 0x47C35000#32) : HloOp τ sig (Elt F)).result (RV33 V) (Proc.devRef .tc main_cst_35) := by
  have h := ssa_main_cst_35 (F := F) (RV21 V)
  rw [nullary_result] at h ⊢
  rw [lift22 V main_cst_35 (by decide)]
  exact h

theorem ssa_main_v239 (V : Valuation τ sig (Elt F)) :
    after rops21 V (Proc.devRef .tc main_v239) = (StableHlo.unary main_cst_35 main_v239 (broadcastInDim S64 ![] bcast_S_S64 : (⟨S_, .f32⟩ : BufTy).Contents (Elt F) → (⟨S64, .f32⟩ : BufTy).Contents (Elt F)) : HloOp τ sig (Elt F)).result (after rops21 V) (Proc.devRef .tc main_v239) := by
  after_results_simp
theorem fin_main_v239 (V : Valuation τ sig (Elt F)) :
    RV33 V (Proc.devRef .tc main_v239) = (StableHlo.unary main_cst_35 main_v239 (broadcastInDim S64 ![] bcast_S_S64 : (⟨S_, .f32⟩ : BufTy).Contents (Elt F) → (⟨S64, .f32⟩ : BufTy).Contents (Elt F)) : HloOp τ sig (Elt F)).result (RV33 V) (Proc.devRef .tc main_v239) := by
  have h := ssa_main_v239 (F := F) (RV21 V)
  rw [unary_result] at h ⊢
  rw [lift22 V main_v239 (by decide), lift22 V main_cst_35 (by decide)]
  exact h

theorem ssa_main_v240 (V : Valuation τ sig (Elt F)) :
    after rops22 V (Proc.devRef .tc main_v240) = (StableHlo.binary main_v238 main_v239 main_v240 (Host.divf : (⟨S64, .f32⟩ : BufTy).Contents (Elt F) → (⟨S64, .f32⟩ : BufTy).Contents (Elt F) → (⟨S64, .f32⟩ : BufTy).Contents (Elt F)) : HloOp τ sig (Elt F)).result (after rops22 V) (Proc.devRef .tc main_v240) := by
  after_results_simp
theorem fin_main_v240 (V : Valuation τ sig (Elt F)) :
    RV33 V (Proc.devRef .tc main_v240) = (StableHlo.binary main_v238 main_v239 main_v240 (Host.divf : (⟨S64, .f32⟩ : BufTy).Contents (Elt F) → (⟨S64, .f32⟩ : BufTy).Contents (Elt F) → (⟨S64, .f32⟩ : BufTy).Contents (Elt F)) : HloOp τ sig (Elt F)).result (RV33 V) (Proc.devRef .tc main_v240) := by
  have h := ssa_main_v240 (F := F) (RV22 V)
  rw [binary_result] at h ⊢
  rw [lift23 V main_v240 (by decide), lift23 V main_v238 (by decide), lift23 V main_v239 (by decide)]
  exact h

theorem ssa_main_c_36 (V : Valuation τ sig (Elt F)) :
    after rops22 V (Proc.devRef .tc main_c_36) = (StableHlo.nullary main_c_36 (constantI S_ 32 0#32) : HloOp τ sig (Elt F)).result (after rops22 V) (Proc.devRef .tc main_c_36) := by
  after_results_simp
theorem fin_main_c_36 (V : Valuation τ sig (Elt F)) :
    RV33 V (Proc.devRef .tc main_c_36) = (StableHlo.nullary main_c_36 (constantI S_ 32 0#32) : HloOp τ sig (Elt F)).result (RV33 V) (Proc.devRef .tc main_c_36) := by
  have h := ssa_main_c_36 (F := F) (RV22 V)
  rw [nullary_result] at h ⊢
  rw [lift23 V main_c_36 (by decide)]
  exact h

theorem ssa_main_call11_cst (V : Valuation τ sig (Elt F)) :
    after rops22 V (Proc.devRef .tc main_call11_cst) = (StableHlo.TRef.nullary main_call11.cst (constant S_ .f32 0x00000000#32) : HloOp τ sig (Elt F)).result (after rops22 V) (Proc.devRef .tc main_call11_cst) := by
  after_results_simp
theorem fin_main_call11_cst (V : Valuation τ sig (Elt F)) :
    RV33 V (Proc.devRef .tc main_call11_cst) = (StableHlo.TRef.nullary main_call11.cst (constant S_ .f32 0x00000000#32) : HloOp τ sig (Elt F)).result (RV33 V) (Proc.devRef .tc main_call11_cst) := by
  have h := ssa_main_call11_cst (F := F) (RV22 V)
  rw [nullary_result] at h ⊢
  rw [lift23 V main_call11_cst (by decide)]
  exact h

theorem ssa_main_call11_v0 (V : Valuation τ sig (Elt F)) :
    after rops22 V (Proc.devRef .tc main_call11_v0) = (StableHlo.TRef.binary (.of main_v233) main_call11.cst main_call11.v0 (fun x v => Host.reduceAdd x v reducesTo_S100000x64_S64_d0 h_S_) : HloOp τ sig (Elt F)).result (after rops22 V) (Proc.devRef .tc main_call11_v0) := by
  after_results_simp
theorem fin_main_call11_v0 (V : Valuation τ sig (Elt F)) :
    RV33 V (Proc.devRef .tc main_call11_v0) = (StableHlo.TRef.binary (.of main_v233) main_call11.cst main_call11.v0 (fun x v => Host.reduceAdd x v reducesTo_S100000x64_S64_d0 h_S_) : HloOp τ sig (Elt F)).result (RV33 V) (Proc.devRef .tc main_call11_v0) := by
  have h := ssa_main_call11_v0 (F := F) (RV22 V)
  rw [binary_result] at h ⊢
  rw [lift23 V main_call11_v0 (by decide), lift23 V main_v233 (by decide), lift23 V main_call11_cst (by decide)]
  exact h

theorem ssa_main_call11_v1 (V : Valuation τ sig (Elt F)) :
    after rops22 V (Proc.devRef .tc main_call11_v1) = (StableHlo.TRef.unary main_call11.v0 main_call11.v1 (broadcastInDim S1x64 ![1] bcast_S64_S1x64_1) : HloOp τ sig (Elt F)).result (after rops22 V) (Proc.devRef .tc main_call11_v1) := by
  after_results_simp
theorem fin_main_call11_v1 (V : Valuation τ sig (Elt F)) :
    RV33 V (Proc.devRef .tc main_call11_v1) = (StableHlo.TRef.unary main_call11.v0 main_call11.v1 (broadcastInDim S1x64 ![1] bcast_S64_S1x64_1) : HloOp τ sig (Elt F)).result (RV33 V) (Proc.devRef .tc main_call11_v1) := by
  have h := ssa_main_call11_v1 (F := F) (RV22 V)
  rw [unary_result] at h ⊢
  rw [lift23 V main_call11_v1 (by decide), lift23 V main_call11_v0 (by decide)]
  exact h

theorem ssa_main_call11_cst_0 (V : Valuation τ sig (Elt F)) :
    after rops22 V (Proc.devRef .tc main_call11_cst_0) = (StableHlo.TRef.nullary main_call11.cst_0 (constant S_ .f32 0x47C35000#32) : HloOp τ sig (Elt F)).result (after rops22 V) (Proc.devRef .tc main_call11_cst_0) := by
  after_results_simp
theorem fin_main_call11_cst_0 (V : Valuation τ sig (Elt F)) :
    RV33 V (Proc.devRef .tc main_call11_cst_0) = (StableHlo.TRef.nullary main_call11.cst_0 (constant S_ .f32 0x47C35000#32) : HloOp τ sig (Elt F)).result (RV33 V) (Proc.devRef .tc main_call11_cst_0) := by
  have h := ssa_main_call11_cst_0 (F := F) (RV22 V)
  rw [nullary_result] at h ⊢
  rw [lift23 V main_call11_cst_0 (by decide)]
  exact h

theorem ssa_main_call11_v2 (V : Valuation τ sig (Elt F)) :
    after rops22 V (Proc.devRef .tc main_call11_v2) = (StableHlo.TRef.unary main_call11.cst_0 main_call11.v2 (broadcastInDim S1x64 ![] bcast_S_S1x64) : HloOp τ sig (Elt F)).result (after rops22 V) (Proc.devRef .tc main_call11_v2) := by
  after_results_simp
theorem fin_main_call11_v2 (V : Valuation τ sig (Elt F)) :
    RV33 V (Proc.devRef .tc main_call11_v2) = (StableHlo.TRef.unary main_call11.cst_0 main_call11.v2 (broadcastInDim S1x64 ![] bcast_S_S1x64) : HloOp τ sig (Elt F)).result (RV33 V) (Proc.devRef .tc main_call11_v2) := by
  have h := ssa_main_call11_v2 (F := F) (RV22 V)
  rw [unary_result] at h ⊢
  rw [lift23 V main_call11_v2 (by decide), lift23 V main_call11_cst_0 (by decide)]
  exact h

theorem ssa_main_call11_v3 (V : Valuation τ sig (Elt F)) :
    after rops22 V (Proc.devRef .tc main_call11_v3) = (StableHlo.TRef.binary main_call11.v1 main_call11.v2 main_call11.v3 Host.divf : HloOp τ sig (Elt F)).result (after rops22 V) (Proc.devRef .tc main_call11_v3) := by
  after_results_simp
theorem fin_main_call11_v3 (V : Valuation τ sig (Elt F)) :
    RV33 V (Proc.devRef .tc main_call11_v3) = (StableHlo.TRef.binary main_call11.v1 main_call11.v2 main_call11.v3 Host.divf : HloOp τ sig (Elt F)).result (RV33 V) (Proc.devRef .tc main_call11_v3) := by
  have h := ssa_main_call11_v3 (F := F) (RV22 V)
  rw [binary_result] at h ⊢
  rw [lift23 V main_call11_v3 (by decide), lift23 V main_call11_v1 (by decide), lift23 V main_call11_v2 (by decide)]
  exact h

theorem ssa_main_call11_v4 (V : Valuation τ sig (Elt F)) :
    after rops22 V (Proc.devRef .tc main_call11_v4) = (StableHlo.TRef.unary main_call11.v3 main_call11.v4 (broadcastInDim S100000x64 ![0, 1] bcast_S1x64_S100000x64_0_1) : HloOp τ sig (Elt F)).result (after rops22 V) (Proc.devRef .tc main_call11_v4) := by
  after_results_simp
theorem fin_main_call11_v4 (V : Valuation τ sig (Elt F)) :
    RV33 V (Proc.devRef .tc main_call11_v4) = (StableHlo.TRef.unary main_call11.v3 main_call11.v4 (broadcastInDim S100000x64 ![0, 1] bcast_S1x64_S100000x64_0_1) : HloOp τ sig (Elt F)).result (RV33 V) (Proc.devRef .tc main_call11_v4) := by
  have h := ssa_main_call11_v4 (F := F) (RV22 V)
  rw [unary_result] at h ⊢
  rw [lift23 V main_call11_v4 (by decide), lift23 V main_call11_v3 (by decide)]
  exact h

theorem ssa_main_call11_v5 (V : Valuation τ sig (Elt F)) :
    after rops22 V (Proc.devRef .tc main_call11_v5) = (StableHlo.TRef.binary (.of main_v233) main_call11.v4 main_call11.v5 subf : HloOp τ sig (Elt F)).result (after rops22 V) (Proc.devRef .tc main_call11_v5) := by
  after_results_simp
theorem fin_main_call11_v5 (V : Valuation τ sig (Elt F)) :
    RV33 V (Proc.devRef .tc main_call11_v5) = (StableHlo.TRef.binary (.of main_v233) main_call11.v4 main_call11.v5 subf : HloOp τ sig (Elt F)).result (RV33 V) (Proc.devRef .tc main_call11_v5) := by
  have h := ssa_main_call11_v5 (F := F) (RV22 V)
  rw [binary_result] at h ⊢
  rw [lift23 V main_call11_v5 (by decide), lift23 V main_v233 (by decide), lift23 V main_call11_v4 (by decide)]
  exact h

theorem ssa_main_call11_v6 (V : Valuation τ sig (Elt F)) :
    after rops22 V (Proc.devRef .tc main_call11_v6) = (StableHlo.TRef.binary main_call11.v5 main_call11.v5 main_call11.v6 mulf : HloOp τ sig (Elt F)).result (after rops22 V) (Proc.devRef .tc main_call11_v6) := by
  after_results_simp
theorem fin_main_call11_v6 (V : Valuation τ sig (Elt F)) :
    RV33 V (Proc.devRef .tc main_call11_v6) = (StableHlo.TRef.binary main_call11.v5 main_call11.v5 main_call11.v6 mulf : HloOp τ sig (Elt F)).result (RV33 V) (Proc.devRef .tc main_call11_v6) := by
  have h := ssa_main_call11_v6 (F := F) (RV22 V)
  rw [binary_result] at h ⊢
  rw [lift23 V main_call11_v6 (by decide), lift23 V main_call11_v5 (by decide)]
  exact h

theorem ssa_main_call11_v7 (V : Valuation τ sig (Elt F)) :
    after rops22 V (Proc.devRef .tc main_call11_v7) = (StableHlo.TRef.unary (.of main_c_36) main_call11.v7 (sitofp .f32) : HloOp τ sig (Elt F)).result (after rops22 V) (Proc.devRef .tc main_call11_v7) := by
  after_results_simp
theorem fin_main_call11_v7 (V : Valuation τ sig (Elt F)) :
    RV33 V (Proc.devRef .tc main_call11_v7) = (StableHlo.TRef.unary (.of main_c_36) main_call11.v7 (sitofp .f32) : HloOp τ sig (Elt F)).result (RV33 V) (Proc.devRef .tc main_call11_v7) := by
  have h := ssa_main_call11_v7 (F := F) (RV22 V)
  rw [unary_result] at h ⊢
  rw [lift23 V main_call11_v7 (by decide), lift23 V main_c_36 (by decide)]
  exact h

theorem ssa_main_call11_cst_1 (V : Valuation τ sig (Elt F)) :
    after rops22 V (Proc.devRef .tc main_call11_cst_1) = (StableHlo.TRef.nullary main_call11.cst_1 (constant S_ .f32 0x47C35000#32) : HloOp τ sig (Elt F)).result (after rops22 V) (Proc.devRef .tc main_call11_cst_1) := by
  after_results_simp
theorem fin_main_call11_cst_1 (V : Valuation τ sig (Elt F)) :
    RV33 V (Proc.devRef .tc main_call11_cst_1) = (StableHlo.TRef.nullary main_call11.cst_1 (constant S_ .f32 0x47C35000#32) : HloOp τ sig (Elt F)).result (RV33 V) (Proc.devRef .tc main_call11_cst_1) := by
  have h := ssa_main_call11_cst_1 (F := F) (RV22 V)
  rw [nullary_result] at h ⊢
  rw [lift23 V main_call11_cst_1 (by decide)]
  exact h

theorem ssa_main_call11_v8 (V : Valuation τ sig (Elt F)) :
    after rops22 V (Proc.devRef .tc main_call11_v8) = (StableHlo.TRef.binary main_call11.cst_1 main_call11.v7 main_call11.v8 subf : HloOp τ sig (Elt F)).result (after rops22 V) (Proc.devRef .tc main_call11_v8) := by
  after_results_simp
theorem fin_main_call11_v8 (V : Valuation τ sig (Elt F)) :
    RV33 V (Proc.devRef .tc main_call11_v8) = (StableHlo.TRef.binary main_call11.cst_1 main_call11.v7 main_call11.v8 subf : HloOp τ sig (Elt F)).result (RV33 V) (Proc.devRef .tc main_call11_v8) := by
  have h := ssa_main_call11_v8 (F := F) (RV22 V)
  rw [binary_result] at h ⊢
  rw [lift23 V main_call11_v8 (by decide), lift23 V main_call11_cst_1 (by decide), lift23 V main_call11_v7 (by decide)]
  exact h

theorem ssa_main_call11_cst_2 (V : Valuation τ sig (Elt F)) :
    after rops22 V (Proc.devRef .tc main_call11_cst_2) = (StableHlo.TRef.nullary main_call11.cst_2 (constant S_ .f32 0x00000000#32) : HloOp τ sig (Elt F)).result (after rops22 V) (Proc.devRef .tc main_call11_cst_2) := by
  after_results_simp
theorem fin_main_call11_cst_2 (V : Valuation τ sig (Elt F)) :
    RV33 V (Proc.devRef .tc main_call11_cst_2) = (StableHlo.TRef.nullary main_call11.cst_2 (constant S_ .f32 0x00000000#32) : HloOp τ sig (Elt F)).result (RV33 V) (Proc.devRef .tc main_call11_cst_2) := by
  have h := ssa_main_call11_cst_2 (F := F) (RV22 V)
  rw [nullary_result] at h ⊢
  rw [lift23 V main_call11_cst_2 (by decide)]
  exact h

theorem ssa_main_call11_v9 (V : Valuation τ sig (Elt F)) :
    after rops22 V (Proc.devRef .tc main_call11_v9) = (StableHlo.TRef.binary main_call11.v6 main_call11.cst_2 main_call11.v9 (fun x v => Host.reduceAdd x v reducesTo_S100000x64_S64_d0 h_S_) : HloOp τ sig (Elt F)).result (after rops22 V) (Proc.devRef .tc main_call11_v9) := by
  after_results_simp
theorem fin_main_call11_v9 (V : Valuation τ sig (Elt F)) :
    RV33 V (Proc.devRef .tc main_call11_v9) = (StableHlo.TRef.binary main_call11.v6 main_call11.cst_2 main_call11.v9 (fun x v => Host.reduceAdd x v reducesTo_S100000x64_S64_d0 h_S_) : HloOp τ sig (Elt F)).result (RV33 V) (Proc.devRef .tc main_call11_v9) := by
  have h := ssa_main_call11_v9 (F := F) (RV22 V)
  rw [binary_result] at h ⊢
  rw [lift23 V main_call11_v9 (by decide), lift23 V main_call11_v6 (by decide), lift23 V main_call11_cst_2 (by decide)]
  exact h

theorem ssa_main_call11_v10 (V : Valuation τ sig (Elt F)) :
    after rops22 V (Proc.devRef .tc main_call11_v10) = (StableHlo.TRef.unary main_call11.v8 main_call11.v10 (broadcastInDim S64 ![] bcast_S_S64) : HloOp τ sig (Elt F)).result (after rops22 V) (Proc.devRef .tc main_call11_v10) := by
  after_results_simp
theorem fin_main_call11_v10 (V : Valuation τ sig (Elt F)) :
    RV33 V (Proc.devRef .tc main_call11_v10) = (StableHlo.TRef.unary main_call11.v8 main_call11.v10 (broadcastInDim S64 ![] bcast_S_S64) : HloOp τ sig (Elt F)).result (RV33 V) (Proc.devRef .tc main_call11_v10) := by
  have h := ssa_main_call11_v10 (F := F) (RV22 V)
  rw [unary_result] at h ⊢
  rw [lift23 V main_call11_v10 (by decide), lift23 V main_call11_v8 (by decide)]
  exact h

theorem ssa_main_call11_v11 (V : Valuation τ sig (Elt F)) :
    after rops22 V (Proc.devRef .tc main_call11_v11) = (StableHlo.TRef.binary main_call11.v9 main_call11.v10 main_call11.v11 Host.divf : HloOp τ sig (Elt F)).result (after rops22 V) (Proc.devRef .tc main_call11_v11) := by
  after_results_simp
theorem fin_main_call11_v11 (V : Valuation τ sig (Elt F)) :
    RV33 V (Proc.devRef .tc main_call11_v11) = (StableHlo.TRef.binary main_call11.v9 main_call11.v10 main_call11.v11 Host.divf : HloOp τ sig (Elt F)).result (RV33 V) (Proc.devRef .tc main_call11_v11) := by
  have h := ssa_main_call11_v11 (F := F) (RV22 V)
  rw [binary_result] at h ⊢
  rw [lift23 V main_call11_v11 (by decide), lift23 V main_call11_v9 (by decide), lift23 V main_call11_v10 (by decide)]
  exact h

theorem ssa_main_call11_cst_3 (V : Valuation τ sig (Elt F)) :
    after rops22 V (Proc.devRef .tc main_call11_cst_3) = (StableHlo.TRef.nullary main_call11.cst_3 (constant S_ .f32 0x00000000#32) : HloOp τ sig (Elt F)).result (after rops22 V) (Proc.devRef .tc main_call11_cst_3) := by
  after_results_simp
theorem fin_main_call11_cst_3 (V : Valuation τ sig (Elt F)) :
    RV33 V (Proc.devRef .tc main_call11_cst_3) = (StableHlo.TRef.nullary main_call11.cst_3 (constant S_ .f32 0x00000000#32) : HloOp τ sig (Elt F)).result (RV33 V) (Proc.devRef .tc main_call11_cst_3) := by
  have h := ssa_main_call11_cst_3 (F := F) (RV22 V)
  rw [nullary_result] at h ⊢
  rw [lift23 V main_call11_cst_3 (by decide)]
  exact h

theorem ssa_main_call11_v12 (V : Valuation τ sig (Elt F)) :
    after rops22 V (Proc.devRef .tc main_call11_v12) = (StableHlo.TRef.binary main_call11.v8 main_call11.cst_3 main_call11.v12 (cmpf .ogt) : HloOp τ sig (Elt F)).result (after rops22 V) (Proc.devRef .tc main_call11_v12) := by
  after_results_simp
theorem fin_main_call11_v12 (V : Valuation τ sig (Elt F)) :
    RV33 V (Proc.devRef .tc main_call11_v12) = (StableHlo.TRef.binary main_call11.v8 main_call11.cst_3 main_call11.v12 (cmpf .ogt) : HloOp τ sig (Elt F)).result (RV33 V) (Proc.devRef .tc main_call11_v12) := by
  have h := ssa_main_call11_v12 (F := F) (RV22 V)
  rw [binary_result] at h ⊢
  rw [lift23 V main_call11_v12 (by decide), lift23 V main_call11_v8 (by decide), lift23 V main_call11_cst_3 (by decide)]
  exact h

theorem ssa_main_call11_cst_4 (V : Valuation τ sig (Elt F)) :
    after rops23 V (Proc.devRef .tc main_call11_cst_4) = (StableHlo.TRef.nullary main_call11.cst_4 (constant S_ .f32 0x7FC00000#32) : HloOp τ sig (Elt F)).result (after rops23 V) (Proc.devRef .tc main_call11_cst_4) := by
  after_results_simp
theorem fin_main_call11_cst_4 (V : Valuation τ sig (Elt F)) :
    RV33 V (Proc.devRef .tc main_call11_cst_4) = (StableHlo.TRef.nullary main_call11.cst_4 (constant S_ .f32 0x7FC00000#32) : HloOp τ sig (Elt F)).result (RV33 V) (Proc.devRef .tc main_call11_cst_4) := by
  have h := ssa_main_call11_cst_4 (F := F) (RV23 V)
  rw [nullary_result] at h ⊢
  rw [lift24 V main_call11_cst_4 (by decide)]
  exact h

theorem ssa_main_call11_call0_v0 (V : Valuation τ sig (Elt F)) :
    after rops23 V (Proc.devRef .tc main_call11_call0_v0) = (StableHlo.TRef.unary main_call11.cst_4 main_call11.call0.v0 id : HloOp τ sig (Elt F)).result (after rops23 V) (Proc.devRef .tc main_call11_call0_v0) := by
  after_results_simp
theorem fin_main_call11_call0_v0 (V : Valuation τ sig (Elt F)) :
    RV33 V (Proc.devRef .tc main_call11_call0_v0) = (StableHlo.TRef.unary main_call11.cst_4 main_call11.call0.v0 id : HloOp τ sig (Elt F)).result (RV33 V) (Proc.devRef .tc main_call11_call0_v0) := by
  have h := ssa_main_call11_call0_v0 (F := F) (RV23 V)
  rw [unary_result] at h ⊢
  rw [lift24 V main_call11_call0_v0 (by decide), lift24 V main_call11_cst_4 (by decide)]
  exact h

theorem ssa_main_call11_call0_v1 (V : Valuation τ sig (Elt F)) :
    after rops23 V (Proc.devRef .tc main_call11_call0_v1) = (StableHlo.TRef.unary main_call11.call0.v0 main_call11.call0.v1 (broadcastInDim S64 ![] bcast_S_S64) : HloOp τ sig (Elt F)).result (after rops23 V) (Proc.devRef .tc main_call11_call0_v1) := by
  after_results_simp
theorem fin_main_call11_call0_v1 (V : Valuation τ sig (Elt F)) :
    RV33 V (Proc.devRef .tc main_call11_call0_v1) = (StableHlo.TRef.unary main_call11.call0.v0 main_call11.call0.v1 (broadcastInDim S64 ![] bcast_S_S64) : HloOp τ sig (Elt F)).result (RV33 V) (Proc.devRef .tc main_call11_call0_v1) := by
  have h := ssa_main_call11_call0_v1 (F := F) (RV23 V)
  rw [unary_result] at h ⊢
  rw [lift24 V main_call11_call0_v1 (by decide), lift24 V main_call11_call0_v0 (by decide)]
  exact h

theorem ssa_main_v241 (V : Valuation τ sig (Elt F)) :
    after rops23 V (Proc.devRef .tc main_v241) = (StableHlo.TRef.ternary main_call11.v12 main_call11.v11 main_call11.call0.v1 main_call11.call0.v2 (fun p a b => select (broadcastInDim S64 ![] bcast_S_S64 p) a b) : HloOp τ sig (Elt F)).result (after rops23 V) (Proc.devRef .tc main_v241) := by
  after_results_simp
theorem fin_main_v241 (V : Valuation τ sig (Elt F)) :
    RV33 V (Proc.devRef .tc main_v241) = (StableHlo.TRef.ternary main_call11.v12 main_call11.v11 main_call11.call0.v1 main_call11.call0.v2 (fun p a b => select (broadcastInDim S64 ![] bcast_S_S64 p) a b) : HloOp τ sig (Elt F)).result (RV33 V) (Proc.devRef .tc main_v241) := by
  have h := ssa_main_v241 (F := F) (RV23 V)
  rw [ternary_result] at h ⊢
  rw [lift24 V main_v241 (by decide), lift24 V main_call11_v12 (by decide), lift24 V main_call11_v11 (by decide), lift24 V main_call11_call0_v1 (by decide)]
  exact h

theorem ssa_main_v242 (V : Valuation τ sig (Elt F)) :
    after rops23 V (Proc.devRef .tc main_v242) = (StableHlo.unary main_v240 main_v242 (broadcastInDim S1x64 ![1] bcast_S64_S1x64_1 : (⟨S64, .f32⟩ : BufTy).Contents (Elt F) → (⟨S1x64, .f32⟩ : BufTy).Contents (Elt F)) : HloOp τ sig (Elt F)).result (after rops23 V) (Proc.devRef .tc main_v242) := by
  after_results_simp
theorem fin_main_v242 (V : Valuation τ sig (Elt F)) :
    RV33 V (Proc.devRef .tc main_v242) = (StableHlo.unary main_v240 main_v242 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v242) := by
  have h := ssa_main_v242 (F := F) (RV23 V)
  rw [unary_result] at h ⊢
  rw [lift24 V main_v242 (by decide), lift24 V main_v240 (by decide)]
  exact h

theorem ssa_main_v243 (V : Valuation τ sig (Elt F)) :
    after rops23 V (Proc.devRef .tc main_v243) = (StableHlo.unary main_v242 main_v243 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops23 V) (Proc.devRef .tc main_v243) := by
  after_results_simp
theorem fin_main_v243 (V : Valuation τ sig (Elt F)) :
    RV33 V (Proc.devRef .tc main_v243) = (StableHlo.unary main_v242 main_v243 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v243) := by
  have h := ssa_main_v243 (F := F) (RV23 V)
  rw [unary_result] at h ⊢
  rw [lift24 V main_v243 (by decide), lift24 V main_v242 (by decide)]
  exact h

theorem ssa_main_v244 (V : Valuation τ sig (Elt F)) :
    after rops23 V (Proc.devRef .tc main_v244) = (StableHlo.binary main_v233 main_v243 main_v244 (subf : (⟨S100000x64, .f32⟩ : BufTy).Contents (Elt F) → (⟨S100000x64, .f32⟩ : BufTy).Contents (Elt F) → (⟨S100000x64, .f32⟩ : BufTy).Contents (Elt F)) : HloOp τ sig (Elt F)).result (after rops23 V) (Proc.devRef .tc main_v244) := by
  after_results_simp
theorem fin_main_v244 (V : Valuation τ sig (Elt F)) :
    RV33 V (Proc.devRef .tc main_v244) = (StableHlo.binary main_v233 main_v243 main_v244 (subf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v244) := by
  have h := ssa_main_v244 (F := F) (RV23 V)
  rw [binary_result] at h ⊢
  rw [lift24 V main_v244 (by decide), lift24 V main_v233 (by decide), lift24 V main_v243 (by decide)]
  exact h

theorem ssa_main_v245 (V : Valuation τ sig (Elt F)) :
    after rops23 V (Proc.devRef .tc main_v245) = (StableHlo.unary main_v235 main_v245 (broadcastInDim S1x64 ![1] bcast_S64_S1x64_1 : (⟨S64, .f32⟩ : BufTy).Contents (Elt F) → (⟨S1x64, .f32⟩ : BufTy).Contents (Elt F)) : HloOp τ sig (Elt F)).result (after rops23 V) (Proc.devRef .tc main_v245) := by
  after_results_simp
theorem fin_main_v245 (V : Valuation τ sig (Elt F)) :
    RV33 V (Proc.devRef .tc main_v245) = (StableHlo.unary main_v235 main_v245 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v245) := by
  have h := ssa_main_v245 (F := F) (RV23 V)
  rw [unary_result] at h ⊢
  rw [lift24 V main_v245 (by decide), lift24 V main_v235 (by decide)]
  exact h

theorem ssa_main_v246 (V : Valuation τ sig (Elt F)) :
    after rops23 V (Proc.devRef .tc main_v246) = (StableHlo.unary main_v245 main_v246 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops23 V) (Proc.devRef .tc main_v246) := by
  after_results_simp
theorem fin_main_v246 (V : Valuation τ sig (Elt F)) :
    RV33 V (Proc.devRef .tc main_v246) = (StableHlo.unary main_v245 main_v246 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v246) := by
  have h := ssa_main_v246 (F := F) (RV23 V)
  rw [unary_result] at h ⊢
  rw [lift24 V main_v246 (by decide), lift24 V main_v245 (by decide)]
  exact h

theorem ssa_main_v247 (V : Valuation τ sig (Elt F)) :
    after rops23 V (Proc.devRef .tc main_v247) = (StableHlo.binary main_v246 main_v244 main_v247 (mulf : (⟨S100000x64, .f32⟩ : BufTy).Contents (Elt F) → (⟨S100000x64, .f32⟩ : BufTy).Contents (Elt F) → (⟨S100000x64, .f32⟩ : BufTy).Contents (Elt F)) : HloOp τ sig (Elt F)).result (after rops23 V) (Proc.devRef .tc main_v247) := by
  after_results_simp
theorem fin_main_v247 (V : Valuation τ sig (Elt F)) :
    RV33 V (Proc.devRef .tc main_v247) = (StableHlo.binary main_v246 main_v244 main_v247 (mulf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v247) := by
  have h := ssa_main_v247 (F := F) (RV23 V)
  rw [binary_result] at h ⊢
  rw [lift24 V main_v247 (by decide), lift24 V main_v246 (by decide), lift24 V main_v244 (by decide)]
  exact h

theorem ssa_main_cst_37 (V : Valuation τ sig (Elt F)) :
    after rops23 V (Proc.devRef .tc main_cst_37) = (StableHlo.nullary main_cst_37 (constant S_ .f32 0x3727C5AC#32) : HloOp τ sig (Elt F)).result (after rops23 V) (Proc.devRef .tc main_cst_37) := by
  after_results_simp
theorem fin_main_cst_37 (V : Valuation τ sig (Elt F)) :
    RV33 V (Proc.devRef .tc main_cst_37) = (StableHlo.nullary main_cst_37 (constant S_ .f32 0x3727C5AC#32) : HloOp τ sig (Elt F)).result (RV33 V) (Proc.devRef .tc main_cst_37) := by
  have h := ssa_main_cst_37 (F := F) (RV23 V)
  rw [nullary_result] at h ⊢
  rw [lift24 V main_cst_37 (by decide)]
  exact h

theorem ssa_main_v248 (V : Valuation τ sig (Elt F)) :
    after rops23 V (Proc.devRef .tc main_v248) = (StableHlo.unary main_cst_37 main_v248 (broadcastInDim S64 ![] bcast_S_S64 : (⟨S_, .f32⟩ : BufTy).Contents (Elt F) → (⟨S64, .f32⟩ : BufTy).Contents (Elt F)) : HloOp τ sig (Elt F)).result (after rops23 V) (Proc.devRef .tc main_v248) := by
  after_results_simp
theorem fin_main_v248 (V : Valuation τ sig (Elt F)) :
    RV33 V (Proc.devRef .tc main_v248) = (StableHlo.unary main_cst_37 main_v248 (broadcastInDim S64 ![] bcast_S_S64 : (⟨S_, .f32⟩ : BufTy).Contents (Elt F) → (⟨S64, .f32⟩ : BufTy).Contents (Elt F)) : HloOp τ sig (Elt F)).result (RV33 V) (Proc.devRef .tc main_v248) := by
  have h := ssa_main_v248 (F := F) (RV23 V)
  rw [unary_result] at h ⊢
  rw [lift24 V main_v248 (by decide), lift24 V main_cst_37 (by decide)]
  exact h

theorem ssa_main_v249 (V : Valuation τ sig (Elt F)) :
    after rops23 V (Proc.devRef .tc main_v249) = (StableHlo.binary main_v241 main_v248 main_v249 (addf : (⟨S64, .f32⟩ : BufTy).Contents (Elt F) → (⟨S64, .f32⟩ : BufTy).Contents (Elt F) → (⟨S64, .f32⟩ : BufTy).Contents (Elt F)) : HloOp τ sig (Elt F)).result (after rops23 V) (Proc.devRef .tc main_v249) := by
  after_results_simp
theorem fin_main_v249 (V : Valuation τ sig (Elt F)) :
    RV33 V (Proc.devRef .tc main_v249) = (StableHlo.binary main_v241 main_v248 main_v249 (addf : (⟨S64, .f32⟩ : BufTy).Contents (Elt F) → (⟨S64, .f32⟩ : BufTy).Contents (Elt F) → (⟨S64, .f32⟩ : BufTy).Contents (Elt F)) : HloOp τ sig (Elt F)).result (RV33 V) (Proc.devRef .tc main_v249) := by
  have h := ssa_main_v249 (F := F) (RV23 V)
  rw [binary_result] at h ⊢
  rw [lift24 V main_v249 (by decide), lift24 V main_v241 (by decide), lift24 V main_v248 (by decide)]
  exact h

theorem ssa_main_v250 (V : Valuation τ sig (Elt F)) :
    after rops23 V (Proc.devRef .tc main_v250) = (StableHlo.unary main_v249 main_v250 (Host.rsqrt : (⟨S64, .f32⟩ : BufTy).Contents (Elt F) → (⟨S64, .f32⟩ : BufTy).Contents (Elt F)) : HloOp τ sig (Elt F)).result (after rops23 V) (Proc.devRef .tc main_v250) := by
  after_results_simp
theorem fin_main_v250 (V : Valuation τ sig (Elt F)) :
    RV33 V (Proc.devRef .tc main_v250) = (StableHlo.unary main_v249 main_v250 (Host.rsqrt : (⟨S64, .f32⟩ : BufTy).Contents (Elt F) → (⟨S64, .f32⟩ : BufTy).Contents (Elt F)) : HloOp τ sig (Elt F)).result (RV33 V) (Proc.devRef .tc main_v250) := by
  have h := ssa_main_v250 (F := F) (RV23 V)
  rw [unary_result] at h ⊢
  rw [lift24 V main_v250 (by decide), lift24 V main_v249 (by decide)]
  exact h

theorem ssa_main_v251 (V : Valuation τ sig (Elt F)) :
    after rops23 V (Proc.devRef .tc main_v251) = (StableHlo.unary main_v250 main_v251 (broadcastInDim S1x64 ![1] bcast_S64_S1x64_1 : (⟨S64, .f32⟩ : BufTy).Contents (Elt F) → (⟨S1x64, .f32⟩ : BufTy).Contents (Elt F)) : HloOp τ sig (Elt F)).result (after rops23 V) (Proc.devRef .tc main_v251) := by
  after_results_simp
theorem fin_main_v251 (V : Valuation τ sig (Elt F)) :
    RV33 V (Proc.devRef .tc main_v251) = (StableHlo.unary main_v250 main_v251 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v251) := by
  have h := ssa_main_v251 (F := F) (RV23 V)
  rw [unary_result] at h ⊢
  rw [lift24 V main_v251 (by decide), lift24 V main_v250 (by decide)]
  exact h

theorem ssa_main_v252 (V : Valuation τ sig (Elt F)) :
    after rops23 V (Proc.devRef .tc main_v252) = (StableHlo.unary main_v251 main_v252 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops23 V) (Proc.devRef .tc main_v252) := by
  after_results_simp
theorem fin_main_v252 (V : Valuation τ sig (Elt F)) :
    RV33 V (Proc.devRef .tc main_v252) = (StableHlo.unary main_v251 main_v252 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v252) := by
  have h := ssa_main_v252 (F := F) (RV23 V)
  rw [unary_result] at h ⊢
  rw [lift24 V main_v252 (by decide), lift24 V main_v251 (by decide)]
  exact h

theorem ssa_main_v253 (V : Valuation τ sig (Elt F)) :
    after rops23 V (Proc.devRef .tc main_v253) = (StableHlo.binary main_v247 main_v252 main_v253 (mulf : (⟨S100000x64, .f32⟩ : BufTy).Contents (Elt F) → (⟨S100000x64, .f32⟩ : BufTy).Contents (Elt F) → (⟨S100000x64, .f32⟩ : BufTy).Contents (Elt F)) : HloOp τ sig (Elt F)).result (after rops23 V) (Proc.devRef .tc main_v253) := by
  after_results_simp
theorem fin_main_v253 (V : Valuation τ sig (Elt F)) :
    RV33 V (Proc.devRef .tc main_v253) = (StableHlo.binary main_v247 main_v252 main_v253 (mulf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v253) := by
  have h := ssa_main_v253 (F := F) (RV23 V)
  rw [binary_result] at h ⊢
  rw [lift24 V main_v253 (by decide), lift24 V main_v247 (by decide), lift24 V main_v252 (by decide)]
  exact h

theorem ssa_main_v254 (V : Valuation τ sig (Elt F)) :
    after rops23 V (Proc.devRef .tc main_v254) = (StableHlo.unary main_v237 main_v254 (broadcastInDim S1x64 ![1] bcast_S64_S1x64_1 : (⟨S64, .f32⟩ : BufTy).Contents (Elt F) → (⟨S1x64, .f32⟩ : BufTy).Contents (Elt F)) : HloOp τ sig (Elt F)).result (after rops23 V) (Proc.devRef .tc main_v254) := by
  after_results_simp
theorem fin_main_v254 (V : Valuation τ sig (Elt F)) :
    RV33 V (Proc.devRef .tc main_v254) = (StableHlo.unary main_v237 main_v254 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v254) := by
  have h := ssa_main_v254 (F := F) (RV23 V)
  rw [unary_result] at h ⊢
  rw [lift24 V main_v254 (by decide), lift24 V main_v237 (by decide)]
  exact h

theorem ssa_main_v255 (V : Valuation τ sig (Elt F)) :
    after rops23 V (Proc.devRef .tc main_v255) = (StableHlo.unary main_v254 main_v255 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops23 V) (Proc.devRef .tc main_v255) := by
  after_results_simp
theorem fin_main_v255 (V : Valuation τ sig (Elt F)) :
    RV33 V (Proc.devRef .tc main_v255) = (StableHlo.unary main_v254 main_v255 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v255) := by
  have h := ssa_main_v255 (F := F) (RV23 V)
  rw [unary_result] at h ⊢
  rw [lift24 V main_v255 (by decide), lift24 V main_v254 (by decide)]
  exact h

theorem ssa_main_v256 (V : Valuation τ sig (Elt F)) :
    after rops23 V (Proc.devRef .tc main_v256) = (StableHlo.binary main_v253 main_v255 main_v256 (addf : (⟨S100000x64, .f32⟩ : BufTy).Contents (Elt F) → (⟨S100000x64, .f32⟩ : BufTy).Contents (Elt F) → (⟨S100000x64, .f32⟩ : BufTy).Contents (Elt F)) : HloOp τ sig (Elt F)).result (after rops23 V) (Proc.devRef .tc main_v256) := by
  after_results_simp
theorem fin_main_v256 (V : Valuation τ sig (Elt F)) :
    RV33 V (Proc.devRef .tc main_v256) = (StableHlo.binary main_v253 main_v255 main_v256 (addf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v256) := by
  have h := ssa_main_v256 (F := F) (RV23 V)
  rw [binary_result] at h ⊢
  rw [lift24 V main_v256 (by decide), lift24 V main_v253 (by decide), lift24 V main_v255 (by decide)]
  exact h

theorem ssa_main_cst_38 (V : Valuation τ sig (Elt F)) :
    after rops24 V (Proc.devRef .tc main_cst_38) = (StableHlo.nullary main_cst_38 (constant S_ .f32 0x00000000#32) : HloOp τ sig (Elt F)).result (after rops24 V) (Proc.devRef .tc main_cst_38) := by
  after_results_simp
theorem fin_main_cst_38 (V : Valuation τ sig (Elt F)) :
    RV33 V (Proc.devRef .tc main_cst_38) = (StableHlo.nullary main_cst_38 (constant S_ .f32 0x00000000#32) : HloOp τ sig (Elt F)).result (RV33 V) (Proc.devRef .tc main_cst_38) := by
  have h := ssa_main_cst_38 (F := F) (RV24 V)
  rw [nullary_result] at h ⊢
  rw [lift25 V main_cst_38 (by decide)]
  exact h

theorem ssa_main_v257 (V : Valuation τ sig (Elt F)) :
    after rops24 V (Proc.devRef .tc main_v257) = (StableHlo.unary main_cst_38 main_v257 (broadcastInDim S100000x64 ![] bcast_S_S100000x64 : (⟨S_, .f32⟩ : BufTy).Contents (Elt F) → (⟨S100000x64, .f32⟩ : BufTy).Contents (Elt F)) : HloOp τ sig (Elt F)).result (after rops24 V) (Proc.devRef .tc main_v257) := by
  after_results_simp
theorem fin_main_v257 (V : Valuation τ sig (Elt F)) :
    RV33 V (Proc.devRef .tc main_v257) = (StableHlo.unary main_cst_38 main_v257 (broadcastInDim S100000x64 ![] bcast_S_S100000x64 : (⟨S_, .f32⟩ : BufTy).Contents (Elt F) → (⟨S100000x64, .f32⟩ : BufTy).Contents (Elt F)) : HloOp τ sig (Elt F)).result (RV33 V) (Proc.devRef .tc main_v257) := by
  have h := ssa_main_v257 (F := F) (RV24 V)
  rw [unary_result] at h ⊢
  rw [lift25 V main_v257 (by decide), lift25 V main_cst_38 (by decide)]
  exact h

theorem ssa_main_v258 (V : Valuation τ sig (Elt F)) :
    after rops24 V (Proc.devRef .tc main_v258) = (StableHlo.binary main_v256 main_v257 main_v258 (cmpf .oge : (⟨S100000x64, .f32⟩ : BufTy).Contents (Elt F) → (⟨S100000x64, .f32⟩ : BufTy).Contents (Elt F) → (⟨S100000x64, .i1⟩ : BufTy).Contents (Elt F)) : HloOp τ sig (Elt F)).result (after rops24 V) (Proc.devRef .tc main_v258) := by
  after_results_simp
theorem fin_main_v258 (V : Valuation τ sig (Elt F)) :
    RV33 V (Proc.devRef .tc main_v258) = (StableHlo.binary main_v256 main_v257 main_v258 (cmpf .oge : (⟨S100000x64, .f32⟩ : BufTy).Contents (Elt F) → (⟨S100000x64, .f32⟩ : BufTy).Contents (Elt F) → (⟨S100000x64, .i1⟩ : BufTy).Contents (Elt F)) : HloOp τ sig (Elt F)).result (RV33 V) (Proc.devRef .tc main_v258) := by
  have h := ssa_main_v258 (F := F) (RV24 V)
  rw [binary_result] at h ⊢
  rw [lift25 V main_v258 (by decide), lift25 V main_v256 (by decide), lift25 V main_v257 (by decide)]
  exact h

end Cert.ReferenceIdeal.Tab

end
-- ==== Proof.TabRSsa5.lean ====
/- Stretches 25 to 29 of the reference program read one operation at a time: each buffer a stretch writes holds its operation's function
   of the operands, within the stretch from any contents and, at the end of the run, over the final contents. -/
import proofs.«409037_j72164040508123_1_alg».proof.Proof.TabR

set_option maxRecDepth 16384

noncomputable section

namespace Cert.ReferenceIdeal.Tab

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

theorem ssa_main_cst_39 (V : Valuation τ sig (Elt F)) :
    after rops25 V (Proc.devRef .tc main_cst_39) = (StableHlo.nullary main_cst_39 (constant S_ .f32 0x3C23D70A#32) : HloOp τ sig (Elt F)).result (after rops25 V) (Proc.devRef .tc main_cst_39) := by
  after_results_simp
theorem fin_main_cst_39 (V : Valuation τ sig (Elt F)) :
    RV33 V (Proc.devRef .tc main_cst_39) = (StableHlo.nullary main_cst_39 (constant S_ .f32 0x3C23D70A#32) : HloOp τ sig (Elt F)).result (RV33 V) (Proc.devRef .tc main_cst_39) := by
  have h := ssa_main_cst_39 (F := F) (RV25 V)
  rw [nullary_result] at h ⊢
  rw [lift26 V main_cst_39 (by decide)]
  exact h

theorem ssa_main_v259 (V : Valuation τ sig (Elt F)) :
    after rops25 V (Proc.devRef .tc main_v259) = (StableHlo.unary main_cst_39 main_v259 (broadcastInDim S100000x64 ![] bcast_S_S100000x64 : (⟨S_, .f32⟩ : BufTy).Contents (Elt F) → (⟨S100000x64, .f32⟩ : BufTy).Contents (Elt F)) : HloOp τ sig (Elt F)).result (after rops25 V) (Proc.devRef .tc main_v259) := by
  after_results_simp
theorem fin_main_v259 (V : Valuation τ sig (Elt F)) :
    RV33 V (Proc.devRef .tc main_v259) = (StableHlo.unary main_cst_39 main_v259 (broadcastInDim S100000x64 ![] bcast_S_S100000x64 : (⟨S_, .f32⟩ : BufTy).Contents (Elt F) → (⟨S100000x64, .f32⟩ : BufTy).Contents (Elt F)) : HloOp τ sig (Elt F)).result (RV33 V) (Proc.devRef .tc main_v259) := by
  have h := ssa_main_v259 (F := F) (RV25 V)
  rw [unary_result] at h ⊢
  rw [lift26 V main_v259 (by decide), lift26 V main_cst_39 (by decide)]
  exact h

theorem ssa_main_v260 (V : Valuation τ sig (Elt F)) :
    after rops25 V (Proc.devRef .tc main_v260) = (StableHlo.binary main_v259 main_v256 main_v260 (mulf : (⟨S100000x64, .f32⟩ : BufTy).Contents (Elt F) → (⟨S100000x64, .f32⟩ : BufTy).Contents (Elt F) → (⟨S100000x64, .f32⟩ : BufTy).Contents (Elt F)) : HloOp τ sig (Elt F)).result (after rops25 V) (Proc.devRef .tc main_v260) := by
  after_results_simp
theorem fin_main_v260 (V : Valuation τ sig (Elt F)) :
    RV33 V (Proc.devRef .tc main_v260) = (StableHlo.binary main_v259 main_v256 main_v260 (mulf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v260) := by
  have h := ssa_main_v260 (F := F) (RV25 V)
  rw [binary_result] at h ⊢
  rw [lift26 V main_v260 (by decide), lift26 V main_v259 (by decide), lift26 V main_v256 (by decide)]
  exact h

theorem ssa_main_v261 (V : Valuation τ sig (Elt F)) :
    after rops25 V (Proc.devRef .tc main_v261) = (StableHlo.TRef.ternary (.of main_v258) (.of main_v256) (.of main_v260) main_call12.v0 select : HloOp τ sig (Elt F)).result (after rops25 V) (Proc.devRef .tc main_v261) := by
  after_results_simp
theorem fin_main_v261 (V : Valuation τ sig (Elt F)) :
    RV33 V (Proc.devRef .tc main_v261) = (StableHlo.TRef.ternary (.of main_v258) (.of main_v256) (.of main_v260) main_call12.v0 select : HloOp τ sig (Elt F)).result (RV33 V) (Proc.devRef .tc main_v261) := by
  have h := ssa_main_v261 (F := F) (RV25 V)
  rw [ternary_result] at h ⊢
  rw [lift26 V main_v261 (by decide), lift26 V main_v258 (by decide), lift26 V main_v256 (by decide), lift26 V main_v260 (by decide)]
  exact h

theorem ssa_main_v262 (V : Valuation τ sig (Elt F)) :
    after rops25 V (Proc.devRef .tc main_v262) = (StableHlo.unary main_arg11 main_v262 ((extractStridedSlice S1x64x64 ![2, 0, 0] · slices_S3x64x64_S1x64x64_2_0_0) : (⟨S3x64x64, .f32⟩ : BufTy).Contents (Elt F) → (⟨S1x64x64, .f32⟩ : BufTy).Contents (Elt F)) : HloOp τ sig (Elt F)).result (after rops25 V) (Proc.devRef .tc main_v262) := by
  after_results_simp
theorem fin_main_v262 (V : Valuation τ sig (Elt F)) :
    RV33 V (Proc.devRef .tc main_v262) = (StableHlo.unary main_arg11 main_v262 ((extractStridedSlice S1x64x64 ![2, 0, 0] · slices_S3x64x64_S1x64x64_2_0_0) : (⟨S3x64x64, .f32⟩ : BufTy).Contents (Elt F) → (⟨S1x64x64, .f32⟩ : BufTy).Contents (Elt F)) : HloOp τ sig (Elt F)).result (RV33 V) (Proc.devRef .tc main_v262) := by
  have h := ssa_main_v262 (F := F) (RV25 V)
  rw [unary_result] at h ⊢
  rw [lift26 V main_v262 (by decide), lift26 V main_arg11 (by decide)]
  exact h

theorem ssa_main_v263 (V : Valuation τ sig (Elt F)) :
    after rops25 V (Proc.devRef .tc main_v263) = (StableHlo.reshape main_v262 main_v263 rfl shapeCasts_S1x64x64_S64x64 : HloOp τ sig (Elt F)).result (after rops25 V) (Proc.devRef .tc main_v263) := by
  after_results_simp
theorem fin_main_v263 (V : Valuation τ sig (Elt F)) :
    RV33 V (Proc.devRef .tc main_v263) = (StableHlo.reshape main_v262 main_v263 rfl shapeCasts_S1x64x64_S64x64 : HloOp τ sig (Elt F)).result (RV33 V) (Proc.devRef .tc main_v263) := by
  have h := ssa_main_v263 (F := F) (RV25 V)
  rw [reshape_result] at h ⊢
  rw [lift26 V main_v263 (by decide), lift26 V main_v262 (by decide)]
  exact h

theorem ssa_main_v264 (V : Valuation τ sig (Elt F)) :
    after rops25 V (Proc.devRef .tc main_v264) = (StableHlo.binary main_v261 main_v263 main_v264 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) : HloOp τ sig (Elt F)).result (after rops25 V) (Proc.devRef .tc main_v264) := by
  after_results_simp
theorem fin_main_v264 (V : Valuation τ sig (Elt F)) :
    RV33 V (Proc.devRef .tc main_v264) = (StableHlo.binary main_v261 main_v263 main_v264 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) : HloOp τ sig (Elt F)).result (RV33 V) (Proc.devRef .tc main_v264) := by
  have h := ssa_main_v264 (F := F) (RV25 V)
  rw [binary_result] at h ⊢
  rw [lift26 V main_v264 (by decide), lift26 V main_v261 (by decide), lift26 V main_v263 (by decide)]
  exact h

theorem ssa_main_v265 (V : Valuation τ sig (Elt F)) :
    after rops25 V (Proc.devRef .tc main_v265) = (StableHlo.unary main_arg12 main_v265 ((extractStridedSlice S1x64 ![2, 0] · slices_S3x64_S1x64_2_0) : (⟨S3x64, .f32⟩ : BufTy).Contents (Elt F) → (⟨S1x64, .f32⟩ : BufTy).Contents (Elt F)) : HloOp τ sig (Elt F)).result (after rops25 V) (Proc.devRef .tc main_v265) := by
  after_results_simp
theorem fin_main_v265 (V : Valuation τ sig (Elt F)) :
    RV33 V (Proc.devRef .tc main_v265) = (StableHlo.unary main_arg12 main_v265 ((extractStridedSlice S1x64 ![2, 0] · slices_S3x64_S1x64_2_0) : (⟨S3x64, .f32⟩ : BufTy).Contents (Elt F) → (⟨S1x64, .f32⟩ : BufTy).Contents (Elt F)) : HloOp τ sig (Elt F)).result (RV33 V) (Proc.devRef .tc main_v265) := by
  have h := ssa_main_v265 (F := F) (RV25 V)
  rw [unary_result] at h ⊢
  rw [lift26 V main_v265 (by decide), lift26 V main_arg12 (by decide)]
  exact h

theorem ssa_main_v266 (V : Valuation τ sig (Elt F)) :
    after rops25 V (Proc.devRef .tc main_v266) = (StableHlo.reshape main_v265 main_v266 rfl shapeCasts_S1x64_S64 : HloOp τ sig (Elt F)).result (after rops25 V) (Proc.devRef .tc main_v266) := by
  after_results_simp
theorem fin_main_v266 (V : Valuation τ sig (Elt F)) :
    RV33 V (Proc.devRef .tc main_v266) = (StableHlo.reshape main_v265 main_v266 rfl shapeCasts_S1x64_S64 : HloOp τ sig (Elt F)).result (RV33 V) (Proc.devRef .tc main_v266) := by
  have h := ssa_main_v266 (F := F) (RV25 V)
  rw [reshape_result] at h ⊢
  rw [lift26 V main_v266 (by decide), lift26 V main_v265 (by decide)]
  exact h

theorem ssa_main_v267 (V : Valuation τ sig (Elt F)) :
    after rops25 V (Proc.devRef .tc main_v267) = (StableHlo.unary main_v266 main_v267 (broadcastInDim S1x64 ![1] bcast_S64_S1x64_1 : (⟨S64, .f32⟩ : BufTy).Contents (Elt F) → (⟨S1x64, .f32⟩ : BufTy).Contents (Elt F)) : HloOp τ sig (Elt F)).result (after rops25 V) (Proc.devRef .tc main_v267) := by
  after_results_simp
theorem fin_main_v267 (V : Valuation τ sig (Elt F)) :
    RV33 V (Proc.devRef .tc main_v267) = (StableHlo.unary main_v266 main_v267 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v267) := by
  have h := ssa_main_v267 (F := F) (RV25 V)
  rw [unary_result] at h ⊢
  rw [lift26 V main_v267 (by decide), lift26 V main_v266 (by decide)]
  exact h

theorem ssa_main_v268 (V : Valuation τ sig (Elt F)) :
    after rops25 V (Proc.devRef .tc main_v268) = (StableHlo.unary main_v267 main_v268 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops25 V) (Proc.devRef .tc main_v268) := by
  after_results_simp
theorem fin_main_v268 (V : Valuation τ sig (Elt F)) :
    RV33 V (Proc.devRef .tc main_v268) = (StableHlo.unary main_v267 main_v268 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v268) := by
  have h := ssa_main_v268 (F := F) (RV25 V)
  rw [unary_result] at h ⊢
  rw [lift26 V main_v268 (by decide), lift26 V main_v267 (by decide)]
  exact h

theorem ssa_main_v269 (V : Valuation τ sig (Elt F)) :
    after rops25 V (Proc.devRef .tc main_v269) = (StableHlo.binary main_v264 main_v268 main_v269 (addf : (⟨S100000x64, .f32⟩ : BufTy).Contents (Elt F) → (⟨S100000x64, .f32⟩ : BufTy).Contents (Elt F) → (⟨S100000x64, .f32⟩ : BufTy).Contents (Elt F)) : HloOp τ sig (Elt F)).result (after rops25 V) (Proc.devRef .tc main_v269) := by
  after_results_simp
theorem fin_main_v269 (V : Valuation τ sig (Elt F)) :
    RV33 V (Proc.devRef .tc main_v269) = (StableHlo.binary main_v264 main_v268 main_v269 (addf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v269) := by
  have h := ssa_main_v269 (F := F) (RV25 V)
  rw [binary_result] at h ⊢
  rw [lift26 V main_v269 (by decide), lift26 V main_v264 (by decide), lift26 V main_v268 (by decide)]
  exact h

theorem ssa_main_v270 (V : Valuation τ sig (Elt F)) :
    after rops25 V (Proc.devRef .tc main_v270) = (StableHlo.binary main_arg2 main_arg15 main_v270 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)) : HloOp τ sig (Elt F)).result (after rops25 V) (Proc.devRef .tc main_v270) := by
  after_results_simp
theorem fin_main_v270 (V : Valuation τ sig (Elt F)) :
    RV33 V (Proc.devRef .tc main_v270) = (StableHlo.binary main_arg2 main_arg15 main_v270 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)) : HloOp τ sig (Elt F)).result (RV33 V) (Proc.devRef .tc main_v270) := by
  have h := ssa_main_v270 (F := F) (RV25 V)
  rw [binary_result] at h ⊢
  rw [lift26 V main_v270 (by decide), lift26 V main_arg2 (by decide), lift26 V main_arg15 (by decide)]
  exact h

theorem ssa_main_v271 (V : Valuation τ sig (Elt F)) :
    after rops25 V (Proc.devRef .tc main_v271) = (StableHlo.unary main_arg16 main_v271 (broadcastInDim S1x64 ![1] bcast_S64_S1x64_1 : (⟨S64, .f32⟩ : BufTy).Contents (Elt F) → (⟨S1x64, .f32⟩ : BufTy).Contents (Elt F)) : HloOp τ sig (Elt F)).result (after rops25 V) (Proc.devRef .tc main_v271) := by
  after_results_simp
theorem fin_main_v271 (V : Valuation τ sig (Elt F)) :
    RV33 V (Proc.devRef .tc main_v271) = (StableHlo.unary main_arg16 main_v271 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v271) := by
  have h := ssa_main_v271 (F := F) (RV25 V)
  rw [unary_result] at h ⊢
  rw [lift26 V main_v271 (by decide), lift26 V main_arg16 (by decide)]
  exact h

theorem ssa_main_v272 (V : Valuation τ sig (Elt F)) :
    after rops25 V (Proc.devRef .tc main_v272) = (StableHlo.unary main_v271 main_v272 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops25 V) (Proc.devRef .tc main_v272) := by
  after_results_simp
theorem fin_main_v272 (V : Valuation τ sig (Elt F)) :
    RV33 V (Proc.devRef .tc main_v272) = (StableHlo.unary main_v271 main_v272 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v272) := by
  have h := ssa_main_v272 (F := F) (RV25 V)
  rw [unary_result] at h ⊢
  rw [lift26 V main_v272 (by decide), lift26 V main_v271 (by decide)]
  exact h

theorem ssa_main_v273 (V : Valuation τ sig (Elt F)) :
    after rops25 V (Proc.devRef .tc main_v273) = (StableHlo.binary main_v270 main_v272 main_v273 (addf : (⟨S100000x64, .f32⟩ : BufTy).Contents (Elt F) → (⟨S100000x64, .f32⟩ : BufTy).Contents (Elt F) → (⟨S100000x64, .f32⟩ : BufTy).Contents (Elt F)) : HloOp τ sig (Elt F)).result (after rops25 V) (Proc.devRef .tc main_v273) := by
  after_results_simp
theorem fin_main_v273 (V : Valuation τ sig (Elt F)) :
    RV33 V (Proc.devRef .tc main_v273) = (StableHlo.binary main_v270 main_v272 main_v273 (addf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v273) := by
  have h := ssa_main_v273 (F := F) (RV25 V)
  rw [binary_result] at h ⊢
  rw [lift26 V main_v273 (by decide), lift26 V main_v270 (by decide), lift26 V main_v272 (by decide)]
  exact h

theorem ssa_main_cst_40 (V : Valuation τ sig (Elt F)) :
    after rops25 V (Proc.devRef .tc main_cst_40) = (StableHlo.nullary main_cst_40 (constant S_ .f32 0x00000000#32) : HloOp τ sig (Elt F)).result (after rops25 V) (Proc.devRef .tc main_cst_40) := by
  after_results_simp
theorem fin_main_cst_40 (V : Valuation τ sig (Elt F)) :
    RV33 V (Proc.devRef .tc main_cst_40) = (StableHlo.nullary main_cst_40 (constant S_ .f32 0x00000000#32) : HloOp τ sig (Elt F)).result (RV33 V) (Proc.devRef .tc main_cst_40) := by
  have h := ssa_main_cst_40 (F := F) (RV25 V)
  rw [nullary_result] at h ⊢
  rw [lift26 V main_cst_40 (by decide)]
  exact h

theorem ssa_main_v274 (V : Valuation τ sig (Elt F)) :
    after rops25 V (Proc.devRef .tc main_v274) = (StableHlo.binary main_v273 main_cst_40 main_v274 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) : HloOp τ sig (Elt F)).result (after rops25 V) (Proc.devRef .tc main_v274) := by
  after_results_simp
theorem fin_main_v274 (V : Valuation τ sig (Elt F)) :
    RV33 V (Proc.devRef .tc main_v274) = (StableHlo.binary main_v273 main_cst_40 main_v274 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) : HloOp τ sig (Elt F)).result (RV33 V) (Proc.devRef .tc main_v274) := by
  have h := ssa_main_v274 (F := F) (RV25 V)
  rw [binary_result] at h ⊢
  rw [lift26 V main_v274 (by decide), lift26 V main_v273 (by decide), lift26 V main_cst_40 (by decide)]
  exact h

theorem ssa_main_cst_41 (V : Valuation τ sig (Elt F)) :
    after rops25 V (Proc.devRef .tc main_cst_41) = (StableHlo.nullary main_cst_41 (constant S_ .f32 0x47C35000#32) : HloOp τ sig (Elt F)).result (after rops25 V) (Proc.devRef .tc main_cst_41) := by
  after_results_simp
theorem fin_main_cst_41 (V : Valuation τ sig (Elt F)) :
    RV33 V (Proc.devRef .tc main_cst_41) = (StableHlo.nullary main_cst_41 (constant S_ .f32 0x47C35000#32) : HloOp τ sig (Elt F)).result (RV33 V) (Proc.devRef .tc main_cst_41) := by
  have h := ssa_main_cst_41 (F := F) (RV25 V)
  rw [nullary_result] at h ⊢
  rw [lift26 V main_cst_41 (by decide)]
  exact h

theorem ssa_main_v275 (V : Valuation τ sig (Elt F)) :
    after rops25 V (Proc.devRef .tc main_v275) = (StableHlo.unary main_cst_41 main_v275 (broadcastInDim S64 ![] bcast_S_S64 : (⟨S_, .f32⟩ : BufTy).Contents (Elt F) → (⟨S64, .f32⟩ : BufTy).Contents (Elt F)) : HloOp τ sig (Elt F)).result (after rops25 V) (Proc.devRef .tc main_v275) := by
  after_results_simp
theorem fin_main_v275 (V : Valuation τ sig (Elt F)) :
    RV33 V (Proc.devRef .tc main_v275) = (StableHlo.unary main_cst_41 main_v275 (broadcastInDim S64 ![] bcast_S_S64 : (⟨S_, .f32⟩ : BufTy).Contents (Elt F) → (⟨S64, .f32⟩ : BufTy).Contents (Elt F)) : HloOp τ sig (Elt F)).result (RV33 V) (Proc.devRef .tc main_v275) := by
  have h := ssa_main_v275 (F := F) (RV25 V)
  rw [unary_result] at h ⊢
  rw [lift26 V main_v275 (by decide), lift26 V main_cst_41 (by decide)]
  exact h

theorem ssa_main_v276 (V : Valuation τ sig (Elt F)) :
    after rops26 V (Proc.devRef .tc main_v276) = (StableHlo.binary main_v274 main_v275 main_v276 (Host.divf : (⟨S64, .f32⟩ : BufTy).Contents (Elt F) → (⟨S64, .f32⟩ : BufTy).Contents (Elt F) → (⟨S64, .f32⟩ : BufTy).Contents (Elt F)) : HloOp τ sig (Elt F)).result (after rops26 V) (Proc.devRef .tc main_v276) := by
  after_results_simp
theorem fin_main_v276 (V : Valuation τ sig (Elt F)) :
    RV33 V (Proc.devRef .tc main_v276) = (StableHlo.binary main_v274 main_v275 main_v276 (Host.divf : (⟨S64, .f32⟩ : BufTy).Contents (Elt F) → (⟨S64, .f32⟩ : BufTy).Contents (Elt F) → (⟨S64, .f32⟩ : BufTy).Contents (Elt F)) : HloOp τ sig (Elt F)).result (RV33 V) (Proc.devRef .tc main_v276) := by
  have h := ssa_main_v276 (F := F) (RV26 V)
  rw [binary_result] at h ⊢
  rw [lift27 V main_v276 (by decide), lift27 V main_v274 (by decide), lift27 V main_v275 (by decide)]
  exact h

theorem ssa_main_c_42 (V : Valuation τ sig (Elt F)) :
    after rops26 V (Proc.devRef .tc main_c_42) = (StableHlo.nullary main_c_42 (constantI S_ 32 0#32) : HloOp τ sig (Elt F)).result (after rops26 V) (Proc.devRef .tc main_c_42) := by
  after_results_simp
theorem fin_main_c_42 (V : Valuation τ sig (Elt F)) :
    RV33 V (Proc.devRef .tc main_c_42) = (StableHlo.nullary main_c_42 (constantI S_ 32 0#32) : HloOp τ sig (Elt F)).result (RV33 V) (Proc.devRef .tc main_c_42) := by
  have h := ssa_main_c_42 (F := F) (RV26 V)
  rw [nullary_result] at h ⊢
  rw [lift27 V main_c_42 (by decide)]
  exact h

theorem ssa_main_call13_cst (V : Valuation τ sig (Elt F)) :
    after rops26 V (Proc.devRef .tc main_call13_cst) = (StableHlo.TRef.nullary main_call13.cst (constant S_ .f32 0x00000000#32) : HloOp τ sig (Elt F)).result (after rops26 V) (Proc.devRef .tc main_call13_cst) := by
  after_results_simp
theorem fin_main_call13_cst (V : Valuation τ sig (Elt F)) :
    RV33 V (Proc.devRef .tc main_call13_cst) = (StableHlo.TRef.nullary main_call13.cst (constant S_ .f32 0x00000000#32) : HloOp τ sig (Elt F)).result (RV33 V) (Proc.devRef .tc main_call13_cst) := by
  have h := ssa_main_call13_cst (F := F) (RV26 V)
  rw [nullary_result] at h ⊢
  rw [lift27 V main_call13_cst (by decide)]
  exact h

theorem ssa_main_call13_v0 (V : Valuation τ sig (Elt F)) :
    after rops26 V (Proc.devRef .tc main_call13_v0) = (StableHlo.TRef.binary (.of main_v273) main_call13.cst main_call13.v0 (fun x v => Host.reduceAdd x v reducesTo_S100000x64_S64_d0 h_S_) : HloOp τ sig (Elt F)).result (after rops26 V) (Proc.devRef .tc main_call13_v0) := by
  after_results_simp
theorem fin_main_call13_v0 (V : Valuation τ sig (Elt F)) :
    RV33 V (Proc.devRef .tc main_call13_v0) = (StableHlo.TRef.binary (.of main_v273) main_call13.cst main_call13.v0 (fun x v => Host.reduceAdd x v reducesTo_S100000x64_S64_d0 h_S_) : HloOp τ sig (Elt F)).result (RV33 V) (Proc.devRef .tc main_call13_v0) := by
  have h := ssa_main_call13_v0 (F := F) (RV26 V)
  rw [binary_result] at h ⊢
  rw [lift27 V main_call13_v0 (by decide), lift27 V main_v273 (by decide), lift27 V main_call13_cst (by decide)]
  exact h

theorem ssa_main_call13_v1 (V : Valuation τ sig (Elt F)) :
    after rops26 V (Proc.devRef .tc main_call13_v1) = (StableHlo.TRef.unary main_call13.v0 main_call13.v1 (broadcastInDim S1x64 ![1] bcast_S64_S1x64_1) : HloOp τ sig (Elt F)).result (after rops26 V) (Proc.devRef .tc main_call13_v1) := by
  after_results_simp
theorem fin_main_call13_v1 (V : Valuation τ sig (Elt F)) :
    RV33 V (Proc.devRef .tc main_call13_v1) = (StableHlo.TRef.unary main_call13.v0 main_call13.v1 (broadcastInDim S1x64 ![1] bcast_S64_S1x64_1) : HloOp τ sig (Elt F)).result (RV33 V) (Proc.devRef .tc main_call13_v1) := by
  have h := ssa_main_call13_v1 (F := F) (RV26 V)
  rw [unary_result] at h ⊢
  rw [lift27 V main_call13_v1 (by decide), lift27 V main_call13_v0 (by decide)]
  exact h

theorem ssa_main_call13_cst_0 (V : Valuation τ sig (Elt F)) :
    after rops26 V (Proc.devRef .tc main_call13_cst_0) = (StableHlo.TRef.nullary main_call13.cst_0 (constant S_ .f32 0x47C35000#32) : HloOp τ sig (Elt F)).result (after rops26 V) (Proc.devRef .tc main_call13_cst_0) := by
  after_results_simp
theorem fin_main_call13_cst_0 (V : Valuation τ sig (Elt F)) :
    RV33 V (Proc.devRef .tc main_call13_cst_0) = (StableHlo.TRef.nullary main_call13.cst_0 (constant S_ .f32 0x47C35000#32) : HloOp τ sig (Elt F)).result (RV33 V) (Proc.devRef .tc main_call13_cst_0) := by
  have h := ssa_main_call13_cst_0 (F := F) (RV26 V)
  rw [nullary_result] at h ⊢
  rw [lift27 V main_call13_cst_0 (by decide)]
  exact h

theorem ssa_main_call13_v2 (V : Valuation τ sig (Elt F)) :
    after rops26 V (Proc.devRef .tc main_call13_v2) = (StableHlo.TRef.unary main_call13.cst_0 main_call13.v2 (broadcastInDim S1x64 ![] bcast_S_S1x64) : HloOp τ sig (Elt F)).result (after rops26 V) (Proc.devRef .tc main_call13_v2) := by
  after_results_simp
theorem fin_main_call13_v2 (V : Valuation τ sig (Elt F)) :
    RV33 V (Proc.devRef .tc main_call13_v2) = (StableHlo.TRef.unary main_call13.cst_0 main_call13.v2 (broadcastInDim S1x64 ![] bcast_S_S1x64) : HloOp τ sig (Elt F)).result (RV33 V) (Proc.devRef .tc main_call13_v2) := by
  have h := ssa_main_call13_v2 (F := F) (RV26 V)
  rw [unary_result] at h ⊢
  rw [lift27 V main_call13_v2 (by decide), lift27 V main_call13_cst_0 (by decide)]
  exact h

theorem ssa_main_call13_v3 (V : Valuation τ sig (Elt F)) :
    after rops26 V (Proc.devRef .tc main_call13_v3) = (StableHlo.TRef.binary main_call13.v1 main_call13.v2 main_call13.v3 Host.divf : HloOp τ sig (Elt F)).result (after rops26 V) (Proc.devRef .tc main_call13_v3) := by
  after_results_simp
theorem fin_main_call13_v3 (V : Valuation τ sig (Elt F)) :
    RV33 V (Proc.devRef .tc main_call13_v3) = (StableHlo.TRef.binary main_call13.v1 main_call13.v2 main_call13.v3 Host.divf : HloOp τ sig (Elt F)).result (RV33 V) (Proc.devRef .tc main_call13_v3) := by
  have h := ssa_main_call13_v3 (F := F) (RV26 V)
  rw [binary_result] at h ⊢
  rw [lift27 V main_call13_v3 (by decide), lift27 V main_call13_v1 (by decide), lift27 V main_call13_v2 (by decide)]
  exact h

theorem ssa_main_call13_v4 (V : Valuation τ sig (Elt F)) :
    after rops26 V (Proc.devRef .tc main_call13_v4) = (StableHlo.TRef.unary main_call13.v3 main_call13.v4 (broadcastInDim S100000x64 ![0, 1] bcast_S1x64_S100000x64_0_1) : HloOp τ sig (Elt F)).result (after rops26 V) (Proc.devRef .tc main_call13_v4) := by
  after_results_simp
theorem fin_main_call13_v4 (V : Valuation τ sig (Elt F)) :
    RV33 V (Proc.devRef .tc main_call13_v4) = (StableHlo.TRef.unary main_call13.v3 main_call13.v4 (broadcastInDim S100000x64 ![0, 1] bcast_S1x64_S100000x64_0_1) : HloOp τ sig (Elt F)).result (RV33 V) (Proc.devRef .tc main_call13_v4) := by
  have h := ssa_main_call13_v4 (F := F) (RV26 V)
  rw [unary_result] at h ⊢
  rw [lift27 V main_call13_v4 (by decide), lift27 V main_call13_v3 (by decide)]
  exact h

theorem ssa_main_call13_v5 (V : Valuation τ sig (Elt F)) :
    after rops26 V (Proc.devRef .tc main_call13_v5) = (StableHlo.TRef.binary (.of main_v273) main_call13.v4 main_call13.v5 subf : HloOp τ sig (Elt F)).result (after rops26 V) (Proc.devRef .tc main_call13_v5) := by
  after_results_simp
theorem fin_main_call13_v5 (V : Valuation τ sig (Elt F)) :
    RV33 V (Proc.devRef .tc main_call13_v5) = (StableHlo.TRef.binary (.of main_v273) main_call13.v4 main_call13.v5 subf : HloOp τ sig (Elt F)).result (RV33 V) (Proc.devRef .tc main_call13_v5) := by
  have h := ssa_main_call13_v5 (F := F) (RV26 V)
  rw [binary_result] at h ⊢
  rw [lift27 V main_call13_v5 (by decide), lift27 V main_v273 (by decide), lift27 V main_call13_v4 (by decide)]
  exact h

theorem ssa_main_call13_v6 (V : Valuation τ sig (Elt F)) :
    after rops26 V (Proc.devRef .tc main_call13_v6) = (StableHlo.TRef.binary main_call13.v5 main_call13.v5 main_call13.v6 mulf : HloOp τ sig (Elt F)).result (after rops26 V) (Proc.devRef .tc main_call13_v6) := by
  after_results_simp
theorem fin_main_call13_v6 (V : Valuation τ sig (Elt F)) :
    RV33 V (Proc.devRef .tc main_call13_v6) = (StableHlo.TRef.binary main_call13.v5 main_call13.v5 main_call13.v6 mulf : HloOp τ sig (Elt F)).result (RV33 V) (Proc.devRef .tc main_call13_v6) := by
  have h := ssa_main_call13_v6 (F := F) (RV26 V)
  rw [binary_result] at h ⊢
  rw [lift27 V main_call13_v6 (by decide), lift27 V main_call13_v5 (by decide)]
  exact h

theorem ssa_main_call13_v7 (V : Valuation τ sig (Elt F)) :
    after rops26 V (Proc.devRef .tc main_call13_v7) = (StableHlo.TRef.unary (.of main_c_42) main_call13.v7 (sitofp .f32) : HloOp τ sig (Elt F)).result (after rops26 V) (Proc.devRef .tc main_call13_v7) := by
  after_results_simp
theorem fin_main_call13_v7 (V : Valuation τ sig (Elt F)) :
    RV33 V (Proc.devRef .tc main_call13_v7) = (StableHlo.TRef.unary (.of main_c_42) main_call13.v7 (sitofp .f32) : HloOp τ sig (Elt F)).result (RV33 V) (Proc.devRef .tc main_call13_v7) := by
  have h := ssa_main_call13_v7 (F := F) (RV26 V)
  rw [unary_result] at h ⊢
  rw [lift27 V main_call13_v7 (by decide), lift27 V main_c_42 (by decide)]
  exact h

theorem ssa_main_call13_cst_1 (V : Valuation τ sig (Elt F)) :
    after rops26 V (Proc.devRef .tc main_call13_cst_1) = (StableHlo.TRef.nullary main_call13.cst_1 (constant S_ .f32 0x47C35000#32) : HloOp τ sig (Elt F)).result (after rops26 V) (Proc.devRef .tc main_call13_cst_1) := by
  after_results_simp
theorem fin_main_call13_cst_1 (V : Valuation τ sig (Elt F)) :
    RV33 V (Proc.devRef .tc main_call13_cst_1) = (StableHlo.TRef.nullary main_call13.cst_1 (constant S_ .f32 0x47C35000#32) : HloOp τ sig (Elt F)).result (RV33 V) (Proc.devRef .tc main_call13_cst_1) := by
  have h := ssa_main_call13_cst_1 (F := F) (RV26 V)
  rw [nullary_result] at h ⊢
  rw [lift27 V main_call13_cst_1 (by decide)]
  exact h

theorem ssa_main_call13_v8 (V : Valuation τ sig (Elt F)) :
    after rops26 V (Proc.devRef .tc main_call13_v8) = (StableHlo.TRef.binary main_call13.cst_1 main_call13.v7 main_call13.v8 subf : HloOp τ sig (Elt F)).result (after rops26 V) (Proc.devRef .tc main_call13_v8) := by
  after_results_simp
theorem fin_main_call13_v8 (V : Valuation τ sig (Elt F)) :
    RV33 V (Proc.devRef .tc main_call13_v8) = (StableHlo.TRef.binary main_call13.cst_1 main_call13.v7 main_call13.v8 subf : HloOp τ sig (Elt F)).result (RV33 V) (Proc.devRef .tc main_call13_v8) := by
  have h := ssa_main_call13_v8 (F := F) (RV26 V)
  rw [binary_result] at h ⊢
  rw [lift27 V main_call13_v8 (by decide), lift27 V main_call13_cst_1 (by decide), lift27 V main_call13_v7 (by decide)]
  exact h

theorem ssa_main_call13_cst_2 (V : Valuation τ sig (Elt F)) :
    after rops26 V (Proc.devRef .tc main_call13_cst_2) = (StableHlo.TRef.nullary main_call13.cst_2 (constant S_ .f32 0x00000000#32) : HloOp τ sig (Elt F)).result (after rops26 V) (Proc.devRef .tc main_call13_cst_2) := by
  after_results_simp
theorem fin_main_call13_cst_2 (V : Valuation τ sig (Elt F)) :
    RV33 V (Proc.devRef .tc main_call13_cst_2) = (StableHlo.TRef.nullary main_call13.cst_2 (constant S_ .f32 0x00000000#32) : HloOp τ sig (Elt F)).result (RV33 V) (Proc.devRef .tc main_call13_cst_2) := by
  have h := ssa_main_call13_cst_2 (F := F) (RV26 V)
  rw [nullary_result] at h ⊢
  rw [lift27 V main_call13_cst_2 (by decide)]
  exact h

theorem ssa_main_call13_v9 (V : Valuation τ sig (Elt F)) :
    after rops26 V (Proc.devRef .tc main_call13_v9) = (StableHlo.TRef.binary main_call13.v6 main_call13.cst_2 main_call13.v9 (fun x v => Host.reduceAdd x v reducesTo_S100000x64_S64_d0 h_S_) : HloOp τ sig (Elt F)).result (after rops26 V) (Proc.devRef .tc main_call13_v9) := by
  after_results_simp
theorem fin_main_call13_v9 (V : Valuation τ sig (Elt F)) :
    RV33 V (Proc.devRef .tc main_call13_v9) = (StableHlo.TRef.binary main_call13.v6 main_call13.cst_2 main_call13.v9 (fun x v => Host.reduceAdd x v reducesTo_S100000x64_S64_d0 h_S_) : HloOp τ sig (Elt F)).result (RV33 V) (Proc.devRef .tc main_call13_v9) := by
  have h := ssa_main_call13_v9 (F := F) (RV26 V)
  rw [binary_result] at h ⊢
  rw [lift27 V main_call13_v9 (by decide), lift27 V main_call13_v6 (by decide), lift27 V main_call13_cst_2 (by decide)]
  exact h

theorem ssa_main_call13_v10 (V : Valuation τ sig (Elt F)) :
    after rops26 V (Proc.devRef .tc main_call13_v10) = (StableHlo.TRef.unary main_call13.v8 main_call13.v10 (broadcastInDim S64 ![] bcast_S_S64) : HloOp τ sig (Elt F)).result (after rops26 V) (Proc.devRef .tc main_call13_v10) := by
  after_results_simp
theorem fin_main_call13_v10 (V : Valuation τ sig (Elt F)) :
    RV33 V (Proc.devRef .tc main_call13_v10) = (StableHlo.TRef.unary main_call13.v8 main_call13.v10 (broadcastInDim S64 ![] bcast_S_S64) : HloOp τ sig (Elt F)).result (RV33 V) (Proc.devRef .tc main_call13_v10) := by
  have h := ssa_main_call13_v10 (F := F) (RV26 V)
  rw [unary_result] at h ⊢
  rw [lift27 V main_call13_v10 (by decide), lift27 V main_call13_v8 (by decide)]
  exact h

theorem ssa_main_call13_v11 (V : Valuation τ sig (Elt F)) :
    after rops26 V (Proc.devRef .tc main_call13_v11) = (StableHlo.TRef.binary main_call13.v9 main_call13.v10 main_call13.v11 Host.divf : HloOp τ sig (Elt F)).result (after rops26 V) (Proc.devRef .tc main_call13_v11) := by
  after_results_simp
theorem fin_main_call13_v11 (V : Valuation τ sig (Elt F)) :
    RV33 V (Proc.devRef .tc main_call13_v11) = (StableHlo.TRef.binary main_call13.v9 main_call13.v10 main_call13.v11 Host.divf : HloOp τ sig (Elt F)).result (RV33 V) (Proc.devRef .tc main_call13_v11) := by
  have h := ssa_main_call13_v11 (F := F) (RV26 V)
  rw [binary_result] at h ⊢
  rw [lift27 V main_call13_v11 (by decide), lift27 V main_call13_v9 (by decide), lift27 V main_call13_v10 (by decide)]
  exact h

theorem ssa_main_call13_cst_3 (V : Valuation τ sig (Elt F)) :
    after rops26 V (Proc.devRef .tc main_call13_cst_3) = (StableHlo.TRef.nullary main_call13.cst_3 (constant S_ .f32 0x00000000#32) : HloOp τ sig (Elt F)).result (after rops26 V) (Proc.devRef .tc main_call13_cst_3) := by
  after_results_simp
theorem fin_main_call13_cst_3 (V : Valuation τ sig (Elt F)) :
    RV33 V (Proc.devRef .tc main_call13_cst_3) = (StableHlo.TRef.nullary main_call13.cst_3 (constant S_ .f32 0x00000000#32) : HloOp τ sig (Elt F)).result (RV33 V) (Proc.devRef .tc main_call13_cst_3) := by
  have h := ssa_main_call13_cst_3 (F := F) (RV26 V)
  rw [nullary_result] at h ⊢
  rw [lift27 V main_call13_cst_3 (by decide)]
  exact h

theorem ssa_main_call13_v12 (V : Valuation τ sig (Elt F)) :
    after rops26 V (Proc.devRef .tc main_call13_v12) = (StableHlo.TRef.binary main_call13.v8 main_call13.cst_3 main_call13.v12 (cmpf .ogt) : HloOp τ sig (Elt F)).result (after rops26 V) (Proc.devRef .tc main_call13_v12) := by
  after_results_simp
theorem fin_main_call13_v12 (V : Valuation τ sig (Elt F)) :
    RV33 V (Proc.devRef .tc main_call13_v12) = (StableHlo.TRef.binary main_call13.v8 main_call13.cst_3 main_call13.v12 (cmpf .ogt) : HloOp τ sig (Elt F)).result (RV33 V) (Proc.devRef .tc main_call13_v12) := by
  have h := ssa_main_call13_v12 (F := F) (RV26 V)
  rw [binary_result] at h ⊢
  rw [lift27 V main_call13_v12 (by decide), lift27 V main_call13_v8 (by decide), lift27 V main_call13_cst_3 (by decide)]
  exact h

theorem ssa_main_call13_cst_4 (V : Valuation τ sig (Elt F)) :
    after rops27 V (Proc.devRef .tc main_call13_cst_4) = (StableHlo.TRef.nullary main_call13.cst_4 (constant S_ .f32 0x7FC00000#32) : HloOp τ sig (Elt F)).result (after rops27 V) (Proc.devRef .tc main_call13_cst_4) := by
  after_results_simp
theorem fin_main_call13_cst_4 (V : Valuation τ sig (Elt F)) :
    RV33 V (Proc.devRef .tc main_call13_cst_4) = (StableHlo.TRef.nullary main_call13.cst_4 (constant S_ .f32 0x7FC00000#32) : HloOp τ sig (Elt F)).result (RV33 V) (Proc.devRef .tc main_call13_cst_4) := by
  have h := ssa_main_call13_cst_4 (F := F) (RV27 V)
  rw [nullary_result] at h ⊢
  rw [lift28 V main_call13_cst_4 (by decide)]
  exact h

theorem ssa_main_call13_call0_v0 (V : Valuation τ sig (Elt F)) :
    after rops27 V (Proc.devRef .tc main_call13_call0_v0) = (StableHlo.TRef.unary main_call13.cst_4 main_call13.call0.v0 id : HloOp τ sig (Elt F)).result (after rops27 V) (Proc.devRef .tc main_call13_call0_v0) := by
  after_results_simp
theorem fin_main_call13_call0_v0 (V : Valuation τ sig (Elt F)) :
    RV33 V (Proc.devRef .tc main_call13_call0_v0) = (StableHlo.TRef.unary main_call13.cst_4 main_call13.call0.v0 id : HloOp τ sig (Elt F)).result (RV33 V) (Proc.devRef .tc main_call13_call0_v0) := by
  have h := ssa_main_call13_call0_v0 (F := F) (RV27 V)
  rw [unary_result] at h ⊢
  rw [lift28 V main_call13_call0_v0 (by decide), lift28 V main_call13_cst_4 (by decide)]
  exact h

theorem ssa_main_call13_call0_v1 (V : Valuation τ sig (Elt F)) :
    after rops27 V (Proc.devRef .tc main_call13_call0_v1) = (StableHlo.TRef.unary main_call13.call0.v0 main_call13.call0.v1 (broadcastInDim S64 ![] bcast_S_S64) : HloOp τ sig (Elt F)).result (after rops27 V) (Proc.devRef .tc main_call13_call0_v1) := by
  after_results_simp
theorem fin_main_call13_call0_v1 (V : Valuation τ sig (Elt F)) :
    RV33 V (Proc.devRef .tc main_call13_call0_v1) = (StableHlo.TRef.unary main_call13.call0.v0 main_call13.call0.v1 (broadcastInDim S64 ![] bcast_S_S64) : HloOp τ sig (Elt F)).result (RV33 V) (Proc.devRef .tc main_call13_call0_v1) := by
  have h := ssa_main_call13_call0_v1 (F := F) (RV27 V)
  rw [unary_result] at h ⊢
  rw [lift28 V main_call13_call0_v1 (by decide), lift28 V main_call13_call0_v0 (by decide)]
  exact h

theorem ssa_main_v277 (V : Valuation τ sig (Elt F)) :
    after rops27 V (Proc.devRef .tc main_v277) = (StableHlo.TRef.ternary main_call13.v12 main_call13.v11 main_call13.call0.v1 main_call13.call0.v2 (fun p a b => select (broadcastInDim S64 ![] bcast_S_S64 p) a b) : HloOp τ sig (Elt F)).result (after rops27 V) (Proc.devRef .tc main_v277) := by
  after_results_simp
theorem fin_main_v277 (V : Valuation τ sig (Elt F)) :
    RV33 V (Proc.devRef .tc main_v277) = (StableHlo.TRef.ternary main_call13.v12 main_call13.v11 main_call13.call0.v1 main_call13.call0.v2 (fun p a b => select (broadcastInDim S64 ![] bcast_S_S64 p) a b) : HloOp τ sig (Elt F)).result (RV33 V) (Proc.devRef .tc main_v277) := by
  have h := ssa_main_v277 (F := F) (RV27 V)
  rw [ternary_result] at h ⊢
  rw [lift28 V main_v277 (by decide), lift28 V main_call13_v12 (by decide), lift28 V main_call13_v11 (by decide), lift28 V main_call13_call0_v1 (by decide)]
  exact h

theorem ssa_main_v278 (V : Valuation τ sig (Elt F)) :
    after rops27 V (Proc.devRef .tc main_v278) = (StableHlo.unary main_v276 main_v278 (broadcastInDim S1x64 ![1] bcast_S64_S1x64_1 : (⟨S64, .f32⟩ : BufTy).Contents (Elt F) → (⟨S1x64, .f32⟩ : BufTy).Contents (Elt F)) : HloOp τ sig (Elt F)).result (after rops27 V) (Proc.devRef .tc main_v278) := by
  after_results_simp
theorem fin_main_v278 (V : Valuation τ sig (Elt F)) :
    RV33 V (Proc.devRef .tc main_v278) = (StableHlo.unary main_v276 main_v278 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v278) := by
  have h := ssa_main_v278 (F := F) (RV27 V)
  rw [unary_result] at h ⊢
  rw [lift28 V main_v278 (by decide), lift28 V main_v276 (by decide)]
  exact h

theorem ssa_main_v279 (V : Valuation τ sig (Elt F)) :
    after rops27 V (Proc.devRef .tc main_v279) = (StableHlo.unary main_v278 main_v279 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops27 V) (Proc.devRef .tc main_v279) := by
  after_results_simp
theorem fin_main_v279 (V : Valuation τ sig (Elt F)) :
    RV33 V (Proc.devRef .tc main_v279) = (StableHlo.unary main_v278 main_v279 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v279) := by
  have h := ssa_main_v279 (F := F) (RV27 V)
  rw [unary_result] at h ⊢
  rw [lift28 V main_v279 (by decide), lift28 V main_v278 (by decide)]
  exact h

theorem ssa_main_v280 (V : Valuation τ sig (Elt F)) :
    after rops27 V (Proc.devRef .tc main_v280) = (StableHlo.binary main_v273 main_v279 main_v280 (subf : (⟨S100000x64, .f32⟩ : BufTy).Contents (Elt F) → (⟨S100000x64, .f32⟩ : BufTy).Contents (Elt F) → (⟨S100000x64, .f32⟩ : BufTy).Contents (Elt F)) : HloOp τ sig (Elt F)).result (after rops27 V) (Proc.devRef .tc main_v280) := by
  after_results_simp
theorem fin_main_v280 (V : Valuation τ sig (Elt F)) :
    RV33 V (Proc.devRef .tc main_v280) = (StableHlo.binary main_v273 main_v279 main_v280 (subf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v280) := by
  have h := ssa_main_v280 (F := F) (RV27 V)
  rw [binary_result] at h ⊢
  rw [lift28 V main_v280 (by decide), lift28 V main_v273 (by decide), lift28 V main_v279 (by decide)]
  exact h

theorem ssa_main_v281 (V : Valuation τ sig (Elt F)) :
    after rops27 V (Proc.devRef .tc main_v281) = (StableHlo.unary main_arg17 main_v281 (broadcastInDim S1x64 ![1] bcast_S64_S1x64_1 : (⟨S64, .f32⟩ : BufTy).Contents (Elt F) → (⟨S1x64, .f32⟩ : BufTy).Contents (Elt F)) : HloOp τ sig (Elt F)).result (after rops27 V) (Proc.devRef .tc main_v281) := by
  after_results_simp
theorem fin_main_v281 (V : Valuation τ sig (Elt F)) :
    RV33 V (Proc.devRef .tc main_v281) = (StableHlo.unary main_arg17 main_v281 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v281) := by
  have h := ssa_main_v281 (F := F) (RV27 V)
  rw [unary_result] at h ⊢
  rw [lift28 V main_v281 (by decide), lift28 V main_arg17 (by decide)]
  exact h

theorem ssa_main_v282 (V : Valuation τ sig (Elt F)) :
    after rops27 V (Proc.devRef .tc main_v282) = (StableHlo.unary main_v281 main_v282 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops27 V) (Proc.devRef .tc main_v282) := by
  after_results_simp
theorem fin_main_v282 (V : Valuation τ sig (Elt F)) :
    RV33 V (Proc.devRef .tc main_v282) = (StableHlo.unary main_v281 main_v282 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v282) := by
  have h := ssa_main_v282 (F := F) (RV27 V)
  rw [unary_result] at h ⊢
  rw [lift28 V main_v282 (by decide), lift28 V main_v281 (by decide)]
  exact h

theorem ssa_main_v283 (V : Valuation τ sig (Elt F)) :
    after rops27 V (Proc.devRef .tc main_v283) = (StableHlo.binary main_v282 main_v280 main_v283 (mulf : (⟨S100000x64, .f32⟩ : BufTy).Contents (Elt F) → (⟨S100000x64, .f32⟩ : BufTy).Contents (Elt F) → (⟨S100000x64, .f32⟩ : BufTy).Contents (Elt F)) : HloOp τ sig (Elt F)).result (after rops27 V) (Proc.devRef .tc main_v283) := by
  after_results_simp
theorem fin_main_v283 (V : Valuation τ sig (Elt F)) :
    RV33 V (Proc.devRef .tc main_v283) = (StableHlo.binary main_v282 main_v280 main_v283 (mulf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v283) := by
  have h := ssa_main_v283 (F := F) (RV27 V)
  rw [binary_result] at h ⊢
  rw [lift28 V main_v283 (by decide), lift28 V main_v282 (by decide), lift28 V main_v280 (by decide)]
  exact h

theorem ssa_main_cst_43 (V : Valuation τ sig (Elt F)) :
    after rops27 V (Proc.devRef .tc main_cst_43) = (StableHlo.nullary main_cst_43 (constant S_ .f32 0x3727C5AC#32) : HloOp τ sig (Elt F)).result (after rops27 V) (Proc.devRef .tc main_cst_43) := by
  after_results_simp
theorem fin_main_cst_43 (V : Valuation τ sig (Elt F)) :
    RV33 V (Proc.devRef .tc main_cst_43) = (StableHlo.nullary main_cst_43 (constant S_ .f32 0x3727C5AC#32) : HloOp τ sig (Elt F)).result (RV33 V) (Proc.devRef .tc main_cst_43) := by
  have h := ssa_main_cst_43 (F := F) (RV27 V)
  rw [nullary_result] at h ⊢
  rw [lift28 V main_cst_43 (by decide)]
  exact h

theorem ssa_main_v284 (V : Valuation τ sig (Elt F)) :
    after rops27 V (Proc.devRef .tc main_v284) = (StableHlo.unary main_cst_43 main_v284 (broadcastInDim S64 ![] bcast_S_S64 : (⟨S_, .f32⟩ : BufTy).Contents (Elt F) → (⟨S64, .f32⟩ : BufTy).Contents (Elt F)) : HloOp τ sig (Elt F)).result (after rops27 V) (Proc.devRef .tc main_v284) := by
  after_results_simp
theorem fin_main_v284 (V : Valuation τ sig (Elt F)) :
    RV33 V (Proc.devRef .tc main_v284) = (StableHlo.unary main_cst_43 main_v284 (broadcastInDim S64 ![] bcast_S_S64 : (⟨S_, .f32⟩ : BufTy).Contents (Elt F) → (⟨S64, .f32⟩ : BufTy).Contents (Elt F)) : HloOp τ sig (Elt F)).result (RV33 V) (Proc.devRef .tc main_v284) := by
  have h := ssa_main_v284 (F := F) (RV27 V)
  rw [unary_result] at h ⊢
  rw [lift28 V main_v284 (by decide), lift28 V main_cst_43 (by decide)]
  exact h

theorem ssa_main_v285 (V : Valuation τ sig (Elt F)) :
    after rops27 V (Proc.devRef .tc main_v285) = (StableHlo.binary main_v277 main_v284 main_v285 (addf : (⟨S64, .f32⟩ : BufTy).Contents (Elt F) → (⟨S64, .f32⟩ : BufTy).Contents (Elt F) → (⟨S64, .f32⟩ : BufTy).Contents (Elt F)) : HloOp τ sig (Elt F)).result (after rops27 V) (Proc.devRef .tc main_v285) := by
  after_results_simp
theorem fin_main_v285 (V : Valuation τ sig (Elt F)) :
    RV33 V (Proc.devRef .tc main_v285) = (StableHlo.binary main_v277 main_v284 main_v285 (addf : (⟨S64, .f32⟩ : BufTy).Contents (Elt F) → (⟨S64, .f32⟩ : BufTy).Contents (Elt F) → (⟨S64, .f32⟩ : BufTy).Contents (Elt F)) : HloOp τ sig (Elt F)).result (RV33 V) (Proc.devRef .tc main_v285) := by
  have h := ssa_main_v285 (F := F) (RV27 V)
  rw [binary_result] at h ⊢
  rw [lift28 V main_v285 (by decide), lift28 V main_v277 (by decide), lift28 V main_v284 (by decide)]
  exact h

theorem ssa_main_v286 (V : Valuation τ sig (Elt F)) :
    after rops27 V (Proc.devRef .tc main_v286) = (StableHlo.unary main_v285 main_v286 (Host.rsqrt : (⟨S64, .f32⟩ : BufTy).Contents (Elt F) → (⟨S64, .f32⟩ : BufTy).Contents (Elt F)) : HloOp τ sig (Elt F)).result (after rops27 V) (Proc.devRef .tc main_v286) := by
  after_results_simp
theorem fin_main_v286 (V : Valuation τ sig (Elt F)) :
    RV33 V (Proc.devRef .tc main_v286) = (StableHlo.unary main_v285 main_v286 (Host.rsqrt : (⟨S64, .f32⟩ : BufTy).Contents (Elt F) → (⟨S64, .f32⟩ : BufTy).Contents (Elt F)) : HloOp τ sig (Elt F)).result (RV33 V) (Proc.devRef .tc main_v286) := by
  have h := ssa_main_v286 (F := F) (RV27 V)
  rw [unary_result] at h ⊢
  rw [lift28 V main_v286 (by decide), lift28 V main_v285 (by decide)]
  exact h

theorem ssa_main_v287 (V : Valuation τ sig (Elt F)) :
    after rops27 V (Proc.devRef .tc main_v287) = (StableHlo.unary main_v286 main_v287 (broadcastInDim S1x64 ![1] bcast_S64_S1x64_1 : (⟨S64, .f32⟩ : BufTy).Contents (Elt F) → (⟨S1x64, .f32⟩ : BufTy).Contents (Elt F)) : HloOp τ sig (Elt F)).result (after rops27 V) (Proc.devRef .tc main_v287) := by
  after_results_simp
theorem fin_main_v287 (V : Valuation τ sig (Elt F)) :
    RV33 V (Proc.devRef .tc main_v287) = (StableHlo.unary main_v286 main_v287 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v287) := by
  have h := ssa_main_v287 (F := F) (RV27 V)
  rw [unary_result] at h ⊢
  rw [lift28 V main_v287 (by decide), lift28 V main_v286 (by decide)]
  exact h

theorem ssa_main_v288 (V : Valuation τ sig (Elt F)) :
    after rops27 V (Proc.devRef .tc main_v288) = (StableHlo.unary main_v287 main_v288 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops27 V) (Proc.devRef .tc main_v288) := by
  after_results_simp
theorem fin_main_v288 (V : Valuation τ sig (Elt F)) :
    RV33 V (Proc.devRef .tc main_v288) = (StableHlo.unary main_v287 main_v288 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v288) := by
  have h := ssa_main_v288 (F := F) (RV27 V)
  rw [unary_result] at h ⊢
  rw [lift28 V main_v288 (by decide), lift28 V main_v287 (by decide)]
  exact h

theorem ssa_main_v289 (V : Valuation τ sig (Elt F)) :
    after rops27 V (Proc.devRef .tc main_v289) = (StableHlo.binary main_v283 main_v288 main_v289 (mulf : (⟨S100000x64, .f32⟩ : BufTy).Contents (Elt F) → (⟨S100000x64, .f32⟩ : BufTy).Contents (Elt F) → (⟨S100000x64, .f32⟩ : BufTy).Contents (Elt F)) : HloOp τ sig (Elt F)).result (after rops27 V) (Proc.devRef .tc main_v289) := by
  after_results_simp
theorem fin_main_v289 (V : Valuation τ sig (Elt F)) :
    RV33 V (Proc.devRef .tc main_v289) = (StableHlo.binary main_v283 main_v288 main_v289 (mulf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v289) := by
  have h := ssa_main_v289 (F := F) (RV27 V)
  rw [binary_result] at h ⊢
  rw [lift28 V main_v289 (by decide), lift28 V main_v283 (by decide), lift28 V main_v288 (by decide)]
  exact h

theorem ssa_main_v290 (V : Valuation τ sig (Elt F)) :
    after rops27 V (Proc.devRef .tc main_v290) = (StableHlo.unary main_arg18 main_v290 (broadcastInDim S1x64 ![1] bcast_S64_S1x64_1 : (⟨S64, .f32⟩ : BufTy).Contents (Elt F) → (⟨S1x64, .f32⟩ : BufTy).Contents (Elt F)) : HloOp τ sig (Elt F)).result (after rops27 V) (Proc.devRef .tc main_v290) := by
  after_results_simp
theorem fin_main_v290 (V : Valuation τ sig (Elt F)) :
    RV33 V (Proc.devRef .tc main_v290) = (StableHlo.unary main_arg18 main_v290 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v290) := by
  have h := ssa_main_v290 (F := F) (RV27 V)
  rw [unary_result] at h ⊢
  rw [lift28 V main_v290 (by decide), lift28 V main_arg18 (by decide)]
  exact h

theorem ssa_main_v291 (V : Valuation τ sig (Elt F)) :
    after rops27 V (Proc.devRef .tc main_v291) = (StableHlo.unary main_v290 main_v291 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops27 V) (Proc.devRef .tc main_v291) := by
  after_results_simp
theorem fin_main_v291 (V : Valuation τ sig (Elt F)) :
    RV33 V (Proc.devRef .tc main_v291) = (StableHlo.unary main_v290 main_v291 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v291) := by
  have h := ssa_main_v291 (F := F) (RV27 V)
  rw [unary_result] at h ⊢
  rw [lift28 V main_v291 (by decide), lift28 V main_v290 (by decide)]
  exact h

theorem ssa_main_v292 (V : Valuation τ sig (Elt F)) :
    after rops27 V (Proc.devRef .tc main_v292) = (StableHlo.binary main_v289 main_v291 main_v292 (addf : (⟨S100000x64, .f32⟩ : BufTy).Contents (Elt F) → (⟨S100000x64, .f32⟩ : BufTy).Contents (Elt F) → (⟨S100000x64, .f32⟩ : BufTy).Contents (Elt F)) : HloOp τ sig (Elt F)).result (after rops27 V) (Proc.devRef .tc main_v292) := by
  after_results_simp
theorem fin_main_v292 (V : Valuation τ sig (Elt F)) :
    RV33 V (Proc.devRef .tc main_v292) = (StableHlo.binary main_v289 main_v291 main_v292 (addf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v292) := by
  have h := ssa_main_v292 (F := F) (RV27 V)
  rw [binary_result] at h ⊢
  rw [lift28 V main_v292 (by decide), lift28 V main_v289 (by decide), lift28 V main_v291 (by decide)]
  exact h

theorem ssa_main_cst_44 (V : Valuation τ sig (Elt F)) :
    after rops28 V (Proc.devRef .tc main_cst_44) = (StableHlo.nullary main_cst_44 (constant S_ .f32 0x00000000#32) : HloOp τ sig (Elt F)).result (after rops28 V) (Proc.devRef .tc main_cst_44) := by
  after_results_simp
theorem fin_main_cst_44 (V : Valuation τ sig (Elt F)) :
    RV33 V (Proc.devRef .tc main_cst_44) = (StableHlo.nullary main_cst_44 (constant S_ .f32 0x00000000#32) : HloOp τ sig (Elt F)).result (RV33 V) (Proc.devRef .tc main_cst_44) := by
  have h := ssa_main_cst_44 (F := F) (RV28 V)
  rw [nullary_result] at h ⊢
  rw [lift29 V main_cst_44 (by decide)]
  exact h

theorem ssa_main_v293 (V : Valuation τ sig (Elt F)) :
    after rops28 V (Proc.devRef .tc main_v293) = (StableHlo.unary main_cst_44 main_v293 (broadcastInDim S100000x64 ![] bcast_S_S100000x64 : (⟨S_, .f32⟩ : BufTy).Contents (Elt F) → (⟨S100000x64, .f32⟩ : BufTy).Contents (Elt F)) : HloOp τ sig (Elt F)).result (after rops28 V) (Proc.devRef .tc main_v293) := by
  after_results_simp
theorem fin_main_v293 (V : Valuation τ sig (Elt F)) :
    RV33 V (Proc.devRef .tc main_v293) = (StableHlo.unary main_cst_44 main_v293 (broadcastInDim S100000x64 ![] bcast_S_S100000x64 : (⟨S_, .f32⟩ : BufTy).Contents (Elt F) → (⟨S100000x64, .f32⟩ : BufTy).Contents (Elt F)) : HloOp τ sig (Elt F)).result (RV33 V) (Proc.devRef .tc main_v293) := by
  have h := ssa_main_v293 (F := F) (RV28 V)
  rw [unary_result] at h ⊢
  rw [lift29 V main_v293 (by decide), lift29 V main_cst_44 (by decide)]
  exact h

theorem ssa_main_v294 (V : Valuation τ sig (Elt F)) :
    after rops28 V (Proc.devRef .tc main_v294) = (StableHlo.binary main_v292 main_v293 main_v294 (cmpf .oge : (⟨S100000x64, .f32⟩ : BufTy).Contents (Elt F) → (⟨S100000x64, .f32⟩ : BufTy).Contents (Elt F) → (⟨S100000x64, .i1⟩ : BufTy).Contents (Elt F)) : HloOp τ sig (Elt F)).result (after rops28 V) (Proc.devRef .tc main_v294) := by
  after_results_simp
theorem fin_main_v294 (V : Valuation τ sig (Elt F)) :
    RV33 V (Proc.devRef .tc main_v294) = (StableHlo.binary main_v292 main_v293 main_v294 (cmpf .oge : (⟨S100000x64, .f32⟩ : BufTy).Contents (Elt F) → (⟨S100000x64, .f32⟩ : BufTy).Contents (Elt F) → (⟨S100000x64, .i1⟩ : BufTy).Contents (Elt F)) : HloOp τ sig (Elt F)).result (RV33 V) (Proc.devRef .tc main_v294) := by
  have h := ssa_main_v294 (F := F) (RV28 V)
  rw [binary_result] at h ⊢
  rw [lift29 V main_v294 (by decide), lift29 V main_v292 (by decide), lift29 V main_v293 (by decide)]
  exact h

theorem ssa_main_cst_45 (V : Valuation τ sig (Elt F)) :
    after rops28 V (Proc.devRef .tc main_cst_45) = (StableHlo.nullary main_cst_45 (constant S_ .f32 0x3C23D70A#32) : HloOp τ sig (Elt F)).result (after rops28 V) (Proc.devRef .tc main_cst_45) := by
  after_results_simp
theorem fin_main_cst_45 (V : Valuation τ sig (Elt F)) :
    RV33 V (Proc.devRef .tc main_cst_45) = (StableHlo.nullary main_cst_45 (constant S_ .f32 0x3C23D70A#32) : HloOp τ sig (Elt F)).result (RV33 V) (Proc.devRef .tc main_cst_45) := by
  have h := ssa_main_cst_45 (F := F) (RV28 V)
  rw [nullary_result] at h ⊢
  rw [lift29 V main_cst_45 (by decide)]
  exact h

theorem ssa_main_v295 (V : Valuation τ sig (Elt F)) :
    after rops28 V (Proc.devRef .tc main_v295) = (StableHlo.unary main_cst_45 main_v295 (broadcastInDim S100000x64 ![] bcast_S_S100000x64 : (⟨S_, .f32⟩ : BufTy).Contents (Elt F) → (⟨S100000x64, .f32⟩ : BufTy).Contents (Elt F)) : HloOp τ sig (Elt F)).result (after rops28 V) (Proc.devRef .tc main_v295) := by
  after_results_simp
theorem fin_main_v295 (V : Valuation τ sig (Elt F)) :
    RV33 V (Proc.devRef .tc main_v295) = (StableHlo.unary main_cst_45 main_v295 (broadcastInDim S100000x64 ![] bcast_S_S100000x64 : (⟨S_, .f32⟩ : BufTy).Contents (Elt F) → (⟨S100000x64, .f32⟩ : BufTy).Contents (Elt F)) : HloOp τ sig (Elt F)).result (RV33 V) (Proc.devRef .tc main_v295) := by
  have h := ssa_main_v295 (F := F) (RV28 V)
  rw [unary_result] at h ⊢
  rw [lift29 V main_v295 (by decide), lift29 V main_cst_45 (by decide)]
  exact h

theorem ssa_main_v296 (V : Valuation τ sig (Elt F)) :
    after rops28 V (Proc.devRef .tc main_v296) = (StableHlo.binary main_v295 main_v292 main_v296 (mulf : (⟨S100000x64, .f32⟩ : BufTy).Contents (Elt F) → (⟨S100000x64, .f32⟩ : BufTy).Contents (Elt F) → (⟨S100000x64, .f32⟩ : BufTy).Contents (Elt F)) : HloOp τ sig (Elt F)).result (after rops28 V) (Proc.devRef .tc main_v296) := by
  after_results_simp
theorem fin_main_v296 (V : Valuation τ sig (Elt F)) :
    RV33 V (Proc.devRef .tc main_v296) = (StableHlo.binary main_v295 main_v292 main_v296 (mulf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v296) := by
  have h := ssa_main_v296 (F := F) (RV28 V)
  rw [binary_result] at h ⊢
  rw [lift29 V main_v296 (by decide), lift29 V main_v295 (by decide), lift29 V main_v292 (by decide)]
  exact h

theorem ssa_main_v297 (V : Valuation τ sig (Elt F)) :
    after rops28 V (Proc.devRef .tc main_v297) = (StableHlo.TRef.ternary (.of main_v294) (.of main_v292) (.of main_v296) main_call14.v0 select : HloOp τ sig (Elt F)).result (after rops28 V) (Proc.devRef .tc main_v297) := by
  after_results_simp
theorem fin_main_v297 (V : Valuation τ sig (Elt F)) :
    RV33 V (Proc.devRef .tc main_v297) = (StableHlo.TRef.ternary (.of main_v294) (.of main_v292) (.of main_v296) main_call14.v0 select : HloOp τ sig (Elt F)).result (RV33 V) (Proc.devRef .tc main_v297) := by
  have h := ssa_main_v297 (F := F) (RV28 V)
  rw [ternary_result] at h ⊢
  rw [lift29 V main_v297 (by decide), lift29 V main_v294 (by decide), lift29 V main_v292 (by decide), lift29 V main_v296 (by decide)]
  exact h

theorem ssa_main_v298 (V : Valuation τ sig (Elt F)) :
    after rops28 V (Proc.devRef .tc main_v298) = (StableHlo.binary main_v297 main_arg19 main_v298 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) : HloOp τ sig (Elt F)).result (after rops28 V) (Proc.devRef .tc main_v298) := by
  after_results_simp
theorem fin_main_v298 (V : Valuation τ sig (Elt F)) :
    RV33 V (Proc.devRef .tc main_v298) = (StableHlo.binary main_v297 main_arg19 main_v298 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) : HloOp τ sig (Elt F)).result (RV33 V) (Proc.devRef .tc main_v298) := by
  have h := ssa_main_v298 (F := F) (RV28 V)
  rw [binary_result] at h ⊢
  rw [lift29 V main_v298 (by decide), lift29 V main_v297 (by decide), lift29 V main_arg19 (by decide)]
  exact h

theorem ssa_main_v299 (V : Valuation τ sig (Elt F)) :
    after rops28 V (Proc.devRef .tc main_v299) = (StableHlo.unary main_arg20 main_v299 (broadcastInDim S1x64 ![1] bcast_S64_S1x64_1 : (⟨S64, .f32⟩ : BufTy).Contents (Elt F) → (⟨S1x64, .f32⟩ : BufTy).Contents (Elt F)) : HloOp τ sig (Elt F)).result (after rops28 V) (Proc.devRef .tc main_v299) := by
  after_results_simp
theorem fin_main_v299 (V : Valuation τ sig (Elt F)) :
    RV33 V (Proc.devRef .tc main_v299) = (StableHlo.unary main_arg20 main_v299 (broadcastInDim S1x64 ![1] bcast_S64_S1x64_1 : (⟨S64, .f32⟩ : BufTy).Contents (Elt F) → (⟨S1x64, .f32⟩ : BufTy).Contents (Elt F)) : HloOp τ sig (Elt F)).result (RV33 V) (Proc.devRef .tc main_v299) := by
  have h := ssa_main_v299 (F := F) (RV28 V)
  rw [unary_result] at h ⊢
  rw [lift29 V main_v299 (by decide), lift29 V main_arg20 (by decide)]
  exact h

theorem ssa_main_v300 (V : Valuation τ sig (Elt F)) :
    after rops28 V (Proc.devRef .tc main_v300) = (StableHlo.unary main_v299 main_v300 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (after rops28 V) (Proc.devRef .tc main_v300) := by
  after_results_simp
theorem fin_main_v300 (V : Valuation τ sig (Elt F)) :
    RV33 V (Proc.devRef .tc main_v300) = (StableHlo.unary main_v299 main_v300 (broadcastInDim S100000x64 ![0, 1] bcast_S1x64_S100000x64_0_1 : (⟨S1x64, .f32⟩ : BufTy).Contents (Elt F) → (⟨S100000x64, .f32⟩ : BufTy).Contents (Elt F)) : HloOp τ sig (Elt F)).result (RV33 V) (Proc.devRef .tc main_v300) := by
  have h := ssa_main_v300 (F := F) (RV28 V)
  rw [unary_result] at h ⊢
  rw [lift29 V main_v300 (by decide), lift29 V main_v299 (by decide)]
  exact h

theorem ssa_main_v301 (V : Valuation τ sig (Elt F)) :
    after rops28 V (Proc.devRef .tc main_v301) = (StableHlo.binary main_v298 main_v300 main_v301 (addf : (⟨S100000x64, .f32⟩ : BufTy).Contents (Elt F) → (⟨S100000x64, .f32⟩ : BufTy).Contents (Elt F) → (⟨S100000x64, .f32⟩ : BufTy).Contents (Elt F)) : HloOp τ sig (Elt F)).result (after rops28 V) (Proc.devRef .tc main_v301) := by
  after_results_simp
theorem fin_main_v301 (V : Valuation τ sig (Elt F)) :
    RV33 V (Proc.devRef .tc main_v301) = (StableHlo.binary main_v298 main_v300 main_v301 (addf : (⟨S100000x64, .f32⟩ : BufTy).Contents (Elt F) → (⟨S100000x64, .f32⟩ : BufTy).Contents (Elt F) → (⟨S100000x64, .f32⟩ : BufTy).Contents (Elt F)) : HloOp τ sig (Elt F)).result (RV33 V) (Proc.devRef .tc main_v301) := by
  have h := ssa_main_v301 (F := F) (RV28 V)
  rw [binary_result] at h ⊢
  rw [lift29 V main_v301 (by decide), lift29 V main_v298 (by decide), lift29 V main_v300 (by decide)]
  exact h

theorem ssa_main_v302 (V : Valuation τ sig (Elt F)) :
    after rops28 V (Proc.devRef .tc main_v302) = (StableHlo.binary main_v269 main_v301 main_v302 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)) : HloOp τ sig (Elt F)).result (after rops28 V) (Proc.devRef .tc main_v302) := by
  have hsplit : (rops28 : List (HloOp τ sig (Elt F))) =
      ([ StableHlo.nullary main_cst_44 (constant S_ .f32 0x00000000#32),
        StableHlo.unary main_cst_44 main_v293 (broadcastInDim S100000x64 ![] bcast_S_S100000x64 : (⟨S_, .f32⟩ : BufTy).Contents (Elt F) → (⟨S100000x64, .f32⟩ : BufTy).Contents (Elt F)),
        StableHlo.binary main_v292 main_v293 main_v294 (cmpf .oge : (⟨S100000x64, .f32⟩ : BufTy).Contents (Elt F) → (⟨S100000x64, .f32⟩ : BufTy).Contents (Elt F) → (⟨S100000x64, .i1⟩ : BufTy).Contents (Elt F)),
        StableHlo.nullary main_cst_45 (constant S_ .f32 0x3C23D70A#32),
        StableHlo.unary main_cst_45 main_v295 (broadcastInDim S100000x64 ![] bcast_S_S100000x64 : (⟨S_, .f32⟩ : BufTy).Contents (Elt F) → (⟨S100000x64, .f32⟩ : BufTy).Contents (Elt F)),
        StableHlo.binary main_v295 main_v292 main_v296 (mulf : (⟨S100000x64, .f32⟩ : BufTy).Contents (Elt F) → (⟨S100000x64, .f32⟩ : BufTy).Contents (Elt F) → (⟨S100000x64, .f32⟩ : BufTy).Contents (Elt F)),
        StableHlo.TRef.ternary (.of main_v294) (.of main_v292) (.of main_v296) main_call14.v0 select,
        StableHlo.binary main_v297 main_arg19 main_v298 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
        StableHlo.unary main_arg20 main_v299 (broadcastInDim S1x64 ![1] bcast_S64_S1x64_1 : (⟨S64, .f32⟩ : BufTy).Contents (Elt F) → (⟨S1x64, .f32⟩ : BufTy).Contents (Elt F)),
        StableHlo.unary main_v299 main_v300 (broadcastInDim S100000x64 ![0, 1] bcast_S1x64_S100000x64_0_1 : (⟨S1x64, .f32⟩ : BufTy).Contents (Elt F) → (⟨S100000x64, .f32⟩ : BufTy).Contents (Elt F)),
        StableHlo.binary main_v298 main_v300 main_v301 (addf : (⟨S100000x64, .f32⟩ : BufTy).Contents (Elt F) → (⟨S100000x64, .f32⟩ : BufTy).Contents (Elt F) → (⟨S100000x64, .f32⟩ : BufTy).Contents (Elt F)) ] : List (HloOp τ sig (Elt F))) ++
      (StableHlo.binary main_v269 main_v301 main_v302 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)) : HloOp τ sig (Elt F)) ::
      ([ StableHlo.binary main_v302 main_arg21 main_v303 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
        StableHlo.unary main_arg22 main_v304 (broadcastInDim S1x128 ![1] bcast_S128_S1x128_1 : (⟨S128, .f32⟩ : BufTy).Contents (Elt F) → (⟨S1x128, .f32⟩ : BufTy).Contents (Elt F)),
        StableHlo.unary main_v304 main_v305 (broadcastInDim S100000x128 ![0, 1] bcast_S1x128_S100000x128_0_1 : (⟨S1x128, .f32⟩ : BufTy).Contents (Elt F) → (⟨S100000x128, .f32⟩ : BufTy).Contents (Elt F)),
        StableHlo.binary main_v303 main_v305 main_v306 (addf : (⟨S100000x128, .f32⟩ : BufTy).Contents (Elt F) → (⟨S100000x128, .f32⟩ : BufTy).Contents (Elt F) → (⟨S100000x128, .f32⟩ : BufTy).Contents (Elt F)),
        StableHlo.nullary main_cst_46 (constant S_ .f32 0x00000000#32),
        StableHlo.binary main_v306 main_cst_46 main_v307 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
        StableHlo.nullary main_cst_47 (constant S_ .f32 0x47C35000#32),
        StableHlo.unary main_cst_47 main_v308 (broadcastInDim S128 ![] bcast_S_S128 : (⟨S_, .f32⟩ : BufTy).Contents (Elt F) → (⟨S128, .f32⟩ : BufTy).Contents (Elt F)) ] : List (HloOp τ sig (Elt F))) := rfl
  rw [hsplit, after_append, after_cons]
  generalize after _ V = W
  after_results
  all_goals rfl
theorem fin_main_v302 (V : Valuation τ sig (Elt F)) :
    RV33 V (Proc.devRef .tc main_v302) = (StableHlo.binary main_v269 main_v301 main_v302 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)) : HloOp τ sig (Elt F)).result (RV33 V) (Proc.devRef .tc main_v302) := by
  have h := ssa_main_v302 (F := F) (RV28 V)
  rw [binary_result] at h ⊢
  rw [lift29 V main_v302 (by decide), lift29 V main_v269 (by decide), lift29 V main_v301 (by decide)]
  exact h

theorem ssa_main_v303 (V : Valuation τ sig (Elt F)) :
    after rops28 V (Proc.devRef .tc main_v303) = (StableHlo.binary main_v302 main_arg21 main_v303 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) : HloOp τ sig (Elt F)).result (after rops28 V) (Proc.devRef .tc main_v303) := by
  after_results_simp
theorem fin_main_v303 (V : Valuation τ sig (Elt F)) :
    RV33 V (Proc.devRef .tc main_v303) = (StableHlo.binary main_v302 main_arg21 main_v303 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) : HloOp τ sig (Elt F)).result (RV33 V) (Proc.devRef .tc main_v303) := by
  have h := ssa_main_v303 (F := F) (RV28 V)
  rw [binary_result] at h ⊢
  rw [lift29 V main_v303 (by decide), lift29 V main_v302 (by decide), lift29 V main_arg21 (by decide)]
  exact h

theorem ssa_main_v304 (V : Valuation τ sig (Elt F)) :
    after rops28 V (Proc.devRef .tc main_v304) = (StableHlo.unary main_arg22 main_v304 (broadcastInDim S1x128 ![1] bcast_S128_S1x128_1 : (⟨S128, .f32⟩ : BufTy).Contents (Elt F) → (⟨S1x128, .f32⟩ : BufTy).Contents (Elt F)) : HloOp τ sig (Elt F)).result (after rops28 V) (Proc.devRef .tc main_v304) := by
  after_results_simp
theorem fin_main_v304 (V : Valuation τ sig (Elt F)) :
    RV33 V (Proc.devRef .tc main_v304) = (StableHlo.unary main_arg22 main_v304 (broadcastInDim S1x128 ![1] bcast_S128_S1x128_1 : (⟨S128, .f32⟩ : BufTy).Contents (Elt F) → (⟨S1x128, .f32⟩ : BufTy).Contents (Elt F)) : HloOp τ sig (Elt F)).result (RV33 V) (Proc.devRef .tc main_v304) := by
  have h := ssa_main_v304 (F := F) (RV28 V)
  rw [unary_result] at h ⊢
  rw [lift29 V main_v304 (by decide), lift29 V main_arg22 (by decide)]
  exact h

theorem ssa_main_v305 (V : Valuation τ sig (Elt F)) :
    after rops28 V (Proc.devRef .tc main_v305) = (StableHlo.unary main_v304 main_v305 (broadcastInDim S100000x128 ![0, 1] bcast_S1x128_S100000x128_0_1 : (⟨S1x128, .f32⟩ : BufTy).Contents (Elt F) → (⟨S100000x128, .f32⟩ : BufTy).Contents (Elt F)) : HloOp τ sig (Elt F)).result (after rops28 V) (Proc.devRef .tc main_v305) := by
  after_results_simp
theorem fin_main_v305 (V : Valuation τ sig (Elt F)) :
    RV33 V (Proc.devRef .tc main_v305) = (StableHlo.unary main_v304 main_v305 (broadcastInDim S100000x128 ![0, 1] bcast_S1x128_S100000x128_0_1 : (⟨S1x128, .f32⟩ : BufTy).Contents (Elt F) → (⟨S100000x128, .f32⟩ : BufTy).Contents (Elt F)) : HloOp τ sig (Elt F)).result (RV33 V) (Proc.devRef .tc main_v305) := by
  have h := ssa_main_v305 (F := F) (RV28 V)
  rw [unary_result] at h ⊢
  rw [lift29 V main_v305 (by decide), lift29 V main_v304 (by decide)]
  exact h

theorem ssa_main_v306 (V : Valuation τ sig (Elt F)) :
    after rops28 V (Proc.devRef .tc main_v306) = (StableHlo.binary main_v303 main_v305 main_v306 (addf : (⟨S100000x128, .f32⟩ : BufTy).Contents (Elt F) → (⟨S100000x128, .f32⟩ : BufTy).Contents (Elt F) → (⟨S100000x128, .f32⟩ : BufTy).Contents (Elt F)) : HloOp τ sig (Elt F)).result (after rops28 V) (Proc.devRef .tc main_v306) := by
  after_results_simp
theorem fin_main_v306 (V : Valuation τ sig (Elt F)) :
    RV33 V (Proc.devRef .tc main_v306) = (StableHlo.binary main_v303 main_v305 main_v306 (addf : (⟨S100000x128, .f32⟩ : BufTy).Contents (Elt F) → (⟨S100000x128, .f32⟩ : BufTy).Contents (Elt F) → (⟨S100000x128, .f32⟩ : BufTy).Contents (Elt F)) : HloOp τ sig (Elt F)).result (RV33 V) (Proc.devRef .tc main_v306) := by
  have h := ssa_main_v306 (F := F) (RV28 V)
  rw [binary_result] at h ⊢
  rw [lift29 V main_v306 (by decide), lift29 V main_v303 (by decide), lift29 V main_v305 (by decide)]
  exact h

theorem ssa_main_cst_46 (V : Valuation τ sig (Elt F)) :
    after rops28 V (Proc.devRef .tc main_cst_46) = (StableHlo.nullary main_cst_46 (constant S_ .f32 0x00000000#32) : HloOp τ sig (Elt F)).result (after rops28 V) (Proc.devRef .tc main_cst_46) := by
  after_results_simp
theorem fin_main_cst_46 (V : Valuation τ sig (Elt F)) :
    RV33 V (Proc.devRef .tc main_cst_46) = (StableHlo.nullary main_cst_46 (constant S_ .f32 0x00000000#32) : HloOp τ sig (Elt F)).result (RV33 V) (Proc.devRef .tc main_cst_46) := by
  have h := ssa_main_cst_46 (F := F) (RV28 V)
  rw [nullary_result] at h ⊢
  rw [lift29 V main_cst_46 (by decide)]
  exact h

theorem ssa_main_v307 (V : Valuation τ sig (Elt F)) :
    after rops28 V (Proc.devRef .tc main_v307) = (StableHlo.binary main_v306 main_cst_46 main_v307 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) : HloOp τ sig (Elt F)).result (after rops28 V) (Proc.devRef .tc main_v307) := by
  after_results_simp
theorem fin_main_v307 (V : Valuation τ sig (Elt F)) :
    RV33 V (Proc.devRef .tc main_v307) = (StableHlo.binary main_v306 main_cst_46 main_v307 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) : HloOp τ sig (Elt F)).result (RV33 V) (Proc.devRef .tc main_v307) := by
  have h := ssa_main_v307 (F := F) (RV28 V)
  rw [binary_result] at h ⊢
  rw [lift29 V main_v307 (by decide), lift29 V main_v306 (by decide), lift29 V main_cst_46 (by decide)]
  exact h

theorem ssa_main_cst_47 (V : Valuation τ sig (Elt F)) :
    after rops28 V (Proc.devRef .tc main_cst_47) = (StableHlo.nullary main_cst_47 (constant S_ .f32 0x47C35000#32) : HloOp τ sig (Elt F)).result (after rops28 V) (Proc.devRef .tc main_cst_47) := by
  after_results_simp
theorem fin_main_cst_47 (V : Valuation τ sig (Elt F)) :
    RV33 V (Proc.devRef .tc main_cst_47) = (StableHlo.nullary main_cst_47 (constant S_ .f32 0x47C35000#32) : HloOp τ sig (Elt F)).result (RV33 V) (Proc.devRef .tc main_cst_47) := by
  have h := ssa_main_cst_47 (F := F) (RV28 V)
  rw [nullary_result] at h ⊢
  rw [lift29 V main_cst_47 (by decide)]
  exact h

theorem ssa_main_v308 (V : Valuation τ sig (Elt F)) :
    after rops28 V (Proc.devRef .tc main_v308) = (StableHlo.unary main_cst_47 main_v308 (broadcastInDim S128 ![] bcast_S_S128 : (⟨S_, .f32⟩ : BufTy).Contents (Elt F) → (⟨S128, .f32⟩ : BufTy).Contents (Elt F)) : HloOp τ sig (Elt F)).result (after rops28 V) (Proc.devRef .tc main_v308) := by
  after_results_simp
theorem fin_main_v308 (V : Valuation τ sig (Elt F)) :
    RV33 V (Proc.devRef .tc main_v308) = (StableHlo.unary main_cst_47 main_v308 (broadcastInDim S128 ![] bcast_S_S128 : (⟨S_, .f32⟩ : BufTy).Contents (Elt F) → (⟨S128, .f32⟩ : BufTy).Contents (Elt F)) : HloOp τ sig (Elt F)).result (RV33 V) (Proc.devRef .tc main_v308) := by
  have h := ssa_main_v308 (F := F) (RV28 V)
  rw [unary_result] at h ⊢
  rw [lift29 V main_v308 (by decide), lift29 V main_cst_47 (by decide)]
  exact h

theorem ssa_main_v309 (V : Valuation τ sig (Elt F)) :
    after rops29 V (Proc.devRef .tc main_v309) = (StableHlo.binary main_v307 main_v308 main_v309 (Host.divf : (⟨S128, .f32⟩ : BufTy).Contents (Elt F) → (⟨S128, .f32⟩ : BufTy).Contents (Elt F) → (⟨S128, .f32⟩ : BufTy).Contents (Elt F)) : HloOp τ sig (Elt F)).result (after rops29 V) (Proc.devRef .tc main_v309) := by
  after_results_simp
theorem fin_main_v309 (V : Valuation τ sig (Elt F)) :
    RV33 V (Proc.devRef .tc main_v309) = (StableHlo.binary main_v307 main_v308 main_v309 (Host.divf : (⟨S128, .f32⟩ : BufTy).Contents (Elt F) → (⟨S128, .f32⟩ : BufTy).Contents (Elt F) → (⟨S128, .f32⟩ : BufTy).Contents (Elt F)) : HloOp τ sig (Elt F)).result (RV33 V) (Proc.devRef .tc main_v309) := by
  have h := ssa_main_v309 (F := F) (RV29 V)
  rw [binary_result] at h ⊢
  rw [lift30 V main_v309 (by decide), lift30 V main_v307 (by decide), lift30 V main_v308 (by decide)]
  exact h

end Cert.ReferenceIdeal.Tab

end
-- ==== Proof.TabRSsa6.lean ====
/- Stretches 30 to 32 of the reference program read one operation at a time: each buffer a stretch writes holds its operation's function
   of the operands, within the stretch from any contents and, at the end of the run, over the final contents. -/
import proofs.«409037_j72164040508123_1_alg».proof.Proof.TabR

set_option maxRecDepth 16384

noncomputable section

namespace Cert.ReferenceIdeal.Tab

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

theorem ssa_main_c_48 (V : Valuation τ sig (Elt F)) :
    after rops30 V (Proc.devRef .tc main_c_48) = (StableHlo.nullary main_c_48 (constantI S_ 32 0#32) : HloOp τ sig (Elt F)).result (after rops30 V) (Proc.devRef .tc main_c_48) := by
  after_results_simp
theorem fin_main_c_48 (V : Valuation τ sig (Elt F)) :
    RV33 V (Proc.devRef .tc main_c_48) = (StableHlo.nullary main_c_48 (constantI S_ 32 0#32) : HloOp τ sig (Elt F)).result (RV33 V) (Proc.devRef .tc main_c_48) := by
  have h := ssa_main_c_48 (F := F) (RV30 V)
  rw [nullary_result] at h ⊢
  rw [lift31 V main_c_48 (by decide)]
  exact h

theorem ssa_main_call15_cst (V : Valuation τ sig (Elt F)) :
    after rops30 V (Proc.devRef .tc main_call15_cst) = (StableHlo.TRef.nullary main_call15.cst (constant S_ .f32 0x00000000#32) : HloOp τ sig (Elt F)).result (after rops30 V) (Proc.devRef .tc main_call15_cst) := by
  after_results_simp
theorem fin_main_call15_cst (V : Valuation τ sig (Elt F)) :
    RV33 V (Proc.devRef .tc main_call15_cst) = (StableHlo.TRef.nullary main_call15.cst (constant S_ .f32 0x00000000#32) : HloOp τ sig (Elt F)).result (RV33 V) (Proc.devRef .tc main_call15_cst) := by
  have h := ssa_main_call15_cst (F := F) (RV30 V)
  rw [nullary_result] at h ⊢
  rw [lift31 V main_call15_cst (by decide)]
  exact h

theorem ssa_main_call15_v0 (V : Valuation τ sig (Elt F)) :
    after rops30 V (Proc.devRef .tc main_call15_v0) = (StableHlo.TRef.binary (.of main_v306) main_call15.cst main_call15.v0 (fun x v => Host.reduceAdd x v reducesTo_S100000x128_S128_d0 h_S_) : HloOp τ sig (Elt F)).result (after rops30 V) (Proc.devRef .tc main_call15_v0) := by
  after_results_simp
theorem fin_main_call15_v0 (V : Valuation τ sig (Elt F)) :
    RV33 V (Proc.devRef .tc main_call15_v0) = (StableHlo.TRef.binary (.of main_v306) main_call15.cst main_call15.v0 (fun x v => Host.reduceAdd x v reducesTo_S100000x128_S128_d0 h_S_) : HloOp τ sig (Elt F)).result (RV33 V) (Proc.devRef .tc main_call15_v0) := by
  have h := ssa_main_call15_v0 (F := F) (RV30 V)
  rw [binary_result] at h ⊢
  rw [lift31 V main_call15_v0 (by decide), lift31 V main_v306 (by decide), lift31 V main_call15_cst (by decide)]
  exact h

theorem ssa_main_call15_v1 (V : Valuation τ sig (Elt F)) :
    after rops30 V (Proc.devRef .tc main_call15_v1) = (StableHlo.TRef.unary main_call15.v0 main_call15.v1 (broadcastInDim S1x128 ![1] bcast_S128_S1x128_1) : HloOp τ sig (Elt F)).result (after rops30 V) (Proc.devRef .tc main_call15_v1) := by
  after_results_simp
theorem fin_main_call15_v1 (V : Valuation τ sig (Elt F)) :
    RV33 V (Proc.devRef .tc main_call15_v1) = (StableHlo.TRef.unary main_call15.v0 main_call15.v1 (broadcastInDim S1x128 ![1] bcast_S128_S1x128_1) : HloOp τ sig (Elt F)).result (RV33 V) (Proc.devRef .tc main_call15_v1) := by
  have h := ssa_main_call15_v1 (F := F) (RV30 V)
  rw [unary_result] at h ⊢
  rw [lift31 V main_call15_v1 (by decide), lift31 V main_call15_v0 (by decide)]
  exact h

theorem ssa_main_call15_cst_0 (V : Valuation τ sig (Elt F)) :
    after rops30 V (Proc.devRef .tc main_call15_cst_0) = (StableHlo.TRef.nullary main_call15.cst_0 (constant S_ .f32 0x47C35000#32) : HloOp τ sig (Elt F)).result (after rops30 V) (Proc.devRef .tc main_call15_cst_0) := by
  after_results_simp
theorem fin_main_call15_cst_0 (V : Valuation τ sig (Elt F)) :
    RV33 V (Proc.devRef .tc main_call15_cst_0) = (StableHlo.TRef.nullary main_call15.cst_0 (constant S_ .f32 0x47C35000#32) : HloOp τ sig (Elt F)).result (RV33 V) (Proc.devRef .tc main_call15_cst_0) := by
  have h := ssa_main_call15_cst_0 (F := F) (RV30 V)
  rw [nullary_result] at h ⊢
  rw [lift31 V main_call15_cst_0 (by decide)]
  exact h

theorem ssa_main_call15_v2 (V : Valuation τ sig (Elt F)) :
    after rops30 V (Proc.devRef .tc main_call15_v2) = (StableHlo.TRef.unary main_call15.cst_0 main_call15.v2 (broadcastInDim S1x128 ![] bcast_S_S1x128) : HloOp τ sig (Elt F)).result (after rops30 V) (Proc.devRef .tc main_call15_v2) := by
  after_results_simp
theorem fin_main_call15_v2 (V : Valuation τ sig (Elt F)) :
    RV33 V (Proc.devRef .tc main_call15_v2) = (StableHlo.TRef.unary main_call15.cst_0 main_call15.v2 (broadcastInDim S1x128 ![] bcast_S_S1x128) : HloOp τ sig (Elt F)).result (RV33 V) (Proc.devRef .tc main_call15_v2) := by
  have h := ssa_main_call15_v2 (F := F) (RV30 V)
  rw [unary_result] at h ⊢
  rw [lift31 V main_call15_v2 (by decide), lift31 V main_call15_cst_0 (by decide)]
  exact h

theorem ssa_main_call15_v3 (V : Valuation τ sig (Elt F)) :
    after rops30 V (Proc.devRef .tc main_call15_v3) = (StableHlo.TRef.binary main_call15.v1 main_call15.v2 main_call15.v3 Host.divf : HloOp τ sig (Elt F)).result (after rops30 V) (Proc.devRef .tc main_call15_v3) := by
  after_results_simp
theorem fin_main_call15_v3 (V : Valuation τ sig (Elt F)) :
    RV33 V (Proc.devRef .tc main_call15_v3) = (StableHlo.TRef.binary main_call15.v1 main_call15.v2 main_call15.v3 Host.divf : HloOp τ sig (Elt F)).result (RV33 V) (Proc.devRef .tc main_call15_v3) := by
  have h := ssa_main_call15_v3 (F := F) (RV30 V)
  rw [binary_result] at h ⊢
  rw [lift31 V main_call15_v3 (by decide), lift31 V main_call15_v1 (by decide), lift31 V main_call15_v2 (by decide)]
  exact h

theorem ssa_main_call15_v4 (V : Valuation τ sig (Elt F)) :
    after rops30 V (Proc.devRef .tc main_call15_v4) = (StableHlo.TRef.unary main_call15.v3 main_call15.v4 (broadcastInDim S100000x128 ![0, 1] bcast_S1x128_S100000x128_0_1) : HloOp τ sig (Elt F)).result (after rops30 V) (Proc.devRef .tc main_call15_v4) := by
  after_results_simp
theorem fin_main_call15_v4 (V : Valuation τ sig (Elt F)) :
    RV33 V (Proc.devRef .tc main_call15_v4) = (StableHlo.TRef.unary main_call15.v3 main_call15.v4 (broadcastInDim S100000x128 ![0, 1] bcast_S1x128_S100000x128_0_1) : HloOp τ sig (Elt F)).result (RV33 V) (Proc.devRef .tc main_call15_v4) := by
  have h := ssa_main_call15_v4 (F := F) (RV30 V)
  rw [unary_result] at h ⊢
  rw [lift31 V main_call15_v4 (by decide), lift31 V main_call15_v3 (by decide)]
  exact h

theorem ssa_main_call15_v5 (V : Valuation τ sig (Elt F)) :
    after rops30 V (Proc.devRef .tc main_call15_v5) = (StableHlo.TRef.binary (.of main_v306) main_call15.v4 main_call15.v5 subf : HloOp τ sig (Elt F)).result (after rops30 V) (Proc.devRef .tc main_call15_v5) := by
  after_results_simp
theorem fin_main_call15_v5 (V : Valuation τ sig (Elt F)) :
    RV33 V (Proc.devRef .tc main_call15_v5) = (StableHlo.TRef.binary (.of main_v306) main_call15.v4 main_call15.v5 subf : HloOp τ sig (Elt F)).result (RV33 V) (Proc.devRef .tc main_call15_v5) := by
  have h := ssa_main_call15_v5 (F := F) (RV30 V)
  rw [binary_result] at h ⊢
  rw [lift31 V main_call15_v5 (by decide), lift31 V main_v306 (by decide), lift31 V main_call15_v4 (by decide)]
  exact h

theorem ssa_main_call15_v6 (V : Valuation τ sig (Elt F)) :
    after rops30 V (Proc.devRef .tc main_call15_v6) = (StableHlo.TRef.binary main_call15.v5 main_call15.v5 main_call15.v6 mulf : HloOp τ sig (Elt F)).result (after rops30 V) (Proc.devRef .tc main_call15_v6) := by
  after_results_simp
theorem fin_main_call15_v6 (V : Valuation τ sig (Elt F)) :
    RV33 V (Proc.devRef .tc main_call15_v6) = (StableHlo.TRef.binary main_call15.v5 main_call15.v5 main_call15.v6 mulf : HloOp τ sig (Elt F)).result (RV33 V) (Proc.devRef .tc main_call15_v6) := by
  have h := ssa_main_call15_v6 (F := F) (RV30 V)
  rw [binary_result] at h ⊢
  rw [lift31 V main_call15_v6 (by decide), lift31 V main_call15_v5 (by decide)]
  exact h

theorem ssa_main_call15_v7 (V : Valuation τ sig (Elt F)) :
    after rops30 V (Proc.devRef .tc main_call15_v7) = (StableHlo.TRef.unary (.of main_c_48) main_call15.v7 (sitofp .f32) : HloOp τ sig (Elt F)).result (after rops30 V) (Proc.devRef .tc main_call15_v7) := by
  after_results_simp
theorem fin_main_call15_v7 (V : Valuation τ sig (Elt F)) :
    RV33 V (Proc.devRef .tc main_call15_v7) = (StableHlo.TRef.unary (.of main_c_48) main_call15.v7 (sitofp .f32) : HloOp τ sig (Elt F)).result (RV33 V) (Proc.devRef .tc main_call15_v7) := by
  have h := ssa_main_call15_v7 (F := F) (RV30 V)
  rw [unary_result] at h ⊢
  rw [lift31 V main_call15_v7 (by decide), lift31 V main_c_48 (by decide)]
  exact h

theorem ssa_main_call15_cst_1 (V : Valuation τ sig (Elt F)) :
    after rops30 V (Proc.devRef .tc main_call15_cst_1) = (StableHlo.TRef.nullary main_call15.cst_1 (constant S_ .f32 0x47C35000#32) : HloOp τ sig (Elt F)).result (after rops30 V) (Proc.devRef .tc main_call15_cst_1) := by
  after_results_simp
theorem fin_main_call15_cst_1 (V : Valuation τ sig (Elt F)) :
    RV33 V (Proc.devRef .tc main_call15_cst_1) = (StableHlo.TRef.nullary main_call15.cst_1 (constant S_ .f32 0x47C35000#32) : HloOp τ sig (Elt F)).result (RV33 V) (Proc.devRef .tc main_call15_cst_1) := by
  have h := ssa_main_call15_cst_1 (F := F) (RV30 V)
  rw [nullary_result] at h ⊢
  rw [lift31 V main_call15_cst_1 (by decide)]
  exact h

theorem ssa_main_call15_v8 (V : Valuation τ sig (Elt F)) :
    after rops30 V (Proc.devRef .tc main_call15_v8) = (StableHlo.TRef.binary main_call15.cst_1 main_call15.v7 main_call15.v8 subf : HloOp τ sig (Elt F)).result (after rops30 V) (Proc.devRef .tc main_call15_v8) := by
  after_results_simp
theorem fin_main_call15_v8 (V : Valuation τ sig (Elt F)) :
    RV33 V (Proc.devRef .tc main_call15_v8) = (StableHlo.TRef.binary main_call15.cst_1 main_call15.v7 main_call15.v8 subf : HloOp τ sig (Elt F)).result (RV33 V) (Proc.devRef .tc main_call15_v8) := by
  have h := ssa_main_call15_v8 (F := F) (RV30 V)
  rw [binary_result] at h ⊢
  rw [lift31 V main_call15_v8 (by decide), lift31 V main_call15_cst_1 (by decide), lift31 V main_call15_v7 (by decide)]
  exact h

theorem ssa_main_call15_cst_2 (V : Valuation τ sig (Elt F)) :
    after rops30 V (Proc.devRef .tc main_call15_cst_2) = (StableHlo.TRef.nullary main_call15.cst_2 (constant S_ .f32 0x00000000#32) : HloOp τ sig (Elt F)).result (after rops30 V) (Proc.devRef .tc main_call15_cst_2) := by
  after_results_simp
theorem fin_main_call15_cst_2 (V : Valuation τ sig (Elt F)) :
    RV33 V (Proc.devRef .tc main_call15_cst_2) = (StableHlo.TRef.nullary main_call15.cst_2 (constant S_ .f32 0x00000000#32) : HloOp τ sig (Elt F)).result (RV33 V) (Proc.devRef .tc main_call15_cst_2) := by
  have h := ssa_main_call15_cst_2 (F := F) (RV30 V)
  rw [nullary_result] at h ⊢
  rw [lift31 V main_call15_cst_2 (by decide)]
  exact h

theorem ssa_main_call15_v9 (V : Valuation τ sig (Elt F)) :
    after rops30 V (Proc.devRef .tc main_call15_v9) = (StableHlo.TRef.binary main_call15.v6 main_call15.cst_2 main_call15.v9 (fun x v => Host.reduceAdd x v reducesTo_S100000x128_S128_d0 h_S_) : HloOp τ sig (Elt F)).result (after rops30 V) (Proc.devRef .tc main_call15_v9) := by
  after_results_simp
theorem fin_main_call15_v9 (V : Valuation τ sig (Elt F)) :
    RV33 V (Proc.devRef .tc main_call15_v9) = (StableHlo.TRef.binary main_call15.v6 main_call15.cst_2 main_call15.v9 (fun x v => Host.reduceAdd x v reducesTo_S100000x128_S128_d0 h_S_) : HloOp τ sig (Elt F)).result (RV33 V) (Proc.devRef .tc main_call15_v9) := by
  have h := ssa_main_call15_v9 (F := F) (RV30 V)
  rw [binary_result] at h ⊢
  rw [lift31 V main_call15_v9 (by decide), lift31 V main_call15_v6 (by decide), lift31 V main_call15_cst_2 (by decide)]
  exact h

theorem ssa_main_call15_v10 (V : Valuation τ sig (Elt F)) :
    after rops30 V (Proc.devRef .tc main_call15_v10) = (StableHlo.TRef.unary main_call15.v8 main_call15.v10 (broadcastInDim S128 ![] bcast_S_S128) : HloOp τ sig (Elt F)).result (after rops30 V) (Proc.devRef .tc main_call15_v10) := by
  after_results_simp
theorem fin_main_call15_v10 (V : Valuation τ sig (Elt F)) :
    RV33 V (Proc.devRef .tc main_call15_v10) = (StableHlo.TRef.unary main_call15.v8 main_call15.v10 (broadcastInDim S128 ![] bcast_S_S128) : HloOp τ sig (Elt F)).result (RV33 V) (Proc.devRef .tc main_call15_v10) := by
  have h := ssa_main_call15_v10 (F := F) (RV30 V)
  rw [unary_result] at h ⊢
  rw [lift31 V main_call15_v10 (by decide), lift31 V main_call15_v8 (by decide)]
  exact h

theorem ssa_main_call15_v11 (V : Valuation τ sig (Elt F)) :
    after rops30 V (Proc.devRef .tc main_call15_v11) = (StableHlo.TRef.binary main_call15.v9 main_call15.v10 main_call15.v11 Host.divf : HloOp τ sig (Elt F)).result (after rops30 V) (Proc.devRef .tc main_call15_v11) := by
  after_results_simp
theorem fin_main_call15_v11 (V : Valuation τ sig (Elt F)) :
    RV33 V (Proc.devRef .tc main_call15_v11) = (StableHlo.TRef.binary main_call15.v9 main_call15.v10 main_call15.v11 Host.divf : HloOp τ sig (Elt F)).result (RV33 V) (Proc.devRef .tc main_call15_v11) := by
  have h := ssa_main_call15_v11 (F := F) (RV30 V)
  rw [binary_result] at h ⊢
  rw [lift31 V main_call15_v11 (by decide), lift31 V main_call15_v9 (by decide), lift31 V main_call15_v10 (by decide)]
  exact h

theorem ssa_main_call15_cst_3 (V : Valuation τ sig (Elt F)) :
    after rops30 V (Proc.devRef .tc main_call15_cst_3) = (StableHlo.TRef.nullary main_call15.cst_3 (constant S_ .f32 0x00000000#32) : HloOp τ sig (Elt F)).result (after rops30 V) (Proc.devRef .tc main_call15_cst_3) := by
  after_results_simp
theorem fin_main_call15_cst_3 (V : Valuation τ sig (Elt F)) :
    RV33 V (Proc.devRef .tc main_call15_cst_3) = (StableHlo.TRef.nullary main_call15.cst_3 (constant S_ .f32 0x00000000#32) : HloOp τ sig (Elt F)).result (RV33 V) (Proc.devRef .tc main_call15_cst_3) := by
  have h := ssa_main_call15_cst_3 (F := F) (RV30 V)
  rw [nullary_result] at h ⊢
  rw [lift31 V main_call15_cst_3 (by decide)]
  exact h

theorem ssa_main_call15_v12 (V : Valuation τ sig (Elt F)) :
    after rops30 V (Proc.devRef .tc main_call15_v12) = (StableHlo.TRef.binary main_call15.v8 main_call15.cst_3 main_call15.v12 (cmpf .ogt) : HloOp τ sig (Elt F)).result (after rops30 V) (Proc.devRef .tc main_call15_v12) := by
  after_results_simp
theorem fin_main_call15_v12 (V : Valuation τ sig (Elt F)) :
    RV33 V (Proc.devRef .tc main_call15_v12) = (StableHlo.TRef.binary main_call15.v8 main_call15.cst_3 main_call15.v12 (cmpf .ogt) : HloOp τ sig (Elt F)).result (RV33 V) (Proc.devRef .tc main_call15_v12) := by
  have h := ssa_main_call15_v12 (F := F) (RV30 V)
  rw [binary_result] at h ⊢
  rw [lift31 V main_call15_v12 (by decide), lift31 V main_call15_v8 (by decide), lift31 V main_call15_cst_3 (by decide)]
  exact h

theorem ssa_main_call15_cst_4 (V : Valuation τ sig (Elt F)) :
    after rops30 V (Proc.devRef .tc main_call15_cst_4) = (StableHlo.TRef.nullary main_call15.cst_4 (constant S_ .f32 0x7FC00000#32) : HloOp τ sig (Elt F)).result (after rops30 V) (Proc.devRef .tc main_call15_cst_4) := by
  after_results_simp
theorem fin_main_call15_cst_4 (V : Valuation τ sig (Elt F)) :
    RV33 V (Proc.devRef .tc main_call15_cst_4) = (StableHlo.TRef.nullary main_call15.cst_4 (constant S_ .f32 0x7FC00000#32) : HloOp τ sig (Elt F)).result (RV33 V) (Proc.devRef .tc main_call15_cst_4) := by
  have h := ssa_main_call15_cst_4 (F := F) (RV30 V)
  rw [nullary_result] at h ⊢
  rw [lift31 V main_call15_cst_4 (by decide)]
  exact h

theorem ssa_main_call15_call0_v0 (V : Valuation τ sig (Elt F)) :
    after rops31 V (Proc.devRef .tc main_call15_call0_v0) = (StableHlo.TRef.unary main_call15.cst_4 main_call15.call0.v0 id : HloOp τ sig (Elt F)).result (after rops31 V) (Proc.devRef .tc main_call15_call0_v0) := by
  after_results_simp
theorem fin_main_call15_call0_v0 (V : Valuation τ sig (Elt F)) :
    RV33 V (Proc.devRef .tc main_call15_call0_v0) = (StableHlo.TRef.unary main_call15.cst_4 main_call15.call0.v0 id : HloOp τ sig (Elt F)).result (RV33 V) (Proc.devRef .tc main_call15_call0_v0) := by
  have h := ssa_main_call15_call0_v0 (F := F) (RV31 V)
  rw [unary_result] at h ⊢
  rw [lift32 V main_call15_call0_v0 (by decide), lift32 V main_call15_cst_4 (by decide)]
  exact h

theorem ssa_main_call15_call0_v1 (V : Valuation τ sig (Elt F)) :
    after rops31 V (Proc.devRef .tc main_call15_call0_v1) = (StableHlo.TRef.unary main_call15.call0.v0 main_call15.call0.v1 (broadcastInDim S128 ![] bcast_S_S128) : HloOp τ sig (Elt F)).result (after rops31 V) (Proc.devRef .tc main_call15_call0_v1) := by
  after_results_simp
theorem fin_main_call15_call0_v1 (V : Valuation τ sig (Elt F)) :
    RV33 V (Proc.devRef .tc main_call15_call0_v1) = (StableHlo.TRef.unary main_call15.call0.v0 main_call15.call0.v1 (broadcastInDim S128 ![] bcast_S_S128) : HloOp τ sig (Elt F)).result (RV33 V) (Proc.devRef .tc main_call15_call0_v1) := by
  have h := ssa_main_call15_call0_v1 (F := F) (RV31 V)
  rw [unary_result] at h ⊢
  rw [lift32 V main_call15_call0_v1 (by decide), lift32 V main_call15_call0_v0 (by decide)]
  exact h

theorem ssa_main_v310 (V : Valuation τ sig (Elt F)) :
    after rops31 V (Proc.devRef .tc main_v310) = (StableHlo.TRef.ternary main_call15.v12 main_call15.v11 main_call15.call0.v1 main_call15.call0.v2 (fun p a b => select (broadcastInDim S128 ![] bcast_S_S128 p) a b) : HloOp τ sig (Elt F)).result (after rops31 V) (Proc.devRef .tc main_v310) := by
  after_results_simp
theorem fin_main_v310 (V : Valuation τ sig (Elt F)) :
    RV33 V (Proc.devRef .tc main_v310) = (StableHlo.TRef.ternary main_call15.v12 main_call15.v11 main_call15.call0.v1 main_call15.call0.v2 (fun p a b => select (broadcastInDim S128 ![] bcast_S_S128 p) a b) : HloOp τ sig (Elt F)).result (RV33 V) (Proc.devRef .tc main_v310) := by
  have h := ssa_main_v310 (F := F) (RV31 V)
  rw [ternary_result] at h ⊢
  rw [lift32 V main_v310 (by decide), lift32 V main_call15_v12 (by decide), lift32 V main_call15_v11 (by decide), lift32 V main_call15_call0_v1 (by decide)]
  exact h

theorem ssa_main_v311 (V : Valuation τ sig (Elt F)) :
    after rops31 V (Proc.devRef .tc main_v311) = (StableHlo.unary main_v309 main_v311 (broadcastInDim S1x128 ![1] bcast_S128_S1x128_1 : (⟨S128, .f32⟩ : BufTy).Contents (Elt F) → (⟨S1x128, .f32⟩ : BufTy).Contents (Elt F)) : HloOp τ sig (Elt F)).result (after rops31 V) (Proc.devRef .tc main_v311) := by
  after_results_simp
theorem fin_main_v311 (V : Valuation τ sig (Elt F)) :
    RV33 V (Proc.devRef .tc main_v311) = (StableHlo.unary main_v309 main_v311 (broadcastInDim S1x128 ![1] bcast_S128_S1x128_1 : (⟨S128, .f32⟩ : BufTy).Contents (Elt F) → (⟨S1x128, .f32⟩ : BufTy).Contents (Elt F)) : HloOp τ sig (Elt F)).result (RV33 V) (Proc.devRef .tc main_v311) := by
  have h := ssa_main_v311 (F := F) (RV31 V)
  rw [unary_result] at h ⊢
  rw [lift32 V main_v311 (by decide), lift32 V main_v309 (by decide)]
  exact h

theorem ssa_main_v312 (V : Valuation τ sig (Elt F)) :
    after rops31 V (Proc.devRef .tc main_v312) = (StableHlo.unary main_v311 main_v312 (broadcastInDim S100000x128 ![0, 1] bcast_S1x128_S100000x128_0_1 : (⟨S1x128, .f32⟩ : BufTy).Contents (Elt F) → (⟨S100000x128, .f32⟩ : BufTy).Contents (Elt F)) : HloOp τ sig (Elt F)).result (after rops31 V) (Proc.devRef .tc main_v312) := by
  after_results_simp
theorem fin_main_v312 (V : Valuation τ sig (Elt F)) :
    RV33 V (Proc.devRef .tc main_v312) = (StableHlo.unary main_v311 main_v312 (broadcastInDim S100000x128 ![0, 1] bcast_S1x128_S100000x128_0_1 : (⟨S1x128, .f32⟩ : BufTy).Contents (Elt F) → (⟨S100000x128, .f32⟩ : BufTy).Contents (Elt F)) : HloOp τ sig (Elt F)).result (RV33 V) (Proc.devRef .tc main_v312) := by
  have h := ssa_main_v312 (F := F) (RV31 V)
  rw [unary_result] at h ⊢
  rw [lift32 V main_v312 (by decide), lift32 V main_v311 (by decide)]
  exact h

theorem ssa_main_v313 (V : Valuation τ sig (Elt F)) :
    after rops31 V (Proc.devRef .tc main_v313) = (StableHlo.binary main_v306 main_v312 main_v313 (subf : (⟨S100000x128, .f32⟩ : BufTy).Contents (Elt F) → (⟨S100000x128, .f32⟩ : BufTy).Contents (Elt F) → (⟨S100000x128, .f32⟩ : BufTy).Contents (Elt F)) : HloOp τ sig (Elt F)).result (after rops31 V) (Proc.devRef .tc main_v313) := by
  after_results_simp
theorem fin_main_v313 (V : Valuation τ sig (Elt F)) :
    RV33 V (Proc.devRef .tc main_v313) = (StableHlo.binary main_v306 main_v312 main_v313 (subf : (⟨S100000x128, .f32⟩ : BufTy).Contents (Elt F) → (⟨S100000x128, .f32⟩ : BufTy).Contents (Elt F) → (⟨S100000x128, .f32⟩ : BufTy).Contents (Elt F)) : HloOp τ sig (Elt F)).result (RV33 V) (Proc.devRef .tc main_v313) := by
  have h := ssa_main_v313 (F := F) (RV31 V)
  rw [binary_result] at h ⊢
  rw [lift32 V main_v313 (by decide), lift32 V main_v306 (by decide), lift32 V main_v312 (by decide)]
  exact h

theorem ssa_main_v314 (V : Valuation τ sig (Elt F)) :
    after rops31 V (Proc.devRef .tc main_v314) = (StableHlo.unary main_arg23 main_v314 (broadcastInDim S1x128 ![1] bcast_S128_S1x128_1 : (⟨S128, .f32⟩ : BufTy).Contents (Elt F) → (⟨S1x128, .f32⟩ : BufTy).Contents (Elt F)) : HloOp τ sig (Elt F)).result (after rops31 V) (Proc.devRef .tc main_v314) := by
  after_results_simp
theorem fin_main_v314 (V : Valuation τ sig (Elt F)) :
    RV33 V (Proc.devRef .tc main_v314) = (StableHlo.unary main_arg23 main_v314 (broadcastInDim S1x128 ![1] bcast_S128_S1x128_1 : (⟨S128, .f32⟩ : BufTy).Contents (Elt F) → (⟨S1x128, .f32⟩ : BufTy).Contents (Elt F)) : HloOp τ sig (Elt F)).result (RV33 V) (Proc.devRef .tc main_v314) := by
  have h := ssa_main_v314 (F := F) (RV31 V)
  rw [unary_result] at h ⊢
  rw [lift32 V main_v314 (by decide), lift32 V main_arg23 (by decide)]
  exact h

theorem ssa_main_v315 (V : Valuation τ sig (Elt F)) :
    after rops31 V (Proc.devRef .tc main_v315) = (StableHlo.unary main_v314 main_v315 (broadcastInDim S100000x128 ![0, 1] bcast_S1x128_S100000x128_0_1 : (⟨S1x128, .f32⟩ : BufTy).Contents (Elt F) → (⟨S100000x128, .f32⟩ : BufTy).Contents (Elt F)) : HloOp τ sig (Elt F)).result (after rops31 V) (Proc.devRef .tc main_v315) := by
  after_results_simp
theorem fin_main_v315 (V : Valuation τ sig (Elt F)) :
    RV33 V (Proc.devRef .tc main_v315) = (StableHlo.unary main_v314 main_v315 (broadcastInDim S100000x128 ![0, 1] bcast_S1x128_S100000x128_0_1 : (⟨S1x128, .f32⟩ : BufTy).Contents (Elt F) → (⟨S100000x128, .f32⟩ : BufTy).Contents (Elt F)) : HloOp τ sig (Elt F)).result (RV33 V) (Proc.devRef .tc main_v315) := by
  have h := ssa_main_v315 (F := F) (RV31 V)
  rw [unary_result] at h ⊢
  rw [lift32 V main_v315 (by decide), lift32 V main_v314 (by decide)]
  exact h

theorem ssa_main_v316 (V : Valuation τ sig (Elt F)) :
    after rops31 V (Proc.devRef .tc main_v316) = (StableHlo.binary main_v315 main_v313 main_v316 (mulf : (⟨S100000x128, .f32⟩ : BufTy).Contents (Elt F) → (⟨S100000x128, .f32⟩ : BufTy).Contents (Elt F) → (⟨S100000x128, .f32⟩ : BufTy).Contents (Elt F)) : HloOp τ sig (Elt F)).result (after rops31 V) (Proc.devRef .tc main_v316) := by
  after_results_simp
theorem fin_main_v316 (V : Valuation τ sig (Elt F)) :
    RV33 V (Proc.devRef .tc main_v316) = (StableHlo.binary main_v315 main_v313 main_v316 (mulf : (⟨S100000x128, .f32⟩ : BufTy).Contents (Elt F) → (⟨S100000x128, .f32⟩ : BufTy).Contents (Elt F) → (⟨S100000x128, .f32⟩ : BufTy).Contents (Elt F)) : HloOp τ sig (Elt F)).result (RV33 V) (Proc.devRef .tc main_v316) := by
  have h := ssa_main_v316 (F := F) (RV31 V)
  rw [binary_result] at h ⊢
  rw [lift32 V main_v316 (by decide), lift32 V main_v315 (by decide), lift32 V main_v313 (by decide)]
  exact h

theorem ssa_main_cst_49 (V : Valuation τ sig (Elt F)) :
    after rops31 V (Proc.devRef .tc main_cst_49) = (StableHlo.nullary main_cst_49 (constant S_ .f32 0x3727C5AC#32) : HloOp τ sig (Elt F)).result (after rops31 V) (Proc.devRef .tc main_cst_49) := by
  after_results_simp
theorem fin_main_cst_49 (V : Valuation τ sig (Elt F)) :
    RV33 V (Proc.devRef .tc main_cst_49) = (StableHlo.nullary main_cst_49 (constant S_ .f32 0x3727C5AC#32) : HloOp τ sig (Elt F)).result (RV33 V) (Proc.devRef .tc main_cst_49) := by
  have h := ssa_main_cst_49 (F := F) (RV31 V)
  rw [nullary_result] at h ⊢
  rw [lift32 V main_cst_49 (by decide)]
  exact h

theorem ssa_main_v317 (V : Valuation τ sig (Elt F)) :
    after rops31 V (Proc.devRef .tc main_v317) = (StableHlo.unary main_cst_49 main_v317 (broadcastInDim S128 ![] bcast_S_S128 : (⟨S_, .f32⟩ : BufTy).Contents (Elt F) → (⟨S128, .f32⟩ : BufTy).Contents (Elt F)) : HloOp τ sig (Elt F)).result (after rops31 V) (Proc.devRef .tc main_v317) := by
  after_results_simp
theorem fin_main_v317 (V : Valuation τ sig (Elt F)) :
    RV33 V (Proc.devRef .tc main_v317) = (StableHlo.unary main_cst_49 main_v317 (broadcastInDim S128 ![] bcast_S_S128 : (⟨S_, .f32⟩ : BufTy).Contents (Elt F) → (⟨S128, .f32⟩ : BufTy).Contents (Elt F)) : HloOp τ sig (Elt F)).result (RV33 V) (Proc.devRef .tc main_v317) := by
  have h := ssa_main_v317 (F := F) (RV31 V)
  rw [unary_result] at h ⊢
  rw [lift32 V main_v317 (by decide), lift32 V main_cst_49 (by decide)]
  exact h

theorem ssa_main_v318 (V : Valuation τ sig (Elt F)) :
    after rops31 V (Proc.devRef .tc main_v318) = (StableHlo.binary main_v310 main_v317 main_v318 (addf : (⟨S128, .f32⟩ : BufTy).Contents (Elt F) → (⟨S128, .f32⟩ : BufTy).Contents (Elt F) → (⟨S128, .f32⟩ : BufTy).Contents (Elt F)) : HloOp τ sig (Elt F)).result (after rops31 V) (Proc.devRef .tc main_v318) := by
  after_results_simp
theorem fin_main_v318 (V : Valuation τ sig (Elt F)) :
    RV33 V (Proc.devRef .tc main_v318) = (StableHlo.binary main_v310 main_v317 main_v318 (addf : (⟨S128, .f32⟩ : BufTy).Contents (Elt F) → (⟨S128, .f32⟩ : BufTy).Contents (Elt F) → (⟨S128, .f32⟩ : BufTy).Contents (Elt F)) : HloOp τ sig (Elt F)).result (RV33 V) (Proc.devRef .tc main_v318) := by
  have h := ssa_main_v318 (F := F) (RV31 V)
  rw [binary_result] at h ⊢
  rw [lift32 V main_v318 (by decide), lift32 V main_v310 (by decide), lift32 V main_v317 (by decide)]
  exact h

theorem ssa_main_v319 (V : Valuation τ sig (Elt F)) :
    after rops31 V (Proc.devRef .tc main_v319) = (StableHlo.unary main_v318 main_v319 (Host.rsqrt : (⟨S128, .f32⟩ : BufTy).Contents (Elt F) → (⟨S128, .f32⟩ : BufTy).Contents (Elt F)) : HloOp τ sig (Elt F)).result (after rops31 V) (Proc.devRef .tc main_v319) := by
  after_results_simp
theorem fin_main_v319 (V : Valuation τ sig (Elt F)) :
    RV33 V (Proc.devRef .tc main_v319) = (StableHlo.unary main_v318 main_v319 (Host.rsqrt : (⟨S128, .f32⟩ : BufTy).Contents (Elt F) → (⟨S128, .f32⟩ : BufTy).Contents (Elt F)) : HloOp τ sig (Elt F)).result (RV33 V) (Proc.devRef .tc main_v319) := by
  have h := ssa_main_v319 (F := F) (RV31 V)
  rw [unary_result] at h ⊢
  rw [lift32 V main_v319 (by decide), lift32 V main_v318 (by decide)]
  exact h

theorem ssa_main_v320 (V : Valuation τ sig (Elt F)) :
    after rops31 V (Proc.devRef .tc main_v320) = (StableHlo.unary main_v319 main_v320 (broadcastInDim S1x128 ![1] bcast_S128_S1x128_1 : (⟨S128, .f32⟩ : BufTy).Contents (Elt F) → (⟨S1x128, .f32⟩ : BufTy).Contents (Elt F)) : HloOp τ sig (Elt F)).result (after rops31 V) (Proc.devRef .tc main_v320) := by
  after_results_simp
theorem fin_main_v320 (V : Valuation τ sig (Elt F)) :
    RV33 V (Proc.devRef .tc main_v320) = (StableHlo.unary main_v319 main_v320 (broadcastInDim S1x128 ![1] bcast_S128_S1x128_1 : (⟨S128, .f32⟩ : BufTy).Contents (Elt F) → (⟨S1x128, .f32⟩ : BufTy).Contents (Elt F)) : HloOp τ sig (Elt F)).result (RV33 V) (Proc.devRef .tc main_v320) := by
  have h := ssa_main_v320 (F := F) (RV31 V)
  rw [unary_result] at h ⊢
  rw [lift32 V main_v320 (by decide), lift32 V main_v319 (by decide)]
  exact h

theorem ssa_main_v321 (V : Valuation τ sig (Elt F)) :
    after rops31 V (Proc.devRef .tc main_v321) = (StableHlo.unary main_v320 main_v321 (broadcastInDim S100000x128 ![0, 1] bcast_S1x128_S100000x128_0_1 : (⟨S1x128, .f32⟩ : BufTy).Contents (Elt F) → (⟨S100000x128, .f32⟩ : BufTy).Contents (Elt F)) : HloOp τ sig (Elt F)).result (after rops31 V) (Proc.devRef .tc main_v321) := by
  after_results_simp
theorem fin_main_v321 (V : Valuation τ sig (Elt F)) :
    RV33 V (Proc.devRef .tc main_v321) = (StableHlo.unary main_v320 main_v321 (broadcastInDim S100000x128 ![0, 1] bcast_S1x128_S100000x128_0_1 : (⟨S1x128, .f32⟩ : BufTy).Contents (Elt F) → (⟨S100000x128, .f32⟩ : BufTy).Contents (Elt F)) : HloOp τ sig (Elt F)).result (RV33 V) (Proc.devRef .tc main_v321) := by
  have h := ssa_main_v321 (F := F) (RV31 V)
  rw [unary_result] at h ⊢
  rw [lift32 V main_v321 (by decide), lift32 V main_v320 (by decide)]
  exact h

theorem ssa_main_v322 (V : Valuation τ sig (Elt F)) :
    after rops31 V (Proc.devRef .tc main_v322) = (StableHlo.binary main_v316 main_v321 main_v322 (mulf : (⟨S100000x128, .f32⟩ : BufTy).Contents (Elt F) → (⟨S100000x128, .f32⟩ : BufTy).Contents (Elt F) → (⟨S100000x128, .f32⟩ : BufTy).Contents (Elt F)) : HloOp τ sig (Elt F)).result (after rops31 V) (Proc.devRef .tc main_v322) := by
  after_results_simp
theorem fin_main_v322 (V : Valuation τ sig (Elt F)) :
    RV33 V (Proc.devRef .tc main_v322) = (StableHlo.binary main_v316 main_v321 main_v322 (mulf : (⟨S100000x128, .f32⟩ : BufTy).Contents (Elt F) → (⟨S100000x128, .f32⟩ : BufTy).Contents (Elt F) → (⟨S100000x128, .f32⟩ : BufTy).Contents (Elt F)) : HloOp τ sig (Elt F)).result (RV33 V) (Proc.devRef .tc main_v322) := by
  have h := ssa_main_v322 (F := F) (RV31 V)
  rw [binary_result] at h ⊢
  rw [lift32 V main_v322 (by decide), lift32 V main_v316 (by decide), lift32 V main_v321 (by decide)]
  exact h

theorem ssa_main_v323 (V : Valuation τ sig (Elt F)) :
    after rops31 V (Proc.devRef .tc main_v323) = (StableHlo.unary main_arg24 main_v323 (broadcastInDim S1x128 ![1] bcast_S128_S1x128_1 : (⟨S128, .f32⟩ : BufTy).Contents (Elt F) → (⟨S1x128, .f32⟩ : BufTy).Contents (Elt F)) : HloOp τ sig (Elt F)).result (after rops31 V) (Proc.devRef .tc main_v323) := by
  after_results_simp
theorem fin_main_v323 (V : Valuation τ sig (Elt F)) :
    RV33 V (Proc.devRef .tc main_v323) = (StableHlo.unary main_arg24 main_v323 (broadcastInDim S1x128 ![1] bcast_S128_S1x128_1 : (⟨S128, .f32⟩ : BufTy).Contents (Elt F) → (⟨S1x128, .f32⟩ : BufTy).Contents (Elt F)) : HloOp τ sig (Elt F)).result (RV33 V) (Proc.devRef .tc main_v323) := by
  have h := ssa_main_v323 (F := F) (RV31 V)
  rw [unary_result] at h ⊢
  rw [lift32 V main_v323 (by decide), lift32 V main_arg24 (by decide)]
  exact h

theorem ssa_main_v324 (V : Valuation τ sig (Elt F)) :
    after rops31 V (Proc.devRef .tc main_v324) = (StableHlo.unary main_v323 main_v324 (broadcastInDim S100000x128 ![0, 1] bcast_S1x128_S100000x128_0_1 : (⟨S1x128, .f32⟩ : BufTy).Contents (Elt F) → (⟨S100000x128, .f32⟩ : BufTy).Contents (Elt F)) : HloOp τ sig (Elt F)).result (after rops31 V) (Proc.devRef .tc main_v324) := by
  after_results_simp
theorem fin_main_v324 (V : Valuation τ sig (Elt F)) :
    RV33 V (Proc.devRef .tc main_v324) = (StableHlo.unary main_v323 main_v324 (broadcastInDim S100000x128 ![0, 1] bcast_S1x128_S100000x128_0_1 : (⟨S1x128, .f32⟩ : BufTy).Contents (Elt F) → (⟨S100000x128, .f32⟩ : BufTy).Contents (Elt F)) : HloOp τ sig (Elt F)).result (RV33 V) (Proc.devRef .tc main_v324) := by
  have h := ssa_main_v324 (F := F) (RV31 V)
  rw [unary_result] at h ⊢
  rw [lift32 V main_v324 (by decide), lift32 V main_v323 (by decide)]
  exact h

theorem ssa_main_v325 (V : Valuation τ sig (Elt F)) :
    after rops31 V (Proc.devRef .tc main_v325) = (StableHlo.binary main_v322 main_v324 main_v325 (addf : (⟨S100000x128, .f32⟩ : BufTy).Contents (Elt F) → (⟨S100000x128, .f32⟩ : BufTy).Contents (Elt F) → (⟨S100000x128, .f32⟩ : BufTy).Contents (Elt F)) : HloOp τ sig (Elt F)).result (after rops31 V) (Proc.devRef .tc main_v325) := by
  after_results_simp
theorem fin_main_v325 (V : Valuation τ sig (Elt F)) :
    RV33 V (Proc.devRef .tc main_v325) = (StableHlo.binary main_v322 main_v324 main_v325 (addf : (⟨S100000x128, .f32⟩ : BufTy).Contents (Elt F) → (⟨S100000x128, .f32⟩ : BufTy).Contents (Elt F) → (⟨S100000x128, .f32⟩ : BufTy).Contents (Elt F)) : HloOp τ sig (Elt F)).result (RV33 V) (Proc.devRef .tc main_v325) := by
  have h := ssa_main_v325 (F := F) (RV31 V)
  rw [binary_result] at h ⊢
  rw [lift32 V main_v325 (by decide), lift32 V main_v322 (by decide), lift32 V main_v324 (by decide)]
  exact h

theorem ssa_main_cst_50 (V : Valuation τ sig (Elt F)) :
    after rops31 V (Proc.devRef .tc main_cst_50) = (StableHlo.nullary main_cst_50 (constant S_ .f32 0x00000000#32) : HloOp τ sig (Elt F)).result (after rops31 V) (Proc.devRef .tc main_cst_50) := by
  after_results_simp
theorem fin_main_cst_50 (V : Valuation τ sig (Elt F)) :
    RV33 V (Proc.devRef .tc main_cst_50) = (StableHlo.nullary main_cst_50 (constant S_ .f32 0x00000000#32) : HloOp τ sig (Elt F)).result (RV33 V) (Proc.devRef .tc main_cst_50) := by
  have h := ssa_main_cst_50 (F := F) (RV31 V)
  rw [nullary_result] at h ⊢
  rw [lift32 V main_cst_50 (by decide)]
  exact h

theorem ssa_main_v326 (V : Valuation τ sig (Elt F)) :
    after rops32 V (Proc.devRef .tc main_v326) = (StableHlo.unary main_cst_50 main_v326 (broadcastInDim S100000x128 ![] bcast_S_S100000x128 : (⟨S_, .f32⟩ : BufTy).Contents (Elt F) → (⟨S100000x128, .f32⟩ : BufTy).Contents (Elt F)) : HloOp τ sig (Elt F)).result (after rops32 V) (Proc.devRef .tc main_v326) := by
  after_results_simp
theorem fin_main_v326 (V : Valuation τ sig (Elt F)) :
    RV33 V (Proc.devRef .tc main_v326) = (StableHlo.unary main_cst_50 main_v326 (broadcastInDim S100000x128 ![] bcast_S_S100000x128 : (⟨S_, .f32⟩ : BufTy).Contents (Elt F) → (⟨S100000x128, .f32⟩ : BufTy).Contents (Elt F)) : HloOp τ sig (Elt F)).result (RV33 V) (Proc.devRef .tc main_v326) := by
  have h := ssa_main_v326 (F := F) (RV32 V)
  rw [unary_result] at h ⊢
  rw [lift33 V main_v326 (by decide), lift33 V main_cst_50 (by decide)]
  exact h

theorem ssa_main_v327 (V : Valuation τ sig (Elt F)) :
    after rops32 V (Proc.devRef .tc main_v327) = (StableHlo.binary main_v325 main_v326 main_v327 (cmpf .oge : (⟨S100000x128, .f32⟩ : BufTy).Contents (Elt F) → (⟨S100000x128, .f32⟩ : BufTy).Contents (Elt F) → (⟨S100000x128, .i1⟩ : BufTy).Contents (Elt F)) : HloOp τ sig (Elt F)).result (after rops32 V) (Proc.devRef .tc main_v327) := by
  after_results_simp
theorem fin_main_v327 (V : Valuation τ sig (Elt F)) :
    RV33 V (Proc.devRef .tc main_v327) = (StableHlo.binary main_v325 main_v326 main_v327 (cmpf .oge : (⟨S100000x128, .f32⟩ : BufTy).Contents (Elt F) → (⟨S100000x128, .f32⟩ : BufTy).Contents (Elt F) → (⟨S100000x128, .i1⟩ : BufTy).Contents (Elt F)) : HloOp τ sig (Elt F)).result (RV33 V) (Proc.devRef .tc main_v327) := by
  have h := ssa_main_v327 (F := F) (RV32 V)
  rw [binary_result] at h ⊢
  rw [lift33 V main_v327 (by decide), lift33 V main_v325 (by decide), lift33 V main_v326 (by decide)]
  exact h

theorem ssa_main_cst_51 (V : Valuation τ sig (Elt F)) :
    after rops32 V (Proc.devRef .tc main_cst_51) = (StableHlo.nullary main_cst_51 (constant S_ .f32 0x3C23D70A#32) : HloOp τ sig (Elt F)).result (after rops32 V) (Proc.devRef .tc main_cst_51) := by
  after_results_simp
theorem fin_main_cst_51 (V : Valuation τ sig (Elt F)) :
    RV33 V (Proc.devRef .tc main_cst_51) = (StableHlo.nullary main_cst_51 (constant S_ .f32 0x3C23D70A#32) : HloOp τ sig (Elt F)).result (RV33 V) (Proc.devRef .tc main_cst_51) := by
  have h := ssa_main_cst_51 (F := F) (RV32 V)
  rw [nullary_result] at h ⊢
  rw [lift33 V main_cst_51 (by decide)]
  exact h

theorem ssa_main_v328 (V : Valuation τ sig (Elt F)) :
    after rops32 V (Proc.devRef .tc main_v328) = (StableHlo.unary main_cst_51 main_v328 (broadcastInDim S100000x128 ![] bcast_S_S100000x128 : (⟨S_, .f32⟩ : BufTy).Contents (Elt F) → (⟨S100000x128, .f32⟩ : BufTy).Contents (Elt F)) : HloOp τ sig (Elt F)).result (after rops32 V) (Proc.devRef .tc main_v328) := by
  after_results_simp
theorem fin_main_v328 (V : Valuation τ sig (Elt F)) :
    RV33 V (Proc.devRef .tc main_v328) = (StableHlo.unary main_cst_51 main_v328 (broadcastInDim S100000x128 ![] bcast_S_S100000x128 : (⟨S_, .f32⟩ : BufTy).Contents (Elt F) → (⟨S100000x128, .f32⟩ : BufTy).Contents (Elt F)) : HloOp τ sig (Elt F)).result (RV33 V) (Proc.devRef .tc main_v328) := by
  have h := ssa_main_v328 (F := F) (RV32 V)
  rw [unary_result] at h ⊢
  rw [lift33 V main_v328 (by decide), lift33 V main_cst_51 (by decide)]
  exact h

theorem ssa_main_v329 (V : Valuation τ sig (Elt F)) :
    after rops32 V (Proc.devRef .tc main_v329) = (StableHlo.binary main_v328 main_v325 main_v329 (mulf : (⟨S100000x128, .f32⟩ : BufTy).Contents (Elt F) → (⟨S100000x128, .f32⟩ : BufTy).Contents (Elt F) → (⟨S100000x128, .f32⟩ : BufTy).Contents (Elt F)) : HloOp τ sig (Elt F)).result (after rops32 V) (Proc.devRef .tc main_v329) := by
  after_results_simp
theorem fin_main_v329 (V : Valuation τ sig (Elt F)) :
    RV33 V (Proc.devRef .tc main_v329) = (StableHlo.binary main_v328 main_v325 main_v329 (mulf : (⟨S100000x128, .f32⟩ : BufTy).Contents (Elt F) → (⟨S100000x128, .f32⟩ : BufTy).Contents (Elt F) → (⟨S100000x128, .f32⟩ : BufTy).Contents (Elt F)) : HloOp τ sig (Elt F)).result (RV33 V) (Proc.devRef .tc main_v329) := by
  have h := ssa_main_v329 (F := F) (RV32 V)
  rw [binary_result] at h ⊢
  rw [lift33 V main_v329 (by decide), lift33 V main_v328 (by decide), lift33 V main_v325 (by decide)]
  exact h

theorem ssa_main_v330 (V : Valuation τ sig (Elt F)) :
    after rops32 V (Proc.devRef .tc main_v330) = (StableHlo.TRef.ternary (.of main_v327) (.of main_v325) (.of main_v329) main_call16.v0 select : HloOp τ sig (Elt F)).result (after rops32 V) (Proc.devRef .tc main_v330) := by
  after_results_simp
theorem fin_main_v330 (V : Valuation τ sig (Elt F)) :
    RV33 V (Proc.devRef .tc main_v330) = (StableHlo.TRef.ternary (.of main_v327) (.of main_v325) (.of main_v329) main_call16.v0 select : HloOp τ sig (Elt F)).result (RV33 V) (Proc.devRef .tc main_v330) := by
  have h := ssa_main_v330 (F := F) (RV32 V)
  rw [ternary_result] at h ⊢
  rw [lift33 V main_v330 (by decide), lift33 V main_v327 (by decide), lift33 V main_v325 (by decide), lift33 V main_v329 (by decide)]
  exact h

theorem ssa_main_v331 (V : Valuation τ sig (Elt F)) :
    after rops32 V (Proc.devRef .tc main_v331) = (StableHlo.binary main_v330 main_arg25 main_v331 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)) : HloOp τ sig (Elt F)).result (after rops32 V) (Proc.devRef .tc main_v331) := by
  after_results_simp
theorem fin_main_v331 (V : Valuation τ sig (Elt F)) :
    RV33 V (Proc.devRef .tc main_v331) = (StableHlo.binary main_v330 main_arg25 main_v331 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)) : HloOp τ sig (Elt F)).result (RV33 V) (Proc.devRef .tc main_v331) := by
  have h := ssa_main_v331 (F := F) (RV32 V)
  rw [binary_result] at h ⊢
  rw [lift33 V main_v331 (by decide), lift33 V main_v330 (by decide), lift33 V main_arg25 (by decide)]
  exact h

theorem ssa_main_v332 (V : Valuation τ sig (Elt F)) :
    after rops32 V (Proc.devRef .tc main_v332) = (StableHlo.unary main_arg26 main_v332 (broadcastInDim S1x1 ![1] bcast_S1_S1x1_1 : (⟨S1, .f32⟩ : BufTy).Contents (Elt F) → (⟨S1x1, .f32⟩ : BufTy).Contents (Elt F)) : HloOp τ sig (Elt F)).result (after rops32 V) (Proc.devRef .tc main_v332) := by
  after_results_simp
theorem fin_main_v332 (V : Valuation τ sig (Elt F)) :
    RV33 V (Proc.devRef .tc main_v332) = (StableHlo.unary main_arg26 main_v332 (broadcastInDim S1x1 ![1] bcast_S1_S1x1_1 : (⟨S1, .f32⟩ : BufTy).Contents (Elt F) → (⟨S1x1, .f32⟩ : BufTy).Contents (Elt F)) : HloOp τ sig (Elt F)).result (RV33 V) (Proc.devRef .tc main_v332) := by
  have h := ssa_main_v332 (F := F) (RV32 V)
  rw [unary_result] at h ⊢
  rw [lift33 V main_v332 (by decide), lift33 V main_arg26 (by decide)]
  exact h

theorem ssa_main_v333 (V : Valuation τ sig (Elt F)) :
    after rops32 V (Proc.devRef .tc main_v333) = (StableHlo.unary main_v332 main_v333 (broadcastInDim S100000x1 ![0, 1] bcast_S1x1_S100000x1_0_1 : (⟨S1x1, .f32⟩ : BufTy).Contents (Elt F) → (⟨S100000x1, .f32⟩ : BufTy).Contents (Elt F)) : HloOp τ sig (Elt F)).result (after rops32 V) (Proc.devRef .tc main_v333) := by
  after_results_simp
theorem fin_main_v333 (V : Valuation τ sig (Elt F)) :
    RV33 V (Proc.devRef .tc main_v333) = (StableHlo.unary main_v332 main_v333 (broadcastInDim S100000x1 ![0, 1] bcast_S1x1_S100000x1_0_1 : (⟨S1x1, .f32⟩ : BufTy).Contents (Elt F) → (⟨S100000x1, .f32⟩ : BufTy).Contents (Elt F)) : HloOp τ sig (Elt F)).result (RV33 V) (Proc.devRef .tc main_v333) := by
  have h := ssa_main_v333 (F := F) (RV32 V)
  rw [unary_result] at h ⊢
  rw [lift33 V main_v333 (by decide), lift33 V main_v332 (by decide)]
  exact h

theorem ssa_main_v334 (V : Valuation τ sig (Elt F)) :
    after rops32 V (Proc.devRef .tc main_v334) = (StableHlo.binary main_v331 main_v333 main_v334 (addf : (⟨S100000x1, .f32⟩ : BufTy).Contents (Elt F) → (⟨S100000x1, .f32⟩ : BufTy).Contents (Elt F) → (⟨S100000x1, .f32⟩ : BufTy).Contents (Elt F)) : HloOp τ sig (Elt F)).result (after rops32 V) (Proc.devRef .tc main_v334) := by
  after_results_simp
theorem fin_main_v334 (V : Valuation τ sig (Elt F)) :
    RV33 V (Proc.devRef .tc main_v334) = (StableHlo.binary main_v331 main_v333 main_v334 (addf : (⟨S100000x1, .f32⟩ : BufTy).Contents (Elt F) → (⟨S100000x1, .f32⟩ : BufTy).Contents (Elt F) → (⟨S100000x1, .f32⟩ : BufTy).Contents (Elt F)) : HloOp τ sig (Elt F)).result (RV33 V) (Proc.devRef .tc main_v334) := by
  have h := ssa_main_v334 (F := F) (RV32 V)
  rw [binary_result] at h ⊢
  rw [lift33 V main_v334 (by decide), lift33 V main_v331 (by decide), lift33 V main_v333 (by decide)]
  exact h

theorem ssa_main_v335 (V : Valuation τ sig (Elt F)) :
    after rops32 V (Proc.devRef .tc main_v335) = (StableHlo.reshape main_v334 main_v335 rfl shapeCasts_S100000x1_S100000 : HloOp τ sig (Elt F)).result (after rops32 V) (Proc.devRef .tc main_v335) := by
  after_results_simp
theorem fin_main_v335 (V : Valuation τ sig (Elt F)) :
    RV33 V (Proc.devRef .tc main_v335) = (StableHlo.reshape main_v334 main_v335 rfl shapeCasts_S100000x1_S100000 : HloOp τ sig (Elt F)).result (RV33 V) (Proc.devRef .tc main_v335) := by
  have h := ssa_main_v335 (F := F) (RV32 V)
  rw [reshape_result] at h ⊢
  rw [lift33 V main_v335 (by decide), lift33 V main_v334 (by decide)]
  exact h

end Cert.ReferenceIdeal.Tab

end
-- ==== Proof.TabAll.lean ====
/- Every reading table of the two programs, as one import. -/
import proofs.«409037_j72164040508123_1_alg».proof.Proof.TabKSsa0
import proofs.«409037_j72164040508123_1_alg».proof.Proof.TabKSsa1
import proofs.«409037_j72164040508123_1_alg».proof.Proof.TabKSsa2
import proofs.«409037_j72164040508123_1_alg».proof.Proof.TabKSsa3
import proofs.«409037_j72164040508123_1_alg».proof.Proof.TabKSsa4
import proofs.«409037_j72164040508123_1_alg».proof.Proof.TabKSsa5
import proofs.«409037_j72164040508123_1_alg».proof.Proof.TabRSsa0
import proofs.«409037_j72164040508123_1_alg».proof.Proof.TabRSsa1
import proofs.«409037_j72164040508123_1_alg».proof.Proof.TabRSsa2
import proofs.«409037_j72164040508123_1_alg».proof.Proof.TabRSsa3
import proofs.«409037_j72164040508123_1_alg».proof.Proof.TabRSsa4
import proofs.«409037_j72164040508123_1_alg».proof.Proof.TabRSsa5
import proofs.«409037_j72164040508123_1_alg».proof.Proof.TabRSsa6
-- ==== Proof.LibFinite.lean ====
/-
  Finiteness of extended-real arrays. At the ideal instance a float array is a function
  from indices to extended reals; this file names the property "every entry is a real
  number" and proves it stable under the elementwise and the layout operations of a host
  program: sums, differences, products and maxima of finite entries are finite, and a
  layout operation (broadcast, reshape, slice, concatenation, selection) only ever copies
  entries of its operands. It also evaluates the literal words that occur as constants.
-/
import Idealize.ShloMosaic.PureOps
import Idealize.ShloMosaic.PureOps.Ideal.Laws
import Idealize.ShloMosaic.Lib.IdealHost

namespace Cert.Lib

open Idealize.ShloMosaic

/-- Every entry is a real number. -/
def AllFin {ι : Type} (v : ι → EReal) : Prop := ∀ i, ∃ r : ℝ, v i = (r : EReal)

/-! ## Single values -/

/-- A real number, read as an extended real, is a real number. -/
theorem AllFin.coe (r : ℝ) : ∃ s : ℝ, (r : EReal) = (s : EReal) := ⟨r, rfl⟩

/-- Zero is a real number. -/
theorem AllFin.zero : ∃ r : ℝ, (0 : EReal) = (r : EReal) := ⟨0, rfl⟩

/-- One is a real number. -/
theorem AllFin.one : ∃ r : ℝ, (1 : EReal) = (r : EReal) := ⟨1, rfl⟩

/-- The sum of two real numbers is a real number. -/
theorem AllFin.add {a b : EReal} (ha : ∃ r : ℝ, a = (r : EReal)) (hb : ∃ r : ℝ, b = (r : EReal)) :
    ∃ r : ℝ, a + b = (r : EReal) := by
  obtain ⟨p, rfl⟩ := ha; obtain ⟨q, rfl⟩ := hb
  exact ⟨p + q, (EReal.coe_add p q).symm⟩

/-- The negative of a real number is a real number. -/
theorem AllFin.neg {a : EReal} (ha : ∃ r : ℝ, a = (r : EReal)) : ∃ r : ℝ, -a = (r : EReal) := by
  obtain ⟨p, rfl⟩ := ha
  exact ⟨-p, (EReal.coe_neg p).symm⟩

/-- The difference of two real numbers is a real number. -/
theorem AllFin.sub {a b : EReal} (ha : ∃ r : ℝ, a = (r : EReal)) (hb : ∃ r : ℝ, b = (r : EReal)) :
    ∃ r : ℝ, a - b = (r : EReal) := by
  obtain ⟨p, rfl⟩ := ha; obtain ⟨q, rfl⟩ := hb
  exact ⟨p - q, (EReal.coe_sub p q).symm⟩

/-- The product of two real numbers is a real number. -/
theorem AllFin.mul {a b : EReal} (ha : ∃ r : ℝ, a = (r : EReal)) (hb : ∃ r : ℝ, b = (r : EReal)) :
    ∃ r : ℝ, a * b = (r : EReal) := by
  obtain ⟨p, rfl⟩ := ha; obtain ⟨q, rfl⟩ := hb
  exact ⟨p * q, (EReal.coe_mul p q).symm⟩

/-- The larger of two real numbers is a real number. -/
theorem AllFin.max {a b : EReal} (ha : ∃ r : ℝ, a = (r : EReal)) (hb : ∃ r : ℝ, b = (r : EReal)) :
    ∃ r : ℝ, Max.max a b = (r : EReal) := by
  rcases le_total a b with h | h
  · rw [max_eq_right h]; exact hb
  · rw [max_eq_left h]; exact ha

/-- The smaller of two real numbers is a real number. -/
theorem AllFin.min {a b : EReal} (ha : ∃ r : ℝ, a = (r : EReal)) (hb : ∃ r : ℝ, b = (r : EReal)) :
    ∃ r : ℝ, Min.min a b = (r : EReal) := by
  rcases le_total a b with h | h
  · rw [min_eq_left h]; exact ha
  · rw [min_eq_right h]; exact hb

/-- A finite sum of real numbers is a real number. -/
theorem AllFin.sum {κ : Type} (s : Finset κ) (f : κ → EReal) (hf : ∀ k ∈ s, ∃ r : ℝ, f k = (r : EReal)) :
    ∃ r : ℝ, (∑ k ∈ s, f k) = (r : EReal) := by
  classical
  induction s using Finset.induction_on with
  | empty => exact ⟨0, by simp⟩
  | insert a s ha ih =>
    rw [Finset.sum_insert ha]
    exact AllFin.add (hf a (Finset.mem_insert_self a s))
      (ih fun k hk => hf k (Finset.mem_insert_of_mem hk))

/-- A real number is neither infinity. -/
theorem AllFin.ne_top_bot {a : EReal} (ha : ∃ r : ℝ, a = (r : EReal)) : a ≠ ⊤ ∧ a ≠ ⊥ := by
  obtain ⟨p, rfl⟩ := ha
  exact ⟨EReal.coe_ne_top p, EReal.coe_ne_bot p⟩

/-- An extended real that is neither infinity is a real number. -/
theorem AllFin.of_ne {a : EReal} (h₁ : a ≠ ⊤) (h₂ : a ≠ ⊥) : ∃ r : ℝ, a = (r : EReal) :=
  ⟨a.toReal, (EReal.coe_toReal h₁ h₂).symm⟩

/-! ## Arrays -/

/-- An array of real numbers is the image of a real-valued array. -/
theorem AllFin.lift {ι : Type} {v : ι → EReal} (h : AllFin v) : ∃ f : ι → ℝ, v = fun i => (f i : EReal) :=
  ⟨fun i => (h i).choose, funext fun i => (h i).choose_spec⟩

/-- The image of a real-valued array is an array of real numbers. -/
theorem allFin_coe {ι : Type} (f : ι → ℝ) : AllFin fun i => (f i : EReal) := fun i => ⟨f i, rfl⟩

/-- A constant array at a real number is an array of real numbers. -/
theorem allFin_const {ι : Type} {a : EReal} (ha : ∃ r : ℝ, a = (r : EReal)) : AllFin fun _ : ι => a := fun _ => ha

/-- Reading an array of real numbers through any map of indices gives an array of real numbers. -/
theorem AllFin.comp {ι κ : Type} {v : ι → EReal} (h : AllFin v) (g : κ → ι) : AllFin fun k => v (g k) :=
  fun k => h (g k)

/-- An array each of whose entries is an entry of an array of real numbers is one too. -/
theorem AllFin.of_forall_exists {ι κ : Type} {v : ι → EReal} {u : κ → EReal} (h : AllFin v)
    (hu : ∀ k, ∃ i, u k = v i) : AllFin u := fun k => by
  obtain ⟨i, hi⟩ := hu k; rw [hi]; exact h i

/-! ## Elementwise operations -/

section Elementwise
variable {s : Shape} {φ : FTy}

/-- The elementwise sum of two arrays of real numbers. -/
theorem allFin_addf {x y : FVec Ideal s φ} (hx : AllFin x) (hy : AllFin y) : AllFin (addf x y) :=
  fun i => AllFin.add (hx i) (hy i)

/-- The elementwise difference of two arrays of real numbers. -/
theorem allFin_subf {x y : FVec Ideal s φ} (hx : AllFin x) (hy : AllFin y) : AllFin (subf x y) :=
  fun i => AllFin.sub (hx i) (hy i)

/-- The elementwise product of two arrays of real numbers. -/
theorem allFin_mulf {x y : FVec Ideal s φ} (hx : AllFin x) (hy : AllFin y) : AllFin (mulf x y) :=
  fun i => AllFin.mul (hx i) (hy i)

/-- The elementwise maximum of two arrays of real numbers. -/
theorem allFin_maximumf {x y : FVec Ideal s φ} (hx : AllFin x) (hy : AllFin y) : AllFin (maximumf x y) :=
  fun i => AllFin.max (hx i) (hy i)

/-- The elementwise minimum of two arrays of real numbers. -/
theorem allFin_minimumf {x y : FVec Ideal s φ} (hx : AllFin x) (hy : AllFin y) : AllFin (minimumf x y) :=
  fun i => AllFin.min (hx i) (hy i)

/-- The elementwise negative of an array of real numbers. -/
theorem allFin_negf {x : FVec Ideal s φ} (hx : AllFin x) : AllFin (negf x) :=
  fun i => AllFin.neg (hx i)

/-- A selection between two arrays of real numbers, whatever the mask. -/
theorem allFin_select (c : IVec s 1) {a b : s.Idx → EReal} (ha : AllFin a) (hb : AllFin b) :
    AllFin (select c a b) := fun i => by
  show ∃ r : ℝ, (if c i = 1 then a i else b i) = (r : EReal)
  split
  · exact ha i
  · exact hb i

/-- A selection whose mask is set everywhere takes its first operand only. -/
theorem allFin_select_of_true {c : IVec s 1} (hc : ∀ i, c i = 1) {a : s.Idx → EReal} (ha : AllFin a)
    (b : s.Idx → EReal) : AllFin (select c a b) := fun i => by
  show ∃ r : ℝ, (if c i = 1 then a i else b i) = (r : EReal)
  rw [if_pos (hc i)]; exact ha i

/-- A selection whose mask is clear everywhere takes its second operand only. -/
theorem allFin_select_of_false {c : IVec s 1} (hc : ∀ i, c i ≠ 1) (a : s.Idx → EReal)
    {b : s.Idx → EReal} (hb : AllFin b) : AllFin (select c a b) := fun i => by
  show ∃ r : ℝ, (if c i = 1 then a i else b i) = (r : EReal)
  rw [if_neg (hc i)]; exact hb i

/-- The identity function keeps an array of real numbers. -/
theorem allFin_id {ι : Type} {x : ι → EReal} (hx : AllFin x) : AllFin (id x) := hx

end Elementwise

/-! ## Layout operations: every entry of the result is an entry of an operand -/

section Layout
variable {s t : Shape}

/-- A broadcast along chosen axes reads entries of its operand. -/
theorem allFin_broadcastInDim (dims : Fin s.rank → Fin t.rank) (h : s.BroadcastsInDim t dims)
    {x : s.Idx → EReal} (hx : AllFin x) : AllFin (broadcastInDim t dims h x) :=
  fun _ => hx _

/-- A selection by a broadcast scalar mask between two arrays of real numbers. -/
theorem allFin_select_broadcast {u : Shape} (dims : Fin u.rank → Fin s.rank) (h : u.BroadcastsInDim s dims)
    (p : IVec u 1) {a b : s.Idx → EReal} (ha : AllFin a) (hb : AllFin b) :
    AllFin (select (broadcastInDim s dims h p) a b) :=
  allFin_select _ ha hb

/-- A reshape reads entries of its operand. -/
theorem allFin_shapeCast (h : s.ShapeCasts t) {x : s.Idx → EReal} (hx : AllFin x) :
    AllFin (shapeCast t x h) :=
  fun _ => hx _

/-- A slice reads entries of its operand. -/
theorem allFin_extractStridedSlice (off : Fin s.rank → Nat) (h : s.Slices off t)
    {x : s.Idx → EReal} (hx : AllFin x) : AllFin (extractStridedSlice t off x h) :=
  fun _ => hx _

end Layout

/-! ## Concatenation -/

section Concat

/-- A concatenation reads entries of its operands. -/
theorem allFin_concatenate (t : Shape) (a : Fin t.rank) (xs : List ((s : Shape) × (s.Idx → EReal)))
    (h : Shape.Concatenates (xs.map (·.1)) t a) (hxs : ∀ p ∈ xs, AllFin p.2) :
    AllFin (concatenate t a xs h) := by
  intro j
  unfold concatenate
  exact hxs _ (List.getElem_mem _) _

/-- A concatenation of two arrays of real numbers. -/
theorem allFin_concatenate₂ {s₁ s₂ t : Shape} (a : Fin t.rank) (h : Shape.Concatenates [s₁, s₂] t a)
    {x : s₁.Idx → EReal} {y : s₂.Idx → EReal} (hx : AllFin x) (hy : AllFin y) :
    AllFin (concatenate t a [⟨s₁, x⟩, ⟨s₂, y⟩] h) :=
  allFin_concatenate t a [⟨s₁, x⟩, ⟨s₂, y⟩] h fun p hp => by
    rcases List.mem_cons.1 hp with rfl | hp
    · exact hx
    · rcases List.mem_cons.1 hp with rfl | hp
      · exact hy
      · exact absurd hp (List.not_mem_nil)

end Concat

/-! ## Integers as floats -/

section Convert
variable {s : Shape} {φ : FTy} {w : Nat}

/-- A signed integer array read as floats is an array of real numbers. -/
theorem allFin_sitofp (x : IVec s w) : AllFin (sitofp (F := Ideal) φ x) :=
  fun i => ⟨((x i).toInt : ℝ), rfl⟩

/-- An unsigned integer array read as floats is an array of real numbers. -/
theorem allFin_uitofp (x : IVec s w) : AllFin (uitofp (F := Ideal) φ x) :=
  fun i => ⟨((x i).toNat : ℝ), rfl⟩

/-- A signed integer array read as floats, at an index: the integer. -/
theorem sitofp_apply (x : IVec s w) (i : s.Idx) :
    sitofp (F := Ideal) φ x i = (((x i).toInt : ℝ) : EReal) := rfl

/-- The integer constant zero read as floats is zero everywhere. -/
theorem sitofp_constantI_zero (s : Shape) :
    sitofp (F := Ideal) .f32 (constantI s 32 0#32) = fun _ => (0 : EReal) := by
  funext i
  show (((0#32 : BitVec 32).toInt : ℝ) : EReal) = 0
  simp

/-- The integer constant zero read as floats is an array of real numbers. -/
theorem allFin_sitofp_constantI_zero (s : Shape) :
    AllFin (sitofp (F := Ideal) .f32 (constantI s 32 0#32)) := allFin_sitofp _

end Convert

/-! ## Literal words -/

section Consts

/-- The word `0x00000000` denotes zero. -/
theorem ofBits_f32_zero : Ideal.ofBits .f32 0x00000000#32 = 0 := Ideal.ofBits_zero_f32

/-- The word `0x3F800000` denotes the real one. -/
theorem ofBits_f32_one : Ideal.ofBits .f32 0x3F800000#32 = ((1 : ℝ) : EReal) := by
  rw [Ideal.ofBits_one_f32]; rfl

/-- The word `0x47C35000` denotes the real `100000`: significand `12800000`, scale `2⁻⁷`. -/
theorem ofBits_f32_100000 : Ideal.ofBits .f32 0x47C35000#32 = ((100000 : ℝ) : EReal) := by
  simp [Ideal.ofBits, Ideal.ieee, -EReal.coe_mul]; norm_num

/-- The word `0x3727C5AC` denotes `10995116 · 2⁻⁴⁰`, about `10⁻⁵`. -/
theorem ofBits_f32_1em5 : Ideal.ofBits .f32 0x3727C5AC#32 = (((10995116 : ℝ) / 2 ^ 40 : ℝ) : EReal) := by
  simp [Ideal.ofBits, Ideal.ieee, -EReal.coe_mul]; norm_num

/-- The word `0x3C23D70A` denotes `10737418 · 2⁻³⁰`, about `10⁻²`. -/
theorem ofBits_f32_1em2 : Ideal.ofBits .f32 0x3C23D70A#32 = (((10737418 : ℝ) / 2 ^ 30 : ℝ) : EReal) := by
  simp [Ideal.ofBits, Ideal.ieee, -EReal.coe_mul]; norm_num

/-- The word `0x3727C5AC` denotes a positive real number. -/
theorem ofBits_f32_1em5_pos : ∃ r : ℝ, 0 < r ∧ Ideal.ofBits .f32 0x3727C5AC#32 = (r : EReal) :=
  ⟨(10995116 : ℝ) / 2 ^ 40, by positivity, ofBits_f32_1em5⟩

/-- The word `0x3C23D70A` denotes a positive real number. -/
theorem ofBits_f32_1em2_pos : ∃ r : ℝ, 0 < r ∧ Ideal.ofBits .f32 0x3C23D70A#32 = (r : EReal) :=
  ⟨(10737418 : ℝ) / 2 ^ 30, by positivity, ofBits_f32_1em2⟩

variable {s : Shape} {φ : FTy}

/-- A constant array at an index: the value its word denotes. -/
theorem constant_apply (b : BitVec φ.bits) (i : s.Idx) :
    constant (F := Ideal) s φ b i = Ideal.ofBits φ b := rfl

/-- A constant array whose word denotes a real number is an array of real numbers. -/
theorem allFin_constant {b : BitVec φ.bits} (hb : ∃ r : ℝ, Ideal.ofBits φ b = (r : EReal)) :
    AllFin (constant (F := Ideal) s φ b) := fun _ => hb

/-- The constant array of zeros. -/
theorem allFin_constant_zero (s : Shape) : AllFin (constant (F := Ideal) s .f32 0x00000000#32) :=
  allFin_constant ⟨0, ofBits_f32_zero⟩

/-- The constant array of ones. -/
theorem allFin_constant_one (s : Shape) : AllFin (constant (F := Ideal) s .f32 0x3F800000#32) :=
  allFin_constant ⟨1, ofBits_f32_one⟩

/-- The constant array at `100000`. -/
theorem allFin_constant_100000 (s : Shape) : AllFin (constant (F := Ideal) s .f32 0x47C35000#32) :=
  allFin_constant ⟨100000, ofBits_f32_100000⟩

/-- The constant array at the word `0x3727C5AC`. -/
theorem allFin_constant_1em5 (s : Shape) : AllFin (constant (F := Ideal) s .f32 0x3727C5AC#32) :=
  allFin_constant ⟨_, ofBits_f32_1em5⟩

/-- The constant array at the word `0x3C23D70A`. -/
theorem allFin_constant_1em2 (s : Shape) : AllFin (constant (F := Ideal) s .f32 0x3C23D70A#32) :=
  allFin_constant ⟨_, ofBits_f32_1em2⟩

end Consts

end Cert.Lib
-- ==== Proof.LibFiniteSum.lean ====
/-
  Closure of "every entry is a real number" under the host operations that sum or index, at the ideal instance
  (floats are extended reals, every operation exact): the host's additive reduce, its dot product, gather,
  additive scatter, quotient by a divisor that is not zero, and reciprocal square root at a positive real; then the
  real-arithmetic fact that a biased variance is not negative.
-/
import Idealize.ShloMosaic.Lib.IdealHost
import proofs.«409037_j72164040508123_1_alg».proof.Proof.LibFinite

namespace Cert.Lib

open Idealize.ShloMosaic
open scoped BigOperators

/-! ## Finite sums of real numbers read as extended reals -/

/-- A finite sum of real numbers, each read as an extended real, is the real sum read as an extended real. -/
theorem coe_finset_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of extended reals, each of them a real number, is a real number. -/
theorem exists_real_finset_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := hf a (Finset.mem_insert_self a s)
    obtain ⟨t, ht⟩ := ih (fun i hi => hf i (Finset.mem_insert_of_mem hi))
    exact ⟨r + t, by rw [Finset.sum_insert ha, hr, ht, EReal.coe_add]⟩

/-- A finite sum of extended reals, each of them a real number that is not negative, is a real number that is not
negative. -/
theorem exists_nonneg_real_finset_sum {ι : Type} (s : Finset ι) (f : ι → EReal)
    (hf : ∀ i ∈ s, ∃ r : ℝ, 0 ≤ r ∧ f i = (r : EReal)) : ∃ r : ℝ, 0 ≤ r ∧ ∑ i ∈ s, f i = (r : EReal) := by
  classical
  induction s using Finset.induction_on with
  | empty => exact ⟨0, le_refl _, by simp⟩
  | insert a s ha ih =>
    obtain ⟨r, hr0, hr⟩ := hf a (Finset.mem_insert_self a s)
    obtain ⟨t, ht0, ht⟩ := ih (fun i hi => hf i (Finset.mem_insert_of_mem hi))
    exact ⟨r + t, add_nonneg hr0 ht0, by rw [Finset.sum_insert ha, hr, ht, EReal.coe_add]⟩

/-! ## The host's additive reduce -/

/-- The host's additive reduce of an array of real numbers, from an initial value that is a real number, is an array
of real numbers: each entry is the initial value plus a finite sum of entries. -/
theorem allFin_reduceAdd {s t u : Shape} {φ : FTy} {axes : List (Fin s.rank)} (x : FVec Ideal s φ)
    (v : u.Idx → Ideal φ) (h : s.ReducesTo axes t) (hu : 0 < u.numel) (hx : AllFin x) (hv : AllFin v) :
    AllFin (Host.reduceAdd x v h hu) := by
  intro j
  obtain ⟨a, ha⟩ := hv (Shape.Idx.first hu)
  obtain ⟨b, hb⟩ := exists_real_finset_sum (Finset.univ.filter fun i => h.drop i = j) x (fun i _ => hx i)
  refine ⟨a + b, ?_⟩
  rw [ValueIdx.hostReduceAdd_apply]
  unfold Ideal.hostReduceAdd
  rw [ha, hb, EReal.coe_add]

/-- The host's additive reduce of an array of real numbers that are not negative, from an initial value that is a
real number that is not negative, has every entry a real number that is not negative. -/
theorem nonneg_reduceAdd {s t u : Shape} {φ : FTy} {axes : List (Fin s.rank)} (x : FVec Ideal s φ)
    (v : u.Idx → Ideal φ) (h : s.ReducesTo axes t) (hu : 0 < u.numel)
    (hx : ∀ i, ∃ r : ℝ, 0 ≤ r ∧ x i = (r : EReal)) (hv : ∀ i, ∃ r : ℝ, 0 ≤ r ∧ v i = (r : EReal)) :
    ∀ j, ∃ r : ℝ, 0 ≤ r ∧ Host.reduceAdd x v h hu j = (r : EReal) := by
  intro j
  obtain ⟨a, ha0, ha⟩ := hv (Shape.Idx.first hu)
  obtain ⟨b, hb0, hb⟩ :=
    exists_nonneg_real_finset_sum (Finset.univ.filter fun i => h.drop i = j) x (fun i _ => hx i)
  refine ⟨a + b, add_nonneg ha0 hb0, ?_⟩
  rw [ValueIdx.hostReduceAdd_apply]
  unfold Ideal.hostReduceAdd
  rw [ha, hb, EReal.coe_add]

/-! ## The host's dot product -/

/-- The host's dot product of two arrays of real numbers is an array of real numbers: each entry is a finite sum
of products of entries. -/
theorem allFin_dotGeneral {sl sr so : Shape} {φ₁ φ₂ : FTy} (d : DotDims sl sr so) (prec : Option ContractPrecision)
    (l : FVec Ideal sl φ₁) (r : FVec Ideal sr φ₂) (hl : AllFin l) (hr : AllFin r) :
    AllFin (Host.dotGeneral d prec l r) := by
  intro j
  obtain ⟨c, hc⟩ := exists_real_finset_sum Finset.univ
    (fun k : d.contr.Idx => l (d.lhsIdx j k) * r (d.rhsIdx j k)) (by
      intro k _
      obtain ⟨a, ha⟩ := hl (d.lhsIdx j k)
      obtain ⟨b, hb⟩ := hr (d.rhsIdx j k)
      exact ⟨a * b, by rw [ha, hb, EReal.coe_mul]⟩)
  refine ⟨c, ?_⟩
  show FloatOps.dotGeneral d prec .single l r j = _
  rw [Ideal.dotGeneral_apply]
  exact hc

/-! ## Gather -/

/-- Every entry of a gather is an entry of the operand (the start indices are clamped so that each slice fits), so
a gather of an array of real numbers is an array of real numbers. -/
theorem allFin_gather {s si t : Shape} {w : Nat} (d : GatherDims s si t) (x : s.Idx → EReal) (i : IVec si w)
    (hx : AllFin x) : AllFin (Host.gather d x i) :=
  fun j => hx (d.operandIdx j i)

/-! ## The host's additive scatter -/

/-- The host's additive scatter of real updates into an array of real numbers is an array of real numbers: each
entry is the operand's plus a finite sum of update entries. -/
theorem allFin_scatterAdd {s si u : Shape} {φ : FTy} {w : Nat} (d : ScatterDims s si u) (x : FVec Ideal s φ)
    (i : IVec si w) (upd : FVec Ideal u φ) (hx : AllFin x) (hupd : AllFin upd) :
    AllFin (Host.scatterAdd d x i upd) := by
  intro k
  obtain ⟨a, ha⟩ := hx k
  obtain ⟨b, hb⟩ :=
    exists_real_finset_sum (Finset.univ.filter fun j => d.resultIdx? j i = some k) upd (fun j _ => hupd j)
  refine ⟨a + b, ?_⟩
  show Ideal.hostScatterAdd d x i upd k = _
  unfold Ideal.hostScatterAdd
  rw [ha, hb, EReal.coe_add]

/-! ## The host's quotient by a divisor that is not zero -/

/-- The host's quotient of a real number by a real number that is not zero is the real quotient. -/
theorem divf_apply_coe {s : Shape} {φ : FTy} (x y : FVec Ideal s φ) (i : s.Idx) {a b : ℝ} (ha : x i = (a : EReal))
    (hb : y i = (b : EReal)) (hb0 : b ≠ 0) : Host.divf x y i = ((a / b : ℝ) : EReal) := by
  rw [ValueIdx.hostDivf_apply, hb, Ideal.div_coe hb0, ha, ← EReal.coe_mul, mul_one_div]

/-- The host's quotient of an array of real numbers by an array whose every entry is a real number that is not zero
is an array of real numbers. -/
theorem allFin_divf {s : Shape} {φ : FTy} (x y : FVec Ideal s φ) (hx : AllFin x)
    (hy : ∀ i, ∃ r : ℝ, r ≠ 0 ∧ y i = (r : EReal)) : AllFin (Host.divf x y) := by
  intro i
  obtain ⟨a, ha⟩ := hx i
  obtain ⟨b, hb0, hb⟩ := hy i
  exact ⟨a / b, divf_apply_coe x y i ha hb hb0⟩

/-- The host's quotient of an array of real numbers by an array of real numbers none of which is zero is an array
of real numbers. -/
theorem allFin_divf_of_ne_zero {s : Shape} {φ : FTy} (x y : FVec Ideal s φ) (hx : AllFin x) (hy : AllFin y)
    (hy0 : ∀ i, y i ≠ 0) : AllFin (Host.divf x y) := by
  refine allFin_divf x y hx fun i => ?_
  obtain ⟨b, hb⟩ := hy i
  refine ⟨b, ?_, hb⟩
  rintro rfl
  exact hy0 i (by rw [hb, EReal.coe_zero])

/-- The host's quotient of an array of real numbers that are not negative by an array of positive real numbers has
every entry a real number that is not negative. -/
theorem nonneg_divf {s : Shape} {φ : FTy} (x y : FVec Ideal s φ) (hx : ∀ i, ∃ r : ℝ, 0 ≤ r ∧ x i = (r : EReal))
    (hy : ∀ i, ∃ r : ℝ, 0 < r ∧ y i = (r : EReal)) : ∀ i, ∃ r : ℝ, 0 ≤ r ∧ Host.divf x y i = (r : EReal) := by
  intro i
  obtain ⟨a, ha0, ha⟩ := hx i
  obtain ⟨b, hb0, hb⟩ := hy i
  exact ⟨a / b, div_nonneg ha0 hb0.le, divf_apply_coe x y i ha hb hb0.ne'⟩

/-! ## The divisor one hundred thousand, a scalar constant broadcast -/

/-- The f32 pattern 0x47C35000 is the real number one hundred thousand. -/
theorem hundredThousand_ofBits : Ideal.ofBits .f32 0x47C35000#32 = ((100000 : ℝ) : EReal) := by
  simp [Ideal.ofBits, Ideal.ieee, -EReal.coe_mul]; norm_num

/-- The scalar constant of the f32 pattern of one hundred thousand, broadcast to any shape, reads that real number
everywhere. -/
theorem hundredThousand_broadcast_apply {T : Shape} (h : (⟨0, ![]⟩ : Shape).BroadcastsInDim T ![]) (j : T.Idx) :
    broadcastInDim T ![] h (constant (F := Ideal) ⟨0, ![]⟩ .f32 0x47C35000#32) j = ((100000 : ℝ) : EReal) := by
  rw [ValueIdx.broadcastInDim_scalar_apply]
  exact hundredThousand_ofBits

/-- Every entry of that broadcast is a positive real number. -/
theorem hundredThousand_broadcast_pos {T : Shape} (h : (⟨0, ![]⟩ : Shape).BroadcastsInDim T ![]) :
    ∀ j, ∃ r : ℝ, 0 < r ∧
      broadcastInDim T ![] h (constant (F := Ideal) ⟨0, ![]⟩ .f32 0x47C35000#32) j = (r : EReal) :=
  fun j => ⟨100000, by norm_num, hundredThousand_broadcast_apply h j⟩

/-- Every entry of that broadcast is a real number that is not zero. -/
theorem hundredThousand_broadcast_ne_zero {T : Shape} (h : (⟨0, ![]⟩ : Shape).BroadcastsInDim T ![]) :
    ∀ j, ∃ r : ℝ, r ≠ 0 ∧
      broadcastInDim T ![] h (constant (F := Ideal) ⟨0, ![]⟩ .f32 0x47C35000#32) j = (r : EReal) :=
  fun j => ⟨100000, by norm_num, hundredThousand_broadcast_apply h j⟩

/-- The host's quotient of an array of real numbers by that broadcast is an array of real numbers. -/
theorem allFin_divf_hundredThousand {T : Shape} (h : (⟨0, ![]⟩ : Shape).BroadcastsInDim T ![])
    (x : FVec Ideal T .f32) (hx : AllFin x) :
    AllFin (Host.divf x (broadcastInDim T ![] h (constant (F := Ideal) ⟨0, ![]⟩ .f32 0x47C35000#32))) :=
  allFin_divf x _ hx (hundredThousand_broadcast_ne_zero h)

/-- The host's quotient by that broadcast, at an entry that is a real number, is the real quotient by one hundred
thousand. -/
theorem divf_hundredThousand_apply {T : Shape} (h : (⟨0, ![]⟩ : Shape).BroadcastsInDim T ![])
    (x : FVec Ideal T .f32) (j : T.Idx) {a : ℝ} (ha : x j = (a : EReal)) :
    Host.divf x (broadcastInDim T ![] h (constant (F := Ideal) ⟨0, ![]⟩ .f32 0x47C35000#32)) j
      = ((a / 100000 : ℝ) : EReal) :=
  divf_apply_coe x _ j ha (hundredThousand_broadcast_apply h j) (by norm_num)

/-! ## The host's reciprocal square root at a positive real -/

/-- The host's reciprocal square root at a positive real number is the real reciprocal of the real square root. -/
theorem rsqrt_apply_coe {s : Shape} {φ : FTy} (x : FVec Ideal s φ) (i : s.Idx) {a : ℝ} (ha : x i = (a : EReal))
    (ha0 : 0 < a) : Host.rsqrt x i = (((Real.sqrt a)⁻¹ : ℝ) : EReal) := by
  show Ideal.rsqrt (x i) = _
  rw [ha, Ideal.rsqrt_coe, if_neg (not_lt.mpr ha0.le), if_neg ha0.ne']

/-- The host's reciprocal square root of an array of positive real numbers has every entry a positive real number. -/
theorem pos_rsqrt {s : Shape} {φ : FTy} (x : FVec Ideal s φ) (hx : ∀ i, ∃ r : ℝ, 0 < r ∧ x i = (r : EReal)) :
    ∀ i, ∃ r : ℝ, 0 < r ∧ Host.rsqrt x i = (r : EReal) := by
  intro i
  obtain ⟨a, ha0, ha⟩ := hx i
  exact ⟨(Real.sqrt a)⁻¹, inv_pos.mpr (Real.sqrt_pos.mpr ha0), rsqrt_apply_coe x i ha ha0⟩

/-- The host's reciprocal square root of an array of positive real numbers is an array of real numbers. -/
theorem allFin_rsqrt {s : Shape} {φ : FTy} (x : FVec Ideal s φ) (hx : ∀ i, ∃ r : ℝ, 0 < r ∧ x i = (r : EReal)) :
    AllFin (Host.rsqrt x) := by
  intro i
  obtain ⟨r, _, hr⟩ := pos_rsqrt x hx i
  exact ⟨r, hr⟩

/-! ## A biased variance is not negative -/

/-- The mean of squared deviations from any centre, over a count that is not negative, is not negative. -/
theorem variance_nonneg {ι : Type} [Fintype ι] (f : ι → ℝ) (μ N : ℝ) (hN : 0 ≤ N) :
    0 ≤ (∑ n, (f n - μ) ^ 2) / N :=
  div_nonneg (Finset.sum_nonneg fun _ _ => sq_nonneg _) hN

/-- The same with each square written as a product of the deviation with itself. -/
theorem variance_nonneg' {ι : Type} [Fintype ι] (f : ι → ℝ) (μ N : ℝ) (hN : 0 ≤ N) :
    0 ≤ (∑ n, (f n - μ) * (f n - μ)) / N :=
  div_nonneg (Finset.sum_nonneg fun _ _ => mul_self_nonneg _) hN

/-- The biased variance of the rows of a real table at a column: with the column's mean as the centre and the
number of rows as the count, it is not negative. -/
theorem biased_variance_nonneg {ι κ : Type} [Fintype ι] (z : ι → κ → ℝ) (j : κ) :
    0 ≤ (∑ n, (z n j - (∑ n', z n' j) / (Fintype.card ι : ℝ)) ^ 2) / (Fintype.card ι : ℝ) :=
  variance_nonneg (fun n => z n j) _ _ (Nat.cast_nonneg _)

end Cert.Lib
-- ==== Proof.VarBlock.lean ====
/-
  The biased variance of the rows of a table, as the programs compute it at the ideal instance (floats are extended
  reals, every operation exact): column sums over the row count give the means; the squared deviations, summed over
  the rows and divided by the row count, give the variance, kept where the count is positive. For a table of real
  numbers every entry of it is a real number that is not negative, so adding the small positive constant and taking
  the reciprocal square root gives positive real numbers. Stated once over any shapes, then at the two widths used.
-/
import Idealize.ShloMosaic.Lib.IdealHost
import proofs.«409037_j72164040508123_1_alg».proof.Proof.LibFiniteSum

namespace Cert.Seam

open Idealize.ShloMosaic Cert.Lib
open scoped BigOperators

/-- The rank-zero shape: a scalar. -/
abbrev S0 : Shape := ⟨0, ![]⟩

/-! ## Elementwise closure: broadcast, difference, square -/

/-- Every entry of a broadcast is an entry of its operand, so a broadcast of an array of real numbers is an array of
real numbers. -/
private theorem allFin_broadcastInDim {s t : Shape} (dims : Fin s.rank → Fin t.rank) (h : s.BroadcastsInDim t dims)
    (x : s.Idx → EReal) (hx : AllFin x) : AllFin (broadcastInDim t dims h x) :=
  fun _ => hx _

/-- The difference of two arrays of real numbers is an array of real numbers. -/
private theorem allFin_subf {s : Shape} {φ : FTy} (x y : FVec Ideal s φ) (hx : AllFin x) (hy : AllFin y) :
    AllFin (subf x y) := by
  intro i
  obtain ⟨a, ha⟩ := hx i
  obtain ⟨b, hb⟩ := hy i
  exact ⟨a - b, by show x i - y i = _; rw [ha, hb, EReal.coe_sub]⟩

/-- The square of an array of real numbers, written as its product with itself, has every entry a real number that
is not negative. -/
theorem nonneg_mulf_self {s : Shape} {φ : FTy} (d : FVec Ideal s φ) (hd : AllFin d) :
    ∀ i, ∃ r : ℝ, 0 ≤ r ∧ mulf d d i = (r : EReal) := by
  intro i
  obtain ⟨a, ha⟩ := hd i
  exact ⟨a * a, mul_self_nonneg a, by show d i * d i = _; rw [ha, EReal.coe_mul]⟩

/-! ## The scalar constants of the block -/

/-- The scalar zero constant is the real number zero. -/
theorem zero_const_apply (i : S0.Idx) :
    constant (F := Ideal) S0 .f32 0x00000000#32 i = ((0 : ℝ) : EReal) := by
  show Ideal.ofBits .f32 0x00000000#32 = _
  rw [Ideal.ofBits_zero_f32, EReal.coe_zero]

/-- The row count as the block computes it, one hundred thousand minus the integer zero read as a float, is the real
number one hundred thousand. -/
theorem count_apply (i : S0.Idx) :
    subf (constant (F := Ideal) S0 .f32 0x47C35000#32) (sitofp .f32 (constantI S0 32 0#32)) i
      = ((100000 : ℝ) : EReal) := by
  show Ideal.ofBits .f32 0x47C35000#32 - (((0#32 : BitVec 32).toInt : ℝ) : EReal) = _
  rw [hundredThousand_ofBits, BitVec.toInt_zero]
  simp

/-- The comparison "the row count is greater than zero" holds: its bit is one. -/
theorem count_pos_bit (i : S0.Idx) :
    cmpf .ogt (subf (constant (F := Ideal) S0 .f32 0x47C35000#32) (sitofp .f32 (constantI S0 32 0#32)))
      (constant (F := Ideal) S0 .f32 0x00000000#32) i = 1#1 := by
  show Ideal.cmp .ogt
    (subf (constant (F := Ideal) S0 .f32 0x47C35000#32) (sitofp .f32 (constantI S0 32 0#32)) i)
    (constant (F := Ideal) S0 .f32 0x00000000#32 i) = 1#1
  rw [count_apply, zero_const_apply]
  show BitVec.ofBool (decide (((0 : ℝ) : EReal) < ((100000 : ℝ) : EReal))) = 1#1
  rw [decide_eq_true (EReal.coe_lt_coe_iff.mpr (by norm_num))]
  rfl

/-- The f32 pattern 0x3727C5AC is a positive real number (10995116 · 2⁻⁴⁰, about one hundred-thousandth). -/
theorem eps_ofBits : Ideal.ofBits .f32 0x3727C5AC#32 = ((10995116 / 2 ^ 40 : ℝ) : EReal) := by
  simp [Ideal.ofBits, Ideal.ieee, -EReal.coe_mul]; norm_num

/-! ## The biased variance of the rows of a table, as the programs compute it -/

section Block
variable {Sz S1 Sk : Shape} {axes : List (Fin Sz.rank)}

/-- The biased variance of the rows of `z`, one entry per column, as one term: column sums, divided by the row count to
give the means; deviations from the means, squared and summed over the rows; divided by the row count computed as one
hundred thousand minus zero; and kept where that count is positive, else the fill constant. -/
noncomputable def varTerm (hred : Sz.ReducesTo axes Sk) (hS : 0 < S0.numel)
    (dims1 : Fin Sk.rank → Fin S1.rank) (h1 : Sk.BroadcastsInDim S1 dims1) (hb0 : S0.BroadcastsInDim S1 ![])
    (dims01 : Fin S1.rank → Fin Sz.rank) (h01 : S1.BroadcastsInDim Sz dims01)
    (hb1 : S0.BroadcastsInDim Sk ![]) (hbp : S0.BroadcastsInDim Sk ![])
    (z : FVec Ideal Sz .f32) : FVec Ideal Sk .f32 :=
  select
    (broadcastInDim Sk ![] hbp
      (cmpf .ogt (subf (constant (F := Ideal) S0 .f32 0x47C35000#32) (sitofp .f32 (constantI S0 32 0#32)))
        (constant (F := Ideal) S0 .f32 0x00000000#32)))
    (Host.divf
      (Host.reduceAdd
        (mulf
          (subf z (broadcastInDim Sz dims01 h01
            (Host.divf
              (broadcastInDim S1 dims1 h1 (Host.reduceAdd z (constant (F := Ideal) S0 .f32 0x00000000#32) hred hS))
              (broadcastInDim S1 ![] hb0 (constant (F := Ideal) S0 .f32 0x47C35000#32)))))
          (subf z (broadcastInDim Sz dims01 h01
            (Host.divf
              (broadcastInDim S1 dims1 h1 (Host.reduceAdd z (constant (F := Ideal) S0 .f32 0x00000000#32) hred hS))
              (broadcastInDim S1 ![] hb0 (constant (F := Ideal) S0 .f32 0x47C35000#32))))))
        (constant (F := Ideal) S0 .f32 0x00000000#32) hred hS)
      (broadcastInDim Sk ![] hb1
        (subf (constant (F := Ideal) S0 .f32 0x47C35000#32) (sitofp .f32 (constantI S0 32 0#32)))))
    (broadcastInDim Sk ![] hb1 (id (constant (F := Ideal) S0 .f32 0x7FC00000#32)))

/-- The biased variance of the rows of a table of real numbers is, at every column, a real number that is not
negative: the count is positive, so the fill branch is never taken, and a sum of squares over a positive count is not
negative. -/
theorem varTerm_nonneg (hred : Sz.ReducesTo axes Sk) (hS : 0 < S0.numel)
    (dims1 : Fin Sk.rank → Fin S1.rank) (h1 : Sk.BroadcastsInDim S1 dims1) (hb0 : S0.BroadcastsInDim S1 ![])
    (dims01 : Fin S1.rank → Fin Sz.rank) (h01 : S1.BroadcastsInDim Sz dims01)
    (hb1 : S0.BroadcastsInDim Sk ![]) (hbp : S0.BroadcastsInDim Sk ![])
    (z : FVec Ideal Sz .f32) (hz : AllFin z) :
    ∀ j, ∃ x : ℝ, 0 ≤ x ∧ varTerm hred hS dims1 h1 hb0 dims01 h01 hb1 hbp z j = (x : EReal) := by
  intro j
  have hc0 : ∀ i, ∃ r : ℝ, 0 ≤ r ∧ constant (F := Ideal) S0 .f32 0x00000000#32 i = (r : EReal) :=
    fun i => ⟨0, le_refl _, zero_const_apply i⟩
  have hc0' : AllFin (constant (F := Ideal) S0 .f32 0x00000000#32) := fun i => ⟨0, zero_const_apply i⟩
  have hs0 := allFin_reduceAdd z _ hred hS hz hc0'
  have hmu := allFin_divf _ _ (allFin_broadcastInDim dims1 h1 _ hs0) (hundredThousand_broadcast_ne_zero hb0)
  have hd := allFin_subf z _ hz (allFin_broadcastInDim dims01 h01 _ hmu)
  have hnum := nonneg_reduceAdd _ _ hred hS (nonneg_mulf_self _ hd) hc0
  have hden : ∀ j, ∃ r : ℝ, 0 < r ∧ broadcastInDim Sk ![] hb1
      (subf (constant (F := Ideal) S0 .f32 0x47C35000#32) (sitofp .f32 (constantI S0 32 0#32))) j = (r : EReal) :=
    fun j => ⟨100000, by norm_num, by rw [ValueIdx.broadcastInDim_scalar_apply]; exact count_apply _⟩
  obtain ⟨x, hx0, hx⟩ := nonneg_divf _ _ hnum hden j
  refine ⟨x, hx0, ?_⟩
  rw [← hx]
  unfold varTerm
  show Scalar.select _ _ _ = _
  unfold Scalar.select
  rw [if_pos (by rw [ValueIdx.broadcastInDim_scalar_apply]; exact count_pos_bit _)]

end Block

/-! ## The reciprocal square root of a variance plus the small positive constant -/

/-- An array whose entries are real numbers that are not negative, plus the broadcast small positive constant, has a
reciprocal square root whose every entry is a positive real number. -/
theorem rsqrt_add_eps_pos {Sk : Shape} (v : FVec Ideal Sk .f32) (hbe : S0.BroadcastsInDim Sk ![])
    (hv : ∀ j, ∃ x : ℝ, 0 ≤ x ∧ v j = (x : EReal)) :
    ∀ j, ∃ r : ℝ, 0 < r ∧
      Host.rsqrt (addf v (broadcastInDim Sk ![] hbe (constant (F := Ideal) S0 .f32 0x3727C5AC#32))) j = (r : EReal) := by
  refine pos_rsqrt _ fun j => ?_
  obtain ⟨x, hx0, hx⟩ := hv j
  refine ⟨x + 10995116 / 2 ^ 40, by positivity, ?_⟩
  show v j + broadcastInDim Sk ![] hbe (constant (F := Ideal) S0 .f32 0x3727C5AC#32) j = _
  rw [ValueIdx.broadcastInDim_scalar_apply, hx]
  show (x : EReal) + Ideal.ofBits .f32 0x3727C5AC#32 = _
  rw [eps_ofBits, EReal.coe_add]

/-! ## At the two widths of the programs -/

/-! ### 64 columns -/

/-- A table of one hundred thousand rows and 64 columns. -/
abbrev S100000x64 : Shape := ⟨2, ![100000, 64]⟩
/-- One row of 64 columns. -/
abbrev S1x64 : Shape := ⟨2, ![1, 64]⟩
/-- A vector of 64 entries. -/
abbrev S64 : Shape := ⟨1, ![64]⟩

/-- The biased variance of the one hundred thousand rows of a table of 64 columns, as the programs compute it
(the general term at these shapes, the reduce along the rows). -/
noncomputable def varTerm64 (hred : S100000x64.ReducesTo [0] S64) (hS : 0 < S0.numel)
    (h1 : S64.BroadcastsInDim S1x64 (![1] : Fin 1 → Fin S1x64.rank))
    (hb0 : S0.BroadcastsInDim S1x64 (![] : Fin 0 → Fin S1x64.rank))
    (h01 : S1x64.BroadcastsInDim S100000x64 (![0, 1] : Fin 2 → Fin S100000x64.rank))
    (hb1 hbp : S0.BroadcastsInDim S64 (![] : Fin 0 → Fin S64.rank))
    (z : FVec Ideal S100000x64 .f32) : FVec Ideal S64 .f32 :=
  select
    (broadcastInDim S64 ![] hbp
      (cmpf .ogt (subf (constant (F := Ideal) S0 .f32 0x47C35000#32) (sitofp .f32 (constantI S0 32 0#32)))
        (constant (F := Ideal) S0 .f32 0x00000000#32)))
    (Host.divf
      (Host.reduceAdd
        (mulf
          (subf z (broadcastInDim S100000x64 ![0, 1] h01
            (Host.divf
              (broadcastInDim S1x64 ![1] h1 (Host.reduceAdd z (constant (F := Ideal) S0 .f32 0x00000000#32) hred hS))
              (broadcastInDim S1x64 ![] hb0 (constant (F := Ideal) S0 .f32 0x47C35000#32)))))
          (subf z (broadcastInDim S100000x64 ![0, 1] h01
            (Host.divf
              (broadcastInDim S1x64 ![1] h1 (Host.reduceAdd z (constant (F := Ideal) S0 .f32 0x00000000#32) hred hS))
              (broadcastInDim S1x64 ![] hb0 (constant (F := Ideal) S0 .f32 0x47C35000#32))))))
        (constant (F := Ideal) S0 .f32 0x00000000#32) hred hS)
      (broadcastInDim S64 ![] hb1
        (subf (constant (F := Ideal) S0 .f32 0x47C35000#32) (sitofp .f32 (constantI S0 32 0#32)))))
    (broadcastInDim S64 ![] hb1 (id (constant (F := Ideal) S0 .f32 0x7FC00000#32)))

/-- It is the general term at these shapes. -/
theorem varTerm64_eq (hred : S100000x64.ReducesTo [0] S64) (hS : 0 < S0.numel)
    (h1 : S64.BroadcastsInDim S1x64 (![1] : Fin 1 → Fin S1x64.rank))
    (hb0 : S0.BroadcastsInDim S1x64 (![] : Fin 0 → Fin S1x64.rank))
    (h01 : S1x64.BroadcastsInDim S100000x64 (![0, 1] : Fin 2 → Fin S100000x64.rank))
    (hb1 hbp : S0.BroadcastsInDim S64 (![] : Fin 0 → Fin S64.rank))
    (z : FVec Ideal S100000x64 .f32) :
    varTerm64 hred hS h1 hb0 h01 hb1 hbp z = varTerm hred hS ![1] h1 hb0 ![0, 1] h01 hb1 hbp z := rfl

/-- The biased variance of a table of real numbers is, at each of the 64 columns, a real number that is not
negative. -/
theorem var_nonneg64 (hred : S100000x64.ReducesTo [0] S64) (hS : 0 < S0.numel)
    (h1 : S64.BroadcastsInDim S1x64 (![1] : Fin 1 → Fin S1x64.rank))
    (hb0 : S0.BroadcastsInDim S1x64 (![] : Fin 0 → Fin S1x64.rank))
    (h01 : S1x64.BroadcastsInDim S100000x64 (![0, 1] : Fin 2 → Fin S100000x64.rank))
    (hb1 hbp : S0.BroadcastsInDim S64 (![] : Fin 0 → Fin S64.rank))
    (z : FVec Ideal S100000x64 .f32) (hz : AllFin z) :
    ∀ j, ∃ x : ℝ, 0 ≤ x ∧ varTerm64 hred hS h1 hb0 h01 hb1 hbp z j = (x : EReal) :=
  varTerm_nonneg hred hS ![1] h1 hb0 ![0, 1] h01 hb1 hbp z hz

/-- The reciprocal square root of that variance plus the small positive constant is, at each of the 64 columns, a
positive real number. -/
theorem rsqrt_var_pos64 (hred : S100000x64.ReducesTo [0] S64) (hS : 0 < S0.numel)
    (h1 : S64.BroadcastsInDim S1x64 (![1] : Fin 1 → Fin S1x64.rank))
    (hb0 : S0.BroadcastsInDim S1x64 (![] : Fin 0 → Fin S1x64.rank))
    (h01 : S1x64.BroadcastsInDim S100000x64 (![0, 1] : Fin 2 → Fin S100000x64.rank))
    (hb1 hbp : S0.BroadcastsInDim S64 (![] : Fin 0 → Fin S64.rank))
    (hbe : S0.BroadcastsInDim S64 (![] : Fin 0 → Fin S64.rank))
    (z : FVec Ideal S100000x64 .f32) (hz : AllFin z) :
    ∀ j, ∃ r : ℝ, 0 < r ∧
      Host.rsqrt (addf (varTerm64 hred hS h1 hb0 h01 hb1 hbp z)
        (broadcastInDim S64 ![] hbe (constant (F := Ideal) S0 .f32 0x3727C5AC#32))) j = (r : EReal) :=
  rsqrt_add_eps_pos _ hbe (var_nonneg64 hred hS h1 hb0 h01 hb1 hbp z hz)

/-- The reciprocal square root of that variance plus the small positive constant is an array of real numbers. -/
theorem rsqrt_var_fin64 (hred : S100000x64.ReducesTo [0] S64) (hS : 0 < S0.numel)
    (h1 : S64.BroadcastsInDim S1x64 (![1] : Fin 1 → Fin S1x64.rank))
    (hb0 : S0.BroadcastsInDim S1x64 (![] : Fin 0 → Fin S1x64.rank))
    (h01 : S1x64.BroadcastsInDim S100000x64 (![0, 1] : Fin 2 → Fin S100000x64.rank))
    (hb1 hbp : S0.BroadcastsInDim S64 (![] : Fin 0 → Fin S64.rank))
    (hbe : S0.BroadcastsInDim S64 (![] : Fin 0 → Fin S64.rank))
    (z : FVec Ideal S100000x64 .f32) (hz : AllFin z) :
    AllFin (Host.rsqrt (addf (varTerm64 hred hS h1 hb0 h01 hb1 hbp z)
      (broadcastInDim S64 ![] hbe (constant (F := Ideal) S0 .f32 0x3727C5AC#32)))) :=
  fun j => (rsqrt_var_pos64 hred hS h1 hb0 h01 hb1 hbp hbe z hz j).imp fun _ h => h.2

/-! ### 128 columns -/

/-- A table of one hundred thousand rows and 128 columns. -/
abbrev S100000x128 : Shape := ⟨2, ![100000, 128]⟩
/-- One row of 128 columns. -/
abbrev S1x128 : Shape := ⟨2, ![1, 128]⟩
/-- A vector of 128 entries. -/
abbrev S128 : Shape := ⟨1, ![128]⟩

/-- The biased variance of the one hundred thousand rows of a table of 128 columns, as the programs compute it
(the general term at these shapes, the reduce along the rows). -/
noncomputable def varTerm128 (hred : S100000x128.ReducesTo [0] S128) (hS : 0 < S0.numel)
    (h1 : S128.BroadcastsInDim S1x128 (![1] : Fin 1 → Fin S1x128.rank))
    (hb0 : S0.BroadcastsInDim S1x128 (![] : Fin 0 → Fin S1x128.rank))
    (h01 : S1x128.BroadcastsInDim S100000x128 (![0, 1] : Fin 2 → Fin S100000x128.rank))
    (hb1 hbp : S0.BroadcastsInDim S128 (![] : Fin 0 → Fin S128.rank))
    (z : FVec Ideal S100000x128 .f32) : FVec Ideal S128 .f32 :=
  select
    (broadcastInDim S128 ![] hbp
      (cmpf .ogt (subf (constant (F := Ideal) S0 .f32 0x47C35000#32) (sitofp .f32 (constantI S0 32 0#32)))
        (constant (F := Ideal) S0 .f32 0x00000000#32)))
    (Host.divf
      (Host.reduceAdd
        (mulf
          (subf z (broadcastInDim S100000x128 ![0, 1] h01
            (Host.divf
              (broadcastInDim S1x128 ![1] h1 (Host.reduceAdd z (constant (F := Ideal) S0 .f32 0x00000000#32) hred hS))
              (broadcastInDim S1x128 ![] hb0 (constant (F := Ideal) S0 .f32 0x47C35000#32)))))
          (subf z (broadcastInDim S100000x128 ![0, 1] h01
            (Host.divf
              (broadcastInDim S1x128 ![1] h1 (Host.reduceAdd z (constant (F := Ideal) S0 .f32 0x00000000#32) hred hS))
              (broadcastInDim S1x128 ![] hb0 (constant (F := Ideal) S0 .f32 0x47C35000#32))))))
        (constant (F := Ideal) S0 .f32 0x00000000#32) hred hS)
      (broadcastInDim S128 ![] hb1
        (subf (constant (F := Ideal) S0 .f32 0x47C35000#32) (sitofp .f32 (constantI S0 32 0#32)))))
    (broadcastInDim S128 ![] hb1 (id (constant (F := Ideal) S0 .f32 0x7FC00000#32)))

/-- It is the general term at these shapes. -/
theorem varTerm128_eq (hred : S100000x128.ReducesTo [0] S128) (hS : 0 < S0.numel)
    (h1 : S128.BroadcastsInDim S1x128 (![1] : Fin 1 → Fin S1x128.rank))
    (hb0 : S0.BroadcastsInDim S1x128 (![] : Fin 0 → Fin S1x128.rank))
    (h01 : S1x128.BroadcastsInDim S100000x128 (![0, 1] : Fin 2 → Fin S100000x128.rank))
    (hb1 hbp : S0.BroadcastsInDim S128 (![] : Fin 0 → Fin S128.rank))
    (z : FVec Ideal S100000x128 .f32) :
    varTerm128 hred hS h1 hb0 h01 hb1 hbp z = varTerm hred hS ![1] h1 hb0 ![0, 1] h01 hb1 hbp z := rfl

/-- The biased variance of a table of real numbers is, at each of the 128 columns, a real number that is not
negative. -/
theorem var_nonneg128 (hred : S100000x128.ReducesTo [0] S128) (hS : 0 < S0.numel)
    (h1 : S128.BroadcastsInDim S1x128 (![1] : Fin 1 → Fin S1x128.rank))
    (hb0 : S0.BroadcastsInDim S1x128 (![] : Fin 0 → Fin S1x128.rank))
    (h01 : S1x128.BroadcastsInDim S100000x128 (![0, 1] : Fin 2 → Fin S100000x128.rank))
    (hb1 hbp : S0.BroadcastsInDim S128 (![] : Fin 0 → Fin S128.rank))
    (z : FVec Ideal S100000x128 .f32) (hz : AllFin z) :
    ∀ j, ∃ x : ℝ, 0 ≤ x ∧ varTerm128 hred hS h1 hb0 h01 hb1 hbp z j = (x : EReal) :=
  varTerm_nonneg hred hS ![1] h1 hb0 ![0, 1] h01 hb1 hbp z hz

/-- The reciprocal square root of that variance plus the small positive constant is, at each of the 128 columns, a
positive real number. -/
theorem rsqrt_var_pos128 (hred : S100000x128.ReducesTo [0] S128) (hS : 0 < S0.numel)
    (h1 : S128.BroadcastsInDim S1x128 (![1] : Fin 1 → Fin S1x128.rank))
    (hb0 : S0.BroadcastsInDim S1x128 (![] : Fin 0 → Fin S1x128.rank))
    (h01 : S1x128.BroadcastsInDim S100000x128 (![0, 1] : Fin 2 → Fin S100000x128.rank))
    (hb1 hbp : S0.BroadcastsInDim S128 (![] : Fin 0 → Fin S128.rank))
    (hbe : S0.BroadcastsInDim S128 (![] : Fin 0 → Fin S128.rank))
    (z : FVec Ideal S100000x128 .f32) (hz : AllFin z) :
    ∀ j, ∃ r : ℝ, 0 < r ∧
      Host.rsqrt (addf (varTerm128 hred hS h1 hb0 h01 hb1 hbp z)
        (broadcastInDim S128 ![] hbe (constant (F := Ideal) S0 .f32 0x3727C5AC#32))) j = (r : EReal) :=
  rsqrt_add_eps_pos _ hbe (var_nonneg128 hred hS h1 hb0 h01 hb1 hbp z hz)

/-- The reciprocal square root of that variance plus the small positive constant is an array of real numbers. -/
theorem rsqrt_var_fin128 (hred : S100000x128.ReducesTo [0] S128) (hS : 0 < S0.numel)
    (h1 : S128.BroadcastsInDim S1x128 (![1] : Fin 1 → Fin S1x128.rank))
    (hb0 : S0.BroadcastsInDim S1x128 (![] : Fin 0 → Fin S1x128.rank))
    (h01 : S1x128.BroadcastsInDim S100000x128 (![0, 1] : Fin 2 → Fin S100000x128.rank))
    (hb1 hbp : S0.BroadcastsInDim S128 (![] : Fin 0 → Fin S128.rank))
    (hbe : S0.BroadcastsInDim S128 (![] : Fin 0 → Fin S128.rank))
    (z : FVec Ideal S100000x128 .f32) (hz : AllFin z) :
    AllFin (Host.rsqrt (addf (varTerm128 hred hS h1 hb0 h01 hb1 hbp z)
      (broadcastInDim S128 ![] hbe (constant (F := Ideal) S0 .f32 0x3727C5AC#32)))) :=
  fun j => (rsqrt_var_pos128 hred hS h1 hb0 h01 hb1 hbp hbe z hz j).imp fun _ h => h.2

end Cert.Seam
-- ==== Proof.BnSeam.lean ====
import Idealize.ShloMosaic.PureOps
import Idealize.ShloMosaic.Lib.ValueIdx
import Mathlib.Data.EReal.Basic
import Mathlib.Data.EReal.Operations
import Mathlib.Tactic.Ring
import proofs.«409037_j72164040508123_1_alg».proof.ReferenceIdeal
import proofs.«409037_j72164040508123_1_alg».proof.Proof.LibFinite

/-!
# The BatchNorm seam

Training-mode BatchNorm applied directly, ((g·(z − mean))·r) + b, equals its folding into one affine map per
feature, A·z + B with A = g·r and B = b − mean·A, wherever every quantity is a real number: distributivity in ℝ.
At an infinity the two differ (∞ − ∞ on one side only), so finiteness is a hypothesis.
-/

namespace Cert.Seam

open Idealize.ShloMosaic Idealize.ShloMosaic.ValueIdx
open Cert.ReferenceIdeal (S100000x64 S1x64 S64 S100000x128 S1x128 S128)
open Cert.Lib (AllFin)

/-- The folded affine map and the direct normalization agree on real numbers. -/
theorem affine_real (g b m r z : ℝ) :
    ((g : EReal) * (r : EReal)) * (z : EReal) + ((b : EReal) - (m : EReal) * ((g : EReal) * (r : EReal)))
      = (((g : EReal) * ((z : EReal) - (m : EReal))) * (r : EReal)) + (b : EReal) := by
  rw [← EReal.coe_mul, ← EReal.coe_mul, ← EReal.coe_mul, ← EReal.coe_sub, ← EReal.coe_add,
    ← EReal.coe_sub, ← EReal.coe_mul, ← EReal.coe_mul, ← EReal.coe_add]
  congr 1
  ring

/-- Two broadcasts in a row read the operand at one index, which does not depend on the operand. -/
theorem bcast2_index {s u t : Shape} {α : Type} (d1 : Fin s.rank → Fin u.rank) (h1 : s.BroadcastsInDim u d1)
    (d2 : Fin u.rank → Fin t.rank) (h2 : u.BroadcastsInDim t d2) (i : t.Idx) :
    ∃ k : s.Idx, ∀ x : s.Idx → α, broadcastInDim t d2 h2 (broadcastInDim u d1 h1 x) i = x k :=
  ⟨_, fun _ => rfl⟩

/-- The affine identity through two broadcasts in a row of the per-feature vectors: at each index both sides
    read the per-feature vectors at one and the same feature, and there it is the identity on real numbers. -/
theorem bn_affine_bcast {s u t : Shape} (d1 : Fin s.rank → Fin u.rank) (h1 : s.BroadcastsInDim u d1)
    (d2 : Fin u.rank → Fin t.rank) (h2 : u.BroadcastsInDim t d2)
    (z : FVec Ideal t .f32) (g b mean r : FVec Ideal s .f32)
    (hz : AllFin z) (hg : AllFin g) (hb : AllFin b) (hm : AllFin mean) (hr : AllFin r) :
    addf (mulf (broadcastInDim t d2 h2 (broadcastInDim u d1 h1 (mulf g r))) z)
        (broadcastInDim t d2 h2 (broadcastInDim u d1 h1 (subf b (mulf mean (mulf g r)))))
      = addf (mulf (mulf (broadcastInDim t d2 h2 (broadcastInDim u d1 h1 g))
            (subf z (broadcastInDim t d2 h2 (broadcastInDim u d1 h1 mean))))
          (broadcastInDim t d2 h2 (broadcastInDim u d1 h1 r)))
        (broadcastInDim t d2 h2 (broadcastInDim u d1 h1 b)) := by
  funext i
  obtain ⟨k, hk⟩ := bcast2_index (α := Ideal .f32) d1 h1 d2 h2 i
  obtain ⟨z', hz'⟩ := hz i
  obtain ⟨g', hg'⟩ := hg k
  obtain ⟨b', hb'⟩ := hb k
  obtain ⟨m', hm'⟩ := hm k
  obtain ⟨r', hr'⟩ := hr k
  simp only [addf_apply, mulf_apply, subf_apply, hk, hz', hg', hb', hm', hr']
  exact affine_real g' b' m' r' z'

/-- 64 features over 100000 rows: the kernel's A·z + B is the reference's ((g·(z − mean))·r) + b. -/
theorem bn_affine_64 (h1 : S64.BroadcastsInDim S1x64 (![1] : Fin 1 → Fin S1x64.rank))
    (h01 : S1x64.BroadcastsInDim S100000x64 (![0, 1] : Fin 2 → Fin S100000x64.rank))
    (z : FVec Ideal S100000x64 .f32) (g b mean r : FVec Ideal S64 .f32)
    (hz : AllFin z) (hg : AllFin g) (hb : AllFin b) (hm : AllFin mean) (hr : AllFin r) :
    addf (mulf (broadcastInDim S100000x64 ![0, 1] h01 (broadcastInDim S1x64 ![1] h1 (mulf g r))) z)
        (broadcastInDim S100000x64 ![0, 1] h01 (broadcastInDim S1x64 ![1] h1 (subf b (mulf mean (mulf g r)))))
      = addf (mulf (mulf (broadcastInDim S100000x64 ![0, 1] h01 (broadcastInDim S1x64 ![1] h1 g))
            (subf z (broadcastInDim S100000x64 ![0, 1] h01 (broadcastInDim S1x64 ![1] h1 mean))))
          (broadcastInDim S100000x64 ![0, 1] h01 (broadcastInDim S1x64 ![1] h1 r)))
        (broadcastInDim S100000x64 ![0, 1] h01 (broadcastInDim S1x64 ![1] h1 b)) :=
  bn_affine_bcast (s := S64) (u := S1x64) (t := S100000x64) _ h1 _ h01 z g b mean r hz hg hb hm hr

/-- 128 features over 100000 rows: the same identity. -/
theorem bn_affine_128 (h1 : S128.BroadcastsInDim S1x128 (![1] : Fin 1 → Fin S1x128.rank))
    (h01 : S1x128.BroadcastsInDim S100000x128 (![0, 1] : Fin 2 → Fin S100000x128.rank))
    (z : FVec Ideal S100000x128 .f32) (g b mean r : FVec Ideal S128 .f32)
    (hz : AllFin z) (hg : AllFin g) (hb : AllFin b) (hm : AllFin mean) (hr : AllFin r) :
    addf (mulf (broadcastInDim S100000x128 ![0, 1] h01 (broadcastInDim S1x128 ![1] h1 (mulf g r))) z)
        (broadcastInDim S100000x128 ![0, 1] h01 (broadcastInDim S1x128 ![1] h1 (subf b (mulf mean (mulf g r)))))
      = addf (mulf (mulf (broadcastInDim S100000x128 ![0, 1] h01 (broadcastInDim S1x128 ![1] h1 g))
            (subf z (broadcastInDim S100000x128 ![0, 1] h01 (broadcastInDim S1x128 ![1] h1 mean))))
          (broadcastInDim S100000x128 ![0, 1] h01 (broadcastInDim S1x128 ![1] h1 r)))
        (broadcastInDim S100000x128 ![0, 1] h01 (broadcastInDim S1x128 ![1] h1 b)) :=
  bn_affine_bcast (s := S128) (u := S1x128) (t := S100000x128) _ h1 _ h01 z g b mean r hz hg hb hm hr

/-- Two broadcasts in a row of a vector of real numbers is a vector of real numbers. -/
theorem allFin_bcast2 {s u t : Shape} (d1 : Fin s.rank → Fin u.rank) (h1 : s.BroadcastsInDim u d1)
    (d2 : Fin u.rank → Fin t.rank) (h2 : u.BroadcastsInDim t d2) {x : s.Idx → EReal} (hx : AllFin x) :
    AllFin (broadcastInDim t d2 h2 (broadcastInDim u d1 h1 x)) := by
  intro i
  obtain ⟨k, hk⟩ := bcast2_index (α := EReal) d1 h1 d2 h2 i
  rw [hk]
  exact hx k

end Cert.Seam
-- ==== Proof.BiasRow.lean ====
/-
  A vector of `C` entries laid out as one row. Reshaping `[C]` to `[1, C]` and broadcasting
  `[C]` into `[1, C]` along the second axis give the same array: entry `(0, c)` of either is
  entry `c` of the vector. Stated for every `C` and at the three widths `64`, `128`, `1`, for
  arbitrary proofs of the two shape relations and any type of entries.
-/
import Idealize.ShloMosaic.PureOps
import Idealize.ShloMosaic.Lib.Pipeline.Value

namespace Cert.SeamRow

open Idealize.ShloMosaic

/-- The shape `[64]`. -/
abbrev S64 : Shape := ⟨1, ![64]⟩
/-- The shape `[1, 64]`. -/
abbrev S1x64 : Shape := ⟨2, ![1, 64]⟩
/-- The shape `[128]`. -/
abbrev S128 : Shape := ⟨1, ![128]⟩
/-- The shape `[1, 128]`. -/
abbrev S1x128 : Shape := ⟨2, ![1, 128]⟩
/-- The shape `[1]`. -/
abbrev S1 : Shape := ⟨1, ![1]⟩
/-- The shape `[1, 1]`. -/
abbrev S1x1 : Shape := ⟨2, ![1, 1]⟩

variable {α : Type}

/-- A vector reshaped to one row, read at an index: the vector at the column coordinate. -/
theorem shapeCast_row_apply (C : Nat) (hc : (⟨1, ![C]⟩ : Shape).ShapeCasts ⟨2, ![1, C]⟩)
    (x : (⟨1, ![C]⟩ : Shape).Idx → α) (j : (⟨2, ![1, C]⟩ : Shape).Idx) :
    shapeCast ⟨2, ![1, C]⟩ x hc j = x (fun a => j a.succ) :=
  shapeCast_addUnit_apply ![C] x hc j

/-- A vector broadcast into one row along the second axis, read at an index: the vector at the
    column coordinate. -/
theorem broadcastInDim_row_apply (C : Nat)
    (hb : (⟨1, ![C]⟩ : Shape).BroadcastsInDim ⟨2, ![1, C]⟩ (![1] : Fin 1 → Fin 2))
    (x : (⟨1, ![C]⟩ : Shape).Idx → α) (j : (⟨2, ![1, C]⟩ : Shape).Idx) :
    broadcastInDim ⟨2, ![1, C]⟩ ![1] hb x j = x (fun a => j a.succ) := by
  refine broadcastInDim_apply ![1] hb x j (fun a => j a.succ) fun a => ?_
  have ha : a = 0 := Subsingleton.elim a 0
  subst ha
  by_cases h1 : (⟨1, ![C]⟩ : Shape).size 0 = 1
  · rw [if_pos h1]
    have hlt : (j (Fin.succ 0)).val < C := (j (Fin.succ 0)).isLt
    have hC : C = 1 := h1
    omega
  · rw [if_neg h1]; rfl

/-- A vector reshaped to one row is the vector broadcast into one row. -/
theorem row (C : Nat) (hc : (⟨1, ![C]⟩ : Shape).ShapeCasts ⟨2, ![1, C]⟩)
    (hb : (⟨1, ![C]⟩ : Shape).BroadcastsInDim ⟨2, ![1, C]⟩ (![1] : Fin 1 → Fin 2))
    (x : (⟨1, ![C]⟩ : Shape).Idx → α) :
    shapeCast ⟨2, ![1, C]⟩ x hc = broadcastInDim ⟨2, ![1, C]⟩ ![1] hb x :=
  funext fun j => (shapeCast_row_apply C hc x j).trans (broadcastInDim_row_apply C hb x j).symm

/-- `[64]` reshaped to `[1, 64]` is `[64]` broadcast into `[1, 64]`. -/
theorem row64 (hc : S64.ShapeCasts S1x64) (hb : S64.BroadcastsInDim S1x64 (![1] : Fin 1 → Fin S1x64.rank))
    (x : S64.Idx → α) : shapeCast S1x64 x hc = broadcastInDim S1x64 ![1] hb x := row 64 hc hb x

/-- `[128]` reshaped to `[1, 128]` is `[128]` broadcast into `[1, 128]`. -/
theorem row128 (hc : S128.ShapeCasts S1x128) (hb : S128.BroadcastsInDim S1x128 (![1] : Fin 1 → Fin S1x128.rank))
    (x : S128.Idx → α) : shapeCast S1x128 x hc = broadcastInDim S1x128 ![1] hb x := row 128 hc hb x

/-- `[1]` reshaped to `[1, 1]` is `[1]` broadcast into `[1, 1]`. -/
theorem row1 (hc : S1.ShapeCasts S1x1) (hb : S1.BroadcastsInDim S1x1 (![1] : Fin 1 → Fin S1x1.rank))
    (x : S1.Idx → α) : shapeCast S1x1 x hc = broadcastInDim S1x1 ![1] hb x := row 1 hc hb x

/-- A transport of a value along an equation between a type of entries and itself is the value. -/
theorem transport_self {Val : EltTy → Type} {e : EltTy} (he : e = e) (v : Val e) : (he ▸ v : Val e) = v := rfl

/-- A vector reshaped to one row, its entries transported along an equation of their type with
    itself (the form a reshape's result takes), is the vector broadcast into one row. -/
theorem row_reshape {Val : EltTy → Type} {e : EltTy} (he : e = e) (C : Nat)
    (hc : (⟨1, ![C]⟩ : Shape).ShapeCasts ⟨2, ![1, C]⟩)
    (hb : (⟨1, ![C]⟩ : Shape).BroadcastsInDim ⟨2, ![1, C]⟩ (![1] : Fin 1 → Fin 2))
    (x : (⟨1, ![C]⟩ : Shape).Idx → Val e) :
    (fun i => (he ▸ shapeCast ⟨2, ![1, C]⟩ x hc i : Val e)) = broadcastInDim ⟨2, ![1, C]⟩ ![1] hb x :=
  row C hc hb x

/-- The reshape's-result form of `row64`. -/
theorem row64_reshape {Val : EltTy → Type} {e : EltTy} (he : e = e) (hc : S64.ShapeCasts S1x64)
    (hb : S64.BroadcastsInDim S1x64 (![1] : Fin 1 → Fin S1x64.rank)) (x : S64.Idx → Val e) :
    (fun i => (he ▸ shapeCast S1x64 x hc i : Val e)) = broadcastInDim S1x64 ![1] hb x := row 64 hc hb x

/-- The reshape's-result form of `row128`. -/
theorem row128_reshape {Val : EltTy → Type} {e : EltTy} (he : e = e) (hc : S128.ShapeCasts S1x128)
    (hb : S128.BroadcastsInDim S1x128 (![1] : Fin 1 → Fin S1x128.rank)) (x : S128.Idx → Val e) :
    (fun i => (he ▸ shapeCast S1x128 x hc i : Val e)) = broadcastInDim S1x128 ![1] hb x := row 128 hc hb x

/-- The reshape's-result form of `row1`. -/
theorem row1_reshape {Val : EltTy → Type} {e : EltTy} (he : e = e) (hc : S1.ShapeCasts S1x1)
    (hb : S1.BroadcastsInDim S1x1 (![1] : Fin 1 → Fin S1x1.rank)) (x : S1.Idx → Val e) :
    (fun i => (he ▸ shapeCast S1x1 x hc i : Val e)) = broadcastInDim S1x1 ![1] hb x := row 1 hc hb x

end Cert.SeamRow
-- ==== Proof.PreFinite.lean ====
/-
  The certificate's precondition says that a predicate computed from the argument arrays is 1:
  the conjunction, over the twenty-six float arguments, of "every entry has absolute value
  below +infinity". At the ideal instance an entry is an extended real, the absolute value of x
  is max x (-x), and the word 0x7F800000 denotes the top element; an extended real whose absolute
  value lies below the top element is neither the top nor the bottom element, hence a real
  number. This file reads the precondition back in that form: every entry of each float
  argument array is a real number.
-/
import proofs.«409037_j72164040508123_1_alg».proof.Defs
import proofs.«409037_j72164040508123_1_alg».proof.Proof.Gen.Pre_finite_inputs
import Idealize.ShloMosaic.Lib.ReduceAll
import proofs.«409037_j72164040508123_1_alg».proof.Proof.LibFinite

noncomputable section

namespace Cert.PreFin

open Idealize.ShloMosaic Idealize.SL.Sem

/-- The shape of a scalar: no axes, one index. -/
abbrev S0 : Shape := ⟨0, ![]⟩

/-- The one index of a scalar. -/
abbrev i0 : S0.Idx := fun a => a.elim0

/-- A scalar has exactly one index. -/
instance : Subsingleton S0.Idx := ⟨fun a b => funext fun d => d.elim0⟩

/-- The word of +infinity denotes the top element of the extended reals. -/
theorem inf_eq_top : Ideal.ofBits .f32 0x7F800000#32 = (⊤ : EReal) := by
  simp [Ideal.ofBits, Ideal.ieee]

/-- An extended real whose absolute value is below the top element is a real number:
    the top element has absolute value top, and so has the bottom element. -/
theorem real_of_abs_lt_top (x : EReal) (h : max x (-x) < ⊤) : ∃ r : ℝ, x = (r : EReal) := by
  induction x using EReal.rec with
  | bot => simp at h
  | coe r => exact ⟨r, rfl⟩
  | top => simp at h

/-- A truth value that reads as the word 1 is true. -/
theorem ofBool_eq_one {b : Bool} (h : BitVec.ofBool b = 1#1) : b = true := by
  cases b
  · exact absurd h (by decide)
  · rfl

/-- One conjunct of the precondition, read back: if the conjunction over all indices of
    |x i| < +infinity is 1, every entry of x is a real number. -/
theorem allFin_of_all {S : Shape} {axes : List (Fin S.rank)} (x : FVec Ideal S .f32)
    (bc : S0.BroadcastsInDim S (![] : Fin 0 → Fin S.rank)) (hr : S.ReducesTo axes S0) (hu : 0 < S0.numel)
    (init : IVec S0 1) (j : S0.Idx)
    (e : Host.reduce IntOp.andi (cmpf .olt (Host.absf x) (broadcastInDim S ![] bc (constant (F := Ideal) S0 .f32 0x7F800000#32))) init hr hu j = 1#1) :
    Cert.Lib.AllFin x := by
  intro i
  have h := Host.reduce_andi_all _ init hr hu j e i
  apply real_of_abs_lt_top
  have h2 : BitVec.ofBool (decide (max (x i) (-(x i)) < Ideal.ofBits .f32 0x7F800000#32)) = 1#1 := h
  rw [inf_eq_top] at h2
  exact of_decide_eq_true (ofBool_eq_one h2)

variable [Cert.Pre_finite_inputs.Facts]
variable (m : (ℓ : Loc Cert.KernelIdeal.nD Cert.KernelIdeal.τ Cert.KernelIdeal.sig) → Buf (Elt Ideal) ℓ)

/-- The precondition, split into its twenty-six conjuncts, each read back. -/
theorem fin_all (h : Cert.Pre_KernelIdeal m) (c : Dev Cert.KernelIdeal.nD) :
    Cert.Lib.AllFin (m ((c.tc : Thread Cert.KernelIdeal.nD Cert.KernelIdeal.τ).loc Cert.KernelIdeal.main_arg0))
    ∧ Cert.Lib.AllFin (m ((c.tc : Thread Cert.KernelIdeal.nD Cert.KernelIdeal.τ).loc Cert.KernelIdeal.main_arg1))
    ∧ Cert.Lib.AllFin (m ((c.tc : Thread Cert.KernelIdeal.nD Cert.KernelIdeal.τ).loc Cert.KernelIdeal.main_arg2))
    ∧ Cert.Lib.AllFin (m ((c.tc : Thread Cert.KernelIdeal.nD Cert.KernelIdeal.τ).loc Cert.KernelIdeal.main_arg4))
    ∧ Cert.Lib.AllFin (m ((c.tc : Thread Cert.KernelIdeal.nD Cert.KernelIdeal.τ).loc Cert.KernelIdeal.main_arg5))
    ∧ Cert.Lib.AllFin (m ((c.tc : Thread Cert.KernelIdeal.nD Cert.KernelIdeal.τ).loc Cert.KernelIdeal.main_arg6))
    ∧ Cert.Lib.AllFin (m ((c.tc : Thread Cert.KernelIdeal.nD Cert.KernelIdeal.τ).loc Cert.KernelIdeal.main_arg7))
    ∧ Cert.Lib.AllFin (m ((c.tc : Thread Cert.KernelIdeal.nD Cert.KernelIdeal.τ).loc Cert.KernelIdeal.main_arg8))
    ∧ Cert.Lib.AllFin (m ((c.tc : Thread Cert.KernelIdeal.nD Cert.KernelIdeal.τ).loc Cert.KernelIdeal.main_arg9))
    ∧ Cert.Lib.AllFin (m ((c.tc : Thread Cert.KernelIdeal.nD Cert.KernelIdeal.τ).loc Cert.KernelIdeal.main_arg10))
    ∧ Cert.Lib.AllFin (m ((c.tc : Thread Cert.KernelIdeal.nD Cert.KernelIdeal.τ).loc Cert.KernelIdeal.main_arg11))
    ∧ Cert.Lib.AllFin (m ((c.tc : Thread Cert.KernelIdeal.nD Cert.KernelIdeal.τ).loc Cert.KernelIdeal.main_arg12))
    ∧ Cert.Lib.AllFin (m ((c.tc : Thread Cert.KernelIdeal.nD Cert.KernelIdeal.τ).loc Cert.KernelIdeal.main_arg13))
    ∧ Cert.Lib.AllFin (m ((c.tc : Thread Cert.KernelIdeal.nD Cert.KernelIdeal.τ).loc Cert.KernelIdeal.main_arg14))
    ∧ Cert.Lib.AllFin (m ((c.tc : Thread Cert.KernelIdeal.nD Cert.KernelIdeal.τ).loc Cert.KernelIdeal.main_arg15))
    ∧ Cert.Lib.AllFin (m ((c.tc : Thread Cert.KernelIdeal.nD Cert.KernelIdeal.τ).loc Cert.KernelIdeal.main_arg16))
    ∧ Cert.Lib.AllFin (m ((c.tc : Thread Cert.KernelIdeal.nD Cert.KernelIdeal.τ).loc Cert.KernelIdeal.main_arg17))
    ∧ Cert.Lib.AllFin (m ((c.tc : Thread Cert.KernelIdeal.nD Cert.KernelIdeal.τ).loc Cert.KernelIdeal.main_arg18))
    ∧ Cert.Lib.AllFin (m ((c.tc : Thread Cert.KernelIdeal.nD Cert.KernelIdeal.τ).loc Cert.KernelIdeal.main_arg19))
    ∧ Cert.Lib.AllFin (m ((c.tc : Thread Cert.KernelIdeal.nD Cert.KernelIdeal.τ).loc Cert.KernelIdeal.main_arg20))
    ∧ Cert.Lib.AllFin (m ((c.tc : Thread Cert.KernelIdeal.nD Cert.KernelIdeal.τ).loc Cert.KernelIdeal.main_arg21))
    ∧ Cert.Lib.AllFin (m ((c.tc : Thread Cert.KernelIdeal.nD Cert.KernelIdeal.τ).loc Cert.KernelIdeal.main_arg22))
    ∧ Cert.Lib.AllFin (m ((c.tc : Thread Cert.KernelIdeal.nD Cert.KernelIdeal.τ).loc Cert.KernelIdeal.main_arg23))
    ∧ Cert.Lib.AllFin (m ((c.tc : Thread Cert.KernelIdeal.nD Cert.KernelIdeal.τ).loc Cert.KernelIdeal.main_arg24))
    ∧ Cert.Lib.AllFin (m ((c.tc : Thread Cert.KernelIdeal.nD Cert.KernelIdeal.τ).loc Cert.KernelIdeal.main_arg25))
    ∧ Cert.Lib.AllFin (m ((c.tc : Thread Cert.KernelIdeal.nD Cert.KernelIdeal.τ).loc Cert.KernelIdeal.main_arg26)) := by
  have e := congrFun (h c) i0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7, andi] at e
  obtain ⟨e, e26⟩ := IntOp.andi_eq_one.1 e
  obtain ⟨e, e25⟩ := IntOp.andi_eq_one.1 e
  obtain ⟨e, e24⟩ := IntOp.andi_eq_one.1 e
  obtain ⟨e, e23⟩ := IntOp.andi_eq_one.1 e
  obtain ⟨e, e22⟩ := IntOp.andi_eq_one.1 e
  obtain ⟨e, e21⟩ := IntOp.andi_eq_one.1 e
  obtain ⟨e, e20⟩ := IntOp.andi_eq_one.1 e
  obtain ⟨e, e19⟩ := IntOp.andi_eq_one.1 e
  obtain ⟨e, e18⟩ := IntOp.andi_eq_one.1 e
  obtain ⟨e, e17⟩ := IntOp.andi_eq_one.1 e
  obtain ⟨e, e16⟩ := IntOp.andi_eq_one.1 e
  obtain ⟨e, e15⟩ := IntOp.andi_eq_one.1 e
  obtain ⟨e, e14⟩ := IntOp.andi_eq_one.1 e
  obtain ⟨e, e13⟩ := IntOp.andi_eq_one.1 e
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e2⟩ := IntOp.andi_eq_one.1 e
  obtain ⟨e0, e1⟩ := IntOp.andi_eq_one.1 e
  exact ⟨allFin_of_all _ _ _ _ _ _ e0,
    allFin_of_all _ _ _ _ _ _ e1,
    allFin_of_all _ _ _ _ _ _ e2,
    allFin_of_all _ _ _ _ _ _ e4,
    allFin_of_all _ _ _ _ _ _ e5,
    allFin_of_all _ _ _ _ _ _ e6,
    allFin_of_all _ _ _ _ _ _ e7,
    allFin_of_all _ _ _ _ _ _ e8,
    allFin_of_all _ _ _ _ _ _ e9,
    allFin_of_all _ _ _ _ _ _ e10,
    allFin_of_all _ _ _ _ _ _ e11,
    allFin_of_all _ _ _ _ _ _ e12,
    allFin_of_all _ _ _ _ _ _ e13,
    allFin_of_all _ _ _ _ _ _ e14,
    allFin_of_all _ _ _ _ _ _ e15,
    allFin_of_all _ _ _ _ _ _ e16,
    allFin_of_all _ _ _ _ _ _ e17,
    allFin_of_all _ _ _ _ _ _ e18,
    allFin_of_all _ _ _ _ _ _ e19,
    allFin_of_all _ _ _ _ _ _ e20,
    allFin_of_all _ _ _ _ _ _ e21,
    allFin_of_all _ _ _ _ _ _ e22,
    allFin_of_all _ _ _ _ _ _ e23,
    allFin_of_all _ _ _ _ _ _ e24,
    allFin_of_all _ _ _ _ _ _ e25,
    allFin_of_all _ _ _ _ _ _ e26⟩

/-- Every entry of argument 0 is a real number. -/
theorem fin_arg0 (h : Cert.Pre_KernelIdeal m) (c : Dev Cert.KernelIdeal.nD) :
    Cert.Lib.AllFin (m ((c.tc : Thread Cert.KernelIdeal.nD Cert.KernelIdeal.τ).loc Cert.KernelIdeal.main_arg0)) :=
  (fin_all m h c).1

/-- Every entry of argument 1 is a real number. -/
theorem fin_arg1 (h : Cert.Pre_KernelIdeal m) (c : Dev Cert.KernelIdeal.nD) :
    Cert.Lib.AllFin (m ((c.tc : Thread Cert.KernelIdeal.nD Cert.KernelIdeal.τ).loc Cert.KernelIdeal.main_arg1)) :=
  (fin_all m h c).2.1

/-- Every entry of argument 2 is a real number. -/
theorem fin_arg2 (h : Cert.Pre_KernelIdeal m) (c : Dev Cert.KernelIdeal.nD) :
    Cert.Lib.AllFin (m ((c.tc : Thread Cert.KernelIdeal.nD Cert.KernelIdeal.τ).loc Cert.KernelIdeal.main_arg2)) :=
  (fin_all m h c).2.2.1

/-- Every entry of argument 4 is a real number. -/
theorem fin_arg4 (h : Cert.Pre_KernelIdeal m) (c : Dev Cert.KernelIdeal.nD) :
    Cert.Lib.AllFin (m ((c.tc : Thread Cert.KernelIdeal.nD Cert.KernelIdeal.τ).loc Cert.KernelIdeal.main_arg4)) :=
  (fin_all m h c).2.2.2.1

/-- Every entry of argument 5 is a real number. -/
theorem fin_arg5 (h : Cert.Pre_KernelIdeal m) (c : Dev Cert.KernelIdeal.nD) :
    Cert.Lib.AllFin (m ((c.tc : Thread Cert.KernelIdeal.nD Cert.KernelIdeal.τ).loc Cert.KernelIdeal.main_arg5)) :=
  (fin_all m h c).2.2.2.2.1

/-- Every entry of argument 6 is a real number. -/
theorem fin_arg6 (h : Cert.Pre_KernelIdeal m) (c : Dev Cert.KernelIdeal.nD) :
    Cert.Lib.AllFin (m ((c.tc : Thread Cert.KernelIdeal.nD Cert.KernelIdeal.τ).loc Cert.KernelIdeal.main_arg6)) :=
  (fin_all m h c).2.2.2.2.2.1

/-- Every entry of argument 7 is a real number. -/
theorem fin_arg7 (h : Cert.Pre_KernelIdeal m) (c : Dev Cert.KernelIdeal.nD) :
    Cert.Lib.AllFin (m ((c.tc : Thread Cert.KernelIdeal.nD Cert.KernelIdeal.τ).loc Cert.KernelIdeal.main_arg7)) :=
  (fin_all m h c).2.2.2.2.2.2.1

/-- Every entry of argument 8 is a real number. -/
theorem fin_arg8 (h : Cert.Pre_KernelIdeal m) (c : Dev Cert.KernelIdeal.nD) :
    Cert.Lib.AllFin (m ((c.tc : Thread Cert.KernelIdeal.nD Cert.KernelIdeal.τ).loc Cert.KernelIdeal.main_arg8)) :=
  (fin_all m h c).2.2.2.2.2.2.2.1

/-- Every entry of argument 9 is a real number. -/
theorem fin_arg9 (h : Cert.Pre_KernelIdeal m) (c : Dev Cert.KernelIdeal.nD) :
    Cert.Lib.AllFin (m ((c.tc : Thread Cert.KernelIdeal.nD Cert.KernelIdeal.τ).loc Cert.KernelIdeal.main_arg9)) :=
  (fin_all m h c).2.2.2.2.2.2.2.2.1

/-- Every entry of argument 10 is a real number. -/
theorem fin_arg10 (h : Cert.Pre_KernelIdeal m) (c : Dev Cert.KernelIdeal.nD) :
    Cert.Lib.AllFin (m ((c.tc : Thread Cert.KernelIdeal.nD Cert.KernelIdeal.τ).loc Cert.KernelIdeal.main_arg10)) :=
  (fin_all m h c).2.2.2.2.2.2.2.2.2.1

/-- Every entry of argument 11 is a real number. -/
theorem fin_arg11 (h : Cert.Pre_KernelIdeal m) (c : Dev Cert.KernelIdeal.nD) :
    Cert.Lib.AllFin (m ((c.tc : Thread Cert.KernelIdeal.nD Cert.KernelIdeal.τ).loc Cert.KernelIdeal.main_arg11)) :=
  (fin_all m h c).2.2.2.2.2.2.2.2.2.2.1

/-- Every entry of argument 12 is a real number. -/
theorem fin_arg12 (h : Cert.Pre_KernelIdeal m) (c : Dev Cert.KernelIdeal.nD) :
    Cert.Lib.AllFin (m ((c.tc : Thread Cert.KernelIdeal.nD Cert.KernelIdeal.τ).loc Cert.KernelIdeal.main_arg12)) :=
  (fin_all m h c).2.2.2.2.2.2.2.2.2.2.2.1

/-- Every entry of argument 13 is a real number. -/
theorem fin_arg13 (h : Cert.Pre_KernelIdeal m) (c : Dev Cert.KernelIdeal.nD) :
    Cert.Lib.AllFin (m ((c.tc : Thread Cert.KernelIdeal.nD Cert.KernelIdeal.τ).loc Cert.KernelIdeal.main_arg13)) :=
  (fin_all m h c).2.2.2.2.2.2.2.2.2.2.2.2.1

/-- Every entry of argument 14 is a real number. -/
theorem fin_arg14 (h : Cert.Pre_KernelIdeal m) (c : Dev Cert.KernelIdeal.nD) :
    Cert.Lib.AllFin (m ((c.tc : Thread Cert.KernelIdeal.nD Cert.KernelIdeal.τ).loc Cert.KernelIdeal.main_arg14)) :=
  (fin_all m h c).2.2.2.2.2.2.2.2.2.2.2.2.2.1

/-- Every entry of argument 15 is a real number. -/
theorem fin_arg15 (h : Cert.Pre_KernelIdeal m) (c : Dev Cert.KernelIdeal.nD) :
    Cert.Lib.AllFin (m ((c.tc : Thread Cert.KernelIdeal.nD Cert.KernelIdeal.τ).loc Cert.KernelIdeal.main_arg15)) :=
  (fin_all m h c).2.2.2.2.2.2.2.2.2.2.2.2.2.2.1

/-- Every entry of argument 16 is a real number. -/
theorem fin_arg16 (h : Cert.Pre_KernelIdeal m) (c : Dev Cert.KernelIdeal.nD) :
    Cert.Lib.AllFin (m ((c.tc : Thread Cert.KernelIdeal.nD Cert.KernelIdeal.τ).loc Cert.KernelIdeal.main_arg16)) :=
  (fin_all m h c).2.2.2.2.2.2.2.2.2.2.2.2.2.2.2.1

/-- Every entry of argument 17 is a real number. -/
theorem fin_arg17 (h : Cert.Pre_KernelIdeal m) (c : Dev Cert.KernelIdeal.nD) :
    Cert.Lib.AllFin (m ((c.tc : Thread Cert.KernelIdeal.nD Cert.KernelIdeal.τ).loc Cert.KernelIdeal.main_arg17)) :=
  (fin_all m h c).2.2.2.2.2.2.2.2.2.2.2.2.2.2.2.2.1

/-- Every entry of argument 18 is a real number. -/
theorem fin_arg18 (h : Cert.Pre_KernelIdeal m) (c : Dev Cert.KernelIdeal.nD) :
    Cert.Lib.AllFin (m ((c.tc : Thread Cert.KernelIdeal.nD Cert.KernelIdeal.τ).loc Cert.KernelIdeal.main_arg18)) :=
  (fin_all m h c).2.2.2.2.2.2.2.2.2.2.2.2.2.2.2.2.2.1

/-- Every entry of argument 19 is a real number. -/
theorem fin_arg19 (h : Cert.Pre_KernelIdeal m) (c : Dev Cert.KernelIdeal.nD) :
    Cert.Lib.AllFin (m ((c.tc : Thread Cert.KernelIdeal.nD Cert.KernelIdeal.τ).loc Cert.KernelIdeal.main_arg19)) :=
  (fin_all m h c).2.2.2.2.2.2.2.2.2.2.2.2.2.2.2.2.2.2.1

/-- Every entry of argument 20 is a real number. -/
theorem fin_arg20 (h : Cert.Pre_KernelIdeal m) (c : Dev Cert.KernelIdeal.nD) :
    Cert.Lib.AllFin (m ((c.tc : Thread Cert.KernelIdeal.nD Cert.KernelIdeal.τ).loc Cert.KernelIdeal.main_arg20)) :=
  (fin_all m h c).2.2.2.2.2.2.2.2.2.2.2.2.2.2.2.2.2.2.2.1

/-- Every entry of argument 21 is a real number. -/
theorem fin_arg21 (h : Cert.Pre_KernelIdeal m) (c : Dev Cert.KernelIdeal.nD) :
    Cert.Lib.AllFin (m ((c.tc : Thread Cert.KernelIdeal.nD Cert.KernelIdeal.τ).loc Cert.KernelIdeal.main_arg21)) :=
  (fin_all m h c).2.2.2.2.2.2.2.2.2.2.2.2.2.2.2.2.2.2.2.2.1

/-- Every entry of argument 22 is a real number. -/
theorem fin_arg22 (h : Cert.Pre_KernelIdeal m) (c : Dev Cert.KernelIdeal.nD) :
    Cert.Lib.AllFin (m ((c.tc : Thread Cert.KernelIdeal.nD Cert.KernelIdeal.τ).loc Cert.KernelIdeal.main_arg22)) :=
  (fin_all m h c).2.2.2.2.2.2.2.2.2.2.2.2.2.2.2.2.2.2.2.2.2.1

/-- Every entry of argument 23 is a real number. -/
theorem fin_arg23 (h : Cert.Pre_KernelIdeal m) (c : Dev Cert.KernelIdeal.nD) :
    Cert.Lib.AllFin (m ((c.tc : Thread Cert.KernelIdeal.nD Cert.KernelIdeal.τ).loc Cert.KernelIdeal.main_arg23)) :=
  (fin_all m h c).2.2.2.2.2.2.2.2.2.2.2.2.2.2.2.2.2.2.2.2.2.2.1

/-- Every entry of argument 24 is a real number. -/
theorem fin_arg24 (h : Cert.Pre_KernelIdeal m) (c : Dev Cert.KernelIdeal.nD) :
    Cert.Lib.AllFin (m ((c.tc : Thread Cert.KernelIdeal.nD Cert.KernelIdeal.τ).loc Cert.KernelIdeal.main_arg24)) :=
  (fin_all m h c).2.2.2.2.2.2.2.2.2.2.2.2.2.2.2.2.2.2.2.2.2.2.2.1

/-- Every entry of argument 25 is a real number. -/
theorem fin_arg25 (h : Cert.Pre_KernelIdeal m) (c : Dev Cert.KernelIdeal.nD) :
    Cert.Lib.AllFin (m ((c.tc : Thread Cert.KernelIdeal.nD Cert.KernelIdeal.τ).loc Cert.KernelIdeal.main_arg25)) :=
  (fin_all m h c).2.2.2.2.2.2.2.2.2.2.2.2.2.2.2.2.2.2.2.2.2.2.2.2.1

/-- Every entry of argument 26 is a real number. -/
theorem fin_arg26 (h : Cert.Pre_KernelIdeal m) (c : Dev Cert.KernelIdeal.nD) :
    Cert.Lib.AllFin (m ((c.tc : Thread Cert.KernelIdeal.nD Cert.KernelIdeal.τ).loc Cert.KernelIdeal.main_arg26)) :=
  (fin_all m h c).2.2.2.2.2.2.2.2.2.2.2.2.2.2.2.2.2.2.2.2.2.2.2.2.2

end Cert.PreFin
-- ==== Proof.RegionEdge0.lean ====
import proofs.«409037_j72164040508123_1_alg».proof.Proof.FrameKernelIdeal
import proofs.«409037_j72164040508123_1_alg».proof.ReferenceIdeal
import Idealize.ShloMosaic.Lib.ValueIdx
import Idealize.ShloMosaic.Lib.Pipeline.Value
import Idealize.ShloMosaic.Lib.ValueLayout
import Idealize.ShloMosaic.Lib.KernelVsHost
import Idealize.ShloMosaic.Lib.StackMember
import Idealize.ShloMosaic.PureOps.Ideal.Laws

/-
  The edge-message region. Each of the 64 grid points takes 25000 rows of the gathered rows and of the edge features,
  the whole 16×64 weight and the 1×64 bias row, and stores, for its rows,
      max ((rows + features · weight) + bias, 0).
  Here that value is stated entry by entry as one function of the four arrays (`edgeMsg`): an entry depends on its own
  row of the gathered rows and of the edge features, on its column of the weight and on its entry of the bias row. The
  body's stored block is the block of `edgeMsg` of the arrays at the same rows; the 64 blocks cover the 1600000 rows;
  so after the region the output array is `edgeMsg` of the arrays as the region found them. The host's operations —
  a product with no accumulator, two additions, the bias row broadcast down the rows, the maximum with a broadcast
  zero — compute the same function, and the last theorem states the output array in that form. A sum into a zero
  accumulator is the sum (`0 + x = x`), so nothing here needs the entries to be finite.
-/

set_option maxRecDepth 16384

noncomputable section

open Idealize.ShloMosaic Idealize.ShloMosaic.ValueIdx Idealize.ShloMosaic.StackMember Idealize.ShloMosaic.TcCoe Idealize.SL.Sem
open Idealize.ShloMosaic.Pipeline (Dat)
open scoped BigOperators

namespace Cert.KernelIdeal.RegionVal

open Cert.KernelIdeal Cert.KernelIdeal.Gen Cert.KernelIdeal.GenP

namespace Edge0

/-- One entry of an edge message: row `r` of the gathered rows plus row `r` of the edge features times the weight,
    plus the bias row, clamped below at zero. -/
def edgeMsgAt {M : Nat} (xs : (⟨2, ![M, 64]⟩ : Shape).Idx → EReal) (ea : (⟨2, ![M, 16]⟩ : Shape).Idx → EReal)
    (W : (⟨2, ![16, 64]⟩ : Shape).Idx → EReal) (b : (⟨2, ![1, 64]⟩ : Shape).Idx → EReal) (r : Fin M) (q : Fin 64) : EReal :=
  max ((xs (ix2 r q) + ∑ k : Fin 16, ea (ix2 r k) * W (ix2 k q)) + b (ix2 (0 : Fin 1) q)) 0

/-- The edge messages as one array of `M` rows. -/
def edgeMsg {M : Nat} (xs : (⟨2, ![M, 64]⟩ : Shape).Idx → EReal) (ea : (⟨2, ![M, 16]⟩ : Shape).Idx → EReal)
    (W : (⟨2, ![16, 64]⟩ : Shape).Idx → EReal) (b : (⟨2, ![1, 64]⟩ : Shape).Idx → EReal) : (⟨2, ![M, 64]⟩ : Shape).Idx → EReal :=
  fun i => edgeMsgAt xs ea W b (i 0) (i 1)

theorem edgeMsg_ix2 {M : Nat} (xs : (⟨2, ![M, 64]⟩ : Shape).Idx → EReal) (ea : (⟨2, ![M, 16]⟩ : Shape).Idx → EReal)
    (W : (⟨2, ![16, 64]⟩ : Shape).Idx → EReal) (b : (⟨2, ![1, 64]⟩ : Shape).Idx → EReal) (r : Fin M) (q : Fin 64) :
    edgeMsg xs ea W b (ix2 r q) = edgeMsgAt xs ea W b r q := rfl

/-- The host's form of the edge messages — add the product, add the broadcast bias row, take the maximum with a
    broadcast zero — is `edgeMsg`, whatever the number of rows. -/
theorem hostForm_eq_edgeMsg {M : Nat} (D : DotDims ⟨2, ![M, 16]⟩ ⟨2, ![16, 64]⟩ ⟨2, ![M, 64]⟩) (hD : D = DotDims.plain M 16 64)
    (h01 : (⟨2, ![1, 64]⟩ : Shape).BroadcastsInDim ⟨2, ![M, 64]⟩ ![0, 1])
    (h0 : (⟨0, ![]⟩ : Shape).BroadcastsInDim ⟨2, ![M, 64]⟩ ![])
    (xs : FVec Ideal ⟨2, ![M, 64]⟩ .f32) (ea : FVec Ideal ⟨2, ![M, 16]⟩ .f32)
    (W : FVec Ideal ⟨2, ![16, 64]⟩ .f32) (b : FVec Ideal ⟨2, ![1, 64]⟩ .f32) :
    maximumf (addf (addf xs (Host.dotGeneral D none ea W)) (broadcastInDim ⟨2, ![M, 64]⟩ ![0, 1] h01 b))
        (broadcastInDim ⟨2, ![M, 64]⟩ ![] h0 (constant (F := Ideal) ⟨0, ![]⟩ .f32 0x00000000#32))
      = edgeMsg xs ea W b := by
  subst hD
  funext i
  obtain ⟨r, q, rfl⟩ : ∃ (r : Fin M) (q : Fin 64), i = ix2 r q := ⟨i 0, i 1, eq_ix2 i⟩
  rw [edgeMsg_ix2, maximumf_apply, addf_apply, addf_apply, dotGeneral_plain_apply, broadcastInDim_oneRow_apply,
    broadcastInDim_constant, broadcast_apply]
  show max _ (Ideal.ofBits .f32 0x00000000#32) = _
  rw [Ideal.ofBits_zero_f32]
  rfl

/-- The kernel's form on a block of `M` rows — the product accumulated into a zero splat, added to the rows, the one
    bias row broadcast down the rows and added, the maximum with a zero splat — at one entry. -/
theorem kernelForm_apply {M : Nat} (D : DotDims ⟨2, ![M, 16]⟩ ⟨2, ![16, 64]⟩ ⟨2, ![M, 64]⟩) (hD : D = DotDims.plain M 16 64)
    (hb : (⟨2, ![1, 64]⟩ : Shape).Broadcasts ⟨2, ![M, 64]⟩)
    (xs : FVec Ideal ⟨2, ![M, 64]⟩ .f32) (ea : FVec Ideal ⟨2, ![M, 16]⟩ .f32)
    (W : FVec Ideal ⟨2, ![16, 64]⟩ .f32) (b : FVec Ideal ⟨2, ![1, 64]⟩ .f32) (r : Fin M) (q : Fin 64) :
    maximumf (addf (addf xs (matmul D none ea W (constant ⟨2, ![M, 64]⟩ .f32 0x00000000#32))) (broadcastTo ⟨2, ![M, 64]⟩ b hb))
        (broadcast ⟨2, ![M, 64]⟩ (Scalar.ofBits (F := Ideal) .f32 0x00000000#32)) (ix2 r q)
      = edgeMsgAt xs ea W b r q := by
  subst hD
  rw [maximumf_apply, addf_apply, addf_apply, matmul_zero_eq_dotGeneral, dotGeneral_plain_apply, broadcastTo_1b_ab_apply,
    broadcast_apply]
  show max _ (Ideal.ofBits .f32 0x00000000#32) = _
  rw [Ideal.ofBits_zero_f32]
  rfl

/-- The block product's dimension numbers are the plain rows-by-columns ones. -/
theorem blockDot_eq : dot_S25000x16_S16x64_S25000x64_1_0_0_1_n_n = DotDims.plain 25000 16 64 := rfl

/-- So are the whole-array product's. -/
theorem hostDot_eq [Cert.ReferenceIdeal.Facts₀] :
    Cert.ReferenceIdeal.dot_S1600000x16_S16x64_S1600000x64_1_0_0_1_n_n = DotDims.plain 1600000 16 64 := rfl

/-- The body's stored value at one entry of its block, from the four blocks it loads. -/
theorem payload_apply (v0 : Vec Ideal S25000x16 .f32) (v1 : Vec Ideal S16x64 .f32) (v4 : Vec Ideal S25000x64 .f32)
    (v7 : Vec Ideal S1x64 .f32) (r : Fin 25000) (q : Fin 64) :
    k0_pay1 (F := Ideal) v0 v1 v4 v7 (ix2 r q) = edgeMsgAt v4 v0 v1 v7 r q := by
  unfold k0_pay1
  simp only [shapeCast_self]
  exact kernelForm_apply _ blockDot_eq _ v4 v0 v1 v7 r q

/-! ## From blocks to the array -/

theorem hz : (![0, 0] : Fin 2 → Nat) = fun _ => 0 := funext fun a => by fin_cases a <;> rfl

/-- The index maps over the grid: point `t` takes block `t` of the rows of the gathered rows, the edge features and
    the result, and the one block of the weight and of the bias row. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A block of 25000 rows that starts at row `n * 25000`: the body's value at an entry is the edge message of the row of
    the arrays that the entry's row came from. -/
theorem block_value (n : Nat)
    (x0 : Vec Ideal S25000x64 .f32) (x1 : Vec Ideal S25000x16 .f32) (x2 : Vec Ideal S16x64 .f32) (x3 : Vec Ideal S1x64 .f32)
    (XS : Vec Ideal S1600000x64 .f32) (EA : Vec Ideal S1600000x16 .f32) (W : Vec Ideal S16x64 .f32) (B : Vec Ideal S1x64 .f32)
    (h0 : ∀ (y : S25000x64.Idx) (i : S1600000x64.Idx), (i 0).val = n * 25000 + (y 0).val → (i 1).val = (y 1).val → x0 y = XS i)
    (h1 : ∀ (y : S25000x16.Idx) (i : S1600000x16.Idx), (i 0).val = n * 25000 + (y 0).val → (i 1).val = (y 1).val → x1 y = EA i)
    (h2 : x2 = W) (h3 : x3 = B)
    (j : S25000x64.Idx) (i : S1600000x64.Idx) (hi0 : (i 0).val = n * 25000 + (j 0).val) (hi1 : (i 1).val = (j 1).val) :
    k0_pay1 (F := Ideal) x1 x2 x0 x3 j = edgeMsg XS EA W B i := by
  subst h2 h3
  obtain ⟨r, q, rfl⟩ : ∃ (r : Fin 25000) (q : Fin 64), j = ix2 r q := ⟨j 0, j 1, eq_ix2 j⟩
  obtain ⟨r', q', rfl⟩ : ∃ (r' : Fin 1600000) (q' : Fin 64), i = ix2 r' q' := ⟨i 0, i 1, eq_ix2 i⟩
  have hr : r'.val = n * 25000 + r.val := hi0
  obtain rfl : q' = q := Fin.ext hi1
  have e0 : x0 (ix2 r q') = XS (ix2 r' q') := h0 (ix2 r q') (ix2 r' q') hr rfl
  have e1 : ∀ k : Fin 16, x1 (ix2 r k) = EA (ix2 r' k) := fun k => h1 (ix2 r k) (ix2 r' k) hr rfl
  rw [payload_apply, edgeMsg_ix2]
  unfold edgeMsgAt
  simp only [e0, e1]

/-- An index of the result array is in point `t`'s block iff each coordinate is in the block's range on its axis. -/
theorem mem_blk (t : Fin cfg0.N) (i : S1600000x64.Idx) :
    i ∈ ((cfg0.win 4).blk t).view.set ↔ ∀ a : Fin 2, win0_4.index t a * S25000x64.size a ≤ (i a).val ∧ (i a).val < win0_4.index t a * S25000x64.size a + S25000x64.size a := by
  show i ∈ ((View.whole main_v16).slice (win0_4.rect t)).set ↔ _
  rw [View.set_slice_whole, Rect.mem_set_unit]
  exact Iff.rfl

/-- Every row of the result is in some point's block: row `r` in the block of point `r / 25000`. -/
theorem covered (i : S1600000x64.Idx) :
    ∃ t : Fin cfg0.N, (cfg0.win 4).flush t = true ∧ i ∈ ((cfg0.win 4).blk t).view.set := by
  have hi0 : (i 0).val < 1600000 := (i 0).isLt
  have hi1 : (i 1).val < 64 := (i 1).isLt
  have hN : cfg0.N = 64 := N_0
  let t : Fin cfg0.N := ⟨(i 0).val / 25000, by rw [hN]; omega⟩
  obtain ⟨-, -, -, -, -, -, -, -, e40, e41⟩ := idx_facts t
  have ht : t.val = (i 0).val / 25000 := rfl
  refine ⟨t, flush0_4 t, ?_⟩
  rw [mem_blk]
  intro a
  match a with
  | ⟨0, _⟩ => show win0_4.index t (0 : Fin 2) * 25000 ≤ (i 0).val ∧ (i 0).val < win0_4.index t (0 : Fin 2) * 25000 + 25000; omega
  | ⟨1, _⟩ => show win0_4.index t (1 : Fin 2) * 64 ≤ (i 1).val ∧ (i 1).val < win0_4.index t (1 : Fin 2) * 64 + 64; omega

/-- The gathered rows' block at point `t` is rows `25000 t …` of the array. -/
theorem read_blk0 (t : Fin cfg0.N) (X : Vec Ideal S1600000x64 .f32) (y : S25000x64.Idx) (i : S1600000x64.Idx)
    (hi0 : (i 0).val = t.val * 25000 + (y 0).val) (hi1 : (i 1).val = (y 1).val) :
    ((cfg0.win 0).blk t).view.read (Elt Ideal) X y = X i := by
  obtain ⟨e00, e01, -⟩ := idx_facts t
  show X (((cfg0.win 0).blk t).view.emb y) = X i
  refine congrArg X (funext fun a => Fin.ext ?_)
  match a with
  | ⟨0, _⟩ => show win0_0.index t (0 : Fin 2) * 25000 + 1 * (y 0).val = (i 0).val; omega
  | ⟨1, _⟩ => show win0_0.index t (1 : Fin 2) * 64 + 1 * (y 1).val = (i 1).val; omega

/-- The edge features' block at point `t` is rows `25000 t …` of the array. -/
theorem read_blk1 (t : Fin cfg0.N) (X : Vec Ideal S1600000x16 .f32) (y : S25000x16.Idx) (i : S1600000x16.Idx)
    (hi0 : (i 0).val = t.val * 25000 + (y 0).val) (hi1 : (i 1).val = (y 1).val) :
    ((cfg0.win 1).blk t).view.read (Elt Ideal) X y = X i := by
  obtain ⟨-, -, e10, e11, -⟩ := idx_facts t
  show X (((cfg0.win 1).blk t).view.emb y) = X i
  refine congrArg X (funext fun a => Fin.ext ?_)
  match a with
  | ⟨0, _⟩ => show win0_1.index t (0 : Fin 2) * 25000 + 1 * (y 0).val = (i 0).val; omega
  | ⟨1, _⟩ => show win0_1.index t (1 : Fin 2) * 16 + 1 * (y 1).val = (i 1).val; omega

/-- The weight's one block is the weight. -/
theorem read_blk2 (t : Fin cfg0.N) (X : Vec Ideal S16x64 .f32) :
    ((cfg0.win 2).blk t).view.read (Elt Ideal) X = X := by
  obtain ⟨-, -, -, -, e20, e21, -⟩ := idx_facts t
  funext y
  show X (((cfg0.win 2).blk t).view.emb y) = X y
  refine congrArg X (funext fun a => Fin.ext ?_)
  match a with
  | ⟨0, _⟩ => show win0_2.index t (0 : Fin 2) * 16 + 1 * (y 0).val = (y 0).val; omega
  | ⟨1, _⟩ => show win0_2.index t (1 : Fin 2) * 64 + 1 * (y 1).val = (y 1).val; omega

/-- The bias row's one block is the bias row. -/
theorem read_blk3 (t : Fin cfg0.N) (X : Vec Ideal S1x64 .f32) :
    ((cfg0.win 3).blk t).view.read (Elt Ideal) X = X := by
  obtain ⟨-, -, -, -, -, -, e30, e31, -⟩ := idx_facts t
  funext y
  show X (((cfg0.win 3).blk t).view.emb y) = X y
  refine congrArg X (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-! ## The region's output array -/

variable (V : (c : Dev nD) → (b : Ref sig .tc) → Buf (Elt Ideal) ((c : Thread nD τ).loc b))

/-- Which array each window stages. -/
theorem arrRef_0 : Pipeline.arrRef spec0 0 = main_v10 := rfl
theorem arrRef_1 : Pipeline.arrRef spec0 1 = main_arg1 := rfl
theorem arrRef_2 : Pipeline.arrRef spec0 2 = main_v12 := rfl
theorem arrRef_3 : Pipeline.arrRef spec0 3 = main_v15 := rfl
theorem arrRef_4 : Pipeline.arrRef spec0 4 = main_v16 := rfl

/-- The four arrays the region reads, as it finds them: the gathered rows, the edge features, the weight, the bias row. -/
abbrev gatheredRows (c : Dev nD) : Vec Ideal S1600000x64 .f32 := V c main_v10
abbrev edgeFeatures (c : Dev nD) : Vec Ideal S1600000x16 .f32 := V c main_arg1
abbrev weight (c : Dev nD) : Vec Ideal S16x64 .f32 := V c main_v12
abbrev biasRow (c : Dev nD) : Vec Ideal S1x64 .f32 := V c main_v15

/-- What point `t` writes back is block `t` of the edge messages of the four arrays. -/
theorem flushed_eq (c : Dev nD) (t : Fin cfg0.N) :
    (dat0 V c).flushed 4 t = ((cfg0.win 4).blk t).view.read (Elt Ideal)
      (edgeMsg (gatheredRows V c) (edgeFeatures V c) (weight V c) (biasRow V c)) := by
  show (cfg0.win 4).cut (grid0.coords t) ((dat0 V c).after 4 t) = _
  rw [after0_4]
  unfold out0_4
  rw [View.canon_unit_zero hz]
  simp only [View.ld_unit_zero (S := S25000x64) hz, View.ld_unit_zero (S := S25000x16) hz,
    View.ld_unit_zero (S := S16x64) hz, View.ld_unit_zero (S := S1x64) hz]
  obtain ⟨-, -, -, -, -, -, -, -, e40, e41⟩ := idx_facts t
  funext j
  show k0_pay1 (F := Ideal) (iblk0 V c 1 t) (iblk0 V c 2 t) (iblk0 V c 0 t) (iblk0 V c 3 t) j
      = edgeMsg (gatheredRows V c) (edgeFeatures V c) (weight V c) (biasRow V c) (((cfg0.win 4).blk t).view.emb j)
  refine block_value t.val (iblk0 V c 0 t) (iblk0 V c 1 t) (iblk0 V c 2 t) (iblk0 V c 3 t)
    (gatheredRows V c) (edgeFeatures V c) (weight V c) (biasRow V c)
    (fun y i h0 h1 => read_blk0 t (gatheredRows V c) y i h0 h1)
    (fun y i h0 h1 => read_blk1 t (edgeFeatures V c) y i h0 h1)
    (read_blk2 t (weight V c)) (read_blk3 t (biasRow V c)) j _ ?_ ?_
  · show win0_4.index t (0 : Fin 2) * 25000 + 1 * (j 0).val = t.val * 25000 + (j 0).val
    omega
  · show win0_4.index t (1 : Fin 2) * 64 + 1 * (j 1).val = (j 1).val
    omega

/-- After the region the output array holds the edge messages of the four arrays. -/
theorem region0_edgeMsg (c : Dev nD) :
    (dat0 V c).arrAt 4 cfg0.N = edgeMsg (gatheredRows V c) (edgeFeatures V c) (weight V c) (biasRow V c) :=
  (dat0 V c).arrAt_eq_of_cover 4 _ (fun t _ => flushed_eq V c t) covered

end Edge0

variable (V : (c : Dev nD) → (b : Ref sig .tc) → Buf (Elt Ideal) ((c : Thread nD τ).loc b))

/-- After the region the output array is what the host's operations compute from the four arrays: the gathered rows plus
    the edge features times the weight, plus the bias row broadcast down the rows, the maximum with zero. -/
theorem region0_value [Cert.ReferenceIdeal.Facts₀] (c : Dev nD)
    (h01 : Cert.ReferenceIdeal.S1x64.BroadcastsInDim Cert.ReferenceIdeal.S1600000x64 ![0, 1])
    (h0 : Cert.ReferenceIdeal.S_.BroadcastsInDim Cert.ReferenceIdeal.S1600000x64 ![]) :
    (dat0 V c).arrAt 4 cfg0.N
      = maximumf (F := Ideal) (s := Cert.ReferenceIdeal.S1600000x64) (φ := .f32)
          (addf (F := Ideal) (s := Cert.ReferenceIdeal.S1600000x64) (φ := .f32)
            (addf (F := Ideal) (s := Cert.ReferenceIdeal.S1600000x64) (φ := .f32) (V c main_v10)
              (Host.dotGeneral (F := Ideal) (φ₁ := .f32) (φ₂ := .f32) Cert.ReferenceIdeal.dot_S1600000x16_S16x64_S1600000x64_1_0_0_1_n_n none
                (V c main_arg1) (V c main_v12)))
            (broadcastInDim (s := Cert.ReferenceIdeal.S1x64) (α := Ideal .f32) Cert.ReferenceIdeal.S1600000x64 ![0, 1] h01 (V c main_v15)))
          (broadcastInDim Cert.ReferenceIdeal.S1600000x64 ![] h0 (constant (F := Ideal) Cert.ReferenceIdeal.S_ .f32 0x00000000#32)) :=
  (Edge0.region0_edgeMsg V c).trans
    (Edge0.hostForm_eq_edgeMsg _ Edge0.hostDot_eq h01 h0 (Edge0.gatheredRows V c) (Edge0.edgeFeatures V c) (Edge0.weight V c) (Edge0.biasRow V c)).symm

end Cert.KernelIdeal.RegionVal

end
-- ==== Proof.RegionDense1.lean ====
import proofs.«409037_j72164040508123_1_alg».proof.Proof.FrameKernelIdeal
import proofs.«409037_j72164040508123_1_alg».proof.ReferenceIdeal
import Idealize.ShloMosaic.Lib.ValueIdx
import Idealize.ShloMosaic.Lib.Pipeline.Value
import Idealize.ShloMosaic.Lib.ValueLayout
import Idealize.ShloMosaic.PureOps.Ideal.Laws

/-! # Region 1, a dense layer: the value of its output array

The body of region 1 computes, block of 10000 rows by block, `out = h · W + bias`: the product of the activations
`h : [100000, 64]` with the weight `W : [64, 64]`, plus the bias row `[1, 64]` laid along every row. The ten blocks
tile the output array, so after the region the array holds that function of the three input arrays at every index;
and the host's `dot_general`, `broadcast_in_dim` and `add` of the same three arrays are the same function. -/

noncomputable section

namespace Cert.KernelIdeal.RegionVal

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx
open scoped BigOperators

/-! ## The dense layer, index by index -/

/-- Entry `(p, q)` of `h · W + bias`: row `p` of `h` against column `q` of `W`, summed over the 64 inner
    positions, plus entry `q` of the bias row. -/
def dense_R1 (h : Vec Ideal S100000x64 .f32) (W : Vec Ideal S64x64 .f32) (b : Vec Ideal S1x64 .f32) : Vec Ideal S100000x64 .f32 :=
  fun i => (∑ k : Fin 64, h (ix2 (i 0 : Fin 100000) k) * W (ix2 k (i 1 : Fin 64))) + b (ix2 (0 : Fin 1) (i 1 : Fin 64))

theorem dense_R1_apply (h : Vec Ideal S100000x64 .f32) (W : Vec Ideal S64x64 .f32) (b : Vec Ideal S1x64 .f32) (p : Fin 100000) (q : Fin 64) :
    dense_R1 h W b (ix2 p q) = (∑ k : Fin 64, h (ix2 p k) * W (ix2 k q)) + b (ix2 (0 : Fin 1) q) := rfl

/-! ## The host's operations are that function -/

section Reference
variable [Cert.ReferenceIdeal.Facts₀]

/-- The host product's left operand index: the output's row on axis 0. -/
theorem lhs_ref_R1_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch from List.not_mem_nil), dif_pos (show (0 : Fin Cert.ReferenceIdeal.S100000x64.rank) ∈ Cert.ReferenceIdeal.dot_S100000x64_S64x64_S100000x64_1_0_0_1_n_n.lhsNonContracting from List.mem_singleton.mpr rfl)]
  rfl
/-- The host product's left operand index: the inner position on axis 1. -/
theorem lhs_ref_R1_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, Nat.one_pos⟩).val :=
  Cert.ReferenceIdeal.dot_S100000x64_S64x64_S100000x64_1_0_0_1_n_n.lhsIdx_val_of_single rfl i q
/-- The host product's right operand index: the inner position on axis 0. -/
theorem rhs_ref_R1_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, Nat.one_pos⟩).val :=
  Cert.ReferenceIdeal.dot_S100000x64_S64x64_S100000x64_1_0_0_1_n_n.rhsIdx_val_of_single rfl i q
/-- The host product's right operand index: the output's column on axis 1. -/
theorem rhs_ref_R1_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch from List.not_mem_nil), dif_pos (show (1 : Fin Cert.ReferenceIdeal.S64x64.rank) ∈ Cert.ReferenceIdeal.dot_S100000x64_S64x64_S100000x64_1_0_0_1_n_n.rhsNonContracting from List.mem_singleton.mpr rfl)]
  rfl

/-- The host's `dot_general` at entry `(p, q)`: the sum over the inner position of `h (p, k) * W (k, q)`. -/
theorem ref_dot_apply_R1 (h : Vec Ideal S100000x64 .f32) (W : Vec Ideal S64x64 .f32) (p : Fin 100000) (q : Fin 64) :
    Host.dotGeneral (F := Ideal) (φ₁ := .f32) (φ₂ := .f32) Cert.ReferenceIdeal.dot_S100000x64_S64x64_S100000x64_1_0_0_1_n_n none h W (ix2 p q)
      = ∑ k : Fin 64, h (ix2 p k) * W (ix2 k q) := by
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 p q) ((contrEquiv1 Cert.ReferenceIdeal.dot_S100000x64_S64x64_S100000x64_1_0_0_1_n_n 64 rfl rfl).symm k) = ix2 p k := funext fun a => Fin.ext (by
    match a with
    | ⟨0, _⟩ => exact lhs_ref_R1_0 _ _
    | ⟨1, _⟩ => exact (lhs_ref_R1_1 _ _).trans hk)
  have er : Cert.ReferenceIdeal.dot_S100000x64_S64x64_S100000x64_1_0_0_1_n_n.rhsIdx (ix2 p q) ((contrEquiv1 Cert.ReferenceIdeal.dot_S100000x64_S64x64_S100000x64_1_0_0_1_n_n 64 rfl rfl).symm k) = ix2 k q := funext fun a => Fin.ext (by
    match a with
    | ⟨0, _⟩ => exact (rhs_ref_R1_0 _ _).trans hk
    | ⟨1, _⟩ => exact rhs_ref_R1_1 _ _)
  rw [el, er]

/-- The host's `broadcast_in_dim` of the bias row at entry `(p, q)`: entry `q` of the row. -/
theorem ref_bias_apply_R1 (b : Vec Ideal S1x64 .f32)
    (h01 : Cert.ReferenceIdeal.S1x64.BroadcastsInDim Cert.ReferenceIdeal.S100000x64 (![0, 1] : Fin 2 → Fin Cert.ReferenceIdeal.S100000x64.rank))
    (p : Fin 100000) (q : Fin 64) :
    broadcastInDim Cert.ReferenceIdeal.S100000x64 ![0, 1] h01 b (ix2 p q) = b (ix2 (0 : Fin 1) q) :=
  broadcastInDim_apply ![0, 1] h01 b (ix2 p q) (ix2 (0 : Fin 1) q) (by
    intro a
    match a with
    | ⟨0, _⟩ => rfl
    | ⟨1, _⟩ =>
      show q.val = if (64 : ℕ) = 1 then 0 else q.val
      have hq := q.isLt
      split <;> omega)

/-- The host's three operations — the product, the bias row laid along the rows, their sum — are the dense layer. -/
theorem reference_form_eq_dense_R1 (h : Vec Ideal S100000x64 .f32) (W : Vec Ideal S64x64 .f32) (b : Vec Ideal S1x64 .f32)
    (h01 : Cert.ReferenceIdeal.S1x64.BroadcastsInDim Cert.ReferenceIdeal.S100000x64 (![0, 1] : Fin 2 → Fin Cert.ReferenceIdeal.S100000x64.rank)) :
    addf (Host.dotGeneral (F := Ideal) (φ₁ := .f32) (φ₂ := .f32) Cert.ReferenceIdeal.dot_S100000x64_S64x64_S100000x64_1_0_0_1_n_n none h W)
        (broadcastInDim Cert.ReferenceIdeal.S100000x64 ![0, 1] h01 b)
      = dense_R1 h W b := by
  funext i
  obtain ⟨p, q, rfl⟩ : ∃ (p : Fin 100000) (q : Fin 64), i = ix2 p q := ⟨i 0, i 1, eq_ix2 i⟩
  rw [addf_apply, ref_dot_apply_R1, ref_bias_apply_R1, dense_R1_apply]

end Reference

/-! ## The body's payload, read at an index -/

/-- The block product's left operand index: the output's row on axis 0. -/
theorem lhs_blk_R1_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch from List.not_mem_nil), dif_pos (show (0 : Fin S10000x64.rank) ∈ dot_S10000x64_S64x64_S10000x64_1_0_0_1_n_n.lhsNonContracting from List.mem_singleton.mpr rfl)]
  rfl
/-- The block product's left operand index: the inner position on axis 1. -/
theorem lhs_blk_R1_1 (i : S10000x64.Idx) (q : dot_S10000x64_S64x64_S10000x64_1_0_0_1_n_n.contr.Idx) :
    (dot_S10000x64_S64x64_S10000x64_1_0_0_1_n_n.lhsIdx i q 1).val = (q ⟨0, Nat.one_pos⟩).val :=
  dot_S10000x64_S64x64_S10000x64_1_0_0_1_n_n.lhsIdx_val_of_single rfl i q
/-- The block product's right operand index: the inner position on axis 0. -/
theorem rhs_blk_R1_0 (i : S10000x64.Idx) (q : dot_S10000x64_S64x64_S10000x64_1_0_0_1_n_n.contr.Idx) :
    (dot_S10000x64_S64x64_S10000x64_1_0_0_1_n_n.rhsIdx i q 0).val = (q ⟨0, Nat.one_pos⟩).val :=
  dot_S10000x64_S64x64_S10000x64_1_0_0_1_n_n.rhsIdx_val_of_single rfl i q
/-- The block product's right operand index: the output's column on axis 1. -/
theorem rhs_blk_R1_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch from List.not_mem_nil), dif_pos (show (1 : Fin S64x64.rank) ∈ dot_S10000x64_S64x64_S10000x64_1_0_0_1_n_n.rhsNonContracting from List.mem_singleton.mpr rfl)]
  rfl

/-- The block product into the zero accumulator at entry `(p, q)`: the sum over the inner position of `x (p, k) * W (k, q)`. -/
theorem blk_matmul_apply_R1 (x : Vec Ideal S10000x64 .f32) (W : Vec Ideal S64x64 .f32) (p : Fin 10000) (q : Fin 64) :
    FloatOps.matmul (F := Ideal) (φ₁ := .f32) (φ₂ := .f32) dot_S10000x64_S64x64_S10000x64_1_0_0_1_n_n none x W (constant (F := Ideal) S10000x64 .f32 0x00000000#32) (ix2 p q)
      = ∑ k : Fin 64, x (ix2 p k) * W (ix2 k q) := by
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_blk_R1_0 _ _
    | ⟨1, _⟩ => exact (lhs_blk_R1_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_blk_R1_0 _ _).trans hk
    | ⟨1, _⟩ => exact rhs_blk_R1_1 _ _)
  rw [el, er]

/-- The bias row laid along the block's rows, at entry `(p, q)`: entry `q` of the row. -/
theorem blk_bias_apply_R1 (b : Vec Ideal S1x64 .f32) (hb : S1x64.Broadcasts S10000x64) (p : Fin 10000) (q : Fin 64) :
    broadcastTo S10000x64 b hb (ix2 p q) = b (ix2 (0 : Fin 1) q) :=
  broadcastTo_apply b hb (ix2 p q) (ix2 (0 : Fin 1) q) (by
    intro a
    match a with
    | ⟨0, _⟩ => rfl
    | ⟨1, _⟩ =>
      show q.val = if (64 : ℕ) = 1 then 0 else q.val
      have hq := q.isLt
      split <;> omega)

/-- The body's payload at entry `(p, q)` of the block: row `p` of the block of `h` against column `q` of `W`, plus
    entry `q` of the bias row. -/
theorem payload_apply_R1 (x0 : Vec Ideal S10000x64 .f32) (x1 : Vec Ideal S64x64 .f32) (x2 : Vec Ideal S1x64 .f32) (p : Fin 10000) (q : Fin 64) :
    k1_pay1 x0 x1 x2 (ix2 p q) = (∑ k : Fin 64, x0 (ix2 p k) * x1 (ix2 k q)) + x2 (ix2 (0 : Fin 1) q) := by
  unfold k1_pay1
  simp only [shapeCast_self, matmul]
  rw [addf_apply, blk_matmul_apply_R1, blk_bias_apply_R1]

/-- The payload of a block of rows is the dense layer at the block's place in the array: when `x0` holds row
    `i 0` of `h` in its row `p`, `x1` is `W` down column `i 1 = q`, and `x2` is the bias at that column. -/
theorem payload_eq_dense_R1 (x0 : Vec Ideal S10000x64 .f32) (x1 : Vec Ideal S64x64 .f32) (x2 : Vec Ideal S1x64 .f32)
    (h : Vec Ideal S100000x64 .f32) (W : Vec Ideal S64x64 .f32) (b : Vec Ideal S1x64 .f32)
    (p : Fin 10000) (q : Fin 64) (i : S100000x64.Idx)
    (h0 : ∀ k : Fin 64, x0 (ix2 p k) = h (ix2 (i 0 : Fin 100000) k))
    (h1 : ∀ k : Fin 64, x1 (ix2 k q) = W (ix2 k (i 1 : Fin 64)))
    (h2 : x2 (ix2 (0 : Fin 1) q) = b (ix2 (0 : Fin 1) (i 1 : Fin 64))) :
    k1_pay1 x0 x1 x2 (ix2 p q) = dense_R1 h W b i := by
  rw [payload_apply_R1, h2]
  exact congrArg (· + b (ix2 (0 : Fin 1) (i 1 : Fin 64))) (Finset.sum_congr rfl fun k _ => by rw [h0 k, h1 k])

/-! ## From the blocks to the array -/

section Blocks
variable (V : (c : Dev nD) → (b : Ref sig .tc) → Buf (Elt Ideal) ((c : Thread nD τ).loc b))

theorem zero_offset_R1 : (![0, 0] : Fin 2 → Nat) = fun _ => 0 := funext fun a => by fin_cases a <;> rfl

/-- The printed index maps, decided over the grid: the block of `h` moves with the output's block down the rows,
    the weight and the bias row are whole at every point, and point `t` writes block `t`. -/
theorem index_maps_R1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) ≤ 9
    ∧ win1_3.index t (1 : Fin 2) = 0 :=
  (by decide +kernel : ∀ t : Fin grid1.N, _)

/-- Every block of rows is some point's. -/
theorem index_onto_R1 : ∀ q0 : Fin 10, ∃ t : Fin cfg1.N, win1_3.index t = ![q0.val, 0] :=
  (by decide +kernel : ∀ q0 : Fin 10, ∃ t : Fin grid1.N, win1_3.index t = ![q0.val, 0])

/-- What point `t` writes back is block `t` of the dense layer of the three arrays as the region finds them. -/
theorem flushed_eq_R1 (c : Dev nD) (t : Fin cfg1.N) :
    (dat1 V c).flushed 3 t
      = ((cfg1.win 3).blk t).view.read (Elt Ideal) (dense_R1 (V c main_v25) (V c main_v27) (V c main_v30)) := by
  show (cfg1.win 3).cut (grid1.coords t) ((dat1 V c).after 3 t) = _
  rw [after1_3]
  unfold out1_3
  rw [View.canon_unit_zero zero_offset_R1]
  simp only [View.ld_unit_zero (S := S10000x64) zero_offset_R1, View.ld_unit_zero (S := S64x64) zero_offset_R1, View.ld_unit_zero (S := S1x64) zero_offset_R1]
  obtain ⟨e0, e1, e2, e3, e4, e5, e6, e7⟩ := index_maps_R1 t
  funext j
  obtain ⟨p, q, rfl⟩ : ∃ (p : Fin 10000) (q : Fin 64), j = ix2 p q := ⟨j 0, j 1, eq_ix2 j⟩
  show k1_pay1 (iblk1 V c 0 t) (iblk1 V c 1 t) (iblk1 V c 2 t) (ix2 p q)
      = dense_R1 (V c main_v25) (V c main_v27) (V c main_v30) (((cfg1.win 3).blk t).view.emb (ix2 p q))
  refine payload_eq_dense_R1 (iblk1 V c 0 t) (iblk1 V c 1 t) (iblk1 V c 2 t) (V c main_v25) (V c main_v27) (V c main_v30) p q
    (((cfg1.win 3).blk t).view.emb (ix2 p q)) ?_ ?_ ?_
  · intro k
    show V c main_v25 (((cfg1.win 0).blk t).view.emb (ix2 p k)) = V c main_v25 _
    refine congrArg (V c main_v25) (funext fun a => Fin.ext ?_)
    match a with
    | ⟨0, _⟩ => show win1_0.index t (0 : Fin 2) * 10000 + 1 * p.val = win1_3.index t (0 : Fin 2) * 10000 + 1 * p.val; omega
    | ⟨1, _⟩ => show win1_0.index t (1 : Fin 2) * 64 + 1 * k.val = k.val; omega
  · intro k
    show V c main_v27 (((cfg1.win 1).blk t).view.emb (ix2 k q)) = V c main_v27 _
    refine congrArg (V c main_v27) (funext fun a => Fin.ext ?_)
    match a with
    | ⟨0, _⟩ => show win1_1.index t (0 : Fin 2) * 64 + 1 * k.val = k.val; omega
    | ⟨1, _⟩ => show win1_1.index t (1 : Fin 2) * 64 + 1 * q.val = win1_3.index t (1 : Fin 2) * 64 + 1 * q.val; omega
  · show V c main_v30 (((cfg1.win 2).blk t).view.emb (ix2 (0 : Fin 1) q)) = V c main_v30 _
    refine congrArg (V c main_v30) (funext fun a => Fin.ext ?_)
    match a with
    | ⟨0, _⟩ => show win1_2.index t (0 : Fin 2) * 1 + 1 * 0 = 0; omega
    | ⟨1, _⟩ => show win1_2.index t (1 : Fin 2) * 64 + 1 * q.val = win1_3.index t (1 : Fin 2) * 64 + 1 * q.val; omega

/-- An index of the array is in point `t`'s block iff each coordinate is in the block's range on its axis. -/
theorem mem_blk_R1 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v31).slice (win1_3.rect t)).set ↔ _
  rw [View.set_slice_whole, Rect.mem_set_unit]
  exact Iff.rfl

/-- The ten blocks of rows tile the array: row `r` is in the block of point `r / 10000`. -/
theorem covered_R1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := index_onto_R1 ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk_R1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The output array after region 1 is the dense layer of the three input arrays as the region finds them. -/
theorem region1_dense (c : Dev nD) :
    (dat1 V c).arrAt 3 cfg1.N = dense_R1 (V c main_v25) (V c main_v27) (V c main_v30) :=
  (dat1 V c).arrAt_eq_of_cover 3 (dense_R1 (V c main_v25) (V c main_v27) (V c main_v30)) (fun t _ => flushed_eq_R1 V c t) (fun i => covered_R1 i)

/-- THE VALUE of region 1: its output array after the region is what the host's `dot_general`, `broadcast_in_dim` and
    `add` make of the three input arrays as the region finds them. -/
theorem region1_value [Cert.ReferenceIdeal.Facts₀] (c : Dev nD)
    (h01 : Cert.ReferenceIdeal.S1x64.BroadcastsInDim Cert.ReferenceIdeal.S100000x64 (![0, 1] : Fin 2 → Fin Cert.ReferenceIdeal.S100000x64.rank)) :
    (dat1 V c).arrAt 3 cfg1.N
      = addf (Host.dotGeneral (F := Ideal) (φ₁ := .f32) (φ₂ := .f32) Cert.ReferenceIdeal.dot_S100000x64_S64x64_S100000x64_1_0_0_1_n_n none (V c main_v25) (V c main_v27))
          (broadcastInDim Cert.ReferenceIdeal.S100000x64 ![0, 1] h01 (V c main_v30)) :=
  (region1_dense V c).trans (reference_form_eq_dense_R1 (V c main_v25) (V c main_v27) (V c main_v30) h01).symm

end Blocks

end Cert.KernelIdeal.RegionVal

end
-- ==== Proof.RegionDense2.lean ====
import proofs.«409037_j72164040508123_1_alg».proof.Proof.FrameKernelIdeal
import proofs.«409037_j72164040508123_1_alg».proof.ReferenceIdeal
import Idealize.ShloMosaic.Lib.ValueIdx
import Idealize.ShloMosaic.Lib.Pipeline.Value
import Idealize.ShloMosaic.Lib.ValueLayout
import Idealize.ShloMosaic.PureOps.Ideal.Laws

/-! # Region 2, a dense layer: the value of its output array

The body of region 2 computes, block of 10000 rows by block, `out = h · W + bias`: the product of the activations
`h : [100000, 64]` with the weight `W : [64, 64]`, plus the bias row `[1, 64]` laid along every row. The ten blocks
tile the output array, so after the region the array holds that function of the three input arrays at every index;
and the host's `dot_general`, `broadcast_in_dim` and `add` of the same three arrays are the same function. -/

noncomputable section

namespace Cert.KernelIdeal.RegionVal

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx
open scoped BigOperators

/-! ## The dense layer, index by index -/

/-- Entry `(p, q)` of `h · W + bias`: row `p` of `h` against column `q` of `W`, summed over the 64 inner
    positions, plus entry `q` of the bias row. -/
def dense_R2 (h : Vec Ideal S100000x64 .f32) (W : Vec Ideal S64x64 .f32) (b : Vec Ideal S1x64 .f32) : Vec Ideal S100000x64 .f32 :=
  fun i => (∑ k : Fin 64, h (ix2 (i 0 : Fin 100000) k) * W (ix2 k (i 1 : Fin 64))) + b (ix2 (0 : Fin 1) (i 1 : Fin 64))

theorem dense_R2_apply (h : Vec Ideal S100000x64 .f32) (W : Vec Ideal S64x64 .f32) (b : Vec Ideal S1x64 .f32) (p : Fin 100000) (q : Fin 64) :
    dense_R2 h W b (ix2 p q) = (∑ k : Fin 64, h (ix2 p k) * W (ix2 k q)) + b (ix2 (0 : Fin 1) q) := rfl

/-! ## The host's operations are that function -/

section Reference
variable [Cert.ReferenceIdeal.Facts₀]

/-- The host product's left operand index: the output's row on axis 0. -/
theorem lhs_ref_R2_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch from List.not_mem_nil), dif_pos (show (0 : Fin Cert.ReferenceIdeal.S100000x64.rank) ∈ Cert.ReferenceIdeal.dot_S100000x64_S64x64_S100000x64_1_0_0_1_n_n.lhsNonContracting from List.mem_singleton.mpr rfl)]
  rfl
/-- The host product's left operand index: the inner position on axis 1. -/
theorem lhs_ref_R2_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, Nat.one_pos⟩).val :=
  Cert.ReferenceIdeal.dot_S100000x64_S64x64_S100000x64_1_0_0_1_n_n.lhsIdx_val_of_single rfl i q
/-- The host product's right operand index: the inner position on axis 0. -/
theorem rhs_ref_R2_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, Nat.one_pos⟩).val :=
  Cert.ReferenceIdeal.dot_S100000x64_S64x64_S100000x64_1_0_0_1_n_n.rhsIdx_val_of_single rfl i q
/-- The host product's right operand index: the output's column on axis 1. -/
theorem rhs_ref_R2_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch from List.not_mem_nil), dif_pos (show (1 : Fin Cert.ReferenceIdeal.S64x64.rank) ∈ Cert.ReferenceIdeal.dot_S100000x64_S64x64_S100000x64_1_0_0_1_n_n.rhsNonContracting from List.mem_singleton.mpr rfl)]
  rfl

/-- The host's `dot_general` at entry `(p, q)`: the sum over the inner position of `h (p, k) * W (k, q)`. -/
theorem ref_dot_apply_R2 (h : Vec Ideal S100000x64 .f32) (W : Vec Ideal S64x64 .f32) (p : Fin 100000) (q : Fin 64) :
    Host.dotGeneral (F := Ideal) (φ₁ := .f32) (φ₂ := .f32) Cert.ReferenceIdeal.dot_S100000x64_S64x64_S100000x64_1_0_0_1_n_n none h W (ix2 p q)
      = ∑ k : Fin 64, h (ix2 p k) * W (ix2 k q) := by
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 p q) ((contrEquiv1 Cert.ReferenceIdeal.dot_S100000x64_S64x64_S100000x64_1_0_0_1_n_n 64 rfl rfl).symm k) = ix2 p k := funext fun a => Fin.ext (by
    match a with
    | ⟨0, _⟩ => exact lhs_ref_R2_0 _ _
    | ⟨1, _⟩ => exact (lhs_ref_R2_1 _ _).trans hk)
  have er : Cert.ReferenceIdeal.dot_S100000x64_S64x64_S100000x64_1_0_0_1_n_n.rhsIdx (ix2 p q) ((contrEquiv1 Cert.ReferenceIdeal.dot_S100000x64_S64x64_S100000x64_1_0_0_1_n_n 64 rfl rfl).symm k) = ix2 k q := funext fun a => Fin.ext (by
    match a with
    | ⟨0, _⟩ => exact (rhs_ref_R2_0 _ _).trans hk
    | ⟨1, _⟩ => exact rhs_ref_R2_1 _ _)
  rw [el, er]

/-- The host's `broadcast_in_dim` of the bias row at entry `(p, q)`: entry `q` of the row. -/
theorem ref_bias_apply_R2 (b : Vec Ideal S1x64 .f32)
    (h01 : Cert.ReferenceIdeal.S1x64.BroadcastsInDim Cert.ReferenceIdeal.S100000x64 (![0, 1] : Fin 2 → Fin Cert.ReferenceIdeal.S100000x64.rank))
    (p : Fin 100000) (q : Fin 64) :
    broadcastInDim Cert.ReferenceIdeal.S100000x64 ![0, 1] h01 b (ix2 p q) = b (ix2 (0 : Fin 1) q) :=
  broadcastInDim_apply ![0, 1] h01 b (ix2 p q) (ix2 (0 : Fin 1) q) (by
    intro a
    match a with
    | ⟨0, _⟩ => rfl
    | ⟨1, _⟩ =>
      show q.val = if (64 : ℕ) = 1 then 0 else q.val
      have hq := q.isLt
      split <;> omega)

/-- The host's three operations — the product, the bias row laid along the rows, their sum — are the dense layer. -/
theorem reference_form_eq_dense_R2 (h : Vec Ideal S100000x64 .f32) (W : Vec Ideal S64x64 .f32) (b : Vec Ideal S1x64 .f32)
    (h01 : Cert.ReferenceIdeal.S1x64.BroadcastsInDim Cert.ReferenceIdeal.S100000x64 (![0, 1] : Fin 2 → Fin Cert.ReferenceIdeal.S100000x64.rank)) :
    addf (Host.dotGeneral (F := Ideal) (φ₁ := .f32) (φ₂ := .f32) Cert.ReferenceIdeal.dot_S100000x64_S64x64_S100000x64_1_0_0_1_n_n none h W)
        (broadcastInDim Cert.ReferenceIdeal.S100000x64 ![0, 1] h01 b)
      = dense_R2 h W b := by
  funext i
  obtain ⟨p, q, rfl⟩ : ∃ (p : Fin 100000) (q : Fin 64), i = ix2 p q := ⟨i 0, i 1, eq_ix2 i⟩
  rw [addf_apply, ref_dot_apply_R2, ref_bias_apply_R2, dense_R2_apply]

end Reference

/-! ## The body's payload, read at an index -/

/-- The block product's left operand index: the output's row on axis 0. -/
theorem lhs_blk_R2_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch from List.not_mem_nil), dif_pos (show (0 : Fin S10000x64.rank) ∈ dot_S10000x64_S64x64_S10000x64_1_0_0_1_n_n.lhsNonContracting from List.mem_singleton.mpr rfl)]
  rfl
/-- The block product's left operand index: the inner position on axis 1. -/
theorem lhs_blk_R2_1 (i : S10000x64.Idx) (q : dot_S10000x64_S64x64_S10000x64_1_0_0_1_n_n.contr.Idx) :
    (dot_S10000x64_S64x64_S10000x64_1_0_0_1_n_n.lhsIdx i q 1).val = (q ⟨0, Nat.one_pos⟩).val :=
  dot_S10000x64_S64x64_S10000x64_1_0_0_1_n_n.lhsIdx_val_of_single rfl i q
/-- The block product's right operand index: the inner position on axis 0. -/
theorem rhs_blk_R2_0 (i : S10000x64.Idx) (q : dot_S10000x64_S64x64_S10000x64_1_0_0_1_n_n.contr.Idx) :
    (dot_S10000x64_S64x64_S10000x64_1_0_0_1_n_n.rhsIdx i q 0).val = (q ⟨0, Nat.one_pos⟩).val :=
  dot_S10000x64_S64x64_S10000x64_1_0_0_1_n_n.rhsIdx_val_of_single rfl i q
/-- The block product's right operand index: the output's column on axis 1. -/
theorem rhs_blk_R2_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch from List.not_mem_nil), dif_pos (show (1 : Fin S64x64.rank) ∈ dot_S10000x64_S64x64_S10000x64_1_0_0_1_n_n.rhsNonContracting from List.mem_singleton.mpr rfl)]
  rfl

/-- The block product into the zero accumulator at entry `(p, q)`: the sum over the inner position of `x (p, k) * W (k, q)`. -/
theorem blk_matmul_apply_R2 (x : Vec Ideal S10000x64 .f32) (W : Vec Ideal S64x64 .f32) (p : Fin 10000) (q : Fin 64) :
    FloatOps.matmul (F := Ideal) (φ₁ := .f32) (φ₂ := .f32) dot_S10000x64_S64x64_S10000x64_1_0_0_1_n_n none x W (constant (F := Ideal) S10000x64 .f32 0x00000000#32) (ix2 p q)
      = ∑ k : Fin 64, x (ix2 p k) * W (ix2 k q) := by
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_blk_R2_0 _ _
    | ⟨1, _⟩ => exact (lhs_blk_R2_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_blk_R2_0 _ _).trans hk
    | ⟨1, _⟩ => exact rhs_blk_R2_1 _ _)
  rw [el, er]

/-- The bias row laid along the block's rows, at entry `(p, q)`: entry `q` of the row. -/
theorem blk_bias_apply_R2 (b : Vec Ideal S1x64 .f32) (hb : S1x64.Broadcasts S10000x64) (p : Fin 10000) (q : Fin 64) :
    broadcastTo S10000x64 b hb (ix2 p q) = b (ix2 (0 : Fin 1) q) :=
  broadcastTo_apply b hb (ix2 p q) (ix2 (0 : Fin 1) q) (by
    intro a
    match a with
    | ⟨0, _⟩ => rfl
    | ⟨1, _⟩ =>
      show q.val = if (64 : ℕ) = 1 then 0 else q.val
      have hq := q.isLt
      split <;> omega)

/-- The body's payload at entry `(p, q)` of the block: row `p` of the block of `h` against column `q` of `W`, plus
    entry `q` of the bias row. -/
theorem payload_apply_R2 (x0 : Vec Ideal S10000x64 .f32) (x1 : Vec Ideal S64x64 .f32) (x2 : Vec Ideal S1x64 .f32) (p : Fin 10000) (q : Fin 64) :
    k2_pay1 x0 x1 x2 (ix2 p q) = (∑ k : Fin 64, x0 (ix2 p k) * x1 (ix2 k q)) + x2 (ix2 (0 : Fin 1) q) := by
  unfold k2_pay1
  simp only [shapeCast_self, matmul]
  rw [addf_apply, blk_matmul_apply_R2, blk_bias_apply_R2]

/-- The payload of a block of rows is the dense layer at the block's place in the array: when `x0` holds row
    `i 0` of `h` in its row `p`, `x1` is `W` down column `i 1 = q`, and `x2` is the bias at that column. -/
theorem payload_eq_dense_R2 (x0 : Vec Ideal S10000x64 .f32) (x1 : Vec Ideal S64x64 .f32) (x2 : Vec Ideal S1x64 .f32)
    (h : Vec Ideal S100000x64 .f32) (W : Vec Ideal S64x64 .f32) (b : Vec Ideal S1x64 .f32)
    (p : Fin 10000) (q : Fin 64) (i : S100000x64.Idx)
    (h0 : ∀ k : Fin 64, x0 (ix2 p k) = h (ix2 (i 0 : Fin 100000) k))
    (h1 : ∀ k : Fin 64, x1 (ix2 k q) = W (ix2 k (i 1 : Fin 64)))
    (h2 : x2 (ix2 (0 : Fin 1) q) = b (ix2 (0 : Fin 1) (i 1 : Fin 64))) :
    k2_pay1 x0 x1 x2 (ix2 p q) = dense_R2 h W b i := by
  rw [payload_apply_R2, h2]
  exact congrArg (· + b (ix2 (0 : Fin 1) (i 1 : Fin 64))) (Finset.sum_congr rfl fun k _ => by rw [h0 k, h1 k])

/-! ## From the blocks to the array -/

section Blocks
variable (V : (c : Dev nD) → (b : Ref sig .tc) → Buf (Elt Ideal) ((c : Thread nD τ).loc b))

theorem zero_offset_R2 : (![0, 0] : Fin 2 → Nat) = fun _ => 0 := funext fun a => by fin_cases a <;> rfl

/-- The printed index maps, decided over the grid: the block of `h` moves with the output's block down the rows,
    the weight and the bias row are whole at every point, and point `t` writes block `t`. -/
theorem index_maps_R2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) ≤ 9
    ∧ win2_3.index t (1 : Fin 2) = 0 :=
  (by decide +kernel : ∀ t : Fin grid2.N, _)

/-- Every block of rows is some point's. -/
theorem index_onto_R2 : ∀ q0 : Fin 10, ∃ t : Fin cfg2.N, win2_3.index t = ![q0.val, 0] :=
  (by decide +kernel : ∀ q0 : Fin 10, ∃ t : Fin grid2.N, win2_3.index t = ![q0.val, 0])

/-- What point `t` writes back is block `t` of the dense layer of the three arrays as the region finds them. -/
theorem flushed_eq_R2 (c : Dev nD) (t : Fin cfg2.N) :
    (dat2 V c).flushed 3 t
      = ((cfg2.win 3).blk t).view.read (Elt Ideal) (dense_R2 (V c main_v56) (V c main_v58) (V c main_v61)) := by
  show (cfg2.win 3).cut (grid2.coords t) ((dat2 V c).after 3 t) = _
  rw [after2_3]
  unfold out2_3
  rw [View.canon_unit_zero zero_offset_R2]
  simp only [View.ld_unit_zero (S := S10000x64) zero_offset_R2, View.ld_unit_zero (S := S64x64) zero_offset_R2, View.ld_unit_zero (S := S1x64) zero_offset_R2]
  obtain ⟨e0, e1, e2, e3, e4, e5, e6, e7⟩ := index_maps_R2 t
  funext j
  obtain ⟨p, q, rfl⟩ : ∃ (p : Fin 10000) (q : Fin 64), j = ix2 p q := ⟨j 0, j 1, eq_ix2 j⟩
  show k2_pay1 (iblk2 V c 0 t) (iblk2 V c 1 t) (iblk2 V c 2 t) (ix2 p q)
      = dense_R2 (V c main_v56) (V c main_v58) (V c main_v61) (((cfg2.win 3).blk t).view.emb (ix2 p q))
  refine payload_eq_dense_R2 (iblk2 V c 0 t) (iblk2 V c 1 t) (iblk2 V c 2 t) (V c main_v56) (V c main_v58) (V c main_v61) p q
    (((cfg2.win 3).blk t).view.emb (ix2 p q)) ?_ ?_ ?_
  · intro k
    show V c main_v56 (((cfg2.win 0).blk t).view.emb (ix2 p k)) = V c main_v56 _
    refine congrArg (V c main_v56) (funext fun a => Fin.ext ?_)
    match a with
    | ⟨0, _⟩ => show win2_0.index t (0 : Fin 2) * 10000 + 1 * p.val = win2_3.index t (0 : Fin 2) * 10000 + 1 * p.val; omega
    | ⟨1, _⟩ => show win2_0.index t (1 : Fin 2) * 64 + 1 * k.val = k.val; omega
  · intro k
    show V c main_v58 (((cfg2.win 1).blk t).view.emb (ix2 k q)) = V c main_v58 _
    refine congrArg (V c main_v58) (funext fun a => Fin.ext ?_)
    match a with
    | ⟨0, _⟩ => show win2_1.index t (0 : Fin 2) * 64 + 1 * k.val = k.val; omega
    | ⟨1, _⟩ => show win2_1.index t (1 : Fin 2) * 64 + 1 * q.val = win2_3.index t (1 : Fin 2) * 64 + 1 * q.val; omega
  · show V c main_v61 (((cfg2.win 2).blk t).view.emb (ix2 (0 : Fin 1) q)) = V c main_v61 _
    refine congrArg (V c main_v61) (funext fun a => Fin.ext ?_)
    match a with
    | ⟨0, _⟩ => show win2_2.index t (0 : Fin 2) * 1 + 1 * 0 = 0; omega
    | ⟨1, _⟩ => show win2_2.index t (1 : Fin 2) * 64 + 1 * q.val = win2_3.index t (1 : Fin 2) * 64 + 1 * q.val; omega

/-- An index of the array is in point `t`'s block iff each coordinate is in the block's range on its axis. -/
theorem mem_blk_R2 (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v62).slice (win2_3.rect t)).set ↔ _
  rw [View.set_slice_whole, Rect.mem_set_unit]
  exact Iff.rfl

/-- The ten blocks of rows tile the array: row `r` is in the block of point `r / 10000`. -/
theorem covered_R2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := index_onto_R2 ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk_R2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- The output array after region 2 is the dense layer of the three input arrays as the region finds them. -/
theorem region2_dense (c : Dev nD) :
    (dat2 V c).arrAt 3 cfg2.N = dense_R2 (V c main_v56) (V c main_v58) (V c main_v61) :=
  (dat2 V c).arrAt_eq_of_cover 3 (dense_R2 (V c main_v56) (V c main_v58) (V c main_v61)) (fun t _ => flushed_eq_R2 V c t) (fun i => covered_R2 i)

/-- THE VALUE of region 2: its output array after the region is what the host's `dot_general`, `broadcast_in_dim` and
    `add` make of the three input arrays as the region finds them. -/
theorem region2_value [Cert.ReferenceIdeal.Facts₀] (c : Dev nD)
    (h01 : Cert.ReferenceIdeal.S1x64.BroadcastsInDim Cert.ReferenceIdeal.S100000x64 (![0, 1] : Fin 2 → Fin Cert.ReferenceIdeal.S100000x64.rank)) :
    (dat2 V c).arrAt 3 cfg2.N
      = addf (Host.dotGeneral (F := Ideal) (φ₁ := .f32) (φ₂ := .f32) Cert.ReferenceIdeal.dot_S100000x64_S64x64_S100000x64_1_0_0_1_n_n none (V c main_v56) (V c main_v58))
          (broadcastInDim Cert.ReferenceIdeal.S100000x64 ![0, 1] h01 (V c main_v61)) :=
  (region2_dense V c).trans (reference_form_eq_dense_R2 (V c main_v56) (V c main_v58) (V c main_v61) h01).symm

end Blocks

end Cert.KernelIdeal.RegionVal

end
-- ==== Proof.RegionEdge3.lean ====
import proofs.«409037_j72164040508123_1_alg».proof.Proof.FrameKernelIdeal
import proofs.«409037_j72164040508123_1_alg».proof.ReferenceIdeal
import Idealize.ShloMosaic.Lib.ValueIdx
import Idealize.ShloMosaic.Lib.Pipeline.Value
import Idealize.ShloMosaic.Lib.ValueLayout
import Idealize.ShloMosaic.Lib.KernelVsHost
import Idealize.ShloMosaic.Lib.StackMember
import Idealize.ShloMosaic.PureOps.Ideal.Laws

/-
  The edge-message region. Each of the 64 grid points takes 25000 rows of the gathered rows and of the edge features,
  the whole 16×64 weight and the 1×64 bias row, and stores, for its rows,
      max ((rows + features · weight) + bias, 0).
  Here that value is stated entry by entry as one function of the four arrays (`edgeMsg`): an entry depends on its own
  row of the gathered rows and of the edge features, on its column of the weight and on its entry of the bias row. The
  body's stored block is the block of `edgeMsg` of the arrays at the same rows; the 64 blocks cover the 1600000 rows;
  so after the region the output array is `edgeMsg` of the arrays as the region found them. The host's operations —
  a product with no accumulator, two additions, the bias row broadcast down the rows, the maximum with a broadcast
  zero — compute the same function, and the last theorem states the output array in that form. A sum into a zero
  accumulator is the sum (`0 + x = x`), so nothing here needs the entries to be finite.
-/

set_option maxRecDepth 16384

noncomputable section

open Idealize.ShloMosaic Idealize.ShloMosaic.ValueIdx Idealize.ShloMosaic.StackMember Idealize.ShloMosaic.TcCoe Idealize.SL.Sem
open Idealize.ShloMosaic.Pipeline (Dat)
open scoped BigOperators

namespace Cert.KernelIdeal.RegionVal

open Cert.KernelIdeal Cert.KernelIdeal.Gen Cert.KernelIdeal.GenP

namespace Edge3

/-- One entry of an edge message: row `r` of the gathered rows plus row `r` of the edge features times the weight,
    plus the bias row, clamped below at zero. -/
def edgeMsgAt {M : Nat} (xs : (⟨2, ![M, 64]⟩ : Shape).Idx → EReal) (ea : (⟨2, ![M, 16]⟩ : Shape).Idx → EReal)
    (W : (⟨2, ![16, 64]⟩ : Shape).Idx → EReal) (b : (⟨2, ![1, 64]⟩ : Shape).Idx → EReal) (r : Fin M) (q : Fin 64) : EReal :=
  max ((xs (ix2 r q) + ∑ k : Fin 16, ea (ix2 r k) * W (ix2 k q)) + b (ix2 (0 : Fin 1) q)) 0

/-- The edge messages as one array of `M` rows. -/
def edgeMsg {M : Nat} (xs : (⟨2, ![M, 64]⟩ : Shape).Idx → EReal) (ea : (⟨2, ![M, 16]⟩ : Shape).Idx → EReal)
    (W : (⟨2, ![16, 64]⟩ : Shape).Idx → EReal) (b : (⟨2, ![1, 64]⟩ : Shape).Idx → EReal) : (⟨2, ![M, 64]⟩ : Shape).Idx → EReal :=
  fun i => edgeMsgAt xs ea W b (i 0) (i 1)

theorem edgeMsg_ix2 {M : Nat} (xs : (⟨2, ![M, 64]⟩ : Shape).Idx → EReal) (ea : (⟨2, ![M, 16]⟩ : Shape).Idx → EReal)
    (W : (⟨2, ![16, 64]⟩ : Shape).Idx → EReal) (b : (⟨2, ![1, 64]⟩ : Shape).Idx → EReal) (r : Fin M) (q : Fin 64) :
    edgeMsg xs ea W b (ix2 r q) = edgeMsgAt xs ea W b r q := rfl

/-- The host's form of the edge messages — add the product, add the broadcast bias row, take the maximum with a
    broadcast zero — is `edgeMsg`, whatever the number of rows. -/
theorem hostForm_eq_edgeMsg {M : Nat} (D : DotDims ⟨2, ![M, 16]⟩ ⟨2, ![16, 64]⟩ ⟨2, ![M, 64]⟩) (hD : D = DotDims.plain M 16 64)
    (h01 : (⟨2, ![1, 64]⟩ : Shape).BroadcastsInDim ⟨2, ![M, 64]⟩ ![0, 1])
    (h0 : (⟨0, ![]⟩ : Shape).BroadcastsInDim ⟨2, ![M, 64]⟩ ![])
    (xs : FVec Ideal ⟨2, ![M, 64]⟩ .f32) (ea : FVec Ideal ⟨2, ![M, 16]⟩ .f32)
    (W : FVec Ideal ⟨2, ![16, 64]⟩ .f32) (b : FVec Ideal ⟨2, ![1, 64]⟩ .f32) :
    maximumf (addf (addf xs (Host.dotGeneral D none ea W)) (broadcastInDim ⟨2, ![M, 64]⟩ ![0, 1] h01 b))
        (broadcastInDim ⟨2, ![M, 64]⟩ ![] h0 (constant (F := Ideal) ⟨0, ![]⟩ .f32 0x00000000#32))
      = edgeMsg xs ea W b := by
  subst hD
  funext i
  obtain ⟨r, q, rfl⟩ : ∃ (r : Fin M) (q : Fin 64), i = ix2 r q := ⟨i 0, i 1, eq_ix2 i⟩
  rw [edgeMsg_ix2, maximumf_apply, addf_apply, addf_apply, dotGeneral_plain_apply, broadcastInDim_oneRow_apply,
    broadcastInDim_constant, broadcast_apply]
  show max _ (Ideal.ofBits .f32 0x00000000#32) = _
  rw [Ideal.ofBits_zero_f32]
  rfl

/-- The kernel's form on a block of `M` rows — the product accumulated into a zero splat, added to the rows, the one
    bias row broadcast down the rows and added, the maximum with a zero splat — at one entry. -/
theorem kernelForm_apply {M : Nat} (D : DotDims ⟨2, ![M, 16]⟩ ⟨2, ![16, 64]⟩ ⟨2, ![M, 64]⟩) (hD : D = DotDims.plain M 16 64)
    (hb : (⟨2, ![1, 64]⟩ : Shape).Broadcasts ⟨2, ![M, 64]⟩)
    (xs : FVec Ideal ⟨2, ![M, 64]⟩ .f32) (ea : FVec Ideal ⟨2, ![M, 16]⟩ .f32)
    (W : FVec Ideal ⟨2, ![16, 64]⟩ .f32) (b : FVec Ideal ⟨2, ![1, 64]⟩ .f32) (r : Fin M) (q : Fin 64) :
    maximumf (addf (addf xs (matmul D none ea W (constant ⟨2, ![M, 64]⟩ .f32 0x00000000#32))) (broadcastTo ⟨2, ![M, 64]⟩ b hb))
        (broadcast ⟨2, ![M, 64]⟩ (Scalar.ofBits (F := Ideal) .f32 0x00000000#32)) (ix2 r q)
      = edgeMsgAt xs ea W b r q := by
  subst hD
  rw [maximumf_apply, addf_apply, addf_apply, matmul_zero_eq_dotGeneral, dotGeneral_plain_apply, broadcastTo_1b_ab_apply,
    broadcast_apply]
  show max _ (Ideal.ofBits .f32 0x00000000#32) = _
  rw [Ideal.ofBits_zero_f32]
  rfl

/-- The block product's dimension numbers are the plain rows-by-columns ones. -/
theorem blockDot_eq : dot_S25000x16_S16x64_S25000x64_1_0_0_1_n_n = DotDims.plain 25000 16 64 := rfl

/-- So are the whole-array product's. -/
theorem hostDot_eq [Cert.ReferenceIdeal.Facts₀] :
    Cert.ReferenceIdeal.dot_S1600000x16_S16x64_S1600000x64_1_0_0_1_n_n = DotDims.plain 1600000 16 64 := rfl

/-- The body's stored value at one entry of its block, from the four blocks it loads. -/
theorem payload_apply (v0 : Vec Ideal S25000x16 .f32) (v1 : Vec Ideal S16x64 .f32) (v4 : Vec Ideal S25000x64 .f32)
    (v7 : Vec Ideal S1x64 .f32) (r : Fin 25000) (q : Fin 64) :
    k3_pay1 (F := Ideal) v0 v1 v4 v7 (ix2 r q) = edgeMsgAt v4 v0 v1 v7 r q := by
  unfold k3_pay1
  simp only [shapeCast_self]
  exact kernelForm_apply _ blockDot_eq _ v4 v0 v1 v7 r q

/-! ## From blocks to the array -/

theorem hz : (![0, 0] : Fin 2 → Nat) = fun _ => 0 := funext fun a => by fin_cases a <;> rfl

/-- The index maps over the grid: point `t` takes block `t` of the rows of the gathered rows, the edge features and
    the result, and the one block of the weight and of the bias row. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- A block of 25000 rows that starts at row `n * 25000`: the body's value at an entry is the edge message of the row of
    the arrays that the entry's row came from. -/
theorem block_value (n : Nat)
    (x0 : Vec Ideal S25000x64 .f32) (x1 : Vec Ideal S25000x16 .f32) (x2 : Vec Ideal S16x64 .f32) (x3 : Vec Ideal S1x64 .f32)
    (XS : Vec Ideal S1600000x64 .f32) (EA : Vec Ideal S1600000x16 .f32) (W : Vec Ideal S16x64 .f32) (B : Vec Ideal S1x64 .f32)
    (h0 : ∀ (y : S25000x64.Idx) (i : S1600000x64.Idx), (i 0).val = n * 25000 + (y 0).val → (i 1).val = (y 1).val → x0 y = XS i)
    (h1 : ∀ (y : S25000x16.Idx) (i : S1600000x16.Idx), (i 0).val = n * 25000 + (y 0).val → (i 1).val = (y 1).val → x1 y = EA i)
    (h2 : x2 = W) (h3 : x3 = B)
    (j : S25000x64.Idx) (i : S1600000x64.Idx) (hi0 : (i 0).val = n * 25000 + (j 0).val) (hi1 : (i 1).val = (j 1).val) :
    k3_pay1 (F := Ideal) x1 x2 x0 x3 j = edgeMsg XS EA W B i := by
  subst h2 h3
  obtain ⟨r, q, rfl⟩ : ∃ (r : Fin 25000) (q : Fin 64), j = ix2 r q := ⟨j 0, j 1, eq_ix2 j⟩
  obtain ⟨r', q', rfl⟩ : ∃ (r' : Fin 1600000) (q' : Fin 64), i = ix2 r' q' := ⟨i 0, i 1, eq_ix2 i⟩
  have hr : r'.val = n * 25000 + r.val := hi0
  obtain rfl : q' = q := Fin.ext hi1
  have e0 : x0 (ix2 r q') = XS (ix2 r' q') := h0 (ix2 r q') (ix2 r' q') hr rfl
  have e1 : ∀ k : Fin 16, x1 (ix2 r k) = EA (ix2 r' k) := fun k => h1 (ix2 r k) (ix2 r' k) hr rfl
  rw [payload_apply, edgeMsg_ix2]
  unfold edgeMsgAt
  simp only [e0, e1]

/-- An index of the result array is in point `t`'s block iff each coordinate is in the block's range on its axis. -/
theorem mem_blk (t : Fin cfg3.N) (i : S1600000x64.Idx) :
    i ∈ ((cfg3.win 4).blk t).view.set ↔ ∀ a : Fin 2, win3_4.index t a * S25000x64.size a ≤ (i a).val ∧ (i a).val < win3_4.index t a * S25000x64.size a + S25000x64.size a := by
  show i ∈ ((View.whole main_v100).slice (win3_4.rect t)).set ↔ _
  rw [View.set_slice_whole, Rect.mem_set_unit]
  exact Iff.rfl

/-- Every row of the result is in some point's block: row `r` in the block of point `r / 25000`. -/
theorem covered (i : S1600000x64.Idx) :
    ∃ t : Fin cfg3.N, (cfg3.win 4).flush t = true ∧ i ∈ ((cfg3.win 4).blk t).view.set := by
  have hi0 : (i 0).val < 1600000 := (i 0).isLt
  have hi1 : (i 1).val < 64 := (i 1).isLt
  have hN : cfg3.N = 64 := N_3
  let t : Fin cfg3.N := ⟨(i 0).val / 25000, by rw [hN]; omega⟩
  obtain ⟨-, -, -, -, -, -, -, -, e40, e41⟩ := idx_facts t
  have ht : t.val = (i 0).val / 25000 := rfl
  refine ⟨t, flush3_4 t, ?_⟩
  rw [mem_blk]
  intro a
  match a with
  | ⟨0, _⟩ => show win3_4.index t (0 : Fin 2) * 25000 ≤ (i 0).val ∧ (i 0).val < win3_4.index t (0 : Fin 2) * 25000 + 25000; omega
  | ⟨1, _⟩ => show win3_4.index t (1 : Fin 2) * 64 ≤ (i 1).val ∧ (i 1).val < win3_4.index t (1 : Fin 2) * 64 + 64; omega

/-- The gathered rows' block at point `t` is rows `25000 t …` of the array. -/
theorem read_blk0 (t : Fin cfg3.N) (X : Vec Ideal S1600000x64 .f32) (y : S25000x64.Idx) (i : S1600000x64.Idx)
    (hi0 : (i 0).val = t.val * 25000 + (y 0).val) (hi1 : (i 1).val = (y 1).val) :
    ((cfg3.win 0).blk t).view.read (Elt Ideal) X y = X i := by
  obtain ⟨e00, e01, -⟩ := idx_facts t
  show X (((cfg3.win 0).blk t).view.emb y) = X i
  refine congrArg X (funext fun a => Fin.ext ?_)
  match a with
  | ⟨0, _⟩ => show win3_0.index t (0 : Fin 2) * 25000 + 1 * (y 0).val = (i 0).val; omega
  | ⟨1, _⟩ => show win3_0.index t (1 : Fin 2) * 64 + 1 * (y 1).val = (i 1).val; omega

/-- The edge features' block at point `t` is rows `25000 t …` of the array. -/
theorem read_blk1 (t : Fin cfg3.N) (X : Vec Ideal S1600000x16 .f32) (y : S25000x16.Idx) (i : S1600000x16.Idx)
    (hi0 : (i 0).val = t.val * 25000 + (y 0).val) (hi1 : (i 1).val = (y 1).val) :
    ((cfg3.win 1).blk t).view.read (Elt Ideal) X y = X i := by
  obtain ⟨-, -, e10, e11, -⟩ := idx_facts t
  show X (((cfg3.win 1).blk t).view.emb y) = X i
  refine congrArg X (funext fun a => Fin.ext ?_)
  match a with
  | ⟨0, _⟩ => show win3_1.index t (0 : Fin 2) * 25000 + 1 * (y 0).val = (i 0).val; omega
  | ⟨1, _⟩ => show win3_1.index t (1 : Fin 2) * 16 + 1 * (y 1).val = (i 1).val; omega

/-- The weight's one block is the weight. -/
theorem read_blk2 (t : Fin cfg3.N) (X : Vec Ideal S16x64 .f32) :
    ((cfg3.win 2).blk t).view.read (Elt Ideal) X = X := by
  obtain ⟨-, -, -, -, e20, e21, -⟩ := idx_facts t
  funext y
  show X (((cfg3.win 2).blk t).view.emb y) = X y
  refine congrArg X (funext fun a => Fin.ext ?_)
  match a with
  | ⟨0, _⟩ => show win3_2.index t (0 : Fin 2) * 16 + 1 * (y 0).val = (y 0).val; omega
  | ⟨1, _⟩ => show win3_2.index t (1 : Fin 2) * 64 + 1 * (y 1).val = (y 1).val; omega

/-- The bias row's one block is the bias row. -/
theorem read_blk3 (t : Fin cfg3.N) (X : Vec Ideal S1x64 .f32) :
    ((cfg3.win 3).blk t).view.read (Elt Ideal) X = X := by
  obtain ⟨-, -, -, -, -, -, e30, e31, -⟩ := idx_facts t
  funext y
  show X (((cfg3.win 3).blk t).view.emb y) = X y
  refine congrArg X (funext fun a => Fin.ext ?_)
  match a with
  | ⟨0, _⟩ => show win3_3.index t (0 : Fin 2) * 1 + 1 * (y 0).val = (y 0).val; omega
  | ⟨1, _⟩ => show win3_3.index t (1 : Fin 2) * 64 + 1 * (y 1).val = (y 1).val; omega

/-! ## The region's output array -/

variable (V : (c : Dev nD) → (b : Ref sig .tc) → Buf (Elt Ideal) ((c : Thread nD τ).loc b))

/-- Which array each window stages. -/
theorem arrRef_0 : Pipeline.arrRef spec3 0 = main_v94 := rfl
theorem arrRef_1 : Pipeline.arrRef spec3 1 = main_arg1 := rfl
theorem arrRef_2 : Pipeline.arrRef spec3 2 = main_v96 := rfl
theorem arrRef_3 : Pipeline.arrRef spec3 3 = main_v99 := rfl
theorem arrRef_4 : Pipeline.arrRef spec3 4 = main_v100 := rfl

/-- The four arrays the region reads, as it finds them: the gathered rows, the edge features, the weight, the bias row. -/
abbrev gatheredRows (c : Dev nD) : Vec Ideal S1600000x64 .f32 := V c main_v94
abbrev edgeFeatures (c : Dev nD) : Vec Ideal S1600000x16 .f32 := V c main_arg1
abbrev weight (c : Dev nD) : Vec Ideal S16x64 .f32 := V c main_v96
abbrev biasRow (c : Dev nD) : Vec Ideal S1x64 .f32 := V c main_v99

/-- What point `t` writes back is block `t` of the edge messages of the four arrays. -/
theorem flushed_eq (c : Dev nD) (t : Fin cfg3.N) :
    (dat3 V c).flushed 4 t = ((cfg3.win 4).blk t).view.read (Elt Ideal)
      (edgeMsg (gatheredRows V c) (edgeFeatures V c) (weight V c) (biasRow V c)) := by
  show (cfg3.win 4).cut (grid3.coords t) ((dat3 V c).after 4 t) = _
  rw [after3_4]
  unfold out3_4
  rw [View.canon_unit_zero hz]
  simp only [View.ld_unit_zero (S := S25000x64) hz, View.ld_unit_zero (S := S25000x16) hz,
    View.ld_unit_zero (S := S16x64) hz, View.ld_unit_zero (S := S1x64) hz]
  obtain ⟨-, -, -, -, -, -, -, -, e40, e41⟩ := idx_facts t
  funext j
  show k3_pay1 (F := Ideal) (iblk3 V c 1 t) (iblk3 V c 2 t) (iblk3 V c 0 t) (iblk3 V c 3 t) j
      = edgeMsg (gatheredRows V c) (edgeFeatures V c) (weight V c) (biasRow V c) (((cfg3.win 4).blk t).view.emb j)
  refine block_value t.val (iblk3 V c 0 t) (iblk3 V c 1 t) (iblk3 V c 2 t) (iblk3 V c 3 t)
    (gatheredRows V c) (edgeFeatures V c) (weight V c) (biasRow V c)
    (fun y i h0 h1 => read_blk0 t (gatheredRows V c) y i h0 h1)
    (fun y i h0 h1 => read_blk1 t (edgeFeatures V c) y i h0 h1)
    (read_blk2 t (weight V c)) (read_blk3 t (biasRow V c)) j _ ?_ ?_
  · show win3_4.index t (0 : Fin 2) * 25000 + 1 * (j 0).val = t.val * 25000 + (j 0).val
    omega
  · show win3_4.index t (1 : Fin 2) * 64 + 1 * (j 1).val = (j 1).val
    omega

/-- After the region the output array holds the edge messages of the four arrays. -/
theorem region3_edgeMsg (c : Dev nD) :
    (dat3 V c).arrAt 4 cfg3.N = edgeMsg (gatheredRows V c) (edgeFeatures V c) (weight V c) (biasRow V c) :=
  (dat3 V c).arrAt_eq_of_cover 4 _ (fun t _ => flushed_eq V c t) covered

end Edge3

variable (V : (c : Dev nD) → (b : Ref sig .tc) → Buf (Elt Ideal) ((c : Thread nD τ).loc b))

/-- After the region the output array is what the host's operations compute from the four arrays: the gathered rows plus
    the edge features times the weight, plus the bias row broadcast down the rows, the maximum with zero. -/
theorem region3_value [Cert.ReferenceIdeal.Facts₀] (c : Dev nD)
    (h01 : Cert.ReferenceIdeal.S1x64.BroadcastsInDim Cert.ReferenceIdeal.S1600000x64 ![0, 1])
    (h0 : Cert.ReferenceIdeal.S_.BroadcastsInDim Cert.ReferenceIdeal.S1600000x64 ![]) :
    (dat3 V c).arrAt 4 cfg3.N
      = maximumf (F := Ideal) (s := Cert.ReferenceIdeal.S1600000x64) (φ := .f32)
          (addf (F := Ideal) (s := Cert.ReferenceIdeal.S1600000x64) (φ := .f32)
            (addf (F := Ideal) (s := Cert.ReferenceIdeal.S1600000x64) (φ := .f32) (V c main_v94)
              (Host.dotGeneral (F := Ideal) (φ₁ := .f32) (φ₂ := .f32) Cert.ReferenceIdeal.dot_S1600000x16_S16x64_S1600000x64_1_0_0_1_n_n none
                (V c main_arg1) (V c main_v96)))
            (broadcastInDim (s := Cert.ReferenceIdeal.S1x64) (α := Ideal .f32) Cert.ReferenceIdeal.S1600000x64 ![0, 1] h01 (V c main_v99)))
          (broadcastInDim Cert.ReferenceIdeal.S1600000x64 ![] h0 (constant (F := Ideal) Cert.ReferenceIdeal.S_ .f32 0x00000000#32)) :=
  (Edge3.region3_edgeMsg V c).trans
    (Edge3.hostForm_eq_edgeMsg _ Edge3.hostDot_eq h01 h0 (Edge3.gatheredRows V c) (Edge3.edgeFeatures V c) (Edge3.weight V c) (Edge3.biasRow V c)).symm

end Cert.KernelIdeal.RegionVal

end
-- ==== Proof.RegionDense4.lean ====
import proofs.«409037_j72164040508123_1_alg».proof.Proof.FrameKernelIdeal
import proofs.«409037_j72164040508123_1_alg».proof.ReferenceIdeal
import Idealize.ShloMosaic.Lib.ValueIdx
import Idealize.ShloMosaic.Lib.Pipeline.Value
import Idealize.ShloMosaic.Lib.ValueLayout
import Idealize.ShloMosaic.PureOps.Ideal.Laws

/-! # Region 4, a dense layer: the value of its output array

The body of region 4 computes, block of 10000 rows by block, `out = h · W + bias`: the product of the activations
`h : [100000, 64]` with the weight `W : [64, 64]`, plus the bias row `[1, 64]` laid along every row. The ten blocks
tile the output array, so after the region the array holds that function of the three input arrays at every index;
and the host's `dot_general`, `broadcast_in_dim` and `add` of the same three arrays are the same function. -/

noncomputable section

namespace Cert.KernelIdeal.RegionVal

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx
open scoped BigOperators

/-! ## The dense layer, index by index -/

/-- Entry `(p, q)` of `h · W + bias`: row `p` of `h` against column `q` of `W`, summed over the 64 inner
    positions, plus entry `q` of the bias row. -/
def dense_R4 (h : Vec Ideal S100000x64 .f32) (W : Vec Ideal S64x64 .f32) (b : Vec Ideal S1x64 .f32) : Vec Ideal S100000x64 .f32 :=
  fun i => (∑ k : Fin 64, h (ix2 (i 0 : Fin 100000) k) * W (ix2 k (i 1 : Fin 64))) + b (ix2 (0 : Fin 1) (i 1 : Fin 64))

theorem dense_R4_apply (h : Vec Ideal S100000x64 .f32) (W : Vec Ideal S64x64 .f32) (b : Vec Ideal S1x64 .f32) (p : Fin 100000) (q : Fin 64) :
    dense_R4 h W b (ix2 p q) = (∑ k : Fin 64, h (ix2 p k) * W (ix2 k q)) + b (ix2 (0 : Fin 1) q) := rfl

/-! ## The host's operations are that function -/

section Reference
variable [Cert.ReferenceIdeal.Facts₀]

/-- The host product's left operand index: the output's row on axis 0. -/
theorem lhs_ref_R4_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch from List.not_mem_nil), dif_pos (show (0 : Fin Cert.ReferenceIdeal.S100000x64.rank) ∈ Cert.ReferenceIdeal.dot_S100000x64_S64x64_S100000x64_1_0_0_1_n_n.lhsNonContracting from List.mem_singleton.mpr rfl)]
  rfl
/-- The host product's left operand index: the inner position on axis 1. -/
theorem lhs_ref_R4_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, Nat.one_pos⟩).val :=
  Cert.ReferenceIdeal.dot_S100000x64_S64x64_S100000x64_1_0_0_1_n_n.lhsIdx_val_of_single rfl i q
/-- The host product's right operand index: the inner position on axis 0. -/
theorem rhs_ref_R4_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, Nat.one_pos⟩).val :=
  Cert.ReferenceIdeal.dot_S100000x64_S64x64_S100000x64_1_0_0_1_n_n.rhsIdx_val_of_single rfl i q
/-- The host product's right operand index: the output's column on axis 1. -/
theorem rhs_ref_R4_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch from List.not_mem_nil), dif_pos (show (1 : Fin Cert.ReferenceIdeal.S64x64.rank) ∈ Cert.ReferenceIdeal.dot_S100000x64_S64x64_S100000x64_1_0_0_1_n_n.rhsNonContracting from List.mem_singleton.mpr rfl)]
  rfl

/-- The host's `dot_general` at entry `(p, q)`: the sum over the inner position of `h (p, k) * W (k, q)`. -/
theorem ref_dot_apply_R4 (h : Vec Ideal S100000x64 .f32) (W : Vec Ideal S64x64 .f32) (p : Fin 100000) (q : Fin 64) :
    Host.dotGeneral (F := Ideal) (φ₁ := .f32) (φ₂ := .f32) Cert.ReferenceIdeal.dot_S100000x64_S64x64_S100000x64_1_0_0_1_n_n none h W (ix2 p q)
      = ∑ k : Fin 64, h (ix2 p k) * W (ix2 k q) := by
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 p q) ((contrEquiv1 Cert.ReferenceIdeal.dot_S100000x64_S64x64_S100000x64_1_0_0_1_n_n 64 rfl rfl).symm k) = ix2 p k := funext fun a => Fin.ext (by
    match a with
    | ⟨0, _⟩ => exact lhs_ref_R4_0 _ _
    | ⟨1, _⟩ => exact (lhs_ref_R4_1 _ _).trans hk)
  have er : Cert.ReferenceIdeal.dot_S100000x64_S64x64_S100000x64_1_0_0_1_n_n.rhsIdx (ix2 p q) ((contrEquiv1 Cert.ReferenceIdeal.dot_S100000x64_S64x64_S100000x64_1_0_0_1_n_n 64 rfl rfl).symm k) = ix2 k q := funext fun a => Fin.ext (by
    match a with
    | ⟨0, _⟩ => exact (rhs_ref_R4_0 _ _).trans hk
    | ⟨1, _⟩ => exact rhs_ref_R4_1 _ _)
  rw [el, er]

/-- The host's `broadcast_in_dim` of the bias row at entry `(p, q)`: entry `q` of the row. -/
theorem ref_bias_apply_R4 (b : Vec Ideal S1x64 .f32)
    (h01 : Cert.ReferenceIdeal.S1x64.BroadcastsInDim Cert.ReferenceIdeal.S100000x64 (![0, 1] : Fin 2 → Fin Cert.ReferenceIdeal.S100000x64.rank))
    (p : Fin 100000) (q : Fin 64) :
    broadcastInDim Cert.ReferenceIdeal.S100000x64 ![0, 1] h01 b (ix2 p q) = b (ix2 (0 : Fin 1) q) :=
  broadcastInDim_apply ![0, 1] h01 b (ix2 p q) (ix2 (0 : Fin 1) q) (by
    intro a
    match a with
    | ⟨0, _⟩ => rfl
    | ⟨1, _⟩ =>
      show q.val = if (64 : ℕ) = 1 then 0 else q.val
      have hq := q.isLt
      split <;> omega)

/-- The host's three operations — the product, the bias row laid along the rows, their sum — are the dense layer. -/
theorem reference_form_eq_dense_R4 (h : Vec Ideal S100000x64 .f32) (W : Vec Ideal S64x64 .f32) (b : Vec Ideal S1x64 .f32)
    (h01 : Cert.ReferenceIdeal.S1x64.BroadcastsInDim Cert.ReferenceIdeal.S100000x64 (![0, 1] : Fin 2 → Fin Cert.ReferenceIdeal.S100000x64.rank)) :
    addf (Host.dotGeneral (F := Ideal) (φ₁ := .f32) (φ₂ := .f32) Cert.ReferenceIdeal.dot_S100000x64_S64x64_S100000x64_1_0_0_1_n_n none h W)
        (broadcastInDim Cert.ReferenceIdeal.S100000x64 ![0, 1] h01 b)
      = dense_R4 h W b := by
  funext i
  obtain ⟨p, q, rfl⟩ : ∃ (p : Fin 100000) (q : Fin 64), i = ix2 p q := ⟨i 0, i 1, eq_ix2 i⟩
  rw [addf_apply, ref_dot_apply_R4, ref_bias_apply_R4, dense_R4_apply]

end Reference

/-! ## The body's payload, read at an index -/

/-- The block product's left operand index: the output's row on axis 0. -/
theorem lhs_blk_R4_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch from List.not_mem_nil), dif_pos (show (0 : Fin S10000x64.rank) ∈ dot_S10000x64_S64x64_S10000x64_1_0_0_1_n_n.lhsNonContracting from List.mem_singleton.mpr rfl)]
  rfl
/-- The block product's left operand index: the inner position on axis 1. -/
theorem lhs_blk_R4_1 (i : S10000x64.Idx) (q : dot_S10000x64_S64x64_S10000x64_1_0_0_1_n_n.contr.Idx) :
    (dot_S10000x64_S64x64_S10000x64_1_0_0_1_n_n.lhsIdx i q 1).val = (q ⟨0, Nat.one_pos⟩).val :=
  dot_S10000x64_S64x64_S10000x64_1_0_0_1_n_n.lhsIdx_val_of_single rfl i q
/-- The block product's right operand index: the inner position on axis 0. -/
theorem rhs_blk_R4_0 (i : S10000x64.Idx) (q : dot_S10000x64_S64x64_S10000x64_1_0_0_1_n_n.contr.Idx) :
    (dot_S10000x64_S64x64_S10000x64_1_0_0_1_n_n.rhsIdx i q 0).val = (q ⟨0, Nat.one_pos⟩).val :=
  dot_S10000x64_S64x64_S10000x64_1_0_0_1_n_n.rhsIdx_val_of_single rfl i q
/-- The block product's right operand index: the output's column on axis 1. -/
theorem rhs_blk_R4_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch from List.not_mem_nil), dif_pos (show (1 : Fin S64x64.rank) ∈ dot_S10000x64_S64x64_S10000x64_1_0_0_1_n_n.rhsNonContracting from List.mem_singleton.mpr rfl)]
  rfl

/-- The block product into the zero accumulator at entry `(p, q)`: the sum over the inner position of `x (p, k) * W (k, q)`. -/
theorem blk_matmul_apply_R4 (x : Vec Ideal S10000x64 .f32) (W : Vec Ideal S64x64 .f32) (p : Fin 10000) (q : Fin 64) :
    FloatOps.matmul (F := Ideal) (φ₁ := .f32) (φ₂ := .f32) dot_S10000x64_S64x64_S10000x64_1_0_0_1_n_n none x W (constant (F := Ideal) S10000x64 .f32 0x00000000#32) (ix2 p q)
      = ∑ k : Fin 64, x (ix2 p k) * W (ix2 k q) := by
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_blk_R4_0 _ _
    | ⟨1, _⟩ => exact (lhs_blk_R4_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_blk_R4_0 _ _).trans hk
    | ⟨1, _⟩ => exact rhs_blk_R4_1 _ _)
  rw [el, er]

/-- The bias row laid along the block's rows, at entry `(p, q)`: entry `q` of the row. -/
theorem blk_bias_apply_R4 (b : Vec Ideal S1x64 .f32) (hb : S1x64.Broadcasts S10000x64) (p : Fin 10000) (q : Fin 64) :
    broadcastTo S10000x64 b hb (ix2 p q) = b (ix2 (0 : Fin 1) q) :=
  broadcastTo_apply b hb (ix2 p q) (ix2 (0 : Fin 1) q) (by
    intro a
    match a with
    | ⟨0, _⟩ => rfl
    | ⟨1, _⟩ =>
      show q.val = if (64 : ℕ) = 1 then 0 else q.val
      have hq := q.isLt
      split <;> omega)

/-- The body's payload at entry `(p, q)` of the block: row `p` of the block of `h` against column `q` of `W`, plus
    entry `q` of the bias row. -/
theorem payload_apply_R4 (x0 : Vec Ideal S10000x64 .f32) (x1 : Vec Ideal S64x64 .f32) (x2 : Vec Ideal S1x64 .f32) (p : Fin 10000) (q : Fin 64) :
    k4_pay1 x0 x1 x2 (ix2 p q) = (∑ k : Fin 64, x0 (ix2 p k) * x1 (ix2 k q)) + x2 (ix2 (0 : Fin 1) q) := by
  unfold k4_pay1
  simp only [shapeCast_self, matmul]
  rw [addf_apply, blk_matmul_apply_R4, blk_bias_apply_R4]

/-- The payload of a block of rows is the dense layer at the block's place in the array: when `x0` holds row
    `i 0` of `h` in its row `p`, `x1` is `W` down column `i 1 = q`, and `x2` is the bias at that column. -/
theorem payload_eq_dense_R4 (x0 : Vec Ideal S10000x64 .f32) (x1 : Vec Ideal S64x64 .f32) (x2 : Vec Ideal S1x64 .f32)
    (h : Vec Ideal S100000x64 .f32) (W : Vec Ideal S64x64 .f32) (b : Vec Ideal S1x64 .f32)
    (p : Fin 10000) (q : Fin 64) (i : S100000x64.Idx)
    (h0 : ∀ k : Fin 64, x0 (ix2 p k) = h (ix2 (i 0 : Fin 100000) k))
    (h1 : ∀ k : Fin 64, x1 (ix2 k q) = W (ix2 k (i 1 : Fin 64)))
    (h2 : x2 (ix2 (0 : Fin 1) q) = b (ix2 (0 : Fin 1) (i 1 : Fin 64))) :
    k4_pay1 x0 x1 x2 (ix2 p q) = dense_R4 h W b i := by
  rw [payload_apply_R4, h2]
  exact congrArg (· + b (ix2 (0 : Fin 1) (i 1 : Fin 64))) (Finset.sum_congr rfl fun k _ => by rw [h0 k, h1 k])

/-! ## From the blocks to the array -/

section Blocks
variable (V : (c : Dev nD) → (b : Ref sig .tc) → Buf (Elt Ideal) ((c : Thread nD τ).loc b))

theorem zero_offset_R4 : (![0, 0] : Fin 2 → Nat) = fun _ => 0 := funext fun a => by fin_cases a <;> rfl

/-- The printed index maps, decided over the grid: the block of `h` moves with the output's block down the rows,
    the weight and the bias row are whole at every point, and point `t` writes block `t`. -/
theorem index_maps_R4 : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) ≤ 9
    ∧ win4_3.index t (1 : Fin 2) = 0 :=
  (by decide +kernel : ∀ t : Fin grid4.N, _)

/-- Every block of rows is some point's. -/
theorem index_onto_R4 : ∀ q0 : Fin 10, ∃ t : Fin cfg4.N, win4_3.index t = ![q0.val, 0] :=
  (by decide +kernel : ∀ q0 : Fin 10, ∃ t : Fin grid4.N, win4_3.index t = ![q0.val, 0])

/-- What point `t` writes back is block `t` of the dense layer of the three arrays as the region finds them. -/
theorem flushed_eq_R4 (c : Dev nD) (t : Fin cfg4.N) :
    (dat4 V c).flushed 3 t
      = ((cfg4.win 3).blk t).view.read (Elt Ideal) (dense_R4 (V c main_v109) (V c main_v111) (V c main_v114)) := by
  show (cfg4.win 3).cut (grid4.coords t) ((dat4 V c).after 3 t) = _
  rw [after4_3]
  unfold out4_3
  rw [View.canon_unit_zero zero_offset_R4]
  simp only [View.ld_unit_zero (S := S10000x64) zero_offset_R4, View.ld_unit_zero (S := S64x64) zero_offset_R4, View.ld_unit_zero (S := S1x64) zero_offset_R4]
  obtain ⟨e0, e1, e2, e3, e4, e5, e6, e7⟩ := index_maps_R4 t
  funext j
  obtain ⟨p, q, rfl⟩ : ∃ (p : Fin 10000) (q : Fin 64), j = ix2 p q := ⟨j 0, j 1, eq_ix2 j⟩
  show k4_pay1 (iblk4 V c 0 t) (iblk4 V c 1 t) (iblk4 V c 2 t) (ix2 p q)
      = dense_R4 (V c main_v109) (V c main_v111) (V c main_v114) (((cfg4.win 3).blk t).view.emb (ix2 p q))
  refine payload_eq_dense_R4 (iblk4 V c 0 t) (iblk4 V c 1 t) (iblk4 V c 2 t) (V c main_v109) (V c main_v111) (V c main_v114) p q
    (((cfg4.win 3).blk t).view.emb (ix2 p q)) ?_ ?_ ?_
  · intro k
    show V c main_v109 (((cfg4.win 0).blk t).view.emb (ix2 p k)) = V c main_v109 _
    refine congrArg (V c main_v109) (funext fun a => Fin.ext ?_)
    match a with
    | ⟨0, _⟩ => show win4_0.index t (0 : Fin 2) * 10000 + 1 * p.val = win4_3.index t (0 : Fin 2) * 10000 + 1 * p.val; omega
    | ⟨1, _⟩ => show win4_0.index t (1 : Fin 2) * 64 + 1 * k.val = k.val; omega
  · intro k
    show V c main_v111 (((cfg4.win 1).blk t).view.emb (ix2 k q)) = V c main_v111 _
    refine congrArg (V c main_v111) (funext fun a => Fin.ext ?_)
    match a with
    | ⟨0, _⟩ => show win4_1.index t (0 : Fin 2) * 64 + 1 * k.val = k.val; omega
    | ⟨1, _⟩ => show win4_1.index t (1 : Fin 2) * 64 + 1 * q.val = win4_3.index t (1 : Fin 2) * 64 + 1 * q.val; omega
  · show V c main_v114 (((cfg4.win 2).blk t).view.emb (ix2 (0 : Fin 1) q)) = V c main_v114 _
    refine congrArg (V c main_v114) (funext fun a => Fin.ext ?_)
    match a with
    | ⟨0, _⟩ => show win4_2.index t (0 : Fin 2) * 1 + 1 * 0 = 0; omega
    | ⟨1, _⟩ => show win4_2.index t (1 : Fin 2) * 64 + 1 * q.val = win4_3.index t (1 : Fin 2) * 64 + 1 * q.val; omega

/-- An index of the array is in point `t`'s block iff each coordinate is in the block's range on its axis. -/
theorem mem_blk_R4 (t : Fin cfg4.N) (i : S100000x64.Idx) :
    i ∈ ((cfg4.win 3).blk t).view.set ↔ ∀ a : Fin 2, win4_3.index t a * S10000x64.size a ≤ (i a).val ∧ (i a).val < win4_3.index t a * S10000x64.size a + S10000x64.size a := by
  show i ∈ ((View.whole main_v115).slice (win4_3.rect t)).set ↔ _
  rw [View.set_slice_whole, Rect.mem_set_unit]
  exact Iff.rfl

/-- The ten blocks of rows tile the array: row `r` is in the block of point `r / 10000`. -/
theorem covered_R4 (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  obtain ⟨t, ht⟩ := index_onto_R4 ⟨(i 0).val / 10000, by omega⟩
  have q0 : win4_3.index t (0 : Fin 2) = (i 0).val / 10000 := congrFun ht 0
  have q1 : win4_3.index t (1 : Fin 2) = 0 := congrFun ht 1
  refine ⟨t, flush4_3 t, ?_⟩
  rw [mem_blk_R4]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 64 ≤ (i 1).val ∧ (i 1).val < win4_3.index t (1 : Fin 2) * 64 + 64; omega

/-- The output array after region 4 is the dense layer of the three input arrays as the region finds them. -/
theorem region4_dense (c : Dev nD) :
    (dat4 V c).arrAt 3 cfg4.N = dense_R4 (V c main_v109) (V c main_v111) (V c main_v114) :=
  (dat4 V c).arrAt_eq_of_cover 3 (dense_R4 (V c main_v109) (V c main_v111) (V c main_v114)) (fun t _ => flushed_eq_R4 V c t) (fun i => covered_R4 i)

/-- THE VALUE of region 4: its output array after the region is what the host's `dot_general`, `broadcast_in_dim` and
    `add` make of the three input arrays as the region finds them. -/
theorem region4_value [Cert.ReferenceIdeal.Facts₀] (c : Dev nD)
    (h01 : Cert.ReferenceIdeal.S1x64.BroadcastsInDim Cert.ReferenceIdeal.S100000x64 (![0, 1] : Fin 2 → Fin Cert.ReferenceIdeal.S100000x64.rank)) :
    (dat4 V c).arrAt 3 cfg4.N
      = addf (Host.dotGeneral (F := Ideal) (φ₁ := .f32) (φ₂ := .f32) Cert.ReferenceIdeal.dot_S100000x64_S64x64_S100000x64_1_0_0_1_n_n none (V c main_v109) (V c main_v111))
          (broadcastInDim Cert.ReferenceIdeal.S100000x64 ![0, 1] h01 (V c main_v114)) :=
  (region4_dense V c).trans (reference_form_eq_dense_R4 (V c main_v109) (V c main_v111) (V c main_v114) h01).symm

end Blocks

end Cert.KernelIdeal.RegionVal

end
-- ==== Proof.RegionDense5.lean ====
import proofs.«409037_j72164040508123_1_alg».proof.Proof.FrameKernelIdeal
import proofs.«409037_j72164040508123_1_alg».proof.ReferenceIdeal
import Idealize.ShloMosaic.Lib.ValueIdx
import Idealize.ShloMosaic.Lib.Pipeline.Value
import Idealize.ShloMosaic.Lib.ValueLayout
import Idealize.ShloMosaic.PureOps.Ideal.Laws

/-! # Region 5, a dense layer: the value of its output array

The body of region 5 computes, block of 10000 rows by block, `out = h · W + bias`: the product of the activations
`h : [100000, 64]` with the weight `W : [64, 64]`, plus the bias row `[1, 64]` laid along every row. The ten blocks
tile the output array, so after the region the array holds that function of the three input arrays at every index;
and the host's `dot_general`, `broadcast_in_dim` and `add` of the same three arrays are the same function. -/

noncomputable section

namespace Cert.KernelIdeal.RegionVal

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx
open scoped BigOperators

/-! ## The dense layer, index by index -/

/-- Entry `(p, q)` of `h · W + bias`: row `p` of `h` against column `q` of `W`, summed over the 64 inner
    positions, plus entry `q` of the bias row. -/
def dense_R5 (h : Vec Ideal S100000x64 .f32) (W : Vec Ideal S64x64 .f32) (b : Vec Ideal S1x64 .f32) : Vec Ideal S100000x64 .f32 :=
  fun i => (∑ k : Fin 64, h (ix2 (i 0 : Fin 100000) k) * W (ix2 k (i 1 : Fin 64))) + b (ix2 (0 : Fin 1) (i 1 : Fin 64))

theorem dense_R5_apply (h : Vec Ideal S100000x64 .f32) (W : Vec Ideal S64x64 .f32) (b : Vec Ideal S1x64 .f32) (p : Fin 100000) (q : Fin 64) :
    dense_R5 h W b (ix2 p q) = (∑ k : Fin 64, h (ix2 p k) * W (ix2 k q)) + b (ix2 (0 : Fin 1) q) := rfl

/-! ## The host's operations are that function -/

section Reference
variable [Cert.ReferenceIdeal.Facts₀]

/-- The host product's left operand index: the output's row on axis 0. -/
theorem lhs_ref_R5_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch from List.not_mem_nil), dif_pos (show (0 : Fin Cert.ReferenceIdeal.S100000x64.rank) ∈ Cert.ReferenceIdeal.dot_S100000x64_S64x64_S100000x64_1_0_0_1_n_n.lhsNonContracting from List.mem_singleton.mpr rfl)]
  rfl
/-- The host product's left operand index: the inner position on axis 1. -/
theorem lhs_ref_R5_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, Nat.one_pos⟩).val :=
  Cert.ReferenceIdeal.dot_S100000x64_S64x64_S100000x64_1_0_0_1_n_n.lhsIdx_val_of_single rfl i q
/-- The host product's right operand index: the inner position on axis 0. -/
theorem rhs_ref_R5_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, Nat.one_pos⟩).val :=
  Cert.ReferenceIdeal.dot_S100000x64_S64x64_S100000x64_1_0_0_1_n_n.rhsIdx_val_of_single rfl i q
/-- The host product's right operand index: the output's column on axis 1. -/
theorem rhs_ref_R5_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch from List.not_mem_nil), dif_pos (show (1 : Fin Cert.ReferenceIdeal.S64x64.rank) ∈ Cert.ReferenceIdeal.dot_S100000x64_S64x64_S100000x64_1_0_0_1_n_n.rhsNonContracting from List.mem_singleton.mpr rfl)]
  rfl

/-- The host's `dot_general` at entry `(p, q)`: the sum over the inner position of `h (p, k) * W (k, q)`. -/
theorem ref_dot_apply_R5 (h : Vec Ideal S100000x64 .f32) (W : Vec Ideal S64x64 .f32) (p : Fin 100000) (q : Fin 64) :
    Host.dotGeneral (F := Ideal) (φ₁ := .f32) (φ₂ := .f32) Cert.ReferenceIdeal.dot_S100000x64_S64x64_S100000x64_1_0_0_1_n_n none h W (ix2 p q)
      = ∑ k : Fin 64, h (ix2 p k) * W (ix2 k q) := by
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 p q) ((contrEquiv1 Cert.ReferenceIdeal.dot_S100000x64_S64x64_S100000x64_1_0_0_1_n_n 64 rfl rfl).symm k) = ix2 p k := funext fun a => Fin.ext (by
    match a with
    | ⟨0, _⟩ => exact lhs_ref_R5_0 _ _
    | ⟨1, _⟩ => exact (lhs_ref_R5_1 _ _).trans hk)
  have er : Cert.ReferenceIdeal.dot_S100000x64_S64x64_S100000x64_1_0_0_1_n_n.rhsIdx (ix2 p q) ((contrEquiv1 Cert.ReferenceIdeal.dot_S100000x64_S64x64_S100000x64_1_0_0_1_n_n 64 rfl rfl).symm k) = ix2 k q := funext fun a => Fin.ext (by
    match a with
    | ⟨0, _⟩ => exact (rhs_ref_R5_0 _ _).trans hk
    | ⟨1, _⟩ => exact rhs_ref_R5_1 _ _)
  rw [el, er]

/-- The host's `broadcast_in_dim` of the bias row at entry `(p, q)`: entry `q` of the row. -/
theorem ref_bias_apply_R5 (b : Vec Ideal S1x64 .f32)
    (h01 : Cert.ReferenceIdeal.S1x64.BroadcastsInDim Cert.ReferenceIdeal.S100000x64 (![0, 1] : Fin 2 → Fin Cert.ReferenceIdeal.S100000x64.rank))
    (p : Fin 100000) (q : Fin 64) :
    broadcastInDim Cert.ReferenceIdeal.S100000x64 ![0, 1] h01 b (ix2 p q) = b (ix2 (0 : Fin 1) q) :=
  broadcastInDim_apply ![0, 1] h01 b (ix2 p q) (ix2 (0 : Fin 1) q) (by
    intro a
    match a with
    | ⟨0, _⟩ => rfl
    | ⟨1, _⟩ =>
      show q.val = if (64 : ℕ) = 1 then 0 else q.val
      have hq := q.isLt
      split <;> omega)

/-- The host's three operations — the product, the bias row laid along the rows, their sum — are the dense layer. -/
theorem reference_form_eq_dense_R5 (h : Vec Ideal S100000x64 .f32) (W : Vec Ideal S64x64 .f32) (b : Vec Ideal S1x64 .f32)
    (h01 : Cert.ReferenceIdeal.S1x64.BroadcastsInDim Cert.ReferenceIdeal.S100000x64 (![0, 1] : Fin 2 → Fin Cert.ReferenceIdeal.S100000x64.rank)) :
    addf (Host.dotGeneral (F := Ideal) (φ₁ := .f32) (φ₂ := .f32) Cert.ReferenceIdeal.dot_S100000x64_S64x64_S100000x64_1_0_0_1_n_n none h W)
        (broadcastInDim Cert.ReferenceIdeal.S100000x64 ![0, 1] h01 b)
      = dense_R5 h W b := by
  funext i
  obtain ⟨p, q, rfl⟩ : ∃ (p : Fin 100000) (q : Fin 64), i = ix2 p q := ⟨i 0, i 1, eq_ix2 i⟩
  rw [addf_apply, ref_dot_apply_R5, ref_bias_apply_R5, dense_R5_apply]

end Reference

/-! ## The body's payload, read at an index -/

/-- The block product's left operand index: the output's row on axis 0. -/
theorem lhs_blk_R5_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch from List.not_mem_nil), dif_pos (show (0 : Fin S10000x64.rank) ∈ dot_S10000x64_S64x64_S10000x64_1_0_0_1_n_n.lhsNonContracting from List.mem_singleton.mpr rfl)]
  rfl
/-- The block product's left operand index: the inner position on axis 1. -/
theorem lhs_blk_R5_1 (i : S10000x64.Idx) (q : dot_S10000x64_S64x64_S10000x64_1_0_0_1_n_n.contr.Idx) :
    (dot_S10000x64_S64x64_S10000x64_1_0_0_1_n_n.lhsIdx i q 1).val = (q ⟨0, Nat.one_pos⟩).val :=
  dot_S10000x64_S64x64_S10000x64_1_0_0_1_n_n.lhsIdx_val_of_single rfl i q
/-- The block product's right operand index: the inner position on axis 0. -/
theorem rhs_blk_R5_0 (i : S10000x64.Idx) (q : dot_S10000x64_S64x64_S10000x64_1_0_0_1_n_n.contr.Idx) :
    (dot_S10000x64_S64x64_S10000x64_1_0_0_1_n_n.rhsIdx i q 0).val = (q ⟨0, Nat.one_pos⟩).val :=
  dot_S10000x64_S64x64_S10000x64_1_0_0_1_n_n.rhsIdx_val_of_single rfl i q
/-- The block product's right operand index: the output's column on axis 1. -/
theorem rhs_blk_R5_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch from List.not_mem_nil), dif_pos (show (1 : Fin S64x64.rank) ∈ dot_S10000x64_S64x64_S10000x64_1_0_0_1_n_n.rhsNonContracting from List.mem_singleton.mpr rfl)]
  rfl

/-- The block product into the zero accumulator at entry `(p, q)`: the sum over the inner position of `x (p, k) * W (k, q)`. -/
theorem blk_matmul_apply_R5 (x : Vec Ideal S10000x64 .f32) (W : Vec Ideal S64x64 .f32) (p : Fin 10000) (q : Fin 64) :
    FloatOps.matmul (F := Ideal) (φ₁ := .f32) (φ₂ := .f32) dot_S10000x64_S64x64_S10000x64_1_0_0_1_n_n none x W (constant (F := Ideal) S10000x64 .f32 0x00000000#32) (ix2 p q)
      = ∑ k : Fin 64, x (ix2 p k) * W (ix2 k q) := by
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_blk_R5_0 _ _
    | ⟨1, _⟩ => exact (lhs_blk_R5_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_blk_R5_0 _ _).trans hk
    | ⟨1, _⟩ => exact rhs_blk_R5_1 _ _)
  rw [el, er]

/-- The bias row laid along the block's rows, at entry `(p, q)`: entry `q` of the row. -/
theorem blk_bias_apply_R5 (b : Vec Ideal S1x64 .f32) (hb : S1x64.Broadcasts S10000x64) (p : Fin 10000) (q : Fin 64) :
    broadcastTo S10000x64 b hb (ix2 p q) = b (ix2 (0 : Fin 1) q) :=
  broadcastTo_apply b hb (ix2 p q) (ix2 (0 : Fin 1) q) (by
    intro a
    match a with
    | ⟨0, _⟩ => rfl
    | ⟨1, _⟩ =>
      show q.val = if (64 : ℕ) = 1 then 0 else q.val
      have hq := q.isLt
      split <;> omega)

/-- The body's payload at entry `(p, q)` of the block: row `p` of the block of `h` against column `q` of `W`, plus
    entry `q` of the bias row. -/
theorem payload_apply_R5 (x0 : Vec Ideal S10000x64 .f32) (x1 : Vec Ideal S64x64 .f32) (x2 : Vec Ideal S1x64 .f32) (p : Fin 10000) (q : Fin 64) :
    k5_pay1 x0 x1 x2 (ix2 p q) = (∑ k : Fin 64, x0 (ix2 p k) * x1 (ix2 k q)) + x2 (ix2 (0 : Fin 1) q) := by
  unfold k5_pay1
  simp only [shapeCast_self, matmul]
  rw [addf_apply, blk_matmul_apply_R5, blk_bias_apply_R5]

/-- The payload of a block of rows is the dense layer at the block's place in the array: when `x0` holds row
    `i 0` of `h` in its row `p`, `x1` is `W` down column `i 1 = q`, and `x2` is the bias at that column. -/
theorem payload_eq_dense_R5 (x0 : Vec Ideal S10000x64 .f32) (x1 : Vec Ideal S64x64 .f32) (x2 : Vec Ideal S1x64 .f32)
    (h : Vec Ideal S100000x64 .f32) (W : Vec Ideal S64x64 .f32) (b : Vec Ideal S1x64 .f32)
    (p : Fin 10000) (q : Fin 64) (i : S100000x64.Idx)
    (h0 : ∀ k : Fin 64, x0 (ix2 p k) = h (ix2 (i 0 : Fin 100000) k))
    (h1 : ∀ k : Fin 64, x1 (ix2 k q) = W (ix2 k (i 1 : Fin 64)))
    (h2 : x2 (ix2 (0 : Fin 1) q) = b (ix2 (0 : Fin 1) (i 1 : Fin 64))) :
    k5_pay1 x0 x1 x2 (ix2 p q) = dense_R5 h W b i := by
  rw [payload_apply_R5, h2]
  exact congrArg (· + b (ix2 (0 : Fin 1) (i 1 : Fin 64))) (Finset.sum_congr rfl fun k _ => by rw [h0 k, h1 k])

/-! ## From the blocks to the array -/

section Blocks
variable (V : (c : Dev nD) → (b : Ref sig .tc) → Buf (Elt Ideal) ((c : Thread nD τ).loc b))

theorem zero_offset_R5 : (![0, 0] : Fin 2 → Nat) = fun _ => 0 := funext fun a => by fin_cases a <;> rfl

/-- The printed index maps, decided over the grid: the block of `h` moves with the output's block down the rows,
    the weight and the bias row are whole at every point, and point `t` writes block `t`. -/
theorem index_maps_R5 : ∀ t : Fin cfg5.N, win5_0.index t (0 : Fin 2) = win5_3.index t (0 : Fin 2)
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) ≤ 9
    ∧ win5_3.index t (1 : Fin 2) = 0 :=
  (by decide +kernel : ∀ t : Fin grid5.N, _)

/-- Every block of rows is some point's. -/
theorem index_onto_R5 : ∀ q0 : Fin 10, ∃ t : Fin cfg5.N, win5_3.index t = ![q0.val, 0] :=
  (by decide +kernel : ∀ q0 : Fin 10, ∃ t : Fin grid5.N, win5_3.index t = ![q0.val, 0])

/-- What point `t` writes back is block `t` of the dense layer of the three arrays as the region finds them. -/
theorem flushed_eq_R5 (c : Dev nD) (t : Fin cfg5.N) :
    (dat5 V c).flushed 3 t
      = ((cfg5.win 3).blk t).view.read (Elt Ideal) (dense_R5 (V c main_v140) (V c main_v142) (V c main_v145)) := by
  show (cfg5.win 3).cut (grid5.coords t) ((dat5 V c).after 3 t) = _
  rw [after5_3]
  unfold out5_3
  rw [View.canon_unit_zero zero_offset_R5]
  simp only [View.ld_unit_zero (S := S10000x64) zero_offset_R5, View.ld_unit_zero (S := S64x64) zero_offset_R5, View.ld_unit_zero (S := S1x64) zero_offset_R5]
  obtain ⟨e0, e1, e2, e3, e4, e5, e6, e7⟩ := index_maps_R5 t
  funext j
  obtain ⟨p, q, rfl⟩ : ∃ (p : Fin 10000) (q : Fin 64), j = ix2 p q := ⟨j 0, j 1, eq_ix2 j⟩
  show k5_pay1 (iblk5 V c 0 t) (iblk5 V c 1 t) (iblk5 V c 2 t) (ix2 p q)
      = dense_R5 (V c main_v140) (V c main_v142) (V c main_v145) (((cfg5.win 3).blk t).view.emb (ix2 p q))
  refine payload_eq_dense_R5 (iblk5 V c 0 t) (iblk5 V c 1 t) (iblk5 V c 2 t) (V c main_v140) (V c main_v142) (V c main_v145) p q
    (((cfg5.win 3).blk t).view.emb (ix2 p q)) ?_ ?_ ?_
  · intro k
    show V c main_v140 (((cfg5.win 0).blk t).view.emb (ix2 p k)) = V c main_v140 _
    refine congrArg (V c main_v140) (funext fun a => Fin.ext ?_)
    match a with
    | ⟨0, _⟩ => show win5_0.index t (0 : Fin 2) * 10000 + 1 * p.val = win5_3.index t (0 : Fin 2) * 10000 + 1 * p.val; omega
    | ⟨1, _⟩ => show win5_0.index t (1 : Fin 2) * 64 + 1 * k.val = k.val; omega
  · intro k
    show V c main_v142 (((cfg5.win 1).blk t).view.emb (ix2 k q)) = V c main_v142 _
    refine congrArg (V c main_v142) (funext fun a => Fin.ext ?_)
    match a with
    | ⟨0, _⟩ => show win5_1.index t (0 : Fin 2) * 64 + 1 * k.val = k.val; omega
    | ⟨1, _⟩ => show win5_1.index t (1 : Fin 2) * 64 + 1 * q.val = win5_3.index t (1 : Fin 2) * 64 + 1 * q.val; omega
  · show V c main_v145 (((cfg5.win 2).blk t).view.emb (ix2 (0 : Fin 1) q)) = V c main_v145 _
    refine congrArg (V c main_v145) (funext fun a => Fin.ext ?_)
    match a with
    | ⟨0, _⟩ => show win5_2.index t (0 : Fin 2) * 1 + 1 * 0 = 0; omega
    | ⟨1, _⟩ => show win5_2.index t (1 : Fin 2) * 64 + 1 * q.val = win5_3.index t (1 : Fin 2) * 64 + 1 * q.val; omega

/-- An index of the array is in point `t`'s block iff each coordinate is in the block's range on its axis. -/
theorem mem_blk_R5 (t : Fin cfg5.N) (i : S100000x64.Idx) :
    i ∈ ((cfg5.win 3).blk t).view.set ↔ ∀ a : Fin 2, win5_3.index t a * S10000x64.size a ≤ (i a).val ∧ (i a).val < win5_3.index t a * S10000x64.size a + S10000x64.size a := by
  show i ∈ ((View.whole main_v146).slice (win5_3.rect t)).set ↔ _
  rw [View.set_slice_whole, Rect.mem_set_unit]
  exact Iff.rfl

/-- The ten blocks of rows tile the array: row `r` is in the block of point `r / 10000`. -/
theorem covered_R5 (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  obtain ⟨t, ht⟩ := index_onto_R5 ⟨(i 0).val / 10000, by omega⟩
  have q0 : win5_3.index t (0 : Fin 2) = (i 0).val / 10000 := congrFun ht 0
  have q1 : win5_3.index t (1 : Fin 2) = 0 := congrFun ht 1
  refine ⟨t, flush5_3 t, ?_⟩
  rw [mem_blk_R5]
  intro a
  match a with
  | ⟨0, _⟩ => show win5_3.index t (0 : Fin 2) * 10000 ≤ (i 0).val ∧ (i 0).val < win5_3.index t (0 : Fin 2) * 10000 + 10000; omega
  | ⟨1, _⟩ => show win5_3.index t (1 : Fin 2) * 64 ≤ (i 1).val ∧ (i 1).val < win5_3.index t (1 : Fin 2) * 64 + 64; omega

/-- The output array after region 5 is the dense layer of the three input arrays as the region finds them. -/
theorem region5_dense (c : Dev nD) :
    (dat5 V c).arrAt 3 cfg5.N = dense_R5 (V c main_v140) (V c main_v142) (V c main_v145) :=
  (dat5 V c).arrAt_eq_of_cover 3 (dense_R5 (V c main_v140) (V c main_v142) (V c main_v145)) (fun t _ => flushed_eq_R5 V c t) (fun i => covered_R5 i)

/-- THE VALUE of region 5: its output array after the region is what the host's `dot_general`, `broadcast_in_dim` and
    `add` make of the three input arrays as the region finds them. -/
theorem region5_value [Cert.ReferenceIdeal.Facts₀] (c : Dev nD)
    (h01 : Cert.ReferenceIdeal.S1x64.BroadcastsInDim Cert.ReferenceIdeal.S100000x64 (![0, 1] : Fin 2 → Fin Cert.ReferenceIdeal.S100000x64.rank)) :
    (dat5 V c).arrAt 3 cfg5.N
      = addf (Host.dotGeneral (F := Ideal) (φ₁ := .f32) (φ₂ := .f32) Cert.ReferenceIdeal.dot_S100000x64_S64x64_S100000x64_1_0_0_1_n_n none (V c main_v140) (V c main_v142))
          (broadcastInDim Cert.ReferenceIdeal.S100000x64 ![0, 1] h01 (V c main_v145)) :=
  (region5_dense V c).trans (reference_form_eq_dense_R5 (V c main_v140) (V c main_v142) (V c main_v145) h01).symm

end Blocks

end Cert.KernelIdeal.RegionVal

end
-- ==== Proof.RegionEdge6.lean ====
import proofs.«409037_j72164040508123_1_alg».proof.Proof.FrameKernelIdeal
import proofs.«409037_j72164040508123_1_alg».proof.ReferenceIdeal
import Idealize.ShloMosaic.Lib.ValueIdx
import Idealize.ShloMosaic.Lib.Pipeline.Value
import Idealize.ShloMosaic.Lib.ValueLayout
import Idealize.ShloMosaic.Lib.KernelVsHost
import Idealize.ShloMosaic.Lib.StackMember
import Idealize.ShloMosaic.PureOps.Ideal.Laws

/-
  The edge-message region. Each of the 64 grid points takes 25000 rows of the gathered rows and of the edge features,
  the whole 16×64 weight and the 1×64 bias row, and stores, for its rows,
      max ((rows + features · weight) + bias, 0).
  Here that value is stated entry by entry as one function of the four arrays (`edgeMsg`): an entry depends on its own
  row of the gathered rows and of the edge features, on its column of the weight and on its entry of the bias row. The
  body's stored block is the block of `edgeMsg` of the arrays at the same rows; the 64 blocks cover the 1600000 rows;
  so after the region the output array is `edgeMsg` of the arrays as the region found them. The host's operations —
  a product with no accumulator, two additions, the bias row broadcast down the rows, the maximum with a broadcast
  zero — compute the same function, and the last theorem states the output array in that form. A sum into a zero
  accumulator is the sum (`0 + x = x`), so nothing here needs the entries to be finite.
-/

set_option maxRecDepth 16384

noncomputable section

open Idealize.ShloMosaic Idealize.ShloMosaic.ValueIdx Idealize.ShloMosaic.StackMember Idealize.ShloMosaic.TcCoe Idealize.SL.Sem
open Idealize.ShloMosaic.Pipeline (Dat)
open scoped BigOperators

namespace Cert.KernelIdeal.RegionVal

open Cert.KernelIdeal Cert.KernelIdeal.Gen Cert.KernelIdeal.GenP

namespace Edge6

/-- One entry of an edge message: row `r` of the gathered rows plus row `r` of the edge features times the weight,
    plus the bias row, clamped below at zero. -/
def edgeMsgAt {M : Nat} (xs : (⟨2, ![M, 64]⟩ : Shape).Idx → EReal) (ea : (⟨2, ![M, 16]⟩ : Shape).Idx → EReal)
    (W : (⟨2, ![16, 64]⟩ : Shape).Idx → EReal) (b : (⟨2, ![1, 64]⟩ : Shape).Idx → EReal) (r : Fin M) (q : Fin 64) : EReal :=
  max ((xs (ix2 r q) + ∑ k : Fin 16, ea (ix2 r k) * W (ix2 k q)) + b (ix2 (0 : Fin 1) q)) 0

/-- The edge messages as one array of `M` rows. -/
def edgeMsg {M : Nat} (xs : (⟨2, ![M, 64]⟩ : Shape).Idx → EReal) (ea : (⟨2, ![M, 16]⟩ : Shape).Idx → EReal)
    (W : (⟨2, ![16, 64]⟩ : Shape).Idx → EReal) (b : (⟨2, ![1, 64]⟩ : Shape).Idx → EReal) : (⟨2, ![M, 64]⟩ : Shape).Idx → EReal :=
  fun i => edgeMsgAt xs ea W b (i 0) (i 1)

theorem edgeMsg_ix2 {M : Nat} (xs : (⟨2, ![M, 64]⟩ : Shape).Idx → EReal) (ea : (⟨2, ![M, 16]⟩ : Shape).Idx → EReal)
    (W : (⟨2, ![16, 64]⟩ : Shape).Idx → EReal) (b : (⟨2, ![1, 64]⟩ : Shape).Idx → EReal) (r : Fin M) (q : Fin 64) :
    edgeMsg xs ea W b (ix2 r q) = edgeMsgAt xs ea W b r q := rfl

/-- The host's form of the edge messages — add the product, add the broadcast bias row, take the maximum with a
    broadcast zero — is `edgeMsg`, whatever the number of rows. -/
theorem hostForm_eq_edgeMsg {M : Nat} (D : DotDims ⟨2, ![M, 16]⟩ ⟨2, ![16, 64]⟩ ⟨2, ![M, 64]⟩) (hD : D = DotDims.plain M 16 64)
    (h01 : (⟨2, ![1, 64]⟩ : Shape).BroadcastsInDim ⟨2, ![M, 64]⟩ ![0, 1])
    (h0 : (⟨0, ![]⟩ : Shape).BroadcastsInDim ⟨2, ![M, 64]⟩ ![])
    (xs : FVec Ideal ⟨2, ![M, 64]⟩ .f32) (ea : FVec Ideal ⟨2, ![M, 16]⟩ .f32)
    (W : FVec Ideal ⟨2, ![16, 64]⟩ .f32) (b : FVec Ideal ⟨2, ![1, 64]⟩ .f32) :
    maximumf (addf (addf xs (Host.dotGeneral D none ea W)) (broadcastInDim ⟨2, ![M, 64]⟩ ![0, 1] h01 b))
        (broadcastInDim ⟨2, ![M, 64]⟩ ![] h0 (constant (F := Ideal) ⟨0, ![]⟩ .f32 0x00000000#32))
      = edgeMsg xs ea W b := by
  subst hD
  funext i
  obtain ⟨r, q, rfl⟩ : ∃ (r : Fin M) (q : Fin 64), i = ix2 r q := ⟨i 0, i 1, eq_ix2 i⟩
  rw [edgeMsg_ix2, maximumf_apply, addf_apply, addf_apply, dotGeneral_plain_apply, broadcastInDim_oneRow_apply,
    broadcastInDim_constant, broadcast_apply]
  show max _ (Ideal.ofBits .f32 0x00000000#32) = _
  rw [Ideal.ofBits_zero_f32]
  rfl

/-- The kernel's form on a block of `M` rows — the product accumulated into a zero splat, added to the rows, the one
    bias row broadcast down the rows and added, the maximum with a zero splat — at one entry. -/
theorem kernelForm_apply {M : Nat} (D : DotDims ⟨2, ![M, 16]⟩ ⟨2, ![16, 64]⟩ ⟨2, ![M, 64]⟩) (hD : D = DotDims.plain M 16 64)
    (hb : (⟨2, ![1, 64]⟩ : Shape).Broadcasts ⟨2, ![M, 64]⟩)
    (xs : FVec Ideal ⟨2, ![M, 64]⟩ .f32) (ea : FVec Ideal ⟨2, ![M, 16]⟩ .f32)
    (W : FVec Ideal ⟨2, ![16, 64]⟩ .f32) (b : FVec Ideal ⟨2, ![1, 64]⟩ .f32) (r : Fin M) (q : Fin 64) :
    maximumf (addf (addf xs (matmul D none ea W (constant ⟨2, ![M, 64]⟩ .f32 0x00000000#32))) (broadcastTo ⟨2, ![M, 64]⟩ b hb))
        (broadcast ⟨2, ![M, 64]⟩ (Scalar.ofBits (F := Ideal) .f32 0x00000000#32)) (ix2 r q)
      = edgeMsgAt xs ea W b r q := by
  subst hD
  rw [maximumf_apply, addf_apply, addf_apply, matmul_zero_eq_dotGeneral, dotGeneral_plain_apply, broadcastTo_1b_ab_apply,
    broadcast_apply]
  show max _ (Ideal.ofBits .f32 0x00000000#32) = _
  rw [Ideal.ofBits_zero_f32]
  rfl

/-- The block product's dimension numbers are the plain rows-by-columns ones. -/
theorem blockDot_eq : dot_S25000x16_S16x64_S25000x64_1_0_0_1_n_n = DotDims.plain 25000 16 64 := rfl

/-- So are the whole-array product's. -/
theorem hostDot_eq [Cert.ReferenceIdeal.Facts₀] :
    Cert.ReferenceIdeal.dot_S1600000x16_S16x64_S1600000x64_1_0_0_1_n_n = DotDims.plain 1600000 16 64 := rfl

/-- The body's stored value at one entry of its block, from the four blocks it loads. -/
theorem payload_apply (v0 : Vec Ideal S25000x16 .f32) (v1 : Vec Ideal S16x64 .f32) (v4 : Vec Ideal S25000x64 .f32)
    (v7 : Vec Ideal S1x64 .f32) (r : Fin 25000) (q : Fin 64) :
    k6_pay1 (F := Ideal) v0 v1 v4 v7 (ix2 r q) = edgeMsgAt v4 v0 v1 v7 r q := by
  unfold k6_pay1
  simp only [shapeCast_self]
  exact kernelForm_apply _ blockDot_eq _ v4 v0 v1 v7 r q

/-! ## From blocks to the array -/

theorem hz : (![0, 0] : Fin 2 → Nat) = fun _ => 0 := funext fun a => by fin_cases a <;> rfl

/-- The index maps over the grid: point `t` takes block `t` of the rows of the gathered rows, the edge features and
    the result, and the one block of the weight and of the bias row. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- A block of 25000 rows that starts at row `n * 25000`: the body's value at an entry is the edge message of the row of
    the arrays that the entry's row came from. -/
theorem block_value (n : Nat)
    (x0 : Vec Ideal S25000x64 .f32) (x1 : Vec Ideal S25000x16 .f32) (x2 : Vec Ideal S16x64 .f32) (x3 : Vec Ideal S1x64 .f32)
    (XS : Vec Ideal S1600000x64 .f32) (EA : Vec Ideal S1600000x16 .f32) (W : Vec Ideal S16x64 .f32) (B : Vec Ideal S1x64 .f32)
    (h0 : ∀ (y : S25000x64.Idx) (i : S1600000x64.Idx), (i 0).val = n * 25000 + (y 0).val → (i 1).val = (y 1).val → x0 y = XS i)
    (h1 : ∀ (y : S25000x16.Idx) (i : S1600000x16.Idx), (i 0).val = n * 25000 + (y 0).val → (i 1).val = (y 1).val → x1 y = EA i)
    (h2 : x2 = W) (h3 : x3 = B)
    (j : S25000x64.Idx) (i : S1600000x64.Idx) (hi0 : (i 0).val = n * 25000 + (j 0).val) (hi1 : (i 1).val = (j 1).val) :
    k6_pay1 (F := Ideal) x1 x2 x0 x3 j = edgeMsg XS EA W B i := by
  subst h2 h3
  obtain ⟨r, q, rfl⟩ : ∃ (r : Fin 25000) (q : Fin 64), j = ix2 r q := ⟨j 0, j 1, eq_ix2 j⟩
  obtain ⟨r', q', rfl⟩ : ∃ (r' : Fin 1600000) (q' : Fin 64), i = ix2 r' q' := ⟨i 0, i 1, eq_ix2 i⟩
  have hr : r'.val = n * 25000 + r.val := hi0
  obtain rfl : q' = q := Fin.ext hi1
  have e0 : x0 (ix2 r q') = XS (ix2 r' q') := h0 (ix2 r q') (ix2 r' q') hr rfl
  have e1 : ∀ k : Fin 16, x1 (ix2 r k) = EA (ix2 r' k) := fun k => h1 (ix2 r k) (ix2 r' k) hr rfl
  rw [payload_apply, edgeMsg_ix2]
  unfold edgeMsgAt
  simp only [e0, e1]

/-- An index of the result array is in point `t`'s block iff each coordinate is in the block's range on its axis. -/
theorem mem_blk (t : Fin cfg6.N) (i : S1600000x64.Idx) :
    i ∈ ((cfg6.win 4).blk t).view.set ↔ ∀ a : Fin 2, win6_4.index t a * S25000x64.size a ≤ (i a).val ∧ (i a).val < win6_4.index t a * S25000x64.size a + S25000x64.size a := by
  show i ∈ ((View.whole main_v184).slice (win6_4.rect t)).set ↔ _
  rw [View.set_slice_whole, Rect.mem_set_unit]
  exact Iff.rfl

/-- Every row of the result is in some point's block: row `r` in the block of point `r / 25000`. -/
theorem covered (i : S1600000x64.Idx) :
    ∃ t : Fin cfg6.N, (cfg6.win 4).flush t = true ∧ i ∈ ((cfg6.win 4).blk t).view.set := by
  have hi0 : (i 0).val < 1600000 := (i 0).isLt
  have hi1 : (i 1).val < 64 := (i 1).isLt
  have hN : cfg6.N = 64 := N_6
  let t : Fin cfg6.N := ⟨(i 0).val / 25000, by rw [hN]; omega⟩
  obtain ⟨-, -, -, -, -, -, -, -, e40, e41⟩ := idx_facts t
  have ht : t.val = (i 0).val / 25000 := rfl
  refine ⟨t, flush6_4 t, ?_⟩
  rw [mem_blk]
  intro a
  match a with
  | ⟨0, _⟩ => show win6_4.index t (0 : Fin 2) * 25000 ≤ (i 0).val ∧ (i 0).val < win6_4.index t (0 : Fin 2) * 25000 + 25000; omega
  | ⟨1, _⟩ => show win6_4.index t (1 : Fin 2) * 64 ≤ (i 1).val ∧ (i 1).val < win6_4.index t (1 : Fin 2) * 64 + 64; omega

/-- The gathered rows' block at point `t` is rows `25000 t …` of the array. -/
theorem read_blk0 (t : Fin cfg6.N) (X : Vec Ideal S1600000x64 .f32) (y : S25000x64.Idx) (i : S1600000x64.Idx)
    (hi0 : (i 0).val = t.val * 25000 + (y 0).val) (hi1 : (i 1).val = (y 1).val) :
    ((cfg6.win 0).blk t).view.read (Elt Ideal) X y = X i := by
  obtain ⟨e00, e01, -⟩ := idx_facts t
  show X (((cfg6.win 0).blk t).view.emb y) = X i
  refine congrArg X (funext fun a => Fin.ext ?_)
  match a with
  | ⟨0, _⟩ => show win6_0.index t (0 : Fin 2) * 25000 + 1 * (y 0).val = (i 0).val; omega
  | ⟨1, _⟩ => show win6_0.index t (1 : Fin 2) * 64 + 1 * (y 1).val = (i 1).val; omega

/-- The edge features' block at point `t` is rows `25000 t …` of the array. -/
theorem read_blk1 (t : Fin cfg6.N) (X : Vec Ideal S1600000x16 .f32) (y : S25000x16.Idx) (i : S1600000x16.Idx)
    (hi0 : (i 0).val = t.val * 25000 + (y 0).val) (hi1 : (i 1).val = (y 1).val) :
    ((cfg6.win 1).blk t).view.read (Elt Ideal) X y = X i := by
  obtain ⟨-, -, e10, e11, -⟩ := idx_facts t
  show X (((cfg6.win 1).blk t).view.emb y) = X i
  refine congrArg X (funext fun a => Fin.ext ?_)
  match a with
  | ⟨0, _⟩ => show win6_1.index t (0 : Fin 2) * 25000 + 1 * (y 0).val = (i 0).val; omega
  | ⟨1, _⟩ => show win6_1.index t (1 : Fin 2) * 16 + 1 * (y 1).val = (i 1).val; omega

/-- The weight's one block is the weight. -/
theorem read_blk2 (t : Fin cfg6.N) (X : Vec Ideal S16x64 .f32) :
    ((cfg6.win 2).blk t).view.read (Elt Ideal) X = X := by
  obtain ⟨-, -, -, -, e20, e21, -⟩ := idx_facts t
  funext y
  show X (((cfg6.win 2).blk t).view.emb y) = X y
  refine congrArg X (funext fun a => Fin.ext ?_)
  match a with
  | ⟨0, _⟩ => show win6_2.index t (0 : Fin 2) * 16 + 1 * (y 0).val = (y 0).val; omega
  | ⟨1, _⟩ => show win6_2.index t (1 : Fin 2) * 64 + 1 * (y 1).val = (y 1).val; omega

/-- The bias row's one block is the bias row. -/
theorem read_blk3 (t : Fin cfg6.N) (X : Vec Ideal S1x64 .f32) :
    ((cfg6.win 3).blk t).view.read (Elt Ideal) X = X := by
  obtain ⟨-, -, -, -, -, -, e30, e31, -⟩ := idx_facts t
  funext y
  show X (((cfg6.win 3).blk t).view.emb y) = X y
  refine congrArg X (funext fun a => Fin.ext ?_)
  match a with
  | ⟨0, _⟩ => show win6_3.index t (0 : Fin 2) * 1 + 1 * (y 0).val = (y 0).val; omega
  | ⟨1, _⟩ => show win6_3.index t (1 : Fin 2) * 64 + 1 * (y 1).val = (y 1).val; omega

/-! ## The region's output array -/

variable (V : (c : Dev nD) → (b : Ref sig .tc) → Buf (Elt Ideal) ((c : Thread nD τ).loc b))

/-- Which array each window stages. -/
theorem arrRef_0 : Pipeline.arrRef spec6 0 = main_v178 := rfl
theorem arrRef_1 : Pipeline.arrRef spec6 1 = main_arg1 := rfl
theorem arrRef_2 : Pipeline.arrRef spec6 2 = main_v180 := rfl
theorem arrRef_3 : Pipeline.arrRef spec6 3 = main_v183 := rfl
theorem arrRef_4 : Pipeline.arrRef spec6 4 = main_v184 := rfl

/-- The four arrays the region reads, as it finds them: the gathered rows, the edge features, the weight, the bias row. -/
abbrev gatheredRows (c : Dev nD) : Vec Ideal S1600000x64 .f32 := V c main_v178
abbrev edgeFeatures (c : Dev nD) : Vec Ideal S1600000x16 .f32 := V c main_arg1
abbrev weight (c : Dev nD) : Vec Ideal S16x64 .f32 := V c main_v180
abbrev biasRow (c : Dev nD) : Vec Ideal S1x64 .f32 := V c main_v183

/-- What point `t` writes back is block `t` of the edge messages of the four arrays. -/
theorem flushed_eq (c : Dev nD) (t : Fin cfg6.N) :
    (dat6 V c).flushed 4 t = ((cfg6.win 4).blk t).view.read (Elt Ideal)
      (edgeMsg (gatheredRows V c) (edgeFeatures V c) (weight V c) (biasRow V c)) := by
  show (cfg6.win 4).cut (grid6.coords t) ((dat6 V c).after 4 t) = _
  rw [after6_4]
  unfold out6_4
  rw [View.canon_unit_zero hz]
  simp only [View.ld_unit_zero (S := S25000x64) hz, View.ld_unit_zero (S := S25000x16) hz,
    View.ld_unit_zero (S := S16x64) hz, View.ld_unit_zero (S := S1x64) hz]
  obtain ⟨-, -, -, -, -, -, -, -, e40, e41⟩ := idx_facts t
  funext j
  show k6_pay1 (F := Ideal) (iblk6 V c 1 t) (iblk6 V c 2 t) (iblk6 V c 0 t) (iblk6 V c 3 t) j
      = edgeMsg (gatheredRows V c) (edgeFeatures V c) (weight V c) (biasRow V c) (((cfg6.win 4).blk t).view.emb j)
  refine block_value t.val (iblk6 V c 0 t) (iblk6 V c 1 t) (iblk6 V c 2 t) (iblk6 V c 3 t)
    (gatheredRows V c) (edgeFeatures V c) (weight V c) (biasRow V c)
    (fun y i h0 h1 => read_blk0 t (gatheredRows V c) y i h0 h1)
    (fun y i h0 h1 => read_blk1 t (edgeFeatures V c) y i h0 h1)
    (read_blk2 t (weight V c)) (read_blk3 t (biasRow V c)) j _ ?_ ?_
  · show win6_4.index t (0 : Fin 2) * 25000 + 1 * (j 0).val = t.val * 25000 + (j 0).val
    omega
  · show win6_4.index t (1 : Fin 2) * 64 + 1 * (j 1).val = (j 1).val
    omega

/-- After the region the output array holds the edge messages of the four arrays. -/
theorem region6_edgeMsg (c : Dev nD) :
    (dat6 V c).arrAt 4 cfg6.N = edgeMsg (gatheredRows V c) (edgeFeatures V c) (weight V c) (biasRow V c) :=
  (dat6 V c).arrAt_eq_of_cover 4 _ (fun t _ => flushed_eq V c t) covered

end Edge6

variable (V : (c : Dev nD) → (b : Ref sig .tc) → Buf (Elt Ideal) ((c : Thread nD τ).loc b))

/-- After the region the output array is what the host's operations compute from the four arrays: the gathered rows plus
    the edge features times the weight, plus the bias row broadcast down the rows, the maximum with zero. -/
theorem region6_value [Cert.ReferenceIdeal.Facts₀] (c : Dev nD)
    (h01 : Cert.ReferenceIdeal.S1x64.BroadcastsInDim Cert.ReferenceIdeal.S1600000x64 ![0, 1])
    (h0 : Cert.ReferenceIdeal.S_.BroadcastsInDim Cert.ReferenceIdeal.S1600000x64 ![]) :
    (dat6 V c).arrAt 4 cfg6.N
      = maximumf (F := Ideal) (s := Cert.ReferenceIdeal.S1600000x64) (φ := .f32)
          (addf (F := Ideal) (s := Cert.ReferenceIdeal.S1600000x64) (φ := .f32)
            (addf (F := Ideal) (s := Cert.ReferenceIdeal.S1600000x64) (φ := .f32) (V c main_v178)
              (Host.dotGeneral (F := Ideal) (φ₁ := .f32) (φ₂ := .f32) Cert.ReferenceIdeal.dot_S1600000x16_S16x64_S1600000x64_1_0_0_1_n_n none
                (V c main_arg1) (V c main_v180)))
            (broadcastInDim (s := Cert.ReferenceIdeal.S1x64) (α := Ideal .f32) Cert.ReferenceIdeal.S1600000x64 ![0, 1] h01 (V c main_v183)))
          (broadcastInDim Cert.ReferenceIdeal.S1600000x64 ![] h0 (constant (F := Ideal) Cert.ReferenceIdeal.S_ .f32 0x00000000#32)) :=
  (Edge6.region6_edgeMsg V c).trans
    (Edge6.hostForm_eq_edgeMsg _ Edge6.hostDot_eq h01 h0 (Edge6.gatheredRows V c) (Edge6.edgeFeatures V c) (Edge6.weight V c) (Edge6.biasRow V c)).symm

end Cert.KernelIdeal.RegionVal

end
-- ==== Proof.RegionDense7.lean ====
import proofs.«409037_j72164040508123_1_alg».proof.Proof.FrameKernelIdeal
import proofs.«409037_j72164040508123_1_alg».proof.ReferenceIdeal
import Idealize.ShloMosaic.Lib.ValueIdx
import Idealize.ShloMosaic.Lib.Pipeline.Value
import Idealize.ShloMosaic.Lib.ValueLayout
import Idealize.ShloMosaic.PureOps.Ideal.Laws

/-! # Region 7, a dense layer: the value of its output array

The body of region 7 computes, block of 10000 rows by block, `out = h · W + bias`: the product of the activations
`h : [100000, 64]` with the weight `W : [64, 64]`, plus the bias row `[1, 64]` laid along every row. The ten blocks
tile the output array, so after the region the array holds that function of the three input arrays at every index;
and the host's `dot_general`, `broadcast_in_dim` and `add` of the same three arrays are the same function. -/

noncomputable section

namespace Cert.KernelIdeal.RegionVal

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx
open scoped BigOperators

/-! ## The dense layer, index by index -/

/-- Entry `(p, q)` of `h · W + bias`: row `p` of `h` against column `q` of `W`, summed over the 64 inner
    positions, plus entry `q` of the bias row. -/
def dense_R7 (h : Vec Ideal S100000x64 .f32) (W : Vec Ideal S64x64 .f32) (b : Vec Ideal S1x64 .f32) : Vec Ideal S100000x64 .f32 :=
  fun i => (∑ k : Fin 64, h (ix2 (i 0 : Fin 100000) k) * W (ix2 k (i 1 : Fin 64))) + b (ix2 (0 : Fin 1) (i 1 : Fin 64))

theorem dense_R7_apply (h : Vec Ideal S100000x64 .f32) (W : Vec Ideal S64x64 .f32) (b : Vec Ideal S1x64 .f32) (p : Fin 100000) (q : Fin 64) :
    dense_R7 h W b (ix2 p q) = (∑ k : Fin 64, h (ix2 p k) * W (ix2 k q)) + b (ix2 (0 : Fin 1) q) := rfl

/-! ## The host's operations are that function -/

section Reference
variable [Cert.ReferenceIdeal.Facts₀]

/-- The host product's left operand index: the output's row on axis 0. -/
theorem lhs_ref_R7_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch from List.not_mem_nil), dif_pos (show (0 : Fin Cert.ReferenceIdeal.S100000x64.rank) ∈ Cert.ReferenceIdeal.dot_S100000x64_S64x64_S100000x64_1_0_0_1_n_n.lhsNonContracting from List.mem_singleton.mpr rfl)]
  rfl
/-- The host product's left operand index: the inner position on axis 1. -/
theorem lhs_ref_R7_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, Nat.one_pos⟩).val :=
  Cert.ReferenceIdeal.dot_S100000x64_S64x64_S100000x64_1_0_0_1_n_n.lhsIdx_val_of_single rfl i q
/-- The host product's right operand index: the inner position on axis 0. -/
theorem rhs_ref_R7_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, Nat.one_pos⟩).val :=
  Cert.ReferenceIdeal.dot_S100000x64_S64x64_S100000x64_1_0_0_1_n_n.rhsIdx_val_of_single rfl i q
/-- The host product's right operand index: the output's column on axis 1. -/
theorem rhs_ref_R7_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch from List.not_mem_nil), dif_pos (show (1 : Fin Cert.ReferenceIdeal.S64x64.rank) ∈ Cert.ReferenceIdeal.dot_S100000x64_S64x64_S100000x64_1_0_0_1_n_n.rhsNonContracting from List.mem_singleton.mpr rfl)]
  rfl

/-- The host's `dot_general` at entry `(p, q)`: the sum over the inner position of `h (p, k) * W (k, q)`. -/
theorem ref_dot_apply_R7 (h : Vec Ideal S100000x64 .f32) (W : Vec Ideal S64x64 .f32) (p : Fin 100000) (q : Fin 64) :
    Host.dotGeneral (F := Ideal) (φ₁ := .f32) (φ₂ := .f32) Cert.ReferenceIdeal.dot_S100000x64_S64x64_S100000x64_1_0_0_1_n_n none h W (ix2 p q)
      = ∑ k : Fin 64, h (ix2 p k) * W (ix2 k q) := by
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 p q) ((contrEquiv1 Cert.ReferenceIdeal.dot_S100000x64_S64x64_S100000x64_1_0_0_1_n_n 64 rfl rfl).symm k) = ix2 p k := funext fun a => Fin.ext (by
    match a with
    | ⟨0, _⟩ => exact lhs_ref_R7_0 _ _
    | ⟨1, _⟩ => exact (lhs_ref_R7_1 _ _).trans hk)
  have er : Cert.ReferenceIdeal.dot_S100000x64_S64x64_S100000x64_1_0_0_1_n_n.rhsIdx (ix2 p q) ((contrEquiv1 Cert.ReferenceIdeal.dot_S100000x64_S64x64_S100000x64_1_0_0_1_n_n 64 rfl rfl).symm k) = ix2 k q := funext fun a => Fin.ext (by
    match a with
    | ⟨0, _⟩ => exact (rhs_ref_R7_0 _ _).trans hk
    | ⟨1, _⟩ => exact rhs_ref_R7_1 _ _)
  rw [el, er]

/-- The host's `broadcast_in_dim` of the bias row at entry `(p, q)`: entry `q` of the row. -/
theorem ref_bias_apply_R7 (b : Vec Ideal S1x64 .f32)
    (h01 : Cert.ReferenceIdeal.S1x64.BroadcastsInDim Cert.ReferenceIdeal.S100000x64 (![0, 1] : Fin 2 → Fin Cert.ReferenceIdeal.S100000x64.rank))
    (p : Fin 100000) (q : Fin 64) :
    broadcastInDim Cert.ReferenceIdeal.S100000x64 ![0, 1] h01 b (ix2 p q) = b (ix2 (0 : Fin 1) q) :=
  broadcastInDim_apply ![0, 1] h01 b (ix2 p q) (ix2 (0 : Fin 1) q) (by
    intro a
    match a with
    | ⟨0, _⟩ => rfl
    | ⟨1, _⟩ =>
      show q.val = if (64 : ℕ) = 1 then 0 else q.val
      have hq := q.isLt
      split <;> omega)

/-- The host's three operations — the product, the bias row laid along the rows, their sum — are the dense layer. -/
theorem reference_form_eq_dense_R7 (h : Vec Ideal S100000x64 .f32) (W : Vec Ideal S64x64 .f32) (b : Vec Ideal S1x64 .f32)
    (h01 : Cert.ReferenceIdeal.S1x64.BroadcastsInDim Cert.ReferenceIdeal.S100000x64 (![0, 1] : Fin 2 → Fin Cert.ReferenceIdeal.S100000x64.rank)) :
    addf (Host.dotGeneral (F := Ideal) (φ₁ := .f32) (φ₂ := .f32) Cert.ReferenceIdeal.dot_S100000x64_S64x64_S100000x64_1_0_0_1_n_n none h W)
        (broadcastInDim Cert.ReferenceIdeal.S100000x64 ![0, 1] h01 b)
      = dense_R7 h W b := by
  funext i
  obtain ⟨p, q, rfl⟩ : ∃ (p : Fin 100000) (q : Fin 64), i = ix2 p q := ⟨i 0, i 1, eq_ix2 i⟩
  rw [addf_apply, ref_dot_apply_R7, ref_bias_apply_R7, dense_R7_apply]

end Reference

/-! ## The body's payload, read at an index -/

/-- The block product's left operand index: the output's row on axis 0. -/
theorem lhs_blk_R7_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch from List.not_mem_nil), dif_pos (show (0 : Fin S10000x64.rank) ∈ dot_S10000x64_S64x64_S10000x64_1_0_0_1_n_n.lhsNonContracting from List.mem_singleton.mpr rfl)]
  rfl
/-- The block product's left operand index: the inner position on axis 1. -/
theorem lhs_blk_R7_1 (i : S10000x64.Idx) (q : dot_S10000x64_S64x64_S10000x64_1_0_0_1_n_n.contr.Idx) :
    (dot_S10000x64_S64x64_S10000x64_1_0_0_1_n_n.lhsIdx i q 1).val = (q ⟨0, Nat.one_pos⟩).val :=
  dot_S10000x64_S64x64_S10000x64_1_0_0_1_n_n.lhsIdx_val_of_single rfl i q
/-- The block product's right operand index: the inner position on axis 0. -/
theorem rhs_blk_R7_0 (i : S10000x64.Idx) (q : dot_S10000x64_S64x64_S10000x64_1_0_0_1_n_n.contr.Idx) :
    (dot_S10000x64_S64x64_S10000x64_1_0_0_1_n_n.rhsIdx i q 0).val = (q ⟨0, Nat.one_pos⟩).val :=
  dot_S10000x64_S64x64_S10000x64_1_0_0_1_n_n.rhsIdx_val_of_single rfl i q
/-- The block product's right operand index: the output's column on axis 1. -/
theorem rhs_blk_R7_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch from List.not_mem_nil), dif_pos (show (1 : Fin S64x64.rank) ∈ dot_S10000x64_S64x64_S10000x64_1_0_0_1_n_n.rhsNonContracting from List.mem_singleton.mpr rfl)]
  rfl

/-- The block product into the zero accumulator at entry `(p, q)`: the sum over the inner position of `x (p, k) * W (k, q)`. -/
theorem blk_matmul_apply_R7 (x : Vec Ideal S10000x64 .f32) (W : Vec Ideal S64x64 .f32) (p : Fin 10000) (q : Fin 64) :
    FloatOps.matmul (F := Ideal) (φ₁ := .f32) (φ₂ := .f32) dot_S10000x64_S64x64_S10000x64_1_0_0_1_n_n none x W (constant (F := Ideal) S10000x64 .f32 0x00000000#32) (ix2 p q)
      = ∑ k : Fin 64, x (ix2 p k) * W (ix2 k q) := by
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_blk_R7_0 _ _
    | ⟨1, _⟩ => exact (lhs_blk_R7_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_blk_R7_0 _ _).trans hk
    | ⟨1, _⟩ => exact rhs_blk_R7_1 _ _)
  rw [el, er]

/-- The bias row laid along the block's rows, at entry `(p, q)`: entry `q` of the row. -/
theorem blk_bias_apply_R7 (b : Vec Ideal S1x64 .f32) (hb : S1x64.Broadcasts S10000x64) (p : Fin 10000) (q : Fin 64) :
    broadcastTo S10000x64 b hb (ix2 p q) = b (ix2 (0 : Fin 1) q) :=
  broadcastTo_apply b hb (ix2 p q) (ix2 (0 : Fin 1) q) (by
    intro a
    match a with
    | ⟨0, _⟩ => rfl
    | ⟨1, _⟩ =>
      show q.val = if (64 : ℕ) = 1 then 0 else q.val
      have hq := q.isLt
      split <;> omega)

/-- The body's payload at entry `(p, q)` of the block: row `p` of the block of `h` against column `q` of `W`, plus
    entry `q` of the bias row. -/
theorem payload_apply_R7 (x0 : Vec Ideal S10000x64 .f32) (x1 : Vec Ideal S64x64 .f32) (x2 : Vec Ideal S1x64 .f32) (p : Fin 10000) (q : Fin 64) :
    k7_pay1 x0 x1 x2 (ix2 p q) = (∑ k : Fin 64, x0 (ix2 p k) * x1 (ix2 k q)) + x2 (ix2 (0 : Fin 1) q) := by
  unfold k7_pay1
  simp only [shapeCast_self, matmul]
  rw [addf_apply, blk_matmul_apply_R7, blk_bias_apply_R7]

/-- The payload of a block of rows is the dense layer at the block's place in the array: when `x0` holds row
    `i 0` of `h` in its row `p`, `x1` is `W` down column `i 1 = q`, and `x2` is the bias at that column. -/
theorem payload_eq_dense_R7 (x0 : Vec Ideal S10000x64 .f32) (x1 : Vec Ideal S64x64 .f32) (x2 : Vec Ideal S1x64 .f32)
    (h : Vec Ideal S100000x64 .f32) (W : Vec Ideal S64x64 .f32) (b : Vec Ideal S1x64 .f32)
    (p : Fin 10000) (q : Fin 64) (i : S100000x64.Idx)
    (h0 : ∀ k : Fin 64, x0 (ix2 p k) = h (ix2 (i 0 : Fin 100000) k))
    (h1 : ∀ k : Fin 64, x1 (ix2 k q) = W (ix2 k (i 1 : Fin 64)))
    (h2 : x2 (ix2 (0 : Fin 1) q) = b (ix2 (0 : Fin 1) (i 1 : Fin 64))) :
    k7_pay1 x0 x1 x2 (ix2 p q) = dense_R7 h W b i := by
  rw [payload_apply_R7, h2]
  exact congrArg (· + b (ix2 (0 : Fin 1) (i 1 : Fin 64))) (Finset.sum_congr rfl fun k _ => by rw [h0 k, h1 k])

/-! ## From the blocks to the array -/

section Blocks
variable (V : (c : Dev nD) → (b : Ref sig .tc) → Buf (Elt Ideal) ((c : Thread nD τ).loc b))

theorem zero_offset_R7 : (![0, 0] : Fin 2 → Nat) = fun _ => 0 := funext fun a => by fin_cases a <;> rfl

/-- The printed index maps, decided over the grid: the block of `h` moves with the output's block down the rows,
    the weight and the bias row are whole at every point, and point `t` writes block `t`. -/
theorem index_maps_R7 : ∀ t : Fin cfg7.N, win7_0.index t (0 : Fin 2) = win7_3.index t (0 : Fin 2)
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) ≤ 9
    ∧ win7_3.index t (1 : Fin 2) = 0 :=
  (by decide +kernel : ∀ t : Fin grid7.N, _)

/-- Every block of rows is some point's. -/
theorem index_onto_R7 : ∀ q0 : Fin 10, ∃ t : Fin cfg7.N, win7_3.index t = ![q0.val, 0] :=
  (by decide +kernel : ∀ q0 : Fin 10, ∃ t : Fin grid7.N, win7_3.index t = ![q0.val, 0])

/-- What point `t` writes back is block `t` of the dense layer of the three arrays as the region finds them. -/
theorem flushed_eq_R7 (c : Dev nD) (t : Fin cfg7.N) :
    (dat7 V c).flushed 3 t
      = ((cfg7.win 3).blk t).view.read (Elt Ideal) (dense_R7 (V c main_v193) (V c main_v195) (V c main_v198)) := by
  show (cfg7.win 3).cut (grid7.coords t) ((dat7 V c).after 3 t) = _
  rw [after7_3]
  unfold out7_3
  rw [View.canon_unit_zero zero_offset_R7]
  simp only [View.ld_unit_zero (S := S10000x64) zero_offset_R7, View.ld_unit_zero (S := S64x64) zero_offset_R7, View.ld_unit_zero (S := S1x64) zero_offset_R7]
  obtain ⟨e0, e1, e2, e3, e4, e5, e6, e7⟩ := index_maps_R7 t
  funext j
  obtain ⟨p, q, rfl⟩ : ∃ (p : Fin 10000) (q : Fin 64), j = ix2 p q := ⟨j 0, j 1, eq_ix2 j⟩
  show k7_pay1 (iblk7 V c 0 t) (iblk7 V c 1 t) (iblk7 V c 2 t) (ix2 p q)
      = dense_R7 (V c main_v193) (V c main_v195) (V c main_v198) (((cfg7.win 3).blk t).view.emb (ix2 p q))
  refine payload_eq_dense_R7 (iblk7 V c 0 t) (iblk7 V c 1 t) (iblk7 V c 2 t) (V c main_v193) (V c main_v195) (V c main_v198) p q
    (((cfg7.win 3).blk t).view.emb (ix2 p q)) ?_ ?_ ?_
  · intro k
    show V c main_v193 (((cfg7.win 0).blk t).view.emb (ix2 p k)) = V c main_v193 _
    refine congrArg (V c main_v193) (funext fun a => Fin.ext ?_)
    match a with
    | ⟨0, _⟩ => show win7_0.index t (0 : Fin 2) * 10000 + 1 * p.val = win7_3.index t (0 : Fin 2) * 10000 + 1 * p.val; omega
    | ⟨1, _⟩ => show win7_0.index t (1 : Fin 2) * 64 + 1 * k.val = k.val; omega
  · intro k
    show V c main_v195 (((cfg7.win 1).blk t).view.emb (ix2 k q)) = V c main_v195 _
    refine congrArg (V c main_v195) (funext fun a => Fin.ext ?_)
    match a with
    | ⟨0, _⟩ => show win7_1.index t (0 : Fin 2) * 64 + 1 * k.val = k.val; omega
    | ⟨1, _⟩ => show win7_1.index t (1 : Fin 2) * 64 + 1 * q.val = win7_3.index t (1 : Fin 2) * 64 + 1 * q.val; omega
  · show V c main_v198 (((cfg7.win 2).blk t).view.emb (ix2 (0 : Fin 1) q)) = V c main_v198 _
    refine congrArg (V c main_v198) (funext fun a => Fin.ext ?_)
    match a with
    | ⟨0, _⟩ => show win7_2.index t (0 : Fin 2) * 1 + 1 * 0 = 0; omega
    | ⟨1, _⟩ => show win7_2.index t (1 : Fin 2) * 64 + 1 * q.val = win7_3.index t (1 : Fin 2) * 64 + 1 * q.val; omega

/-- An index of the array is in point `t`'s block iff each coordinate is in the block's range on its axis. -/
theorem mem_blk_R7 (t : Fin cfg7.N) (i : S100000x64.Idx) :
    i ∈ ((cfg7.win 3).blk t).view.set ↔ ∀ a : Fin 2, win7_3.index t a * S10000x64.size a ≤ (i a).val ∧ (i a).val < win7_3.index t a * S10000x64.size a + S10000x64.size a := by
  show i ∈ ((View.whole main_v199).slice (win7_3.rect t)).set ↔ _
  rw [View.set_slice_whole, Rect.mem_set_unit]
  exact Iff.rfl

/-- The ten blocks of rows tile the array: row `r` is in the block of point `r / 10000`. -/
theorem covered_R7 (i : S100000x64.Idx) :
    ∃ t : Fin cfg7.N, (cfg7.win 3).flush t = true ∧ i ∈ ((cfg7.win 3).blk t).view.set := by
  have hi0 : (i 0).val < 100000 := (i 0).isLt
  have hi1 : (i 1).val < 64 := (i 1).isLt
  obtain ⟨t, ht⟩ := index_onto_R7 ⟨(i 0).val / 10000, by omega⟩
  have q0 : win7_3.index t (0 : Fin 2) = (i 0).val / 10000 := congrFun ht 0
  have q1 : win7_3.index t (1 : Fin 2) = 0 := congrFun ht 1
  refine ⟨t, flush7_3 t, ?_⟩
  rw [mem_blk_R7]
  intro a
  match a with
  | ⟨0, _⟩ => show win7_3.index t (0 : Fin 2) * 10000 ≤ (i 0).val ∧ (i 0).val < win7_3.index t (0 : Fin 2) * 10000 + 10000; omega
  | ⟨1, _⟩ => show win7_3.index t (1 : Fin 2) * 64 ≤ (i 1).val ∧ (i 1).val < win7_3.index t (1 : Fin 2) * 64 + 64; omega

/-- The output array after region 7 is the dense layer of the three input arrays as the region finds them. -/
theorem region7_dense (c : Dev nD) :
    (dat7 V c).arrAt 3 cfg7.N = dense_R7 (V c main_v193) (V c main_v195) (V c main_v198) :=
  (dat7 V c).arrAt_eq_of_cover 3 (dense_R7 (V c main_v193) (V c main_v195) (V c main_v198)) (fun t _ => flushed_eq_R7 V c t) (fun i => covered_R7 i)

/-- THE VALUE of region 7: its output array after the region is what the host's `dot_general`, `broadcast_in_dim` and
    `add` make of the three input arrays as the region finds them. -/
theorem region7_value [Cert.ReferenceIdeal.Facts₀] (c : Dev nD)
    (h01 : Cert.ReferenceIdeal.S1x64.BroadcastsInDim Cert.ReferenceIdeal.S100000x64 (![0, 1] : Fin 2 → Fin Cert.ReferenceIdeal.S100000x64.rank)) :
    (dat7 V c).arrAt 3 cfg7.N
      = addf (Host.dotGeneral (F := Ideal) (φ₁ := .f32) (φ₂ := .f32) Cert.ReferenceIdeal.dot_S100000x64_S64x64_S100000x64_1_0_0_1_n_n none (V c main_v193) (V c main_v195))
          (broadcastInDim Cert.ReferenceIdeal.S100000x64 ![0, 1] h01 (V c main_v198)) :=
  (region7_dense V c).trans (reference_form_eq_dense_R7 (V c main_v193) (V c main_v195) (V c main_v198) h01).symm

end Blocks

end Cert.KernelIdeal.RegionVal

end
-- ==== Proof.RegionDense8.lean ====
import proofs.«409037_j72164040508123_1_alg».proof.Proof.FrameKernelIdeal
import proofs.«409037_j72164040508123_1_alg».proof.ReferenceIdeal
import Idealize.ShloMosaic.Lib.ValueIdx
import Idealize.ShloMosaic.Lib.Pipeline.Value
import Idealize.ShloMosaic.Lib.ValueLayout
import Idealize.ShloMosaic.PureOps.Ideal.Laws

/-! # Region 8, a dense layer: the value of its output array

The body of region 8 computes, block of 10000 rows by block, `out = h · W + bias`: the product of the activations
`h : [100000, 64]` with the weight `W : [64, 64]`, plus the bias row `[1, 64]` laid along every row. The ten blocks
tile the output array, so after the region the array holds that function of the three input arrays at every index;
and the host's `dot_general`, `broadcast_in_dim` and `add` of the same three arrays are the same function. -/

noncomputable section

namespace Cert.KernelIdeal.RegionVal

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx
open scoped BigOperators

/-! ## The dense layer, index by index -/

/-- Entry `(p, q)` of `h · W + bias`: row `p` of `h` against column `q` of `W`, summed over the 64 inner
    positions, plus entry `q` of the bias row. -/
def dense_R8 (h : Vec Ideal S100000x64 .f32) (W : Vec Ideal S64x64 .f32) (b : Vec Ideal S1x64 .f32) : Vec Ideal S100000x64 .f32 :=
  fun i => (∑ k : Fin 64, h (ix2 (i 0 : Fin 100000) k) * W (ix2 k (i 1 : Fin 64))) + b (ix2 (0 : Fin 1) (i 1 : Fin 64))

theorem dense_R8_apply (h : Vec Ideal S100000x64 .f32) (W : Vec Ideal S64x64 .f32) (b : Vec Ideal S1x64 .f32) (p : Fin 100000) (q : Fin 64) :
    dense_R8 h W b (ix2 p q) = (∑ k : Fin 64, h (ix2 p k) * W (ix2 k q)) + b (ix2 (0 : Fin 1) q) := rfl

/-! ## The host's operations are that function -/

section Reference
variable [Cert.ReferenceIdeal.Facts₀]

/-- The host product's left operand index: the output's row on axis 0. -/
theorem lhs_ref_R8_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch from List.not_mem_nil), dif_pos (show (0 : Fin Cert.ReferenceIdeal.S100000x64.rank) ∈ Cert.ReferenceIdeal.dot_S100000x64_S64x64_S100000x64_1_0_0_1_n_n.lhsNonContracting from List.mem_singleton.mpr rfl)]
  rfl
/-- The host product's left operand index: the inner position on axis 1. -/
theorem lhs_ref_R8_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, Nat.one_pos⟩).val :=
  Cert.ReferenceIdeal.dot_S100000x64_S64x64_S100000x64_1_0_0_1_n_n.lhsIdx_val_of_single rfl i q
/-- The host product's right operand index: the inner position on axis 0. -/
theorem rhs_ref_R8_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, Nat.one_pos⟩).val :=
  Cert.ReferenceIdeal.dot_S100000x64_S64x64_S100000x64_1_0_0_1_n_n.rhsIdx_val_of_single rfl i q
/-- The host product's right operand index: the output's column on axis 1. -/
theorem rhs_ref_R8_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch from List.not_mem_nil), dif_pos (show (1 : Fin Cert.ReferenceIdeal.S64x64.rank) ∈ Cert.ReferenceIdeal.dot_S100000x64_S64x64_S100000x64_1_0_0_1_n_n.rhsNonContracting from List.mem_singleton.mpr rfl)]
  rfl

/-- The host's `dot_general` at entry `(p, q)`: the sum over the inner position of `h (p, k) * W (k, q)`. -/
theorem ref_dot_apply_R8 (h : Vec Ideal S100000x64 .f32) (W : Vec Ideal S64x64 .f32) (p : Fin 100000) (q : Fin 64) :
    Host.dotGeneral (F := Ideal) (φ₁ := .f32) (φ₂ := .f32) Cert.ReferenceIdeal.dot_S100000x64_S64x64_S100000x64_1_0_0_1_n_n none h W (ix2 p q)
      = ∑ k : Fin 64, h (ix2 p k) * W (ix2 k q) := by
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 p q) ((contrEquiv1 Cert.ReferenceIdeal.dot_S100000x64_S64x64_S100000x64_1_0_0_1_n_n 64 rfl rfl).symm k) = ix2 p k := funext fun a => Fin.ext (by
    match a with
    | ⟨0, _⟩ => exact lhs_ref_R8_0 _ _
    | ⟨1, _⟩ => exact (lhs_ref_R8_1 _ _).trans hk)
  have er : Cert.ReferenceIdeal.dot_S100000x64_S64x64_S100000x64_1_0_0_1_n_n.rhsIdx (ix2 p q) ((contrEquiv1 Cert.ReferenceIdeal.dot_S100000x64_S64x64_S100000x64_1_0_0_1_n_n 64 rfl rfl).symm k) = ix2 k q := funext fun a => Fin.ext (by
    match a with
    | ⟨0, _⟩ => exact (rhs_ref_R8_0 _ _).trans hk
    | ⟨1, _⟩ => exact rhs_ref_R8_1 _ _)
  rw [el, er]

/-- The host's `broadcast_in_dim` of the bias row at entry `(p, q)`: entry `q` of the row. -/
theorem ref_bias_apply_R8 (b : Vec Ideal S1x64 .f32)
    (h01 : Cert.ReferenceIdeal.S1x64.BroadcastsInDim Cert.ReferenceIdeal.S100000x64 (![0, 1] : Fin 2 → Fin Cert.ReferenceIdeal.S100000x64.rank))
    (p : Fin 100000) (q : Fin 64) :
    broadcastInDim Cert.ReferenceIdeal.S100000x64 ![0, 1] h01 b (ix2 p q) = b (ix2 (0 : Fin 1) q) :=
  broadcastInDim_apply ![0, 1] h01 b (ix2 p q) (ix2 (0 : Fin 1) q) (by
    intro a
    match a with
    | ⟨0, _⟩ => rfl
    | ⟨1, _⟩ =>
      show q.val = if (64 : ℕ) = 1 then 0 else q.val
      have hq := q.isLt
      split <;> omega)

/-- The host's three operations — the product, the bias row laid along the rows, their sum — are the dense layer. -/
theorem reference_form_eq_dense_R8 (h : Vec Ideal S100000x64 .f32) (W : Vec Ideal S64x64 .f32) (b : Vec Ideal S1x64 .f32)
    (h01 : Cert.ReferenceIdeal.S1x64.BroadcastsInDim Cert.ReferenceIdeal.S100000x64 (![0, 1] : Fin 2 → Fin Cert.ReferenceIdeal.S100000x64.rank)) :
    addf (Host.dotGeneral (F := Ideal) (φ₁ := .f32) (φ₂ := .f32) Cert.ReferenceIdeal.dot_S100000x64_S64x64_S100000x64_1_0_0_1_n_n none h W)
        (broadcastInDim Cert.ReferenceIdeal.S100000x64 ![0, 1] h01 b)
      = dense_R8 h W b := by
  funext i
  obtain ⟨p, q, rfl⟩ : ∃ (p : Fin 100000) (q : Fin 64), i = ix2 p q := ⟨i 0, i 1, eq_ix2 i⟩
  rw [addf_apply, ref_dot_apply_R8, ref_bias_apply_R8, dense_R8_apply]

end Reference

/-! ## The body's payload, read at an index -/

/-- The block product's left operand index: the output's row on axis 0. -/
theorem lhs_blk_R8_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch from List.not_mem_nil), dif_pos (show (0 : Fin S10000x64.rank) ∈ dot_S10000x64_S64x64_S10000x64_1_0_0_1_n_n.lhsNonContracting from List.mem_singleton.mpr rfl)]
  rfl
/-- The block product's left operand index: the inner position on axis 1. -/
theorem lhs_blk_R8_1 (i : S10000x64.Idx) (q : dot_S10000x64_S64x64_S10000x64_1_0_0_1_n_n.contr.Idx) :
    (dot_S10000x64_S64x64_S10000x64_1_0_0_1_n_n.lhsIdx i q 1).val = (q ⟨0, Nat.one_pos⟩).val :=
  dot_S10000x64_S64x64_S10000x64_1_0_0_1_n_n.lhsIdx_val_of_single rfl i q
/-- The block product's right operand index: the inner position on axis 0. -/
theorem rhs_blk_R8_0 (i : S10000x64.Idx) (q : dot_S10000x64_S64x64_S10000x64_1_0_0_1_n_n.contr.Idx) :
    (dot_S10000x64_S64x64_S10000x64_1_0_0_1_n_n.rhsIdx i q 0).val = (q ⟨0, Nat.one_pos⟩).val :=
  dot_S10000x64_S64x64_S10000x64_1_0_0_1_n_n.rhsIdx_val_of_single rfl i q
/-- The block product's right operand index: the output's column on axis 1. -/
theorem rhs_blk_R8_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch from List.not_mem_nil), dif_pos (show (1 : Fin S64x64.rank) ∈ dot_S10000x64_S64x64_S10000x64_1_0_0_1_n_n.rhsNonContracting from List.mem_singleton.mpr rfl)]
  rfl

/-- The block product into the zero accumulator at entry `(p, q)`: the sum over the inner position of `x (p, k) * W (k, q)`. -/
theorem blk_matmul_apply_R8 (x : Vec Ideal S10000x64 .f32) (W : Vec Ideal S64x64 .f32) (p : Fin 10000) (q : Fin 64) :
    FloatOps.matmul (F := Ideal) (φ₁ := .f32) (φ₂ := .f32) dot_S10000x64_S64x64_S10000x64_1_0_0_1_n_n none x W (constant (F := Ideal) S10000x64 .f32 0x00000000#32) (ix2 p q)
      = ∑ k : Fin 64, x (ix2 p k) * W (ix2 k q) := by
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_blk_R8_0 _ _
    | ⟨1, _⟩ => exact (lhs_blk_R8_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_blk_R8_0 _ _).trans hk
    | ⟨1, _⟩ => exact rhs_blk_R8_1 _ _)
  rw [el, er]

/-- The bias row laid along the block's rows, at entry `(p, q)`: entry `q` of the row. -/
theorem blk_bias_apply_R8 (b : Vec Ideal S1x64 .f32) (hb : S1x64.Broadcasts S10000x64) (p : Fin 10000) (q : Fin 64) :
    broadcastTo S10000x64 b hb (ix2 p q) = b (ix2 (0 : Fin 1) q) :=
  broadcastTo_apply b hb (ix2 p q) (ix2 (0 : Fin 1) q) (by
    intro a
    match a with
    | ⟨0, _⟩ => rfl
    | ⟨1, _⟩ =>
      show q.val = if (64 : ℕ) = 1 then 0 else q.val
      have hq := q.isLt
      split <;> omega)

/-- The body's payload at entry `(p, q)` of the block: row `p` of the block of `h` against column `q` of `W`, plus
    entry `q` of the bias row. -/
theorem payload_apply_R8 (x0 : Vec Ideal S10000x64 .f32) (x1 : Vec Ideal S64x64 .f32) (x2 : Vec Ideal S1x64 .f32) (p : Fin 10000) (q : Fin 64) :
    k8_pay1 x0 x1 x2 (ix2 p q) = (∑ k : Fin 64, x0 (ix2 p k) * x1 (ix2 k q)) + x2 (ix2 (0 : Fin 1) q) := by
  unfold k8_pay1
  simp only [shapeCast_self, matmul]
  rw [addf_apply, blk_matmul_apply_R8, blk_bias_apply_R8]

/-- The payload of a block of rows is the dense layer at the block's place in the array: when `x0` holds row
    `i 0` of `h` in its row `p`, `x1` is `W` down column `i 1 = q`, and `x2` is the bias at that column. -/
theorem payload_eq_dense_R8 (x0 : Vec Ideal S10000x64 .f32) (x1 : Vec Ideal S64x64 .f32) (x2 : Vec Ideal S1x64 .f32)
    (h : Vec Ideal S100000x64 .f32) (W : Vec Ideal S64x64 .f32) (b : Vec Ideal S1x64 .f32)
    (p : Fin 10000) (q : Fin 64) (i : S100000x64.Idx)
    (h0 : ∀ k : Fin 64, x0 (ix2 p k) = h (ix2 (i 0 : Fin 100000) k))
    (h1 : ∀ k : Fin 64, x1 (ix2 k q) = W (ix2 k (i 1 : Fin 64)))
    (h2 : x2 (ix2 (0 : Fin 1) q) = b (ix2 (0 : Fin 1) (i 1 : Fin 64))) :
    k8_pay1 x0 x1 x2 (ix2 p q) = dense_R8 h W b i := by
  rw [payload_apply_R8, h2]
  exact congrArg (· + b (ix2 (0 : Fin 1) (i 1 : Fin 64))) (Finset.sum_congr rfl fun k _ => by rw [h0 k, h1 k])

/-! ## From the blocks to the array -/

section Blocks
variable (V : (c : Dev nD) → (b : Ref sig .tc) → Buf (Elt Ideal) ((c : Thread nD τ).loc b))

theorem zero_offset_R8 : (![0, 0] : Fin 2 → Nat) = fun _ => 0 := funext fun a => by fin_cases a <;> rfl

/-- The printed index maps, decided over the grid: the block of `h` moves with the output's block down the rows,
    the weight and the bias row are whole at every point, and point `t` writes block `t`. -/
theorem index_maps_R8 : ∀ t : Fin cfg8.N, win8_0.index t (0 : Fin 2) = win8_3.index t (0 : Fin 2)
    ∧ win8_0.index t (1 : Fin 2) = 0
    ∧ win8_1.index t (0 : Fin 2) = 0
    ∧ win8_1.index t (1 : Fin 2) = 0
    ∧ win8_2.index t (0 : Fin 2) = 0
    ∧ win8_2.index t (1 : Fin 2) = 0
    ∧ win8_3.index t (0 : Fin 2) ≤ 9
    ∧ win8_3.index t (1 : Fin 2) = 0 :=
  (by decide +kernel : ∀ t : Fin grid8.N, _)

/-- Every block of rows is some point's. -/
theorem index_onto_R8 : ∀ q0 : Fin 10, ∃ t : Fin cfg8.N, win8_3.index t = ![q0.val, 0] :=
  (by decide +kernel : ∀ q0 : Fin 10, ∃ t : Fin grid8.N, win8_3.index t = ![q0.val, 0])

/-- What point `t` writes back is block `t` of the dense layer of the three arrays as the region finds them. -/
theorem flushed_eq_R8 (c : Dev nD) (t : Fin cfg8.N) :
    (dat8 V c).flushed 3 t
      = ((cfg8.win 3).blk t).view.read (Elt Ideal) (dense_R8 (V c main_v224) (V c main_v226) (V c main_v229)) := by
  show (cfg8.win 3).cut (grid8.coords t) ((dat8 V c).after 3 t) = _
  rw [after8_3]
  unfold out8_3
  rw [View.canon_unit_zero zero_offset_R8]
  simp only [View.ld_unit_zero (S := S10000x64) zero_offset_R8, View.ld_unit_zero (S := S64x64) zero_offset_R8, View.ld_unit_zero (S := S1x64) zero_offset_R8]
  obtain ⟨e0, e1, e2, e3, e4, e5, e6, e7⟩ := index_maps_R8 t
  funext j
  obtain ⟨p, q, rfl⟩ : ∃ (p : Fin 10000) (q : Fin 64), j = ix2 p q := ⟨j 0, j 1, eq_ix2 j⟩
  show k8_pay1 (iblk8 V c 0 t) (iblk8 V c 1 t) (iblk8 V c 2 t) (ix2 p q)
      = dense_R8 (V c main_v224) (V c main_v226) (V c main_v229) (((cfg8.win 3).blk t).view.emb (ix2 p q))
  refine payload_eq_dense_R8 (iblk8 V c 0 t) (iblk8 V c 1 t) (iblk8 V c 2 t) (V c main_v224) (V c main_v226) (V c main_v229) p q
    (((cfg8.win 3).blk t).view.emb (ix2 p q)) ?_ ?_ ?_
  · intro k
    show V c main_v224 (((cfg8.win 0).blk t).view.emb (ix2 p k)) = V c main_v224 _
    refine congrArg (V c main_v224) (funext fun a => Fin.ext ?_)
    match a with
    | ⟨0, _⟩ => show win8_0.index t (0 : Fin 2) * 10000 + 1 * p.val = win8_3.index t (0 : Fin 2) * 10000 + 1 * p.val; omega
    | ⟨1, _⟩ => show win8_0.index t (1 : Fin 2) * 64 + 1 * k.val = k.val; omega
  · intro k
    show V c main_v226 (((cfg8.win 1).blk t).view.emb (ix2 k q)) = V c main_v226 _
    refine congrArg (V c main_v226) (funext fun a => Fin.ext ?_)
    match a with
    | ⟨0, _⟩ => show win8_1.index t (0 : Fin 2) * 64 + 1 * k.val = k.val; omega
    | ⟨1, _⟩ => show win8_1.index t (1 : Fin 2) * 64 + 1 * q.val = win8_3.index t (1 : Fin 2) * 64 + 1 * q.val; omega
  · show V c main_v229 (((cfg8.win 2).blk t).view.emb (ix2 (0 : Fin 1) q)) = V c main_v229 _
    refine congrArg (V c main_v229) (funext fun a => Fin.ext ?_)
    match a with
    | ⟨0, _⟩ => show win8_2.index t (0 : Fin 2) * 1 + 1 * 0 = 0; omega
    | ⟨1, _⟩ => show win8_2.index t (1 : Fin 2) * 64 + 1 * q.val = win8_3.index t (1 : Fin 2) * 64 + 1 * q.val; omega

/-- An index of the array is in point `t`'s block iff each coordinate is in the block's range on its axis. -/
theorem mem_blk_R8 (t : Fin cfg8.N) (i : S100000x64.Idx) :
    i ∈ ((cfg8.win 3).blk t).view.set ↔ ∀ a : Fin 2, win8_3.index t a * S10000x64.size a ≤ (i a).val ∧ (i a).val < win8_3.index t a * S10000x64.size a + S10000x64.size a := by
  show i ∈ ((View.whole main_v230).slice (win8_3.rect t)).set ↔ _
  rw [View.set_slice_whole, Rect.mem_set_unit]
  exact Iff.rfl

/-- The ten blocks of rows tile the array: row `r` is in the block of point `r / 10000`. -/
theorem covered_R8 (i : S100000x64.Idx) :
    ∃ t : Fin cfg8.N, (cfg8.win 3).flush t = true ∧ i ∈ ((cfg8.win 3).blk t).view.set := by
  have hi0 : (i 0).val < 100000 := (i 0).isLt
  have hi1 : (i 1).val < 64 := (i 1).isLt
  obtain ⟨t, ht⟩ := index_onto_R8 ⟨(i 0).val / 10000, by omega⟩
  have q0 : win8_3.index t (0 : Fin 2) = (i 0).val / 10000 := congrFun ht 0
  have q1 : win8_3.index t (1 : Fin 2) = 0 := congrFun ht 1
  refine ⟨t, flush8_3 t, ?_⟩
  rw [mem_blk_R8]
  intro a
  match a with
  | ⟨0, _⟩ => show win8_3.index t (0 : Fin 2) * 10000 ≤ (i 0).val ∧ (i 0).val < win8_3.index t (0 : Fin 2) * 10000 + 10000; omega
  | ⟨1, _⟩ => show win8_3.index t (1 : Fin 2) * 64 ≤ (i 1).val ∧ (i 1).val < win8_3.index t (1 : Fin 2) * 64 + 64; omega

/-- The output array after region 8 is the dense layer of the three input arrays as the region finds them. -/
theorem region8_dense (c : Dev nD) :
    (dat8 V c).arrAt 3 cfg8.N = dense_R8 (V c main_v224) (V c main_v226) (V c main_v229) :=
  (dat8 V c).arrAt_eq_of_cover 3 (dense_R8 (V c main_v224) (V c main_v226) (V c main_v229)) (fun t _ => flushed_eq_R8 V c t) (fun i => covered_R8 i)

/-- THE VALUE of region 8: its output array after the region is what the host's `dot_general`, `broadcast_in_dim` and
    `add` make of the three input arrays as the region finds them. -/
theorem region8_value [Cert.ReferenceIdeal.Facts₀] (c : Dev nD)
    (h01 : Cert.ReferenceIdeal.S1x64.BroadcastsInDim Cert.ReferenceIdeal.S100000x64 (![0, 1] : Fin 2 → Fin Cert.ReferenceIdeal.S100000x64.rank)) :
    (dat8 V c).arrAt 3 cfg8.N
      = addf (Host.dotGeneral (F := Ideal) (φ₁ := .f32) (φ₂ := .f32) Cert.ReferenceIdeal.dot_S100000x64_S64x64_S100000x64_1_0_0_1_n_n none (V c main_v224) (V c main_v226))
          (broadcastInDim Cert.ReferenceIdeal.S100000x64 ![0, 1] h01 (V c main_v229)) :=
  (region8_dense V c).trans (reference_form_eq_dense_R8 (V c main_v224) (V c main_v226) (V c main_v229) h01).symm

end Blocks

end Cert.KernelIdeal.RegionVal

end
-- ==== Proof.RegionDense9.lean ====
import proofs.«409037_j72164040508123_1_alg».proof.Proof.FrameKernelIdeal
import proofs.«409037_j72164040508123_1_alg».proof.ReferenceIdeal
import Idealize.ShloMosaic.Lib.ValueIdx
import Idealize.ShloMosaic.Lib.Pipeline.Value
import Idealize.ShloMosaic.Lib.ValueLayout
import Idealize.ShloMosaic.PureOps.Ideal.Laws

/-! # Region 9, a dense layer: the value of its output array

The body of region 9 computes, block of 10000 rows by block, `out = h · W + bias`: the product of the activations
`h : [100000, 32]` with the weight `W : [32, 64]`, plus the bias row `[1, 64]` laid along every row. The ten blocks
tile the output array, so after the region the array holds that function of the three input arrays at every index;
and the host's `dot_general`, `broadcast_in_dim` and `add` of the same three arrays are the same function. -/

noncomputable section

namespace Cert.KernelIdeal.RegionVal

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx
open scoped BigOperators

/-! ## The dense layer, index by index -/

/-- Entry `(p, q)` of `h · W + bias`: row `p` of `h` against column `q` of `W`, summed over the 32 inner
    positions, plus entry `q` of the bias row. -/
def dense_R9 (h : Vec Ideal S100000x32 .f32) (W : Vec Ideal S32x64 .f32) (b : Vec Ideal S1x64 .f32) : Vec Ideal S100000x64 .f32 :=
  fun i => (∑ k : Fin 32, h (ix2 (i 0 : Fin 100000) k) * W (ix2 k (i 1 : Fin 64))) + b (ix2 (0 : Fin 1) (i 1 : Fin 64))

theorem dense_R9_apply (h : Vec Ideal S100000x32 .f32) (W : Vec Ideal S32x64 .f32) (b : Vec Ideal S1x64 .f32) (p : Fin 100000) (q : Fin 64) :
    dense_R9 h W b (ix2 p q) = (∑ k : Fin 32, h (ix2 p k) * W (ix2 k q)) + b (ix2 (0 : Fin 1) q) := rfl

/-! ## The host's operations are that function -/

section Reference
variable [Cert.ReferenceIdeal.Facts₀]

/-- The host product's left operand index: the output's row on axis 0. -/
theorem lhs_ref_R9_0 (i : Cert.ReferenceIdeal.S100000x64.Idx) (q : Cert.ReferenceIdeal.dot_S100000x32_S32x64_S100000x64_1_0_0_1_n_n.contr.Idx) :
    (Cert.ReferenceIdeal.dot_S100000x32_S32x64_S100000x64_1_0_0_1_n_n.lhsIdx i q 0).val = (i 0).val := by
  unfold DotDims.lhsIdx
  rw [dif_neg (show ¬(0 : Fin Cert.ReferenceIdeal.S100000x32.rank) ∈ Cert.ReferenceIdeal.dot_S100000x32_S32x64_S100000x64_1_0_0_1_n_n.lhsBatch from List.not_mem_nil), dif_pos (show (0 : Fin Cert.ReferenceIdeal.S100000x32.rank) ∈ Cert.ReferenceIdeal.dot_S100000x32_S32x64_S100000x64_1_0_0_1_n_n.lhsNonContracting from List.mem_singleton.mpr rfl)]
  rfl
/-- The host product's left operand index: the inner position on axis 1. -/
theorem lhs_ref_R9_1 (i : Cert.ReferenceIdeal.S100000x64.Idx) (q : Cert.ReferenceIdeal.dot_S100000x32_S32x64_S100000x64_1_0_0_1_n_n.contr.Idx) :
    (Cert.ReferenceIdeal.dot_S100000x32_S32x64_S100000x64_1_0_0_1_n_n.lhsIdx i q 1).val = (q ⟨0, Nat.one_pos⟩).val :=
  Cert.ReferenceIdeal.dot_S100000x32_S32x64_S100000x64_1_0_0_1_n_n.lhsIdx_val_of_single rfl i q
/-- The host product's right operand index: the inner position on axis 0. -/
theorem rhs_ref_R9_0 (i : Cert.ReferenceIdeal.S100000x64.Idx) (q : Cert.ReferenceIdeal.dot_S100000x32_S32x64_S100000x64_1_0_0_1_n_n.contr.Idx) :
    (Cert.ReferenceIdeal.dot_S100000x32_S32x64_S100000x64_1_0_0_1_n_n.rhsIdx i q 0).val = (q ⟨0, Nat.one_pos⟩).val :=
  Cert.ReferenceIdeal.dot_S100000x32_S32x64_S100000x64_1_0_0_1_n_n.rhsIdx_val_of_single rfl i q
/-- The host product's right operand index: the output's column on axis 1. -/
theorem rhs_ref_R9_1 (i : Cert.ReferenceIdeal.S100000x64.Idx) (q : Cert.ReferenceIdeal.dot_S100000x32_S32x64_S100000x64_1_0_0_1_n_n.contr.Idx) :
    (Cert.ReferenceIdeal.dot_S100000x32_S32x64_S100000x64_1_0_0_1_n_n.rhsIdx i q 1).val = (i 1).val := by
  unfold DotDims.rhsIdx
  rw [dif_neg (show ¬(1 : Fin Cert.ReferenceIdeal.S32x64.rank) ∈ Cert.ReferenceIdeal.dot_S100000x32_S32x64_S100000x64_1_0_0_1_n_n.rhsBatch from List.not_mem_nil), dif_pos (show (1 : Fin Cert.ReferenceIdeal.S32x64.rank) ∈ Cert.ReferenceIdeal.dot_S100000x32_S32x64_S100000x64_1_0_0_1_n_n.rhsNonContracting from List.mem_singleton.mpr rfl)]
  rfl

/-- The host's `dot_general` at entry `(p, q)`: the sum over the inner position of `h (p, k) * W (k, q)`. -/
theorem ref_dot_apply_R9 (h : Vec Ideal S100000x32 .f32) (W : Vec Ideal S32x64 .f32) (p : Fin 100000) (q : Fin 64) :
    Host.dotGeneral (F := Ideal) (φ₁ := .f32) (φ₂ := .f32) Cert.ReferenceIdeal.dot_S100000x32_S32x64_S100000x64_1_0_0_1_n_n none h W (ix2 p q)
      = ∑ k : Fin 32, h (ix2 p k) * W (ix2 k q) := by
  simp only [Host.dotGeneral]
  rw [Ideal.dotGeneral_apply, ← Equiv.sum_comp (contrEquiv1 Cert.ReferenceIdeal.dot_S100000x32_S32x64_S100000x64_1_0_0_1_n_n 32 rfl rfl).symm]
  refine Finset.sum_congr rfl fun k _ => ?_
  have hk := contrEquiv1_symm_val Cert.ReferenceIdeal.dot_S100000x32_S32x64_S100000x64_1_0_0_1_n_n 32 rfl rfl k
  have el : Cert.ReferenceIdeal.dot_S100000x32_S32x64_S100000x64_1_0_0_1_n_n.lhsIdx (ix2 p q) ((contrEquiv1 Cert.ReferenceIdeal.dot_S100000x32_S32x64_S100000x64_1_0_0_1_n_n 32 rfl rfl).symm k) = ix2 p k := funext fun a => Fin.ext (by
    match a with
    | ⟨0, _⟩ => exact lhs_ref_R9_0 _ _
    | ⟨1, _⟩ => exact (lhs_ref_R9_1 _ _).trans hk)
  have er : Cert.ReferenceIdeal.dot_S100000x32_S32x64_S100000x64_1_0_0_1_n_n.rhsIdx (ix2 p q) ((contrEquiv1 Cert.ReferenceIdeal.dot_S100000x32_S32x64_S100000x64_1_0_0_1_n_n 32 rfl rfl).symm k) = ix2 k q := funext fun a => Fin.ext (by
    match a with
    | ⟨0, _⟩ => exact (rhs_ref_R9_0 _ _).trans hk
    | ⟨1, _⟩ => exact rhs_ref_R9_1 _ _)
  rw [el, er]

/-- The host's `broadcast_in_dim` of the bias row at entry `(p, q)`: entry `q` of the row. -/
theorem ref_bias_apply_R9 (b : Vec Ideal S1x64 .f32)
    (h01 : Cert.ReferenceIdeal.S1x64.BroadcastsInDim Cert.ReferenceIdeal.S100000x64 (![0, 1] : Fin 2 → Fin Cert.ReferenceIdeal.S100000x64.rank))
    (p : Fin 100000) (q : Fin 64) :
    broadcastInDim Cert.ReferenceIdeal.S100000x64 ![0, 1] h01 b (ix2 p q) = b (ix2 (0 : Fin 1) q) :=
  broadcastInDim_apply ![0, 1] h01 b (ix2 p q) (ix2 (0 : Fin 1) q) (by
    intro a
    match a with
    | ⟨0, _⟩ => rfl
    | ⟨1, _⟩ =>
      show q.val = if (64 : ℕ) = 1 then 0 else q.val
      have hq := q.isLt
      split <;> omega)

/-- The host's three operations — the product, the bias row laid along the rows, their sum — are the dense layer. -/
theorem reference_form_eq_dense_R9 (h : Vec Ideal S100000x32 .f32) (W : Vec Ideal S32x64 .f32) (b : Vec Ideal S1x64 .f32)
    (h01 : Cert.ReferenceIdeal.S1x64.BroadcastsInDim Cert.ReferenceIdeal.S100000x64 (![0, 1] : Fin 2 → Fin Cert.ReferenceIdeal.S100000x64.rank)) :
    addf (Host.dotGeneral (F := Ideal) (φ₁ := .f32) (φ₂ := .f32) Cert.ReferenceIdeal.dot_S100000x32_S32x64_S100000x64_1_0_0_1_n_n none h W)
        (broadcastInDim Cert.ReferenceIdeal.S100000x64 ![0, 1] h01 b)
      = dense_R9 h W b := by
  funext i
  obtain ⟨p, q, rfl⟩ : ∃ (p : Fin 100000) (q : Fin 64), i = ix2 p q := ⟨i 0, i 1, eq_ix2 i⟩
  rw [addf_apply, ref_dot_apply_R9, ref_bias_apply_R9, dense_R9_apply]

end Reference

/-! ## The body's payload, read at an index -/

/-- The block product's left operand index: the output's row on axis 0. -/
theorem lhs_blk_R9_0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch from List.not_mem_nil), dif_pos (show (0 : Fin S10000x32.rank) ∈ dot_S10000x32_S32x64_S10000x64_1_0_0_1_n_n.lhsNonContracting from List.mem_singleton.mpr rfl)]
  rfl
/-- The block product's left operand index: the inner position on axis 1. -/
theorem lhs_blk_R9_1 (i : S10000x64.Idx) (q : dot_S10000x32_S32x64_S10000x64_1_0_0_1_n_n.contr.Idx) :
    (dot_S10000x32_S32x64_S10000x64_1_0_0_1_n_n.lhsIdx i q 1).val = (q ⟨0, Nat.one_pos⟩).val :=
  dot_S10000x32_S32x64_S10000x64_1_0_0_1_n_n.lhsIdx_val_of_single rfl i q
/-- The block product's right operand index: the inner position on axis 0. -/
theorem rhs_blk_R9_0 (i : S10000x64.Idx) (q : dot_S10000x32_S32x64_S10000x64_1_0_0_1_n_n.contr.Idx) :
    (dot_S10000x32_S32x64_S10000x64_1_0_0_1_n_n.rhsIdx i q 0).val = (q ⟨0, Nat.one_pos⟩).val :=
  dot_S10000x32_S32x64_S10000x64_1_0_0_1_n_n.rhsIdx_val_of_single rfl i q
/-- The block product's right operand index: the output's column on axis 1. -/
theorem rhs_blk_R9_1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch from List.not_mem_nil), dif_pos (show (1 : Fin S32x64.rank) ∈ dot_S10000x32_S32x64_S10000x64_1_0_0_1_n_n.rhsNonContracting from List.mem_singleton.mpr rfl)]
  rfl

/-- The block product into the zero accumulator at entry `(p, q)`: the sum over the inner position of `x (p, k) * W (k, q)`. -/
theorem blk_matmul_apply_R9 (x : Vec Ideal S10000x32 .f32) (W : Vec Ideal S32x64 .f32) (p : Fin 10000) (q : Fin 64) :
    FloatOps.matmul (F := Ideal) (φ₁ := .f32) (φ₂ := .f32) dot_S10000x32_S32x64_S10000x64_1_0_0_1_n_n none x W (constant (F := Ideal) S10000x64 .f32 0x00000000#32) (ix2 p q)
      = ∑ k : Fin 32, x (ix2 p k) * W (ix2 k q) := by
  rw [Ideal.matmul_constant_zero_apply, ← Equiv.sum_comp (contrEquiv1 dot_S10000x32_S32x64_S10000x64_1_0_0_1_n_n 32 rfl rfl).symm]
  refine Finset.sum_congr rfl fun k _ => ?_
  have hk := contrEquiv1_symm_val dot_S10000x32_S32x64_S10000x64_1_0_0_1_n_n 32 rfl rfl k
  have el : dot_S10000x32_S32x64_S10000x64_1_0_0_1_n_n.lhsIdx (ix2 p q) ((contrEquiv1 dot_S10000x32_S32x64_S10000x64_1_0_0_1_n_n 32 rfl rfl).symm k) = ix2 p k := funext fun a => Fin.ext (by
    match a with
    | ⟨0, _⟩ => exact lhs_blk_R9_0 _ _
    | ⟨1, _⟩ => exact (lhs_blk_R9_1 _ _).trans hk)
  have er : dot_S10000x32_S32x64_S10000x64_1_0_0_1_n_n.rhsIdx (ix2 p q) ((contrEquiv1 dot_S10000x32_S32x64_S10000x64_1_0_0_1_n_n 32 rfl rfl).symm k) = ix2 k q := funext fun a => Fin.ext (by
    match a with
    | ⟨0, _⟩ => exact (rhs_blk_R9_0 _ _).trans hk
    | ⟨1, _⟩ => exact rhs_blk_R9_1 _ _)
  rw [el, er]

/-- The bias row laid along the block's rows, at entry `(p, q)`: entry `q` of the row. -/
theorem blk_bias_apply_R9 (b : Vec Ideal S1x64 .f32) (hb : S1x64.Broadcasts S10000x64) (p : Fin 10000) (q : Fin 64) :
    broadcastTo S10000x64 b hb (ix2 p q) = b (ix2 (0 : Fin 1) q) :=
  broadcastTo_apply b hb (ix2 p q) (ix2 (0 : Fin 1) q) (by
    intro a
    match a with
    | ⟨0, _⟩ => rfl
    | ⟨1, _⟩ =>
      show q.val = if (64 : ℕ) = 1 then 0 else q.val
      have hq := q.isLt
      split <;> omega)

/-- The body's payload at entry `(p, q)` of the block: row `p` of the block of `h` against column `q` of `W`, plus
    entry `q` of the bias row. -/
theorem payload_apply_R9 (x0 : Vec Ideal S10000x32 .f32) (x1 : Vec Ideal S32x64 .f32) (x2 : Vec Ideal S1x64 .f32) (p : Fin 10000) (q : Fin 64) :
    k9_pay1 x0 x1 x2 (ix2 p q) = (∑ k : Fin 32, x0 (ix2 p k) * x1 (ix2 k q)) + x2 (ix2 (0 : Fin 1) q) := by
  unfold k9_pay1
  simp only [shapeCast_self, matmul]
  rw [addf_apply, blk_matmul_apply_R9, blk_bias_apply_R9]

/-- The payload of a block of rows is the dense layer at the block's place in the array: when `x0` holds row
    `i 0` of `h` in its row `p`, `x1` is `W` down column `i 1 = q`, and `x2` is the bias at that column. -/
theorem payload_eq_dense_R9 (x0 : Vec Ideal S10000x32 .f32) (x1 : Vec Ideal S32x64 .f32) (x2 : Vec Ideal S1x64 .f32)
    (h : Vec Ideal S100000x32 .f32) (W : Vec Ideal S32x64 .f32) (b : Vec Ideal S1x64 .f32)
    (p : Fin 10000) (q : Fin 64) (i : S100000x64.Idx)
    (h0 : ∀ k : Fin 32, x0 (ix2 p k) = h (ix2 (i 0 : Fin 100000) k))
    (h1 : ∀ k : Fin 32, x1 (ix2 k q) = W (ix2 k (i 1 : Fin 64)))
    (h2 : x2 (ix2 (0 : Fin 1) q) = b (ix2 (0 : Fin 1) (i 1 : Fin 64))) :
    k9_pay1 x0 x1 x2 (ix2 p q) = dense_R9 h W b i := by
  rw [payload_apply_R9, h2]
  exact congrArg (· + b (ix2 (0 : Fin 1) (i 1 : Fin 64))) (Finset.sum_congr rfl fun k _ => by rw [h0 k, h1 k])

/-! ## From the blocks to the array -/

section Blocks
variable (V : (c : Dev nD) → (b : Ref sig .tc) → Buf (Elt Ideal) ((c : Thread nD τ).loc b))

theorem zero_offset_R9 : (![0, 0] : Fin 2 → Nat) = fun _ => 0 := funext fun a => by fin_cases a <;> rfl

/-- The printed index maps, decided over the grid: the block of `h` moves with the output's block down the rows,
    the weight and the bias row are whole at every point, and point `t` writes block `t`. -/
theorem index_maps_R9 : ∀ t : Fin cfg9.N, win9_0.index t (0 : Fin 2) = win9_3.index t (0 : Fin 2)
    ∧ win9_0.index t (1 : Fin 2) = 0
    ∧ win9_1.index t (0 : Fin 2) = 0
    ∧ win9_1.index t (1 : Fin 2) = 0
    ∧ win9_2.index t (0 : Fin 2) = 0
    ∧ win9_2.index t (1 : Fin 2) = 0
    ∧ win9_3.index t (0 : Fin 2) ≤ 9
    ∧ win9_3.index t (1 : Fin 2) = 0 :=
  (by decide +kernel : ∀ t : Fin grid9.N, _)

/-- Every block of rows is some point's. -/
theorem index_onto_R9 : ∀ q0 : Fin 10, ∃ t : Fin cfg9.N, win9_3.index t = ![q0.val, 0] :=
  (by decide +kernel : ∀ q0 : Fin 10, ∃ t : Fin grid9.N, win9_3.index t = ![q0.val, 0])

/-- What point `t` writes back is block `t` of the dense layer of the three arrays as the region finds them. -/
theorem flushed_eq_R9 (c : Dev nD) (t : Fin cfg9.N) :
    (dat9 V c).flushed 3 t
      = ((cfg9.win 3).blk t).view.read (Elt Ideal) (dense_R9 (V c main_arg2) (V c main_arg15) (V c main_v231)) := by
  show (cfg9.win 3).cut (grid9.coords t) ((dat9 V c).after 3 t) = _
  rw [after9_3]
  unfold out9_3
  rw [View.canon_unit_zero zero_offset_R9]
  simp only [View.ld_unit_zero (S := S10000x32) zero_offset_R9, View.ld_unit_zero (S := S32x64) zero_offset_R9, View.ld_unit_zero (S := S1x64) zero_offset_R9]
  obtain ⟨e0, e1, e2, e3, e4, e5, e6, e7⟩ := index_maps_R9 t
  funext j
  obtain ⟨p, q, rfl⟩ : ∃ (p : Fin 10000) (q : Fin 64), j = ix2 p q := ⟨j 0, j 1, eq_ix2 j⟩
  show k9_pay1 (iblk9 V c 0 t) (iblk9 V c 1 t) (iblk9 V c 2 t) (ix2 p q)
      = dense_R9 (V c main_arg2) (V c main_arg15) (V c main_v231) (((cfg9.win 3).blk t).view.emb (ix2 p q))
  refine payload_eq_dense_R9 (iblk9 V c 0 t) (iblk9 V c 1 t) (iblk9 V c 2 t) (V c main_arg2) (V c main_arg15) (V c main_v231) p q
    (((cfg9.win 3).blk t).view.emb (ix2 p q)) ?_ ?_ ?_
  · intro k
    show V c main_arg2 (((cfg9.win 0).blk t).view.emb (ix2 p k)) = V c main_arg2 _
    refine congrArg (V c main_arg2) (funext fun a => Fin.ext ?_)
    match a with
    | ⟨0, _⟩ => show win9_0.index t (0 : Fin 2) * 10000 + 1 * p.val = win9_3.index t (0 : Fin 2) * 10000 + 1 * p.val; omega
    | ⟨1, _⟩ => show win9_0.index t (1 : Fin 2) * 32 + 1 * k.val = k.val; omega
  · intro k
    show V c main_arg15 (((cfg9.win 1).blk t).view.emb (ix2 k q)) = V c main_arg15 _
    refine congrArg (V c main_arg15) (funext fun a => Fin.ext ?_)
    match a with
    | ⟨0, _⟩ => show win9_1.index t (0 : Fin 2) * 32 + 1 * k.val = k.val; omega
    | ⟨1, _⟩ => show win9_1.index t (1 : Fin 2) * 64 + 1 * q.val = win9_3.index t (1 : Fin 2) * 64 + 1 * q.val; omega
  · show V c main_v231 (((cfg9.win 2).blk t).view.emb (ix2 (0 : Fin 1) q)) = V c main_v231 _
    refine congrArg (V c main_v231) (funext fun a => Fin.ext ?_)
    match a with
    | ⟨0, _⟩ => show win9_2.index t (0 : Fin 2) * 1 + 1 * 0 = 0; omega
    | ⟨1, _⟩ => show win9_2.index t (1 : Fin 2) * 64 + 1 * q.val = win9_3.index t (1 : Fin 2) * 64 + 1 * q.val; omega

/-- An index of the array is in point `t`'s block iff each coordinate is in the block's range on its axis. -/
theorem mem_blk_R9 (t : Fin cfg9.N) (i : S100000x64.Idx) :
    i ∈ ((cfg9.win 3).blk t).view.set ↔ ∀ a : Fin 2, win9_3.index t a * S10000x64.size a ≤ (i a).val ∧ (i a).val < win9_3.index t a * S10000x64.size a + S10000x64.size a := by
  show i ∈ ((View.whole main_v232).slice (win9_3.rect t)).set ↔ _
  rw [View.set_slice_whole, Rect.mem_set_unit]
  exact Iff.rfl

/-- The ten blocks of rows tile the array: row `r` is in the block of point `r / 10000`. -/
theorem covered_R9 (i : S100000x64.Idx) :
    ∃ t : Fin cfg9.N, (cfg9.win 3).flush t = true ∧ i ∈ ((cfg9.win 3).blk t).view.set := by
  have hi0 : (i 0).val < 100000 := (i 0).isLt
  have hi1 : (i 1).val < 64 := (i 1).isLt
  obtain ⟨t, ht⟩ := index_onto_R9 ⟨(i 0).val / 10000, by omega⟩
  have q0 : win9_3.index t (0 : Fin 2) = (i 0).val / 10000 := congrFun ht 0
  have q1 : win9_3.index t (1 : Fin 2) = 0 := congrFun ht 1
  refine ⟨t, flush9_3 t, ?_⟩
  rw [mem_blk_R9]
  intro a
  match a with
  | ⟨0, _⟩ => show win9_3.index t (0 : Fin 2) * 10000 ≤ (i 0).val ∧ (i 0).val < win9_3.index t (0 : Fin 2) * 10000 + 10000; omega
  | ⟨1, _⟩ => show win9_3.index t (1 : Fin 2) * 64 ≤ (i 1).val ∧ (i 1).val < win9_3.index t (1 : Fin 2) * 64 + 64; omega

/-- The output array after region 9 is the dense layer of the three input arrays as the region finds them. -/
theorem region9_dense (c : Dev nD) :
    (dat9 V c).arrAt 3 cfg9.N = dense_R9 (V c main_arg2) (V c main_arg15) (V c main_v231) :=
  (dat9 V c).arrAt_eq_of_cover 3 (dense_R9 (V c main_arg2) (V c main_arg15) (V c main_v231)) (fun t _ => flushed_eq_R9 V c t) (fun i => covered_R9 i)

/-- THE VALUE of region 9: its output array after the region is what the host's `dot_general`, `broadcast_in_dim` and
    `add` make of the three input arrays as the region finds them. -/
theorem region9_value [Cert.ReferenceIdeal.Facts₀] (c : Dev nD)
    (h01 : Cert.ReferenceIdeal.S1x64.BroadcastsInDim Cert.ReferenceIdeal.S100000x64 (![0, 1] : Fin 2 → Fin Cert.ReferenceIdeal.S100000x64.rank)) :
    (dat9 V c).arrAt 3 cfg9.N
      = addf (Host.dotGeneral (F := Ideal) (φ₁ := .f32) (φ₂ := .f32) Cert.ReferenceIdeal.dot_S100000x32_S32x64_S100000x64_1_0_0_1_n_n none (V c main_arg2) (V c main_arg15))
          (broadcastInDim Cert.ReferenceIdeal.S100000x64 ![0, 1] h01 (V c main_v231)) :=
  (region9_dense V c).trans (reference_form_eq_dense_R9 (V c main_arg2) (V c main_arg15) (V c main_v231) h01).symm

end Blocks

end Cert.KernelIdeal.RegionVal

end
-- ==== Proof.RegionDense10.lean ====
import proofs.«409037_j72164040508123_1_alg».proof.Proof.FrameKernelIdeal
import proofs.«409037_j72164040508123_1_alg».proof.ReferenceIdeal
import Idealize.ShloMosaic.Lib.ValueIdx
import Idealize.ShloMosaic.Lib.Pipeline.Value
import Idealize.ShloMosaic.Lib.ValueLayout
import Idealize.ShloMosaic.PureOps.Ideal.Laws

/-! # Region 10, a dense layer: the value of its output array

The body of region 10 computes, block of 10000 rows by block, `out = h · W + bias`: the product of the activations
`h : [100000, 64]` with the weight `W : [64, 64]`, plus the bias row `[1, 64]` laid along every row. The ten blocks
tile the output array, so after the region the array holds that function of the three input arrays at every index;
and the host's `dot_general`, `broadcast_in_dim` and `add` of the same three arrays are the same function. -/

noncomputable section

namespace Cert.KernelIdeal.RegionVal

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx
open scoped BigOperators

/-! ## The dense layer, index by index -/

/-- Entry `(p, q)` of `h · W + bias`: row `p` of `h` against column `q` of `W`, summed over the 64 inner
    positions, plus entry `q` of the bias row. -/
def dense_R10 (h : Vec Ideal S100000x64 .f32) (W : Vec Ideal S64x64 .f32) (b : Vec Ideal S1x64 .f32) : Vec Ideal S100000x64 .f32 :=
  fun i => (∑ k : Fin 64, h (ix2 (i 0 : Fin 100000) k) * W (ix2 k (i 1 : Fin 64))) + b (ix2 (0 : Fin 1) (i 1 : Fin 64))

theorem dense_R10_apply (h : Vec Ideal S100000x64 .f32) (W : Vec Ideal S64x64 .f32) (b : Vec Ideal S1x64 .f32) (p : Fin 100000) (q : Fin 64) :
    dense_R10 h W b (ix2 p q) = (∑ k : Fin 64, h (ix2 p k) * W (ix2 k q)) + b (ix2 (0 : Fin 1) q) := rfl

/-! ## The host's operations are that function -/

section Reference
variable [Cert.ReferenceIdeal.Facts₀]

/-- The host product's left operand index: the output's row on axis 0. -/
theorem lhs_ref_R10_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch from List.not_mem_nil), dif_pos (show (0 : Fin Cert.ReferenceIdeal.S100000x64.rank) ∈ Cert.ReferenceIdeal.dot_S100000x64_S64x64_S100000x64_1_0_0_1_n_n.lhsNonContracting from List.mem_singleton.mpr rfl)]
  rfl
/-- The host product's left operand index: the inner position on axis 1. -/
theorem lhs_ref_R10_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, Nat.one_pos⟩).val :=
  Cert.ReferenceIdeal.dot_S100000x64_S64x64_S100000x64_1_0_0_1_n_n.lhsIdx_val_of_single rfl i q
/-- The host product's right operand index: the inner position on axis 0. -/
theorem rhs_ref_R10_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, Nat.one_pos⟩).val :=
  Cert.ReferenceIdeal.dot_S100000x64_S64x64_S100000x64_1_0_0_1_n_n.rhsIdx_val_of_single rfl i q
/-- The host product's right operand index: the output's column on axis 1. -/
theorem rhs_ref_R10_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch from List.not_mem_nil), dif_pos (show (1 : Fin Cert.ReferenceIdeal.S64x64.rank) ∈ Cert.ReferenceIdeal.dot_S100000x64_S64x64_S100000x64_1_0_0_1_n_n.rhsNonContracting from List.mem_singleton.mpr rfl)]
  rfl

/-- The host's `dot_general` at entry `(p, q)`: the sum over the inner position of `h (p, k) * W (k, q)`. -/
theorem ref_dot_apply_R10 (h : Vec Ideal S100000x64 .f32) (W : Vec Ideal S64x64 .f32) (p : Fin 100000) (q : Fin 64) :
    Host.dotGeneral (F := Ideal) (φ₁ := .f32) (φ₂ := .f32) Cert.ReferenceIdeal.dot_S100000x64_S64x64_S100000x64_1_0_0_1_n_n none h W (ix2 p q)
      = ∑ k : Fin 64, h (ix2 p k) * W (ix2 k q) := by
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 p q) ((contrEquiv1 Cert.ReferenceIdeal.dot_S100000x64_S64x64_S100000x64_1_0_0_1_n_n 64 rfl rfl).symm k) = ix2 p k := funext fun a => Fin.ext (by
    match a with
    | ⟨0, _⟩ => exact lhs_ref_R10_0 _ _
    | ⟨1, _⟩ => exact (lhs_ref_R10_1 _ _).trans hk)
  have er : Cert.ReferenceIdeal.dot_S100000x64_S64x64_S100000x64_1_0_0_1_n_n.rhsIdx (ix2 p q) ((contrEquiv1 Cert.ReferenceIdeal.dot_S100000x64_S64x64_S100000x64_1_0_0_1_n_n 64 rfl rfl).symm k) = ix2 k q := funext fun a => Fin.ext (by
    match a with
    | ⟨0, _⟩ => exact (rhs_ref_R10_0 _ _).trans hk
    | ⟨1, _⟩ => exact rhs_ref_R10_1 _ _)
  rw [el, er]

/-- The host's `broadcast_in_dim` of the bias row at entry `(p, q)`: entry `q` of the row. -/
theorem ref_bias_apply_R10 (b : Vec Ideal S1x64 .f32)
    (h01 : Cert.ReferenceIdeal.S1x64.BroadcastsInDim Cert.ReferenceIdeal.S100000x64 (![0, 1] : Fin 2 → Fin Cert.ReferenceIdeal.S100000x64.rank))
    (p : Fin 100000) (q : Fin 64) :
    broadcastInDim Cert.ReferenceIdeal.S100000x64 ![0, 1] h01 b (ix2 p q) = b (ix2 (0 : Fin 1) q) :=
  broadcastInDim_apply ![0, 1] h01 b (ix2 p q) (ix2 (0 : Fin 1) q) (by
    intro a
    match a with
    | ⟨0, _⟩ => rfl
    | ⟨1, _⟩ =>
      show q.val = if (64 : ℕ) = 1 then 0 else q.val
      have hq := q.isLt
      split <;> omega)

/-- The host's three operations — the product, the bias row laid along the rows, their sum — are the dense layer. -/
theorem reference_form_eq_dense_R10 (h : Vec Ideal S100000x64 .f32) (W : Vec Ideal S64x64 .f32) (b : Vec Ideal S1x64 .f32)
    (h01 : Cert.ReferenceIdeal.S1x64.BroadcastsInDim Cert.ReferenceIdeal.S100000x64 (![0, 1] : Fin 2 → Fin Cert.ReferenceIdeal.S100000x64.rank)) :
    addf (Host.dotGeneral (F := Ideal) (φ₁ := .f32) (φ₂ := .f32) Cert.ReferenceIdeal.dot_S100000x64_S64x64_S100000x64_1_0_0_1_n_n none h W)
        (broadcastInDim Cert.ReferenceIdeal.S100000x64 ![0, 1] h01 b)
      = dense_R10 h W b := by
  funext i
  obtain ⟨p, q, rfl⟩ : ∃ (p : Fin 100000) (q : Fin 64), i = ix2 p q := ⟨i 0, i 1, eq_ix2 i⟩
  rw [addf_apply, ref_dot_apply_R10, ref_bias_apply_R10, dense_R10_apply]

end Reference

/-! ## The body's payload, read at an index -/

/-- The block product's left operand index: the output's row on axis 0. -/
theorem lhs_blk_R10_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch from List.not_mem_nil), dif_pos (show (0 : Fin S10000x64.rank) ∈ dot_S10000x64_S64x64_S10000x64_1_0_0_1_n_n.lhsNonContracting from List.mem_singleton.mpr rfl)]
  rfl
/-- The block product's left operand index: the inner position on axis 1. -/
theorem lhs_blk_R10_1 (i : S10000x64.Idx) (q : dot_S10000x64_S64x64_S10000x64_1_0_0_1_n_n.contr.Idx) :
    (dot_S10000x64_S64x64_S10000x64_1_0_0_1_n_n.lhsIdx i q 1).val = (q ⟨0, Nat.one_pos⟩).val :=
  dot_S10000x64_S64x64_S10000x64_1_0_0_1_n_n.lhsIdx_val_of_single rfl i q
/-- The block product's right operand index: the inner position on axis 0. -/
theorem rhs_blk_R10_0 (i : S10000x64.Idx) (q : dot_S10000x64_S64x64_S10000x64_1_0_0_1_n_n.contr.Idx) :
    (dot_S10000x64_S64x64_S10000x64_1_0_0_1_n_n.rhsIdx i q 0).val = (q ⟨0, Nat.one_pos⟩).val :=
  dot_S10000x64_S64x64_S10000x64_1_0_0_1_n_n.rhsIdx_val_of_single rfl i q
/-- The block product's right operand index: the output's column on axis 1. -/
theorem rhs_blk_R10_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch from List.not_mem_nil), dif_pos (show (1 : Fin S64x64.rank) ∈ dot_S10000x64_S64x64_S10000x64_1_0_0_1_n_n.rhsNonContracting from List.mem_singleton.mpr rfl)]
  rfl

/-- The block product into the zero accumulator at entry `(p, q)`: the sum over the inner position of `x (p, k) * W (k, q)`. -/
theorem blk_matmul_apply_R10 (x : Vec Ideal S10000x64 .f32) (W : Vec Ideal S64x64 .f32) (p : Fin 10000) (q : Fin 64) :
    FloatOps.matmul (F := Ideal) (φ₁ := .f32) (φ₂ := .f32) dot_S10000x64_S64x64_S10000x64_1_0_0_1_n_n none x W (constant (F := Ideal) S10000x64 .f32 0x00000000#32) (ix2 p q)
      = ∑ k : Fin 64, x (ix2 p k) * W (ix2 k q) := by
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_blk_R10_0 _ _
    | ⟨1, _⟩ => exact (lhs_blk_R10_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_blk_R10_0 _ _).trans hk
    | ⟨1, _⟩ => exact rhs_blk_R10_1 _ _)
  rw [el, er]

/-- The bias row laid along the block's rows, at entry `(p, q)`: entry `q` of the row. -/
theorem blk_bias_apply_R10 (b : Vec Ideal S1x64 .f32) (hb : S1x64.Broadcasts S10000x64) (p : Fin 10000) (q : Fin 64) :
    broadcastTo S10000x64 b hb (ix2 p q) = b (ix2 (0 : Fin 1) q) :=
  broadcastTo_apply b hb (ix2 p q) (ix2 (0 : Fin 1) q) (by
    intro a
    match a with
    | ⟨0, _⟩ => rfl
    | ⟨1, _⟩ =>
      show q.val = if (64 : ℕ) = 1 then 0 else q.val
      have hq := q.isLt
      split <;> omega)

/-- The body's payload at entry `(p, q)` of the block: row `p` of the block of `h` against column `q` of `W`, plus
    entry `q` of the bias row. -/
theorem payload_apply_R10 (x0 : Vec Ideal S10000x64 .f32) (x1 : Vec Ideal S64x64 .f32) (x2 : Vec Ideal S1x64 .f32) (p : Fin 10000) (q : Fin 64) :
    k10_pay1 x0 x1 x2 (ix2 p q) = (∑ k : Fin 64, x0 (ix2 p k) * x1 (ix2 k q)) + x2 (ix2 (0 : Fin 1) q) := by
  unfold k10_pay1
  simp only [shapeCast_self, matmul]
  rw [addf_apply, blk_matmul_apply_R10, blk_bias_apply_R10]

/-- The payload of a block of rows is the dense layer at the block's place in the array: when `x0` holds row
    `i 0` of `h` in its row `p`, `x1` is `W` down column `i 1 = q`, and `x2` is the bias at that column. -/
theorem payload_eq_dense_R10 (x0 : Vec Ideal S10000x64 .f32) (x1 : Vec Ideal S64x64 .f32) (x2 : Vec Ideal S1x64 .f32)
    (h : Vec Ideal S100000x64 .f32) (W : Vec Ideal S64x64 .f32) (b : Vec Ideal S1x64 .f32)
    (p : Fin 10000) (q : Fin 64) (i : S100000x64.Idx)
    (h0 : ∀ k : Fin 64, x0 (ix2 p k) = h (ix2 (i 0 : Fin 100000) k))
    (h1 : ∀ k : Fin 64, x1 (ix2 k q) = W (ix2 k (i 1 : Fin 64)))
    (h2 : x2 (ix2 (0 : Fin 1) q) = b (ix2 (0 : Fin 1) (i 1 : Fin 64))) :
    k10_pay1 x0 x1 x2 (ix2 p q) = dense_R10 h W b i := by
  rw [payload_apply_R10, h2]
  exact congrArg (· + b (ix2 (0 : Fin 1) (i 1 : Fin 64))) (Finset.sum_congr rfl fun k _ => by rw [h0 k, h1 k])

/-! ## From the blocks to the array -/

section Blocks
variable (V : (c : Dev nD) → (b : Ref sig .tc) → Buf (Elt Ideal) ((c : Thread nD τ).loc b))

theorem zero_offset_R10 : (![0, 0] : Fin 2 → Nat) = fun _ => 0 := funext fun a => by fin_cases a <;> rfl

/-- The printed index maps, decided over the grid: the block of `h` moves with the output's block down the rows,
    the weight and the bias row are whole at every point, and point `t` writes block `t`. -/
theorem index_maps_R10 : ∀ t : Fin cfg10.N, win10_0.index t (0 : Fin 2) = win10_3.index t (0 : Fin 2)
    ∧ win10_0.index t (1 : Fin 2) = 0
    ∧ win10_1.index t (0 : Fin 2) = 0
    ∧ win10_1.index t (1 : Fin 2) = 0
    ∧ win10_2.index t (0 : Fin 2) = 0
    ∧ win10_2.index t (1 : Fin 2) = 0
    ∧ win10_3.index t (0 : Fin 2) ≤ 9
    ∧ win10_3.index t (1 : Fin 2) = 0 :=
  (by decide +kernel : ∀ t : Fin grid10.N, _)

/-- Every block of rows is some point's. -/
theorem index_onto_R10 : ∀ q0 : Fin 10, ∃ t : Fin cfg10.N, win10_3.index t = ![q0.val, 0] :=
  (by decide +kernel : ∀ q0 : Fin 10, ∃ t : Fin grid10.N, win10_3.index t = ![q0.val, 0])

/-- What point `t` writes back is block `t` of the dense layer of the three arrays as the region finds them. -/
theorem flushed_eq_R10 (c : Dev nD) (t : Fin cfg10.N) :
    (dat10 V c).flushed 3 t
      = ((cfg10.win 3).blk t).view.read (Elt Ideal) (dense_R10 (V c main_v253) (V c main_arg19) (V c main_v254)) := by
  show (cfg10.win 3).cut (grid10.coords t) ((dat10 V c).after 3 t) = _
  rw [after10_3]
  unfold out10_3
  rw [View.canon_unit_zero zero_offset_R10]
  simp only [View.ld_unit_zero (S := S10000x64) zero_offset_R10, View.ld_unit_zero (S := S64x64) zero_offset_R10, View.ld_unit_zero (S := S1x64) zero_offset_R10]
  obtain ⟨e0, e1, e2, e3, e4, e5, e6, e7⟩ := index_maps_R10 t
  funext j
  obtain ⟨p, q, rfl⟩ : ∃ (p : Fin 10000) (q : Fin 64), j = ix2 p q := ⟨j 0, j 1, eq_ix2 j⟩
  show k10_pay1 (iblk10 V c 0 t) (iblk10 V c 1 t) (iblk10 V c 2 t) (ix2 p q)
      = dense_R10 (V c main_v253) (V c main_arg19) (V c main_v254) (((cfg10.win 3).blk t).view.emb (ix2 p q))
  refine payload_eq_dense_R10 (iblk10 V c 0 t) (iblk10 V c 1 t) (iblk10 V c 2 t) (V c main_v253) (V c main_arg19) (V c main_v254) p q
    (((cfg10.win 3).blk t).view.emb (ix2 p q)) ?_ ?_ ?_
  · intro k
    show V c main_v253 (((cfg10.win 0).blk t).view.emb (ix2 p k)) = V c main_v253 _
    refine congrArg (V c main_v253) (funext fun a => Fin.ext ?_)
    match a with
    | ⟨0, _⟩ => show win10_0.index t (0 : Fin 2) * 10000 + 1 * p.val = win10_3.index t (0 : Fin 2) * 10000 + 1 * p.val; omega
    | ⟨1, _⟩ => show win10_0.index t (1 : Fin 2) * 64 + 1 * k.val = k.val; omega
  · intro k
    show V c main_arg19 (((cfg10.win 1).blk t).view.emb (ix2 k q)) = V c main_arg19 _
    refine congrArg (V c main_arg19) (funext fun a => Fin.ext ?_)
    match a with
    | ⟨0, _⟩ => show win10_1.index t (0 : Fin 2) * 64 + 1 * k.val = k.val; omega
    | ⟨1, _⟩ => show win10_1.index t (1 : Fin 2) * 64 + 1 * q.val = win10_3.index t (1 : Fin 2) * 64 + 1 * q.val; omega
  · show V c main_v254 (((cfg10.win 2).blk t).view.emb (ix2 (0 : Fin 1) q)) = V c main_v254 _
    refine congrArg (V c main_v254) (funext fun a => Fin.ext ?_)
    match a with
    | ⟨0, _⟩ => show win10_2.index t (0 : Fin 2) * 1 + 1 * 0 = 0; omega
    | ⟨1, _⟩ => show win10_2.index t (1 : Fin 2) * 64 + 1 * q.val = win10_3.index t (1 : Fin 2) * 64 + 1 * q.val; omega

/-- An index of the array is in point `t`'s block iff each coordinate is in the block's range on its axis. -/
theorem mem_blk_R10 (t : Fin cfg10.N) (i : S100000x64.Idx) :
    i ∈ ((cfg10.win 3).blk t).view.set ↔ ∀ a : Fin 2, win10_3.index t a * S10000x64.size a ≤ (i a).val ∧ (i a).val < win10_3.index t a * S10000x64.size a + S10000x64.size a := by
  show i ∈ ((View.whole main_v255).slice (win10_3.rect t)).set ↔ _
  rw [View.set_slice_whole, Rect.mem_set_unit]
  exact Iff.rfl

/-- The ten blocks of rows tile the array: row `r` is in the block of point `r / 10000`. -/
theorem covered_R10 (i : S100000x64.Idx) :
    ∃ t : Fin cfg10.N, (cfg10.win 3).flush t = true ∧ i ∈ ((cfg10.win 3).blk t).view.set := by
  have hi0 : (i 0).val < 100000 := (i 0).isLt
  have hi1 : (i 1).val < 64 := (i 1).isLt
  obtain ⟨t, ht⟩ := index_onto_R10 ⟨(i 0).val / 10000, by omega⟩
  have q0 : win10_3.index t (0 : Fin 2) = (i 0).val / 10000 := congrFun ht 0
  have q1 : win10_3.index t (1 : Fin 2) = 0 := congrFun ht 1
  refine ⟨t, flush10_3 t, ?_⟩
  rw [mem_blk_R10]
  intro a
  match a with
  | ⟨0, _⟩ => show win10_3.index t (0 : Fin 2) * 10000 ≤ (i 0).val ∧ (i 0).val < win10_3.index t (0 : Fin 2) * 10000 + 10000; omega
  | ⟨1, _⟩ => show win10_3.index t (1 : Fin 2) * 64 ≤ (i 1).val ∧ (i 1).val < win10_3.index t (1 : Fin 2) * 64 + 64; omega

/-- The output array after region 10 is the dense layer of the three input arrays as the region finds them. -/
theorem region10_dense (c : Dev nD) :
    (dat10 V c).arrAt 3 cfg10.N = dense_R10 (V c main_v253) (V c main_arg19) (V c main_v254) :=
  (dat10 V c).arrAt_eq_of_cover 3 (dense_R10 (V c main_v253) (V c main_arg19) (V c main_v254)) (fun t _ => flushed_eq_R10 V c t) (fun i => covered_R10 i)

/-- THE VALUE of region 10: its output array after the region is what the host's `dot_general`, `broadcast_in_dim` and
    `add` make of the three input arrays as the region finds them. -/
theorem region10_value [Cert.ReferenceIdeal.Facts₀] (c : Dev nD)
    (h01 : Cert.ReferenceIdeal.S1x64.BroadcastsInDim Cert.ReferenceIdeal.S100000x64 (![0, 1] : Fin 2 → Fin Cert.ReferenceIdeal.S100000x64.rank)) :
    (dat10 V c).arrAt 3 cfg10.N
      = addf (Host.dotGeneral (F := Ideal) (φ₁ := .f32) (φ₂ := .f32) Cert.ReferenceIdeal.dot_S100000x64_S64x64_S100000x64_1_0_0_1_n_n none (V c main_v253) (V c main_arg19))
          (broadcastInDim Cert.ReferenceIdeal.S100000x64 ![0, 1] h01 (V c main_v254)) :=
  (region10_dense V c).trans (reference_form_eq_dense_R10 (V c main_v253) (V c main_arg19) (V c main_v254) h01).symm

end Blocks

end Cert.KernelIdeal.RegionVal

end
-- ==== Proof.RegionDense11.lean ====
import proofs.«409037_j72164040508123_1_alg».proof.Proof.FrameKernelIdeal
import proofs.«409037_j72164040508123_1_alg».proof.ReferenceIdeal
import Idealize.ShloMosaic.Lib.ValueIdx
import Idealize.ShloMosaic.Lib.Pipeline.Value
import Idealize.ShloMosaic.Lib.ValueLayout
import Idealize.ShloMosaic.PureOps.Ideal.Laws

/-! # Region 11, a dense layer: the value of its output array

The body of region 11 computes, block of 10000 rows by block, `out = h · W + bias`: the product of the activations
`h : [100000, 128]` with the weight `W : [128, 128]`, plus the bias row `[1, 128]` laid along every row. The ten blocks
tile the output array, so after the region the array holds that function of the three input arrays at every index;
and the host's `dot_general`, `broadcast_in_dim` and `add` of the same three arrays are the same function. -/

noncomputable section

namespace Cert.KernelIdeal.RegionVal

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx
open scoped BigOperators

/-! ## The dense layer, index by index -/

/-- Entry `(p, q)` of `h · W + bias`: row `p` of `h` against column `q` of `W`, summed over the 128 inner
    positions, plus entry `q` of the bias row. -/
def dense_R11 (h : Vec Ideal S100000x128 .f32) (W : Vec Ideal S128x128 .f32) (b : Vec Ideal S1x128 .f32) : Vec Ideal S100000x128 .f32 :=
  fun i => (∑ k : Fin 128, h (ix2 (i 0 : Fin 100000) k) * W (ix2 k (i 1 : Fin 128))) + b (ix2 (0 : Fin 1) (i 1 : Fin 128))

theorem dense_R11_apply (h : Vec Ideal S100000x128 .f32) (W : Vec Ideal S128x128 .f32) (b : Vec Ideal S1x128 .f32) (p : Fin 100000) (q : Fin 128) :
    dense_R11 h W b (ix2 p q) = (∑ k : Fin 128, h (ix2 p k) * W (ix2 k q)) + b (ix2 (0 : Fin 1) q) := rfl

/-! ## The host's operations are that function -/

section Reference
variable [Cert.ReferenceIdeal.Facts₀]

/-- The host product's left operand index: the output's row on axis 0. -/
theorem lhs_ref_R11_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch from List.not_mem_nil), dif_pos (show (0 : Fin Cert.ReferenceIdeal.S100000x128.rank) ∈ Cert.ReferenceIdeal.dot_S100000x128_S128x128_S100000x128_1_0_0_1_n_n.lhsNonContracting from List.mem_singleton.mpr rfl)]
  rfl
/-- The host product's left operand index: the inner position on axis 1. -/
theorem lhs_ref_R11_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, Nat.one_pos⟩).val :=
  Cert.ReferenceIdeal.dot_S100000x128_S128x128_S100000x128_1_0_0_1_n_n.lhsIdx_val_of_single rfl i q
/-- The host product's right operand index: the inner position on axis 0. -/
theorem rhs_ref_R11_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, Nat.one_pos⟩).val :=
  Cert.ReferenceIdeal.dot_S100000x128_S128x128_S100000x128_1_0_0_1_n_n.rhsIdx_val_of_single rfl i q
/-- The host product's right operand index: the output's column on axis 1. -/
theorem rhs_ref_R11_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch from List.not_mem_nil), dif_pos (show (1 : Fin Cert.ReferenceIdeal.S128x128.rank) ∈ Cert.ReferenceIdeal.dot_S100000x128_S128x128_S100000x128_1_0_0_1_n_n.rhsNonContracting from List.mem_singleton.mpr rfl)]
  rfl

/-- The host's `dot_general` at entry `(p, q)`: the sum over the inner position of `h (p, k) * W (k, q)`. -/
theorem ref_dot_apply_R11 (h : Vec Ideal S100000x128 .f32) (W : Vec Ideal S128x128 .f32) (p : Fin 100000) (q : Fin 128) :
    Host.dotGeneral (F := Ideal) (φ₁ := .f32) (φ₂ := .f32) Cert.ReferenceIdeal.dot_S100000x128_S128x128_S100000x128_1_0_0_1_n_n none h W (ix2 p q)
      = ∑ k : Fin 128, h (ix2 p k) * W (ix2 k q) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 p q) ((contrEquiv1 Cert.ReferenceIdeal.dot_S100000x128_S128x128_S100000x128_1_0_0_1_n_n 128 rfl rfl).symm k) = ix2 p k := funext fun a => Fin.ext (by
    match a with
    | ⟨0, _⟩ => exact lhs_ref_R11_0 _ _
    | ⟨1, _⟩ => exact (lhs_ref_R11_1 _ _).trans hk)
  have er : Cert.ReferenceIdeal.dot_S100000x128_S128x128_S100000x128_1_0_0_1_n_n.rhsIdx (ix2 p q) ((contrEquiv1 Cert.ReferenceIdeal.dot_S100000x128_S128x128_S100000x128_1_0_0_1_n_n 128 rfl rfl).symm k) = ix2 k q := funext fun a => Fin.ext (by
    match a with
    | ⟨0, _⟩ => exact (rhs_ref_R11_0 _ _).trans hk
    | ⟨1, _⟩ => exact rhs_ref_R11_1 _ _)
  rw [el, er]

/-- The host's `broadcast_in_dim` of the bias row at entry `(p, q)`: entry `q` of the row. -/
theorem ref_bias_apply_R11 (b : Vec Ideal S1x128 .f32)
    (h01 : Cert.ReferenceIdeal.S1x128.BroadcastsInDim Cert.ReferenceIdeal.S100000x128 (![0, 1] : Fin 2 → Fin Cert.ReferenceIdeal.S100000x128.rank))
    (p : Fin 100000) (q : Fin 128) :
    broadcastInDim Cert.ReferenceIdeal.S100000x128 ![0, 1] h01 b (ix2 p q) = b (ix2 (0 : Fin 1) q) :=
  broadcastInDim_apply ![0, 1] h01 b (ix2 p q) (ix2 (0 : Fin 1) q) (by
    intro a
    match a with
    | ⟨0, _⟩ => rfl
    | ⟨1, _⟩ =>
      show q.val = if (128 : ℕ) = 1 then 0 else q.val
      have hq := q.isLt
      split <;> omega)

/-- The host's three operations — the product, the bias row laid along the rows, their sum — are the dense layer. -/
theorem reference_form_eq_dense_R11 (h : Vec Ideal S100000x128 .f32) (W : Vec Ideal S128x128 .f32) (b : Vec Ideal S1x128 .f32)
    (h01 : Cert.ReferenceIdeal.S1x128.BroadcastsInDim Cert.ReferenceIdeal.S100000x128 (![0, 1] : Fin 2 → Fin Cert.ReferenceIdeal.S100000x128.rank)) :
    addf (Host.dotGeneral (F := Ideal) (φ₁ := .f32) (φ₂ := .f32) Cert.ReferenceIdeal.dot_S100000x128_S128x128_S100000x128_1_0_0_1_n_n none h W)
        (broadcastInDim Cert.ReferenceIdeal.S100000x128 ![0, 1] h01 b)
      = dense_R11 h W b := by
  funext i
  obtain ⟨p, q, rfl⟩ : ∃ (p : Fin 100000) (q : Fin 128), i = ix2 p q := ⟨i 0, i 1, eq_ix2 i⟩
  rw [addf_apply, ref_dot_apply_R11, ref_bias_apply_R11, dense_R11_apply]

end Reference

/-! ## The body's payload, read at an index -/

/-- The block product's left operand index: the output's row on axis 0. -/
theorem lhs_blk_R11_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch from List.not_mem_nil), dif_pos (show (0 : Fin S10000x128.rank) ∈ dot_S10000x128_S128x128_S10000x128_1_0_0_1_n_n.lhsNonContracting from List.mem_singleton.mpr rfl)]
  rfl
/-- The block product's left operand index: the inner position on axis 1. -/
theorem lhs_blk_R11_1 (i : S10000x128.Idx) (q : dot_S10000x128_S128x128_S10000x128_1_0_0_1_n_n.contr.Idx) :
    (dot_S10000x128_S128x128_S10000x128_1_0_0_1_n_n.lhsIdx i q 1).val = (q ⟨0, Nat.one_pos⟩).val :=
  dot_S10000x128_S128x128_S10000x128_1_0_0_1_n_n.lhsIdx_val_of_single rfl i q
/-- The block product's right operand index: the inner position on axis 0. -/
theorem rhs_blk_R11_0 (i : S10000x128.Idx) (q : dot_S10000x128_S128x128_S10000x128_1_0_0_1_n_n.contr.Idx) :
    (dot_S10000x128_S128x128_S10000x128_1_0_0_1_n_n.rhsIdx i q 0).val = (q ⟨0, Nat.one_pos⟩).val :=
  dot_S10000x128_S128x128_S10000x128_1_0_0_1_n_n.rhsIdx_val_of_single rfl i q
/-- The block product's right operand index: the output's column on axis 1. -/
theorem rhs_blk_R11_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch from List.not_mem_nil), dif_pos (show (1 : Fin S128x128.rank) ∈ dot_S10000x128_S128x128_S10000x128_1_0_0_1_n_n.rhsNonContracting from List.mem_singleton.mpr rfl)]
  rfl

/-- The block product into the zero accumulator at entry `(p, q)`: the sum over the inner position of `x (p, k) * W (k, q)`. -/
theorem blk_matmul_apply_R11 (x : Vec Ideal S10000x128 .f32) (W : Vec Ideal S128x128 .f32) (p : Fin 10000) (q : Fin 128) :
    FloatOps.matmul (F := Ideal) (φ₁ := .f32) (φ₂ := .f32) dot_S10000x128_S128x128_S10000x128_1_0_0_1_n_n none x W (constant (F := Ideal) S10000x128 .f32 0x00000000#32) (ix2 p q)
      = ∑ k : Fin 128, x (ix2 p k) * W (ix2 k q) := by
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_blk_R11_0 _ _
    | ⟨1, _⟩ => exact (lhs_blk_R11_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_blk_R11_0 _ _).trans hk
    | ⟨1, _⟩ => exact rhs_blk_R11_1 _ _)
  rw [el, er]

/-- The bias row laid along the block's rows, at entry `(p, q)`: entry `q` of the row. -/
theorem blk_bias_apply_R11 (b : Vec Ideal S1x128 .f32) (hb : S1x128.Broadcasts S10000x128) (p : Fin 10000) (q : Fin 128) :
    broadcastTo S10000x128 b hb (ix2 p q) = b (ix2 (0 : Fin 1) q) :=
  broadcastTo_apply b hb (ix2 p q) (ix2 (0 : Fin 1) q) (by
    intro a
    match a with
    | ⟨0, _⟩ => rfl
    | ⟨1, _⟩ =>
      show q.val = if (128 : ℕ) = 1 then 0 else q.val
      have hq := q.isLt
      split <;> omega)

/-- The body's payload at entry `(p, q)` of the block: row `p` of the block of `h` against column `q` of `W`, plus
    entry `q` of the bias row. -/
theorem payload_apply_R11 (x0 : Vec Ideal S10000x128 .f32) (x1 : Vec Ideal S128x128 .f32) (x2 : Vec Ideal S1x128 .f32) (p : Fin 10000) (q : Fin 128) :
    k11_pay1 x0 x1 x2 (ix2 p q) = (∑ k : Fin 128, x0 (ix2 p k) * x1 (ix2 k q)) + x2 (ix2 (0 : Fin 1) q) := by
  unfold k11_pay1
  simp only [shapeCast_self, matmul]
  rw [addf_apply, blk_matmul_apply_R11, blk_bias_apply_R11]

/-- The payload of a block of rows is the dense layer at the block's place in the array: when `x0` holds row
    `i 0` of `h` in its row `p`, `x1` is `W` down column `i 1 = q`, and `x2` is the bias at that column. -/
theorem payload_eq_dense_R11 (x0 : Vec Ideal S10000x128 .f32) (x1 : Vec Ideal S128x128 .f32) (x2 : Vec Ideal S1x128 .f32)
    (h : Vec Ideal S100000x128 .f32) (W : Vec Ideal S128x128 .f32) (b : Vec Ideal S1x128 .f32)
    (p : Fin 10000) (q : Fin 128) (i : S100000x128.Idx)
    (h0 : ∀ k : Fin 128, x0 (ix2 p k) = h (ix2 (i 0 : Fin 100000) k))
    (h1 : ∀ k : Fin 128, x1 (ix2 k q) = W (ix2 k (i 1 : Fin 128)))
    (h2 : x2 (ix2 (0 : Fin 1) q) = b (ix2 (0 : Fin 1) (i 1 : Fin 128))) :
    k11_pay1 x0 x1 x2 (ix2 p q) = dense_R11 h W b i := by
  rw [payload_apply_R11, h2]
  exact congrArg (· + b (ix2 (0 : Fin 1) (i 1 : Fin 128))) (Finset.sum_congr rfl fun k _ => by rw [h0 k, h1 k])

/-! ## From the blocks to the array -/

section Blocks
variable (V : (c : Dev nD) → (b : Ref sig .tc) → Buf (Elt Ideal) ((c : Thread nD τ).loc b))

theorem zero_offset_R11 : (![0, 0] : Fin 2 → Nat) = fun _ => 0 := funext fun a => by fin_cases a <;> rfl

/-- The printed index maps, decided over the grid: the block of `h` moves with the output's block down the rows,
    the weight and the bias row are whole at every point, and point `t` writes block `t`. -/
theorem index_maps_R11 : ∀ t : Fin cfg11.N, win11_0.index t (0 : Fin 2) = win11_3.index t (0 : Fin 2)
    ∧ win11_0.index t (1 : Fin 2) = 0
    ∧ win11_1.index t (0 : Fin 2) = 0
    ∧ win11_1.index t (1 : Fin 2) = 0
    ∧ win11_2.index t (0 : Fin 2) = 0
    ∧ win11_2.index t (1 : Fin 2) = 0
    ∧ win11_3.index t (0 : Fin 2) ≤ 9
    ∧ win11_3.index t (1 : Fin 2) = 0 :=
  (by decide +kernel : ∀ t : Fin grid11.N, _)

/-- Every block of rows is some point's. -/
theorem index_onto_R11 : ∀ q0 : Fin 10, ∃ t : Fin cfg11.N, win11_3.index t = ![q0.val, 0] :=
  (by decide +kernel : ∀ q0 : Fin 10, ∃ t : Fin grid11.N, win11_3.index t = ![q0.val, 0])

/-- What point `t` writes back is block `t` of the dense layer of the three arrays as the region finds them. -/
theorem flushed_eq_R11 (c : Dev nD) (t : Fin cfg11.N) :
    (dat11 V c).flushed 3 t
      = ((cfg11.win 3).blk t).view.read (Elt Ideal) (dense_R11 (V c main_v256) (V c main_arg21) (V c main_v257)) := by
  show (cfg11.win 3).cut (grid11.coords t) ((dat11 V c).after 3 t) = _
  rw [after11_3]
  unfold out11_3
  rw [View.canon_unit_zero zero_offset_R11]
  simp only [View.ld_unit_zero (S := S10000x128) zero_offset_R11, View.ld_unit_zero (S := S128x128) zero_offset_R11, View.ld_unit_zero (S := S1x128) zero_offset_R11]
  obtain ⟨e0, e1, e2, e3, e4, e5, e6, e7⟩ := index_maps_R11 t
  funext j
  obtain ⟨p, q, rfl⟩ : ∃ (p : Fin 10000) (q : Fin 128), j = ix2 p q := ⟨j 0, j 1, eq_ix2 j⟩
  show k11_pay1 (iblk11 V c 0 t) (iblk11 V c 1 t) (iblk11 V c 2 t) (ix2 p q)
      = dense_R11 (V c main_v256) (V c main_arg21) (V c main_v257) (((cfg11.win 3).blk t).view.emb (ix2 p q))
  refine payload_eq_dense_R11 (iblk11 V c 0 t) (iblk11 V c 1 t) (iblk11 V c 2 t) (V c main_v256) (V c main_arg21) (V c main_v257) p q
    (((cfg11.win 3).blk t).view.emb (ix2 p q)) ?_ ?_ ?_
  · intro k
    show V c main_v256 (((cfg11.win 0).blk t).view.emb (ix2 p k)) = V c main_v256 _
    refine congrArg (V c main_v256) (funext fun a => Fin.ext ?_)
    match a with
    | ⟨0, _⟩ => show win11_0.index t (0 : Fin 2) * 10000 + 1 * p.val = win11_3.index t (0 : Fin 2) * 10000 + 1 * p.val; omega
    | ⟨1, _⟩ => show win11_0.index t (1 : Fin 2) * 128 + 1 * k.val = k.val; omega
  · intro k
    show V c main_arg21 (((cfg11.win 1).blk t).view.emb (ix2 k q)) = V c main_arg21 _
    refine congrArg (V c main_arg21) (funext fun a => Fin.ext ?_)
    match a with
    | ⟨0, _⟩ => show win11_1.index t (0 : Fin 2) * 128 + 1 * k.val = k.val; omega
    | ⟨1, _⟩ => show win11_1.index t (1 : Fin 2) * 128 + 1 * q.val = win11_3.index t (1 : Fin 2) * 128 + 1 * q.val; omega
  · show V c main_v257 (((cfg11.win 2).blk t).view.emb (ix2 (0 : Fin 1) q)) = V c main_v257 _
    refine congrArg (V c main_v257) (funext fun a => Fin.ext ?_)
    match a with
    | ⟨0, _⟩ => show win11_2.index t (0 : Fin 2) * 1 + 1 * 0 = 0; omega
    | ⟨1, _⟩ => show win11_2.index t (1 : Fin 2) * 128 + 1 * q.val = win11_3.index t (1 : Fin 2) * 128 + 1 * q.val; omega

/-- An index of the array is in point `t`'s block iff each coordinate is in the block's range on its axis. -/
theorem mem_blk_R11 (t : Fin cfg11.N) (i : S100000x128.Idx) :
    i ∈ ((cfg11.win 3).blk t).view.set ↔ ∀ a : Fin 2, win11_3.index t a * S10000x128.size a ≤ (i a).val ∧ (i a).val < win11_3.index t a * S10000x128.size a + S10000x128.size a := by
  show i ∈ ((View.whole main_v258).slice (win11_3.rect t)).set ↔ _
  rw [View.set_slice_whole, Rect.mem_set_unit]
  exact Iff.rfl

/-- The ten blocks of rows tile the array: row `r` is in the block of point `r / 10000`. -/
theorem covered_R11 (i : S100000x128.Idx) :
    ∃ t : Fin cfg11.N, (cfg11.win 3).flush t = true ∧ i ∈ ((cfg11.win 3).blk t).view.set := by
  have hi0 : (i 0).val < 100000 := (i 0).isLt
  have hi1 : (i 1).val < 128 := (i 1).isLt
  obtain ⟨t, ht⟩ := index_onto_R11 ⟨(i 0).val / 10000, by omega⟩
  have q0 : win11_3.index t (0 : Fin 2) = (i 0).val / 10000 := congrFun ht 0
  have q1 : win11_3.index t (1 : Fin 2) = 0 := congrFun ht 1
  refine ⟨t, flush11_3 t, ?_⟩
  rw [mem_blk_R11]
  intro a
  match a with
  | ⟨0, _⟩ => show win11_3.index t (0 : Fin 2) * 10000 ≤ (i 0).val ∧ (i 0).val < win11_3.index t (0 : Fin 2) * 10000 + 10000; omega
  | ⟨1, _⟩ => show win11_3.index t (1 : Fin 2) * 128 ≤ (i 1).val ∧ (i 1).val < win11_3.index t (1 : Fin 2) * 128 + 128; omega

/-- The output array after region 11 is the dense layer of the three input arrays as the region finds them. -/
theorem region11_dense (c : Dev nD) :
    (dat11 V c).arrAt 3 cfg11.N = dense_R11 (V c main_v256) (V c main_arg21) (V c main_v257) :=
  (dat11 V c).arrAt_eq_of_cover 3 (dense_R11 (V c main_v256) (V c main_arg21) (V c main_v257)) (fun t _ => flushed_eq_R11 V c t) (fun i => covered_R11 i)

/-- THE VALUE of region 11: its output array after the region is what the host's `dot_general`, `broadcast_in_dim` and
    `add` make of the three input arrays as the region finds them. -/
theorem region11_value [Cert.ReferenceIdeal.Facts₀] (c : Dev nD)
    (h01 : Cert.ReferenceIdeal.S1x128.BroadcastsInDim Cert.ReferenceIdeal.S100000x128 (![0, 1] : Fin 2 → Fin Cert.ReferenceIdeal.S100000x128.rank)) :
    (dat11 V c).arrAt 3 cfg11.N
      = addf (Host.dotGeneral (F := Ideal) (φ₁ := .f32) (φ₂ := .f32) Cert.ReferenceIdeal.dot_S100000x128_S128x128_S100000x128_1_0_0_1_n_n none (V c main_v256) (V c main_arg21))
          (broadcastInDim Cert.ReferenceIdeal.S100000x128 ![0, 1] h01 (V c main_v257)) :=
  (region11_dense V c).trans (reference_form_eq_dense_R11 (V c main_v256) (V c main_arg21) (V c main_v257) h01).symm

end Blocks

end Cert.KernelIdeal.RegionVal

end
-- ==== Proof.RegionDense12.lean ====
import proofs.«409037_j72164040508123_1_alg».proof.Proof.FrameKernelIdeal
import proofs.«409037_j72164040508123_1_alg».proof.ReferenceIdeal
import Idealize.ShloMosaic.Lib.ValueIdx
import Idealize.ShloMosaic.Lib.Pipeline.Value
import Idealize.ShloMosaic.Lib.ValueLayout
import Idealize.ShloMosaic.PureOps.Ideal.Laws

/-! # Region 12, a dense layer: the value of its output array

The body of region 12 computes, block of 10000 rows by block, `out = h · W + bias`: the product of the activations
`h : [100000, 128]` with the weight `W : [128, 1]`, plus the bias row `[1, 1]` laid along every row. The ten blocks
tile the output array, so after the region the array holds that function of the three input arrays at every index;
and the host's `dot_general`, `broadcast_in_dim` and `add` of the same three arrays are the same function. -/

noncomputable section

namespace Cert.KernelIdeal.RegionVal

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx
open scoped BigOperators

/-! ## The dense layer, index by index -/

/-- Entry `(p, q)` of `h · W + bias`: row `p` of `h` against column `q` of `W`, summed over the 128 inner
    positions, plus entry `q` of the bias row. -/
def dense_R12 (h : Vec Ideal S100000x128 .f32) (W : Vec Ideal S128x1 .f32) (b : Vec Ideal S1x1 .f32) : Vec Ideal S100000x1 .f32 :=
  fun i => (∑ k : Fin 128, h (ix2 (i 0 : Fin 100000) k) * W (ix2 k (i 1 : Fin 1))) + b (ix2 (0 : Fin 1) (i 1 : Fin 1))

theorem dense_R12_apply (h : Vec Ideal S100000x128 .f32) (W : Vec Ideal S128x1 .f32) (b : Vec Ideal S1x1 .f32) (p : Fin 100000) (q : Fin 1) :
    dense_R12 h W b (ix2 p q) = (∑ k : Fin 128, h (ix2 p k) * W (ix2 k q)) + b (ix2 (0 : Fin 1) q) := rfl

/-! ## The host's operations are that function -/

section Reference
variable [Cert.ReferenceIdeal.Facts₀]

/-- The host product's left operand index: the output's row on axis 0. -/
theorem lhs_ref_R12_0 (i : Cert.ReferenceIdeal.S100000x1.Idx) (q : Cert.ReferenceIdeal.dot_S100000x128_S128x1_S100000x1_1_0_0_1_n_n.contr.Idx) :
    (Cert.ReferenceIdeal.dot_S100000x128_S128x1_S100000x1_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x1_S100000x1_1_0_0_1_n_n.lhsBatch from List.not_mem_nil), dif_pos (show (0 : Fin Cert.ReferenceIdeal.S100000x128.rank) ∈ Cert.ReferenceIdeal.dot_S100000x128_S128x1_S100000x1_1_0_0_1_n_n.lhsNonContracting from List.mem_singleton.mpr rfl)]
  rfl
/-- The host product's left operand index: the inner position on axis 1. -/
theorem lhs_ref_R12_1 (i : Cert.ReferenceIdeal.S100000x1.Idx) (q : Cert.ReferenceIdeal.dot_S100000x128_S128x1_S100000x1_1_0_0_1_n_n.contr.Idx) :
    (Cert.ReferenceIdeal.dot_S100000x128_S128x1_S100000x1_1_0_0_1_n_n.lhsIdx i q 1).val = (q ⟨0, Nat.one_pos⟩).val :=
  Cert.ReferenceIdeal.dot_S100000x128_S128x1_S100000x1_1_0_0_1_n_n.lhsIdx_val_of_single rfl i q
/-- The host product's right operand index: the inner position on axis 0. -/
theorem rhs_ref_R12_0 (i : Cert.ReferenceIdeal.S100000x1.Idx) (q : Cert.ReferenceIdeal.dot_S100000x128_S128x1_S100000x1_1_0_0_1_n_n.contr.Idx) :
    (Cert.ReferenceIdeal.dot_S100000x128_S128x1_S100000x1_1_0_0_1_n_n.rhsIdx i q 0).val = (q ⟨0, Nat.one_pos⟩).val :=
  Cert.ReferenceIdeal.dot_S100000x128_S128x1_S100000x1_1_0_0_1_n_n.rhsIdx_val_of_single rfl i q
/-- The host product's right operand index: the output's column on axis 1. -/
theorem rhs_ref_R12_1 (i : Cert.ReferenceIdeal.S100000x1.Idx) (q : Cert.ReferenceIdeal.dot_S100000x128_S128x1_S100000x1_1_0_0_1_n_n.contr.Idx) :
    (Cert.ReferenceIdeal.dot_S100000x128_S128x1_S100000x1_1_0_0_1_n_n.rhsIdx i q 1).val = (i 1).val := by
  unfold DotDims.rhsIdx
  rw [dif_neg (show ¬(1 : Fin Cert.ReferenceIdeal.S128x1.rank) ∈ Cert.ReferenceIdeal.dot_S100000x128_S128x1_S100000x1_1_0_0_1_n_n.rhsBatch from List.not_mem_nil), dif_pos (show (1 : Fin Cert.ReferenceIdeal.S128x1.rank) ∈ Cert.ReferenceIdeal.dot_S100000x128_S128x1_S100000x1_1_0_0_1_n_n.rhsNonContracting from List.mem_singleton.mpr rfl)]
  rfl

/-- The host's `dot_general` at entry `(p, q)`: the sum over the inner position of `h (p, k) * W (k, q)`. -/
theorem ref_dot_apply_R12 (h : Vec Ideal S100000x128 .f32) (W : Vec Ideal S128x1 .f32) (p : Fin 100000) (q : Fin 1) :
    Host.dotGeneral (F := Ideal) (φ₁ := .f32) (φ₂ := .f32) Cert.ReferenceIdeal.dot_S100000x128_S128x1_S100000x1_1_0_0_1_n_n none h W (ix2 p q)
      = ∑ k : Fin 128, h (ix2 p k) * W (ix2 k q) := by
  simp only [Host.dotGeneral]
  rw [Ideal.dotGeneral_apply, ← Equiv.sum_comp (contrEquiv1 Cert.ReferenceIdeal.dot_S100000x128_S128x1_S100000x1_1_0_0_1_n_n 128 rfl rfl).symm]
  refine Finset.sum_congr rfl fun k _ => ?_
  have hk := contrEquiv1_symm_val Cert.ReferenceIdeal.dot_S100000x128_S128x1_S100000x1_1_0_0_1_n_n 128 rfl rfl k
  have el : Cert.ReferenceIdeal.dot_S100000x128_S128x1_S100000x1_1_0_0_1_n_n.lhsIdx (ix2 p q) ((contrEquiv1 Cert.ReferenceIdeal.dot_S100000x128_S128x1_S100000x1_1_0_0_1_n_n 128 rfl rfl).symm k) = ix2 p k := funext fun a => Fin.ext (by
    match a with
    | ⟨0, _⟩ => exact lhs_ref_R12_0 _ _
    | ⟨1, _⟩ => exact (lhs_ref_R12_1 _ _).trans hk)
  have er : Cert.ReferenceIdeal.dot_S100000x128_S128x1_S100000x1_1_0_0_1_n_n.rhsIdx (ix2 p q) ((contrEquiv1 Cert.ReferenceIdeal.dot_S100000x128_S128x1_S100000x1_1_0_0_1_n_n 128 rfl rfl).symm k) = ix2 k q := funext fun a => Fin.ext (by
    match a with
    | ⟨0, _⟩ => exact (rhs_ref_R12_0 _ _).trans hk
    | ⟨1, _⟩ => exact rhs_ref_R12_1 _ _)
  rw [el, er]

/-- The host's `broadcast_in_dim` of the bias row at entry `(p, q)`: entry `q` of the row. -/
theorem ref_bias_apply_R12 (b : Vec Ideal S1x1 .f32)
    (h01 : Cert.ReferenceIdeal.S1x1.BroadcastsInDim Cert.ReferenceIdeal.S100000x1 (![0, 1] : Fin 2 → Fin Cert.ReferenceIdeal.S100000x1.rank))
    (p : Fin 100000) (q : Fin 1) :
    broadcastInDim Cert.ReferenceIdeal.S100000x1 ![0, 1] h01 b (ix2 p q) = b (ix2 (0 : Fin 1) q) :=
  broadcastInDim_apply ![0, 1] h01 b (ix2 p q) (ix2 (0 : Fin 1) q) (by
    intro a
    match a with
    | ⟨0, _⟩ => rfl
    | ⟨1, _⟩ =>
      show q.val = if (1 : ℕ) = 1 then 0 else q.val
      have hq := q.isLt
      split <;> omega)

/-- The host's three operations — the product, the bias row laid along the rows, their sum — are the dense layer. -/
theorem reference_form_eq_dense_R12 (h : Vec Ideal S100000x128 .f32) (W : Vec Ideal S128x1 .f32) (b : Vec Ideal S1x1 .f32)
    (h01 : Cert.ReferenceIdeal.S1x1.BroadcastsInDim Cert.ReferenceIdeal.S100000x1 (![0, 1] : Fin 2 → Fin Cert.ReferenceIdeal.S100000x1.rank)) :
    addf (Host.dotGeneral (F := Ideal) (φ₁ := .f32) (φ₂ := .f32) Cert.ReferenceIdeal.dot_S100000x128_S128x1_S100000x1_1_0_0_1_n_n none h W)
        (broadcastInDim Cert.ReferenceIdeal.S100000x1 ![0, 1] h01 b)
      = dense_R12 h W b := by
  funext i
  obtain ⟨p, q, rfl⟩ : ∃ (p : Fin 100000) (q : Fin 1), i = ix2 p q := ⟨i 0, i 1, eq_ix2 i⟩
  rw [addf_apply, ref_dot_apply_R12, ref_bias_apply_R12, dense_R12_apply]

end Reference

/-! ## The body's payload, read at an index -/

/-- The block product's left operand index: the output's row on axis 0. -/
theorem lhs_blk_R12_0 (i : S10000x1.Idx) (q : dot_S10000x128_S128x1_S10000x1_1_0_0_1_n_n.contr.Idx) :
    (dot_S10000x128_S128x1_S10000x1_1_0_0_1_n_n.lhsIdx i q 0).val = (i 0).val := by
  unfold DotDims.lhsIdx
  rw [dif_neg (show ¬(0 : Fin S10000x128.rank) ∈ dot_S10000x128_S128x1_S10000x1_1_0_0_1_n_n.lhsBatch from List.not_mem_nil), dif_pos (show (0 : Fin S10000x128.rank) ∈ dot_S10000x128_S128x1_S10000x1_1_0_0_1_n_n.lhsNonContracting from List.mem_singleton.mpr rfl)]
  rfl
/-- The block product's left operand index: the inner position on axis 1. -/
theorem lhs_blk_R12_1 (i : S10000x1.Idx) (q : dot_S10000x128_S128x1_S10000x1_1_0_0_1_n_n.contr.Idx) :
    (dot_S10000x128_S128x1_S10000x1_1_0_0_1_n_n.lhsIdx i q 1).val = (q ⟨0, Nat.one_pos⟩).val :=
  dot_S10000x128_S128x1_S10000x1_1_0_0_1_n_n.lhsIdx_val_of_single rfl i q
/-- The block product's right operand index: the inner position on axis 0. -/
theorem rhs_blk_R12_0 (i : S10000x1.Idx) (q : dot_S10000x128_S128x1_S10000x1_1_0_0_1_n_n.contr.Idx) :
    (dot_S10000x128_S128x1_S10000x1_1_0_0_1_n_n.rhsIdx i q 0).val = (q ⟨0, Nat.one_pos⟩).val :=
  dot_S10000x128_S128x1_S10000x1_1_0_0_1_n_n.rhsIdx_val_of_single rfl i q
/-- The block product's right operand index: the output's column on axis 1. -/
theorem rhs_blk_R12_1 (i : S10000x1.Idx) (q : dot_S10000x128_S128x1_S10000x1_1_0_0_1_n_n.contr.Idx) :
    (dot_S10000x128_S128x1_S10000x1_1_0_0_1_n_n.rhsIdx i q 1).val = (i 1).val := by
  unfold DotDims.rhsIdx
  rw [dif_neg (show ¬(1 : Fin S128x1.rank) ∈ dot_S10000x128_S128x1_S10000x1_1_0_0_1_n_n.rhsBatch from List.not_mem_nil), dif_pos (show (1 : Fin S128x1.rank) ∈ dot_S10000x128_S128x1_S10000x1_1_0_0_1_n_n.rhsNonContracting from List.mem_singleton.mpr rfl)]
  rfl

/-- The block product into the zero accumulator at entry `(p, q)`: the sum over the inner position of `x (p, k) * W (k, q)`. -/
theorem blk_matmul_apply_R12 (x : Vec Ideal S10000x128 .f32) (W : Vec Ideal S128x1 .f32) (p : Fin 10000) (q : Fin 1) :
    FloatOps.matmul (F := Ideal) (φ₁ := .f32) (φ₂ := .f32) dot_S10000x128_S128x1_S10000x1_1_0_0_1_n_n none x W (constant (F := Ideal) S10000x1 .f32 0x00000000#32) (ix2 p q)
      = ∑ k : Fin 128, x (ix2 p k) * W (ix2 k q) := by
  rw [Ideal.matmul_constant_zero_apply, ← Equiv.sum_comp (contrEquiv1 dot_S10000x128_S128x1_S10000x1_1_0_0_1_n_n 128 rfl rfl).symm]
  refine Finset.sum_congr rfl fun k _ => ?_
  have hk := contrEquiv1_symm_val dot_S10000x128_S128x1_S10000x1_1_0_0_1_n_n 128 rfl rfl k
  have el : dot_S10000x128_S128x1_S10000x1_1_0_0_1_n_n.lhsIdx (ix2 p q) ((contrEquiv1 dot_S10000x128_S128x1_S10000x1_1_0_0_1_n_n 128 rfl rfl).symm k) = ix2 p k := funext fun a => Fin.ext (by
    match a with
    | ⟨0, _⟩ => exact lhs_blk_R12_0 _ _
    | ⟨1, _⟩ => exact (lhs_blk_R12_1 _ _).trans hk)
  have er : dot_S10000x128_S128x1_S10000x1_1_0_0_1_n_n.rhsIdx (ix2 p q) ((contrEquiv1 dot_S10000x128_S128x1_S10000x1_1_0_0_1_n_n 128 rfl rfl).symm k) = ix2 k q := funext fun a => Fin.ext (by
    match a with
    | ⟨0, _⟩ => exact (rhs_blk_R12_0 _ _).trans hk
    | ⟨1, _⟩ => exact rhs_blk_R12_1 _ _)
  rw [el, er]

/-- The bias row laid along the block's rows, at entry `(p, q)`: entry `q` of the row. -/
theorem blk_bias_apply_R12 (b : Vec Ideal S1x1 .f32) (hb : S1x1.Broadcasts S10000x1) (p : Fin 10000) (q : Fin 1) :
    broadcastTo S10000x1 b hb (ix2 p q) = b (ix2 (0 : Fin 1) q) :=
  broadcastTo_apply b hb (ix2 p q) (ix2 (0 : Fin 1) q) (by
    intro a
    match a with
    | ⟨0, _⟩ => rfl
    | ⟨1, _⟩ =>
      show q.val = if (1 : ℕ) = 1 then 0 else q.val
      have hq := q.isLt
      split <;> omega)

/-- The body's payload at entry `(p, q)` of the block: row `p` of the block of `h` against column `q` of `W`, plus
    entry `q` of the bias row. -/
theorem payload_apply_R12 (x0 : Vec Ideal S10000x128 .f32) (x1 : Vec Ideal S128x1 .f32) (x2 : Vec Ideal S1x1 .f32) (p : Fin 10000) (q : Fin 1) :
    k12_pay1 x0 x1 x2 (ix2 p q) = (∑ k : Fin 128, x0 (ix2 p k) * x1 (ix2 k q)) + x2 (ix2 (0 : Fin 1) q) := by
  unfold k12_pay1
  simp only [shapeCast_self, matmul]
  rw [addf_apply, blk_matmul_apply_R12, blk_bias_apply_R12]

/-- The payload of a block of rows is the dense layer at the block's place in the array: when `x0` holds row
    `i 0` of `h` in its row `p`, `x1` is `W` down column `i 1 = q`, and `x2` is the bias at that column. -/
theorem payload_eq_dense_R12 (x0 : Vec Ideal S10000x128 .f32) (x1 : Vec Ideal S128x1 .f32) (x2 : Vec Ideal S1x1 .f32)
    (h : Vec Ideal S100000x128 .f32) (W : Vec Ideal S128x1 .f32) (b : Vec Ideal S1x1 .f32)
    (p : Fin 10000) (q : Fin 1) (i : S100000x1.Idx)
    (h0 : ∀ k : Fin 128, x0 (ix2 p k) = h (ix2 (i 0 : Fin 100000) k))
    (h1 : ∀ k : Fin 128, x1 (ix2 k q) = W (ix2 k (i 1 : Fin 1)))
    (h2 : x2 (ix2 (0 : Fin 1) q) = b (ix2 (0 : Fin 1) (i 1 : Fin 1))) :
    k12_pay1 x0 x1 x2 (ix2 p q) = dense_R12 h W b i := by
  rw [payload_apply_R12, h2]
  exact congrArg (· + b (ix2 (0 : Fin 1) (i 1 : Fin 1))) (Finset.sum_congr rfl fun k _ => by rw [h0 k, h1 k])

/-! ## From the blocks to the array -/

section Blocks
variable (V : (c : Dev nD) → (b : Ref sig .tc) → Buf (Elt Ideal) ((c : Thread nD τ).loc b))

theorem zero_offset_R12 : (![0, 0] : Fin 2 → Nat) = fun _ => 0 := funext fun a => by fin_cases a <;> rfl

/-- The printed index maps, decided over the grid: the block of `h` moves with the output's block down the rows,
    the weight and the bias row are whole at every point, and point `t` writes block `t`. -/
theorem index_maps_R12 : ∀ t : Fin cfg12.N, win12_0.index t (0 : Fin 2) = win12_3.index t (0 : Fin 2)
    ∧ win12_0.index t (1 : Fin 2) = 0
    ∧ win12_1.index t (0 : Fin 2) = 0
    ∧ win12_1.index t (1 : Fin 2) = 0
    ∧ win12_2.index t (0 : Fin 2) = 0
    ∧ win12_2.index t (1 : Fin 2) = 0
    ∧ win12_3.index t (0 : Fin 2) ≤ 9
    ∧ win12_3.index t (1 : Fin 2) = 0 :=
  (by decide +kernel : ∀ t : Fin grid12.N, _)

/-- Every block of rows is some point's. -/
theorem index_onto_R12 : ∀ q0 : Fin 10, ∃ t : Fin cfg12.N, win12_3.index t = ![q0.val, 0] :=
  (by decide +kernel : ∀ q0 : Fin 10, ∃ t : Fin grid12.N, win12_3.index t = ![q0.val, 0])

/-- What point `t` writes back is block `t` of the dense layer of the three arrays as the region finds them. -/
theorem flushed_eq_R12 (c : Dev nD) (t : Fin cfg12.N) :
    (dat12 V c).flushed 3 t
      = ((cfg12.win 3).blk t).view.read (Elt Ideal) (dense_R12 (V c main_v279) (V c main_arg25) (V c main_v280)) := by
  show (cfg12.win 3).cut (grid12.coords t) ((dat12 V c).after 3 t) = _
  rw [after12_3]
  unfold out12_3
  rw [View.canon_unit_zero zero_offset_R12]
  simp only [View.ld_unit_zero (S := S10000x128) zero_offset_R12, View.ld_unit_zero (S := S128x1) zero_offset_R12, View.ld_unit_zero (S := S1x1) zero_offset_R12]
  obtain ⟨e0, e1, e2, e3, e4, e5, e6, e7⟩ := index_maps_R12 t
  funext j
  obtain ⟨p, q, rfl⟩ : ∃ (p : Fin 10000) (q : Fin 1), j = ix2 p q := ⟨j 0, j 1, eq_ix2 j⟩
  show k12_pay1 (iblk12 V c 0 t) (iblk12 V c 1 t) (iblk12 V c 2 t) (ix2 p q)
      = dense_R12 (V c main_v279) (V c main_arg25) (V c main_v280) (((cfg12.win 3).blk t).view.emb (ix2 p q))
  refine payload_eq_dense_R12 (iblk12 V c 0 t) (iblk12 V c 1 t) (iblk12 V c 2 t) (V c main_v279) (V c main_arg25) (V c main_v280) p q
    (((cfg12.win 3).blk t).view.emb (ix2 p q)) ?_ ?_ ?_
  · intro k
    show V c main_v279 (((cfg12.win 0).blk t).view.emb (ix2 p k)) = V c main_v279 _
    refine congrArg (V c main_v279) (funext fun a => Fin.ext ?_)
    match a with
    | ⟨0, _⟩ => show win12_0.index t (0 : Fin 2) * 10000 + 1 * p.val = win12_3.index t (0 : Fin 2) * 10000 + 1 * p.val; omega
    | ⟨1, _⟩ => show win12_0.index t (1 : Fin 2) * 128 + 1 * k.val = k.val; omega
  · intro k
    show V c main_arg25 (((cfg12.win 1).blk t).view.emb (ix2 k q)) = V c main_arg25 _
    refine congrArg (V c main_arg25) (funext fun a => Fin.ext ?_)
    match a with
    | ⟨0, _⟩ => show win12_1.index t (0 : Fin 2) * 128 + 1 * k.val = k.val; omega
    | ⟨1, _⟩ => show win12_1.index t (1 : Fin 2) * 1 + 1 * q.val = win12_3.index t (1 : Fin 2) * 1 + 1 * q.val; omega
  · show V c main_v280 (((cfg12.win 2).blk t).view.emb (ix2 (0 : Fin 1) q)) = V c main_v280 _
    refine congrArg (V c main_v280) (funext fun a => Fin.ext ?_)
    match a with
    | ⟨0, _⟩ => show win12_2.index t (0 : Fin 2) * 1 + 1 * 0 = 0; omega
    | ⟨1, _⟩ => show win12_2.index t (1 : Fin 2) * 1 + 1 * q.val = win12_3.index t (1 : Fin 2) * 1 + 1 * q.val; omega

/-- An index of the array is in point `t`'s block iff each coordinate is in the block's range on its axis. -/
theorem mem_blk_R12 (t : Fin cfg12.N) (i : S100000x1.Idx) :
    i ∈ ((cfg12.win 3).blk t).view.set ↔ ∀ a : Fin 2, win12_3.index t a * S10000x1.size a ≤ (i a).val ∧ (i a).val < win12_3.index t a * S10000x1.size a + S10000x1.size a := by
  show i ∈ ((View.whole main_v281).slice (win12_3.rect t)).set ↔ _
  rw [View.set_slice_whole, Rect.mem_set_unit]
  exact Iff.rfl

/-- The ten blocks of rows tile the array: row `r` is in the block of point `r / 10000`. -/
theorem covered_R12 (i : S100000x1.Idx) :
    ∃ t : Fin cfg12.N, (cfg12.win 3).flush t = true ∧ i ∈ ((cfg12.win 3).blk t).view.set := by
  have hi0 : (i 0).val < 100000 := (i 0).isLt
  have hi1 : (i 1).val < 1 := (i 1).isLt
  obtain ⟨t, ht⟩ := index_onto_R12 ⟨(i 0).val / 10000, by omega⟩
  have q0 : win12_3.index t (0 : Fin 2) = (i 0).val / 10000 := congrFun ht 0
  have q1 : win12_3.index t (1 : Fin 2) = 0 := congrFun ht 1
  refine ⟨t, flush12_3 t, ?_⟩
  rw [mem_blk_R12]
  intro a
  match a with
  | ⟨0, _⟩ => show win12_3.index t (0 : Fin 2) * 10000 ≤ (i 0).val ∧ (i 0).val < win12_3.index t (0 : Fin 2) * 10000 + 10000; omega
  | ⟨1, _⟩ => show win12_3.index t (1 : Fin 2) * 1 ≤ (i 1).val ∧ (i 1).val < win12_3.index t (1 : Fin 2) * 1 + 1; omega

/-- The output array after region 12 is the dense layer of the three input arrays as the region finds them. -/
theorem region12_dense (c : Dev nD) :
    (dat12 V c).arrAt 3 cfg12.N = dense_R12 (V c main_v279) (V c main_arg25) (V c main_v280) :=
  (dat12 V c).arrAt_eq_of_cover 3 (dense_R12 (V c main_v279) (V c main_arg25) (V c main_v280)) (fun t _ => flushed_eq_R12 V c t) (fun i => covered_R12 i)

/-- THE VALUE of region 12: its output array after the region is what the host's `dot_general`, `broadcast_in_dim` and
    `add` make of the three input arrays as the region finds them. -/
theorem region12_value [Cert.ReferenceIdeal.Facts₀] (c : Dev nD)
    (h01 : Cert.ReferenceIdeal.S1x1.BroadcastsInDim Cert.ReferenceIdeal.S100000x1 (![0, 1] : Fin 2 → Fin Cert.ReferenceIdeal.S100000x1.rank)) :
    (dat12 V c).arrAt 3 cfg12.N
      = addf (Host.dotGeneral (F := Ideal) (φ₁ := .f32) (φ₂ := .f32) Cert.ReferenceIdeal.dot_S100000x128_S128x1_S100000x1_1_0_0_1_n_n none (V c main_v279) (V c main_arg25))
          (broadcastInDim Cert.ReferenceIdeal.S100000x1 ![0, 1] h01 (V c main_v280)) :=
  (region12_dense V c).trans (reference_form_eq_dense_R12 (V c main_v279) (V c main_arg25) (V c main_v280) h01).symm

end Blocks

end Cert.KernelIdeal.RegionVal

end
-- ==== Proof.RegionAll.lean ====
/- The thirteen regions' value lemmas, as one import. -/
import proofs.«409037_j72164040508123_1_alg».proof.Proof.RegionEdge0
import proofs.«409037_j72164040508123_1_alg».proof.Proof.RegionDense1
import proofs.«409037_j72164040508123_1_alg».proof.Proof.RegionDense2
import proofs.«409037_j72164040508123_1_alg».proof.Proof.RegionEdge3
import proofs.«409037_j72164040508123_1_alg».proof.Proof.RegionDense4
import proofs.«409037_j72164040508123_1_alg».proof.Proof.RegionDense5
import proofs.«409037_j72164040508123_1_alg».proof.Proof.RegionEdge6
import proofs.«409037_j72164040508123_1_alg».proof.Proof.RegionDense7
import proofs.«409037_j72164040508123_1_alg».proof.Proof.RegionDense8
import proofs.«409037_j72164040508123_1_alg».proof.Proof.RegionDense9
import proofs.«409037_j72164040508123_1_alg».proof.Proof.RegionDense10
import proofs.«409037_j72164040508123_1_alg».proof.Proof.RegionDense11
import proofs.«409037_j72164040508123_1_alg».proof.Proof.RegionDense12
-- ==== Proof.Pair0.lean ====
/- What it means for the two launch memories to agree on the arguments, and then the table: buffer by buffer, the kernel program's contents at its last boundary and
   the reference's final contents are equal (each pair from its two operations' reading lemmas and the operands' pairs; a pallas_call's output by its region's value lemma;
   the folded batch-norm affine against the direct form by distributivity over reals), and each float buffer of the reference on the way holds reals only. -/
import proofs.«409037_j72164040508123_1_alg».proof.Proof.TabAll
import proofs.«409037_j72164040508123_1_alg».proof.Proof.LibFinite
import proofs.«409037_j72164040508123_1_alg».proof.Proof.LibFiniteSum
import proofs.«409037_j72164040508123_1_alg».proof.Proof.VarBlock
import proofs.«409037_j72164040508123_1_alg».proof.Proof.BnSeam
import proofs.«409037_j72164040508123_1_alg».proof.Proof.BiasRow
import proofs.«409037_j72164040508123_1_alg».proof.Proof.PreFinite
import proofs.«409037_j72164040508123_1_alg».proof.Proof.RegionAll

set_option maxRecDepth 16384

noncomputable section

namespace Cert.Pair

open Idealize.ShloMosaic Idealize.ShloMosaic.TcCoe Idealize.SL.Sem Idealize.ShloMosaic.StableHlo

/-- The two launch memories hold the same argument arrays (one field per argument; stated with heterogeneous equality because the two
    programs spell a buffer's type through their own signatures). -/
structure Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop where
  a0 : ∀ c : Dev Cert.KernelIdeal.nD, HEq (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg0))
  a1 : ∀ c : Dev Cert.KernelIdeal.nD, HEq (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg1))
  a2 : ∀ c : Dev Cert.KernelIdeal.nD, HEq (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg2))
  a3 : ∀ c : Dev Cert.KernelIdeal.nD, HEq (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg3))
  a4 : ∀ c : Dev Cert.KernelIdeal.nD, HEq (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg4))
  a5 : ∀ c : Dev Cert.KernelIdeal.nD, HEq (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg5))
  a6 : ∀ c : Dev Cert.KernelIdeal.nD, HEq (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg6))
  a7 : ∀ c : Dev Cert.KernelIdeal.nD, HEq (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg7))
  a8 : ∀ c : Dev Cert.KernelIdeal.nD, HEq (m' ((c.tc : Thread Cert.ReferenceIdeal.nD Cert.ReferenceIdeal.τ).loc Cert.ReferenceIdeal.main_arg8)) (m ((c.tc : Thread Cert.KernelIdeal.nD Cert.KernelIdeal.τ).loc Cert.KernelIdeal.main_arg8))
  a9 : ∀ c : Dev Cert.KernelIdeal.nD, HEq (m' ((c.tc : Thread Cert.ReferenceIdeal.nD Cert.ReferenceIdeal.τ).loc Cert.ReferenceIdeal.main_arg9)) (m ((c.tc : Thread Cert.KernelIdeal.nD Cert.KernelIdeal.τ).loc Cert.KernelIdeal.main_arg9))
  a10 : ∀ c : Dev Cert.KernelIdeal.nD, HEq (m' ((c.tc : Thread Cert.ReferenceIdeal.nD Cert.ReferenceIdeal.τ).loc Cert.ReferenceIdeal.main_arg10)) (m ((c.tc : Thread Cert.KernelIdeal.nD Cert.KernelIdeal.τ).loc Cert.KernelIdeal.main_arg10))
  a11 : ∀ c : Dev Cert.KernelIdeal.nD, HEq (m' ((c.tc : Thread Cert.ReferenceIdeal.nD Cert.ReferenceIdeal.τ).loc Cert.ReferenceIdeal.main_arg11)) (m ((c.tc : Thread Cert.KernelIdeal.nD Cert.KernelIdeal.τ).loc Cert.KernelIdeal.main_arg11))
  a12 : ∀ c : Dev Cert.KernelIdeal.nD, HEq (m' ((c.tc : Thread Cert.ReferenceIdeal.nD Cert.ReferenceIdeal.τ).loc Cert.ReferenceIdeal.main_arg12)) (m ((c.tc : Thread Cert.KernelIdeal.nD Cert.KernelIdeal.τ).loc Cert.KernelIdeal.main_arg12))
  a13 : ∀ c : Dev Cert.KernelIdeal.nD, HEq (m' ((c.tc : Thread Cert.ReferenceIdeal.nD Cert.ReferenceIdeal.τ).loc Cert.ReferenceIdeal.main_arg13)) (m ((c.tc : Thread Cert.KernelIdeal.nD Cert.KernelIdeal.τ).loc Cert.KernelIdeal.main_arg13))
  a14 : ∀ c : Dev Cert.KernelIdeal.nD, HEq (m' ((c.tc : Thread Cert.ReferenceIdeal.nD Cert.ReferenceIdeal.τ).loc Cert.ReferenceIdeal.main_arg14)) (m ((c.tc : Thread Cert.KernelIdeal.nD Cert.KernelIdeal.τ).loc Cert.KernelIdeal.main_arg14))
  a15 : ∀ c : Dev Cert.KernelIdeal.nD, HEq (m' ((c.tc : Thread Cert.ReferenceIdeal.nD Cert.ReferenceIdeal.τ).loc Cert.ReferenceIdeal.main_arg15)) (m ((c.tc : Thread Cert.KernelIdeal.nD Cert.KernelIdeal.τ).loc Cert.KernelIdeal.main_arg15))
  a16 : ∀ c : Dev Cert.KernelIdeal.nD, HEq (m' ((c.tc : Thread Cert.ReferenceIdeal.nD Cert.ReferenceIdeal.τ).loc Cert.ReferenceIdeal.main_arg16)) (m ((c.tc : Thread Cert.KernelIdeal.nD Cert.KernelIdeal.τ).loc Cert.KernelIdeal.main_arg16))
  a17 : ∀ c : Dev Cert.KernelIdeal.nD, HEq (m' ((c.tc : Thread Cert.ReferenceIdeal.nD Cert.ReferenceIdeal.τ).loc Cert.ReferenceIdeal.main_arg17)) (m ((c.tc : Thread Cert.KernelIdeal.nD Cert.KernelIdeal.τ).loc Cert.KernelIdeal.main_arg17))
  a18 : ∀ c : Dev Cert.KernelIdeal.nD, HEq (m' ((c.tc : Thread Cert.ReferenceIdeal.nD Cert.ReferenceIdeal.τ).loc Cert.ReferenceIdeal.main_arg18)) (m ((c.tc : Thread Cert.KernelIdeal.nD Cert.KernelIdeal.τ).loc Cert.KernelIdeal.main_arg18))
  a19 : ∀ c : Dev Cert.KernelIdeal.nD, HEq (m' ((c.tc : Thread Cert.ReferenceIdeal.nD Cert.ReferenceIdeal.τ).loc Cert.ReferenceIdeal.main_arg19)) (m ((c.tc : Thread Cert.KernelIdeal.nD Cert.KernelIdeal.τ).loc Cert.KernelIdeal.main_arg19))
  a20 : ∀ c : Dev Cert.KernelIdeal.nD, HEq (m' ((c.tc : Thread Cert.ReferenceIdeal.nD Cert.ReferenceIdeal.τ).loc Cert.ReferenceIdeal.main_arg20)) (m ((c.tc : Thread Cert.KernelIdeal.nD Cert.KernelIdeal.τ).loc Cert.KernelIdeal.main_arg20))
  a21 : ∀ c : Dev Cert.KernelIdeal.nD, HEq (m' ((c.tc : Thread Cert.ReferenceIdeal.nD Cert.ReferenceIdeal.τ).loc Cert.ReferenceIdeal.main_arg21)) (m ((c.tc : Thread Cert.KernelIdeal.nD Cert.KernelIdeal.τ).loc Cert.KernelIdeal.main_arg21))
  a22 : ∀ c : Dev Cert.KernelIdeal.nD, HEq (m' ((c.tc : Thread Cert.ReferenceIdeal.nD Cert.ReferenceIdeal.τ).loc Cert.ReferenceIdeal.main_arg22)) (m ((c.tc : Thread Cert.KernelIdeal.nD Cert.KernelIdeal.τ).loc Cert.KernelIdeal.main_arg22))
  a23 : ∀ c : Dev Cert.KernelIdeal.nD, HEq (m' ((c.tc : Thread Cert.ReferenceIdeal.nD Cert.ReferenceIdeal.τ).loc Cert.ReferenceIdeal.main_arg23)) (m ((c.tc : Thread Cert.KernelIdeal.nD Cert.KernelIdeal.τ).loc Cert.KernelIdeal.main_arg23))
  a24 : ∀ c : Dev Cert.KernelIdeal.nD, HEq (m' ((c.tc : Thread Cert.ReferenceIdeal.nD Cert.ReferenceIdeal.τ).loc Cert.ReferenceIdeal.main_arg24)) (m ((c.tc : Thread Cert.KernelIdeal.nD Cert.KernelIdeal.τ).loc Cert.KernelIdeal.main_arg24))
  a25 : ∀ c : Dev Cert.KernelIdeal.nD, HEq (m' ((c.tc : Thread Cert.ReferenceIdeal.nD Cert.ReferenceIdeal.τ).loc Cert.ReferenceIdeal.main_arg25)) (m ((c.tc : Thread Cert.KernelIdeal.nD Cert.KernelIdeal.τ).loc Cert.KernelIdeal.main_arg25))
  a26 : ∀ c : Dev Cert.KernelIdeal.nD, HEq (m' ((c.tc : Thread Cert.ReferenceIdeal.nD Cert.ReferenceIdeal.τ).loc Cert.ReferenceIdeal.main_arg26)) (m ((c.tc : Thread Cert.KernelIdeal.nD Cert.KernelIdeal.τ).loc Cert.KernelIdeal.main_arg26))

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (hpre : Cert.Pre_KernelIdeal m) (hagree : Agree m m') (c : Dev Cert.KernelIdeal.nD)

local notation "KV" => Cert.KernelIdeal.GenP.W55 (F := Ideal) m ρ c
local notation "RV" => Cert.ReferenceIdeal.RefRun.RV33 (F := Ideal) (StableHlo.launchContents m' c)

include m ρ m' hpre hagree c

theorem p_main_cst_33_main_cst_33 : KV (Proc.devRef .tc Cert.KernelIdeal.main_cst_33) = RV (Proc.devRef .tc Cert.ReferenceIdeal.main_cst_33) := by
  rw [Cert.KernelIdeal.Tab.fin_main_cst_33 (F := Ideal) m ρ c, Cert.ReferenceIdeal.Tab.fin_main_cst_33 (F := Ideal) (StableHlo.launchContents m' c)]
  rw [nullary_result, nullary_result]
  try simp only [TRef.ofBuf, TRef.toBuf, cast_eq]
  all_goals rfl

theorem p_main_arg6_main_arg6 : KV (Proc.devRef .tc Cert.KernelIdeal.main_arg6) = RV (Proc.devRef .tc Cert.ReferenceIdeal.main_arg6) :=
  (Cert.KernelIdeal.GenP.W55_main_arg6 (F := Ideal) m ρ c).trans ((eq_of_heq (hagree.a6 c)).symm.trans (Cert.ReferenceIdeal.Tab.lift0 (F := Ideal) (StableHlo.launchContents m' c) Cert.ReferenceIdeal.main_arg6 (by decide)).symm)

theorem p_main_v188_main_v220 : KV (Proc.devRef .tc Cert.KernelIdeal.main_v188) = RV (Proc.devRef .tc Cert.ReferenceIdeal.main_v220) := by
  rw [Cert.KernelIdeal.Tab.fin_main_v188 (F := Ideal) m ρ c, Cert.ReferenceIdeal.Tab.fin_main_v220 (F := Ideal) (StableHlo.launchContents m' c)]
  rw [unary_result, unary_result]
  rw [p_main_arg6_main_arg6 m ρ m' hpre hagree c]
  try simp only [TRef.ofBuf, TRef.toBuf, cast_eq]
  all_goals rfl

theorem p_main_v189_main_v221 : KV (Proc.devRef .tc Cert.KernelIdeal.main_v189) = RV (Proc.devRef .tc Cert.ReferenceIdeal.main_v221) := by
  rw [Cert.KernelIdeal.Tab.fin_main_v189 (F := Ideal) m ρ c, Cert.ReferenceIdeal.Tab.fin_main_v221 (F := Ideal) (StableHlo.launchContents m' c)]
  rw [reshape_result, reshape_result]
  rw [p_main_v188_main_v220 m ρ m' hpre hagree c]
  try simp only [TRef.ofBuf, TRef.toBuf, cast_eq]
  all_goals rfl

theorem p_main_v190_main_v222 : KV (Proc.devRef .tc Cert.KernelIdeal.main_v190) = RV (Proc.devRef .tc Cert.ReferenceIdeal.main_v222) := by
  rw [Cert.KernelIdeal.Tab.fin_main_v190 (F := Ideal) m ρ c, Cert.ReferenceIdeal.Tab.fin_main_v222 (F := Ideal) (StableHlo.launchContents m' c)]
  rw [binary_result, binary_result]
  rw [p_main_cst_33_main_cst_33 m ρ m' hpre hagree c, p_main_v189_main_v221 m ρ m' hpre hagree c]
  try simp only [TRef.ofBuf, TRef.toBuf, cast_eq]
  all_goals rfl

theorem p_main_v191_main_v223 : KV (Proc.devRef .tc Cert.KernelIdeal.main_v191) = RV (Proc.devRef .tc Cert.ReferenceIdeal.main_v223) := by
  rw [Cert.KernelIdeal.Tab.fin_main_v191 (F := Ideal) m ρ c, Cert.ReferenceIdeal.Tab.fin_main_v223 (F := Ideal) (StableHlo.launchContents m' c)]
  rw [unary_result, unary_result]
  rw [p_main_v190_main_v222 m ρ m' hpre hagree c]
  try simp only [TRef.ofBuf, TRef.toBuf, cast_eq]
  all_goals rfl

theorem p_main_cst_17_main_cst_17 : KV (Proc.devRef .tc Cert.KernelIdeal.main_cst_17) = RV (Proc.devRef .tc Cert.ReferenceIdeal.main_cst_17) := by
  rw [Cert.KernelIdeal.Tab.fin_main_cst_17 (F := Ideal) m ρ c, Cert.ReferenceIdeal.Tab.fin_main_cst_17 (F := Ideal) (StableHlo.launchContents m' c)]
  rw [nullary_result, nullary_result]
  try simp only [TRef.ofBuf, TRef.toBuf, cast_eq]
  all_goals rfl

theorem p_main_v104_main_v122 : KV (Proc.devRef .tc Cert.KernelIdeal.main_v104) = RV (Proc.devRef .tc Cert.ReferenceIdeal.main_v122) := by
  rw [Cert.KernelIdeal.Tab.fin_main_v104 (F := Ideal) m ρ c, Cert.ReferenceIdeal.Tab.fin_main_v122 (F := Ideal) (StableHlo.launchContents m' c)]
  rw [unary_result, unary_result]
  rw [p_main_arg6_main_arg6 m ρ m' hpre hagree c]
  try simp only [TRef.ofBuf, TRef.toBuf, cast_eq]
  all_goals rfl

theorem p_main_v105_main_v123 : KV (Proc.devRef .tc Cert.KernelIdeal.main_v105) = RV (Proc.devRef .tc Cert.ReferenceIdeal.main_v123) := by
  rw [Cert.KernelIdeal.Tab.fin_main_v105 (F := Ideal) m ρ c, Cert.ReferenceIdeal.Tab.fin_main_v123 (F := Ideal) (StableHlo.launchContents m' c)]
  rw [reshape_result, reshape_result]
  rw [p_main_v104_main_v122 m ρ m' hpre hagree c]
  try simp only [TRef.ofBuf, TRef.toBuf, cast_eq]
  all_goals rfl

theorem p_main_v106_main_v124 : KV (Proc.devRef .tc Cert.KernelIdeal.main_v106) = RV (Proc.devRef .tc Cert.ReferenceIdeal.main_v124) := by
  rw [Cert.KernelIdeal.Tab.fin_main_v106 (F := Ideal) m ρ c, Cert.ReferenceIdeal.Tab.fin_main_v124 (F := Ideal) (StableHlo.launchContents m' c)]
  rw [binary_result, binary_result]
  rw [p_main_cst_17_main_cst_17 m ρ m' hpre hagree c, p_main_v105_main_v123 m ρ m' hpre hagree c]
  try simp only [TRef.ofBuf, TRef.toBuf, cast_eq]
  all_goals rfl

theorem p_main_v107_main_v125 : KV (Proc.devRef .tc Cert.KernelIdeal.main_v107) = RV (Proc.devRef .tc Cert.ReferenceIdeal.main_v125) := by
  rw [Cert.KernelIdeal.Tab.fin_main_v107 (F := Ideal) m ρ c, Cert.ReferenceIdeal.Tab.fin_main_v125 (F := Ideal) (StableHlo.launchContents m' c)]
  rw [unary_result, unary_result]
  rw [p_main_v106_main_v124 m ρ m' hpre hagree c]
  try simp only [TRef.ofBuf, TRef.toBuf, cast_eq]
  all_goals rfl

theorem p_main_cst_1_main_cst_1 : KV (Proc.devRef .tc Cert.KernelIdeal.main_cst_1) = RV (Proc.devRef .tc Cert.ReferenceIdeal.main_cst_1) := by
  rw [Cert.KernelIdeal.Tab.fin_main_cst_1 (F := Ideal) m ρ c, Cert.ReferenceIdeal.Tab.fin_main_cst_1 (F := Ideal) (StableHlo.launchContents m' c)]
  rw [nullary_result, nullary_result]
  try simp only [TRef.ofBuf, TRef.toBuf, cast_eq]
  all_goals rfl

theorem p_main_v20_main_v24 : KV (Proc.devRef .tc Cert.KernelIdeal.main_v20) = RV (Proc.devRef .tc Cert.ReferenceIdeal.main_v24) := by
  rw [Cert.KernelIdeal.Tab.fin_main_v20 (F := Ideal) m ρ c, Cert.ReferenceIdeal.Tab.fin_main_v24 (F := Ideal) (StableHlo.launchContents m' c)]
  rw [unary_result, unary_result]
  rw [p_main_arg6_main_arg6 m ρ m' hpre hagree c]
  try simp only [TRef.ofBuf, TRef.toBuf, cast_eq]
  all_goals rfl

theorem p_main_v21_main_v25 : KV (Proc.devRef .tc Cert.KernelIdeal.main_v21) = RV (Proc.devRef .tc Cert.ReferenceIdeal.main_v25) := by
  rw [Cert.KernelIdeal.Tab.fin_main_v21 (F := Ideal) m ρ c, Cert.ReferenceIdeal.Tab.fin_main_v25 (F := Ideal) (StableHlo.launchContents m' c)]
  rw [reshape_result, reshape_result]
  rw [p_main_v20_main_v24 m ρ m' hpre hagree c]
  try simp only [TRef.ofBuf, TRef.toBuf, cast_eq]
  all_goals rfl

theorem p_main_v22_main_v26 : KV (Proc.devRef .tc Cert.KernelIdeal.main_v22) = RV (Proc.devRef .tc Cert.ReferenceIdeal.main_v26) := by
  rw [Cert.KernelIdeal.Tab.fin_main_v22 (F := Ideal) m ρ c, Cert.ReferenceIdeal.Tab.fin_main_v26 (F := Ideal) (StableHlo.launchContents m' c)]
  rw [binary_result, binary_result]
  rw [p_main_cst_1_main_cst_1 m ρ m' hpre hagree c, p_main_v21_main_v25 m ρ m' hpre hagree c]
  try simp only [TRef.ofBuf, TRef.toBuf, cast_eq]
  all_goals rfl

theorem p_main_v23_main_v27 : KV (Proc.devRef .tc Cert.KernelIdeal.main_v23) = RV (Proc.devRef .tc Cert.ReferenceIdeal.main_v27) := by
  rw [Cert.KernelIdeal.Tab.fin_main_v23 (F := Ideal) m ρ c, Cert.ReferenceIdeal.Tab.fin_main_v27 (F := Ideal) (StableHlo.launchContents m' c)]
  rw [unary_result, unary_result]
  rw [p_main_v22_main_v26 m ρ m' hpre hagree c]
  try simp only [TRef.ofBuf, TRef.toBuf, cast_eq]
  all_goals rfl

theorem p_main_arg0_main_arg0 : KV (Proc.devRef .tc Cert.KernelIdeal.main_arg0) = RV (Proc.devRef .tc Cert.ReferenceIdeal.main_arg0) :=
  (Cert.KernelIdeal.GenP.W55_main_arg0 (F := Ideal) m ρ c).trans ((eq_of_heq (hagree.a0 c)).symm.trans (Cert.ReferenceIdeal.Tab.lift0 (F := Ideal) (StableHlo.launchContents m' c) Cert.ReferenceIdeal.main_arg0 (by decide)).symm)

theorem p_main_v24_main_v28 : KV (Proc.devRef .tc Cert.KernelIdeal.main_v24) = RV (Proc.devRef .tc Cert.ReferenceIdeal.main_v28) := by
  rw [Cert.KernelIdeal.Tab.fin_main_v24 (F := Ideal) m ρ c, Cert.ReferenceIdeal.Tab.fin_main_v28 (F := Ideal) (StableHlo.launchContents m' c)]
  rw [binary_result, binary_result]
  rw [p_main_v23_main_v27 m ρ m' hpre hagree c, p_main_arg0_main_arg0 m ρ m' hpre hagree c]
  try simp only [TRef.ofBuf, TRef.toBuf, cast_eq]
  all_goals rfl

theorem p_main_cst_main_cst : KV (Proc.devRef .tc Cert.KernelIdeal.main_cst) = RV (Proc.devRef .tc Cert.ReferenceIdeal.main_cst) := by
  rw [Cert.KernelIdeal.Tab.fin_main_cst (F := Ideal) m ρ c, Cert.ReferenceIdeal.Tab.fin_main_cst (F := Ideal) (StableHlo.launchContents m' c)]
  rw [nullary_result, nullary_result]
  try simp only [TRef.ofBuf, TRef.toBuf, cast_eq]
  all_goals rfl

theorem p_main_v17_main_v21 : KV (Proc.devRef .tc Cert.KernelIdeal.main_v17) = RV (Proc.devRef .tc Cert.ReferenceIdeal.main_v21) := by
  rw [Cert.KernelIdeal.Tab.fin_main_v17 (F := Ideal) m ρ c, Cert.ReferenceIdeal.Tab.fin_main_v21 (F := Ideal) (StableHlo.launchContents m' c)]
  rw [unary_result, unary_result]
  rw [p_main_cst_main_cst m ρ m' hpre hagree c]
  try simp only [TRef.ofBuf, TRef.toBuf, cast_eq]
  all_goals rfl

theorem p_main_arg3_main_arg3 : KV (Proc.devRef .tc Cert.KernelIdeal.main_arg3) = RV (Proc.devRef .tc Cert.ReferenceIdeal.main_arg3) :=
  (Cert.KernelIdeal.GenP.W55_main_arg3 (F := Ideal) m ρ c).trans ((eq_of_heq (hagree.a3 c)).symm.trans (Cert.ReferenceIdeal.Tab.lift0 (F := Ideal) (StableHlo.launchContents m' c) Cert.ReferenceIdeal.main_arg3 (by decide)).symm)

theorem p_main_v2_main_v2 : KV (Proc.devRef .tc Cert.KernelIdeal.main_v2) = RV (Proc.devRef .tc Cert.ReferenceIdeal.main_v2) := by
  rw [Cert.KernelIdeal.Tab.fin_main_v2 (F := Ideal) m ρ c, Cert.ReferenceIdeal.Tab.fin_main_v2 (F := Ideal) (StableHlo.launchContents m' c)]
  rw [unary_result, unary_result]
  rw [p_main_arg3_main_arg3 m ρ m' hpre hagree c]
  try simp only [TRef.ofBuf, TRef.toBuf, cast_eq]
  all_goals rfl

theorem p_main_v3_main_v3 : KV (Proc.devRef .tc Cert.KernelIdeal.main_v3) = RV (Proc.devRef .tc Cert.ReferenceIdeal.main_v3) := by
  rw [Cert.KernelIdeal.Tab.fin_main_v3 (F := Ideal) m ρ c, Cert.ReferenceIdeal.Tab.fin_main_v3 (F := Ideal) (StableHlo.launchContents m' c)]
  rw [reshape_result, reshape_result]
  rw [p_main_v2_main_v2 m ρ m' hpre hagree c]
  try simp only [TRef.ofBuf, TRef.toBuf, cast_eq]
  all_goals rfl

theorem p_main_v18_main_v22 : KV (Proc.devRef .tc Cert.KernelIdeal.main_v18) = RV (Proc.devRef .tc Cert.ReferenceIdeal.main_v22) := by
  rw [Cert.KernelIdeal.Tab.fin_main_v18 (F := Ideal) m ρ c, Cert.ReferenceIdeal.Tab.fin_main_v22 (F := Ideal) (StableHlo.launchContents m' c)]
  rw [unary_result, unary_result]
  rw [p_main_v3_main_v3 m ρ m' hpre hagree c]
  try simp only [TRef.ofBuf, TRef.toBuf, cast_eq]
  all_goals rfl

theorem p_main_v0_main_v0 : KV (Proc.devRef .tc Cert.KernelIdeal.main_v0) = RV (Proc.devRef .tc Cert.ReferenceIdeal.main_v0) := by
  rw [Cert.KernelIdeal.Tab.fin_main_v0 (F := Ideal) m ρ c, Cert.ReferenceIdeal.Tab.fin_main_v0 (F := Ideal) (StableHlo.launchContents m' c)]
  rw [unary_result, unary_result]
  rw [p_main_arg3_main_arg3 m ρ m' hpre hagree c]
  try simp only [TRef.ofBuf, TRef.toBuf, cast_eq]
  all_goals rfl

theorem p_main_v1_main_v1 : KV (Proc.devRef .tc Cert.KernelIdeal.main_v1) = RV (Proc.devRef .tc Cert.ReferenceIdeal.main_v1) := by
  rw [Cert.KernelIdeal.Tab.fin_main_v1 (F := Ideal) m ρ c, Cert.ReferenceIdeal.Tab.fin_main_v1 (F := Ideal) (StableHlo.launchContents m' c)]
  rw [reshape_result, reshape_result]
  rw [p_main_v0_main_v0 m ρ m' hpre hagree c]
  try simp only [TRef.ofBuf, TRef.toBuf, cast_eq]
  all_goals rfl

theorem p_main_c_main_c : KV (Proc.devRef .tc Cert.KernelIdeal.main_c) = RV (Proc.devRef .tc Cert.ReferenceIdeal.main_c) := by
  rw [Cert.KernelIdeal.Tab.fin_main_c (F := Ideal) m ρ c, Cert.ReferenceIdeal.Tab.fin_main_c (F := Ideal) (StableHlo.launchContents m' c)]
  rw [nullary_result, nullary_result]
  try simp only [TRef.ofBuf, TRef.toBuf, cast_eq]
  all_goals rfl

theorem p_main_v4_main_v4 : KV (Proc.devRef .tc Cert.KernelIdeal.main_v4) = RV (Proc.devRef .tc Cert.ReferenceIdeal.main_v4) := by
  rw [Cert.KernelIdeal.Tab.fin_main_v4 (F := Ideal) m ρ c, Cert.ReferenceIdeal.Tab.fin_main_v4 (F := Ideal) (StableHlo.launchContents m' c)]
  rw [unary_result, unary_result]
  rw [p_main_c_main_c m ρ m' hpre hagree c]
  try simp only [TRef.ofBuf, TRef.toBuf, cast_eq]
  all_goals rfl

theorem p_main_v5_main_v5 : KV (Proc.devRef .tc Cert.KernelIdeal.main_v5) = RV (Proc.devRef .tc Cert.ReferenceIdeal.main_v5) := by
  rw [Cert.KernelIdeal.Tab.fin_main_v5 (F := Ideal) m ρ c, Cert.ReferenceIdeal.Tab.fin_main_v5 (F := Ideal) (StableHlo.launchContents m' c)]
  rw [binary_result, binary_result]
  rw [p_main_v1_main_v1 m ρ m' hpre hagree c, p_main_v4_main_v4 m ρ m' hpre hagree c]
  try simp only [TRef.ofBuf, TRef.toBuf, cast_eq]
  all_goals rfl

theorem p_main_c_0_main_c_0 : KV (Proc.devRef .tc Cert.KernelIdeal.main_c_0) = RV (Proc.devRef .tc Cert.ReferenceIdeal.main_c_0) := by
  rw [Cert.KernelIdeal.Tab.fin_main_c_0 (F := Ideal) m ρ c, Cert.ReferenceIdeal.Tab.fin_main_c_0 (F := Ideal) (StableHlo.launchContents m' c)]
  rw [nullary_result, nullary_result]
  try simp only [TRef.ofBuf, TRef.toBuf, cast_eq]
  all_goals rfl

theorem p_main_v6_main_v6 : KV (Proc.devRef .tc Cert.KernelIdeal.main_v6) = RV (Proc.devRef .tc Cert.ReferenceIdeal.main_v6) := by
  rw [Cert.KernelIdeal.Tab.fin_main_v6 (F := Ideal) m ρ c, Cert.ReferenceIdeal.Tab.fin_main_v6 (F := Ideal) (StableHlo.launchContents m' c)]
  rw [unary_result, unary_result]
  rw [p_main_c_0_main_c_0 m ρ m' hpre hagree c]
  try simp only [TRef.ofBuf, TRef.toBuf, cast_eq]
  all_goals rfl

theorem p_main_v7_main_v7 : KV (Proc.devRef .tc Cert.KernelIdeal.main_v7) = RV (Proc.devRef .tc Cert.ReferenceIdeal.main_v7) := by
  rw [Cert.KernelIdeal.Tab.fin_main_v7 (F := Ideal) m ρ c, Cert.ReferenceIdeal.Tab.fin_main_v7 (F := Ideal) (StableHlo.launchContents m' c)]
  rw [binary_result, binary_result]
  rw [p_main_v1_main_v1 m ρ m' hpre hagree c, p_main_v6_main_v6 m ρ m' hpre hagree c]
  try simp only [TRef.ofBuf, TRef.toBuf, cast_eq]
  all_goals rfl

theorem p_main_v8_main_v8 : KV (Proc.devRef .tc Cert.KernelIdeal.main_v8) = RV (Proc.devRef .tc Cert.ReferenceIdeal.main_v8) := by
  rw [Cert.KernelIdeal.Tab.fin_main_v8 (F := Ideal) m ρ c, Cert.ReferenceIdeal.Tab.fin_main_v8 (F := Ideal) (StableHlo.launchContents m' c)]
  rw [ternary_result, ternary_result]
  rw [p_main_v5_main_v5 m ρ m' hpre hagree c, p_main_v7_main_v7 m ρ m' hpre hagree c, p_main_v1_main_v1 m ρ m' hpre hagree c]
  try simp only [TRef.ofBuf, TRef.toBuf, cast_eq]
  all_goals rfl

theorem p_main_v9_main_v9 : KV (Proc.devRef .tc Cert.KernelIdeal.main_v9) = RV (Proc.devRef .tc Cert.ReferenceIdeal.main_v9) := by
  rw [Cert.KernelIdeal.Tab.fin_main_v9 (F := Ideal) m ρ c, Cert.ReferenceIdeal.Tab.fin_main_v9 (F := Ideal) (StableHlo.launchContents m' c)]
  rw [unary_result, unary_result]
  rw [p_main_v8_main_v8 m ρ m' hpre hagree c]
  try simp only [TRef.ofBuf, TRef.toBuf, cast_eq]
  all_goals rfl

theorem p_main_v10_main_v10 : KV (Proc.devRef .tc Cert.KernelIdeal.main_v10) = RV (Proc.devRef .tc Cert.ReferenceIdeal.main_v10) := by
  rw [Cert.KernelIdeal.Tab.fin_main_v10 (F := Ideal) m ρ c, Cert.ReferenceIdeal.Tab.fin_main_v10 (F := Ideal) (StableHlo.launchContents m' c)]
  rw [binary_result, binary_result]
  rw [p_main_arg0_main_arg0 m ρ m' hpre hagree c, p_main_v9_main_v9 m ρ m' hpre hagree c]
  try simp only [TRef.ofBuf, TRef.toBuf, cast_eq]
  all_goals rfl

theorem p_main_arg1_main_arg1 : KV (Proc.devRef .tc Cert.KernelIdeal.main_arg1) = RV (Proc.devRef .tc Cert.ReferenceIdeal.main_arg1) :=
  (Cert.KernelIdeal.GenP.W55_main_arg1 (F := Ideal) m ρ c).trans ((eq_of_heq (hagree.a1 c)).symm.trans (Cert.ReferenceIdeal.Tab.lift0 (F := Ideal) (StableHlo.launchContents m' c) Cert.ReferenceIdeal.main_arg1 (by decide)).symm)

theorem p_main_arg4_main_arg4 : KV (Proc.devRef .tc Cert.KernelIdeal.main_arg4) = RV (Proc.devRef .tc Cert.ReferenceIdeal.main_arg4) :=
  (Cert.KernelIdeal.GenP.W55_main_arg4 (F := Ideal) m ρ c).trans ((eq_of_heq (hagree.a4 c)).symm.trans (Cert.ReferenceIdeal.Tab.lift0 (F := Ideal) (StableHlo.launchContents m' c) Cert.ReferenceIdeal.main_arg4 (by decide)).symm)

theorem p_main_v11_main_v11 : KV (Proc.devRef .tc Cert.KernelIdeal.main_v11) = RV (Proc.devRef .tc Cert.ReferenceIdeal.main_v11) := by
  rw [Cert.KernelIdeal.Tab.fin_main_v11 (F := Ideal) m ρ c, Cert.ReferenceIdeal.Tab.fin_main_v11 (F := Ideal) (StableHlo.launchContents m' c)]
  rw [unary_result, unary_result]
  rw [p_main_arg4_main_arg4 m ρ m' hpre hagree c]
  try simp only [TRef.ofBuf, TRef.toBuf, cast_eq]
  all_goals rfl

theorem p_main_v12_main_v12 : KV (Proc.devRef .tc Cert.KernelIdeal.main_v12) = RV (Proc.devRef .tc Cert.ReferenceIdeal.main_v12) := by
  rw [Cert.KernelIdeal.Tab.fin_main_v12 (F := Ideal) m ρ c, Cert.ReferenceIdeal.Tab.fin_main_v12 (F := Ideal) (StableHlo.launchContents m' c)]
  rw [reshape_result, reshape_result]
  rw [p_main_v11_main_v11 m ρ m' hpre hagree c]
  try simp only [TRef.ofBuf, TRef.toBuf, cast_eq]
  all_goals rfl

theorem p_main_arg5_main_arg5 : KV (Proc.devRef .tc Cert.KernelIdeal.main_arg5) = RV (Proc.devRef .tc Cert.ReferenceIdeal.main_arg5) :=
  (Cert.KernelIdeal.GenP.W55_main_arg5 (F := Ideal) m ρ c).trans ((eq_of_heq (hagree.a5 c)).symm.trans (Cert.ReferenceIdeal.Tab.lift0 (F := Ideal) (StableHlo.launchContents m' c) Cert.ReferenceIdeal.main_arg5 (by decide)).symm)

theorem p_main_v13_main_v15 : KV (Proc.devRef .tc Cert.KernelIdeal.main_v13) = RV (Proc.devRef .tc Cert.ReferenceIdeal.main_v15) := by
  rw [Cert.KernelIdeal.Tab.fin_main_v13 (F := Ideal) m ρ c, Cert.ReferenceIdeal.Tab.fin_main_v15 (F := Ideal) (StableHlo.launchContents m' c)]
  rw [unary_result, unary_result]
  rw [p_main_arg5_main_arg5 m ρ m' hpre hagree c]
  try simp only [TRef.ofBuf, TRef.toBuf, cast_eq]
  all_goals rfl

theorem p_main_v14_main_v16 : KV (Proc.devRef .tc Cert.KernelIdeal.main_v14) = RV (Proc.devRef .tc Cert.ReferenceIdeal.main_v16) := by
  rw [Cert.KernelIdeal.Tab.fin_main_v14 (F := Ideal) m ρ c, Cert.ReferenceIdeal.Tab.fin_main_v16 (F := Ideal) (StableHlo.launchContents m' c)]
  rw [reshape_result, reshape_result]
  rw [p_main_v13_main_v15 m ρ m' hpre hagree c]
  try simp only [TRef.ofBuf, TRef.toBuf, cast_eq]
  all_goals rfl

theorem p_main_v15_main_v17 : KV (Proc.devRef .tc Cert.KernelIdeal.main_v15) = RV (Proc.devRef .tc Cert.ReferenceIdeal.main_v17) := by
  rw [Cert.KernelIdeal.Tab.fin_main_v15 (F := Ideal) m ρ c, Cert.ReferenceIdeal.Tab.fin_main_v17 (F := Ideal) (StableHlo.launchContents m' c)]
  rw [reshape_result, unary_result]
  rw [p_main_v14_main_v16 m ρ m' hpre hagree c]
  exact Cert.SeamRow.row64 _ _ _

theorem p_main_v16_main_v20 : KV (Proc.devRef .tc Cert.KernelIdeal.main_v16) = RV (Proc.devRef .tc Cert.ReferenceIdeal.main_v20) := by
  have e0 : Cert.KernelIdeal.GenP.V1 (F := Ideal) m ρ c Cert.KernelIdeal.main_v10 = RV (Proc.devRef .tc Cert.ReferenceIdeal.main_v10) :=
    (Cert.KernelIdeal.Tab.lift1 (F := Ideal) m ρ c Cert.KernelIdeal.main_v10 (by decide)).symm.trans (p_main_v10_main_v10 m ρ m' hpre hagree c)
  have e1 : Cert.KernelIdeal.GenP.V1 (F := Ideal) m ρ c Cert.KernelIdeal.main_arg1 = RV (Proc.devRef .tc Cert.ReferenceIdeal.main_arg1) :=
    (Cert.KernelIdeal.Tab.lift1 (F := Ideal) m ρ c Cert.KernelIdeal.main_arg1 (by decide)).symm.trans (p_main_arg1_main_arg1 m ρ m' hpre hagree c)
  have e2 : Cert.KernelIdeal.GenP.V1 (F := Ideal) m ρ c Cert.KernelIdeal.main_v12 = RV (Proc.devRef .tc Cert.ReferenceIdeal.main_v12) :=
    (Cert.KernelIdeal.Tab.lift1 (F := Ideal) m ρ c Cert.KernelIdeal.main_v12 (by decide)).symm.trans (p_main_v12_main_v12 m ρ m' hpre hagree c)
  have e3 : Cert.KernelIdeal.GenP.V1 (F := Ideal) m ρ c Cert.KernelIdeal.main_v15 = RV (Proc.devRef .tc Cert.ReferenceIdeal.main_v17) :=
    (Cert.KernelIdeal.Tab.lift1 (F := Ideal) m ρ c Cert.KernelIdeal.main_v15 (by decide)).symm.trans (p_main_v15_main_v17 m ρ m' hpre hagree c)
  rw [Cert.KernelIdeal.Tab.lift2 (F := Ideal) m ρ c Cert.KernelIdeal.main_v16 (by decide)]
  refine ((Cert.KernelIdeal.GenP.W2_arr (F := Ideal) m ρ c 4).trans (Cert.KernelIdeal.RegionVal.region0_value (Cert.KernelIdeal.GenP.V1 (F := Ideal) m ρ) c Cert.ReferenceIdeal.Facts₀.bcast_S1x64_S1600000x64_0_1 Cert.ReferenceIdeal.Facts₀.bcast_S_S1600000x64)).trans ?_
  rw [Cert.ReferenceIdeal.Tab.fin_main_v20 (F := Ideal) (StableHlo.launchContents m' c), binary_result]
  rw [Cert.ReferenceIdeal.Tab.fin_main_call0_v0 (F := Ideal) (StableHlo.launchContents m' c), unary_result]
  rw [Cert.ReferenceIdeal.Tab.fin_main_call0_cst (F := Ideal) (StableHlo.launchContents m' c), nullary_result]
  rw [Cert.ReferenceIdeal.Tab.fin_main_v19 (F := Ideal) (StableHlo.launchContents m' c), binary_result]
  rw [Cert.ReferenceIdeal.Tab.fin_main_v18 (F := Ideal) (StableHlo.launchContents m' c), unary_result]
  rw [Cert.ReferenceIdeal.Tab.fin_main_v14 (F := Ideal) (StableHlo.launchContents m' c), binary_result]
  rw [Cert.ReferenceIdeal.Tab.fin_main_v13 (F := Ideal) (StableHlo.launchContents m' c), binary_result]
  rw [e0, e1, e2, e3]
  try simp only [TRef.ofBuf, TRef.toBuf, cast_eq]
  all_goals rfl

theorem p_main_v19_main_v23 : KV (Proc.devRef .tc Cert.KernelIdeal.main_v19) = RV (Proc.devRef .tc Cert.ReferenceIdeal.main_v23) := by
  rw [Cert.KernelIdeal.Tab.fin_main_v19 (F := Ideal) m ρ c, Cert.ReferenceIdeal.Tab.fin_main_v23 (F := Ideal) (StableHlo.launchContents m' c)]
  rw [ternary_result, ternary_result]
  rw [p_main_v17_main_v21 m ρ m' hpre hagree c, p_main_v18_main_v22 m ρ m' hpre hagree c, p_main_v16_main_v20 m ρ m' hpre hagree c]
  try simp only [TRef.ofBuf, TRef.toBuf, cast_eq]
  all_goals rfl

theorem p_main_v25_main_v29 : KV (Proc.devRef .tc Cert.KernelIdeal.main_v25) = RV (Proc.devRef .tc Cert.ReferenceIdeal.main_v29) := by
  rw [Cert.KernelIdeal.Tab.fin_main_v25 (F := Ideal) m ρ c, Cert.ReferenceIdeal.Tab.fin_main_v29 (F := Ideal) (StableHlo.launchContents m' c)]
  rw [binary_result, binary_result]
  rw [p_main_v24_main_v28 m ρ m' hpre hagree c, p_main_v19_main_v23 m ρ m' hpre hagree c]
  try simp only [TRef.ofBuf, TRef.toBuf, cast_eq]
  all_goals rfl

theorem p_main_arg7_main_arg7 : KV (Proc.devRef .tc Cert.KernelIdeal.main_arg7) = RV (Proc.devRef .tc Cert.ReferenceIdeal.main_arg7) :=
  (Cert.KernelIdeal.GenP.W55_main_arg7 (F := Ideal) m ρ c).trans ((eq_of_heq (hagree.a7 c)).symm.trans (Cert.ReferenceIdeal.Tab.lift0 (F := Ideal) (StableHlo.launchContents m' c) Cert.ReferenceIdeal.main_arg7 (by decide)).symm)

theorem p_main_v26_main_v30 : KV (Proc.devRef .tc Cert.KernelIdeal.main_v26) = RV (Proc.devRef .tc Cert.ReferenceIdeal.main_v30) := by
  rw [Cert.KernelIdeal.Tab.fin_main_v26 (F := Ideal) m ρ c, Cert.ReferenceIdeal.Tab.fin_main_v30 (F := Ideal) (StableHlo.launchContents m' c)]
  rw [unary_result, unary_result]
  rw [p_main_arg7_main_arg7 m ρ m' hpre hagree c]
  try simp only [TRef.ofBuf, TRef.toBuf, cast_eq]
  all_goals rfl

theorem p_main_v27_main_v31 : KV (Proc.devRef .tc Cert.KernelIdeal.main_v27) = RV (Proc.devRef .tc Cert.ReferenceIdeal.main_v31) := by
  rw [Cert.KernelIdeal.Tab.fin_main_v27 (F := Ideal) m ρ c, Cert.ReferenceIdeal.Tab.fin_main_v31 (F := Ideal) (StableHlo.launchContents m' c)]
  rw [reshape_result, reshape_result]
  rw [p_main_v26_main_v30 m ρ m' hpre hagree c]
  try simp only [TRef.ofBuf, TRef.toBuf, cast_eq]
  all_goals rfl

theorem p_main_arg8_main_arg8 : KV (Proc.devRef .tc Cert.KernelIdeal.main_arg8) = RV (Proc.devRef .tc Cert.ReferenceIdeal.main_arg8) :=
  (Cert.KernelIdeal.GenP.W55_main_arg8 (F := Ideal) m ρ c).trans ((eq_of_heq (hagree.a8 c)).symm.trans (Cert.ReferenceIdeal.Tab.lift0 (F := Ideal) (StableHlo.launchContents m' c) Cert.ReferenceIdeal.main_arg8 (by decide)).symm)

theorem p_main_v28_main_v33 : KV (Proc.devRef .tc Cert.KernelIdeal.main_v28) = RV (Proc.devRef .tc Cert.ReferenceIdeal.main_v33) := by
  rw [Cert.KernelIdeal.Tab.fin_main_v28 (F := Ideal) m ρ c, Cert.ReferenceIdeal.Tab.fin_main_v33 (F := Ideal) (StableHlo.launchContents m' c)]
  rw [unary_result, unary_result]
  rw [p_main_arg8_main_arg8 m ρ m' hpre hagree c]
  try simp only [TRef.ofBuf, TRef.toBuf, cast_eq]
  all_goals rfl

theorem p_main_v29_main_v34 : KV (Proc.devRef .tc Cert.KernelIdeal.main_v29) = RV (Proc.devRef .tc Cert.ReferenceIdeal.main_v34) := by
  rw [Cert.KernelIdeal.Tab.fin_main_v29 (F := Ideal) m ρ c, Cert.ReferenceIdeal.Tab.fin_main_v34 (F := Ideal) (StableHlo.launchContents m' c)]
  rw [reshape_result, reshape_result]
  rw [p_main_v28_main_v33 m ρ m' hpre hagree c]
  try simp only [TRef.ofBuf, TRef.toBuf, cast_eq]
  all_goals rfl

theorem p_main_v30_main_v35 : KV (Proc.devRef .tc Cert.KernelIdeal.main_v30) = RV (Proc.devRef .tc Cert.ReferenceIdeal.main_v35) := by
  rw [Cert.KernelIdeal.Tab.fin_main_v30 (F := Ideal) m ρ c, Cert.ReferenceIdeal.Tab.fin_main_v35 (F := Ideal) (StableHlo.launchContents m' c)]
  rw [reshape_result, unary_result]
  rw [p_main_v29_main_v34 m ρ m' hpre hagree c]
  exact Cert.SeamRow.row64 _ _ _

theorem p_main_v31_main_v37 : KV (Proc.devRef .tc Cert.KernelIdeal.main_v31) = RV (Proc.devRef .tc Cert.ReferenceIdeal.main_v37) := by
  have e0 : Cert.KernelIdeal.GenP.V3 (F := Ideal) m ρ c Cert.KernelIdeal.main_v25 = RV (Proc.devRef .tc Cert.ReferenceIdeal.main_v29) :=
    (Cert.KernelIdeal.Tab.lift3 (F := Ideal) m ρ c Cert.KernelIdeal.main_v25 (by decide)).symm.trans (p_main_v25_main_v29 m ρ m' hpre hagree c)
  have e1 : Cert.KernelIdeal.GenP.V3 (F := Ideal) m ρ c Cert.KernelIdeal.main_v27 = RV (Proc.devRef .tc Cert.ReferenceIdeal.main_v31) :=
    (Cert.KernelIdeal.Tab.lift3 (F := Ideal) m ρ c Cert.KernelIdeal.main_v27 (by decide)).symm.trans (p_main_v27_main_v31 m ρ m' hpre hagree c)
  have e2 : Cert.KernelIdeal.GenP.V3 (F := Ideal) m ρ c Cert.KernelIdeal.main_v30 = RV (Proc.devRef .tc Cert.ReferenceIdeal.main_v35) :=
    (Cert.KernelIdeal.Tab.lift3 (F := Ideal) m ρ c Cert.KernelIdeal.main_v30 (by decide)).symm.trans (p_main_v30_main_v35 m ρ m' hpre hagree c)
  rw [Cert.KernelIdeal.Tab.lift4 (F := Ideal) m ρ c Cert.KernelIdeal.main_v31 (by decide)]
  refine ((Cert.KernelIdeal.GenP.W4_arr (F := Ideal) m ρ c 3).trans (Cert.KernelIdeal.RegionVal.region1_value (Cert.KernelIdeal.GenP.V3 (F := Ideal) m ρ) c Cert.ReferenceIdeal.Facts₀.bcast_S1x64_S100000x64_0_1)).trans ?_
  rw [Cert.ReferenceIdeal.Tab.fin_main_v37 (F := Ideal) (StableHlo.launchContents m' c), binary_result]
  rw [Cert.ReferenceIdeal.Tab.fin_main_v36 (F := Ideal) (StableHlo.launchContents m' c), unary_result]
  rw [Cert.ReferenceIdeal.Tab.fin_main_v32 (F := Ideal) (StableHlo.launchContents m' c), binary_result]
  rw [e0, e1, e2]
  try simp only [TRef.ofBuf, TRef.toBuf, cast_eq]
  all_goals rfl

theorem p_main_arg9_main_arg9 : KV (Proc.devRef .tc Cert.KernelIdeal.main_arg9) = RV (Proc.devRef .tc Cert.ReferenceIdeal.main_arg9) :=
  (Cert.KernelIdeal.GenP.W55_main_arg9 (F := Ideal) m ρ c).trans ((eq_of_heq (hagree.a9 c)).symm.trans (Cert.ReferenceIdeal.Tab.lift0 (F := Ideal) (StableHlo.launchContents m' c) Cert.ReferenceIdeal.main_arg9 (by decide)).symm)

theorem p_main_v32_main_v38 : KV (Proc.devRef .tc Cert.KernelIdeal.main_v32) = RV (Proc.devRef .tc Cert.ReferenceIdeal.main_v38) := by
  rw [Cert.KernelIdeal.Tab.fin_main_v32 (F := Ideal) m ρ c, Cert.ReferenceIdeal.Tab.fin_main_v38 (F := Ideal) (StableHlo.launchContents m' c)]
  rw [unary_result, unary_result]
  rw [p_main_arg9_main_arg9 m ρ m' hpre hagree c]
  try simp only [TRef.ofBuf, TRef.toBuf, cast_eq]
  all_goals rfl

theorem p_main_v33_main_v39 : KV (Proc.devRef .tc Cert.KernelIdeal.main_v33) = RV (Proc.devRef .tc Cert.ReferenceIdeal.main_v39) := by
  rw [Cert.KernelIdeal.Tab.fin_main_v33 (F := Ideal) m ρ c, Cert.ReferenceIdeal.Tab.fin_main_v39 (F := Ideal) (StableHlo.launchContents m' c)]
  rw [reshape_result, reshape_result]
  rw [p_main_v32_main_v38 m ρ m' hpre hagree c]
  try simp only [TRef.ofBuf, TRef.toBuf, cast_eq]
  all_goals rfl

theorem p_main_arg10_main_arg10 : KV (Proc.devRef .tc Cert.KernelIdeal.main_arg10) = RV (Proc.devRef .tc Cert.ReferenceIdeal.main_arg10) :=
  (Cert.KernelIdeal.GenP.W55_main_arg10 (F := Ideal) m ρ c).trans ((eq_of_heq (hagree.a10 c)).symm.trans (Cert.ReferenceIdeal.Tab.lift0 (F := Ideal) (StableHlo.launchContents m' c) Cert.ReferenceIdeal.main_arg10 (by decide)).symm)

theorem p_main_v34_main_v40 : KV (Proc.devRef .tc Cert.KernelIdeal.main_v34) = RV (Proc.devRef .tc Cert.ReferenceIdeal.main_v40) := by
  rw [Cert.KernelIdeal.Tab.fin_main_v34 (F := Ideal) m ρ c, Cert.ReferenceIdeal.Tab.fin_main_v40 (F := Ideal) (StableHlo.launchContents m' c)]
  rw [unary_result, unary_result]
  rw [p_main_arg10_main_arg10 m ρ m' hpre hagree c]
  try simp only [TRef.ofBuf, TRef.toBuf, cast_eq]
  all_goals rfl

theorem p_main_v35_main_v41 : KV (Proc.devRef .tc Cert.KernelIdeal.main_v35) = RV (Proc.devRef .tc Cert.ReferenceIdeal.main_v41) := by
  rw [Cert.KernelIdeal.Tab.fin_main_v35 (F := Ideal) m ρ c, Cert.ReferenceIdeal.Tab.fin_main_v41 (F := Ideal) (StableHlo.launchContents m' c)]
  rw [reshape_result, reshape_result]
  rw [p_main_v34_main_v40 m ρ m' hpre hagree c]
  try simp only [TRef.ofBuf, TRef.toBuf, cast_eq]
  all_goals rfl

theorem p_main_cst_2_main_cst_2 : KV (Proc.devRef .tc Cert.KernelIdeal.main_cst_2) = RV (Proc.devRef .tc Cert.ReferenceIdeal.main_cst_2) := by
  rw [Cert.KernelIdeal.Tab.fin_main_cst_2 (F := Ideal) m ρ c, Cert.ReferenceIdeal.Tab.fin_main_cst_2 (F := Ideal) (StableHlo.launchContents m' c)]
  rw [nullary_result, nullary_result]
  try simp only [TRef.ofBuf, TRef.toBuf, cast_eq]
  all_goals rfl

theorem p_main_v36_main_v42 : KV (Proc.devRef .tc Cert.KernelIdeal.main_v36) = RV (Proc.devRef .tc Cert.ReferenceIdeal.main_v42) := by
  rw [Cert.KernelIdeal.Tab.fin_main_v36 (F := Ideal) m ρ c, Cert.ReferenceIdeal.Tab.fin_main_v42 (F := Ideal) (StableHlo.launchContents m' c)]
  rw [binary_result, binary_result]
  rw [p_main_v31_main_v37 m ρ m' hpre hagree c, p_main_cst_2_main_cst_2 m ρ m' hpre hagree c]
  try simp only [TRef.ofBuf, TRef.toBuf, cast_eq]
  all_goals rfl

theorem p_main_cst_3_main_cst_3 : KV (Proc.devRef .tc Cert.KernelIdeal.main_cst_3) = RV (Proc.devRef .tc Cert.ReferenceIdeal.main_cst_3) := by
  rw [Cert.KernelIdeal.Tab.fin_main_cst_3 (F := Ideal) m ρ c, Cert.ReferenceIdeal.Tab.fin_main_cst_3 (F := Ideal) (StableHlo.launchContents m' c)]
  rw [nullary_result, nullary_result]
  try simp only [TRef.ofBuf, TRef.toBuf, cast_eq]
  all_goals rfl

theorem p_main_v37_main_v43 : KV (Proc.devRef .tc Cert.KernelIdeal.main_v37) = RV (Proc.devRef .tc Cert.ReferenceIdeal.main_v43) := by
  rw [Cert.KernelIdeal.Tab.fin_main_v37 (F := Ideal) m ρ c, Cert.ReferenceIdeal.Tab.fin_main_v43 (F := Ideal) (StableHlo.launchContents m' c)]
  rw [unary_result, unary_result]
  rw [p_main_cst_3_main_cst_3 m ρ m' hpre hagree c]
  try simp only [TRef.ofBuf, TRef.toBuf, cast_eq]
  all_goals rfl

theorem p_main_v38_main_v44 : KV (Proc.devRef .tc Cert.KernelIdeal.main_v38) = RV (Proc.devRef .tc Cert.ReferenceIdeal.main_v44) := by
  rw [Cert.KernelIdeal.Tab.fin_main_v38 (F := Ideal) m ρ c, Cert.ReferenceIdeal.Tab.fin_main_v44 (F := Ideal) (StableHlo.launchContents m' c)]
  rw [binary_result, binary_result]
  rw [p_main_v36_main_v42 m ρ m' hpre hagree c, p_main_v37_main_v43 m ρ m' hpre hagree c]
  try simp only [TRef.ofBuf, TRef.toBuf, cast_eq]
  all_goals rfl

theorem p_main_call0_cst_1_main_call1_cst_1 : KV (Proc.devRef .tc Cert.KernelIdeal.main_call0_cst_1) = RV (Proc.devRef .tc Cert.ReferenceIdeal.main_call1_cst_1) := by
  rw [Cert.KernelIdeal.Tab.fin_main_call0_cst_1 (F := Ideal) m ρ c, Cert.ReferenceIdeal.Tab.fin_main_call1_cst_1 (F := Ideal) (StableHlo.launchContents m' c)]
  rw [nullary_result, nullary_result]
  try simp only [TRef.ofBuf, TRef.toBuf, cast_eq]
  all_goals rfl

theorem p_main_c_4_main_c_4 : KV (Proc.devRef .tc Cert.KernelIdeal.main_c_4) = RV (Proc.devRef .tc Cert.ReferenceIdeal.main_c_4) := by
  rw [Cert.KernelIdeal.Tab.fin_main_c_4 (F := Ideal) m ρ c, Cert.ReferenceIdeal.Tab.fin_main_c_4 (F := Ideal) (StableHlo.launchContents m' c)]
  rw [nullary_result, nullary_result]
  try simp only [TRef.ofBuf, TRef.toBuf, cast_eq]
  all_goals rfl

theorem p_main_call0_v7_main_call1_v7 : KV (Proc.devRef .tc Cert.KernelIdeal.main_call0_v7) = RV (Proc.devRef .tc Cert.ReferenceIdeal.main_call1_v7) := by
  rw [Cert.KernelIdeal.Tab.fin_main_call0_v7 (F := Ideal) m ρ c, Cert.ReferenceIdeal.Tab.fin_main_call1_v7 (F := Ideal) (StableHlo.launchContents m' c)]
  rw [unary_result, unary_result]
  rw [p_main_c_4_main_c_4 m ρ m' hpre hagree c]
  try simp only [TRef.ofBuf, TRef.toBuf, cast_eq]
  all_goals rfl

theorem p_main_call0_v8_main_call1_v8 : KV (Proc.devRef .tc Cert.KernelIdeal.main_call0_v8) = RV (Proc.devRef .tc Cert.ReferenceIdeal.main_call1_v8) := by
  rw [Cert.KernelIdeal.Tab.fin_main_call0_v8 (F := Ideal) m ρ c, Cert.ReferenceIdeal.Tab.fin_main_call1_v8 (F := Ideal) (StableHlo.launchContents m' c)]
  rw [binary_result, binary_result]
  rw [p_main_call0_cst_1_main_call1_cst_1 m ρ m' hpre hagree c, p_main_call0_v7_main_call1_v7 m ρ m' hpre hagree c]
  try simp only [TRef.ofBuf, TRef.toBuf, cast_eq]
  all_goals rfl

theorem p_main_call0_cst_3_main_call1_cst_3 : KV (Proc.devRef .tc Cert.KernelIdeal.main_call0_cst_3) = RV (Proc.devRef .tc Cert.ReferenceIdeal.main_call1_cst_3) := by
  rw [Cert.KernelIdeal.Tab.fin_main_call0_cst_3 (F := Ideal) m ρ c, Cert.ReferenceIdeal.Tab.fin_main_call1_cst_3 (F := Ideal) (StableHlo.launchContents m' c)]
  rw [nullary_result, nullary_result]
  try simp only [TRef.ofBuf, TRef.toBuf, cast_eq]
  all_goals rfl

theorem p_main_call0_v12_main_call1_v12 : KV (Proc.devRef .tc Cert.KernelIdeal.main_call0_v12) = RV (Proc.devRef .tc Cert.ReferenceIdeal.main_call1_v12) := by
  rw [Cert.KernelIdeal.Tab.fin_main_call0_v12 (F := Ideal) m ρ c, Cert.ReferenceIdeal.Tab.fin_main_call1_v12 (F := Ideal) (StableHlo.launchContents m' c)]
  rw [binary_result, binary_result]
  rw [p_main_call0_v8_main_call1_v8 m ρ m' hpre hagree c, p_main_call0_cst_3_main_call1_cst_3 m ρ m' hpre hagree c]
  try simp only [TRef.ofBuf, TRef.toBuf, cast_eq]
  all_goals rfl

theorem p_main_call0_cst_main_call1_cst : KV (Proc.devRef .tc Cert.KernelIdeal.main_call0_cst) = RV (Proc.devRef .tc Cert.ReferenceIdeal.main_call1_cst) := by
  rw [Cert.KernelIdeal.Tab.fin_main_call0_cst (F := Ideal) m ρ c, Cert.ReferenceIdeal.Tab.fin_main_call1_cst (F := Ideal) (StableHlo.launchContents m' c)]
  rw [nullary_result, nullary_result]
  try simp only [TRef.ofBuf, TRef.toBuf, cast_eq]
  all_goals rfl

theorem p_main_call0_v0_main_call1_v0 : KV (Proc.devRef .tc Cert.KernelIdeal.main_call0_v0) = RV (Proc.devRef .tc Cert.ReferenceIdeal.main_call1_v0) := by
  rw [Cert.KernelIdeal.Tab.fin_main_call0_v0 (F := Ideal) m ρ c, Cert.ReferenceIdeal.Tab.fin_main_call1_v0 (F := Ideal) (StableHlo.launchContents m' c)]
  rw [binary_result, binary_result]
  rw [p_main_v31_main_v37 m ρ m' hpre hagree c, p_main_call0_cst_main_call1_cst m ρ m' hpre hagree c]
  try simp only [TRef.ofBuf, TRef.toBuf, cast_eq]
  all_goals rfl

theorem p_main_call0_v1_main_call1_v1 : KV (Proc.devRef .tc Cert.KernelIdeal.main_call0_v1) = RV (Proc.devRef .tc Cert.ReferenceIdeal.main_call1_v1) := by
  rw [Cert.KernelIdeal.Tab.fin_main_call0_v1 (F := Ideal) m ρ c, Cert.ReferenceIdeal.Tab.fin_main_call1_v1 (F := Ideal) (StableHlo.launchContents m' c)]
  rw [unary_result, unary_result]
  rw [p_main_call0_v0_main_call1_v0 m ρ m' hpre hagree c]
  try simp only [TRef.ofBuf, TRef.toBuf, cast_eq]
  all_goals rfl

theorem p_main_call0_cst_0_main_call1_cst_0 : KV (Proc.devRef .tc Cert.KernelIdeal.main_call0_cst_0) = RV (Proc.devRef .tc Cert.ReferenceIdeal.main_call1_cst_0) := by
  rw [Cert.KernelIdeal.Tab.fin_main_call0_cst_0 (F := Ideal) m ρ c, Cert.ReferenceIdeal.Tab.fin_main_call1_cst_0 (F := Ideal) (StableHlo.launchContents m' c)]
  rw [nullary_result, nullary_result]
  try simp only [TRef.ofBuf, TRef.toBuf, cast_eq]
  all_goals rfl

theorem p_main_call0_v2_main_call1_v2 : KV (Proc.devRef .tc Cert.KernelIdeal.main_call0_v2) = RV (Proc.devRef .tc Cert.ReferenceIdeal.main_call1_v2) := by
  rw [Cert.KernelIdeal.Tab.fin_main_call0_v2 (F := Ideal) m ρ c, Cert.ReferenceIdeal.Tab.fin_main_call1_v2 (F := Ideal) (StableHlo.launchContents m' c)]
  rw [unary_result, unary_result]
  rw [p_main_call0_cst_0_main_call1_cst_0 m ρ m' hpre hagree c]
  try simp only [TRef.ofBuf, TRef.toBuf, cast_eq]
  all_goals rfl

theorem p_main_call0_v3_main_call1_v3 : KV (Proc.devRef .tc Cert.KernelIdeal.main_call0_v3) = RV (Proc.devRef .tc Cert.ReferenceIdeal.main_call1_v3) := by
  rw [Cert.KernelIdeal.Tab.fin_main_call0_v3 (F := Ideal) m ρ c, Cert.ReferenceIdeal.Tab.fin_main_call1_v3 (F := Ideal) (StableHlo.launchContents m' c)]
  rw [binary_result, binary_result]
  rw [p_main_call0_v1_main_call1_v1 m ρ m' hpre hagree c, p_main_call0_v2_main_call1_v2 m ρ m' hpre hagree c]
  try simp only [TRef.ofBuf, TRef.toBuf, cast_eq]
  all_goals rfl

theorem p_main_call0_v4_main_call1_v4 : KV (Proc.devRef .tc Cert.KernelIdeal.main_call0_v4) = RV (Proc.devRef .tc Cert.ReferenceIdeal.main_call1_v4) := by
  rw [Cert.KernelIdeal.Tab.fin_main_call0_v4 (F := Ideal) m ρ c, Cert.ReferenceIdeal.Tab.fin_main_call1_v4 (F := Ideal) (StableHlo.launchContents m' c)]
  rw [unary_result, unary_result]
  rw [p_main_call0_v3_main_call1_v3 m ρ m' hpre hagree c]
  try simp only [TRef.ofBuf, TRef.toBuf, cast_eq]
  all_goals rfl

theorem p_main_call0_v5_main_call1_v5 : KV (Proc.devRef .tc Cert.KernelIdeal.main_call0_v5) = RV (Proc.devRef .tc Cert.ReferenceIdeal.main_call1_v5) := by
  rw [Cert.KernelIdeal.Tab.fin_main_call0_v5 (F := Ideal) m ρ c, Cert.ReferenceIdeal.Tab.fin_main_call1_v5 (F := Ideal) (StableHlo.launchContents m' c)]
  rw [binary_result, binary_result]
  rw [p_main_v31_main_v37 m ρ m' hpre hagree c, p_main_call0_v4_main_call1_v4 m ρ m' hpre hagree c]
  try simp only [TRef.ofBuf, TRef.toBuf, cast_eq]
  all_goals rfl

theorem p_main_call0_v6_main_call1_v6 : KV (Proc.devRef .tc Cert.KernelIdeal.main_call0_v6) = RV (Proc.devRef .tc Cert.ReferenceIdeal.main_call1_v6) := by
  rw [Cert.KernelIdeal.Tab.fin_main_call0_v6 (F := Ideal) m ρ c, Cert.ReferenceIdeal.Tab.fin_main_call1_v6 (F := Ideal) (StableHlo.launchContents m' c)]
  rw [binary_result, binary_result]
  rw [p_main_call0_v5_main_call1_v5 m ρ m' hpre hagree c]
  try simp only [TRef.ofBuf, TRef.toBuf, cast_eq]
  all_goals rfl

theorem p_main_call0_cst_2_main_call1_cst_2 : KV (Proc.devRef .tc Cert.KernelIdeal.main_call0_cst_2) = RV (Proc.devRef .tc Cert.ReferenceIdeal.main_call1_cst_2) := by
  rw [Cert.KernelIdeal.Tab.fin_main_call0_cst_2 (F := Ideal) m ρ c, Cert.ReferenceIdeal.Tab.fin_main_call1_cst_2 (F := Ideal) (StableHlo.launchContents m' c)]
  rw [nullary_result, nullary_result]
  try simp only [TRef.ofBuf, TRef.toBuf, cast_eq]
  all_goals rfl

theorem p_main_call0_v9_main_call1_v9 : KV (Proc.devRef .tc Cert.KernelIdeal.main_call0_v9) = RV (Proc.devRef .tc Cert.ReferenceIdeal.main_call1_v9) := by
  rw [Cert.KernelIdeal.Tab.fin_main_call0_v9 (F := Ideal) m ρ c, Cert.ReferenceIdeal.Tab.fin_main_call1_v9 (F := Ideal) (StableHlo.launchContents m' c)]
  rw [binary_result, binary_result]
  rw [p_main_call0_v6_main_call1_v6 m ρ m' hpre hagree c, p_main_call0_cst_2_main_call1_cst_2 m ρ m' hpre hagree c]
  try simp only [TRef.ofBuf, TRef.toBuf, cast_eq]
  all_goals rfl

theorem p_main_call0_v10_main_call1_v10 : KV (Proc.devRef .tc Cert.KernelIdeal.main_call0_v10) = RV (Proc.devRef .tc Cert.ReferenceIdeal.main_call1_v10) := by
  rw [Cert.KernelIdeal.Tab.fin_main_call0_v10 (F := Ideal) m ρ c, Cert.ReferenceIdeal.Tab.fin_main_call1_v10 (F := Ideal) (StableHlo.launchContents m' c)]
  rw [unary_result, unary_result]
  rw [p_main_call0_v8_main_call1_v8 m ρ m' hpre hagree c]
  try simp only [TRef.ofBuf, TRef.toBuf, cast_eq]
  all_goals rfl

theorem p_main_call0_v11_main_call1_v11 : KV (Proc.devRef .tc Cert.KernelIdeal.main_call0_v11) = RV (Proc.devRef .tc Cert.ReferenceIdeal.main_call1_v11) := by
  rw [Cert.KernelIdeal.Tab.fin_main_call0_v11 (F := Ideal) m ρ c, Cert.ReferenceIdeal.Tab.fin_main_call1_v11 (F := Ideal) (StableHlo.launchContents m' c)]
  rw [binary_result, binary_result]
  rw [p_main_call0_v9_main_call1_v9 m ρ m' hpre hagree c, p_main_call0_v10_main_call1_v10 m ρ m' hpre hagree c]
  try simp only [TRef.ofBuf, TRef.toBuf, cast_eq]
  all_goals rfl

theorem p_main_call0_cst_4_main_call1_cst_4 : KV (Proc.devRef .tc Cert.KernelIdeal.main_call0_cst_4) = RV (Proc.devRef .tc Cert.ReferenceIdeal.main_call1_cst_4) := by
  rw [Cert.KernelIdeal.Tab.fin_main_call0_cst_4 (F := Ideal) m ρ c, Cert.ReferenceIdeal.Tab.fin_main_call1_cst_4 (F := Ideal) (StableHlo.launchContents m' c)]
  rw [nullary_result, nullary_result]
  try simp only [TRef.ofBuf, TRef.toBuf, cast_eq]
  all_goals rfl

theorem p_main_call0_call0_v0_main_call1_call0_v0 : KV (Proc.devRef .tc Cert.KernelIdeal.main_call0_call0_v0) = RV (Proc.devRef .tc Cert.ReferenceIdeal.main_call1_call0_v0) := by
  rw [Cert.KernelIdeal.Tab.fin_main_call0_call0_v0 (F := Ideal) m ρ c, Cert.ReferenceIdeal.Tab.fin_main_call1_call0_v0 (F := Ideal) (StableHlo.launchContents m' c)]
  rw [unary_result, unary_result]
  rw [p_main_call0_cst_4_main_call1_cst_4 m ρ m' hpre hagree c]
  try simp only [TRef.ofBuf, TRef.toBuf, cast_eq]
  all_goals rfl

theorem p_main_call0_call0_v1_main_call1_call0_v1 : KV (Proc.devRef .tc Cert.KernelIdeal.main_call0_call0_v1) = RV (Proc.devRef .tc Cert.ReferenceIdeal.main_call1_call0_v1) := by
  rw [Cert.KernelIdeal.Tab.fin_main_call0_call0_v1 (F := Ideal) m ρ c, Cert.ReferenceIdeal.Tab.fin_main_call1_call0_v1 (F := Ideal) (StableHlo.launchContents m' c)]
  rw [unary_result, unary_result]
  rw [p_main_call0_call0_v0_main_call1_call0_v0 m ρ m' hpre hagree c]
  try simp only [TRef.ofBuf, TRef.toBuf, cast_eq]
  all_goals rfl

theorem p_main_v39_main_v45 : KV (Proc.devRef .tc Cert.KernelIdeal.main_v39) = RV (Proc.devRef .tc Cert.ReferenceIdeal.main_v45) := by
  rw [Cert.KernelIdeal.Tab.fin_main_v39 (F := Ideal) m ρ c, Cert.ReferenceIdeal.Tab.fin_main_v45 (F := Ideal) (StableHlo.launchContents m' c)]
  rw [ternary_result, ternary_result]
  rw [p_main_call0_v12_main_call1_v12 m ρ m' hpre hagree c, p_main_call0_v11_main_call1_v11 m ρ m' hpre hagree c, p_main_call0_call0_v1_main_call1_call0_v1 m ρ m' hpre hagree c]
  try simp only [TRef.ofBuf, TRef.toBuf, cast_eq]
  all_goals rfl

theorem p_main_cst_5_main_cst_5 : KV (Proc.devRef .tc Cert.KernelIdeal.main_cst_5) = RV (Proc.devRef .tc Cert.ReferenceIdeal.main_cst_5) := by
  rw [Cert.KernelIdeal.Tab.fin_main_cst_5 (F := Ideal) m ρ c, Cert.ReferenceIdeal.Tab.fin_main_cst_5 (F := Ideal) (StableHlo.launchContents m' c)]
  rw [nullary_result, nullary_result]
  try simp only [TRef.ofBuf, TRef.toBuf, cast_eq]
  all_goals rfl

theorem p_main_v40_main_v52 : KV (Proc.devRef .tc Cert.KernelIdeal.main_v40) = RV (Proc.devRef .tc Cert.ReferenceIdeal.main_v52) := by
  rw [Cert.KernelIdeal.Tab.fin_main_v40 (F := Ideal) m ρ c, Cert.ReferenceIdeal.Tab.fin_main_v52 (F := Ideal) (StableHlo.launchContents m' c)]
  rw [unary_result, unary_result]
  rw [p_main_cst_5_main_cst_5 m ρ m' hpre hagree c]
  try simp only [TRef.ofBuf, TRef.toBuf, cast_eq]
  all_goals rfl

theorem p_main_v41_main_v53 : KV (Proc.devRef .tc Cert.KernelIdeal.main_v41) = RV (Proc.devRef .tc Cert.ReferenceIdeal.main_v53) := by
  rw [Cert.KernelIdeal.Tab.fin_main_v41 (F := Ideal) m ρ c, Cert.ReferenceIdeal.Tab.fin_main_v53 (F := Ideal) (StableHlo.launchContents m' c)]
  rw [binary_result, binary_result]
  rw [p_main_v39_main_v45 m ρ m' hpre hagree c, p_main_v40_main_v52 m ρ m' hpre hagree c]
  try simp only [TRef.ofBuf, TRef.toBuf, cast_eq]
  all_goals rfl

theorem p_main_v42_main_v54 : KV (Proc.devRef .tc Cert.KernelIdeal.main_v42) = RV (Proc.devRef .tc Cert.ReferenceIdeal.main_v54) := by
  rw [Cert.KernelIdeal.Tab.fin_main_v42 (F := Ideal) m ρ c, Cert.ReferenceIdeal.Tab.fin_main_v54 (F := Ideal) (StableHlo.launchContents m' c)]
  rw [unary_result, unary_result]
  rw [p_main_v41_main_v53 m ρ m' hpre hagree c]
  try simp only [TRef.ofBuf, TRef.toBuf, cast_eq]
  all_goals rfl

theorem rf_main_cst_1 : Cert.Lib.AllFin (RV (Proc.devRef .tc Cert.ReferenceIdeal.main_cst_1)) := by
  rw [Cert.ReferenceIdeal.Tab.fin_main_cst_1 (F := Ideal) (StableHlo.launchContents m' c), nullary_result]
  try simp only [TRef.ofBuf, TRef.toBuf, cast_eq]
  exact Cert.Lib.allFin_constant_one _

theorem rf_main_arg6 : Cert.Lib.AllFin (RV (Proc.devRef .tc Cert.ReferenceIdeal.main_arg6)) := by
  rw [← p_main_arg6_main_arg6 m ρ m' hpre hagree c, Cert.KernelIdeal.GenP.W55_main_arg6 (F := Ideal) m ρ c]
  exact Cert.PreFin.fin_arg6 m hpre c

theorem rf_main_v24 : Cert.Lib.AllFin (RV (Proc.devRef .tc Cert.ReferenceIdeal.main_v24)) := by
  rw [Cert.ReferenceIdeal.Tab.fin_main_v24 (F := Ideal) (StableHlo.launchContents m' c), unary_result]
  try simp only [TRef.ofBuf, TRef.toBuf, cast_eq]
  exact Cert.Lib.allFin_extractStridedSlice _ _ (rf_main_arg6 m ρ m' hpre hagree c)

theorem rf_main_v25 : Cert.Lib.AllFin (RV (Proc.devRef .tc Cert.ReferenceIdeal.main_v25)) := by
  rw [Cert.ReferenceIdeal.Tab.fin_main_v25 (F := Ideal) (StableHlo.launchContents m' c), reshape_result]
  try simp only [TRef.ofBuf, TRef.toBuf, cast_eq]
  exact Cert.Lib.allFin_shapeCast _ (rf_main_v24 m ρ m' hpre hagree c)

theorem rf_main_v26 : Cert.Lib.AllFin (RV (Proc.devRef .tc Cert.ReferenceIdeal.main_v26)) := by
  rw [Cert.ReferenceIdeal.Tab.fin_main_v26 (F := Ideal) (StableHlo.launchContents m' c), binary_result]
  try simp only [TRef.ofBuf, TRef.toBuf, cast_eq]
  exact Cert.Lib.allFin_addf (rf_main_cst_1 m ρ m' hpre hagree c) (rf_main_v25 m ρ m' hpre hagree c)

theorem rf_main_v27 : Cert.Lib.AllFin (RV (Proc.devRef .tc Cert.ReferenceIdeal.main_v27)) := by
  rw [Cert.ReferenceIdeal.Tab.fin_main_v27 (F := Ideal) (StableHlo.launchContents m' c), unary_result]
  try simp only [TRef.ofBuf, TRef.toBuf, cast_eq]
  exact Cert.Lib.allFin_broadcastInDim _ _ (rf_main_v26 m ρ m' hpre hagree c)

theorem rf_main_arg0 : Cert.Lib.AllFin (RV (Proc.devRef .tc Cert.ReferenceIdeal.main_arg0)) := by
  rw [← p_main_arg0_main_arg0 m ρ m' hpre hagree c, Cert.KernelIdeal.GenP.W55_main_arg0 (F := Ideal) m ρ c]
  exact Cert.PreFin.fin_arg0 m hpre c

theorem rf_main_v28 : Cert.Lib.AllFin (RV (Proc.devRef .tc Cert.ReferenceIdeal.main_v28)) := by
  rw [Cert.ReferenceIdeal.Tab.fin_main_v28 (F := Ideal) (StableHlo.launchContents m' c), binary_result]
  try simp only [TRef.ofBuf, TRef.toBuf, cast_eq]
  exact Cert.Lib.allFin_mulf (rf_main_v27 m ρ m' hpre hagree c) (rf_main_arg0 m ρ m' hpre hagree c)

theorem rf_main_cst : Cert.Lib.AllFin (RV (Proc.devRef .tc Cert.ReferenceIdeal.main_cst)) := by
  rw [Cert.ReferenceIdeal.Tab.fin_main_cst (F := Ideal) (StableHlo.launchContents m' c), nullary_result]
  try simp only [TRef.ofBuf, TRef.toBuf, cast_eq]
  exact Cert.Lib.allFin_constant_zero _

theorem rf_main_v21 : Cert.Lib.AllFin (RV (Proc.devRef .tc Cert.ReferenceIdeal.main_v21)) := by
  rw [Cert.ReferenceIdeal.Tab.fin_main_v21 (F := Ideal) (StableHlo.launchContents m' c), unary_result]
  try simp only [TRef.ofBuf, TRef.toBuf, cast_eq]
  exact Cert.Lib.allFin_broadcastInDim _ _ (rf_main_cst m ρ m' hpre hagree c)

theorem rf_main_v10 : Cert.Lib.AllFin (RV (Proc.devRef .tc Cert.ReferenceIdeal.main_v10)) := by
  rw [Cert.ReferenceIdeal.Tab.fin_main_v10 (F := Ideal) (StableHlo.launchContents m' c), binary_result]
  try simp only [TRef.ofBuf, TRef.toBuf, cast_eq]
  exact Cert.Lib.allFin_gather _ _ _ (rf_main_arg0 m ρ m' hpre hagree c)

theorem rf_main_arg1 : Cert.Lib.AllFin (RV (Proc.devRef .tc Cert.ReferenceIdeal.main_arg1)) := by
  rw [← p_main_arg1_main_arg1 m ρ m' hpre hagree c, Cert.KernelIdeal.GenP.W55_main_arg1 (F := Ideal) m ρ c]
  exact Cert.PreFin.fin_arg1 m hpre c

theorem rf_main_arg4 : Cert.Lib.AllFin (RV (Proc.devRef .tc Cert.ReferenceIdeal.main_arg4)) := by
  rw [← p_main_arg4_main_arg4 m ρ m' hpre hagree c, Cert.KernelIdeal.GenP.W55_main_arg4 (F := Ideal) m ρ c]
  exact Cert.PreFin.fin_arg4 m hpre c

theorem rf_main_v11 : Cert.Lib.AllFin (RV (Proc.devRef .tc Cert.ReferenceIdeal.main_v11)) := by
  rw [Cert.ReferenceIdeal.Tab.fin_main_v11 (F := Ideal) (StableHlo.launchContents m' c), unary_result]
  try simp only [TRef.ofBuf, TRef.toBuf, cast_eq]
  exact Cert.Lib.allFin_extractStridedSlice _ _ (rf_main_arg4 m ρ m' hpre hagree c)

theorem rf_main_v12 : Cert.Lib.AllFin (RV (Proc.devRef .tc Cert.ReferenceIdeal.main_v12)) := by
  rw [Cert.ReferenceIdeal.Tab.fin_main_v12 (F := Ideal) (StableHlo.launchContents m' c), reshape_result]
  try simp only [TRef.ofBuf, TRef.toBuf, cast_eq]
  exact Cert.Lib.allFin_shapeCast _ (rf_main_v11 m ρ m' hpre hagree c)

theorem rf_main_v13 : Cert.Lib.AllFin (RV (Proc.devRef .tc Cert.ReferenceIdeal.main_v13)) := by
  rw [Cert.ReferenceIdeal.Tab.fin_main_v13 (F := Ideal) (StableHlo.launchContents m' c), binary_result]
  try simp only [TRef.ofBuf, TRef.toBuf, cast_eq]
  exact Cert.Lib.allFin_dotGeneral _ _ _ _ (rf_main_arg1 m ρ m' hpre hagree c) (rf_main_v12 m ρ m' hpre hagree c)

theorem rf_main_v14 : Cert.Lib.AllFin (RV (Proc.devRef .tc Cert.ReferenceIdeal.main_v14)) := by
  rw [Cert.ReferenceIdeal.Tab.fin_main_v14 (F := Ideal) (StableHlo.launchContents m' c), binary_result]
  try simp only [TRef.ofBuf, TRef.toBuf, cast_eq]
  exact Cert.Lib.allFin_addf (rf_main_v10 m ρ m' hpre hagree c) (rf_main_v13 m ρ m' hpre hagree c)

theorem rf_main_arg5 : Cert.Lib.AllFin (RV (Proc.devRef .tc Cert.ReferenceIdeal.main_arg5)) := by
  rw [← p_main_arg5_main_arg5 m ρ m' hpre hagree c, Cert.KernelIdeal.GenP.W55_main_arg5 (F := Ideal) m ρ c]
  exact Cert.PreFin.fin_arg5 m hpre c

theorem rf_main_v15 : Cert.Lib.AllFin (RV (Proc.devRef .tc Cert.ReferenceIdeal.main_v15)) := by
  rw [Cert.ReferenceIdeal.Tab.fin_main_v15 (F := Ideal) (StableHlo.launchContents m' c), unary_result]
  try simp only [TRef.ofBuf, TRef.toBuf, cast_eq]
  exact Cert.Lib.allFin_extractStridedSlice _ _ (rf_main_arg5 m ρ m' hpre hagree c)

theorem rf_main_v16 : Cert.Lib.AllFin (RV (Proc.devRef .tc Cert.ReferenceIdeal.main_v16)) := by
  rw [Cert.ReferenceIdeal.Tab.fin_main_v16 (F := Ideal) (StableHlo.launchContents m' c), reshape_result]
  try simp only [TRef.ofBuf, TRef.toBuf, cast_eq]
  exact Cert.Lib.allFin_shapeCast _ (rf_main_v15 m ρ m' hpre hagree c)

theorem rf_main_v17 : Cert.Lib.AllFin (RV (Proc.devRef .tc Cert.ReferenceIdeal.main_v17)) := by
  rw [Cert.ReferenceIdeal.Tab.fin_main_v17 (F := Ideal) (StableHlo.launchContents m' c), unary_result]
  try simp only [TRef.ofBuf, TRef.toBuf, cast_eq]
  exact Cert.Lib.allFin_broadcastInDim _ _ (rf_main_v16 m ρ m' hpre hagree c)

theorem rf_main_v18 : Cert.Lib.AllFin (RV (Proc.devRef .tc Cert.ReferenceIdeal.main_v18)) := by
  rw [Cert.ReferenceIdeal.Tab.fin_main_v18 (F := Ideal) (StableHlo.launchContents m' c), unary_result]
  try simp only [TRef.ofBuf, TRef.toBuf, cast_eq]
  exact Cert.Lib.allFin_broadcastInDim _ _ (rf_main_v17 m ρ m' hpre hagree c)

theorem rf_main_v19 : Cert.Lib.AllFin (RV (Proc.devRef .tc Cert.ReferenceIdeal.main_v19)) := by
  rw [Cert.ReferenceIdeal.Tab.fin_main_v19 (F := Ideal) (StableHlo.launchContents m' c), binary_result]
  try simp only [TRef.ofBuf, TRef.toBuf, cast_eq]
  exact Cert.Lib.allFin_addf (rf_main_v14 m ρ m' hpre hagree c) (rf_main_v18 m ρ m' hpre hagree c)

theorem rf_main_call0_cst : Cert.Lib.AllFin (RV (Proc.devRef .tc Cert.ReferenceIdeal.main_call0_cst)) := by
  rw [Cert.ReferenceIdeal.Tab.fin_main_call0_cst (F := Ideal) (StableHlo.launchContents m' c), nullary_result]
  try simp only [TRef.ofBuf, TRef.toBuf, cast_eq]
  exact Cert.Lib.allFin_constant_zero _

theorem rf_main_call0_v0 : Cert.Lib.AllFin (RV (Proc.devRef .tc Cert.ReferenceIdeal.main_call0_v0)) := by
  rw [Cert.ReferenceIdeal.Tab.fin_main_call0_v0 (F := Ideal) (StableHlo.launchContents m' c), unary_result]
  try simp only [TRef.ofBuf, TRef.toBuf, cast_eq]
  exact Cert.Lib.allFin_broadcastInDim _ _ (rf_main_call0_cst m ρ m' hpre hagree c)

theorem rf_main_v20 : Cert.Lib.AllFin (RV (Proc.devRef .tc Cert.ReferenceIdeal.main_v20)) := by
  rw [Cert.ReferenceIdeal.Tab.fin_main_v20 (F := Ideal) (StableHlo.launchContents m' c), binary_result]
  try simp only [TRef.ofBuf, TRef.toBuf, cast_eq]
  exact Cert.Lib.allFin_maximumf (rf_main_v19 m ρ m' hpre hagree c) (rf_main_call0_v0 m ρ m' hpre hagree c)

theorem rf_main_v23 : Cert.Lib.AllFin (RV (Proc.devRef .tc Cert.ReferenceIdeal.main_v23)) := by
  rw [Cert.ReferenceIdeal.Tab.fin_main_v23 (F := Ideal) (StableHlo.launchContents m' c), ternary_result]
  try simp only [TRef.ofBuf, TRef.toBuf, cast_eq]
  exact Cert.Lib.allFin_scatterAdd _ _ _ _ (rf_main_v21 m ρ m' hpre hagree c) (rf_main_v20 m ρ m' hpre hagree c)

theorem rf_main_v29 : Cert.Lib.AllFin (RV (Proc.devRef .tc Cert.ReferenceIdeal.main_v29)) := by
  rw [Cert.ReferenceIdeal.Tab.fin_main_v29 (F := Ideal) (StableHlo.launchContents m' c), binary_result]
  try simp only [TRef.ofBuf, TRef.toBuf, cast_eq]
  exact Cert.Lib.allFin_addf (rf_main_v28 m ρ m' hpre hagree c) (rf_main_v23 m ρ m' hpre hagree c)

theorem rf_main_arg7 : Cert.Lib.AllFin (RV (Proc.devRef .tc Cert.ReferenceIdeal.main_arg7)) := by
  rw [← p_main_arg7_main_arg7 m ρ m' hpre hagree c, Cert.KernelIdeal.GenP.W55_main_arg7 (F := Ideal) m ρ c]
  exact Cert.PreFin.fin_arg7 m hpre c

theorem rf_main_v30 : Cert.Lib.AllFin (RV (Proc.devRef .tc Cert.ReferenceIdeal.main_v30)) := by
  rw [Cert.ReferenceIdeal.Tab.fin_main_v30 (F := Ideal) (StableHlo.launchContents m' c), unary_result]
  try simp only [TRef.ofBuf, TRef.toBuf, cast_eq]
  exact Cert.Lib.allFin_extractStridedSlice _ _ (rf_main_arg7 m ρ m' hpre hagree c)

theorem rf_main_v31 : Cert.Lib.AllFin (RV (Proc.devRef .tc Cert.ReferenceIdeal.main_v31)) := by
  rw [Cert.ReferenceIdeal.Tab.fin_main_v31 (F := Ideal) (StableHlo.launchContents m' c), reshape_result]
  try simp only [TRef.ofBuf, TRef.toBuf, cast_eq]
  exact Cert.Lib.allFin_shapeCast _ (rf_main_v30 m ρ m' hpre hagree c)

theorem rf_main_v32 : Cert.Lib.AllFin (RV (Proc.devRef .tc Cert.ReferenceIdeal.main_v32)) := by
  rw [Cert.ReferenceIdeal.Tab.fin_main_v32 (F := Ideal) (StableHlo.launchContents m' c), binary_result]
  try simp only [TRef.ofBuf, TRef.toBuf, cast_eq]
  exact Cert.Lib.allFin_dotGeneral _ _ _ _ (rf_main_v29 m ρ m' hpre hagree c) (rf_main_v31 m ρ m' hpre hagree c)

theorem rf_main_arg8 : Cert.Lib.AllFin (RV (Proc.devRef .tc Cert.ReferenceIdeal.main_arg8)) := by
  rw [← p_main_arg8_main_arg8 m ρ m' hpre hagree c, Cert.KernelIdeal.GenP.W55_main_arg8 (F := Ideal) m ρ c]
  exact Cert.PreFin.fin_arg8 m hpre c

theorem rf_main_v33 : Cert.Lib.AllFin (RV (Proc.devRef .tc Cert.ReferenceIdeal.main_v33)) := by
  rw [Cert.ReferenceIdeal.Tab.fin_main_v33 (F := Ideal) (StableHlo.launchContents m' c), unary_result]
  try simp only [TRef.ofBuf, TRef.toBuf, cast_eq]
  exact Cert.Lib.allFin_extractStridedSlice _ _ (rf_main_arg8 m ρ m' hpre hagree c)

theorem rf_main_v34 : Cert.Lib.AllFin (RV (Proc.devRef .tc Cert.ReferenceIdeal.main_v34)) := by
  rw [Cert.ReferenceIdeal.Tab.fin_main_v34 (F := Ideal) (StableHlo.launchContents m' c), reshape_result]
  try simp only [TRef.ofBuf, TRef.toBuf, cast_eq]
  exact Cert.Lib.allFin_shapeCast _ (rf_main_v33 m ρ m' hpre hagree c)

theorem rf_main_v35 : Cert.Lib.AllFin (RV (Proc.devRef .tc Cert.ReferenceIdeal.main_v35)) := by
  rw [Cert.ReferenceIdeal.Tab.fin_main_v35 (F := Ideal) (StableHlo.launchContents m' c), unary_result]
  try simp only [TRef.ofBuf, TRef.toBuf, cast_eq]
  exact Cert.Lib.allFin_broadcastInDim _ _ (rf_main_v34 m ρ m' hpre hagree c)

theorem rf_main_v36 : Cert.Lib.AllFin (RV (Proc.devRef .tc Cert.ReferenceIdeal.main_v36)) := by
  rw [Cert.ReferenceIdeal.Tab.fin_main_v36 (F := Ideal) (StableHlo.launchContents m' c), unary_result]
  try simp only [TRef.ofBuf, TRef.toBuf, cast_eq]
  exact Cert.Lib.allFin_broadcastInDim _ _ (rf_main_v35 m ρ m' hpre hagree c)

theorem rf_main_v37 : Cert.Lib.AllFin (RV (Proc.devRef .tc Cert.ReferenceIdeal.main_v37)) := by
  rw [Cert.ReferenceIdeal.Tab.fin_main_v37 (F := Ideal) (StableHlo.launchContents m' c), binary_result]
  try simp only [TRef.ofBuf, TRef.toBuf, cast_eq]
  exact Cert.Lib.allFin_addf (rf_main_v32 m ρ m' hpre hagree c) (rf_main_v36 m ρ m' hpre hagree c)

theorem rf_main_arg9 : Cert.Lib.AllFin (RV (Proc.devRef .tc Cert.ReferenceIdeal.main_arg9)) := by
  rw [← p_main_arg9_main_arg9 m ρ m' hpre hagree c, Cert.KernelIdeal.GenP.W55_main_arg9 (F := Ideal) m ρ c]
  exact Cert.PreFin.fin_arg9 m hpre c

theorem rf_main_v38 : Cert.Lib.AllFin (RV (Proc.devRef .tc Cert.ReferenceIdeal.main_v38)) := by
  rw [Cert.ReferenceIdeal.Tab.fin_main_v38 (F := Ideal) (StableHlo.launchContents m' c), unary_result]
  try simp only [TRef.ofBuf, TRef.toBuf, cast_eq]
  exact Cert.Lib.allFin_extractStridedSlice _ _ (rf_main_arg9 m ρ m' hpre hagree c)

theorem rf_main_v39 : Cert.Lib.AllFin (RV (Proc.devRef .tc Cert.ReferenceIdeal.main_v39)) := by
  rw [Cert.ReferenceIdeal.Tab.fin_main_v39 (F := Ideal) (StableHlo.launchContents m' c), reshape_result]
  try simp only [TRef.ofBuf, TRef.toBuf, cast_eq]
  exact Cert.Lib.allFin_shapeCast _ (rf_main_v38 m ρ m' hpre hagree c)

theorem rf_main_arg10 : Cert.Lib.AllFin (RV (Proc.devRef .tc Cert.ReferenceIdeal.main_arg10)) := by
  rw [← p_main_arg10_main_arg10 m ρ m' hpre hagree c, Cert.KernelIdeal.GenP.W55_main_arg10 (F := Ideal) m ρ c]
  exact Cert.PreFin.fin_arg10 m hpre c

theorem rf_main_v40 : Cert.Lib.AllFin (RV (Proc.devRef .tc Cert.ReferenceIdeal.main_v40)) := by
  rw [Cert.ReferenceIdeal.Tab.fin_main_v40 (F := Ideal) (StableHlo.launchContents m' c), unary_result]
  try simp only [TRef.ofBuf, TRef.toBuf, cast_eq]
  exact Cert.Lib.allFin_extractStridedSlice _ _ (rf_main_arg10 m ρ m' hpre hagree c)

theorem rf_main_v41 : Cert.Lib.AllFin (RV (Proc.devRef .tc Cert.ReferenceIdeal.main_v41)) := by
  rw [Cert.ReferenceIdeal.Tab.fin_main_v41 (F := Ideal) (StableHlo.launchContents m' c), reshape_result]
  try simp only [TRef.ofBuf, TRef.toBuf, cast_eq]
  exact Cert.Lib.allFin_shapeCast _ (rf_main_v40 m ρ m' hpre hagree c)

theorem rf_main_cst_2 : Cert.Lib.AllFin (RV (Proc.devRef .tc Cert.ReferenceIdeal.main_cst_2)) := by
  rw [Cert.ReferenceIdeal.Tab.fin_main_cst_2 (F := Ideal) (StableHlo.launchContents m' c), nullary_result]
  try simp only [TRef.ofBuf, TRef.toBuf, cast_eq]
  exact Cert.Lib.allFin_constant_zero _

theorem rf_main_v42 : Cert.Lib.AllFin (RV (Proc.devRef .tc Cert.ReferenceIdeal.main_v42)) := by
  rw [Cert.ReferenceIdeal.Tab.fin_main_v42 (F := Ideal) (StableHlo.launchContents m' c), binary_result]
  try simp only [TRef.ofBuf, TRef.toBuf, cast_eq]
  exact Cert.Lib.allFin_reduceAdd _ _ _ _ (rf_main_v37 m ρ m' hpre hagree c) (rf_main_cst_2 m ρ m' hpre hagree c)

theorem rf_main_v44 : Cert.Lib.AllFin (RV (Proc.devRef .tc Cert.ReferenceIdeal.main_v44)) := by
  rw [Cert.ReferenceIdeal.Tab.fin_main_v44 (F := Ideal) (StableHlo.launchContents m' c), binary_result]
  rw [Cert.ReferenceIdeal.Tab.fin_main_v43 (F := Ideal) (StableHlo.launchContents m' c), unary_result]
  rw [Cert.ReferenceIdeal.Tab.fin_main_cst_3 (F := Ideal) (StableHlo.launchContents m' c), nullary_result]
  try simp only [TRef.ofBuf, TRef.toBuf, cast_eq]
  exact Cert.Lib.allFin_divf_hundredThousand _ _ (rf_main_v42 m ρ m' hpre hagree c)

theorem rf_main_v54 : Cert.Lib.AllFin (RV (Proc.devRef .tc Cert.ReferenceIdeal.main_v54)) := by
  rw [Cert.ReferenceIdeal.Tab.fin_main_v54 (F := Ideal) (StableHlo.launchContents m' c), unary_result]
  rw [Cert.ReferenceIdeal.Tab.fin_main_v53 (F := Ideal) (StableHlo.launchContents m' c), binary_result]
  rw [Cert.ReferenceIdeal.Tab.fin_main_v52 (F := Ideal) (StableHlo.launchContents m' c), unary_result]
  rw [Cert.ReferenceIdeal.Tab.fin_main_cst_5 (F := Ideal) (StableHlo.launchContents m' c), nullary_result]
  rw [Cert.ReferenceIdeal.Tab.fin_main_v45 (F := Ideal) (StableHlo.launchContents m' c), ternary_result]
  rw [Cert.ReferenceIdeal.Tab.fin_main_call1_call0_v1 (F := Ideal) (StableHlo.launchContents m' c), unary_result]
  rw [Cert.ReferenceIdeal.Tab.fin_main_call1_call0_v0 (F := Ideal) (StableHlo.launchContents m' c), unary_result]
  rw [Cert.ReferenceIdeal.Tab.fin_main_call1_cst_4 (F := Ideal) (StableHlo.launchContents m' c), nullary_result]
  rw [Cert.ReferenceIdeal.Tab.fin_main_call1_v12 (F := Ideal) (StableHlo.launchContents m' c), binary_result]
  rw [Cert.ReferenceIdeal.Tab.fin_main_call1_cst_3 (F := Ideal) (StableHlo.launchContents m' c), nullary_result]
  rw [Cert.ReferenceIdeal.Tab.fin_main_call1_v11 (F := Ideal) (StableHlo.launchContents m' c), binary_result]
  rw [Cert.ReferenceIdeal.Tab.fin_main_call1_v10 (F := Ideal) (StableHlo.launchContents m' c), unary_result]
  rw [Cert.ReferenceIdeal.Tab.fin_main_call1_v9 (F := Ideal) (StableHlo.launchContents m' c), binary_result]
  rw [Cert.ReferenceIdeal.Tab.fin_main_call1_cst_2 (F := Ideal) (StableHlo.launchContents m' c), nullary_result]
  rw [Cert.ReferenceIdeal.Tab.fin_main_call1_v8 (F := Ideal) (StableHlo.launchContents m' c), binary_result]
  rw [Cert.ReferenceIdeal.Tab.fin_main_call1_cst_1 (F := Ideal) (StableHlo.launchContents m' c), nullary_result]
  rw [Cert.ReferenceIdeal.Tab.fin_main_call1_v7 (F := Ideal) (StableHlo.launchContents m' c), unary_result]
  rw [Cert.ReferenceIdeal.Tab.fin_main_call1_v6 (F := Ideal) (StableHlo.launchContents m' c), binary_result]
  rw [Cert.ReferenceIdeal.Tab.fin_main_call1_v5 (F := Ideal) (StableHlo.launchContents m' c), binary_result]
  rw [Cert.ReferenceIdeal.Tab.fin_main_call1_v4 (F := Ideal) (StableHlo.launchContents m' c), unary_result]
  rw [Cert.ReferenceIdeal.Tab.fin_main_call1_v3 (F := Ideal) (StableHlo.launchContents m' c), binary_result]
  rw [Cert.ReferenceIdeal.Tab.fin_main_call1_v2 (F := Ideal) (StableHlo.launchContents m' c), unary_result]
  rw [Cert.ReferenceIdeal.Tab.fin_main_call1_cst_0 (F := Ideal) (StableHlo.launchContents m' c), nullary_result]
  rw [Cert.ReferenceIdeal.Tab.fin_main_call1_v1 (F := Ideal) (StableHlo.launchContents m' c), unary_result]
  rw [Cert.ReferenceIdeal.Tab.fin_main_call1_v0 (F := Ideal) (StableHlo.launchContents m' c), binary_result]
  rw [Cert.ReferenceIdeal.Tab.fin_main_call1_cst (F := Ideal) (StableHlo.launchContents m' c), nullary_result]
  rw [Cert.ReferenceIdeal.Tab.fin_main_c_4 (F := Ideal) (StableHlo.launchContents m' c), nullary_result]
  try simp only [TRef.ofBuf, TRef.toBuf, cast_eq]
  exact Cert.Seam.rsqrt_var_fin64 _ _ _ _ _ _ _ _ _ (rf_main_v37 m ρ m' hpre hagree c)

theorem p_main_v51_main_v60 : KV (Proc.devRef .tc Cert.KernelIdeal.main_v51) = RV (Proc.devRef .tc Cert.ReferenceIdeal.main_v60) := by
  rw [Cert.KernelIdeal.Tab.fin_main_v51 (F := Ideal) m ρ c, binary_result]
  rw [Cert.KernelIdeal.Tab.fin_main_v50 (F := Ideal) m ρ c, unary_result]
  rw [Cert.KernelIdeal.Tab.fin_main_v49 (F := Ideal) m ρ c, unary_result]
  rw [Cert.KernelIdeal.Tab.fin_main_v48 (F := Ideal) m ρ c, binary_result]
  rw [Cert.KernelIdeal.Tab.fin_main_v47 (F := Ideal) m ρ c, unary_result]
  rw [Cert.KernelIdeal.Tab.fin_main_v46 (F := Ideal) m ρ c, unary_result]
  rw [Cert.KernelIdeal.Tab.fin_main_v45 (F := Ideal) m ρ c, binary_result]
  rw [Cert.KernelIdeal.Tab.fin_main_v44 (F := Ideal) m ρ c, binary_result]
  rw [Cert.KernelIdeal.Tab.fin_main_v43 (F := Ideal) m ρ c, binary_result]
  rw [Cert.ReferenceIdeal.Tab.fin_main_v60 (F := Ideal) (StableHlo.launchContents m' c), binary_result]
  rw [Cert.ReferenceIdeal.Tab.fin_main_v59 (F := Ideal) (StableHlo.launchContents m' c), unary_result]
  rw [Cert.ReferenceIdeal.Tab.fin_main_v58 (F := Ideal) (StableHlo.launchContents m' c), unary_result]
  rw [Cert.ReferenceIdeal.Tab.fin_main_v57 (F := Ideal) (StableHlo.launchContents m' c), binary_result]
  rw [Cert.ReferenceIdeal.Tab.fin_main_v56 (F := Ideal) (StableHlo.launchContents m' c), unary_result]
  rw [Cert.ReferenceIdeal.Tab.fin_main_v55 (F := Ideal) (StableHlo.launchContents m' c), unary_result]
  rw [Cert.ReferenceIdeal.Tab.fin_main_v51 (F := Ideal) (StableHlo.launchContents m' c), binary_result]
  rw [Cert.ReferenceIdeal.Tab.fin_main_v50 (F := Ideal) (StableHlo.launchContents m' c), unary_result]
  rw [Cert.ReferenceIdeal.Tab.fin_main_v49 (F := Ideal) (StableHlo.launchContents m' c), unary_result]
  rw [Cert.ReferenceIdeal.Tab.fin_main_v48 (F := Ideal) (StableHlo.launchContents m' c), binary_result]
  rw [Cert.ReferenceIdeal.Tab.fin_main_v47 (F := Ideal) (StableHlo.launchContents m' c), unary_result]
  rw [Cert.ReferenceIdeal.Tab.fin_main_v46 (F := Ideal) (StableHlo.launchContents m' c), unary_result]
  rw [p_main_v31_main_v37 m ρ m' hpre hagree c, p_main_v33_main_v39 m ρ m' hpre hagree c, p_main_v35_main_v41 m ρ m' hpre hagree c, p_main_v38_main_v44 m ρ m' hpre hagree c, p_main_v42_main_v54 m ρ m' hpre hagree c]
  try simp only [TRef.ofBuf, TRef.toBuf, cast_eq]
  exact Cert.Seam.bn_affine_64 _ _ _ _ _ _ _ (rf_main_v37 m ρ m' hpre hagree c) (rf_main_v39 m ρ m' hpre hagree c) (rf_main_v41 m ρ m' hpre hagree c) (rf_main_v44 m ρ m' hpre hagree c) (rf_main_v54 m ρ m' hpre hagree c)

theorem p_main_cst_6_main_cst_6 : KV (Proc.devRef .tc Cert.KernelIdeal.main_cst_6) = RV (Proc.devRef .tc Cert.ReferenceIdeal.main_cst_6) := by
  rw [Cert.KernelIdeal.Tab.fin_main_cst_6 (F := Ideal) m ρ c, Cert.ReferenceIdeal.Tab.fin_main_cst_6 (F := Ideal) (StableHlo.launchContents m' c)]
  rw [nullary_result, nullary_result]
  try simp only [TRef.ofBuf, TRef.toBuf, cast_eq]
  all_goals rfl

theorem p_main_v52_main_v61 : KV (Proc.devRef .tc Cert.KernelIdeal.main_v52) = RV (Proc.devRef .tc Cert.ReferenceIdeal.main_v61) := by
  rw [Cert.KernelIdeal.Tab.fin_main_v52 (F := Ideal) m ρ c, Cert.ReferenceIdeal.Tab.fin_main_v61 (F := Ideal) (StableHlo.launchContents m' c)]
  rw [unary_result, unary_result]
  rw [p_main_cst_6_main_cst_6 m ρ m' hpre hagree c]
  try simp only [TRef.ofBuf, TRef.toBuf, cast_eq]
  all_goals rfl

theorem p_main_v53_main_v62 : KV (Proc.devRef .tc Cert.KernelIdeal.main_v53) = RV (Proc.devRef .tc Cert.ReferenceIdeal.main_v62) := by
  rw [Cert.KernelIdeal.Tab.fin_main_v53 (F := Ideal) m ρ c, Cert.ReferenceIdeal.Tab.fin_main_v62 (F := Ideal) (StableHlo.launchContents m' c)]
  rw [binary_result, binary_result]
  rw [p_main_v51_main_v60 m ρ m' hpre hagree c, p_main_v52_main_v61 m ρ m' hpre hagree c]
  try simp only [TRef.ofBuf, TRef.toBuf, cast_eq]
  all_goals rfl

theorem p_main_cst_7_main_cst_7 : KV (Proc.devRef .tc Cert.KernelIdeal.main_cst_7) = RV (Proc.devRef .tc Cert.ReferenceIdeal.main_cst_7) := by
  rw [Cert.KernelIdeal.Tab.fin_main_cst_7 (F := Ideal) m ρ c, Cert.ReferenceIdeal.Tab.fin_main_cst_7 (F := Ideal) (StableHlo.launchContents m' c)]
  rw [nullary_result, nullary_result]
  try simp only [TRef.ofBuf, TRef.toBuf, cast_eq]
  all_goals rfl

theorem p_main_v54_main_v63 : KV (Proc.devRef .tc Cert.KernelIdeal.main_v54) = RV (Proc.devRef .tc Cert.ReferenceIdeal.main_v63) := by
  rw [Cert.KernelIdeal.Tab.fin_main_v54 (F := Ideal) m ρ c, Cert.ReferenceIdeal.Tab.fin_main_v63 (F := Ideal) (StableHlo.launchContents m' c)]
  rw [unary_result, unary_result]
  rw [p_main_cst_7_main_cst_7 m ρ m' hpre hagree c]
  try simp only [TRef.ofBuf, TRef.toBuf, cast_eq]
  all_goals rfl

theorem p_main_v55_main_v64 : KV (Proc.devRef .tc Cert.KernelIdeal.main_v55) = RV (Proc.devRef .tc Cert.ReferenceIdeal.main_v64) := by
  rw [Cert.KernelIdeal.Tab.fin_main_v55 (F := Ideal) m ρ c, Cert.ReferenceIdeal.Tab.fin_main_v64 (F := Ideal) (StableHlo.launchContents m' c)]
  rw [binary_result, binary_result]
  rw [p_main_v54_main_v63 m ρ m' hpre hagree c, p_main_v51_main_v60 m ρ m' hpre hagree c]
  try simp only [TRef.ofBuf, TRef.toBuf, cast_eq]
  all_goals rfl

theorem p_main_v56_main_v65 : KV (Proc.devRef .tc Cert.KernelIdeal.main_v56) = RV (Proc.devRef .tc Cert.ReferenceIdeal.main_v65) := by
  rw [Cert.KernelIdeal.Tab.fin_main_v56 (F := Ideal) m ρ c, Cert.ReferenceIdeal.Tab.fin_main_v65 (F := Ideal) (StableHlo.launchContents m' c)]
  rw [ternary_result, ternary_result]
  rw [p_main_v53_main_v62 m ρ m' hpre hagree c, p_main_v51_main_v60 m ρ m' hpre hagree c, p_main_v55_main_v64 m ρ m' hpre hagree c]
  try simp only [TRef.ofBuf, TRef.toBuf, cast_eq]
  all_goals rfl

theorem p_main_arg11_main_arg11 : KV (Proc.devRef .tc Cert.KernelIdeal.main_arg11) = RV (Proc.devRef .tc Cert.ReferenceIdeal.main_arg11) :=
  (Cert.KernelIdeal.GenP.W55_main_arg11 (F := Ideal) m ρ c).trans ((eq_of_heq (hagree.a11 c)).symm.trans (Cert.ReferenceIdeal.Tab.lift0 (F := Ideal) (StableHlo.launchContents m' c) Cert.ReferenceIdeal.main_arg11 (by decide)).symm)

theorem p_main_v57_main_v66 : KV (Proc.devRef .tc Cert.KernelIdeal.main_v57) = RV (Proc.devRef .tc Cert.ReferenceIdeal.main_v66) := by
  rw [Cert.KernelIdeal.Tab.fin_main_v57 (F := Ideal) m ρ c, Cert.ReferenceIdeal.Tab.fin_main_v66 (F := Ideal) (StableHlo.launchContents m' c)]
  rw [unary_result, unary_result]
  rw [p_main_arg11_main_arg11 m ρ m' hpre hagree c]
  try simp only [TRef.ofBuf, TRef.toBuf, cast_eq]
  all_goals rfl

theorem p_main_v58_main_v67 : KV (Proc.devRef .tc Cert.KernelIdeal.main_v58) = RV (Proc.devRef .tc Cert.ReferenceIdeal.main_v67) := by
  rw [Cert.KernelIdeal.Tab.fin_main_v58 (F := Ideal) m ρ c, Cert.ReferenceIdeal.Tab.fin_main_v67 (F := Ideal) (StableHlo.launchContents m' c)]
  rw [reshape_result, reshape_result]
  rw [p_main_v57_main_v66 m ρ m' hpre hagree c]
  try simp only [TRef.ofBuf, TRef.toBuf, cast_eq]
  all_goals rfl

theorem p_main_arg12_main_arg12 : KV (Proc.devRef .tc Cert.KernelIdeal.main_arg12) = RV (Proc.devRef .tc Cert.ReferenceIdeal.main_arg12) :=
  (Cert.KernelIdeal.GenP.W55_main_arg12 (F := Ideal) m ρ c).trans ((eq_of_heq (hagree.a12 c)).symm.trans (Cert.ReferenceIdeal.Tab.lift0 (F := Ideal) (StableHlo.launchContents m' c) Cert.ReferenceIdeal.main_arg12 (by decide)).symm)

theorem p_main_v59_main_v69 : KV (Proc.devRef .tc Cert.KernelIdeal.main_v59) = RV (Proc.devRef .tc Cert.ReferenceIdeal.main_v69) := by
  rw [Cert.KernelIdeal.Tab.fin_main_v59 (F := Ideal) m ρ c, Cert.ReferenceIdeal.Tab.fin_main_v69 (F := Ideal) (StableHlo.launchContents m' c)]
  rw [unary_result, unary_result]
  rw [p_main_arg12_main_arg12 m ρ m' hpre hagree c]
  try simp only [TRef.ofBuf, TRef.toBuf, cast_eq]
  all_goals rfl

theorem p_main_v60_main_v70 : KV (Proc.devRef .tc Cert.KernelIdeal.main_v60) = RV (Proc.devRef .tc Cert.ReferenceIdeal.main_v70) := by
  rw [Cert.KernelIdeal.Tab.fin_main_v60 (F := Ideal) m ρ c, Cert.ReferenceIdeal.Tab.fin_main_v70 (F := Ideal) (StableHlo.launchContents m' c)]
  rw [reshape_result, reshape_result]
  rw [p_main_v59_main_v69 m ρ m' hpre hagree c]
  try simp only [TRef.ofBuf, TRef.toBuf, cast_eq]
  all_goals rfl

theorem p_main_v61_main_v71 : KV (Proc.devRef .tc Cert.KernelIdeal.main_v61) = RV (Proc.devRef .tc Cert.ReferenceIdeal.main_v71) := by
  rw [Cert.KernelIdeal.Tab.fin_main_v61 (F := Ideal) m ρ c, Cert.ReferenceIdeal.Tab.fin_main_v71 (F := Ideal) (StableHlo.launchContents m' c)]
  rw [reshape_result, unary_result]
  rw [p_main_v60_main_v70 m ρ m' hpre hagree c]
  exact Cert.SeamRow.row64 _ _ _

theorem p_main_v62_main_v73 : KV (Proc.devRef .tc Cert.KernelIdeal.main_v62) = RV (Proc.devRef .tc Cert.ReferenceIdeal.main_v73) := by
  have e0 : Cert.KernelIdeal.GenP.V9 (F := Ideal) m ρ c Cert.KernelIdeal.main_v56 = RV (Proc.devRef .tc Cert.ReferenceIdeal.main_v65) :=
    (Cert.KernelIdeal.Tab.lift9 (F := Ideal) m ρ c Cert.KernelIdeal.main_v56 (by decide)).symm.trans (p_main_v56_main_v65 m ρ m' hpre hagree c)
  have e1 : Cert.KernelIdeal.GenP.V9 (F := Ideal) m ρ c Cert.KernelIdeal.main_v58 = RV (Proc.devRef .tc Cert.ReferenceIdeal.main_v67) :=
    (Cert.KernelIdeal.Tab.lift9 (F := Ideal) m ρ c Cert.KernelIdeal.main_v58 (by decide)).symm.trans (p_main_v58_main_v67 m ρ m' hpre hagree c)
  have e2 : Cert.KernelIdeal.GenP.V9 (F := Ideal) m ρ c Cert.KernelIdeal.main_v61 = RV (Proc.devRef .tc Cert.ReferenceIdeal.main_v71) :=
    (Cert.KernelIdeal.Tab.lift9 (F := Ideal) m ρ c Cert.KernelIdeal.main_v61 (by decide)).symm.trans (p_main_v61_main_v71 m ρ m' hpre hagree c)
  rw [Cert.KernelIdeal.Tab.lift10 (F := Ideal) m ρ c Cert.KernelIdeal.main_v62 (by decide)]
  refine ((Cert.KernelIdeal.GenP.W10_arr (F := Ideal) m ρ c 3).trans (Cert.KernelIdeal.RegionVal.region2_value (Cert.KernelIdeal.GenP.V9 (F := Ideal) m ρ) c Cert.ReferenceIdeal.Facts₀.bcast_S1x64_S100000x64_0_1)).trans ?_
  rw [Cert.ReferenceIdeal.Tab.fin_main_v73 (F := Ideal) (StableHlo.launchContents m' c), binary_result]
  rw [Cert.ReferenceIdeal.Tab.fin_main_v72 (F := Ideal) (StableHlo.launchContents m' c), unary_result]
  rw [Cert.ReferenceIdeal.Tab.fin_main_v68 (F := Ideal) (StableHlo.launchContents m' c), binary_result]
  rw [e0, e1, e2]
  try simp only [TRef.ofBuf, TRef.toBuf, cast_eq]
  all_goals rfl

theorem p_main_arg13_main_arg13 : KV (Proc.devRef .tc Cert.KernelIdeal.main_arg13) = RV (Proc.devRef .tc Cert.ReferenceIdeal.main_arg13) :=
  (Cert.KernelIdeal.GenP.W55_main_arg13 (F := Ideal) m ρ c).trans ((eq_of_heq (hagree.a13 c)).symm.trans (Cert.ReferenceIdeal.Tab.lift0 (F := Ideal) (StableHlo.launchContents m' c) Cert.ReferenceIdeal.main_arg13 (by decide)).symm)

theorem p_main_v63_main_v74 : KV (Proc.devRef .tc Cert.KernelIdeal.main_v63) = RV (Proc.devRef .tc Cert.ReferenceIdeal.main_v74) := by
  rw [Cert.KernelIdeal.Tab.fin_main_v63 (F := Ideal) m ρ c, Cert.ReferenceIdeal.Tab.fin_main_v74 (F := Ideal) (StableHlo.launchContents m' c)]
  rw [unary_result, unary_result]
  rw [p_main_arg13_main_arg13 m ρ m' hpre hagree c]
  try simp only [TRef.ofBuf, TRef.toBuf, cast_eq]
  all_goals rfl

theorem p_main_v64_main_v75 : KV (Proc.devRef .tc Cert.KernelIdeal.main_v64) = RV (Proc.devRef .tc Cert.ReferenceIdeal.main_v75) := by
  rw [Cert.KernelIdeal.Tab.fin_main_v64 (F := Ideal) m ρ c, Cert.ReferenceIdeal.Tab.fin_main_v75 (F := Ideal) (StableHlo.launchContents m' c)]
  rw [reshape_result, reshape_result]
  rw [p_main_v63_main_v74 m ρ m' hpre hagree c]
  try simp only [TRef.ofBuf, TRef.toBuf, cast_eq]
  all_goals rfl

theorem p_main_arg14_main_arg14 : KV (Proc.devRef .tc Cert.KernelIdeal.main_arg14) = RV (Proc.devRef .tc Cert.ReferenceIdeal.main_arg14) :=
  (Cert.KernelIdeal.GenP.W55_main_arg14 (F := Ideal) m ρ c).trans ((eq_of_heq (hagree.a14 c)).symm.trans (Cert.ReferenceIdeal.Tab.lift0 (F := Ideal) (StableHlo.launchContents m' c) Cert.ReferenceIdeal.main_arg14 (by decide)).symm)

theorem p_main_v65_main_v76 : KV (Proc.devRef .tc Cert.KernelIdeal.main_v65) = RV (Proc.devRef .tc Cert.ReferenceIdeal.main_v76) := by
  rw [Cert.KernelIdeal.Tab.fin_main_v65 (F := Ideal) m ρ c, Cert.ReferenceIdeal.Tab.fin_main_v76 (F := Ideal) (StableHlo.launchContents m' c)]
  rw [unary_result, unary_result]
  rw [p_main_arg14_main_arg14 m ρ m' hpre hagree c]
  try simp only [TRef.ofBuf, TRef.toBuf, cast_eq]
  all_goals rfl

theorem p_main_v66_main_v77 : KV (Proc.devRef .tc Cert.KernelIdeal.main_v66) = RV (Proc.devRef .tc Cert.ReferenceIdeal.main_v77) := by
  rw [Cert.KernelIdeal.Tab.fin_main_v66 (F := Ideal) m ρ c, Cert.ReferenceIdeal.Tab.fin_main_v77 (F := Ideal) (StableHlo.launchContents m' c)]
  rw [reshape_result, reshape_result]
  rw [p_main_v65_main_v76 m ρ m' hpre hagree c]
  try simp only [TRef.ofBuf, TRef.toBuf, cast_eq]
  all_goals rfl

theorem p_main_cst_8_main_cst_8 : KV (Proc.devRef .tc Cert.KernelIdeal.main_cst_8) = RV (Proc.devRef .tc Cert.ReferenceIdeal.main_cst_8) := by
  rw [Cert.KernelIdeal.Tab.fin_main_cst_8 (F := Ideal) m ρ c, Cert.ReferenceIdeal.Tab.fin_main_cst_8 (F := Ideal) (StableHlo.launchContents m' c)]
  rw [nullary_result, nullary_result]
  try simp only [TRef.ofBuf, TRef.toBuf, cast_eq]
  all_goals rfl

theorem p_main_v67_main_v78 : KV (Proc.devRef .tc Cert.KernelIdeal.main_v67) = RV (Proc.devRef .tc Cert.ReferenceIdeal.main_v78) := by
  rw [Cert.KernelIdeal.Tab.fin_main_v67 (F := Ideal) m ρ c, Cert.ReferenceIdeal.Tab.fin_main_v78 (F := Ideal) (StableHlo.launchContents m' c)]
  rw [binary_result, binary_result]
  rw [p_main_v62_main_v73 m ρ m' hpre hagree c, p_main_cst_8_main_cst_8 m ρ m' hpre hagree c]
  try simp only [TRef.ofBuf, TRef.toBuf, cast_eq]
  all_goals rfl

theorem p_main_cst_9_main_cst_9 : KV (Proc.devRef .tc Cert.KernelIdeal.main_cst_9) = RV (Proc.devRef .tc Cert.ReferenceIdeal.main_cst_9) := by
  rw [Cert.KernelIdeal.Tab.fin_main_cst_9 (F := Ideal) m ρ c, Cert.ReferenceIdeal.Tab.fin_main_cst_9 (F := Ideal) (StableHlo.launchContents m' c)]
  rw [nullary_result, nullary_result]
  try simp only [TRef.ofBuf, TRef.toBuf, cast_eq]
  all_goals rfl

theorem p_main_v68_main_v79 : KV (Proc.devRef .tc Cert.KernelIdeal.main_v68) = RV (Proc.devRef .tc Cert.ReferenceIdeal.main_v79) := by
  rw [Cert.KernelIdeal.Tab.fin_main_v68 (F := Ideal) m ρ c, Cert.ReferenceIdeal.Tab.fin_main_v79 (F := Ideal) (StableHlo.launchContents m' c)]
  rw [unary_result, unary_result]
  rw [p_main_cst_9_main_cst_9 m ρ m' hpre hagree c]
  try simp only [TRef.ofBuf, TRef.toBuf, cast_eq]
  all_goals rfl

theorem p_main_v69_main_v80 : KV (Proc.devRef .tc Cert.KernelIdeal.main_v69) = RV (Proc.devRef .tc Cert.ReferenceIdeal.main_v80) := by
  rw [Cert.KernelIdeal.Tab.fin_main_v69 (F := Ideal) m ρ c, Cert.ReferenceIdeal.Tab.fin_main_v80 (F := Ideal) (StableHlo.launchContents m' c)]
  rw [binary_result, binary_result]
  rw [p_main_v67_main_v78 m ρ m' hpre hagree c, p_main_v68_main_v79 m ρ m' hpre hagree c]
  try simp only [TRef.ofBuf, TRef.toBuf, cast_eq]
  all_goals rfl

theorem p_main_call2_cst_1_main_call3_cst_1 : KV (Proc.devRef .tc Cert.KernelIdeal.main_call2_cst_1) = RV (Proc.devRef .tc Cert.ReferenceIdeal.main_call3_cst_1) := by
  rw [Cert.KernelIdeal.Tab.fin_main_call2_cst_1 (F := Ideal) m ρ c, Cert.ReferenceIdeal.Tab.fin_main_call3_cst_1 (F := Ideal) (StableHlo.launchContents m' c)]
  rw [nullary_result, nullary_result]
  try simp only [TRef.ofBuf, TRef.toBuf, cast_eq]
  all_goals rfl

theorem p_main_c_10_main_c_10 : KV (Proc.devRef .tc Cert.KernelIdeal.main_c_10) = RV (Proc.devRef .tc Cert.ReferenceIdeal.main_c_10) := by
  rw [Cert.KernelIdeal.Tab.fin_main_c_10 (F := Ideal) m ρ c, Cert.ReferenceIdeal.Tab.fin_main_c_10 (F := Ideal) (StableHlo.launchContents m' c)]
  rw [nullary_result, nullary_result]
  try simp only [TRef.ofBuf, TRef.toBuf, cast_eq]
  all_goals rfl

theorem p_main_call2_v7_main_call3_v7 : KV (Proc.devRef .tc Cert.KernelIdeal.main_call2_v7) = RV (Proc.devRef .tc Cert.ReferenceIdeal.main_call3_v7) := by
  rw [Cert.KernelIdeal.Tab.fin_main_call2_v7 (F := Ideal) m ρ c, Cert.ReferenceIdeal.Tab.fin_main_call3_v7 (F := Ideal) (StableHlo.launchContents m' c)]
  rw [unary_result, unary_result]
  rw [p_main_c_10_main_c_10 m ρ m' hpre hagree c]
  try simp only [TRef.ofBuf, TRef.toBuf, cast_eq]
  all_goals rfl

theorem p_main_call2_v8_main_call3_v8 : KV (Proc.devRef .tc Cert.KernelIdeal.main_call2_v8) = RV (Proc.devRef .tc Cert.ReferenceIdeal.main_call3_v8) := by
  rw [Cert.KernelIdeal.Tab.fin_main_call2_v8 (F := Ideal) m ρ c, Cert.ReferenceIdeal.Tab.fin_main_call3_v8 (F := Ideal) (StableHlo.launchContents m' c)]
  rw [binary_result, binary_result]
  rw [p_main_call2_cst_1_main_call3_cst_1 m ρ m' hpre hagree c, p_main_call2_v7_main_call3_v7 m ρ m' hpre hagree c]
  try simp only [TRef.ofBuf, TRef.toBuf, cast_eq]
  all_goals rfl

theorem p_main_call2_cst_3_main_call3_cst_3 : KV (Proc.devRef .tc Cert.KernelIdeal.main_call2_cst_3) = RV (Proc.devRef .tc Cert.ReferenceIdeal.main_call3_cst_3) := by
  rw [Cert.KernelIdeal.Tab.fin_main_call2_cst_3 (F := Ideal) m ρ c, Cert.ReferenceIdeal.Tab.fin_main_call3_cst_3 (F := Ideal) (StableHlo.launchContents m' c)]
  rw [nullary_result, nullary_result]
  try simp only [TRef.ofBuf, TRef.toBuf, cast_eq]
  all_goals rfl

theorem p_main_call2_v12_main_call3_v12 : KV (Proc.devRef .tc Cert.KernelIdeal.main_call2_v12) = RV (Proc.devRef .tc Cert.ReferenceIdeal.main_call3_v12) := by
  rw [Cert.KernelIdeal.Tab.fin_main_call2_v12 (F := Ideal) m ρ c, Cert.ReferenceIdeal.Tab.fin_main_call3_v12 (F := Ideal) (StableHlo.launchContents m' c)]
  rw [binary_result, binary_result]
  rw [p_main_call2_v8_main_call3_v8 m ρ m' hpre hagree c, p_main_call2_cst_3_main_call3_cst_3 m ρ m' hpre hagree c]
  try simp only [TRef.ofBuf, TRef.toBuf, cast_eq]
  all_goals rfl

theorem p_main_call2_cst_main_call3_cst : KV (Proc.devRef .tc Cert.KernelIdeal.main_call2_cst) = RV (Proc.devRef .tc Cert.ReferenceIdeal.main_call3_cst) := by
  rw [Cert.KernelIdeal.Tab.fin_main_call2_cst (F := Ideal) m ρ c, Cert.ReferenceIdeal.Tab.fin_main_call3_cst (F := Ideal) (StableHlo.launchContents m' c)]
  rw [nullary_result, nullary_result]
  try simp only [TRef.ofBuf, TRef.toBuf, cast_eq]
  all_goals rfl

theorem p_main_call2_v0_main_call3_v0 : KV (Proc.devRef .tc Cert.KernelIdeal.main_call2_v0) = RV (Proc.devRef .tc Cert.ReferenceIdeal.main_call3_v0) := by
  rw [Cert.KernelIdeal.Tab.fin_main_call2_v0 (F := Ideal) m ρ c, Cert.ReferenceIdeal.Tab.fin_main_call3_v0 (F := Ideal) (StableHlo.launchContents m' c)]
  rw [binary_result, binary_result]
  rw [p_main_v62_main_v73 m ρ m' hpre hagree c, p_main_call2_cst_main_call3_cst m ρ m' hpre hagree c]
  try simp only [TRef.ofBuf, TRef.toBuf, cast_eq]
  all_goals rfl

theorem p_main_call2_v1_main_call3_v1 : KV (Proc.devRef .tc Cert.KernelIdeal.main_call2_v1) = RV (Proc.devRef .tc Cert.ReferenceIdeal.main_call3_v1) := by
  rw [Cert.KernelIdeal.Tab.fin_main_call2_v1 (F := Ideal) m ρ c, Cert.ReferenceIdeal.Tab.fin_main_call3_v1 (F := Ideal) (StableHlo.launchContents m' c)]
  rw [unary_result, unary_result]
  rw [p_main_call2_v0_main_call3_v0 m ρ m' hpre hagree c]
  try simp only [TRef.ofBuf, TRef.toBuf, cast_eq]
  all_goals rfl

theorem p_main_call2_cst_0_main_call3_cst_0 : KV (Proc.devRef .tc Cert.KernelIdeal.main_call2_cst_0) = RV (Proc.devRef .tc Cert.ReferenceIdeal.main_call3_cst_0) := by
  rw [Cert.KernelIdeal.Tab.fin_main_call2_cst_0 (F := Ideal) m ρ c, Cert.ReferenceIdeal.Tab.fin_main_call3_cst_0 (F := Ideal) (StableHlo.launchContents m' c)]
  rw [nullary_result, nullary_result]
  try simp only [TRef.ofBuf, TRef.toBuf, cast_eq]
  all_goals rfl

theorem p_main_call2_v2_main_call3_v2 : KV (Proc.devRef .tc Cert.KernelIdeal.main_call2_v2) = RV (Proc.devRef .tc Cert.ReferenceIdeal.main_call3_v2) := by
  rw [Cert.KernelIdeal.Tab.fin_main_call2_v2 (F := Ideal) m ρ c, Cert.ReferenceIdeal.Tab.fin_main_call3_v2 (F := Ideal) (StableHlo.launchContents m' c)]
  rw [unary_result, unary_result]
  rw [p_main_call2_cst_0_main_call3_cst_0 m ρ m' hpre hagree c]
  try simp only [TRef.ofBuf, TRef.toBuf, cast_eq]
  all_goals rfl

theorem p_main_call2_v3_main_call3_v3 : KV (Proc.devRef .tc Cert.KernelIdeal.main_call2_v3) = RV (Proc.devRef .tc Cert.ReferenceIdeal.main_call3_v3) := by
  rw [Cert.KernelIdeal.Tab.fin_main_call2_v3 (F := Ideal) m ρ c, Cert.ReferenceIdeal.Tab.fin_main_call3_v3 (F := Ideal) (StableHlo.launchContents m' c)]
  rw [binary_result, binary_result]
  rw [p_main_call2_v1_main_call3_v1 m ρ m' hpre hagree c, p_main_call2_v2_main_call3_v2 m ρ m' hpre hagree c]
  try simp only [TRef.ofBuf, TRef.toBuf, cast_eq]
  all_goals rfl

theorem p_main_call2_v4_main_call3_v4 : KV (Proc.devRef .tc Cert.KernelIdeal.main_call2_v4) = RV (Proc.devRef .tc Cert.ReferenceIdeal.main_call3_v4) := by
  rw [Cert.KernelIdeal.Tab.fin_main_call2_v4 (F := Ideal) m ρ c, Cert.ReferenceIdeal.Tab.fin_main_call3_v4 (F := Ideal) (StableHlo.launchContents m' c)]
  rw [unary_result, unary_result]
  rw [p_main_call2_v3_main_call3_v3 m ρ m' hpre hagree c]
  try simp only [TRef.ofBuf, TRef.toBuf, cast_eq]
  all_goals rfl

theorem p_main_call2_v5_main_call3_v5 : KV (Proc.devRef .tc Cert.KernelIdeal.main_call2_v5) = RV (Proc.devRef .tc Cert.ReferenceIdeal.main_call3_v5) := by
  rw [Cert.KernelIdeal.Tab.fin_main_call2_v5 (F := Ideal) m ρ c, Cert.ReferenceIdeal.Tab.fin_main_call3_v5 (F := Ideal) (StableHlo.launchContents m' c)]
  rw [binary_result, binary_result]
  rw [p_main_v62_main_v73 m ρ m' hpre hagree c, p_main_call2_v4_main_call3_v4 m ρ m' hpre hagree c]
  try simp only [TRef.ofBuf, TRef.toBuf, cast_eq]
  all_goals rfl

theorem p_main_call2_v6_main_call3_v6 : KV (Proc.devRef .tc Cert.KernelIdeal.main_call2_v6) = RV (Proc.devRef .tc Cert.ReferenceIdeal.main_call3_v6) := by
  rw [Cert.KernelIdeal.Tab.fin_main_call2_v6 (F := Ideal) m ρ c, Cert.ReferenceIdeal.Tab.fin_main_call3_v6 (F := Ideal) (StableHlo.launchContents m' c)]
  rw [binary_result, binary_result]
  rw [p_main_call2_v5_main_call3_v5 m ρ m' hpre hagree c]
  try simp only [TRef.ofBuf, TRef.toBuf, cast_eq]
  all_goals rfl

theorem p_main_call2_cst_2_main_call3_cst_2 : KV (Proc.devRef .tc Cert.KernelIdeal.main_call2_cst_2) = RV (Proc.devRef .tc Cert.ReferenceIdeal.main_call3_cst_2) := by
  rw [Cert.KernelIdeal.Tab.fin_main_call2_cst_2 (F := Ideal) m ρ c, Cert.ReferenceIdeal.Tab.fin_main_call3_cst_2 (F := Ideal) (StableHlo.launchContents m' c)]
  rw [nullary_result, nullary_result]
  try simp only [TRef.ofBuf, TRef.toBuf, cast_eq]
  all_goals rfl

theorem p_main_call2_v9_main_call3_v9 : KV (Proc.devRef .tc Cert.KernelIdeal.main_call2_v9) = RV (Proc.devRef .tc Cert.ReferenceIdeal.main_call3_v9) := by
  rw [Cert.KernelIdeal.Tab.fin_main_call2_v9 (F := Ideal) m ρ c, Cert.ReferenceIdeal.Tab.fin_main_call3_v9 (F := Ideal) (StableHlo.launchContents m' c)]
  rw [binary_result, binary_result]
  rw [p_main_call2_v6_main_call3_v6 m ρ m' hpre hagree c, p_main_call2_cst_2_main_call3_cst_2 m ρ m' hpre hagree c]
  try simp only [TRef.ofBuf, TRef.toBuf, cast_eq]
  all_goals rfl

theorem p_main_call2_v10_main_call3_v10 : KV (Proc.devRef .tc Cert.KernelIdeal.main_call2_v10) = RV (Proc.devRef .tc Cert.ReferenceIdeal.main_call3_v10) := by
  rw [Cert.KernelIdeal.Tab.fin_main_call2_v10 (F := Ideal) m ρ c, Cert.ReferenceIdeal.Tab.fin_main_call3_v10 (F := Ideal) (StableHlo.launchContents m' c)]
  rw [unary_result, unary_result]
  rw [p_main_call2_v8_main_call3_v8 m ρ m' hpre hagree c]
  try simp only [TRef.ofBuf, TRef.toBuf, cast_eq]
  all_goals rfl

theorem p_main_call2_v11_main_call3_v11 : KV (Proc.devRef .tc Cert.KernelIdeal.main_call2_v11) = RV (Proc.devRef .tc Cert.ReferenceIdeal.main_call3_v11) := by
  rw [Cert.KernelIdeal.Tab.fin_main_call2_v11 (F := Ideal) m ρ c, Cert.ReferenceIdeal.Tab.fin_main_call3_v11 (F := Ideal) (StableHlo.launchContents m' c)]
  rw [binary_result, binary_result]
  rw [p_main_call2_v9_main_call3_v9 m ρ m' hpre hagree c, p_main_call2_v10_main_call3_v10 m ρ m' hpre hagree c]
  try simp only [TRef.ofBuf, TRef.toBuf, cast_eq]
  all_goals rfl

theorem p_main_call2_cst_4_main_call3_cst_4 : KV (Proc.devRef .tc Cert.KernelIdeal.main_call2_cst_4) = RV (Proc.devRef .tc Cert.ReferenceIdeal.main_call3_cst_4) := by
  rw [Cert.KernelIdeal.Tab.fin_main_call2_cst_4 (F := Ideal) m ρ c, Cert.ReferenceIdeal.Tab.fin_main_call3_cst_4 (F := Ideal) (StableHlo.launchContents m' c)]
  rw [nullary_result, nullary_result]
  try simp only [TRef.ofBuf, TRef.toBuf, cast_eq]
  all_goals rfl

theorem p_main_call2_call0_v0_main_call3_call0_v0 : KV (Proc.devRef .tc Cert.KernelIdeal.main_call2_call0_v0) = RV (Proc.devRef .tc Cert.ReferenceIdeal.main_call3_call0_v0) := by
  rw [Cert.KernelIdeal.Tab.fin_main_call2_call0_v0 (F := Ideal) m ρ c, Cert.ReferenceIdeal.Tab.fin_main_call3_call0_v0 (F := Ideal) (StableHlo.launchContents m' c)]
  rw [unary_result, unary_result]
  rw [p_main_call2_cst_4_main_call3_cst_4 m ρ m' hpre hagree c]
  try simp only [TRef.ofBuf, TRef.toBuf, cast_eq]
  all_goals rfl

theorem p_main_call2_call0_v1_main_call3_call0_v1 : KV (Proc.devRef .tc Cert.KernelIdeal.main_call2_call0_v1) = RV (Proc.devRef .tc Cert.ReferenceIdeal.main_call3_call0_v1) := by
  rw [Cert.KernelIdeal.Tab.fin_main_call2_call0_v1 (F := Ideal) m ρ c, Cert.ReferenceIdeal.Tab.fin_main_call3_call0_v1 (F := Ideal) (StableHlo.launchContents m' c)]
  rw [unary_result, unary_result]
  rw [p_main_call2_call0_v0_main_call3_call0_v0 m ρ m' hpre hagree c]
  try simp only [TRef.ofBuf, TRef.toBuf, cast_eq]
  all_goals rfl

theorem p_main_v70_main_v81 : KV (Proc.devRef .tc Cert.KernelIdeal.main_v70) = RV (Proc.devRef .tc Cert.ReferenceIdeal.main_v81) := by
  rw [Cert.KernelIdeal.Tab.fin_main_v70 (F := Ideal) m ρ c, Cert.ReferenceIdeal.Tab.fin_main_v81 (F := Ideal) (StableHlo.launchContents m' c)]
  rw [ternary_result, ternary_result]
  rw [p_main_call2_v12_main_call3_v12 m ρ m' hpre hagree c, p_main_call2_v11_main_call3_v11 m ρ m' hpre hagree c, p_main_call2_call0_v1_main_call3_call0_v1 m ρ m' hpre hagree c]
  try simp only [TRef.ofBuf, TRef.toBuf, cast_eq]
  all_goals rfl

end Cert.Pair

end
-- ==== Proof.Pair1.lean ====
/- The table, continued: buffer by buffer, the kernel program's contents at its last boundary and
   the reference's final contents are equal (each pair from its two operations' reading lemmas and the operands' pairs; a pallas_call's output by its region's value lemma;
   the folded batch-norm affine against the direct form by distributivity over reals), and each float buffer of the reference on the way holds reals only. -/
import proofs.«409037_j72164040508123_1_alg».proof.Proof.Pair0

set_option maxRecDepth 16384

noncomputable section

namespace Cert.Pair

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (hpre : Cert.Pre_KernelIdeal m) (hagree : Agree m m') (c : Dev Cert.KernelIdeal.nD)

local notation "KV" => Cert.KernelIdeal.GenP.W55 (F := Ideal) m ρ c
local notation "RV" => Cert.ReferenceIdeal.RefRun.RV33 (F := Ideal) (StableHlo.launchContents m' c)

include m ρ m' hpre hagree c

theorem p_main_cst_11_main_cst_11 : KV (Proc.devRef .tc Cert.KernelIdeal.main_cst_11) = RV (Proc.devRef .tc Cert.ReferenceIdeal.main_cst_11) := by
  rw [Cert.KernelIdeal.Tab.fin_main_cst_11 (F := Ideal) m ρ c, Cert.ReferenceIdeal.Tab.fin_main_cst_11 (F := Ideal) (StableHlo.launchContents m' c)]
  rw [nullary_result, nullary_result]
  try simp only [TRef.ofBuf, TRef.toBuf, cast_eq]
  all_goals rfl

theorem p_main_v71_main_v88 : KV (Proc.devRef .tc Cert.KernelIdeal.main_v71) = RV (Proc.devRef .tc Cert.ReferenceIdeal.main_v88) := by
  rw [Cert.KernelIdeal.Tab.fin_main_v71 (F := Ideal) m ρ c, Cert.ReferenceIdeal.Tab.fin_main_v88 (F := Ideal) (StableHlo.launchContents m' c)]
  rw [unary_result, unary_result]
  rw [p_main_cst_11_main_cst_11 m ρ m' hpre hagree c]
  try simp only [TRef.ofBuf, TRef.toBuf, cast_eq]
  all_goals rfl

theorem p_main_v72_main_v89 : KV (Proc.devRef .tc Cert.KernelIdeal.main_v72) = RV (Proc.devRef .tc Cert.ReferenceIdeal.main_v89) := by
  rw [Cert.KernelIdeal.Tab.fin_main_v72 (F := Ideal) m ρ c, Cert.ReferenceIdeal.Tab.fin_main_v89 (F := Ideal) (StableHlo.launchContents m' c)]
  rw [binary_result, binary_result]
  rw [p_main_v70_main_v81 m ρ m' hpre hagree c, p_main_v71_main_v88 m ρ m' hpre hagree c]
  try simp only [TRef.ofBuf, TRef.toBuf, cast_eq]
  all_goals rfl

theorem p_main_v73_main_v90 : KV (Proc.devRef .tc Cert.KernelIdeal.main_v73) = RV (Proc.devRef .tc Cert.ReferenceIdeal.main_v90) := by
  rw [Cert.KernelIdeal.Tab.fin_main_v73 (F := Ideal) m ρ c, Cert.ReferenceIdeal.Tab.fin_main_v90 (F := Ideal) (StableHlo.launchContents m' c)]
  rw [unary_result, unary_result]
  rw [p_main_v72_main_v89 m ρ m' hpre hagree c]
  try simp only [TRef.ofBuf, TRef.toBuf, cast_eq]
  all_goals rfl

theorem rf_main_v49 : Cert.Lib.AllFin (RV (Proc.devRef .tc Cert.ReferenceIdeal.main_v49)) := by
  rw [Cert.ReferenceIdeal.Tab.fin_main_v49 (F := Ideal) (StableHlo.launchContents m' c), unary_result]
  try simp only [TRef.ofBuf, TRef.toBuf, cast_eq]
  exact Cert.Lib.allFin_broadcastInDim _ _ (rf_main_v39 m ρ m' hpre hagree c)

theorem rf_main_v50 : Cert.Lib.AllFin (RV (Proc.devRef .tc Cert.ReferenceIdeal.main_v50)) := by
  rw [Cert.ReferenceIdeal.Tab.fin_main_v50 (F := Ideal) (StableHlo.launchContents m' c), unary_result]
  try simp only [TRef.ofBuf, TRef.toBuf, cast_eq]
  exact Cert.Lib.allFin_broadcastInDim _ _ (rf_main_v49 m ρ m' hpre hagree c)

theorem rf_main_v46 : Cert.Lib.AllFin (RV (Proc.devRef .tc Cert.ReferenceIdeal.main_v46)) := by
  rw [Cert.ReferenceIdeal.Tab.fin_main_v46 (F := Ideal) (StableHlo.launchContents m' c), unary_result]
  try simp only [TRef.ofBuf, TRef.toBuf, cast_eq]
  exact Cert.Lib.allFin_broadcastInDim _ _ (rf_main_v44 m ρ m' hpre hagree c)

theorem rf_main_v47 : Cert.Lib.AllFin (RV (Proc.devRef .tc Cert.ReferenceIdeal.main_v47)) := by
  rw [Cert.ReferenceIdeal.Tab.fin_main_v47 (F := Ideal) (StableHlo.launchContents m' c), unary_result]
  try simp only [TRef.ofBuf, TRef.toBuf, cast_eq]
  exact Cert.Lib.allFin_broadcastInDim _ _ (rf_main_v46 m ρ m' hpre hagree c)

theorem rf_main_v48 : Cert.Lib.AllFin (RV (Proc.devRef .tc Cert.ReferenceIdeal.main_v48)) := by
  rw [Cert.ReferenceIdeal.Tab.fin_main_v48 (F := Ideal) (StableHlo.launchContents m' c), binary_result]
  try simp only [TRef.ofBuf, TRef.toBuf, cast_eq]
  exact Cert.Lib.allFin_subf (rf_main_v37 m ρ m' hpre hagree c) (rf_main_v47 m ρ m' hpre hagree c)

theorem rf_main_v51 : Cert.Lib.AllFin (RV (Proc.devRef .tc Cert.ReferenceIdeal.main_v51)) := by
  rw [Cert.ReferenceIdeal.Tab.fin_main_v51 (F := Ideal) (StableHlo.launchContents m' c), binary_result]
  try simp only [TRef.ofBuf, TRef.toBuf, cast_eq]
  exact Cert.Lib.allFin_mulf (rf_main_v50 m ρ m' hpre hagree c) (rf_main_v48 m ρ m' hpre hagree c)

theorem rf_main_v55 : Cert.Lib.AllFin (RV (Proc.devRef .tc Cert.ReferenceIdeal.main_v55)) := by
  rw [Cert.ReferenceIdeal.Tab.fin_main_v55 (F := Ideal) (StableHlo.launchContents m' c), unary_result]
  try simp only [TRef.ofBuf, TRef.toBuf, cast_eq]
  exact Cert.Lib.allFin_broadcastInDim _ _ (rf_main_v54 m ρ m' hpre hagree c)

theorem rf_main_v56 : Cert.Lib.AllFin (RV (Proc.devRef .tc Cert.ReferenceIdeal.main_v56)) := by
  rw [Cert.ReferenceIdeal.Tab.fin_main_v56 (F := Ideal) (StableHlo.launchContents m' c), unary_result]
  try simp only [TRef.ofBuf, TRef.toBuf, cast_eq]
  exact Cert.Lib.allFin_broadcastInDim _ _ (rf_main_v55 m ρ m' hpre hagree c)

theorem rf_main_v57 : Cert.Lib.AllFin (RV (Proc.devRef .tc Cert.ReferenceIdeal.main_v57)) := by
  rw [Cert.ReferenceIdeal.Tab.fin_main_v57 (F := Ideal) (StableHlo.launchContents m' c), binary_result]
  try simp only [TRef.ofBuf, TRef.toBuf, cast_eq]
  exact Cert.Lib.allFin_mulf (rf_main_v51 m ρ m' hpre hagree c) (rf_main_v56 m ρ m' hpre hagree c)

theorem rf_main_v58 : Cert.Lib.AllFin (RV (Proc.devRef .tc Cert.ReferenceIdeal.main_v58)) := by
  rw [Cert.ReferenceIdeal.Tab.fin_main_v58 (F := Ideal) (StableHlo.launchContents m' c), unary_result]
  try simp only [TRef.ofBuf, TRef.toBuf, cast_eq]
  exact Cert.Lib.allFin_broadcastInDim _ _ (rf_main_v41 m ρ m' hpre hagree c)

theorem rf_main_v59 : Cert.Lib.AllFin (RV (Proc.devRef .tc Cert.ReferenceIdeal.main_v59)) := by
  rw [Cert.ReferenceIdeal.Tab.fin_main_v59 (F := Ideal) (StableHlo.launchContents m' c), unary_result]
  try simp only [TRef.ofBuf, TRef.toBuf, cast_eq]
  exact Cert.Lib.allFin_broadcastInDim _ _ (rf_main_v58 m ρ m' hpre hagree c)

theorem rf_main_v60 : Cert.Lib.AllFin (RV (Proc.devRef .tc Cert.ReferenceIdeal.main_v60)) := by
  rw [Cert.ReferenceIdeal.Tab.fin_main_v60 (F := Ideal) (StableHlo.launchContents m' c), binary_result]
  try simp only [TRef.ofBuf, TRef.toBuf, cast_eq]
  exact Cert.Lib.allFin_addf (rf_main_v57 m ρ m' hpre hagree c) (rf_main_v59 m ρ m' hpre hagree c)

theorem rf_main_cst_7 : Cert.Lib.AllFin (RV (Proc.devRef .tc Cert.ReferenceIdeal.main_cst_7)) := by
  rw [Cert.ReferenceIdeal.Tab.fin_main_cst_7 (F := Ideal) (StableHlo.launchContents m' c), nullary_result]
  try simp only [TRef.ofBuf, TRef.toBuf, cast_eq]
  exact Cert.Lib.allFin_constant_1em2 _

theorem rf_main_v63 : Cert.Lib.AllFin (RV (Proc.devRef .tc Cert.ReferenceIdeal.main_v63)) := by
  rw [Cert.ReferenceIdeal.Tab.fin_main_v63 (F := Ideal) (StableHlo.launchContents m' c), unary_result]
  try simp only [TRef.ofBuf, TRef.toBuf, cast_eq]
  exact Cert.Lib.allFin_broadcastInDim _ _ (rf_main_cst_7 m ρ m' hpre hagree c)

theorem rf_main_v64 : Cert.Lib.AllFin (RV (Proc.devRef .tc Cert.ReferenceIdeal.main_v64)) := by
  rw [Cert.ReferenceIdeal.Tab.fin_main_v64 (F := Ideal) (StableHlo.launchContents m' c), binary_result]
  try simp only [TRef.ofBuf, TRef.toBuf, cast_eq]
  exact Cert.Lib.allFin_mulf (rf_main_v63 m ρ m' hpre hagree c) (rf_main_v60 m ρ m' hpre hagree c)

theorem rf_main_v65 : Cert.Lib.AllFin (RV (Proc.devRef .tc Cert.ReferenceIdeal.main_v65)) := by
  rw [Cert.ReferenceIdeal.Tab.fin_main_v65 (F := Ideal) (StableHlo.launchContents m' c), ternary_result]
  try simp only [TRef.ofBuf, TRef.toBuf, cast_eq]
  exact Cert.Lib.allFin_select _ (rf_main_v60 m ρ m' hpre hagree c) (rf_main_v64 m ρ m' hpre hagree c)

theorem rf_main_arg11 : Cert.Lib.AllFin (RV (Proc.devRef .tc Cert.ReferenceIdeal.main_arg11)) := by
  rw [← p_main_arg11_main_arg11 m ρ m' hpre hagree c, Cert.KernelIdeal.GenP.W55_main_arg11 (F := Ideal) m ρ c]
  exact Cert.PreFin.fin_arg11 m hpre c

theorem rf_main_v66 : Cert.Lib.AllFin (RV (Proc.devRef .tc Cert.ReferenceIdeal.main_v66)) := by
  rw [Cert.ReferenceIdeal.Tab.fin_main_v66 (F := Ideal) (StableHlo.launchContents m' c), unary_result]
  try simp only [TRef.ofBuf, TRef.toBuf, cast_eq]
  exact Cert.Lib.allFin_extractStridedSlice _ _ (rf_main_arg11 m ρ m' hpre hagree c)

theorem rf_main_v67 : Cert.Lib.AllFin (RV (Proc.devRef .tc Cert.ReferenceIdeal.main_v67)) := by
  rw [Cert.ReferenceIdeal.Tab.fin_main_v67 (F := Ideal) (StableHlo.launchContents m' c), reshape_result]
  try simp only [TRef.ofBuf, TRef.toBuf, cast_eq]
  exact Cert.Lib.allFin_shapeCast _ (rf_main_v66 m ρ m' hpre hagree c)

theorem rf_main_v68 : Cert.Lib.AllFin (RV (Proc.devRef .tc Cert.ReferenceIdeal.main_v68)) := by
  rw [Cert.ReferenceIdeal.Tab.fin_main_v68 (F := Ideal) (StableHlo.launchContents m' c), binary_result]
  try simp only [TRef.ofBuf, TRef.toBuf, cast_eq]
  exact Cert.Lib.allFin_dotGeneral _ _ _ _ (rf_main_v65 m ρ m' hpre hagree c) (rf_main_v67 m ρ m' hpre hagree c)

theorem rf_main_arg12 : Cert.Lib.AllFin (RV (Proc.devRef .tc Cert.ReferenceIdeal.main_arg12)) := by
  rw [← p_main_arg12_main_arg12 m ρ m' hpre hagree c, Cert.KernelIdeal.GenP.W55_main_arg12 (F := Ideal) m ρ c]
  exact Cert.PreFin.fin_arg12 m hpre c

theorem rf_main_v69 : Cert.Lib.AllFin (RV (Proc.devRef .tc Cert.ReferenceIdeal.main_v69)) := by
  rw [Cert.ReferenceIdeal.Tab.fin_main_v69 (F := Ideal) (StableHlo.launchContents m' c), unary_result]
  try simp only [TRef.ofBuf, TRef.toBuf, cast_eq]
  exact Cert.Lib.allFin_extractStridedSlice _ _ (rf_main_arg12 m ρ m' hpre hagree c)

theorem rf_main_v70 : Cert.Lib.AllFin (RV (Proc.devRef .tc Cert.ReferenceIdeal.main_v70)) := by
  rw [Cert.ReferenceIdeal.Tab.fin_main_v70 (F := Ideal) (StableHlo.launchContents m' c), reshape_result]
  try simp only [TRef.ofBuf, TRef.toBuf, cast_eq]
  exact Cert.Lib.allFin_shapeCast _ (rf_main_v69 m ρ m' hpre hagree c)

theorem rf_main_v71 : Cert.Lib.AllFin (RV (Proc.devRef .tc Cert.ReferenceIdeal.main_v71)) := by
  rw [Cert.ReferenceIdeal.Tab.fin_main_v71 (F := Ideal) (StableHlo.launchContents m' c), unary_result]
  try simp only [TRef.ofBuf, TRef.toBuf, cast_eq]
  exact Cert.Lib.allFin_broadcastInDim _ _ (rf_main_v70 m ρ m' hpre hagree c)

theorem rf_main_v72 : Cert.Lib.AllFin (RV (Proc.devRef .tc Cert.ReferenceIdeal.main_v72)) := by
  rw [Cert.ReferenceIdeal.Tab.fin_main_v72 (F := Ideal) (StableHlo.launchContents m' c), unary_result]
  try simp only [TRef.ofBuf, TRef.toBuf, cast_eq]
  exact Cert.Lib.allFin_broadcastInDim _ _ (rf_main_v71 m ρ m' hpre hagree c)

theorem rf_main_v73 : Cert.Lib.AllFin (RV (Proc.devRef .tc Cert.ReferenceIdeal.main_v73)) := by
  rw [Cert.ReferenceIdeal.Tab.fin_main_v73 (F := Ideal) (StableHlo.launchContents m' c), binary_result]
  try simp only [TRef.ofBuf, TRef.toBuf, cast_eq]
  exact Cert.Lib.allFin_addf (rf_main_v68 m ρ m' hpre hagree c) (rf_main_v72 m ρ m' hpre hagree c)

theorem rf_main_arg13 : Cert.Lib.AllFin (RV (Proc.devRef .tc Cert.ReferenceIdeal.main_arg13)) := by
  rw [← p_main_arg13_main_arg13 m ρ m' hpre hagree c, Cert.KernelIdeal.GenP.W55_main_arg13 (F := Ideal) m ρ c]
  exact Cert.PreFin.fin_arg13 m hpre c

theorem rf_main_v74 : Cert.Lib.AllFin (RV (Proc.devRef .tc Cert.ReferenceIdeal.main_v74)) := by
  rw [Cert.ReferenceIdeal.Tab.fin_main_v74 (F := Ideal) (StableHlo.launchContents m' c), unary_result]
  try simp only [TRef.ofBuf, TRef.toBuf, cast_eq]
  exact Cert.Lib.allFin_extractStridedSlice _ _ (rf_main_arg13 m ρ m' hpre hagree c)

theorem rf_main_v75 : Cert.Lib.AllFin (RV (Proc.devRef .tc Cert.ReferenceIdeal.main_v75)) := by
  rw [Cert.ReferenceIdeal.Tab.fin_main_v75 (F := Ideal) (StableHlo.launchContents m' c), reshape_result]
  try simp only [TRef.ofBuf, TRef.toBuf, cast_eq]
  exact Cert.Lib.allFin_shapeCast _ (rf_main_v74 m ρ m' hpre hagree c)

theorem rf_main_arg14 : Cert.Lib.AllFin (RV (Proc.devRef .tc Cert.ReferenceIdeal.main_arg14)) := by
  rw [← p_main_arg14_main_arg14 m ρ m' hpre hagree c, Cert.KernelIdeal.GenP.W55_main_arg14 (F := Ideal) m ρ c]
  exact Cert.PreFin.fin_arg14 m hpre c

theorem rf_main_v76 : Cert.Lib.AllFin (RV (Proc.devRef .tc Cert.ReferenceIdeal.main_v76)) := by
  rw [Cert.ReferenceIdeal.Tab.fin_main_v76 (F := Ideal) (StableHlo.launchContents m' c), unary_result]
  try simp only [TRef.ofBuf, TRef.toBuf, cast_eq]
  exact Cert.Lib.allFin_extractStridedSlice _ _ (rf_main_arg14 m ρ m' hpre hagree c)

theorem rf_main_v77 : Cert.Lib.AllFin (RV (Proc.devRef .tc Cert.ReferenceIdeal.main_v77)) := by
  rw [Cert.ReferenceIdeal.Tab.fin_main_v77 (F := Ideal) (StableHlo.launchContents m' c), reshape_result]
  try simp only [TRef.ofBuf, TRef.toBuf, cast_eq]
  exact Cert.Lib.allFin_shapeCast _ (rf_main_v76 m ρ m' hpre hagree c)

theorem rf_main_cst_8 : Cert.Lib.AllFin (RV (Proc.devRef .tc Cert.ReferenceIdeal.main_cst_8)) := by
  rw [Cert.ReferenceIdeal.Tab.fin_main_cst_8 (F := Ideal) (StableHlo.launchContents m' c), nullary_result]
  try simp only [TRef.ofBuf, TRef.toBuf, cast_eq]
  exact Cert.Lib.allFin_constant_zero _

theorem rf_main_v78 : Cert.Lib.AllFin (RV (Proc.devRef .tc Cert.ReferenceIdeal.main_v78)) := by
  rw [Cert.ReferenceIdeal.Tab.fin_main_v78 (F := Ideal) (StableHlo.launchContents m' c), binary_result]
  try simp only [TRef.ofBuf, TRef.toBuf, cast_eq]
  exact Cert.Lib.allFin_reduceAdd _ _ _ _ (rf_main_v73 m ρ m' hpre hagree c) (rf_main_cst_8 m ρ m' hpre hagree c)

theorem rf_main_v80 : Cert.Lib.AllFin (RV (Proc.devRef .tc Cert.ReferenceIdeal.main_v80)) := by
  rw [Cert.ReferenceIdeal.Tab.fin_main_v80 (F := Ideal) (StableHlo.launchContents m' c), binary_result]
  rw [Cert.ReferenceIdeal.Tab.fin_main_v79 (F := Ideal) (StableHlo.launchContents m' c), unary_result]
  rw [Cert.ReferenceIdeal.Tab.fin_main_cst_9 (F := Ideal) (StableHlo.launchContents m' c), nullary_result]
  try simp only [TRef.ofBuf, TRef.toBuf, cast_eq]
  exact Cert.Lib.allFin_divf_hundredThousand _ _ (rf_main_v78 m ρ m' hpre hagree c)

theorem rf_main_v90 : Cert.Lib.AllFin (RV (Proc.devRef .tc Cert.ReferenceIdeal.main_v90)) := by
  rw [Cert.ReferenceIdeal.Tab.fin_main_v90 (F := Ideal) (StableHlo.launchContents m' c), unary_result]
  rw [Cert.ReferenceIdeal.Tab.fin_main_v89 (F := Ideal) (StableHlo.launchContents m' c), binary_result]
  rw [Cert.ReferenceIdeal.Tab.fin_main_v88 (F := Ideal) (StableHlo.launchContents m' c), unary_result]
  rw [Cert.ReferenceIdeal.Tab.fin_main_cst_11 (F := Ideal) (StableHlo.launchContents m' c), nullary_result]
  rw [Cert.ReferenceIdeal.Tab.fin_main_v81 (F := Ideal) (StableHlo.launchContents m' c), ternary_result]
  rw [Cert.ReferenceIdeal.Tab.fin_main_call3_call0_v1 (F := Ideal) (StableHlo.launchContents m' c), unary_result]
  rw [Cert.ReferenceIdeal.Tab.fin_main_call3_call0_v0 (F := Ideal) (StableHlo.launchContents m' c), unary_result]
  rw [Cert.ReferenceIdeal.Tab.fin_main_call3_cst_4 (F := Ideal) (StableHlo.launchContents m' c), nullary_result]
  rw [Cert.ReferenceIdeal.Tab.fin_main_call3_v12 (F := Ideal) (StableHlo.launchContents m' c), binary_result]
  rw [Cert.ReferenceIdeal.Tab.fin_main_call3_cst_3 (F := Ideal) (StableHlo.launchContents m' c), nullary_result]
  rw [Cert.ReferenceIdeal.Tab.fin_main_call3_v11 (F := Ideal) (StableHlo.launchContents m' c), binary_result]
  rw [Cert.ReferenceIdeal.Tab.fin_main_call3_v10 (F := Ideal) (StableHlo.launchContents m' c), unary_result]
  rw [Cert.ReferenceIdeal.Tab.fin_main_call3_v9 (F := Ideal) (StableHlo.launchContents m' c), binary_result]
  rw [Cert.ReferenceIdeal.Tab.fin_main_call3_cst_2 (F := Ideal) (StableHlo.launchContents m' c), nullary_result]
  rw [Cert.ReferenceIdeal.Tab.fin_main_call3_v8 (F := Ideal) (StableHlo.launchContents m' c), binary_result]
  rw [Cert.ReferenceIdeal.Tab.fin_main_call3_cst_1 (F := Ideal) (StableHlo.launchContents m' c), nullary_result]
  rw [Cert.ReferenceIdeal.Tab.fin_main_call3_v7 (F := Ideal) (StableHlo.launchContents m' c), unary_result]
  rw [Cert.ReferenceIdeal.Tab.fin_main_call3_v6 (F := Ideal) (StableHlo.launchContents m' c), binary_result]
  rw [Cert.ReferenceIdeal.Tab.fin_main_call3_v5 (F := Ideal) (StableHlo.launchContents m' c), binary_result]
  rw [Cert.ReferenceIdeal.Tab.fin_main_call3_v4 (F := Ideal) (StableHlo.launchContents m' c), unary_result]
  rw [Cert.ReferenceIdeal.Tab.fin_main_call3_v3 (F := Ideal) (StableHlo.launchContents m' c), binary_result]
  rw [Cert.ReferenceIdeal.Tab.fin_main_call3_v2 (F := Ideal) (StableHlo.launchContents m' c), unary_result]
  rw [Cert.ReferenceIdeal.Tab.fin_main_call3_cst_0 (F := Ideal) (StableHlo.launchContents m' c), nullary_result]
  rw [Cert.ReferenceIdeal.Tab.fin_main_call3_v1 (F := Ideal) (StableHlo.launchContents m' c), unary_result]
  rw [Cert.ReferenceIdeal.Tab.fin_main_call3_v0 (F := Ideal) (StableHlo.launchContents m' c), binary_result]
  rw [Cert.ReferenceIdeal.Tab.fin_main_call3_cst (F := Ideal) (StableHlo.launchContents m' c), nullary_result]
  rw [Cert.ReferenceIdeal.Tab.fin_main_c_10 (F := Ideal) (StableHlo.launchContents m' c), nullary_result]
  try simp only [TRef.ofBuf, TRef.toBuf, cast_eq]
  exact Cert.Seam.rsqrt_var_fin64 _ _ _ _ _ _ _ _ _ (rf_main_v73 m ρ m' hpre hagree c)

theorem p_main_v82_main_v96 : KV (Proc.devRef .tc Cert.KernelIdeal.main_v82) = RV (Proc.devRef .tc Cert.ReferenceIdeal.main_v96) := by
  rw [Cert.KernelIdeal.Tab.fin_main_v82 (F := Ideal) m ρ c, binary_result]
  rw [Cert.KernelIdeal.Tab.fin_main_v81 (F := Ideal) m ρ c, unary_result]
  rw [Cert.KernelIdeal.Tab.fin_main_v80 (F := Ideal) m ρ c, unary_result]
  rw [Cert.KernelIdeal.Tab.fin_main_v79 (F := Ideal) m ρ c, binary_result]
  rw [Cert.KernelIdeal.Tab.fin_main_v78 (F := Ideal) m ρ c, unary_result]
  rw [Cert.KernelIdeal.Tab.fin_main_v77 (F := Ideal) m ρ c, unary_result]
  rw [Cert.KernelIdeal.Tab.fin_main_v76 (F := Ideal) m ρ c, binary_result]
  rw [Cert.KernelIdeal.Tab.fin_main_v75 (F := Ideal) m ρ c, binary_result]
  rw [Cert.KernelIdeal.Tab.fin_main_v74 (F := Ideal) m ρ c, binary_result]
  rw [Cert.ReferenceIdeal.Tab.fin_main_v96 (F := Ideal) (StableHlo.launchContents m' c), binary_result]
  rw [Cert.ReferenceIdeal.Tab.fin_main_v95 (F := Ideal) (StableHlo.launchContents m' c), unary_result]
  rw [Cert.ReferenceIdeal.Tab.fin_main_v94 (F := Ideal) (StableHlo.launchContents m' c), unary_result]
  rw [Cert.ReferenceIdeal.Tab.fin_main_v93 (F := Ideal) (StableHlo.launchContents m' c), binary_result]
  rw [Cert.ReferenceIdeal.Tab.fin_main_v92 (F := Ideal) (StableHlo.launchContents m' c), unary_result]
  rw [Cert.ReferenceIdeal.Tab.fin_main_v91 (F := Ideal) (StableHlo.launchContents m' c), unary_result]
  rw [Cert.ReferenceIdeal.Tab.fin_main_v87 (F := Ideal) (StableHlo.launchContents m' c), binary_result]
  rw [Cert.ReferenceIdeal.Tab.fin_main_v86 (F := Ideal) (StableHlo.launchContents m' c), unary_result]
  rw [Cert.ReferenceIdeal.Tab.fin_main_v85 (F := Ideal) (StableHlo.launchContents m' c), unary_result]
  rw [Cert.ReferenceIdeal.Tab.fin_main_v84 (F := Ideal) (StableHlo.launchContents m' c), binary_result]
  rw [Cert.ReferenceIdeal.Tab.fin_main_v83 (F := Ideal) (StableHlo.launchContents m' c), unary_result]
  rw [Cert.ReferenceIdeal.Tab.fin_main_v82 (F := Ideal) (StableHlo.launchContents m' c), unary_result]
  rw [p_main_v62_main_v73 m ρ m' hpre hagree c, p_main_v64_main_v75 m ρ m' hpre hagree c, p_main_v66_main_v77 m ρ m' hpre hagree c, p_main_v69_main_v80 m ρ m' hpre hagree c, p_main_v73_main_v90 m ρ m' hpre hagree c]
  try simp only [TRef.ofBuf, TRef.toBuf, cast_eq]
  exact Cert.Seam.bn_affine_64 _ _ _ _ _ _ _ (rf_main_v73 m ρ m' hpre hagree c) (rf_main_v75 m ρ m' hpre hagree c) (rf_main_v77 m ρ m' hpre hagree c) (rf_main_v80 m ρ m' hpre hagree c) (rf_main_v90 m ρ m' hpre hagree c)

theorem p_main_cst_12_main_cst_12 : KV (Proc.devRef .tc Cert.KernelIdeal.main_cst_12) = RV (Proc.devRef .tc Cert.ReferenceIdeal.main_cst_12) := by
  rw [Cert.KernelIdeal.Tab.fin_main_cst_12 (F := Ideal) m ρ c, Cert.ReferenceIdeal.Tab.fin_main_cst_12 (F := Ideal) (StableHlo.launchContents m' c)]
  rw [nullary_result, nullary_result]
  try simp only [TRef.ofBuf, TRef.toBuf, cast_eq]
  all_goals rfl

theorem p_main_v83_main_v97 : KV (Proc.devRef .tc Cert.KernelIdeal.main_v83) = RV (Proc.devRef .tc Cert.ReferenceIdeal.main_v97) := by
  rw [Cert.KernelIdeal.Tab.fin_main_v83 (F := Ideal) m ρ c, Cert.ReferenceIdeal.Tab.fin_main_v97 (F := Ideal) (StableHlo.launchContents m' c)]
  rw [unary_result, unary_result]
  rw [p_main_cst_12_main_cst_12 m ρ m' hpre hagree c]
  try simp only [TRef.ofBuf, TRef.toBuf, cast_eq]
  all_goals rfl

theorem p_main_v84_main_v98 : KV (Proc.devRef .tc Cert.KernelIdeal.main_v84) = RV (Proc.devRef .tc Cert.ReferenceIdeal.main_v98) := by
  rw [Cert.KernelIdeal.Tab.fin_main_v84 (F := Ideal) m ρ c, Cert.ReferenceIdeal.Tab.fin_main_v98 (F := Ideal) (StableHlo.launchContents m' c)]
  rw [binary_result, binary_result]
  rw [p_main_v82_main_v96 m ρ m' hpre hagree c, p_main_v83_main_v97 m ρ m' hpre hagree c]
  try simp only [TRef.ofBuf, TRef.toBuf, cast_eq]
  all_goals rfl

theorem p_main_cst_13_main_cst_13 : KV (Proc.devRef .tc Cert.KernelIdeal.main_cst_13) = RV (Proc.devRef .tc Cert.ReferenceIdeal.main_cst_13) := by
  rw [Cert.KernelIdeal.Tab.fin_main_cst_13 (F := Ideal) m ρ c, Cert.ReferenceIdeal.Tab.fin_main_cst_13 (F := Ideal) (StableHlo.launchContents m' c)]
  rw [nullary_result, nullary_result]
  try simp only [TRef.ofBuf, TRef.toBuf, cast_eq]
  all_goals rfl

theorem p_main_v85_main_v99 : KV (Proc.devRef .tc Cert.KernelIdeal.main_v85) = RV (Proc.devRef .tc Cert.ReferenceIdeal.main_v99) := by
  rw [Cert.KernelIdeal.Tab.fin_main_v85 (F := Ideal) m ρ c, Cert.ReferenceIdeal.Tab.fin_main_v99 (F := Ideal) (StableHlo.launchContents m' c)]
  rw [unary_result, unary_result]
  rw [p_main_cst_13_main_cst_13 m ρ m' hpre hagree c]
  try simp only [TRef.ofBuf, TRef.toBuf, cast_eq]
  all_goals rfl

theorem p_main_v86_main_v100 : KV (Proc.devRef .tc Cert.KernelIdeal.main_v86) = RV (Proc.devRef .tc Cert.ReferenceIdeal.main_v100) := by
  rw [Cert.KernelIdeal.Tab.fin_main_v86 (F := Ideal) m ρ c, Cert.ReferenceIdeal.Tab.fin_main_v100 (F := Ideal) (StableHlo.launchContents m' c)]
  rw [binary_result, binary_result]
  rw [p_main_v85_main_v99 m ρ m' hpre hagree c, p_main_v82_main_v96 m ρ m' hpre hagree c]
  try simp only [TRef.ofBuf, TRef.toBuf, cast_eq]
  all_goals rfl

theorem p_main_v87_main_v101 : KV (Proc.devRef .tc Cert.KernelIdeal.main_v87) = RV (Proc.devRef .tc Cert.ReferenceIdeal.main_v101) := by
  rw [Cert.KernelIdeal.Tab.fin_main_v87 (F := Ideal) m ρ c, Cert.ReferenceIdeal.Tab.fin_main_v101 (F := Ideal) (StableHlo.launchContents m' c)]
  rw [ternary_result, ternary_result]
  rw [p_main_v84_main_v98 m ρ m' hpre hagree c, p_main_v82_main_v96 m ρ m' hpre hagree c, p_main_v86_main_v100 m ρ m' hpre hagree c]
  try simp only [TRef.ofBuf, TRef.toBuf, cast_eq]
  all_goals rfl

theorem p_main_v108_main_v126 : KV (Proc.devRef .tc Cert.KernelIdeal.main_v108) = RV (Proc.devRef .tc Cert.ReferenceIdeal.main_v126) := by
  rw [Cert.KernelIdeal.Tab.fin_main_v108 (F := Ideal) m ρ c, Cert.ReferenceIdeal.Tab.fin_main_v126 (F := Ideal) (StableHlo.launchContents m' c)]
  rw [binary_result, binary_result]
  rw [p_main_v107_main_v125 m ρ m' hpre hagree c, p_main_v87_main_v101 m ρ m' hpre hagree c]
  try simp only [TRef.ofBuf, TRef.toBuf, cast_eq]
  all_goals rfl

theorem p_main_cst_16_main_cst_16 : KV (Proc.devRef .tc Cert.KernelIdeal.main_cst_16) = RV (Proc.devRef .tc Cert.ReferenceIdeal.main_cst_16) := by
  rw [Cert.KernelIdeal.Tab.fin_main_cst_16 (F := Ideal) m ρ c, Cert.ReferenceIdeal.Tab.fin_main_cst_16 (F := Ideal) (StableHlo.launchContents m' c)]
  rw [nullary_result, nullary_result]
  try simp only [TRef.ofBuf, TRef.toBuf, cast_eq]
  all_goals rfl

theorem p_main_v101_main_v119 : KV (Proc.devRef .tc Cert.KernelIdeal.main_v101) = RV (Proc.devRef .tc Cert.ReferenceIdeal.main_v119) := by
  rw [Cert.KernelIdeal.Tab.fin_main_v101 (F := Ideal) m ρ c, Cert.ReferenceIdeal.Tab.fin_main_v119 (F := Ideal) (StableHlo.launchContents m' c)]
  rw [unary_result, unary_result]
  rw [p_main_cst_16_main_cst_16 m ρ m' hpre hagree c]
  try simp only [TRef.ofBuf, TRef.toBuf, cast_eq]
  all_goals rfl

theorem p_main_v102_main_v120 : KV (Proc.devRef .tc Cert.KernelIdeal.main_v102) = RV (Proc.devRef .tc Cert.ReferenceIdeal.main_v120) := by
  rw [Cert.KernelIdeal.Tab.fin_main_v102 (F := Ideal) m ρ c, Cert.ReferenceIdeal.Tab.fin_main_v120 (F := Ideal) (StableHlo.launchContents m' c)]
  rw [unary_result, unary_result]
  rw [p_main_v3_main_v3 m ρ m' hpre hagree c]
  try simp only [TRef.ofBuf, TRef.toBuf, cast_eq]
  all_goals rfl

theorem p_main_c_14_main_c_14 : KV (Proc.devRef .tc Cert.KernelIdeal.main_c_14) = RV (Proc.devRef .tc Cert.ReferenceIdeal.main_c_14) := by
  rw [Cert.KernelIdeal.Tab.fin_main_c_14 (F := Ideal) m ρ c, Cert.ReferenceIdeal.Tab.fin_main_c_14 (F := Ideal) (StableHlo.launchContents m' c)]
  rw [nullary_result, nullary_result]
  try simp only [TRef.ofBuf, TRef.toBuf, cast_eq]
  all_goals rfl

theorem p_main_v88_main_v102 : KV (Proc.devRef .tc Cert.KernelIdeal.main_v88) = RV (Proc.devRef .tc Cert.ReferenceIdeal.main_v102) := by
  rw [Cert.KernelIdeal.Tab.fin_main_v88 (F := Ideal) m ρ c, Cert.ReferenceIdeal.Tab.fin_main_v102 (F := Ideal) (StableHlo.launchContents m' c)]
  rw [unary_result, unary_result]
  rw [p_main_c_14_main_c_14 m ρ m' hpre hagree c]
  try simp only [TRef.ofBuf, TRef.toBuf, cast_eq]
  all_goals rfl

theorem p_main_v89_main_v103 : KV (Proc.devRef .tc Cert.KernelIdeal.main_v89) = RV (Proc.devRef .tc Cert.ReferenceIdeal.main_v103) := by
  rw [Cert.KernelIdeal.Tab.fin_main_v89 (F := Ideal) m ρ c, Cert.ReferenceIdeal.Tab.fin_main_v103 (F := Ideal) (StableHlo.launchContents m' c)]
  rw [binary_result, binary_result]
  rw [p_main_v1_main_v1 m ρ m' hpre hagree c, p_main_v88_main_v102 m ρ m' hpre hagree c]
  try simp only [TRef.ofBuf, TRef.toBuf, cast_eq]
  all_goals rfl

theorem p_main_c_15_main_c_15 : KV (Proc.devRef .tc Cert.KernelIdeal.main_c_15) = RV (Proc.devRef .tc Cert.ReferenceIdeal.main_c_15) := by
  rw [Cert.KernelIdeal.Tab.fin_main_c_15 (F := Ideal) m ρ c, Cert.ReferenceIdeal.Tab.fin_main_c_15 (F := Ideal) (StableHlo.launchContents m' c)]
  rw [nullary_result, nullary_result]
  try simp only [TRef.ofBuf, TRef.toBuf, cast_eq]
  all_goals rfl

theorem p_main_v90_main_v104 : KV (Proc.devRef .tc Cert.KernelIdeal.main_v90) = RV (Proc.devRef .tc Cert.ReferenceIdeal.main_v104) := by
  rw [Cert.KernelIdeal.Tab.fin_main_v90 (F := Ideal) m ρ c, Cert.ReferenceIdeal.Tab.fin_main_v104 (F := Ideal) (StableHlo.launchContents m' c)]
  rw [unary_result, unary_result]
  rw [p_main_c_15_main_c_15 m ρ m' hpre hagree c]
  try simp only [TRef.ofBuf, TRef.toBuf, cast_eq]
  all_goals rfl

theorem p_main_v91_main_v105 : KV (Proc.devRef .tc Cert.KernelIdeal.main_v91) = RV (Proc.devRef .tc Cert.ReferenceIdeal.main_v105) := by
  rw [Cert.KernelIdeal.Tab.fin_main_v91 (F := Ideal) m ρ c, Cert.ReferenceIdeal.Tab.fin_main_v105 (F := Ideal) (StableHlo.launchContents m' c)]
  rw [binary_result, binary_result]
  rw [p_main_v1_main_v1 m ρ m' hpre hagree c, p_main_v90_main_v104 m ρ m' hpre hagree c]
  try simp only [TRef.ofBuf, TRef.toBuf, cast_eq]
  all_goals rfl

theorem p_main_v92_main_v106 : KV (Proc.devRef .tc Cert.KernelIdeal.main_v92) = RV (Proc.devRef .tc Cert.ReferenceIdeal.main_v106) := by
  rw [Cert.KernelIdeal.Tab.fin_main_v92 (F := Ideal) m ρ c, Cert.ReferenceIdeal.Tab.fin_main_v106 (F := Ideal) (StableHlo.launchContents m' c)]
  rw [ternary_result, ternary_result]
  rw [p_main_v89_main_v103 m ρ m' hpre hagree c, p_main_v91_main_v105 m ρ m' hpre hagree c, p_main_v1_main_v1 m ρ m' hpre hagree c]
  try simp only [TRef.ofBuf, TRef.toBuf, cast_eq]
  all_goals rfl

theorem p_main_v93_main_v107 : KV (Proc.devRef .tc Cert.KernelIdeal.main_v93) = RV (Proc.devRef .tc Cert.ReferenceIdeal.main_v107) := by
  rw [Cert.KernelIdeal.Tab.fin_main_v93 (F := Ideal) m ρ c, Cert.ReferenceIdeal.Tab.fin_main_v107 (F := Ideal) (StableHlo.launchContents m' c)]
  rw [unary_result, unary_result]
  rw [p_main_v92_main_v106 m ρ m' hpre hagree c]
  try simp only [TRef.ofBuf, TRef.toBuf, cast_eq]
  all_goals rfl

theorem p_main_v94_main_v108 : KV (Proc.devRef .tc Cert.KernelIdeal.main_v94) = RV (Proc.devRef .tc Cert.ReferenceIdeal.main_v108) := by
  rw [Cert.KernelIdeal.Tab.fin_main_v94 (F := Ideal) m ρ c, Cert.ReferenceIdeal.Tab.fin_main_v108 (F := Ideal) (StableHlo.launchContents m' c)]
  rw [binary_result, binary_result]
  rw [p_main_v87_main_v101 m ρ m' hpre hagree c, p_main_v93_main_v107 m ρ m' hpre hagree c]
  try simp only [TRef.ofBuf, TRef.toBuf, cast_eq]
  all_goals rfl

theorem p_main_v95_main_v109 : KV (Proc.devRef .tc Cert.KernelIdeal.main_v95) = RV (Proc.devRef .tc Cert.ReferenceIdeal.main_v109) := by
  rw [Cert.KernelIdeal.Tab.fin_main_v95 (F := Ideal) m ρ c, Cert.ReferenceIdeal.Tab.fin_main_v109 (F := Ideal) (StableHlo.launchContents m' c)]
  rw [unary_result, unary_result]
  rw [p_main_arg4_main_arg4 m ρ m' hpre hagree c]
  try simp only [TRef.ofBuf, TRef.toBuf, cast_eq]
  all_goals rfl

theorem p_main_v96_main_v110 : KV (Proc.devRef .tc Cert.KernelIdeal.main_v96) = RV (Proc.devRef .tc Cert.ReferenceIdeal.main_v110) := by
  rw [Cert.KernelIdeal.Tab.fin_main_v96 (F := Ideal) m ρ c, Cert.ReferenceIdeal.Tab.fin_main_v110 (F := Ideal) (StableHlo.launchContents m' c)]
  rw [reshape_result, reshape_result]
  rw [p_main_v95_main_v109 m ρ m' hpre hagree c]
  try simp only [TRef.ofBuf, TRef.toBuf, cast_eq]
  all_goals rfl

theorem p_main_v97_main_v113 : KV (Proc.devRef .tc Cert.KernelIdeal.main_v97) = RV (Proc.devRef .tc Cert.ReferenceIdeal.main_v113) := by
  rw [Cert.KernelIdeal.Tab.fin_main_v97 (F := Ideal) m ρ c, Cert.ReferenceIdeal.Tab.fin_main_v113 (F := Ideal) (StableHlo.launchContents m' c)]
  rw [unary_result, unary_result]
  rw [p_main_arg5_main_arg5 m ρ m' hpre hagree c]
  try simp only [TRef.ofBuf, TRef.toBuf, cast_eq]
  all_goals rfl

theorem p_main_v98_main_v114 : KV (Proc.devRef .tc Cert.KernelIdeal.main_v98) = RV (Proc.devRef .tc Cert.ReferenceIdeal.main_v114) := by
  rw [Cert.KernelIdeal.Tab.fin_main_v98 (F := Ideal) m ρ c, Cert.ReferenceIdeal.Tab.fin_main_v114 (F := Ideal) (StableHlo.launchContents m' c)]
  rw [reshape_result, reshape_result]
  rw [p_main_v97_main_v113 m ρ m' hpre hagree c]
  try simp only [TRef.ofBuf, TRef.toBuf, cast_eq]
  all_goals rfl

theorem p_main_v99_main_v115 : KV (Proc.devRef .tc Cert.KernelIdeal.main_v99) = RV (Proc.devRef .tc Cert.ReferenceIdeal.main_v115) := by
  rw [Cert.KernelIdeal.Tab.fin_main_v99 (F := Ideal) m ρ c, Cert.ReferenceIdeal.Tab.fin_main_v115 (F := Ideal) (StableHlo.launchContents m' c)]
  rw [reshape_result, unary_result]
  rw [p_main_v98_main_v114 m ρ m' hpre hagree c]
  exact Cert.SeamRow.row64 _ _ _

theorem p_main_v100_main_v118 : KV (Proc.devRef .tc Cert.KernelIdeal.main_v100) = RV (Proc.devRef .tc Cert.ReferenceIdeal.main_v118) := by
  have e0 : Cert.KernelIdeal.GenP.V15 (F := Ideal) m ρ c Cert.KernelIdeal.main_v94 = RV (Proc.devRef .tc Cert.ReferenceIdeal.main_v108) :=
    (Cert.KernelIdeal.Tab.lift15 (F := Ideal) m ρ c Cert.KernelIdeal.main_v94 (by decide)).symm.trans (p_main_v94_main_v108 m ρ m' hpre hagree c)
  have e1 : Cert.KernelIdeal.GenP.V15 (F := Ideal) m ρ c Cert.KernelIdeal.main_arg1 = RV (Proc.devRef .tc Cert.ReferenceIdeal.main_arg1) :=
    (Cert.KernelIdeal.Tab.lift15 (F := Ideal) m ρ c Cert.KernelIdeal.main_arg1 (by decide)).symm.trans (p_main_arg1_main_arg1 m ρ m' hpre hagree c)
  have e2 : Cert.KernelIdeal.GenP.V15 (F := Ideal) m ρ c Cert.KernelIdeal.main_v96 = RV (Proc.devRef .tc Cert.ReferenceIdeal.main_v110) :=
    (Cert.KernelIdeal.Tab.lift15 (F := Ideal) m ρ c Cert.KernelIdeal.main_v96 (by decide)).symm.trans (p_main_v96_main_v110 m ρ m' hpre hagree c)
  have e3 : Cert.KernelIdeal.GenP.V15 (F := Ideal) m ρ c Cert.KernelIdeal.main_v99 = RV (Proc.devRef .tc Cert.ReferenceIdeal.main_v115) :=
    (Cert.KernelIdeal.Tab.lift15 (F := Ideal) m ρ c Cert.KernelIdeal.main_v99 (by decide)).symm.trans (p_main_v99_main_v115 m ρ m' hpre hagree c)
  rw [Cert.KernelIdeal.Tab.lift16 (F := Ideal) m ρ c Cert.KernelIdeal.main_v100 (by decide)]
  refine ((Cert.KernelIdeal.GenP.W16_arr (F := Ideal) m ρ c 4).trans (Cert.KernelIdeal.RegionVal.region3_value (Cert.KernelIdeal.GenP.V15 (F := Ideal) m ρ) c Cert.ReferenceIdeal.Facts₀.bcast_S1x64_S1600000x64_0_1 Cert.ReferenceIdeal.Facts₀.bcast_S_S1600000x64)).trans ?_
  rw [Cert.ReferenceIdeal.Tab.fin_main_v118 (F := Ideal) (StableHlo.launchContents m' c), binary_result]
  rw [Cert.ReferenceIdeal.Tab.fin_main_call5_v0 (F := Ideal) (StableHlo.launchContents m' c), unary_result]
  rw [Cert.ReferenceIdeal.Tab.fin_main_call5_cst (F := Ideal) (StableHlo.launchContents m' c), nullary_result]
  rw [Cert.ReferenceIdeal.Tab.fin_main_v117 (F := Ideal) (StableHlo.launchContents m' c), binary_result]
  rw [Cert.ReferenceIdeal.Tab.fin_main_v116 (F := Ideal) (StableHlo.launchContents m' c), unary_result]
  rw [Cert.ReferenceIdeal.Tab.fin_main_v112 (F := Ideal) (StableHlo.launchContents m' c), binary_result]
  rw [Cert.ReferenceIdeal.Tab.fin_main_v111 (F := Ideal) (StableHlo.launchContents m' c), binary_result]
  rw [e0, e1, e2, e3]
  try simp only [TRef.ofBuf, TRef.toBuf, cast_eq]
  all_goals rfl

theorem p_main_v103_main_v121 : KV (Proc.devRef .tc Cert.KernelIdeal.main_v103) = RV (Proc.devRef .tc Cert.ReferenceIdeal.main_v121) := by
  rw [Cert.KernelIdeal.Tab.fin_main_v103 (F := Ideal) m ρ c, Cert.ReferenceIdeal.Tab.fin_main_v121 (F := Ideal) (StableHlo.launchContents m' c)]
  rw [ternary_result, ternary_result]
  rw [p_main_v101_main_v119 m ρ m' hpre hagree c, p_main_v102_main_v120 m ρ m' hpre hagree c, p_main_v100_main_v118 m ρ m' hpre hagree c]
  try simp only [TRef.ofBuf, TRef.toBuf, cast_eq]
  all_goals rfl

theorem p_main_v109_main_v127 : KV (Proc.devRef .tc Cert.KernelIdeal.main_v109) = RV (Proc.devRef .tc Cert.ReferenceIdeal.main_v127) := by
  rw [Cert.KernelIdeal.Tab.fin_main_v109 (F := Ideal) m ρ c, Cert.ReferenceIdeal.Tab.fin_main_v127 (F := Ideal) (StableHlo.launchContents m' c)]
  rw [binary_result, binary_result]
  rw [p_main_v108_main_v126 m ρ m' hpre hagree c, p_main_v103_main_v121 m ρ m' hpre hagree c]
  try simp only [TRef.ofBuf, TRef.toBuf, cast_eq]
  all_goals rfl

theorem p_main_v110_main_v128 : KV (Proc.devRef .tc Cert.KernelIdeal.main_v110) = RV (Proc.devRef .tc Cert.ReferenceIdeal.main_v128) := by
  rw [Cert.KernelIdeal.Tab.fin_main_v110 (F := Ideal) m ρ c, Cert.ReferenceIdeal.Tab.fin_main_v128 (F := Ideal) (StableHlo.launchContents m' c)]
  rw [unary_result, unary_result]
  rw [p_main_arg7_main_arg7 m ρ m' hpre hagree c]
  try simp only [TRef.ofBuf, TRef.toBuf, cast_eq]
  all_goals rfl

theorem p_main_v111_main_v129 : KV (Proc.devRef .tc Cert.KernelIdeal.main_v111) = RV (Proc.devRef .tc Cert.ReferenceIdeal.main_v129) := by
  rw [Cert.KernelIdeal.Tab.fin_main_v111 (F := Ideal) m ρ c, Cert.ReferenceIdeal.Tab.fin_main_v129 (F := Ideal) (StableHlo.launchContents m' c)]
  rw [reshape_result, reshape_result]
  rw [p_main_v110_main_v128 m ρ m' hpre hagree c]
  try simp only [TRef.ofBuf, TRef.toBuf, cast_eq]
  all_goals rfl

theorem p_main_v112_main_v131 : KV (Proc.devRef .tc Cert.KernelIdeal.main_v112) = RV (Proc.devRef .tc Cert.ReferenceIdeal.main_v131) := by
  rw [Cert.KernelIdeal.Tab.fin_main_v112 (F := Ideal) m ρ c, Cert.ReferenceIdeal.Tab.fin_main_v131 (F := Ideal) (StableHlo.launchContents m' c)]
  rw [unary_result, unary_result]
  rw [p_main_arg8_main_arg8 m ρ m' hpre hagree c]
  try simp only [TRef.ofBuf, TRef.toBuf, cast_eq]
  all_goals rfl

theorem p_main_v113_main_v132 : KV (Proc.devRef .tc Cert.KernelIdeal.main_v113) = RV (Proc.devRef .tc Cert.ReferenceIdeal.main_v132) := by
  rw [Cert.KernelIdeal.Tab.fin_main_v113 (F := Ideal) m ρ c, Cert.ReferenceIdeal.Tab.fin_main_v132 (F := Ideal) (StableHlo.launchContents m' c)]
  rw [reshape_result, reshape_result]
  rw [p_main_v112_main_v131 m ρ m' hpre hagree c]
  try simp only [TRef.ofBuf, TRef.toBuf, cast_eq]
  all_goals rfl

theorem p_main_v114_main_v133 : KV (Proc.devRef .tc Cert.KernelIdeal.main_v114) = RV (Proc.devRef .tc Cert.ReferenceIdeal.main_v133) := by
  rw [Cert.KernelIdeal.Tab.fin_main_v114 (F := Ideal) m ρ c, Cert.ReferenceIdeal.Tab.fin_main_v133 (F := Ideal) (StableHlo.launchContents m' c)]
  rw [reshape_result, unary_result]
  rw [p_main_v113_main_v132 m ρ m' hpre hagree c]
  exact Cert.SeamRow.row64 _ _ _

theorem p_main_v115_main_v135 : KV (Proc.devRef .tc Cert.KernelIdeal.main_v115) = RV (Proc.devRef .tc Cert.ReferenceIdeal.main_v135) := by
  have e0 : Cert.KernelIdeal.GenP.V17 (F := Ideal) m ρ c Cert.KernelIdeal.main_v109 = RV (Proc.devRef .tc Cert.ReferenceIdeal.main_v127) :=
    (Cert.KernelIdeal.Tab.lift17 (F := Ideal) m ρ c Cert.KernelIdeal.main_v109 (by decide)).symm.trans (p_main_v109_main_v127 m ρ m' hpre hagree c)
  have e1 : Cert.KernelIdeal.GenP.V17 (F := Ideal) m ρ c Cert.KernelIdeal.main_v111 = RV (Proc.devRef .tc Cert.ReferenceIdeal.main_v129) :=
    (Cert.KernelIdeal.Tab.lift17 (F := Ideal) m ρ c Cert.KernelIdeal.main_v111 (by decide)).symm.trans (p_main_v111_main_v129 m ρ m' hpre hagree c)
  have e2 : Cert.KernelIdeal.GenP.V17 (F := Ideal) m ρ c Cert.KernelIdeal.main_v114 = RV (Proc.devRef .tc Cert.ReferenceIdeal.main_v133) :=
    (Cert.KernelIdeal.Tab.lift17 (F := Ideal) m ρ c Cert.KernelIdeal.main_v114 (by decide)).symm.trans (p_main_v114_main_v133 m ρ m' hpre hagree c)
  rw [Cert.KernelIdeal.Tab.lift18 (F := Ideal) m ρ c Cert.KernelIdeal.main_v115 (by decide)]
  refine ((Cert.KernelIdeal.GenP.W18_arr (F := Ideal) m ρ c 3).trans (Cert.KernelIdeal.RegionVal.region4_value (Cert.KernelIdeal.GenP.V17 (F := Ideal) m ρ) c Cert.ReferenceIdeal.Facts₀.bcast_S1x64_S100000x64_0_1)).trans ?_
  rw [Cert.ReferenceIdeal.Tab.fin_main_v135 (F := Ideal) (StableHlo.launchContents m' c), binary_result]
  rw [Cert.ReferenceIdeal.Tab.fin_main_v134 (F := Ideal) (StableHlo.launchContents m' c), unary_result]
  rw [Cert.ReferenceIdeal.Tab.fin_main_v130 (F := Ideal) (StableHlo.launchContents m' c), binary_result]
  rw [e0, e1, e2]
  try simp only [TRef.ofBuf, TRef.toBuf, cast_eq]
  all_goals rfl

theorem p_main_v116_main_v136 : KV (Proc.devRef .tc Cert.KernelIdeal.main_v116) = RV (Proc.devRef .tc Cert.ReferenceIdeal.main_v136) := by
  rw [Cert.KernelIdeal.Tab.fin_main_v116 (F := Ideal) m ρ c, Cert.ReferenceIdeal.Tab.fin_main_v136 (F := Ideal) (StableHlo.launchContents m' c)]
  rw [unary_result, unary_result]
  rw [p_main_arg9_main_arg9 m ρ m' hpre hagree c]
  try simp only [TRef.ofBuf, TRef.toBuf, cast_eq]
  all_goals rfl

theorem p_main_v117_main_v137 : KV (Proc.devRef .tc Cert.KernelIdeal.main_v117) = RV (Proc.devRef .tc Cert.ReferenceIdeal.main_v137) := by
  rw [Cert.KernelIdeal.Tab.fin_main_v117 (F := Ideal) m ρ c, Cert.ReferenceIdeal.Tab.fin_main_v137 (F := Ideal) (StableHlo.launchContents m' c)]
  rw [reshape_result, reshape_result]
  rw [p_main_v116_main_v136 m ρ m' hpre hagree c]
  try simp only [TRef.ofBuf, TRef.toBuf, cast_eq]
  all_goals rfl

theorem p_main_v118_main_v138 : KV (Proc.devRef .tc Cert.KernelIdeal.main_v118) = RV (Proc.devRef .tc Cert.ReferenceIdeal.main_v138) := by
  rw [Cert.KernelIdeal.Tab.fin_main_v118 (F := Ideal) m ρ c, Cert.ReferenceIdeal.Tab.fin_main_v138 (F := Ideal) (StableHlo.launchContents m' c)]
  rw [unary_result, unary_result]
  rw [p_main_arg10_main_arg10 m ρ m' hpre hagree c]
  try simp only [TRef.ofBuf, TRef.toBuf, cast_eq]
  all_goals rfl

theorem p_main_v119_main_v139 : KV (Proc.devRef .tc Cert.KernelIdeal.main_v119) = RV (Proc.devRef .tc Cert.ReferenceIdeal.main_v139) := by
  rw [Cert.KernelIdeal.Tab.fin_main_v119 (F := Ideal) m ρ c, Cert.ReferenceIdeal.Tab.fin_main_v139 (F := Ideal) (StableHlo.launchContents m' c)]
  rw [reshape_result, reshape_result]
  rw [p_main_v118_main_v138 m ρ m' hpre hagree c]
  try simp only [TRef.ofBuf, TRef.toBuf, cast_eq]
  all_goals rfl

theorem p_main_cst_18_main_cst_18 : KV (Proc.devRef .tc Cert.KernelIdeal.main_cst_18) = RV (Proc.devRef .tc Cert.ReferenceIdeal.main_cst_18) := by
  rw [Cert.KernelIdeal.Tab.fin_main_cst_18 (F := Ideal) m ρ c, Cert.ReferenceIdeal.Tab.fin_main_cst_18 (F := Ideal) (StableHlo.launchContents m' c)]
  rw [nullary_result, nullary_result]
  try simp only [TRef.ofBuf, TRef.toBuf, cast_eq]
  all_goals rfl

theorem p_main_v120_main_v140 : KV (Proc.devRef .tc Cert.KernelIdeal.main_v120) = RV (Proc.devRef .tc Cert.ReferenceIdeal.main_v140) := by
  rw [Cert.KernelIdeal.Tab.fin_main_v120 (F := Ideal) m ρ c, Cert.ReferenceIdeal.Tab.fin_main_v140 (F := Ideal) (StableHlo.launchContents m' c)]
  rw [binary_result, binary_result]
  rw [p_main_v115_main_v135 m ρ m' hpre hagree c, p_main_cst_18_main_cst_18 m ρ m' hpre hagree c]
  try simp only [TRef.ofBuf, TRef.toBuf, cast_eq]
  all_goals rfl

theorem p_main_cst_19_main_cst_19 : KV (Proc.devRef .tc Cert.KernelIdeal.main_cst_19) = RV (Proc.devRef .tc Cert.ReferenceIdeal.main_cst_19) := by
  rw [Cert.KernelIdeal.Tab.fin_main_cst_19 (F := Ideal) m ρ c, Cert.ReferenceIdeal.Tab.fin_main_cst_19 (F := Ideal) (StableHlo.launchContents m' c)]
  rw [nullary_result, nullary_result]
  try simp only [TRef.ofBuf, TRef.toBuf, cast_eq]
  all_goals rfl

theorem p_main_v121_main_v141 : KV (Proc.devRef .tc Cert.KernelIdeal.main_v121) = RV (Proc.devRef .tc Cert.ReferenceIdeal.main_v141) := by
  rw [Cert.KernelIdeal.Tab.fin_main_v121 (F := Ideal) m ρ c, Cert.ReferenceIdeal.Tab.fin_main_v141 (F := Ideal) (StableHlo.launchContents m' c)]
  rw [unary_result, unary_result]
  rw [p_main_cst_19_main_cst_19 m ρ m' hpre hagree c]
  try simp only [TRef.ofBuf, TRef.toBuf, cast_eq]
  all_goals rfl

theorem p_main_v122_main_v142 : KV (Proc.devRef .tc Cert.KernelIdeal.main_v122) = RV (Proc.devRef .tc Cert.ReferenceIdeal.main_v142) := by
  rw [Cert.KernelIdeal.Tab.fin_main_v122 (F := Ideal) m ρ c, Cert.ReferenceIdeal.Tab.fin_main_v142 (F := Ideal) (StableHlo.launchContents m' c)]
  rw [binary_result, binary_result]
  rw [p_main_v120_main_v140 m ρ m' hpre hagree c, p_main_v121_main_v141 m ρ m' hpre hagree c]
  try simp only [TRef.ofBuf, TRef.toBuf, cast_eq]
  all_goals rfl

theorem p_main_call4_cst_1_main_call6_cst_1 : KV (Proc.devRef .tc Cert.KernelIdeal.main_call4_cst_1) = RV (Proc.devRef .tc Cert.ReferenceIdeal.main_call6_cst_1) := by
  rw [Cert.KernelIdeal.Tab.fin_main_call4_cst_1 (F := Ideal) m ρ c, Cert.ReferenceIdeal.Tab.fin_main_call6_cst_1 (F := Ideal) (StableHlo.launchContents m' c)]
  rw [nullary_result, nullary_result]
  try simp only [TRef.ofBuf, TRef.toBuf, cast_eq]
  all_goals rfl

theorem p_main_c_20_main_c_20 : KV (Proc.devRef .tc Cert.KernelIdeal.main_c_20) = RV (Proc.devRef .tc Cert.ReferenceIdeal.main_c_20) := by
  rw [Cert.KernelIdeal.Tab.fin_main_c_20 (F := Ideal) m ρ c, Cert.ReferenceIdeal.Tab.fin_main_c_20 (F := Ideal) (StableHlo.launchContents m' c)]
  rw [nullary_result, nullary_result]
  try simp only [TRef.ofBuf, TRef.toBuf, cast_eq]
  all_goals rfl

theorem p_main_call4_v7_main_call6_v7 : KV (Proc.devRef .tc Cert.KernelIdeal.main_call4_v7) = RV (Proc.devRef .tc Cert.ReferenceIdeal.main_call6_v7) := by
  rw [Cert.KernelIdeal.Tab.fin_main_call4_v7 (F := Ideal) m ρ c, Cert.ReferenceIdeal.Tab.fin_main_call6_v7 (F := Ideal) (StableHlo.launchContents m' c)]
  rw [unary_result, unary_result]
  rw [p_main_c_20_main_c_20 m ρ m' hpre hagree c]
  try simp only [TRef.ofBuf, TRef.toBuf, cast_eq]
  all_goals rfl

theorem p_main_call4_v8_main_call6_v8 : KV (Proc.devRef .tc Cert.KernelIdeal.main_call4_v8) = RV (Proc.devRef .tc Cert.ReferenceIdeal.main_call6_v8) := by
  rw [Cert.KernelIdeal.Tab.fin_main_call4_v8 (F := Ideal) m ρ c, Cert.ReferenceIdeal.Tab.fin_main_call6_v8 (F := Ideal) (StableHlo.launchContents m' c)]
  rw [binary_result, binary_result]
  rw [p_main_call4_cst_1_main_call6_cst_1 m ρ m' hpre hagree c, p_main_call4_v7_main_call6_v7 m ρ m' hpre hagree c]
  try simp only [TRef.ofBuf, TRef.toBuf, cast_eq]
  all_goals rfl

theorem p_main_call4_cst_3_main_call6_cst_3 : KV (Proc.devRef .tc Cert.KernelIdeal.main_call4_cst_3) = RV (Proc.devRef .tc Cert.ReferenceIdeal.main_call6_cst_3) := by
  rw [Cert.KernelIdeal.Tab.fin_main_call4_cst_3 (F := Ideal) m ρ c, Cert.ReferenceIdeal.Tab.fin_main_call6_cst_3 (F := Ideal) (StableHlo.launchContents m' c)]
  rw [nullary_result, nullary_result]
  try simp only [TRef.ofBuf, TRef.toBuf, cast_eq]
  all_goals rfl

theorem p_main_call4_v12_main_call6_v12 : KV (Proc.devRef .tc Cert.KernelIdeal.main_call4_v12) = RV (Proc.devRef .tc Cert.ReferenceIdeal.main_call6_v12) := by
  rw [Cert.KernelIdeal.Tab.fin_main_call4_v12 (F := Ideal) m ρ c, Cert.ReferenceIdeal.Tab.fin_main_call6_v12 (F := Ideal) (StableHlo.launchContents m' c)]
  rw [binary_result, binary_result]
  rw [p_main_call4_v8_main_call6_v8 m ρ m' hpre hagree c, p_main_call4_cst_3_main_call6_cst_3 m ρ m' hpre hagree c]
  try simp only [TRef.ofBuf, TRef.toBuf, cast_eq]
  all_goals rfl

theorem p_main_call4_cst_main_call6_cst : KV (Proc.devRef .tc Cert.KernelIdeal.main_call4_cst) = RV (Proc.devRef .tc Cert.ReferenceIdeal.main_call6_cst) := by
  rw [Cert.KernelIdeal.Tab.fin_main_call4_cst (F := Ideal) m ρ c, Cert.ReferenceIdeal.Tab.fin_main_call6_cst (F := Ideal) (StableHlo.launchContents m' c)]
  rw [nullary_result, nullary_result]
  try simp only [TRef.ofBuf, TRef.toBuf, cast_eq]
  all_goals rfl

theorem p_main_call4_v0_main_call6_v0 : KV (Proc.devRef .tc Cert.KernelIdeal.main_call4_v0) = RV (Proc.devRef .tc Cert.ReferenceIdeal.main_call6_v0) := by
  rw [Cert.KernelIdeal.Tab.fin_main_call4_v0 (F := Ideal) m ρ c, Cert.ReferenceIdeal.Tab.fin_main_call6_v0 (F := Ideal) (StableHlo.launchContents m' c)]
  rw [binary_result, binary_result]
  rw [p_main_v115_main_v135 m ρ m' hpre hagree c, p_main_call4_cst_main_call6_cst m ρ m' hpre hagree c]
  try simp only [TRef.ofBuf, TRef.toBuf, cast_eq]
  all_goals rfl

theorem p_main_call4_v1_main_call6_v1 : KV (Proc.devRef .tc Cert.KernelIdeal.main_call4_v1) = RV (Proc.devRef .tc Cert.ReferenceIdeal.main_call6_v1) := by
  rw [Cert.KernelIdeal.Tab.fin_main_call4_v1 (F := Ideal) m ρ c, Cert.ReferenceIdeal.Tab.fin_main_call6_v1 (F := Ideal) (StableHlo.launchContents m' c)]
  rw [unary_result, unary_result]
  rw [p_main_call4_v0_main_call6_v0 m ρ m' hpre hagree c]
  try simp only [TRef.ofBuf, TRef.toBuf, cast_eq]
  all_goals rfl

theorem p_main_call4_cst_0_main_call6_cst_0 : KV (Proc.devRef .tc Cert.KernelIdeal.main_call4_cst_0) = RV (Proc.devRef .tc Cert.ReferenceIdeal.main_call6_cst_0) := by
  rw [Cert.KernelIdeal.Tab.fin_main_call4_cst_0 (F := Ideal) m ρ c, Cert.ReferenceIdeal.Tab.fin_main_call6_cst_0 (F := Ideal) (StableHlo.launchContents m' c)]
  rw [nullary_result, nullary_result]
  try simp only [TRef.ofBuf, TRef.toBuf, cast_eq]
  all_goals rfl

theorem p_main_call4_v2_main_call6_v2 : KV (Proc.devRef .tc Cert.KernelIdeal.main_call4_v2) = RV (Proc.devRef .tc Cert.ReferenceIdeal.main_call6_v2) := by
  rw [Cert.KernelIdeal.Tab.fin_main_call4_v2 (F := Ideal) m ρ c, Cert.ReferenceIdeal.Tab.fin_main_call6_v2 (F := Ideal) (StableHlo.launchContents m' c)]
  rw [unary_result, unary_result]
  rw [p_main_call4_cst_0_main_call6_cst_0 m ρ m' hpre hagree c]
  try simp only [TRef.ofBuf, TRef.toBuf, cast_eq]
  all_goals rfl

theorem p_main_call4_v3_main_call6_v3 : KV (Proc.devRef .tc Cert.KernelIdeal.main_call4_v3) = RV (Proc.devRef .tc Cert.ReferenceIdeal.main_call6_v3) := by
  rw [Cert.KernelIdeal.Tab.fin_main_call4_v3 (F := Ideal) m ρ c, Cert.ReferenceIdeal.Tab.fin_main_call6_v3 (F := Ideal) (StableHlo.launchContents m' c)]
  rw [binary_result, binary_result]
  rw [p_main_call4_v1_main_call6_v1 m ρ m' hpre hagree c, p_main_call4_v2_main_call6_v2 m ρ m' hpre hagree c]
  try simp only [TRef.ofBuf, TRef.toBuf, cast_eq]
  all_goals rfl

theorem p_main_call4_v4_main_call6_v4 : KV (Proc.devRef .tc Cert.KernelIdeal.main_call4_v4) = RV (Proc.devRef .tc Cert.ReferenceIdeal.main_call6_v4) := by
  rw [Cert.KernelIdeal.Tab.fin_main_call4_v4 (F := Ideal) m ρ c, Cert.ReferenceIdeal.Tab.fin_main_call6_v4 (F := Ideal) (StableHlo.launchContents m' c)]
  rw [unary_result, unary_result]
  rw [p_main_call4_v3_main_call6_v3 m ρ m' hpre hagree c]
  try simp only [TRef.ofBuf, TRef.toBuf, cast_eq]
  all_goals rfl

theorem p_main_call4_v5_main_call6_v5 : KV (Proc.devRef .tc Cert.KernelIdeal.main_call4_v5) = RV (Proc.devRef .tc Cert.ReferenceIdeal.main_call6_v5) := by
  rw [Cert.KernelIdeal.Tab.fin_main_call4_v5 (F := Ideal) m ρ c, Cert.ReferenceIdeal.Tab.fin_main_call6_v5 (F := Ideal) (StableHlo.launchContents m' c)]
  rw [binary_result, binary_result]
  rw [p_main_v115_main_v135 m ρ m' hpre hagree c, p_main_call4_v4_main_call6_v4 m ρ m' hpre hagree c]
  try simp only [TRef.ofBuf, TRef.toBuf, cast_eq]
  all_goals rfl

theorem p_main_call4_v6_main_call6_v6 : KV (Proc.devRef .tc Cert.KernelIdeal.main_call4_v6) = RV (Proc.devRef .tc Cert.ReferenceIdeal.main_call6_v6) := by
  rw [Cert.KernelIdeal.Tab.fin_main_call4_v6 (F := Ideal) m ρ c, Cert.ReferenceIdeal.Tab.fin_main_call6_v6 (F := Ideal) (StableHlo.launchContents m' c)]
  rw [binary_result, binary_result]
  rw [p_main_call4_v5_main_call6_v5 m ρ m' hpre hagree c]
  try simp only [TRef.ofBuf, TRef.toBuf, cast_eq]
  all_goals rfl

theorem p_main_call4_cst_2_main_call6_cst_2 : KV (Proc.devRef .tc Cert.KernelIdeal.main_call4_cst_2) = RV (Proc.devRef .tc Cert.ReferenceIdeal.main_call6_cst_2) := by
  rw [Cert.KernelIdeal.Tab.fin_main_call4_cst_2 (F := Ideal) m ρ c, Cert.ReferenceIdeal.Tab.fin_main_call6_cst_2 (F := Ideal) (StableHlo.launchContents m' c)]
  rw [nullary_result, nullary_result]
  try simp only [TRef.ofBuf, TRef.toBuf, cast_eq]
  all_goals rfl

theorem p_main_call4_v9_main_call6_v9 : KV (Proc.devRef .tc Cert.KernelIdeal.main_call4_v9) = RV (Proc.devRef .tc Cert.ReferenceIdeal.main_call6_v9) := by
  rw [Cert.KernelIdeal.Tab.fin_main_call4_v9 (F := Ideal) m ρ c, Cert.ReferenceIdeal.Tab.fin_main_call6_v9 (F := Ideal) (StableHlo.launchContents m' c)]
  rw [binary_result, binary_result]
  rw [p_main_call4_v6_main_call6_v6 m ρ m' hpre hagree c, p_main_call4_cst_2_main_call6_cst_2 m ρ m' hpre hagree c]
  try simp only [TRef.ofBuf, TRef.toBuf, cast_eq]
  all_goals rfl

theorem p_main_call4_v10_main_call6_v10 : KV (Proc.devRef .tc Cert.KernelIdeal.main_call4_v10) = RV (Proc.devRef .tc Cert.ReferenceIdeal.main_call6_v10) := by
  rw [Cert.KernelIdeal.Tab.fin_main_call4_v10 (F := Ideal) m ρ c, Cert.ReferenceIdeal.Tab.fin_main_call6_v10 (F := Ideal) (StableHlo.launchContents m' c)]
  rw [unary_result, unary_result]
  rw [p_main_call4_v8_main_call6_v8 m ρ m' hpre hagree c]
  try simp only [TRef.ofBuf, TRef.toBuf, cast_eq]
  all_goals rfl

theorem p_main_call4_v11_main_call6_v11 : KV (Proc.devRef .tc Cert.KernelIdeal.main_call4_v11) = RV (Proc.devRef .tc Cert.ReferenceIdeal.main_call6_v11) := by
  rw [Cert.KernelIdeal.Tab.fin_main_call4_v11 (F := Ideal) m ρ c, Cert.ReferenceIdeal.Tab.fin_main_call6_v11 (F := Ideal) (StableHlo.launchContents m' c)]
  rw [binary_result, binary_result]
  rw [p_main_call4_v9_main_call6_v9 m ρ m' hpre hagree c, p_main_call4_v10_main_call6_v10 m ρ m' hpre hagree c]
  try simp only [TRef.ofBuf, TRef.toBuf, cast_eq]
  all_goals rfl

theorem p_main_call4_cst_4_main_call6_cst_4 : KV (Proc.devRef .tc Cert.KernelIdeal.main_call4_cst_4) = RV (Proc.devRef .tc Cert.ReferenceIdeal.main_call6_cst_4) := by
  rw [Cert.KernelIdeal.Tab.fin_main_call4_cst_4 (F := Ideal) m ρ c, Cert.ReferenceIdeal.Tab.fin_main_call6_cst_4 (F := Ideal) (StableHlo.launchContents m' c)]
  rw [nullary_result, nullary_result]
  try simp only [TRef.ofBuf, TRef.toBuf, cast_eq]
  all_goals rfl

theorem p_main_call4_call0_v0_main_call6_call0_v0 : KV (Proc.devRef .tc Cert.KernelIdeal.main_call4_call0_v0) = RV (Proc.devRef .tc Cert.ReferenceIdeal.main_call6_call0_v0) := by
  rw [Cert.KernelIdeal.Tab.fin_main_call4_call0_v0 (F := Ideal) m ρ c, Cert.ReferenceIdeal.Tab.fin_main_call6_call0_v0 (F := Ideal) (StableHlo.launchContents m' c)]
  rw [unary_result, unary_result]
  rw [p_main_call4_cst_4_main_call6_cst_4 m ρ m' hpre hagree c]
  try simp only [TRef.ofBuf, TRef.toBuf, cast_eq]
  all_goals rfl

theorem p_main_call4_call0_v1_main_call6_call0_v1 : KV (Proc.devRef .tc Cert.KernelIdeal.main_call4_call0_v1) = RV (Proc.devRef .tc Cert.ReferenceIdeal.main_call6_call0_v1) := by
  rw [Cert.KernelIdeal.Tab.fin_main_call4_call0_v1 (F := Ideal) m ρ c, Cert.ReferenceIdeal.Tab.fin_main_call6_call0_v1 (F := Ideal) (StableHlo.launchContents m' c)]
  rw [unary_result, unary_result]
  rw [p_main_call4_call0_v0_main_call6_call0_v0 m ρ m' hpre hagree c]
  try simp only [TRef.ofBuf, TRef.toBuf, cast_eq]
  all_goals rfl

theorem p_main_v123_main_v143 : KV (Proc.devRef .tc Cert.KernelIdeal.main_v123) = RV (Proc.devRef .tc Cert.ReferenceIdeal.main_v143) := by
  rw [Cert.KernelIdeal.Tab.fin_main_v123 (F := Ideal) m ρ c, Cert.ReferenceIdeal.Tab.fin_main_v143 (F := Ideal) (StableHlo.launchContents m' c)]
  rw [ternary_result, ternary_result]
  rw [p_main_call4_v12_main_call6_v12 m ρ m' hpre hagree c, p_main_call4_v11_main_call6_v11 m ρ m' hpre hagree c, p_main_call4_call0_v1_main_call6_call0_v1 m ρ m' hpre hagree c]
  try simp only [TRef.ofBuf, TRef.toBuf, cast_eq]
  all_goals rfl

theorem p_main_cst_21_main_cst_21 : KV (Proc.devRef .tc Cert.KernelIdeal.main_cst_21) = RV (Proc.devRef .tc Cert.ReferenceIdeal.main_cst_21) := by
  rw [Cert.KernelIdeal.Tab.fin_main_cst_21 (F := Ideal) m ρ c, Cert.ReferenceIdeal.Tab.fin_main_cst_21 (F := Ideal) (StableHlo.launchContents m' c)]
  rw [nullary_result, nullary_result]
  try simp only [TRef.ofBuf, TRef.toBuf, cast_eq]
  all_goals rfl

theorem p_main_v124_main_v150 : KV (Proc.devRef .tc Cert.KernelIdeal.main_v124) = RV (Proc.devRef .tc Cert.ReferenceIdeal.main_v150) := by
  rw [Cert.KernelIdeal.Tab.fin_main_v124 (F := Ideal) m ρ c, Cert.ReferenceIdeal.Tab.fin_main_v150 (F := Ideal) (StableHlo.launchContents m' c)]
  rw [unary_result, unary_result]
  rw [p_main_cst_21_main_cst_21 m ρ m' hpre hagree c]
  try simp only [TRef.ofBuf, TRef.toBuf, cast_eq]
  all_goals rfl

theorem p_main_v125_main_v151 : KV (Proc.devRef .tc Cert.KernelIdeal.main_v125) = RV (Proc.devRef .tc Cert.ReferenceIdeal.main_v151) := by
  rw [Cert.KernelIdeal.Tab.fin_main_v125 (F := Ideal) m ρ c, Cert.ReferenceIdeal.Tab.fin_main_v151 (F := Ideal) (StableHlo.launchContents m' c)]
  rw [binary_result, binary_result]
  rw [p_main_v123_main_v143 m ρ m' hpre hagree c, p_main_v124_main_v150 m ρ m' hpre hagree c]
  try simp only [TRef.ofBuf, TRef.toBuf, cast_eq]
  all_goals rfl

theorem p_main_v126_main_v152 : KV (Proc.devRef .tc Cert.KernelIdeal.main_v126) = RV (Proc.devRef .tc Cert.ReferenceIdeal.main_v152) := by
  rw [Cert.KernelIdeal.Tab.fin_main_v126 (F := Ideal) m ρ c, Cert.ReferenceIdeal.Tab.fin_main_v152 (F := Ideal) (StableHlo.launchContents m' c)]
  rw [unary_result, unary_result]
  rw [p_main_v125_main_v151 m ρ m' hpre hagree c]
  try simp only [TRef.ofBuf, TRef.toBuf, cast_eq]
  all_goals rfl

theorem rf_main_cst_17 : Cert.Lib.AllFin (RV (Proc.devRef .tc Cert.ReferenceIdeal.main_cst_17)) := by
  rw [Cert.ReferenceIdeal.Tab.fin_main_cst_17 (F := Ideal) (StableHlo.launchContents m' c), nullary_result]
  try simp only [TRef.ofBuf, TRef.toBuf, cast_eq]
  exact Cert.Lib.allFin_constant_one _

theorem rf_main_v122 : Cert.Lib.AllFin (RV (Proc.devRef .tc Cert.ReferenceIdeal.main_v122)) := by
  rw [Cert.ReferenceIdeal.Tab.fin_main_v122 (F := Ideal) (StableHlo.launchContents m' c), unary_result]
  try simp only [TRef.ofBuf, TRef.toBuf, cast_eq]
  exact Cert.Lib.allFin_extractStridedSlice _ _ (rf_main_arg6 m ρ m' hpre hagree c)

theorem rf_main_v123 : Cert.Lib.AllFin (RV (Proc.devRef .tc Cert.ReferenceIdeal.main_v123)) := by
  rw [Cert.ReferenceIdeal.Tab.fin_main_v123 (F := Ideal) (StableHlo.launchContents m' c), reshape_result]
  try simp only [TRef.ofBuf, TRef.toBuf, cast_eq]
  exact Cert.Lib.allFin_shapeCast _ (rf_main_v122 m ρ m' hpre hagree c)

theorem rf_main_v124 : Cert.Lib.AllFin (RV (Proc.devRef .tc Cert.ReferenceIdeal.main_v124)) := by
  rw [Cert.ReferenceIdeal.Tab.fin_main_v124 (F := Ideal) (StableHlo.launchContents m' c), binary_result]
  try simp only [TRef.ofBuf, TRef.toBuf, cast_eq]
  exact Cert.Lib.allFin_addf (rf_main_cst_17 m ρ m' hpre hagree c) (rf_main_v123 m ρ m' hpre hagree c)

theorem rf_main_v125 : Cert.Lib.AllFin (RV (Proc.devRef .tc Cert.ReferenceIdeal.main_v125)) := by
  rw [Cert.ReferenceIdeal.Tab.fin_main_v125 (F := Ideal) (StableHlo.launchContents m' c), unary_result]
  try simp only [TRef.ofBuf, TRef.toBuf, cast_eq]
  exact Cert.Lib.allFin_broadcastInDim _ _ (rf_main_v124 m ρ m' hpre hagree c)

theorem rf_main_v85 : Cert.Lib.AllFin (RV (Proc.devRef .tc Cert.ReferenceIdeal.main_v85)) := by
  rw [Cert.ReferenceIdeal.Tab.fin_main_v85 (F := Ideal) (StableHlo.launchContents m' c), unary_result]
  try simp only [TRef.ofBuf, TRef.toBuf, cast_eq]
  exact Cert.Lib.allFin_broadcastInDim _ _ (rf_main_v75 m ρ m' hpre hagree c)

theorem rf_main_v86 : Cert.Lib.AllFin (RV (Proc.devRef .tc Cert.ReferenceIdeal.main_v86)) := by
  rw [Cert.ReferenceIdeal.Tab.fin_main_v86 (F := Ideal) (StableHlo.launchContents m' c), unary_result]
  try simp only [TRef.ofBuf, TRef.toBuf, cast_eq]
  exact Cert.Lib.allFin_broadcastInDim _ _ (rf_main_v85 m ρ m' hpre hagree c)

theorem rf_main_v82 : Cert.Lib.AllFin (RV (Proc.devRef .tc Cert.ReferenceIdeal.main_v82)) := by
  rw [Cert.ReferenceIdeal.Tab.fin_main_v82 (F := Ideal) (StableHlo.launchContents m' c), unary_result]
  try simp only [TRef.ofBuf, TRef.toBuf, cast_eq]
  exact Cert.Lib.allFin_broadcastInDim _ _ (rf_main_v80 m ρ m' hpre hagree c)

theorem rf_main_v83 : Cert.Lib.AllFin (RV (Proc.devRef .tc Cert.ReferenceIdeal.main_v83)) := by
  rw [Cert.ReferenceIdeal.Tab.fin_main_v83 (F := Ideal) (StableHlo.launchContents m' c), unary_result]
  try simp only [TRef.ofBuf, TRef.toBuf, cast_eq]
  exact Cert.Lib.allFin_broadcastInDim _ _ (rf_main_v82 m ρ m' hpre hagree c)

theorem rf_main_v84 : Cert.Lib.AllFin (RV (Proc.devRef .tc Cert.ReferenceIdeal.main_v84)) := by
  rw [Cert.ReferenceIdeal.Tab.fin_main_v84 (F := Ideal) (StableHlo.launchContents m' c), binary_result]
  try simp only [TRef.ofBuf, TRef.toBuf, cast_eq]
  exact Cert.Lib.allFin_subf (rf_main_v73 m ρ m' hpre hagree c) (rf_main_v83 m ρ m' hpre hagree c)

theorem rf_main_v87 : Cert.Lib.AllFin (RV (Proc.devRef .tc Cert.ReferenceIdeal.main_v87)) := by
  rw [Cert.ReferenceIdeal.Tab.fin_main_v87 (F := Ideal) (StableHlo.launchContents m' c), binary_result]
  try simp only [TRef.ofBuf, TRef.toBuf, cast_eq]
  exact Cert.Lib.allFin_mulf (rf_main_v86 m ρ m' hpre hagree c) (rf_main_v84 m ρ m' hpre hagree c)

theorem rf_main_v91 : Cert.Lib.AllFin (RV (Proc.devRef .tc Cert.ReferenceIdeal.main_v91)) := by
  rw [Cert.ReferenceIdeal.Tab.fin_main_v91 (F := Ideal) (StableHlo.launchContents m' c), unary_result]
  try simp only [TRef.ofBuf, TRef.toBuf, cast_eq]
  exact Cert.Lib.allFin_broadcastInDim _ _ (rf_main_v90 m ρ m' hpre hagree c)

theorem rf_main_v92 : Cert.Lib.AllFin (RV (Proc.devRef .tc Cert.ReferenceIdeal.main_v92)) := by
  rw [Cert.ReferenceIdeal.Tab.fin_main_v92 (F := Ideal) (StableHlo.launchContents m' c), unary_result]
  try simp only [TRef.ofBuf, TRef.toBuf, cast_eq]
  exact Cert.Lib.allFin_broadcastInDim _ _ (rf_main_v91 m ρ m' hpre hagree c)

theorem rf_main_v93 : Cert.Lib.AllFin (RV (Proc.devRef .tc Cert.ReferenceIdeal.main_v93)) := by
  rw [Cert.ReferenceIdeal.Tab.fin_main_v93 (F := Ideal) (StableHlo.launchContents m' c), binary_result]
  try simp only [TRef.ofBuf, TRef.toBuf, cast_eq]
  exact Cert.Lib.allFin_mulf (rf_main_v87 m ρ m' hpre hagree c) (rf_main_v92 m ρ m' hpre hagree c)

theorem rf_main_v94 : Cert.Lib.AllFin (RV (Proc.devRef .tc Cert.ReferenceIdeal.main_v94)) := by
  rw [Cert.ReferenceIdeal.Tab.fin_main_v94 (F := Ideal) (StableHlo.launchContents m' c), unary_result]
  try simp only [TRef.ofBuf, TRef.toBuf, cast_eq]
  exact Cert.Lib.allFin_broadcastInDim _ _ (rf_main_v77 m ρ m' hpre hagree c)

theorem rf_main_v95 : Cert.Lib.AllFin (RV (Proc.devRef .tc Cert.ReferenceIdeal.main_v95)) := by
  rw [Cert.ReferenceIdeal.Tab.fin_main_v95 (F := Ideal) (StableHlo.launchContents m' c), unary_result]
  try simp only [TRef.ofBuf, TRef.toBuf, cast_eq]
  exact Cert.Lib.allFin_broadcastInDim _ _ (rf_main_v94 m ρ m' hpre hagree c)

theorem rf_main_v96 : Cert.Lib.AllFin (RV (Proc.devRef .tc Cert.ReferenceIdeal.main_v96)) := by
  rw [Cert.ReferenceIdeal.Tab.fin_main_v96 (F := Ideal) (StableHlo.launchContents m' c), binary_result]
  try simp only [TRef.ofBuf, TRef.toBuf, cast_eq]
  exact Cert.Lib.allFin_addf (rf_main_v93 m ρ m' hpre hagree c) (rf_main_v95 m ρ m' hpre hagree c)

theorem rf_main_cst_13 : Cert.Lib.AllFin (RV (Proc.devRef .tc Cert.ReferenceIdeal.main_cst_13)) := by
  rw [Cert.ReferenceIdeal.Tab.fin_main_cst_13 (F := Ideal) (StableHlo.launchContents m' c), nullary_result]
  try simp only [TRef.ofBuf, TRef.toBuf, cast_eq]
  exact Cert.Lib.allFin_constant_1em2 _

theorem rf_main_v99 : Cert.Lib.AllFin (RV (Proc.devRef .tc Cert.ReferenceIdeal.main_v99)) := by
  rw [Cert.ReferenceIdeal.Tab.fin_main_v99 (F := Ideal) (StableHlo.launchContents m' c), unary_result]
  try simp only [TRef.ofBuf, TRef.toBuf, cast_eq]
  exact Cert.Lib.allFin_broadcastInDim _ _ (rf_main_cst_13 m ρ m' hpre hagree c)

theorem rf_main_v100 : Cert.Lib.AllFin (RV (Proc.devRef .tc Cert.ReferenceIdeal.main_v100)) := by
  rw [Cert.ReferenceIdeal.Tab.fin_main_v100 (F := Ideal) (StableHlo.launchContents m' c), binary_result]
  try simp only [TRef.ofBuf, TRef.toBuf, cast_eq]
  exact Cert.Lib.allFin_mulf (rf_main_v99 m ρ m' hpre hagree c) (rf_main_v96 m ρ m' hpre hagree c)

theorem rf_main_v101 : Cert.Lib.AllFin (RV (Proc.devRef .tc Cert.ReferenceIdeal.main_v101)) := by
  rw [Cert.ReferenceIdeal.Tab.fin_main_v101 (F := Ideal) (StableHlo.launchContents m' c), ternary_result]
  try simp only [TRef.ofBuf, TRef.toBuf, cast_eq]
  exact Cert.Lib.allFin_select _ (rf_main_v96 m ρ m' hpre hagree c) (rf_main_v100 m ρ m' hpre hagree c)

theorem rf_main_v126 : Cert.Lib.AllFin (RV (Proc.devRef .tc Cert.ReferenceIdeal.main_v126)) := by
  rw [Cert.ReferenceIdeal.Tab.fin_main_v126 (F := Ideal) (StableHlo.launchContents m' c), binary_result]
  try simp only [TRef.ofBuf, TRef.toBuf, cast_eq]
  exact Cert.Lib.allFin_mulf (rf_main_v125 m ρ m' hpre hagree c) (rf_main_v101 m ρ m' hpre hagree c)

theorem rf_main_cst_16 : Cert.Lib.AllFin (RV (Proc.devRef .tc Cert.ReferenceIdeal.main_cst_16)) := by
  rw [Cert.ReferenceIdeal.Tab.fin_main_cst_16 (F := Ideal) (StableHlo.launchContents m' c), nullary_result]
  try simp only [TRef.ofBuf, TRef.toBuf, cast_eq]
  exact Cert.Lib.allFin_constant_zero _

theorem rf_main_v119 : Cert.Lib.AllFin (RV (Proc.devRef .tc Cert.ReferenceIdeal.main_v119)) := by
  rw [Cert.ReferenceIdeal.Tab.fin_main_v119 (F := Ideal) (StableHlo.launchContents m' c), unary_result]
  try simp only [TRef.ofBuf, TRef.toBuf, cast_eq]
  exact Cert.Lib.allFin_broadcastInDim _ _ (rf_main_cst_16 m ρ m' hpre hagree c)

theorem rf_main_v108 : Cert.Lib.AllFin (RV (Proc.devRef .tc Cert.ReferenceIdeal.main_v108)) := by
  rw [Cert.ReferenceIdeal.Tab.fin_main_v108 (F := Ideal) (StableHlo.launchContents m' c), binary_result]
  try simp only [TRef.ofBuf, TRef.toBuf, cast_eq]
  exact Cert.Lib.allFin_gather _ _ _ (rf_main_v101 m ρ m' hpre hagree c)

theorem rf_main_v109 : Cert.Lib.AllFin (RV (Proc.devRef .tc Cert.ReferenceIdeal.main_v109)) := by
  rw [Cert.ReferenceIdeal.Tab.fin_main_v109 (F := Ideal) (StableHlo.launchContents m' c), unary_result]
  try simp only [TRef.ofBuf, TRef.toBuf, cast_eq]
  exact Cert.Lib.allFin_extractStridedSlice _ _ (rf_main_arg4 m ρ m' hpre hagree c)

theorem rf_main_v110 : Cert.Lib.AllFin (RV (Proc.devRef .tc Cert.ReferenceIdeal.main_v110)) := by
  rw [Cert.ReferenceIdeal.Tab.fin_main_v110 (F := Ideal) (StableHlo.launchContents m' c), reshape_result]
  try simp only [TRef.ofBuf, TRef.toBuf, cast_eq]
  exact Cert.Lib.allFin_shapeCast _ (rf_main_v109 m ρ m' hpre hagree c)

theorem rf_main_v111 : Cert.Lib.AllFin (RV (Proc.devRef .tc Cert.ReferenceIdeal.main_v111)) := by
  rw [Cert.ReferenceIdeal.Tab.fin_main_v111 (F := Ideal) (StableHlo.launchContents m' c), binary_result]
  try simp only [TRef.ofBuf, TRef.toBuf, cast_eq]
  exact Cert.Lib.allFin_dotGeneral _ _ _ _ (rf_main_arg1 m ρ m' hpre hagree c) (rf_main_v110 m ρ m' hpre hagree c)

theorem rf_main_v112 : Cert.Lib.AllFin (RV (Proc.devRef .tc Cert.ReferenceIdeal.main_v112)) := by
  rw [Cert.ReferenceIdeal.Tab.fin_main_v112 (F := Ideal) (StableHlo.launchContents m' c), binary_result]
  try simp only [TRef.ofBuf, TRef.toBuf, cast_eq]
  exact Cert.Lib.allFin_addf (rf_main_v108 m ρ m' hpre hagree c) (rf_main_v111 m ρ m' hpre hagree c)

theorem rf_main_v113 : Cert.Lib.AllFin (RV (Proc.devRef .tc Cert.ReferenceIdeal.main_v113)) := by
  rw [Cert.ReferenceIdeal.Tab.fin_main_v113 (F := Ideal) (StableHlo.launchContents m' c), unary_result]
  try simp only [TRef.ofBuf, TRef.toBuf, cast_eq]
  exact Cert.Lib.allFin_extractStridedSlice _ _ (rf_main_arg5 m ρ m' hpre hagree c)

theorem rf_main_v114 : Cert.Lib.AllFin (RV (Proc.devRef .tc Cert.ReferenceIdeal.main_v114)) := by
  rw [Cert.ReferenceIdeal.Tab.fin_main_v114 (F := Ideal) (StableHlo.launchContents m' c), reshape_result]
  try simp only [TRef.ofBuf, TRef.toBuf, cast_eq]
  exact Cert.Lib.allFin_shapeCast _ (rf_main_v113 m ρ m' hpre hagree c)

theorem rf_main_v115 : Cert.Lib.AllFin (RV (Proc.devRef .tc Cert.ReferenceIdeal.main_v115)) := by
  rw [Cert.ReferenceIdeal.Tab.fin_main_v115 (F := Ideal) (StableHlo.launchContents m' c), unary_result]
  try simp only [TRef.ofBuf, TRef.toBuf, cast_eq]
  exact Cert.Lib.allFin_broadcastInDim _ _ (rf_main_v114 m ρ m' hpre hagree c)

theorem rf_main_v116 : Cert.Lib.AllFin (RV (Proc.devRef .tc Cert.ReferenceIdeal.main_v116)) := by
  rw [Cert.ReferenceIdeal.Tab.fin_main_v116 (F := Ideal) (StableHlo.launchContents m' c), unary_result]
  try simp only [TRef.ofBuf, TRef.toBuf, cast_eq]
  exact Cert.Lib.allFin_broadcastInDim _ _ (rf_main_v115 m ρ m' hpre hagree c)

theorem rf_main_v117 : Cert.Lib.AllFin (RV (Proc.devRef .tc Cert.ReferenceIdeal.main_v117)) := by
  rw [Cert.ReferenceIdeal.Tab.fin_main_v117 (F := Ideal) (StableHlo.launchContents m' c), binary_result]
  try simp only [TRef.ofBuf, TRef.toBuf, cast_eq]
  exact Cert.Lib.allFin_addf (rf_main_v112 m ρ m' hpre hagree c) (rf_main_v116 m ρ m' hpre hagree c)

theorem rf_main_call5_cst : Cert.Lib.AllFin (RV (Proc.devRef .tc Cert.ReferenceIdeal.main_call5_cst)) := by
  rw [Cert.ReferenceIdeal.Tab.fin_main_call5_cst (F := Ideal) (StableHlo.launchContents m' c), nullary_result]
  try simp only [TRef.ofBuf, TRef.toBuf, cast_eq]
  exact Cert.Lib.allFin_constant_zero _

theorem rf_main_call5_v0 : Cert.Lib.AllFin (RV (Proc.devRef .tc Cert.ReferenceIdeal.main_call5_v0)) := by
  rw [Cert.ReferenceIdeal.Tab.fin_main_call5_v0 (F := Ideal) (StableHlo.launchContents m' c), unary_result]
  try simp only [TRef.ofBuf, TRef.toBuf, cast_eq]
  exact Cert.Lib.allFin_broadcastInDim _ _ (rf_main_call5_cst m ρ m' hpre hagree c)

theorem rf_main_v118 : Cert.Lib.AllFin (RV (Proc.devRef .tc Cert.ReferenceIdeal.main_v118)) := by
  rw [Cert.ReferenceIdeal.Tab.fin_main_v118 (F := Ideal) (StableHlo.launchContents m' c), binary_result]
  try simp only [TRef.ofBuf, TRef.toBuf, cast_eq]
  exact Cert.Lib.allFin_maximumf (rf_main_v117 m ρ m' hpre hagree c) (rf_main_call5_v0 m ρ m' hpre hagree c)

theorem rf_main_v121 : Cert.Lib.AllFin (RV (Proc.devRef .tc Cert.ReferenceIdeal.main_v121)) := by
  rw [Cert.ReferenceIdeal.Tab.fin_main_v121 (F := Ideal) (StableHlo.launchContents m' c), ternary_result]
  try simp only [TRef.ofBuf, TRef.toBuf, cast_eq]
  exact Cert.Lib.allFin_scatterAdd _ _ _ _ (rf_main_v119 m ρ m' hpre hagree c) (rf_main_v118 m ρ m' hpre hagree c)

theorem rf_main_v127 : Cert.Lib.AllFin (RV (Proc.devRef .tc Cert.ReferenceIdeal.main_v127)) := by
  rw [Cert.ReferenceIdeal.Tab.fin_main_v127 (F := Ideal) (StableHlo.launchContents m' c), binary_result]
  try simp only [TRef.ofBuf, TRef.toBuf, cast_eq]
  exact Cert.Lib.allFin_addf (rf_main_v126 m ρ m' hpre hagree c) (rf_main_v121 m ρ m' hpre hagree c)

theorem rf_main_v128 : Cert.Lib.AllFin (RV (Proc.devRef .tc Cert.ReferenceIdeal.main_v128)) := by
  rw [Cert.ReferenceIdeal.Tab.fin_main_v128 (F := Ideal) (StableHlo.launchContents m' c), unary_result]
  try simp only [TRef.ofBuf, TRef.toBuf, cast_eq]
  exact Cert.Lib.allFin_extractStridedSlice _ _ (rf_main_arg7 m ρ m' hpre hagree c)

theorem rf_main_v129 : Cert.Lib.AllFin (RV (Proc.devRef .tc Cert.ReferenceIdeal.main_v129)) := by
  rw [Cert.ReferenceIdeal.Tab.fin_main_v129 (F := Ideal) (StableHlo.launchContents m' c), reshape_result]
  try simp only [TRef.ofBuf, TRef.toBuf, cast_eq]
  exact Cert.Lib.allFin_shapeCast _ (rf_main_v128 m ρ m' hpre hagree c)

theorem rf_main_v130 : Cert.Lib.AllFin (RV (Proc.devRef .tc Cert.ReferenceIdeal.main_v130)) := by
  rw [Cert.ReferenceIdeal.Tab.fin_main_v130 (F := Ideal) (StableHlo.launchContents m' c), binary_result]
  try simp only [TRef.ofBuf, TRef.toBuf, cast_eq]
  exact Cert.Lib.allFin_dotGeneral _ _ _ _ (rf_main_v127 m ρ m' hpre hagree c) (rf_main_v129 m ρ m' hpre hagree c)

theorem rf_main_v131 : Cert.Lib.AllFin (RV (Proc.devRef .tc Cert.ReferenceIdeal.main_v131)) := by
  rw [Cert.ReferenceIdeal.Tab.fin_main_v131 (F := Ideal) (StableHlo.launchContents m' c), unary_result]
  try simp only [TRef.ofBuf, TRef.toBuf, cast_eq]
  exact Cert.Lib.allFin_extractStridedSlice _ _ (rf_main_arg8 m ρ m' hpre hagree c)

theorem rf_main_v132 : Cert.Lib.AllFin (RV (Proc.devRef .tc Cert.ReferenceIdeal.main_v132)) := by
  rw [Cert.ReferenceIdeal.Tab.fin_main_v132 (F := Ideal) (StableHlo.launchContents m' c), reshape_result]
  try simp only [TRef.ofBuf, TRef.toBuf, cast_eq]
  exact Cert.Lib.allFin_shapeCast _ (rf_main_v131 m ρ m' hpre hagree c)

theorem rf_main_v133 : Cert.Lib.AllFin (RV (Proc.devRef .tc Cert.ReferenceIdeal.main_v133)) := by
  rw [Cert.ReferenceIdeal.Tab.fin_main_v133 (F := Ideal) (StableHlo.launchContents m' c), unary_result]
  try simp only [TRef.ofBuf, TRef.toBuf, cast_eq]
  exact Cert.Lib.allFin_broadcastInDim _ _ (rf_main_v132 m ρ m' hpre hagree c)

theorem rf_main_v134 : Cert.Lib.AllFin (RV (Proc.devRef .tc Cert.ReferenceIdeal.main_v134)) := by
  rw [Cert.ReferenceIdeal.Tab.fin_main_v134 (F := Ideal) (StableHlo.launchContents m' c), unary_result]
  try simp only [TRef.ofBuf, TRef.toBuf, cast_eq]
  exact Cert.Lib.allFin_broadcastInDim _ _ (rf_main_v133 m ρ m' hpre hagree c)

theorem rf_main_v135 : Cert.Lib.AllFin (RV (Proc.devRef .tc Cert.ReferenceIdeal.main_v135)) := by
  rw [Cert.ReferenceIdeal.Tab.fin_main_v135 (F := Ideal) (StableHlo.launchContents m' c), binary_result]
  try simp only [TRef.ofBuf, TRef.toBuf, cast_eq]
  exact Cert.Lib.allFin_addf (rf_main_v130 m ρ m' hpre hagree c) (rf_main_v134 m ρ m' hpre hagree c)

theorem rf_main_v136 : Cert.Lib.AllFin (RV (Proc.devRef .tc Cert.ReferenceIdeal.main_v136)) := by
  rw [Cert.ReferenceIdeal.Tab.fin_main_v136 (F := Ideal) (StableHlo.launchContents m' c), unary_result]
  try simp only [TRef.ofBuf, TRef.toBuf, cast_eq]
  exact Cert.Lib.allFin_extractStridedSlice _ _ (rf_main_arg9 m ρ m' hpre hagree c)

theorem rf_main_v137 : Cert.Lib.AllFin (RV (Proc.devRef .tc Cert.ReferenceIdeal.main_v137)) := by
  rw [Cert.ReferenceIdeal.Tab.fin_main_v137 (F := Ideal) (StableHlo.launchContents m' c), reshape_result]
  try simp only [TRef.ofBuf, TRef.toBuf, cast_eq]
  exact Cert.Lib.allFin_shapeCast _ (rf_main_v136 m ρ m' hpre hagree c)

theorem rf_main_v138 : Cert.Lib.AllFin (RV (Proc.devRef .tc Cert.ReferenceIdeal.main_v138)) := by
  rw [Cert.ReferenceIdeal.Tab.fin_main_v138 (F := Ideal) (StableHlo.launchContents m' c), unary_result]
  try simp only [TRef.ofBuf, TRef.toBuf, cast_eq]
  exact Cert.Lib.allFin_extractStridedSlice _ _ (rf_main_arg10 m ρ m' hpre hagree c)

theorem rf_main_v139 : Cert.Lib.AllFin (RV (Proc.devRef .tc Cert.ReferenceIdeal.main_v139)) := by
  rw [Cert.ReferenceIdeal.Tab.fin_main_v139 (F := Ideal) (StableHlo.launchContents m' c), reshape_result]
  try simp only [TRef.ofBuf, TRef.toBuf, cast_eq]
  exact Cert.Lib.allFin_shapeCast _ (rf_main_v138 m ρ m' hpre hagree c)

theorem rf_main_cst_18 : Cert.Lib.AllFin (RV (Proc.devRef .tc Cert.ReferenceIdeal.main_cst_18)) := by
  rw [Cert.ReferenceIdeal.Tab.fin_main_cst_18 (F := Ideal) (StableHlo.launchContents m' c), nullary_result]
  try simp only [TRef.ofBuf, TRef.toBuf, cast_eq]
  exact Cert.Lib.allFin_constant_zero _

theorem rf_main_v140 : Cert.Lib.AllFin (RV (Proc.devRef .tc Cert.ReferenceIdeal.main_v140)) := by
  rw [Cert.ReferenceIdeal.Tab.fin_main_v140 (F := Ideal) (StableHlo.launchContents m' c), binary_result]
  try simp only [TRef.ofBuf, TRef.toBuf, cast_eq]
  exact Cert.Lib.allFin_reduceAdd _ _ _ _ (rf_main_v135 m ρ m' hpre hagree c) (rf_main_cst_18 m ρ m' hpre hagree c)

theorem rf_main_v142 : Cert.Lib.AllFin (RV (Proc.devRef .tc Cert.ReferenceIdeal.main_v142)) := by
  rw [Cert.ReferenceIdeal.Tab.fin_main_v142 (F := Ideal) (StableHlo.launchContents m' c), binary_result]
  rw [Cert.ReferenceIdeal.Tab.fin_main_v141 (F := Ideal) (StableHlo.launchContents m' c), unary_result]
  rw [Cert.ReferenceIdeal.Tab.fin_main_cst_19 (F := Ideal) (StableHlo.launchContents m' c), nullary_result]
  try simp only [TRef.ofBuf, TRef.toBuf, cast_eq]
  exact Cert.Lib.allFin_divf_hundredThousand _ _ (rf_main_v140 m ρ m' hpre hagree c)

theorem rf_main_v152 : Cert.Lib.AllFin (RV (Proc.devRef .tc Cert.ReferenceIdeal.main_v152)) := by
  rw [Cert.ReferenceIdeal.Tab.fin_main_v152 (F := Ideal) (StableHlo.launchContents m' c), unary_result]
  rw [Cert.ReferenceIdeal.Tab.fin_main_v151 (F := Ideal) (StableHlo.launchContents m' c), binary_result]
  rw [Cert.ReferenceIdeal.Tab.fin_main_v150 (F := Ideal) (StableHlo.launchContents m' c), unary_result]
  rw [Cert.ReferenceIdeal.Tab.fin_main_cst_21 (F := Ideal) (StableHlo.launchContents m' c), nullary_result]
  rw [Cert.ReferenceIdeal.Tab.fin_main_v143 (F := Ideal) (StableHlo.launchContents m' c), ternary_result]
  rw [Cert.ReferenceIdeal.Tab.fin_main_call6_call0_v1 (F := Ideal) (StableHlo.launchContents m' c), unary_result]
  rw [Cert.ReferenceIdeal.Tab.fin_main_call6_call0_v0 (F := Ideal) (StableHlo.launchContents m' c), unary_result]
  rw [Cert.ReferenceIdeal.Tab.fin_main_call6_cst_4 (F := Ideal) (StableHlo.launchContents m' c), nullary_result]
  rw [Cert.ReferenceIdeal.Tab.fin_main_call6_v12 (F := Ideal) (StableHlo.launchContents m' c), binary_result]
  rw [Cert.ReferenceIdeal.Tab.fin_main_call6_cst_3 (F := Ideal) (StableHlo.launchContents m' c), nullary_result]
  rw [Cert.ReferenceIdeal.Tab.fin_main_call6_v11 (F := Ideal) (StableHlo.launchContents m' c), binary_result]
  rw [Cert.ReferenceIdeal.Tab.fin_main_call6_v10 (F := Ideal) (StableHlo.launchContents m' c), unary_result]
  rw [Cert.ReferenceIdeal.Tab.fin_main_call6_v9 (F := Ideal) (StableHlo.launchContents m' c), binary_result]
  rw [Cert.ReferenceIdeal.Tab.fin_main_call6_cst_2 (F := Ideal) (StableHlo.launchContents m' c), nullary_result]
  rw [Cert.ReferenceIdeal.Tab.fin_main_call6_v8 (F := Ideal) (StableHlo.launchContents m' c), binary_result]
  rw [Cert.ReferenceIdeal.Tab.fin_main_call6_cst_1 (F := Ideal) (StableHlo.launchContents m' c), nullary_result]
  rw [Cert.ReferenceIdeal.Tab.fin_main_call6_v7 (F := Ideal) (StableHlo.launchContents m' c), unary_result]
  rw [Cert.ReferenceIdeal.Tab.fin_main_call6_v6 (F := Ideal) (StableHlo.launchContents m' c), binary_result]
  rw [Cert.ReferenceIdeal.Tab.fin_main_call6_v5 (F := Ideal) (StableHlo.launchContents m' c), binary_result]
  rw [Cert.ReferenceIdeal.Tab.fin_main_call6_v4 (F := Ideal) (StableHlo.launchContents m' c), unary_result]
  rw [Cert.ReferenceIdeal.Tab.fin_main_call6_v3 (F := Ideal) (StableHlo.launchContents m' c), binary_result]
  rw [Cert.ReferenceIdeal.Tab.fin_main_call6_v2 (F := Ideal) (StableHlo.launchContents m' c), unary_result]
  rw [Cert.ReferenceIdeal.Tab.fin_main_call6_cst_0 (F := Ideal) (StableHlo.launchContents m' c), nullary_result]
  rw [Cert.ReferenceIdeal.Tab.fin_main_call6_v1 (F := Ideal) (StableHlo.launchContents m' c), unary_result]
  rw [Cert.ReferenceIdeal.Tab.fin_main_call6_v0 (F := Ideal) (StableHlo.launchContents m' c), binary_result]
  rw [Cert.ReferenceIdeal.Tab.fin_main_call6_cst (F := Ideal) (StableHlo.launchContents m' c), nullary_result]
  rw [Cert.ReferenceIdeal.Tab.fin_main_c_20 (F := Ideal) (StableHlo.launchContents m' c), nullary_result]
  try simp only [TRef.ofBuf, TRef.toBuf, cast_eq]
  exact Cert.Seam.rsqrt_var_fin64 _ _ _ _ _ _ _ _ _ (rf_main_v135 m ρ m' hpre hagree c)

theorem p_main_v135_main_v158 : KV (Proc.devRef .tc Cert.KernelIdeal.main_v135) = RV (Proc.devRef .tc Cert.ReferenceIdeal.main_v158) := by
  rw [Cert.KernelIdeal.Tab.fin_main_v135 (F := Ideal) m ρ c, binary_result]
  rw [Cert.KernelIdeal.Tab.fin_main_v134 (F := Ideal) m ρ c, unary_result]
  rw [Cert.KernelIdeal.Tab.fin_main_v133 (F := Ideal) m ρ c, unary_result]
  rw [Cert.KernelIdeal.Tab.fin_main_v132 (F := Ideal) m ρ c, binary_result]
  rw [Cert.KernelIdeal.Tab.fin_main_v131 (F := Ideal) m ρ c, unary_result]
  rw [Cert.KernelIdeal.Tab.fin_main_v130 (F := Ideal) m ρ c, unary_result]
  rw [Cert.KernelIdeal.Tab.fin_main_v129 (F := Ideal) m ρ c, binary_result]
  rw [Cert.KernelIdeal.Tab.fin_main_v128 (F := Ideal) m ρ c, binary_result]
  rw [Cert.KernelIdeal.Tab.fin_main_v127 (F := Ideal) m ρ c, binary_result]
  rw [Cert.ReferenceIdeal.Tab.fin_main_v158 (F := Ideal) (StableHlo.launchContents m' c), binary_result]
  rw [Cert.ReferenceIdeal.Tab.fin_main_v157 (F := Ideal) (StableHlo.launchContents m' c), unary_result]
  rw [Cert.ReferenceIdeal.Tab.fin_main_v156 (F := Ideal) (StableHlo.launchContents m' c), unary_result]
  rw [Cert.ReferenceIdeal.Tab.fin_main_v155 (F := Ideal) (StableHlo.launchContents m' c), binary_result]
  rw [Cert.ReferenceIdeal.Tab.fin_main_v154 (F := Ideal) (StableHlo.launchContents m' c), unary_result]
  rw [Cert.ReferenceIdeal.Tab.fin_main_v153 (F := Ideal) (StableHlo.launchContents m' c), unary_result]
  rw [Cert.ReferenceIdeal.Tab.fin_main_v149 (F := Ideal) (StableHlo.launchContents m' c), binary_result]
  rw [Cert.ReferenceIdeal.Tab.fin_main_v148 (F := Ideal) (StableHlo.launchContents m' c), unary_result]
  rw [Cert.ReferenceIdeal.Tab.fin_main_v147 (F := Ideal) (StableHlo.launchContents m' c), unary_result]
  rw [Cert.ReferenceIdeal.Tab.fin_main_v146 (F := Ideal) (StableHlo.launchContents m' c), binary_result]
  rw [Cert.ReferenceIdeal.Tab.fin_main_v145 (F := Ideal) (StableHlo.launchContents m' c), unary_result]
  rw [Cert.ReferenceIdeal.Tab.fin_main_v144 (F := Ideal) (StableHlo.launchContents m' c), unary_result]
  rw [p_main_v115_main_v135 m ρ m' hpre hagree c, p_main_v117_main_v137 m ρ m' hpre hagree c, p_main_v119_main_v139 m ρ m' hpre hagree c, p_main_v122_main_v142 m ρ m' hpre hagree c, p_main_v126_main_v152 m ρ m' hpre hagree c]
  try simp only [TRef.ofBuf, TRef.toBuf, cast_eq]
  exact Cert.Seam.bn_affine_64 _ _ _ _ _ _ _ (rf_main_v135 m ρ m' hpre hagree c) (rf_main_v137 m ρ m' hpre hagree c) (rf_main_v139 m ρ m' hpre hagree c) (rf_main_v142 m ρ m' hpre hagree c) (rf_main_v152 m ρ m' hpre hagree c)

theorem p_main_cst_22_main_cst_22 : KV (Proc.devRef .tc Cert.KernelIdeal.main_cst_22) = RV (Proc.devRef .tc Cert.ReferenceIdeal.main_cst_22) := by
  rw [Cert.KernelIdeal.Tab.fin_main_cst_22 (F := Ideal) m ρ c, Cert.ReferenceIdeal.Tab.fin_main_cst_22 (F := Ideal) (StableHlo.launchContents m' c)]
  rw [nullary_result, nullary_result]
  try simp only [TRef.ofBuf, TRef.toBuf, cast_eq]
  all_goals rfl

theorem p_main_v136_main_v159 : KV (Proc.devRef .tc Cert.KernelIdeal.main_v136) = RV (Proc.devRef .tc Cert.ReferenceIdeal.main_v159) := by
  rw [Cert.KernelIdeal.Tab.fin_main_v136 (F := Ideal) m ρ c, Cert.ReferenceIdeal.Tab.fin_main_v159 (F := Ideal) (StableHlo.launchContents m' c)]
  rw [unary_result, unary_result]
  rw [p_main_cst_22_main_cst_22 m ρ m' hpre hagree c]
  try simp only [TRef.ofBuf, TRef.toBuf, cast_eq]
  all_goals rfl

theorem p_main_v137_main_v160 : KV (Proc.devRef .tc Cert.KernelIdeal.main_v137) = RV (Proc.devRef .tc Cert.ReferenceIdeal.main_v160) := by
  rw [Cert.KernelIdeal.Tab.fin_main_v137 (F := Ideal) m ρ c, Cert.ReferenceIdeal.Tab.fin_main_v160 (F := Ideal) (StableHlo.launchContents m' c)]
  rw [binary_result, binary_result]
  rw [p_main_v135_main_v158 m ρ m' hpre hagree c, p_main_v136_main_v159 m ρ m' hpre hagree c]
  try simp only [TRef.ofBuf, TRef.toBuf, cast_eq]
  all_goals rfl

theorem p_main_cst_23_main_cst_23 : KV (Proc.devRef .tc Cert.KernelIdeal.main_cst_23) = RV (Proc.devRef .tc Cert.ReferenceIdeal.main_cst_23) := by
  rw [Cert.KernelIdeal.Tab.fin_main_cst_23 (F := Ideal) m ρ c, Cert.ReferenceIdeal.Tab.fin_main_cst_23 (F := Ideal) (StableHlo.launchContents m' c)]
  rw [nullary_result, nullary_result]
  try simp only [TRef.ofBuf, TRef.toBuf, cast_eq]
  all_goals rfl

theorem p_main_v138_main_v161 : KV (Proc.devRef .tc Cert.KernelIdeal.main_v138) = RV (Proc.devRef .tc Cert.ReferenceIdeal.main_v161) := by
  rw [Cert.KernelIdeal.Tab.fin_main_v138 (F := Ideal) m ρ c, Cert.ReferenceIdeal.Tab.fin_main_v161 (F := Ideal) (StableHlo.launchContents m' c)]
  rw [unary_result, unary_result]
  rw [p_main_cst_23_main_cst_23 m ρ m' hpre hagree c]
  try simp only [TRef.ofBuf, TRef.toBuf, cast_eq]
  all_goals rfl

theorem p_main_v139_main_v162 : KV (Proc.devRef .tc Cert.KernelIdeal.main_v139) = RV (Proc.devRef .tc Cert.ReferenceIdeal.main_v162) := by
  rw [Cert.KernelIdeal.Tab.fin_main_v139 (F := Ideal) m ρ c, Cert.ReferenceIdeal.Tab.fin_main_v162 (F := Ideal) (StableHlo.launchContents m' c)]
  rw [binary_result, binary_result]
  rw [p_main_v138_main_v161 m ρ m' hpre hagree c, p_main_v135_main_v158 m ρ m' hpre hagree c]
  try simp only [TRef.ofBuf, TRef.toBuf, cast_eq]
  all_goals rfl

theorem p_main_v140_main_v163 : KV (Proc.devRef .tc Cert.KernelIdeal.main_v140) = RV (Proc.devRef .tc Cert.ReferenceIdeal.main_v163) := by
  rw [Cert.KernelIdeal.Tab.fin_main_v140 (F := Ideal) m ρ c, Cert.ReferenceIdeal.Tab.fin_main_v163 (F := Ideal) (StableHlo.launchContents m' c)]
  rw [ternary_result, ternary_result]
  rw [p_main_v137_main_v160 m ρ m' hpre hagree c, p_main_v135_main_v158 m ρ m' hpre hagree c, p_main_v139_main_v162 m ρ m' hpre hagree c]
  try simp only [TRef.ofBuf, TRef.toBuf, cast_eq]
  all_goals rfl

theorem p_main_v141_main_v164 : KV (Proc.devRef .tc Cert.KernelIdeal.main_v141) = RV (Proc.devRef .tc Cert.ReferenceIdeal.main_v164) := by
  rw [Cert.KernelIdeal.Tab.fin_main_v141 (F := Ideal) m ρ c, Cert.ReferenceIdeal.Tab.fin_main_v164 (F := Ideal) (StableHlo.launchContents m' c)]
  rw [unary_result, unary_result]
  rw [p_main_arg11_main_arg11 m ρ m' hpre hagree c]
  try simp only [TRef.ofBuf, TRef.toBuf, cast_eq]
  all_goals rfl

theorem p_main_v142_main_v165 : KV (Proc.devRef .tc Cert.KernelIdeal.main_v142) = RV (Proc.devRef .tc Cert.ReferenceIdeal.main_v165) := by
  rw [Cert.KernelIdeal.Tab.fin_main_v142 (F := Ideal) m ρ c, Cert.ReferenceIdeal.Tab.fin_main_v165 (F := Ideal) (StableHlo.launchContents m' c)]
  rw [reshape_result, reshape_result]
  rw [p_main_v141_main_v164 m ρ m' hpre hagree c]
  try simp only [TRef.ofBuf, TRef.toBuf, cast_eq]
  all_goals rfl

theorem p_main_v143_main_v167 : KV (Proc.devRef .tc Cert.KernelIdeal.main_v143) = RV (Proc.devRef .tc Cert.ReferenceIdeal.main_v167) := by
  rw [Cert.KernelIdeal.Tab.fin_main_v143 (F := Ideal) m ρ c, Cert.ReferenceIdeal.Tab.fin_main_v167 (F := Ideal) (StableHlo.launchContents m' c)]
  rw [unary_result, unary_result]
  rw [p_main_arg12_main_arg12 m ρ m' hpre hagree c]
  try simp only [TRef.ofBuf, TRef.toBuf, cast_eq]
  all_goals rfl

theorem p_main_v144_main_v168 : KV (Proc.devRef .tc Cert.KernelIdeal.main_v144) = RV (Proc.devRef .tc Cert.ReferenceIdeal.main_v168) := by
  rw [Cert.KernelIdeal.Tab.fin_main_v144 (F := Ideal) m ρ c, Cert.ReferenceIdeal.Tab.fin_main_v168 (F := Ideal) (StableHlo.launchContents m' c)]
  rw [reshape_result, reshape_result]
  rw [p_main_v143_main_v167 m ρ m' hpre hagree c]
  try simp only [TRef.ofBuf, TRef.toBuf, cast_eq]
  all_goals rfl

theorem p_main_v145_main_v169 : KV (Proc.devRef .tc Cert.KernelIdeal.main_v145) = RV (Proc.devRef .tc Cert.ReferenceIdeal.main_v169) := by
  rw [Cert.KernelIdeal.Tab.fin_main_v145 (F := Ideal) m ρ c, Cert.ReferenceIdeal.Tab.fin_main_v169 (F := Ideal) (StableHlo.launchContents m' c)]
  rw [reshape_result, unary_result]
  rw [p_main_v144_main_v168 m ρ m' hpre hagree c]
  exact Cert.SeamRow.row64 _ _ _

theorem p_main_v146_main_v171 : KV (Proc.devRef .tc Cert.KernelIdeal.main_v146) = RV (Proc.devRef .tc Cert.ReferenceIdeal.main_v171) := by
  have e0 : Cert.KernelIdeal.GenP.V23 (F := Ideal) m ρ c Cert.KernelIdeal.main_v140 = RV (Proc.devRef .tc Cert.ReferenceIdeal.main_v163) :=
    (Cert.KernelIdeal.Tab.lift23 (F := Ideal) m ρ c Cert.KernelIdeal.main_v140 (by decide)).symm.trans (p_main_v140_main_v163 m ρ m' hpre hagree c)
  have e1 : Cert.KernelIdeal.GenP.V23 (F := Ideal) m ρ c Cert.KernelIdeal.main_v142 = RV (Proc.devRef .tc Cert.ReferenceIdeal.main_v165) :=
    (Cert.KernelIdeal.Tab.lift23 (F := Ideal) m ρ c Cert.KernelIdeal.main_v142 (by decide)).symm.trans (p_main_v142_main_v165 m ρ m' hpre hagree c)
  have e2 : Cert.KernelIdeal.GenP.V23 (F := Ideal) m ρ c Cert.KernelIdeal.main_v145 = RV (Proc.devRef .tc Cert.ReferenceIdeal.main_v169) :=
    (Cert.KernelIdeal.Tab.lift23 (F := Ideal) m ρ c Cert.KernelIdeal.main_v145 (by decide)).symm.trans (p_main_v145_main_v169 m ρ m' hpre hagree c)
  rw [Cert.KernelIdeal.Tab.lift24 (F := Ideal) m ρ c Cert.KernelIdeal.main_v146 (by decide)]
  refine ((Cert.KernelIdeal.GenP.W24_arr (F := Ideal) m ρ c 3).trans (Cert.KernelIdeal.RegionVal.region5_value (Cert.KernelIdeal.GenP.V23 (F := Ideal) m ρ) c Cert.ReferenceIdeal.Facts₀.bcast_S1x64_S100000x64_0_1)).trans ?_
  rw [Cert.ReferenceIdeal.Tab.fin_main_v171 (F := Ideal) (StableHlo.launchContents m' c), binary_result]
  rw [Cert.ReferenceIdeal.Tab.fin_main_v170 (F := Ideal) (StableHlo.launchContents m' c), unary_result]
  rw [Cert.ReferenceIdeal.Tab.fin_main_v166 (F := Ideal) (StableHlo.launchContents m' c), binary_result]
  rw [e0, e1, e2]
  try simp only [TRef.ofBuf, TRef.toBuf, cast_eq]
  all_goals rfl

theorem p_main_v147_main_v172 : KV (Proc.devRef .tc Cert.KernelIdeal.main_v147) = RV (Proc.devRef .tc Cert.ReferenceIdeal.main_v172) := by
  rw [Cert.KernelIdeal.Tab.fin_main_v147 (F := Ideal) m ρ c, Cert.ReferenceIdeal.Tab.fin_main_v172 (F := Ideal) (StableHlo.launchContents m' c)]
  rw [unary_result, unary_result]
  rw [p_main_arg13_main_arg13 m ρ m' hpre hagree c]
  try simp only [TRef.ofBuf, TRef.toBuf, cast_eq]
  all_goals rfl

theorem p_main_v148_main_v173 : KV (Proc.devRef .tc Cert.KernelIdeal.main_v148) = RV (Proc.devRef .tc Cert.ReferenceIdeal.main_v173) := by
  rw [Cert.KernelIdeal.Tab.fin_main_v148 (F := Ideal) m ρ c, Cert.ReferenceIdeal.Tab.fin_main_v173 (F := Ideal) (StableHlo.launchContents m' c)]
  rw [reshape_result, reshape_result]
  rw [p_main_v147_main_v172 m ρ m' hpre hagree c]
  try simp only [TRef.ofBuf, TRef.toBuf, cast_eq]
  all_goals rfl

theorem p_main_v149_main_v174 : KV (Proc.devRef .tc Cert.KernelIdeal.main_v149) = RV (Proc.devRef .tc Cert.ReferenceIdeal.main_v174) := by
  rw [Cert.KernelIdeal.Tab.fin_main_v149 (F := Ideal) m ρ c, Cert.ReferenceIdeal.Tab.fin_main_v174 (F := Ideal) (StableHlo.launchContents m' c)]
  rw [unary_result, unary_result]
  rw [p_main_arg14_main_arg14 m ρ m' hpre hagree c]
  try simp only [TRef.ofBuf, TRef.toBuf, cast_eq]
  all_goals rfl

theorem p_main_v150_main_v175 : KV (Proc.devRef .tc Cert.KernelIdeal.main_v150) = RV (Proc.devRef .tc Cert.ReferenceIdeal.main_v175) := by
  rw [Cert.KernelIdeal.Tab.fin_main_v150 (F := Ideal) m ρ c, Cert.ReferenceIdeal.Tab.fin_main_v175 (F := Ideal) (StableHlo.launchContents m' c)]
  rw [reshape_result, reshape_result]
  rw [p_main_v149_main_v174 m ρ m' hpre hagree c]
  try simp only [TRef.ofBuf, TRef.toBuf, cast_eq]
  all_goals rfl

theorem p_main_cst_24_main_cst_24 : KV (Proc.devRef .tc Cert.KernelIdeal.main_cst_24) = RV (Proc.devRef .tc Cert.ReferenceIdeal.main_cst_24) := by
  rw [Cert.KernelIdeal.Tab.fin_main_cst_24 (F := Ideal) m ρ c, Cert.ReferenceIdeal.Tab.fin_main_cst_24 (F := Ideal) (StableHlo.launchContents m' c)]
  rw [nullary_result, nullary_result]
  try simp only [TRef.ofBuf, TRef.toBuf, cast_eq]
  all_goals rfl

theorem p_main_v151_main_v176 : KV (Proc.devRef .tc Cert.KernelIdeal.main_v151) = RV (Proc.devRef .tc Cert.ReferenceIdeal.main_v176) := by
  rw [Cert.KernelIdeal.Tab.fin_main_v151 (F := Ideal) m ρ c, Cert.ReferenceIdeal.Tab.fin_main_v176 (F := Ideal) (StableHlo.launchContents m' c)]
  rw [binary_result, binary_result]
  rw [p_main_v146_main_v171 m ρ m' hpre hagree c, p_main_cst_24_main_cst_24 m ρ m' hpre hagree c]
  try simp only [TRef.ofBuf, TRef.toBuf, cast_eq]
  all_goals rfl

theorem p_main_cst_25_main_cst_25 : KV (Proc.devRef .tc Cert.KernelIdeal.main_cst_25) = RV (Proc.devRef .tc Cert.ReferenceIdeal.main_cst_25) := by
  rw [Cert.KernelIdeal.Tab.fin_main_cst_25 (F := Ideal) m ρ c, Cert.ReferenceIdeal.Tab.fin_main_cst_25 (F := Ideal) (StableHlo.launchContents m' c)]
  rw [nullary_result, nullary_result]
  try simp only [TRef.ofBuf, TRef.toBuf, cast_eq]
  all_goals rfl

theorem p_main_v152_main_v177 : KV (Proc.devRef .tc Cert.KernelIdeal.main_v152) = RV (Proc.devRef .tc Cert.ReferenceIdeal.main_v177) := by
  rw [Cert.KernelIdeal.Tab.fin_main_v152 (F := Ideal) m ρ c, Cert.ReferenceIdeal.Tab.fin_main_v177 (F := Ideal) (StableHlo.launchContents m' c)]
  rw [unary_result, unary_result]
  rw [p_main_cst_25_main_cst_25 m ρ m' hpre hagree c]
  try simp only [TRef.ofBuf, TRef.toBuf, cast_eq]
  all_goals rfl

theorem p_main_v153_main_v178 : KV (Proc.devRef .tc Cert.KernelIdeal.main_v153) = RV (Proc.devRef .tc Cert.ReferenceIdeal.main_v178) := by
  rw [Cert.KernelIdeal.Tab.fin_main_v153 (F := Ideal) m ρ c, Cert.ReferenceIdeal.Tab.fin_main_v178 (F := Ideal) (StableHlo.launchContents m' c)]
  rw [binary_result, binary_result]
  rw [p_main_v151_main_v176 m ρ m' hpre hagree c, p_main_v152_main_v177 m ρ m' hpre hagree c]
  try simp only [TRef.ofBuf, TRef.toBuf, cast_eq]
  all_goals rfl

theorem p_main_call6_cst_1_main_call8_cst_1 : KV (Proc.devRef .tc Cert.KernelIdeal.main_call6_cst_1) = RV (Proc.devRef .tc Cert.ReferenceIdeal.main_call8_cst_1) := by
  rw [Cert.KernelIdeal.Tab.fin_main_call6_cst_1 (F := Ideal) m ρ c, Cert.ReferenceIdeal.Tab.fin_main_call8_cst_1 (F := Ideal) (StableHlo.launchContents m' c)]
  rw [nullary_result, nullary_result]
  try simp only [TRef.ofBuf, TRef.toBuf, cast_eq]
  all_goals rfl

end Cert.Pair

end
-- ==== Proof.Pair2.lean ====
/- The table, continued: buffer by buffer, the kernel program's contents at its last boundary and
   the reference's final contents are equal (each pair from its two operations' reading lemmas and the operands' pairs; a pallas_call's output by its region's value lemma;
   the folded batch-norm affine against the direct form by distributivity over reals), and each float buffer of the reference on the way holds reals only. -/
import proofs.«409037_j72164040508123_1_alg».proof.Proof.Pair1

set_option maxRecDepth 16384

noncomputable section

namespace Cert.Pair

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (hpre : Cert.Pre_KernelIdeal m) (hagree : Agree m m') (c : Dev Cert.KernelIdeal.nD)

local notation "KV" => Cert.KernelIdeal.GenP.W55 (F := Ideal) m ρ c
local notation "RV" => Cert.ReferenceIdeal.RefRun.RV33 (F := Ideal) (StableHlo.launchContents m' c)

include m ρ m' hpre hagree c

theorem p_main_c_26_main_c_26 : KV (Proc.devRef .tc Cert.KernelIdeal.main_c_26) = RV (Proc.devRef .tc Cert.ReferenceIdeal.main_c_26) := by
  rw [Cert.KernelIdeal.Tab.fin_main_c_26 (F := Ideal) m ρ c, Cert.ReferenceIdeal.Tab.fin_main_c_26 (F := Ideal) (StableHlo.launchContents m' c)]
  rw [nullary_result, nullary_result]
  try simp only [TRef.ofBuf, TRef.toBuf, cast_eq]
  all_goals rfl

theorem p_main_call6_v7_main_call8_v7 : KV (Proc.devRef .tc Cert.KernelIdeal.main_call6_v7) = RV (Proc.devRef .tc Cert.ReferenceIdeal.main_call8_v7) := by
  rw [Cert.KernelIdeal.Tab.fin_main_call6_v7 (F := Ideal) m ρ c, Cert.ReferenceIdeal.Tab.fin_main_call8_v7 (F := Ideal) (StableHlo.launchContents m' c)]
  rw [unary_result, unary_result]
  rw [p_main_c_26_main_c_26 m ρ m' hpre hagree c]
  try simp only [TRef.ofBuf, TRef.toBuf, cast_eq]
  all_goals rfl

theorem p_main_call6_v8_main_call8_v8 : KV (Proc.devRef .tc Cert.KernelIdeal.main_call6_v8) = RV (Proc.devRef .tc Cert.ReferenceIdeal.main_call8_v8) := by
  rw [Cert.KernelIdeal.Tab.fin_main_call6_v8 (F := Ideal) m ρ c, Cert.ReferenceIdeal.Tab.fin_main_call8_v8 (F := Ideal) (StableHlo.launchContents m' c)]
  rw [binary_result, binary_result]
  rw [p_main_call6_cst_1_main_call8_cst_1 m ρ m' hpre hagree c, p_main_call6_v7_main_call8_v7 m ρ m' hpre hagree c]
  try simp only [TRef.ofBuf, TRef.toBuf, cast_eq]
  all_goals rfl

theorem p_main_call6_cst_3_main_call8_cst_3 : KV (Proc.devRef .tc Cert.KernelIdeal.main_call6_cst_3) = RV (Proc.devRef .tc Cert.ReferenceIdeal.main_call8_cst_3) := by
  rw [Cert.KernelIdeal.Tab.fin_main_call6_cst_3 (F := Ideal) m ρ c, Cert.ReferenceIdeal.Tab.fin_main_call8_cst_3 (F := Ideal) (StableHlo.launchContents m' c)]
  rw [nullary_result, nullary_result]
  try simp only [TRef.ofBuf, TRef.toBuf, cast_eq]
  all_goals rfl

theorem p_main_call6_v12_main_call8_v12 : KV (Proc.devRef .tc Cert.KernelIdeal.main_call6_v12) = RV (Proc.devRef .tc Cert.ReferenceIdeal.main_call8_v12) := by
  rw [Cert.KernelIdeal.Tab.fin_main_call6_v12 (F := Ideal) m ρ c, Cert.ReferenceIdeal.Tab.fin_main_call8_v12 (F := Ideal) (StableHlo.launchContents m' c)]
  rw [binary_result, binary_result]
  rw [p_main_call6_v8_main_call8_v8 m ρ m' hpre hagree c, p_main_call6_cst_3_main_call8_cst_3 m ρ m' hpre hagree c]
  try simp only [TRef.ofBuf, TRef.toBuf, cast_eq]
  all_goals rfl

theorem p_main_call6_cst_main_call8_cst : KV (Proc.devRef .tc Cert.KernelIdeal.main_call6_cst) = RV (Proc.devRef .tc Cert.ReferenceIdeal.main_call8_cst) := by
  rw [Cert.KernelIdeal.Tab.fin_main_call6_cst (F := Ideal) m ρ c, Cert.ReferenceIdeal.Tab.fin_main_call8_cst (F := Ideal) (StableHlo.launchContents m' c)]
  rw [nullary_result, nullary_result]
  try simp only [TRef.ofBuf, TRef.toBuf, cast_eq]
  all_goals rfl

theorem p_main_call6_v0_main_call8_v0 : KV (Proc.devRef .tc Cert.KernelIdeal.main_call6_v0) = RV (Proc.devRef .tc Cert.ReferenceIdeal.main_call8_v0) := by
  rw [Cert.KernelIdeal.Tab.fin_main_call6_v0 (F := Ideal) m ρ c, Cert.ReferenceIdeal.Tab.fin_main_call8_v0 (F := Ideal) (StableHlo.launchContents m' c)]
  rw [binary_result, binary_result]
  rw [p_main_v146_main_v171 m ρ m' hpre hagree c, p_main_call6_cst_main_call8_cst m ρ m' hpre hagree c]
  try simp only [TRef.ofBuf, TRef.toBuf, cast_eq]
  all_goals rfl

theorem p_main_call6_v1_main_call8_v1 : KV (Proc.devRef .tc Cert.KernelIdeal.main_call6_v1) = RV (Proc.devRef .tc Cert.ReferenceIdeal.main_call8_v1) := by
  rw [Cert.KernelIdeal.Tab.fin_main_call6_v1 (F := Ideal) m ρ c, Cert.ReferenceIdeal.Tab.fin_main_call8_v1 (F := Ideal) (StableHlo.launchContents m' c)]
  rw [unary_result, unary_result]
  rw [p_main_call6_v0_main_call8_v0 m ρ m' hpre hagree c]
  try simp only [TRef.ofBuf, TRef.toBuf, cast_eq]
  all_goals rfl

theorem p_main_call6_cst_0_main_call8_cst_0 : KV (Proc.devRef .tc Cert.KernelIdeal.main_call6_cst_0) = RV (Proc.devRef .tc Cert.ReferenceIdeal.main_call8_cst_0) := by
  rw [Cert.KernelIdeal.Tab.fin_main_call6_cst_0 (F := Ideal) m ρ c, Cert.ReferenceIdeal.Tab.fin_main_call8_cst_0 (F := Ideal) (StableHlo.launchContents m' c)]
  rw [nullary_result, nullary_result]
  try simp only [TRef.ofBuf, TRef.toBuf, cast_eq]
  all_goals rfl

theorem p_main_call6_v2_main_call8_v2 : KV (Proc.devRef .tc Cert.KernelIdeal.main_call6_v2) = RV (Proc.devRef .tc Cert.ReferenceIdeal.main_call8_v2) := by
  rw [Cert.KernelIdeal.Tab.fin_main_call6_v2 (F := Ideal) m ρ c, Cert.ReferenceIdeal.Tab.fin_main_call8_v2 (F := Ideal) (StableHlo.launchContents m' c)]
  rw [unary_result, unary_result]
  rw [p_main_call6_cst_0_main_call8_cst_0 m ρ m' hpre hagree c]
  try simp only [TRef.ofBuf, TRef.toBuf, cast_eq]
  all_goals rfl

theorem p_main_call6_v3_main_call8_v3 : KV (Proc.devRef .tc Cert.KernelIdeal.main_call6_v3) = RV (Proc.devRef .tc Cert.ReferenceIdeal.main_call8_v3) := by
  rw [Cert.KernelIdeal.Tab.fin_main_call6_v3 (F := Ideal) m ρ c, Cert.ReferenceIdeal.Tab.fin_main_call8_v3 (F := Ideal) (StableHlo.launchContents m' c)]
  rw [binary_result, binary_result]
  rw [p_main_call6_v1_main_call8_v1 m ρ m' hpre hagree c, p_main_call6_v2_main_call8_v2 m ρ m' hpre hagree c]
  try simp only [TRef.ofBuf, TRef.toBuf, cast_eq]
  all_goals rfl

theorem p_main_call6_v4_main_call8_v4 : KV (Proc.devRef .tc Cert.KernelIdeal.main_call6_v4) = RV (Proc.devRef .tc Cert.ReferenceIdeal.main_call8_v4) := by
  rw [Cert.KernelIdeal.Tab.fin_main_call6_v4 (F := Ideal) m ρ c, Cert.ReferenceIdeal.Tab.fin_main_call8_v4 (F := Ideal) (StableHlo.launchContents m' c)]
  rw [unary_result, unary_result]
  rw [p_main_call6_v3_main_call8_v3 m ρ m' hpre hagree c]
  try simp only [TRef.ofBuf, TRef.toBuf, cast_eq]
  all_goals rfl

theorem p_main_call6_v5_main_call8_v5 : KV (Proc.devRef .tc Cert.KernelIdeal.main_call6_v5) = RV (Proc.devRef .tc Cert.ReferenceIdeal.main_call8_v5) := by
  rw [Cert.KernelIdeal.Tab.fin_main_call6_v5 (F := Ideal) m ρ c, Cert.ReferenceIdeal.Tab.fin_main_call8_v5 (F := Ideal) (StableHlo.launchContents m' c)]
  rw [binary_result, binary_result]
  rw [p_main_v146_main_v171 m ρ m' hpre hagree c, p_main_call6_v4_main_call8_v4 m ρ m' hpre hagree c]
  try simp only [TRef.ofBuf, TRef.toBuf, cast_eq]
  all_goals rfl

theorem p_main_call6_v6_main_call8_v6 : KV (Proc.devRef .tc Cert.KernelIdeal.main_call6_v6) = RV (Proc.devRef .tc Cert.ReferenceIdeal.main_call8_v6) := by
  rw [Cert.KernelIdeal.Tab.fin_main_call6_v6 (F := Ideal) m ρ c, Cert.ReferenceIdeal.Tab.fin_main_call8_v6 (F := Ideal) (StableHlo.launchContents m' c)]
  rw [binary_result, binary_result]
  rw [p_main_call6_v5_main_call8_v5 m ρ m' hpre hagree c]
  try simp only [TRef.ofBuf, TRef.toBuf, cast_eq]
  all_goals rfl

theorem p_main_call6_cst_2_main_call8_cst_2 : KV (Proc.devRef .tc Cert.KernelIdeal.main_call6_cst_2) = RV (Proc.devRef .tc Cert.ReferenceIdeal.main_call8_cst_2) := by
  rw [Cert.KernelIdeal.Tab.fin_main_call6_cst_2 (F := Ideal) m ρ c, Cert.ReferenceIdeal.Tab.fin_main_call8_cst_2 (F := Ideal) (StableHlo.launchContents m' c)]
  rw [nullary_result, nullary_result]
  try simp only [TRef.ofBuf, TRef.toBuf, cast_eq]
  all_goals rfl

theorem p_main_call6_v9_main_call8_v9 : KV (Proc.devRef .tc Cert.KernelIdeal.main_call6_v9) = RV (Proc.devRef .tc Cert.ReferenceIdeal.main_call8_v9) := by
  rw [Cert.KernelIdeal.Tab.fin_main_call6_v9 (F := Ideal) m ρ c, Cert.ReferenceIdeal.Tab.fin_main_call8_v9 (F := Ideal) (StableHlo.launchContents m' c)]
  rw [binary_result, binary_result]
  rw [p_main_call6_v6_main_call8_v6 m ρ m' hpre hagree c, p_main_call6_cst_2_main_call8_cst_2 m ρ m' hpre hagree c]
  try simp only [TRef.ofBuf, TRef.toBuf, cast_eq]
  all_goals rfl

theorem p_main_call6_v10_main_call8_v10 : KV (Proc.devRef .tc Cert.KernelIdeal.main_call6_v10) = RV (Proc.devRef .tc Cert.ReferenceIdeal.main_call8_v10) := by
  rw [Cert.KernelIdeal.Tab.fin_main_call6_v10 (F := Ideal) m ρ c, Cert.ReferenceIdeal.Tab.fin_main_call8_v10 (F := Ideal) (StableHlo.launchContents m' c)]
  rw [unary_result, unary_result]
  rw [p_main_call6_v8_main_call8_v8 m ρ m' hpre hagree c]
  try simp only [TRef.ofBuf, TRef.toBuf, cast_eq]
  all_goals rfl

theorem p_main_call6_v11_main_call8_v11 : KV (Proc.devRef .tc Cert.KernelIdeal.main_call6_v11) = RV (Proc.devRef .tc Cert.ReferenceIdeal.main_call8_v11) := by
  rw [Cert.KernelIdeal.Tab.fin_main_call6_v11 (F := Ideal) m ρ c, Cert.ReferenceIdeal.Tab.fin_main_call8_v11 (F := Ideal) (StableHlo.launchContents m' c)]
  rw [binary_result, binary_result]
  rw [p_main_call6_v9_main_call8_v9 m ρ m' hpre hagree c, p_main_call6_v10_main_call8_v10 m ρ m' hpre hagree c]
  try simp only [TRef.ofBuf, TRef.toBuf, cast_eq]
  all_goals rfl

theorem p_main_call6_cst_4_main_call8_cst_4 : KV (Proc.devRef .tc Cert.KernelIdeal.main_call6_cst_4) = RV (Proc.devRef .tc Cert.ReferenceIdeal.main_call8_cst_4) := by
  rw [Cert.KernelIdeal.Tab.fin_main_call6_cst_4 (F := Ideal) m ρ c, Cert.ReferenceIdeal.Tab.fin_main_call8_cst_4 (F := Ideal) (StableHlo.launchContents m' c)]
  rw [nullary_result, nullary_result]
  try simp only [TRef.ofBuf, TRef.toBuf, cast_eq]
  all_goals rfl

theorem p_main_call6_call0_v0_main_call8_call0_v0 : KV (Proc.devRef .tc Cert.KernelIdeal.main_call6_call0_v0) = RV (Proc.devRef .tc Cert.ReferenceIdeal.main_call8_call0_v0) := by
  rw [Cert.KernelIdeal.Tab.fin_main_call6_call0_v0 (F := Ideal) m ρ c, Cert.ReferenceIdeal.Tab.fin_main_call8_call0_v0 (F := Ideal) (StableHlo.launchContents m' c)]
  rw [unary_result, unary_result]
  rw [p_main_call6_cst_4_main_call8_cst_4 m ρ m' hpre hagree c]
  try simp only [TRef.ofBuf, TRef.toBuf, cast_eq]
  all_goals rfl

theorem p_main_call6_call0_v1_main_call8_call0_v1 : KV (Proc.devRef .tc Cert.KernelIdeal.main_call6_call0_v1) = RV (Proc.devRef .tc Cert.ReferenceIdeal.main_call8_call0_v1) := by
  rw [Cert.KernelIdeal.Tab.fin_main_call6_call0_v1 (F := Ideal) m ρ c, Cert.ReferenceIdeal.Tab.fin_main_call8_call0_v1 (F := Ideal) (StableHlo.launchContents m' c)]
  rw [unary_result, unary_result]
  rw [p_main_call6_call0_v0_main_call8_call0_v0 m ρ m' hpre hagree c]
  try simp only [TRef.ofBuf, TRef.toBuf, cast_eq]
  all_goals rfl

theorem p_main_v154_main_v179 : KV (Proc.devRef .tc Cert.KernelIdeal.main_v154) = RV (Proc.devRef .tc Cert.ReferenceIdeal.main_v179) := by
  rw [Cert.KernelIdeal.Tab.fin_main_v154 (F := Ideal) m ρ c, Cert.ReferenceIdeal.Tab.fin_main_v179 (F := Ideal) (StableHlo.launchContents m' c)]
  rw [ternary_result, ternary_result]
  rw [p_main_call6_v12_main_call8_v12 m ρ m' hpre hagree c, p_main_call6_v11_main_call8_v11 m ρ m' hpre hagree c, p_main_call6_call0_v1_main_call8_call0_v1 m ρ m' hpre hagree c]
  try simp only [TRef.ofBuf, TRef.toBuf, cast_eq]
  all_goals rfl

theorem p_main_cst_27_main_cst_27 : KV (Proc.devRef .tc Cert.KernelIdeal.main_cst_27) = RV (Proc.devRef .tc Cert.ReferenceIdeal.main_cst_27) := by
  rw [Cert.KernelIdeal.Tab.fin_main_cst_27 (F := Ideal) m ρ c, Cert.ReferenceIdeal.Tab.fin_main_cst_27 (F := Ideal) (StableHlo.launchContents m' c)]
  rw [nullary_result, nullary_result]
  try simp only [TRef.ofBuf, TRef.toBuf, cast_eq]
  all_goals rfl

theorem p_main_v155_main_v186 : KV (Proc.devRef .tc Cert.KernelIdeal.main_v155) = RV (Proc.devRef .tc Cert.ReferenceIdeal.main_v186) := by
  rw [Cert.KernelIdeal.Tab.fin_main_v155 (F := Ideal) m ρ c, Cert.ReferenceIdeal.Tab.fin_main_v186 (F := Ideal) (StableHlo.launchContents m' c)]
  rw [unary_result, unary_result]
  rw [p_main_cst_27_main_cst_27 m ρ m' hpre hagree c]
  try simp only [TRef.ofBuf, TRef.toBuf, cast_eq]
  all_goals rfl

theorem p_main_v156_main_v187 : KV (Proc.devRef .tc Cert.KernelIdeal.main_v156) = RV (Proc.devRef .tc Cert.ReferenceIdeal.main_v187) := by
  rw [Cert.KernelIdeal.Tab.fin_main_v156 (F := Ideal) m ρ c, Cert.ReferenceIdeal.Tab.fin_main_v187 (F := Ideal) (StableHlo.launchContents m' c)]
  rw [binary_result, binary_result]
  rw [p_main_v154_main_v179 m ρ m' hpre hagree c, p_main_v155_main_v186 m ρ m' hpre hagree c]
  try simp only [TRef.ofBuf, TRef.toBuf, cast_eq]
  all_goals rfl

theorem p_main_v157_main_v188 : KV (Proc.devRef .tc Cert.KernelIdeal.main_v157) = RV (Proc.devRef .tc Cert.ReferenceIdeal.main_v188) := by
  rw [Cert.KernelIdeal.Tab.fin_main_v157 (F := Ideal) m ρ c, Cert.ReferenceIdeal.Tab.fin_main_v188 (F := Ideal) (StableHlo.launchContents m' c)]
  rw [unary_result, unary_result]
  rw [p_main_v156_main_v187 m ρ m' hpre hagree c]
  try simp only [TRef.ofBuf, TRef.toBuf, cast_eq]
  all_goals rfl

theorem rf_main_v147 : Cert.Lib.AllFin (RV (Proc.devRef .tc Cert.ReferenceIdeal.main_v147)) := by
  rw [Cert.ReferenceIdeal.Tab.fin_main_v147 (F := Ideal) (StableHlo.launchContents m' c), unary_result]
  try simp only [TRef.ofBuf, TRef.toBuf, cast_eq]
  exact Cert.Lib.allFin_broadcastInDim _ _ (rf_main_v137 m ρ m' hpre hagree c)

theorem rf_main_v148 : Cert.Lib.AllFin (RV (Proc.devRef .tc Cert.ReferenceIdeal.main_v148)) := by
  rw [Cert.ReferenceIdeal.Tab.fin_main_v148 (F := Ideal) (StableHlo.launchContents m' c), unary_result]
  try simp only [TRef.ofBuf, TRef.toBuf, cast_eq]
  exact Cert.Lib.allFin_broadcastInDim _ _ (rf_main_v147 m ρ m' hpre hagree c)

theorem rf_main_v144 : Cert.Lib.AllFin (RV (Proc.devRef .tc Cert.ReferenceIdeal.main_v144)) := by
  rw [Cert.ReferenceIdeal.Tab.fin_main_v144 (F := Ideal) (StableHlo.launchContents m' c), unary_result]
  try simp only [TRef.ofBuf, TRef.toBuf, cast_eq]
  exact Cert.Lib.allFin_broadcastInDim _ _ (rf_main_v142 m ρ m' hpre hagree c)

theorem rf_main_v145 : Cert.Lib.AllFin (RV (Proc.devRef .tc Cert.ReferenceIdeal.main_v145)) := by
  rw [Cert.ReferenceIdeal.Tab.fin_main_v145 (F := Ideal) (StableHlo.launchContents m' c), unary_result]
  try simp only [TRef.ofBuf, TRef.toBuf, cast_eq]
  exact Cert.Lib.allFin_broadcastInDim _ _ (rf_main_v144 m ρ m' hpre hagree c)

theorem rf_main_v146 : Cert.Lib.AllFin (RV (Proc.devRef .tc Cert.ReferenceIdeal.main_v146)) := by
  rw [Cert.ReferenceIdeal.Tab.fin_main_v146 (F := Ideal) (StableHlo.launchContents m' c), binary_result]
  try simp only [TRef.ofBuf, TRef.toBuf, cast_eq]
  exact Cert.Lib.allFin_subf (rf_main_v135 m ρ m' hpre hagree c) (rf_main_v145 m ρ m' hpre hagree c)

theorem rf_main_v149 : Cert.Lib.AllFin (RV (Proc.devRef .tc Cert.ReferenceIdeal.main_v149)) := by
  rw [Cert.ReferenceIdeal.Tab.fin_main_v149 (F := Ideal) (StableHlo.launchContents m' c), binary_result]
  try simp only [TRef.ofBuf, TRef.toBuf, cast_eq]
  exact Cert.Lib.allFin_mulf (rf_main_v148 m ρ m' hpre hagree c) (rf_main_v146 m ρ m' hpre hagree c)

theorem rf_main_v153 : Cert.Lib.AllFin (RV (Proc.devRef .tc Cert.ReferenceIdeal.main_v153)) := by
  rw [Cert.ReferenceIdeal.Tab.fin_main_v153 (F := Ideal) (StableHlo.launchContents m' c), unary_result]
  try simp only [TRef.ofBuf, TRef.toBuf, cast_eq]
  exact Cert.Lib.allFin_broadcastInDim _ _ (rf_main_v152 m ρ m' hpre hagree c)

theorem rf_main_v154 : Cert.Lib.AllFin (RV (Proc.devRef .tc Cert.ReferenceIdeal.main_v154)) := by
  rw [Cert.ReferenceIdeal.Tab.fin_main_v154 (F := Ideal) (StableHlo.launchContents m' c), unary_result]
  try simp only [TRef.ofBuf, TRef.toBuf, cast_eq]
  exact Cert.Lib.allFin_broadcastInDim _ _ (rf_main_v153 m ρ m' hpre hagree c)

theorem rf_main_v155 : Cert.Lib.AllFin (RV (Proc.devRef .tc Cert.ReferenceIdeal.main_v155)) := by
  rw [Cert.ReferenceIdeal.Tab.fin_main_v155 (F := Ideal) (StableHlo.launchContents m' c), binary_result]
  try simp only [TRef.ofBuf, TRef.toBuf, cast_eq]
  exact Cert.Lib.allFin_mulf (rf_main_v149 m ρ m' hpre hagree c) (rf_main_v154 m ρ m' hpre hagree c)

theorem rf_main_v156 : Cert.Lib.AllFin (RV (Proc.devRef .tc Cert.ReferenceIdeal.main_v156)) := by
  rw [Cert.ReferenceIdeal.Tab.fin_main_v156 (F := Ideal) (StableHlo.launchContents m' c), unary_result]
  try simp only [TRef.ofBuf, TRef.toBuf, cast_eq]
  exact Cert.Lib.allFin_broadcastInDim _ _ (rf_main_v139 m ρ m' hpre hagree c)

theorem rf_main_v157 : Cert.Lib.AllFin (RV (Proc.devRef .tc Cert.ReferenceIdeal.main_v157)) := by
  rw [Cert.ReferenceIdeal.Tab.fin_main_v157 (F := Ideal) (StableHlo.launchContents m' c), unary_result]
  try simp only [TRef.ofBuf, TRef.toBuf, cast_eq]
  exact Cert.Lib.allFin_broadcastInDim _ _ (rf_main_v156 m ρ m' hpre hagree c)

theorem rf_main_v158 : Cert.Lib.AllFin (RV (Proc.devRef .tc Cert.ReferenceIdeal.main_v158)) := by
  rw [Cert.ReferenceIdeal.Tab.fin_main_v158 (F := Ideal) (StableHlo.launchContents m' c), binary_result]
  try simp only [TRef.ofBuf, TRef.toBuf, cast_eq]
  exact Cert.Lib.allFin_addf (rf_main_v155 m ρ m' hpre hagree c) (rf_main_v157 m ρ m' hpre hagree c)

theorem rf_main_cst_23 : Cert.Lib.AllFin (RV (Proc.devRef .tc Cert.ReferenceIdeal.main_cst_23)) := by
  rw [Cert.ReferenceIdeal.Tab.fin_main_cst_23 (F := Ideal) (StableHlo.launchContents m' c), nullary_result]
  try simp only [TRef.ofBuf, TRef.toBuf, cast_eq]
  exact Cert.Lib.allFin_constant_1em2 _

theorem rf_main_v161 : Cert.Lib.AllFin (RV (Proc.devRef .tc Cert.ReferenceIdeal.main_v161)) := by
  rw [Cert.ReferenceIdeal.Tab.fin_main_v161 (F := Ideal) (StableHlo.launchContents m' c), unary_result]
  try simp only [TRef.ofBuf, TRef.toBuf, cast_eq]
  exact Cert.Lib.allFin_broadcastInDim _ _ (rf_main_cst_23 m ρ m' hpre hagree c)

theorem rf_main_v162 : Cert.Lib.AllFin (RV (Proc.devRef .tc Cert.ReferenceIdeal.main_v162)) := by
  rw [Cert.ReferenceIdeal.Tab.fin_main_v162 (F := Ideal) (StableHlo.launchContents m' c), binary_result]
  try simp only [TRef.ofBuf, TRef.toBuf, cast_eq]
  exact Cert.Lib.allFin_mulf (rf_main_v161 m ρ m' hpre hagree c) (rf_main_v158 m ρ m' hpre hagree c)

theorem rf_main_v163 : Cert.Lib.AllFin (RV (Proc.devRef .tc Cert.ReferenceIdeal.main_v163)) := by
  rw [Cert.ReferenceIdeal.Tab.fin_main_v163 (F := Ideal) (StableHlo.launchContents m' c), ternary_result]
  try simp only [TRef.ofBuf, TRef.toBuf, cast_eq]
  exact Cert.Lib.allFin_select _ (rf_main_v158 m ρ m' hpre hagree c) (rf_main_v162 m ρ m' hpre hagree c)

theorem rf_main_v164 : Cert.Lib.AllFin (RV (Proc.devRef .tc Cert.ReferenceIdeal.main_v164)) := by
  rw [Cert.ReferenceIdeal.Tab.fin_main_v164 (F := Ideal) (StableHlo.launchContents m' c), unary_result]
  try simp only [TRef.ofBuf, TRef.toBuf, cast_eq]
  exact Cert.Lib.allFin_extractStridedSlice _ _ (rf_main_arg11 m ρ m' hpre hagree c)

theorem rf_main_v165 : Cert.Lib.AllFin (RV (Proc.devRef .tc Cert.ReferenceIdeal.main_v165)) := by
  rw [Cert.ReferenceIdeal.Tab.fin_main_v165 (F := Ideal) (StableHlo.launchContents m' c), reshape_result]
  try simp only [TRef.ofBuf, TRef.toBuf, cast_eq]
  exact Cert.Lib.allFin_shapeCast _ (rf_main_v164 m ρ m' hpre hagree c)

theorem rf_main_v166 : Cert.Lib.AllFin (RV (Proc.devRef .tc Cert.ReferenceIdeal.main_v166)) := by
  rw [Cert.ReferenceIdeal.Tab.fin_main_v166 (F := Ideal) (StableHlo.launchContents m' c), binary_result]
  try simp only [TRef.ofBuf, TRef.toBuf, cast_eq]
  exact Cert.Lib.allFin_dotGeneral _ _ _ _ (rf_main_v163 m ρ m' hpre hagree c) (rf_main_v165 m ρ m' hpre hagree c)

theorem rf_main_v167 : Cert.Lib.AllFin (RV (Proc.devRef .tc Cert.ReferenceIdeal.main_v167)) := by
  rw [Cert.ReferenceIdeal.Tab.fin_main_v167 (F := Ideal) (StableHlo.launchContents m' c), unary_result]
  try simp only [TRef.ofBuf, TRef.toBuf, cast_eq]
  exact Cert.Lib.allFin_extractStridedSlice _ _ (rf_main_arg12 m ρ m' hpre hagree c)

theorem rf_main_v168 : Cert.Lib.AllFin (RV (Proc.devRef .tc Cert.ReferenceIdeal.main_v168)) := by
  rw [Cert.ReferenceIdeal.Tab.fin_main_v168 (F := Ideal) (StableHlo.launchContents m' c), reshape_result]
  try simp only [TRef.ofBuf, TRef.toBuf, cast_eq]
  exact Cert.Lib.allFin_shapeCast _ (rf_main_v167 m ρ m' hpre hagree c)

theorem rf_main_v169 : Cert.Lib.AllFin (RV (Proc.devRef .tc Cert.ReferenceIdeal.main_v169)) := by
  rw [Cert.ReferenceIdeal.Tab.fin_main_v169 (F := Ideal) (StableHlo.launchContents m' c), unary_result]
  try simp only [TRef.ofBuf, TRef.toBuf, cast_eq]
  exact Cert.Lib.allFin_broadcastInDim _ _ (rf_main_v168 m ρ m' hpre hagree c)

theorem rf_main_v170 : Cert.Lib.AllFin (RV (Proc.devRef .tc Cert.ReferenceIdeal.main_v170)) := by
  rw [Cert.ReferenceIdeal.Tab.fin_main_v170 (F := Ideal) (StableHlo.launchContents m' c), unary_result]
  try simp only [TRef.ofBuf, TRef.toBuf, cast_eq]
  exact Cert.Lib.allFin_broadcastInDim _ _ (rf_main_v169 m ρ m' hpre hagree c)

theorem rf_main_v171 : Cert.Lib.AllFin (RV (Proc.devRef .tc Cert.ReferenceIdeal.main_v171)) := by
  rw [Cert.ReferenceIdeal.Tab.fin_main_v171 (F := Ideal) (StableHlo.launchContents m' c), binary_result]
  try simp only [TRef.ofBuf, TRef.toBuf, cast_eq]
  exact Cert.Lib.allFin_addf (rf_main_v166 m ρ m' hpre hagree c) (rf_main_v170 m ρ m' hpre hagree c)

theorem rf_main_v172 : Cert.Lib.AllFin (RV (Proc.devRef .tc Cert.ReferenceIdeal.main_v172)) := by
  rw [Cert.ReferenceIdeal.Tab.fin_main_v172 (F := Ideal) (StableHlo.launchContents m' c), unary_result]
  try simp only [TRef.ofBuf, TRef.toBuf, cast_eq]
  exact Cert.Lib.allFin_extractStridedSlice _ _ (rf_main_arg13 m ρ m' hpre hagree c)

theorem rf_main_v173 : Cert.Lib.AllFin (RV (Proc.devRef .tc Cert.ReferenceIdeal.main_v173)) := by
  rw [Cert.ReferenceIdeal.Tab.fin_main_v173 (F := Ideal) (StableHlo.launchContents m' c), reshape_result]
  try simp only [TRef.ofBuf, TRef.toBuf, cast_eq]
  exact Cert.Lib.allFin_shapeCast _ (rf_main_v172 m ρ m' hpre hagree c)

theorem rf_main_v174 : Cert.Lib.AllFin (RV (Proc.devRef .tc Cert.ReferenceIdeal.main_v174)) := by
  rw [Cert.ReferenceIdeal.Tab.fin_main_v174 (F := Ideal) (StableHlo.launchContents m' c), unary_result]
  try simp only [TRef.ofBuf, TRef.toBuf, cast_eq]
  exact Cert.Lib.allFin_extractStridedSlice _ _ (rf_main_arg14 m ρ m' hpre hagree c)

theorem rf_main_v175 : Cert.Lib.AllFin (RV (Proc.devRef .tc Cert.ReferenceIdeal.main_v175)) := by
  rw [Cert.ReferenceIdeal.Tab.fin_main_v175 (F := Ideal) (StableHlo.launchContents m' c), reshape_result]
  try simp only [TRef.ofBuf, TRef.toBuf, cast_eq]
  exact Cert.Lib.allFin_shapeCast _ (rf_main_v174 m ρ m' hpre hagree c)

theorem rf_main_cst_24 : Cert.Lib.AllFin (RV (Proc.devRef .tc Cert.ReferenceIdeal.main_cst_24)) := by
  rw [Cert.ReferenceIdeal.Tab.fin_main_cst_24 (F := Ideal) (StableHlo.launchContents m' c), nullary_result]
  try simp only [TRef.ofBuf, TRef.toBuf, cast_eq]
  exact Cert.Lib.allFin_constant_zero _

theorem rf_main_v176 : Cert.Lib.AllFin (RV (Proc.devRef .tc Cert.ReferenceIdeal.main_v176)) := by
  rw [Cert.ReferenceIdeal.Tab.fin_main_v176 (F := Ideal) (StableHlo.launchContents m' c), binary_result]
  try simp only [TRef.ofBuf, TRef.toBuf, cast_eq]
  exact Cert.Lib.allFin_reduceAdd _ _ _ _ (rf_main_v171 m ρ m' hpre hagree c) (rf_main_cst_24 m ρ m' hpre hagree c)

theorem rf_main_v178 : Cert.Lib.AllFin (RV (Proc.devRef .tc Cert.ReferenceIdeal.main_v178)) := by
  rw [Cert.ReferenceIdeal.Tab.fin_main_v178 (F := Ideal) (StableHlo.launchContents m' c), binary_result]
  rw [Cert.ReferenceIdeal.Tab.fin_main_v177 (F := Ideal) (StableHlo.launchContents m' c), unary_result]
  rw [Cert.ReferenceIdeal.Tab.fin_main_cst_25 (F := Ideal) (StableHlo.launchContents m' c), nullary_result]
  try simp only [TRef.ofBuf, TRef.toBuf, cast_eq]
  exact Cert.Lib.allFin_divf_hundredThousand _ _ (rf_main_v176 m ρ m' hpre hagree c)

theorem rf_main_v188 : Cert.Lib.AllFin (RV (Proc.devRef .tc Cert.ReferenceIdeal.main_v188)) := by
  rw [Cert.ReferenceIdeal.Tab.fin_main_v188 (F := Ideal) (StableHlo.launchContents m' c), unary_result]
  rw [Cert.ReferenceIdeal.Tab.fin_main_v187 (F := Ideal) (StableHlo.launchContents m' c), binary_result]
  rw [Cert.ReferenceIdeal.Tab.fin_main_v186 (F := Ideal) (StableHlo.launchContents m' c), unary_result]
  rw [Cert.ReferenceIdeal.Tab.fin_main_cst_27 (F := Ideal) (StableHlo.launchContents m' c), nullary_result]
  rw [Cert.ReferenceIdeal.Tab.fin_main_v179 (F := Ideal) (StableHlo.launchContents m' c), ternary_result]
  rw [Cert.ReferenceIdeal.Tab.fin_main_call8_call0_v1 (F := Ideal) (StableHlo.launchContents m' c), unary_result]
  rw [Cert.ReferenceIdeal.Tab.fin_main_call8_call0_v0 (F := Ideal) (StableHlo.launchContents m' c), unary_result]
  rw [Cert.ReferenceIdeal.Tab.fin_main_call8_cst_4 (F := Ideal) (StableHlo.launchContents m' c), nullary_result]
  rw [Cert.ReferenceIdeal.Tab.fin_main_call8_v12 (F := Ideal) (StableHlo.launchContents m' c), binary_result]
  rw [Cert.ReferenceIdeal.Tab.fin_main_call8_cst_3 (F := Ideal) (StableHlo.launchContents m' c), nullary_result]
  rw [Cert.ReferenceIdeal.Tab.fin_main_call8_v11 (F := Ideal) (StableHlo.launchContents m' c), binary_result]
  rw [Cert.ReferenceIdeal.Tab.fin_main_call8_v10 (F := Ideal) (StableHlo.launchContents m' c), unary_result]
  rw [Cert.ReferenceIdeal.Tab.fin_main_call8_v9 (F := Ideal) (StableHlo.launchContents m' c), binary_result]
  rw [Cert.ReferenceIdeal.Tab.fin_main_call8_cst_2 (F := Ideal) (StableHlo.launchContents m' c), nullary_result]
  rw [Cert.ReferenceIdeal.Tab.fin_main_call8_v8 (F := Ideal) (StableHlo.launchContents m' c), binary_result]
  rw [Cert.ReferenceIdeal.Tab.fin_main_call8_cst_1 (F := Ideal) (StableHlo.launchContents m' c), nullary_result]
  rw [Cert.ReferenceIdeal.Tab.fin_main_call8_v7 (F := Ideal) (StableHlo.launchContents m' c), unary_result]
  rw [Cert.ReferenceIdeal.Tab.fin_main_call8_v6 (F := Ideal) (StableHlo.launchContents m' c), binary_result]
  rw [Cert.ReferenceIdeal.Tab.fin_main_call8_v5 (F := Ideal) (StableHlo.launchContents m' c), binary_result]
  rw [Cert.ReferenceIdeal.Tab.fin_main_call8_v4 (F := Ideal) (StableHlo.launchContents m' c), unary_result]
  rw [Cert.ReferenceIdeal.Tab.fin_main_call8_v3 (F := Ideal) (StableHlo.launchContents m' c), binary_result]
  rw [Cert.ReferenceIdeal.Tab.fin_main_call8_v2 (F := Ideal) (StableHlo.launchContents m' c), unary_result]
  rw [Cert.ReferenceIdeal.Tab.fin_main_call8_cst_0 (F := Ideal) (StableHlo.launchContents m' c), nullary_result]
  rw [Cert.ReferenceIdeal.Tab.fin_main_call8_v1 (F := Ideal) (StableHlo.launchContents m' c), unary_result]
  rw [Cert.ReferenceIdeal.Tab.fin_main_call8_v0 (F := Ideal) (StableHlo.launchContents m' c), binary_result]
  rw [Cert.ReferenceIdeal.Tab.fin_main_call8_cst (F := Ideal) (StableHlo.launchContents m' c), nullary_result]
  rw [Cert.ReferenceIdeal.Tab.fin_main_c_26 (F := Ideal) (StableHlo.launchContents m' c), nullary_result]
  try simp only [TRef.ofBuf, TRef.toBuf, cast_eq]
  exact Cert.Seam.rsqrt_var_fin64 _ _ _ _ _ _ _ _ _ (rf_main_v171 m ρ m' hpre hagree c)

theorem p_main_v166_main_v194 : KV (Proc.devRef .tc Cert.KernelIdeal.main_v166) = RV (Proc.devRef .tc Cert.ReferenceIdeal.main_v194) := by
  rw [Cert.KernelIdeal.Tab.fin_main_v166 (F := Ideal) m ρ c, binary_result]
  rw [Cert.KernelIdeal.Tab.fin_main_v165 (F := Ideal) m ρ c, unary_result]
  rw [Cert.KernelIdeal.Tab.fin_main_v164 (F := Ideal) m ρ c, unary_result]
  rw [Cert.KernelIdeal.Tab.fin_main_v163 (F := Ideal) m ρ c, binary_result]
  rw [Cert.KernelIdeal.Tab.fin_main_v162 (F := Ideal) m ρ c, unary_result]
  rw [Cert.KernelIdeal.Tab.fin_main_v161 (F := Ideal) m ρ c, unary_result]
  rw [Cert.KernelIdeal.Tab.fin_main_v160 (F := Ideal) m ρ c, binary_result]
  rw [Cert.KernelIdeal.Tab.fin_main_v159 (F := Ideal) m ρ c, binary_result]
  rw [Cert.KernelIdeal.Tab.fin_main_v158 (F := Ideal) m ρ c, binary_result]
  rw [Cert.ReferenceIdeal.Tab.fin_main_v194 (F := Ideal) (StableHlo.launchContents m' c), binary_result]
  rw [Cert.ReferenceIdeal.Tab.fin_main_v193 (F := Ideal) (StableHlo.launchContents m' c), unary_result]
  rw [Cert.ReferenceIdeal.Tab.fin_main_v192 (F := Ideal) (StableHlo.launchContents m' c), unary_result]
  rw [Cert.ReferenceIdeal.Tab.fin_main_v191 (F := Ideal) (StableHlo.launchContents m' c), binary_result]
  rw [Cert.ReferenceIdeal.Tab.fin_main_v190 (F := Ideal) (StableHlo.launchContents m' c), unary_result]
  rw [Cert.ReferenceIdeal.Tab.fin_main_v189 (F := Ideal) (StableHlo.launchContents m' c), unary_result]
  rw [Cert.ReferenceIdeal.Tab.fin_main_v185 (F := Ideal) (StableHlo.launchContents m' c), binary_result]
  rw [Cert.ReferenceIdeal.Tab.fin_main_v184 (F := Ideal) (StableHlo.launchContents m' c), unary_result]
  rw [Cert.ReferenceIdeal.Tab.fin_main_v183 (F := Ideal) (StableHlo.launchContents m' c), unary_result]
  rw [Cert.ReferenceIdeal.Tab.fin_main_v182 (F := Ideal) (StableHlo.launchContents m' c), binary_result]
  rw [Cert.ReferenceIdeal.Tab.fin_main_v181 (F := Ideal) (StableHlo.launchContents m' c), unary_result]
  rw [Cert.ReferenceIdeal.Tab.fin_main_v180 (F := Ideal) (StableHlo.launchContents m' c), unary_result]
  rw [p_main_v146_main_v171 m ρ m' hpre hagree c, p_main_v148_main_v173 m ρ m' hpre hagree c, p_main_v150_main_v175 m ρ m' hpre hagree c, p_main_v153_main_v178 m ρ m' hpre hagree c, p_main_v157_main_v188 m ρ m' hpre hagree c]
  try simp only [TRef.ofBuf, TRef.toBuf, cast_eq]
  exact Cert.Seam.bn_affine_64 _ _ _ _ _ _ _ (rf_main_v171 m ρ m' hpre hagree c) (rf_main_v173 m ρ m' hpre hagree c) (rf_main_v175 m ρ m' hpre hagree c) (rf_main_v178 m ρ m' hpre hagree c) (rf_main_v188 m ρ m' hpre hagree c)

theorem p_main_cst_28_main_cst_28 : KV (Proc.devRef .tc Cert.KernelIdeal.main_cst_28) = RV (Proc.devRef .tc Cert.ReferenceIdeal.main_cst_28) := by
  rw [Cert.KernelIdeal.Tab.fin_main_cst_28 (F := Ideal) m ρ c, Cert.ReferenceIdeal.Tab.fin_main_cst_28 (F := Ideal) (StableHlo.launchContents m' c)]
  rw [nullary_result, nullary_result]
  try simp only [TRef.ofBuf, TRef.toBuf, cast_eq]
  all_goals rfl

theorem p_main_v167_main_v195 : KV (Proc.devRef .tc Cert.KernelIdeal.main_v167) = RV (Proc.devRef .tc Cert.ReferenceIdeal.main_v195) := by
  rw [Cert.KernelIdeal.Tab.fin_main_v167 (F := Ideal) m ρ c, Cert.ReferenceIdeal.Tab.fin_main_v195 (F := Ideal) (StableHlo.launchContents m' c)]
  rw [unary_result, unary_result]
  rw [p_main_cst_28_main_cst_28 m ρ m' hpre hagree c]
  try simp only [TRef.ofBuf, TRef.toBuf, cast_eq]
  all_goals rfl

theorem p_main_v168_main_v196 : KV (Proc.devRef .tc Cert.KernelIdeal.main_v168) = RV (Proc.devRef .tc Cert.ReferenceIdeal.main_v196) := by
  rw [Cert.KernelIdeal.Tab.fin_main_v168 (F := Ideal) m ρ c, Cert.ReferenceIdeal.Tab.fin_main_v196 (F := Ideal) (StableHlo.launchContents m' c)]
  rw [binary_result, binary_result]
  rw [p_main_v166_main_v194 m ρ m' hpre hagree c, p_main_v167_main_v195 m ρ m' hpre hagree c]
  try simp only [TRef.ofBuf, TRef.toBuf, cast_eq]
  all_goals rfl

theorem p_main_cst_29_main_cst_29 : KV (Proc.devRef .tc Cert.KernelIdeal.main_cst_29) = RV (Proc.devRef .tc Cert.ReferenceIdeal.main_cst_29) := by
  rw [Cert.KernelIdeal.Tab.fin_main_cst_29 (F := Ideal) m ρ c, Cert.ReferenceIdeal.Tab.fin_main_cst_29 (F := Ideal) (StableHlo.launchContents m' c)]
  rw [nullary_result, nullary_result]
  try simp only [TRef.ofBuf, TRef.toBuf, cast_eq]
  all_goals rfl

theorem p_main_v169_main_v197 : KV (Proc.devRef .tc Cert.KernelIdeal.main_v169) = RV (Proc.devRef .tc Cert.ReferenceIdeal.main_v197) := by
  rw [Cert.KernelIdeal.Tab.fin_main_v169 (F := Ideal) m ρ c, Cert.ReferenceIdeal.Tab.fin_main_v197 (F := Ideal) (StableHlo.launchContents m' c)]
  rw [unary_result, unary_result]
  rw [p_main_cst_29_main_cst_29 m ρ m' hpre hagree c]
  try simp only [TRef.ofBuf, TRef.toBuf, cast_eq]
  all_goals rfl

theorem p_main_v170_main_v198 : KV (Proc.devRef .tc Cert.KernelIdeal.main_v170) = RV (Proc.devRef .tc Cert.ReferenceIdeal.main_v198) := by
  rw [Cert.KernelIdeal.Tab.fin_main_v170 (F := Ideal) m ρ c, Cert.ReferenceIdeal.Tab.fin_main_v198 (F := Ideal) (StableHlo.launchContents m' c)]
  rw [binary_result, binary_result]
  rw [p_main_v169_main_v197 m ρ m' hpre hagree c, p_main_v166_main_v194 m ρ m' hpre hagree c]
  try simp only [TRef.ofBuf, TRef.toBuf, cast_eq]
  all_goals rfl

theorem p_main_v171_main_v199 : KV (Proc.devRef .tc Cert.KernelIdeal.main_v171) = RV (Proc.devRef .tc Cert.ReferenceIdeal.main_v199) := by
  rw [Cert.KernelIdeal.Tab.fin_main_v171 (F := Ideal) m ρ c, Cert.ReferenceIdeal.Tab.fin_main_v199 (F := Ideal) (StableHlo.launchContents m' c)]
  rw [ternary_result, ternary_result]
  rw [p_main_v168_main_v196 m ρ m' hpre hagree c, p_main_v166_main_v194 m ρ m' hpre hagree c, p_main_v170_main_v198 m ρ m' hpre hagree c]
  try simp only [TRef.ofBuf, TRef.toBuf, cast_eq]
  all_goals rfl

theorem p_main_v192_main_v224 : KV (Proc.devRef .tc Cert.KernelIdeal.main_v192) = RV (Proc.devRef .tc Cert.ReferenceIdeal.main_v224) := by
  rw [Cert.KernelIdeal.Tab.fin_main_v192 (F := Ideal) m ρ c, Cert.ReferenceIdeal.Tab.fin_main_v224 (F := Ideal) (StableHlo.launchContents m' c)]
  rw [binary_result, binary_result]
  rw [p_main_v191_main_v223 m ρ m' hpre hagree c, p_main_v171_main_v199 m ρ m' hpre hagree c]
  try simp only [TRef.ofBuf, TRef.toBuf, cast_eq]
  all_goals rfl

theorem p_main_cst_32_main_cst_32 : KV (Proc.devRef .tc Cert.KernelIdeal.main_cst_32) = RV (Proc.devRef .tc Cert.ReferenceIdeal.main_cst_32) := by
  rw [Cert.KernelIdeal.Tab.fin_main_cst_32 (F := Ideal) m ρ c, Cert.ReferenceIdeal.Tab.fin_main_cst_32 (F := Ideal) (StableHlo.launchContents m' c)]
  rw [nullary_result, nullary_result]
  try simp only [TRef.ofBuf, TRef.toBuf, cast_eq]
  all_goals rfl

theorem p_main_v185_main_v217 : KV (Proc.devRef .tc Cert.KernelIdeal.main_v185) = RV (Proc.devRef .tc Cert.ReferenceIdeal.main_v217) := by
  rw [Cert.KernelIdeal.Tab.fin_main_v185 (F := Ideal) m ρ c, Cert.ReferenceIdeal.Tab.fin_main_v217 (F := Ideal) (StableHlo.launchContents m' c)]
  rw [unary_result, unary_result]
  rw [p_main_cst_32_main_cst_32 m ρ m' hpre hagree c]
  try simp only [TRef.ofBuf, TRef.toBuf, cast_eq]
  all_goals rfl

theorem p_main_v186_main_v218 : KV (Proc.devRef .tc Cert.KernelIdeal.main_v186) = RV (Proc.devRef .tc Cert.ReferenceIdeal.main_v218) := by
  rw [Cert.KernelIdeal.Tab.fin_main_v186 (F := Ideal) m ρ c, Cert.ReferenceIdeal.Tab.fin_main_v218 (F := Ideal) (StableHlo.launchContents m' c)]
  rw [unary_result, unary_result]
  rw [p_main_v3_main_v3 m ρ m' hpre hagree c]
  try simp only [TRef.ofBuf, TRef.toBuf, cast_eq]
  all_goals rfl

theorem p_main_c_30_main_c_30 : KV (Proc.devRef .tc Cert.KernelIdeal.main_c_30) = RV (Proc.devRef .tc Cert.ReferenceIdeal.main_c_30) := by
  rw [Cert.KernelIdeal.Tab.fin_main_c_30 (F := Ideal) m ρ c, Cert.ReferenceIdeal.Tab.fin_main_c_30 (F := Ideal) (StableHlo.launchContents m' c)]
  rw [nullary_result, nullary_result]
  try simp only [TRef.ofBuf, TRef.toBuf, cast_eq]
  all_goals rfl

theorem p_main_v172_main_v200 : KV (Proc.devRef .tc Cert.KernelIdeal.main_v172) = RV (Proc.devRef .tc Cert.ReferenceIdeal.main_v200) := by
  rw [Cert.KernelIdeal.Tab.fin_main_v172 (F := Ideal) m ρ c, Cert.ReferenceIdeal.Tab.fin_main_v200 (F := Ideal) (StableHlo.launchContents m' c)]
  rw [unary_result, unary_result]
  rw [p_main_c_30_main_c_30 m ρ m' hpre hagree c]
  try simp only [TRef.ofBuf, TRef.toBuf, cast_eq]
  all_goals rfl

theorem p_main_v173_main_v201 : KV (Proc.devRef .tc Cert.KernelIdeal.main_v173) = RV (Proc.devRef .tc Cert.ReferenceIdeal.main_v201) := by
  rw [Cert.KernelIdeal.Tab.fin_main_v173 (F := Ideal) m ρ c, Cert.ReferenceIdeal.Tab.fin_main_v201 (F := Ideal) (StableHlo.launchContents m' c)]
  rw [binary_result, binary_result]
  rw [p_main_v1_main_v1 m ρ m' hpre hagree c, p_main_v172_main_v200 m ρ m' hpre hagree c]
  try simp only [TRef.ofBuf, TRef.toBuf, cast_eq]
  all_goals rfl

theorem p_main_c_31_main_c_31 : KV (Proc.devRef .tc Cert.KernelIdeal.main_c_31) = RV (Proc.devRef .tc Cert.ReferenceIdeal.main_c_31) := by
  rw [Cert.KernelIdeal.Tab.fin_main_c_31 (F := Ideal) m ρ c, Cert.ReferenceIdeal.Tab.fin_main_c_31 (F := Ideal) (StableHlo.launchContents m' c)]
  rw [nullary_result, nullary_result]
  try simp only [TRef.ofBuf, TRef.toBuf, cast_eq]
  all_goals rfl

theorem p_main_v174_main_v202 : KV (Proc.devRef .tc Cert.KernelIdeal.main_v174) = RV (Proc.devRef .tc Cert.ReferenceIdeal.main_v202) := by
  rw [Cert.KernelIdeal.Tab.fin_main_v174 (F := Ideal) m ρ c, Cert.ReferenceIdeal.Tab.fin_main_v202 (F := Ideal) (StableHlo.launchContents m' c)]
  rw [unary_result, unary_result]
  rw [p_main_c_31_main_c_31 m ρ m' hpre hagree c]
  try simp only [TRef.ofBuf, TRef.toBuf, cast_eq]
  all_goals rfl

theorem p_main_v175_main_v203 : KV (Proc.devRef .tc Cert.KernelIdeal.main_v175) = RV (Proc.devRef .tc Cert.ReferenceIdeal.main_v203) := by
  rw [Cert.KernelIdeal.Tab.fin_main_v175 (F := Ideal) m ρ c, Cert.ReferenceIdeal.Tab.fin_main_v203 (F := Ideal) (StableHlo.launchContents m' c)]
  rw [binary_result, binary_result]
  rw [p_main_v1_main_v1 m ρ m' hpre hagree c, p_main_v174_main_v202 m ρ m' hpre hagree c]
  try simp only [TRef.ofBuf, TRef.toBuf, cast_eq]
  all_goals rfl

theorem p_main_v176_main_v204 : KV (Proc.devRef .tc Cert.KernelIdeal.main_v176) = RV (Proc.devRef .tc Cert.ReferenceIdeal.main_v204) := by
  rw [Cert.KernelIdeal.Tab.fin_main_v176 (F := Ideal) m ρ c, Cert.ReferenceIdeal.Tab.fin_main_v204 (F := Ideal) (StableHlo.launchContents m' c)]
  rw [ternary_result, ternary_result]
  rw [p_main_v173_main_v201 m ρ m' hpre hagree c, p_main_v175_main_v203 m ρ m' hpre hagree c, p_main_v1_main_v1 m ρ m' hpre hagree c]
  try simp only [TRef.ofBuf, TRef.toBuf, cast_eq]
  all_goals rfl

theorem p_main_v177_main_v205 : KV (Proc.devRef .tc Cert.KernelIdeal.main_v177) = RV (Proc.devRef .tc Cert.ReferenceIdeal.main_v205) := by
  rw [Cert.KernelIdeal.Tab.fin_main_v177 (F := Ideal) m ρ c, Cert.ReferenceIdeal.Tab.fin_main_v205 (F := Ideal) (StableHlo.launchContents m' c)]
  rw [unary_result, unary_result]
  rw [p_main_v176_main_v204 m ρ m' hpre hagree c]
  try simp only [TRef.ofBuf, TRef.toBuf, cast_eq]
  all_goals rfl

theorem p_main_v178_main_v206 : KV (Proc.devRef .tc Cert.KernelIdeal.main_v178) = RV (Proc.devRef .tc Cert.ReferenceIdeal.main_v206) := by
  rw [Cert.KernelIdeal.Tab.fin_main_v178 (F := Ideal) m ρ c, Cert.ReferenceIdeal.Tab.fin_main_v206 (F := Ideal) (StableHlo.launchContents m' c)]
  rw [binary_result, binary_result]
  rw [p_main_v171_main_v199 m ρ m' hpre hagree c, p_main_v177_main_v205 m ρ m' hpre hagree c]
  try simp only [TRef.ofBuf, TRef.toBuf, cast_eq]
  all_goals rfl

theorem p_main_v179_main_v207 : KV (Proc.devRef .tc Cert.KernelIdeal.main_v179) = RV (Proc.devRef .tc Cert.ReferenceIdeal.main_v207) := by
  rw [Cert.KernelIdeal.Tab.fin_main_v179 (F := Ideal) m ρ c, Cert.ReferenceIdeal.Tab.fin_main_v207 (F := Ideal) (StableHlo.launchContents m' c)]
  rw [unary_result, unary_result]
  rw [p_main_arg4_main_arg4 m ρ m' hpre hagree c]
  try simp only [TRef.ofBuf, TRef.toBuf, cast_eq]
  all_goals rfl

theorem p_main_v180_main_v208 : KV (Proc.devRef .tc Cert.KernelIdeal.main_v180) = RV (Proc.devRef .tc Cert.ReferenceIdeal.main_v208) := by
  rw [Cert.KernelIdeal.Tab.fin_main_v180 (F := Ideal) m ρ c, Cert.ReferenceIdeal.Tab.fin_main_v208 (F := Ideal) (StableHlo.launchContents m' c)]
  rw [reshape_result, reshape_result]
  rw [p_main_v179_main_v207 m ρ m' hpre hagree c]
  try simp only [TRef.ofBuf, TRef.toBuf, cast_eq]
  all_goals rfl

theorem p_main_v181_main_v211 : KV (Proc.devRef .tc Cert.KernelIdeal.main_v181) = RV (Proc.devRef .tc Cert.ReferenceIdeal.main_v211) := by
  rw [Cert.KernelIdeal.Tab.fin_main_v181 (F := Ideal) m ρ c, Cert.ReferenceIdeal.Tab.fin_main_v211 (F := Ideal) (StableHlo.launchContents m' c)]
  rw [unary_result, unary_result]
  rw [p_main_arg5_main_arg5 m ρ m' hpre hagree c]
  try simp only [TRef.ofBuf, TRef.toBuf, cast_eq]
  all_goals rfl

theorem p_main_v182_main_v212 : KV (Proc.devRef .tc Cert.KernelIdeal.main_v182) = RV (Proc.devRef .tc Cert.ReferenceIdeal.main_v212) := by
  rw [Cert.KernelIdeal.Tab.fin_main_v182 (F := Ideal) m ρ c, Cert.ReferenceIdeal.Tab.fin_main_v212 (F := Ideal) (StableHlo.launchContents m' c)]
  rw [reshape_result, reshape_result]
  rw [p_main_v181_main_v211 m ρ m' hpre hagree c]
  try simp only [TRef.ofBuf, TRef.toBuf, cast_eq]
  all_goals rfl

theorem p_main_v183_main_v213 : KV (Proc.devRef .tc Cert.KernelIdeal.main_v183) = RV (Proc.devRef .tc Cert.ReferenceIdeal.main_v213) := by
  rw [Cert.KernelIdeal.Tab.fin_main_v183 (F := Ideal) m ρ c, Cert.ReferenceIdeal.Tab.fin_main_v213 (F := Ideal) (StableHlo.launchContents m' c)]
  rw [reshape_result, unary_result]
  rw [p_main_v182_main_v212 m ρ m' hpre hagree c]
  exact Cert.SeamRow.row64 _ _ _

theorem p_main_v184_main_v216 : KV (Proc.devRef .tc Cert.KernelIdeal.main_v184) = RV (Proc.devRef .tc Cert.ReferenceIdeal.main_v216) := by
  have e0 : Cert.KernelIdeal.GenP.V29 (F := Ideal) m ρ c Cert.KernelIdeal.main_v178 = RV (Proc.devRef .tc Cert.ReferenceIdeal.main_v206) :=
    (Cert.KernelIdeal.Tab.lift29 (F := Ideal) m ρ c Cert.KernelIdeal.main_v178 (by decide)).symm.trans (p_main_v178_main_v206 m ρ m' hpre hagree c)
  have e1 : Cert.KernelIdeal.GenP.V29 (F := Ideal) m ρ c Cert.KernelIdeal.main_arg1 = RV (Proc.devRef .tc Cert.ReferenceIdeal.main_arg1) :=
    (Cert.KernelIdeal.Tab.lift29 (F := Ideal) m ρ c Cert.KernelIdeal.main_arg1 (by decide)).symm.trans (p_main_arg1_main_arg1 m ρ m' hpre hagree c)
  have e2 : Cert.KernelIdeal.GenP.V29 (F := Ideal) m ρ c Cert.KernelIdeal.main_v180 = RV (Proc.devRef .tc Cert.ReferenceIdeal.main_v208) :=
    (Cert.KernelIdeal.Tab.lift29 (F := Ideal) m ρ c Cert.KernelIdeal.main_v180 (by decide)).symm.trans (p_main_v180_main_v208 m ρ m' hpre hagree c)
  have e3 : Cert.KernelIdeal.GenP.V29 (F := Ideal) m ρ c Cert.KernelIdeal.main_v183 = RV (Proc.devRef .tc Cert.ReferenceIdeal.main_v213) :=
    (Cert.KernelIdeal.Tab.lift29 (F := Ideal) m ρ c Cert.KernelIdeal.main_v183 (by decide)).symm.trans (p_main_v183_main_v213 m ρ m' hpre hagree c)
  rw [Cert.KernelIdeal.Tab.lift30 (F := Ideal) m ρ c Cert.KernelIdeal.main_v184 (by decide)]
  refine ((Cert.KernelIdeal.GenP.W30_arr (F := Ideal) m ρ c 4).trans (Cert.KernelIdeal.RegionVal.region6_value (Cert.KernelIdeal.GenP.V29 (F := Ideal) m ρ) c Cert.ReferenceIdeal.Facts₀.bcast_S1x64_S1600000x64_0_1 Cert.ReferenceIdeal.Facts₀.bcast_S_S1600000x64)).trans ?_
  rw [Cert.ReferenceIdeal.Tab.fin_main_v216 (F := Ideal) (StableHlo.launchContents m' c), binary_result]
  rw [Cert.ReferenceIdeal.Tab.fin_main_call10_v0 (F := Ideal) (StableHlo.launchContents m' c), unary_result]
  rw [Cert.ReferenceIdeal.Tab.fin_main_call10_cst (F := Ideal) (StableHlo.launchContents m' c), nullary_result]
  rw [Cert.ReferenceIdeal.Tab.fin_main_v215 (F := Ideal) (StableHlo.launchContents m' c), binary_result]
  rw [Cert.ReferenceIdeal.Tab.fin_main_v214 (F := Ideal) (StableHlo.launchContents m' c), unary_result]
  rw [Cert.ReferenceIdeal.Tab.fin_main_v210 (F := Ideal) (StableHlo.launchContents m' c), binary_result]
  rw [Cert.ReferenceIdeal.Tab.fin_main_v209 (F := Ideal) (StableHlo.launchContents m' c), binary_result]
  rw [e0, e1, e2, e3]
  try simp only [TRef.ofBuf, TRef.toBuf, cast_eq]
  all_goals rfl

theorem p_main_v187_main_v219 : KV (Proc.devRef .tc Cert.KernelIdeal.main_v187) = RV (Proc.devRef .tc Cert.ReferenceIdeal.main_v219) := by
  rw [Cert.KernelIdeal.Tab.fin_main_v187 (F := Ideal) m ρ c, Cert.ReferenceIdeal.Tab.fin_main_v219 (F := Ideal) (StableHlo.launchContents m' c)]
  rw [ternary_result, ternary_result]
  rw [p_main_v185_main_v217 m ρ m' hpre hagree c, p_main_v186_main_v218 m ρ m' hpre hagree c, p_main_v184_main_v216 m ρ m' hpre hagree c]
  try simp only [TRef.ofBuf, TRef.toBuf, cast_eq]
  all_goals rfl

theorem p_main_v193_main_v225 : KV (Proc.devRef .tc Cert.KernelIdeal.main_v193) = RV (Proc.devRef .tc Cert.ReferenceIdeal.main_v225) := by
  rw [Cert.KernelIdeal.Tab.fin_main_v193 (F := Ideal) m ρ c, Cert.ReferenceIdeal.Tab.fin_main_v225 (F := Ideal) (StableHlo.launchContents m' c)]
  rw [binary_result, binary_result]
  rw [p_main_v192_main_v224 m ρ m' hpre hagree c, p_main_v187_main_v219 m ρ m' hpre hagree c]
  try simp only [TRef.ofBuf, TRef.toBuf, cast_eq]
  all_goals rfl

theorem p_main_v194_main_v226 : KV (Proc.devRef .tc Cert.KernelIdeal.main_v194) = RV (Proc.devRef .tc Cert.ReferenceIdeal.main_v226) := by
  rw [Cert.KernelIdeal.Tab.fin_main_v194 (F := Ideal) m ρ c, Cert.ReferenceIdeal.Tab.fin_main_v226 (F := Ideal) (StableHlo.launchContents m' c)]
  rw [unary_result, unary_result]
  rw [p_main_arg7_main_arg7 m ρ m' hpre hagree c]
  try simp only [TRef.ofBuf, TRef.toBuf, cast_eq]
  all_goals rfl

theorem p_main_v195_main_v227 : KV (Proc.devRef .tc Cert.KernelIdeal.main_v195) = RV (Proc.devRef .tc Cert.ReferenceIdeal.main_v227) := by
  rw [Cert.KernelIdeal.Tab.fin_main_v195 (F := Ideal) m ρ c, Cert.ReferenceIdeal.Tab.fin_main_v227 (F := Ideal) (StableHlo.launchContents m' c)]
  rw [reshape_result, reshape_result]
  rw [p_main_v194_main_v226 m ρ m' hpre hagree c]
  try simp only [TRef.ofBuf, TRef.toBuf, cast_eq]
  all_goals rfl

theorem p_main_v196_main_v229 : KV (Proc.devRef .tc Cert.KernelIdeal.main_v196) = RV (Proc.devRef .tc Cert.ReferenceIdeal.main_v229) := by
  rw [Cert.KernelIdeal.Tab.fin_main_v196 (F := Ideal) m ρ c, Cert.ReferenceIdeal.Tab.fin_main_v229 (F := Ideal) (StableHlo.launchContents m' c)]
  rw [unary_result, unary_result]
  rw [p_main_arg8_main_arg8 m ρ m' hpre hagree c]
  try simp only [TRef.ofBuf, TRef.toBuf, cast_eq]
  all_goals rfl

theorem p_main_v197_main_v230 : KV (Proc.devRef .tc Cert.KernelIdeal.main_v197) = RV (Proc.devRef .tc Cert.ReferenceIdeal.main_v230) := by
  rw [Cert.KernelIdeal.Tab.fin_main_v197 (F := Ideal) m ρ c, Cert.ReferenceIdeal.Tab.fin_main_v230 (F := Ideal) (StableHlo.launchContents m' c)]
  rw [reshape_result, reshape_result]
  rw [p_main_v196_main_v229 m ρ m' hpre hagree c]
  try simp only [TRef.ofBuf, TRef.toBuf, cast_eq]
  all_goals rfl

theorem p_main_v198_main_v231 : KV (Proc.devRef .tc Cert.KernelIdeal.main_v198) = RV (Proc.devRef .tc Cert.ReferenceIdeal.main_v231) := by
  rw [Cert.KernelIdeal.Tab.fin_main_v198 (F := Ideal) m ρ c, Cert.ReferenceIdeal.Tab.fin_main_v231 (F := Ideal) (StableHlo.launchContents m' c)]
  rw [reshape_result, unary_result]
  rw [p_main_v197_main_v230 m ρ m' hpre hagree c]
  exact Cert.SeamRow.row64 _ _ _

theorem p_main_v199_main_v233 : KV (Proc.devRef .tc Cert.KernelIdeal.main_v199) = RV (Proc.devRef .tc Cert.ReferenceIdeal.main_v233) := by
  have e0 : Cert.KernelIdeal.GenP.V31 (F := Ideal) m ρ c Cert.KernelIdeal.main_v193 = RV (Proc.devRef .tc Cert.ReferenceIdeal.main_v225) :=
    (Cert.KernelIdeal.Tab.lift31 (F := Ideal) m ρ c Cert.KernelIdeal.main_v193 (by decide)).symm.trans (p_main_v193_main_v225 m ρ m' hpre hagree c)
  have e1 : Cert.KernelIdeal.GenP.V31 (F := Ideal) m ρ c Cert.KernelIdeal.main_v195 = RV (Proc.devRef .tc Cert.ReferenceIdeal.main_v227) :=
    (Cert.KernelIdeal.Tab.lift31 (F := Ideal) m ρ c Cert.KernelIdeal.main_v195 (by decide)).symm.trans (p_main_v195_main_v227 m ρ m' hpre hagree c)
  have e2 : Cert.KernelIdeal.GenP.V31 (F := Ideal) m ρ c Cert.KernelIdeal.main_v198 = RV (Proc.devRef .tc Cert.ReferenceIdeal.main_v231) :=
    (Cert.KernelIdeal.Tab.lift31 (F := Ideal) m ρ c Cert.KernelIdeal.main_v198 (by decide)).symm.trans (p_main_v198_main_v231 m ρ m' hpre hagree c)
  rw [Cert.KernelIdeal.Tab.lift32 (F := Ideal) m ρ c Cert.KernelIdeal.main_v199 (by decide)]
  refine ((Cert.KernelIdeal.GenP.W32_arr (F := Ideal) m ρ c 3).trans (Cert.KernelIdeal.RegionVal.region7_value (Cert.KernelIdeal.GenP.V31 (F := Ideal) m ρ) c Cert.ReferenceIdeal.Facts₀.bcast_S1x64_S100000x64_0_1)).trans ?_
  rw [Cert.ReferenceIdeal.Tab.fin_main_v233 (F := Ideal) (StableHlo.launchContents m' c), binary_result]
  rw [Cert.ReferenceIdeal.Tab.fin_main_v232 (F := Ideal) (StableHlo.launchContents m' c), unary_result]
  rw [Cert.ReferenceIdeal.Tab.fin_main_v228 (F := Ideal) (StableHlo.launchContents m' c), binary_result]
  rw [e0, e1, e2]
  try simp only [TRef.ofBuf, TRef.toBuf, cast_eq]
  all_goals rfl

theorem p_main_v200_main_v234 : KV (Proc.devRef .tc Cert.KernelIdeal.main_v200) = RV (Proc.devRef .tc Cert.ReferenceIdeal.main_v234) := by
  rw [Cert.KernelIdeal.Tab.fin_main_v200 (F := Ideal) m ρ c, Cert.ReferenceIdeal.Tab.fin_main_v234 (F := Ideal) (StableHlo.launchContents m' c)]
  rw [unary_result, unary_result]
  rw [p_main_arg9_main_arg9 m ρ m' hpre hagree c]
  try simp only [TRef.ofBuf, TRef.toBuf, cast_eq]
  all_goals rfl

theorem p_main_v201_main_v235 : KV (Proc.devRef .tc Cert.KernelIdeal.main_v201) = RV (Proc.devRef .tc Cert.ReferenceIdeal.main_v235) := by
  rw [Cert.KernelIdeal.Tab.fin_main_v201 (F := Ideal) m ρ c, Cert.ReferenceIdeal.Tab.fin_main_v235 (F := Ideal) (StableHlo.launchContents m' c)]
  rw [reshape_result, reshape_result]
  rw [p_main_v200_main_v234 m ρ m' hpre hagree c]
  try simp only [TRef.ofBuf, TRef.toBuf, cast_eq]
  all_goals rfl

theorem p_main_v202_main_v236 : KV (Proc.devRef .tc Cert.KernelIdeal.main_v202) = RV (Proc.devRef .tc Cert.ReferenceIdeal.main_v236) := by
  rw [Cert.KernelIdeal.Tab.fin_main_v202 (F := Ideal) m ρ c, Cert.ReferenceIdeal.Tab.fin_main_v236 (F := Ideal) (StableHlo.launchContents m' c)]
  rw [unary_result, unary_result]
  rw [p_main_arg10_main_arg10 m ρ m' hpre hagree c]
  try simp only [TRef.ofBuf, TRef.toBuf, cast_eq]
  all_goals rfl

theorem p_main_v203_main_v237 : KV (Proc.devRef .tc Cert.KernelIdeal.main_v203) = RV (Proc.devRef .tc Cert.ReferenceIdeal.main_v237) := by
  rw [Cert.KernelIdeal.Tab.fin_main_v203 (F := Ideal) m ρ c, Cert.ReferenceIdeal.Tab.fin_main_v237 (F := Ideal) (StableHlo.launchContents m' c)]
  rw [reshape_result, reshape_result]
  rw [p_main_v202_main_v236 m ρ m' hpre hagree c]
  try simp only [TRef.ofBuf, TRef.toBuf, cast_eq]
  all_goals rfl

theorem p_main_cst_34_main_cst_34 : KV (Proc.devRef .tc Cert.KernelIdeal.main_cst_34) = RV (Proc.devRef .tc Cert.ReferenceIdeal.main_cst_34) := by
  rw [Cert.KernelIdeal.Tab.fin_main_cst_34 (F := Ideal) m ρ c, Cert.ReferenceIdeal.Tab.fin_main_cst_34 (F := Ideal) (StableHlo.launchContents m' c)]
  rw [nullary_result, nullary_result]
  try simp only [TRef.ofBuf, TRef.toBuf, cast_eq]
  all_goals rfl

theorem p_main_v204_main_v238 : KV (Proc.devRef .tc Cert.KernelIdeal.main_v204) = RV (Proc.devRef .tc Cert.ReferenceIdeal.main_v238) := by
  rw [Cert.KernelIdeal.Tab.fin_main_v204 (F := Ideal) m ρ c, Cert.ReferenceIdeal.Tab.fin_main_v238 (F := Ideal) (StableHlo.launchContents m' c)]
  rw [binary_result, binary_result]
  rw [p_main_v199_main_v233 m ρ m' hpre hagree c, p_main_cst_34_main_cst_34 m ρ m' hpre hagree c]
  try simp only [TRef.ofBuf, TRef.toBuf, cast_eq]
  all_goals rfl

theorem p_main_cst_35_main_cst_35 : KV (Proc.devRef .tc Cert.KernelIdeal.main_cst_35) = RV (Proc.devRef .tc Cert.ReferenceIdeal.main_cst_35) := by
  rw [Cert.KernelIdeal.Tab.fin_main_cst_35 (F := Ideal) m ρ c, Cert.ReferenceIdeal.Tab.fin_main_cst_35 (F := Ideal) (StableHlo.launchContents m' c)]
  rw [nullary_result, nullary_result]
  try simp only [TRef.ofBuf, TRef.toBuf, cast_eq]
  all_goals rfl

theorem p_main_v205_main_v239 : KV (Proc.devRef .tc Cert.KernelIdeal.main_v205) = RV (Proc.devRef .tc Cert.ReferenceIdeal.main_v239) := by
  rw [Cert.KernelIdeal.Tab.fin_main_v205 (F := Ideal) m ρ c, Cert.ReferenceIdeal.Tab.fin_main_v239 (F := Ideal) (StableHlo.launchContents m' c)]
  rw [unary_result, unary_result]
  rw [p_main_cst_35_main_cst_35 m ρ m' hpre hagree c]
  try simp only [TRef.ofBuf, TRef.toBuf, cast_eq]
  all_goals rfl

theorem p_main_v206_main_v240 : KV (Proc.devRef .tc Cert.KernelIdeal.main_v206) = RV (Proc.devRef .tc Cert.ReferenceIdeal.main_v240) := by
  rw [Cert.KernelIdeal.Tab.fin_main_v206 (F := Ideal) m ρ c, Cert.ReferenceIdeal.Tab.fin_main_v240 (F := Ideal) (StableHlo.launchContents m' c)]
  rw [binary_result, binary_result]
  rw [p_main_v204_main_v238 m ρ m' hpre hagree c, p_main_v205_main_v239 m ρ m' hpre hagree c]
  try simp only [TRef.ofBuf, TRef.toBuf, cast_eq]
  all_goals rfl

theorem p_main_call8_cst_1_main_call11_cst_1 : KV (Proc.devRef .tc Cert.KernelIdeal.main_call8_cst_1) = RV (Proc.devRef .tc Cert.ReferenceIdeal.main_call11_cst_1) := by
  rw [Cert.KernelIdeal.Tab.fin_main_call8_cst_1 (F := Ideal) m ρ c, Cert.ReferenceIdeal.Tab.fin_main_call11_cst_1 (F := Ideal) (StableHlo.launchContents m' c)]
  rw [nullary_result, nullary_result]
  try simp only [TRef.ofBuf, TRef.toBuf, cast_eq]
  all_goals rfl

theorem p_main_c_36_main_c_36 : KV (Proc.devRef .tc Cert.KernelIdeal.main_c_36) = RV (Proc.devRef .tc Cert.ReferenceIdeal.main_c_36) := by
  rw [Cert.KernelIdeal.Tab.fin_main_c_36 (F := Ideal) m ρ c, Cert.ReferenceIdeal.Tab.fin_main_c_36 (F := Ideal) (StableHlo.launchContents m' c)]
  rw [nullary_result, nullary_result]
  try simp only [TRef.ofBuf, TRef.toBuf, cast_eq]
  all_goals rfl

theorem p_main_call8_v7_main_call11_v7 : KV (Proc.devRef .tc Cert.KernelIdeal.main_call8_v7) = RV (Proc.devRef .tc Cert.ReferenceIdeal.main_call11_v7) := by
  rw [Cert.KernelIdeal.Tab.fin_main_call8_v7 (F := Ideal) m ρ c, Cert.ReferenceIdeal.Tab.fin_main_call11_v7 (F := Ideal) (StableHlo.launchContents m' c)]
  rw [unary_result, unary_result]
  rw [p_main_c_36_main_c_36 m ρ m' hpre hagree c]
  try simp only [TRef.ofBuf, TRef.toBuf, cast_eq]
  all_goals rfl

theorem p_main_call8_v8_main_call11_v8 : KV (Proc.devRef .tc Cert.KernelIdeal.main_call8_v8) = RV (Proc.devRef .tc Cert.ReferenceIdeal.main_call11_v8) := by
  rw [Cert.KernelIdeal.Tab.fin_main_call8_v8 (F := Ideal) m ρ c, Cert.ReferenceIdeal.Tab.fin_main_call11_v8 (F := Ideal) (StableHlo.launchContents m' c)]
  rw [binary_result, binary_result]
  rw [p_main_call8_cst_1_main_call11_cst_1 m ρ m' hpre hagree c, p_main_call8_v7_main_call11_v7 m ρ m' hpre hagree c]
  try simp only [TRef.ofBuf, TRef.toBuf, cast_eq]
  all_goals rfl

theorem p_main_call8_cst_3_main_call11_cst_3 : KV (Proc.devRef .tc Cert.KernelIdeal.main_call8_cst_3) = RV (Proc.devRef .tc Cert.ReferenceIdeal.main_call11_cst_3) := by
  rw [Cert.KernelIdeal.Tab.fin_main_call8_cst_3 (F := Ideal) m ρ c, Cert.ReferenceIdeal.Tab.fin_main_call11_cst_3 (F := Ideal) (StableHlo.launchContents m' c)]
  rw [nullary_result, nullary_result]
  try simp only [TRef.ofBuf, TRef.toBuf, cast_eq]
  all_goals rfl

theorem p_main_call8_v12_main_call11_v12 : KV (Proc.devRef .tc Cert.KernelIdeal.main_call8_v12) = RV (Proc.devRef .tc Cert.ReferenceIdeal.main_call11_v12) := by
  rw [Cert.KernelIdeal.Tab.fin_main_call8_v12 (F := Ideal) m ρ c, Cert.ReferenceIdeal.Tab.fin_main_call11_v12 (F := Ideal) (StableHlo.launchContents m' c)]
  rw [binary_result, binary_result]
  rw [p_main_call8_v8_main_call11_v8 m ρ m' hpre hagree c, p_main_call8_cst_3_main_call11_cst_3 m ρ m' hpre hagree c]
  try simp only [TRef.ofBuf, TRef.toBuf, cast_eq]
  all_goals rfl

theorem p_main_call8_cst_main_call11_cst : KV (Proc.devRef .tc Cert.KernelIdeal.main_call8_cst) = RV (Proc.devRef .tc Cert.ReferenceIdeal.main_call11_cst) := by
  rw [Cert.KernelIdeal.Tab.fin_main_call8_cst (F := Ideal) m ρ c, Cert.ReferenceIdeal.Tab.fin_main_call11_cst (F := Ideal) (StableHlo.launchContents m' c)]
  rw [nullary_result, nullary_result]
  try simp only [TRef.ofBuf, TRef.toBuf, cast_eq]
  all_goals rfl

theorem p_main_call8_v0_main_call11_v0 : KV (Proc.devRef .tc Cert.KernelIdeal.main_call8_v0) = RV (Proc.devRef .tc Cert.ReferenceIdeal.main_call11_v0) := by
  rw [Cert.KernelIdeal.Tab.fin_main_call8_v0 (F := Ideal) m ρ c, Cert.ReferenceIdeal.Tab.fin_main_call11_v0 (F := Ideal) (StableHlo.launchContents m' c)]
  rw [binary_result, binary_result]
  rw [p_main_v199_main_v233 m ρ m' hpre hagree c, p_main_call8_cst_main_call11_cst m ρ m' hpre hagree c]
  try simp only [TRef.ofBuf, TRef.toBuf, cast_eq]
  all_goals rfl

theorem p_main_call8_v1_main_call11_v1 : KV (Proc.devRef .tc Cert.KernelIdeal.main_call8_v1) = RV (Proc.devRef .tc Cert.ReferenceIdeal.main_call11_v1) := by
  rw [Cert.KernelIdeal.Tab.fin_main_call8_v1 (F := Ideal) m ρ c, Cert.ReferenceIdeal.Tab.fin_main_call11_v1 (F := Ideal) (StableHlo.launchContents m' c)]
  rw [unary_result, unary_result]
  rw [p_main_call8_v0_main_call11_v0 m ρ m' hpre hagree c]
  try simp only [TRef.ofBuf, TRef.toBuf, cast_eq]
  all_goals rfl

theorem p_main_call8_cst_0_main_call11_cst_0 : KV (Proc.devRef .tc Cert.KernelIdeal.main_call8_cst_0) = RV (Proc.devRef .tc Cert.ReferenceIdeal.main_call11_cst_0) := by
  rw [Cert.KernelIdeal.Tab.fin_main_call8_cst_0 (F := Ideal) m ρ c, Cert.ReferenceIdeal.Tab.fin_main_call11_cst_0 (F := Ideal) (StableHlo.launchContents m' c)]
  rw [nullary_result, nullary_result]
  try simp only [TRef.ofBuf, TRef.toBuf, cast_eq]
  all_goals rfl

theorem p_main_call8_v2_main_call11_v2 : KV (Proc.devRef .tc Cert.KernelIdeal.main_call8_v2) = RV (Proc.devRef .tc Cert.ReferenceIdeal.main_call11_v2) := by
  rw [Cert.KernelIdeal.Tab.fin_main_call8_v2 (F := Ideal) m ρ c, Cert.ReferenceIdeal.Tab.fin_main_call11_v2 (F := Ideal) (StableHlo.launchContents m' c)]
  rw [unary_result, unary_result]
  rw [p_main_call8_cst_0_main_call11_cst_0 m ρ m' hpre hagree c]
  try simp only [TRef.ofBuf, TRef.toBuf, cast_eq]
  all_goals rfl

theorem p_main_call8_v3_main_call11_v3 : KV (Proc.devRef .tc Cert.KernelIdeal.main_call8_v3) = RV (Proc.devRef .tc Cert.ReferenceIdeal.main_call11_v3) := by
  rw [Cert.KernelIdeal.Tab.fin_main_call8_v3 (F := Ideal) m ρ c, Cert.ReferenceIdeal.Tab.fin_main_call11_v3 (F := Ideal) (StableHlo.launchContents m' c)]
  rw [binary_result, binary_result]
  rw [p_main_call8_v1_main_call11_v1 m ρ m' hpre hagree c, p_main_call8_v2_main_call11_v2 m ρ m' hpre hagree c]
  try simp only [TRef.ofBuf, TRef.toBuf, cast_eq]
  all_goals rfl

theorem p_main_call8_v4_main_call11_v4 : KV (Proc.devRef .tc Cert.KernelIdeal.main_call8_v4) = RV (Proc.devRef .tc Cert.ReferenceIdeal.main_call11_v4) := by
  rw [Cert.KernelIdeal.Tab.fin_main_call8_v4 (F := Ideal) m ρ c, Cert.ReferenceIdeal.Tab.fin_main_call11_v4 (F := Ideal) (StableHlo.launchContents m' c)]
  rw [unary_result, unary_result]
  rw [p_main_call8_v3_main_call11_v3 m ρ m' hpre hagree c]
  try simp only [TRef.ofBuf, TRef.toBuf, cast_eq]
  all_goals rfl

theorem p_main_call8_v5_main_call11_v5 : KV (Proc.devRef .tc Cert.KernelIdeal.main_call8_v5) = RV (Proc.devRef .tc Cert.ReferenceIdeal.main_call11_v5) := by
  rw [Cert.KernelIdeal.Tab.fin_main_call8_v5 (F := Ideal) m ρ c, Cert.ReferenceIdeal.Tab.fin_main_call11_v5 (F := Ideal) (StableHlo.launchContents m' c)]
  rw [binary_result, binary_result]
  rw [p_main_v199_main_v233 m ρ m' hpre hagree c, p_main_call8_v4_main_call11_v4 m ρ m' hpre hagree c]
  try simp only [TRef.ofBuf, TRef.toBuf, cast_eq]
  all_goals rfl

theorem p_main_call8_v6_main_call11_v6 : KV (Proc.devRef .tc Cert.KernelIdeal.main_call8_v6) = RV (Proc.devRef .tc Cert.ReferenceIdeal.main_call11_v6) := by
  rw [Cert.KernelIdeal.Tab.fin_main_call8_v6 (F := Ideal) m ρ c, Cert.ReferenceIdeal.Tab.fin_main_call11_v6 (F := Ideal) (StableHlo.launchContents m' c)]
  rw [binary_result, binary_result]
  rw [p_main_call8_v5_main_call11_v5 m ρ m' hpre hagree c]
  try simp only [TRef.ofBuf, TRef.toBuf, cast_eq]
  all_goals rfl

theorem p_main_call8_cst_2_main_call11_cst_2 : KV (Proc.devRef .tc Cert.KernelIdeal.main_call8_cst_2) = RV (Proc.devRef .tc Cert.ReferenceIdeal.main_call11_cst_2) := by
  rw [Cert.KernelIdeal.Tab.fin_main_call8_cst_2 (F := Ideal) m ρ c, Cert.ReferenceIdeal.Tab.fin_main_call11_cst_2 (F := Ideal) (StableHlo.launchContents m' c)]
  rw [nullary_result, nullary_result]
  try simp only [TRef.ofBuf, TRef.toBuf, cast_eq]
  all_goals rfl

theorem p_main_call8_v9_main_call11_v9 : KV (Proc.devRef .tc Cert.KernelIdeal.main_call8_v9) = RV (Proc.devRef .tc Cert.ReferenceIdeal.main_call11_v9) := by
  rw [Cert.KernelIdeal.Tab.fin_main_call8_v9 (F := Ideal) m ρ c, Cert.ReferenceIdeal.Tab.fin_main_call11_v9 (F := Ideal) (StableHlo.launchContents m' c)]
  rw [binary_result, binary_result]
  rw [p_main_call8_v6_main_call11_v6 m ρ m' hpre hagree c, p_main_call8_cst_2_main_call11_cst_2 m ρ m' hpre hagree c]
  try simp only [TRef.ofBuf, TRef.toBuf, cast_eq]
  all_goals rfl

theorem p_main_call8_v10_main_call11_v10 : KV (Proc.devRef .tc Cert.KernelIdeal.main_call8_v10) = RV (Proc.devRef .tc Cert.ReferenceIdeal.main_call11_v10) := by
  rw [Cert.KernelIdeal.Tab.fin_main_call8_v10 (F := Ideal) m ρ c, Cert.ReferenceIdeal.Tab.fin_main_call11_v10 (F := Ideal) (StableHlo.launchContents m' c)]
  rw [unary_result, unary_result]
  rw [p_main_call8_v8_main_call11_v8 m ρ m' hpre hagree c]
  try simp only [TRef.ofBuf, TRef.toBuf, cast_eq]
  all_goals rfl

theorem p_main_call8_v11_main_call11_v11 : KV (Proc.devRef .tc Cert.KernelIdeal.main_call8_v11) = RV (Proc.devRef .tc Cert.ReferenceIdeal.main_call11_v11) := by
  rw [Cert.KernelIdeal.Tab.fin_main_call8_v11 (F := Ideal) m ρ c, Cert.ReferenceIdeal.Tab.fin_main_call11_v11 (F := Ideal) (StableHlo.launchContents m' c)]
  rw [binary_result, binary_result]
  rw [p_main_call8_v9_main_call11_v9 m ρ m' hpre hagree c, p_main_call8_v10_main_call11_v10 m ρ m' hpre hagree c]
  try simp only [TRef.ofBuf, TRef.toBuf, cast_eq]
  all_goals rfl

theorem p_main_call8_cst_4_main_call11_cst_4 : KV (Proc.devRef .tc Cert.KernelIdeal.main_call8_cst_4) = RV (Proc.devRef .tc Cert.ReferenceIdeal.main_call11_cst_4) := by
  rw [Cert.KernelIdeal.Tab.fin_main_call8_cst_4 (F := Ideal) m ρ c, Cert.ReferenceIdeal.Tab.fin_main_call11_cst_4 (F := Ideal) (StableHlo.launchContents m' c)]
  rw [nullary_result, nullary_result]
  try simp only [TRef.ofBuf, TRef.toBuf, cast_eq]
  all_goals rfl

theorem p_main_call8_call0_v0_main_call11_call0_v0 : KV (Proc.devRef .tc Cert.KernelIdeal.main_call8_call0_v0) = RV (Proc.devRef .tc Cert.ReferenceIdeal.main_call11_call0_v0) := by
  rw [Cert.KernelIdeal.Tab.fin_main_call8_call0_v0 (F := Ideal) m ρ c, Cert.ReferenceIdeal.Tab.fin_main_call11_call0_v0 (F := Ideal) (StableHlo.launchContents m' c)]
  rw [unary_result, unary_result]
  rw [p_main_call8_cst_4_main_call11_cst_4 m ρ m' hpre hagree c]
  try simp only [TRef.ofBuf, TRef.toBuf, cast_eq]
  all_goals rfl

theorem p_main_call8_call0_v1_main_call11_call0_v1 : KV (Proc.devRef .tc Cert.KernelIdeal.main_call8_call0_v1) = RV (Proc.devRef .tc Cert.ReferenceIdeal.main_call11_call0_v1) := by
  rw [Cert.KernelIdeal.Tab.fin_main_call8_call0_v1 (F := Ideal) m ρ c, Cert.ReferenceIdeal.Tab.fin_main_call11_call0_v1 (F := Ideal) (StableHlo.launchContents m' c)]
  rw [unary_result, unary_result]
  rw [p_main_call8_call0_v0_main_call11_call0_v0 m ρ m' hpre hagree c]
  try simp only [TRef.ofBuf, TRef.toBuf, cast_eq]
  all_goals rfl

theorem p_main_v207_main_v241 : KV (Proc.devRef .tc Cert.KernelIdeal.main_v207) = RV (Proc.devRef .tc Cert.ReferenceIdeal.main_v241) := by
  rw [Cert.KernelIdeal.Tab.fin_main_v207 (F := Ideal) m ρ c, Cert.ReferenceIdeal.Tab.fin_main_v241 (F := Ideal) (StableHlo.launchContents m' c)]
  rw [ternary_result, ternary_result]
  rw [p_main_call8_v12_main_call11_v12 m ρ m' hpre hagree c, p_main_call8_v11_main_call11_v11 m ρ m' hpre hagree c, p_main_call8_call0_v1_main_call11_call0_v1 m ρ m' hpre hagree c]
  try simp only [TRef.ofBuf, TRef.toBuf, cast_eq]
  all_goals rfl

theorem p_main_cst_37_main_cst_37 : KV (Proc.devRef .tc Cert.KernelIdeal.main_cst_37) = RV (Proc.devRef .tc Cert.ReferenceIdeal.main_cst_37) := by
  rw [Cert.KernelIdeal.Tab.fin_main_cst_37 (F := Ideal) m ρ c, Cert.ReferenceIdeal.Tab.fin_main_cst_37 (F := Ideal) (StableHlo.launchContents m' c)]
  rw [nullary_result, nullary_result]
  try simp only [TRef.ofBuf, TRef.toBuf, cast_eq]
  all_goals rfl

theorem p_main_v208_main_v248 : KV (Proc.devRef .tc Cert.KernelIdeal.main_v208) = RV (Proc.devRef .tc Cert.ReferenceIdeal.main_v248) := by
  rw [Cert.KernelIdeal.Tab.fin_main_v208 (F := Ideal) m ρ c, Cert.ReferenceIdeal.Tab.fin_main_v248 (F := Ideal) (StableHlo.launchContents m' c)]
  rw [unary_result, unary_result]
  rw [p_main_cst_37_main_cst_37 m ρ m' hpre hagree c]
  try simp only [TRef.ofBuf, TRef.toBuf, cast_eq]
  all_goals rfl

theorem p_main_v209_main_v249 : KV (Proc.devRef .tc Cert.KernelIdeal.main_v209) = RV (Proc.devRef .tc Cert.ReferenceIdeal.main_v249) := by
  rw [Cert.KernelIdeal.Tab.fin_main_v209 (F := Ideal) m ρ c, Cert.ReferenceIdeal.Tab.fin_main_v249 (F := Ideal) (StableHlo.launchContents m' c)]
  rw [binary_result, binary_result]
  rw [p_main_v207_main_v241 m ρ m' hpre hagree c, p_main_v208_main_v248 m ρ m' hpre hagree c]
  try simp only [TRef.ofBuf, TRef.toBuf, cast_eq]
  all_goals rfl

theorem p_main_v210_main_v250 : KV (Proc.devRef .tc Cert.KernelIdeal.main_v210) = RV (Proc.devRef .tc Cert.ReferenceIdeal.main_v250) := by
  rw [Cert.KernelIdeal.Tab.fin_main_v210 (F := Ideal) m ρ c, Cert.ReferenceIdeal.Tab.fin_main_v250 (F := Ideal) (StableHlo.launchContents m' c)]
  rw [unary_result, unary_result]
  rw [p_main_v209_main_v249 m ρ m' hpre hagree c]
  try simp only [TRef.ofBuf, TRef.toBuf, cast_eq]
  all_goals rfl

theorem rf_main_cst_33 : Cert.Lib.AllFin (RV (Proc.devRef .tc Cert.ReferenceIdeal.main_cst_33)) := by
  rw [Cert.ReferenceIdeal.Tab.fin_main_cst_33 (F := Ideal) (StableHlo.launchContents m' c), nullary_result]
  try simp only [TRef.ofBuf, TRef.toBuf, cast_eq]
  exact Cert.Lib.allFin_constant_one _

theorem rf_main_v220 : Cert.Lib.AllFin (RV (Proc.devRef .tc Cert.ReferenceIdeal.main_v220)) := by
  rw [Cert.ReferenceIdeal.Tab.fin_main_v220 (F := Ideal) (StableHlo.launchContents m' c), unary_result]
  try simp only [TRef.ofBuf, TRef.toBuf, cast_eq]
  exact Cert.Lib.allFin_extractStridedSlice _ _ (rf_main_arg6 m ρ m' hpre hagree c)

theorem rf_main_v221 : Cert.Lib.AllFin (RV (Proc.devRef .tc Cert.ReferenceIdeal.main_v221)) := by
  rw [Cert.ReferenceIdeal.Tab.fin_main_v221 (F := Ideal) (StableHlo.launchContents m' c), reshape_result]
  try simp only [TRef.ofBuf, TRef.toBuf, cast_eq]
  exact Cert.Lib.allFin_shapeCast _ (rf_main_v220 m ρ m' hpre hagree c)

theorem rf_main_v222 : Cert.Lib.AllFin (RV (Proc.devRef .tc Cert.ReferenceIdeal.main_v222)) := by
  rw [Cert.ReferenceIdeal.Tab.fin_main_v222 (F := Ideal) (StableHlo.launchContents m' c), binary_result]
  try simp only [TRef.ofBuf, TRef.toBuf, cast_eq]
  exact Cert.Lib.allFin_addf (rf_main_cst_33 m ρ m' hpre hagree c) (rf_main_v221 m ρ m' hpre hagree c)

theorem rf_main_v223 : Cert.Lib.AllFin (RV (Proc.devRef .tc Cert.ReferenceIdeal.main_v223)) := by
  rw [Cert.ReferenceIdeal.Tab.fin_main_v223 (F := Ideal) (StableHlo.launchContents m' c), unary_result]
  try simp only [TRef.ofBuf, TRef.toBuf, cast_eq]
  exact Cert.Lib.allFin_broadcastInDim _ _ (rf_main_v222 m ρ m' hpre hagree c)

theorem rf_main_v183 : Cert.Lib.AllFin (RV (Proc.devRef .tc Cert.ReferenceIdeal.main_v183)) := by
  rw [Cert.ReferenceIdeal.Tab.fin_main_v183 (F := Ideal) (StableHlo.launchContents m' c), unary_result]
  try simp only [TRef.ofBuf, TRef.toBuf, cast_eq]
  exact Cert.Lib.allFin_broadcastInDim _ _ (rf_main_v173 m ρ m' hpre hagree c)

theorem rf_main_v184 : Cert.Lib.AllFin (RV (Proc.devRef .tc Cert.ReferenceIdeal.main_v184)) := by
  rw [Cert.ReferenceIdeal.Tab.fin_main_v184 (F := Ideal) (StableHlo.launchContents m' c), unary_result]
  try simp only [TRef.ofBuf, TRef.toBuf, cast_eq]
  exact Cert.Lib.allFin_broadcastInDim _ _ (rf_main_v183 m ρ m' hpre hagree c)

theorem rf_main_v180 : Cert.Lib.AllFin (RV (Proc.devRef .tc Cert.ReferenceIdeal.main_v180)) := by
  rw [Cert.ReferenceIdeal.Tab.fin_main_v180 (F := Ideal) (StableHlo.launchContents m' c), unary_result]
  try simp only [TRef.ofBuf, TRef.toBuf, cast_eq]
  exact Cert.Lib.allFin_broadcastInDim _ _ (rf_main_v178 m ρ m' hpre hagree c)

theorem rf_main_v181 : Cert.Lib.AllFin (RV (Proc.devRef .tc Cert.ReferenceIdeal.main_v181)) := by
  rw [Cert.ReferenceIdeal.Tab.fin_main_v181 (F := Ideal) (StableHlo.launchContents m' c), unary_result]
  try simp only [TRef.ofBuf, TRef.toBuf, cast_eq]
  exact Cert.Lib.allFin_broadcastInDim _ _ (rf_main_v180 m ρ m' hpre hagree c)

theorem rf_main_v182 : Cert.Lib.AllFin (RV (Proc.devRef .tc Cert.ReferenceIdeal.main_v182)) := by
  rw [Cert.ReferenceIdeal.Tab.fin_main_v182 (F := Ideal) (StableHlo.launchContents m' c), binary_result]
  try simp only [TRef.ofBuf, TRef.toBuf, cast_eq]
  exact Cert.Lib.allFin_subf (rf_main_v171 m ρ m' hpre hagree c) (rf_main_v181 m ρ m' hpre hagree c)

theorem rf_main_v185 : Cert.Lib.AllFin (RV (Proc.devRef .tc Cert.ReferenceIdeal.main_v185)) := by
  rw [Cert.ReferenceIdeal.Tab.fin_main_v185 (F := Ideal) (StableHlo.launchContents m' c), binary_result]
  try simp only [TRef.ofBuf, TRef.toBuf, cast_eq]
  exact Cert.Lib.allFin_mulf (rf_main_v184 m ρ m' hpre hagree c) (rf_main_v182 m ρ m' hpre hagree c)

theorem rf_main_v189 : Cert.Lib.AllFin (RV (Proc.devRef .tc Cert.ReferenceIdeal.main_v189)) := by
  rw [Cert.ReferenceIdeal.Tab.fin_main_v189 (F := Ideal) (StableHlo.launchContents m' c), unary_result]
  try simp only [TRef.ofBuf, TRef.toBuf, cast_eq]
  exact Cert.Lib.allFin_broadcastInDim _ _ (rf_main_v188 m ρ m' hpre hagree c)

theorem rf_main_v190 : Cert.Lib.AllFin (RV (Proc.devRef .tc Cert.ReferenceIdeal.main_v190)) := by
  rw [Cert.ReferenceIdeal.Tab.fin_main_v190 (F := Ideal) (StableHlo.launchContents m' c), unary_result]
  try simp only [TRef.ofBuf, TRef.toBuf, cast_eq]
  exact Cert.Lib.allFin_broadcastInDim _ _ (rf_main_v189 m ρ m' hpre hagree c)

theorem rf_main_v191 : Cert.Lib.AllFin (RV (Proc.devRef .tc Cert.ReferenceIdeal.main_v191)) := by
  rw [Cert.ReferenceIdeal.Tab.fin_main_v191 (F := Ideal) (StableHlo.launchContents m' c), binary_result]
  try simp only [TRef.ofBuf, TRef.toBuf, cast_eq]
  exact Cert.Lib.allFin_mulf (rf_main_v185 m ρ m' hpre hagree c) (rf_main_v190 m ρ m' hpre hagree c)

theorem rf_main_v192 : Cert.Lib.AllFin (RV (Proc.devRef .tc Cert.ReferenceIdeal.main_v192)) := by
  rw [Cert.ReferenceIdeal.Tab.fin_main_v192 (F := Ideal) (StableHlo.launchContents m' c), unary_result]
  try simp only [TRef.ofBuf, TRef.toBuf, cast_eq]
  exact Cert.Lib.allFin_broadcastInDim _ _ (rf_main_v175 m ρ m' hpre hagree c)

theorem rf_main_v193 : Cert.Lib.AllFin (RV (Proc.devRef .tc Cert.ReferenceIdeal.main_v193)) := by
  rw [Cert.ReferenceIdeal.Tab.fin_main_v193 (F := Ideal) (StableHlo.launchContents m' c), unary_result]
  try simp only [TRef.ofBuf, TRef.toBuf, cast_eq]
  exact Cert.Lib.allFin_broadcastInDim _ _ (rf_main_v192 m ρ m' hpre hagree c)

theorem rf_main_v194 : Cert.Lib.AllFin (RV (Proc.devRef .tc Cert.ReferenceIdeal.main_v194)) := by
  rw [Cert.ReferenceIdeal.Tab.fin_main_v194 (F := Ideal) (StableHlo.launchContents m' c), binary_result]
  try simp only [TRef.ofBuf, TRef.toBuf, cast_eq]
  exact Cert.Lib.allFin_addf (rf_main_v191 m ρ m' hpre hagree c) (rf_main_v193 m ρ m' hpre hagree c)

theorem rf_main_cst_29 : Cert.Lib.AllFin (RV (Proc.devRef .tc Cert.ReferenceIdeal.main_cst_29)) := by
  rw [Cert.ReferenceIdeal.Tab.fin_main_cst_29 (F := Ideal) (StableHlo.launchContents m' c), nullary_result]
  try simp only [TRef.ofBuf, TRef.toBuf, cast_eq]
  exact Cert.Lib.allFin_constant_1em2 _

theorem rf_main_v197 : Cert.Lib.AllFin (RV (Proc.devRef .tc Cert.ReferenceIdeal.main_v197)) := by
  rw [Cert.ReferenceIdeal.Tab.fin_main_v197 (F := Ideal) (StableHlo.launchContents m' c), unary_result]
  try simp only [TRef.ofBuf, TRef.toBuf, cast_eq]
  exact Cert.Lib.allFin_broadcastInDim _ _ (rf_main_cst_29 m ρ m' hpre hagree c)

theorem rf_main_v198 : Cert.Lib.AllFin (RV (Proc.devRef .tc Cert.ReferenceIdeal.main_v198)) := by
  rw [Cert.ReferenceIdeal.Tab.fin_main_v198 (F := Ideal) (StableHlo.launchContents m' c), binary_result]
  try simp only [TRef.ofBuf, TRef.toBuf, cast_eq]
  exact Cert.Lib.allFin_mulf (rf_main_v197 m ρ m' hpre hagree c) (rf_main_v194 m ρ m' hpre hagree c)

theorem rf_main_v199 : Cert.Lib.AllFin (RV (Proc.devRef .tc Cert.ReferenceIdeal.main_v199)) := by
  rw [Cert.ReferenceIdeal.Tab.fin_main_v199 (F := Ideal) (StableHlo.launchContents m' c), ternary_result]
  try simp only [TRef.ofBuf, TRef.toBuf, cast_eq]
  exact Cert.Lib.allFin_select _ (rf_main_v194 m ρ m' hpre hagree c) (rf_main_v198 m ρ m' hpre hagree c)

theorem rf_main_v224 : Cert.Lib.AllFin (RV (Proc.devRef .tc Cert.ReferenceIdeal.main_v224)) := by
  rw [Cert.ReferenceIdeal.Tab.fin_main_v224 (F := Ideal) (StableHlo.launchContents m' c), binary_result]
  try simp only [TRef.ofBuf, TRef.toBuf, cast_eq]
  exact Cert.Lib.allFin_mulf (rf_main_v223 m ρ m' hpre hagree c) (rf_main_v199 m ρ m' hpre hagree c)

theorem rf_main_cst_32 : Cert.Lib.AllFin (RV (Proc.devRef .tc Cert.ReferenceIdeal.main_cst_32)) := by
  rw [Cert.ReferenceIdeal.Tab.fin_main_cst_32 (F := Ideal) (StableHlo.launchContents m' c), nullary_result]
  try simp only [TRef.ofBuf, TRef.toBuf, cast_eq]
  exact Cert.Lib.allFin_constant_zero _

theorem rf_main_v217 : Cert.Lib.AllFin (RV (Proc.devRef .tc Cert.ReferenceIdeal.main_v217)) := by
  rw [Cert.ReferenceIdeal.Tab.fin_main_v217 (F := Ideal) (StableHlo.launchContents m' c), unary_result]
  try simp only [TRef.ofBuf, TRef.toBuf, cast_eq]
  exact Cert.Lib.allFin_broadcastInDim _ _ (rf_main_cst_32 m ρ m' hpre hagree c)

theorem rf_main_v206 : Cert.Lib.AllFin (RV (Proc.devRef .tc Cert.ReferenceIdeal.main_v206)) := by
  rw [Cert.ReferenceIdeal.Tab.fin_main_v206 (F := Ideal) (StableHlo.launchContents m' c), binary_result]
  try simp only [TRef.ofBuf, TRef.toBuf, cast_eq]
  exact Cert.Lib.allFin_gather _ _ _ (rf_main_v199 m ρ m' hpre hagree c)

theorem rf_main_v207 : Cert.Lib.AllFin (RV (Proc.devRef .tc Cert.ReferenceIdeal.main_v207)) := by
  rw [Cert.ReferenceIdeal.Tab.fin_main_v207 (F := Ideal) (StableHlo.launchContents m' c), unary_result]
  try simp only [TRef.ofBuf, TRef.toBuf, cast_eq]
  exact Cert.Lib.allFin_extractStridedSlice _ _ (rf_main_arg4 m ρ m' hpre hagree c)

theorem rf_main_v208 : Cert.Lib.AllFin (RV (Proc.devRef .tc Cert.ReferenceIdeal.main_v208)) := by
  rw [Cert.ReferenceIdeal.Tab.fin_main_v208 (F := Ideal) (StableHlo.launchContents m' c), reshape_result]
  try simp only [TRef.ofBuf, TRef.toBuf, cast_eq]
  exact Cert.Lib.allFin_shapeCast _ (rf_main_v207 m ρ m' hpre hagree c)

theorem rf_main_v209 : Cert.Lib.AllFin (RV (Proc.devRef .tc Cert.ReferenceIdeal.main_v209)) := by
  rw [Cert.ReferenceIdeal.Tab.fin_main_v209 (F := Ideal) (StableHlo.launchContents m' c), binary_result]
  try simp only [TRef.ofBuf, TRef.toBuf, cast_eq]
  exact Cert.Lib.allFin_dotGeneral _ _ _ _ (rf_main_arg1 m ρ m' hpre hagree c) (rf_main_v208 m ρ m' hpre hagree c)

theorem rf_main_v210 : Cert.Lib.AllFin (RV (Proc.devRef .tc Cert.ReferenceIdeal.main_v210)) := by
  rw [Cert.ReferenceIdeal.Tab.fin_main_v210 (F := Ideal) (StableHlo.launchContents m' c), binary_result]
  try simp only [TRef.ofBuf, TRef.toBuf, cast_eq]
  exact Cert.Lib.allFin_addf (rf_main_v206 m ρ m' hpre hagree c) (rf_main_v209 m ρ m' hpre hagree c)

theorem rf_main_v211 : Cert.Lib.AllFin (RV (Proc.devRef .tc Cert.ReferenceIdeal.main_v211)) := by
  rw [Cert.ReferenceIdeal.Tab.fin_main_v211 (F := Ideal) (StableHlo.launchContents m' c), unary_result]
  try simp only [TRef.ofBuf, TRef.toBuf, cast_eq]
  exact Cert.Lib.allFin_extractStridedSlice _ _ (rf_main_arg5 m ρ m' hpre hagree c)

theorem rf_main_v212 : Cert.Lib.AllFin (RV (Proc.devRef .tc Cert.ReferenceIdeal.main_v212)) := by
  rw [Cert.ReferenceIdeal.Tab.fin_main_v212 (F := Ideal) (StableHlo.launchContents m' c), reshape_result]
  try simp only [TRef.ofBuf, TRef.toBuf, cast_eq]
  exact Cert.Lib.allFin_shapeCast _ (rf_main_v211 m ρ m' hpre hagree c)

theorem rf_main_v213 : Cert.Lib.AllFin (RV (Proc.devRef .tc Cert.ReferenceIdeal.main_v213)) := by
  rw [Cert.ReferenceIdeal.Tab.fin_main_v213 (F := Ideal) (StableHlo.launchContents m' c), unary_result]
  try simp only [TRef.ofBuf, TRef.toBuf, cast_eq]
  exact Cert.Lib.allFin_broadcastInDim _ _ (rf_main_v212 m ρ m' hpre hagree c)

theorem rf_main_v214 : Cert.Lib.AllFin (RV (Proc.devRef .tc Cert.ReferenceIdeal.main_v214)) := by
  rw [Cert.ReferenceIdeal.Tab.fin_main_v214 (F := Ideal) (StableHlo.launchContents m' c), unary_result]
  try simp only [TRef.ofBuf, TRef.toBuf, cast_eq]
  exact Cert.Lib.allFin_broadcastInDim _ _ (rf_main_v213 m ρ m' hpre hagree c)

theorem rf_main_v215 : Cert.Lib.AllFin (RV (Proc.devRef .tc Cert.ReferenceIdeal.main_v215)) := by
  rw [Cert.ReferenceIdeal.Tab.fin_main_v215 (F := Ideal) (StableHlo.launchContents m' c), binary_result]
  try simp only [TRef.ofBuf, TRef.toBuf, cast_eq]
  exact Cert.Lib.allFin_addf (rf_main_v210 m ρ m' hpre hagree c) (rf_main_v214 m ρ m' hpre hagree c)

theorem rf_main_call10_cst : Cert.Lib.AllFin (RV (Proc.devRef .tc Cert.ReferenceIdeal.main_call10_cst)) := by
  rw [Cert.ReferenceIdeal.Tab.fin_main_call10_cst (F := Ideal) (StableHlo.launchContents m' c), nullary_result]
  try simp only [TRef.ofBuf, TRef.toBuf, cast_eq]
  exact Cert.Lib.allFin_constant_zero _

theorem rf_main_call10_v0 : Cert.Lib.AllFin (RV (Proc.devRef .tc Cert.ReferenceIdeal.main_call10_v0)) := by
  rw [Cert.ReferenceIdeal.Tab.fin_main_call10_v0 (F := Ideal) (StableHlo.launchContents m' c), unary_result]
  try simp only [TRef.ofBuf, TRef.toBuf, cast_eq]
  exact Cert.Lib.allFin_broadcastInDim _ _ (rf_main_call10_cst m ρ m' hpre hagree c)

theorem rf_main_v216 : Cert.Lib.AllFin (RV (Proc.devRef .tc Cert.ReferenceIdeal.main_v216)) := by
  rw [Cert.ReferenceIdeal.Tab.fin_main_v216 (F := Ideal) (StableHlo.launchContents m' c), binary_result]
  try simp only [TRef.ofBuf, TRef.toBuf, cast_eq]
  exact Cert.Lib.allFin_maximumf (rf_main_v215 m ρ m' hpre hagree c) (rf_main_call10_v0 m ρ m' hpre hagree c)

theorem rf_main_v219 : Cert.Lib.AllFin (RV (Proc.devRef .tc Cert.ReferenceIdeal.main_v219)) := by
  rw [Cert.ReferenceIdeal.Tab.fin_main_v219 (F := Ideal) (StableHlo.launchContents m' c), ternary_result]
  try simp only [TRef.ofBuf, TRef.toBuf, cast_eq]
  exact Cert.Lib.allFin_scatterAdd _ _ _ _ (rf_main_v217 m ρ m' hpre hagree c) (rf_main_v216 m ρ m' hpre hagree c)

theorem rf_main_v225 : Cert.Lib.AllFin (RV (Proc.devRef .tc Cert.ReferenceIdeal.main_v225)) := by
  rw [Cert.ReferenceIdeal.Tab.fin_main_v225 (F := Ideal) (StableHlo.launchContents m' c), binary_result]
  try simp only [TRef.ofBuf, TRef.toBuf, cast_eq]
  exact Cert.Lib.allFin_addf (rf_main_v224 m ρ m' hpre hagree c) (rf_main_v219 m ρ m' hpre hagree c)

theorem rf_main_v226 : Cert.Lib.AllFin (RV (Proc.devRef .tc Cert.ReferenceIdeal.main_v226)) := by
  rw [Cert.ReferenceIdeal.Tab.fin_main_v226 (F := Ideal) (StableHlo.launchContents m' c), unary_result]
  try simp only [TRef.ofBuf, TRef.toBuf, cast_eq]
  exact Cert.Lib.allFin_extractStridedSlice _ _ (rf_main_arg7 m ρ m' hpre hagree c)

theorem rf_main_v227 : Cert.Lib.AllFin (RV (Proc.devRef .tc Cert.ReferenceIdeal.main_v227)) := by
  rw [Cert.ReferenceIdeal.Tab.fin_main_v227 (F := Ideal) (StableHlo.launchContents m' c), reshape_result]
  try simp only [TRef.ofBuf, TRef.toBuf, cast_eq]
  exact Cert.Lib.allFin_shapeCast _ (rf_main_v226 m ρ m' hpre hagree c)

theorem rf_main_v228 : Cert.Lib.AllFin (RV (Proc.devRef .tc Cert.ReferenceIdeal.main_v228)) := by
  rw [Cert.ReferenceIdeal.Tab.fin_main_v228 (F := Ideal) (StableHlo.launchContents m' c), binary_result]
  try simp only [TRef.ofBuf, TRef.toBuf, cast_eq]
  exact Cert.Lib.allFin_dotGeneral _ _ _ _ (rf_main_v225 m ρ m' hpre hagree c) (rf_main_v227 m ρ m' hpre hagree c)

theorem rf_main_v229 : Cert.Lib.AllFin (RV (Proc.devRef .tc Cert.ReferenceIdeal.main_v229)) := by
  rw [Cert.ReferenceIdeal.Tab.fin_main_v229 (F := Ideal) (StableHlo.launchContents m' c), unary_result]
  try simp only [TRef.ofBuf, TRef.toBuf, cast_eq]
  exact Cert.Lib.allFin_extractStridedSlice _ _ (rf_main_arg8 m ρ m' hpre hagree c)

theorem rf_main_v230 : Cert.Lib.AllFin (RV (Proc.devRef .tc Cert.ReferenceIdeal.main_v230)) := by
  rw [Cert.ReferenceIdeal.Tab.fin_main_v230 (F := Ideal) (StableHlo.launchContents m' c), reshape_result]
  try simp only [TRef.ofBuf, TRef.toBuf, cast_eq]
  exact Cert.Lib.allFin_shapeCast _ (rf_main_v229 m ρ m' hpre hagree c)

theorem rf_main_v231 : Cert.Lib.AllFin (RV (Proc.devRef .tc Cert.ReferenceIdeal.main_v231)) := by
  rw [Cert.ReferenceIdeal.Tab.fin_main_v231 (F := Ideal) (StableHlo.launchContents m' c), unary_result]
  try simp only [TRef.ofBuf, TRef.toBuf, cast_eq]
  exact Cert.Lib.allFin_broadcastInDim _ _ (rf_main_v230 m ρ m' hpre hagree c)

theorem rf_main_v232 : Cert.Lib.AllFin (RV (Proc.devRef .tc Cert.ReferenceIdeal.main_v232)) := by
  rw [Cert.ReferenceIdeal.Tab.fin_main_v232 (F := Ideal) (StableHlo.launchContents m' c), unary_result]
  try simp only [TRef.ofBuf, TRef.toBuf, cast_eq]
  exact Cert.Lib.allFin_broadcastInDim _ _ (rf_main_v231 m ρ m' hpre hagree c)

theorem rf_main_v233 : Cert.Lib.AllFin (RV (Proc.devRef .tc Cert.ReferenceIdeal.main_v233)) := by
  rw [Cert.ReferenceIdeal.Tab.fin_main_v233 (F := Ideal) (StableHlo.launchContents m' c), binary_result]
  try simp only [TRef.ofBuf, TRef.toBuf, cast_eq]
  exact Cert.Lib.allFin_addf (rf_main_v228 m ρ m' hpre hagree c) (rf_main_v232 m ρ m' hpre hagree c)

theorem rf_main_v234 : Cert.Lib.AllFin (RV (Proc.devRef .tc Cert.ReferenceIdeal.main_v234)) := by
  rw [Cert.ReferenceIdeal.Tab.fin_main_v234 (F := Ideal) (StableHlo.launchContents m' c), unary_result]
  try simp only [TRef.ofBuf, TRef.toBuf, cast_eq]
  exact Cert.Lib.allFin_extractStridedSlice _ _ (rf_main_arg9 m ρ m' hpre hagree c)

theorem rf_main_v235 : Cert.Lib.AllFin (RV (Proc.devRef .tc Cert.ReferenceIdeal.main_v235)) := by
  rw [Cert.ReferenceIdeal.Tab.fin_main_v235 (F := Ideal) (StableHlo.launchContents m' c), reshape_result]
  try simp only [TRef.ofBuf, TRef.toBuf, cast_eq]
  exact Cert.Lib.allFin_shapeCast _ (rf_main_v234 m ρ m' hpre hagree c)

theorem rf_main_v236 : Cert.Lib.AllFin (RV (Proc.devRef .tc Cert.ReferenceIdeal.main_v236)) := by
  rw [Cert.ReferenceIdeal.Tab.fin_main_v236 (F := Ideal) (StableHlo.launchContents m' c), unary_result]
  try simp only [TRef.ofBuf, TRef.toBuf, cast_eq]
  exact Cert.Lib.allFin_extractStridedSlice _ _ (rf_main_arg10 m ρ m' hpre hagree c)

theorem rf_main_v237 : Cert.Lib.AllFin (RV (Proc.devRef .tc Cert.ReferenceIdeal.main_v237)) := by
  rw [Cert.ReferenceIdeal.Tab.fin_main_v237 (F := Ideal) (StableHlo.launchContents m' c), reshape_result]
  try simp only [TRef.ofBuf, TRef.toBuf, cast_eq]
  exact Cert.Lib.allFin_shapeCast _ (rf_main_v236 m ρ m' hpre hagree c)

theorem rf_main_cst_34 : Cert.Lib.AllFin (RV (Proc.devRef .tc Cert.ReferenceIdeal.main_cst_34)) := by
  rw [Cert.ReferenceIdeal.Tab.fin_main_cst_34 (F := Ideal) (StableHlo.launchContents m' c), nullary_result]
  try simp only [TRef.ofBuf, TRef.toBuf, cast_eq]
  exact Cert.Lib.allFin_constant_zero _

theorem rf_main_v238 : Cert.Lib.AllFin (RV (Proc.devRef .tc Cert.ReferenceIdeal.main_v238)) := by
  rw [Cert.ReferenceIdeal.Tab.fin_main_v238 (F := Ideal) (StableHlo.launchContents m' c), binary_result]
  try simp only [TRef.ofBuf, TRef.toBuf, cast_eq]
  exact Cert.Lib.allFin_reduceAdd _ _ _ _ (rf_main_v233 m ρ m' hpre hagree c) (rf_main_cst_34 m ρ m' hpre hagree c)

theorem rf_main_v240 : Cert.Lib.AllFin (RV (Proc.devRef .tc Cert.ReferenceIdeal.main_v240)) := by
  rw [Cert.ReferenceIdeal.Tab.fin_main_v240 (F := Ideal) (StableHlo.launchContents m' c), binary_result]
  rw [Cert.ReferenceIdeal.Tab.fin_main_v239 (F := Ideal) (StableHlo.launchContents m' c), unary_result]
  rw [Cert.ReferenceIdeal.Tab.fin_main_cst_35 (F := Ideal) (StableHlo.launchContents m' c), nullary_result]
  try simp only [TRef.ofBuf, TRef.toBuf, cast_eq]
  exact Cert.Lib.allFin_divf_hundredThousand _ _ (rf_main_v238 m ρ m' hpre hagree c)

theorem rf_main_v250 : Cert.Lib.AllFin (RV (Proc.devRef .tc Cert.ReferenceIdeal.main_v250)) := by
  rw [Cert.ReferenceIdeal.Tab.fin_main_v250 (F := Ideal) (StableHlo.launchContents m' c), unary_result]
  rw [Cert.ReferenceIdeal.Tab.fin_main_v249 (F := Ideal) (StableHlo.launchContents m' c), binary_result]
  rw [Cert.ReferenceIdeal.Tab.fin_main_v248 (F := Ideal) (StableHlo.launchContents m' c), unary_result]
  rw [Cert.ReferenceIdeal.Tab.fin_main_cst_37 (F := Ideal) (StableHlo.launchContents m' c), nullary_result]
  rw [Cert.ReferenceIdeal.Tab.fin_main_v241 (F := Ideal) (StableHlo.launchContents m' c), ternary_result]
  rw [Cert.ReferenceIdeal.Tab.fin_main_call11_call0_v1 (F := Ideal) (StableHlo.launchContents m' c), unary_result]
  rw [Cert.ReferenceIdeal.Tab.fin_main_call11_call0_v0 (F := Ideal) (StableHlo.launchContents m' c), unary_result]
  rw [Cert.ReferenceIdeal.Tab.fin_main_call11_cst_4 (F := Ideal) (StableHlo.launchContents m' c), nullary_result]
  rw [Cert.ReferenceIdeal.Tab.fin_main_call11_v12 (F := Ideal) (StableHlo.launchContents m' c), binary_result]
  rw [Cert.ReferenceIdeal.Tab.fin_main_call11_cst_3 (F := Ideal) (StableHlo.launchContents m' c), nullary_result]
  rw [Cert.ReferenceIdeal.Tab.fin_main_call11_v11 (F := Ideal) (StableHlo.launchContents m' c), binary_result]
  rw [Cert.ReferenceIdeal.Tab.fin_main_call11_v10 (F := Ideal) (StableHlo.launchContents m' c), unary_result]
  rw [Cert.ReferenceIdeal.Tab.fin_main_call11_v9 (F := Ideal) (StableHlo.launchContents m' c), binary_result]
  rw [Cert.ReferenceIdeal.Tab.fin_main_call11_cst_2 (F := Ideal) (StableHlo.launchContents m' c), nullary_result]
  rw [Cert.ReferenceIdeal.Tab.fin_main_call11_v8 (F := Ideal) (StableHlo.launchContents m' c), binary_result]
  rw [Cert.ReferenceIdeal.Tab.fin_main_call11_cst_1 (F := Ideal) (StableHlo.launchContents m' c), nullary_result]
  rw [Cert.ReferenceIdeal.Tab.fin_main_call11_v7 (F := Ideal) (StableHlo.launchContents m' c), unary_result]
  rw [Cert.ReferenceIdeal.Tab.fin_main_call11_v6 (F := Ideal) (StableHlo.launchContents m' c), binary_result]
  rw [Cert.ReferenceIdeal.Tab.fin_main_call11_v5 (F := Ideal) (StableHlo.launchContents m' c), binary_result]
  rw [Cert.ReferenceIdeal.Tab.fin_main_call11_v4 (F := Ideal) (StableHlo.launchContents m' c), unary_result]
  rw [Cert.ReferenceIdeal.Tab.fin_main_call11_v3 (F := Ideal) (StableHlo.launchContents m' c), binary_result]
  rw [Cert.ReferenceIdeal.Tab.fin_main_call11_v2 (F := Ideal) (StableHlo.launchContents m' c), unary_result]
  rw [Cert.ReferenceIdeal.Tab.fin_main_call11_cst_0 (F := Ideal) (StableHlo.launchContents m' c), nullary_result]
  rw [Cert.ReferenceIdeal.Tab.fin_main_call11_v1 (F := Ideal) (StableHlo.launchContents m' c), unary_result]
  rw [Cert.ReferenceIdeal.Tab.fin_main_call11_v0 (F := Ideal) (StableHlo.launchContents m' c), binary_result]
  rw [Cert.ReferenceIdeal.Tab.fin_main_call11_cst (F := Ideal) (StableHlo.launchContents m' c), nullary_result]
  rw [Cert.ReferenceIdeal.Tab.fin_main_c_36 (F := Ideal) (StableHlo.launchContents m' c), nullary_result]
  try simp only [TRef.ofBuf, TRef.toBuf, cast_eq]
  exact Cert.Seam.rsqrt_var_fin64 _ _ _ _ _ _ _ _ _ (rf_main_v233 m ρ m' hpre hagree c)

theorem p_main_v219_main_v256 : KV (Proc.devRef .tc Cert.KernelIdeal.main_v219) = RV (Proc.devRef .tc Cert.ReferenceIdeal.main_v256) := by
  rw [Cert.KernelIdeal.Tab.fin_main_v219 (F := Ideal) m ρ c, binary_result]
  rw [Cert.KernelIdeal.Tab.fin_main_v218 (F := Ideal) m ρ c, unary_result]
  rw [Cert.KernelIdeal.Tab.fin_main_v217 (F := Ideal) m ρ c, unary_result]
  rw [Cert.KernelIdeal.Tab.fin_main_v216 (F := Ideal) m ρ c, binary_result]
  rw [Cert.KernelIdeal.Tab.fin_main_v215 (F := Ideal) m ρ c, unary_result]
  rw [Cert.KernelIdeal.Tab.fin_main_v214 (F := Ideal) m ρ c, unary_result]
  rw [Cert.KernelIdeal.Tab.fin_main_v213 (F := Ideal) m ρ c, binary_result]
  rw [Cert.KernelIdeal.Tab.fin_main_v212 (F := Ideal) m ρ c, binary_result]
  rw [Cert.KernelIdeal.Tab.fin_main_v211 (F := Ideal) m ρ c, binary_result]
  rw [Cert.ReferenceIdeal.Tab.fin_main_v256 (F := Ideal) (StableHlo.launchContents m' c), binary_result]
  rw [Cert.ReferenceIdeal.Tab.fin_main_v255 (F := Ideal) (StableHlo.launchContents m' c), unary_result]
  rw [Cert.ReferenceIdeal.Tab.fin_main_v254 (F := Ideal) (StableHlo.launchContents m' c), unary_result]
  rw [Cert.ReferenceIdeal.Tab.fin_main_v253 (F := Ideal) (StableHlo.launchContents m' c), binary_result]
  rw [Cert.ReferenceIdeal.Tab.fin_main_v252 (F := Ideal) (StableHlo.launchContents m' c), unary_result]
  rw [Cert.ReferenceIdeal.Tab.fin_main_v251 (F := Ideal) (StableHlo.launchContents m' c), unary_result]
  rw [Cert.ReferenceIdeal.Tab.fin_main_v247 (F := Ideal) (StableHlo.launchContents m' c), binary_result]
  rw [Cert.ReferenceIdeal.Tab.fin_main_v246 (F := Ideal) (StableHlo.launchContents m' c), unary_result]
  rw [Cert.ReferenceIdeal.Tab.fin_main_v245 (F := Ideal) (StableHlo.launchContents m' c), unary_result]
  rw [Cert.ReferenceIdeal.Tab.fin_main_v244 (F := Ideal) (StableHlo.launchContents m' c), binary_result]
  rw [Cert.ReferenceIdeal.Tab.fin_main_v243 (F := Ideal) (StableHlo.launchContents m' c), unary_result]
  rw [Cert.ReferenceIdeal.Tab.fin_main_v242 (F := Ideal) (StableHlo.launchContents m' c), unary_result]
  rw [p_main_v199_main_v233 m ρ m' hpre hagree c, p_main_v201_main_v235 m ρ m' hpre hagree c, p_main_v203_main_v237 m ρ m' hpre hagree c, p_main_v206_main_v240 m ρ m' hpre hagree c, p_main_v210_main_v250 m ρ m' hpre hagree c]
  try simp only [TRef.ofBuf, TRef.toBuf, cast_eq]
  exact Cert.Seam.bn_affine_64 _ _ _ _ _ _ _ (rf_main_v233 m ρ m' hpre hagree c) (rf_main_v235 m ρ m' hpre hagree c) (rf_main_v237 m ρ m' hpre hagree c) (rf_main_v240 m ρ m' hpre hagree c) (rf_main_v250 m ρ m' hpre hagree c)

theorem p_main_cst_38_main_cst_38 : KV (Proc.devRef .tc Cert.KernelIdeal.main_cst_38) = RV (Proc.devRef .tc Cert.ReferenceIdeal.main_cst_38) := by
  rw [Cert.KernelIdeal.Tab.fin_main_cst_38 (F := Ideal) m ρ c, Cert.ReferenceIdeal.Tab.fin_main_cst_38 (F := Ideal) (StableHlo.launchContents m' c)]
  rw [nullary_result, nullary_result]
  try simp only [TRef.ofBuf, TRef.toBuf, cast_eq]
  all_goals rfl

theorem p_main_v220_main_v257 : KV (Proc.devRef .tc Cert.KernelIdeal.main_v220) = RV (Proc.devRef .tc Cert.ReferenceIdeal.main_v257) := by
  rw [Cert.KernelIdeal.Tab.fin_main_v220 (F := Ideal) m ρ c, Cert.ReferenceIdeal.Tab.fin_main_v257 (F := Ideal) (StableHlo.launchContents m' c)]
  rw [unary_result, unary_result]
  rw [p_main_cst_38_main_cst_38 m ρ m' hpre hagree c]
  try simp only [TRef.ofBuf, TRef.toBuf, cast_eq]
  all_goals rfl

theorem p_main_v221_main_v258 : KV (Proc.devRef .tc Cert.KernelIdeal.main_v221) = RV (Proc.devRef .tc Cert.ReferenceIdeal.main_v258) := by
  rw [Cert.KernelIdeal.Tab.fin_main_v221 (F := Ideal) m ρ c, Cert.ReferenceIdeal.Tab.fin_main_v258 (F := Ideal) (StableHlo.launchContents m' c)]
  rw [binary_result, binary_result]
  rw [p_main_v219_main_v256 m ρ m' hpre hagree c, p_main_v220_main_v257 m ρ m' hpre hagree c]
  try simp only [TRef.ofBuf, TRef.toBuf, cast_eq]
  all_goals rfl

theorem p_main_cst_39_main_cst_39 : KV (Proc.devRef .tc Cert.KernelIdeal.main_cst_39) = RV (Proc.devRef .tc Cert.ReferenceIdeal.main_cst_39) := by
  rw [Cert.KernelIdeal.Tab.fin_main_cst_39 (F := Ideal) m ρ c, Cert.ReferenceIdeal.Tab.fin_main_cst_39 (F := Ideal) (StableHlo.launchContents m' c)]
  rw [nullary_result, nullary_result]
  try simp only [TRef.ofBuf, TRef.toBuf, cast_eq]
  all_goals rfl

theorem p_main_v222_main_v259 : KV (Proc.devRef .tc Cert.KernelIdeal.main_v222) = RV (Proc.devRef .tc Cert.ReferenceIdeal.main_v259) := by
  rw [Cert.KernelIdeal.Tab.fin_main_v222 (F := Ideal) m ρ c, Cert.ReferenceIdeal.Tab.fin_main_v259 (F := Ideal) (StableHlo.launchContents m' c)]
  rw [unary_result, unary_result]
  rw [p_main_cst_39_main_cst_39 m ρ m' hpre hagree c]
  try simp only [TRef.ofBuf, TRef.toBuf, cast_eq]
  all_goals rfl

end Cert.Pair

end
-- ==== Proof.Pair3.lean ====
/- The table, continued: buffer by buffer, the kernel program's contents at its last boundary and
   the reference's final contents are equal (each pair from its two operations' reading lemmas and the operands' pairs; a pallas_call's output by its region's value lemma;
   the folded batch-norm affine against the direct form by distributivity over reals), and each float buffer of the reference on the way holds reals only. -/
import proofs.«409037_j72164040508123_1_alg».proof.Proof.Pair2

set_option maxRecDepth 16384

noncomputable section

namespace Cert.Pair

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (hpre : Cert.Pre_KernelIdeal m) (hagree : Agree m m') (c : Dev Cert.KernelIdeal.nD)

local notation "KV" => Cert.KernelIdeal.GenP.W55 (F := Ideal) m ρ c
local notation "RV" => Cert.ReferenceIdeal.RefRun.RV33 (F := Ideal) (StableHlo.launchContents m' c)

include m ρ m' hpre hagree c

theorem p_main_v223_main_v260 : KV (Proc.devRef .tc Cert.KernelIdeal.main_v223) = RV (Proc.devRef .tc Cert.ReferenceIdeal.main_v260) := by
  rw [Cert.KernelIdeal.Tab.fin_main_v223 (F := Ideal) m ρ c, Cert.ReferenceIdeal.Tab.fin_main_v260 (F := Ideal) (StableHlo.launchContents m' c)]
  rw [binary_result, binary_result]
  rw [p_main_v222_main_v259 m ρ m' hpre hagree c, p_main_v219_main_v256 m ρ m' hpre hagree c]
  try simp only [TRef.ofBuf, TRef.toBuf, cast_eq]
  all_goals rfl

theorem p_main_v224_main_v261 : KV (Proc.devRef .tc Cert.KernelIdeal.main_v224) = RV (Proc.devRef .tc Cert.ReferenceIdeal.main_v261) := by
  rw [Cert.KernelIdeal.Tab.fin_main_v224 (F := Ideal) m ρ c, Cert.ReferenceIdeal.Tab.fin_main_v261 (F := Ideal) (StableHlo.launchContents m' c)]
  rw [ternary_result, ternary_result]
  rw [p_main_v221_main_v258 m ρ m' hpre hagree c, p_main_v219_main_v256 m ρ m' hpre hagree c, p_main_v223_main_v260 m ρ m' hpre hagree c]
  try simp only [TRef.ofBuf, TRef.toBuf, cast_eq]
  all_goals rfl

theorem p_main_v225_main_v262 : KV (Proc.devRef .tc Cert.KernelIdeal.main_v225) = RV (Proc.devRef .tc Cert.ReferenceIdeal.main_v262) := by
  rw [Cert.KernelIdeal.Tab.fin_main_v225 (F := Ideal) m ρ c, Cert.ReferenceIdeal.Tab.fin_main_v262 (F := Ideal) (StableHlo.launchContents m' c)]
  rw [unary_result, unary_result]
  rw [p_main_arg11_main_arg11 m ρ m' hpre hagree c]
  try simp only [TRef.ofBuf, TRef.toBuf, cast_eq]
  all_goals rfl

theorem p_main_v226_main_v263 : KV (Proc.devRef .tc Cert.KernelIdeal.main_v226) = RV (Proc.devRef .tc Cert.ReferenceIdeal.main_v263) := by
  rw [Cert.KernelIdeal.Tab.fin_main_v226 (F := Ideal) m ρ c, Cert.ReferenceIdeal.Tab.fin_main_v263 (F := Ideal) (StableHlo.launchContents m' c)]
  rw [reshape_result, reshape_result]
  rw [p_main_v225_main_v262 m ρ m' hpre hagree c]
  try simp only [TRef.ofBuf, TRef.toBuf, cast_eq]
  all_goals rfl

theorem p_main_v227_main_v265 : KV (Proc.devRef .tc Cert.KernelIdeal.main_v227) = RV (Proc.devRef .tc Cert.ReferenceIdeal.main_v265) := by
  rw [Cert.KernelIdeal.Tab.fin_main_v227 (F := Ideal) m ρ c, Cert.ReferenceIdeal.Tab.fin_main_v265 (F := Ideal) (StableHlo.launchContents m' c)]
  rw [unary_result, unary_result]
  rw [p_main_arg12_main_arg12 m ρ m' hpre hagree c]
  try simp only [TRef.ofBuf, TRef.toBuf, cast_eq]
  all_goals rfl

theorem p_main_v228_main_v266 : KV (Proc.devRef .tc Cert.KernelIdeal.main_v228) = RV (Proc.devRef .tc Cert.ReferenceIdeal.main_v266) := by
  rw [Cert.KernelIdeal.Tab.fin_main_v228 (F := Ideal) m ρ c, Cert.ReferenceIdeal.Tab.fin_main_v266 (F := Ideal) (StableHlo.launchContents m' c)]
  rw [reshape_result, reshape_result]
  rw [p_main_v227_main_v265 m ρ m' hpre hagree c]
  try simp only [TRef.ofBuf, TRef.toBuf, cast_eq]
  all_goals rfl

theorem p_main_v229_main_v267 : KV (Proc.devRef .tc Cert.KernelIdeal.main_v229) = RV (Proc.devRef .tc Cert.ReferenceIdeal.main_v267) := by
  rw [Cert.KernelIdeal.Tab.fin_main_v229 (F := Ideal) m ρ c, Cert.ReferenceIdeal.Tab.fin_main_v267 (F := Ideal) (StableHlo.launchContents m' c)]
  rw [reshape_result, unary_result]
  rw [p_main_v228_main_v266 m ρ m' hpre hagree c]
  exact Cert.SeamRow.row64 _ _ _

theorem p_main_v230_main_v269 : KV (Proc.devRef .tc Cert.KernelIdeal.main_v230) = RV (Proc.devRef .tc Cert.ReferenceIdeal.main_v269) := by
  have e0 : Cert.KernelIdeal.GenP.V37 (F := Ideal) m ρ c Cert.KernelIdeal.main_v224 = RV (Proc.devRef .tc Cert.ReferenceIdeal.main_v261) :=
    (Cert.KernelIdeal.Tab.lift37 (F := Ideal) m ρ c Cert.KernelIdeal.main_v224 (by decide)).symm.trans (p_main_v224_main_v261 m ρ m' hpre hagree c)
  have e1 : Cert.KernelIdeal.GenP.V37 (F := Ideal) m ρ c Cert.KernelIdeal.main_v226 = RV (Proc.devRef .tc Cert.ReferenceIdeal.main_v263) :=
    (Cert.KernelIdeal.Tab.lift37 (F := Ideal) m ρ c Cert.KernelIdeal.main_v226 (by decide)).symm.trans (p_main_v226_main_v263 m ρ m' hpre hagree c)
  have e2 : Cert.KernelIdeal.GenP.V37 (F := Ideal) m ρ c Cert.KernelIdeal.main_v229 = RV (Proc.devRef .tc Cert.ReferenceIdeal.main_v267) :=
    (Cert.KernelIdeal.Tab.lift37 (F := Ideal) m ρ c Cert.KernelIdeal.main_v229 (by decide)).symm.trans (p_main_v229_main_v267 m ρ m' hpre hagree c)
  rw [Cert.KernelIdeal.Tab.lift38 (F := Ideal) m ρ c Cert.KernelIdeal.main_v230 (by decide)]
  refine ((Cert.KernelIdeal.GenP.W38_arr (F := Ideal) m ρ c 3).trans (Cert.KernelIdeal.RegionVal.region8_value (Cert.KernelIdeal.GenP.V37 (F := Ideal) m ρ) c Cert.ReferenceIdeal.Facts₀.bcast_S1x64_S100000x64_0_1)).trans ?_
  rw [Cert.ReferenceIdeal.Tab.fin_main_v269 (F := Ideal) (StableHlo.launchContents m' c), binary_result]
  rw [Cert.ReferenceIdeal.Tab.fin_main_v268 (F := Ideal) (StableHlo.launchContents m' c), unary_result]
  rw [Cert.ReferenceIdeal.Tab.fin_main_v264 (F := Ideal) (StableHlo.launchContents m' c), binary_result]
  rw [e0, e1, e2]
  try simp only [TRef.ofBuf, TRef.toBuf, cast_eq]
  all_goals rfl

theorem p_main_arg2_main_arg2 : KV (Proc.devRef .tc Cert.KernelIdeal.main_arg2) = RV (Proc.devRef .tc Cert.ReferenceIdeal.main_arg2) :=
  (Cert.KernelIdeal.GenP.W55_main_arg2 (F := Ideal) m ρ c).trans ((eq_of_heq (hagree.a2 c)).symm.trans (Cert.ReferenceIdeal.Tab.lift0 (F := Ideal) (StableHlo.launchContents m' c) Cert.ReferenceIdeal.main_arg2 (by decide)).symm)

theorem p_main_arg15_main_arg15 : KV (Proc.devRef .tc Cert.KernelIdeal.main_arg15) = RV (Proc.devRef .tc Cert.ReferenceIdeal.main_arg15) :=
  (Cert.KernelIdeal.GenP.W55_main_arg15 (F := Ideal) m ρ c).trans ((eq_of_heq (hagree.a15 c)).symm.trans (Cert.ReferenceIdeal.Tab.lift0 (F := Ideal) (StableHlo.launchContents m' c) Cert.ReferenceIdeal.main_arg15 (by decide)).symm)

theorem p_main_arg16_main_arg16 : KV (Proc.devRef .tc Cert.KernelIdeal.main_arg16) = RV (Proc.devRef .tc Cert.ReferenceIdeal.main_arg16) :=
  (Cert.KernelIdeal.GenP.W55_main_arg16 (F := Ideal) m ρ c).trans ((eq_of_heq (hagree.a16 c)).symm.trans (Cert.ReferenceIdeal.Tab.lift0 (F := Ideal) (StableHlo.launchContents m' c) Cert.ReferenceIdeal.main_arg16 (by decide)).symm)

theorem p_main_v231_main_v271 : KV (Proc.devRef .tc Cert.KernelIdeal.main_v231) = RV (Proc.devRef .tc Cert.ReferenceIdeal.main_v271) := by
  rw [Cert.KernelIdeal.Tab.fin_main_v231 (F := Ideal) m ρ c, Cert.ReferenceIdeal.Tab.fin_main_v271 (F := Ideal) (StableHlo.launchContents m' c)]
  rw [reshape_result, unary_result]
  rw [p_main_arg16_main_arg16 m ρ m' hpre hagree c]
  exact Cert.SeamRow.row64 _ _ _

theorem p_main_v232_main_v273 : KV (Proc.devRef .tc Cert.KernelIdeal.main_v232) = RV (Proc.devRef .tc Cert.ReferenceIdeal.main_v273) := by
  have e0 : Cert.KernelIdeal.GenP.V39 (F := Ideal) m ρ c Cert.KernelIdeal.main_arg2 = RV (Proc.devRef .tc Cert.ReferenceIdeal.main_arg2) :=
    (Cert.KernelIdeal.Tab.lift39 (F := Ideal) m ρ c Cert.KernelIdeal.main_arg2 (by decide)).symm.trans (p_main_arg2_main_arg2 m ρ m' hpre hagree c)
  have e1 : Cert.KernelIdeal.GenP.V39 (F := Ideal) m ρ c Cert.KernelIdeal.main_arg15 = RV (Proc.devRef .tc Cert.ReferenceIdeal.main_arg15) :=
    (Cert.KernelIdeal.Tab.lift39 (F := Ideal) m ρ c Cert.KernelIdeal.main_arg15 (by decide)).symm.trans (p_main_arg15_main_arg15 m ρ m' hpre hagree c)
  have e2 : Cert.KernelIdeal.GenP.V39 (F := Ideal) m ρ c Cert.KernelIdeal.main_v231 = RV (Proc.devRef .tc Cert.ReferenceIdeal.main_v271) :=
    (Cert.KernelIdeal.Tab.lift39 (F := Ideal) m ρ c Cert.KernelIdeal.main_v231 (by decide)).symm.trans (p_main_v231_main_v271 m ρ m' hpre hagree c)
  rw [Cert.KernelIdeal.Tab.lift40 (F := Ideal) m ρ c Cert.KernelIdeal.main_v232 (by decide)]
  refine ((Cert.KernelIdeal.GenP.W40_arr (F := Ideal) m ρ c 3).trans (Cert.KernelIdeal.RegionVal.region9_value (Cert.KernelIdeal.GenP.V39 (F := Ideal) m ρ) c Cert.ReferenceIdeal.Facts₀.bcast_S1x64_S100000x64_0_1)).trans ?_
  rw [Cert.ReferenceIdeal.Tab.fin_main_v273 (F := Ideal) (StableHlo.launchContents m' c), binary_result]
  rw [Cert.ReferenceIdeal.Tab.fin_main_v272 (F := Ideal) (StableHlo.launchContents m' c), unary_result]
  rw [Cert.ReferenceIdeal.Tab.fin_main_v270 (F := Ideal) (StableHlo.launchContents m' c), binary_result]
  rw [e0, e1, e2]
  try simp only [TRef.ofBuf, TRef.toBuf, cast_eq]
  all_goals rfl

theorem p_main_arg17_main_arg17 : KV (Proc.devRef .tc Cert.KernelIdeal.main_arg17) = RV (Proc.devRef .tc Cert.ReferenceIdeal.main_arg17) :=
  (Cert.KernelIdeal.GenP.W55_main_arg17 (F := Ideal) m ρ c).trans ((eq_of_heq (hagree.a17 c)).symm.trans (Cert.ReferenceIdeal.Tab.lift0 (F := Ideal) (StableHlo.launchContents m' c) Cert.ReferenceIdeal.main_arg17 (by decide)).symm)

theorem p_main_arg18_main_arg18 : KV (Proc.devRef .tc Cert.KernelIdeal.main_arg18) = RV (Proc.devRef .tc Cert.ReferenceIdeal.main_arg18) :=
  (Cert.KernelIdeal.GenP.W55_main_arg18 (F := Ideal) m ρ c).trans ((eq_of_heq (hagree.a18 c)).symm.trans (Cert.ReferenceIdeal.Tab.lift0 (F := Ideal) (StableHlo.launchContents m' c) Cert.ReferenceIdeal.main_arg18 (by decide)).symm)

theorem p_main_cst_40_main_cst_40 : KV (Proc.devRef .tc Cert.KernelIdeal.main_cst_40) = RV (Proc.devRef .tc Cert.ReferenceIdeal.main_cst_40) := by
  rw [Cert.KernelIdeal.Tab.fin_main_cst_40 (F := Ideal) m ρ c, Cert.ReferenceIdeal.Tab.fin_main_cst_40 (F := Ideal) (StableHlo.launchContents m' c)]
  rw [nullary_result, nullary_result]
  try simp only [TRef.ofBuf, TRef.toBuf, cast_eq]
  all_goals rfl

theorem p_main_v233_main_v274 : KV (Proc.devRef .tc Cert.KernelIdeal.main_v233) = RV (Proc.devRef .tc Cert.ReferenceIdeal.main_v274) := by
  rw [Cert.KernelIdeal.Tab.fin_main_v233 (F := Ideal) m ρ c, Cert.ReferenceIdeal.Tab.fin_main_v274 (F := Ideal) (StableHlo.launchContents m' c)]
  rw [binary_result, binary_result]
  rw [p_main_v232_main_v273 m ρ m' hpre hagree c, p_main_cst_40_main_cst_40 m ρ m' hpre hagree c]
  try simp only [TRef.ofBuf, TRef.toBuf, cast_eq]
  all_goals rfl

theorem p_main_cst_41_main_cst_41 : KV (Proc.devRef .tc Cert.KernelIdeal.main_cst_41) = RV (Proc.devRef .tc Cert.ReferenceIdeal.main_cst_41) := by
  rw [Cert.KernelIdeal.Tab.fin_main_cst_41 (F := Ideal) m ρ c, Cert.ReferenceIdeal.Tab.fin_main_cst_41 (F := Ideal) (StableHlo.launchContents m' c)]
  rw [nullary_result, nullary_result]
  try simp only [TRef.ofBuf, TRef.toBuf, cast_eq]
  all_goals rfl

theorem p_main_v234_main_v275 : KV (Proc.devRef .tc Cert.KernelIdeal.main_v234) = RV (Proc.devRef .tc Cert.ReferenceIdeal.main_v275) := by
  rw [Cert.KernelIdeal.Tab.fin_main_v234 (F := Ideal) m ρ c, Cert.ReferenceIdeal.Tab.fin_main_v275 (F := Ideal) (StableHlo.launchContents m' c)]
  rw [unary_result, unary_result]
  rw [p_main_cst_41_main_cst_41 m ρ m' hpre hagree c]
  try simp only [TRef.ofBuf, TRef.toBuf, cast_eq]
  all_goals rfl

theorem p_main_v235_main_v276 : KV (Proc.devRef .tc Cert.KernelIdeal.main_v235) = RV (Proc.devRef .tc Cert.ReferenceIdeal.main_v276) := by
  rw [Cert.KernelIdeal.Tab.fin_main_v235 (F := Ideal) m ρ c, Cert.ReferenceIdeal.Tab.fin_main_v276 (F := Ideal) (StableHlo.launchContents m' c)]
  rw [binary_result, binary_result]
  rw [p_main_v233_main_v274 m ρ m' hpre hagree c, p_main_v234_main_v275 m ρ m' hpre hagree c]
  try simp only [TRef.ofBuf, TRef.toBuf, cast_eq]
  all_goals rfl

theorem p_main_call10_cst_1_main_call13_cst_1 : KV (Proc.devRef .tc Cert.KernelIdeal.main_call10_cst_1) = RV (Proc.devRef .tc Cert.ReferenceIdeal.main_call13_cst_1) := by
  rw [Cert.KernelIdeal.Tab.fin_main_call10_cst_1 (F := Ideal) m ρ c, Cert.ReferenceIdeal.Tab.fin_main_call13_cst_1 (F := Ideal) (StableHlo.launchContents m' c)]
  rw [nullary_result, nullary_result]
  try simp only [TRef.ofBuf, TRef.toBuf, cast_eq]
  all_goals rfl

theorem p_main_c_42_main_c_42 : KV (Proc.devRef .tc Cert.KernelIdeal.main_c_42) = RV (Proc.devRef .tc Cert.ReferenceIdeal.main_c_42) := by
  rw [Cert.KernelIdeal.Tab.fin_main_c_42 (F := Ideal) m ρ c, Cert.ReferenceIdeal.Tab.fin_main_c_42 (F := Ideal) (StableHlo.launchContents m' c)]
  rw [nullary_result, nullary_result]
  try simp only [TRef.ofBuf, TRef.toBuf, cast_eq]
  all_goals rfl

theorem p_main_call10_v7_main_call13_v7 : KV (Proc.devRef .tc Cert.KernelIdeal.main_call10_v7) = RV (Proc.devRef .tc Cert.ReferenceIdeal.main_call13_v7) := by
  rw [Cert.KernelIdeal.Tab.fin_main_call10_v7 (F := Ideal) m ρ c, Cert.ReferenceIdeal.Tab.fin_main_call13_v7 (F := Ideal) (StableHlo.launchContents m' c)]
  rw [unary_result, unary_result]
  rw [p_main_c_42_main_c_42 m ρ m' hpre hagree c]
  try simp only [TRef.ofBuf, TRef.toBuf, cast_eq]
  all_goals rfl

theorem p_main_call10_v8_main_call13_v8 : KV (Proc.devRef .tc Cert.KernelIdeal.main_call10_v8) = RV (Proc.devRef .tc Cert.ReferenceIdeal.main_call13_v8) := by
  rw [Cert.KernelIdeal.Tab.fin_main_call10_v8 (F := Ideal) m ρ c, Cert.ReferenceIdeal.Tab.fin_main_call13_v8 (F := Ideal) (StableHlo.launchContents m' c)]
  rw [binary_result, binary_result]
  rw [p_main_call10_cst_1_main_call13_cst_1 m ρ m' hpre hagree c, p_main_call10_v7_main_call13_v7 m ρ m' hpre hagree c]
  try simp only [TRef.ofBuf, TRef.toBuf, cast_eq]
  all_goals rfl

theorem p_main_call10_cst_3_main_call13_cst_3 : KV (Proc.devRef .tc Cert.KernelIdeal.main_call10_cst_3) = RV (Proc.devRef .tc Cert.ReferenceIdeal.main_call13_cst_3) := by
  rw [Cert.KernelIdeal.Tab.fin_main_call10_cst_3 (F := Ideal) m ρ c, Cert.ReferenceIdeal.Tab.fin_main_call13_cst_3 (F := Ideal) (StableHlo.launchContents m' c)]
  rw [nullary_result, nullary_result]
  try simp only [TRef.ofBuf, TRef.toBuf, cast_eq]
  all_goals rfl

theorem p_main_call10_v12_main_call13_v12 : KV (Proc.devRef .tc Cert.KernelIdeal.main_call10_v12) = RV (Proc.devRef .tc Cert.ReferenceIdeal.main_call13_v12) := by
  rw [Cert.KernelIdeal.Tab.fin_main_call10_v12 (F := Ideal) m ρ c, Cert.ReferenceIdeal.Tab.fin_main_call13_v12 (F := Ideal) (StableHlo.launchContents m' c)]
  rw [binary_result, binary_result]
  rw [p_main_call10_v8_main_call13_v8 m ρ m' hpre hagree c, p_main_call10_cst_3_main_call13_cst_3 m ρ m' hpre hagree c]
  try simp only [TRef.ofBuf, TRef.toBuf, cast_eq]
  all_goals rfl

theorem p_main_call10_cst_main_call13_cst : KV (Proc.devRef .tc Cert.KernelIdeal.main_call10_cst) = RV (Proc.devRef .tc Cert.ReferenceIdeal.main_call13_cst) := by
  rw [Cert.KernelIdeal.Tab.fin_main_call10_cst (F := Ideal) m ρ c, Cert.ReferenceIdeal.Tab.fin_main_call13_cst (F := Ideal) (StableHlo.launchContents m' c)]
  rw [nullary_result, nullary_result]
  try simp only [TRef.ofBuf, TRef.toBuf, cast_eq]
  all_goals rfl

theorem p_main_call10_v0_main_call13_v0 : KV (Proc.devRef .tc Cert.KernelIdeal.main_call10_v0) = RV (Proc.devRef .tc Cert.ReferenceIdeal.main_call13_v0) := by
  rw [Cert.KernelIdeal.Tab.fin_main_call10_v0 (F := Ideal) m ρ c, Cert.ReferenceIdeal.Tab.fin_main_call13_v0 (F := Ideal) (StableHlo.launchContents m' c)]
  rw [binary_result, binary_result]
  rw [p_main_v232_main_v273 m ρ m' hpre hagree c, p_main_call10_cst_main_call13_cst m ρ m' hpre hagree c]
  try simp only [TRef.ofBuf, TRef.toBuf, cast_eq]
  all_goals rfl

theorem p_main_call10_v1_main_call13_v1 : KV (Proc.devRef .tc Cert.KernelIdeal.main_call10_v1) = RV (Proc.devRef .tc Cert.ReferenceIdeal.main_call13_v1) := by
  rw [Cert.KernelIdeal.Tab.fin_main_call10_v1 (F := Ideal) m ρ c, Cert.ReferenceIdeal.Tab.fin_main_call13_v1 (F := Ideal) (StableHlo.launchContents m' c)]
  rw [unary_result, unary_result]
  rw [p_main_call10_v0_main_call13_v0 m ρ m' hpre hagree c]
  try simp only [TRef.ofBuf, TRef.toBuf, cast_eq]
  all_goals rfl

theorem p_main_call10_cst_0_main_call13_cst_0 : KV (Proc.devRef .tc Cert.KernelIdeal.main_call10_cst_0) = RV (Proc.devRef .tc Cert.ReferenceIdeal.main_call13_cst_0) := by
  rw [Cert.KernelIdeal.Tab.fin_main_call10_cst_0 (F := Ideal) m ρ c, Cert.ReferenceIdeal.Tab.fin_main_call13_cst_0 (F := Ideal) (StableHlo.launchContents m' c)]
  rw [nullary_result, nullary_result]
  try simp only [TRef.ofBuf, TRef.toBuf, cast_eq]
  all_goals rfl

theorem p_main_call10_v2_main_call13_v2 : KV (Proc.devRef .tc Cert.KernelIdeal.main_call10_v2) = RV (Proc.devRef .tc Cert.ReferenceIdeal.main_call13_v2) := by
  rw [Cert.KernelIdeal.Tab.fin_main_call10_v2 (F := Ideal) m ρ c, Cert.ReferenceIdeal.Tab.fin_main_call13_v2 (F := Ideal) (StableHlo.launchContents m' c)]
  rw [unary_result, unary_result]
  rw [p_main_call10_cst_0_main_call13_cst_0 m ρ m' hpre hagree c]
  try simp only [TRef.ofBuf, TRef.toBuf, cast_eq]
  all_goals rfl

theorem p_main_call10_v3_main_call13_v3 : KV (Proc.devRef .tc Cert.KernelIdeal.main_call10_v3) = RV (Proc.devRef .tc Cert.ReferenceIdeal.main_call13_v3) := by
  rw [Cert.KernelIdeal.Tab.fin_main_call10_v3 (F := Ideal) m ρ c, Cert.ReferenceIdeal.Tab.fin_main_call13_v3 (F := Ideal) (StableHlo.launchContents m' c)]
  rw [binary_result, binary_result]
  rw [p_main_call10_v1_main_call13_v1 m ρ m' hpre hagree c, p_main_call10_v2_main_call13_v2 m ρ m' hpre hagree c]
  try simp only [TRef.ofBuf, TRef.toBuf, cast_eq]
  all_goals rfl

theorem p_main_call10_v4_main_call13_v4 : KV (Proc.devRef .tc Cert.KernelIdeal.main_call10_v4) = RV (Proc.devRef .tc Cert.ReferenceIdeal.main_call13_v4) := by
  rw [Cert.KernelIdeal.Tab.fin_main_call10_v4 (F := Ideal) m ρ c, Cert.ReferenceIdeal.Tab.fin_main_call13_v4 (F := Ideal) (StableHlo.launchContents m' c)]
  rw [unary_result, unary_result]
  rw [p_main_call10_v3_main_call13_v3 m ρ m' hpre hagree c]
  try simp only [TRef.ofBuf, TRef.toBuf, cast_eq]
  all_goals rfl

theorem p_main_call10_v5_main_call13_v5 : KV (Proc.devRef .tc Cert.KernelIdeal.main_call10_v5) = RV (Proc.devRef .tc Cert.ReferenceIdeal.main_call13_v5) := by
  rw [Cert.KernelIdeal.Tab.fin_main_call10_v5 (F := Ideal) m ρ c, Cert.ReferenceIdeal.Tab.fin_main_call13_v5 (F := Ideal) (StableHlo.launchContents m' c)]
  rw [binary_result, binary_result]
  rw [p_main_v232_main_v273 m ρ m' hpre hagree c, p_main_call10_v4_main_call13_v4 m ρ m' hpre hagree c]
  try simp only [TRef.ofBuf, TRef.toBuf, cast_eq]
  all_goals rfl

theorem p_main_call10_v6_main_call13_v6 : KV (Proc.devRef .tc Cert.KernelIdeal.main_call10_v6) = RV (Proc.devRef .tc Cert.ReferenceIdeal.main_call13_v6) := by
  rw [Cert.KernelIdeal.Tab.fin_main_call10_v6 (F := Ideal) m ρ c, Cert.ReferenceIdeal.Tab.fin_main_call13_v6 (F := Ideal) (StableHlo.launchContents m' c)]
  rw [binary_result, binary_result]
  rw [p_main_call10_v5_main_call13_v5 m ρ m' hpre hagree c]
  try simp only [TRef.ofBuf, TRef.toBuf, cast_eq]
  all_goals rfl

theorem p_main_call10_cst_2_main_call13_cst_2 : KV (Proc.devRef .tc Cert.KernelIdeal.main_call10_cst_2) = RV (Proc.devRef .tc Cert.ReferenceIdeal.main_call13_cst_2) := by
  rw [Cert.KernelIdeal.Tab.fin_main_call10_cst_2 (F := Ideal) m ρ c, Cert.ReferenceIdeal.Tab.fin_main_call13_cst_2 (F := Ideal) (StableHlo.launchContents m' c)]
  rw [nullary_result, nullary_result]
  try simp only [TRef.ofBuf, TRef.toBuf, cast_eq]
  all_goals rfl

theorem p_main_call10_v9_main_call13_v9 : KV (Proc.devRef .tc Cert.KernelIdeal.main_call10_v9) = RV (Proc.devRef .tc Cert.ReferenceIdeal.main_call13_v9) := by
  rw [Cert.KernelIdeal.Tab.fin_main_call10_v9 (F := Ideal) m ρ c, Cert.ReferenceIdeal.Tab.fin_main_call13_v9 (F := Ideal) (StableHlo.launchContents m' c)]
  rw [binary_result, binary_result]
  rw [p_main_call10_v6_main_call13_v6 m ρ m' hpre hagree c, p_main_call10_cst_2_main_call13_cst_2 m ρ m' hpre hagree c]
  try simp only [TRef.ofBuf, TRef.toBuf, cast_eq]
  all_goals rfl

theorem p_main_call10_v10_main_call13_v10 : KV (Proc.devRef .tc Cert.KernelIdeal.main_call10_v10) = RV (Proc.devRef .tc Cert.ReferenceIdeal.main_call13_v10) := by
  rw [Cert.KernelIdeal.Tab.fin_main_call10_v10 (F := Ideal) m ρ c, Cert.ReferenceIdeal.Tab.fin_main_call13_v10 (F := Ideal) (StableHlo.launchContents m' c)]
  rw [unary_result, unary_result]
  rw [p_main_call10_v8_main_call13_v8 m ρ m' hpre hagree c]
  try simp only [TRef.ofBuf, TRef.toBuf, cast_eq]
  all_goals rfl

theorem p_main_call10_v11_main_call13_v11 : KV (Proc.devRef .tc Cert.KernelIdeal.main_call10_v11) = RV (Proc.devRef .tc Cert.ReferenceIdeal.main_call13_v11) := by
  rw [Cert.KernelIdeal.Tab.fin_main_call10_v11 (F := Ideal) m ρ c, Cert.ReferenceIdeal.Tab.fin_main_call13_v11 (F := Ideal) (StableHlo.launchContents m' c)]
  rw [binary_result, binary_result]
  rw [p_main_call10_v9_main_call13_v9 m ρ m' hpre hagree c, p_main_call10_v10_main_call13_v10 m ρ m' hpre hagree c]
  try simp only [TRef.ofBuf, TRef.toBuf, cast_eq]
  all_goals rfl

theorem p_main_call10_cst_4_main_call13_cst_4 : KV (Proc.devRef .tc Cert.KernelIdeal.main_call10_cst_4) = RV (Proc.devRef .tc Cert.ReferenceIdeal.main_call13_cst_4) := by
  rw [Cert.KernelIdeal.Tab.fin_main_call10_cst_4 (F := Ideal) m ρ c, Cert.ReferenceIdeal.Tab.fin_main_call13_cst_4 (F := Ideal) (StableHlo.launchContents m' c)]
  rw [nullary_result, nullary_result]
  try simp only [TRef.ofBuf, TRef.toBuf, cast_eq]
  all_goals rfl

theorem p_main_call10_call0_v0_main_call13_call0_v0 : KV (Proc.devRef .tc Cert.KernelIdeal.main_call10_call0_v0) = RV (Proc.devRef .tc Cert.ReferenceIdeal.main_call13_call0_v0) := by
  rw [Cert.KernelIdeal.Tab.fin_main_call10_call0_v0 (F := Ideal) m ρ c, Cert.ReferenceIdeal.Tab.fin_main_call13_call0_v0 (F := Ideal) (StableHlo.launchContents m' c)]
  rw [unary_result, unary_result]
  rw [p_main_call10_cst_4_main_call13_cst_4 m ρ m' hpre hagree c]
  try simp only [TRef.ofBuf, TRef.toBuf, cast_eq]
  all_goals rfl

theorem p_main_call10_call0_v1_main_call13_call0_v1 : KV (Proc.devRef .tc Cert.KernelIdeal.main_call10_call0_v1) = RV (Proc.devRef .tc Cert.ReferenceIdeal.main_call13_call0_v1) := by
  rw [Cert.KernelIdeal.Tab.fin_main_call10_call0_v1 (F := Ideal) m ρ c, Cert.ReferenceIdeal.Tab.fin_main_call13_call0_v1 (F := Ideal) (StableHlo.launchContents m' c)]
  rw [unary_result, unary_result]
  rw [p_main_call10_call0_v0_main_call13_call0_v0 m ρ m' hpre hagree c]
  try simp only [TRef.ofBuf, TRef.toBuf, cast_eq]
  all_goals rfl

theorem p_main_v236_main_v277 : KV (Proc.devRef .tc Cert.KernelIdeal.main_v236) = RV (Proc.devRef .tc Cert.ReferenceIdeal.main_v277) := by
  rw [Cert.KernelIdeal.Tab.fin_main_v236 (F := Ideal) m ρ c, Cert.ReferenceIdeal.Tab.fin_main_v277 (F := Ideal) (StableHlo.launchContents m' c)]
  rw [ternary_result, ternary_result]
  rw [p_main_call10_v12_main_call13_v12 m ρ m' hpre hagree c, p_main_call10_v11_main_call13_v11 m ρ m' hpre hagree c, p_main_call10_call0_v1_main_call13_call0_v1 m ρ m' hpre hagree c]
  try simp only [TRef.ofBuf, TRef.toBuf, cast_eq]
  all_goals rfl

theorem p_main_cst_43_main_cst_43 : KV (Proc.devRef .tc Cert.KernelIdeal.main_cst_43) = RV (Proc.devRef .tc Cert.ReferenceIdeal.main_cst_43) := by
  rw [Cert.KernelIdeal.Tab.fin_main_cst_43 (F := Ideal) m ρ c, Cert.ReferenceIdeal.Tab.fin_main_cst_43 (F := Ideal) (StableHlo.launchContents m' c)]
  rw [nullary_result, nullary_result]
  try simp only [TRef.ofBuf, TRef.toBuf, cast_eq]
  all_goals rfl

theorem p_main_v237_main_v284 : KV (Proc.devRef .tc Cert.KernelIdeal.main_v237) = RV (Proc.devRef .tc Cert.ReferenceIdeal.main_v284) := by
  rw [Cert.KernelIdeal.Tab.fin_main_v237 (F := Ideal) m ρ c, Cert.ReferenceIdeal.Tab.fin_main_v284 (F := Ideal) (StableHlo.launchContents m' c)]
  rw [unary_result, unary_result]
  rw [p_main_cst_43_main_cst_43 m ρ m' hpre hagree c]
  try simp only [TRef.ofBuf, TRef.toBuf, cast_eq]
  all_goals rfl

theorem p_main_v238_main_v285 : KV (Proc.devRef .tc Cert.KernelIdeal.main_v238) = RV (Proc.devRef .tc Cert.ReferenceIdeal.main_v285) := by
  rw [Cert.KernelIdeal.Tab.fin_main_v238 (F := Ideal) m ρ c, Cert.ReferenceIdeal.Tab.fin_main_v285 (F := Ideal) (StableHlo.launchContents m' c)]
  rw [binary_result, binary_result]
  rw [p_main_v236_main_v277 m ρ m' hpre hagree c, p_main_v237_main_v284 m ρ m' hpre hagree c]
  try simp only [TRef.ofBuf, TRef.toBuf, cast_eq]
  all_goals rfl

theorem p_main_v239_main_v286 : KV (Proc.devRef .tc Cert.KernelIdeal.main_v239) = RV (Proc.devRef .tc Cert.ReferenceIdeal.main_v286) := by
  rw [Cert.KernelIdeal.Tab.fin_main_v239 (F := Ideal) m ρ c, Cert.ReferenceIdeal.Tab.fin_main_v286 (F := Ideal) (StableHlo.launchContents m' c)]
  rw [unary_result, unary_result]
  rw [p_main_v238_main_v285 m ρ m' hpre hagree c]
  try simp only [TRef.ofBuf, TRef.toBuf, cast_eq]
  all_goals rfl

theorem rf_main_arg2 : Cert.Lib.AllFin (RV (Proc.devRef .tc Cert.ReferenceIdeal.main_arg2)) := by
  rw [← p_main_arg2_main_arg2 m ρ m' hpre hagree c, Cert.KernelIdeal.GenP.W55_main_arg2 (F := Ideal) m ρ c]
  exact Cert.PreFin.fin_arg2 m hpre c

theorem rf_main_arg15 : Cert.Lib.AllFin (RV (Proc.devRef .tc Cert.ReferenceIdeal.main_arg15)) := by
  rw [← p_main_arg15_main_arg15 m ρ m' hpre hagree c, Cert.KernelIdeal.GenP.W55_main_arg15 (F := Ideal) m ρ c]
  exact Cert.PreFin.fin_arg15 m hpre c

theorem rf_main_v270 : Cert.Lib.AllFin (RV (Proc.devRef .tc Cert.ReferenceIdeal.main_v270)) := by
  rw [Cert.ReferenceIdeal.Tab.fin_main_v270 (F := Ideal) (StableHlo.launchContents m' c), binary_result]
  try simp only [TRef.ofBuf, TRef.toBuf, cast_eq]
  exact Cert.Lib.allFin_dotGeneral _ _ _ _ (rf_main_arg2 m ρ m' hpre hagree c) (rf_main_arg15 m ρ m' hpre hagree c)

theorem rf_main_arg16 : Cert.Lib.AllFin (RV (Proc.devRef .tc Cert.ReferenceIdeal.main_arg16)) := by
  rw [← p_main_arg16_main_arg16 m ρ m' hpre hagree c, Cert.KernelIdeal.GenP.W55_main_arg16 (F := Ideal) m ρ c]
  exact Cert.PreFin.fin_arg16 m hpre c

theorem rf_main_v271 : Cert.Lib.AllFin (RV (Proc.devRef .tc Cert.ReferenceIdeal.main_v271)) := by
  rw [Cert.ReferenceIdeal.Tab.fin_main_v271 (F := Ideal) (StableHlo.launchContents m' c), unary_result]
  try simp only [TRef.ofBuf, TRef.toBuf, cast_eq]
  exact Cert.Lib.allFin_broadcastInDim _ _ (rf_main_arg16 m ρ m' hpre hagree c)

theorem rf_main_v272 : Cert.Lib.AllFin (RV (Proc.devRef .tc Cert.ReferenceIdeal.main_v272)) := by
  rw [Cert.ReferenceIdeal.Tab.fin_main_v272 (F := Ideal) (StableHlo.launchContents m' c), unary_result]
  try simp only [TRef.ofBuf, TRef.toBuf, cast_eq]
  exact Cert.Lib.allFin_broadcastInDim _ _ (rf_main_v271 m ρ m' hpre hagree c)

theorem rf_main_v273 : Cert.Lib.AllFin (RV (Proc.devRef .tc Cert.ReferenceIdeal.main_v273)) := by
  rw [Cert.ReferenceIdeal.Tab.fin_main_v273 (F := Ideal) (StableHlo.launchContents m' c), binary_result]
  try simp only [TRef.ofBuf, TRef.toBuf, cast_eq]
  exact Cert.Lib.allFin_addf (rf_main_v270 m ρ m' hpre hagree c) (rf_main_v272 m ρ m' hpre hagree c)

theorem rf_main_arg17 : Cert.Lib.AllFin (RV (Proc.devRef .tc Cert.ReferenceIdeal.main_arg17)) := by
  rw [← p_main_arg17_main_arg17 m ρ m' hpre hagree c, Cert.KernelIdeal.GenP.W55_main_arg17 (F := Ideal) m ρ c]
  exact Cert.PreFin.fin_arg17 m hpre c

theorem rf_main_arg18 : Cert.Lib.AllFin (RV (Proc.devRef .tc Cert.ReferenceIdeal.main_arg18)) := by
  rw [← p_main_arg18_main_arg18 m ρ m' hpre hagree c, Cert.KernelIdeal.GenP.W55_main_arg18 (F := Ideal) m ρ c]
  exact Cert.PreFin.fin_arg18 m hpre c

theorem rf_main_cst_40 : Cert.Lib.AllFin (RV (Proc.devRef .tc Cert.ReferenceIdeal.main_cst_40)) := by
  rw [Cert.ReferenceIdeal.Tab.fin_main_cst_40 (F := Ideal) (StableHlo.launchContents m' c), nullary_result]
  try simp only [TRef.ofBuf, TRef.toBuf, cast_eq]
  exact Cert.Lib.allFin_constant_zero _

theorem rf_main_v274 : Cert.Lib.AllFin (RV (Proc.devRef .tc Cert.ReferenceIdeal.main_v274)) := by
  rw [Cert.ReferenceIdeal.Tab.fin_main_v274 (F := Ideal) (StableHlo.launchContents m' c), binary_result]
  try simp only [TRef.ofBuf, TRef.toBuf, cast_eq]
  exact Cert.Lib.allFin_reduceAdd _ _ _ _ (rf_main_v273 m ρ m' hpre hagree c) (rf_main_cst_40 m ρ m' hpre hagree c)

theorem rf_main_v276 : Cert.Lib.AllFin (RV (Proc.devRef .tc Cert.ReferenceIdeal.main_v276)) := by
  rw [Cert.ReferenceIdeal.Tab.fin_main_v276 (F := Ideal) (StableHlo.launchContents m' c), binary_result]
  rw [Cert.ReferenceIdeal.Tab.fin_main_v275 (F := Ideal) (StableHlo.launchContents m' c), unary_result]
  rw [Cert.ReferenceIdeal.Tab.fin_main_cst_41 (F := Ideal) (StableHlo.launchContents m' c), nullary_result]
  try simp only [TRef.ofBuf, TRef.toBuf, cast_eq]
  exact Cert.Lib.allFin_divf_hundredThousand _ _ (rf_main_v274 m ρ m' hpre hagree c)

theorem rf_main_v286 : Cert.Lib.AllFin (RV (Proc.devRef .tc Cert.ReferenceIdeal.main_v286)) := by
  rw [Cert.ReferenceIdeal.Tab.fin_main_v286 (F := Ideal) (StableHlo.launchContents m' c), unary_result]
  rw [Cert.ReferenceIdeal.Tab.fin_main_v285 (F := Ideal) (StableHlo.launchContents m' c), binary_result]
  rw [Cert.ReferenceIdeal.Tab.fin_main_v284 (F := Ideal) (StableHlo.launchContents m' c), unary_result]
  rw [Cert.ReferenceIdeal.Tab.fin_main_cst_43 (F := Ideal) (StableHlo.launchContents m' c), nullary_result]
  rw [Cert.ReferenceIdeal.Tab.fin_main_v277 (F := Ideal) (StableHlo.launchContents m' c), ternary_result]
  rw [Cert.ReferenceIdeal.Tab.fin_main_call13_call0_v1 (F := Ideal) (StableHlo.launchContents m' c), unary_result]
  rw [Cert.ReferenceIdeal.Tab.fin_main_call13_call0_v0 (F := Ideal) (StableHlo.launchContents m' c), unary_result]
  rw [Cert.ReferenceIdeal.Tab.fin_main_call13_cst_4 (F := Ideal) (StableHlo.launchContents m' c), nullary_result]
  rw [Cert.ReferenceIdeal.Tab.fin_main_call13_v12 (F := Ideal) (StableHlo.launchContents m' c), binary_result]
  rw [Cert.ReferenceIdeal.Tab.fin_main_call13_cst_3 (F := Ideal) (StableHlo.launchContents m' c), nullary_result]
  rw [Cert.ReferenceIdeal.Tab.fin_main_call13_v11 (F := Ideal) (StableHlo.launchContents m' c), binary_result]
  rw [Cert.ReferenceIdeal.Tab.fin_main_call13_v10 (F := Ideal) (StableHlo.launchContents m' c), unary_result]
  rw [Cert.ReferenceIdeal.Tab.fin_main_call13_v9 (F := Ideal) (StableHlo.launchContents m' c), binary_result]
  rw [Cert.ReferenceIdeal.Tab.fin_main_call13_cst_2 (F := Ideal) (StableHlo.launchContents m' c), nullary_result]
  rw [Cert.ReferenceIdeal.Tab.fin_main_call13_v8 (F := Ideal) (StableHlo.launchContents m' c), binary_result]
  rw [Cert.ReferenceIdeal.Tab.fin_main_call13_cst_1 (F := Ideal) (StableHlo.launchContents m' c), nullary_result]
  rw [Cert.ReferenceIdeal.Tab.fin_main_call13_v7 (F := Ideal) (StableHlo.launchContents m' c), unary_result]
  rw [Cert.ReferenceIdeal.Tab.fin_main_call13_v6 (F := Ideal) (StableHlo.launchContents m' c), binary_result]
  rw [Cert.ReferenceIdeal.Tab.fin_main_call13_v5 (F := Ideal) (StableHlo.launchContents m' c), binary_result]
  rw [Cert.ReferenceIdeal.Tab.fin_main_call13_v4 (F := Ideal) (StableHlo.launchContents m' c), unary_result]
  rw [Cert.ReferenceIdeal.Tab.fin_main_call13_v3 (F := Ideal) (StableHlo.launchContents m' c), binary_result]
  rw [Cert.ReferenceIdeal.Tab.fin_main_call13_v2 (F := Ideal) (StableHlo.launchContents m' c), unary_result]
  rw [Cert.ReferenceIdeal.Tab.fin_main_call13_cst_0 (F := Ideal) (StableHlo.launchContents m' c), nullary_result]
  rw [Cert.ReferenceIdeal.Tab.fin_main_call13_v1 (F := Ideal) (StableHlo.launchContents m' c), unary_result]
  rw [Cert.ReferenceIdeal.Tab.fin_main_call13_v0 (F := Ideal) (StableHlo.launchContents m' c), binary_result]
  rw [Cert.ReferenceIdeal.Tab.fin_main_call13_cst (F := Ideal) (StableHlo.launchContents m' c), nullary_result]
  rw [Cert.ReferenceIdeal.Tab.fin_main_c_42 (F := Ideal) (StableHlo.launchContents m' c), nullary_result]
  try simp only [TRef.ofBuf, TRef.toBuf, cast_eq]
  exact Cert.Seam.rsqrt_var_fin64 _ _ _ _ _ _ _ _ _ (rf_main_v273 m ρ m' hpre hagree c)

theorem p_main_v248_main_v292 : KV (Proc.devRef .tc Cert.KernelIdeal.main_v248) = RV (Proc.devRef .tc Cert.ReferenceIdeal.main_v292) := by
  rw [Cert.KernelIdeal.Tab.fin_main_v248 (F := Ideal) m ρ c, binary_result]
  rw [Cert.KernelIdeal.Tab.fin_main_v247 (F := Ideal) m ρ c, unary_result]
  rw [Cert.KernelIdeal.Tab.fin_main_v246 (F := Ideal) m ρ c, unary_result]
  rw [Cert.KernelIdeal.Tab.fin_main_v245 (F := Ideal) m ρ c, binary_result]
  rw [Cert.KernelIdeal.Tab.fin_main_v244 (F := Ideal) m ρ c, unary_result]
  rw [Cert.KernelIdeal.Tab.fin_main_v243 (F := Ideal) m ρ c, unary_result]
  rw [Cert.KernelIdeal.Tab.fin_main_v242 (F := Ideal) m ρ c, binary_result]
  rw [Cert.KernelIdeal.Tab.fin_main_v241 (F := Ideal) m ρ c, binary_result]
  rw [Cert.KernelIdeal.Tab.fin_main_v240 (F := Ideal) m ρ c, binary_result]
  rw [Cert.ReferenceIdeal.Tab.fin_main_v292 (F := Ideal) (StableHlo.launchContents m' c), binary_result]
  rw [Cert.ReferenceIdeal.Tab.fin_main_v291 (F := Ideal) (StableHlo.launchContents m' c), unary_result]
  rw [Cert.ReferenceIdeal.Tab.fin_main_v290 (F := Ideal) (StableHlo.launchContents m' c), unary_result]
  rw [Cert.ReferenceIdeal.Tab.fin_main_v289 (F := Ideal) (StableHlo.launchContents m' c), binary_result]
  rw [Cert.ReferenceIdeal.Tab.fin_main_v288 (F := Ideal) (StableHlo.launchContents m' c), unary_result]
  rw [Cert.ReferenceIdeal.Tab.fin_main_v287 (F := Ideal) (StableHlo.launchContents m' c), unary_result]
  rw [Cert.ReferenceIdeal.Tab.fin_main_v283 (F := Ideal) (StableHlo.launchContents m' c), binary_result]
  rw [Cert.ReferenceIdeal.Tab.fin_main_v282 (F := Ideal) (StableHlo.launchContents m' c), unary_result]
  rw [Cert.ReferenceIdeal.Tab.fin_main_v281 (F := Ideal) (StableHlo.launchContents m' c), unary_result]
  rw [Cert.ReferenceIdeal.Tab.fin_main_v280 (F := Ideal) (StableHlo.launchContents m' c), binary_result]
  rw [Cert.ReferenceIdeal.Tab.fin_main_v279 (F := Ideal) (StableHlo.launchContents m' c), unary_result]
  rw [Cert.ReferenceIdeal.Tab.fin_main_v278 (F := Ideal) (StableHlo.launchContents m' c), unary_result]
  rw [p_main_v232_main_v273 m ρ m' hpre hagree c, p_main_arg17_main_arg17 m ρ m' hpre hagree c, p_main_arg18_main_arg18 m ρ m' hpre hagree c, p_main_v235_main_v276 m ρ m' hpre hagree c, p_main_v239_main_v286 m ρ m' hpre hagree c]
  try simp only [TRef.ofBuf, TRef.toBuf, cast_eq]
  exact Cert.Seam.bn_affine_64 _ _ _ _ _ _ _ (rf_main_v273 m ρ m' hpre hagree c) (rf_main_arg17 m ρ m' hpre hagree c) (rf_main_arg18 m ρ m' hpre hagree c) (rf_main_v276 m ρ m' hpre hagree c) (rf_main_v286 m ρ m' hpre hagree c)

theorem p_main_cst_44_main_cst_44 : KV (Proc.devRef .tc Cert.KernelIdeal.main_cst_44) = RV (Proc.devRef .tc Cert.ReferenceIdeal.main_cst_44) := by
  rw [Cert.KernelIdeal.Tab.fin_main_cst_44 (F := Ideal) m ρ c, Cert.ReferenceIdeal.Tab.fin_main_cst_44 (F := Ideal) (StableHlo.launchContents m' c)]
  rw [nullary_result, nullary_result]
  try simp only [TRef.ofBuf, TRef.toBuf, cast_eq]
  all_goals rfl

theorem p_main_v249_main_v293 : KV (Proc.devRef .tc Cert.KernelIdeal.main_v249) = RV (Proc.devRef .tc Cert.ReferenceIdeal.main_v293) := by
  rw [Cert.KernelIdeal.Tab.fin_main_v249 (F := Ideal) m ρ c, Cert.ReferenceIdeal.Tab.fin_main_v293 (F := Ideal) (StableHlo.launchContents m' c)]
  rw [unary_result, unary_result]
  rw [p_main_cst_44_main_cst_44 m ρ m' hpre hagree c]
  try simp only [TRef.ofBuf, TRef.toBuf, cast_eq]
  all_goals rfl

theorem p_main_v250_main_v294 : KV (Proc.devRef .tc Cert.KernelIdeal.main_v250) = RV (Proc.devRef .tc Cert.ReferenceIdeal.main_v294) := by
  rw [Cert.KernelIdeal.Tab.fin_main_v250 (F := Ideal) m ρ c, Cert.ReferenceIdeal.Tab.fin_main_v294 (F := Ideal) (StableHlo.launchContents m' c)]
  rw [binary_result, binary_result]
  rw [p_main_v248_main_v292 m ρ m' hpre hagree c, p_main_v249_main_v293 m ρ m' hpre hagree c]
  try simp only [TRef.ofBuf, TRef.toBuf, cast_eq]
  all_goals rfl

theorem p_main_cst_45_main_cst_45 : KV (Proc.devRef .tc Cert.KernelIdeal.main_cst_45) = RV (Proc.devRef .tc Cert.ReferenceIdeal.main_cst_45) := by
  rw [Cert.KernelIdeal.Tab.fin_main_cst_45 (F := Ideal) m ρ c, Cert.ReferenceIdeal.Tab.fin_main_cst_45 (F := Ideal) (StableHlo.launchContents m' c)]
  rw [nullary_result, nullary_result]
  try simp only [TRef.ofBuf, TRef.toBuf, cast_eq]
  all_goals rfl

theorem p_main_v251_main_v295 : KV (Proc.devRef .tc Cert.KernelIdeal.main_v251) = RV (Proc.devRef .tc Cert.ReferenceIdeal.main_v295) := by
  rw [Cert.KernelIdeal.Tab.fin_main_v251 (F := Ideal) m ρ c, Cert.ReferenceIdeal.Tab.fin_main_v295 (F := Ideal) (StableHlo.launchContents m' c)]
  rw [unary_result, unary_result]
  rw [p_main_cst_45_main_cst_45 m ρ m' hpre hagree c]
  try simp only [TRef.ofBuf, TRef.toBuf, cast_eq]
  all_goals rfl

theorem p_main_v252_main_v296 : KV (Proc.devRef .tc Cert.KernelIdeal.main_v252) = RV (Proc.devRef .tc Cert.ReferenceIdeal.main_v296) := by
  rw [Cert.KernelIdeal.Tab.fin_main_v252 (F := Ideal) m ρ c, Cert.ReferenceIdeal.Tab.fin_main_v296 (F := Ideal) (StableHlo.launchContents m' c)]
  rw [binary_result, binary_result]
  rw [p_main_v251_main_v295 m ρ m' hpre hagree c, p_main_v248_main_v292 m ρ m' hpre hagree c]
  try simp only [TRef.ofBuf, TRef.toBuf, cast_eq]
  all_goals rfl

theorem p_main_v253_main_v297 : KV (Proc.devRef .tc Cert.KernelIdeal.main_v253) = RV (Proc.devRef .tc Cert.ReferenceIdeal.main_v297) := by
  rw [Cert.KernelIdeal.Tab.fin_main_v253 (F := Ideal) m ρ c, Cert.ReferenceIdeal.Tab.fin_main_v297 (F := Ideal) (StableHlo.launchContents m' c)]
  rw [ternary_result, ternary_result]
  rw [p_main_v250_main_v294 m ρ m' hpre hagree c, p_main_v248_main_v292 m ρ m' hpre hagree c, p_main_v252_main_v296 m ρ m' hpre hagree c]
  try simp only [TRef.ofBuf, TRef.toBuf, cast_eq]
  all_goals rfl

theorem p_main_arg19_main_arg19 : KV (Proc.devRef .tc Cert.KernelIdeal.main_arg19) = RV (Proc.devRef .tc Cert.ReferenceIdeal.main_arg19) :=
  (Cert.KernelIdeal.GenP.W55_main_arg19 (F := Ideal) m ρ c).trans ((eq_of_heq (hagree.a19 c)).symm.trans (Cert.ReferenceIdeal.Tab.lift0 (F := Ideal) (StableHlo.launchContents m' c) Cert.ReferenceIdeal.main_arg19 (by decide)).symm)

theorem p_main_arg20_main_arg20 : KV (Proc.devRef .tc Cert.KernelIdeal.main_arg20) = RV (Proc.devRef .tc Cert.ReferenceIdeal.main_arg20) :=
  (Cert.KernelIdeal.GenP.W55_main_arg20 (F := Ideal) m ρ c).trans ((eq_of_heq (hagree.a20 c)).symm.trans (Cert.ReferenceIdeal.Tab.lift0 (F := Ideal) (StableHlo.launchContents m' c) Cert.ReferenceIdeal.main_arg20 (by decide)).symm)

theorem p_main_v254_main_v299 : KV (Proc.devRef .tc Cert.KernelIdeal.main_v254) = RV (Proc.devRef .tc Cert.ReferenceIdeal.main_v299) := by
  rw [Cert.KernelIdeal.Tab.fin_main_v254 (F := Ideal) m ρ c, Cert.ReferenceIdeal.Tab.fin_main_v299 (F := Ideal) (StableHlo.launchContents m' c)]
  rw [reshape_result, unary_result]
  rw [p_main_arg20_main_arg20 m ρ m' hpre hagree c]
  exact Cert.SeamRow.row64 _ _ _

theorem p_main_v255_main_v301 : KV (Proc.devRef .tc Cert.KernelIdeal.main_v255) = RV (Proc.devRef .tc Cert.ReferenceIdeal.main_v301) := by
  have e0 : Cert.KernelIdeal.GenP.V45 (F := Ideal) m ρ c Cert.KernelIdeal.main_v253 = RV (Proc.devRef .tc Cert.ReferenceIdeal.main_v297) :=
    (Cert.KernelIdeal.Tab.lift45 (F := Ideal) m ρ c Cert.KernelIdeal.main_v253 (by decide)).symm.trans (p_main_v253_main_v297 m ρ m' hpre hagree c)
  have e1 : Cert.KernelIdeal.GenP.V45 (F := Ideal) m ρ c Cert.KernelIdeal.main_arg19 = RV (Proc.devRef .tc Cert.ReferenceIdeal.main_arg19) :=
    (Cert.KernelIdeal.Tab.lift45 (F := Ideal) m ρ c Cert.KernelIdeal.main_arg19 (by decide)).symm.trans (p_main_arg19_main_arg19 m ρ m' hpre hagree c)
  have e2 : Cert.KernelIdeal.GenP.V45 (F := Ideal) m ρ c Cert.KernelIdeal.main_v254 = RV (Proc.devRef .tc Cert.ReferenceIdeal.main_v299) :=
    (Cert.KernelIdeal.Tab.lift45 (F := Ideal) m ρ c Cert.KernelIdeal.main_v254 (by decide)).symm.trans (p_main_v254_main_v299 m ρ m' hpre hagree c)
  rw [Cert.KernelIdeal.Tab.lift46 (F := Ideal) m ρ c Cert.KernelIdeal.main_v255 (by decide)]
  refine ((Cert.KernelIdeal.GenP.W46_arr (F := Ideal) m ρ c 3).trans (Cert.KernelIdeal.RegionVal.region10_value (Cert.KernelIdeal.GenP.V45 (F := Ideal) m ρ) c Cert.ReferenceIdeal.Facts₀.bcast_S1x64_S100000x64_0_1)).trans ?_
  rw [Cert.ReferenceIdeal.Tab.fin_main_v301 (F := Ideal) (StableHlo.launchContents m' c), binary_result]
  rw [Cert.ReferenceIdeal.Tab.fin_main_v300 (F := Ideal) (StableHlo.launchContents m' c), unary_result]
  rw [Cert.ReferenceIdeal.Tab.fin_main_v298 (F := Ideal) (StableHlo.launchContents m' c), binary_result]
  rw [e0, e1, e2]
  try simp only [TRef.ofBuf, TRef.toBuf, cast_eq]
  all_goals rfl

theorem p_main_v256_main_v302 : KV (Proc.devRef .tc Cert.KernelIdeal.main_v256) = RV (Proc.devRef .tc Cert.ReferenceIdeal.main_v302) := by
  rw [Cert.KernelIdeal.Tab.fin_main_v256 (F := Ideal) m ρ c, Cert.ReferenceIdeal.Tab.fin_main_v302 (F := Ideal) (StableHlo.launchContents m' c)]
  rw [binary_result, binary_result]
  rw [p_main_v230_main_v269 m ρ m' hpre hagree c, p_main_v255_main_v301 m ρ m' hpre hagree c]
  try simp only [TRef.ofBuf, TRef.toBuf, cast_eq]
  all_goals rfl

theorem p_main_arg21_main_arg21 : KV (Proc.devRef .tc Cert.KernelIdeal.main_arg21) = RV (Proc.devRef .tc Cert.ReferenceIdeal.main_arg21) :=
  (Cert.KernelIdeal.GenP.W55_main_arg21 (F := Ideal) m ρ c).trans ((eq_of_heq (hagree.a21 c)).symm.trans (Cert.ReferenceIdeal.Tab.lift0 (F := Ideal) (StableHlo.launchContents m' c) Cert.ReferenceIdeal.main_arg21 (by decide)).symm)

theorem p_main_arg22_main_arg22 : KV (Proc.devRef .tc Cert.KernelIdeal.main_arg22) = RV (Proc.devRef .tc Cert.ReferenceIdeal.main_arg22) :=
  (Cert.KernelIdeal.GenP.W55_main_arg22 (F := Ideal) m ρ c).trans ((eq_of_heq (hagree.a22 c)).symm.trans (Cert.ReferenceIdeal.Tab.lift0 (F := Ideal) (StableHlo.launchContents m' c) Cert.ReferenceIdeal.main_arg22 (by decide)).symm)

theorem p_main_v257_main_v304 : KV (Proc.devRef .tc Cert.KernelIdeal.main_v257) = RV (Proc.devRef .tc Cert.ReferenceIdeal.main_v304) := by
  rw [Cert.KernelIdeal.Tab.fin_main_v257 (F := Ideal) m ρ c, Cert.ReferenceIdeal.Tab.fin_main_v304 (F := Ideal) (StableHlo.launchContents m' c)]
  rw [reshape_result, unary_result]
  rw [p_main_arg22_main_arg22 m ρ m' hpre hagree c]
  exact Cert.SeamRow.row128 _ _ _

theorem p_main_v258_main_v306 : KV (Proc.devRef .tc Cert.KernelIdeal.main_v258) = RV (Proc.devRef .tc Cert.ReferenceIdeal.main_v306) := by
  have e0 : Cert.KernelIdeal.GenP.V47 (F := Ideal) m ρ c Cert.KernelIdeal.main_v256 = RV (Proc.devRef .tc Cert.ReferenceIdeal.main_v302) :=
    (Cert.KernelIdeal.Tab.lift47 (F := Ideal) m ρ c Cert.KernelIdeal.main_v256 (by decide)).symm.trans (p_main_v256_main_v302 m ρ m' hpre hagree c)
  have e1 : Cert.KernelIdeal.GenP.V47 (F := Ideal) m ρ c Cert.KernelIdeal.main_arg21 = RV (Proc.devRef .tc Cert.ReferenceIdeal.main_arg21) :=
    (Cert.KernelIdeal.Tab.lift47 (F := Ideal) m ρ c Cert.KernelIdeal.main_arg21 (by decide)).symm.trans (p_main_arg21_main_arg21 m ρ m' hpre hagree c)
  have e2 : Cert.KernelIdeal.GenP.V47 (F := Ideal) m ρ c Cert.KernelIdeal.main_v257 = RV (Proc.devRef .tc Cert.ReferenceIdeal.main_v304) :=
    (Cert.KernelIdeal.Tab.lift47 (F := Ideal) m ρ c Cert.KernelIdeal.main_v257 (by decide)).symm.trans (p_main_v257_main_v304 m ρ m' hpre hagree c)
  rw [Cert.KernelIdeal.Tab.lift48 (F := Ideal) m ρ c Cert.KernelIdeal.main_v258 (by decide)]
  refine ((Cert.KernelIdeal.GenP.W48_arr (F := Ideal) m ρ c 3).trans (Cert.KernelIdeal.RegionVal.region11_value (Cert.KernelIdeal.GenP.V47 (F := Ideal) m ρ) c Cert.ReferenceIdeal.Facts₀.bcast_S1x128_S100000x128_0_1)).trans ?_
  rw [Cert.ReferenceIdeal.Tab.fin_main_v306 (F := Ideal) (StableHlo.launchContents m' c), binary_result]
  rw [Cert.ReferenceIdeal.Tab.fin_main_v305 (F := Ideal) (StableHlo.launchContents m' c), unary_result]
  rw [Cert.ReferenceIdeal.Tab.fin_main_v303 (F := Ideal) (StableHlo.launchContents m' c), binary_result]
  rw [e0, e1, e2]
  try simp only [TRef.ofBuf, TRef.toBuf, cast_eq]
  all_goals rfl

theorem p_main_arg23_main_arg23 : KV (Proc.devRef .tc Cert.KernelIdeal.main_arg23) = RV (Proc.devRef .tc Cert.ReferenceIdeal.main_arg23) :=
  (Cert.KernelIdeal.GenP.W55_main_arg23 (F := Ideal) m ρ c).trans ((eq_of_heq (hagree.a23 c)).symm.trans (Cert.ReferenceIdeal.Tab.lift0 (F := Ideal) (StableHlo.launchContents m' c) Cert.ReferenceIdeal.main_arg23 (by decide)).symm)

theorem p_main_arg24_main_arg24 : KV (Proc.devRef .tc Cert.KernelIdeal.main_arg24) = RV (Proc.devRef .tc Cert.ReferenceIdeal.main_arg24) :=
  (Cert.KernelIdeal.GenP.W55_main_arg24 (F := Ideal) m ρ c).trans ((eq_of_heq (hagree.a24 c)).symm.trans (Cert.ReferenceIdeal.Tab.lift0 (F := Ideal) (StableHlo.launchContents m' c) Cert.ReferenceIdeal.main_arg24 (by decide)).symm)

theorem p_main_cst_46_main_cst_46 : KV (Proc.devRef .tc Cert.KernelIdeal.main_cst_46) = RV (Proc.devRef .tc Cert.ReferenceIdeal.main_cst_46) := by
  rw [Cert.KernelIdeal.Tab.fin_main_cst_46 (F := Ideal) m ρ c, Cert.ReferenceIdeal.Tab.fin_main_cst_46 (F := Ideal) (StableHlo.launchContents m' c)]
  rw [nullary_result, nullary_result]
  try simp only [TRef.ofBuf, TRef.toBuf, cast_eq]
  all_goals rfl

theorem p_main_v259_main_v307 : KV (Proc.devRef .tc Cert.KernelIdeal.main_v259) = RV (Proc.devRef .tc Cert.ReferenceIdeal.main_v307) := by
  rw [Cert.KernelIdeal.Tab.fin_main_v259 (F := Ideal) m ρ c, Cert.ReferenceIdeal.Tab.fin_main_v307 (F := Ideal) (StableHlo.launchContents m' c)]
  rw [binary_result, binary_result]
  rw [p_main_v258_main_v306 m ρ m' hpre hagree c, p_main_cst_46_main_cst_46 m ρ m' hpre hagree c]
  try simp only [TRef.ofBuf, TRef.toBuf, cast_eq]
  all_goals rfl

theorem p_main_cst_47_main_cst_47 : KV (Proc.devRef .tc Cert.KernelIdeal.main_cst_47) = RV (Proc.devRef .tc Cert.ReferenceIdeal.main_cst_47) := by
  rw [Cert.KernelIdeal.Tab.fin_main_cst_47 (F := Ideal) m ρ c, Cert.ReferenceIdeal.Tab.fin_main_cst_47 (F := Ideal) (StableHlo.launchContents m' c)]
  rw [nullary_result, nullary_result]
  try simp only [TRef.ofBuf, TRef.toBuf, cast_eq]
  all_goals rfl

theorem p_main_v260_main_v308 : KV (Proc.devRef .tc Cert.KernelIdeal.main_v260) = RV (Proc.devRef .tc Cert.ReferenceIdeal.main_v308) := by
  rw [Cert.KernelIdeal.Tab.fin_main_v260 (F := Ideal) m ρ c, Cert.ReferenceIdeal.Tab.fin_main_v308 (F := Ideal) (StableHlo.launchContents m' c)]
  rw [unary_result, unary_result]
  rw [p_main_cst_47_main_cst_47 m ρ m' hpre hagree c]
  try simp only [TRef.ofBuf, TRef.toBuf, cast_eq]
  all_goals rfl

theorem p_main_v261_main_v309 : KV (Proc.devRef .tc Cert.KernelIdeal.main_v261) = RV (Proc.devRef .tc Cert.ReferenceIdeal.main_v309) := by
  rw [Cert.KernelIdeal.Tab.fin_main_v261 (F := Ideal) m ρ c, Cert.ReferenceIdeal.Tab.fin_main_v309 (F := Ideal) (StableHlo.launchContents m' c)]
  rw [binary_result, binary_result]
  rw [p_main_v259_main_v307 m ρ m' hpre hagree c, p_main_v260_main_v308 m ρ m' hpre hagree c]
  try simp only [TRef.ofBuf, TRef.toBuf, cast_eq]
  all_goals rfl

theorem p_main_call12_cst_1_main_call15_cst_1 : KV (Proc.devRef .tc Cert.KernelIdeal.main_call12_cst_1) = RV (Proc.devRef .tc Cert.ReferenceIdeal.main_call15_cst_1) := by
  rw [Cert.KernelIdeal.Tab.fin_main_call12_cst_1 (F := Ideal) m ρ c, Cert.ReferenceIdeal.Tab.fin_main_call15_cst_1 (F := Ideal) (StableHlo.launchContents m' c)]
  rw [nullary_result, nullary_result]
  try simp only [TRef.ofBuf, TRef.toBuf, cast_eq]
  all_goals rfl

theorem p_main_c_48_main_c_48 : KV (Proc.devRef .tc Cert.KernelIdeal.main_c_48) = RV (Proc.devRef .tc Cert.ReferenceIdeal.main_c_48) := by
  rw [Cert.KernelIdeal.Tab.fin_main_c_48 (F := Ideal) m ρ c, Cert.ReferenceIdeal.Tab.fin_main_c_48 (F := Ideal) (StableHlo.launchContents m' c)]
  rw [nullary_result, nullary_result]
  try simp only [TRef.ofBuf, TRef.toBuf, cast_eq]
  all_goals rfl

theorem p_main_call12_v7_main_call15_v7 : KV (Proc.devRef .tc Cert.KernelIdeal.main_call12_v7) = RV (Proc.devRef .tc Cert.ReferenceIdeal.main_call15_v7) := by
  rw [Cert.KernelIdeal.Tab.fin_main_call12_v7 (F := Ideal) m ρ c, Cert.ReferenceIdeal.Tab.fin_main_call15_v7 (F := Ideal) (StableHlo.launchContents m' c)]
  rw [unary_result, unary_result]
  rw [p_main_c_48_main_c_48 m ρ m' hpre hagree c]
  try simp only [TRef.ofBuf, TRef.toBuf, cast_eq]
  all_goals rfl

theorem p_main_call12_v8_main_call15_v8 : KV (Proc.devRef .tc Cert.KernelIdeal.main_call12_v8) = RV (Proc.devRef .tc Cert.ReferenceIdeal.main_call15_v8) := by
  rw [Cert.KernelIdeal.Tab.fin_main_call12_v8 (F := Ideal) m ρ c, Cert.ReferenceIdeal.Tab.fin_main_call15_v8 (F := Ideal) (StableHlo.launchContents m' c)]
  rw [binary_result, binary_result]
  rw [p_main_call12_cst_1_main_call15_cst_1 m ρ m' hpre hagree c, p_main_call12_v7_main_call15_v7 m ρ m' hpre hagree c]
  try simp only [TRef.ofBuf, TRef.toBuf, cast_eq]
  all_goals rfl

theorem p_main_call12_cst_3_main_call15_cst_3 : KV (Proc.devRef .tc Cert.KernelIdeal.main_call12_cst_3) = RV (Proc.devRef .tc Cert.ReferenceIdeal.main_call15_cst_3) := by
  rw [Cert.KernelIdeal.Tab.fin_main_call12_cst_3 (F := Ideal) m ρ c, Cert.ReferenceIdeal.Tab.fin_main_call15_cst_3 (F := Ideal) (StableHlo.launchContents m' c)]
  rw [nullary_result, nullary_result]
  try simp only [TRef.ofBuf, TRef.toBuf, cast_eq]
  all_goals rfl

theorem p_main_call12_v12_main_call15_v12 : KV (Proc.devRef .tc Cert.KernelIdeal.main_call12_v12) = RV (Proc.devRef .tc Cert.ReferenceIdeal.main_call15_v12) := by
  rw [Cert.KernelIdeal.Tab.fin_main_call12_v12 (F := Ideal) m ρ c, Cert.ReferenceIdeal.Tab.fin_main_call15_v12 (F := Ideal) (StableHlo.launchContents m' c)]
  rw [binary_result, binary_result]
  rw [p_main_call12_v8_main_call15_v8 m ρ m' hpre hagree c, p_main_call12_cst_3_main_call15_cst_3 m ρ m' hpre hagree c]
  try simp only [TRef.ofBuf, TRef.toBuf, cast_eq]
  all_goals rfl

theorem p_main_call12_cst_main_call15_cst : KV (Proc.devRef .tc Cert.KernelIdeal.main_call12_cst) = RV (Proc.devRef .tc Cert.ReferenceIdeal.main_call15_cst) := by
  rw [Cert.KernelIdeal.Tab.fin_main_call12_cst (F := Ideal) m ρ c, Cert.ReferenceIdeal.Tab.fin_main_call15_cst (F := Ideal) (StableHlo.launchContents m' c)]
  rw [nullary_result, nullary_result]
  try simp only [TRef.ofBuf, TRef.toBuf, cast_eq]
  all_goals rfl

theorem p_main_call12_v0_main_call15_v0 : KV (Proc.devRef .tc Cert.KernelIdeal.main_call12_v0) = RV (Proc.devRef .tc Cert.ReferenceIdeal.main_call15_v0) := by
  rw [Cert.KernelIdeal.Tab.fin_main_call12_v0 (F := Ideal) m ρ c, Cert.ReferenceIdeal.Tab.fin_main_call15_v0 (F := Ideal) (StableHlo.launchContents m' c)]
  rw [binary_result, binary_result]
  rw [p_main_v258_main_v306 m ρ m' hpre hagree c, p_main_call12_cst_main_call15_cst m ρ m' hpre hagree c]
  try simp only [TRef.ofBuf, TRef.toBuf, cast_eq]
  all_goals rfl

theorem p_main_call12_v1_main_call15_v1 : KV (Proc.devRef .tc Cert.KernelIdeal.main_call12_v1) = RV (Proc.devRef .tc Cert.ReferenceIdeal.main_call15_v1) := by
  rw [Cert.KernelIdeal.Tab.fin_main_call12_v1 (F := Ideal) m ρ c, Cert.ReferenceIdeal.Tab.fin_main_call15_v1 (F := Ideal) (StableHlo.launchContents m' c)]
  rw [unary_result, unary_result]
  rw [p_main_call12_v0_main_call15_v0 m ρ m' hpre hagree c]
  try simp only [TRef.ofBuf, TRef.toBuf, cast_eq]
  all_goals rfl

theorem p_main_call12_cst_0_main_call15_cst_0 : KV (Proc.devRef .tc Cert.KernelIdeal.main_call12_cst_0) = RV (Proc.devRef .tc Cert.ReferenceIdeal.main_call15_cst_0) := by
  rw [Cert.KernelIdeal.Tab.fin_main_call12_cst_0 (F := Ideal) m ρ c, Cert.ReferenceIdeal.Tab.fin_main_call15_cst_0 (F := Ideal) (StableHlo.launchContents m' c)]
  rw [nullary_result, nullary_result]
  try simp only [TRef.ofBuf, TRef.toBuf, cast_eq]
  all_goals rfl

theorem p_main_call12_v2_main_call15_v2 : KV (Proc.devRef .tc Cert.KernelIdeal.main_call12_v2) = RV (Proc.devRef .tc Cert.ReferenceIdeal.main_call15_v2) := by
  rw [Cert.KernelIdeal.Tab.fin_main_call12_v2 (F := Ideal) m ρ c, Cert.ReferenceIdeal.Tab.fin_main_call15_v2 (F := Ideal) (StableHlo.launchContents m' c)]
  rw [unary_result, unary_result]
  rw [p_main_call12_cst_0_main_call15_cst_0 m ρ m' hpre hagree c]
  try simp only [TRef.ofBuf, TRef.toBuf, cast_eq]
  all_goals rfl

theorem p_main_call12_v3_main_call15_v3 : KV (Proc.devRef .tc Cert.KernelIdeal.main_call12_v3) = RV (Proc.devRef .tc Cert.ReferenceIdeal.main_call15_v3) := by
  rw [Cert.KernelIdeal.Tab.fin_main_call12_v3 (F := Ideal) m ρ c, Cert.ReferenceIdeal.Tab.fin_main_call15_v3 (F := Ideal) (StableHlo.launchContents m' c)]
  rw [binary_result, binary_result]
  rw [p_main_call12_v1_main_call15_v1 m ρ m' hpre hagree c, p_main_call12_v2_main_call15_v2 m ρ m' hpre hagree c]
  try simp only [TRef.ofBuf, TRef.toBuf, cast_eq]
  all_goals rfl

theorem p_main_call12_v4_main_call15_v4 : KV (Proc.devRef .tc Cert.KernelIdeal.main_call12_v4) = RV (Proc.devRef .tc Cert.ReferenceIdeal.main_call15_v4) := by
  rw [Cert.KernelIdeal.Tab.fin_main_call12_v4 (F := Ideal) m ρ c, Cert.ReferenceIdeal.Tab.fin_main_call15_v4 (F := Ideal) (StableHlo.launchContents m' c)]
  rw [unary_result, unary_result]
  rw [p_main_call12_v3_main_call15_v3 m ρ m' hpre hagree c]
  try simp only [TRef.ofBuf, TRef.toBuf, cast_eq]
  all_goals rfl

theorem p_main_call12_v5_main_call15_v5 : KV (Proc.devRef .tc Cert.KernelIdeal.main_call12_v5) = RV (Proc.devRef .tc Cert.ReferenceIdeal.main_call15_v5) := by
  rw [Cert.KernelIdeal.Tab.fin_main_call12_v5 (F := Ideal) m ρ c, Cert.ReferenceIdeal.Tab.fin_main_call15_v5 (F := Ideal) (StableHlo.launchContents m' c)]
  rw [binary_result, binary_result]
  rw [p_main_v258_main_v306 m ρ m' hpre hagree c, p_main_call12_v4_main_call15_v4 m ρ m' hpre hagree c]
  try simp only [TRef.ofBuf, TRef.toBuf, cast_eq]
  all_goals rfl

theorem p_main_call12_v6_main_call15_v6 : KV (Proc.devRef .tc Cert.KernelIdeal.main_call12_v6) = RV (Proc.devRef .tc Cert.ReferenceIdeal.main_call15_v6) := by
  rw [Cert.KernelIdeal.Tab.fin_main_call12_v6 (F := Ideal) m ρ c, Cert.ReferenceIdeal.Tab.fin_main_call15_v6 (F := Ideal) (StableHlo.launchContents m' c)]
  rw [binary_result, binary_result]
  rw [p_main_call12_v5_main_call15_v5 m ρ m' hpre hagree c]
  try simp only [TRef.ofBuf, TRef.toBuf, cast_eq]
  all_goals rfl

theorem p_main_call12_cst_2_main_call15_cst_2 : KV (Proc.devRef .tc Cert.KernelIdeal.main_call12_cst_2) = RV (Proc.devRef .tc Cert.ReferenceIdeal.main_call15_cst_2) := by
  rw [Cert.KernelIdeal.Tab.fin_main_call12_cst_2 (F := Ideal) m ρ c, Cert.ReferenceIdeal.Tab.fin_main_call15_cst_2 (F := Ideal) (StableHlo.launchContents m' c)]
  rw [nullary_result, nullary_result]
  try simp only [TRef.ofBuf, TRef.toBuf, cast_eq]
  all_goals rfl

theorem p_main_call12_v9_main_call15_v9 : KV (Proc.devRef .tc Cert.KernelIdeal.main_call12_v9) = RV (Proc.devRef .tc Cert.ReferenceIdeal.main_call15_v9) := by
  rw [Cert.KernelIdeal.Tab.fin_main_call12_v9 (F := Ideal) m ρ c, Cert.ReferenceIdeal.Tab.fin_main_call15_v9 (F := Ideal) (StableHlo.launchContents m' c)]
  rw [binary_result, binary_result]
  rw [p_main_call12_v6_main_call15_v6 m ρ m' hpre hagree c, p_main_call12_cst_2_main_call15_cst_2 m ρ m' hpre hagree c]
  try simp only [TRef.ofBuf, TRef.toBuf, cast_eq]
  all_goals rfl

theorem p_main_call12_v10_main_call15_v10 : KV (Proc.devRef .tc Cert.KernelIdeal.main_call12_v10) = RV (Proc.devRef .tc Cert.ReferenceIdeal.main_call15_v10) := by
  rw [Cert.KernelIdeal.Tab.fin_main_call12_v10 (F := Ideal) m ρ c, Cert.ReferenceIdeal.Tab.fin_main_call15_v10 (F := Ideal) (StableHlo.launchContents m' c)]
  rw [unary_result, unary_result]
  rw [p_main_call12_v8_main_call15_v8 m ρ m' hpre hagree c]
  try simp only [TRef.ofBuf, TRef.toBuf, cast_eq]
  all_goals rfl

theorem p_main_call12_v11_main_call15_v11 : KV (Proc.devRef .tc Cert.KernelIdeal.main_call12_v11) = RV (Proc.devRef .tc Cert.ReferenceIdeal.main_call15_v11) := by
  rw [Cert.KernelIdeal.Tab.fin_main_call12_v11 (F := Ideal) m ρ c, Cert.ReferenceIdeal.Tab.fin_main_call15_v11 (F := Ideal) (StableHlo.launchContents m' c)]
  rw [binary_result, binary_result]
  rw [p_main_call12_v9_main_call15_v9 m ρ m' hpre hagree c, p_main_call12_v10_main_call15_v10 m ρ m' hpre hagree c]
  try simp only [TRef.ofBuf, TRef.toBuf, cast_eq]
  all_goals rfl

theorem p_main_call12_cst_4_main_call15_cst_4 : KV (Proc.devRef .tc Cert.KernelIdeal.main_call12_cst_4) = RV (Proc.devRef .tc Cert.ReferenceIdeal.main_call15_cst_4) := by
  rw [Cert.KernelIdeal.Tab.fin_main_call12_cst_4 (F := Ideal) m ρ c, Cert.ReferenceIdeal.Tab.fin_main_call15_cst_4 (F := Ideal) (StableHlo.launchContents m' c)]
  rw [nullary_result, nullary_result]
  try simp only [TRef.ofBuf, TRef.toBuf, cast_eq]
  all_goals rfl

theorem p_main_call12_call0_v0_main_call15_call0_v0 : KV (Proc.devRef .tc Cert.KernelIdeal.main_call12_call0_v0) = RV (Proc.devRef .tc Cert.ReferenceIdeal.main_call15_call0_v0) := by
  rw [Cert.KernelIdeal.Tab.fin_main_call12_call0_v0 (F := Ideal) m ρ c, Cert.ReferenceIdeal.Tab.fin_main_call15_call0_v0 (F := Ideal) (StableHlo.launchContents m' c)]
  rw [unary_result, unary_result]
  rw [p_main_call12_cst_4_main_call15_cst_4 m ρ m' hpre hagree c]
  try simp only [TRef.ofBuf, TRef.toBuf, cast_eq]
  all_goals rfl

theorem p_main_call12_call0_v1_main_call15_call0_v1 : KV (Proc.devRef .tc Cert.KernelIdeal.main_call12_call0_v1) = RV (Proc.devRef .tc Cert.ReferenceIdeal.main_call15_call0_v1) := by
  rw [Cert.KernelIdeal.Tab.fin_main_call12_call0_v1 (F := Ideal) m ρ c, Cert.ReferenceIdeal.Tab.fin_main_call15_call0_v1 (F := Ideal) (StableHlo.launchContents m' c)]
  rw [unary_result, unary_result]
  rw [p_main_call12_call0_v0_main_call15_call0_v0 m ρ m' hpre hagree c]
  try simp only [TRef.ofBuf, TRef.toBuf, cast_eq]
  all_goals rfl

theorem p_main_v262_main_v310 : KV (Proc.devRef .tc Cert.KernelIdeal.main_v262) = RV (Proc.devRef .tc Cert.ReferenceIdeal.main_v310) := by
  rw [Cert.KernelIdeal.Tab.fin_main_v262 (F := Ideal) m ρ c, Cert.ReferenceIdeal.Tab.fin_main_v310 (F := Ideal) (StableHlo.launchContents m' c)]
  rw [ternary_result, ternary_result]
  rw [p_main_call12_v12_main_call15_v12 m ρ m' hpre hagree c, p_main_call12_v11_main_call15_v11 m ρ m' hpre hagree c, p_main_call12_call0_v1_main_call15_call0_v1 m ρ m' hpre hagree c]
  try simp only [TRef.ofBuf, TRef.toBuf, cast_eq]
  all_goals rfl

theorem p_main_cst_49_main_cst_49 : KV (Proc.devRef .tc Cert.KernelIdeal.main_cst_49) = RV (Proc.devRef .tc Cert.ReferenceIdeal.main_cst_49) := by
  rw [Cert.KernelIdeal.Tab.fin_main_cst_49 (F := Ideal) m ρ c, Cert.ReferenceIdeal.Tab.fin_main_cst_49 (F := Ideal) (StableHlo.launchContents m' c)]
  rw [nullary_result, nullary_result]
  try simp only [TRef.ofBuf, TRef.toBuf, cast_eq]
  all_goals rfl

theorem p_main_v263_main_v317 : KV (Proc.devRef .tc Cert.KernelIdeal.main_v263) = RV (Proc.devRef .tc Cert.ReferenceIdeal.main_v317) := by
  rw [Cert.KernelIdeal.Tab.fin_main_v263 (F := Ideal) m ρ c, Cert.ReferenceIdeal.Tab.fin_main_v317 (F := Ideal) (StableHlo.launchContents m' c)]
  rw [unary_result, unary_result]
  rw [p_main_cst_49_main_cst_49 m ρ m' hpre hagree c]
  try simp only [TRef.ofBuf, TRef.toBuf, cast_eq]
  all_goals rfl

theorem p_main_v264_main_v318 : KV (Proc.devRef .tc Cert.KernelIdeal.main_v264) = RV (Proc.devRef .tc Cert.ReferenceIdeal.main_v318) := by
  rw [Cert.KernelIdeal.Tab.fin_main_v264 (F := Ideal) m ρ c, Cert.ReferenceIdeal.Tab.fin_main_v318 (F := Ideal) (StableHlo.launchContents m' c)]
  rw [binary_result, binary_result]
  rw [p_main_v262_main_v310 m ρ m' hpre hagree c, p_main_v263_main_v317 m ρ m' hpre hagree c]
  try simp only [TRef.ofBuf, TRef.toBuf, cast_eq]
  all_goals rfl

theorem p_main_v265_main_v319 : KV (Proc.devRef .tc Cert.KernelIdeal.main_v265) = RV (Proc.devRef .tc Cert.ReferenceIdeal.main_v319) := by
  rw [Cert.KernelIdeal.Tab.fin_main_v265 (F := Ideal) m ρ c, Cert.ReferenceIdeal.Tab.fin_main_v319 (F := Ideal) (StableHlo.launchContents m' c)]
  rw [unary_result, unary_result]
  rw [p_main_v264_main_v318 m ρ m' hpre hagree c]
  try simp only [TRef.ofBuf, TRef.toBuf, cast_eq]
  all_goals rfl

theorem rf_main_v245 : Cert.Lib.AllFin (RV (Proc.devRef .tc Cert.ReferenceIdeal.main_v245)) := by
  rw [Cert.ReferenceIdeal.Tab.fin_main_v245 (F := Ideal) (StableHlo.launchContents m' c), unary_result]
  try simp only [TRef.ofBuf, TRef.toBuf, cast_eq]
  exact Cert.Lib.allFin_broadcastInDim _ _ (rf_main_v235 m ρ m' hpre hagree c)

theorem rf_main_v246 : Cert.Lib.AllFin (RV (Proc.devRef .tc Cert.ReferenceIdeal.main_v246)) := by
  rw [Cert.ReferenceIdeal.Tab.fin_main_v246 (F := Ideal) (StableHlo.launchContents m' c), unary_result]
  try simp only [TRef.ofBuf, TRef.toBuf, cast_eq]
  exact Cert.Lib.allFin_broadcastInDim _ _ (rf_main_v245 m ρ m' hpre hagree c)

theorem rf_main_v242 : Cert.Lib.AllFin (RV (Proc.devRef .tc Cert.ReferenceIdeal.main_v242)) := by
  rw [Cert.ReferenceIdeal.Tab.fin_main_v242 (F := Ideal) (StableHlo.launchContents m' c), unary_result]
  try simp only [TRef.ofBuf, TRef.toBuf, cast_eq]
  exact Cert.Lib.allFin_broadcastInDim _ _ (rf_main_v240 m ρ m' hpre hagree c)

theorem rf_main_v243 : Cert.Lib.AllFin (RV (Proc.devRef .tc Cert.ReferenceIdeal.main_v243)) := by
  rw [Cert.ReferenceIdeal.Tab.fin_main_v243 (F := Ideal) (StableHlo.launchContents m' c), unary_result]
  try simp only [TRef.ofBuf, TRef.toBuf, cast_eq]
  exact Cert.Lib.allFin_broadcastInDim _ _ (rf_main_v242 m ρ m' hpre hagree c)

theorem rf_main_v244 : Cert.Lib.AllFin (RV (Proc.devRef .tc Cert.ReferenceIdeal.main_v244)) := by
  rw [Cert.ReferenceIdeal.Tab.fin_main_v244 (F := Ideal) (StableHlo.launchContents m' c), binary_result]
  try simp only [TRef.ofBuf, TRef.toBuf, cast_eq]
  exact Cert.Lib.allFin_subf (rf_main_v233 m ρ m' hpre hagree c) (rf_main_v243 m ρ m' hpre hagree c)

theorem rf_main_v247 : Cert.Lib.AllFin (RV (Proc.devRef .tc Cert.ReferenceIdeal.main_v247)) := by
  rw [Cert.ReferenceIdeal.Tab.fin_main_v247 (F := Ideal) (StableHlo.launchContents m' c), binary_result]
  try simp only [TRef.ofBuf, TRef.toBuf, cast_eq]
  exact Cert.Lib.allFin_mulf (rf_main_v246 m ρ m' hpre hagree c) (rf_main_v244 m ρ m' hpre hagree c)

theorem rf_main_v251 : Cert.Lib.AllFin (RV (Proc.devRef .tc Cert.ReferenceIdeal.main_v251)) := by
  rw [Cert.ReferenceIdeal.Tab.fin_main_v251 (F := Ideal) (StableHlo.launchContents m' c), unary_result]
  try simp only [TRef.ofBuf, TRef.toBuf, cast_eq]
  exact Cert.Lib.allFin_broadcastInDim _ _ (rf_main_v250 m ρ m' hpre hagree c)

theorem rf_main_v252 : Cert.Lib.AllFin (RV (Proc.devRef .tc Cert.ReferenceIdeal.main_v252)) := by
  rw [Cert.ReferenceIdeal.Tab.fin_main_v252 (F := Ideal) (StableHlo.launchContents m' c), unary_result]
  try simp only [TRef.ofBuf, TRef.toBuf, cast_eq]
  exact Cert.Lib.allFin_broadcastInDim _ _ (rf_main_v251 m ρ m' hpre hagree c)

theorem rf_main_v253 : Cert.Lib.AllFin (RV (Proc.devRef .tc Cert.ReferenceIdeal.main_v253)) := by
  rw [Cert.ReferenceIdeal.Tab.fin_main_v253 (F := Ideal) (StableHlo.launchContents m' c), binary_result]
  try simp only [TRef.ofBuf, TRef.toBuf, cast_eq]
  exact Cert.Lib.allFin_mulf (rf_main_v247 m ρ m' hpre hagree c) (rf_main_v252 m ρ m' hpre hagree c)

theorem rf_main_v254 : Cert.Lib.AllFin (RV (Proc.devRef .tc Cert.ReferenceIdeal.main_v254)) := by
  rw [Cert.ReferenceIdeal.Tab.fin_main_v254 (F := Ideal) (StableHlo.launchContents m' c), unary_result]
  try simp only [TRef.ofBuf, TRef.toBuf, cast_eq]
  exact Cert.Lib.allFin_broadcastInDim _ _ (rf_main_v237 m ρ m' hpre hagree c)

theorem rf_main_v255 : Cert.Lib.AllFin (RV (Proc.devRef .tc Cert.ReferenceIdeal.main_v255)) := by
  rw [Cert.ReferenceIdeal.Tab.fin_main_v255 (F := Ideal) (StableHlo.launchContents m' c), unary_result]
  try simp only [TRef.ofBuf, TRef.toBuf, cast_eq]
  exact Cert.Lib.allFin_broadcastInDim _ _ (rf_main_v254 m ρ m' hpre hagree c)

theorem rf_main_v256 : Cert.Lib.AllFin (RV (Proc.devRef .tc Cert.ReferenceIdeal.main_v256)) := by
  rw [Cert.ReferenceIdeal.Tab.fin_main_v256 (F := Ideal) (StableHlo.launchContents m' c), binary_result]
  try simp only [TRef.ofBuf, TRef.toBuf, cast_eq]
  exact Cert.Lib.allFin_addf (rf_main_v253 m ρ m' hpre hagree c) (rf_main_v255 m ρ m' hpre hagree c)

theorem rf_main_cst_39 : Cert.Lib.AllFin (RV (Proc.devRef .tc Cert.ReferenceIdeal.main_cst_39)) := by
  rw [Cert.ReferenceIdeal.Tab.fin_main_cst_39 (F := Ideal) (StableHlo.launchContents m' c), nullary_result]
  try simp only [TRef.ofBuf, TRef.toBuf, cast_eq]
  exact Cert.Lib.allFin_constant_1em2 _

theorem rf_main_v259 : Cert.Lib.AllFin (RV (Proc.devRef .tc Cert.ReferenceIdeal.main_v259)) := by
  rw [Cert.ReferenceIdeal.Tab.fin_main_v259 (F := Ideal) (StableHlo.launchContents m' c), unary_result]
  try simp only [TRef.ofBuf, TRef.toBuf, cast_eq]
  exact Cert.Lib.allFin_broadcastInDim _ _ (rf_main_cst_39 m ρ m' hpre hagree c)

theorem rf_main_v260 : Cert.Lib.AllFin (RV (Proc.devRef .tc Cert.ReferenceIdeal.main_v260)) := by
  rw [Cert.ReferenceIdeal.Tab.fin_main_v260 (F := Ideal) (StableHlo.launchContents m' c), binary_result]
  try simp only [TRef.ofBuf, TRef.toBuf, cast_eq]
  exact Cert.Lib.allFin_mulf (rf_main_v259 m ρ m' hpre hagree c) (rf_main_v256 m ρ m' hpre hagree c)

theorem rf_main_v261 : Cert.Lib.AllFin (RV (Proc.devRef .tc Cert.ReferenceIdeal.main_v261)) := by
  rw [Cert.ReferenceIdeal.Tab.fin_main_v261 (F := Ideal) (StableHlo.launchContents m' c), ternary_result]
  try simp only [TRef.ofBuf, TRef.toBuf, cast_eq]
  exact Cert.Lib.allFin_select _ (rf_main_v256 m ρ m' hpre hagree c) (rf_main_v260 m ρ m' hpre hagree c)

theorem rf_main_v262 : Cert.Lib.AllFin (RV (Proc.devRef .tc Cert.ReferenceIdeal.main_v262)) := by
  rw [Cert.ReferenceIdeal.Tab.fin_main_v262 (F := Ideal) (StableHlo.launchContents m' c), unary_result]
  try simp only [TRef.ofBuf, TRef.toBuf, cast_eq]
  exact Cert.Lib.allFin_extractStridedSlice _ _ (rf_main_arg11 m ρ m' hpre hagree c)

theorem rf_main_v263 : Cert.Lib.AllFin (RV (Proc.devRef .tc Cert.ReferenceIdeal.main_v263)) := by
  rw [Cert.ReferenceIdeal.Tab.fin_main_v263 (F := Ideal) (StableHlo.launchContents m' c), reshape_result]
  try simp only [TRef.ofBuf, TRef.toBuf, cast_eq]
  exact Cert.Lib.allFin_shapeCast _ (rf_main_v262 m ρ m' hpre hagree c)

theorem rf_main_v264 : Cert.Lib.AllFin (RV (Proc.devRef .tc Cert.ReferenceIdeal.main_v264)) := by
  rw [Cert.ReferenceIdeal.Tab.fin_main_v264 (F := Ideal) (StableHlo.launchContents m' c), binary_result]
  try simp only [TRef.ofBuf, TRef.toBuf, cast_eq]
  exact Cert.Lib.allFin_dotGeneral _ _ _ _ (rf_main_v261 m ρ m' hpre hagree c) (rf_main_v263 m ρ m' hpre hagree c)

theorem rf_main_v265 : Cert.Lib.AllFin (RV (Proc.devRef .tc Cert.ReferenceIdeal.main_v265)) := by
  rw [Cert.ReferenceIdeal.Tab.fin_main_v265 (F := Ideal) (StableHlo.launchContents m' c), unary_result]
  try simp only [TRef.ofBuf, TRef.toBuf, cast_eq]
  exact Cert.Lib.allFin_extractStridedSlice _ _ (rf_main_arg12 m ρ m' hpre hagree c)

theorem rf_main_v266 : Cert.Lib.AllFin (RV (Proc.devRef .tc Cert.ReferenceIdeal.main_v266)) := by
  rw [Cert.ReferenceIdeal.Tab.fin_main_v266 (F := Ideal) (StableHlo.launchContents m' c), reshape_result]
  try simp only [TRef.ofBuf, TRef.toBuf, cast_eq]
  exact Cert.Lib.allFin_shapeCast _ (rf_main_v265 m ρ m' hpre hagree c)

theorem rf_main_v267 : Cert.Lib.AllFin (RV (Proc.devRef .tc Cert.ReferenceIdeal.main_v267)) := by
  rw [Cert.ReferenceIdeal.Tab.fin_main_v267 (F := Ideal) (StableHlo.launchContents m' c), unary_result]
  try simp only [TRef.ofBuf, TRef.toBuf, cast_eq]
  exact Cert.Lib.allFin_broadcastInDim _ _ (rf_main_v266 m ρ m' hpre hagree c)

theorem rf_main_v268 : Cert.Lib.AllFin (RV (Proc.devRef .tc Cert.ReferenceIdeal.main_v268)) := by
  rw [Cert.ReferenceIdeal.Tab.fin_main_v268 (F := Ideal) (StableHlo.launchContents m' c), unary_result]
  try simp only [TRef.ofBuf, TRef.toBuf, cast_eq]
  exact Cert.Lib.allFin_broadcastInDim _ _ (rf_main_v267 m ρ m' hpre hagree c)

theorem rf_main_v269 : Cert.Lib.AllFin (RV (Proc.devRef .tc Cert.ReferenceIdeal.main_v269)) := by
  rw [Cert.ReferenceIdeal.Tab.fin_main_v269 (F := Ideal) (StableHlo.launchContents m' c), binary_result]
  try simp only [TRef.ofBuf, TRef.toBuf, cast_eq]
  exact Cert.Lib.allFin_addf (rf_main_v264 m ρ m' hpre hagree c) (rf_main_v268 m ρ m' hpre hagree c)

theorem rf_main_v281 : Cert.Lib.AllFin (RV (Proc.devRef .tc Cert.ReferenceIdeal.main_v281)) := by
  rw [Cert.ReferenceIdeal.Tab.fin_main_v281 (F := Ideal) (StableHlo.launchContents m' c), unary_result]
  try simp only [TRef.ofBuf, TRef.toBuf, cast_eq]
  exact Cert.Lib.allFin_broadcastInDim _ _ (rf_main_arg17 m ρ m' hpre hagree c)

theorem rf_main_v282 : Cert.Lib.AllFin (RV (Proc.devRef .tc Cert.ReferenceIdeal.main_v282)) := by
  rw [Cert.ReferenceIdeal.Tab.fin_main_v282 (F := Ideal) (StableHlo.launchContents m' c), unary_result]
  try simp only [TRef.ofBuf, TRef.toBuf, cast_eq]
  exact Cert.Lib.allFin_broadcastInDim _ _ (rf_main_v281 m ρ m' hpre hagree c)

theorem rf_main_v278 : Cert.Lib.AllFin (RV (Proc.devRef .tc Cert.ReferenceIdeal.main_v278)) := by
  rw [Cert.ReferenceIdeal.Tab.fin_main_v278 (F := Ideal) (StableHlo.launchContents m' c), unary_result]
  try simp only [TRef.ofBuf, TRef.toBuf, cast_eq]
  exact Cert.Lib.allFin_broadcastInDim _ _ (rf_main_v276 m ρ m' hpre hagree c)

theorem rf_main_v279 : Cert.Lib.AllFin (RV (Proc.devRef .tc Cert.ReferenceIdeal.main_v279)) := by
  rw [Cert.ReferenceIdeal.Tab.fin_main_v279 (F := Ideal) (StableHlo.launchContents m' c), unary_result]
  try simp only [TRef.ofBuf, TRef.toBuf, cast_eq]
  exact Cert.Lib.allFin_broadcastInDim _ _ (rf_main_v278 m ρ m' hpre hagree c)

theorem rf_main_v280 : Cert.Lib.AllFin (RV (Proc.devRef .tc Cert.ReferenceIdeal.main_v280)) := by
  rw [Cert.ReferenceIdeal.Tab.fin_main_v280 (F := Ideal) (StableHlo.launchContents m' c), binary_result]
  try simp only [TRef.ofBuf, TRef.toBuf, cast_eq]
  exact Cert.Lib.allFin_subf (rf_main_v273 m ρ m' hpre hagree c) (rf_main_v279 m ρ m' hpre hagree c)

theorem rf_main_v283 : Cert.Lib.AllFin (RV (Proc.devRef .tc Cert.ReferenceIdeal.main_v283)) := by
  rw [Cert.ReferenceIdeal.Tab.fin_main_v283 (F := Ideal) (StableHlo.launchContents m' c), binary_result]
  try simp only [TRef.ofBuf, TRef.toBuf, cast_eq]
  exact Cert.Lib.allFin_mulf (rf_main_v282 m ρ m' hpre hagree c) (rf_main_v280 m ρ m' hpre hagree c)

theorem rf_main_v287 : Cert.Lib.AllFin (RV (Proc.devRef .tc Cert.ReferenceIdeal.main_v287)) := by
  rw [Cert.ReferenceIdeal.Tab.fin_main_v287 (F := Ideal) (StableHlo.launchContents m' c), unary_result]
  try simp only [TRef.ofBuf, TRef.toBuf, cast_eq]
  exact Cert.Lib.allFin_broadcastInDim _ _ (rf_main_v286 m ρ m' hpre hagree c)

theorem rf_main_v288 : Cert.Lib.AllFin (RV (Proc.devRef .tc Cert.ReferenceIdeal.main_v288)) := by
  rw [Cert.ReferenceIdeal.Tab.fin_main_v288 (F := Ideal) (StableHlo.launchContents m' c), unary_result]
  try simp only [TRef.ofBuf, TRef.toBuf, cast_eq]
  exact Cert.Lib.allFin_broadcastInDim _ _ (rf_main_v287 m ρ m' hpre hagree c)

theorem rf_main_v289 : Cert.Lib.AllFin (RV (Proc.devRef .tc Cert.ReferenceIdeal.main_v289)) := by
  rw [Cert.ReferenceIdeal.Tab.fin_main_v289 (F := Ideal) (StableHlo.launchContents m' c), binary_result]
  try simp only [TRef.ofBuf, TRef.toBuf, cast_eq]
  exact Cert.Lib.allFin_mulf (rf_main_v283 m ρ m' hpre hagree c) (rf_main_v288 m ρ m' hpre hagree c)

theorem rf_main_v290 : Cert.Lib.AllFin (RV (Proc.devRef .tc Cert.ReferenceIdeal.main_v290)) := by
  rw [Cert.ReferenceIdeal.Tab.fin_main_v290 (F := Ideal) (StableHlo.launchContents m' c), unary_result]
  try simp only [TRef.ofBuf, TRef.toBuf, cast_eq]
  exact Cert.Lib.allFin_broadcastInDim _ _ (rf_main_arg18 m ρ m' hpre hagree c)

theorem rf_main_v291 : Cert.Lib.AllFin (RV (Proc.devRef .tc Cert.ReferenceIdeal.main_v291)) := by
  rw [Cert.ReferenceIdeal.Tab.fin_main_v291 (F := Ideal) (StableHlo.launchContents m' c), unary_result]
  try simp only [TRef.ofBuf, TRef.toBuf, cast_eq]
  exact Cert.Lib.allFin_broadcastInDim _ _ (rf_main_v290 m ρ m' hpre hagree c)

theorem rf_main_v292 : Cert.Lib.AllFin (RV (Proc.devRef .tc Cert.ReferenceIdeal.main_v292)) := by
  rw [Cert.ReferenceIdeal.Tab.fin_main_v292 (F := Ideal) (StableHlo.launchContents m' c), binary_result]
  try simp only [TRef.ofBuf, TRef.toBuf, cast_eq]
  exact Cert.Lib.allFin_addf (rf_main_v289 m ρ m' hpre hagree c) (rf_main_v291 m ρ m' hpre hagree c)

theorem rf_main_cst_45 : Cert.Lib.AllFin (RV (Proc.devRef .tc Cert.ReferenceIdeal.main_cst_45)) := by
  rw [Cert.ReferenceIdeal.Tab.fin_main_cst_45 (F := Ideal) (StableHlo.launchContents m' c), nullary_result]
  try simp only [TRef.ofBuf, TRef.toBuf, cast_eq]
  exact Cert.Lib.allFin_constant_1em2 _

theorem rf_main_v295 : Cert.Lib.AllFin (RV (Proc.devRef .tc Cert.ReferenceIdeal.main_v295)) := by
  rw [Cert.ReferenceIdeal.Tab.fin_main_v295 (F := Ideal) (StableHlo.launchContents m' c), unary_result]
  try simp only [TRef.ofBuf, TRef.toBuf, cast_eq]
  exact Cert.Lib.allFin_broadcastInDim _ _ (rf_main_cst_45 m ρ m' hpre hagree c)

theorem rf_main_v296 : Cert.Lib.AllFin (RV (Proc.devRef .tc Cert.ReferenceIdeal.main_v296)) := by
  rw [Cert.ReferenceIdeal.Tab.fin_main_v296 (F := Ideal) (StableHlo.launchContents m' c), binary_result]
  try simp only [TRef.ofBuf, TRef.toBuf, cast_eq]
  exact Cert.Lib.allFin_mulf (rf_main_v295 m ρ m' hpre hagree c) (rf_main_v292 m ρ m' hpre hagree c)

theorem rf_main_v297 : Cert.Lib.AllFin (RV (Proc.devRef .tc Cert.ReferenceIdeal.main_v297)) := by
  rw [Cert.ReferenceIdeal.Tab.fin_main_v297 (F := Ideal) (StableHlo.launchContents m' c), ternary_result]
  try simp only [TRef.ofBuf, TRef.toBuf, cast_eq]
  exact Cert.Lib.allFin_select _ (rf_main_v292 m ρ m' hpre hagree c) (rf_main_v296 m ρ m' hpre hagree c)

theorem rf_main_arg19 : Cert.Lib.AllFin (RV (Proc.devRef .tc Cert.ReferenceIdeal.main_arg19)) := by
  rw [← p_main_arg19_main_arg19 m ρ m' hpre hagree c, Cert.KernelIdeal.GenP.W55_main_arg19 (F := Ideal) m ρ c]
  exact Cert.PreFin.fin_arg19 m hpre c

theorem rf_main_v298 : Cert.Lib.AllFin (RV (Proc.devRef .tc Cert.ReferenceIdeal.main_v298)) := by
  rw [Cert.ReferenceIdeal.Tab.fin_main_v298 (F := Ideal) (StableHlo.launchContents m' c), binary_result]
  try simp only [TRef.ofBuf, TRef.toBuf, cast_eq]
  exact Cert.Lib.allFin_dotGeneral _ _ _ _ (rf_main_v297 m ρ m' hpre hagree c) (rf_main_arg19 m ρ m' hpre hagree c)

theorem rf_main_arg20 : Cert.Lib.AllFin (RV (Proc.devRef .tc Cert.ReferenceIdeal.main_arg20)) := by
  rw [← p_main_arg20_main_arg20 m ρ m' hpre hagree c, Cert.KernelIdeal.GenP.W55_main_arg20 (F := Ideal) m ρ c]
  exact Cert.PreFin.fin_arg20 m hpre c

theorem rf_main_v299 : Cert.Lib.AllFin (RV (Proc.devRef .tc Cert.ReferenceIdeal.main_v299)) := by
  rw [Cert.ReferenceIdeal.Tab.fin_main_v299 (F := Ideal) (StableHlo.launchContents m' c), unary_result]
  try simp only [TRef.ofBuf, TRef.toBuf, cast_eq]
  exact Cert.Lib.allFin_broadcastInDim _ _ (rf_main_arg20 m ρ m' hpre hagree c)

theorem rf_main_v300 : Cert.Lib.AllFin (RV (Proc.devRef .tc Cert.ReferenceIdeal.main_v300)) := by
  rw [Cert.ReferenceIdeal.Tab.fin_main_v300 (F := Ideal) (StableHlo.launchContents m' c), unary_result]
  try simp only [TRef.ofBuf, TRef.toBuf, cast_eq]
  exact Cert.Lib.allFin_broadcastInDim _ _ (rf_main_v299 m ρ m' hpre hagree c)

theorem rf_main_v301 : Cert.Lib.AllFin (RV (Proc.devRef .tc Cert.ReferenceIdeal.main_v301)) := by
  rw [Cert.ReferenceIdeal.Tab.fin_main_v301 (F := Ideal) (StableHlo.launchContents m' c), binary_result]
  try simp only [TRef.ofBuf, TRef.toBuf, cast_eq]
  exact Cert.Lib.allFin_addf (rf_main_v298 m ρ m' hpre hagree c) (rf_main_v300 m ρ m' hpre hagree c)

theorem rf_main_v302 : Cert.Lib.AllFin (RV (Proc.devRef .tc Cert.ReferenceIdeal.main_v302)) := by
  rw [Cert.ReferenceIdeal.Tab.fin_main_v302 (F := Ideal) (StableHlo.launchContents m' c), binary_result]
  try simp only [TRef.ofBuf, TRef.toBuf, cast_eq]
  exact Cert.Lib.allFin_concatenate₂ _ _ (rf_main_v269 m ρ m' hpre hagree c) (rf_main_v301 m ρ m' hpre hagree c)

theorem rf_main_arg21 : Cert.Lib.AllFin (RV (Proc.devRef .tc Cert.ReferenceIdeal.main_arg21)) := by
  rw [← p_main_arg21_main_arg21 m ρ m' hpre hagree c, Cert.KernelIdeal.GenP.W55_main_arg21 (F := Ideal) m ρ c]
  exact Cert.PreFin.fin_arg21 m hpre c

theorem rf_main_v303 : Cert.Lib.AllFin (RV (Proc.devRef .tc Cert.ReferenceIdeal.main_v303)) := by
  rw [Cert.ReferenceIdeal.Tab.fin_main_v303 (F := Ideal) (StableHlo.launchContents m' c), binary_result]
  try simp only [TRef.ofBuf, TRef.toBuf, cast_eq]
  exact Cert.Lib.allFin_dotGeneral _ _ _ _ (rf_main_v302 m ρ m' hpre hagree c) (rf_main_arg21 m ρ m' hpre hagree c)

theorem rf_main_arg22 : Cert.Lib.AllFin (RV (Proc.devRef .tc Cert.ReferenceIdeal.main_arg22)) := by
  rw [← p_main_arg22_main_arg22 m ρ m' hpre hagree c, Cert.KernelIdeal.GenP.W55_main_arg22 (F := Ideal) m ρ c]
  exact Cert.PreFin.fin_arg22 m hpre c

theorem rf_main_v304 : Cert.Lib.AllFin (RV (Proc.devRef .tc Cert.ReferenceIdeal.main_v304)) := by
  rw [Cert.ReferenceIdeal.Tab.fin_main_v304 (F := Ideal) (StableHlo.launchContents m' c), unary_result]
  try simp only [TRef.ofBuf, TRef.toBuf, cast_eq]
  exact Cert.Lib.allFin_broadcastInDim _ _ (rf_main_arg22 m ρ m' hpre hagree c)

theorem rf_main_v305 : Cert.Lib.AllFin (RV (Proc.devRef .tc Cert.ReferenceIdeal.main_v305)) := by
  rw [Cert.ReferenceIdeal.Tab.fin_main_v305 (F := Ideal) (StableHlo.launchContents m' c), unary_result]
  try simp only [TRef.ofBuf, TRef.toBuf, cast_eq]
  exact Cert.Lib.allFin_broadcastInDim _ _ (rf_main_v304 m ρ m' hpre hagree c)

theorem rf_main_v306 : Cert.Lib.AllFin (RV (Proc.devRef .tc Cert.ReferenceIdeal.main_v306)) := by
  rw [Cert.ReferenceIdeal.Tab.fin_main_v306 (F := Ideal) (StableHlo.launchContents m' c), binary_result]
  try simp only [TRef.ofBuf, TRef.toBuf, cast_eq]
  exact Cert.Lib.allFin_addf (rf_main_v303 m ρ m' hpre hagree c) (rf_main_v305 m ρ m' hpre hagree c)

theorem rf_main_arg23 : Cert.Lib.AllFin (RV (Proc.devRef .tc Cert.ReferenceIdeal.main_arg23)) := by
  rw [← p_main_arg23_main_arg23 m ρ m' hpre hagree c, Cert.KernelIdeal.GenP.W55_main_arg23 (F := Ideal) m ρ c]
  exact Cert.PreFin.fin_arg23 m hpre c

theorem rf_main_arg24 : Cert.Lib.AllFin (RV (Proc.devRef .tc Cert.ReferenceIdeal.main_arg24)) := by
  rw [← p_main_arg24_main_arg24 m ρ m' hpre hagree c, Cert.KernelIdeal.GenP.W55_main_arg24 (F := Ideal) m ρ c]
  exact Cert.PreFin.fin_arg24 m hpre c

theorem rf_main_cst_46 : Cert.Lib.AllFin (RV (Proc.devRef .tc Cert.ReferenceIdeal.main_cst_46)) := by
  rw [Cert.ReferenceIdeal.Tab.fin_main_cst_46 (F := Ideal) (StableHlo.launchContents m' c), nullary_result]
  try simp only [TRef.ofBuf, TRef.toBuf, cast_eq]
  exact Cert.Lib.allFin_constant_zero _

theorem rf_main_v307 : Cert.Lib.AllFin (RV (Proc.devRef .tc Cert.ReferenceIdeal.main_v307)) := by
  rw [Cert.ReferenceIdeal.Tab.fin_main_v307 (F := Ideal) (StableHlo.launchContents m' c), binary_result]
  try simp only [TRef.ofBuf, TRef.toBuf, cast_eq]
  exact Cert.Lib.allFin_reduceAdd _ _ _ _ (rf_main_v306 m ρ m' hpre hagree c) (rf_main_cst_46 m ρ m' hpre hagree c)

theorem rf_main_v309 : Cert.Lib.AllFin (RV (Proc.devRef .tc Cert.ReferenceIdeal.main_v309)) := by
  rw [Cert.ReferenceIdeal.Tab.fin_main_v309 (F := Ideal) (StableHlo.launchContents m' c), binary_result]
  rw [Cert.ReferenceIdeal.Tab.fin_main_v308 (F := Ideal) (StableHlo.launchContents m' c), unary_result]
  rw [Cert.ReferenceIdeal.Tab.fin_main_cst_47 (F := Ideal) (StableHlo.launchContents m' c), nullary_result]
  try simp only [TRef.ofBuf, TRef.toBuf, cast_eq]
  exact Cert.Lib.allFin_divf_hundredThousand _ _ (rf_main_v307 m ρ m' hpre hagree c)

theorem rf_main_v319 : Cert.Lib.AllFin (RV (Proc.devRef .tc Cert.ReferenceIdeal.main_v319)) := by
  rw [Cert.ReferenceIdeal.Tab.fin_main_v319 (F := Ideal) (StableHlo.launchContents m' c), unary_result]
  rw [Cert.ReferenceIdeal.Tab.fin_main_v318 (F := Ideal) (StableHlo.launchContents m' c), binary_result]
  rw [Cert.ReferenceIdeal.Tab.fin_main_v317 (F := Ideal) (StableHlo.launchContents m' c), unary_result]
  rw [Cert.ReferenceIdeal.Tab.fin_main_cst_49 (F := Ideal) (StableHlo.launchContents m' c), nullary_result]
  rw [Cert.ReferenceIdeal.Tab.fin_main_v310 (F := Ideal) (StableHlo.launchContents m' c), ternary_result]
  rw [Cert.ReferenceIdeal.Tab.fin_main_call15_call0_v1 (F := Ideal) (StableHlo.launchContents m' c), unary_result]
  rw [Cert.ReferenceIdeal.Tab.fin_main_call15_call0_v0 (F := Ideal) (StableHlo.launchContents m' c), unary_result]
  rw [Cert.ReferenceIdeal.Tab.fin_main_call15_cst_4 (F := Ideal) (StableHlo.launchContents m' c), nullary_result]
  rw [Cert.ReferenceIdeal.Tab.fin_main_call15_v12 (F := Ideal) (StableHlo.launchContents m' c), binary_result]
  rw [Cert.ReferenceIdeal.Tab.fin_main_call15_cst_3 (F := Ideal) (StableHlo.launchContents m' c), nullary_result]
  rw [Cert.ReferenceIdeal.Tab.fin_main_call15_v11 (F := Ideal) (StableHlo.launchContents m' c), binary_result]
  rw [Cert.ReferenceIdeal.Tab.fin_main_call15_v10 (F := Ideal) (StableHlo.launchContents m' c), unary_result]
  rw [Cert.ReferenceIdeal.Tab.fin_main_call15_v9 (F := Ideal) (StableHlo.launchContents m' c), binary_result]
  rw [Cert.ReferenceIdeal.Tab.fin_main_call15_cst_2 (F := Ideal) (StableHlo.launchContents m' c), nullary_result]
  rw [Cert.ReferenceIdeal.Tab.fin_main_call15_v8 (F := Ideal) (StableHlo.launchContents m' c), binary_result]
  rw [Cert.ReferenceIdeal.Tab.fin_main_call15_cst_1 (F := Ideal) (StableHlo.launchContents m' c), nullary_result]
  rw [Cert.ReferenceIdeal.Tab.fin_main_call15_v7 (F := Ideal) (StableHlo.launchContents m' c), unary_result]
  rw [Cert.ReferenceIdeal.Tab.fin_main_call15_v6 (F := Ideal) (StableHlo.launchContents m' c), binary_result]
  rw [Cert.ReferenceIdeal.Tab.fin_main_call15_v5 (F := Ideal) (StableHlo.launchContents m' c), binary_result]
  rw [Cert.ReferenceIdeal.Tab.fin_main_call15_v4 (F := Ideal) (StableHlo.launchContents m' c), unary_result]
  rw [Cert.ReferenceIdeal.Tab.fin_main_call15_v3 (F := Ideal) (StableHlo.launchContents m' c), binary_result]
  rw [Cert.ReferenceIdeal.Tab.fin_main_call15_v2 (F := Ideal) (StableHlo.launchContents m' c), unary_result]
  rw [Cert.ReferenceIdeal.Tab.fin_main_call15_cst_0 (F := Ideal) (StableHlo.launchContents m' c), nullary_result]
  rw [Cert.ReferenceIdeal.Tab.fin_main_call15_v1 (F := Ideal) (StableHlo.launchContents m' c), unary_result]
  rw [Cert.ReferenceIdeal.Tab.fin_main_call15_v0 (F := Ideal) (StableHlo.launchContents m' c), binary_result]
  rw [Cert.ReferenceIdeal.Tab.fin_main_call15_cst (F := Ideal) (StableHlo.launchContents m' c), nullary_result]
  rw [Cert.ReferenceIdeal.Tab.fin_main_c_48 (F := Ideal) (StableHlo.launchContents m' c), nullary_result]
  try simp only [TRef.ofBuf, TRef.toBuf, cast_eq]
  exact Cert.Seam.rsqrt_var_fin128 _ _ _ _ _ _ _ _ _ (rf_main_v306 m ρ m' hpre hagree c)

theorem p_main_v274_main_v325 : KV (Proc.devRef .tc Cert.KernelIdeal.main_v274) = RV (Proc.devRef .tc Cert.ReferenceIdeal.main_v325) := by
  rw [Cert.KernelIdeal.Tab.fin_main_v274 (F := Ideal) m ρ c, binary_result]
  rw [Cert.KernelIdeal.Tab.fin_main_v273 (F := Ideal) m ρ c, unary_result]
  rw [Cert.KernelIdeal.Tab.fin_main_v272 (F := Ideal) m ρ c, unary_result]
  rw [Cert.KernelIdeal.Tab.fin_main_v271 (F := Ideal) m ρ c, binary_result]
  rw [Cert.KernelIdeal.Tab.fin_main_v270 (F := Ideal) m ρ c, unary_result]
  rw [Cert.KernelIdeal.Tab.fin_main_v269 (F := Ideal) m ρ c, unary_result]
  rw [Cert.KernelIdeal.Tab.fin_main_v268 (F := Ideal) m ρ c, binary_result]
  rw [Cert.KernelIdeal.Tab.fin_main_v267 (F := Ideal) m ρ c, binary_result]
  rw [Cert.KernelIdeal.Tab.fin_main_v266 (F := Ideal) m ρ c, binary_result]
  rw [Cert.ReferenceIdeal.Tab.fin_main_v325 (F := Ideal) (StableHlo.launchContents m' c), binary_result]
  rw [Cert.ReferenceIdeal.Tab.fin_main_v324 (F := Ideal) (StableHlo.launchContents m' c), unary_result]
  rw [Cert.ReferenceIdeal.Tab.fin_main_v323 (F := Ideal) (StableHlo.launchContents m' c), unary_result]
  rw [Cert.ReferenceIdeal.Tab.fin_main_v322 (F := Ideal) (StableHlo.launchContents m' c), binary_result]
  rw [Cert.ReferenceIdeal.Tab.fin_main_v321 (F := Ideal) (StableHlo.launchContents m' c), unary_result]
  rw [Cert.ReferenceIdeal.Tab.fin_main_v320 (F := Ideal) (StableHlo.launchContents m' c), unary_result]
  rw [Cert.ReferenceIdeal.Tab.fin_main_v316 (F := Ideal) (StableHlo.launchContents m' c), binary_result]
  rw [Cert.ReferenceIdeal.Tab.fin_main_v315 (F := Ideal) (StableHlo.launchContents m' c), unary_result]
  rw [Cert.ReferenceIdeal.Tab.fin_main_v314 (F := Ideal) (StableHlo.launchContents m' c), unary_result]
  rw [Cert.ReferenceIdeal.Tab.fin_main_v313 (F := Ideal) (StableHlo.launchContents m' c), binary_result]
  rw [Cert.ReferenceIdeal.Tab.fin_main_v312 (F := Ideal) (StableHlo.launchContents m' c), unary_result]
  rw [Cert.ReferenceIdeal.Tab.fin_main_v311 (F := Ideal) (StableHlo.launchContents m' c), unary_result]
  rw [p_main_v258_main_v306 m ρ m' hpre hagree c, p_main_arg23_main_arg23 m ρ m' hpre hagree c, p_main_arg24_main_arg24 m ρ m' hpre hagree c, p_main_v261_main_v309 m ρ m' hpre hagree c, p_main_v265_main_v319 m ρ m' hpre hagree c]
  try simp only [TRef.ofBuf, TRef.toBuf, cast_eq]
  exact Cert.Seam.bn_affine_128 _ _ _ _ _ _ _ (rf_main_v306 m ρ m' hpre hagree c) (rf_main_arg23 m ρ m' hpre hagree c) (rf_main_arg24 m ρ m' hpre hagree c) (rf_main_v309 m ρ m' hpre hagree c) (rf_main_v319 m ρ m' hpre hagree c)

theorem p_main_cst_50_main_cst_50 : KV (Proc.devRef .tc Cert.KernelIdeal.main_cst_50) = RV (Proc.devRef .tc Cert.ReferenceIdeal.main_cst_50) := by
  rw [Cert.KernelIdeal.Tab.fin_main_cst_50 (F := Ideal) m ρ c, Cert.ReferenceIdeal.Tab.fin_main_cst_50 (F := Ideal) (StableHlo.launchContents m' c)]
  rw [nullary_result, nullary_result]
  try simp only [TRef.ofBuf, TRef.toBuf, cast_eq]
  all_goals rfl

theorem p_main_v275_main_v326 : KV (Proc.devRef .tc Cert.KernelIdeal.main_v275) = RV (Proc.devRef .tc Cert.ReferenceIdeal.main_v326) := by
  rw [Cert.KernelIdeal.Tab.fin_main_v275 (F := Ideal) m ρ c, Cert.ReferenceIdeal.Tab.fin_main_v326 (F := Ideal) (StableHlo.launchContents m' c)]
  rw [unary_result, unary_result]
  rw [p_main_cst_50_main_cst_50 m ρ m' hpre hagree c]
  try simp only [TRef.ofBuf, TRef.toBuf, cast_eq]
  all_goals rfl

theorem p_main_v276_main_v327 : KV (Proc.devRef .tc Cert.KernelIdeal.main_v276) = RV (Proc.devRef .tc Cert.ReferenceIdeal.main_v327) := by
  rw [Cert.KernelIdeal.Tab.fin_main_v276 (F := Ideal) m ρ c, Cert.ReferenceIdeal.Tab.fin_main_v327 (F := Ideal) (StableHlo.launchContents m' c)]
  rw [binary_result, binary_result]
  rw [p_main_v274_main_v325 m ρ m' hpre hagree c, p_main_v275_main_v326 m ρ m' hpre hagree c]
  try simp only [TRef.ofBuf, TRef.toBuf, cast_eq]
  all_goals rfl

theorem p_main_cst_51_main_cst_51 : KV (Proc.devRef .tc Cert.KernelIdeal.main_cst_51) = RV (Proc.devRef .tc Cert.ReferenceIdeal.main_cst_51) := by
  rw [Cert.KernelIdeal.Tab.fin_main_cst_51 (F := Ideal) m ρ c, Cert.ReferenceIdeal.Tab.fin_main_cst_51 (F := Ideal) (StableHlo.launchContents m' c)]
  rw [nullary_result, nullary_result]
  try simp only [TRef.ofBuf, TRef.toBuf, cast_eq]
  all_goals rfl

theorem p_main_v277_main_v328 : KV (Proc.devRef .tc Cert.KernelIdeal.main_v277) = RV (Proc.devRef .tc Cert.ReferenceIdeal.main_v328) := by
  rw [Cert.KernelIdeal.Tab.fin_main_v277 (F := Ideal) m ρ c, Cert.ReferenceIdeal.Tab.fin_main_v328 (F := Ideal) (StableHlo.launchContents m' c)]
  rw [unary_result, unary_result]
  rw [p_main_cst_51_main_cst_51 m ρ m' hpre hagree c]
  try simp only [TRef.ofBuf, TRef.toBuf, cast_eq]
  all_goals rfl

theorem p_main_v278_main_v329 : KV (Proc.devRef .tc Cert.KernelIdeal.main_v278) = RV (Proc.devRef .tc Cert.ReferenceIdeal.main_v329) := by
  rw [Cert.KernelIdeal.Tab.fin_main_v278 (F := Ideal) m ρ c, Cert.ReferenceIdeal.Tab.fin_main_v329 (F := Ideal) (StableHlo.launchContents m' c)]
  rw [binary_result, binary_result]
  rw [p_main_v277_main_v328 m ρ m' hpre hagree c, p_main_v274_main_v325 m ρ m' hpre hagree c]
  try simp only [TRef.ofBuf, TRef.toBuf, cast_eq]
  all_goals rfl

theorem p_main_v279_main_v330 : KV (Proc.devRef .tc Cert.KernelIdeal.main_v279) = RV (Proc.devRef .tc Cert.ReferenceIdeal.main_v330) := by
  rw [Cert.KernelIdeal.Tab.fin_main_v279 (F := Ideal) m ρ c, Cert.ReferenceIdeal.Tab.fin_main_v330 (F := Ideal) (StableHlo.launchContents m' c)]
  rw [ternary_result, ternary_result]
  rw [p_main_v276_main_v327 m ρ m' hpre hagree c, p_main_v274_main_v325 m ρ m' hpre hagree c, p_main_v278_main_v329 m ρ m' hpre hagree c]
  try simp only [TRef.ofBuf, TRef.toBuf, cast_eq]
  all_goals rfl

theorem p_main_arg25_main_arg25 : KV (Proc.devRef .tc Cert.KernelIdeal.main_arg25) = RV (Proc.devRef .tc Cert.ReferenceIdeal.main_arg25) :=
  (Cert.KernelIdeal.GenP.W55_main_arg25 (F := Ideal) m ρ c).trans ((eq_of_heq (hagree.a25 c)).symm.trans (Cert.ReferenceIdeal.Tab.lift0 (F := Ideal) (StableHlo.launchContents m' c) Cert.ReferenceIdeal.main_arg25 (by decide)).symm)

theorem p_main_arg26_main_arg26 : KV (Proc.devRef .tc Cert.KernelIdeal.main_arg26) = RV (Proc.devRef .tc Cert.ReferenceIdeal.main_arg26) :=
  (Cert.KernelIdeal.GenP.W55_main_arg26 (F := Ideal) m ρ c).trans ((eq_of_heq (hagree.a26 c)).symm.trans (Cert.ReferenceIdeal.Tab.lift0 (F := Ideal) (StableHlo.launchContents m' c) Cert.ReferenceIdeal.main_arg26 (by decide)).symm)

theorem p_main_v280_main_v332 : KV (Proc.devRef .tc Cert.KernelIdeal.main_v280) = RV (Proc.devRef .tc Cert.ReferenceIdeal.main_v332) := by
  rw [Cert.KernelIdeal.Tab.fin_main_v280 (F := Ideal) m ρ c, Cert.ReferenceIdeal.Tab.fin_main_v332 (F := Ideal) (StableHlo.launchContents m' c)]
  rw [reshape_result, unary_result]
  rw [p_main_arg26_main_arg26 m ρ m' hpre hagree c]
  exact Cert.SeamRow.row1 _ _ _

theorem p_main_v281_main_v334 : KV (Proc.devRef .tc Cert.KernelIdeal.main_v281) = RV (Proc.devRef .tc Cert.ReferenceIdeal.main_v334) := by
  have e0 : Cert.KernelIdeal.GenP.V53 (F := Ideal) m ρ c Cert.KernelIdeal.main_v279 = RV (Proc.devRef .tc Cert.ReferenceIdeal.main_v330) :=
    (Cert.KernelIdeal.Tab.lift53 (F := Ideal) m ρ c Cert.KernelIdeal.main_v279 (by decide)).symm.trans (p_main_v279_main_v330 m ρ m' hpre hagree c)
  have e1 : Cert.KernelIdeal.GenP.V53 (F := Ideal) m ρ c Cert.KernelIdeal.main_arg25 = RV (Proc.devRef .tc Cert.ReferenceIdeal.main_arg25) :=
    (Cert.KernelIdeal.Tab.lift53 (F := Ideal) m ρ c Cert.KernelIdeal.main_arg25 (by decide)).symm.trans (p_main_arg25_main_arg25 m ρ m' hpre hagree c)
  have e2 : Cert.KernelIdeal.GenP.V53 (F := Ideal) m ρ c Cert.KernelIdeal.main_v280 = RV (Proc.devRef .tc Cert.ReferenceIdeal.main_v332) :=
    (Cert.KernelIdeal.Tab.lift53 (F := Ideal) m ρ c Cert.KernelIdeal.main_v280 (by decide)).symm.trans (p_main_v280_main_v332 m ρ m' hpre hagree c)
  rw [Cert.KernelIdeal.Tab.lift54 (F := Ideal) m ρ c Cert.KernelIdeal.main_v281 (by decide)]
  refine ((Cert.KernelIdeal.GenP.W54_arr (F := Ideal) m ρ c 3).trans (Cert.KernelIdeal.RegionVal.region12_value (Cert.KernelIdeal.GenP.V53 (F := Ideal) m ρ) c Cert.ReferenceIdeal.Facts₀.bcast_S1x1_S100000x1_0_1)).trans ?_
  rw [Cert.ReferenceIdeal.Tab.fin_main_v334 (F := Ideal) (StableHlo.launchContents m' c), binary_result]
  rw [Cert.ReferenceIdeal.Tab.fin_main_v333 (F := Ideal) (StableHlo.launchContents m' c), unary_result]
  rw [Cert.ReferenceIdeal.Tab.fin_main_v331 (F := Ideal) (StableHlo.launchContents m' c), binary_result]
  rw [e0, e1, e2]
  try simp only [TRef.ofBuf, TRef.toBuf, cast_eq]
  all_goals rfl

theorem p_main_v282_main_v335 : KV (Proc.devRef .tc Cert.KernelIdeal.main_v282) = RV (Proc.devRef .tc Cert.ReferenceIdeal.main_v335) := by
  rw [Cert.KernelIdeal.Tab.fin_main_v282 (F := Ideal) m ρ c, Cert.ReferenceIdeal.Tab.fin_main_v335 (F := Ideal) (StableHlo.launchContents m' c)]
  rw [reshape_result, reshape_result]
  rw [p_main_v281_main_v334 m ρ m' hpre hagree c]
  try simp only [TRef.ofBuf, TRef.toBuf, cast_eq]
  all_goals rfl

end Cert.Pair

end
-- ==== Proof.lean ====
/- The certificate of the three-layer edge-conditioned graph network (gather, fused edge message, scatter-sum, two dense layers with
   batch normalisation per layer, a molecular-feature branch and a final head) against its plain jnp reference.

   Frames. The two kernel programs' frames are the generated frame certificates (each of the 13 pallas_calls is read whole by the
   symbolic executor). The reference is a straight line of 543 host operations; its run is read back stretch by stretch, and its
   frame is that run with the result dropped.

   The value claim, at the ideal instance (floats are extended reals, operations exact). Both programs are straight-line
   computations over single-assignment buffers, so each buffer's final contents are its operation's function of its operands'
   final contents. Walking the two programs side by side, every buffer of the kernel program is paired with a buffer of the
   reference holding the same array:
     * the gathers, the scatter-sums, the column means and variances, the leaky-ReLU selects and the concatenation are the
       same host operations on both sides, so equal operands give equal results;
     * a pallas_call's output array is, block by block, max((x_src + e·W) + b, 0) (edge message) or h·W + b (dense layer), which
       is what the reference's dot_general, broadcast, add (and maximum) compute on the same operands;
     * the kernel folds batch normalisation into a per-feature affine map A·z + B with A = g·r, B = b − mean·A, r = rsqrt(var + ε),
       where the reference computes ((g·(z − mean))·r) + b. These agree by distributivity in ℝ, which needs every quantity to be a
       real number: so along the reference's chain every float buffer is shown to hold reals only — sums, products, maxima and
       selections of reals are reals, a gather's and a broadcast's entries are entries of their operand, the variance is a sum of
       squares over 100000 rows divided by 100000, hence ≥ 0, so var + ε > 0 and its reciprocal square root is a positive real —
       starting from the precondition that every float input is finite.
   The last pair is the two results. -/
import proofs.«409037_j72164040508123_1_alg».proof.Defs
import proofs.«409037_j72164040508123_1_alg».proof.Proof.Gen.Kernel
import proofs.«409037_j72164040508123_1_alg».proof.Proof.Gen.KernelIdeal
import proofs.«409037_j72164040508123_1_alg».proof.Proof.Gen.ReferenceIdeal
import proofs.«409037_j72164040508123_1_alg».proof.Proof.Gen.Pre_finite_inputs
import proofs.«409037_j72164040508123_1_alg».proof.Proof.FrameKernel
import proofs.«409037_j72164040508123_1_alg».proof.Proof.RunKernel
import proofs.«409037_j72164040508123_1_alg».proof.Proof.RunRef
import proofs.«409037_j72164040508123_1_alg».proof.Proof.Pair3
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The word-level kernel program runs and leaves its arguments as launched. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference runs: its straight line of host operations, read back; no operation writes an argument. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.Tab.lift0 (F := Ideal) (StableHlo.launchContents m c) Cert.ReferenceIdeal.main_arg0 (by decide)),
      (h c Cert.ReferenceIdeal.main_arg1).trans (Cert.ReferenceIdeal.Tab.lift0 (F := Ideal) (StableHlo.launchContents m c) Cert.ReferenceIdeal.main_arg1 (by decide)),
      (h c Cert.ReferenceIdeal.main_arg2).trans (Cert.ReferenceIdeal.Tab.lift0 (F := Ideal) (StableHlo.launchContents m c) Cert.ReferenceIdeal.main_arg2 (by decide)),
      (h c Cert.ReferenceIdeal.main_arg3).trans (Cert.ReferenceIdeal.Tab.lift0 (F := Ideal) (StableHlo.launchContents m c) Cert.ReferenceIdeal.main_arg3 (by decide)),
      (h c Cert.ReferenceIdeal.main_arg4).trans (Cert.ReferenceIdeal.Tab.lift0 (F := Ideal) (StableHlo.launchContents m c) Cert.ReferenceIdeal.main_arg4 (by decide)),
      (h c Cert.ReferenceIdeal.main_arg5).trans (Cert.ReferenceIdeal.Tab.lift0 (F := Ideal) (StableHlo.launchContents m c) Cert.ReferenceIdeal.main_arg5 (by decide)),
      (h c Cert.ReferenceIdeal.main_arg6).trans (Cert.ReferenceIdeal.Tab.lift0 (F := Ideal) (StableHlo.launchContents m c) Cert.ReferenceIdeal.main_arg6 (by decide)),
      (h c Cert.ReferenceIdeal.main_arg7).trans (Cert.ReferenceIdeal.Tab.lift0 (F := Ideal) (StableHlo.launchContents m c) Cert.ReferenceIdeal.main_arg7 (by decide)),
      (h c Cert.ReferenceIdeal.main_arg8).trans (Cert.ReferenceIdeal.Tab.lift0 (F := Ideal) (StableHlo.launchContents m c) Cert.ReferenceIdeal.main_arg8 (by decide)),
      (h c Cert.ReferenceIdeal.main_arg9).trans (Cert.ReferenceIdeal.Tab.lift0 (F := Ideal) (StableHlo.launchContents m c) Cert.ReferenceIdeal.main_arg9 (by decide)),
      (h c Cert.ReferenceIdeal.main_arg10).trans (Cert.ReferenceIdeal.Tab.lift0 (F := Ideal) (StableHlo.launchContents m c) Cert.ReferenceIdeal.main_arg10 (by decide)),
      (h c Cert.ReferenceIdeal.main_arg11).trans (Cert.ReferenceIdeal.Tab.lift0 (F := Ideal) (StableHlo.launchContents m c) Cert.ReferenceIdeal.main_arg11 (by decide)),
      (h c Cert.ReferenceIdeal.main_arg12).trans (Cert.ReferenceIdeal.Tab.lift0 (F := Ideal) (StableHlo.launchContents m c) Cert.ReferenceIdeal.main_arg12 (by decide)),
      (h c Cert.ReferenceIdeal.main_arg13).trans (Cert.ReferenceIdeal.Tab.lift0 (F := Ideal) (StableHlo.launchContents m c) Cert.ReferenceIdeal.main_arg13 (by decide)),
      (h c Cert.ReferenceIdeal.main_arg14).trans (Cert.ReferenceIdeal.Tab.lift0 (F := Ideal) (StableHlo.launchContents m c) Cert.ReferenceIdeal.main_arg14 (by decide)),
      (h c Cert.ReferenceIdeal.main_arg15).trans (Cert.ReferenceIdeal.Tab.lift0 (F := Ideal) (StableHlo.launchContents m c) Cert.ReferenceIdeal.main_arg15 (by decide)),
      (h c Cert.ReferenceIdeal.main_arg16).trans (Cert.ReferenceIdeal.Tab.lift0 (F := Ideal) (StableHlo.launchContents m c) Cert.ReferenceIdeal.main_arg16 (by decide)),
      (h c Cert.ReferenceIdeal.main_arg17).trans (Cert.ReferenceIdeal.Tab.lift0 (F := Ideal) (StableHlo.launchContents m c) Cert.ReferenceIdeal.main_arg17 (by decide)),
      (h c Cert.ReferenceIdeal.main_arg18).trans (Cert.ReferenceIdeal.Tab.lift0 (F := Ideal) (StableHlo.launchContents m c) Cert.ReferenceIdeal.main_arg18 (by decide)),
      (h c Cert.ReferenceIdeal.main_arg19).trans (Cert.ReferenceIdeal.Tab.lift0 (F := Ideal) (StableHlo.launchContents m c) Cert.ReferenceIdeal.main_arg19 (by decide)),
      (h c Cert.ReferenceIdeal.main_arg20).trans (Cert.ReferenceIdeal.Tab.lift0 (F := Ideal) (StableHlo.launchContents m c) Cert.ReferenceIdeal.main_arg20 (by decide)),
      (h c Cert.ReferenceIdeal.main_arg21).trans (Cert.ReferenceIdeal.Tab.lift0 (F := Ideal) (StableHlo.launchContents m c) Cert.ReferenceIdeal.main_arg21 (by decide)),
      (h c Cert.ReferenceIdeal.main_arg22).trans (Cert.ReferenceIdeal.Tab.lift0 (F := Ideal) (StableHlo.launchContents m c) Cert.ReferenceIdeal.main_arg22 (by decide)),
      (h c Cert.ReferenceIdeal.main_arg23).trans (Cert.ReferenceIdeal.Tab.lift0 (F := Ideal) (StableHlo.launchContents m c) Cert.ReferenceIdeal.main_arg23 (by decide)),
      (h c Cert.ReferenceIdeal.main_arg24).trans (Cert.ReferenceIdeal.Tab.lift0 (F := Ideal) (StableHlo.launchContents m c) Cert.ReferenceIdeal.main_arg24 (by decide)),
      (h c Cert.ReferenceIdeal.main_arg25).trans (Cert.ReferenceIdeal.Tab.lift0 (F := Ideal) (StableHlo.launchContents m c) Cert.ReferenceIdeal.main_arg25 (by decide)),
      (h c Cert.ReferenceIdeal.main_arg26).trans (Cert.ReferenceIdeal.Tab.lift0 (F := Ideal) (StableHlo.launchContents m c) Cert.ReferenceIdeal.main_arg26 (by decide))⟩)
    (Cert.ReferenceIdeal.RefRun.run_main (F := Ideal) m ρ)

/-- From launch memories that agree on the arguments, finite on the floats, the two idealized programs end with the same result array:
    the kernel program's result buffer at its last boundary's contents, the reference's at its final contents, and the two are
    the last pair of the table. -/
theorem algebraic : Cert.algebraic_KernelIdeal_ReferenceIdeal := by
  intro m ρ m' ρ' hpre hagree
  have hA : Cert.Pair.Agree m m' :=
    ⟨fun c => heq_of_eq (hagree c).1,
      fun c => heq_of_eq (hagree c).2.1,
      fun c => heq_of_eq (hagree c).2.2.1,
      fun c => heq_of_eq (hagree c).2.2.2.1,
      fun c => heq_of_eq (hagree c).2.2.2.2.1,
      fun c => heq_of_eq (hagree c).2.2.2.2.2.1,
      fun c => heq_of_eq (hagree c).2.2.2.2.2.2.1,
      fun c => heq_of_eq (hagree c).2.2.2.2.2.2.2.1,
      fun c => heq_of_eq (hagree c).2.2.2.2.2.2.2.2.1,
      fun c => heq_of_eq (hagree c).2.2.2.2.2.2.2.2.2.1,
      fun c => heq_of_eq (hagree c).2.2.2.2.2.2.2.2.2.2.1,
      fun c => heq_of_eq (hagree c).2.2.2.2.2.2.2.2.2.2.2.1,
      fun c => heq_of_eq (hagree c).2.2.2.2.2.2.2.2.2.2.2.2.1,
      fun c => heq_of_eq (hagree c).2.2.2.2.2.2.2.2.2.2.2.2.2.1,
      fun c => heq_of_eq (hagree c).2.2.2.2.2.2.2.2.2.2.2.2.2.2.1,
      fun c => heq_of_eq (hagree c).2.2.2.2.2.2.2.2.2.2.2.2.2.2.2.1,
      fun c => heq_of_eq (hagree c).2.2.2.2.2.2.2.2.2.2.2.2.2.2.2.2.1,
      fun c => heq_of_eq (hagree c).2.2.2.2.2.2.2.2.2.2.2.2.2.2.2.2.2.1,
      fun c => heq_of_eq (hagree c).2.2.2.2.2.2.2.2.2.2.2.2.2.2.2.2.2.2.1,
      fun c => heq_of_eq (hagree c).2.2.2.2.2.2.2.2.2.2.2.2.2.2.2.2.2.2.2.1,
      fun c => heq_of_eq (hagree c).2.2.2.2.2.2.2.2.2.2.2.2.2.2.2.2.2.2.2.2.1,
      fun c => heq_of_eq (hagree c).2.2.2.2.2.2.2.2.2.2.2.2.2.2.2.2.2.2.2.2.2.1,
      fun c => heq_of_eq (hagree c).2.2.2.2.2.2.2.2.2.2.2.2.2.2.2.2.2.2.2.2.2.2.1,
      fun c => heq_of_eq (hagree c).2.2.2.2.2.2.2.2.2.2.2.2.2.2.2.2.2.2.2.2.2.2.2.1,
      fun c => heq_of_eq (hagree c).2.2.2.2.2.2.2.2.2.2.2.2.2.2.2.2.2.2.2.2.2.2.2.2.1,
      fun c => heq_of_eq (hagree c).2.2.2.2.2.2.2.2.2.2.2.2.2.2.2.2.2.2.2.2.2.2.2.2.2.1,
      fun c => heq_of_eq (hagree c).2.2.2.2.2.2.2.2.2.2.2.2.2.2.2.2.2.2.2.2.2.2.2.2.2.2⟩
  refine ⟨fun c => Cert.KernelIdeal.GenP.W55 (F := Ideal) m ρ c (Proc.devRef .tc Cert.KernelIdeal.main_v282),
    Cert.KernelIdeal.GenP.run_value (F := Ideal) m ρ, ?_⟩
  exact (θ_run Cert.ReferenceIdeal.defs _ _).mono (fun r h c =>
    ⟨(h c Cert.ReferenceIdeal.main_v335).trans (Cert.Pair.p_main_v282_main_v335 m ρ m' hpre hA c).symm,
      (h c Cert.ReferenceIdeal.main_arg0).trans (Cert.ReferenceIdeal.Tab.lift0 (F := Ideal) (StableHlo.launchContents m' c) Cert.ReferenceIdeal.main_arg0 (by decide)),
      (h c Cert.ReferenceIdeal.main_arg1).trans (Cert.ReferenceIdeal.Tab.lift0 (F := Ideal) (StableHlo.launchContents m' c) Cert.ReferenceIdeal.main_arg1 (by decide)),
      (h c Cert.ReferenceIdeal.main_arg2).trans (Cert.ReferenceIdeal.Tab.lift0 (F := Ideal) (StableHlo.launchContents m' c) Cert.ReferenceIdeal.main_arg2 (by decide)),
      (h c Cert.ReferenceIdeal.main_arg3).trans (Cert.ReferenceIdeal.Tab.lift0 (F := Ideal) (StableHlo.launchContents m' c) Cert.ReferenceIdeal.main_arg3 (by decide)),
      (h c Cert.ReferenceIdeal.main_arg4).trans (Cert.ReferenceIdeal.Tab.lift0 (F := Ideal) (StableHlo.launchContents m' c) Cert.ReferenceIdeal.main_arg4 (by decide)),
      (h c Cert.ReferenceIdeal.main_arg5).trans (Cert.ReferenceIdeal.Tab.lift0 (F := Ideal) (StableHlo.launchContents m' c) Cert.ReferenceIdeal.main_arg5 (by decide)),
      (h c Cert.ReferenceIdeal.main_arg6).trans (Cert.ReferenceIdeal.Tab.lift0 (F := Ideal) (StableHlo.launchContents m' c) Cert.ReferenceIdeal.main_arg6 (by decide)),
      (h c Cert.ReferenceIdeal.main_arg7).trans (Cert.ReferenceIdeal.Tab.lift0 (F := Ideal) (StableHlo.launchContents m' c) Cert.ReferenceIdeal.main_arg7 (by decide)),
      (h c Cert.ReferenceIdeal.main_arg8).trans (Cert.ReferenceIdeal.Tab.lift0 (F := Ideal) (StableHlo.launchContents m' c) Cert.ReferenceIdeal.main_arg8 (by decide)),
      (h c Cert.ReferenceIdeal.main_arg9).trans (Cert.ReferenceIdeal.Tab.lift0 (F := Ideal) (StableHlo.launchContents m' c) Cert.ReferenceIdeal.main_arg9 (by decide)),
      (h c Cert.ReferenceIdeal.main_arg10).trans (Cert.ReferenceIdeal.Tab.lift0 (F := Ideal) (StableHlo.launchContents m' c) Cert.ReferenceIdeal.main_arg10 (by decide)),
      (h c Cert.ReferenceIdeal.main_arg11).trans (Cert.ReferenceIdeal.Tab.lift0 (F := Ideal) (StableHlo.launchContents m' c) Cert.ReferenceIdeal.main_arg11 (by decide)),
      (h c Cert.ReferenceIdeal.main_arg12).trans (Cert.ReferenceIdeal.Tab.lift0 (F := Ideal) (StableHlo.launchContents m' c) Cert.ReferenceIdeal.main_arg12 (by decide)),
      (h c Cert.ReferenceIdeal.main_arg13).trans (Cert.ReferenceIdeal.Tab.lift0 (F := Ideal) (StableHlo.launchContents m' c) Cert.ReferenceIdeal.main_arg13 (by decide)),
      (h c Cert.ReferenceIdeal.main_arg14).trans (Cert.ReferenceIdeal.Tab.lift0 (F := Ideal) (StableHlo.launchContents m' c) Cert.ReferenceIdeal.main_arg14 (by decide)),
      (h c Cert.ReferenceIdeal.main_arg15).trans (Cert.ReferenceIdeal.Tab.lift0 (F := Ideal) (StableHlo.launchContents m' c) Cert.ReferenceIdeal.main_arg15 (by decide)),
      (h c Cert.ReferenceIdeal.main_arg16).trans (Cert.ReferenceIdeal.Tab.lift0 (F := Ideal) (StableHlo.launchContents m' c) Cert.ReferenceIdeal.main_arg16 (by decide)),
      (h c Cert.ReferenceIdeal.main_arg17).trans (Cert.ReferenceIdeal.Tab.lift0 (F := Ideal) (StableHlo.launchContents m' c) Cert.ReferenceIdeal.main_arg17 (by decide)),
      (h c Cert.ReferenceIdeal.main_arg18).trans (Cert.ReferenceIdeal.Tab.lift0 (F := Ideal) (StableHlo.launchContents m' c) Cert.ReferenceIdeal.main_arg18 (by decide)),
      (h c Cert.ReferenceIdeal.main_arg19).trans (Cert.ReferenceIdeal.Tab.lift0 (F := Ideal) (StableHlo.launchContents m' c) Cert.ReferenceIdeal.main_arg19 (by decide)),
      (h c Cert.ReferenceIdeal.main_arg20).trans (Cert.ReferenceIdeal.Tab.lift0 (F := Ideal) (StableHlo.launchContents m' c) Cert.ReferenceIdeal.main_arg20 (by decide)),
      (h c Cert.ReferenceIdeal.main_arg21).trans (Cert.ReferenceIdeal.Tab.lift0 (F := Ideal) (StableHlo.launchContents m' c) Cert.ReferenceIdeal.main_arg21 (by decide)),
      (h c Cert.ReferenceIdeal.main_arg22).trans (Cert.ReferenceIdeal.Tab.lift0 (F := Ideal) (StableHlo.launchContents m' c) Cert.ReferenceIdeal.main_arg22 (by decide)),
      (h c Cert.ReferenceIdeal.main_arg23).trans (Cert.ReferenceIdeal.Tab.lift0 (F := Ideal) (StableHlo.launchContents m' c) Cert.ReferenceIdeal.main_arg23 (by decide)),
      (h c Cert.ReferenceIdeal.main_arg24).trans (Cert.ReferenceIdeal.Tab.lift0 (F := Ideal) (StableHlo.launchContents m' c) Cert.ReferenceIdeal.main_arg24 (by decide)),
      (h c Cert.ReferenceIdeal.main_arg25).trans (Cert.ReferenceIdeal.Tab.lift0 (F := Ideal) (StableHlo.launchContents m' c) Cert.ReferenceIdeal.main_arg25 (by decide)),
      (h c Cert.ReferenceIdeal.main_arg26).trans (Cert.ReferenceIdeal.Tab.lift0 (F := Ideal) (StableHlo.launchContents m' c) Cert.ReferenceIdeal.main_arg26 (by decide))⟩)
    (Cert.ReferenceIdeal.RefRun.run_main (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
